-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x625000 : Shape := ⟨2, ![2, 625000]⟩
abbrev S625000 : Shape := ⟨1, ![625000]⟩
abbrev S1000x128 : Shape := ⟨2, ![1000, 128]⟩
abbrev S128x128 : Shape := ⟨2, ![128, 128]⟩
abbrev S3x128x128 : Shape := ⟨3, ![3, 128, 128]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S1x625000 : Shape := ⟨2, ![1, 625000]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  reducesTo_S625000_S_d0 : S625000.ReducesTo [0] S_

variable [Facts]

def fn_part3 {F : FTy → Type} [FloatOps F] (main_arg1 : IVec S2x625000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : IVec S1x625000 32 := (extractStridedSlice S1x625000 ![0, 0] · slices_S2x625000_S1x625000_0_0) main_arg1
  let main_v55 : IVec S625000 32 := shapeCast S625000 main_v54 shapeCasts_S1x625000_S625000
  let main_c_20 : IVec S_ 32 := constantI S_ 32 0#32
  let main_v56 : IVec S625000 32 := broadcastInDim S625000 ![] bcast_S_S625000 main_c_20
  let main_v57 : IVec S625000 1 := cmpi .sge main_v55 main_v56
  let main_v58 : IVec S1x625000 32 := (extractStridedSlice S1x625000 ![0, 0] · slices_S2x625000_S1x625000_0_0) main_arg1
  let main_v59 : IVec S625000 32 := shapeCast S625000 main_v58 shapeCasts_S1x625000_S625000
  let main_c_21 : IVec S_ 32 := constantI S_ 32 100000#32
  let main_v60 : IVec S625000 32 := broadcastInDim S625000 ![] bcast_S_S625000 main_c_21
  let main_v61 : IVec S625000 1 := cmpi .slt main_v59 main_v60
  let main_v62 : IVec S625000 1 := andi main_v57 main_v61
  let main_c_22 : IVec S_ 1 := constantI S_ 1 1#1
  let main_v63 : IVec S_ 1 := (fun x v => Host.reduce IntOp.andi x v reducesTo_S625000_S_d0 h_S_) main_v62 main_c_22
  let main_v64 : IVec S_ 1 := andi main_v53 main_v63
  main_v64

def fn_part2 {F : FTy → Type} [FloatOps F] (main_arg1 : IVec S2x625000 32) (main_arg10 : FVec F S128x64 .f32) (main_arg11 : FVec F S64 .f32) (main_arg12 : FVec F S64x32 .f32) (main_arg13 : FVec F S32 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg12
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg1 main_v48 main_v49 main_v50

def fn_part1 {F : FTy → Type} [FloatOps F] (main_arg1 : IVec S2x625000 32) (main_arg7 : FVec F S4x128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg10 main_arg11 main_arg12 main_arg13 main_v33

def fn {F : FTy → Type} [FloatOps F] (main_arg0 : IVec S100000 32) (main_arg1 : IVec S2x625000 32) (main_arg2 : IVec S625000 32) (main_arg3 : FVec F S1000x128 .f32) (main_arg4 : FVec F S128x128 .f32) (main_arg5 : FVec F S3x128x128 .f32) (main_arg6 : FVec F S4x128x128 .f32) (main_arg7 : FVec F S4x128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) : IVec S_ 1 :=
  let main_v0 : FVec F S1000x128 .f32 := Host.absf main_arg3
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S3x128x128 .f32 := Host.absf main_arg5
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S4x128x128 .f32 := Host.absf main_arg6
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg7 main_arg8 main_arg9 main_arg10 main_arg11 main_arg12 main_arg13 main_v13 main_v16
-- ==== Kernel.lean ====
abbrev S100000 : Shape := ⟨1, ![100000]⟩
abbrev S2x625000 : Shape := ⟨2, ![2, 625000]⟩
abbrev S625000 : Shape := ⟨1, ![625000]⟩
abbrev S1000x128 : Shape := ⟨2, ![1000, 128]⟩
abbrev S128x128 : Shape := ⟨2, ![128, 128]⟩
abbrev S3x128x128 : Shape := ⟨3, ![3, 128, 128]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x128 : Shape := ⟨2, ![100000, 128]⟩
abbrev S1x625000 : Shape := ⟨2, ![1, 625000]⟩
abbrev S625000x1 : Shape := ⟨2, ![625000, 1]⟩
abbrev S4760 : Shape := ⟨1, ![4760]⟩
abbrev S629760 : Shape := ⟨1, ![629760]⟩
abbrev S629760x1 : Shape := ⟨2, ![629760, 1]⟩
abbrev S123x5120 : Shape := ⟨2, ![123, 5120]⟩
abbrev S123 : Shape := ⟨1, ![123]⟩
abbrev S50 : Shape := ⟨1, ![50]⟩
abbrev S1x123 : Shape := ⟨2, ![1, 123]⟩
abbrev S50x1 : Shape := ⟨2, ![50, 1]⟩
abbrev S50x123 : Shape := ⟨2, ![50, 123]⟩
abbrev S1x629760 : Shape := ⟨2, ![1, 629760]⟩
abbrev S64x128 : Shape := ⟨2, ![64, 128]⟩
abbrev S1x128 : Shape := ⟨2, ![1, 128]⟩
abbrev S2000x128 : Shape := ⟨2, ![2000, 128]⟩
abbrev S629760x128 : Shape := ⟨2, ![629760, 128]⟩
abbrev S1x5120 : Shape := ⟨2, ![1, 5120]⟩
abbrev S800x128 : Shape := ⟨2, ![800, 128]⟩
abbrev S1 : Shape := ⟨1, ![1]⟩
abbrev S5120x1 : Shape := ⟨2, ![5120, 1]⟩
abbrev S5120x128 : Shape := ⟨2, ![5120, 128]⟩
abbrev S800x1 : Shape := ⟨2, ![800, 1]⟩
abbrev S800x5120 : Shape := ⟨2, ![800, 5120]⟩
abbrev S1x128x128 : Shape := ⟨3, ![1, 128, 128]⟩
abbrev S2000x1 : Shape := ⟨2, ![2000, 1]⟩
abbrev S2000x5120 : Shape := ⟨2, ![2000, 5120]⟩
abbrev S1x64 : Shape := ⟨2, ![1, 64]⟩
abbrev S2000x64 : Shape := ⟨2, ![2000, 64]⟩
abbrev S100000x32 : Shape := ⟨2, ![100000, 32]⟩

abbrev nBuf : Space → Nat
  | .hbm => 321
  | .vmem => 110
  | .smem => 6
  | _ => 0

abbrev hbmTy0_0 (i : Nat) : BufTy := match i % 128 with
  | 0 => ⟨S100000, .i32⟩
  | 1 => ⟨S2x625000, .i32⟩
  | 2 => ⟨S625000, .i32⟩
  | 3 => ⟨S1000x128, .f32⟩
  | 4 => ⟨S128x128, .f32⟩
  | 5 => ⟨S3x128x128, .f32⟩
  | 6 => ⟨S4x128x128, .f32⟩
  | 7 => ⟨S4x128, .f32⟩
  | 8 => ⟨S128x128, .f32⟩
  | 9 => ⟨S128, .f32⟩
  | 10 => ⟨S128x64, .f32⟩
  | 11 => ⟨S64, .f32⟩
  | 12 => ⟨S64x32, .f32⟩
  | 13 => ⟨S32, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S1x625000, .i32⟩
  | 24 => ⟨S625000, .i32⟩
  | 25 => ⟨S1x625000, .i32⟩
  | 26 => ⟨S625000, .i32⟩
  | 27 => ⟨S625000, .f32⟩
  | 28 => ⟨S_, .i32⟩
  | 29 => ⟨S_, .i32⟩
  | 30 => ⟨S_, .f32⟩
  | 31 => ⟨S625000, .f32⟩
  | 32 => ⟨S625000, .f32⟩
  | 33 => ⟨S_, .f32⟩
  | 34 => ⟨S100000, .f32⟩
  | 35 => ⟨S625000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S100000, .f32⟩
  | 42 => ⟨S100000, .i1⟩
  | 43 => ⟨S_, .f32⟩
  | 44 => ⟨S_, .f32⟩
  | 45 => ⟨S100000, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S625000, .i32⟩
  | 54 => ⟨S625000, .i1⟩
  | 55 => ⟨S_, .i32⟩
  | 56 => ⟨S625000, .i32⟩
  | 57 => ⟨S625000, .i32⟩
  | 58 => ⟨S625000, .i32⟩
  | 59 => ⟨S625000x1, .i32⟩
  | 60 => ⟨S625000, .f32⟩
  | 61 => ⟨S625000, .f32⟩
  | 62 => ⟨S_, .i32⟩
  | 63 => ⟨S625000, .i32⟩
  | 64 => ⟨S625000, .i1⟩
  | 65 => ⟨S_, .i32⟩
  | 66 => ⟨S625000, .i32⟩
  | 67 => ⟨S625000, .i32⟩
  | 68 => ⟨S625000, .i32⟩
  | 69 => ⟨S625000x1, .i32⟩
  | 70 => ⟨S625000, .f32⟩
  | 71 => ⟨S625000, .f32⟩
  | 72 => ⟨S_, .i32⟩
  | 73 => ⟨S4760, .i32⟩
  | 74 => ⟨S629760, .i32⟩
  | 75 => ⟨S_, .i32⟩
  | 76 => ⟨S4760, .i32⟩
  | 77 => ⟨S629760, .i32⟩
  | 78 => ⟨S_, .f32⟩
  | 79 => ⟨S4760, .f32⟩
  | 80 => ⟨S629760, .f32⟩
  | 81 => ⟨S_, .i32⟩
  | 82 => ⟨S_, .i32⟩
  | 83 => ⟨S629760, .i32⟩
  | 84 => ⟨S629760, .i32⟩
  | 85 => ⟨S629760, .i32⟩
  | 86 => ⟨S_, .i32⟩
  | 87 => ⟨S629760, .i32⟩
  | 88 => ⟨S629760, .i1⟩
  | 89 => ⟨S629760, .i32⟩
  | 90 => ⟨S629760, .i32⟩
  | 91 => ⟨S_, .i32⟩
  | 92 => ⟨S629760, .i32⟩
  | 93 => ⟨S629760, .i1⟩
  | 94 => ⟨S629760, .i1⟩
  | 95 => ⟨S_, .i32⟩
  | 96 => ⟨S629760, .i32⟩
  | 97 => ⟨S629760, .i32⟩
  | 98 => ⟨S629760, .i32⟩
  | 99 => ⟨S_, .i32⟩
  | 100 => ⟨S629760, .i32⟩
  | 101 => ⟨S629760, .i32⟩
  | 102 => ⟨S629760, .i32⟩
  | 103 => ⟨S629760, .i32⟩
  | 104 => ⟨S629760, .i32⟩
  | 105 => ⟨S629760, .i32⟩
  | 106 => ⟨S_, .i32⟩
  | 107 => ⟨S629760, .i32⟩
  | 108 => ⟨S629760, .i1⟩
  | 109 => ⟨S_, .i32⟩
  | 110 => ⟨S629760, .i32⟩
  | 111 => ⟨S629760, .i32⟩
  | 112 => ⟨S629760, .i32⟩
  | 113 => ⟨S629760x1, .i32⟩
  | 114 => ⟨S629760, .i32⟩
  | 115 => ⟨S_, .i32⟩
  | 116 => ⟨S629760, .i32⟩
  | 117 => ⟨S629760, .i1⟩
  | 118 => ⟨S_, .i32⟩
  | 119 => ⟨S629760, .i32⟩
  | 120 => ⟨S629760, .i32⟩
  | 121 => ⟨S629760, .i32⟩
  | 122 => ⟨S629760x1, .i32⟩
  | 123 => ⟨S629760, .i32⟩
  | 124 => ⟨S_, .i32⟩
  | 125 => ⟨S629760, .i32⟩
  | 126 => ⟨S629760, .i1⟩
  | 127 => ⟨S_, .i32⟩
  | _ => ⟨S100000, .i32⟩

abbrev hbmTy0_1 (i : Nat) : BufTy := match i % 128 with
  | 0 => ⟨S629760, .i32⟩
  | 1 => ⟨S629760, .i32⟩
  | 2 => ⟨S629760, .i32⟩
  | 3 => ⟨S629760x1, .i32⟩
  | 4 => ⟨S629760, .f32⟩
  | 5 => ⟨S123x5120, .i32⟩
  | 6 => ⟨S_, .i32⟩
  | 7 => ⟨S123, .i32⟩
  | 8 => ⟨S_, .i32⟩
  | 9 => ⟨S123, .i32⟩
  | 10 => ⟨S123, .i32⟩
  | 11 => ⟨S_, .i32⟩
  | 12 => ⟨S123, .i32⟩
  | 13 => ⟨S_, .i32⟩
  | 14 => ⟨S123, .i32⟩
  | 15 => ⟨S123, .i32⟩
  | 16 => ⟨S_, .i32⟩
  | 17 => ⟨S_, .i32⟩
  | 18 => ⟨S123, .i32⟩
  | 19 => ⟨S123, .i32⟩
  | 20 => ⟨S123, .i32⟩
  | 21 => ⟨S_, .i32⟩
  | 22 => ⟨S123, .i32⟩
  | 23 => ⟨S123, .i1⟩
  | 24 => ⟨S123, .i32⟩
  | 25 => ⟨S123, .i32⟩
  | 26 => ⟨S_, .i32⟩
  | 27 => ⟨S123, .i32⟩
  | 28 => ⟨S123, .i1⟩
  | 29 => ⟨S123, .i1⟩
  | 30 => ⟨S_, .i32⟩
  | 31 => ⟨S123, .i32⟩
  | 32 => ⟨S123, .i32⟩
  | 33 => ⟨S_, .i32⟩
  | 34 => ⟨S_, .i32⟩
  | 35 => ⟨S123, .i32⟩
  | 36 => ⟨S123, .i32⟩
  | 37 => ⟨S123, .i32⟩
  | 38 => ⟨S_, .i32⟩
  | 39 => ⟨S123, .i32⟩
  | 40 => ⟨S123, .i1⟩
  | 41 => ⟨S123, .i32⟩
  | 42 => ⟨S123, .i32⟩
  | 43 => ⟨S_, .i32⟩
  | 44 => ⟨S123, .i32⟩
  | 45 => ⟨S123, .i1⟩
  | 46 => ⟨S123, .i1⟩
  | 47 => ⟨S_, .i32⟩
  | 48 => ⟨S123, .i32⟩
  | 49 => ⟨S123, .i32⟩
  | 50 => ⟨S123x5120, .i32⟩
  | 51 => ⟨S_, .i32⟩
  | 52 => ⟨S123, .i32⟩
  | 53 => ⟨S_, .i32⟩
  | 54 => ⟨S_, .i32⟩
  | 55 => ⟨S123, .i32⟩
  | 56 => ⟨S123, .i32⟩
  | 57 => ⟨S123, .i32⟩
  | 58 => ⟨S_, .i32⟩
  | 59 => ⟨S123, .i32⟩
  | 60 => ⟨S123, .i1⟩
  | 61 => ⟨S123, .i32⟩
  | 62 => ⟨S123, .i32⟩
  | 63 => ⟨S_, .i32⟩
  | 64 => ⟨S123, .i32⟩
  | 65 => ⟨S123, .i1⟩
  | 66 => ⟨S123, .i1⟩
  | 67 => ⟨S_, .i32⟩
  | 68 => ⟨S123, .i32⟩
  | 69 => ⟨S123, .i32⟩
  | 70 => ⟨S123, .i32⟩
  | 71 => ⟨S_, .i32⟩
  | 72 => ⟨S_, .i32⟩
  | 73 => ⟨S_, .i32⟩
  | 74 => ⟨S123, .i32⟩
  | 75 => ⟨S123, .i32⟩
  | 76 => ⟨S_, .i32⟩
  | 77 => ⟨S123, .i32⟩
  | 78 => ⟨S_, .i32⟩
  | 79 => ⟨S123, .i32⟩
  | 80 => ⟨S_, .i32⟩
  | 81 => ⟨S_, .i32⟩
  | 82 => ⟨S123, .i32⟩
  | 83 => ⟨S123, .i32⟩
  | 84 => ⟨S123, .i32⟩
  | 85 => ⟨S_, .i32⟩
  | 86 => ⟨S123, .i32⟩
  | 87 => ⟨S123, .i1⟩
  | 88 => ⟨S123, .i32⟩
  | 89 => ⟨S123, .i32⟩
  | 90 => ⟨S_, .i32⟩
  | 91 => ⟨S123, .i32⟩
  | 92 => ⟨S123, .i1⟩
  | 93 => ⟨S123, .i1⟩
  | 94 => ⟨S_, .i32⟩
  | 95 => ⟨S123, .i32⟩
  | 96 => ⟨S123, .i32⟩
  | 97 => ⟨S123, .i32⟩
  | 98 => ⟨S_, .i32⟩
  | 99 => ⟨S_, .i32⟩
  | 100 => ⟨S_, .i32⟩
  | 101 => ⟨S123, .i32⟩
  | 102 => ⟨S123, .i32⟩
  | 103 => ⟨S_, .i32⟩
  | 104 => ⟨S123, .i32⟩
  | 105 => ⟨S123, .i32⟩
  | 106 => ⟨S50, .i32⟩
  | 107 => ⟨S1x123, .i32⟩
  | 108 => ⟨S50x1, .i32⟩
  | 109 => ⟨S50x123, .i32⟩
  | 110 => ⟨S50x123, .i32⟩
  | 111 => ⟨S50x123, .i1⟩
  | 112 => ⟨S1x123, .i32⟩
  | 113 => ⟨S50x1, .i32⟩
  | 114 => ⟨S50x123, .i32⟩
  | 115 => ⟨S50x123, .i32⟩
  | 116 => ⟨S50x123, .i1⟩
  | 117 => ⟨S50x123, .i1⟩
  | 118 => ⟨S1x123, .i32⟩
  | 119 => ⟨S_, .i32⟩
  | 120 => ⟨S_, .i32⟩
  | 121 => ⟨S50x123, .i32⟩
  | 122 => ⟨S50x123, .i32⟩
  | 123 => ⟨S50x123, .i32⟩
  | 124 => ⟨S_, .i32⟩
  | 125 => ⟨S50, .i32⟩
  | 126 => ⟨S1x123, .i32⟩
  | 127 => ⟨S_, .i32⟩
  | _ => ⟨S100000, .i32⟩

abbrev hbmTy0_2 (i : Nat) : BufTy := match i % 128 with
  | 0 => ⟨S_, .i32⟩
  | 1 => ⟨S50x123, .i32⟩
  | 2 => ⟨S50x123, .i32⟩
  | 3 => ⟨S50x123, .i32⟩
  | 4 => ⟨S_, .i32⟩
  | 5 => ⟨S50, .i32⟩
  | 6 => ⟨S50, .i1⟩
  | 7 => ⟨S_, .i32⟩
  | 8 => ⟨S_, .i32⟩
  | 9 => ⟨S50, .i32⟩
  | 10 => ⟨S_, .i32⟩
  | 11 => ⟨S_, .i32⟩
  | 12 => ⟨S50, .i32⟩
  | 13 => ⟨S1x629760, .i32⟩
  | 14 => ⟨S1x629760, .i32⟩
  | 15 => ⟨S629760x1, .f32⟩
  | 16 => ⟨S_, .i32⟩
  | 17 => ⟨S_, .f32⟩
  | 18 => ⟨S64x128, .f32⟩
  | 19 => ⟨S_, .i32⟩
  | 20 => ⟨S_, .f32⟩
  | 21 => ⟨S128, .f32⟩
  | 22 => ⟨S1x128, .f32⟩
  | 23 => ⟨S100000x128, .f32⟩
  | 24 => ⟨S629760x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S100000x128, .f32⟩
  | 31 => ⟨S1x128x128, .f32⟩
  | 32 => ⟨S128x128, .f32⟩
  | 33 => ⟨S100000x128, .f32⟩
  | 34 => ⟨S629760x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S100000x128, .f32⟩
  | 41 => ⟨S1x128x128, .f32⟩
  | 42 => ⟨S128x128, .f32⟩
  | 43 => ⟨S100000x128, .f32⟩
  | 44 => ⟨S629760x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S100000x128, .f32⟩
  | 51 => ⟨S1x128x128, .f32⟩
  | 52 => ⟨S128x128, .f32⟩
  | 53 => ⟨S100000x128, .f32⟩
  | 54 => ⟨S629760x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S100000x128, .f32⟩
  | 61 => ⟨S1x128, .f32⟩
  | 62 => ⟨S1x64, .f32⟩
  | 63 => ⟨S100000x128, .f32⟩
  | 64 => ⟨S100000x32, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S1x5120, .i32⟩
  | .local _ .vmem, ⟨6, _⟩ => ⟨S1x5120, .i32⟩
  | .local _ .vmem, ⟨7, _⟩ => ⟨S800x128, .f32⟩
  | .local _ .vmem, ⟨8, _⟩ => ⟨S800x128, .f32⟩
  | .local _ .vmem, ⟨9, _⟩ => ⟨S5120x1, .f32⟩
  | .local _ .vmem, ⟨10, _⟩ => ⟨S5120x1, .f32⟩
  | .local _ .vmem, ⟨11, _⟩ => ⟨S5120x128, .f32⟩
  | .local _ .vmem, ⟨12, _⟩ => ⟨S5120x128, .f32⟩
  | .local _ .vmem, ⟨13, _⟩ => ⟨S5120x128, .f32⟩
  | .local _ .vmem, ⟨14, _⟩ => ⟨S1x5120, .i32⟩
  | .local _ .vmem, ⟨15, _⟩ => ⟨S1x5120, .i32⟩
  | .local _ .vmem, ⟨16, _⟩ => ⟨S5120x128, .f32⟩
  | .local _ .vmem, ⟨17, _⟩ => ⟨S5120x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S2000x128, .f32⟩
  | .local _ .vmem, ⟨29, _⟩ => ⟨S2000x128, .f32⟩
  | .local _ .vmem, ⟨30, _⟩ => ⟨S1x5120, .i32⟩
  | .local _ .vmem, ⟨31, _⟩ => ⟨S1x5120, .i32⟩
  | .local _ .vmem, ⟨32, _⟩ => ⟨S800x128, .f32⟩
  | .local _ .vmem, ⟨33, _⟩ => ⟨S800x128, .f32⟩
  | .local _ .vmem, ⟨34, _⟩ => ⟨S5120x1, .f32⟩
  | .local _ .vmem, ⟨35, _⟩ => ⟨S5120x1, .f32⟩
  | .local _ .vmem, ⟨36, _⟩ => ⟨S5120x128, .f32⟩
  | .local _ .vmem, ⟨37, _⟩ => ⟨S5120x128, .f32⟩
  | .local _ .vmem, ⟨38, _⟩ => ⟨S5120x128, .f32⟩
  | .local _ .vmem, ⟨39, _⟩ => ⟨S1x5120, .i32⟩
  | .local _ .vmem, ⟨40, _⟩ => ⟨S1x5120, .i32⟩
  | .local _ .vmem, ⟨41, _⟩ => ⟨S5120x128, .f32⟩
  | .local _ .vmem, ⟨42, _⟩ => ⟨S5120x128, .f32⟩
  | .local _ .vmem, ⟨43, _⟩ => ⟨S2000x128, .f32⟩
  | .local _ .vmem, ⟨44, _⟩ => ⟨S2000x128, .f32⟩
  | .local _ .vmem, ⟨45, _⟩ => ⟨S128x128, .f32⟩
  | .local _ .vmem, ⟨46, _⟩ => ⟨S1x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | .local _ .vmem, ⟨55, _⟩ => ⟨S1x5120, .i32⟩
  | .local _ .vmem, ⟨56, _⟩ => ⟨S1x5120, .i32⟩
  | .local _ .vmem, ⟨57, _⟩ => ⟨S800x128, .f32⟩
  | .local _ .vmem, ⟨58, _⟩ => ⟨S800x128, .f32⟩
  | .local _ .vmem, ⟨59, _⟩ => ⟨S5120x1, .f32⟩
  | .local _ .vmem, ⟨60, _⟩ => ⟨S5120x1, .f32⟩
  | .local _ .vmem, ⟨61, _⟩ => ⟨S5120x128, .f32⟩
  | .local _ .vmem, ⟨62, _⟩ => ⟨S5120x128, .f32⟩
  | .local _ .vmem, ⟨63, _⟩ => ⟨S5120x128, .f32⟩
  | .local _ .vmem, ⟨64, _⟩ => ⟨S1x5120, .i32⟩
  | .local _ .vmem, ⟨65, _⟩ => ⟨S1x5120, .i32⟩
  | .local _ .vmem, ⟨66, _⟩ => ⟨S5120x128, .f32⟩
  | .local _ .vmem, ⟨67, _⟩ => ⟨S5120x128, .f32⟩
  | .local _ .vmem, ⟨68, _⟩ => ⟨S2000x128, .f32⟩
  | .local _ .vmem, ⟨69, _⟩ => ⟨S2000x128, .f32⟩
  | .local _ .vmem, ⟨70, _⟩ => ⟨S128x128, .f32⟩
  | .local _ .vmem, ⟨71, _⟩ => ⟨S1x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S128x128, .f32⟩
  | .local _ .vmem, ⟨78, _⟩ => ⟨S2000x128, .f32⟩
  | .local _ .vmem, ⟨79, _⟩ => ⟨S2000x128, .f32⟩
  | .local _ .vmem, ⟨80, _⟩ => ⟨S1x5120, .i32⟩
  | .local _ .vmem, ⟨81, _⟩ => ⟨S1x5120, .i32⟩
  | .local _ .vmem, ⟨82, _⟩ => ⟨S800x128, .f32⟩
  | .local _ .vmem, ⟨83, _⟩ => ⟨S800x128, .f32⟩
  | .local _ .vmem, ⟨84, _⟩ => ⟨S5120x1, .f32⟩
  | .local _ .vmem, ⟨85, _⟩ => ⟨S5120x1, .f32⟩
  | .local _ .vmem, ⟨86, _⟩ => ⟨S5120x128, .f32⟩
  | .local _ .vmem, ⟨87, _⟩ => ⟨S5120x128, .f32⟩
  | .local _ .vmem, ⟨88, _⟩ => ⟨S5120x128, .f32⟩
  | .local _ .vmem, ⟨89, _⟩ => ⟨S1x5120, .i32⟩
  | .local _ .vmem, ⟨90, _⟩ => ⟨S1x5120, .i32⟩
  | .local _ .vmem, ⟨91, _⟩ => ⟨S5120x128, .f32⟩
  | .local _ .vmem, ⟨92, _⟩ => ⟨S5120x128, .f32⟩
  | .local _ .vmem, ⟨93, _⟩ => ⟨S2000x128, .f32⟩
  | .local _ .vmem, ⟨94, _⟩ => ⟨S2000x128, .f32⟩
  | .local _ .vmem, ⟨95, _⟩ => ⟨S128x128, .f32⟩
  | .local _ .vmem, ⟨96, _⟩ => ⟨S1x128, .f32⟩
  | .local _ .vmem, ⟨97, _⟩ => ⟨S2000x128, .f32⟩
  | .local _ .vmem, ⟨98, _⟩ => ⟨S2000x128, .f32⟩
  | .local _ .vmem, ⟨99, _⟩ => ⟨S2000x128, .f32⟩
  | .local _ .vmem, ⟨100, _⟩ => ⟨S2000x128, .f32⟩
  | .local _ .vmem, ⟨101, _⟩ => ⟨S2000x128, .f32⟩
  | .local _ .vmem, ⟨102, _⟩ => ⟨S128x128, .f32⟩
  | .local _ .vmem, ⟨103, _⟩ => ⟨S1x128, .f32⟩
  | .local _ .vmem, ⟨104, _⟩ => ⟨S128x64, .f32⟩
  | .local _ .vmem, ⟨105, _⟩ => ⟨S1x64, .f32⟩
  | .local _ .vmem, ⟨106, _⟩ => ⟨S64x128, .f32⟩
  | .local _ .vmem, ⟨107, _⟩ => ⟨S1x128, .f32⟩
  | .local _ .vmem, ⟨108, _⟩ => ⟨S2000x128, .f32⟩
  | .local _ .vmem, ⟨109, _⟩ => ⟨S2000x128, .f32⟩
  | .local _ .smem, ⟨0, _⟩ => ⟨S123, .i32⟩
  | .local _ .smem, ⟨1, _⟩ => ⟨S123, .i32⟩
  | .local _ .smem, ⟨2, _⟩ => ⟨S123, .i32⟩
  | .local _ .smem, ⟨3, _⟩ => ⟨S123, .i32⟩
  | .local _ .smem, ⟨4, _⟩ => ⟨S50, .i32⟩
  | .local _ .smem, ⟨5, _⟩ => ⟨S50, .i32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_c_13 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_c : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_0 : Ref sig .tc := ⟨.hbm, 95, rfl⟩
abbrev main_call2_v12 : Ref sig .tc := ⟨.hbm, 96, rfl⟩
abbrev main_call2_v13 : Ref sig .tc := ⟨.hbm, 97, rfl⟩
abbrev main_v48 : Ref sig .tc := ⟨.hbm, 98, rfl⟩
abbrev main_c_14 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call3_v0 : Ref sig .tc := ⟨.hbm, 103, rfl⟩
abbrev main_call3_v1_0 : Ref sig .tc := ⟨.hbm, 104, rfl⟩
abbrev main_v52 : Ref sig .tc := ⟨.hbm, 105, rfl⟩
abbrev main_c_15 : Ref sig .tc := ⟨.hbm, 106, rfl⟩
abbrev main_v53 : Ref sig .tc := ⟨.hbm, 107, rfl⟩
abbrev main_v54 : Ref sig .tc := ⟨.hbm, 108, rfl⟩
abbrev main_c_16 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_c_17 : Ref sig .tc := ⟨.hbm, 115, rfl⟩
abbrev main_v60 : Ref sig .tc := ⟨.hbm, 116, rfl⟩
abbrev main_v61 : Ref sig .tc := ⟨.hbm, 117, rfl⟩
abbrev main_c_18 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_c_19 : Ref sig .tc := ⟨.hbm, 124, rfl⟩
abbrev main_v67 : Ref sig .tc := ⟨.hbm, 125, rfl⟩
abbrev main_v68 : Ref sig .tc := ⟨.hbm, 126, rfl⟩
abbrev main_c_20 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_21 : Ref sig .tc := ⟨.hbm, 134, rfl⟩
abbrev main_v75 : Ref sig .tc := ⟨.hbm, 135, rfl⟩
abbrev main_c_22 : Ref sig .tc := ⟨.hbm, 136, rfl⟩
abbrev main_v76 : Ref sig .tc := ⟨.hbm, 137, rfl⟩
abbrev main_v77 : Ref sig .tc := ⟨.hbm, 138, rfl⟩
abbrev main_c_23 : Ref sig .tc := ⟨.hbm, 139, rfl⟩
abbrev main_v78 : Ref sig .tc := ⟨.hbm, 140, rfl⟩
abbrev main_c_24 : Ref sig .tc := ⟨.hbm, 141, rfl⟩
abbrev main_v79 : Ref sig .tc := ⟨.hbm, 142, rfl⟩
abbrev main_v80 : Ref sig .tc := ⟨.hbm, 143, rfl⟩
abbrev main_c_25 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_c_26 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_v8 : Ref sig .tc := ⟨.hbm, 170, rfl⟩
abbrev main_call5_c : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_0 : Ref sig .tc := ⟨.hbm, 175, rfl⟩
abbrev main_call5_v12 : Ref sig .tc := ⟨.hbm, 176, rfl⟩
abbrev main_call5_v13 : Ref sig .tc := ⟨.hbm, 177, rfl⟩
abbrev main_v83 : Ref sig .tc := ⟨.hbm, 178, rfl⟩
abbrev main_c_27 : Ref sig .tc := ⟨.hbm, 179, rfl⟩
abbrev main_v84 : Ref sig .tc := ⟨.hbm, 180, rfl⟩
abbrev main_c_28 : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_v6 : Ref sig .tc := ⟨.hbm, 188, rfl⟩
abbrev main_call6_v7 : Ref sig .tc := ⟨.hbm, 189, rfl⟩
abbrev main_call6_v8 : Ref sig .tc := ⟨.hbm, 190, rfl⟩
abbrev main_call6_c : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_c_0 : Ref sig .tc := ⟨.hbm, 195, rfl⟩
abbrev main_call6_v12 : Ref sig .tc := ⟨.hbm, 196, rfl⟩
abbrev main_call6_v13 : Ref sig .tc := ⟨.hbm, 197, rfl⟩
abbrev main_v85 : Ref sig .tc := ⟨.hbm, 198, rfl⟩
abbrev main_c_29 : Ref sig .tc := ⟨.hbm, 199, rfl⟩
abbrev main_c_30 : Ref sig .tc := ⟨.hbm, 200, rfl⟩
abbrev main_call7_v0 : Ref sig .tc := ⟨.hbm, 201, rfl⟩
abbrev main_call7_v1 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_c_31 : Ref sig .tc := ⟨.hbm, 206, rfl⟩
abbrev main_v87 : Ref sig .tc := ⟨.hbm, 207, rfl⟩
abbrev main_c_32 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_call8_v5 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_c : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_0 : Ref sig .tc := ⟨.hbm, 222, rfl⟩
abbrev main_call8_v12 : Ref sig .tc := ⟨.hbm, 223, rfl⟩
abbrev main_call8_v13 : Ref sig .tc := ⟨.hbm, 224, rfl⟩
abbrev main_v88 : Ref sig .tc := ⟨.hbm, 225, rfl⟩
abbrev main_c_33 : Ref sig .tc := ⟨.hbm, 226, rfl⟩
abbrev main_c_34 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_c_35 : Ref sig .tc := ⟨.hbm, 247, rfl⟩
abbrev main_call10_v0 : Ref sig .tc := ⟨.hbm, 248, rfl⟩
abbrev main_call10_v1 : Ref sig .tc := ⟨.hbm, 249, rfl⟩
abbrev main_call10_v2 : Ref sig .tc := ⟨.hbm, 250, rfl⟩
abbrev main_v104 : Ref sig .tc := ⟨.hbm, 251, rfl⟩
abbrev main_c_36 : Ref sig .tc := ⟨.hbm, 252, rfl⟩
abbrev main_v105 : Ref sig .tc := ⟨.hbm, 253, rfl⟩
abbrev main_v106 : Ref sig .tc := ⟨.hbm, 254, rfl⟩
abbrev main_c_37 : Ref sig .tc := ⟨.hbm, 255, rfl⟩
abbrev main_call11_v0 : Ref sig .tc := ⟨.hbm, 256, rfl⟩
abbrev main_call11_v1 : Ref sig .tc := ⟨.hbm, 257, rfl⟩
abbrev main_call11_v2 : Ref sig .tc := ⟨.hbm, 258, rfl⟩
abbrev main_v107 : Ref sig .tc := ⟨.hbm, 259, rfl⟩
abbrev main_c_38 : Ref sig .tc := ⟨.hbm, 260, rfl⟩
abbrev main_v108 : Ref sig .tc := ⟨.hbm, 261, rfl⟩
abbrev main_v109 : Ref sig .tc := ⟨.hbm, 262, rfl⟩
abbrev main_c_39 : Ref sig .tc := ⟨.hbm, 263, rfl⟩
abbrev main_call12_v0 : Ref sig .tc := ⟨.hbm, 264, rfl⟩
abbrev main_call12_v1 : Ref sig .tc := ⟨.hbm, 265, rfl⟩
abbrev main_c_40 : Ref sig .tc := ⟨.hbm, 266, rfl⟩
abbrev main_call13_v0 : Ref sig .tc := ⟨.hbm, 267, rfl⟩
abbrev main_call13_v1 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_c_41 : Ref sig .tc := ⟨.hbm, 272, rfl⟩
abbrev main_call14_v0 : Ref sig .tc := ⟨.hbm, 273, rfl⟩
abbrev main_v115 : Ref sig .tc := ⟨.hbm, 274, rfl⟩
abbrev main_c_42 : Ref sig .tc := ⟨.hbm, 275, rfl⟩
abbrev main_call15_v0 : Ref sig .tc := ⟨.hbm, 276, rfl⟩
abbrev main_v116 : Ref sig .tc := ⟨.hbm, 277, rfl⟩
abbrev main_v117 : Ref sig .tc := ⟨.hbm, 278, rfl⟩
abbrev main_v118 : Ref sig .tc := ⟨.hbm, 279, rfl⟩
abbrev main_v119 : Ref sig .tc := ⟨.hbm, 280, rfl⟩
abbrev main_v120 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_v124 : Ref sig .tc := ⟨.hbm, 285, rfl⟩
abbrev main_v125 : Ref sig .tc := ⟨.hbm, 286, rfl⟩
abbrev main_v126 : Ref sig .tc := ⟨.hbm, 287, rfl⟩
abbrev main_v127 : Ref sig .tc := ⟨.hbm, 288, rfl⟩
abbrev main_v128 : Ref sig .tc := ⟨.hbm, 289, rfl⟩
abbrev main_v129 : Ref sig .tc := ⟨.hbm, 290, rfl⟩
abbrev main_v130 : Ref sig .tc := ⟨.hbm, 291, rfl⟩
abbrev main_v131 : Ref sig .tc := ⟨.hbm, 292, rfl⟩
abbrev main_v132 : Ref sig .tc := ⟨.hbm, 293, rfl⟩
abbrev main_v133 : Ref sig .tc := ⟨.hbm, 294, rfl⟩
abbrev main_v134 : Ref sig .tc := ⟨.hbm, 295, rfl⟩
abbrev main_v135 : Ref sig .tc := ⟨.hbm, 296, rfl⟩
abbrev main_v136 : Ref sig .tc := ⟨.hbm, 297, rfl⟩
abbrev main_v137 : Ref sig .tc := ⟨.hbm, 298, rfl⟩
abbrev main_v138 : Ref sig .tc := ⟨.hbm, 299, rfl⟩
abbrev main_v139 : Ref sig .tc := ⟨.hbm, 300, rfl⟩
abbrev main_v140 : Ref sig .tc := ⟨.hbm, 301, rfl⟩
abbrev main_v141 : Ref sig .tc := ⟨.hbm, 302, rfl⟩
abbrev main_v142 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩
abbrev main_v150 : Ref sig .tc := ⟨.hbm, 311, rfl⟩
abbrev main_v151 : Ref sig .tc := ⟨.hbm, 312, rfl⟩
abbrev main_v152 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_v156 : Ref sig .tc := ⟨.hbm, 317, rfl⟩
abbrev main_v157 : Ref sig .tc := ⟨.hbm, 318, rfl⟩
abbrev main_v158 : Ref sig .tc := ⟨.hbm, 319, rfl⟩
abbrev main_v159 : Ref sig .tc := ⟨.hbm, 320, rfl⟩
abbrev main_v86 : Ref sig .tc := ⟨.smem, 0, rfl⟩
abbrev main_v89 : Ref sig .tc := ⟨.smem, 1, rfl⟩
abbrev main_v81 : Ref sig .tc := ⟨.smem, 2, rfl⟩
abbrev main_v82 : Ref sig .tc := ⟨.smem, 3, rfl⟩
abbrev main_v110 : Ref sig .tc := ⟨.smem, 4, rfl⟩
abbrev main_v111 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_scratch0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg5_1 : Ref sig .tc := ⟨.vmem, 48, rfl⟩
abbrev cc5_scratch0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc7_scratch0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg5_0 : Ref sig .tc := ⟨.vmem, 72, rfl⟩
abbrev cc8_stg5_1 : Ref sig .tc := ⟨.vmem, 73, rfl⟩
abbrev cc8_scratch0 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg2_1 : Ref sig .tc := ⟨.vmem, 85, rfl⟩
abbrev cc10_stg3_0 : Ref sig .tc := ⟨.vmem, 86, rfl⟩
abbrev cc10_stg3_1 : Ref sig .tc := ⟨.vmem, 87, rfl⟩
abbrev cc10_scratch0 : Ref sig .tc := ⟨.vmem, 88, rfl⟩
abbrev cc11_stg0_0 : Ref sig .tc := ⟨.vmem, 89, rfl⟩
abbrev cc11_stg0_1 : Ref sig .tc := ⟨.vmem, 90, rfl⟩
abbrev cc11_stg1_0 : Ref sig .tc := ⟨.vmem, 91, rfl⟩
abbrev cc11_stg1_1 : Ref sig .tc := ⟨.vmem, 92, rfl⟩
abbrev cc11_stg2_0 : Ref sig .tc := ⟨.vmem, 93, rfl⟩
abbrev cc11_stg2_1 : Ref sig .tc := ⟨.vmem, 94, rfl⟩
abbrev cc11_stg3_0 : Ref sig .tc := ⟨.vmem, 95, rfl⟩
abbrev cc11_stg4_0 : Ref sig .tc := ⟨.vmem, 96, rfl⟩
abbrev cc11_stg5_0 : Ref sig .tc := ⟨.vmem, 97, rfl⟩
abbrev cc11_stg5_1 : Ref sig .tc := ⟨.vmem, 98, rfl⟩
abbrev cc11_scratch0 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg2_0 : Ref sig .tc := ⟨.vmem, 103, rfl⟩
abbrev cc12_stg3_0 : Ref sig .tc := ⟨.vmem, 104, rfl⟩
abbrev cc12_stg4_0 : Ref sig .tc := ⟨.vmem, 105, rfl⟩
abbrev cc12_stg5_0 : Ref sig .tc := ⟨.vmem, 106, rfl⟩
abbrev cc12_stg6_0 : Ref sig .tc := ⟨.vmem, 107, rfl⟩
abbrev cc12_stg7_0 : Ref sig .tc := ⟨.vmem, 108, rfl⟩
abbrev cc12_stg7_1 : Ref sig .tc := ⟨.vmem, 109, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc8_sem3_0 : DmaSem sig := 65
abbrev cc8_sem4_0 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73
abbrev cc10_sem0_0 : DmaSem sig := 74
abbrev cc10_sem0_1 : DmaSem sig := 75
abbrev cc10_sem1_0 : DmaSem sig := 76
abbrev cc10_sem1_1 : DmaSem sig := 77
abbrev cc10_sem2_0 : DmaSem sig := 78
abbrev cc10_sem2_1 : DmaSem sig := 79
abbrev cc10_sem3_0 : DmaSem sig := 80
abbrev cc10_sem3_1 : DmaSem sig := 81
abbrev cc11_sem0_0 : DmaSem sig := 82
abbrev cc11_sem0_1 : DmaSem sig := 83
abbrev cc11_sem1_0 : DmaSem sig := 84
abbrev cc11_sem1_1 : DmaSem sig := 85
abbrev cc11_sem2_0 : DmaSem sig := 86
abbrev cc11_sem2_1 : DmaSem sig := 87
abbrev cc11_sem3_0 : DmaSem sig := 88
abbrev cc11_sem4_0 : DmaSem sig := 89
abbrev cc11_sem5_0 : DmaSem sig := 90
abbrev cc11_sem5_1 : DmaSem sig := 91
abbrev cc12_sem0_0 : DmaSem sig := 92
abbrev cc12_sem0_1 : DmaSem sig := 93
abbrev cc12_sem1_0 : DmaSem sig := 94
abbrev cc12_sem2_0 : DmaSem sig := 95
abbrev cc12_sem3_0 : DmaSem sig := 96
abbrev cc12_sem4_0 : DmaSem sig := 97
abbrev cc12_sem5_0 : DmaSem sig := 98
abbrev cc12_sem6_0 : DmaSem sig := 99
abbrev cc12_sem7_0 : DmaSem sig := 100
abbrev cc12_sem7_1 : DmaSem sig := 101

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![123, 125], ![false, false]⟩

abbrev pre1 : Pipeline.Prefetch sig := ⟨2, ![main_v86.idx, main_v89.idx], fun | 0 => main_v86.names | 1 => main_v89.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond3 (i : grid1.Coords) : BitVec 1 :=
  let arg1 : BitVec 32 := BitVec.ofNat 32 (i 1).val
  let c124_i32 : BitVec 32 := 124#32
  let v12 : BitVec 1 := Scalar.cmpi .eq arg1 c124_i32
  let v13 : BitVec 32 := Scalar.extui v12
  let c0_i32_2 : BitVec 32 := 0#32
  let v14 : BitVec 1 := Scalar.cmpi .ne v13 c0_i32_2
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (k1_off1_inb : ∀ i : grid1.Coords, ∀ a, (k1_off1 i) a + S1.size a ≤ S123.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S123) ![v0.toNat] S1.size (k1_off1_inb i)) numel1_S1
  let v2 : BitVec 32 := Scalar.maxsi arg1 v1
  let v3 : Index := Scalar.indexCast arg0
  let v4 : BitVec 32 := pf.at 1 (Rect.unit (s := S123) ![v3.toNat] S1.size (k1_off1_inb i)) numel1_S1
  let v5 : BitVec 32 := Scalar.minsi v2 v4
  let c0_i32 : BitVec 32 := 0#32
  let c0_i32_0 : BitVec 32 := 0#32
  ![v5.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x5120 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S800x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5120x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S5120x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![50, 123], ![false, false]⟩

abbrev pre2 : Pipeline.Prefetch sig := ⟨4, ![main_v81.idx, main_v82.idx, main_v110.idx, main_v111.idx], fun | 0 => main_v81.names | 1 => main_v82.names | 2 => main_v110.names | 3 => main_v111.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 1 → Nat :=
  let arg1 : BitVec 32 := BitVec.ofNat 32 (i 1).val
  let v3 : Index := Scalar.indexCast arg1
  ![v3.toNat]
def k2_cond3 (i : grid2.Coords) : BitVec 1 :=
  let arg1 : BitVec 32 := BitVec.ofNat 32 (i 1).val
  let c122_i32 : BitVec 32 := 122#32
  let v12 : BitVec 1 := Scalar.cmpi .eq arg1 c122_i32
  let v13 : BitVec 32 := Scalar.extui v12
  let c0_i32_2 : BitVec 32 := 0#32
  let v14 : BitVec 1 := Scalar.cmpi .ne v13 c0_i32_2
  v14

def cc2_transform_0 (k2_off1_inb : ∀ i : grid2.Coords, ∀ a, (k2_off1 i) a + S1.size a ≤ S50.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k2_off1_inb i)) numel1_S1
  let v2 : BitVec 32 := Scalar.maxsi arg1 v1
  let v3 : Index := Scalar.indexCast arg0
  let v4 : BitVec 32 := pf.at 3 (Rect.unit (s := S50) ![v3.toNat] S1.size (k2_off1_inb i)) numel1_S1
  let v5 : BitVec 32 := Scalar.minsi v2 v4
  let c0_i32 : BitVec 32 := 0#32
  let c0_i32_0 : BitVec 32 := 0#32
  ![c0_i32.toNat, v5.toNat]

def cc2_transform_1 (k2_off1_inb : ∀ i : grid2.Coords, ∀ a, (k2_off1 i) a + S1.size a ≤ S50.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k2_off1_inb i)) numel1_S1
  let v2 : BitVec 32 := Scalar.maxsi arg1 v1
  let v3 : Index := Scalar.indexCast arg0
  let v4 : BitVec 32 := pf.at 3 (Rect.unit (s := S50) ![v3.toNat] S1.size (k2_off1_inb i)) numel1_S1
  let v5 : BitVec 32 := Scalar.minsi v2 v4
  let c0_i32 : BitVec 32 := 0#32
  let c0_i32_0 : BitVec 32 := 0#32
  ![v5.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x5120 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5120x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![123, 125], ![false, false]⟩

abbrev pre4 : Pipeline.Prefetch sig := ⟨2, ![main_v86.idx, main_v89.idx], fun | 0 => main_v86.names | 1 => main_v89.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def k4_cond3 (i : grid4.Coords) : BitVec 1 :=
  let arg1 : BitVec 32 := BitVec.ofNat 32 (i 1).val
  let c124_i32 : BitVec 32 := 124#32
  let v12 : BitVec 1 := Scalar.cmpi .eq arg1 c124_i32
  let v13 : BitVec 32 := Scalar.extui v12
  let c0_i32_2 : BitVec 32 := 0#32
  let v14 : BitVec 1 := Scalar.cmpi .ne v13 c0_i32_2
  v14

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (k4_off1_inb : ∀ i : grid4.Coords, ∀ a, (k4_off1 i) a + S1.size a ≤ S123.size a) (numel1_S1 : S1.numel = 1) (pf : pre4.Contents (Elt F)) (i : grid4.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S123) ![v0.toNat] S1.size (k4_off1_inb i)) numel1_S1
  let v2 : BitVec 32 := Scalar.maxsi arg1 v1
  let v3 : Index := Scalar.indexCast arg0
  let v4 : BitVec 32 := pf.at 1 (Rect.unit (s := S123) ![v3.toNat] S1.size (k4_off1_inb i)) numel1_S1
  let v5 : BitVec 32 := Scalar.minsi v2 v4
  let c0_i32 : BitVec 32 := 0#32
  let c0_i32_0 : BitVec 32 := 0#32
  ![v5.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x5120 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S800x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5120x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S5120x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![50, 123], ![false, false]⟩

abbrev pre5 : Pipeline.Prefetch sig := ⟨4, ![main_v81.idx, main_v82.idx, main_v110.idx, main_v111.idx], fun | 0 => main_v81.names | 1 => main_v82.names | 2 => main_v110.names | 3 => main_v111.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def k5_off2 (i : grid5.Coords) : Fin 1 → Nat :=
  let arg1 : BitVec 32 := BitVec.ofNat 32 (i 1).val
  let v3 : Index := Scalar.indexCast arg1
  ![v3.toNat]
def k5_cond3 (i : grid5.Coords) : BitVec 1 :=
  let arg1 : BitVec 32 := BitVec.ofNat 32 (i 1).val
  let c122_i32 : BitVec 32 := 122#32
  let v12 : BitVec 1 := Scalar.cmpi .eq arg1 c122_i32
  let v13 : BitVec 32 := Scalar.extui v12
  let c0_i32_2 : BitVec 32 := 0#32
  let v14 : BitVec 1 := Scalar.cmpi .ne v13 c0_i32_2
  v14

def cc5_transform_0 (k5_off1_inb : ∀ i : grid5.Coords, ∀ a, (k5_off1 i) a + S1.size a ≤ S50.size a) (numel1_S1 : S1.numel = 1) (pf : pre5.Contents (Elt F)) (i : grid5.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k5_off1_inb i)) numel1_S1
  let v2 : BitVec 32 := Scalar.maxsi arg1 v1
  let v3 : Index := Scalar.indexCast arg0
  let v4 : BitVec 32 := pf.at 3 (Rect.unit (s := S50) ![v3.toNat] S1.size (k5_off1_inb i)) numel1_S1
  let v5 : BitVec 32 := Scalar.minsi v2 v4
  let c0_i32 : BitVec 32 := 0#32
  let c0_i32_0 : BitVec 32 := 0#32
  ![c0_i32.toNat, v5.toNat]

def cc5_transform_1 (k5_off1_inb : ∀ i : grid5.Coords, ∀ a, (k5_off1 i) a + S1.size a ≤ S50.size a) (numel1_S1 : S1.numel = 1) (pf : pre5.Contents (Elt F)) (i : grid5.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k5_off1_inb i)) numel1_S1
  let v2 : BitVec 32 := Scalar.maxsi arg1 v1
  let v3 : Index := Scalar.indexCast arg0
  let v4 : BitVec 32 := pf.at 3 (Rect.unit (s := S50) ![v3.toNat] S1.size (k5_off1_inb i)) numel1_S1
  let v5 : BitVec 32 := Scalar.minsi v2 v4
  let c0_i32 : BitVec 32 := 0#32
  let c0_i32_0 : BitVec 32 := 0#32
  ![v5.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x5120 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S5120x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![123, 125], ![false, false]⟩

abbrev pre7 : Pipeline.Prefetch sig := ⟨2, ![main_v86.idx, main_v89.idx], fun | 0 => main_v86.names | 1 => main_v89.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def k7_cond3 (i : grid7.Coords) : BitVec 1 :=
  let arg1 : BitVec 32 := BitVec.ofNat 32 (i 1).val
  let c124_i32 : BitVec 32 := 124#32
  let v12 : BitVec 1 := Scalar.cmpi .eq arg1 c124_i32
  let v13 : BitVec 32 := Scalar.extui v12
  let c0_i32_2 : BitVec 32 := 0#32
  let v14 : BitVec 1 := Scalar.cmpi .ne v13 c0_i32_2
  v14

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (k7_off1_inb : ∀ i : grid7.Coords, ∀ a, (k7_off1 i) a + S1.size a ≤ S123.size a) (numel1_S1 : S1.numel = 1) (pf : pre7.Contents (Elt F)) (i : grid7.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S123) ![v0.toNat] S1.size (k7_off1_inb i)) numel1_S1
  let v2 : BitVec 32 := Scalar.maxsi arg1 v1
  let v3 : Index := Scalar.indexCast arg0
  let v4 : BitVec 32 := pf.at 1 (Rect.unit (s := S123) ![v3.toNat] S1.size (k7_off1_inb i)) numel1_S1
  let v5 : BitVec 32 := Scalar.minsi v2 v4
  let c0_i32 : BitVec 32 := 0#32
  let c0_i32_0 : BitVec 32 := 0#32
  ![v5.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x5120 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S800x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S5120x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S5120x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![50, 123], ![false, false]⟩

abbrev pre8 : Pipeline.Prefetch sig := ⟨4, ![main_v81.idx, main_v82.idx, main_v110.idx, main_v111.idx], fun | 0 => main_v81.names | 1 => main_v82.names | 2 => main_v110.names | 3 => main_v111.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def k8_off2 (i : grid8.Coords) : Fin 1 → Nat :=
  let arg1 : BitVec 32 := BitVec.ofNat 32 (i 1).val
  let v3 : Index := Scalar.indexCast arg1
  ![v3.toNat]
def k8_cond3 (i : grid8.Coords) : BitVec 1 :=
  let arg1 : BitVec 32 := BitVec.ofNat 32 (i 1).val
  let c122_i32 : BitVec 32 := 122#32
  let v12 : BitVec 1 := Scalar.cmpi .eq arg1 c122_i32
  let v13 : BitVec 32 := Scalar.extui v12
  let c0_i32_2 : BitVec 32 := 0#32
  let v14 : BitVec 1 := Scalar.cmpi .ne v13 c0_i32_2
  v14

def cc8_transform_0 (k8_off1_inb : ∀ i : grid8.Coords, ∀ a, (k8_off1 i) a + S1.size a ≤ S50.size a) (numel1_S1 : S1.numel = 1) (pf : pre8.Contents (Elt F)) (i : grid8.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k8_off1_inb i)) numel1_S1
  let v2 : BitVec 32 := Scalar.maxsi arg1 v1
  let v3 : Index := Scalar.indexCast arg0
  let v4 : BitVec 32 := pf.at 3 (Rect.unit (s := S50) ![v3.toNat] S1.size (k8_off1_inb i)) numel1_S1
  let v5 : BitVec 32 := Scalar.minsi v2 v4
  let c0_i32 : BitVec 32 := 0#32
  let c0_i32_0 : BitVec 32 := 0#32
  ![c0_i32.toNat, v5.toNat]

def cc8_transform_1 (k8_off1_inb : ∀ i : grid8.Coords, ∀ a, (k8_off1 i) a + S1.size a ≤ S50.size a) (numel1_S1 : S1.numel = 1) (pf : pre8.Contents (Elt F)) (i : grid8.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k8_off1_inb i)) numel1_S1
  let v2 : BitVec 32 := Scalar.maxsi arg1 v1
  let v3 : Index := Scalar.indexCast arg0
  let v4 : BitVec 32 := pf.at 3 (Rect.unit (s := S50) ![v3.toNat] S1.size (k8_off1_inb i)) numel1_S1
  let v5 : BitVec 32 := Scalar.minsi v2 v4
  let c0_i32 : BitVec 32 := 0#32
  let c0_i32_0 : BitVec 32 := 0#32
  ![v5.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x5120 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S5120x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![123, 125], ![false, false]⟩

abbrev pre10 : Pipeline.Prefetch sig := ⟨2, ![main_v86.idx, main_v89.idx], fun | 0 => main_v86.names | 1 => main_v89.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def k10_cond3 (i : grid10.Coords) : BitVec 1 :=
  let arg1 : BitVec 32 := BitVec.ofNat 32 (i 1).val
  let c124_i32 : BitVec 32 := 124#32
  let v12 : BitVec 1 := Scalar.cmpi .eq arg1 c124_i32
  let v13 : BitVec 32 := Scalar.extui v12
  let c0_i32_2 : BitVec 32 := 0#32
  let v14 : BitVec 1 := Scalar.cmpi .ne v13 c0_i32_2
  v14

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (k10_off1_inb : ∀ i : grid10.Coords, ∀ a, (k10_off1 i) a + S1.size a ≤ S123.size a) (numel1_S1 : S1.numel = 1) (pf : pre10.Contents (Elt F)) (i : grid10.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S123) ![v0.toNat] S1.size (k10_off1_inb i)) numel1_S1
  let v2 : BitVec 32 := Scalar.maxsi arg1 v1
  let v3 : Index := Scalar.indexCast arg0
  let v4 : BitVec 32 := pf.at 1 (Rect.unit (s := S123) ![v3.toNat] S1.size (k10_off1_inb i)) numel1_S1
  let v5 : BitVec 32 := Scalar.minsi v2 v4
  let c0_i32 : BitVec 32 := 0#32
  let c0_i32_0 : BitVec 32 := 0#32
  ![v5.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1x5120 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S800x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S5120x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S5120x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![50, 123], ![false, false]⟩

abbrev pre11 : Pipeline.Prefetch sig := ⟨4, ![main_v81.idx, main_v82.idx, main_v110.idx, main_v111.idx], fun | 0 => main_v81.names | 1 => main_v82.names | 2 => main_v110.names | 3 => main_v111.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def k11_off2 (i : grid11.Coords) : Fin 1 → Nat :=
  let arg1 : BitVec 32 := BitVec.ofNat 32 (i 1).val
  let v3 : Index := Scalar.indexCast arg1
  ![v3.toNat]
def k11_cond3 (i : grid11.Coords) : BitVec 1 :=
  let arg1 : BitVec 32 := BitVec.ofNat 32 (i 1).val
  let c122_i32 : BitVec 32 := 122#32
  let v12 : BitVec 1 := Scalar.cmpi .eq arg1 c122_i32
  let v13 : BitVec 32 := Scalar.extui v12
  let c0_i32_2 : BitVec 32 := 0#32
  let v14 : BitVec 1 := Scalar.cmpi .ne v13 c0_i32_2
  v14

def cc11_transform_0 (k11_off1_inb : ∀ i : grid11.Coords, ∀ a, (k11_off1 i) a + S1.size a ≤ S50.size a) (numel1_S1 : S1.numel = 1) (pf : pre11.Contents (Elt F)) (i : grid11.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k11_off1_inb i)) numel1_S1
  let v2 : BitVec 32 := Scalar.maxsi arg1 v1
  let v3 : Index := Scalar.indexCast arg0
  let v4 : BitVec 32 := pf.at 3 (Rect.unit (s := S50) ![v3.toNat] S1.size (k11_off1_inb i)) numel1_S1
  let v5 : BitVec 32 := Scalar.minsi v2 v4
  let c0_i32 : BitVec 32 := 0#32
  let c0_i32_0 : BitVec 32 := 0#32
  ![c0_i32.toNat, v5.toNat]

def cc11_transform_1 (k11_off1_inb : ∀ i : grid11.Coords, ∀ a, (k11_off1 i) a + S1.size a ≤ S50.size a) (numel1_S1 : S1.numel = 1) (pf : pre11.Contents (Elt F)) (i : grid11.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S50) ![v0.toNat] S1.size (k11_off1_inb i)) numel1_S1
  let v2 : BitVec 32 := Scalar.maxsi arg1 v1
  let v3 : Index := Scalar.indexCast arg0
  let v4 : BitVec 32 := pf.at 3 (Rect.unit (s := S50) ![v3.toNat] S1.size (k11_off1_inb i)) numel1_S1
  let v5 : BitVec 32 := Scalar.minsi v2 v4
  let c0_i32 : BitVec 32 := 0#32
  let c0_i32_0 : BitVec 32 := 0#32
  ![v5.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1x5120 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S5120x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, true]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false, false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, false]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S2000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  reducesTo_S625000_S_d0 : S625000.ReducesTo [0] S_
  h_S_ : 0 < S_.numel
  bcast_S_S625000 : S_.BroadcastsInDim S625000 (![] : Fin 0 → Fin S625000.rank)
  bcast_S625000_S625000x1_0 : S625000.BroadcastsInDim S625000x1 (![0] : Fin 1 → Fin S625000x1.rank)
  bcast_S_S4760 : S_.BroadcastsInDim S4760 (![] : Fin 0 → Fin S4760.rank)
  concatenates_S625000_S4760_S629760_d0 : Shape.Concatenates [S625000, S4760] S629760 0
  bcast_S_S629760 : S_.BroadcastsInDim S629760 (![] : Fin 0 → Fin S629760.rank)
  bcast_S629760_S629760x1_0 : S629760.BroadcastsInDim S629760x1 (![0] : Fin 1 → Fin S629760x1.rank)
  shapeCasts_S629760_S123x5120 : S629760.ShapeCasts S123x5120
  reducesTo_S123x5120_S123_d1 : S123x5120.ReducesTo [1] S123
  bcast_S_S123 : S_.BroadcastsInDim S123 (![] : Fin 0 → Fin S123.rank)
  bcast_S123_S1x123_1 : S123.BroadcastsInDim S1x123 (![1] : Fin 1 → Fin S1x123.rank)
  bcast_S50_S50x1_0 : S50.BroadcastsInDim S50x1 (![0] : Fin 1 → Fin S50x1.rank)
  bcast_S1x123_S50x123_0_1 : S1x123.BroadcastsInDim S50x123 (![0, 1] : Fin 2 → Fin S50x123.rank)
  bcast_S50x1_S50x123_0_1 : S50x1.BroadcastsInDim S50x123 (![0, 1] : Fin 2 → Fin S50x123.rank)
  bcast_S_S50x123 : S_.BroadcastsInDim S50x123 (![] : Fin 0 → Fin S50x123.rank)
  reducesTo_S50x123_S50_d1 : S50x123.ReducesTo [1] S50
  bcast_S_S50 : S_.BroadcastsInDim S50 (![] : Fin 0 → Fin S50.rank)
  shapeCasts_S629760_S1x629760 : S629760.ShapeCasts S1x629760
  shapeCasts_S629760_S629760x1 : S629760.ShapeCasts S629760x1
  pads_S64x32_S64x128_000_0960 : S64x32.Pads (![0, 0] : Fin 2 → Nat) ![0, 96] ![0, 0] S64x128
  pads_S32_S128_0960 : S32.Pads (![0] : Fin 1 → Nat) ![96] ![0] S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  numel1_S1 : S1.numel = 1
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  iota_S800x1_d0_w32 : S800x1.Iotas .tc 32 [0]
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S800x5120 : S1x5120.Broadcasts S800x5120
  broadcasts_S800x1_S800x5120 : S800x1.Broadcasts S800x5120
  natLt_1_32 : 1 < 32
  inb_S800x128_S800x128_0_0 : ∀ a, (![0, 0] : Fin 2 → Nat) a + S800x128.size a ≤ S800x128.size a
  h_S800x128 : 0 < S800x128.numel
  shapeCasts_S800x128_S800x128 : S800x128.ShapeCasts S800x128
  inb_S5120x1_S5120x1_0_0 : ∀ a, (![0, 0] : Fin 2 → Nat) a + S5120x1.size a ≤ S5120x1.size a
  h_S5120x1 : 0 < S5120x1.numel
  shapeCasts_S5120x1_S5120x1 : S5120x1.ShapeCasts S5120x1
  broadcasts_S5120x1_S5120x128 : S5120x1.Broadcasts S5120x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  iota_S2000x1_d0_w32 : S2000x1.Iotas .tc 32 [0]
  broadcasts_S1x5120_S2000x5120 : S1x5120.Broadcasts S2000x5120
  broadcasts_S2000x1_S2000x5120 : S2000x1.Broadcasts S2000x5120
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_0_0_0 : S3x128x128.Slices ![0, 0, 0] S1x128x128
  slices_S4x128x128_S1x128x128_1_0_0 : S4x128x128.Slices ![1, 0, 0] S1x128x128
  slices_S4x128_S1x128_1_0 : S4x128.Slices ![1, 0] S1x128
  slices_S3x128x128_S1x128x128_1_0_0 : S3x128x128.Slices ![1, 0, 0] S1x128x128
  slices_S4x128x128_S1x128x128_2_0_0 : S4x128x128.Slices ![2, 0, 0] S1x128x128
  slices_S4x128_S1x128_2_0 : S4x128.Slices ![2, 0] S1x128
  slices_S3x128x128_S1x128x128_2_0_0 : S3x128x128.Slices ![2, 0, 0] S1x128x128
  slices_S4x128x128_S1x128x128_3_0_0 : S4x128x128.Slices ![3, 0, 0] S1x128x128
  slices_S4x128_S1x128_3_0 : S4x128.Slices ![3, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S100000x128_S100000x32_0_0 : S100000x128.Slices ![0, 0] S100000x32
  gather_S1000x128_S100000x1_S100000x128_1_0_n_n_0_1_1128_wf : GatherDims.WF S1000x128 S100000x1 S100000x128 [1] [0] [] [0] [] 1 ![1, 128]
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  gather_S629760_S629760x1_S629760_n_0_n_n_0_1_1_wf : GatherDims.WF S629760 S629760x1 S629760 [] [0] [] [0] [] 1 ![1]
  dot_S2000x128_S128x128_S2000x128_1_0_0_1_n_n_wf : DotDims.WF S2000x128 S128x128 S2000x128 [1] [0] [0] [1] [] []
  dot_S800x5120_S800x128_S5120x128_0_0_1_1_n_n_wf : DotDims.WF S800x5120 S800x128 S5120x128 [0] [0] [1] [1] [] []
  dot_S2000x5120_S5120x128_S2000x128_1_0_0_1_n_n_wf : DotDims.WF S2000x5120 S5120x128 S2000x128 [1] [0] [0] [1] [] []
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  k1_off1_inb : ∀ i : grid1.Coords, ∀ a, (k1_off1 i) a + S1.size a ≤ S123.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5120.size a ≤ S1x629760.size a
  hwx1_0 : ∀ i : grid1.Coords, EltTy.bits .i32 = 32 ∨ (Rect.block (s := S1x629760) S1x5120.size (cc1_transform_0 i) (hinb1_0 i)).WholeWords (EltTy.packing .i32)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120x1.size a ≤ S629760x1.size a
  hwx1_2 : ∀ i : grid1.Coords, EltTy.bits .f32 = 32 ∨ (Rect.block (s := S629760x1) S5120x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5120x128.size a ≤ S629760x128.size a
  hwx1_3 : ∀ i : grid1.Coords, EltTy.bits .f32 = 32 ∨ (Rect.block (s := S629760x128) S5120x128.size (cc1_transform_3 i) (hinb1_3 i)).WholeWords (EltTy.packing .f32)
  hrank2 : 0 < grid2.rank
  k2_off1_inb : ∀ i : grid2.Coords, ∀ a, (k2_off1 i) a + S1.size a ≤ S50.size a
  k2_off2_inb : ∀ i : grid2.Coords, ∀ a, (k2_off2 i) a + S1.size a ≤ S123.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  k4_off1_inb : ∀ i : grid4.Coords, ∀ a, (k4_off1 i) a + S1.size a ≤ S123.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x5120.size a ≤ S1x629760.size a
  hwx4_0 : ∀ i : grid4.Coords, EltTy.bits .i32 = 32 ∨ (Rect.block (s := S1x629760) S1x5120.size (cc4_transform_0 i) (hinb4_0 i)).WholeWords (EltTy.packing .i32)
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5120x1.size a ≤ S629760x1.size a
  hwx4_2 : ∀ i : grid4.Coords, EltTy.bits .f32 = 32 ∨ (Rect.block (s := S629760x1) S5120x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5120x128.size a ≤ S629760x128.size a
  hwx4_3 : ∀ i : grid4.Coords, EltTy.bits .f32 = 32 ∨ (Rect.block (s := S629760x128) S5120x128.size (cc4_transform_3 i) (hinb4_3 i)).WholeWords (EltTy.packing .f32)
  hrank5 : 0 < grid5.rank
  k5_off1_inb : ∀ i : grid5.Coords, ∀ a, (k5_off1 i) a + S1.size a ≤ S50.size a
  k5_off2_inb : ∀ i : grid5.Coords, ∀ a, (k5_off2 i) a + S1.size a ≤ S123.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  k7_off1_inb : ∀ i : grid7.Coords, ∀ a, (k7_off1 i) a + S1.size a ≤ S123.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x5120.size a ≤ S1x629760.size a
  hwx7_0 : ∀ i : grid7.Coords, EltTy.bits .i32 = 32 ∨ (Rect.block (s := S1x629760) S1x5120.size (cc7_transform_0 i) (hinb7_0 i)).WholeWords (EltTy.packing .i32)
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5120x1.size a ≤ S629760x1.size a
  hwx7_2 : ∀ i : grid7.Coords, EltTy.bits .f32 = 32 ∨ (Rect.block (s := S629760x1) S5120x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5120x128.size a ≤ S629760x128.size a
  hwx7_3 : ∀ i : grid7.Coords, EltTy.bits .f32 = 32 ∨ (Rect.block (s := S629760x128) S5120x128.size (cc7_transform_3 i) (hinb7_3 i)).WholeWords (EltTy.packing .f32)
  hrank8 : 0 < grid8.rank
  k8_off1_inb : ∀ i : grid8.Coords, ∀ a, (k8_off1 i) a + S1.size a ≤ S50.size a
  k8_off2_inb : ∀ i : grid8.Coords, ∀ a, (k8_off2 i) a + S1.size a ≤ S123.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S100000x128.size a
  hwx8_2 : ∀ i : grid8.Coords, EltTy.bits .f32 = 32 ∨ (Rect.block (s := S100000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S100000x128.size a
  hwx8_5 : ∀ i : grid8.Coords, EltTy.bits .f32 = 32 ∨ (Rect.block (s := S100000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hrank10 : 0 < grid10.rank
  k10_off1_inb : ∀ i : grid10.Coords, ∀ a, (k10_off1 i) a + S1.size a ≤ S123.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x5120.size a ≤ S1x629760.size a
  hwx10_0 : ∀ i : grid10.Coords, EltTy.bits .i32 = 32 ∨ (Rect.block (s := S1x629760) S1x5120.size (cc10_transform_0 i) (hinb10_0 i)).WholeWords (EltTy.packing .i32)
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5120x1.size a ≤ S629760x1.size a
  hwx10_2 : ∀ i : grid10.Coords, EltTy.bits .f32 = 32 ∨ (Rect.block (s := S629760x1) S5120x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5120x128.size a ≤ S629760x128.size a
  hwx10_3 : ∀ i : grid10.Coords, EltTy.bits .f32 = 32 ∨ (Rect.block (s := S629760x128) S5120x128.size (cc10_transform_3 i) (hinb10_3 i)).WholeWords (EltTy.packing .f32)
  hrank11 : 0 < grid11.rank
  k11_off1_inb : ∀ i : grid11.Coords, ∀ a, (k11_off1 i) a + S1.size a ≤ S50.size a
  k11_off2_inb : ∀ i : grid11.Coords, ∀ a, (k11_off2 i) a + S1.size a ≤ S123.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S100000x128.size a
  hwx11_2 : ∀ i : grid11.Coords, EltTy.bits .f32 = 32 ∨ (Rect.block (s := S100000x128) S2000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S100000x128.size a
  hwx11_5 : ∀ i : grid11.Coords, EltTy.bits .f32 = 32 ∨ (Rect.block (s := S100000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x64.size a ≤ S128x64.size a
  hwx12_3 : ∀ i : grid12.Coords, EltTy.bits .f32 = 32 ∨ (Rect.block (s := S128x64) S128x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x128.size a ≤ S64x128.size a
  hwx12_5 : ∀ i : grid12.Coords, EltTy.bits .f32 = 32 ∨ (Rect.block (s := S64x128) S64x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S2000x128.size a ≤ S100000x128.size a
  hwx12_7 : ∀ i : grid12.Coords, EltTy.bits .f32 = 32 ∨ (Rect.block (s := S100000x128) S2000x128.size (cc12_transform_7 i) (hinb12_7 i)).WholeWords (EltTy.packing .f32)

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def comparator_i32_i32_d0 : BitVec 32 × BitVec 32 → BitVec 32 × BitVec 32 → BitVec 1 :=
  fun l r =>
    let v2 := IntOp.cmpi .slt l.1 r.1
    v2
def gather_S629760_S629760x1_S629760_n_0_n_n_0_1_1 : GatherDims S629760 S629760x1 S629760 where
  offsetDims := []
  collapsedSliceDims := [0]
  operandBatchingDims := []
  startIndicesBatchingDims := []
  startIndexMap := [0]
  indexVectorDim := 1
  sliceSizes := ![1]
  wf := gather_S629760_S629760x1_S629760_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S800x5120_S800x128_S5120x128_0_0_1_1_n_n : DotDims S800x5120 S800x128 S5120x128 where
  lhsContracting := [0]
  rhsContracting := [0]
  lhsNonContracting := [1]
  rhsNonContracting := [1]
  lhsBatch := []
  rhsBatch := []
  wf := dot_S800x5120_S800x128_S5120x128_0_0_1_1_n_n_wf
def dot_S2000x5120_S5120x128_S2000x128_1_0_0_1_n_n : DotDims S2000x5120 S5120x128 S2000x128 where
  lhsContracting := [1]
  rhsContracting := [0]
  lhsNonContracting := [0]
  rhsNonContracting := [1]
  lhsBatch := []
  rhsBatch := []
  wf := dot_S2000x5120_S5120x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v118) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v112) S1x5120.size reads1_0 false false 2 stage1_0 sem1_0 nbuf1_0 hstage1_0

abbrev spec1_1 : Pipeline.WinSpec sig grid1.rank :=
  Pipeline.WinSpec.ofSpec (Memref.whole main_v118) S800x128.size reads1_1 false false 2 stage1_1 sem1_1 nbuf1_1 hstage1_1

abbrev spec1_2 : Pipeline.WinSpec sig grid1.rank :=
  Pipeline.WinSpec.ofSpec (Memref.whole main_v114) S5120x1.size reads1_2 false false 2 stage1_2 sem1_2 nbuf1_2 hstage1_2

abbrev spec1_3 : Pipeline.WinSpec sig grid1.rank :=
  Pipeline.WinSpec.ofSpec (Memref.whole main_v119) S5120x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 k1_off1_inb numel1_S1 pf | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S800x128.size a ≤ S100000x128.size a), EltTy.bits .f32 = 32 ∨ (Rect.block (s := S100000x128) S800x128.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev spec2_0 : Pipeline.WinSpec sig grid2.rank :=
  Pipeline.WinSpec.ofSpec (Memref.whole main_v113) S1x5120.size reads2_0 false false 2 stage2_0 sem2_0 nbuf2_0 hstage2_0

abbrev spec2_1 : Pipeline.WinSpec sig grid2.rank :=
  Pipeline.WinSpec.ofSpec (Memref.whole main_v119) S5120x128.size reads2_1 false false 2 stage2_1 sem2_1 nbuf2_1 hstage2_1

abbrev spec2_2 : Pipeline.WinSpec sig grid2.rank :=
  Pipeline.WinSpec.ofSpec (Memref.whole main_v6) S2000x128.size reads2_2 false false 2 stage2_2 sem2_2 nbuf2_2 hstage2_2

abbrev spec2_3 : Pipeline.WinSpec sig grid2.rank :=
  Pipeline.WinSpec.ofSpec (Memref.whole main_v121) S128x128.size reads2_3 false true 1 stage2_3 sem2_3 nbuf2_3 hstage2_3

abbrev spec2_4 : Pipeline.WinSpec sig grid2.rank :=
  Pipeline.WinSpec.ofSpec (Memref.whole main_v124) S1x128.size reads2_4 false true 1 stage2_4 sem2_4 nbuf2_4 hstage2_4

abbrev spec2_5 : Pipeline.WinSpec sig grid2.rank :=
  Pipeline.WinSpec.ofSpec (Memref.whole main_v125) S2000x128.size reads2_5 true false 2 stage2_5 sem2_5 nbuf2_5 hstage2_5

abbrev spec2 : Fin 6 → Pipeline.WinSpec sig grid2.rank := fun | 0 => spec2_0 | 1 => spec2_1 | 2 => spec2_2 | 3 => spec2_3 | 4 => spec2_4 | 5 => spec2_5 | ⟨_ + 6, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | 5 => nbuf2_5 | ⟨_ + 6, h⟩ => absurd h (Nat.not_lt.2 (Nat.le_add_left _ _))
abbrev ix2 (pf : pre2.Contents (Elt F)) : (w : Fin 6) → grid2.Coords → Fin (spec2 w).shape.rank → Nat := fun | 0 => cc2_transform_0 k2_off1_inb numel1_S1 pf | 1 => cc2_transform_1 k2_off1_inb numel1_S1 pf | 2 => cc2_transform_2 | 3 => cc2_transform_3 | 4 => cc2_transform_4 | 5 => cc2_transform_5 | ⟨_ + 6, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | 3 => hreads2_3 | 4 => hreads2_4 | 5 => hreads2_5 | ⟨_ + 6, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x5120.size a ≤ S1x629760.size a), EltTy.bits .i32 = 32 ∨ (Rect.block (s := S1x629760) S1x5120.size (cc2_transform_0 k2_off1_inb numel1_S1 pf i) h).WholeWords (EltTy.packing .i32)) ∧
  (∀ i : grid2.Coords, ∃ h : (∀ a, (cc2_transform_1 k2_off1_inb numel1_S1 pf i a + 1) * S5120x128.size a ≤ S629760x128.size a), EltTy.bits .f32 = 32 ∨ (Rect.block (s := S629760x128) S5120x128.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | 3 => hinb2_3 | 4 => hinb2_4 | 5 => hinb2_5 | ⟨_ + 6, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | 3 => hwx2_3 | 4 => hwx2_4 | 5 => hwx2_5 | ⟨_ + 6, h⟩ => absurd h (Nat.not_lt.2 (Nat.le_add_left _ _))
abbrev idle2 : Fin 6 → grid2.Coords → Bool := fun | 0 => fun _ => false | 1 => fun _ => false | 2 => fun _ => false | 3 => fun _ => false | 4 => fun _ => false | 5 => fun i => !(k2_cond3 i == 1#1) | ⟨_ + 6, h⟩ => absurd h (Nat.not_lt.2 (Nat.le_add_left _ _))

abbrev win3_0 : Pipeline.Window sig grid3 :=
  Pipeline.Window.ofSpec (Memref.whole main_v125) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v127) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v128) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev spec4_0 : Pipeline.WinSpec sig grid4.rank :=
  Pipeline.WinSpec.ofSpec (Memref.whole main_v112) S1x5120.size reads4_0 false false 2 stage4_0 sem4_0 nbuf4_0 hstage4_0

abbrev spec4_1 : Pipeline.WinSpec sig grid4.rank :=
  Pipeline.WinSpec.ofSpec (Memref.whole main_v128) S800x128.size reads4_1 false false 2 stage4_1 sem4_1 nbuf4_1 hstage4_1

abbrev spec4_2 : Pipeline.WinSpec sig grid4.rank :=
  Pipeline.WinSpec.ofSpec (Memref.whole main_v114) S5120x1.size reads4_2 false false 2 stage4_2 sem4_2 nbuf4_2 hstage4_2

abbrev spec4_3 : Pipeline.WinSpec sig grid4.rank :=
  Pipeline.WinSpec.ofSpec (Memref.whole main_v129) S5120x128.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 | 1 => cc4_transform_1 k4_off1_inb numel1_S1 pf | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 pf | 2 => hreads4_2 | 3 => hreads4_3 | ⟨_ + 4, h⟩ => absurd h (Nat.not_lt.2 (Nat.le_add_left _ _))
def ok4 (pf : pre4.Contents (Elt F)) : Prop :=
  (∀ i : grid4.Coords, ∃ h : (∀ a, (cc4_transform_1 k4_off1_inb numel1_S1 pf i a + 1) * S800x128.size a ≤ S100000x128.size a), EltTy.bits .f32 = 32 ∨ (Rect.block (s := S100000x128) S800x128.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => hinb4_0 | 1 => fun i a => (hok i).elim fun h _ => h a | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => hwx4_0 | 1 => fun i => (hok i).elim fun _ h => h | 2 => hwx4_2 | 3 => hwx4_3 | ⟨_ + 4, h⟩ => absurd h (Nat.not_lt.2 (Nat.le_add_left _ _))
abbrev idle4 : Fin 4 → grid4.Coords → Bool := fun | 0 => fun _ => false | 1 => fun _ => false | 2 => fun _ => false | 3 => fun i => !(k4_cond3 i == 1#1) | ⟨_ + 4, h⟩ => absurd h (Nat.not_lt.2 (Nat.le_add_left _ _))

abbrev spec5_0 : Pipeline.WinSpec sig grid5.rank :=
  Pipeline.WinSpec.ofSpec (Memref.whole main_v113) S1x5120.size reads5_0 false false 2 stage5_0 sem5_0 nbuf5_0 hstage5_0

abbrev spec5_1 : Pipeline.WinSpec sig grid5.rank :=
  Pipeline.WinSpec.ofSpec (Memref.whole main_v129) S5120x128.size reads5_1 false false 2 stage5_1 sem5_1 nbuf5_1 hstage5_1

abbrev spec5_2 : Pipeline.WinSpec sig grid5.rank :=
  Pipeline.WinSpec.ofSpec (Memref.whole main_v6) S2000x128.size reads5_2 false false 2 stage5_2 sem5_2 nbuf5_2 hstage5_2

abbrev spec5_3 : Pipeline.WinSpec sig grid5.rank :=
  Pipeline.WinSpec.ofSpec (Memref.whole main_v131) S128x128.size reads5_3 false true 1 stage5_3 sem5_3 nbuf5_3 hstage5_3

abbrev spec5_4 : Pipeline.WinSpec sig grid5.rank :=
  Pipeline.WinSpec.ofSpec (Memref.whole main_v134) S1x128.size reads5_4 false true 1 stage5_4 sem5_4 nbuf5_4 hstage5_4

abbrev spec5_5 : Pipeline.WinSpec sig grid5.rank :=
  Pipeline.WinSpec.ofSpec (Memref.whole main_v135) S2000x128.size reads5_5 true false 2 stage5_5 sem5_5 nbuf5_5 hstage5_5

abbrev spec5 : Fin 6 → Pipeline.WinSpec sig grid5.rank := fun | 0 => spec5_0 | 1 => spec5_1 | 2 => spec5_2 | 3 => spec5_3 | 4 => spec5_4 | 5 => spec5_5 | ⟨_ + 6, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | 5 => nbuf5_5 | ⟨_ + 6, h⟩ => absurd h (Nat.not_lt.2 (Nat.le_add_left _ _))
abbrev ix5 (pf : pre5.Contents (Elt F)) : (w : Fin 6) → grid5.Coords → Fin (spec5 w).shape.rank → Nat := fun | 0 => cc5_transform_0 k5_off1_inb numel1_S1 pf | 1 => cc5_transform_1 k5_off1_inb numel1_S1 pf | 2 => cc5_transform_2 | 3 => cc5_transform_3 | 4 => cc5_transform_4 | 5 => cc5_transform_5 | ⟨_ + 6, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | 3 => hreads5_3 | 4 => hreads5_4 | 5 => hreads5_5 | ⟨_ + 6, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x5120.size a ≤ S1x629760.size a), EltTy.bits .i32 = 32 ∨ (Rect.block (s := S1x629760) S1x5120.size (cc5_transform_0 k5_off1_inb numel1_S1 pf i) h).WholeWords (EltTy.packing .i32)) ∧
  (∀ i : grid5.Coords, ∃ h : (∀ a, (cc5_transform_1 k5_off1_inb numel1_S1 pf i a + 1) * S5120x128.size a ≤ S629760x128.size a), EltTy.bits .f32 = 32 ∨ (Rect.block (s := S629760x128) S5120x128.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | 3 => hinb5_3 | 4 => hinb5_4 | 5 => hinb5_5 | ⟨_ + 6, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | 3 => hwx5_3 | 4 => hwx5_4 | 5 => hwx5_5 | ⟨_ + 6, h⟩ => absurd h (Nat.not_lt.2 (Nat.le_add_left _ _))
abbrev idle5 : Fin 6 → grid5.Coords → Bool := fun | 0 => fun _ => false | 1 => fun _ => false | 2 => fun _ => false | 3 => fun _ => false | 4 => fun _ => false | 5 => fun i => !(k5_cond3 i == 1#1) | ⟨_ + 6, h⟩ => absurd h (Nat.not_lt.2 (Nat.le_add_left _ _))

abbrev win6_0 : Pipeline.Window sig grid6 :=
  Pipeline.Window.ofSpec (Memref.whole main_v135) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v137) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v138) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev spec7_0 : Pipeline.WinSpec sig grid7.rank :=
  Pipeline.WinSpec.ofSpec (Memref.whole main_v112) S1x5120.size reads7_0 false false 2 stage7_0 sem7_0 nbuf7_0 hstage7_0

abbrev spec7_1 : Pipeline.WinSpec sig grid7.rank :=
  Pipeline.WinSpec.ofSpec (Memref.whole main_v138) S800x128.size reads7_1 false false 2 stage7_1 sem7_1 nbuf7_1 hstage7_1

abbrev spec7_2 : Pipeline.WinSpec sig grid7.rank :=
  Pipeline.WinSpec.ofSpec (Memref.whole main_v114) S5120x1.size reads7_2 false false 2 stage7_2 sem7_2 nbuf7_2 hstage7_2

abbrev spec7_3 : Pipeline.WinSpec sig grid7.rank :=
  Pipeline.WinSpec.ofSpec (Memref.whole main_v139) S5120x128.size reads7_3 true false 2 stage7_3 sem7_3 nbuf7_3 hstage7_3

abbrev spec7 : Fin 4 → Pipeline.WinSpec sig grid7.rank := fun | 0 => spec7_0 | 1 => spec7_1 | 2 => spec7_2 | 3 => spec7_3 | ⟨_ + 4, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | ⟨_ + 4, h⟩ => absurd h (Nat.not_lt.2 (Nat.le_add_left _ _))
abbrev ix7 (pf : pre7.Contents (Elt F)) : (w : Fin 4) → grid7.Coords → Fin (spec7 w).shape.rank → Nat := fun | 0 => cc7_transform_0 | 1 => cc7_transform_1 k7_off1_inb numel1_S1 pf | 2 => cc7_transform_2 | 3 => cc7_transform_3 | ⟨_ + 4, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 pf | 2 => hreads7_2 | 3 => hreads7_3 | ⟨_ + 4, h⟩ => absurd h (Nat.not_lt.2 (Nat.le_add_left _ _))
def ok7 (pf : pre7.Contents (Elt F)) : Prop :=
  (∀ i : grid7.Coords, ∃ h : (∀ a, (cc7_transform_1 k7_off1_inb numel1_S1 pf i a + 1) * S800x128.size a ≤ S100000x128.size a), EltTy.bits .f32 = 32 ∨ (Rect.block (s := S100000x128) S800x128.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => hinb7_0 | 1 => fun i a => (hok i).elim fun h _ => h a | 2 => hinb7_2 | 3 => hinb7_3 | ⟨_ + 4, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => hwx7_0 | 1 => fun i => (hok i).elim fun _ h => h | 2 => hwx7_2 | 3 => hwx7_3 | ⟨_ + 4, h⟩ => absurd h (Nat.not_lt.2 (Nat.le_add_left _ _))
abbrev idle7 : Fin 4 → grid7.Coords → Bool := fun | 0 => fun _ => false | 1 => fun _ => false | 2 => fun _ => false | 3 => fun i => !(k7_cond3 i == 1#1) | ⟨_ + 4, h⟩ => absurd h (Nat.not_lt.2 (Nat.le_add_left _ _))

abbrev spec8_0 : Pipeline.WinSpec sig grid8.rank :=
  Pipeline.WinSpec.ofSpec (Memref.whole main_v113) S1x5120.size reads8_0 false false 2 stage8_0 sem8_0 nbuf8_0 hstage8_0

abbrev spec8_1 : Pipeline.WinSpec sig grid8.rank :=
  Pipeline.WinSpec.ofSpec (Memref.whole main_v139) S5120x128.size reads8_1 false false 2 stage8_1 sem8_1 nbuf8_1 hstage8_1

abbrev spec8_2 : Pipeline.WinSpec sig grid8.rank :=
  Pipeline.WinSpec.ofSpec (Memref.whole main_v6) S2000x128.size reads8_2 false false 2 stage8_2 sem8_2 nbuf8_2 hstage8_2

abbrev spec8_3 : Pipeline.WinSpec sig grid8.rank :=
  Pipeline.WinSpec.ofSpec (Memref.whole main_v141) S128x128.size reads8_3 false true 1 stage8_3 sem8_3 nbuf8_3 hstage8_3

abbrev spec8_4 : Pipeline.WinSpec sig grid8.rank :=
  Pipeline.WinSpec.ofSpec (Memref.whole main_v144) S1x128.size reads8_4 false true 1 stage8_4 sem8_4 nbuf8_4 hstage8_4

abbrev spec8_5 : Pipeline.WinSpec sig grid8.rank :=
  Pipeline.WinSpec.ofSpec (Memref.whole main_v145) S2000x128.size reads8_5 true false 2 stage8_5 sem8_5 nbuf8_5 hstage8_5

abbrev spec8 : Fin 6 → Pipeline.WinSpec sig grid8.rank := fun | 0 => spec8_0 | 1 => spec8_1 | 2 => spec8_2 | 3 => spec8_3 | 4 => spec8_4 | 5 => spec8_5 | ⟨_ + 6, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | 5 => nbuf8_5 | ⟨_ + 6, h⟩ => absurd h (Nat.not_lt.2 (Nat.le_add_left _ _))
abbrev ix8 (pf : pre8.Contents (Elt F)) : (w : Fin 6) → grid8.Coords → Fin (spec8 w).shape.rank → Nat := fun | 0 => cc8_transform_0 k8_off1_inb numel1_S1 pf | 1 => cc8_transform_1 k8_off1_inb numel1_S1 pf | 2 => cc8_transform_2 | 3 => cc8_transform_3 | 4 => cc8_transform_4 | 5 => cc8_transform_5 | ⟨_ + 6, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | 3 => hreads8_3 | 4 => hreads8_4 | 5 => hreads8_5 | ⟨_ + 6, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x5120.size a ≤ S1x629760.size a), EltTy.bits .i32 = 32 ∨ (Rect.block (s := S1x629760) S1x5120.size (cc8_transform_0 k8_off1_inb numel1_S1 pf i) h).WholeWords (EltTy.packing .i32)) ∧
  (∀ i : grid8.Coords, ∃ h : (∀ a, (cc8_transform_1 k8_off1_inb numel1_S1 pf i a + 1) * S5120x128.size a ≤ S629760x128.size a), EltTy.bits .f32 = 32 ∨ (Rect.block (s := S629760x128) S5120x128.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | 3 => hinb8_3 | 4 => hinb8_4 | 5 => hinb8_5 | ⟨_ + 6, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | 3 => hwx8_3 | 4 => hwx8_4 | 5 => hwx8_5 | ⟨_ + 6, h⟩ => absurd h (Nat.not_lt.2 (Nat.le_add_left _ _))
abbrev idle8 : Fin 6 → grid8.Coords → Bool := fun | 0 => fun _ => false | 1 => fun _ => false | 2 => fun _ => false | 3 => fun _ => false | 4 => fun _ => false | 5 => fun i => !(k8_cond3 i == 1#1) | ⟨_ + 6, h⟩ => absurd h (Nat.not_lt.2 (Nat.le_add_left _ _))

abbrev win9_0 : Pipeline.Window sig grid9 :=
  Pipeline.Window.ofSpec (Memref.whole main_v145) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v147) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v148) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev spec10_0 : Pipeline.WinSpec sig grid10.rank :=
  Pipeline.WinSpec.ofSpec (Memref.whole main_v112) S1x5120.size reads10_0 false false 2 stage10_0 sem10_0 nbuf10_0 hstage10_0

abbrev spec10_1 : Pipeline.WinSpec sig grid10.rank :=
  Pipeline.WinSpec.ofSpec (Memref.whole main_v148) S800x128.size reads10_1 false false 2 stage10_1 sem10_1 nbuf10_1 hstage10_1

abbrev spec10_2 : Pipeline.WinSpec sig grid10.rank :=
  Pipeline.WinSpec.ofSpec (Memref.whole main_v114) S5120x1.size reads10_2 false false 2 stage10_2 sem10_2 nbuf10_2 hstage10_2

abbrev spec10_3 : Pipeline.WinSpec sig grid10.rank :=
  Pipeline.WinSpec.ofSpec (Memref.whole main_v149) S5120x128.size reads10_3 true false 2 stage10_3 sem10_3 nbuf10_3 hstage10_3

abbrev spec10 : Fin 4 → Pipeline.WinSpec sig grid10.rank := fun | 0 => spec10_0 | 1 => spec10_1 | 2 => spec10_2 | 3 => spec10_3 | ⟨_ + 4, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | 3 => nbuf10_3 | ⟨_ + 4, h⟩ => absurd h (Nat.not_lt.2 (Nat.le_add_left _ _))
abbrev ix10 (pf : pre10.Contents (Elt F)) : (w : Fin 4) → grid10.Coords → Fin (spec10 w).shape.rank → Nat := fun | 0 => cc10_transform_0 | 1 => cc10_transform_1 k10_off1_inb numel1_S1 pf | 2 => cc10_transform_2 | 3 => cc10_transform_3 | ⟨_ + 4, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 pf | 2 => hreads10_2 | 3 => hreads10_3 | ⟨_ + 4, h⟩ => absurd h (Nat.not_lt.2 (Nat.le_add_left _ _))
def ok10 (pf : pre10.Contents (Elt F)) : Prop :=
  (∀ i : grid10.Coords, ∃ h : (∀ a, (cc10_transform_1 k10_off1_inb numel1_S1 pf i a + 1) * S800x128.size a ≤ S100000x128.size a), EltTy.bits .f32 = 32 ∨ (Rect.block (s := S100000x128) S800x128.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => hinb10_0 | 1 => fun i a => (hok i).elim fun h _ => h a | 2 => hinb10_2 | 3 => hinb10_3 | ⟨_ + 4, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => hwx10_0 | 1 => fun i => (hok i).elim fun _ h => h | 2 => hwx10_2 | 3 => hwx10_3 | ⟨_ + 4, h⟩ => absurd h (Nat.not_lt.2 (Nat.le_add_left _ _))
abbrev idle10 : Fin 4 → grid10.Coords → Bool := fun | 0 => fun _ => false | 1 => fun _ => false | 2 => fun _ => false | 3 => fun i => !(k10_cond3 i == 1#1) | ⟨_ + 4, h⟩ => absurd h (Nat.not_lt.2 (Nat.le_add_left _ _))

abbrev spec11_0 : Pipeline.WinSpec sig grid11.rank :=
  Pipeline.WinSpec.ofSpec (Memref.whole main_v113) S1x5120.size reads11_0 false false 2 stage11_0 sem11_0 nbuf11_0 hstage11_0

abbrev spec11_1 : Pipeline.WinSpec sig grid11.rank :=
  Pipeline.WinSpec.ofSpec (Memref.whole main_v149) S5120x128.size reads11_1 false false 2 stage11_1 sem11_1 nbuf11_1 hstage11_1

abbrev spec11_2 : Pipeline.WinSpec sig grid11.rank :=
  Pipeline.WinSpec.ofSpec (Memref.whole main_v6) S2000x128.size reads11_2 false false 2 stage11_2 sem11_2 nbuf11_2 hstage11_2

abbrev spec11_3 : Pipeline.WinSpec sig grid11.rank :=
  Pipeline.WinSpec.ofSpec (Memref.whole main_v151) S128x128.size reads11_3 false true 1 stage11_3 sem11_3 nbuf11_3 hstage11_3

abbrev spec11_4 : Pipeline.WinSpec sig grid11.rank :=
  Pipeline.WinSpec.ofSpec (Memref.whole main_v154) S1x128.size reads11_4 false true 1 stage11_4 sem11_4 nbuf11_4 hstage11_4

abbrev spec11_5 : Pipeline.WinSpec sig grid11.rank :=
  Pipeline.WinSpec.ofSpec (Memref.whole main_v155) S2000x128.size reads11_5 true false 2 stage11_5 sem11_5 nbuf11_5 hstage11_5

abbrev spec11 : Fin 6 → Pipeline.WinSpec sig grid11.rank := fun | 0 => spec11_0 | 1 => spec11_1 | 2 => spec11_2 | 3 => spec11_3 | 4 => spec11_4 | 5 => spec11_5 | ⟨_ + 6, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | 3 => nbuf11_3 | 4 => nbuf11_4 | 5 => nbuf11_5 | ⟨_ + 6, h⟩ => absurd h (Nat.not_lt.2 (Nat.le_add_left _ _))
abbrev ix11 (pf : pre11.Contents (Elt F)) : (w : Fin 6) → grid11.Coords → Fin (spec11 w).shape.rank → Nat := fun | 0 => cc11_transform_0 k11_off1_inb numel1_S1 pf | 1 => cc11_transform_1 k11_off1_inb numel1_S1 pf | 2 => cc11_transform_2 | 3 => cc11_transform_3 | 4 => cc11_transform_4 | 5 => cc11_transform_5 | ⟨_ + 6, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | 3 => hreads11_3 | 4 => hreads11_4 | 5 => hreads11_5 | ⟨_ + 6, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x5120.size a ≤ S1x629760.size a), EltTy.bits .i32 = 32 ∨ (Rect.block (s := S1x629760) S1x5120.size (cc11_transform_0 k11_off1_inb numel1_S1 pf i) h).WholeWords (EltTy.packing .i32)) ∧
  (∀ i : grid11.Coords, ∃ h : (∀ a, (cc11_transform_1 k11_off1_inb numel1_S1 pf i a + 1) * S5120x128.size a ≤ S629760x128.size a), EltTy.bits .f32 = 32 ∨ (Rect.block (s := S629760x128) S5120x128.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | 3 => hinb11_3 | 4 => hinb11_4 | 5 => hinb11_5 | ⟨_ + 6, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | 3 => hwx11_3 | 4 => hwx11_4 | 5 => hwx11_5 | ⟨_ + 6, h⟩ => absurd h (Nat.not_lt.2 (Nat.le_add_left _ _))
abbrev idle11 : Fin 6 → grid11.Coords → Bool := fun | 0 => fun _ => false | 1 => fun _ => false | 2 => fun _ => false | 3 => fun _ => false | 4 => fun _ => false | 5 => fun i => !(k11_cond3 i == 1#1) | ⟨_ + 6, h⟩ => absurd h (Nat.not_lt.2 (Nat.le_add_left _ _))

abbrev win12_0 : Pipeline.Window sig grid12 :=
  Pipeline.Window.ofSpec (Memref.whole main_v155) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg8) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v156) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg10) S128x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v157) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v115) S64x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v117) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v158) S2000x128.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where
  harr1 : ∀ w, (spec1 w).arr.IsWhole
  harr2 : ∀ w, (spec2 w).arr.IsWhole
  harr4 : ∀ w, (spec4 w).arr.IsWhole
  harr5 : ∀ w, (spec5 w).arr.IsWhole
  harr7 : ∀ w, (spec7 w).arr.IsWhole
  harr8 : ∀ w, (spec8 w).arr.IsWhole
  harr10 : ∀ w, (spec10 w).arr.IsWhole
  harr11 : ∀ w, (spec11 w).arr.IsWhole

variable [Facts]
-- ==== ReferenceIdeal.lean ====
abbrev S100000 : Shape := ⟨1, ![100000]⟩
abbrev S2x625000 : Shape := ⟨2, ![2, 625000]⟩
abbrev S625000 : Shape := ⟨1, ![625000]⟩
abbrev S1000x128 : Shape := ⟨2, ![1000, 128]⟩
abbrev S128x128 : Shape := ⟨2, ![128, 128]⟩
abbrev S3x128x128 : Shape := ⟨3, ![3, 128, 128]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x128 : Shape := ⟨2, ![100000, 128]⟩
abbrev S1x625000 : Shape := ⟨2, ![1, 625000]⟩
abbrev S625000x1 : Shape := ⟨2, ![625000, 1]⟩
abbrev S625000x128 : Shape := ⟨2, ![625000, 128]⟩
abbrev S1x128x128 : Shape := ⟨3, ![1, 128, 128]⟩
abbrev S1x128 : Shape := ⟨2, ![1, 128]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 216
  | .vmem => 0
  | .smem => 0
  | _ => 0

abbrev hbmTy0_0 (i : Nat) : BufTy := match i % 128 with
  | 0 => ⟨S100000, .i32⟩
  | 1 => ⟨S2x625000, .i32⟩
  | 2 => ⟨S625000, .i32⟩
  | 3 => ⟨S1000x128, .f32⟩
  | 4 => ⟨S128x128, .f32⟩
  | 5 => ⟨S3x128x128, .f32⟩
  | 6 => ⟨S4x128x128, .f32⟩
  | 7 => ⟨S4x128, .f32⟩
  | 8 => ⟨S128x128, .f32⟩
  | 9 => ⟨S128, .f32⟩
  | 10 => ⟨S128x64, .f32⟩
  | 11 => ⟨S64, .f32⟩
  | 12 => ⟨S64x32, .f32⟩
  | 13 => ⟨S32, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S625000, .f32⟩
  | 24 => ⟨S_, .i32⟩
  | 25 => ⟨S_, .i32⟩
  | 26 => ⟨S_, .f32⟩
  | 27 => ⟨S625000, .f32⟩
  | 28 => ⟨S625000, .f32⟩
  | 29 => ⟨S1x625000, .i32⟩
  | 30 => ⟨S625000, .i32⟩
  | 31 => ⟨S1x625000, .i32⟩
  | 32 => ⟨S625000, .i32⟩
  | 33 => ⟨S_, .f32⟩
  | 34 => ⟨S100000, .f32⟩
  | 35 => ⟨S625000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S100000, .f32⟩
  | 42 => ⟨S100000, .i1⟩
  | 43 => ⟨S_, .f32⟩
  | 44 => ⟨S_, .f32⟩
  | 45 => ⟨S100000, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S625000, .i32⟩
  | 54 => ⟨S625000, .i1⟩
  | 55 => ⟨S_, .i32⟩
  | 56 => ⟨S625000, .i32⟩
  | 57 => ⟨S625000, .i32⟩
  | 58 => ⟨S625000, .i32⟩
  | 59 => ⟨S625000x1, .i32⟩
  | 60 => ⟨S625000, .f32⟩
  | 61 => ⟨S625000, .f32⟩
  | 62 => ⟨S_, .i32⟩
  | 63 => ⟨S625000, .i32⟩
  | 64 => ⟨S625000, .i1⟩
  | 65 => ⟨S_, .i32⟩
  | 66 => ⟨S625000, .i32⟩
  | 67 => ⟨S625000, .i32⟩
  | 68 => ⟨S625000, .i32⟩
  | 69 => ⟨S625000x1, .i32⟩
  | 70 => ⟨S625000, .f32⟩
  | 71 => ⟨S625000, .f32⟩
  | 72 => ⟨S100000x128, .f32⟩
  | 73 => ⟨S625000x1, .f32⟩
  | 74 => ⟨S_, .i32⟩
  | 75 => ⟨S625000, .i32⟩
  | 76 => ⟨S625000, .i1⟩
  | 77 => ⟨S_, .i32⟩
  | 78 => ⟨S625000, .i32⟩
  | 79 => ⟨S625000, .i32⟩
  | 80 => ⟨S625000, .i32⟩
  | 81 => ⟨S625000x1, .i32⟩
  | 82 => ⟨S625000x128, .f32⟩
  | 83 => ⟨S625000x128, .f32⟩
  | 84 => ⟨S625000x128, .f32⟩
  | 85 => ⟨S_, .f32⟩
  | 86 => ⟨S100000x128, .f32⟩
  | 87 => ⟨S625000x1, .i32⟩
  | 88 => ⟨S100000x128, .f32⟩
  | 89 => ⟨S1x128x128, .f32⟩
  | 90 => ⟨S128x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S625000x1, .f32⟩
  | 105 => ⟨S_, .i32⟩
  | 106 => ⟨S625000, .i32⟩
  | 107 => ⟨S625000, .i1⟩
  | 108 => ⟨S_, .i32⟩
  | 109 => ⟨S625000, .i32⟩
  | 110 => ⟨S625000, .i32⟩
  | 111 => ⟨S625000, .i32⟩
  | 112 => ⟨S625000x1, .i32⟩
  | 113 => ⟨S625000x128, .f32⟩
  | 114 => ⟨S625000x128, .f32⟩
  | 115 => ⟨S625000x128, .f32⟩
  | 116 => ⟨S_, .f32⟩
  | 117 => ⟨S100000x128, .f32⟩
  | 118 => ⟨S625000x1, .i32⟩
  | 119 => ⟨S100000x128, .f32⟩
  | 120 => ⟨S1x128x128, .f32⟩
  | 121 => ⟨S128x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000, .i32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S1x128x128, .f32⟩
  | 5 => ⟨S128x128, .f32⟩
  | 6 => ⟨S100000x128, .f32⟩
  | 7 => ⟨S625000x1, .f32⟩
  | 8 => ⟨S_, .i32⟩
  | 9 => ⟨S625000, .i32⟩
  | 10 => ⟨S625000, .i1⟩
  | 11 => ⟨S_, .i32⟩
  | 12 => ⟨S625000, .i32⟩
  | 13 => ⟨S625000, .i32⟩
  | 14 => ⟨S625000, .i32⟩
  | 15 => ⟨S625000x1, .i32⟩
  | 16 => ⟨S625000x128, .f32⟩
  | 17 => ⟨S625000x128, .f32⟩
  | 18 => ⟨S625000x128, .f32⟩
  | 19 => ⟨S_, .f32⟩
  | 20 => ⟨S100000x128, .f32⟩
  | 21 => ⟨S625000x1, .i32⟩
  | 22 => ⟨S100000x128, .f32⟩
  | 23 => ⟨S1x128x128, .f32⟩
  | 24 => ⟨S128x128, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S1x128x128, .f32⟩
  | 36 => ⟨S128x128, .f32⟩
  | 37 => ⟨S100000x128, .f32⟩
  | 38 => ⟨S625000x1, .f32⟩
  | 39 => ⟨S_, .i32⟩
  | 40 => ⟨S625000, .i32⟩
  | 41 => ⟨S625000, .i1⟩
  | 42 => ⟨S_, .i32⟩
  | 43 => ⟨S625000, .i32⟩
  | 44 => ⟨S625000, .i32⟩
  | 45 => ⟨S625000, .i32⟩
  | 46 => ⟨S625000x1, .i32⟩
  | 47 => ⟨S625000x128, .f32⟩
  | 48 => ⟨S625000x128, .f32⟩
  | 49 => ⟨S625000x128, .f32⟩
  | 50 => ⟨S_, .f32⟩
  | 51 => ⟨S100000x128, .f32⟩
  | 52 => ⟨S625000x1, .i32⟩
  | 53 => ⟨S100000x128, .f32⟩
  | 54 => ⟨S1x128x128, .f32⟩
  | 55 => ⟨S128x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x32, .f32⟩
  | 84 => ⟨S1x32, .f32⟩
  | 85 => ⟨S100000x32, .f32⟩
  | 86 => ⟨S100000x32, .f32⟩
  | 87 => ⟨S100000x32, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_10 : Ref sig .tc := ⟨.hbm, 74, rfl⟩
abbrev main_v44 : Ref sig .tc := ⟨.hbm, 75, rfl⟩
abbrev main_v45 : Ref sig .tc := ⟨.hbm, 76, rfl⟩
abbrev main_c_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_16 : Ref sig .tc := ⟨.hbm, 136, rfl⟩
abbrev main_v96 : Ref sig .tc := ⟨.hbm, 137, rfl⟩
abbrev main_v97 : Ref sig .tc := ⟨.hbm, 138, rfl⟩
abbrev main_c_17 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_18 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call4_cst : Ref sig .tc := ⟨.hbm, 160, rfl⟩
abbrev main_call4_v0 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_19 : Ref sig .tc := ⟨.hbm, 167, rfl⟩
abbrev main_v122 : Ref sig .tc := ⟨.hbm, 168, rfl⟩
abbrev main_v123 : Ref sig .tc := ⟨.hbm, 169, rfl⟩
abbrev main_c_20 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call5_cst : Ref sig .tc := ⟨.hbm, 191, rfl⟩
abbrev main_call5_v0 : Ref sig .tc := ⟨.hbm, 192, rfl⟩
abbrev main_v143 : Ref sig .tc := ⟨.hbm, 193, rfl⟩
abbrev main_call6_cst : Ref sig .tc := ⟨.hbm, 194, rfl⟩
abbrev main_call6_v0 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_call7_cst : Ref sig .tc := ⟨.hbm, 201, rfl⟩
abbrev main_call7_v0 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_call8_cst : Ref sig .tc := ⟨.hbm, 208, rfl⟩
abbrev main_call8_v0 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  reducesTo_S625000_S_d0 : S625000.ReducesTo [0] S_
  h_S_ : 0 < S_.numel
  bcast_S_S625000 : S_.BroadcastsInDim S625000 (![] : Fin 0 → Fin S625000.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  slices_S4x128x128_S1x128x128_1_0_0 : S4x128x128.Slices ![1, 0, 0] S1x128x128
  slices_S4x128_S1x128_1_0 : S4x128.Slices ![1, 0] S1x128
  slices_S3x128x128_S1x128x128_1_0_0 : S3x128x128.Slices ![1, 0, 0] S1x128x128
  slices_S4x128x128_S1x128x128_2_0_0 : S4x128x128.Slices ![2, 0, 0] S1x128x128
  slices_S4x128_S1x128_2_0 : S4x128.Slices ![2, 0] S1x128
  slices_S3x128x128_S1x128x128_2_0_0 : S3x128x128.Slices ![2, 0, 0] S1x128x128
  slices_S4x128x128_S1x128x128_3_0_0 : S4x128x128.Slices ![3, 0, 0] S1x128x128
  slices_S4x128_S1x128_3_0 : S4x128.Slices ![3, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S1000x128_S100000x1_S100000x128_1_0_n_n_0_1_1128_wf : GatherDims.WF S1000x128 S100000x1 S100000x128 [1] [0] [] [0] [] 1 ![1, 128]
  scatter_S100000_S625000x1_S625000_n_0_0_1_wf : ScatterDims.WF S100000 S625000x1 S625000 [] [0] [0] 1
  gather_S100000_S625000x1_S625000_n_0_n_n_0_1_1_wf : GatherDims.WF S100000 S625000x1 S625000 [] [0] [] [0] [] 1 ![1]
  dot_S100000x128_S128x128_S100000x128_1_0_0_1_n_n_wf : DotDims.WF S100000x128 S128x128 S100000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000_S625000x1_S625000_n_0_n_n_0_1_1 : GatherDims S100000 S625000x1 S625000 where
  offsetDims := []
  collapsedSliceDims := [0]
  operandBatchingDims := []
  startIndicesBatchingDims := []
  startIndexMap := [0]
  indexVectorDim := 1
  sliceSizes := ![1]
  wf := gather_S100000_S625000x1_S625000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.K.Run.lean ====
import proofs.«415143_j42460046688958_3_alg».proof.Proof.K.RegionsP

-- decided memberships among the 437 references recurse past the default depth
set_option maxRecDepth 2260

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run, given the regions' records: the arguments unchanged AND the result buffer read -/

-- the implicit arguments of the run theorem are found by unifying its conclusion with this one, which takes unfolding
-- plain definitions in a metavariable's type
set_option backward.isDefEq.respectTransparency.types false in
/-- The conditional run. Same hypotheses as the conditional frame (one segment record per region, entered from the
    thread state before it and left at the one after it). Conclusion: every weakly fair execution of @main from memory
    `m` with zero counters terminates, every final memory holds each argument as launched, and the result buffer
    `main_v159` holds its contents at the last valuation `V55 m outs c`. The last thread state holds every unscoped
    buffer at `V55`; reading it against the final state gives the arguments (unchanged through the fold) and the
    result buffer alike. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 13) → (pcfgs (F := F) p).Adm)
    (pdats : (p : Fin 13) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V33 m c) ∗ E 0 c) ⊢ R0.pre c)
    (hpost0 : ∀ c : Dev nD, R0.post c ⊢ iprop(StableHlo.held (c : Thread nD τ) (Pipeline.ucRefs τ sig) (V34 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V34 m outs c) ∗ E 1 c) ⊢ R1.pre c)
    (hpost1 : ∀ c : Dev nD, R1.post c ⊢ iprop(StableHlo.held (c : Thread nD τ) (Pipeline.ucRefs τ sig) (V35 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V36 m outs c) ∗ E 2 c) ⊢ R2.pre c)
    (hpost2 : ∀ c : Dev nD, R2.post c ⊢ iprop(StableHlo.held (c : Thread nD τ) (Pipeline.ucRefs τ sig) (V37 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V38 m outs c) ∗ E 3 c) ⊢ R3.pre c)
    (hpost3 : ∀ c : Dev nD, R3.post c ⊢ iprop(StableHlo.held (c : Thread nD τ) (Pipeline.ucRefs τ sig) (V39 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V39 m outs c) ∗ E 4 c) ⊢ R4.pre c)
    (hpost4 : ∀ c : Dev nD, R4.post c ⊢ iprop(StableHlo.held (c : Thread nD τ) (Pipeline.ucRefs τ sig) (V40 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V41 m outs c) ∗ E 5 c) ⊢ R5.pre c)
    (hpost5 : ∀ c : Dev nD, R5.post c ⊢ iprop(StableHlo.held (c : Thread nD τ) (Pipeline.ucRefs τ sig) (V42 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V43 m outs c) ∗ E 6 c) ⊢ R6.pre c)
    (hpost6 : ∀ c : Dev nD, R6.post c ⊢ iprop(StableHlo.held (c : Thread nD τ) (Pipeline.ucRefs τ sig) (V44 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V44 m outs c) ∗ E 7 c) ⊢ R7.pre c)
    (hpost7 : ∀ c : Dev nD, R7.post c ⊢ iprop(StableHlo.held (c : Thread nD τ) (Pipeline.ucRefs τ sig) (V45 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V46 m outs c) ∗ E 8 c) ⊢ R8.pre c)
    (hpost8 : ∀ c : Dev nD, R8.post c ⊢ iprop(StableHlo.held (c : Thread nD τ) (Pipeline.ucRefs τ sig) (V47 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V48 m outs c) ∗ E 9 c) ⊢ R9.pre c)
    (hpost9 : ∀ c : Dev nD, R9.post c ⊢ iprop(StableHlo.held (c : Thread nD τ) (Pipeline.ucRefs τ sig) (V49 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V49 m outs c) ∗ E 10 c) ⊢ R10.pre c)
    (hpost10 : ∀ c : Dev nD, R10.post c ⊢ iprop(StableHlo.held (c : Thread nD τ) (Pipeline.ucRefs τ sig) (V50 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V51 m outs c) ∗ E 11 c) ⊢ R11.pre c)
    (hpost11 : ∀ c : Dev nD, R11.post c ⊢ iprop(StableHlo.held (c : Thread nD τ) (Pipeline.ucRefs τ sig) (V52 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V53 m outs c) ∗ E 12 c) ⊢ R12.pre c)
    (hpost12 : ∀ c : Dev nD, R12.post c ⊢ iprop(StableHlo.held (c : Thread nD τ) (Pipeline.ucRefs τ sig) (V54 m outs c) ∗ E 13 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m outs c main_v159) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12)
    (fun c Q => by
      rewrite [main_chain c, Seg.run_eq_chain,
        show (segs m outs 𝒱₀ L lv E ι a pdats R0 R1 R2 R3 R4 R5 R6 R7 R8 R9 R10 R11 R12 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          StableHlo.seq hostOps0_31,
          StableHlo.seq hostOps0_32,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V55 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, hpre2 c, hpost2 c, hpre3 c, (hpost3 c).trans (hpre4 c), hpost4 c, hpre5 c, hpost5 c, hpre6 c, (hpost6 c).trans (hpre7 c), hpost7 c, hpre8 c, hpost8 c, hpre9 c, (hpost9 c).trans (hpre10 c), hpost10 c, hpre11 c, hpost11 c, hpre12 c, hpost12 c, sep_mono .rfl (hE13 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_v159) = V55 m outs c main_v159)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V55 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V55_main_arg0 m outs c),
        (h (Proc.devRef .tc main_arg1) (Finset.mem_filter.mpr ⟨StableHlo.devRef_mem_tcRefs main_arg1, by decide⟩)).trans (V55_main_arg1 m outs c),
        (h (Proc.devRef .tc main_arg2) (Finset.mem_filter.mpr ⟨StableHlo.devRef_mem_tcRefs main_arg2, by decide⟩)).trans (V55_main_arg2 m outs c),
        (h (Proc.devRef .tc main_arg3) (Finset.mem_filter.mpr ⟨StableHlo.devRef_mem_tcRefs main_arg3, by decide⟩)).trans (V55_main_arg3 m outs c),
        (h (Proc.devRef .tc main_arg4) (Finset.mem_filter.mpr ⟨StableHlo.devRef_mem_tcRefs main_arg4, by decide⟩)).trans (V55_main_arg4 m outs c),
        (h (Proc.devRef .tc main_arg5) (Finset.mem_filter.mpr ⟨StableHlo.devRef_mem_tcRefs main_arg5, by decide⟩)).trans (V55_main_arg5 m outs c),
        (h (Proc.devRef .tc main_arg6) (Finset.mem_filter.mpr ⟨StableHlo.devRef_mem_tcRefs main_arg6, by decide⟩)).trans (V55_main_arg6 m outs c),
        (h (Proc.devRef .tc main_arg7) (Finset.mem_filter.mpr ⟨StableHlo.devRef_mem_tcRefs main_arg7, by decide⟩)).trans (V55_main_arg7 m outs c),
        (h (Proc.devRef .tc main_arg8) (Finset.mem_filter.mpr ⟨StableHlo.devRef_mem_tcRefs main_arg8, by decide⟩)).trans (V55_main_arg8 m outs c),
        (h (Proc.devRef .tc main_arg9) (Finset.mem_filter.mpr ⟨StableHlo.devRef_mem_tcRefs main_arg9, by decide⟩)).trans (V55_main_arg9 m outs c),
        (h (Proc.devRef .tc main_arg10) (Finset.mem_filter.mpr ⟨StableHlo.devRef_mem_tcRefs main_arg10, by decide⟩)).trans (V55_main_arg10 m outs c),
        (h (Proc.devRef .tc main_arg11) (Finset.mem_filter.mpr ⟨StableHlo.devRef_mem_tcRefs main_arg11, by decide⟩)).trans (V55_main_arg11 m outs c),
        (h (Proc.devRef .tc main_arg12) (Finset.mem_filter.mpr ⟨StableHlo.devRef_mem_tcRefs main_arg12, by decide⟩)).trans (V55_main_arg12 m outs c),
        (h (Proc.devRef .tc main_arg13) (Finset.mem_filter.mpr ⟨StableHlo.devRef_mem_tcRefs main_arg13, by decide⟩)).trans (V55_main_arg13 m outs c),
        h (Proc.devRef .tc main_v159) (Finset.mem_filter.mpr ⟨StableHlo.devRef_mem_tcRefs main_v159, by decide⟩)⟩
    · iexact HSI

/-! ## The launch: the run at the unit user algebra, nothing owed between cores -/

/-- What rides beside the buffers between two items on core `c`: the generator register at some state and the core
    owing nothing. -/
local notation "Rest" c:max => iprop((∃ r, prngReg c r) ∗ ∃ W, owes (c : Thread nD τ) (0 : CellTallies nD τ sig Unit) W)

/-- The run of @main at `Ix := Unit`, the pipeline library's own algebra, no level assigned, no launch dues, no ghost
    resources, the rest state `Rest c` at every boundary: GIVEN the thirteen regions' segment records between this
    module's thread states, every weakly fair execution from memory `m` with zero counters terminates, every final
    memory holds each argument as launched and holds the result buffer `main_v159` at `V55 m outs c main_v159`. -/
theorem run_main (ρ : Dev nD → PrngReg) (outs : Outs (F := F)) (a : (p : Fin 13) → (pcfgs (F := F) p).Adm)
    (pdats : (p : Fin 13) → (c : Dev nD) → Dat τ (Elt F) Unit ℕ (UR sig nD τ) ℕ (Pipeline.pin (pcfgs (F := F)) a p) c)
    (R0 : RegionSeg (pcfgs (F := F)) a pdats () defs₀ Variants.none (fun _ => ∅) (fun _ _ => 0) 0)
    (hpre0 : ∀ c : Dev nD, iprop(StableHlo.held (c : Thread nD τ) (Pipeline.ucRefs τ sig) (V33 m c) ∗ Rest c) ⊢ R0.pre c)
    (hpost0 : ∀ c : Dev nD, R0.post c ⊢ iprop(StableHlo.held (c : Thread nD τ) (Pipeline.ucRefs τ sig) (V34 m outs c) ∗ Rest c))
    (R1 : RegionSeg (pcfgs (F := F)) a pdats () defs₀ Variants.none (fun _ => ∅) (fun _ _ => 0) 1)
    (hpre1 : ∀ c : Dev nD, iprop(StableHlo.held (c : Thread nD τ) (Pipeline.ucRefs τ sig) (V34 m outs c) ∗ Rest c) ⊢ R1.pre c)
    (hpost1 : ∀ c : Dev nD, R1.post c ⊢ iprop(StableHlo.held (c : Thread nD τ) (Pipeline.ucRefs τ sig) (V35 m outs c) ∗ Rest c))
    (R2 : RegionSeg (pcfgs (F := F)) a pdats () defs₀ Variants.none (fun _ => ∅) (fun _ _ => 0) 2)
    (hpre2 : ∀ c : Dev nD, iprop(StableHlo.held (c : Thread nD τ) (Pipeline.ucRefs τ sig) (V36 m outs c) ∗ Rest c) ⊢ R2.pre c)
    (hpost2 : ∀ c : Dev nD, R2.post c ⊢ iprop(StableHlo.held (c : Thread nD τ) (Pipeline.ucRefs τ sig) (V37 m outs c) ∗ Rest c))
    (R3 : RegionSeg (pcfgs (F := F)) a pdats () defs₀ Variants.none (fun _ => ∅) (fun _ _ => 0) 3)
    (hpre3 : ∀ c : Dev nD, iprop(StableHlo.held (c : Thread nD τ) (Pipeline.ucRefs τ sig) (V38 m outs c) ∗ Rest c) ⊢ R3.pre c)
    (hpost3 : ∀ c : Dev nD, R3.post c ⊢ iprop(StableHlo.held (c : Thread nD τ) (Pipeline.ucRefs τ sig) (V39 m outs c) ∗ Rest c))
    (R4 : RegionSeg (pcfgs (F := F)) a pdats () defs₀ Variants.none (fun _ => ∅) (fun _ _ => 0) 4)
    (hpre4 : ∀ c : Dev nD, iprop(StableHlo.held (c : Thread nD τ) (Pipeline.ucRefs τ sig) (V39 m outs c) ∗ Rest c) ⊢ R4.pre c)
    (hpost4 : ∀ c : Dev nD, R4.post c ⊢ iprop(StableHlo.held (c : Thread nD τ) (Pipeline.ucRefs τ sig) (V40 m outs c) ∗ Rest c))
    (R5 : RegionSeg (pcfgs (F := F)) a pdats () defs₀ Variants.none (fun _ => ∅) (fun _ _ => 0) 5)
    (hpre5 : ∀ c : Dev nD, iprop(StableHlo.held (c : Thread nD τ) (Pipeline.ucRefs τ sig) (V41 m outs c) ∗ Rest c) ⊢ R5.pre c)
    (hpost5 : ∀ c : Dev nD, R5.post c ⊢ iprop(StableHlo.held (c : Thread nD τ) (Pipeline.ucRefs τ sig) (V42 m outs c) ∗ Rest c))
    (R6 : RegionSeg (pcfgs (F := F)) a pdats () defs₀ Variants.none (fun _ => ∅) (fun _ _ => 0) 6)
    (hpre6 : ∀ c : Dev nD, iprop(StableHlo.held (c : Thread nD τ) (Pipeline.ucRefs τ sig) (V43 m outs c) ∗ Rest c) ⊢ R6.pre c)
    (hpost6 : ∀ c : Dev nD, R6.post c ⊢ iprop(StableHlo.held (c : Thread nD τ) (Pipeline.ucRefs τ sig) (V44 m outs c) ∗ Rest c))
    (R7 : RegionSeg (pcfgs (F := F)) a pdats () defs₀ Variants.none (fun _ => ∅) (fun _ _ => 0) 7)
    (hpre7 : ∀ c : Dev nD, iprop(StableHlo.held (c : Thread nD τ) (Pipeline.ucRefs τ sig) (V44 m outs c) ∗ Rest c) ⊢ R7.pre c)
    (hpost7 : ∀ c : Dev nD, R7.post c ⊢ iprop(StableHlo.held (c : Thread nD τ) (Pipeline.ucRefs τ sig) (V45 m outs c) ∗ Rest c))
    (R8 : RegionSeg (pcfgs (F := F)) a pdats () defs₀ Variants.none (fun _ => ∅) (fun _ _ => 0) 8)
    (hpre8 : ∀ c : Dev nD, iprop(StableHlo.held (c : Thread nD τ) (Pipeline.ucRefs τ sig) (V46 m outs c) ∗ Rest c) ⊢ R8.pre c)
    (hpost8 : ∀ c : Dev nD, R8.post c ⊢ iprop(StableHlo.held (c : Thread nD τ) (Pipeline.ucRefs τ sig) (V47 m outs c) ∗ Rest c))
    (R9 : RegionSeg (pcfgs (F := F)) a pdats () defs₀ Variants.none (fun _ => ∅) (fun _ _ => 0) 9)
    (hpre9 : ∀ c : Dev nD, iprop(StableHlo.held (c : Thread nD τ) (Pipeline.ucRefs τ sig) (V48 m outs c) ∗ Rest c) ⊢ R9.pre c)
    (hpost9 : ∀ c : Dev nD, R9.post c ⊢ iprop(StableHlo.held (c : Thread nD τ) (Pipeline.ucRefs τ sig) (V49 m outs c) ∗ Rest c))
    (R10 : RegionSeg (pcfgs (F := F)) a pdats () defs₀ Variants.none (fun _ => ∅) (fun _ _ => 0) 10)
    (hpre10 : ∀ c : Dev nD, iprop(StableHlo.held (c : Thread nD τ) (Pipeline.ucRefs τ sig) (V49 m outs c) ∗ Rest c) ⊢ R10.pre c)
    (hpost10 : ∀ c : Dev nD, R10.post c ⊢ iprop(StableHlo.held (c : Thread nD τ) (Pipeline.ucRefs τ sig) (V50 m outs c) ∗ Rest c))
    (R11 : RegionSeg (pcfgs (F := F)) a pdats () defs₀ Variants.none (fun _ => ∅) (fun _ _ => 0) 11)
    (hpre11 : ∀ c : Dev nD, iprop(StableHlo.held (c : Thread nD τ) (Pipeline.ucRefs τ sig) (V51 m outs c) ∗ Rest c) ⊢ R11.pre c)
    (hpost11 : ∀ c : Dev nD, R11.post c ⊢ iprop(StableHlo.held (c : Thread nD τ) (Pipeline.ucRefs τ sig) (V52 m outs c) ∗ Rest c))
    (R12 : RegionSeg (pcfgs (F := F)) a pdats () defs₀ Variants.none (fun _ => ∅) (fun _ _ => 0) 12)
    (hpre12 : ∀ c : Dev nD, iprop(StableHlo.held (c : Thread nD τ) (Pipeline.ucRefs τ sig) (V53 m outs c) ∗ Rest c) ⊢ R12.pre c)
    (hpost12 : ∀ c : Dev nD, R12.post c ⊢ iprop(StableHlo.held (c : Thread nD τ) (Pipeline.ucRefs τ sig) (V54 m outs c) ∗ Rest c)) :
        θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m outs c main_v159) :=
  run_cond m (emb₁ : Emb (UR sig nD τ) 𝕄) () Variants.none (fun _ => ∅) (fun _ _ => 0) (fun _ _ => rfl) ρ outs a pdats
    (0 : Dev nD → CellTallies nD τ sig Unit) (fun _ => iprop(emp))
    (initOf (Pipeline.cells (Pipeline.pin (pcfgs (F := F)) a) (cellOf_inj a)) (Pipeline.launchToks (Pipeline.pin (pcfgs (F := F)) a) (cellOf_inj a)))
    (by
      -- the launch element is the pipeline library's own; no ghost resource is dealt
      iintro Hu; imodintro
      isplitl [Hu]
      · iapply (show (ownU (initOf (Pipeline.cells (Pipeline.pin (pcfgs (F := F)) a) (cellOf_inj a)) (Pipeline.launchToks (Pipeline.pin (pcfgs (F := F)) a) (cellOf_inj a))) : sProp 𝕄)
            ⊢ BI.own (emb₁ (initOf (Pipeline.cells (Pipeline.pin (pcfgs (F := F)) a) (cellOf_inj a)) (Pipeline.launchToks (Pipeline.pin (pcfgs (F := F)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      -- each core keeps its generator register and its (empty) dues; the rest of what the launch deals is dropped
      refine Pipeline.initEach _ _ fun c => ?_
      iintro ⟨⟨-, HO, -, Hp, -⟩, -⟩
      imodintro
      isplitl [Hp]; · iexists _; iexact Hp
      iexists ∅; iexact HO)
    (fun c => by iintro ⟨-, H⟩; iexact H)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12

end Cert.Kernel.Hand

end
-- ==== Proof.K.TablesScatter.lean ====
import proofs.«415143_j42460046688958_3_alg».proof.Proof.K.RegionsP
import Idealize.ShloMosaic.Lib.StableHlo.Predicate
import Idealize.ShloMosaic.PureOps.Reduce
import Idealize.ShloMosaic.Lib.Pipeline.Value

/-!
The scatter regions' prefetched tables, read off the host stretches that compute them.

With `col` the sorted column vector (629760 words, 123 blocks of 5120), the program computes, per edge block `j`,
`lo j = ⌊min (min of block j) 99999 / 2000⌋` and `hi j = ⌊min (max of block j) 99999 / 2000⌋`, and per node block `i`
the first and last edge block whose interval `[lo j, hi j]` holds `i` (`elo i`, `ehi i`; `0` and `122` when there is
none). This file proves, at any float instance: every word of `elo` and `ehi` is in `[0, 122]`; a column word
`k` in `[0, 100000)` of block `j` has `lo j ≤ k / 2000 ≤ hi j`; and `lo j ≤ i ≤ hi j` gives `elo i ≤ j ≤ ehi i`, so
that the clamp `min (max j (elo i)) (ehi i)` of the index maps is `j` on every tile the gate admits, and is a block of
the 123 everywhere. From the first fact the tables are admissible contents of the four scatter pipelines.
-/

set_option maxRecDepth 16384

noncomputable section

namespace Cert.Kernel.Hand

open Cert.Kernel Cert.Kernel.Gen
open Idealize.ShloMosaic Idealize.ShloMosaic.TcCoe Idealize.SL.Sem
open Idealize.ShloMosaic.StableHlo.Predicate

variable {F : FTy → Type} [FloatOps F]

/-! ## Words: signed minimum, maximum and their folds; the floor division by 2000; the clamp -/

theorem minsi_toInt (x y : BitVec 32) : (IntOp.minsi x y).toInt = min x.toInt y.toInt := by
  unfold IntOp.minsi
  simp only [BitVec.slt, decide_eq_true_eq]
  split_ifs with h
  · exact (min_eq_left (le_of_lt h)).symm
  · exact (min_eq_right (not_lt.1 h)).symm

theorem maxsi_toInt (x y : BitVec 32) : (IntOp.maxsi x y).toInt = max x.toInt y.toInt := by
  unfold IntOp.maxsi
  simp only [BitVec.slt, decide_eq_true_eq]
  split_ifs with h
  · exact (max_eq_left (le_of_lt h)).symm
  · exact (max_eq_right (not_lt.1 h)).symm

/-- A fold by signed minimum is at most each of its terms, -/
theorem fold_minsi_le {ι : Type} [DecidableEq ι] (s : Finset ι) (f : ι → BitVec 32) (init : BitVec 32) (k : ι) (hk : k ∈ s) :
    (s.fold IntOp.minsi init f).toInt ≤ (f k).toInt := by
  revert hk
  refine Finset.induction_on s ?_ ?_
  · intro h; simp at h
  · intro a s ha ih hk
    rw [Finset.fold_insert ha, minsi_toInt]
    rcases Finset.mem_insert.1 hk with h | h
    · rw [h]; exact min_le_left _ _
    · exact le_trans (min_le_right _ _) (ih h)

/-- and at least any bound below its start and its terms. -/
theorem le_fold_minsi {ι : Type} [DecidableEq ι] (s : Finset ι) (f : ι → BitVec 32) (init : BitVec 32) (L : ℤ)
    (hi : L ≤ init.toInt) (hf : ∀ k ∈ s, L ≤ (f k).toInt) : L ≤ (s.fold IntOp.minsi init f).toInt := by
  revert hf
  refine Finset.induction_on s ?_ ?_
  · intro _; rw [Finset.fold_empty]; exact hi
  · intro a s ha ih hf
    rw [Finset.fold_insert ha, minsi_toInt]
    exact le_min (hf a (Finset.mem_insert_self a s)) (ih fun k hk => hf k (Finset.mem_insert_of_mem hk))

/-- A fold by signed maximum is at least each of its terms, -/
theorem le_fold_maxsi {ι : Type} [DecidableEq ι] (s : Finset ι) (f : ι → BitVec 32) (init : BitVec 32) (k : ι) (hk : k ∈ s) :
    (f k).toInt ≤ (s.fold IntOp.maxsi init f).toInt := by
  revert hk
  refine Finset.induction_on s ?_ ?_
  · intro h; simp at h
  · intro a s ha ih hk
    rw [Finset.fold_insert ha, maxsi_toInt]
    rcases Finset.mem_insert.1 hk with h | h
    · rw [h]; exact le_max_left _ _
    · exact le_trans (ih h) (le_max_right _ _)

/-- and at most any bound above its start and its terms. -/
theorem fold_maxsi_le {ι : Type} [DecidableEq ι] (s : Finset ι) (f : ι → BitVec 32) (init : BitVec 32) (U : ℤ)
    (hi : init.toInt ≤ U) (hf : ∀ k ∈ s, (f k).toInt ≤ U) : (s.fold IntOp.maxsi init f).toInt ≤ U := by
  revert hf
  refine Finset.induction_on s ?_ ?_
  · intro _; rw [Finset.fold_empty]; exact hi
  · intro a s ha ih hf
    rw [Finset.fold_insert ha, maxsi_toInt]
    exact max_le (hf a (Finset.mem_insert_self a s)) (ih fun k hk => hf k (Finset.mem_insert_of_mem hk))

theorem andi_eq_one : ∀ (a b : BitVec 1), IntOp.andi a b = 1#1 ↔ a = 1#1 ∧ b = 1#1 := by decide

theorem cmpi_ne_eq_one (x y : BitVec 32) : IntOp.cmpi .ne x y = 1#1 ↔ x ≠ y := by
  unfold IntOp.cmpi
  rw [ofBool_eq_one_iff]
  simp

theorem cmpi_sle_eq_one (x y : BitVec 32) : IntOp.cmpi .sle x y = 1#1 ↔ x.toInt ≤ y.toInt := by
  unfold IntOp.cmpi
  rw [ofBool_eq_one_iff]
  simp [BitVec.sle]

theorem cmpi_sge_eq_one (x y : BitVec 32) : IntOp.cmpi .sge x y = 1#1 ↔ y.toInt ≤ x.toInt := by
  unfold IntOp.cmpi
  rw [ofBool_eq_one_iff]
  simp [BitVec.sle]

theorem toInt_range (a : BitVec 32) : -2147483648 ≤ a.toInt ∧ a.toInt < 2147483648 := by
  have h1 := BitVec.le_toInt a
  have h2 := BitVec.toInt_lt (x := a)
  constructor <;> omega

theorem toInt_of_toNat_lt (a : BitVec 32) (h : a.toNat < 2147483648) : a.toInt = (a.toNat : ℤ) :=
  toInt_eq_toNat_of_lt (by simpa using h)

theorem toNat_of_toInt_nonneg (a : BitVec 32) (h : 0 ≤ a.toInt) : (a.toNat : ℤ) = a.toInt := by
  have := BitVec.toInt_eq_toNat_cond a
  have h2 := a.isLt
  split at this <;> omega

/-- The sign word of `a` (0, −1 or 1). -/
def sgnW (a : BitVec 32) : BitVec 32 := if a = 0 then 0 else if a.msb then -1 else 1

theorem sgnW_ne_one (a : BitVec 32) : sgnW a ≠ 1#32 ↔ a.toInt ≤ 0 := by
  unfold sgnW
  have hm := BitVec.msb_eq_toInt (x := a)
  split_ifs with h0 h1
  · subst h0; decide
  · rw [h1] at hm
    have : a.toInt < 0 := by simpa using hm.symm
    constructor
    · intro _; omega
    · intro _; decide
  · have h1' : a.msb = false := by simpa using h1
    rw [h1'] at hm
    have hn : ¬ a.toInt < 0 := by simpa using hm.symm
    have hz : a.toInt ≠ 0 := fun hz => h0 (BitVec.eq_of_toInt_eq (by rw [hz]; rfl))
    constructor
    · intro h; exact absurd rfl h
    · intro h; omega

/-- The host program's floor division of a word by 2000: the quotient rounded toward zero, less one where the signs
    differ and the remainder is not zero. -/
def fdivW (a : BitVec 32) : BitVec 32 :=
  Scalar.select (IntOp.andi (IntOp.cmpi .ne (sgnW a) (sgnW 2000#32)) (IntOp.cmpi .ne (IntOp.remsi .host a 2000#32) 0#32))
    (IntOp.subi (IntOp.divsi .host a 2000#32) 1#32) (IntOp.divsi .host a 2000#32)

theorem divsi_2000 (a : BitVec 32) : IntOp.divsi .host a 2000#32 = a.sdiv 2000#32 := by
  unfold IntOp.divsi
  rw [if_neg]
  rintro (h | ⟨_, h⟩) <;> exact absurd h (by decide)

theorem remsi_2000 (a : BitVec 32) : IntOp.remsi .host a 2000#32 = a.srem 2000#32 := by
  unfold IntOp.remsi
  rw [if_neg]
  rintro (h | ⟨_, h⟩) <;> exact absurd h (by decide)

/-- It is the floor of the signed quotient. -/
theorem fdivW_toInt (a : BitVec 32) : (fdivW a).toInt = a.toInt / 2000 := by
  obtain ⟨hlo, hhi⟩ := toInt_range a
  have hq : (a.sdiv 2000#32).toInt = a.toInt.tdiv 2000 := by
    rw [BitVec.toInt_sdiv_of_ne_or_ne _ _ (Or.inr (by decide))]; rfl
  have hr : (a.srem 2000#32).toInt = a.toInt.tmod 2000 := by
    rw [BitVec.toInt_srem]; rfl
  have hs : sgnW 2000#32 = 1#32 := by decide
  unfold fdivW Scalar.select
  rw [divsi_2000, remsi_2000, hs]
  split_ifs with hc
  · replace hc : IntOp.andi (IntOp.cmpi .ne (sgnW a) 1#32) (IntOp.cmpi .ne (a.srem 2000#32) 0#32) = 1#1 := hc
    rw [andi_eq_one, cmpi_ne_eq_one, cmpi_ne_eq_one, sgnW_ne_one] at hc
    obtain ⟨hneg, hrem⟩ := hc
    have hrem' : a.toInt.tmod 2000 ≠ 0 := fun h => hrem (BitVec.eq_of_toInt_eq (by rw [hr, h]; rfl))
    have hlt : a.toInt < 0 := by
      rcases lt_or_eq_of_le hneg with h | h
      · exact h
      · rw [h] at hrem'; exact absurd rfl hrem'
    have e1 : a.toInt.tdiv 2000 = -((-a.toInt) / 2000) := by
      rw [← Int.tdiv_eq_ediv_of_nonneg (by omega), Int.neg_tdiv, neg_neg]
    have e2 : a.toInt.tmod 2000 = -((-a.toInt) % 2000) := by
      rw [← Int.tmod_eq_emod_of_nonneg (by omega), Int.neg_tmod, neg_neg]
    rw [e2] at hrem'
    show (a.sdiv 2000#32 - 1#32).toInt = _
    rw [BitVec.toInt_sub, hq, e1]
    have : ((1#32 : BitVec 32)).toInt = 1 := by decide
    rw [this]
    have hb : (-((-a.toInt) / 2000) - 1).bmod (2 ^ 32) = -((-a.toInt) / 2000) - 1 := by
      apply Int.bmod_eq_of_le <;> omega
    rw [hb]; omega
  · rw [hq]
    replace hc : ¬ (IntOp.andi (IntOp.cmpi .ne (sgnW a) 1#32) (IntOp.cmpi .ne (a.srem 2000#32) 0#32) = 1#1) := hc
    rw [andi_eq_one, cmpi_ne_eq_one, cmpi_ne_eq_one, sgnW_ne_one] at hc
    by_cases hn : 0 ≤ a.toInt
    · rw [Int.tdiv_eq_ediv_of_nonneg hn]
    · have hrem : a.srem 2000#32 = 0#32 := by
        by_contra h; exact hc ⟨by omega, h⟩
      have hrem' : a.toInt.tmod 2000 = 0 := by rw [← hr, hrem]; rfl
      have e1 : a.toInt.tdiv 2000 = -((-a.toInt) / 2000) := by
        rw [← Int.tdiv_eq_ediv_of_nonneg (by omega), Int.neg_tdiv, neg_neg]
      have e2 : a.toInt.tmod 2000 = -((-a.toInt) % 2000) := by
        rw [← Int.tmod_eq_emod_of_nonneg (by omega), Int.neg_tmod, neg_neg]
      rw [e2] at hrem'
      rw [e1]; omega

/-- The clamp of a block index `j < 123` between words in `[0, 122]` is a block index. -/
theorem clamp_le (j : ℕ) (hj : j < 123) (a b : BitVec 32) (ha : a.toNat ≤ 122) (hb : b.toNat ≤ 122) :
    (Scalar.minsi (Scalar.maxsi (BitVec.ofNat 32 j) a) b).toNat ≤ 122 := by
  have hji : (BitVec.ofNat 32 j).toInt = (j : ℤ) := toInt_ofNat_small j (by omega)
  have hai := toInt_of_toNat_lt a (by omega)
  have hbi := toInt_of_toNat_lt b (by omega)
  have e : (Scalar.minsi (Scalar.maxsi (BitVec.ofNat 32 j) a) b).toInt
      = min (max (j : ℤ) (a.toNat : ℤ)) (b.toNat : ℤ) := by
    show (IntOp.minsi (IntOp.maxsi (BitVec.ofNat 32 j) a) b).toInt = _
    rw [minsi_toInt, maxsi_toInt, hji, hai, hbi]
  have h0 : 0 ≤ (Scalar.minsi (Scalar.maxsi (BitVec.ofNat 32 j) a) b).toInt := by
    rw [e]; exact le_min (le_max_of_le_left (by omega)) (by omega)
  have h1 := toNat_of_toInt_nonneg _ h0
  have h2 : (Scalar.minsi (Scalar.maxsi (BitVec.ofNat 32 j) a) b).toInt ≤ 122 := by
    rw [e]; exact le_trans (min_le_right _ _) (by omega)
  omega

/-- Between bounds that bracket it the clamp is the index itself. -/
theorem clamp_eq (j : ℕ) (a b : BitVec 32) (ha : a.toNat ≤ j) (hb : j ≤ b.toNat) (hb' : b.toNat ≤ 122) :
    (Scalar.minsi (Scalar.maxsi (BitVec.ofNat 32 j) a) b).toNat = j := by
  have hji : (BitVec.ofNat 32 j).toInt = (j : ℤ) := toInt_ofNat_small j (by omega)
  have hai := toInt_of_toNat_lt a (by omega)
  have hbi := toInt_of_toNat_lt b (by omega)
  have e : (Scalar.minsi (Scalar.maxsi (BitVec.ofNat 32 j) a) b).toInt = (j : ℤ) := by
    show (IntOp.minsi (IntOp.maxsi (BitVec.ofNat 32 j) a) b).toInt = _
    rw [minsi_toInt, maxsi_toInt, hji, hai, hbi, max_eq_left (by omega), min_eq_left (by omega)]
  have h1 := toNat_of_toInt_nonneg _ (by rw [e]; omega)
  omega

/-- A rank-1 index is its one coordinate. -/
theorem idx1_eta {n : ℕ} (x : (⟨1, ![n]⟩ : Shape).Idx) : x = Shape.Idx.ofFin (x 0) := by
  funext a
  have ha : a = 0 := Subsingleton.elim _ _
  subst ha
  exact Fin.ext rfl

/-! ## Row reductions by signed minimum and maximum -/

/-- The reduction of an [n × m] array along its rows by signed minimum is, at row `p`, at most each entry of the row, -/
theorem reduce_minsi_row_le {n m : ℕ} {u : Shape} (h : (⟨2, ![n, m]⟩ : Shape).ReducesTo [1] ⟨1, ![n]⟩)
    (x : (⟨2, ![n, m]⟩ : Shape).Idx → BitVec 32) (init : u.Idx → BitVec 32) (hu : 0 < u.numel) (p : Fin n) (q : Fin m)
    (hb : ((0 : Fin (⟨1, ![n]⟩ : Shape).rank) : ℕ) < ((⟨2, ![n, m]⟩ : Shape).kept [1]).length)
    (hc : ((⟨2, ![n, m]⟩ : Shape).kept [1])[((0 : Fin (⟨1, ![n]⟩ : Shape).rank) : ℕ)] = (0 : Fin 2)) :
    (Host.reduce IntOp.minsi x init h hu (Shape.Idx.ofFin p)).toInt ≤ (x (ij p q)).toInt := by
  rw [Host.reduce_eq_fold]
  refine fold_minsi_le _ _ _ (ij p q) (Finset.mem_filter.2 ⟨Finset.mem_univ _, ?_⟩)
  funext b
  have hb : b = 0 := Subsingleton.elim _ _
  subst hb
  exact Fin.ext (h.drop_apply_val_of_eq (ij p q) 0 0 hb hc)

/-- and by signed maximum at least each entry of the row. -/
theorem le_reduce_maxsi_row {n m : ℕ} {u : Shape} (h : (⟨2, ![n, m]⟩ : Shape).ReducesTo [1] ⟨1, ![n]⟩)
    (x : (⟨2, ![n, m]⟩ : Shape).Idx → BitVec 32) (init : u.Idx → BitVec 32) (hu : 0 < u.numel) (p : Fin n) (q : Fin m)
    (hb : ((0 : Fin (⟨1, ![n]⟩ : Shape).rank) : ℕ) < ((⟨2, ![n, m]⟩ : Shape).kept [1]).length)
    (hc : ((⟨2, ![n, m]⟩ : Shape).kept [1])[((0 : Fin (⟨1, ![n]⟩ : Shape).rank) : ℕ)] = (0 : Fin 2)) :
    (x (ij p q)).toInt ≤ (Host.reduce IntOp.maxsi x init h hu (Shape.Idx.ofFin p)).toInt := by
  rw [Host.reduce_eq_fold]
  refine le_fold_maxsi _ _ _ (ij p q) (Finset.mem_filter.2 ⟨Finset.mem_univ _, ?_⟩)
  funext b
  have hb : b = 0 := Subsingleton.elim _ _
  subst hb
  exact Fin.ext (h.drop_apply_val_of_eq (ij p q) 0 0 hb hc)

/-- A bound below the start and every entry is below the minimum; -/
theorem le_reduce_minsi {s t u : Shape} {axes : List (Fin s.rank)} (h : s.ReducesTo axes t) (x : s.Idx → BitVec 32)
    (init : u.Idx → BitVec 32) (hu : 0 < u.numel) (j : t.Idx) (L : ℤ) (hi : L ≤ (init (Shape.Idx.first hu)).toInt)
    (hx : ∀ i, L ≤ (x i).toInt) : L ≤ (Host.reduce IntOp.minsi x init h hu j).toInt := by
  rw [Host.reduce_eq_fold]
  exact le_fold_minsi _ _ _ L hi fun k _ => hx k

/-- a bound above the start and every entry is above the maximum. -/
theorem reduce_maxsi_le {s t u : Shape} {axes : List (Fin s.rank)} (h : s.ReducesTo axes t) (x : s.Idx → BitVec 32)
    (init : u.Idx → BitVec 32) (hu : 0 < u.numel) (j : t.Idx) (U : ℤ) (hi : (init (Shape.Idx.first hu)).toInt ≤ U)
    (hx : ∀ i, (x i).toInt ≤ U) : (Host.reduce IntOp.maxsi x init h hu j).toInt ≤ U := by
  rw [Host.reduce_eq_fold]
  exact fold_maxsi_le _ _ _ U hi fun k _ => hx k

/-! ## The tables as functions of the column vector -/

/-- Per edge block, the least column word of the block, capped at 99999 (`lo`'s dividend). -/
def colMin (col : IVec S629760 32) : IVec S123 32 :=
  minsi (Host.reduce IntOp.minsi (shapeCast S123x5120 col Gen.shapeCasts_S629760_S123x5120) (constantI S_ 32 2147483647#32)
    Gen.reducesTo_S123x5120_S123_d1 Gen.h_S_) (broadcastInDim S123 ![] Gen.bcast_S_S123 (constantI S_ 32 99999#32))

/-- Per edge block, the greatest column word of the block, capped at 99999 (`hi`'s dividend). -/
def colMax (col : IVec S629760 32) : IVec S123 32 :=
  minsi (Host.reduce IntOp.maxsi (shapeCast S123x5120 col Gen.shapeCasts_S629760_S123x5120) (constantI S_ 32 2147483648#32)
    Gen.reducesTo_S123x5120_S123_d1 Gen.h_S_) (broadcastInDim S123 ![] Gen.bcast_S_S123 (constantI S_ 32 99999#32))

/-- The host program's floor division of a [123] vector by 2000, operation by operation. -/
def fdivV (x : IVec S123 32) : IVec S123 32 :=
  select
    (andi (cmpi .ne (signi x) (broadcastInDim S123 ![] Gen.bcast_S_S123 (signi (constantI S_ 32 2000#32))))
      (cmpi .ne (Host.remsi x (broadcastInDim S123 ![] Gen.bcast_S_S123 (constantI S_ 32 2000#32)))
        (broadcastInDim S123 ![] Gen.bcast_S_S123 (constantI S_ 32 0#32))))
    (subi (Host.divsi x (broadcastInDim S123 ![] Gen.bcast_S_S123 (constantI S_ 32 2000#32)))
      (broadcastInDim S123 ![] Gen.bcast_S_S123 (constantI S_ 32 1#32)))
    (Host.divsi x (broadcastInDim S123 ![] Gen.bcast_S_S123 (constantI S_ 32 2000#32)))

theorem fdivV_apply (x : IVec S123 32) (j : S123.Idx) : fdivV x j = fdivW (x j) := rfl

/-- `lo` and `hi` of the column vector. -/
def loOf (col : IVec S629760 32) : IVec S123 32 := fdivV (colMin col)
def hiOf (col : IVec S629760 32) : IVec S123 32 := fdivV (colMax col)

/-- A [123] vector along the rows of a [50 × 123] rectangle, a [50] vector down its columns, a word everywhere. -/
def rowJ (v : IVec S123 32) : IVec S50x123 32 :=
  broadcastInDim S50x123 ![0, 1] Gen.bcast_S1x123_S50x123_0_1 (broadcastInDim S1x123 ![1] Gen.bcast_S123_S1x123_1 v)
def colI (v : IVec S50 32) : IVec S50x123 32 :=
  broadcastInDim S50x123 ![0, 1] Gen.bcast_S50x1_S50x123_0_1 (broadcastInDim S50x1 ![0] Gen.bcast_S50_S50x1_0 v)
def cstIJ (w : BitVec 32) : IVec S50x123 32 := broadcastInDim S50x123 ![] Gen.bcast_S_S50x123 (constantI S_ 32 w)

theorem rowJ_apply (v : IVec S123 32) (p : Fin 50) (q : Fin 123) : rowJ v (ij p q) = v (Shape.Idx.ofFin q) :=
  bcast_cols Gen.bcast_S123_S1x123_1 Gen.bcast_S1x123_S50x123_0_1 v p q
theorem colI_apply (v : IVec S50 32) (p : Fin 50) (q : Fin 123) : colI v (ij p q) = v (Shape.Idx.ofFin p) :=
  bcast_rows Gen.bcast_S50_S50x1_0 Gen.bcast_S50x1_S50x123_0_1 v p q
theorem cstIJ_apply (w : BitVec 32) (x : S50x123.Idx) : cstIJ w x = w := rfl

/-- The gate of tile `(i, j)`: `lo j ≤ i ≤ hi j`. -/
def validOf (lo hi : IVec S123 32) : IVec S50x123 1 :=
  andi (cmpi .sle (rowJ lo) (colI (iotaInDim S50 32 0))) (cmpi .sge (rowJ hi) (colI (iotaInDim S50 32 0)))

/-- Per node block, the first admitted edge block (123 when there is none) and the last (−1 when there is none). -/
def eminOf (lo hi : IVec S123 32) : IVec S50 32 :=
  Host.reduce IntOp.minsi (select (validOf lo hi) (rowJ (iotaInDim S123 32 0)) (cstIJ 123#32)) (constantI S_ 32 2147483647#32)
    Gen.reducesTo_S50x123_S50_d1 Gen.h_S_
def emaxOf (lo hi : IVec S123 32) : IVec S50 32 :=
  Host.reduce IntOp.maxsi (select (validOf lo hi) (rowJ (iotaInDim S123 32 0)) (cstIJ 4294967295#32)) (constantI S_ 32 2147483648#32)
    Gen.reducesTo_S50x123_S50_d1 Gen.h_S_

/-- `elo` and `ehi` of `lo` and `hi`. -/
def eloOf (lo hi : IVec S123 32) : IVec S50 32 :=
  select (cmpi .sle (eminOf lo hi) (emaxOf lo hi)) (eminOf lo hi) (broadcastInDim S50 ![] Gen.bcast_S_S50 (constantI S_ 32 0#32))
def ehiOf (lo hi : IVec S123 32) : IVec S50 32 :=
  select (cmpi .sle (eminOf lo hi) (emaxOf lo hi)) (emaxOf lo hi) (broadcastInDim S50 ![] Gen.bcast_S_S50 (constantI S_ 32 122#32))

section Facts

variable (lo hi : IVec S123 32)

theorem validOf_apply (i : Fin 50) (j : Fin 123) :
    validOf lo hi (ij i j) = IntOp.andi (IntOp.cmpi .sle (lo (Shape.Idx.ofFin j)) (BitVec.ofNat 32 i.val))
      (IntOp.cmpi .sge (hi (Shape.Idx.ofFin j)) (BitVec.ofNat 32 i.val)) := by
  show IntOp.andi (IntOp.cmpi .sle (rowJ lo (ij i j)) (colI (iotaInDim S50 32 0) (ij i j)))
    (IntOp.cmpi .sge (rowJ hi (ij i j)) (colI (iotaInDim S50 32 0) (ij i j))) = _
  rw [rowJ_apply, rowJ_apply, colI_apply]
  rfl

theorem validOf_eq_one (i : Fin 50) (j : Fin 123) :
    validOf lo hi (ij i j) = 1#1 ↔ (lo (Shape.Idx.ofFin j)).toInt ≤ (i.val : ℤ) ∧ (i.val : ℤ) ≤ (hi (Shape.Idx.ofFin j)).toInt := by
  rw [validOf_apply, andi_eq_one, cmpi_sle_eq_one, cmpi_sge_eq_one, toInt_ofNat_small i.val (by have := i.isLt; omega)]

/-- The entries reduced for the first admitted block: `j` where the gate admits, else 123. -/
theorem minEntry_apply (i : Fin 50) (j : Fin 123) :
    select (validOf lo hi) (rowJ (iotaInDim S123 32 0)) (cstIJ 123#32) (ij i j)
      = if validOf lo hi (ij i j) = 1#1 then BitVec.ofNat 32 j.val else 123#32 := by
  show Scalar.select (validOf lo hi (ij i j)) (rowJ (iotaInDim S123 32 0) (ij i j)) (cstIJ 123#32 (ij i j)) = _
  rw [rowJ_apply]
  rfl

theorem maxEntry_apply (i : Fin 50) (j : Fin 123) :
    select (validOf lo hi) (rowJ (iotaInDim S123 32 0)) (cstIJ 4294967295#32) (ij i j)
      = if validOf lo hi (ij i j) = 1#1 then BitVec.ofNat 32 j.val else 4294967295#32 := by
  show Scalar.select (validOf lo hi (ij i j)) (rowJ (iotaInDim S123 32 0) (ij i j)) (cstIJ 4294967295#32 (ij i j)) = _
  rw [rowJ_apply]
  rfl

theorem toInt_blk (j : Fin 123) : (BitVec.ofNat 32 j.val).toInt = (j.val : ℤ) :=
  toInt_ofNat_small j.val (by have := j.isLt; omega)

theorem minEntry_range (x : S50x123.Idx) :
    0 ≤ (select (validOf lo hi) (rowJ (iotaInDim S123 32 0)) (cstIJ 123#32) x).toInt
      ∧ (select (validOf lo hi) (rowJ (iotaInDim S123 32 0)) (cstIJ 123#32) x).toInt ≤ 123 := by
  obtain ⟨p, q, rfl⟩ : ∃ (p : Fin 50) (q : Fin 123), x = ij p q := ⟨x 0, x 1, (ij_eta (n := 50) (m := 123) x).symm⟩
  rw [minEntry_apply]
  split_ifs
  · rw [toInt_blk]; have := q.isLt; constructor <;> omega
  · constructor <;> decide

theorem maxEntry_range (x : S50x123.Idx) :
    -1 ≤ (select (validOf lo hi) (rowJ (iotaInDim S123 32 0)) (cstIJ 4294967295#32) x).toInt
      ∧ (select (validOf lo hi) (rowJ (iotaInDim S123 32 0)) (cstIJ 4294967295#32) x).toInt ≤ 122 := by
  obtain ⟨p, q, rfl⟩ : ∃ (p : Fin 50) (q : Fin 123), x = ij p q := ⟨x 0, x 1, (ij_eta (n := 50) (m := 123) x).symm⟩
  rw [maxEntry_apply]
  split_ifs
  · rw [toInt_blk]; have := q.isLt; constructor <;> omega
  · constructor <;> decide

theorem emin_nonneg (i : Fin 50) : 0 ≤ (eminOf lo hi (Shape.Idx.ofFin i)).toInt :=
  le_reduce_minsi _ _ _ _ _ 0 (by decide) fun x => (minEntry_range lo hi x).1

theorem emax_le (i : Fin 50) : (emaxOf lo hi (Shape.Idx.ofFin i)).toInt ≤ 122 :=
  reduce_maxsi_le _ _ _ _ _ 122 (by decide) fun x => (maxEntry_range lo hi x).2

theorem emin_le_of_valid (i : Fin 50) (j : Fin 123) (hv : validOf lo hi (ij i j) = 1#1) :
    (eminOf lo hi (Shape.Idx.ofFin i)).toInt ≤ (j.val : ℤ) := by
  have h := reduce_minsi_row_le Gen.reducesTo_S50x123_S50_d1 (select (validOf lo hi) (rowJ (iotaInDim S123 32 0)) (cstIJ 123#32))
    (constantI S_ 32 2147483647#32) Gen.h_S_ i j (by decide) (by decide)
  rw [minEntry_apply, if_pos hv, toInt_blk] at h
  exact h

theorem le_emax_of_valid (i : Fin 50) (j : Fin 123) (hv : validOf lo hi (ij i j) = 1#1) :
    (j.val : ℤ) ≤ (emaxOf lo hi (Shape.Idx.ofFin i)).toInt := by
  have h := le_reduce_maxsi_row Gen.reducesTo_S50x123_S50_d1 (select (validOf lo hi) (rowJ (iotaInDim S123 32 0)) (cstIJ 4294967295#32))
    (constantI S_ 32 2147483648#32) Gen.h_S_ i j (by decide) (by decide)
  rw [maxEntry_apply, if_pos hv, toInt_blk] at h
  exact h

theorem eloOf_apply (i : Fin 50) :
    eloOf lo hi (Shape.Idx.ofFin i)
      = if IntOp.cmpi .sle (eminOf lo hi (Shape.Idx.ofFin i)) (emaxOf lo hi (Shape.Idx.ofFin i)) = 1#1 then eminOf lo hi (Shape.Idx.ofFin i) else 0#32 := rfl
theorem ehiOf_apply (i : Fin 50) :
    ehiOf lo hi (Shape.Idx.ofFin i)
      = if IntOp.cmpi .sle (eminOf lo hi (Shape.Idx.ofFin i)) (emaxOf lo hi (Shape.Idx.ofFin i)) = 1#1 then emaxOf lo hi (Shape.Idx.ofFin i) else 122#32 := rfl

/-- Every word of `elo` is in `[0, 122]`. -/
theorem eloOf_le (x : S50.Idx) : (eloOf lo hi x).toNat ≤ 122 := by
  obtain ⟨p, rfl⟩ : ∃ p : Fin 50, x = Shape.Idx.ofFin p := ⟨x 0, idx1_eta (n := 50) x⟩
  rw [eloOf_apply]
  have h0 := emin_nonneg lo hi p
  have h1 := emax_le lo hi p
  split_ifs with hc
  · rw [cmpi_sle_eq_one] at hc
    have := toNat_of_toInt_nonneg _ h0
    omega
  · decide

/-- Every word of `ehi` is in `[0, 122]`. -/
theorem ehiOf_le (x : S50.Idx) : (ehiOf lo hi x).toNat ≤ 122 := by
  obtain ⟨p, rfl⟩ : ∃ p : Fin 50, x = Shape.Idx.ofFin p := ⟨x 0, idx1_eta (n := 50) x⟩
  rw [ehiOf_apply]
  have h0 := emin_nonneg lo hi p
  have h1 := emax_le lo hi p
  split_ifs with hc
  · rw [cmpi_sle_eq_one] at hc
    have := toNat_of_toInt_nonneg (emaxOf lo hi (Shape.Idx.ofFin p)) (by omega)
    omega
  · decide

/-- A tile the gate admits has `elo i ≤ j ≤ ehi i`. -/
theorem eloOf_ehiOf_of_gate (i : Fin 50) (j : Fin 123) (h1 : (lo (Shape.Idx.ofFin j)).toInt ≤ (i.val : ℤ))
    (h2 : (i.val : ℤ) ≤ (hi (Shape.Idx.ofFin j)).toInt) :
    (eloOf lo hi (Shape.Idx.ofFin i)).toNat ≤ j.val ∧ j.val ≤ (ehiOf lo hi (Shape.Idx.ofFin i)).toNat := by
  have hv : validOf lo hi (ij i j) = 1#1 := (validOf_eq_one lo hi i j).2 ⟨h1, h2⟩
  have ha := emin_le_of_valid lo hi i j hv
  have hb := le_emax_of_valid lo hi i j hv
  have h0 := emin_nonneg lo hi i
  have hc : IntOp.cmpi .sle (eminOf lo hi (Shape.Idx.ofFin i)) (emaxOf lo hi (Shape.Idx.ofFin i)) = 1#1 :=
    (cmpi_sle_eq_one _ _).2 (by omega)
  rw [eloOf_apply, ehiOf_apply, if_pos hc, if_pos hc]
  have e1 := toNat_of_toInt_nonneg _ h0
  have e2 := toNat_of_toInt_nonneg (emaxOf lo hi (Shape.Idx.ofFin i)) (by omega)
  constructor <;> omega

end Facts

section ColFacts

variable (col : IVec S629760 32)

/-- Position `e` of the column vector is entry `(e / 5120, e % 5120)` of its [123 × 5120] reshape. -/
theorem reshape_apply (e : Fin 629760) (j : Fin 123) (hj : e.val / 5120 = j.val) :
    shapeCast S123x5120 col Gen.shapeCasts_S629760_S123x5120 (ij j ⟨e.val % 5120, Nat.mod_lt _ (by decide)⟩) = col (Shape.Idx.ofFin e) := by
  refine shapeCast_apply col _ _ (Shape.Idx.ofFin e) ?_
  rw [Shape.rowMajor_val_one, Shape.rowMajor_val_two]
  show e.val = j.val * 5120 + e.val % 5120
  omega

theorem toInt_99999 : (99999#32 : BitVec 32).toInt = 99999 := by decide

theorem colMin_apply (x : S123.Idx) :
    (colMin col x).toInt = min (Host.reduce IntOp.minsi (shapeCast S123x5120 col Gen.shapeCasts_S629760_S123x5120) (constantI S_ 32 2147483647#32)
      Gen.reducesTo_S123x5120_S123_d1 Gen.h_S_ x).toInt 99999 := by
  have h := minsi_toInt (Host.reduce IntOp.minsi (shapeCast S123x5120 col Gen.shapeCasts_S629760_S123x5120) (constantI S_ 32 2147483647#32)
      Gen.reducesTo_S123x5120_S123_d1 Gen.h_S_ x) 99999#32
  rw [toInt_99999] at h
  exact h

theorem colMax_apply (x : S123.Idx) :
    (colMax col x).toInt = min (Host.reduce IntOp.maxsi (shapeCast S123x5120 col Gen.shapeCasts_S629760_S123x5120) (constantI S_ 32 2147483648#32)
      Gen.reducesTo_S123x5120_S123_d1 Gen.h_S_ x).toInt 99999 := by
  have h := minsi_toInt (Host.reduce IntOp.maxsi (shapeCast S123x5120 col Gen.shapeCasts_S629760_S123x5120) (constantI S_ 32 2147483648#32)
      Gen.reducesTo_S123x5120_S123_d1 Gen.h_S_ x) 99999#32
  rw [toInt_99999] at h
  exact h

/-- A column word `k` in `[0, 100000)` of edge block `j` has `lo j ≤ k / 2000 ≤ hi j`. -/
theorem loOf_hiOf_of_col (e : Fin 629760) (j : Fin 123) (hj : e.val / 5120 = j.val) (hk : (col (Shape.Idx.ofFin e)).toNat < 100000) :
    (loOf col (Shape.Idx.ofFin j)).toInt ≤ (((col (Shape.Idx.ofFin e)).toNat / 2000 : ℕ) : ℤ)
      ∧ (((col (Shape.Idx.ofFin e)).toNat / 2000 : ℕ) : ℤ) ≤ (hiOf col (Shape.Idx.ofFin j)).toInt := by
  have hki := toInt_of_toNat_lt (col (Shape.Idx.ofFin e)) (by omega)
  have hmin := reduce_minsi_row_le Gen.reducesTo_S123x5120_S123_d1 (shapeCast S123x5120 col Gen.shapeCasts_S629760_S123x5120)
    (constantI S_ 32 2147483647#32) Gen.h_S_ j ⟨e.val % 5120, Nat.mod_lt _ (by decide)⟩ (by decide) (by decide)
  have hmax := le_reduce_maxsi_row Gen.reducesTo_S123x5120_S123_d1 (shapeCast S123x5120 col Gen.shapeCasts_S629760_S123x5120)
    (constantI S_ 32 2147483648#32) Gen.h_S_ j ⟨e.val % 5120, Nat.mod_lt _ (by decide)⟩ (by decide) (by decide)
  rw [reshape_apply col e j hj, hki] at hmin hmax
  have e1 : (loOf col (Shape.Idx.ofFin j)).toInt = (colMin col (Shape.Idx.ofFin j)).toInt / 2000 := by
    show (fdivV (colMin col) (Shape.Idx.ofFin j)).toInt = _
    rw [fdivV_apply, fdivW_toInt]
  have e2 : (hiOf col (Shape.Idx.ofFin j)).toInt = (colMax col (Shape.Idx.ofFin j)).toInt / 2000 := by
    show (fdivV (colMax col) (Shape.Idx.ofFin j)).toInt = _
    rw [fdivV_apply, fdivW_toInt]
  have c1 : (colMin col (Shape.Idx.ofFin j)).toInt ≤ ((col (Shape.Idx.ofFin e)).toNat : ℤ) := by
    rw [colMin_apply]; exact le_trans (min_le_left _ _) hmin
  have c2 : ((col (Shape.Idx.ofFin e)).toNat : ℤ) ≤ (colMax col (Shape.Idx.ofFin j)).toInt := by
    rw [colMax_apply]; exact le_min hmax (by omega)
  have d1 := Int.ediv_le_ediv (by decide : (0 : ℤ) < 2000) c1
  have d2 := Int.ediv_le_ediv (by decide : (0 : ℤ) < 2000) c2
  rw [e1, e2]
  constructor <;> omega

end ColFacts

/-! ## The host stretches that compute the tables, at any entry valuation -/

section Stretches

variable (W : Valuation τ sig (Elt F))

/-- The divisor the first floor division reads. -/
theorem s8_c25 : (StableHlo.after hostOps0_8 W (Proc.devRef .tc main_c_25) : S_.Idx → BitVec 32) = constantI S_ 32 2000#32 := by
  after_results
  all_goals rfl

set_option maxHeartbeats 4000000 in
/-- The capped block minima and maxima, of the sorted column vector the same stretch gathers. -/
theorem s8_v77 : (StableHlo.after hostOps0_8 W (Proc.devRef .tc main_v77) : S123.Idx → BitVec 32)
    = colMin (StableHlo.after hostOps0_8 W (Proc.devRef .tc main_v59) : S629760.Idx → BitVec 32) := by
  after_results
  all_goals rfl

set_option maxHeartbeats 4000000 in
theorem s8_v80 : (StableHlo.after hostOps0_8 W (Proc.devRef .tc main_v80) : S123.Idx → BitVec 32)
    = colMax (StableHlo.after hostOps0_8 W (Proc.devRef .tc main_v59) : S629760.Idx → BitVec 32) := by
  after_results
  all_goals rfl

set_option maxHeartbeats 4000000 in
/-- `lo`: the floor division of the capped minima, its divisor the word the stretch before left. -/
theorem s9_v81 (hc : (W (Proc.devRef .tc main_c_25) : S_.Idx → BitVec 32) = constantI S_ 32 2000#32) :
    (StableHlo.after hostOps0_9 W (Proc.devRef .tc main_v81) : S123.Idx → BitVec 32)
      = fdivV (W (Proc.devRef .tc main_v77) : S123.Idx → BitVec 32) := by
  after_results
  rw [hc]
  all_goals rfl

set_option maxHeartbeats 4000000 in
/-- `hi`: the floor division of the capped maxima. -/
theorem s11_v82 :
    (StableHlo.after hostOps0_11 (StableHlo.after hostOps0_10 W) (Proc.devRef .tc main_v82) : S123.Idx → BitVec 32)
      = fdivV (W (Proc.devRef .tc main_v80) : S123.Idx → BitVec 32) := by
  after_results
  all_goals rfl

set_option maxHeartbeats 8000000 in
/-- `elo` and `ehi`, of `lo` and `hi`. -/
theorem s27_v110 :
    (StableHlo.after hostOps0_27 (StableHlo.after hostOps0_26 (StableHlo.after hostOps0_25 (StableHlo.after hostOps0_24
      (StableHlo.after hostOps0_23 (StableHlo.after hostOps0_22 (StableHlo.after hostOps0_21 (StableHlo.after hostOps0_20 W)))))))
        (Proc.devRef .tc main_v110) : S50.Idx → BitVec 32)
      = eloOf (W (Proc.devRef .tc main_v81) : S123.Idx → BitVec 32) (W (Proc.devRef .tc main_v82) : S123.Idx → BitVec 32) := by
  after_results
  all_goals rfl

set_option maxHeartbeats 8000000 in
theorem s27_v111 :
    (StableHlo.after hostOps0_27 (StableHlo.after hostOps0_26 (StableHlo.after hostOps0_25 (StableHlo.after hostOps0_24
      (StableHlo.after hostOps0_23 (StableHlo.after hostOps0_22 (StableHlo.after hostOps0_21 (StableHlo.after hostOps0_20 W)))))))
        (Proc.devRef .tc main_v111) : S50.Idx → BitVec 32)
      = ehiOf (W (Proc.devRef .tc main_v81) : S123.Idx → BitVec 32) (W (Proc.devRef .tc main_v82) : S123.Idx → BitVec 32) := by
  after_results
  all_goals rfl

end Stretches

/-! ## The tables in the valuation the regions are entered at -/

section Tables

variable (m : (ℓ : Loc nD τ sig) → Buf (Elt F) ℓ)

theorem V33_v59 (c : Dev nD) : V33 m c main_v59 = V9 m c main_v59 :=
  (V33_of m c main_v59 (by decide)).trans <| (V32_of m c main_v59 (by decide)).trans <| (V31_of m c main_v59 (by decide)).trans <| (V30_of m c main_v59 (by decide)).trans <| (V29_of m c main_v59 (by decide)).trans <| (V28_of m c main_v59 (by decide)).trans <| (V27_of m c main_v59 (by decide)).trans <| (V26_of m c main_v59 (by decide)).trans <| (V25_of m c main_v59 (by decide)).trans <| (V24_of m c main_v59 (by decide)).trans <| (V23_of m c main_v59 (by decide)).trans <| (V22_of m c main_v59 (by decide)).trans <| (V21_of m c main_v59 (by decide)).trans <| (V20_of m c main_v59 (by decide)).trans <| (V19_of m c main_v59 (by decide)).trans <| (V18_of m c main_v59 (by decide)).trans <| (V17_of m c main_v59 (by decide)).trans <| (V16_of m c main_v59 (by decide)).trans <| (V15_of m c main_v59 (by decide)).trans <| (V14_of m c main_v59 (by decide)).trans <| (V13_of m c main_v59 (by decide)).trans <| (V12_of m c main_v59 (by decide)).trans <| (V11_of m c main_v59 (by decide)).trans <| (V10_of m c main_v59 (by decide))
theorem V33_v81 (c : Dev nD) : V33 m c main_v81 = V10 m c main_v81 :=
  (V33_of m c main_v81 (by decide)).trans <| (V32_of m c main_v81 (by decide)).trans <| (V31_of m c main_v81 (by decide)).trans <| (V30_of m c main_v81 (by decide)).trans <| (V29_of m c main_v81 (by decide)).trans <| (V28_of m c main_v81 (by decide)).trans <| (V27_of m c main_v81 (by decide)).trans <| (V26_of m c main_v81 (by decide)).trans <| (V25_of m c main_v81 (by decide)).trans <| (V24_of m c main_v81 (by decide)).trans <| (V23_of m c main_v81 (by decide)).trans <| (V22_of m c main_v81 (by decide)).trans <| (V21_of m c main_v81 (by decide)).trans <| (V20_of m c main_v81 (by decide)).trans <| (V19_of m c main_v81 (by decide)).trans <| (V18_of m c main_v81 (by decide)).trans <| (V17_of m c main_v81 (by decide)).trans <| (V16_of m c main_v81 (by decide)).trans <| (V15_of m c main_v81 (by decide)).trans <| (V14_of m c main_v81 (by decide)).trans <| (V13_of m c main_v81 (by decide)).trans <| (V12_of m c main_v81 (by decide)).trans <| (V11_of m c main_v81 (by decide))
theorem V33_v82 (c : Dev nD) : V33 m c main_v82 = V12 m c main_v82 :=
  (V33_of m c main_v82 (by decide)).trans <| (V32_of m c main_v82 (by decide)).trans <| (V31_of m c main_v82 (by decide)).trans <| (V30_of m c main_v82 (by decide)).trans <| (V29_of m c main_v82 (by decide)).trans <| (V28_of m c main_v82 (by decide)).trans <| (V27_of m c main_v82 (by decide)).trans <| (V26_of m c main_v82 (by decide)).trans <| (V25_of m c main_v82 (by decide)).trans <| (V24_of m c main_v82 (by decide)).trans <| (V23_of m c main_v82 (by decide)).trans <| (V22_of m c main_v82 (by decide)).trans <| (V21_of m c main_v82 (by decide)).trans <| (V20_of m c main_v82 (by decide)).trans <| (V19_of m c main_v82 (by decide)).trans <| (V18_of m c main_v82 (by decide)).trans <| (V17_of m c main_v82 (by decide)).trans <| (V16_of m c main_v82 (by decide)).trans <| (V15_of m c main_v82 (by decide)).trans <| (V14_of m c main_v82 (by decide)).trans <| (V13_of m c main_v82 (by decide))
theorem V33_v110 (c : Dev nD) : V33 m c main_v110 = V28 m c main_v110 :=
  (V33_of m c main_v110 (by decide)).trans <| (V32_of m c main_v110 (by decide)).trans <| (V31_of m c main_v110 (by decide)).trans <| (V30_of m c main_v110 (by decide)).trans <| (V29_of m c main_v110 (by decide))
theorem V33_v111 (c : Dev nD) : V33 m c main_v111 = V28 m c main_v111 :=
  (V33_of m c main_v111 (by decide)).trans <| (V32_of m c main_v111 (by decide)).trans <| (V31_of m c main_v111 (by decide)).trans <| (V30_of m c main_v111 (by decide)).trans <| (V29_of m c main_v111 (by decide))
theorem V20_v81 (c : Dev nD) : V20 m c main_v81 = V10 m c main_v81 :=
  (V20_of m c main_v81 (by decide)).trans <| (V19_of m c main_v81 (by decide)).trans <| (V18_of m c main_v81 (by decide)).trans <| (V17_of m c main_v81 (by decide)).trans <| (V16_of m c main_v81 (by decide)).trans <| (V15_of m c main_v81 (by decide)).trans <| (V14_of m c main_v81 (by decide)).trans <| (V13_of m c main_v81 (by decide)).trans <| (V12_of m c main_v81 (by decide)).trans <| (V11_of m c main_v81 (by decide))
theorem V20_v82 (c : Dev nD) : V20 m c main_v82 = V12 m c main_v82 :=
  (V20_of m c main_v82 (by decide)).trans <| (V19_of m c main_v82 (by decide)).trans <| (V18_of m c main_v82 (by decide)).trans <| (V17_of m c main_v82 (by decide)).trans <| (V16_of m c main_v82 (by decide)).trans <| (V15_of m c main_v82 (by decide)).trans <| (V14_of m c main_v82 (by decide)).trans <| (V13_of m c main_v82 (by decide))
theorem V10_v80 (c : Dev nD) : V10 m c main_v80 = V9 m c main_v80 :=
  V10_of m c main_v80 (by decide)

/-- `lo` is `loOf` of the sorted column vector, -/
theorem lo_eq (c : Dev nD) :
    (V33 m c main_v81 : S123.Idx → BitVec 32) = loOf (V33 m c main_v59 : S629760.Idx → BitVec 32) :=
  (V33_v81 m c).trans <| (s9_v81 (V9 m c) (s8_c25 (V8 m c))).trans <|
    (congrArg fdivV (s8_v77 (V8 m c))).trans (congrArg loOf (V33_v59 m c).symm)

/-- `hi` is `hiOf` of it, -/
theorem hi_eq (c : Dev nD) :
    (V33 m c main_v82 : S123.Idx → BitVec 32) = hiOf (V33 m c main_v59 : S629760.Idx → BitVec 32) :=
  (V33_v82 m c).trans <| (s11_v82 (V10 m c)).trans <| (congrArg fdivV (V10_v80 m c)).trans <|
    (congrArg fdivV (s8_v80 (V8 m c))).trans (congrArg hiOf (V33_v59 m c).symm)

/-- and `elo`, `ehi` are `eloOf`, `ehiOf` of `lo` and `hi`. -/
theorem elo_eq (c : Dev nD) :
    (V33 m c main_v110 : S50.Idx → BitVec 32)
      = eloOf (V33 m c main_v81 : S123.Idx → BitVec 32) (V33 m c main_v82 : S123.Idx → BitVec 32) :=
  (V33_v110 m c).trans <| (s27_v110 (V20 m c)).trans <|
    (congrArg (fun l : S123.Idx → BitVec 32 => eloOf l (V20 m c main_v82 : S123.Idx → BitVec 32)) ((V20_v81 m c).trans (V33_v81 m c).symm)).trans
      (congrArg (eloOf (V33 m c main_v81 : S123.Idx → BitVec 32)) ((V20_v82 m c).trans (V33_v82 m c).symm))

theorem ehi_eq (c : Dev nD) :
    (V33 m c main_v111 : S50.Idx → BitVec 32)
      = ehiOf (V33 m c main_v81 : S123.Idx → BitVec 32) (V33 m c main_v82 : S123.Idx → BitVec 32) :=
  (V33_v111 m c).trans <| (s27_v111 (V20 m c)).trans <|
    (congrArg (fun l : S123.Idx → BitVec 32 => ehiOf l (V20 m c main_v82 : S123.Idx → BitVec 32)) ((V20_v81 m c).trans (V33_v81 m c).symm)).trans
      (congrArg (ehiOf (V33 m c main_v81 : S123.Idx → BitVec 32)) ((V20_v82 m c).trans (V33_v82 m c).symm))

/-- Every word of `elo` is in `[0, 122]`. -/
theorem elo_le (c : Dev nD) (x : S50.Idx) : ((V33 m c main_v110 : S50.Idx → BitVec 32) x).toNat ≤ 122 :=
  (congrArg (fun f : S50.Idx → BitVec 32 => (f x).toNat ≤ 122) (elo_eq m c)).mpr (eloOf_le _ _ x)

/-- Every word of `ehi` is in `[0, 122]`. -/
theorem ehi_le (c : Dev nD) (x : S50.Idx) : ((V33 m c main_v111 : S50.Idx → BitVec 32) x).toNat ≤ 122 :=
  (congrArg (fun f : S50.Idx → BitVec 32 => (f x).toNat ≤ 122) (ehi_eq m c)).mpr (ehiOf_le _ _ x)

/-- A column word `k` in `[0, 100000)` at position `e` of edge block `j` lies, divided by 2000, between that
    block's `lo` and `hi` (signed). -/
theorem lo_hi_of_col (c : Dev nD) (e : Fin 629760) (j : Fin 123) (hj : e.val / 5120 = j.val)
    (hk : ((V33 m c main_v59 : S629760.Idx → BitVec 32) (Shape.Idx.ofFin e)).toNat < 100000) :
    ((V33 m c main_v81 : S123.Idx → BitVec 32) (Shape.Idx.ofFin j)).toInt
        ≤ ((((V33 m c main_v59 : S629760.Idx → BitVec 32) (Shape.Idx.ofFin e)).toNat / 2000 : ℕ) : ℤ)
      ∧ ((((V33 m c main_v59 : S629760.Idx → BitVec 32) (Shape.Idx.ofFin e)).toNat / 2000 : ℕ) : ℤ)
        ≤ ((V33 m c main_v82 : S123.Idx → BitVec 32) (Shape.Idx.ofFin j)).toInt := by
  have h := loOf_hiOf_of_col (V33 m c main_v59 : S629760.Idx → BitVec 32) e j hj hk
  exact ⟨(congrArg (fun f : S123.Idx → BitVec 32 => (f (Shape.Idx.ofFin j)).toInt) (lo_eq m c)).trans_le h.1,
    h.2.trans_eq (congrArg (fun f : S123.Idx → BitVec 32 => (f (Shape.Idx.ofFin j)).toInt) (hi_eq m c)).symm⟩

/-- A tile `(i, j)` the gate admits (`lo j ≤ i ≤ hi j`, signed) has `elo i ≤ j ≤ ehi i`. -/
theorem elo_ehi_of_gate (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) :
    ((V33 m c main_v110 : S50.Idx → BitVec 32) (Shape.Idx.ofFin i)).toNat ≤ j.val
      ∧ j.val ≤ ((V33 m c main_v111 : S50.Idx → BitVec 32) (Shape.Idx.ofFin i)).toNat := by
  have h := eloOf_ehiOf_of_gate (V33 m c main_v81 : S123.Idx → BitVec 32) (V33 m c main_v82 : S123.Idx → BitVec 32) i j h1 h2
  exact ⟨(congrArg (fun f : S50.Idx → BitVec 32 => (f (Shape.Idx.ofFin i)).toNat) (elo_eq m c)).trans_le h.1,
    h.2.trans_eq (congrArg (fun f : S50.Idx → BitVec 32 => (f (Shape.Idx.ofFin i)).toNat) (ehi_eq m c)).symm⟩

end Tables

/-! ## The scatter pipelines' side conditions -/

/-- Region 2's side condition at any contents whose `elo` and `ehi` words are in `[0, 122]`: the clamped block index
    of windows 0 and 1 is one of the 123 blocks. -/
theorem ok2_of (pf : pre2.Contents (Elt F)) (h2 : ∀ x : S50.Idx, ((pf 2 : S50.Idx → BitVec 32) x).toNat ≤ 122)
    (h3 : ∀ x : S50.Idx, ((pf 3 : S50.Idx → BitVec 32) x).toNat ≤ 122) : ok2 pf := by
  have key : ∀ i : grid2.Coords, ∃ w : BitVec 32, w.toNat ≤ 122 ∧
      cc2_transform_0 Facts₀.k2_off1_inb Facts₀.numel1_S1 pf i = ![0, w.toNat] ∧
      cc2_transform_1 Facts₀.k2_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 5's side condition at any contents whose `elo` and `ehi` words are in `[0, 122]`: the clamped block index
    of windows 0 and 1 is one of the 123 blocks. -/
theorem ok5_of (pf : pre5.Contents (Elt F)) (h2 : ∀ x : S50.Idx, ((pf 2 : S50.Idx → BitVec 32) x).toNat ≤ 122)
    (h3 : ∀ x : S50.Idx, ((pf 3 : S50.Idx → BitVec 32) x).toNat ≤ 122) : ok5 pf := by
  have key : ∀ i : grid5.Coords, ∃ w : BitVec 32, w.toNat ≤ 122 ∧
      cc5_transform_0 Facts₀.k5_off1_inb Facts₀.numel1_S1 pf i = ![0, w.toNat] ∧
      cc5_transform_1 Facts₀.k5_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 8's side condition at any contents whose `elo` and `ehi` words are in `[0, 122]`: the clamped block index
    of windows 0 and 1 is one of the 123 blocks. -/
theorem ok8_of (pf : pre8.Contents (Elt F)) (h2 : ∀ x : S50.Idx, ((pf 2 : S50.Idx → BitVec 32) x).toNat ≤ 122)
    (h3 : ∀ x : S50.Idx, ((pf 3 : S50.Idx → BitVec 32) x).toNat ≤ 122) : ok8 pf := by
  have key : ∀ i : grid8.Coords, ∃ w : BitVec 32, w.toNat ≤ 122 ∧
      cc8_transform_0 Facts₀.k8_off1_inb Facts₀.numel1_S1 pf i = ![0, w.toNat] ∧
      cc8_transform_1 Facts₀.k8_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 11's side condition at any contents whose `elo` and `ehi` words are in `[0, 122]`: the clamped block index
    of windows 0 and 1 is one of the 123 blocks. -/
theorem ok11_of (pf : pre11.Contents (Elt F)) (h2 : ∀ x : S50.Idx, ((pf 2 : S50.Idx → BitVec 32) x).toNat ≤ 122)
    (h3 : ∀ x : S50.Idx, ((pf 3 : S50.Idx → BitVec 32) x).toNat ≤ 122) : ok11 pf := by
  have key : ∀ i : grid11.Coords, ∃ w : BitVec 32, w.toNat ≤ 122 ∧
      cc11_transform_0 Facts₀.k11_off1_inb Facts₀.numel1_S1 pf i = ![0, w.toNat] ∧
      cc11_transform_1 Facts₀.k11_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega
section Adm

variable (m : (ℓ : Loc nD τ sig) → Buf (Elt F) ℓ)

/-- The four tables' contents when the regions are entered (the program runs on one device: device 0's). -/
def tbl2 : pre2.Contents (Elt F) := fun k => V33 m (0 : Dev nD) (pre2.ref k)
def tbl5 : pre5.Contents (Elt F) := fun k => V33 m (0 : Dev nD) (pre5.ref k)
def tbl8 : pre8.Contents (Elt F) := fun k => V33 m (0 : Dev nD) (pre8.ref k)
def tbl11 : pre11.Contents (Elt F) := fun k => V33 m (0 : Dev nD) (pre11.ref k)

/-- On every device the tables hold those contents. -/
theorem V33_pre2 (c : Dev nD) (k : Fin 4) : V33 m c (pre2.ref k) = tbl2 m k := by
  obtain rfl : c = 0 := Subsingleton.elim _ _; rfl
theorem V33_pre5 (c : Dev nD) (k : Fin 4) : V33 m c (pre5.ref k) = tbl5 m k := by
  obtain rfl : c = 0 := Subsingleton.elim _ _; rfl
theorem V33_pre8 (c : Dev nD) (k : Fin 4) : V33 m c (pre8.ref k) = tbl8 m k := by
  obtain rfl : c = 0 := Subsingleton.elim _ _; rfl
theorem V33_pre11 (c : Dev nD) (k : Fin 4) : V33 m c (pre11.ref k) = tbl11 m k := by
  obtain rfl : c = 0 := Subsingleton.elim _ _; rfl

theorem ok2_tbl : ok2 (tbl2 m) := ok2_of (tbl2 m) (fun x => elo_le m 0 x) (fun x => ehi_le m 0 x)
theorem ok5_tbl : ok5 (tbl5 m) := ok5_of (tbl5 m) (fun x => elo_le m 0 x) (fun x => ehi_le m 0 x)
theorem ok8_tbl : ok8 (tbl8 m) := ok8_of (tbl8 m) (fun x => elo_le m 0 x) (fun x => ehi_le m 0 x)
theorem ok11_tbl : ok11 (tbl11 m) := ok11_of (tbl11 m) (fun x => elo_le m 0 x) (fun x => ehi_le m 0 x)

/-- The tables as admissible contents of the four scatter pipelines. -/
def adm2 : (pcfgs (F := F) 2).Adm := ⟨tbl2 m, ok2_tbl m⟩
def adm5 : (pcfgs (F := F) 5).Adm := ⟨tbl5 m, ok5_tbl m⟩
def adm8 : (pcfgs (F := F) 8).Adm := ⟨tbl8 m, ok8_tbl m⟩
def adm11 : (pcfgs (F := F) 11).Adm := ⟨tbl11 m, ok11_tbl m⟩

theorem adm2_val : (adm2 m).1 = tbl2 m := rfl
theorem adm5_val : (adm5 m).1 = tbl5 m := rfl
theorem adm8_val : (adm8 m).1 = tbl8 m := rfl
theorem adm11_val : (adm11 m).1 = tbl11 m := rfl

end Adm

end Cert.Kernel.Hand

end
-- ==== Proof.K.TablesGather.lean ====
import proofs.«415143_j42460046688958_3_alg».proof.Proof.K.RegionsP
import Idealize.ShloMosaic.Lib.StableHlo.Predicate
import Idealize.ShloMosaic.PureOps.Reduce

-- decided memberships among the 437 references recurse past the default depth
set_option maxRecDepth 2260

noncomputable section

namespace Cert.Kernel.Hand

open Cert.Kernel Cert.Kernel.Gen
open Idealize.ShloMosaic Idealize.ShloMosaic.TcCoe Idealize.SL.Sem

variable {F : FTy → Type} [FloatOps F]

/-! # The gather tables

The gather pipelines (1, 4, 7, 10) prefetch two tables of 123 words, one per block of 5120 edges: `rlo` (main_v86) is the
clamp to [0, 124] of the floor of (the least row word of the block) / 800, `rhi` (main_v89) the same of the greatest.
Whatever the row words, every word of either table is in [0, 124], so the table-indexed window of 800 rows stays
inside its 125 blocks; and a row word r in [0, 100000) of block i has rlo[i] ≤ r / 800 ≤ rhi[i], so the tile that holds
row r is one the gate admits. -/

namespace TG

/-! ## Words: sign, floor division by 800, the clamp to [0, 124], as signed integers -/

/-- The sign of a word: 0 at zero, -1 at a negative word, 1 at a positive one. -/
def sgnW (x : BitVec 32) : BitVec 32 := if x = 0 then 0 else if x.msb then -1 else 1

/-- Floor division of a word by 800: the quotient rounded toward zero, less one when the signs of dividend and
    divisor differ and the remainder is not zero. -/
def fdivW (x : BitVec 32) : BitVec 32 :=
  Scalar.select (IntOp.andi (IntOp.cmpi .ne (sgnW x) (sgnW 800#32)) (IntOp.cmpi .ne (IntOp.remsi .host x 800#32) 0#32))
    (IntOp.subi (IntOp.divsi .host x 800#32) 1#32) (IntOp.divsi .host x 800#32)

/-- The clamp of a word to [0, 124]: the smaller of 124 and the larger of 0 and the word. -/
def clipW (x : BitVec 32) : BitVec 32 := IntOp.minsi 124#32 (IntOp.maxsi 0#32 x)

theorem toInt_maxsi (x y : BitVec 32) : (IntOp.maxsi x y).toInt = max x.toInt y.toInt := by
  unfold IntOp.maxsi
  split <;> rename_i hc <;> simp only [BitVec.slt_eq_decide, decide_eq_true_eq] at hc <;> omega

theorem toInt_minsi (x y : BitVec 32) : (IntOp.minsi x y).toInt = min x.toInt y.toInt := by
  unfold IntOp.minsi
  split <;> rename_i hc <;> simp only [BitVec.slt_eq_decide, decide_eq_true_eq] at hc <;> omega

/-- The clamp as an integer: between 0 and 124 whatever the word. -/
theorem toInt_clipW (x : BitVec 32) : (clipW x).toInt = min 124 (max 0 x.toInt) := by
  unfold clipW
  rw [toInt_minsi, toInt_maxsi]
  rfl

theorem and1 : ∀ a b : BitVec 1, IntOp.andi a b = 1#1 ↔ a = 1#1 ∧ b = 1#1 := by decide

theorem cmpi_ne_iff (a b : BitVec 32) : IntOp.cmpi .ne a b = 1#1 ↔ a ≠ b := by
  simp only [IntOp.cmpi, StableHlo.Predicate.ofBool_eq_one_iff, bne_iff_ne]

theorem toInt_eq_zero_iff (x : BitVec 32) : x.toInt = 0 ↔ x = 0#32 :=
  ⟨fun h => BitVec.eq_of_toInt_eq (by rw [h]; rfl), fun h => by rw [h]; rfl⟩

/-- The sign is 1 exactly at the positive words. -/
theorem sgnW_eq_one_iff (x : BitVec 32) : sgnW x = 1#32 ↔ 0 < x.toInt := by
  unfold sgnW
  by_cases h0 : x = 0
  · subst h0; decide
  · rw [if_neg h0]
    have hne : x.toInt ≠ 0 := fun h => h0 ((toInt_eq_zero_iff x).1 h)
    have hlt := x.isLt
    by_cases hm : x.msb = true
    · rw [if_pos hm]
      have hneg : x.toInt < 0 := by
        rw [BitVec.toInt_eq_msb_cond, if_pos hm]; omega
      exact ⟨fun h => absurd h (by decide), fun h => by omega⟩
    · rw [if_neg hm]
      have hpos : 0 ≤ x.toInt := by
        rw [BitVec.toInt_eq_msb_cond, if_neg hm]; omega
      exact ⟨fun _ => by omega, fun _ => rfl⟩

/-- Floor division by 800 as an integer: the floor of the quotient. -/
theorem toInt_fdivW (x : BitVec 32) : (fdivW x).toInt = x.toInt / 800 := by
  have h800 : (800#32 : BitVec 32).toInt = 800 := by decide
  have hnc : ¬ IntOp.SDivCorner x 800#32 := by
    intro hc; rcases hc with hc | ⟨_, hc⟩ <;> exact absurd hc (by decide)
  have hq : (IntOp.divsi .host x 800#32).toInt = x.toInt.tdiv 800 := by
    rw [IntOp.divsi, if_neg hnc, BitVec.toInt_sdiv_of_ne_or_ne _ _ (Or.inr (by decide)), h800]
  have hr : (IntOp.remsi .host x 800#32).toInt = x.toInt.tmod 800 := by
    rw [IntOp.remsi, if_neg hnc, BitVec.toInt_srem, h800]
  have hs800 : sgnW 800#32 = 1#32 := by decide
  have hlo : -(2 ^ 31 : Int) ≤ x.toInt := BitVec.le_toInt x
  have hhi : x.toInt < (2 ^ 31 : Int) := BitVec.toInt_lt
  have hsign : (800 : Int).sign = 1 := rfl
  have hnat : (800 : Int).natAbs = 800 := rfl
  unfold fdivW Scalar.select
  rw [hs800]
  by_cases hx : 0 ≤ x.toInt ∨ (800 : Int) ∣ x.toInt
  · -- the quotient rounded toward zero is already the floor, and the correction is off
    have hc : ¬ (IntOp.andi (IntOp.cmpi .ne (sgnW x) 1#32) (IntOp.cmpi .ne (IntOp.remsi .host x 800#32) 0#32) = 1) := by
      rw [show (1 : BitVec 1) = 1#1 from rfl, and1, cmpi_ne_iff, cmpi_ne_iff]
      rintro ⟨hs, hrem⟩
      rcases hx with hx | hx
      · rcases Int.lt_or_eq_of_le hx with hpos | hz
        · exact hs ((sgnW_eq_one_iff x).2 hpos)
        · apply hrem
          apply (toInt_eq_zero_iff _).1
          rw [hr, ← hz]; rfl
      · apply hrem
        apply (toInt_eq_zero_iff _).1
        rw [hr, Int.tmod_eq_emod, if_pos (Or.inr hx), Int.emod_eq_zero_of_dvd hx]; rfl
    rw [if_neg hc, hq, Int.tdiv_eq_ediv, if_pos hx]; omega
  · have hneg : x.toInt < 0 := by
      by_cases h : x.toInt < 0
      · exact h
      · exact absurd (Or.inl (by omega)) hx
    have hnd : ¬ (800 : Int) ∣ x.toInt := fun h => hx (Or.inr h)
    have hc : IntOp.andi (IntOp.cmpi .ne (sgnW x) 1#32) (IntOp.cmpi .ne (IntOp.remsi .host x 800#32) 0#32) = 1 := by
      rw [show (1 : BitVec 1) = 1#1 from rfl, and1, cmpi_ne_iff, cmpi_ne_iff]
      refine ⟨fun hs => ?_, fun hrem => ?_⟩
      · have := (sgnW_eq_one_iff x).1 hs; omega
      · have h0 : (IntOp.remsi .host x 800#32).toInt = 0 := by rw [hrem]; rfl
        rw [hr, Int.tmod_eq_emod, if_neg hx, hnat] at h0
        have := Int.emod_nonneg x.toInt (show (800 : Int) ≠ 0 by decide)
        have := Int.emod_lt_of_pos x.toInt (show (0 : Int) < 800 by decide)
        omega
    rw [if_pos hc, IntOp.subi, BitVec.toInt_sub, hq, Int.tdiv_eq_ediv, if_neg hx, hsign,
      show (1#32 : BitVec 32).toInt = 1 from by decide]
    rw [Int.bmod_eq_of_le (by omega) (by omega)]
    omega

/-- Floor division by 800 is monotone in the signed order. -/
theorem fdivW_mono {x y : BitVec 32} (h : x.toInt ≤ y.toInt) : (fdivW x).toInt ≤ (fdivW y).toInt := by
  rw [toInt_fdivW, toInt_fdivW]; omega

/-- So is the clamp. -/
theorem clipW_mono {x y : BitVec 32} (h : x.toInt ≤ y.toInt) : (clipW x).toInt ≤ (clipW y).toInt := by
  rw [toInt_clipW, toInt_clipW]; omega

/-- A clamped word read unsigned is at most 124. -/
theorem clipW_toNat_le (x : BitVec 32) : (clipW x).toNat ≤ 124 := by
  have h := toInt_clipW x
  have hlt := (clipW x).isLt
  rw [BitVec.toInt_eq_toNat_cond] at h
  split at h <;> omega

/-! ## Folds: the signed minimum (maximum) over a set is below (above) every member -/

theorem fold_minsi_le {ι : Type} [DecidableEq ι] (S : Finset ι) (f : ι → BitVec 32) (b : BitVec 32) :
    ∀ k ∈ S, (S.fold IntOp.minsi b f).toInt ≤ (f k).toInt := by
  induction S using Finset.induction_on with
  | empty => intro k hk; exact absurd hk (Finset.notMem_empty k)
  | insert a S ha ih =>
    intro k hk
    rw [Finset.fold_insert ha, toInt_minsi]
    rcases Finset.mem_insert.1 hk with rfl | hk
    · omega
    · have := ih k hk; omega

theorem le_fold_maxsi {ι : Type} [DecidableEq ι] (S : Finset ι) (f : ι → BitVec 32) (b : BitVec 32) :
    ∀ k ∈ S, (f k).toInt ≤ (S.fold IntOp.maxsi b f).toInt := by
  induction S using Finset.induction_on with
  | empty => intro k hk; exact absurd hk (Finset.notMem_empty k)
  | insert a S ha ih =>
    intro k hk
    rw [Finset.fold_insert ha, toInt_maxsi]
    rcases Finset.mem_insert.1 hk with rfl | hk
    · omega
    · have := ih k hk; omega

/-! ## The clamp of the index map -/

/-- A coordinate below 125 clamped between two words of [0, 124] is a word of [0, 124]. -/
theorem clamp_le124 (j : Nat) (hj : j < 125) (lo hi : BitVec 32) (hlo : lo.toNat ≤ 124) (hhi : hi.toNat ≤ 124) :
    (Scalar.minsi (Scalar.maxsi (BitVec.ofNat 32 j) lo) hi).toNat ≤ 124 := by
  have e : (Scalar.minsi (Scalar.maxsi (BitVec.ofNat 32 j) lo) hi).toInt
      = min (max (BitVec.ofNat 32 j).toInt lo.toInt) hi.toInt := by
    unfold Scalar.minsi Scalar.maxsi; rw [toInt_minsi, toInt_maxsi]
  rw [StableHlo.Predicate.toInt_ofNat_small j (by omega), StableHlo.Predicate.toInt_eq_toNat_of_lt (a := lo) (by omega),
    StableHlo.Predicate.toInt_eq_toNat_of_lt (a := hi) (by omega)] at e
  have hlt := (Scalar.minsi (Scalar.maxsi (BitVec.ofNat 32 j) lo) hi).isLt
  rw [BitVec.toInt_eq_toNat_cond] at e
  split at e <;> omega

/-- Between words of [0, 124] that bracket it the clamp is the coordinate itself. -/
theorem clamp_eq124 (j : Nat) (lo hi : BitVec 32) (hlo : lo.toNat ≤ j) (hhi : j ≤ hi.toNat) (hhi' : hi.toNat ≤ 124) :
    (Scalar.minsi (Scalar.maxsi (BitVec.ofNat 32 j) lo) hi).toNat = j := by
  have e : (Scalar.minsi (Scalar.maxsi (BitVec.ofNat 32 j) lo) hi).toInt
      = min (max (BitVec.ofNat 32 j).toInt lo.toInt) hi.toInt := by
    unfold Scalar.minsi Scalar.maxsi; rw [toInt_minsi, toInt_maxsi]
  rw [StableHlo.Predicate.toInt_ofNat_small j (by omega), StableHlo.Predicate.toInt_eq_toNat_of_lt (a := lo) (by omega),
    StableHlo.Predicate.toInt_eq_toNat_of_lt (a := hi) (by omega)] at e
  have hlt := (Scalar.minsi (Scalar.maxsi (BitVec.ofNat 32 j) lo) hi).isLt
  rw [BitVec.toInt_eq_toNat_cond] at e
  split at e <;> omega

end TG

/-! ## Indices: the reshape of the 629760 row words into 123 blocks of 5120 -/

namespace TG

/-- The block-and-lane index matched with position `e` has block `e / 5120`. -/
theorem reshape_row (e : S629760.Idx) :
    (((Shape.reshapeEquiv shapeCasts_S629760_S123x5120).symm e) 0).val = (e 0).val / 5120 := by
  have h := Shape.rowMajor_reshapeEquiv shapeCasts_S629760_S123x5120 ((Shape.reshapeEquiv shapeCasts_S629760_S123x5120).symm e)
  rw [Equiv.apply_symm_apply, Shape.rowMajor_val_one, Shape.rowMajor_val_two] at h
  have hd : (![123, 5120] : Fin 2 → Nat) 1 = 5120 := rfl
  rw [hd] at h
  have h1 : (((Shape.reshapeEquiv shapeCasts_S629760_S123x5120).symm e) 1).val < 5120 :=
    (((Shape.reshapeEquiv shapeCasts_S629760_S123x5120).symm e) 1).isLt
  omega

/-- The reshaped words at that index are the word at `e`. -/
theorem shapeCast_symm {α : Type} (row : S629760.Idx → α) (e : S629760.Idx) :
    shapeCast S123x5120 row shapeCasts_S629760_S123x5120 ((Shape.reshapeEquiv shapeCasts_S629760_S123x5120).symm e) = row e := by
  unfold shapeCast
  rw [Equiv.apply_symm_apply]

/-- An index of block `x` drops to `x` when its lane coordinate is removed. -/
theorem drop_eq (i : S123x5120.Idx) (x : S123.Idx) (h : (i 0).val = (x 0).val) :
    reducesTo_S123x5120_S123_d1.drop i = x := by
  funext b
  apply Fin.ext
  obtain rfl : b = 0 := Subsingleton.elim _ _
  rw [Shape.ReducesTo.drop_apply_val_of_eq reducesTo_S123x5120_S123_d1 i 0 0]
  exact h

/-- The signed minimum along the lanes is below every word of the block, whatever the initial word. -/
theorem reduce_min_le (X : S123x5120.Idx → BitVec 32) (init : S_.Idx → BitVec 32) (x : S123.Idx) (i : S123x5120.Idx)
    (hi : (i 0).val = (x 0).val) :
    (Host.reduce IntOp.minsi X init reducesTo_S123x5120_S123_d1 h_S_ x).toInt ≤ (X i).toInt := by
  rw [Host.reduce_eq_fold]
  exact fold_minsi_le _ _ _ i (Finset.mem_filter.2 ⟨Finset.mem_univ _, drop_eq i x hi⟩)

/-- The signed maximum along the lanes is above every word of the block. -/
theorem le_reduce_max (X : S123x5120.Idx → BitVec 32) (init : S_.Idx → BitVec 32) (x : S123.Idx) (i : S123x5120.Idx)
    (hi : (i 0).val = (x 0).val) :
    (X i).toInt ≤ (Host.reduce IntOp.maxsi X init reducesTo_S123x5120_S123_d1 h_S_ x).toInt := by
  rw [Host.reduce_eq_fold]
  exact le_fold_maxsi _ _ _ i (Finset.mem_filter.2 ⟨Finset.mem_univ _, drop_eq i x hi⟩)

end TG

/-! ## The stretches, from any contents `W` before them -/

section Stretches

variable (W : Valuation τ sig (Elt F))

/-- The reshape of the row words and their minimum along the lanes (the stretch of %83, %84). -/
theorem r83_at : StableHlo.after hostOps0_12 W (Proc.devRef .tc main_v83)
    = shapeCast S123x5120 (W (Proc.devRef .tc main_v66) : S629760.Idx → BitVec 32) shapeCasts_S629760_S123x5120 := by
  after_results
  rfl
theorem rmin_at : StableHlo.after hostOps0_12 W (Proc.devRef .tc main_v84)
    = Host.reduce IntOp.minsi (shapeCast S123x5120 (W (Proc.devRef .tc main_v66) : S629760.Idx → BitVec 32) shapeCasts_S629760_S123x5120)
        (constantI S_ 32 2147483647#32) reducesTo_S123x5120_S123_d1 h_S_ := by
  after_results
  rfl
theorem c28_at : StableHlo.after hostOps0_12 W (Proc.devRef .tc main_c_28) = constantI S_ 32 800#32 := by
  after_results
  try rfl
/-- Their maximum (the stretch of %87), from the reshaped words. -/
theorem rmax_at : StableHlo.after hostOps0_16 W (Proc.devRef .tc main_v87)
    = Host.reduce IntOp.maxsi (W (Proc.devRef .tc main_v83) : S123x5120.Idx → BitVec 32)
        (constantI S_ 32 2147483648#32) reducesTo_S123x5120_S123_d1 h_S_ := by
  after_results
  try rfl
theorem c32_at : StableHlo.after hostOps0_16 W (Proc.devRef .tc main_c_32) = constantI S_ 32 800#32 := by
  after_results
  try rfl
/-- The clamps' bounds. -/
theorem c29_at : StableHlo.after hostOps0_14 W (Proc.devRef .tc main_c_29) = constantI S_ 32 0#32 := by
  after_results
  try rfl
theorem c30_at : StableHlo.after hostOps0_14 W (Proc.devRef .tc main_c_30) = constantI S_ 32 124#32 := by
  after_results
  try rfl
theorem c33_at : StableHlo.after hostOps0_18 W (Proc.devRef .tc main_c_33) = constantI S_ 32 0#32 := by
  after_results
  try rfl
theorem c34_at : StableHlo.after hostOps0_18 W (Proc.devRef .tc main_c_34) = constantI S_ 32 124#32 := by
  after_results
  try rfl

/-- Floor division by 800 of the minimum (record main_call6), word by word, when the divisor buffer holds 800. -/
theorem fdiv6_at (h28 : W (Proc.devRef .tc main_c_28) = constantI S_ 32 800#32) (x : S123.Idx) :
    (StableHlo.after hostOps0_13 W (Proc.devRef .tc main_v85) : S123.Idx → BitVec 32) x
      = TG.fdivW ((W (Proc.devRef .tc main_v84) : S123.Idx → BitVec 32) x) := by
  after_results_simp
  rw [h28]
  simp only [StableHlo.TRef.ofBuf, StableHlo.TRef.toBuf, cast_eq]
  unfold TG.fdivW TG.sgnW
  simp only [select, andi, cmpi, signi, subi, Host.remsi, Host.divsi, broadcastInDim, constantI, id]
  rfl
/-- The same of the maximum (record main_call8). -/
theorem fdiv8_at (h32 : W (Proc.devRef .tc main_c_32) = constantI S_ 32 800#32) (x : S123.Idx) :
    (StableHlo.after hostOps0_17 W (Proc.devRef .tc main_v88) : S123.Idx → BitVec 32) x
      = TG.fdivW ((W (Proc.devRef .tc main_v87) : S123.Idx → BitVec 32) x) := by
  after_results_simp
  rw [h32]
  simp only [StableHlo.TRef.ofBuf, StableHlo.TRef.toBuf, cast_eq]
  unfold TG.fdivW TG.sgnW
  simp only [select, andi, cmpi, signi, subi, Host.remsi, Host.divsi, broadcastInDim, constantI, id]
  rfl
/-- The clamp to [0, 124] (record main_call7), word by word, when the bound buffers hold 0 and 124. -/
theorem clip7_at (h29 : W (Proc.devRef .tc main_c_29) = constantI S_ 32 0#32)
    (h30 : W (Proc.devRef .tc main_c_30) = constantI S_ 32 124#32) (x : S123.Idx) :
    (StableHlo.after hostOps0_15 W (Proc.devRef .tc main_v86) : S123.Idx → BitVec 32) x
      = TG.clipW ((W (Proc.devRef .tc main_v85) : S123.Idx → BitVec 32) x) := by
  after_results_simp
  rw [h29, h30]
  rfl
/-- The same (record main_call9). -/
theorem clip9_at (h33 : W (Proc.devRef .tc main_c_33) = constantI S_ 32 0#32)
    (h34 : W (Proc.devRef .tc main_c_34) = constantI S_ 32 124#32) (x : S123.Idx) :
    (StableHlo.after hostOps0_19 W (Proc.devRef .tc main_v89) : S123.Idx → BitVec 32) x
      = TG.clipW ((W (Proc.devRef .tc main_v88) : S123.Idx → BitVec 32) x) := by
  after_results_simp
  rw [h33, h34]
  rfl

end Stretches
/-! ## The tables' words -/

section Tables

variable (m : (ℓ : Loc nD τ sig) → Buf (Elt F) ℓ)

/-! ## Which stretch writes what: a buffer no later stretch writes keeps its contents -/

theorem V33_v86 (c : Dev nD) : V33 m c main_v86 = V16 m c main_v86 :=
  (V33_of m c main_v86 (by decide)).trans <| (V32_of m c main_v86 (by decide)).trans <| (V31_of m c main_v86 (by decide)).trans <| (V30_of m c main_v86 (by decide)).trans <| (V29_of m c main_v86 (by decide)).trans <| (V28_of m c main_v86 (by decide)).trans <| (V27_of m c main_v86 (by decide)).trans <| (V26_of m c main_v86 (by decide)).trans <| (V25_of m c main_v86 (by decide)).trans <| (V24_of m c main_v86 (by decide)).trans <| (V23_of m c main_v86 (by decide)).trans <| (V22_of m c main_v86 (by decide)).trans <| (V21_of m c main_v86 (by decide)).trans <| (V20_of m c main_v86 (by decide)).trans <| (V19_of m c main_v86 (by decide)).trans <| (V18_of m c main_v86 (by decide)).trans <| (V17_of m c main_v86 (by decide))
theorem V33_v89 (c : Dev nD) : V33 m c main_v89 = V20 m c main_v89 :=
  (V33_of m c main_v89 (by decide)).trans <| (V32_of m c main_v89 (by decide)).trans <| (V31_of m c main_v89 (by decide)).trans <| (V30_of m c main_v89 (by decide)).trans <| (V29_of m c main_v89 (by decide)).trans <| (V28_of m c main_v89 (by decide)).trans <| (V27_of m c main_v89 (by decide)).trans <| (V26_of m c main_v89 (by decide)).trans <| (V25_of m c main_v89 (by decide)).trans <| (V24_of m c main_v89 (by decide)).trans <| (V23_of m c main_v89 (by decide)).trans <| (V22_of m c main_v89 (by decide)).trans <| (V21_of m c main_v89 (by decide))
theorem V33_v66 (c : Dev nD) : V33 m c main_v66 = V9 m c main_v66 :=
  (V33_of m c main_v66 (by decide)).trans <| (V32_of m c main_v66 (by decide)).trans <| (V31_of m c main_v66 (by decide)).trans <| (V30_of m c main_v66 (by decide)).trans <| (V29_of m c main_v66 (by decide)).trans <| (V28_of m c main_v66 (by decide)).trans <| (V27_of m c main_v66 (by decide)).trans <| (V26_of m c main_v66 (by decide)).trans <| (V25_of m c main_v66 (by decide)).trans <| (V24_of m c main_v66 (by decide)).trans <| (V23_of m c main_v66 (by decide)).trans <| (V22_of m c main_v66 (by decide)).trans <| (V21_of m c main_v66 (by decide)).trans <| (V20_of m c main_v66 (by decide)).trans <| (V19_of m c main_v66 (by decide)).trans <| (V18_of m c main_v66 (by decide)).trans <| (V17_of m c main_v66 (by decide)).trans <| (V16_of m c main_v66 (by decide)).trans <| (V15_of m c main_v66 (by decide)).trans <| (V14_of m c main_v66 (by decide)).trans <| (V13_of m c main_v66 (by decide)).trans <| (V12_of m c main_v66 (by decide)).trans <| (V11_of m c main_v66 (by decide)).trans <| (V10_of m c main_v66 (by decide))
theorem V12_v66 (c : Dev nD) : V12 m c main_v66 = V9 m c main_v66 :=
  (V12_of m c main_v66 (by decide)).trans <| (V11_of m c main_v66 (by decide)).trans <| (V10_of m c main_v66 (by decide))
theorem V15_v85 (c : Dev nD) : V15 m c main_v85 = V14 m c main_v85 :=
  (V15_of m c main_v85 (by decide))
theorem V19_v88 (c : Dev nD) : V19 m c main_v88 = V18 m c main_v88 :=
  (V19_of m c main_v88 (by decide))
theorem V16_v83 (c : Dev nD) : V16 m c main_v83 = V13 m c main_v83 :=
  (V16_of m c main_v83 (by decide)).trans <| (V15_of m c main_v83 (by decide)).trans <| (V14_of m c main_v83 (by decide))

/-! ## The tables as functions of the row words -/

/-- `rlo` is the clamp of the floor quotient of the block's least row word. -/
theorem rlo_eq (c : Dev nD) (x : S123.Idx) : (V33 m c main_v86 : S123.Idx → BitVec 32) x
    = TG.clipW (TG.fdivW ((V13 m c main_v84 : S123.Idx → BitVec 32) x)) :=
  (congrFun (V33_v86 m c) x).trans <|
    (clip7_at (V15 m c) (c29_at (V14 m c)) (c30_at (V14 m c)) x).trans <|
      congrArg TG.clipW <| (congrFun (V15_v85 m c) x).trans (fdiv6_at (V13 m c) (c28_at (V12 m c)) x)

/-- `rhi` is the clamp of the floor quotient of the block's greatest row word. -/
theorem rhi_eq (c : Dev nD) (x : S123.Idx) : (V33 m c main_v89 : S123.Idx → BitVec 32) x
    = TG.clipW (TG.fdivW ((V17 m c main_v87 : S123.Idx → BitVec 32) x)) :=
  (congrFun (V33_v89 m c) x).trans <|
    (clip9_at (V19 m c) (c33_at (V18 m c)) (c34_at (V18 m c)) x).trans <|
      congrArg TG.clipW <| (congrFun (V19_v88 m c) x).trans (fdiv8_at (V17 m c) (c32_at (V16 m c)) x)

/-- The block's least row word is below each of its row words. -/
theorem rmin_le (c : Dev nD) (x : S123.Idx) (e : S629760.Idx) (hx : (e 0).val / 5120 = (x 0).val) :
    ((V13 m c main_v84 : S123.Idx → BitVec 32) x).toInt ≤ ((V33 m c main_v66 : S629760.Idx → BitVec 32) e).toInt := by
  have e1 : (V13 m c main_v84 : S123.Idx → BitVec 32) x
      = Host.reduce IntOp.minsi (shapeCast S123x5120 (V12 m c main_v66 : S629760.Idx → BitVec 32) shapeCasts_S629760_S123x5120)
          (constantI S_ 32 2147483647#32) reducesTo_S123x5120_S123_d1 h_S_ x := congrFun (rmin_at (V12 m c)) x
  have e2 : (V12 m c main_v66 : S629760.Idx → BitVec 32) e = (V33 m c main_v66 : S629760.Idx → BitVec 32) e :=
    congrFun ((V12_v66 m c).trans (V33_v66 m c).symm) e
  rw [e1, ← e2, ← TG.shapeCast_symm (V12 m c main_v66 : S629760.Idx → BitVec 32) e]
  exact TG.reduce_min_le _ _ x _ ((TG.reshape_row e).trans hx)

/-- The block's greatest row word is above each of its row words. -/
theorem le_rmax (c : Dev nD) (x : S123.Idx) (e : S629760.Idx) (hx : (e 0).val / 5120 = (x 0).val) :
    ((V33 m c main_v66 : S629760.Idx → BitVec 32) e).toInt ≤ ((V17 m c main_v87 : S123.Idx → BitVec 32) x).toInt := by
  have e0 : (V16 m c main_v83 : S123x5120.Idx → BitVec 32)
      = shapeCast S123x5120 (V12 m c main_v66 : S629760.Idx → BitVec 32) shapeCasts_S629760_S123x5120 :=
    (V16_v83 m c).trans (r83_at (V12 m c))
  have e1 : (V17 m c main_v87 : S123.Idx → BitVec 32) x
      = Host.reduce IntOp.maxsi (V16 m c main_v83 : S123x5120.Idx → BitVec 32)
          (constantI S_ 32 2147483648#32) reducesTo_S123x5120_S123_d1 h_S_ x := congrFun (rmax_at (V16 m c)) x
  have e2 : (V12 m c main_v66 : S629760.Idx → BitVec 32) e = (V33 m c main_v66 : S629760.Idx → BitVec 32) e :=
    congrFun ((V12_v66 m c).trans (V33_v66 m c).symm) e
  rw [e1, e0, ← e2, ← TG.shapeCast_symm (V12 m c main_v66 : S629760.Idx → BitVec 32) e]
  exact TG.le_reduce_max _ _ x _ ((TG.reshape_row e).trans hx)

/-- Every word of `rlo` is in [0, 124]. -/
theorem rlo_le (c : Dev nD) (x : S123.Idx) : ((V33 m c main_v86 : S123.Idx → BitVec 32) x).toNat ≤ 124 := by
  rw [rlo_eq]; exact TG.clipW_toNat_le _

/-- Every word of `rhi` is in [0, 124]. -/
theorem rhi_le (c : Dev nD) (x : S123.Idx) : ((V33 m c main_v89 : S123.Idx → BitVec 32) x).toNat ≤ 124 := by
  rw [rhi_eq]; exact TG.clipW_toNat_le _

/-- A row word r in [0, 100000) of edge block `x` has rlo[x] ≤ r / 800 ≤ rhi[x]. -/
theorem rlo_rhi_of_row_idx (c : Dev nD) (e : S629760.Idx) (x : S123.Idx) (hx : (e 0).val / 5120 = (x 0).val)
    (hr : ((V33 m c main_v66 : S629760.Idx → BitVec 32) e).toNat < 100000) :
    ((V33 m c main_v86 : S123.Idx → BitVec 32) x).toNat ≤ ((V33 m c main_v66 : S629760.Idx → BitVec 32) e).toNat / 800
      ∧ ((V33 m c main_v66 : S629760.Idx → BitVec 32) e).toNat / 800 ≤ ((V33 m c main_v89 : S123.Idx → BitVec 32) x).toNat := by
  have hri : ((V33 m c main_v66 : S629760.Idx → BitVec 32) e).toInt
      = (((V33 m c main_v66 : S629760.Idx → BitVec 32) e).toNat : Int) :=
    StableHlo.Predicate.toInt_eq_toNat_of_lt (by omega)
  have hmid := TG.toInt_clipW (TG.fdivW ((V33 m c main_v66 : S629760.Idx → BitVec 32) e))
  rw [TG.toInt_fdivW, hri] at hmid
  have hlo := TG.clipW_mono (TG.fdivW_mono (rmin_le m c x e hx))
  have hhi := TG.clipW_mono (TG.fdivW_mono (le_rmax m c x e hx))
  rw [← rlo_eq, hmid] at hlo
  rw [← rhi_eq, hmid] at hhi
  have hl := rlo_le m c x
  have hh := rhi_le m c x
  rw [StableHlo.Predicate.toInt_eq_toNat_of_lt (by omega)] at hlo hhi
  constructor <;> omega

/-- The same at a position `e` and a block `i` given as numbers. -/
theorem rlo_rhi_of_row (c : Dev nD) (e : Fin 629760) (i : Fin 123) (hi : e.val / 5120 = i.val)
    (hr : ((V33 m c main_v66 : S629760.Idx → BitVec 32) (Shape.Idx.ofFin e)).toNat < 100000) :
    ((V33 m c main_v86 : S123.Idx → BitVec 32) (Shape.Idx.ofFin i)).toNat
        ≤ ((V33 m c main_v66 : S629760.Idx → BitVec 32) (Shape.Idx.ofFin e)).toNat / 800
      ∧ ((V33 m c main_v66 : S629760.Idx → BitVec 32) (Shape.Idx.ofFin e)).toNat / 800
        ≤ ((V33 m c main_v89 : S123.Idx → BitVec 32) (Shape.Idx.ofFin i)).toNat :=
  rlo_rhi_of_row_idx m c (Shape.Idx.ofFin e) (Shape.Idx.ofFin i) hi hr

end Tables

/-! ## The pipelines' side conditions, the contents a variable -/

/-- Pipeline 1's side condition at any contents of its tables whose words are in [0, 124]: window 1's block, at the
    coordinate clamped between the two words, is one of the 125 blocks of 800 rows. -/
theorem ok1_of (pf : pre1.Contents (Elt F)) (h0 : ∀ x : S123.Idx, ((pf 0 : S123.Idx → BitVec 32) x).toNat ≤ 124)
    (h1 : ∀ x : S123.Idx, ((pf 1 : S123.Idx → BitVec 32) x).toNat ≤ 124) : ok1 (F := F) pf := by
  intro i
  obtain ⟨w, hw, e⟩ : ∃ w : BitVec 32, w.toNat ≤ 124 ∧ cc1_transform_1 k1_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 4's side condition at any contents of its tables whose words are in [0, 124]: window 1's block, at the
    coordinate clamped between the two words, is one of the 125 blocks of 800 rows. -/
theorem ok4_of (pf : pre4.Contents (Elt F)) (h0 : ∀ x : S123.Idx, ((pf 0 : S123.Idx → BitVec 32) x).toNat ≤ 124)
    (h1 : ∀ x : S123.Idx, ((pf 1 : S123.Idx → BitVec 32) x).toNat ≤ 124) : ok4 (F := F) pf := by
  intro i
  obtain ⟨w, hw, e⟩ : ∃ w : BitVec 32, w.toNat ≤ 124 ∧ cc4_transform_1 k4_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 7's side condition at any contents of its tables whose words are in [0, 124]: window 1's block, at the
    coordinate clamped between the two words, is one of the 125 blocks of 800 rows. -/
theorem ok7_of (pf : pre7.Contents (Elt F)) (h0 : ∀ x : S123.Idx, ((pf 0 : S123.Idx → BitVec 32) x).toNat ≤ 124)
    (h1 : ∀ x : S123.Idx, ((pf 1 : S123.Idx → BitVec 32) x).toNat ≤ 124) : ok7 (F := F) pf := by
  intro i
  obtain ⟨w, hw, e⟩ : ∃ w : BitVec 32, w.toNat ≤ 124 ∧ cc7_transform_1 k7_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 10's side condition at any contents of its tables whose words are in [0, 124]: window 1's block, at the
    coordinate clamped between the two words, is one of the 125 blocks of 800 rows. -/
theorem ok10_of (pf : pre10.Contents (Elt F)) (h0 : ∀ x : S123.Idx, ((pf 0 : S123.Idx → BitVec 32) x).toNat ≤ 124)
    (h1 : ∀ x : S123.Idx, ((pf 1 : S123.Idx → BitVec 32) x).toNat ≤ 124) : ok10 (F := F) pf := by
  intro i
  obtain ⟨w, hw, e⟩ : ∃ w : BitVec 32, w.toNat ≤ 124 ∧ cc10_transform_1 k10_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-! ## The tables' contents, admissible -/

section Adm

variable (m : (ℓ : Loc nD τ sig) → Buf (Elt F) ℓ)

/-- The tables' contents when gather pipeline 1 is entered: device 0's (there is one device). -/
def tbl1 : pre1.Contents (Elt F) := fun k => V33 m (0 : Dev nD) (pre1.ref k)
/-- On every device the tables hold those contents. -/
theorem V33_pre1 (c : Dev nD) (k : Fin 2) : V33 m c (pre1.ref k) = tbl1 m k := by
  obtain rfl : c = 0 := Subsingleton.elim _ _; rfl
theorem tbl1_0 (x : S123.Idx) : (tbl1 m 0 : S123.Idx → BitVec 32) x = (V33 m (0 : Dev nD) main_v86 : S123.Idx → BitVec 32) x := rfl
theorem tbl1_1 (x : S123.Idx) : (tbl1 m 1 : S123.Idx → BitVec 32) x = (V33 m (0 : Dev nD) main_v89 : S123.Idx → BitVec 32) x := rfl
/-- The side condition holds of them. -/
theorem ok1_tbl : ok1 (tbl1 m) := ok1_of (tbl1 m) (fun x => rlo_le m 0 x) (fun x => rhi_le m 0 x)
/-- The tables' contents as admissible contents of pipeline 1. -/
def adm1 : (pcfgs (F := F) 1).Adm := ⟨tbl1 m, ok1_tbl m⟩
theorem adm1_val : (adm1 m).1 = tbl1 m := rfl

/-- The tables' contents when gather pipeline 4 is entered: device 0's (there is one device). -/
def tbl4 : pre4.Contents (Elt F) := fun k => V33 m (0 : Dev nD) (pre4.ref k)
/-- On every device the tables hold those contents. -/
theorem V33_pre4 (c : Dev nD) (k : Fin 2) : V33 m c (pre4.ref k) = tbl4 m k := by
  obtain rfl : c = 0 := Subsingleton.elim _ _; rfl
theorem tbl4_0 (x : S123.Idx) : (tbl4 m 0 : S123.Idx → BitVec 32) x = (V33 m (0 : Dev nD) main_v86 : S123.Idx → BitVec 32) x := rfl
theorem tbl4_1 (x : S123.Idx) : (tbl4 m 1 : S123.Idx → BitVec 32) x = (V33 m (0 : Dev nD) main_v89 : S123.Idx → BitVec 32) x := rfl
/-- The side condition holds of them. -/
theorem ok4_tbl : ok4 (tbl4 m) := ok4_of (tbl4 m) (fun x => rlo_le m 0 x) (fun x => rhi_le m 0 x)
/-- The tables' contents as admissible contents of pipeline 4. -/
def adm4 : (pcfgs (F := F) 4).Adm := ⟨tbl4 m, ok4_tbl m⟩
theorem adm4_val : (adm4 m).1 = tbl4 m := rfl

/-- The tables' contents when gather pipeline 7 is entered: device 0's (there is one device). -/
def tbl7 : pre7.Contents (Elt F) := fun k => V33 m (0 : Dev nD) (pre7.ref k)
/-- On every device the tables hold those contents. -/
theorem V33_pre7 (c : Dev nD) (k : Fin 2) : V33 m c (pre7.ref k) = tbl7 m k := by
  obtain rfl : c = 0 := Subsingleton.elim _ _; rfl
theorem tbl7_0 (x : S123.Idx) : (tbl7 m 0 : S123.Idx → BitVec 32) x = (V33 m (0 : Dev nD) main_v86 : S123.Idx → BitVec 32) x := rfl
theorem tbl7_1 (x : S123.Idx) : (tbl7 m 1 : S123.Idx → BitVec 32) x = (V33 m (0 : Dev nD) main_v89 : S123.Idx → BitVec 32) x := rfl
/-- The side condition holds of them. -/
theorem ok7_tbl : ok7 (tbl7 m) := ok7_of (tbl7 m) (fun x => rlo_le m 0 x) (fun x => rhi_le m 0 x)
/-- The tables' contents as admissible contents of pipeline 7. -/
def adm7 : (pcfgs (F := F) 7).Adm := ⟨tbl7 m, ok7_tbl m⟩
theorem adm7_val : (adm7 m).1 = tbl7 m := rfl

/-- The tables' contents when gather pipeline 10 is entered: device 0's (there is one device). -/
def tbl10 : pre10.Contents (Elt F) := fun k => V33 m (0 : Dev nD) (pre10.ref k)
/-- On every device the tables hold those contents. -/
theorem V33_pre10 (c : Dev nD) (k : Fin 2) : V33 m c (pre10.ref k) = tbl10 m k := by
  obtain rfl : c = 0 := Subsingleton.elim _ _; rfl
theorem tbl10_0 (x : S123.Idx) : (tbl10 m 0 : S123.Idx → BitVec 32) x = (V33 m (0 : Dev nD) main_v86 : S123.Idx → BitVec 32) x := rfl
theorem tbl10_1 (x : S123.Idx) : (tbl10 m 1 : S123.Idx → BitVec 32) x = (V33 m (0 : Dev nD) main_v89 : S123.Idx → BitVec 32) x := rfl
/-- The side condition holds of them. -/
theorem ok10_tbl : ok10 (tbl10 m) := ok10_of (tbl10 m) (fun x => rlo_le m 0 x) (fun x => rhi_le m 0 x)
/-- The tables' contents as admissible contents of pipeline 10. -/
def adm10 : (pcfgs (F := F) 10).Adm := ⟨tbl10 m, ok10_tbl m⟩
theorem adm10_val : (adm10 m).1 = tbl10 m := rfl

end Adm

end Cert.Kernel.Hand

end
-- ==== Proof.K.Dense0.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 0, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.Kernel.Launch
import proofs.«415143_j42460046688958_3_alg».proof.Proof.Gen.Kernel.Skeleton
import proofs.«415143_j42460046688958_3_alg».proof.Proof.Gen.Kernel.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the prefetched tables of the program's other pipelines: region 0 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point: it is fetched at every point. Stated for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight is in its staging buffer at every point although it is fetched at the first only: its block index never
    moves, and the body leaves the buffer as it finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output block -/

/-- The output block after the body, from the two input blocks: its one store, of the product payload, over the
    whole block. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the block. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The body on whole staging memrefs, the inputs' at read contents x0, x1 and the output's at anything, runs to the
    continuation holding the inputs' as they were and the output's at out0_2 x0 x1. The load of the output buffer
    before the store reads contents nothing depends on. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core c, over the printed configuration: the arrays as the region finds them; after the body at
    point t each input's buffer at its block and the output's at out0_2 of the two blocks; the invariant the scoped rest
    and the generator register, untouched; nothing owed; full shares. -/
def dat0c (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The same as proof data of pipeline 0 of the program's family, pinned at any contents a of the tables: pipeline 0
    prefetches nothing, and pinned it is the printed configuration again. -/
abbrev dat0 (c : Dev nD) : Dat τ (Elt F) Unit ℕ (UR sig nD τ) ℕ (Pipeline.pin (pcfgs (F := F)) a 0) c := dat0c V c

theorem A_eq0 (c : Dev nD) (w : Fin cfg0.W) : (dat0c V c).A w = V c (Pipeline.arrRef spec0 w) := by
  dsimp only [dat0c]

theorem after0_0 (c : Dev nD) (t : Fin cfg0.N) : (dat0c V c).after 0 t = iblk0 V c 0 t := by dsimp only [dat0c]
theorem after0_1 (c : Dev nD) (t : Fin cfg0.N) : (dat0c V c).after 1 t = iblk0 V c 1 t := by dsimp only [dat0c]
theorem after0_2 (c : Dev nD) (t : Fin cfg0.N) : (dat0c V c).after 2 t = out0_2 (iblk0 V c 0 t) (iblk0 V c 1 t) := by dsimp only [dat0c]

theorem before0_0 (c : Dev nD) (t : Fin cfg0.N) (d) : (dat0c V c).before 0 t d = iblk0 V c 0 t :=
  before0_0_of V (dat0c V c) (A_eq0 V c 0) (after0_0 V c) t d
theorem before0_1 (c : Dev nD) (t : Fin cfg0.N) (d) : (dat0c V c).before 1 t d = iblk0 V c 1 t :=
  before0_1_of V (dat0c V c) (A_eq0 V c 1) (after0_1 V c) t d

/-! ## The body obligation, at a generic point -/

/-- What the body is called with at point t, the windows one by one, -/
def bodyPre0 (c : Dev nD) (t : Fin cfg0.N) : sProp 𝕄 :=
  iprop((dat0c V c).Φ t.castSucc ∗ (dat0c V c).owesAt () t.castSucc
    ∗ (∃ d, owns (c : Thread nD τ) (st0_0 t) fullShare ((dat0c V c).before 0 t d))
    ∗ (∃ d, owns (c : Thread nD τ) (st0_1 t) fullShare ((dat0c V c).before 1 t d))
    ∗ (∃ d, owns (c : Thread nD τ) (st0_2 t) fullShare ((dat0c V c).before 2 t d)))

/-- and what it returns. -/
def bodyPost0 (c : Dev nD) (t : Fin cfg0.N) : sProp 𝕄 :=
  iprop((dat0c V c).Φ t.succ ∗ (dat0c V c).owesAt () t.succ
    ∗ owns (c : Thread nD τ) (st0_0 t) fullShare ((dat0c V c).after 0 t)
    ∗ owns (c : Thread nD τ) (st0_1 t) fullShare ((dat0c V c).after 1 t)
    ∗ owns (c : Thread nD τ) (st0_2 t) fullShare ((dat0c V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0c V c).Φ t.succ = (dat0c V c).Φ t.castSucc from rfl,
    show (dat0c V c).owesAt () t.succ = (dat0c V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation0c (c : Dev nD) : BodyObligation (dat0c (F := F) V c) (defs₀ (F := F)) Variants.none () Set.univ := fun t => by
  rw [bigSep_W0, bigSep_W0]
  exact sound_body0 V c t

/-- The same of the pinned pipeline's proof data. -/
theorem body_obligation0 (c : Dev nD) : BodyObligation (dat0 (F := F) a V c) (defs₀ (F := F)) Variants.none () Set.univ :=
  body_obligation0c V c

end Region0

/-! ## The exit valuation: the entry valuation with the result array replaced -/

section Exit0

variable (W : Valuation τ sig (Elt F)) (c : Dev nD) (x : Buf (Elt F) ((c : Thread nD τ).loc main_v118))

/-- The array of x is not the result array: the replacement leaves it. -/
theorem upd0_in0 : Function.update W main_v118 x (Pipeline.arrRef spec0 0 : Ref sig .tc) = W (Pipeline.arrRef spec0 0 : Ref sig .tc) :=
  Function.update_of_ne (StableHlo.devRef_ne_of_ne (show Pipeline.arrRef spec0 0 ≠ main_v118 by decide)) _ _
/-- Nor is the weight's. -/
theorem upd0_in1 : Function.update W main_v118 x (Pipeline.arrRef spec0 1 : Ref sig .tc) = W (Pipeline.arrRef spec0 1 : Ref sig .tc) :=
  Function.update_of_ne (StableHlo.devRef_ne_of_ne (show Pipeline.arrRef spec0 1 ≠ main_v118 by decide)) _ _
/-- Window 2's array is the result array. -/
theorem upd0_out : Function.update W main_v118 x (Pipeline.arrRef spec0 2 : Ref sig .tc) = x :=
  Function.update_self _ _ _
/-- A buffer that is no window's array is not the result array. -/
theorem upd0_rest (b : Ref sig .tc) (hb : b ∉ Finset.univ.image (Pipeline.arrRef spec0)) : Function.update W main_v118 x b = W b :=
  Function.update_of_ne (StableHlo.devRef_ne_of_ne fun e => hb (Finset.mem_image.mpr ⟨2, Finset.mem_univ _, e.symm⟩)) _ _

end Exit0

/-! ## The region as a segment of @main -/

-- a library lemma stated over the pinned pipeline unifies with the printed configuration only when unification may
-- unfold plain definitions in a metavariable's type
set_option backward.isDefEq.respectTransparency.types false in
set_option maxHeartbeats 2000000 in
/-- REGION 0 over the thread state, for any family of proof data whose pipeline 0 is dat0 at the entry valuation Vin:
    entered from every unscoped buffer at Vin, left at Vin with the result array main_v118 replaced by what the
    write-backs of the 50 points leave. Its arrays split out of the unscoped buffers and put back at the exit contents;
    the generator register into the invariant and out; nothing owed; no semaphore of the kernel's own. -/
def reg0 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 0 c = dat0 a (fun c b => Vin c b) c) :
    Pipeline.RegionSeg (pcfgs (F := F)) a pdats () defs₀ Variants.none (fun _ : GSem nD τ sig => (∅ : Finset Unit)) (fun (_ : GSem nD τ sig) (_ : Unit) => (0 : ℕ)) 0 where
  win := (launch0 (F := F)).win.to₀
  block_pos := (launch0 (F := F)).block_pos
  stage_whole := (launch0 (F := F)).stage_whole
  K := PEmpty
  osem k := k.elim
  ho := Pipeline.OwnSemFacts.none _
  hbody c := by rw [h c]; exact (body_obligation0 a (fun c b => Vin c b) c).loose
  hwaits := Pipeline.hwaits_of_owed_zero _ _ _ _ _ _ 0 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v118 ((dat0 a (fun c b => Vin c b) c).arrAt (2 : Fin 3) cfg0.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    have hd := h c
    rw [Pipeline.ownSems0_none]
    have hsplit := Pipeline.arrays_of_unscopedBufs (p := 0) (pcfgs (F := F)) a pdats (launch0 (F := F)).win (launch0 (F := F)).arr_whole c
      (by rw [hd]; exact (dat0 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat0 a (fun c b => Vin c b) c).Φ 0 = Pipeline.ΦA spec0 c from rfl]; unfold Pipeline.ΦA
    iintro ⟨Hp, -, Hr⟩
    isplitl [Hr]; · iexact Hr
    iexact Hp
  hout c := by
    rw [Pipeline.ownSems0_none, h c, show (dat0 a (fun c b => Vin c b) c).Φ (Fin.last _) = Pipeline.ΦA spec0 c from rfl]; unfold Pipeline.ΦA
    iintro ⟨Hr, Hp⟩
    isplitl [Hp]; · iexact Hp
    isplitr; · iempintro
    iexact Hr
  hexit c := by
    have hd := h c
    have hF : ∀ w : Fin 3, (dat0c (fun c b => Vin c b) c).arrAt w cfg0.N
        = Function.update (Vin c) main_v118 ((dat0 a (fun c b => Vin c b) c).arrAt (2 : Fin 3) cfg0.N) (Pipeline.arrRef spec0 w) := fun
      | ⟨0, _⟩ => (((dat0c (fun c b => Vin c b) c).arrAt_in 0 rfl _).trans (A_eq0 (fun c b => Vin c b) c 0)).trans (upd0_in0 (Vin c) c _).symm
      | ⟨1, _⟩ => (((dat0c (fun c b => Vin c b) c).arrAt_in 1 rfl _).trans (A_eq0 (fun c b => Vin c b) c 1)).trans (upd0_in1 (Vin c) c _).symm
      | ⟨2, _⟩ => (upd0_out (Vin c) c _).symm
    have hrest : ∀ b : Ref sig .tc, b ∉ Finset.univ.image (Pipeline.arrRef spec0)
        → Function.update (Vin c) main_v118 ((dat0 a (fun c b => Vin c b) c).arrAt (2 : Fin 3) cfg0.N) b = Vin c b :=
      fun b hb => upd0_rest (Vin c) c _ b hb
    have hjoin := Pipeline.unscopedBufs_of_arrays (p := 0) (pcfgs (F := F)) a (Ix := Unit) (Name := ℕ) (U := UR sig nD τ) (Lvl := ℕ)
      (launch0 (F := F)).win (launch0 (F := F)).arr_whole c pdats (by rw [hd]; exact (dat0 a (fun c b => Vin c b) c).share_full fun _ => rfl)
      (fun b => Vin c b) (fun b => Function.update (Vin c) main_v118 ((dat0 a (fun c b => Vin c b) c).arrAt (2 : Fin 3) cfg0.N) b)
      ((pdats 0 c).arrAt · cfg0.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.Kernel.Hand

end
-- ==== Proof.K.Gather1Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 1): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 1).1`, which are never evaluated. -/

/-! ## The pipeline at the admitted tables -/

/-- Pipeline 1 at the admitted contents of its two prefetched tables. -/
abbrev cfgG1 : Pipeline.Cfg sig Λ₀ := Pipeline.pin (pcfgs (F := F)) a 1

/-- Window `w`'s block at point `t`, read off its array as the region finds it (`V`); for the window whose index map
    reads the tables, a function of the tables' words. -/
def iblk1 (c : Dev nD) (w : Fin (cfgG1 a).W) (t : Fin (cfgG1 a).N) : (((cfgG1 a).win w).xblock ((cfgG1 a).grid.coords t)).Idx → Elt F ((cfgG1 a).win w).elt :=
  (((cfgG1 a).win w).blk t).view.read (Elt F) (V c (Pipeline.arrRef spec1 w))

/-! ## The tables as the body is handed them -/

abbrev tbM1_0 : Memref sig .tc .smem S123 .i32 := Memref.whole main_v86
abbrev htbM1_0 : tbM1_0.IsWhole := Memref.isWhole_whole _
abbrev tbM1_1 : Memref sig .tc .smem S123 .i32 := Memref.whole main_v89
abbrev htbM1_1 : tbM1_1.IsWhole := Memref.isWhole_whole _

/-- A table memref's buffer on core `c`: its contents type, and it held whole at `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word of a table the body loads at row `i 0`. -/
abbrev tword1 (c : Dev nD) (M : Memref sig .tc .smem S123 .i32) (i : grid1.Coords) (xt : TbBuf1 (F := F) c M) : Elt F .i32 :=
  M.view.readAt (Elt F) (Rect.unit (s := S123) (k1_off1 i) S1.size (k1_off1_inb i)).toLoadRect xt (Shape.Idx.first (numel1_S1.symm ▸ Nat.one_pos))

/-! ## The body's branch conditions -/

/-- `j = 0`: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin grid1.N, cond1_0 (grid1.coords t) ↔ t.val % 125 = 0 := by decide +kernel
/-- `rlo[i] ≤ j ≤ rhi[i]` (signed), over the two table words: the block contributes. -/
abbrev cond1_1 (i : grid1.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond1_2 (i : grid1.Coords) : Prop := k1_cond3 i = 1#1
theorem hcond1_2 : ∀ t : Fin grid1.N, cond1_2 (grid1.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep1 (i : grid1.Coords) (x0 : Vec F S1x5120 .i32) (x1 : Vec F S800x128 .f32) (lo hi : BitVec 32) (xs : Vec F S5120x128 .f32) : Vec F S5120x128 .f32 :=
  if cond1_1 i lo hi then k1_pay2 i x0 x1 (if cond1_0 i then k1_pay1 (F := F) else xs) else (if cond1_0 i then k1_pay1 (F := F) else xs)

/-- The output window's buffer after the body: the scaled accumulator when `j = 124`, else what it held. -/
def outStep1 (i : grid1.Coords) (acc : Vec F S5120x128 .f32) (x2 : Vec F S5120x1 .f32) (xi3 : Vec F S5120x128 .f32) : Vec F S5120x128 .f32 :=
  if cond1_2 i then k1_pay3 acc x2 else xi3

/-- At a point that resets, what the scratch held before does not matter. -/
theorem accStep1_reset (i : grid1.Coords) (h : cond1_0 i) (x0 : Vec F S1x5120 .i32) (x1 : Vec F S800x128 .f32) (lo hi : BitVec 32) (xs xs' : Vec F S5120x128 .f32) :
    accStep1 i x0 x1 lo hi xs = accStep1 i x0 x1 lo hi xs' := by
  unfold accStep1; rw [if_pos h, if_pos h]

theorem outStep1_pos (i : grid1.Coords) (h : cond1_2 i) (acc : Vec F S5120x128 .f32) (x2 : Vec F S5120x1 .f32) (xi3 : Vec F S5120x128 .f32) :
    outStep1 i acc x2 xi3 = k1_pay3 acc x2 := by unfold outStep1; exact if_pos h
theorem outStep1_neg (i : grid1.Coords) (h : ¬cond1_2 i) (acc : Vec F S5120x128 .f32) (x2 : Vec F S5120x1 .f32) (xi3 : Vec F S5120x128 .f32) :
    outStep1 i acc x2 xi3 = xi3 := by unfold outStep1; exact if_neg h

/-! ## The schedule of the output window, whose index map reads no table -/

/-- The output block is written back at the last `j` of each `i`. -/
theorem flush1_3 : ∀ t : Fin (cfgG1 a).N, ((cfgG1 a).win 3).flush t = true ↔ t.val % 125 = 124 :=
  (by decide +kernel : ∀ t : Fin grid1.N, Pipeline.Window.flushOf grid1 true cc1_transform_3 t = true ↔ t.val % 125 = 124)

/-- The inputs are never idle. -/
theorem liveAt1_0 (t : Fin (cfgG1 a).N) : (cfgG1 a).idle 0 ((cfgG1 a).grid.coords t) = false := rfl
theorem liveAt1_1 (t : Fin (cfgG1 a).N) : (cfgG1 a).idle 1 ((cfgG1 a).grid.coords t) = false := rfl
theorem liveAt1_2 (t : Fin (cfgG1 a).N) : (cfgG1 a).idle 2 ((cfgG1 a).grid.coords t) = false := rfl
/-- The output is idle exactly where the body does not store it. -/
theorem idle1_3_eq (i : grid1.Coords) : (cfgG1 a).idle 3 i = !(k1_cond3 i == 1#1) := rfl
theorem idleAt1_3 (t : Fin (cfgG1 a).N) (h : ¬cond1_2 (grid1.coords t)) : (cfgG1 a).idle 3 ((cfgG1 a).grid.coords t) = true := by
  show (!(k1_cond3 (grid1.coords t) == 1#1)) = true
  rw [beq_eq_false_iff_ne.mpr h]; rfl
theorem liveAt1_3 (t : Fin (cfgG1 a).N) (h : cond1_2 (grid1.coords t)) : (cfgG1 a).idle 3 ((cfgG1 a).grid.coords t) = false := by
  show (!(k1_cond3 (grid1.coords t) == 1#1)) = false
  rw [show k1_cond3 (grid1.coords t) = 1#1 from h]; rfl
theorem noFlush1_3 (t : Fin (cfgG1 a).N) (h : ¬cond1_2 (grid1.coords t)) : ((cfgG1 a).win 3).flush t = false := by
  rw [Bool.eq_false_iff]; intro hf; exact h ((hcond1_2 t).mpr ((flush1_3 a t).mp hf))

/-! ## The memrefs the body is called with at a point -/

abbrev ms1_0 (t : Fin (cfgG1 a).N) : Memref sig .tc .vmem S1x5120 .i32 := spec1_0.stage ((cfgG1 a).slots t 0)
abbrev hs1_0 (t : Fin (cfgG1 a).N) : (ms1_0 a t).IsWhole := hstage1_0 (((cfgG1 a).slots t 0).cast nbuf1_0)
abbrev ms1_1 (t : Fin (cfgG1 a).N) : Memref sig .tc .vmem S800x128 .f32 := spec1_1.stage ((cfgG1 a).slots t 1)
abbrev hs1_1 (t : Fin (cfgG1 a).N) : (ms1_1 a t).IsWhole := hstage1_1 (((cfgG1 a).slots t 1).cast nbuf1_1)
abbrev ms1_2 (t : Fin (cfgG1 a).N) : Memref sig .tc .vmem S5120x1 .f32 := spec1_2.stage ((cfgG1 a).slots t 2)
abbrev hs1_2 (t : Fin (cfgG1 a).N) : (ms1_2 a t).IsWhole := hstage1_2 (((cfgG1 a).slots t 2).cast nbuf1_2)
abbrev ms1_3 (t : Fin (cfgG1 a).N) : Memref sig .tc .vmem S5120x128 .f32 := spec1_3.stage ((cfgG1 a).slots t 3)
abbrev hs1_3 (t : Fin (cfgG1 a).N) : (ms1_3 a t).IsWhole := hstage1_3 (((cfgG1 a).slots t 3).cast nbuf1_3)
/-- The scratch accumulator: a whole scoped buffer of the kernel's own. -/
abbrev scM1 : Memref sig .tc .vmem S5120x128 .f32 := Memref.whole cc1_scratch0

/-- The kernel body at point `t`, on what the pipeline calls it with. -/
abbrev bodyAt1 (t : Fin (cfgG1 a).N) : Prog (TpuEff nD τ sig (Elt F) Λ₀ .tc) PUnit :=
  cc1__gather_kernel (grid1.coords t) tbM1_0 htbM1_0 tbM1_1 htbM1_1 (ms1_0 a t) (hs1_0 a t) (ms1_1 a t) (hs1_1 a t) (ms1_2 a t) (hs1_2 a t) (ms1_3 a t) (hs1_3 a t) scM1 (Memref.isWhole_whole _)

/-! ## The tables' words at a point, and the accumulator point by point -/

/-- The words of the two tables at the row of point `t` (`rlo[i]`, `rhi[i]`), as the body loads them. -/
abbrev lo1 (c : Dev nD) (t : Fin (cfgG1 a).N) : BitVec 32 := tword1 c tbM1_0 (grid1.coords t) ((a 1).1 0)
abbrev hi1 (c : Dev nD) (t : Fin (cfgG1 a).N) : BitVec 32 := tword1 c tbM1_1 (grid1.coords t) ((a 1).1 1)

/-- THE ACCUMULATION. What the scratch holds after the body at position `n`, by recursion on the position: one step
    (`accStep1`: reset at `j = 0`, the gated one-hot product added) over what it held after the position before. -/
def accAt1 (c : Dev nD) : (n : ℕ) → n < (cfgG1 a).N → Vec F S5120x128 .f32
  | 0, hn => accStep1 (grid1.coords ⟨0, hn⟩) (iblk1 a V c 0 ⟨0, hn⟩) (iblk1 a V c 1 ⟨0, hn⟩) (lo1 a c ⟨0, hn⟩) (hi1 a c ⟨0, hn⟩) (k1_pay1 (F := F))
  | n + 1, hn => accStep1 (grid1.coords ⟨n + 1, hn⟩) (iblk1 a V c 0 ⟨n + 1, hn⟩) (iblk1 a V c 1 ⟨n + 1, hn⟩) (lo1 a c ⟨n + 1, hn⟩) (hi1 a c ⟨n + 1, hn⟩) (accAt1 c n (Nat.lt_of_succ_lt hn))

/-- One step at any point, over any `xs` that is what the point before left when there is one. -/
theorem accAt1_step (c : Dev nD) (t : Fin (cfgG1 a).N) (xs : Vec F S5120x128 .f32)
    (hxs : ∀ hz : t.val ≠ 0, xs = accAt1 a V c (t.val - 1) (Nat.lt_of_le_of_lt (Nat.sub_le _ _) t.isLt)) :
    accAt1 a V c t.val t.isLt = accStep1 (grid1.coords t) (iblk1 a V c 0 t) (iblk1 a V c 1 t) (lo1 a c t) (hi1 a c t) xs := by
  obtain ⟨n, hn⟩ := t
  cases n with
  | zero => exact accStep1_reset _ ((hcond1_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB1 (c : Dev nD) : sProp 𝕄 :=
  Pipeline.scopedRestBut (Ix := Unit) (Name := ℕ) (U := UR sig nD τ) (Lvl := ℕ) (Val := Elt F) spec1 c [cc1_scratch0]
/-- The two tables, whole, at the admitted contents. -/
abbrev tabs1 (c : Dev nD) : sProp 𝕄 :=
  Pipeline.prefHeld (Ix := Unit) (Name := ℕ) (U := UR sig nD τ) (Lvl := ℕ) pre1 c (fun _ => fullShare) (a 1).1

/-- The region invariant before position `n`: before the first point the scoped rest and the generator register as the
    region finds them; afterwards the scratch at what the point before left; at every point the tables whole. -/
def PhiS1 (c : Dev nD) : (n : ℕ) → n ≤ (cfgG1 a).N → sProp 𝕄
  | 0, _ => iprop(Pipeline.ΦA spec1 c ∗ tabs1 a c)
  | n + 1, hn => iprop(iprop(iprop(owns (c : Thread nD τ) scM1 fullShare (accAt1 a V c n hn) ∗ restB1 c) ∗ (∃ r, prngReg c r)) ∗ tabs1 a c)

theorem PhiS1_succ (c : Dev nD) (n : ℕ) (hn : n < (cfgG1 a).N) :
    PhiS1 a V c (n + 1) hn = iprop(iprop(iprop(owns (c : Thread nD τ) scM1 fullShare (accAt1 a V c n hn) ∗ restB1 c) ∗ (∃ r, prngReg c r)) ∗ tabs1 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS1`;
    nothing owed; full shares. -/
def dat1 (c : Dev nD) : Dat τ (Elt F) Unit ℕ (UR sig nD τ) ℕ (Pipeline.pin (pcfgs (F := F)) a 1) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => k1_pay3 (accAt1 a V c t.val t.isLt) (iblk1 a V c 2 t)
  Φ t := PhiS1 a V c t.val (Nat.le_of_lt_succ t.isLt)
  q _ := fullShare
  owed _ := 0

theorem A_eq1 (c : Dev nD) (w : Fin (cfgG1 a).W) : (dat1 a V c).A w = V c (Pipeline.arrRef spec1 w) := by
  dsimp only [dat1]

theorem after1_0 (c : Dev nD) (t : Fin (cfgG1 a).N) : (dat1 a V c).after 0 t = iblk1 a V c 0 t := by dsimp only [dat1]; try rfl
theorem after1_1 (c : Dev nD) (t : Fin (cfgG1 a).N) : (dat1 a V c).after 1 t = iblk1 a V c 1 t := by dsimp only [dat1]; try rfl
theorem after1_2 (c : Dev nD) (t : Fin (cfgG1 a).N) : (dat1 a V c).after 2 t = iblk1 a V c 2 t := by dsimp only [dat1]; try rfl
theorem after1_3 (c : Dev nD) (t : Fin (cfgG1 a).N) :
    (dat1 a V c).after 3 t = k1_pay3 (accAt1 a V c t.val t.isLt) (iblk1 a V c 2 t) := by dsimp only [dat1]; try rfl

theorem PhiS1_castSucc (c : Dev nD) (t : Fin (cfgG1 a).N) :
    (dat1 a V c).Φ t.castSucc = PhiS1 a V c t.val (Nat.le_of_lt t.isLt) := by
  dsimp only [dat1]; simp only [Fin.coe_castSucc]

end Cert.Kernel.Hand

end
-- ==== Proof.K.Gather1Runs.lean ====
import proofs.«415143_j42460046688958_3_alg».proof.Proof.K.Gather1Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 1): its triple, control case by control case -/

/-! ## Loads and stores through the whole-buffer rectangle at zero offsets -/

theorem vec2_zero_g1 : (![0, 0] : Fin 2 → ℕ) = fun _ => 0 := by funext b; fin_cases b <;> rfl

/-- A load of a whole memref held at contents that read `X` reads `X`. -/
theorem readAt_whole_unread_g1 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g1 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g1 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g1 (i : grid1.Coords) {u u' : Vec F S1x5120 .i32} {v v' : Vec F S800x128 .f32} {s s' : Vec F S5120x128 .f32}
    (hu : u = u') (hv : v = v') (hs : s = s') : k1_pay2 i u v s = k1_pay2 i u' v' s' := by rw [hu, hv, hs]
theorem pay3_congr_g1 {s s' : Vec F S5120x128 .f32} {n n' : Vec F S5120x1 .f32}
    (hs : s = s') (hn : n = n') : k1_pay3 s n = k1_pay3 s' n' := by rw [hs, hn]

theorem accStep1_TT_g1 (i : grid1.Coords) (x0 : Vec F S1x5120 .i32) (x1 : Vec F S800x128 .f32) (lo hi : BitVec 32) (xs : Vec F S5120x128 .f32)
    (h0 : cond1_0 i) (h1 : cond1_1 i lo hi) : accStep1 i x0 x1 lo hi xs = k1_pay2 i x0 x1 (k1_pay1 (F := F)) := by
  unfold accStep1; rw [if_pos h1, if_pos h0]
theorem accStep1_TF_g1 (i : grid1.Coords) (x0 : Vec F S1x5120 .i32) (x1 : Vec F S800x128 .f32) (lo hi : BitVec 32) (xs : Vec F S5120x128 .f32)
    (h0 : cond1_0 i) (h1 : ¬cond1_1 i lo hi) : accStep1 i x0 x1 lo hi xs = (k1_pay1 (F := F) : Vec F S5120x128 .f32) := by
  unfold accStep1; rw [if_neg h1, if_pos h0]
theorem accStep1_FT_g1 (i : grid1.Coords) (x0 : Vec F S1x5120 .i32) (x1 : Vec F S800x128 .f32) (lo hi : BitVec 32) (xs : Vec F S5120x128 .f32)
    (h0 : ¬cond1_0 i) (h1 : cond1_1 i lo hi) : accStep1 i x0 x1 lo hi xs = k1_pay2 i x0 x1 xs := by
  unfold accStep1; rw [if_pos h1, if_neg h0]
theorem accStep1_FF_g1 (i : grid1.Coords) (x0 : Vec F S1x5120 .i32) (x1 : Vec F S800x128 .f32) (lo hi : BitVec 32) (xs : Vec F S5120x128 .f32)
    (h0 : ¬cond1_0 i) (h1 : ¬cond1_1 i lo hi) : accStep1 i x0 x1 lo hi xs = xs := by
  unfold accStep1; rw [if_neg h1, if_neg h0]
theorem outStep1_T_g1 (i : grid1.Coords) (acc : Vec F S5120x128 .f32) (x2 : Vec F S5120x1 .f32) (xi3 : Vec F S5120x128 .f32)
    (h2 : cond1_2 i) : outStep1 i acc x2 xi3 = k1_pay3 acc x2 := by unfold outStep1; rw [if_pos h2]
theorem outStep1_F_g1 (i : grid1.Coords) (acc : Vec F S5120x128 .f32) (x2 : Vec F S5120x1 .f32) (xi3 : Vec F S5120x128 .f32)
    (h2 : ¬cond1_2 i) : outStep1 i acc x2 xi3 = xi3 := by unfold outStep1; rw [if_neg h2]

set_option maxHeartbeats 4000000 in
/-- The body in the control case A: the accumulator reset, the table words admitting the column block, the output not stored. -/
theorem kernel1_A (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : cond1_0 i) (hc1 : cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay2 i x0 x1 (k1_pay1 (F := F))) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readCov_whole_g1 arg8 vec2_zero_g1 _ _ _))
  isplitl [HT0]; · iexact HT0
  iexact HT1

set_option maxHeartbeats 4000000 in
/-- The body in the control case B: the accumulator reset, the table words not admitting the column block, the output not stored. -/
theorem kernel1_B (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : cond1_0 i) (hc1 : ¬cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay1 (F := F) : Vec F S5120x128 .f32) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _)
  isplitl [HT0]; · iexact HT0
  iexact HT1

set_option maxHeartbeats 4000000 in
/-- The body in the control case C: the accumulator not reset, the table words admitting the column block, the output not stored. -/
theorem kernel1_C (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay2 i x0 x1 xs) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))
  isplitl [HT0]; · iexact HT0
  iexact HT1

set_option maxHeartbeats 4000000 in
/-- The body in the control case D: the accumulator not reset, the table words not admitting the column block, the output not stored. -/
theorem kernel1_D (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : ¬cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel1_E (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : cond1_1 i (tword1 c tbM1_0 i xt0) (tword1 c tbM1_1 i xt1)) (hc2 : cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare (k1_pay3 (k1_pay2 i x0 x1 xs) x2)
            ∗ owns (c : Thread nD τ) arg8 fullShare (k1_pay2 i x0 x1 xs) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g1 arg7 _ vec2_zero_g1 _ _ _).trans (pay3_congr_g1 ((readCov_whole_g1 arg8 vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))) (readAt_whole_unread_g1 arg6 harg6 x2 vec2_zero_g1 _))
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))
  isplitl [HT0]; · iexact HT0
  iexact HT1

set_option maxHeartbeats 4000000 in
/-- The body in the control case G: the accumulator not reset, the table words not admitting the column block, the output stored. -/
theorem kernel1_G (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : ¬cond1_1 i (tword1 c tbM1_0 i xt0) (tword1 c tbM1_1 i xt1)) (hc2 : cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare (k1_pay3 xs x2)
            ∗ owns (c : Thread nD τ) arg8 fullShare xs ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g1 arg7 _ vec2_zero_g1 _ _ _).trans (pay3_congr_g1 (readAt_whole_unread_g1 arg8 harg8 xs vec2_zero_g1 _) (readAt_whole_unread_g1 arg6 harg6 x2 vec2_zero_g1 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel1 (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hx : cond1_0 i → ¬cond1_2 i)
    (acc' : Vec F S5120x128 .f32) (hacc : acc' = accStep1 i x0 x1 (tword1 c tbM1_0 i xt0) (tword1 c tbM1_1 i xt1) xs)
    (out' : Vec F S5120x128 .f32) (hout : out' = outStep1 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  subst hout; subst hacc
  by_cases h0 : cond1_0 i <;> by_cases h1 : cond1_1 i (tword1 c tbM1_0 i xt0) (tword1 c tbM1_1 i xt1) <;> by_cases h2 : cond1_2 i
  · exact absurd h2 (hx h0)
  · rw [outStep1_F_g1 _ _ _ _ h2, accStep1_TT_g1 _ _ _ _ _ _ h0 h1]; exact kernel1_A c i arg4 harg4 arg5 harg5 arg6 harg6 arg7 harg7 arg8 harg8 x0 x1 x2 xi3 xt0 xt1 xs h0 h1 h2 E K
  · exact absurd h2 (hx h0)
  · rw [outStep1_F_g1 _ _ _ _ h2, accStep1_TF_g1 _ _ _ _ _ _ h0 h1]; exact kernel1_B c i arg4 harg4 arg5 harg5 arg6 harg6 arg7 harg7 arg8 harg8 x0 x1 x2 xi3 xt0 xt1 xs h0 h1 h2 E K
  · rw [outStep1_T_g1 _ _ _ _ h2, accStep1_FT_g1 _ _ _ _ _ _ h0 h1]; exact kernel1_E c i arg4 harg4 arg5 harg5 arg6 harg6 arg7 harg7 arg8 harg8 x0 x1 x2 xi3 xt0 xt1 xs h0 h1 h2 E K
  · rw [outStep1_F_g1 _ _ _ _ h2, accStep1_FT_g1 _ _ _ _ _ _ h0 h1]; exact kernel1_C c i arg4 harg4 arg5 harg5 arg6 harg6 arg7 harg7 arg8 harg8 x0 x1 x2 xi3 xt0 xt1 xs h0 h1 h2 E K
  · rw [outStep1_T_g1 _ _ _ _ h2, accStep1_FF_g1 _ _ _ _ _ _ h0 h1]; exact kernel1_G c i arg4 harg4 arg5 harg5 arg6 harg6 arg7 harg7 arg8 harg8 x0 x1 x2 xi3 xt0 xt1 xs h0 h1 h2 E K
  · rw [outStep1_F_g1 _ _ _ _ h2, accStep1_FF_g1 _ _ _ _ _ _ h0 h1]; exact kernel1_D c i arg4 harg4 arg5 harg5 arg6 harg6 arg7 harg7 arg8 harg8 x0 x1 x2 xi3 xt0 xt1 xs h0 h1 h2 E K

end Cert.Kernel.Hand

end
-- ==== Proof.K.RegTables.lean ====
import proofs.«415143_j42460046688958_3_alg».proof.Proof.Gen.Kernel.Launch
import Idealize.ShloMosaic.Lib.Pipeline.Frame
import Idealize.ShloMosaic.Lib.Pipeline.Regions
import Idealize.ShloMosaic.Lib.Pipeline.RegionsLoop

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! # A region whose pipeline prefetches tables, entered from and left at "every unscoped buffer at a valuation"

The thread state between two items of @main holds every unscoped buffer of the core whole at a valuation `V`, beside
the generator register at some state and the core owing nothing. The tables a pipeline prefetches are unscoped buffers
that are no window's array: they sit in the unscoped rest. At the region's ENTRY the unscoped buffers split into the
windows' arrays, the tables (whole, at the admissible contents, when `V` holds those there) and what is neither; at its
EXIT the three go back together at any valuation that has the arrays at their final contents and agrees with `V` off
them. Stated once for any pipeline `p` laid out as the launch needs, and any proof data that reads its entry arrays
off `V`, holds every array whole, and owes nothing at the first and the last point. -/

section

variable (a : (p : Fin 13) → (pcfgs (F := F) p).Adm)
  (pdats : (p : Fin 13) → (c : Dev nD) → Dat τ (Elt F) Unit ℕ (UR sig nD τ) ℕ (Pipeline.pin (pcfgs (F := F)) a p) c)

/-- What rides beside the buffers between two items on core `c`: the generator register at some state and the core
    owing nothing. -/
local notation "Rest" c:max => iprop((∃ r, prngReg c r) ∗ ∃ W, owes (c : Thread nD τ) (0 : CellTallies nD τ sig Unit) W)

/-- What enters the invariant beside the tables and the scoped rest: the generator register at some state. -/
abbrev tblX (c : Dev nD) : sProp 𝕄 := iprop(∃ r, prngReg c r)

/-- What the invariant gives back at the last point: the tables whole at the admissible contents, and the generator
    register at some state. -/
abbrev tblY (p : Fin 13) (c : Dev nD) : sProp 𝕄 :=
  iprop(Pipeline.prefHeld (pcfgs (F := F) p).pre c (fun _ => fullShare) (a p).1 ∗ ∃ r, prngReg c r)

/-- What bypasses the region: the unscoped buffers that are neither a window's array nor a table, whole at `V`. -/
abbrev tblZ (a : (p : Fin 13) → (pcfgs (F := F) p).Adm) (p : Fin 13) (c : Dev nD) (V : Valuation τ sig (Elt F)) : sProp 𝕄 :=
  Pipeline.unscopedRestP (pcfgs (F := F) p).pre (pcfgs (F := F) p).spec c (fun b => V b)

/-- A valuation updated at one window's array agrees with the old one off the windows' arrays. -/
theorem upd_rest {p : Fin 13} (V : Valuation τ sig (Elt F)) (wout : Fin (Pipeline.pin (pcfgs (F := F)) a p).W)
    (x : (Proc.devRef .tc (Pipeline.arrRef (Pipeline.pin (pcfgs (F := F)) a p).spec wout) : DevRef τ sig).ty.Contents (Elt F)) :
    ∀ b : Ref sig .tc, b ∉ Finset.univ.image (Pipeline.arrRef (Pipeline.pin (pcfgs (F := F)) a p).spec)
      → Function.update V (Proc.devRef .tc (Pipeline.arrRef (Pipeline.pin (pcfgs (F := F)) a p).spec wout)) x b = V b :=
  fun b hb => Function.update_of_ne
    (StableHlo.devRef_ne_of_ne fun h : b = Pipeline.arrRef (Pipeline.pin (pcfgs (F := F)) a p).spec wout =>
      hb (by rw [h]; exact Finset.mem_image_of_mem _ (Finset.mem_univ wout))) _ _

-- a library lemma stated over `pin pcs a p` unifies with the pinned configuration only when unification may unfold
-- plain definitions in a metavariable's type
set_option backward.isDefEq.respectTransparency.types false in
/-- ENTRY. From every unscoped buffer at `V` beside the rest state (and no semaphore of the kernel's own): the windows'
    arrays at the proof data's entry contents, the tables whole at the admissible contents, the core's dues at the first
    point, the generator register, and the unscoped buffers that are neither. -/
theorem tbl_hentry {L : GSem nD τ sig → Finset Unit} {lv : GSem nD τ sig → Unit → ℕ} {p : Fin 13}
    (kit : Pipeline.PLaunchFacts (nD := nD) (τ := τ) (pcfgs (F := F)) p) (c : Dev nD) (V : Valuation τ sig (Elt F))
    (hA : ∀ w, (pdats p c).A w = V (Pipeline.arrRef (Pipeline.pin (pcfgs (F := F)) a p).spec w))
    (hshare : ∀ w, (pdats p c).share w = fullShare)
    (howed : (pdats p c).owed 0 = 0) (hrec : (pdats p c).recorded 0 = Set.univ)
    (hpf : ∀ k, V ((pcfgs (F := F) p).pre.ref k) = (a p).1 k) :
    iprop(iprop(StableHlo.held (c : Thread nD τ) (Pipeline.ucRefs τ sig) V ∗ Rest c)
        ∗ Pipeline.ownSems0 (fun k : PEmpty => k.elim) c ∗ levAts L lv)
      ⊢ (|={Set.univ}=> iprop((pdats p c).arrays ((pdats p c).arrAt · 0)
          ∗ Pipeline.prefHeld (pcfgs (F := F) p).pre c (fun _ => fullShare) (a p).1
          ∗ (pdats p c).owesAt () 0 ∗ tblX c ∗ tblZ a p c V) : sProp 𝕄) := by
  have hsplit : (unscopedBufs c (fun b => V b) : sProp 𝕄)
      ⊢ iprop((pdats p c).arrays ((pdats p c).arrAt · 0) ∗ Pipeline.unscopedRest (pcfgs (F := F) p).spec c (fun b => V b)) :=
    Pipeline.arrays_of_unscopedBufs (p := p) (pcfgs (F := F)) a pdats kit.win kit.arr_whole c hshare (fun b => V b) hA
  rw [Pipeline.unscopedBufs_held, Pipeline.unscopedRest_split kit.pre c (fun b => V b),
    show (fun k => V ((pcfgs (F := F) p).pre.ref k)) = (a p).1 from funext hpf] at hsplit
  iintro ⟨⟨Hub, Hp, HO⟩, -, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    rw [howed]
    icases HO with ⟨%W, HO⟩; iexists W; isplitr; · ipureintro; exact fun _ _ => Or.inl (hrec ▸ trivial)
    iexact HO
  isplitl [Hp]; · iexact Hp
  iexact Hrest

set_option backward.isDefEq.respectTransparency.types false in
/-- EXIT. The windows' arrays at their final contents, the core's dues at the last point, what the invariant gives back
    (the tables and the generator register) and what bypassed the region make every unscoped buffer at `V'` beside the
    rest state, for any `V'` that has the arrays at their final contents and agrees with `V` off them. -/
theorem tbl_hexit {p : Fin 13}
    (kit : Pipeline.PLaunchFacts (nD := nD) (τ := τ) (pcfgs (F := F)) p) (c : Dev nD) (V V' : Valuation τ sig (Elt F))
    (hshare : ∀ w, (pdats p c).share w = fullShare)
    (hF : ∀ w, (pdats p c).arrAt w (Pipeline.pin (pcfgs (F := F)) a p).N = V' (Pipeline.arrRef (Pipeline.pin (pcfgs (F := F)) a p).spec w))
    (hrest : ∀ b : Ref sig .tc, b ∉ Finset.univ.image (Pipeline.arrRef (Pipeline.pin (pcfgs (F := F)) a p).spec) → V' b = V b)
    (howed : (pdats p c).owed (Fin.last (Pipeline.pin (pcfgs (F := F)) a p).N) = 0)
    (hpf : ∀ k, V ((pcfgs (F := F) p).pre.ref k) = (a p).1 k) :
    iprop((pdats p c).arrays ((pdats p c).arrAt · (Pipeline.pin (pcfgs (F := F)) a p).N)
        ∗ (pdats p c).owesAt () (Fin.last (Pipeline.pin (pcfgs (F := F)) a p).N) ∗ tblY a p c ∗ tblZ a p c V)
      ⊢ (|={Set.univ}=> iprop(StableHlo.held (c : Thread nD τ) (Pipeline.ucRefs τ sig) V' ∗ Rest c) : sProp 𝕄) := by
  have hjoin : iprop((pdats p c).arrays ((pdats p c).arrAt · (Pipeline.pin (pcfgs (F := F)) a p).N)
        ∗ Pipeline.unscopedRest (pcfgs (F := F) p).spec c (fun b => V b)) ⊢ (unscopedBufs c (fun b => V' b) : sProp 𝕄) :=
    Pipeline.unscopedBufs_of_arrays (p := p) (pcfgs (F := F)) a (Ix := Unit) (Name := ℕ) (U := UR sig nD τ) (Lvl := ℕ)
      kit.win kit.arr_whole c pdats hshare (fun b => V b) (fun b => V' b) ((pdats p c).arrAt · (Pipeline.pin (pcfgs (F := F)) a p).N) hF hrest
  rw [Pipeline.unscopedBufs_held, Pipeline.unscopedRest_split kit.pre c (fun b => V b),
    show (fun k => V ((pcfgs (F := F) p).pre.ref k)) = (a p).1 from funext hpf] at hjoin
  have hO : ((pdats p c).owesAt () (Fin.last (Pipeline.pin (pcfgs (F := F)) a p).N) : sProp 𝕄)
      ⊢ iprop(∃ W, owes (c : Thread nD τ) (0 : CellTallies nD τ sig Unit) W) := by
    unfold Pipeline.Dat.owesAt Pipeline.owesWithin
    rw [howed]
    iintro ⟨%W, -, HO⟩; iexists W; iexact HO
  iintro ⟨Ha, HO, ⟨Ht, Hp⟩, Hrest⟩
  imodintro
  isplitl [Ha Ht Hrest]
  · iapply hjoin
    isplitl [Ha]; · iexact Ha
    isplitl [Ht]; · iexact Ht
    iexact Hrest
  isplitl [Hp]; · iexact Hp
  iapply hO; iexact HO

end

end Cert.Kernel.Hand

end
-- ==== Proof.K.Gather1.lean ====
import proofs.«415143_j42460046688958_3_alg».proof.Proof.K.Gather1Runs
import proofs.«415143_j42460046688958_3_alg».proof.Proof.K.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 1): the body obligation and the region as a segment of @main -/

theorem PhiA1_eq (c : Dev nD) :
    (Pipeline.ΦA spec1 c : sProp 𝕄)
      = iprop(iprop(iprop((∃ d, owns (c : Thread nD τ) scM1 fullShare d)) ∗ restB1 c) ∗ (∃ r, prngReg c r)) := by
  unfold Pipeline.ΦA; rw [scopedRest1_split]; simp only [scM1, owns_whole]; try rfl

theorem PhiT1_eq (c : Dev nD) : (tabs1 a c : sProp 𝕄) = iprop(tbPt1 c tbM1_0 ((a 1).1 0) ∗ tbPt1 c tbM1_1 ((a 1).1 1)) := by
  unfold tabs1 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS1_open (c : Dev nD) (n : ℕ) (h : n ≤ (cfgG1 a).N) :
    PhiS1 a V c n h ⊢ iprop(∃ xs, ⌜∀ hz : n ≠ 0, xs = accAt1 a V c (n - 1) (by omega)⌝ ∗ owns (c : Thread nD τ) scM1 fullShare xs ∗ restB1 c
      ∗ (∃ r, prngReg c r) ∗ tbPt1 c tbM1_0 ((a 1).1 0) ∗ tbPt1 c tbM1_1 ((a 1).1 1)) := by
  cases n with
  | zero =>
    rw [show PhiS1 a V c 0 h = iprop(Pipeline.ΦA spec1 c ∗ tabs1 a c) from rfl, PhiA1_eq, PhiT1_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS1_succ, PhiT1_eq]
    iintro ⟨⟨⟨HS, Hr⟩, Hg⟩, HT0, HT1⟩
    iexists (accAt1 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS1_out (c : Dev nD) (n : ℕ) (h : n ≤ (cfgG1 a).N) : PhiS1 a V c n h ⊢ iprop(Pipeline.ΦA spec1 c ∗ tabs1 a c) := by
  cases n with
  | zero => exact .rfl
  | succ n =>
    rw [PhiS1_succ, PhiA1_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before1_0_of {c : Dev nD} (dat : Dat τ (Elt F) Unit ℕ (UR sig nD τ) ℕ (cfgG1 a) c) (hA : dat.A 0 = V c (Pipeline.arrRef spec1 0))
    (hafter : ∀ t, dat.after 0 t = iblk1 a V c 0 t) (t : Fin (cfgG1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfgG1 a) c) (hA : dat.A 1 = V c (Pipeline.arrRef spec1 1))
    (hafter : ∀ t, dat.after 1 t = iblk1 a V c 1 t) (t : Fin (cfgG1 a).N) (d) : dat.before 1 t d = iblk1 a V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ (cfgG1 a) c) (hA : dat.A 2 = V c (Pipeline.arrRef spec1 2))
    (hafter : ∀ t, dat.after 2 t = iblk1 a V c 2 t) (t : Fin (cfgG1 a).N) (d) : dat.before 2 t d = iblk1 a V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfgG1 a).N) (d) : (dat1 a V c).before 0 t d = iblk1 a V c 0 t :=
  before1_0_of a V (dat1 a V c) (A_eq1 a V c 0) (after1_0 a V c) t d
theorem before1_1 (c : Dev nD) (t : Fin (cfgG1 a).N) (d) : (dat1 a V c).before 1 t d = iblk1 a V c 1 t :=
  before1_1_of a V (dat1 a V c) (A_eq1 a V c 1) (after1_1 a V c) t d
theorem before1_2 (c : Dev nD) (t : Fin (cfgG1 a).N) (d) : (dat1 a V c).before 2 t d = iblk1 a V c 2 t :=
  before1_2_of a V (dat1 a V c) (A_eq1 a V c 2) (after1_2 a V c) t d

/-! ## What the body leaves in each window's buffer -/

/-- At a point live for a window the obligation asks for the window's buffer at what the body leaves there. -/
theorem leavesExact_live_g1 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves1_0 (c : Dev nD) (t : Fin (cfgG1 a).N) :
    (dat1 a V c).leavesExact 0 t = owns (c : Thread nD τ) (ms1_0 a t) fullShare (iblk1 a V c 0 t) := by
  rw [leavesExact_live_g1 (dat1 a V c) 0 t (liveAt1_0 a t), after1_0]; rfl
theorem leaves1_1 (c : Dev nD) (t : Fin (cfgG1 a).N) :
    (dat1 a V c).leavesExact 1 t = owns (c : Thread nD τ) (ms1_1 a t) fullShare (iblk1 a V c 1 t) := by
  rw [leavesExact_live_g1 (dat1 a V c) 1 t (liveAt1_1 a t), after1_1]; rfl
theorem leaves1_2 (c : Dev nD) (t : Fin (cfgG1 a).N) :
    (dat1 a V c).leavesExact 2 t = owns (c : Thread nD τ) (ms1_2 a t) fullShare (iblk1 a V c 2 t) := by
  rw [leavesExact_live_g1 (dat1 a V c) 2 t (liveAt1_2 a t), after1_2]; rfl

/-- The output's buffer at one step of the output over what the body found is what the obligation asks of it: the
    scaled accumulator where the body stores it, what it found where the window is idle. -/
theorem leaves1_3_intro (c : Dev nD) (t : Fin (cfgG1 a).N) (d) :
    owns (c : Thread nD τ) (ms1_3 a t) fullShare (outStep1 (grid1.coords t) (accAt1 a V c t.val t.isLt) (iblk1 a V c 2 t) ((dat1 a V c).before 3 t d))
      ⊢ ((dat1 a V c).leavesExact 3 t : sProp 𝕄) := by
  by_cases h2 : cond1_2 (grid1.coords t)
  · rw [leavesExact_live_g1 (dat1 a V c) 3 t (liveAt1_3 a t h2), after1_3]
    exact Entails.of_eq (congrArg (owns (c : Thread nD τ) (ms1_3 a t) fullShare) (outStep1_pos _ h2 _ _ _))
  · rw [Dat.leavesExact_idle (dat1 a V c) 3 t (idleAt1_3 a t h2) (noFlush1_3 a t h2)]
    refine (Entails.of_eq (congrArg (owns (c : Thread nD τ) (ms1_3 a t) fullShare) (outStep1_neg _ h2 _ _ _))).trans ?_
    iintro H; iexists d; iexact H

/-! ## The body obligation, at a generic point -/

def bodyPre1 (c : Dev nD) (t : Fin (cfgG1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d)))

def bodyPost1 (c : Dev nD) (t : Fin (cfgG1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body1 (c : Dev nD) (t : Fin (cfgG1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2]
  rw [show (dat1 a V c).owesAt () t.succ = (dat1 a V c).owesAt () t.castSucc from rfl]
  rw [show (dat1 a V c).Φ t.succ = PhiS1 a V c (t.val + 1) t.isLt from rfl, PhiS1_succ, PhiT1_eq]
  rw [leaves1_0, leaves1_1, leaves1_2, PhiS1_castSucc]
  iintro ⟨HΦ, Ho, ⟨%d0, H0⟩, ⟨%d1, H1⟩, ⟨%d2, H2⟩, ⟨%d3, H3⟩⟩
  ihave HΦ' := (PhiS1_open a V c t.val (Nat.le_of_lt t.isLt)) $$ HΦ
  icases HΦ' with ⟨%xs, %hxs, HS, Hr, Hg, HT0, HT1⟩
  iapply (kernel1 c (grid1.coords t) (ms1_0 a t) (hs1_0 a t) (ms1_1 a t) (hs1_1 a t) (ms1_2 a t) (hs1_2 a t) (ms1_3 a t) (hs1_3 a t) scM1 (Memref.isWhole_whole _)
    (iblk1 a V c 0 t) (iblk1 a V c 1 t) (iblk1 a V c 2 t) ((dat1 a V c).before 3 t d3) ((a 1).1 0) ((a 1).1 1) xs
    (fun h0 h2 => by have e0 := (hcond1_0 t).mp h0; have e2 := (hcond1_2 t).mp h2; omega)
    (accAt1 a V c t.val t.isLt) (accAt1_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves1_3_intro a V c t d3)
  iexact H3

/-- The library's body obligation, at every point. -/
theorem body_obligation1 (c : Dev nD) : BodyObligation (dat1 (F := F) a V c) (defs₀ (F := F)) Variants.none () Set.univ := fun t => by
  rw [bigSep_W1, bigSep_W1]
  exact sound_body1 a V c t

/-! ## The region as a segment of @main -/

/-- What rides beside the buffers through every segment: the generator register at some state, nothing owed. -/
abbrev R1 (c : Dev nD) : sProp 𝕄 := iprop((∃ r, prngReg c r) ∗ ∃ W, owes (c : Thread nD τ) (0 : CellTallies nD τ sig Unit) W)

theorem Phi1_in (c : Dev nD) : iprop((∃ r, prngReg c r) ∗ tabs1 a c ∗ Pipeline.scopedRest (Ix := Unit) (Name := ℕ) (U := UR sig nD τ) (Lvl := ℕ) (Val := Elt F) spec1 c) ⊢ ((dat1 a V c).Φ 0 : sProp 𝕄) := by
  rw [show (dat1 a V c).Φ 0 = iprop(Pipeline.ΦA spec1 c ∗ tabs1 a c) from rfl]; unfold Pipeline.ΦA
  iintro ⟨Hp, HT, Hr⟩
  isplitl [Hr Hp]
  · isplitl [Hr]; · iexact Hr
    iexact Hp
  iexact HT

theorem Phi1_out (c : Dev nD) : ((dat1 a V c).Φ (Fin.last (cfgG1 a).N) : sProp 𝕄)
    ⊢ iprop(iprop(tabs1 a c ∗ ∃ r, prngReg c r) ∗ BI.emp ∗ Pipeline.scopedRest (Ix := Unit) (Name := ℕ) (U := UR sig nD τ) (Lvl := ℕ) (Val := Elt F) spec1 c) := by
  rw [show (dat1 a V c).Φ (Fin.last (cfgG1 a).N) = PhiS1 a V c (cfgG1 a).N (Nat.le_refl _) from rfl]
  refine (PhiS1_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF1 (Vin : Dev nD → Valuation τ sig (Elt F)) (hV : ∀ c b, V c b = Vin c b) (c : Dev nD) : ∀ w : Fin 4,
    (dat1 a V c).arrAt w (cfgG1 a).N
      = Function.update (Vin c) main_v119 ((dat1 a V c).arrAt 3 (cfgG1 a).N) (Proc.devRef .tc (Pipeline.arrRef spec1 w))
  | 0 => ((((dat1 a V c).arrAt_in 0 rfl _).trans (A_eq1 a V c 0)).trans (hV c _)).trans
      (Function.update_of_ne (StableHlo.devRef_ne_of_ne (by decide : Pipeline.arrRef spec1 0 ≠ main_v119)) _ _).symm
  | 1 => ((((dat1 a V c).arrAt_in 1 rfl _).trans (A_eq1 a V c 1)).trans (hV c _)).trans
      (Function.update_of_ne (StableHlo.devRef_ne_of_ne (by decide : Pipeline.arrRef spec1 1 ≠ main_v119)) _ _).symm
  | 2 => ((((dat1 a V c).arrAt_in 2 rfl _).trans (A_eq1 a V c 2)).trans (hV c _)).trans
      (Function.update_of_ne (StableHlo.devRef_ne_of_ne (by decide : Pipeline.arrRef spec1 2 ≠ main_v119)) _ _).symm
  | 3 => (Function.update_self (Proc.devRef .tc main_v119) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat1` at this pipeline. -/
def reg1 (pdats : (p : Fin 13) → (c : Dev nD) → Dat τ (Elt F) Unit ℕ (UR sig nD τ) ℕ (Pipeline.pin (pcfgs (F := F)) a p) c)
    (h : ∀ c, pdats 1 c = dat1 a V c)
    (Vin : Dev nD → Valuation τ sig (Elt F)) (hV : ∀ c b, V c b = Vin c b)
    (hpf : ∀ c k, Vin c (pre1.ref k) = (a 1).1 k) :
    Pipeline.RegionSeg (pcfgs (F := F)) a pdats () defs₀ Variants.none (fun _ => (∅ : Finset Unit)) (fun _ _ => (0 : ℕ)) 1 where
  win := (launch1 (F := F)).win.to₀
  block_pos := (launch1 (F := F)).block_pos
  stage_whole := (launch1 (F := F)).stage_whole
  K := PEmpty
  osem k := k.elim
  ho := Pipeline.OwnSemFacts.none _
  hbody c := by rw [h c]; exact (body_obligation1 a V c).loose
  hwaits := Pipeline.hwaits_of_owed_zero _ _ _ _ _ _ 1 fun c t => by rw [h c]; rfl
  pre c := iprop(StableHlo.held (c : Thread nD τ) (Pipeline.ucRefs τ sig) (Vin c) ∗ R1 c)
  post c := iprop(StableHlo.held (c : Thread nD τ) (Pipeline.ucRefs τ sig)
      (Function.update (Vin c) main_v119 ((dat1 a V c).arrAt 3 (cfgG1 a).N)) ∗ R1 c)
  X c := tblX c
  Y c := tblY a 1 c
  Z c := tblZ a 1 c (Vin c)
  hentry c := tbl_hentry a pdats (launch1 (F := F)) c (Vin c) (fun w => by rw [h c]; exact (A_eq1 a V c w).trans (hV c _))
    (fun w => by rw [h c]; exact (dat1 a V c).share_full (fun _ => rfl) w) (by rw [h c]; rfl) (by rw [h c]; rfl) (hpf c)
  hin c := by rw [h c]; exact Phi1_in a V c
  hout c := by rw [Pipeline.ownSems0_none, h c]; exact Phi1_out a V c
  hexit c := tbl_hexit a pdats (launch1 (F := F)) c (Vin c) _ (fun w => by rw [h c]; exact (dat1 a V c).share_full (fun _ => rfl) w)
    (fun w => by rw [h c]; exact hF1 a V Vin hV c w) (upd_rest (p := 1) a (Vin c) 3 _) (by rw [h c]; rfl) (hpf c)

end Cert.Kernel.Hand

end
-- ==== Proof.K.Scatter2Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 2: its control conditions, the table words it reads, and what one run of the
    body leaves in the carried accumulator and in the output block, in closed form over the payloads -/

/-- The body zeroes the accumulator when the second grid coordinate is 0. -/
abbrev cond2_1 (i : grid2.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond2_2 (i : grid2.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond2_3 (i : grid2.Coords) : Prop := k2_cond3 i = 1#1

/-- The prefetched tables as the body is handed them: whole scalar-memory memrefs. -/
abbrev tbM2_0 : Memref sig .tc .smem S123 .i32 := Memref.whole main_v81
abbrev htbM2_0 : tbM2_0.IsWhole := Memref.isWhole_whole _
abbrev tbM2_1 : Memref sig .tc .smem S123 .i32 := Memref.whole main_v82
abbrev htbM2_1 : tbM2_1.IsWhole := Memref.isWhole_whole _
abbrev tbM2_2 : Memref sig .tc .smem S50 .i32 := Memref.whole main_v110
abbrev htbM2_2 : tbM2_2.IsWhole := Memref.isWhole_whole _
abbrev tbM2_3 : Memref sig .tc .smem S50 .i32 := Memref.whole main_v111
abbrev htbM2_3 : tbM2_3.IsWhole := Memref.isWhole_whole _

/-- A table memref's buffer on core `c`, and that buffer held whole at contents `f`. -/
abbrev TbBuf2 (c : Dev nD) {S : Shape} {e : EltTy} (M : Memref sig .tc .smem S e) : Type := Buf (Elt F) (M.view.loc (c : Thread nD τ))
abbrev tbPt2 (c : Dev nD) {S : Shape} {e : EltTy} (M : Memref sig .tc .smem S e) (f : TbBuf2 (F := F) c M) : sProp 𝕄 :=
  M.view.loc (c : Thread nD τ) ↦{fullShare} f

/-- The word of the first table the body compares from below, at the second grid coordinate, -/
abbrev wd2_0 (c : Dev nD) (i : grid2.Coords) (xt : TbBuf2 (F := F) c tbM2_0) : Elt F .i32 :=
  tbM2_0.view.readAt (Elt F) (Rect.unit (s := S123) (k2_off2 i) S1.size (k2_off2_inb i)).toLoadRect xt (Shape.Idx.first (numel1_S1.symm ▸ Nat.one_pos))
/-- and the word of the second table it compares from above. -/
abbrev wd2_1 (c : Dev nD) (i : grid2.Coords) (xt : TbBuf2 (F := F) c tbM2_1) : Elt F .i32 :=
  tbM2_1.view.readAt (Elt F) (Rect.unit (s := S123) (k2_off2 i) S1.size (k2_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc2 (i : grid2.Coords) (wlo whi : Elt F .i32) (x0 : Vec F S1x5120 .i32) (x1 : Vec F S5120x128 .f32)
    (xs : Vec F S2000x128 .f32) : Vec F S2000x128 .f32 :=
  if cond2_2 i wlo whi then k2_pay2 i x0 x1 (if cond2_1 i then (k2_pay1 : Vec F S2000x128 .f32) else xs)
  else (if cond2_1 i then (k2_pay1 : Vec F S2000x128 .f32) else xs)

/-- Where the accumulator is zeroed, what it held before does not matter. -/
theorem acc2_of_cond2_1 (i : grid2.Coords) (h : cond2_1 i) (wlo whi : Elt F .i32) (x0 : Vec F S1x5120 .i32) (x1 : Vec F S5120x128 .f32)
    (xs xs' : Vec F S2000x128 .f32) : acc2 i wlo whi x0 x1 xs = acc2 i wlo whi x0 x1 xs' := by
  unfold acc2; rw [if_pos h, if_pos h]

/-! # REGION 2 of @main (custom_call 2, pipeline 2) at the tables' admissible contents `a 2` and the entry contents `V` -/

section Region
variable (a : (p : Fin 13) → (pcfgs (F := F) p).Adm)
variable (V : (c : Dev nD) → (b : Ref sig .tc) → Buf (Elt F) ((c : Thread nD τ).loc b))

/-- Pipeline 2 at the tables' contents. -/
abbrev cfgM2 : Pipeline.Cfg sig Λ₀ := cfg2 (a 2)

/-- Window `w`'s block at point `t`, read off its array as the region finds it (`V`); for windows 0 and 1, whose index
    maps read the tables, a function of the tables' words. -/
def iblk2 (c : Dev nD) (w : Fin (cfgM2 a).W) (t : Fin (cfgM2 a).N) : (((cfgM2 a).win w).xblock ((cfgM2 a).grid.coords t)).Idx → Elt F ((cfgM2 a).win w).elt :=
  (((cfgM2 a).win w).blk t).view.read (Elt F) (V c (Pipeline.arrRef spec2 w))

/-! ## Each input window's current staging buffer holds its block at every point, fetched there or not -/

theorem before2_0_of {c : Dev nD} (dat : Dat τ (Elt F) Unit ℕ (UR sig nD τ) ℕ (cfgM2 a) c) (hA : dat.A 0 = V c (Pipeline.arrRef spec2 0))
    (hafter : ∀ t, dat.after 0 t = iblk2 a V c 0 t) (t : Fin (cfgM2 a).N) (d) : dat.before 0 t d = iblk2 a V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ (cfgM2 a) c) (hA : dat.A 1 = V c (Pipeline.arrRef spec2 1))
    (hafter : ∀ t, dat.after 1 t = iblk2 a V c 1 t) (t : Fin (cfgM2 a).N) (d) : dat.before 1 t d = iblk2 a V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ (cfgM2 a) c) (hA : dat.A 2 = V c (Pipeline.arrRef spec2 2))
    (hafter : ∀ t, dat.after 2 t = iblk2 a V c 2 t) (t : Fin (cfgM2 a).N) (d) : dat.before 2 t d = iblk2 a V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ (cfgM2 a) c) (hA : dat.A 3 = V c (Pipeline.arrRef spec2 3))
    (hafter : ∀ t, dat.after 3 t = iblk2 a V c 3 t) (t : Fin (cfgM2 a).N) (d) : dat.before 3 t d = iblk2 a V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ (cfgM2 a) c) (hA : dat.A 4 = V c (Pipeline.arrRef spec2 4))
    (hafter : ∀ t, dat.after 4 t = iblk2 a V c 4 t) (t : Fin (cfgM2 a).N) (d) : dat.before 4 t d = iblk2 a V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point, the scratch, the body as the pipeline calls it -/

abbrev ms2_0 (t : Fin (cfgM2 a).N) : Memref sig .tc .vmem S1x5120 .i32 := spec2_0.stage ((cfgM2 a).slots t 0)
abbrev hs2_0 (t : Fin (cfgM2 a).N) : (ms2_0 a t).IsWhole := hstage2_0 (((cfgM2 a).slots t 0).cast nbuf2_0)
abbrev ms2_1 (t : Fin (cfgM2 a).N) : Memref sig .tc .vmem S5120x128 .f32 := spec2_1.stage ((cfgM2 a).slots t 1)
abbrev hs2_1 (t : Fin (cfgM2 a).N) : (ms2_1 a t).IsWhole := hstage2_1 (((cfgM2 a).slots t 1).cast nbuf2_1)
abbrev ms2_2 (t : Fin (cfgM2 a).N) : Memref sig .tc .vmem S2000x128 .f32 := spec2_2.stage ((cfgM2 a).slots t 2)
abbrev hs2_2 (t : Fin (cfgM2 a).N) : (ms2_2 a t).IsWhole := hstage2_2 (((cfgM2 a).slots t 2).cast nbuf2_2)
abbrev ms2_3 (t : Fin (cfgM2 a).N) : Memref sig .tc .vmem S128x128 .f32 := spec2_3.stage ((cfgM2 a).slots t 3)
abbrev hs2_3 (t : Fin (cfgM2 a).N) : (ms2_3 a t).IsWhole := hstage2_3 (((cfgM2 a).slots t 3).cast nbuf2_3)
abbrev ms2_4 (t : Fin (cfgM2 a).N) : Memref sig .tc .vmem S1x128 .f32 := spec2_4.stage ((cfgM2 a).slots t 4)
abbrev hs2_4 (t : Fin (cfgM2 a).N) : (ms2_4 a t).IsWhole := hstage2_4 (((cfgM2 a).slots t 4).cast nbuf2_4)
abbrev ms2_5 (t : Fin (cfgM2 a).N) : Memref sig .tc .vmem S2000x128 .f32 := spec2_5.stage ((cfgM2 a).slots t 5)
abbrev hs2_5 (t : Fin (cfgM2 a).N) : (ms2_5 a t).IsWhole := hstage2_5 (((cfgM2 a).slots t 5).cast nbuf2_5)
/-- The accumulator: a whole scoped buffer of the kernel's own, carried between points. -/
abbrev scM2 : Memref sig .tc .vmem S2000x128 .f32 := Memref.whole cc2_scratch0

abbrev bodyAt2 (t : Fin (cfgM2 a).N) :=
  cc2__scatter_kernel (F := F) (grid2.coords t) tbM2_0 htbM2_0 tbM2_1 htbM2_1 tbM2_2 htbM2_2 tbM2_3 htbM2_3 (ms2_0 a t) (hs2_0 a t) (ms2_1 a t) (hs2_1 a t) (ms2_2 a t) (hs2_2 a t) (ms2_3 a t) (hs2_3 a t) (ms2_4 a t) (hs2_4 a t) (ms2_5 a t) (hs2_5 a t) scM2 (Memref.isWhole_whole _)

/-! ## The accumulator point by point, and the output block -/

/-- One point's step of the accumulator: the body's closed form at the point's coordinates, table words and blocks. -/
def accStep2 (c : Dev nD) (t : Fin (cfgM2 a).N) (xs : Vec F S2000x128 .f32) : Vec F S2000x128 .f32 :=
  acc2 (grid2.coords t) (wd2_0 c (grid2.coords t) ((a 2).1 0)) (wd2_1 c (grid2.coords t) ((a 2).1 1)) (iblk2 a V c 0 t) (iblk2 a V c 1 t) xs

/-- THE ACCUMULATION: what the scratch holds after the body at position `n`, by recursion on the position (the first
    point zeroes it, so what it held before the region does not matter: stated from the zero payload). -/
def accAt2 (c : Dev nD) : (n : ℕ) → n < (cfgM2 a).N → Vec F S2000x128 .f32
  | 0, hn => accStep2 a V c ⟨0, hn⟩ (k2_pay1 : Vec F S2000x128 .f32)
  | n + 1, hn => accStep2 a V c ⟨n + 1, hn⟩ (accAt2 c n (Nat.lt_of_succ_lt hn))

theorem accAt2_zero (c : Dev nD) (hn : 0 < (cfgM2 a).N) : accAt2 a V c 0 hn = accStep2 a V c ⟨0, hn⟩ (k2_pay1 : Vec F S2000x128 .f32) := rfl
theorem accAt2_succ (c : Dev nD) (n : ℕ) (hn : n + 1 < (cfgM2 a).N) :
    accAt2 a V c (n + 1) hn = accStep2 a V c ⟨n + 1, hn⟩ (accAt2 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt2 (c : Dev nD) (t : Fin (cfgM2 a).N) : Vec F S2000x128 .f32 :=
  k2_pay3 (iblk2 a V c 2 t) (iblk2 a V c 3 t) (accAt2 a V c t.val t.isLt) (iblk2 a V c 4 t)

/-! ## The region invariant -/

/-- Before position `n`: the scratch at what the point before left (at anything before the first point), the other
    scoped buffers at anything, the generator register at some state, the prefetched tables whole at their contents. -/
def PhiS2 (c : Dev nD) (n : ℕ) (hn : n ≤ (cfgM2 a).N) : sProp 𝕄 :=
  iprop(iprop(∃ d : Vec F S2000x128 .f32, ⌜∀ h0 : n ≠ 0, d = accAt2 a V c (n - 1) (by omega)⌝ ∗ owns (c : Thread nD τ) scM2 fullShare d)
    ∗ Pipeline.scopedRestBut (Ix := Unit) (Name := ℕ) (U := UR sig nD τ) (Lvl := ℕ) (Val := Elt F) spec2 c [cc2_scratch0]
    ∗ iprop(∃ r, prngReg c r)
    ∗ Pipeline.prefHeld (Ix := Unit) (Name := ℕ) (U := UR sig nD τ) (Lvl := ℕ) pre2 c (fun _ => fullShare) (a 2).1)

/-! ## The pipeline's proof data -/

def dat2 (c : Dev nD) : Dat τ (Elt F) Unit ℕ (UR sig nD τ) ℕ (Pipeline.pin (pcfgs (F := F)) a 2) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => iblk2 a V c 3 t
    | ⟨4, _⟩ => iblk2 a V c 4 t
    | ⟨5, _⟩ => outAt2 a V c t
  Φ t := PhiS2 a V c t.val (Nat.le_of_lt_succ t.isLt)
  q _ := fullShare
  owed _ := 0

theorem A_eq2 (c : Dev nD) (w : Fin (cfgM2 a).W) : (dat2 a V c).A w = V c (Pipeline.arrRef spec2 w) := by
  dsimp only [dat2]
theorem after2_0 (c : Dev nD) (t : Fin (cfgM2 a).N) : (dat2 a V c).after 0 t = iblk2 a V c 0 t := by dsimp only [dat2]; try rfl
theorem after2_1 (c : Dev nD) (t : Fin (cfgM2 a).N) : (dat2 a V c).after 1 t = iblk2 a V c 1 t := by dsimp only [dat2]; try rfl
theorem after2_2 (c : Dev nD) (t : Fin (cfgM2 a).N) : (dat2 a V c).after 2 t = iblk2 a V c 2 t := by dsimp only [dat2]; try rfl
theorem after2_3 (c : Dev nD) (t : Fin (cfgM2 a).N) : (dat2 a V c).after 3 t = iblk2 a V c 3 t := by dsimp only [dat2]; try rfl
theorem after2_4 (c : Dev nD) (t : Fin (cfgM2 a).N) : (dat2 a V c).after 4 t = iblk2 a V c 4 t := by dsimp only [dat2]; try rfl
theorem after2_5 (c : Dev nD) (t : Fin (cfgM2 a).N) : (dat2 a V c).after 5 t = outAt2 a V c t := by dsimp only [dat2]; try rfl
theorem before2_0 (c : Dev nD) (t : Fin (cfgM2 a).N) (d) : (dat2 a V c).before 0 t d = iblk2 a V c 0 t :=
  before2_0_of a V (dat2 a V c) (A_eq2 a V c 0) (after2_0 a V c) t d
theorem before2_1 (c : Dev nD) (t : Fin (cfgM2 a).N) (d) : (dat2 a V c).before 1 t d = iblk2 a V c 1 t :=
  before2_1_of a V (dat2 a V c) (A_eq2 a V c 1) (after2_1 a V c) t d
theorem before2_2 (c : Dev nD) (t : Fin (cfgM2 a).N) (d) : (dat2 a V c).before 2 t d = iblk2 a V c 2 t :=
  before2_2_of a V (dat2 a V c) (A_eq2 a V c 2) (after2_2 a V c) t d
theorem before2_3 (c : Dev nD) (t : Fin (cfgM2 a).N) (d) : (dat2 a V c).before 3 t d = iblk2 a V c 3 t :=
  before2_3_of a V (dat2 a V c) (A_eq2 a V c 3) (after2_3 a V c) t d
theorem before2_4 (c : Dev nD) (t : Fin (cfgM2 a).N) (d) : (dat2 a V c).before 4 t d = iblk2 a V c 4 t :=
  before2_4_of a V (dat2 a V c) (A_eq2 a V c 4) (after2_4 a V c) t d

theorem PhiS2_castSucc (c : Dev nD) (t : Fin (cfgM2 a).N) :
    (dat2 a V c).Φ t.castSucc = PhiS2 a V c t.val (Nat.le_of_lt t.isLt) := by
  dsimp only [dat2]; simp only [Fin.coe_castSucc]

/-! ## The grid's coordinates and the conditions in closed form -/

theorem stride2_0 : grid2.stride 0 = 123 := by decide
theorem stride2_1 : grid2.stride 1 = 1 := by decide
theorem coords2_0 (t : Fin grid2.N) : (grid2.coords t 0).val = t.val / 123 % 50 := by
  show t.val / grid2.stride 0 % grid2.bound 0 = _; rw [stride2_0]; rfl
theorem coords2_1 (t : Fin grid2.N) : (grid2.coords t 1).val = t.val % 123 := by
  show t.val / grid2.stride 1 % grid2.bound 1 = _; rw [stride2_1, Nat.div_one]; rfl

theorem cond2_1_iff (i : grid2.Coords) : cond2_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond2_3_iff (i : grid2.Coords) : cond2_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle2_5_of (t : Fin (cfgM2 a).N) (h : cond2_3 (grid2.coords t)) : (cfgM2 a).idle 5 (grid2.coords t) = false := by
  show (!(k2_cond3 (grid2.coords t) == 1#1)) = false
  rw [show k2_cond3 (grid2.coords t) = 1#1 from h]; rfl
theorem idle2_5_of_not (t : Fin (cfgM2 a).N) (h : ¬cond2_3 (grid2.coords t)) : (cfgM2 a).idle 5 (grid2.coords t) = true := by
  show (!(k2_cond3 (grid2.coords t) == 1#1)) = true
  rw [Bool.not_eq_true', beq_eq_false_iff_ne]; exact h

end Region

end Cert.Kernel.Hand

end
-- ==== Proof.K.Scatter2Runs.lean ====
import proofs.«415143_j42460046688958_3_alg».proof.Proof.K.Scatter2Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec2_zero2 : (![0, 0] : Fin 2 → ℕ) = fun _ => 0 := by funext b; fin_cases b <;> rfl

/-- A load of a whole memref held at contents that read `X` reads `X`. -/
theorem readAt_whole_unread2 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole2 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole2 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay2_congr2 (i : grid2.Coords) {u u' : Vec F S1x5120 .i32} {v v' : Vec F S5120x128 .f32} {s s' : Vec F S2000x128 .f32}
    (hu : u = u') (hv : v = v') (hs : s = s') : k2_pay2 i u v s = k2_pay2 i u' v' s' := by rw [hu, hv, hs]
theorem pay3_congr2 {u u' : Vec F S2000x128 .f32} {v v' : Vec F S128x128 .f32} {s s' : Vec F S2000x128 .f32} {b b' : Vec F S1x128 .f32}
    (hu : u = u') (hv : v = v') (hs : s = s') (hb : b = b') : k2_pay3 u v s b = k2_pay3 u' v' s' b' := by rw [hu, hv, hs, hb]

theorem acc2_TT (i : grid2.Coords) (wlo whi : Elt F .i32) (x0 : Vec F S1x5120 .i32) (x1 : Vec F S5120x128 .f32) (xs : Vec F S2000x128 .f32)
    (h1 : cond2_1 i) (h2 : cond2_2 i wlo whi) : acc2 i wlo whi x0 x1 xs = k2_pay2 i x0 x1 (k2_pay1 : Vec F S2000x128 .f32) := by
  unfold acc2; rw [if_pos h2, if_pos h1]
theorem acc2_TF (i : grid2.Coords) (wlo whi : Elt F .i32) (x0 : Vec F S1x5120 .i32) (x1 : Vec F S5120x128 .f32) (xs : Vec F S2000x128 .f32)
    (h1 : cond2_1 i) (h2 : ¬cond2_2 i wlo whi) : acc2 i wlo whi x0 x1 xs = (k2_pay1 : Vec F S2000x128 .f32) := by
  unfold acc2; rw [if_neg h2, if_pos h1]
theorem acc2_FT (i : grid2.Coords) (wlo whi : Elt F .i32) (x0 : Vec F S1x5120 .i32) (x1 : Vec F S5120x128 .f32) (xs : Vec F S2000x128 .f32)
    (h1 : ¬cond2_1 i) (h2 : cond2_2 i wlo whi) : acc2 i wlo whi x0 x1 xs = k2_pay2 i x0 x1 xs := by
  unfold acc2; rw [if_pos h2, if_neg h1]
theorem acc2_FF (i : grid2.Coords) (wlo whi : Elt F .i32) (x0 : Vec F S1x5120 .i32) (x1 : Vec F S5120x128 .f32) (xs : Vec F S2000x128 .f32)
    (h1 : ¬cond2_1 i) (h2 : ¬cond2_2 i wlo whi) : acc2 i wlo whi x0 x1 xs = xs := by
  unfold acc2; rw [if_neg h2, if_neg h1]

set_option maxHeartbeats 4000000 in
/-- The body in the control case A: the accumulator zeroed, the table words bracketing the row block, the output not stored. -/
theorem sound_kernel2_A (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : cond2_1 i) (hc2 : cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay2 i x0 x1 (k2_pay1 : Vec F S2000x128 .f32)) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readCov_whole2 arg12 vec2_zero2 _ _ _))
  isplitl [HT0]; · iexact HT0
  iexact HT1

set_option maxHeartbeats 4000000 in
/-- The body in the control case B: the accumulator zeroed, the table words not bracketing the row block, the output not stored. -/
theorem sound_kernel2_B (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : cond2_1 i) (hc2 : ¬cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay1 : Vec F S2000x128 .f32) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _)
  isplitl [HT0]; · iexact HT0
  iexact HT1

set_option maxHeartbeats 4000000 in
/-- The body in the control case C: the accumulator not zeroed, the table words bracketing the row block, the output not stored. -/
theorem sound_kernel2_C (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay2 i x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readAt_whole_unread2 arg12 harg12 xs vec2_zero2 _))
  isplitl [HT0]; · iexact HT0
  iexact HT1

set_option maxHeartbeats 4000000 in
/-- The body in the control case D: the accumulator not zeroed, the table words not bracketing the row block, the output not stored. -/
theorem sound_kernel2_D (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : ¬cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel2_E (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : cond2_2 i (wd2_0 c i xt0) (wd2_1 c i xt1)) (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 (k2_pay2 i x0 x1 xs) x4)
            ∗ owns (c : Thread nD τ) arg12 fullShare (k2_pay2 i x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole2 arg11 _ vec2_zero2 _ _ _).trans (pay3_congr2 (readAt_whole_unread2 arg8 harg8 x2 vec2_zero2 _) (readAt_whole_unread2 arg9 harg9 x3 vec2_zero2 _) ((readCov_whole2 arg12 vec2_zero2 _ _ _).trans (pay2_congr2 i (readAt_whole_unread2 arg6 harg6 x0 vec2_zero2 _) (readAt_whole_unread2 arg7 harg7 x1 vec2_zero2 _) (readAt_whole_unread2 arg12 harg12 xs vec2_zero2 _))) (readAt_whole_unread2 arg10 harg10 x4 vec2_zero2 _))
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readAt_whole_unread2 arg12 harg12 xs vec2_zero2 _))
  isplitl [HT0]; · iexact HT0
  iexact HT1

set_option maxHeartbeats 4000000 in
/-- The body in the control case F: the accumulator not zeroed, the table words not bracketing the row block, the output stored. -/
theorem sound_kernel2_F (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : ¬cond2_2 i (wd2_0 c i xt0) (wd2_1 c i xt1)) (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 xs x4)
            ∗ owns (c : Thread nD τ) arg12 fullShare xs ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole2 arg11 _ vec2_zero2 _ _ _).trans (pay3_congr2 (readAt_whole_unread2 arg8 harg8 x2 vec2_zero2 _) (readAt_whole_unread2 arg9 harg9 x3 vec2_zero2 _) (readAt_whole_unread2 arg12 harg12 xs vec2_zero2 _) (readAt_whole_unread2 arg10 harg10 x4 vec2_zero2 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel2_idle (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc2 i (wd2_0 c i xt0) (wd2_1 c i xt1) x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  by_cases h1 : cond2_1 i <;> by_cases h2 : cond2_2 i (wd2_0 c i xt0) (wd2_1 c i xt1)
  · rw [acc2_TT _ _ _ _ _ _ h1 h2]; exact sound_kernel2_A c E i arg6 harg6 arg7 harg7 arg8 harg8 arg9 harg9 arg10 harg10 arg11 harg11 arg12 harg12 x0 x1 x2 x3 x4 xs xo xt0 xt1 h1 h2 hc3 K
  · rw [acc2_TF _ _ _ _ _ _ h1 h2]; exact sound_kernel2_B c E i arg6 harg6 arg7 harg7 arg8 harg8 arg9 harg9 arg10 harg10 arg11 harg11 arg12 harg12 x0 x1 x2 x3 x4 xs xo xt0 xt1 h1 h2 hc3 K
  · rw [acc2_FT _ _ _ _ _ _ h1 h2]; exact sound_kernel2_C c E i arg6 harg6 arg7 harg7 arg8 harg8 arg9 harg9 arg10 harg10 arg11 harg11 arg12 harg12 x0 x1 x2 x3 x4 xs xo xt0 xt1 h1 h2 hc3 K
  · rw [acc2_FF _ _ _ _ _ _ h1 h2]; exact sound_kernel2_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel2_live (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 (acc2 i (wd2_0 c i xt0) (wd2_1 c i xt1) x0 x1 xs) x4)
            ∗ owns (c : Thread nD τ) arg12 fullShare (acc2 i (wd2_0 c i xt0) (wd2_1 c i xt1) x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  have h1 : ¬cond2_1 i := fun h => by
    have e1 := (cond2_1_iff i).mp h; have e3 := (cond2_3_iff i).mp hc3; omega
  by_cases h2 : cond2_2 i (wd2_0 c i xt0) (wd2_1 c i xt1)
  · rw [acc2_FT _ _ _ _ _ _ h1 h2]; exact sound_kernel2_E c E i arg6 harg6 arg7 harg7 arg8 harg8 arg9 harg9 arg10 harg10 arg11 harg11 arg12 harg12 x0 x1 x2 x3 x4 xs xo xt0 xt1 h1 h2 hc3 K
  · rw [acc2_FF _ _ _ _ _ _ h1 h2]; exact sound_kernel2_F c E i arg6 harg6 arg7 harg7 arg8 harg8 arg9 harg9 arg10 harg10 arg11 harg11 arg12 harg12 x0 x1 x2 x3 x4 xs xo xt0 xt1 h1 h2 hc3 K

end Cert.Kernel.Hand

end
-- ==== Proof.K.Scatter2.lean ====
import proofs.«415143_j42460046688958_3_alg».proof.Proof.K.Scatter2Runs
import proofs.«415143_j42460046688958_3_alg».proof.Proof.K.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush2_5 : ∀ t : Fin (cfgM2 a).N, ((cfgM2 a).win 5).flush t = true ↔ t.val % 123 = 122 :=
  (by decide +kernel : ∀ t : Fin grid2.N, Pipeline.Window.flushOf grid2 true cc2_transform_5 t = true ↔ t.val % 123 = 122)

/-- and at a point that does not store the output it writes nothing back. -/
theorem noFlush2_5 (t : Fin (cfgM2 a).N) (h : ¬cond2_3 (grid2.coords t)) : ((cfgM2 a).win 5).flush t = false := by
  rw [Bool.eq_false_iff]; intro hf
  exact h ((cond2_3_iff _).mpr (by rw [coords2_1]; exact (flush2_5 a t).mp hf))

/-- The tables whole at contents `v`, table by table: what the invariant hands the body and takes back. -/
theorem PhiT2_eq (c : Dev nD) (v : pre2.Contents (Elt F)) :
    (Pipeline.prefHeld (Ix := Unit) (Name := ℕ) (U := UR sig nD τ) (Lvl := ℕ) pre2 c (fun _ => fullShare) v : sProp 𝕄)
      = iprop(tbPt2 c tbM2_0 (v 0) ∗ tbPt2 c tbM2_1 (v 1) ∗ tbPt2 c tbM2_2 (v 2) ∗ tbPt2 c tbM2_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep2_eq_accAt2 (c : Dev nD) (t : Fin (cfgM2 a).N) (d : Vec F S2000x128 .f32)
    (hd : ∀ h0 : t.val ≠ 0, d = accAt2 a V c (t.val - 1) (by omega)) :
    accStep2 a V c t d = accAt2 a V c t.val t.isLt := by
  obtain ⟨n, hn⟩ := t
  cases n with
  | zero =>
    rw [accAt2_zero]; unfold accStep2
    exact acc2_of_cond2_1 _ ((cond2_1_iff _).mpr (by rw [coords2_1]; exact Nat.zero_mod _)) _ _ _ _ _ _
  | succ n =>
    rw [accAt2_succ, hd (Nat.succ_ne_zero n)]; rfl

/-! ## What the body obligation asks of each window's buffer after the body -/

theorem leaves2_0 (c : Dev nD) (t : Fin (cfgM2 a).N) :
    (dat2 a V c).leavesExact 0 t = owns (c : Thread nD τ) (ms2_0 a t) fullShare (iblk2 a V c 0 t) := by
  rw [← after2_0 a V c t]; rfl
theorem leaves2_1 (c : Dev nD) (t : Fin (cfgM2 a).N) :
    (dat2 a V c).leavesExact 1 t = owns (c : Thread nD τ) (ms2_1 a t) fullShare (iblk2 a V c 1 t) := by
  rw [← after2_1 a V c t]; rfl
theorem leaves2_2 (c : Dev nD) (t : Fin (cfgM2 a).N) :
    (dat2 a V c).leavesExact 2 t = owns (c : Thread nD τ) (ms2_2 a t) fullShare (iblk2 a V c 2 t) := by
  rw [← after2_2 a V c t]; rfl
theorem leaves2_3 (c : Dev nD) (t : Fin (cfgM2 a).N) :
    (dat2 a V c).leavesExact 3 t = owns (c : Thread nD τ) (ms2_3 a t) fullShare (iblk2 a V c 3 t) := by
  rw [← after2_3 a V c t]; rfl
theorem leaves2_4 (c : Dev nD) (t : Fin (cfgM2 a).N) :
    (dat2 a V c).leavesExact 4 t = owns (c : Thread nD τ) (ms2_4 a t) fullShare (iblk2 a V c 4 t) := by
  rw [← after2_4 a V c t]; rfl

/-- Where the body stores the output the window is live: its buffer ends at the output block. -/
theorem leaves2_5_live (c : Dev nD) (t : Fin (cfgM2 a).N) (h3 : cond2_3 (grid2.coords t)) :
    (dat2 a V c).leavesExact 5 t = owns (c : Thread nD τ) (ms2_5 a t) fullShare (outAt2 a V c t) := by
  have hi : (Pipeline.pin (pcfgs (F := F)) a 2).idle 5 ((Pipeline.pin (pcfgs (F := F)) a 2).grid.coords t) = false := idle2_5_of a t h3
  unfold Dat.leavesExact; rw [hi]; rfl

/-- Elsewhere it is idle and not written back: its buffer is handed back as found. -/
theorem leaves2_5_idle (c : Dev nD) (t : Fin (cfgM2 a).N) (h3 : ¬cond2_3 (grid2.coords t)) :
    (dat2 a V c).leavesExact 5 t = iprop(∃ d, owns (c : Thread nD τ) (ms2_5 a t) fullShare ((dat2 a V c).before 5 t d)) :=
  Dat.leavesExact_idle (dat2 a V c) 5 t (idle2_5_of_not a t h3) (noFlush2_5 a t h3)

/-! ## The body obligation, at a generic point -/

def bodyPre2 (c : Dev nD) (t : Fin (cfgM2 a).N) : sProp 𝕄 :=
  iprop((dat2 a V c).Φ t.castSucc ∗ (dat2 a V c).owesAt () t.castSucc
    ∗ (∃ d, owns (c : Thread nD τ) (ms2_0 a t) fullShare ((dat2 a V c).before 0 t d))
    ∗ (∃ d, owns (c : Thread nD τ) (ms2_1 a t) fullShare ((dat2 a V c).before 1 t d))
    ∗ (∃ d, owns (c : Thread nD τ) (ms2_2 a t) fullShare ((dat2 a V c).before 2 t d))
    ∗ (∃ d, owns (c : Thread nD τ) (ms2_3 a t) fullShare ((dat2 a V c).before 3 t d))
    ∗ (∃ d, owns (c : Thread nD τ) (ms2_4 a t) fullShare ((dat2 a V c).before 4 t d))
    ∗ (∃ d, owns (c : Thread nD τ) (ms2_5 a t) fullShare ((dat2 a V c).before 5 t d)))

def bodyPost2 (c : Dev nD) (t : Fin (cfgM2 a).N) : sProp 𝕄 :=
  iprop((dat2 a V c).Φ t.succ ∗ (dat2 a V c).owesAt () t.succ
    ∗ (dat2 a V c).leavesExact 0 t
    ∗ (dat2 a V c).leavesExact 1 t
    ∗ (dat2 a V c).leavesExact 2 t
    ∗ (dat2 a V c).leavesExact 3 t
    ∗ (dat2 a V c).leavesExact 4 t
    ∗ (dat2 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body2 (c : Dev nD) (t : Fin (cfgM2 a).N) :
    bodyPre2 a V c t ⊢ wp frame (wpE (defs₀ (F := F)) Variants.none c none) Set.univ (bodyAt2 a t) (fun _ => bodyPost2 a V c t) := by
  unfold bodyPre2 bodyPost2 bodyAt2
  simp only [before2_0, before2_1, before2_2, before2_3, before2_4]
  rw [show (dat2 a V c).owesAt () t.succ = (dat2 a V c).owesAt () t.castSucc from rfl]
  rw [show (dat2 a V c).Φ t.succ = PhiS2 a V c (t.val + 1) t.isLt from rfl, PhiS2_castSucc]
  rw [leaves2_0, leaves2_1, leaves2_2, leaves2_3, leaves2_4]
  unfold PhiS2
  rw [PhiT2_eq]
  by_cases h3 : cond2_3 (grid2.coords t)
  · rw [leaves2_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel2_live c Set.univ (grid2.coords t) _ _ _ _ _ _ _ _ _ _ _ _ _ _ (iblk2 a V c 0 t) (iblk2 a V c 1 t) (iblk2 a V c 2 t) (iblk2 a V c 3 t) (iblk2 a V c 4 t) d ((dat2 a V c).before 5 t d5) ((a 2).1 0) ((a 2).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep2_eq_accAt2 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt2 a V c t = k2_pay3 (iblk2 a V c 2 t) (iblk2 a V c 3 t) (accStep2 a V c t d) (iblk2 a V c 4 t) from by
      unfold outAt2; rw [accStep2_eq_accAt2 a V c t d hd]]
    iexact H5
  · rw [leaves2_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel2_idle c Set.univ (grid2.coords t) _ _ _ _ _ _ _ _ _ _ _ _ _ _ (iblk2 a V c 0 t) (iblk2 a V c 1 t) (iblk2 a V c 2 t) (iblk2 a V c 3 t) (iblk2 a V c 4 t) d ((dat2 a V c).before 5 t d5) ((a 2).1 0) ((a 2).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep2_eq_accAt2 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation2 (c : Dev nD) : BodyObligation (dat2 (F := F) a V c) (defs₀ (F := F)) Variants.none () Set.univ := fun t => by
  rw [bigSep_W2, bigSep_W2]
  exact sound_body2 a V c t

/-- The accumulator's memref is its whole scoped buffer. -/
theorem owns_scM2_eq (c : Dev nD) (d : Vec F S2000x128 .f32) :
    (owns (c : Thread nD τ) scM2 fullShare d : sProp 𝕄) = ((c : Thread nD τ).loc cc2_scratch0 ↦{fullShare} d) := by
  rw [show scM2 = Memref.whole cc2_scratch0 from rfl, owns_whole]

/-- What the region's entry hands over — the generator register, the tables whole at their contents, the scoped buffers
    no window stages — is the invariant before the first point. -/
theorem hin2 (c : Dev nD) :
    iprop(iprop(∃ r, prngReg c r) ∗ Pipeline.prefHeld (Ix := Unit) (Name := ℕ) (U := UR sig nD τ) (Lvl := ℕ) pre2 c (fun _ => fullShare) (a 2).1
        ∗ Pipeline.scopedRest (Ix := Unit) (Name := ℕ) (U := UR sig nD τ) (Lvl := ℕ) (Val := Elt F) spec2 c)
      ⊢ (dat2 a V c).Φ 0 := by
  rw [show (dat2 a V c).Φ 0 = PhiS2 a V c 0 (Nat.zero_le _) from rfl]; unfold PhiS2
  rw [scopedRest2_split]
  iintro ⟨Hg, HT, ⟨%f, Hs⟩, Hrest⟩
  isplitl [Hs]
  · iexists f; isplitr; · ipureintro; intro h0; exact absurd rfl h0
    rw [show scM2 = Memref.whole cc2_scratch0 from rfl, owns_whole]; iexact Hs
  isplitl [Hrest]; · iexact Hrest
  isplitl [Hg]; · iexact Hg
  iexact HT

/-- The invariant after the last point gives them back, the accumulator's named contents forgotten. -/
theorem hout2 (c : Dev nD) :
    (dat2 a V c).Φ (Fin.last (cfgM2 a).N)
      ⊢ iprop(iprop(Pipeline.prefHeld (Ix := Unit) (Name := ℕ) (U := UR sig nD τ) (Lvl := ℕ) pre2 c (fun _ => fullShare) (a 2).1 ∗ ∃ r, prngReg c r)
          ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 a V c).Φ (Fin.last (cfgM2 a).N) = PhiS2 a V c (cfgM2 a).N (Nat.le_refl _) from rfl]; unfold PhiS2
  rw [scopedRest2_split]
  simp only [owns_scM2_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt2_in (c : Dev nD) (w : Fin (cfgM2 a).W) (hw : ((cfgM2 a).win w).isOut = false) (hne : Pipeline.arrRef spec2 w ≠ main_v125)
    (Vin : Dev nD → Valuation τ sig (Elt F)) (hV : ∀ c b, V c b = Vin c b)
    (x : (Proc.devRef .tc main_v125 : DevRef τ sig).ty.Contents (Elt F)) (n : ℕ) :
    (dat2 a V c).arrAt w n = Function.update (Vin c) main_v125 x (Pipeline.arrRef spec2 w) :=
  ((dat2 a V c).arrAt_in w hw n).trans ((A_eq2 a V c w).trans ((hV c _).trans
    (Function.update_of_ne (StableHlo.devRef_ne_of_ne hne) _ _).symm))

/-- The first five windows are inputs, and none of their arrays is the output's. -/
theorem inputs2_isIn : ∀ w : Fin 6, w.val < 5 → (spec2 w).isOut = false := by decide
theorem inputs2_ne : ∀ w : Fin 6, w.val < 5 → Pipeline.arrRef spec2 w ≠ main_v125 := by decide

/-- At the region's exit every array of the pipeline holds what the exit valuation says: the inputs as entered, the
    output's what the write-backs leave (named `X`, so that nothing unfolds the fold over the grid). -/
theorem hF2 (c : Dev nD) (Vin : Dev nD → Valuation τ sig (Elt F)) (hV : ∀ c b, V c b = Vin c b)
    (X : (Proc.devRef .tc main_v125 : DevRef τ sig).ty.Contents (Elt F)) (hX : (dat2 a V c).arrAt 5 (cfgM2 a).N = X) :
    ∀ w, (dat2 a V c).arrAt w (cfgM2 a).N
      = Function.update (Vin c) main_v125 X (Pipeline.arrRef (Pipeline.pin (pcfgs (F := F)) a 2).spec w) := by
  intro w
  by_cases hw : w.val < 5
  · exact arrAt2_in a V c w (inputs2_isIn w hw) (inputs2_ne w hw) Vin hV X _
  · have hW : w.val < 6 := w.isLt
    obtain ⟨wv, hwv⟩ := w
    obtain rfl : wv = 5 := by simp only at hw hW; omega
    exact hX.trans (Function.update_self (Proc.devRef .tc main_v125 : DevRef τ sig) X (Vin c)).symm

set_option backward.isDefEq.respectTransparency.types false in
/-- REGION 2 over the thread state: entered from every unscoped buffer at `Vin` (whose table buffers hold the tables'
    admissible contents), left with the output array at what the write-backs leave and every other buffer as entered;
    beside them the generator register at some state and the core owing nothing. -/
def reg2 (pdats : (p : Fin 13) → (c : Dev nD) → Dat τ (Elt F) Unit ℕ (UR sig nD τ) ℕ (Pipeline.pin (pcfgs (F := F)) a p) c)
    (h : ∀ c, pdats 2 c = dat2 a V c)
    (Vin : Dev nD → Valuation τ sig (Elt F)) (hV : ∀ c b, V c b = Vin c b)
    (hpf : ∀ c k, Vin c (pre2.ref k) = (a 2).1 k) :
    Pipeline.RegionSeg (pcfgs (F := F)) a pdats () (defs₀ (F := F)) Variants.none (fun _ => ∅) (fun _ _ => 0) 2 where
  win := (launch2 (F := F)).win.to₀
  block_pos := (launch2 (F := F)).block_pos
  stage_whole := (launch2 (F := F)).stage_whole
  K := PEmpty
  osem k := k.elim
  ho := Pipeline.OwnSemFacts.none _
  hbody c := by rw [h c]; exact (body_obligation2 a V c).loose
  hwaits := Pipeline.hwaits_of_owed_zero _ _ _ _ _ _ 2 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v125 ((dat2 a V c).arrAt 5 (cfgM2 a).N)) ∗ iprop((∃ r, prngReg c r) ∗ ∃ W, owes (c : Thread nD τ) (0 : CellTallies nD τ sig Unit) W))
  X c := tblX c
  Y c := tblY a 2 c
  Z c := tblZ a 2 c (Vin c)
  hentry c := tbl_hentry a pdats (launch2 (F := F)) c (Vin c)
    (fun w => by rw [h c, A_eq2]; exact hV c _)
    (by rw [h c]; exact (dat2 a V c).share_full fun _ => rfl)
    (by rw [h c]; rfl) (by rw [h c]; rfl) (hpf c)
  hin c := by rw [h c]; exact hin2 a V c
  hout c := by rw [h c]; exact hout2 a V c
  hexit c := tbl_hexit a pdats (launch2 (F := F)) c (Vin c) (Function.update (Vin c) main_v125 ((dat2 a V c).arrAt 5 (cfgM2 a).N))
    (by rw [h c]; exact (dat2 a V c).share_full fun _ => rfl)
    (by rw [h c]; exact hF2 a V c Vin hV _ rfl)
    (upd_rest a (p := 2) (Vin c) 5 _)
    (by rw [h c]; rfl) (hpf c)

end Region2

end Cert.Kernel.Hand

end
-- ==== Proof.K.Dense3.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 3, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.Kernel.Launch
import proofs.«415143_j42460046688958_3_alg».proof.Proof.Gen.Kernel.Skeleton
import proofs.«415143_j42460046688958_3_alg».proof.Proof.Gen.Kernel.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the contents of the prefetched tables of the program's other pipelines: region 3 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of x is in its staging buffer at every point: it is fetched at every point. Stated for any proof
    data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight is in its staging buffer at every point although it is fetched at the first only: its block index never
    moves, and the body leaves the buffer as it finds it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

/-! ## What the body leaves in the output block -/

/-- The output block after the body, from the two input blocks: its one store, of the product payload, over the
    whole block. -/
def out3_2 (x0 : Vec F S2000x128 .f32) (x1 : Vec F S128x128 .f32) : Vec F S2000x128 .f32 :=
  View.canon [⟨r3_0, k3_pay1 (View.ld x0 r3_0) (View.ld x1 r3_1)⟩]

/-- The one store covers the block. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The body on whole staging memrefs, the inputs' at read contents x0, x1 and the output's at anything, runs to the
    continuation holding the inputs' as they were and the output's at out3_2 x0 x1. The load of the output buffer
    before the store reads contents nothing depends on. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data on core c, over the printed configuration: the arrays as the region finds them; after the body at
    point t each input's buffer at its block and the output's at out3_2 of the two blocks; the invariant the scoped rest
    and the generator register, untouched; nothing owed; full shares. -/
def dat3c (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The same as proof data of pipeline 3 of the program's family, pinned at any contents a of the tables: pipeline 3
    prefetches nothing, and pinned it is the printed configuration again. -/
abbrev dat3 (c : Dev nD) : Dat τ (Elt F) Unit ℕ (UR sig nD τ) ℕ (Pipeline.pin (pcfgs (F := F)) a 3) c := dat3c V c

theorem A_eq3 (c : Dev nD) (w : Fin cfg3.W) : (dat3c V c).A w = V c (Pipeline.arrRef spec3 w) := by
  dsimp only [dat3c]

theorem after3_0 (c : Dev nD) (t : Fin cfg3.N) : (dat3c V c).after 0 t = iblk3 V c 0 t := by dsimp only [dat3c]
theorem after3_1 (c : Dev nD) (t : Fin cfg3.N) : (dat3c V c).after 1 t = iblk3 V c 1 t := by dsimp only [dat3c]
theorem after3_2 (c : Dev nD) (t : Fin cfg3.N) : (dat3c V c).after 2 t = out3_2 (iblk3 V c 0 t) (iblk3 V c 1 t) := by dsimp only [dat3c]

theorem before3_0 (c : Dev nD) (t : Fin cfg3.N) (d) : (dat3c V c).before 0 t d = iblk3 V c 0 t :=
  before3_0_of V (dat3c V c) (A_eq3 V c 0) (after3_0 V c) t d
theorem before3_1 (c : Dev nD) (t : Fin cfg3.N) (d) : (dat3c V c).before 1 t d = iblk3 V c 1 t :=
  before3_1_of V (dat3c V c) (A_eq3 V c 1) (after3_1 V c) t d

/-! ## The body obligation, at a generic point -/

/-- What the body is called with at point t, the windows one by one, -/
def bodyPre3 (c : Dev nD) (t : Fin cfg3.N) : sProp 𝕄 :=
  iprop((dat3c V c).Φ t.castSucc ∗ (dat3c V c).owesAt () t.castSucc
    ∗ (∃ d, owns (c : Thread nD τ) (st3_0 t) fullShare ((dat3c V c).before 0 t d))
    ∗ (∃ d, owns (c : Thread nD τ) (st3_1 t) fullShare ((dat3c V c).before 1 t d))
    ∗ (∃ d, owns (c : Thread nD τ) (st3_2 t) fullShare ((dat3c V c).before 2 t d)))

/-- and what it returns. -/
def bodyPost3 (c : Dev nD) (t : Fin cfg3.N) : sProp 𝕄 :=
  iprop((dat3c V c).Φ t.succ ∗ (dat3c V c).owesAt () t.succ
    ∗ owns (c : Thread nD τ) (st3_0 t) fullShare ((dat3c V c).after 0 t)
    ∗ owns (c : Thread nD τ) (st3_1 t) fullShare ((dat3c V c).after 1 t)
    ∗ owns (c : Thread nD τ) (st3_2 t) fullShare ((dat3c V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3c V c).Φ t.succ = (dat3c V c).Φ t.castSucc from rfl,
    show (dat3c V c).owesAt () t.succ = (dat3c V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation3c (c : Dev nD) : BodyObligation (dat3c (F := F) V c) (defs₀ (F := F)) Variants.none () Set.univ := fun t => by
  rw [bigSep_W3, bigSep_W3]
  exact sound_body3 V c t

/-- The same of the pinned pipeline's proof data. -/
theorem body_obligation3 (c : Dev nD) : BodyObligation (dat3 (F := F) a V c) (defs₀ (F := F)) Variants.none () Set.univ :=
  body_obligation3c V c

end Region3

/-! ## The exit valuation: the entry valuation with the result array replaced -/

section Exit3

variable (W : Valuation τ sig (Elt F)) (c : Dev nD) (x : Buf (Elt F) ((c : Thread nD τ).loc main_v128))

/-- The array of x is not the result array: the replacement leaves it. -/
theorem upd3_in0 : Function.update W main_v128 x (Pipeline.arrRef spec3 0 : Ref sig .tc) = W (Pipeline.arrRef spec3 0 : Ref sig .tc) :=
  Function.update_of_ne (StableHlo.devRef_ne_of_ne (show Pipeline.arrRef spec3 0 ≠ main_v128 by decide)) _ _
/-- Nor is the weight's. -/
theorem upd3_in1 : Function.update W main_v128 x (Pipeline.arrRef spec3 1 : Ref sig .tc) = W (Pipeline.arrRef spec3 1 : Ref sig .tc) :=
  Function.update_of_ne (StableHlo.devRef_ne_of_ne (show Pipeline.arrRef spec3 1 ≠ main_v128 by decide)) _ _
/-- Window 2's array is the result array. -/
theorem upd3_out : Function.update W main_v128 x (Pipeline.arrRef spec3 2 : Ref sig .tc) = x :=
  Function.update_self _ _ _
/-- A buffer that is no window's array is not the result array. -/
theorem upd3_rest (b : Ref sig .tc) (hb : b ∉ Finset.univ.image (Pipeline.arrRef spec3)) : Function.update W main_v128 x b = W b :=
  Function.update_of_ne (StableHlo.devRef_ne_of_ne fun e => hb (Finset.mem_image.mpr ⟨2, Finset.mem_univ _, e.symm⟩)) _ _

end Exit3

/-! ## The region as a segment of @main -/

-- a library lemma stated over the pinned pipeline unifies with the printed configuration only when unification may
-- unfold plain definitions in a metavariable's type
set_option backward.isDefEq.respectTransparency.types false in
set_option maxHeartbeats 2000000 in
/-- REGION 3 over the thread state, for any family of proof data whose pipeline 3 is dat3 at the entry valuation Vin:
    entered from every unscoped buffer at Vin, left at Vin with the result array main_v128 replaced by what the
    write-backs of the 50 points leave. Its arrays split out of the unscoped buffers and put back at the exit contents;
    the generator register into the invariant and out; nothing owed; no semaphore of the kernel's own. -/
def reg3 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 3 c = dat3 a (fun c b => Vin c b) c) :
    Pipeline.RegionSeg (pcfgs (F := F)) a pdats () defs₀ Variants.none (fun _ : GSem nD τ sig => (∅ : Finset Unit)) (fun (_ : GSem nD τ sig) (_ : Unit) => (0 : ℕ)) 3 where
  win := (launch3 (F := F)).win.to₀
  block_pos := (launch3 (F := F)).block_pos
  stage_whole := (launch3 (F := F)).stage_whole
  K := PEmpty
  osem k := k.elim
  ho := Pipeline.OwnSemFacts.none _
  hbody c := by rw [h c]; exact (body_obligation3 a (fun c b => Vin c b) c).loose
  hwaits := Pipeline.hwaits_of_owed_zero _ _ _ _ _ _ 3 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v128 ((dat3 a (fun c b => Vin c b) c).arrAt (2 : Fin 3) cfg3.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    have hd := h c
    rw [Pipeline.ownSems0_none]
    have hsplit := Pipeline.arrays_of_unscopedBufs (p := 3) (pcfgs (F := F)) a pdats (launch3 (F := F)).win (launch3 (F := F)).arr_whole c
      (by rw [hd]; exact (dat3 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat3 a (fun c b => Vin c b) c).Φ 0 = Pipeline.ΦA spec3 c from rfl]; unfold Pipeline.ΦA
    iintro ⟨Hp, -, Hr⟩
    isplitl [Hr]; · iexact Hr
    iexact Hp
  hout c := by
    rw [Pipeline.ownSems0_none, h c, show (dat3 a (fun c b => Vin c b) c).Φ (Fin.last _) = Pipeline.ΦA spec3 c from rfl]; unfold Pipeline.ΦA
    iintro ⟨Hr, Hp⟩
    isplitl [Hp]; · iexact Hp
    isplitr; · iempintro
    iexact Hr
  hexit c := by
    have hd := h c
    have hF : ∀ w : Fin 3, (dat3c (fun c b => Vin c b) c).arrAt w cfg3.N
        = Function.update (Vin c) main_v128 ((dat3 a (fun c b => Vin c b) c).arrAt (2 : Fin 3) cfg3.N) (Pipeline.arrRef spec3 w) := fun
      | ⟨0, _⟩ => (((dat3c (fun c b => Vin c b) c).arrAt_in 0 rfl _).trans (A_eq3 (fun c b => Vin c b) c 0)).trans (upd3_in0 (Vin c) c _).symm
      | ⟨1, _⟩ => (((dat3c (fun c b => Vin c b) c).arrAt_in 1 rfl _).trans (A_eq3 (fun c b => Vin c b) c 1)).trans (upd3_in1 (Vin c) c _).symm
      | ⟨2, _⟩ => (upd3_out (Vin c) c _).symm
    have hrest : ∀ b : Ref sig .tc, b ∉ Finset.univ.image (Pipeline.arrRef spec3)
        → Function.update (Vin c) main_v128 ((dat3 a (fun c b => Vin c b) c).arrAt (2 : Fin 3) cfg3.N) b = Vin c b :=
      fun b hb => upd3_rest (Vin c) c _ b hb
    have hjoin := Pipeline.unscopedBufs_of_arrays (p := 3) (pcfgs (F := F)) a (Ix := Unit) (Name := ℕ) (U := UR sig nD τ) (Lvl := ℕ)
      (launch3 (F := F)).win (launch3 (F := F)).arr_whole c pdats (by rw [hd]; exact (dat3 a (fun c b => Vin c b) c).share_full fun _ => rfl)
      (fun b => Vin c b) (fun b => Function.update (Vin c) main_v128 ((dat3 a (fun c b => Vin c b) c).arrAt (2 : Fin 3) cfg3.N) b)
      ((pdats 3 c).arrAt · cfg3.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.Kernel.Hand

end
-- ==== Proof.K.Gather4Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 4): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 4).1`, which are never evaluated. -/

/-! ## The pipeline at the admitted tables -/

/-- Pipeline 1 at the admitted contents of its two prefetched tables. -/
abbrev cfgG4 : Pipeline.Cfg sig Λ₀ := Pipeline.pin (pcfgs (F := F)) a 4

/-- Window `w`'s block at point `t`, read off its array as the region finds it (`V`); for the window whose index map
    reads the tables, a function of the tables' words. -/
def iblk4 (c : Dev nD) (w : Fin (cfgG4 a).W) (t : Fin (cfgG4 a).N) : (((cfgG4 a).win w).xblock ((cfgG4 a).grid.coords t)).Idx → Elt F ((cfgG4 a).win w).elt :=
  (((cfgG4 a).win w).blk t).view.read (Elt F) (V c (Pipeline.arrRef spec4 w))

/-! ## The tables as the body is handed them -/

abbrev tbM4_0 : Memref sig .tc .smem S123 .i32 := Memref.whole main_v86
abbrev htbM4_0 : tbM4_0.IsWhole := Memref.isWhole_whole _
abbrev tbM4_1 : Memref sig .tc .smem S123 .i32 := Memref.whole main_v89
abbrev htbM4_1 : tbM4_1.IsWhole := Memref.isWhole_whole _

/-- A table memref's buffer on core `c`: its contents type, and it held whole at `f`. -/
abbrev TbBuf4 (c : Dev nD) {S : Shape} {e : EltTy} (M : Memref sig .tc .smem S e) : Type := Buf (Elt F) (M.view.loc (c : Thread nD τ))
abbrev tbPt4 (c : Dev nD) {S : Shape} {e : EltTy} (M : Memref sig .tc .smem S e) (f : TbBuf4 (F := F) c M) : sProp 𝕄 :=
  M.view.loc (c : Thread nD τ) ↦{fullShare} f

/-- The word of a table the body loads at row `i 0`. -/
abbrev tword4 (c : Dev nD) (M : Memref sig .tc .smem S123 .i32) (i : grid4.Coords) (xt : TbBuf4 (F := F) c M) : Elt F .i32 :=
  M.view.readAt (Elt F) (Rect.unit (s := S123) (k4_off1 i) S1.size (k4_off1_inb i)).toLoadRect xt (Shape.Idx.first (numel1_S1.symm ▸ Nat.one_pos))

/-! ## The body's branch conditions -/

/-- `j = 0`: the accumulator is reset. -/
abbrev cond4_0 (i : grid4.Coords) : Prop := (Scalar.cmpi .ne (Scalar.extui (Scalar.cmpi .eq (BitVec.ofNat 32 (i 1).val) 0#32)) 0#32) = 1#1
theorem hcond4_0 : ∀ t : Fin grid4.N, cond4_0 (grid4.coords t) ↔ t.val % 125 = 0 := by decide +kernel
/-- `rlo[i] ≤ j ≤ rhi[i]` (signed), over the two table words: the block contributes. -/
abbrev cond4_1 (i : grid4.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond4_2 (i : grid4.Coords) : Prop := k4_cond3 i = 1#1
theorem hcond4_2 : ∀ t : Fin grid4.N, cond4_2 (grid4.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep4 (i : grid4.Coords) (x0 : Vec F S1x5120 .i32) (x1 : Vec F S800x128 .f32) (lo hi : BitVec 32) (xs : Vec F S5120x128 .f32) : Vec F S5120x128 .f32 :=
  if cond4_1 i lo hi then k4_pay2 i x0 x1 (if cond4_0 i then k4_pay1 (F := F) else xs) else (if cond4_0 i then k4_pay1 (F := F) else xs)

/-- The output window's buffer after the body: the scaled accumulator when `j = 124`, else what it held. -/
def outStep4 (i : grid4.Coords) (acc : Vec F S5120x128 .f32) (x2 : Vec F S5120x1 .f32) (xi3 : Vec F S5120x128 .f32) : Vec F S5120x128 .f32 :=
  if cond4_2 i then k4_pay3 acc x2 else xi3

/-- At a point that resets, what the scratch held before does not matter. -/
theorem accStep4_reset (i : grid4.Coords) (h : cond4_0 i) (x0 : Vec F S1x5120 .i32) (x1 : Vec F S800x128 .f32) (lo hi : BitVec 32) (xs xs' : Vec F S5120x128 .f32) :
    accStep4 i x0 x1 lo hi xs = accStep4 i x0 x1 lo hi xs' := by
  unfold accStep4; rw [if_pos h, if_pos h]

theorem outStep4_pos (i : grid4.Coords) (h : cond4_2 i) (acc : Vec F S5120x128 .f32) (x2 : Vec F S5120x1 .f32) (xi3 : Vec F S5120x128 .f32) :
    outStep4 i acc x2 xi3 = k4_pay3 acc x2 := by unfold outStep4; exact if_pos h
theorem outStep4_neg (i : grid4.Coords) (h : ¬cond4_2 i) (acc : Vec F S5120x128 .f32) (x2 : Vec F S5120x1 .f32) (xi3 : Vec F S5120x128 .f32) :
    outStep4 i acc x2 xi3 = xi3 := by unfold outStep4; exact if_neg h

/-! ## The schedule of the output window, whose index map reads no table -/

/-- The output block is written back at the last `j` of each `i`. -/
theorem flush4_3 : ∀ t : Fin (cfgG4 a).N, ((cfgG4 a).win 3).flush t = true ↔ t.val % 125 = 124 :=
  (by decide +kernel : ∀ t : Fin grid4.N, Pipeline.Window.flushOf grid4 true cc4_transform_3 t = true ↔ t.val % 125 = 124)

/-- The inputs are never idle. -/
theorem liveAt4_0 (t : Fin (cfgG4 a).N) : (cfgG4 a).idle 0 ((cfgG4 a).grid.coords t) = false := rfl
theorem liveAt4_1 (t : Fin (cfgG4 a).N) : (cfgG4 a).idle 1 ((cfgG4 a).grid.coords t) = false := rfl
theorem liveAt4_2 (t : Fin (cfgG4 a).N) : (cfgG4 a).idle 2 ((cfgG4 a).grid.coords t) = false := rfl
/-- The output is idle exactly where the body does not store it. -/
theorem idle4_3_eq (i : grid4.Coords) : (cfgG4 a).idle 3 i = !(k4_cond3 i == 1#1) := rfl
theorem idleAt4_3 (t : Fin (cfgG4 a).N) (h : ¬cond4_2 (grid4.coords t)) : (cfgG4 a).idle 3 ((cfgG4 a).grid.coords t) = true := by
  show (!(k4_cond3 (grid4.coords t) == 1#1)) = true
  rw [beq_eq_false_iff_ne.mpr h]; rfl
theorem liveAt4_3 (t : Fin (cfgG4 a).N) (h : cond4_2 (grid4.coords t)) : (cfgG4 a).idle 3 ((cfgG4 a).grid.coords t) = false := by
  show (!(k4_cond3 (grid4.coords t) == 1#1)) = false
  rw [show k4_cond3 (grid4.coords t) = 1#1 from h]; rfl
theorem noFlush4_3 (t : Fin (cfgG4 a).N) (h : ¬cond4_2 (grid4.coords t)) : ((cfgG4 a).win 3).flush t = false := by
  rw [Bool.eq_false_iff]; intro hf; exact h ((hcond4_2 t).mpr ((flush4_3 a t).mp hf))

/-! ## The memrefs the body is called with at a point -/

abbrev ms4_0 (t : Fin (cfgG4 a).N) : Memref sig .tc .vmem S1x5120 .i32 := spec4_0.stage ((cfgG4 a).slots t 0)
abbrev hs4_0 (t : Fin (cfgG4 a).N) : (ms4_0 a t).IsWhole := hstage4_0 (((cfgG4 a).slots t 0).cast nbuf4_0)
abbrev ms4_1 (t : Fin (cfgG4 a).N) : Memref sig .tc .vmem S800x128 .f32 := spec4_1.stage ((cfgG4 a).slots t 1)
abbrev hs4_1 (t : Fin (cfgG4 a).N) : (ms4_1 a t).IsWhole := hstage4_1 (((cfgG4 a).slots t 1).cast nbuf4_1)
abbrev ms4_2 (t : Fin (cfgG4 a).N) : Memref sig .tc .vmem S5120x1 .f32 := spec4_2.stage ((cfgG4 a).slots t 2)
abbrev hs4_2 (t : Fin (cfgG4 a).N) : (ms4_2 a t).IsWhole := hstage4_2 (((cfgG4 a).slots t 2).cast nbuf4_2)
abbrev ms4_3 (t : Fin (cfgG4 a).N) : Memref sig .tc .vmem S5120x128 .f32 := spec4_3.stage ((cfgG4 a).slots t 3)
abbrev hs4_3 (t : Fin (cfgG4 a).N) : (ms4_3 a t).IsWhole := hstage4_3 (((cfgG4 a).slots t 3).cast nbuf4_3)
/-- The scratch accumulator: a whole scoped buffer of the kernel's own. -/
abbrev scM4 : Memref sig .tc .vmem S5120x128 .f32 := Memref.whole cc4_scratch0

/-- The kernel body at point `t`, on what the pipeline calls it with. -/
abbrev bodyAt4 (t : Fin (cfgG4 a).N) : Prog (TpuEff nD τ sig (Elt F) Λ₀ .tc) PUnit :=
  cc4__gather_kernel (grid4.coords t) tbM4_0 htbM4_0 tbM4_1 htbM4_1 (ms4_0 a t) (hs4_0 a t) (ms4_1 a t) (hs4_1 a t) (ms4_2 a t) (hs4_2 a t) (ms4_3 a t) (hs4_3 a t) scM4 (Memref.isWhole_whole _)

/-! ## The tables' words at a point, and the accumulator point by point -/

/-- The words of the two tables at the row of point `t` (`rlo[i]`, `rhi[i]`), as the body loads them. -/
abbrev lo4 (c : Dev nD) (t : Fin (cfgG4 a).N) : BitVec 32 := tword4 c tbM4_0 (grid4.coords t) ((a 4).1 0)
abbrev hi4 (c : Dev nD) (t : Fin (cfgG4 a).N) : BitVec 32 := tword4 c tbM4_1 (grid4.coords t) ((a 4).1 1)

/-- THE ACCUMULATION. What the scratch holds after the body at position `n`, by recursion on the position: one step
    (`accStep4`: reset at `j = 0`, the gated one-hot product added) over what it held after the position before. -/
def accAt4 (c : Dev nD) : (n : ℕ) → n < (cfgG4 a).N → Vec F S5120x128 .f32
  | 0, hn => accStep4 (grid4.coords ⟨0, hn⟩) (iblk4 a V c 0 ⟨0, hn⟩) (iblk4 a V c 1 ⟨0, hn⟩) (lo4 a c ⟨0, hn⟩) (hi4 a c ⟨0, hn⟩) (k4_pay1 (F := F))
  | n + 1, hn => accStep4 (grid4.coords ⟨n + 1, hn⟩) (iblk4 a V c 0 ⟨n + 1, hn⟩) (iblk4 a V c 1 ⟨n + 1, hn⟩) (lo4 a c ⟨n + 1, hn⟩) (hi4 a c ⟨n + 1, hn⟩) (accAt4 c n (Nat.lt_of_succ_lt hn))

/-- One step at any point, over any `xs` that is what the point before left when there is one. -/
theorem accAt4_step (c : Dev nD) (t : Fin (cfgG4 a).N) (xs : Vec F S5120x128 .f32)
    (hxs : ∀ hz : t.val ≠ 0, xs = accAt4 a V c (t.val - 1) (Nat.lt_of_le_of_lt (Nat.sub_le _ _) t.isLt)) :
    accAt4 a V c t.val t.isLt = accStep4 (grid4.coords t) (iblk4 a V c 0 t) (iblk4 a V c 1 t) (lo4 a c t) (hi4 a c t) xs := by
  obtain ⟨n, hn⟩ := t
  cases n with
  | zero => exact accStep4_reset _ ((hcond4_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB4 (c : Dev nD) : sProp 𝕄 :=
  Pipeline.scopedRestBut (Ix := Unit) (Name := ℕ) (U := UR sig nD τ) (Lvl := ℕ) (Val := Elt F) spec4 c [cc4_scratch0]
/-- The two tables, whole, at the admitted contents. -/
abbrev tabs4 (c : Dev nD) : sProp 𝕄 :=
  Pipeline.prefHeld (Ix := Unit) (Name := ℕ) (U := UR sig nD τ) (Lvl := ℕ) pre4 c (fun _ => fullShare) (a 4).1

/-- The region invariant before position `n`: before the first point the scoped rest and the generator register as the
    region finds them; afterwards the scratch at what the point before left; at every point the tables whole. -/
def PhiS4 (c : Dev nD) : (n : ℕ) → n ≤ (cfgG4 a).N → sProp 𝕄
  | 0, _ => iprop(Pipeline.ΦA spec4 c ∗ tabs4 a c)
  | n + 1, hn => iprop(iprop(iprop(owns (c : Thread nD τ) scM4 fullShare (accAt4 a V c n hn) ∗ restB4 c) ∗ (∃ r, prngReg c r)) ∗ tabs4 a c)

theorem PhiS4_succ (c : Dev nD) (n : ℕ) (hn : n < (cfgG4 a).N) :
    PhiS4 a V c (n + 1) hn = iprop(iprop(iprop(owns (c : Thread nD τ) scM4 fullShare (accAt4 a V c n hn) ∗ restB4 c) ∗ (∃ r, prngReg c r)) ∗ tabs4 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS4`;
    nothing owed; full shares. -/
def dat4 (c : Dev nD) : Dat τ (Elt F) Unit ℕ (UR sig nD τ) ℕ (Pipeline.pin (pcfgs (F := F)) a 4) c where
  A w := V c (Pipeline.arrRef spec4 w)
  after w t := match w with
    | ⟨0, _⟩ => iblk4 a V c 0 t
    | ⟨1, _⟩ => iblk4 a V c 1 t
    | ⟨2, _⟩ => iblk4 a V c 2 t
    | ⟨3, _⟩ => k4_pay3 (accAt4 a V c t.val t.isLt) (iblk4 a V c 2 t)
  Φ t := PhiS4 a V c t.val (Nat.le_of_lt_succ t.isLt)
  q _ := fullShare
  owed _ := 0

theorem A_eq4 (c : Dev nD) (w : Fin (cfgG4 a).W) : (dat4 a V c).A w = V c (Pipeline.arrRef spec4 w) := by
  dsimp only [dat4]

theorem after4_0 (c : Dev nD) (t : Fin (cfgG4 a).N) : (dat4 a V c).after 0 t = iblk4 a V c 0 t := by dsimp only [dat4]; try rfl
theorem after4_1 (c : Dev nD) (t : Fin (cfgG4 a).N) : (dat4 a V c).after 1 t = iblk4 a V c 1 t := by dsimp only [dat4]; try rfl
theorem after4_2 (c : Dev nD) (t : Fin (cfgG4 a).N) : (dat4 a V c).after 2 t = iblk4 a V c 2 t := by dsimp only [dat4]; try rfl
theorem after4_3 (c : Dev nD) (t : Fin (cfgG4 a).N) :
    (dat4 a V c).after 3 t = k4_pay3 (accAt4 a V c t.val t.isLt) (iblk4 a V c 2 t) := by dsimp only [dat4]; try rfl

theorem PhiS4_castSucc (c : Dev nD) (t : Fin (cfgG4 a).N) :
    (dat4 a V c).Φ t.castSucc = PhiS4 a V c t.val (Nat.le_of_lt t.isLt) := by
  dsimp only [dat4]; simp only [Fin.coe_castSucc]

end Cert.Kernel.Hand

end
-- ==== Proof.K.Gather4Runs.lean ====
import proofs.«415143_j42460046688958_3_alg».proof.Proof.K.Gather4Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 4): its triple, control case by control case -/

/-! ## Loads and stores through the whole-buffer rectangle at zero offsets -/

theorem vec2_zero_g4 : (![0, 0] : Fin 2 → ℕ) = fun _ => 0 := by funext b; fin_cases b <;> rfl

/-- A load of a whole memref held at contents that read `X` reads `X`. -/
theorem readAt_whole_unread_g4 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g4 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g4 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g4 (i : grid4.Coords) {u u' : Vec F S1x5120 .i32} {v v' : Vec F S800x128 .f32} {s s' : Vec F S5120x128 .f32}
    (hu : u = u') (hv : v = v') (hs : s = s') : k4_pay2 i u v s = k4_pay2 i u' v' s' := by rw [hu, hv, hs]
theorem pay3_congr_g4 {s s' : Vec F S5120x128 .f32} {n n' : Vec F S5120x1 .f32}
    (hs : s = s') (hn : n = n') : k4_pay3 s n = k4_pay3 s' n' := by rw [hs, hn]

theorem accStep4_TT_g4 (i : grid4.Coords) (x0 : Vec F S1x5120 .i32) (x1 : Vec F S800x128 .f32) (lo hi : BitVec 32) (xs : Vec F S5120x128 .f32)
    (h0 : cond4_0 i) (h1 : cond4_1 i lo hi) : accStep4 i x0 x1 lo hi xs = k4_pay2 i x0 x1 (k4_pay1 (F := F)) := by
  unfold accStep4; rw [if_pos h1, if_pos h0]
theorem accStep4_TF_g4 (i : grid4.Coords) (x0 : Vec F S1x5120 .i32) (x1 : Vec F S800x128 .f32) (lo hi : BitVec 32) (xs : Vec F S5120x128 .f32)
    (h0 : cond4_0 i) (h1 : ¬cond4_1 i lo hi) : accStep4 i x0 x1 lo hi xs = (k4_pay1 (F := F) : Vec F S5120x128 .f32) := by
  unfold accStep4; rw [if_neg h1, if_pos h0]
theorem accStep4_FT_g4 (i : grid4.Coords) (x0 : Vec F S1x5120 .i32) (x1 : Vec F S800x128 .f32) (lo hi : BitVec 32) (xs : Vec F S5120x128 .f32)
    (h0 : ¬cond4_0 i) (h1 : cond4_1 i lo hi) : accStep4 i x0 x1 lo hi xs = k4_pay2 i x0 x1 xs := by
  unfold accStep4; rw [if_pos h1, if_neg h0]
theorem accStep4_FF_g4 (i : grid4.Coords) (x0 : Vec F S1x5120 .i32) (x1 : Vec F S800x128 .f32) (lo hi : BitVec 32) (xs : Vec F S5120x128 .f32)
    (h0 : ¬cond4_0 i) (h1 : ¬cond4_1 i lo hi) : accStep4 i x0 x1 lo hi xs = xs := by
  unfold accStep4; rw [if_neg h1, if_neg h0]
theorem outStep4_T_g4 (i : grid4.Coords) (acc : Vec F S5120x128 .f32) (x2 : Vec F S5120x1 .f32) (xi3 : Vec F S5120x128 .f32)
    (h2 : cond4_2 i) : outStep4 i acc x2 xi3 = k4_pay3 acc x2 := by unfold outStep4; rw [if_pos h2]
theorem outStep4_F_g4 (i : grid4.Coords) (acc : Vec F S5120x128 .f32) (x2 : Vec F S5120x1 .f32) (xi3 : Vec F S5120x128 .f32)
    (h2 : ¬cond4_2 i) : outStep4 i acc x2 xi3 = xi3 := by unfold outStep4; rw [if_neg h2]

set_option maxHeartbeats 4000000 in
/-- The body in the control case A: the accumulator reset, the table words admitting the column block, the output not stored. -/
theorem kernel4_A (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : cond4_0 i) (hc1 : cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay2 i x0 x1 (k4_pay1 (F := F))) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readCov_whole_g4 arg8 vec2_zero_g4 _ _ _))
  isplitl [HT0]; · iexact HT0
  iexact HT1

set_option maxHeartbeats 4000000 in
/-- The body in the control case B: the accumulator reset, the table words not admitting the column block, the output not stored. -/
theorem kernel4_B (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : cond4_0 i) (hc1 : ¬cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay1 (F := F) : Vec F S5120x128 .f32) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _)
  isplitl [HT0]; · iexact HT0
  iexact HT1

set_option maxHeartbeats 4000000 in
/-- The body in the control case C: the accumulator not reset, the table words admitting the column block, the output not stored. -/
theorem kernel4_C (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay2 i x0 x1 xs) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))
  isplitl [HT0]; · iexact HT0
  iexact HT1

set_option maxHeartbeats 4000000 in
/-- The body in the control case D: the accumulator not reset, the table words not admitting the column block, the output not stored. -/
theorem kernel4_D (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : ¬cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel4_E (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : cond4_1 i (tword4 c tbM4_0 i xt0) (tword4 c tbM4_1 i xt1)) (hc2 : cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare (k4_pay3 (k4_pay2 i x0 x1 xs) x2)
            ∗ owns (c : Thread nD τ) arg8 fullShare (k4_pay2 i x0 x1 xs) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g4 arg7 _ vec2_zero_g4 _ _ _).trans (pay3_congr_g4 ((readCov_whole_g4 arg8 vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))) (readAt_whole_unread_g4 arg6 harg6 x2 vec2_zero_g4 _))
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))
  isplitl [HT0]; · iexact HT0
  iexact HT1

set_option maxHeartbeats 4000000 in
/-- The body in the control case G: the accumulator not reset, the table words not admitting the column block, the output stored. -/
theorem kernel4_G (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : ¬cond4_1 i (tword4 c tbM4_0 i xt0) (tword4 c tbM4_1 i xt1)) (hc2 : cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare (k4_pay3 xs x2)
            ∗ owns (c : Thread nD τ) arg8 fullShare xs ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g4 arg7 _ vec2_zero_g4 _ _ _).trans (pay3_congr_g4 (readAt_whole_unread_g4 arg8 harg8 xs vec2_zero_g4 _) (readAt_whole_unread_g4 arg6 harg6 x2 vec2_zero_g4 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel4 (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hx : cond4_0 i → ¬cond4_2 i)
    (acc' : Vec F S5120x128 .f32) (hacc : acc' = accStep4 i x0 x1 (tword4 c tbM4_0 i xt0) (tword4 c tbM4_1 i xt1) xs)
    (out' : Vec F S5120x128 .f32) (hout : out' = outStep4 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  subst hout; subst hacc
  by_cases h0 : cond4_0 i <;> by_cases h1 : cond4_1 i (tword4 c tbM4_0 i xt0) (tword4 c tbM4_1 i xt1) <;> by_cases h2 : cond4_2 i
  · exact absurd h2 (hx h0)
  · rw [outStep4_F_g4 _ _ _ _ h2, accStep4_TT_g4 _ _ _ _ _ _ h0 h1]; exact kernel4_A c i arg4 harg4 arg5 harg5 arg6 harg6 arg7 harg7 arg8 harg8 x0 x1 x2 xi3 xt0 xt1 xs h0 h1 h2 E K
  · exact absurd h2 (hx h0)
  · rw [outStep4_F_g4 _ _ _ _ h2, accStep4_TF_g4 _ _ _ _ _ _ h0 h1]; exact kernel4_B c i arg4 harg4 arg5 harg5 arg6 harg6 arg7 harg7 arg8 harg8 x0 x1 x2 xi3 xt0 xt1 xs h0 h1 h2 E K
  · rw [outStep4_T_g4 _ _ _ _ h2, accStep4_FT_g4 _ _ _ _ _ _ h0 h1]; exact kernel4_E c i arg4 harg4 arg5 harg5 arg6 harg6 arg7 harg7 arg8 harg8 x0 x1 x2 xi3 xt0 xt1 xs h0 h1 h2 E K
  · rw [outStep4_F_g4 _ _ _ _ h2, accStep4_FT_g4 _ _ _ _ _ _ h0 h1]; exact kernel4_C c i arg4 harg4 arg5 harg5 arg6 harg6 arg7 harg7 arg8 harg8 x0 x1 x2 xi3 xt0 xt1 xs h0 h1 h2 E K
  · rw [outStep4_T_g4 _ _ _ _ h2, accStep4_FF_g4 _ _ _ _ _ _ h0 h1]; exact kernel4_G c i arg4 harg4 arg5 harg5 arg6 harg6 arg7 harg7 arg8 harg8 x0 x1 x2 xi3 xt0 xt1 xs h0 h1 h2 E K
  · rw [outStep4_F_g4 _ _ _ _ h2, accStep4_FF_g4 _ _ _ _ _ _ h0 h1]; exact kernel4_D c i arg4 harg4 arg5 harg5 arg6 harg6 arg7 harg7 arg8 harg8 x0 x1 x2 xi3 xt0 xt1 xs h0 h1 h2 E K

end Cert.Kernel.Hand

end
-- ==== Proof.K.Gather4.lean ====
import proofs.«415143_j42460046688958_3_alg».proof.Proof.K.Gather4Runs
import proofs.«415143_j42460046688958_3_alg».proof.Proof.K.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 4): the body obligation and the region as a segment of @main -/

theorem PhiA4_eq (c : Dev nD) :
    (Pipeline.ΦA spec4 c : sProp 𝕄)
      = iprop(iprop(iprop((∃ d, owns (c : Thread nD τ) scM4 fullShare d)) ∗ restB4 c) ∗ (∃ r, prngReg c r)) := by
  unfold Pipeline.ΦA; rw [scopedRest4_split]; simp only [scM4, owns_whole]; try rfl

theorem PhiT4_eq (c : Dev nD) : (tabs4 a c : sProp 𝕄) = iprop(tbPt4 c tbM4_0 ((a 4).1 0) ∗ tbPt4 c tbM4_1 ((a 4).1 1)) := by
  unfold tabs4 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS4_open (c : Dev nD) (n : ℕ) (h : n ≤ (cfgG4 a).N) :
    PhiS4 a V c n h ⊢ iprop(∃ xs, ⌜∀ hz : n ≠ 0, xs = accAt4 a V c (n - 1) (by omega)⌝ ∗ owns (c : Thread nD τ) scM4 fullShare xs ∗ restB4 c
      ∗ (∃ r, prngReg c r) ∗ tbPt4 c tbM4_0 ((a 4).1 0) ∗ tbPt4 c tbM4_1 ((a 4).1 1)) := by
  cases n with
  | zero =>
    rw [show PhiS4 a V c 0 h = iprop(Pipeline.ΦA spec4 c ∗ tabs4 a c) from rfl, PhiA4_eq, PhiT4_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS4_succ, PhiT4_eq]
    iintro ⟨⟨⟨HS, Hr⟩, Hg⟩, HT0, HT1⟩
    iexists (accAt4 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS4_out (c : Dev nD) (n : ℕ) (h : n ≤ (cfgG4 a).N) : PhiS4 a V c n h ⊢ iprop(Pipeline.ΦA spec4 c ∗ tabs4 a c) := by
  cases n with
  | zero => exact .rfl
  | succ n =>
    rw [PhiS4_succ, PhiA4_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before4_0_of {c : Dev nD} (dat : Dat τ (Elt F) Unit ℕ (UR sig nD τ) ℕ (cfgG4 a) c) (hA : dat.A 0 = V c (Pipeline.arrRef spec4 0))
    (hafter : ∀ t, dat.after 0 t = iblk4 a V c 0 t) (t : Fin (cfgG4 a).N) (d) : dat.before 0 t d = iblk4 a V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ (cfgG4 a) c) (hA : dat.A 1 = V c (Pipeline.arrRef spec4 1))
    (hafter : ∀ t, dat.after 1 t = iblk4 a V c 1 t) (t : Fin (cfgG4 a).N) (d) : dat.before 1 t d = iblk4 a V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ (cfgG4 a) c) (hA : dat.A 2 = V c (Pipeline.arrRef spec4 2))
    (hafter : ∀ t, dat.after 2 t = iblk4 a V c 2 t) (t : Fin (cfgG4 a).N) (d) : dat.before 2 t d = iblk4 a V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin (cfgG4 a).N) (d) : (dat4 a V c).before 0 t d = iblk4 a V c 0 t :=
  before4_0_of a V (dat4 a V c) (A_eq4 a V c 0) (after4_0 a V c) t d
theorem before4_1 (c : Dev nD) (t : Fin (cfgG4 a).N) (d) : (dat4 a V c).before 1 t d = iblk4 a V c 1 t :=
  before4_1_of a V (dat4 a V c) (A_eq4 a V c 1) (after4_1 a V c) t d
theorem before4_2 (c : Dev nD) (t : Fin (cfgG4 a).N) (d) : (dat4 a V c).before 2 t d = iblk4 a V c 2 t :=
  before4_2_of a V (dat4 a V c) (A_eq4 a V c 2) (after4_2 a V c) t d

/-! ## What the body leaves in each window's buffer -/

/-- At a point live for a window the obligation asks for the window's buffer at what the body leaves there. -/
theorem leavesExact_live_g4 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves4_0 (c : Dev nD) (t : Fin (cfgG4 a).N) :
    (dat4 a V c).leavesExact 0 t = owns (c : Thread nD τ) (ms4_0 a t) fullShare (iblk4 a V c 0 t) := by
  rw [leavesExact_live_g4 (dat4 a V c) 0 t (liveAt4_0 a t), after4_0]; rfl
theorem leaves4_1 (c : Dev nD) (t : Fin (cfgG4 a).N) :
    (dat4 a V c).leavesExact 1 t = owns (c : Thread nD τ) (ms4_1 a t) fullShare (iblk4 a V c 1 t) := by
  rw [leavesExact_live_g4 (dat4 a V c) 1 t (liveAt4_1 a t), after4_1]; rfl
theorem leaves4_2 (c : Dev nD) (t : Fin (cfgG4 a).N) :
    (dat4 a V c).leavesExact 2 t = owns (c : Thread nD τ) (ms4_2 a t) fullShare (iblk4 a V c 2 t) := by
  rw [leavesExact_live_g4 (dat4 a V c) 2 t (liveAt4_2 a t), after4_2]; rfl

/-- The output's buffer at one step of the output over what the body found is what the obligation asks of it: the
    scaled accumulator where the body stores it, what it found where the window is idle. -/
theorem leaves4_3_intro (c : Dev nD) (t : Fin (cfgG4 a).N) (d) :
    owns (c : Thread nD τ) (ms4_3 a t) fullShare (outStep4 (grid4.coords t) (accAt4 a V c t.val t.isLt) (iblk4 a V c 2 t) ((dat4 a V c).before 3 t d))
      ⊢ ((dat4 a V c).leavesExact 3 t : sProp 𝕄) := by
  by_cases h2 : cond4_2 (grid4.coords t)
  · rw [leavesExact_live_g4 (dat4 a V c) 3 t (liveAt4_3 a t h2), after4_3]
    exact Entails.of_eq (congrArg (owns (c : Thread nD τ) (ms4_3 a t) fullShare) (outStep4_pos _ h2 _ _ _))
  · rw [Dat.leavesExact_idle (dat4 a V c) 3 t (idleAt4_3 a t h2) (noFlush4_3 a t h2)]
    refine (Entails.of_eq (congrArg (owns (c : Thread nD τ) (ms4_3 a t) fullShare) (outStep4_neg _ h2 _ _ _))).trans ?_
    iintro H; iexists d; iexact H

/-! ## The body obligation, at a generic point -/

def bodyPre4 (c : Dev nD) (t : Fin (cfgG4 a).N) : sProp 𝕄 :=
  iprop((dat4 a V c).Φ t.castSucc ∗ (dat4 a V c).owesAt () t.castSucc
    ∗ (∃ d, owns (c : Thread nD τ) (ms4_0 a t) fullShare ((dat4 a V c).before 0 t d))
    ∗ (∃ d, owns (c : Thread nD τ) (ms4_1 a t) fullShare ((dat4 a V c).before 1 t d))
    ∗ (∃ d, owns (c : Thread nD τ) (ms4_2 a t) fullShare ((dat4 a V c).before 2 t d))
    ∗ (∃ d, owns (c : Thread nD τ) (ms4_3 a t) fullShare ((dat4 a V c).before 3 t d)))

def bodyPost4 (c : Dev nD) (t : Fin (cfgG4 a).N) : sProp 𝕄 :=
  iprop((dat4 a V c).Φ t.succ ∗ (dat4 a V c).owesAt () t.succ
    ∗ (dat4 a V c).leavesExact 0 t
    ∗ (dat4 a V c).leavesExact 1 t
    ∗ (dat4 a V c).leavesExact 2 t
    ∗ (dat4 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body4 (c : Dev nD) (t : Fin (cfgG4 a).N) :
    bodyPre4 a V c t ⊢ wp frame (wpE (defs₀ (F := F)) Variants.none c none) Set.univ (bodyAt4 a t) (fun _ => bodyPost4 a V c t) := by
  unfold bodyPre4 bodyPost4 bodyAt4
  simp only [before4_0, before4_1, before4_2]
  rw [show (dat4 a V c).owesAt () t.succ = (dat4 a V c).owesAt () t.castSucc from rfl]
  rw [show (dat4 a V c).Φ t.succ = PhiS4 a V c (t.val + 1) t.isLt from rfl, PhiS4_succ, PhiT4_eq]
  rw [leaves4_0, leaves4_1, leaves4_2, PhiS4_castSucc]
  iintro ⟨HΦ, Ho, ⟨%d0, H0⟩, ⟨%d1, H1⟩, ⟨%d2, H2⟩, ⟨%d3, H3⟩⟩
  ihave HΦ' := (PhiS4_open a V c t.val (Nat.le_of_lt t.isLt)) $$ HΦ
  icases HΦ' with ⟨%xs, %hxs, HS, Hr, Hg, HT0, HT1⟩
  iapply (kernel4 c (grid4.coords t) (ms4_0 a t) (hs4_0 a t) (ms4_1 a t) (hs4_1 a t) (ms4_2 a t) (hs4_2 a t) (ms4_3 a t) (hs4_3 a t) scM4 (Memref.isWhole_whole _)
    (iblk4 a V c 0 t) (iblk4 a V c 1 t) (iblk4 a V c 2 t) ((dat4 a V c).before 3 t d3) ((a 4).1 0) ((a 4).1 1) xs
    (fun h0 h2 => by have e0 := (hcond4_0 t).mp h0; have e2 := (hcond4_2 t).mp h2; omega)
    (accAt4 a V c t.val t.isLt) (accAt4_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves4_3_intro a V c t d3)
  iexact H3

/-- The library's body obligation, at every point. -/
theorem body_obligation4 (c : Dev nD) : BodyObligation (dat4 (F := F) a V c) (defs₀ (F := F)) Variants.none () Set.univ := fun t => by
  rw [bigSep_W4, bigSep_W4]
  exact sound_body4 a V c t

/-! ## The region as a segment of @main -/

/-- What rides beside the buffers through every segment: the generator register at some state, nothing owed. -/
abbrev R4 (c : Dev nD) : sProp 𝕄 := iprop((∃ r, prngReg c r) ∗ ∃ W, owes (c : Thread nD τ) (0 : CellTallies nD τ sig Unit) W)

theorem Phi4_in (c : Dev nD) : iprop((∃ r, prngReg c r) ∗ tabs4 a c ∗ Pipeline.scopedRest (Ix := Unit) (Name := ℕ) (U := UR sig nD τ) (Lvl := ℕ) (Val := Elt F) spec4 c) ⊢ ((dat4 a V c).Φ 0 : sProp 𝕄) := by
  rw [show (dat4 a V c).Φ 0 = iprop(Pipeline.ΦA spec4 c ∗ tabs4 a c) from rfl]; unfold Pipeline.ΦA
  iintro ⟨Hp, HT, Hr⟩
  isplitl [Hr Hp]
  · isplitl [Hr]; · iexact Hr
    iexact Hp
  iexact HT

theorem Phi4_out (c : Dev nD) : ((dat4 a V c).Φ (Fin.last (cfgG4 a).N) : sProp 𝕄)
    ⊢ iprop(iprop(tabs4 a c ∗ ∃ r, prngReg c r) ∗ BI.emp ∗ Pipeline.scopedRest (Ix := Unit) (Name := ℕ) (U := UR sig nD τ) (Lvl := ℕ) (Val := Elt F) spec4 c) := by
  rw [show (dat4 a V c).Φ (Fin.last (cfgG4 a).N) = PhiS4 a V c (cfgG4 a).N (Nat.le_refl _) from rfl]
  refine (PhiS4_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF4 (Vin : Dev nD → Valuation τ sig (Elt F)) (hV : ∀ c b, V c b = Vin c b) (c : Dev nD) : ∀ w : Fin 4,
    (dat4 a V c).arrAt w (cfgG4 a).N
      = Function.update (Vin c) main_v129 ((dat4 a V c).arrAt 3 (cfgG4 a).N) (Proc.devRef .tc (Pipeline.arrRef spec4 w))
  | 0 => ((((dat4 a V c).arrAt_in 0 rfl _).trans (A_eq4 a V c 0)).trans (hV c _)).trans
      (Function.update_of_ne (StableHlo.devRef_ne_of_ne (by decide : Pipeline.arrRef spec4 0 ≠ main_v129)) _ _).symm
  | 1 => ((((dat4 a V c).arrAt_in 1 rfl _).trans (A_eq4 a V c 1)).trans (hV c _)).trans
      (Function.update_of_ne (StableHlo.devRef_ne_of_ne (by decide : Pipeline.arrRef spec4 1 ≠ main_v129)) _ _).symm
  | 2 => ((((dat4 a V c).arrAt_in 2 rfl _).trans (A_eq4 a V c 2)).trans (hV c _)).trans
      (Function.update_of_ne (StableHlo.devRef_ne_of_ne (by decide : Pipeline.arrRef spec4 2 ≠ main_v129)) _ _).symm
  | 3 => (Function.update_self (Proc.devRef .tc main_v129) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat4` at this pipeline. -/
def reg4 (pdats : (p : Fin 13) → (c : Dev nD) → Dat τ (Elt F) Unit ℕ (UR sig nD τ) ℕ (Pipeline.pin (pcfgs (F := F)) a p) c)
    (h : ∀ c, pdats 4 c = dat4 a V c)
    (Vin : Dev nD → Valuation τ sig (Elt F)) (hV : ∀ c b, V c b = Vin c b)
    (hpf : ∀ c k, Vin c (pre4.ref k) = (a 4).1 k) :
    Pipeline.RegionSeg (pcfgs (F := F)) a pdats () defs₀ Variants.none (fun _ => (∅ : Finset Unit)) (fun _ _ => (0 : ℕ)) 4 where
  win := (launch4 (F := F)).win.to₀
  block_pos := (launch4 (F := F)).block_pos
  stage_whole := (launch4 (F := F)).stage_whole
  K := PEmpty
  osem k := k.elim
  ho := Pipeline.OwnSemFacts.none _
  hbody c := by rw [h c]; exact (body_obligation4 a V c).loose
  hwaits := Pipeline.hwaits_of_owed_zero _ _ _ _ _ _ 4 fun c t => by rw [h c]; rfl
  pre c := iprop(StableHlo.held (c : Thread nD τ) (Pipeline.ucRefs τ sig) (Vin c) ∗ R4 c)
  post c := iprop(StableHlo.held (c : Thread nD τ) (Pipeline.ucRefs τ sig)
      (Function.update (Vin c) main_v129 ((dat4 a V c).arrAt 3 (cfgG4 a).N)) ∗ R4 c)
  X c := tblX c
  Y c := tblY a 4 c
  Z c := tblZ a 4 c (Vin c)
  hentry c := tbl_hentry a pdats (launch4 (F := F)) c (Vin c) (fun w => by rw [h c]; exact (A_eq4 a V c w).trans (hV c _))
    (fun w => by rw [h c]; exact (dat4 a V c).share_full (fun _ => rfl) w) (by rw [h c]; rfl) (by rw [h c]; rfl) (hpf c)
  hin c := by rw [h c]; exact Phi4_in a V c
  hout c := by rw [Pipeline.ownSems0_none, h c]; exact Phi4_out a V c
  hexit c := tbl_hexit a pdats (launch4 (F := F)) c (Vin c) _ (fun w => by rw [h c]; exact (dat4 a V c).share_full (fun _ => rfl) w)
    (fun w => by rw [h c]; exact hF4 a V Vin hV c w) (upd_rest (p := 4) a (Vin c) 3 _) (by rw [h c]; rfl) (hpf c)

end Cert.Kernel.Hand

end
-- ==== Proof.K.Scatter5Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 5: its control conditions, the table words it reads, and what one run of the
    body leaves in the carried accumulator and in the output block, in closed form over the payloads -/

/-- The body zeroes the accumulator when the second grid coordinate is 0. -/
abbrev cond5_1 (i : grid5.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond5_2 (i : grid5.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond5_3 (i : grid5.Coords) : Prop := k5_cond3 i = 1#1

/-- The prefetched tables as the body is handed them: whole scalar-memory memrefs. -/
abbrev tbM5_0 : Memref sig .tc .smem S123 .i32 := Memref.whole main_v81
abbrev htbM5_0 : tbM5_0.IsWhole := Memref.isWhole_whole _
abbrev tbM5_1 : Memref sig .tc .smem S123 .i32 := Memref.whole main_v82
abbrev htbM5_1 : tbM5_1.IsWhole := Memref.isWhole_whole _
abbrev tbM5_2 : Memref sig .tc .smem S50 .i32 := Memref.whole main_v110
abbrev htbM5_2 : tbM5_2.IsWhole := Memref.isWhole_whole _
abbrev tbM5_3 : Memref sig .tc .smem S50 .i32 := Memref.whole main_v111
abbrev htbM5_3 : tbM5_3.IsWhole := Memref.isWhole_whole _

/-- A table memref's buffer on core `c`, and that buffer held whole at contents `f`. -/
abbrev TbBuf5 (c : Dev nD) {S : Shape} {e : EltTy} (M : Memref sig .tc .smem S e) : Type := Buf (Elt F) (M.view.loc (c : Thread nD τ))
abbrev tbPt5 (c : Dev nD) {S : Shape} {e : EltTy} (M : Memref sig .tc .smem S e) (f : TbBuf5 (F := F) c M) : sProp 𝕄 :=
  M.view.loc (c : Thread nD τ) ↦{fullShare} f

/-- The word of the first table the body compares from below, at the second grid coordinate, -/
abbrev wd5_0 (c : Dev nD) (i : grid5.Coords) (xt : TbBuf5 (F := F) c tbM5_0) : Elt F .i32 :=
  tbM5_0.view.readAt (Elt F) (Rect.unit (s := S123) (k5_off2 i) S1.size (k5_off2_inb i)).toLoadRect xt (Shape.Idx.first (numel1_S1.symm ▸ Nat.one_pos))
/-- and the word of the second table it compares from above. -/
abbrev wd5_1 (c : Dev nD) (i : grid5.Coords) (xt : TbBuf5 (F := F) c tbM5_1) : Elt F .i32 :=
  tbM5_1.view.readAt (Elt F) (Rect.unit (s := S123) (k5_off2 i) S1.size (k5_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc5 (i : grid5.Coords) (wlo whi : Elt F .i32) (x0 : Vec F S1x5120 .i32) (x1 : Vec F S5120x128 .f32)
    (xs : Vec F S2000x128 .f32) : Vec F S2000x128 .f32 :=
  if cond5_2 i wlo whi then k5_pay2 i x0 x1 (if cond5_1 i then (k5_pay1 : Vec F S2000x128 .f32) else xs)
  else (if cond5_1 i then (k5_pay1 : Vec F S2000x128 .f32) else xs)

/-- Where the accumulator is zeroed, what it held before does not matter. -/
theorem acc5_of_cond5_1 (i : grid5.Coords) (h : cond5_1 i) (wlo whi : Elt F .i32) (x0 : Vec F S1x5120 .i32) (x1 : Vec F S5120x128 .f32)
    (xs xs' : Vec F S2000x128 .f32) : acc5 i wlo whi x0 x1 xs = acc5 i wlo whi x0 x1 xs' := by
  unfold acc5; rw [if_pos h, if_pos h]

/-! # REGION 5 of @main (custom_call 5, pipeline 5) at the tables' admissible contents `a 5` and the entry contents `V` -/

section Region
variable (a : (p : Fin 13) → (pcfgs (F := F) p).Adm)
variable (V : (c : Dev nD) → (b : Ref sig .tc) → Buf (Elt F) ((c : Thread nD τ).loc b))

/-- Pipeline 5 at the tables' contents. -/
abbrev cfgM5 : Pipeline.Cfg sig Λ₀ := cfg5 (a 5)

/-- Window `w`'s block at point `t`, read off its array as the region finds it (`V`); for windows 0 and 1, whose index
    maps read the tables, a function of the tables' words. -/
def iblk5 (c : Dev nD) (w : Fin (cfgM5 a).W) (t : Fin (cfgM5 a).N) : (((cfgM5 a).win w).xblock ((cfgM5 a).grid.coords t)).Idx → Elt F ((cfgM5 a).win w).elt :=
  (((cfgM5 a).win w).blk t).view.read (Elt F) (V c (Pipeline.arrRef spec5 w))

/-! ## Each input window's current staging buffer holds its block at every point, fetched there or not -/

theorem before5_0_of {c : Dev nD} (dat : Dat τ (Elt F) Unit ℕ (UR sig nD τ) ℕ (cfgM5 a) c) (hA : dat.A 0 = V c (Pipeline.arrRef spec5 0))
    (hafter : ∀ t, dat.after 0 t = iblk5 a V c 0 t) (t : Fin (cfgM5 a).N) (d) : dat.before 0 t d = iblk5 a V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ (cfgM5 a) c) (hA : dat.A 1 = V c (Pipeline.arrRef spec5 1))
    (hafter : ∀ t, dat.after 1 t = iblk5 a V c 1 t) (t : Fin (cfgM5 a).N) (d) : dat.before 1 t d = iblk5 a V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ (cfgM5 a) c) (hA : dat.A 2 = V c (Pipeline.arrRef spec5 2))
    (hafter : ∀ t, dat.after 2 t = iblk5 a V c 2 t) (t : Fin (cfgM5 a).N) (d) : dat.before 2 t d = iblk5 a V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ (cfgM5 a) c) (hA : dat.A 3 = V c (Pipeline.arrRef spec5 3))
    (hafter : ∀ t, dat.after 3 t = iblk5 a V c 3 t) (t : Fin (cfgM5 a).N) (d) : dat.before 3 t d = iblk5 a V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ (cfgM5 a) c) (hA : dat.A 4 = V c (Pipeline.arrRef spec5 4))
    (hafter : ∀ t, dat.after 4 t = iblk5 a V c 4 t) (t : Fin (cfgM5 a).N) (d) : dat.before 4 t d = iblk5 a V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The staging memrefs at a point, the scratch, the body as the pipeline calls it -/

abbrev ms5_0 (t : Fin (cfgM5 a).N) : Memref sig .tc .vmem S1x5120 .i32 := spec5_0.stage ((cfgM5 a).slots t 0)
abbrev hs5_0 (t : Fin (cfgM5 a).N) : (ms5_0 a t).IsWhole := hstage5_0 (((cfgM5 a).slots t 0).cast nbuf5_0)
abbrev ms5_1 (t : Fin (cfgM5 a).N) : Memref sig .tc .vmem S5120x128 .f32 := spec5_1.stage ((cfgM5 a).slots t 1)
abbrev hs5_1 (t : Fin (cfgM5 a).N) : (ms5_1 a t).IsWhole := hstage5_1 (((cfgM5 a).slots t 1).cast nbuf5_1)
abbrev ms5_2 (t : Fin (cfgM5 a).N) : Memref sig .tc .vmem S2000x128 .f32 := spec5_2.stage ((cfgM5 a).slots t 2)
abbrev hs5_2 (t : Fin (cfgM5 a).N) : (ms5_2 a t).IsWhole := hstage5_2 (((cfgM5 a).slots t 2).cast nbuf5_2)
abbrev ms5_3 (t : Fin (cfgM5 a).N) : Memref sig .tc .vmem S128x128 .f32 := spec5_3.stage ((cfgM5 a).slots t 3)
abbrev hs5_3 (t : Fin (cfgM5 a).N) : (ms5_3 a t).IsWhole := hstage5_3 (((cfgM5 a).slots t 3).cast nbuf5_3)
abbrev ms5_4 (t : Fin (cfgM5 a).N) : Memref sig .tc .vmem S1x128 .f32 := spec5_4.stage ((cfgM5 a).slots t 4)
abbrev hs5_4 (t : Fin (cfgM5 a).N) : (ms5_4 a t).IsWhole := hstage5_4 (((cfgM5 a).slots t 4).cast nbuf5_4)
abbrev ms5_5 (t : Fin (cfgM5 a).N) : Memref sig .tc .vmem S2000x128 .f32 := spec5_5.stage ((cfgM5 a).slots t 5)
abbrev hs5_5 (t : Fin (cfgM5 a).N) : (ms5_5 a t).IsWhole := hstage5_5 (((cfgM5 a).slots t 5).cast nbuf5_5)
/-- The accumulator: a whole scoped buffer of the kernel's own, carried between points. -/
abbrev scM5 : Memref sig .tc .vmem S2000x128 .f32 := Memref.whole cc5_scratch0

abbrev bodyAt5 (t : Fin (cfgM5 a).N) :=
  cc5__scatter_kernel (F := F) (grid5.coords t) tbM5_0 htbM5_0 tbM5_1 htbM5_1 tbM5_2 htbM5_2 tbM5_3 htbM5_3 (ms5_0 a t) (hs5_0 a t) (ms5_1 a t) (hs5_1 a t) (ms5_2 a t) (hs5_2 a t) (ms5_3 a t) (hs5_3 a t) (ms5_4 a t) (hs5_4 a t) (ms5_5 a t) (hs5_5 a t) scM5 (Memref.isWhole_whole _)

/-! ## The accumulator point by point, and the output block -/

/-- One point's step of the accumulator: the body's closed form at the point's coordinates, table words and blocks. -/
def accStep5 (c : Dev nD) (t : Fin (cfgM5 a).N) (xs : Vec F S2000x128 .f32) : Vec F S2000x128 .f32 :=
  acc5 (grid5.coords t) (wd5_0 c (grid5.coords t) ((a 5).1 0)) (wd5_1 c (grid5.coords t) ((a 5).1 1)) (iblk5 a V c 0 t) (iblk5 a V c 1 t) xs

/-- THE ACCUMULATION: what the scratch holds after the body at position `n`, by recursion on the position (the first
    point zeroes it, so what it held before the region does not matter: stated from the zero payload). -/
def accAt5 (c : Dev nD) : (n : ℕ) → n < (cfgM5 a).N → Vec F S2000x128 .f32
  | 0, hn => accStep5 a V c ⟨0, hn⟩ (k5_pay1 : Vec F S2000x128 .f32)
  | n + 1, hn => accStep5 a V c ⟨n + 1, hn⟩ (accAt5 c n (Nat.lt_of_succ_lt hn))

theorem accAt5_zero (c : Dev nD) (hn : 0 < (cfgM5 a).N) : accAt5 a V c 0 hn = accStep5 a V c ⟨0, hn⟩ (k5_pay1 : Vec F S2000x128 .f32) := rfl
theorem accAt5_succ (c : Dev nD) (n : ℕ) (hn : n + 1 < (cfgM5 a).N) :
    accAt5 a V c (n + 1) hn = accStep5 a V c ⟨n + 1, hn⟩ (accAt5 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt5 (c : Dev nD) (t : Fin (cfgM5 a).N) : Vec F S2000x128 .f32 :=
  k5_pay3 (iblk5 a V c 2 t) (iblk5 a V c 3 t) (accAt5 a V c t.val t.isLt) (iblk5 a V c 4 t)

/-! ## The region invariant -/

/-- Before position `n`: the scratch at what the point before left (at anything before the first point), the other
    scoped buffers at anything, the generator register at some state, the prefetched tables whole at their contents. -/
def PhiS5 (c : Dev nD) (n : ℕ) (hn : n ≤ (cfgM5 a).N) : sProp 𝕄 :=
  iprop(iprop(∃ d : Vec F S2000x128 .f32, ⌜∀ h0 : n ≠ 0, d = accAt5 a V c (n - 1) (by omega)⌝ ∗ owns (c : Thread nD τ) scM5 fullShare d)
    ∗ Pipeline.scopedRestBut (Ix := Unit) (Name := ℕ) (U := UR sig nD τ) (Lvl := ℕ) (Val := Elt F) spec5 c [cc5_scratch0]
    ∗ iprop(∃ r, prngReg c r)
    ∗ Pipeline.prefHeld (Ix := Unit) (Name := ℕ) (U := UR sig nD τ) (Lvl := ℕ) pre5 c (fun _ => fullShare) (a 5).1)

/-! ## The pipeline's proof data -/

def dat5 (c : Dev nD) : Dat τ (Elt F) Unit ℕ (UR sig nD τ) ℕ (Pipeline.pin (pcfgs (F := F)) a 5) c where
  A w := V c (Pipeline.arrRef spec5 w)
  after w t := match w with
    | ⟨0, _⟩ => iblk5 a V c 0 t
    | ⟨1, _⟩ => iblk5 a V c 1 t
    | ⟨2, _⟩ => iblk5 a V c 2 t
    | ⟨3, _⟩ => iblk5 a V c 3 t
    | ⟨4, _⟩ => iblk5 a V c 4 t
    | ⟨5, _⟩ => outAt5 a V c t
  Φ t := PhiS5 a V c t.val (Nat.le_of_lt_succ t.isLt)
  q _ := fullShare
  owed _ := 0

theorem A_eq5 (c : Dev nD) (w : Fin (cfgM5 a).W) : (dat5 a V c).A w = V c (Pipeline.arrRef spec5 w) := by
  dsimp only [dat5]
theorem after5_0 (c : Dev nD) (t : Fin (cfgM5 a).N) : (dat5 a V c).after 0 t = iblk5 a V c 0 t := by dsimp only [dat5]; try rfl
theorem after5_1 (c : Dev nD) (t : Fin (cfgM5 a).N) : (dat5 a V c).after 1 t = iblk5 a V c 1 t := by dsimp only [dat5]; try rfl
theorem after5_2 (c : Dev nD) (t : Fin (cfgM5 a).N) : (dat5 a V c).after 2 t = iblk5 a V c 2 t := by dsimp only [dat5]; try rfl
theorem after5_3 (c : Dev nD) (t : Fin (cfgM5 a).N) : (dat5 a V c).after 3 t = iblk5 a V c 3 t := by dsimp only [dat5]; try rfl
theorem after5_4 (c : Dev nD) (t : Fin (cfgM5 a).N) : (dat5 a V c).after 4 t = iblk5 a V c 4 t := by dsimp only [dat5]; try rfl
theorem after5_5 (c : Dev nD) (t : Fin (cfgM5 a).N) : (dat5 a V c).after 5 t = outAt5 a V c t := by dsimp only [dat5]; try rfl
theorem before5_0 (c : Dev nD) (t : Fin (cfgM5 a).N) (d) : (dat5 a V c).before 0 t d = iblk5 a V c 0 t :=
  before5_0_of a V (dat5 a V c) (A_eq5 a V c 0) (after5_0 a V c) t d
theorem before5_1 (c : Dev nD) (t : Fin (cfgM5 a).N) (d) : (dat5 a V c).before 1 t d = iblk5 a V c 1 t :=
  before5_1_of a V (dat5 a V c) (A_eq5 a V c 1) (after5_1 a V c) t d
theorem before5_2 (c : Dev nD) (t : Fin (cfgM5 a).N) (d) : (dat5 a V c).before 2 t d = iblk5 a V c 2 t :=
  before5_2_of a V (dat5 a V c) (A_eq5 a V c 2) (after5_2 a V c) t d
theorem before5_3 (c : Dev nD) (t : Fin (cfgM5 a).N) (d) : (dat5 a V c).before 3 t d = iblk5 a V c 3 t :=
  before5_3_of a V (dat5 a V c) (A_eq5 a V c 3) (after5_3 a V c) t d
theorem before5_4 (c : Dev nD) (t : Fin (cfgM5 a).N) (d) : (dat5 a V c).before 4 t d = iblk5 a V c 4 t :=
  before5_4_of a V (dat5 a V c) (A_eq5 a V c 4) (after5_4 a V c) t d

theorem PhiS5_castSucc (c : Dev nD) (t : Fin (cfgM5 a).N) :
    (dat5 a V c).Φ t.castSucc = PhiS5 a V c t.val (Nat.le_of_lt t.isLt) := by
  dsimp only [dat5]; simp only [Fin.coe_castSucc]

/-! ## The grid's coordinates and the conditions in closed form -/

theorem stride5_0 : grid5.stride 0 = 123 := by decide
theorem stride5_1 : grid5.stride 1 = 1 := by decide
theorem coords5_0 (t : Fin grid5.N) : (grid5.coords t 0).val = t.val / 123 % 50 := by
  show t.val / grid5.stride 0 % grid5.bound 0 = _; rw [stride5_0]; rfl
theorem coords5_1 (t : Fin grid5.N) : (grid5.coords t 1).val = t.val % 123 := by
  show t.val / grid5.stride 1 % grid5.bound 1 = _; rw [stride5_1, Nat.div_one]; rfl

theorem cond5_1_iff (i : grid5.Coords) : cond5_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond5_3_iff (i : grid5.Coords) : cond5_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle5_5_of (t : Fin (cfgM5 a).N) (h : cond5_3 (grid5.coords t)) : (cfgM5 a).idle 5 (grid5.coords t) = false := by
  show (!(k5_cond3 (grid5.coords t) == 1#1)) = false
  rw [show k5_cond3 (grid5.coords t) = 1#1 from h]; rfl
theorem idle5_5_of_not (t : Fin (cfgM5 a).N) (h : ¬cond5_3 (grid5.coords t)) : (cfgM5 a).idle 5 (grid5.coords t) = true := by
  show (!(k5_cond3 (grid5.coords t) == 1#1)) = true
  rw [Bool.not_eq_true', beq_eq_false_iff_ne]; exact h

end Region

end Cert.Kernel.Hand

end
-- ==== Proof.K.Scatter5Runs.lean ====
import proofs.«415143_j42460046688958_3_alg».proof.Proof.K.Scatter5Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec5_zero5 : (![0, 0] : Fin 2 → ℕ) = fun _ => 0 := by funext b; fin_cases b <;> rfl

/-- A load of a whole memref held at contents that read `X` reads `X`. -/
theorem readAt_whole_unread5 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole5 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole5 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay5_congr5 (i : grid5.Coords) {u u' : Vec F S1x5120 .i32} {v v' : Vec F S5120x128 .f32} {s s' : Vec F S2000x128 .f32}
    (hu : u = u') (hv : v = v') (hs : s = s') : k5_pay2 i u v s = k5_pay2 i u' v' s' := by rw [hu, hv, hs]
theorem pay3_congr5 {u u' : Vec F S2000x128 .f32} {v v' : Vec F S128x128 .f32} {s s' : Vec F S2000x128 .f32} {b b' : Vec F S1x128 .f32}
    (hu : u = u') (hv : v = v') (hs : s = s') (hb : b = b') : k5_pay3 u v s b = k5_pay3 u' v' s' b' := by rw [hu, hv, hs, hb]

theorem acc5_TT (i : grid5.Coords) (wlo whi : Elt F .i32) (x0 : Vec F S1x5120 .i32) (x1 : Vec F S5120x128 .f32) (xs : Vec F S2000x128 .f32)
    (h1 : cond5_1 i) (h2 : cond5_2 i wlo whi) : acc5 i wlo whi x0 x1 xs = k5_pay2 i x0 x1 (k5_pay1 : Vec F S2000x128 .f32) := by
  unfold acc5; rw [if_pos h2, if_pos h1]
theorem acc5_TF (i : grid5.Coords) (wlo whi : Elt F .i32) (x0 : Vec F S1x5120 .i32) (x1 : Vec F S5120x128 .f32) (xs : Vec F S2000x128 .f32)
    (h1 : cond5_1 i) (h2 : ¬cond5_2 i wlo whi) : acc5 i wlo whi x0 x1 xs = (k5_pay1 : Vec F S2000x128 .f32) := by
  unfold acc5; rw [if_neg h2, if_pos h1]
theorem acc5_FT (i : grid5.Coords) (wlo whi : Elt F .i32) (x0 : Vec F S1x5120 .i32) (x1 : Vec F S5120x128 .f32) (xs : Vec F S2000x128 .f32)
    (h1 : ¬cond5_1 i) (h2 : cond5_2 i wlo whi) : acc5 i wlo whi x0 x1 xs = k5_pay2 i x0 x1 xs := by
  unfold acc5; rw [if_pos h2, if_neg h1]
theorem acc5_FF (i : grid5.Coords) (wlo whi : Elt F .i32) (x0 : Vec F S1x5120 .i32) (x1 : Vec F S5120x128 .f32) (xs : Vec F S2000x128 .f32)
    (h1 : ¬cond5_1 i) (h2 : ¬cond5_2 i wlo whi) : acc5 i wlo whi x0 x1 xs = xs := by
  unfold acc5; rw [if_neg h2, if_neg h1]

set_option maxHeartbeats 4000000 in
/-- The body in the control case A: the accumulator zeroed, the table words bracketing the row block, the output not stored. -/
theorem sound_kernel5_A (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : cond5_1 i) (hc2 : cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay2 i x0 x1 (k5_pay1 : Vec F S2000x128 .f32)) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readCov_whole5 arg12 vec5_zero5 _ _ _))
  isplitl [HT0]; · iexact HT0
  iexact HT1

set_option maxHeartbeats 4000000 in
/-- The body in the control case B: the accumulator zeroed, the table words not bracketing the row block, the output not stored. -/
theorem sound_kernel5_B (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : cond5_1 i) (hc2 : ¬cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay1 : Vec F S2000x128 .f32) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _)
  isplitl [HT0]; · iexact HT0
  iexact HT1

set_option maxHeartbeats 4000000 in
/-- The body in the control case C: the accumulator not zeroed, the table words bracketing the row block, the output not stored. -/
theorem sound_kernel5_C (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay2 i x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readAt_whole_unread5 arg12 harg12 xs vec5_zero5 _))
  isplitl [HT0]; · iexact HT0
  iexact HT1

set_option maxHeartbeats 4000000 in
/-- The body in the control case D: the accumulator not zeroed, the table words not bracketing the row block, the output not stored. -/
theorem sound_kernel5_D (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : ¬cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel5_E (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : cond5_2 i (wd5_0 c i xt0) (wd5_1 c i xt1)) (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 (k5_pay2 i x0 x1 xs) x4)
            ∗ owns (c : Thread nD τ) arg12 fullShare (k5_pay2 i x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole5 arg11 _ vec5_zero5 _ _ _).trans (pay3_congr5 (readAt_whole_unread5 arg8 harg8 x2 vec5_zero5 _) (readAt_whole_unread5 arg9 harg9 x3 vec5_zero5 _) ((readCov_whole5 arg12 vec5_zero5 _ _ _).trans (pay5_congr5 i (readAt_whole_unread5 arg6 harg6 x0 vec5_zero5 _) (readAt_whole_unread5 arg7 harg7 x1 vec5_zero5 _) (readAt_whole_unread5 arg12 harg12 xs vec5_zero5 _))) (readAt_whole_unread5 arg10 harg10 x4 vec5_zero5 _))
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readAt_whole_unread5 arg12 harg12 xs vec5_zero5 _))
  isplitl [HT0]; · iexact HT0
  iexact HT1

set_option maxHeartbeats 4000000 in
/-- The body in the control case F: the accumulator not zeroed, the table words not bracketing the row block, the output stored. -/
theorem sound_kernel5_F (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : ¬cond5_2 i (wd5_0 c i xt0) (wd5_1 c i xt1)) (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 xs x4)
            ∗ owns (c : Thread nD τ) arg12 fullShare xs ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole5 arg11 _ vec5_zero5 _ _ _).trans (pay3_congr5 (readAt_whole_unread5 arg8 harg8 x2 vec5_zero5 _) (readAt_whole_unread5 arg9 harg9 x3 vec5_zero5 _) (readAt_whole_unread5 arg12 harg12 xs vec5_zero5 _) (readAt_whole_unread5 arg10 harg10 x4 vec5_zero5 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel5_idle (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc5 i (wd5_0 c i xt0) (wd5_1 c i xt1) x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  by_cases h1 : cond5_1 i <;> by_cases h2 : cond5_2 i (wd5_0 c i xt0) (wd5_1 c i xt1)
  · rw [acc5_TT _ _ _ _ _ _ h1 h2]; exact sound_kernel5_A c E i arg6 harg6 arg7 harg7 arg8 harg8 arg9 harg9 arg10 harg10 arg11 harg11 arg12 harg12 x0 x1 x2 x3 x4 xs xo xt0 xt1 h1 h2 hc3 K
  · rw [acc5_TF _ _ _ _ _ _ h1 h2]; exact sound_kernel5_B c E i arg6 harg6 arg7 harg7 arg8 harg8 arg9 harg9 arg10 harg10 arg11 harg11 arg12 harg12 x0 x1 x2 x3 x4 xs xo xt0 xt1 h1 h2 hc3 K
  · rw [acc5_FT _ _ _ _ _ _ h1 h2]; exact sound_kernel5_C c E i arg6 harg6 arg7 harg7 arg8 harg8 arg9 harg9 arg10 harg10 arg11 harg11 arg12 harg12 x0 x1 x2 x3 x4 xs xo xt0 xt1 h1 h2 hc3 K
  · rw [acc5_FF _ _ _ _ _ _ h1 h2]; exact sound_kernel5_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel5_live (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 (acc5 i (wd5_0 c i xt0) (wd5_1 c i xt1) x0 x1 xs) x4)
            ∗ owns (c : Thread nD τ) arg12 fullShare (acc5 i (wd5_0 c i xt0) (wd5_1 c i xt1) x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  have h1 : ¬cond5_1 i := fun h => by
    have e1 := (cond5_1_iff i).mp h; have e3 := (cond5_3_iff i).mp hc3; omega
  by_cases h2 : cond5_2 i (wd5_0 c i xt0) (wd5_1 c i xt1)
  · rw [acc5_FT _ _ _ _ _ _ h1 h2]; exact sound_kernel5_E c E i arg6 harg6 arg7 harg7 arg8 harg8 arg9 harg9 arg10 harg10 arg11 harg11 arg12 harg12 x0 x1 x2 x3 x4 xs xo xt0 xt1 h1 h2 hc3 K
  · rw [acc5_FF _ _ _ _ _ _ h1 h2]; exact sound_kernel5_F c E i arg6 harg6 arg7 harg7 arg8 harg8 arg9 harg9 arg10 harg10 arg11 harg11 arg12 harg12 x0 x1 x2 x3 x4 xs xo xt0 xt1 h1 h2 hc3 K

end Cert.Kernel.Hand

end
-- ==== Proof.K.Scatter5.lean ====
import proofs.«415143_j42460046688958_3_alg».proof.Proof.K.Scatter5Runs
import proofs.«415143_j42460046688958_3_alg».proof.Proof.K.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush5_5 : ∀ t : Fin (cfgM5 a).N, ((cfgM5 a).win 5).flush t = true ↔ t.val % 123 = 122 :=
  (by decide +kernel : ∀ t : Fin grid5.N, Pipeline.Window.flushOf grid5 true cc5_transform_5 t = true ↔ t.val % 123 = 122)

/-- and at a point that does not store the output it writes nothing back. -/
theorem noFlush5_5 (t : Fin (cfgM5 a).N) (h : ¬cond5_3 (grid5.coords t)) : ((cfgM5 a).win 5).flush t = false := by
  rw [Bool.eq_false_iff]; intro hf
  exact h ((cond5_3_iff _).mpr (by rw [coords5_1]; exact (flush5_5 a t).mp hf))

/-- The tables whole at contents `v`, table by table: what the invariant hands the body and takes back. -/
theorem PhiT5_eq (c : Dev nD) (v : pre5.Contents (Elt F)) :
    (Pipeline.prefHeld (Ix := Unit) (Name := ℕ) (U := UR sig nD τ) (Lvl := ℕ) pre5 c (fun _ => fullShare) v : sProp 𝕄)
      = iprop(tbPt5 c tbM5_0 (v 0) ∗ tbPt5 c tbM5_1 (v 1) ∗ tbPt5 c tbM5_2 (v 2) ∗ tbPt5 c tbM5_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep5_eq_accAt5 (c : Dev nD) (t : Fin (cfgM5 a).N) (d : Vec F S2000x128 .f32)
    (hd : ∀ h0 : t.val ≠ 0, d = accAt5 a V c (t.val - 1) (by omega)) :
    accStep5 a V c t d = accAt5 a V c t.val t.isLt := by
  obtain ⟨n, hn⟩ := t
  cases n with
  | zero =>
    rw [accAt5_zero]; unfold accStep5
    exact acc5_of_cond5_1 _ ((cond5_1_iff _).mpr (by rw [coords5_1]; exact Nat.zero_mod _)) _ _ _ _ _ _
  | succ n =>
    rw [accAt5_succ, hd (Nat.succ_ne_zero n)]; rfl

/-! ## What the body obligation asks of each window's buffer after the body -/

theorem leaves5_0 (c : Dev nD) (t : Fin (cfgM5 a).N) :
    (dat5 a V c).leavesExact 0 t = owns (c : Thread nD τ) (ms5_0 a t) fullShare (iblk5 a V c 0 t) := by
  rw [← after5_0 a V c t]; rfl
theorem leaves5_1 (c : Dev nD) (t : Fin (cfgM5 a).N) :
    (dat5 a V c).leavesExact 1 t = owns (c : Thread nD τ) (ms5_1 a t) fullShare (iblk5 a V c 1 t) := by
  rw [← after5_1 a V c t]; rfl
theorem leaves5_2 (c : Dev nD) (t : Fin (cfgM5 a).N) :
    (dat5 a V c).leavesExact 2 t = owns (c : Thread nD τ) (ms5_2 a t) fullShare (iblk5 a V c 2 t) := by
  rw [← after5_2 a V c t]; rfl
theorem leaves5_3 (c : Dev nD) (t : Fin (cfgM5 a).N) :
    (dat5 a V c).leavesExact 3 t = owns (c : Thread nD τ) (ms5_3 a t) fullShare (iblk5 a V c 3 t) := by
  rw [← after5_3 a V c t]; rfl
theorem leaves5_4 (c : Dev nD) (t : Fin (cfgM5 a).N) :
    (dat5 a V c).leavesExact 4 t = owns (c : Thread nD τ) (ms5_4 a t) fullShare (iblk5 a V c 4 t) := by
  rw [← after5_4 a V c t]; rfl

/-- Where the body stores the output the window is live: its buffer ends at the output block. -/
theorem leaves5_5_live (c : Dev nD) (t : Fin (cfgM5 a).N) (h3 : cond5_3 (grid5.coords t)) :
    (dat5 a V c).leavesExact 5 t = owns (c : Thread nD τ) (ms5_5 a t) fullShare (outAt5 a V c t) := by
  have hi : (Pipeline.pin (pcfgs (F := F)) a 5).idle 5 ((Pipeline.pin (pcfgs (F := F)) a 5).grid.coords t) = false := idle5_5_of a t h3
  unfold Dat.leavesExact; rw [hi]; rfl

/-- Elsewhere it is idle and not written back: its buffer is handed back as found. -/
theorem leaves5_5_idle (c : Dev nD) (t : Fin (cfgM5 a).N) (h3 : ¬cond5_3 (grid5.coords t)) :
    (dat5 a V c).leavesExact 5 t = iprop(∃ d, owns (c : Thread nD τ) (ms5_5 a t) fullShare ((dat5 a V c).before 5 t d)) :=
  Dat.leavesExact_idle (dat5 a V c) 5 t (idle5_5_of_not a t h3) (noFlush5_5 a t h3)

/-! ## The body obligation, at a generic point -/

def bodyPre5 (c : Dev nD) (t : Fin (cfgM5 a).N) : sProp 𝕄 :=
  iprop((dat5 a V c).Φ t.castSucc ∗ (dat5 a V c).owesAt () t.castSucc
    ∗ (∃ d, owns (c : Thread nD τ) (ms5_0 a t) fullShare ((dat5 a V c).before 0 t d))
    ∗ (∃ d, owns (c : Thread nD τ) (ms5_1 a t) fullShare ((dat5 a V c).before 1 t d))
    ∗ (∃ d, owns (c : Thread nD τ) (ms5_2 a t) fullShare ((dat5 a V c).before 2 t d))
    ∗ (∃ d, owns (c : Thread nD τ) (ms5_3 a t) fullShare ((dat5 a V c).before 3 t d))
    ∗ (∃ d, owns (c : Thread nD τ) (ms5_4 a t) fullShare ((dat5 a V c).before 4 t d))
    ∗ (∃ d, owns (c : Thread nD τ) (ms5_5 a t) fullShare ((dat5 a V c).before 5 t d)))

def bodyPost5 (c : Dev nD) (t : Fin (cfgM5 a).N) : sProp 𝕄 :=
  iprop((dat5 a V c).Φ t.succ ∗ (dat5 a V c).owesAt () t.succ
    ∗ (dat5 a V c).leavesExact 0 t
    ∗ (dat5 a V c).leavesExact 1 t
    ∗ (dat5 a V c).leavesExact 2 t
    ∗ (dat5 a V c).leavesExact 3 t
    ∗ (dat5 a V c).leavesExact 4 t
    ∗ (dat5 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body5 (c : Dev nD) (t : Fin (cfgM5 a).N) :
    bodyPre5 a V c t ⊢ wp frame (wpE (defs₀ (F := F)) Variants.none c none) Set.univ (bodyAt5 a t) (fun _ => bodyPost5 a V c t) := by
  unfold bodyPre5 bodyPost5 bodyAt5
  simp only [before5_0, before5_1, before5_2, before5_3, before5_4]
  rw [show (dat5 a V c).owesAt () t.succ = (dat5 a V c).owesAt () t.castSucc from rfl]
  rw [show (dat5 a V c).Φ t.succ = PhiS5 a V c (t.val + 1) t.isLt from rfl, PhiS5_castSucc]
  rw [leaves5_0, leaves5_1, leaves5_2, leaves5_3, leaves5_4]
  unfold PhiS5
  rw [PhiT5_eq]
  by_cases h3 : cond5_3 (grid5.coords t)
  · rw [leaves5_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel5_live c Set.univ (grid5.coords t) _ _ _ _ _ _ _ _ _ _ _ _ _ _ (iblk5 a V c 0 t) (iblk5 a V c 1 t) (iblk5 a V c 2 t) (iblk5 a V c 3 t) (iblk5 a V c 4 t) d ((dat5 a V c).before 5 t d5) ((a 5).1 0) ((a 5).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep5_eq_accAt5 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt5 a V c t = k5_pay3 (iblk5 a V c 2 t) (iblk5 a V c 3 t) (accStep5 a V c t d) (iblk5 a V c 4 t) from by
      unfold outAt5; rw [accStep5_eq_accAt5 a V c t d hd]]
    iexact H5
  · rw [leaves5_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel5_idle c Set.univ (grid5.coords t) _ _ _ _ _ _ _ _ _ _ _ _ _ _ (iblk5 a V c 0 t) (iblk5 a V c 1 t) (iblk5 a V c 2 t) (iblk5 a V c 3 t) (iblk5 a V c 4 t) d ((dat5 a V c).before 5 t d5) ((a 5).1 0) ((a 5).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep5_eq_accAt5 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation5 (c : Dev nD) : BodyObligation (dat5 (F := F) a V c) (defs₀ (F := F)) Variants.none () Set.univ := fun t => by
  rw [bigSep_W5, bigSep_W5]
  exact sound_body5 a V c t

/-- The accumulator's memref is its whole scoped buffer. -/
theorem owns_scM5_eq (c : Dev nD) (d : Vec F S2000x128 .f32) :
    (owns (c : Thread nD τ) scM5 fullShare d : sProp 𝕄) = ((c : Thread nD τ).loc cc5_scratch0 ↦{fullShare} d) := by
  rw [show scM5 = Memref.whole cc5_scratch0 from rfl, owns_whole]

/-- What the region's entry hands over — the generator register, the tables whole at their contents, the scoped buffers
    no window stages — is the invariant before the first point. -/
theorem hin5 (c : Dev nD) :
    iprop(iprop(∃ r, prngReg c r) ∗ Pipeline.prefHeld (Ix := Unit) (Name := ℕ) (U := UR sig nD τ) (Lvl := ℕ) pre5 c (fun _ => fullShare) (a 5).1
        ∗ Pipeline.scopedRest (Ix := Unit) (Name := ℕ) (U := UR sig nD τ) (Lvl := ℕ) (Val := Elt F) spec5 c)
      ⊢ (dat5 a V c).Φ 0 := by
  rw [show (dat5 a V c).Φ 0 = PhiS5 a V c 0 (Nat.zero_le _) from rfl]; unfold PhiS5
  rw [scopedRest5_split]
  iintro ⟨Hg, HT, ⟨%f, Hs⟩, Hrest⟩
  isplitl [Hs]
  · iexists f; isplitr; · ipureintro; intro h0; exact absurd rfl h0
    rw [show scM5 = Memref.whole cc5_scratch0 from rfl, owns_whole]; iexact Hs
  isplitl [Hrest]; · iexact Hrest
  isplitl [Hg]; · iexact Hg
  iexact HT

/-- The invariant after the last point gives them back, the accumulator's named contents forgotten. -/
theorem hout5 (c : Dev nD) :
    (dat5 a V c).Φ (Fin.last (cfgM5 a).N)
      ⊢ iprop(iprop(Pipeline.prefHeld (Ix := Unit) (Name := ℕ) (U := UR sig nD τ) (Lvl := ℕ) pre5 c (fun _ => fullShare) (a 5).1 ∗ ∃ r, prngReg c r)
          ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none, show (dat5 a V c).Φ (Fin.last (cfgM5 a).N) = PhiS5 a V c (cfgM5 a).N (Nat.le_refl _) from rfl]; unfold PhiS5
  rw [scopedRest5_split]
  simp only [owns_scM5_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt5_in (c : Dev nD) (w : Fin (cfgM5 a).W) (hw : ((cfgM5 a).win w).isOut = false) (hne : Pipeline.arrRef spec5 w ≠ main_v135)
    (Vin : Dev nD → Valuation τ sig (Elt F)) (hV : ∀ c b, V c b = Vin c b)
    (x : (Proc.devRef .tc main_v135 : DevRef τ sig).ty.Contents (Elt F)) (n : ℕ) :
    (dat5 a V c).arrAt w n = Function.update (Vin c) main_v135 x (Pipeline.arrRef spec5 w) :=
  ((dat5 a V c).arrAt_in w hw n).trans ((A_eq5 a V c w).trans ((hV c _).trans
    (Function.update_of_ne (StableHlo.devRef_ne_of_ne hne) _ _).symm))

/-- The first five windows are inputs, and none of their arrays is the output's. -/
theorem inputs5_isIn : ∀ w : Fin 6, w.val < 5 → (spec5 w).isOut = false := by decide
theorem inputs5_ne : ∀ w : Fin 6, w.val < 5 → Pipeline.arrRef spec5 w ≠ main_v135 := by decide

/-- At the region's exit every array of the pipeline holds what the exit valuation says: the inputs as entered, the
    output's what the write-backs leave (named `X`, so that nothing unfolds the fold over the grid). -/
theorem hF5 (c : Dev nD) (Vin : Dev nD → Valuation τ sig (Elt F)) (hV : ∀ c b, V c b = Vin c b)
    (X : (Proc.devRef .tc main_v135 : DevRef τ sig).ty.Contents (Elt F)) (hX : (dat5 a V c).arrAt 5 (cfgM5 a).N = X) :
    ∀ w, (dat5 a V c).arrAt w (cfgM5 a).N
      = Function.update (Vin c) main_v135 X (Pipeline.arrRef (Pipeline.pin (pcfgs (F := F)) a 5).spec w) := by
  intro w
  by_cases hw : w.val < 5
  · exact arrAt5_in a V c w (inputs5_isIn w hw) (inputs5_ne w hw) Vin hV X _
  · have hW : w.val < 6 := w.isLt
    obtain ⟨wv, hwv⟩ := w
    obtain rfl : wv = 5 := by simp only at hw hW; omega
    exact hX.trans (Function.update_self (Proc.devRef .tc main_v135 : DevRef τ sig) X (Vin c)).symm

set_option backward.isDefEq.respectTransparency.types false in
/-- REGION 5 over the thread state: entered from every unscoped buffer at `Vin` (whose table buffers hold the tables'
    admissible contents), left with the output array at what the write-backs leave and every other buffer as entered;
    beside them the generator register at some state and the core owing nothing. -/
def reg5 (pdats : (p : Fin 13) → (c : Dev nD) → Dat τ (Elt F) Unit ℕ (UR sig nD τ) ℕ (Pipeline.pin (pcfgs (F := F)) a p) c)
    (h : ∀ c, pdats 5 c = dat5 a V c)
    (Vin : Dev nD → Valuation τ sig (Elt F)) (hV : ∀ c b, V c b = Vin c b)
    (hpf : ∀ c k, Vin c (pre5.ref k) = (a 5).1 k) :
    Pipeline.RegionSeg (pcfgs (F := F)) a pdats () (defs₀ (F := F)) Variants.none (fun _ => ∅) (fun _ _ => 0) 5 where
  win := (launch5 (F := F)).win.to₀
  block_pos := (launch5 (F := F)).block_pos
  stage_whole := (launch5 (F := F)).stage_whole
  K := PEmpty
  osem k := k.elim
  ho := Pipeline.OwnSemFacts.none _
  hbody c := by rw [h c]; exact (body_obligation5 a V c).loose
  hwaits := Pipeline.hwaits_of_owed_zero _ _ _ _ _ _ 5 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v135 ((dat5 a V c).arrAt 5 (cfgM5 a).N)) ∗ iprop((∃ r, prngReg c r) ∗ ∃ W, owes (c : Thread nD τ) (0 : CellTallies nD τ sig Unit) W))
  X c := tblX c
  Y c := tblY a 5 c
  Z c := tblZ a 5 c (Vin c)
  hentry c := tbl_hentry a pdats (launch5 (F := F)) c (Vin c)
    (fun w => by rw [h c, A_eq5]; exact hV c _)
    (by rw [h c]; exact (dat5 a V c).share_full fun _ => rfl)
    (by rw [h c]; rfl) (by rw [h c]; rfl) (hpf c)
  hin c := by rw [h c]; exact hin5 a V c
  hout c := by rw [h c]; exact hout5 a V c
  hexit c := tbl_hexit a pdats (launch5 (F := F)) c (Vin c) (Function.update (Vin c) main_v135 ((dat5 a V c).arrAt 5 (cfgM5 a).N))
    (by rw [h c]; exact (dat5 a V c).share_full fun _ => rfl)
    (by rw [h c]; exact hF5 a V c Vin hV _ rfl)
    (upd_rest a (p := 5) (Vin c) 5 _)
    (by rw [h c]; rfl) (hpf c)

end Region5

end Cert.Kernel.Hand

end
-- ==== Proof.K.Dense6.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 6, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.Kernel.Launch
import proofs.«415143_j42460046688958_3_alg».proof.Proof.Gen.Kernel.Skeleton
import proofs.«415143_j42460046688958_3_alg».proof.Proof.Gen.Kernel.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

-- the contents of the prefetched tables of the program's other pipelines: region 6 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block of x is in its staging buffer at every point: it is fetched at every point. Stated for any proof
    data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weight is in its staging buffer at every point although it is fetched at the first only: its block index never
    moves, and the body leaves the buffer as it finds it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-! ## What the body leaves in the output block -/

/-- The output block after the body, from the two input blocks: its one store, of the product payload, over the
    whole block. -/
def out6_2 (x0 : Vec F S2000x128 .f32) (x1 : Vec F S128x128 .f32) : Vec F S2000x128 .f32 :=
  View.canon [⟨r6_0, k6_pay1 (View.ld x0 r6_0) (View.ld x1 r6_1)⟩]

/-- The one store covers the block. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The body on whole staging memrefs, the inputs' at read contents x0, x1 and the output's at anything, runs to the
    continuation holding the inputs' as they were and the output's at out6_2 x0 x1. The load of the output buffer
    before the store reads contents nothing depends on. -/
theorem sound_kernel6 (c : Dev nD) (E : Set ℕ) (i : grid6.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data on core c, over the printed configuration: the arrays as the region finds them; after the body at
    point t each input's buffer at its block and the output's at out6_2 of the two blocks; the invariant the scoped rest
    and the generator register, untouched; nothing owed; full shares. -/
def dat6c (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The same as proof data of pipeline 6 of the program's family, pinned at any contents a of the tables: pipeline 6
    prefetches nothing, and pinned it is the printed configuration again. -/
abbrev dat6 (c : Dev nD) : Dat τ (Elt F) Unit ℕ (UR sig nD τ) ℕ (Pipeline.pin (pcfgs (F := F)) a 6) c := dat6c V c

theorem A_eq6 (c : Dev nD) (w : Fin cfg6.W) : (dat6c V c).A w = V c (Pipeline.arrRef spec6 w) := by
  dsimp only [dat6c]

theorem after6_0 (c : Dev nD) (t : Fin cfg6.N) : (dat6c V c).after 0 t = iblk6 V c 0 t := by dsimp only [dat6c]
theorem after6_1 (c : Dev nD) (t : Fin cfg6.N) : (dat6c V c).after 1 t = iblk6 V c 1 t := by dsimp only [dat6c]
theorem after6_2 (c : Dev nD) (t : Fin cfg6.N) : (dat6c V c).after 2 t = out6_2 (iblk6 V c 0 t) (iblk6 V c 1 t) := by dsimp only [dat6c]

theorem before6_0 (c : Dev nD) (t : Fin cfg6.N) (d) : (dat6c V c).before 0 t d = iblk6 V c 0 t :=
  before6_0_of V (dat6c V c) (A_eq6 V c 0) (after6_0 V c) t d
theorem before6_1 (c : Dev nD) (t : Fin cfg6.N) (d) : (dat6c V c).before 1 t d = iblk6 V c 1 t :=
  before6_1_of V (dat6c V c) (A_eq6 V c 1) (after6_1 V c) t d

/-! ## The body obligation, at a generic point -/

/-- What the body is called with at point t, the windows one by one, -/
def bodyPre6 (c : Dev nD) (t : Fin cfg6.N) : sProp 𝕄 :=
  iprop((dat6c V c).Φ t.castSucc ∗ (dat6c V c).owesAt () t.castSucc
    ∗ (∃ d, owns (c : Thread nD τ) (st6_0 t) fullShare ((dat6c V c).before 0 t d))
    ∗ (∃ d, owns (c : Thread nD τ) (st6_1 t) fullShare ((dat6c V c).before 1 t d))
    ∗ (∃ d, owns (c : Thread nD τ) (st6_2 t) fullShare ((dat6c V c).before 2 t d)))

/-- and what it returns. -/
def bodyPost6 (c : Dev nD) (t : Fin cfg6.N) : sProp 𝕄 :=
  iprop((dat6c V c).Φ t.succ ∗ (dat6c V c).owesAt () t.succ
    ∗ owns (c : Thread nD τ) (st6_0 t) fullShare ((dat6c V c).after 0 t)
    ∗ owns (c : Thread nD τ) (st6_1 t) fullShare ((dat6c V c).after 1 t)
    ∗ owns (c : Thread nD τ) (st6_2 t) fullShare ((dat6c V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6c V c).Φ t.succ = (dat6c V c).Φ t.castSucc from rfl,
    show (dat6c V c).owesAt () t.succ = (dat6c V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation6c (c : Dev nD) : BodyObligation (dat6c (F := F) V c) (defs₀ (F := F)) Variants.none () Set.univ := fun t => by
  rw [bigSep_W6, bigSep_W6]
  exact sound_body6 V c t

/-- The same of the pinned pipeline's proof data. -/
theorem body_obligation6 (c : Dev nD) : BodyObligation (dat6 (F := F) a V c) (defs₀ (F := F)) Variants.none () Set.univ :=
  body_obligation6c V c

end Region6

/-! ## The exit valuation: the entry valuation with the result array replaced -/

section Exit6

variable (W : Valuation τ sig (Elt F)) (c : Dev nD) (x : Buf (Elt F) ((c : Thread nD τ).loc main_v138))

/-- The array of x is not the result array: the replacement leaves it. -/
theorem upd6_in0 : Function.update W main_v138 x (Pipeline.arrRef spec6 0 : Ref sig .tc) = W (Pipeline.arrRef spec6 0 : Ref sig .tc) :=
  Function.update_of_ne (StableHlo.devRef_ne_of_ne (show Pipeline.arrRef spec6 0 ≠ main_v138 by decide)) _ _
/-- Nor is the weight's. -/
theorem upd6_in1 : Function.update W main_v138 x (Pipeline.arrRef spec6 1 : Ref sig .tc) = W (Pipeline.arrRef spec6 1 : Ref sig .tc) :=
  Function.update_of_ne (StableHlo.devRef_ne_of_ne (show Pipeline.arrRef spec6 1 ≠ main_v138 by decide)) _ _
/-- Window 2's array is the result array. -/
theorem upd6_out : Function.update W main_v138 x (Pipeline.arrRef spec6 2 : Ref sig .tc) = x :=
  Function.update_self _ _ _
/-- A buffer that is no window's array is not the result array. -/
theorem upd6_rest (b : Ref sig .tc) (hb : b ∉ Finset.univ.image (Pipeline.arrRef spec6)) : Function.update W main_v138 x b = W b :=
  Function.update_of_ne (StableHlo.devRef_ne_of_ne fun e => hb (Finset.mem_image.mpr ⟨2, Finset.mem_univ _, e.symm⟩)) _ _

end Exit6

/-! ## The region as a segment of @main -/

-- a library lemma stated over the pinned pipeline unifies with the printed configuration only when unification may
-- unfold plain definitions in a metavariable's type
set_option backward.isDefEq.respectTransparency.types false in
set_option maxHeartbeats 2000000 in
/-- REGION 6 over the thread state, for any family of proof data whose pipeline 6 is dat6 at the entry valuation Vin:
    entered from every unscoped buffer at Vin, left at Vin with the result array main_v138 replaced by what the
    write-backs of the 50 points leave. Its arrays split out of the unscoped buffers and put back at the exit contents;
    the generator register into the invariant and out; nothing owed; no semaphore of the kernel's own. -/
def reg6 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 6 c = dat6 a (fun c b => Vin c b) c) :
    Pipeline.RegionSeg (pcfgs (F := F)) a pdats () defs₀ Variants.none (fun _ : GSem nD τ sig => (∅ : Finset Unit)) (fun (_ : GSem nD τ sig) (_ : Unit) => (0 : ℕ)) 6 where
  win := (launch6 (F := F)).win.to₀
  block_pos := (launch6 (F := F)).block_pos
  stage_whole := (launch6 (F := F)).stage_whole
  K := PEmpty
  osem k := k.elim
  ho := Pipeline.OwnSemFacts.none _
  hbody c := by rw [h c]; exact (body_obligation6 a (fun c b => Vin c b) c).loose
  hwaits := Pipeline.hwaits_of_owed_zero _ _ _ _ _ _ 6 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v138 ((dat6 a (fun c b => Vin c b) c).arrAt (2 : Fin 3) cfg6.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (fun b => Vin c b)
  hentry c := by
    have hd := h c
    rw [Pipeline.ownSems0_none]
    have hsplit := Pipeline.arrays_of_unscopedBufs (p := 6) (pcfgs (F := F)) a pdats (launch6 (F := F)).win (launch6 (F := F)).arr_whole c
      (by rw [hd]; exact (dat6 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat6 a (fun c b => Vin c b) c).Φ 0 = Pipeline.ΦA spec6 c from rfl]; unfold Pipeline.ΦA
    iintro ⟨Hp, -, Hr⟩
    isplitl [Hr]; · iexact Hr
    iexact Hp
  hout c := by
    rw [Pipeline.ownSems0_none, h c, show (dat6 a (fun c b => Vin c b) c).Φ (Fin.last _) = Pipeline.ΦA spec6 c from rfl]; unfold Pipeline.ΦA
    iintro ⟨Hr, Hp⟩
    isplitl [Hp]; · iexact Hp
    isplitr; · iempintro
    iexact Hr
  hexit c := by
    have hd := h c
    have hF : ∀ w : Fin 3, (dat6c (fun c b => Vin c b) c).arrAt w cfg6.N
        = Function.update (Vin c) main_v138 ((dat6 a (fun c b => Vin c b) c).arrAt (2 : Fin 3) cfg6.N) (Pipeline.arrRef spec6 w) := fun
      | ⟨0, _⟩ => (((dat6c (fun c b => Vin c b) c).arrAt_in 0 rfl _).trans (A_eq6 (fun c b => Vin c b) c 0)).trans (upd6_in0 (Vin c) c _).symm
      | ⟨1, _⟩ => (((dat6c (fun c b => Vin c b) c).arrAt_in 1 rfl _).trans (A_eq6 (fun c b => Vin c b) c 1)).trans (upd6_in1 (Vin c) c _).symm
      | ⟨2, _⟩ => (upd6_out (Vin c) c _).symm
    have hrest : ∀ b : Ref sig .tc, b ∉ Finset.univ.image (Pipeline.arrRef spec6)
        → Function.update (Vin c) main_v138 ((dat6 a (fun c b => Vin c b) c).arrAt (2 : Fin 3) cfg6.N) b = Vin c b :=
      fun b hb => upd6_rest (Vin c) c _ b hb
    have hjoin := Pipeline.unscopedBufs_of_arrays (p := 6) (pcfgs (F := F)) a (Ix := Unit) (Name := ℕ) (U := UR sig nD τ) (Lvl := ℕ)
      (launch6 (F := F)).win (launch6 (F := F)).arr_whole c pdats (by rw [hd]; exact (dat6 a (fun c b => Vin c b) c).share_full fun _ => rfl)
      (fun b => Vin c b) (fun b => Function.update (Vin c) main_v138 ((dat6 a (fun c b => Vin c b) c).arrAt (2 : Fin 3) cfg6.N) b)
      ((pdats 6 c).arrAt · cfg6.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.Kernel.Hand

end
-- ==== Proof.K.Gather7Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 7): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 7).1`, which are never evaluated. -/

/-! ## The pipeline at the admitted tables -/

/-- Pipeline 1 at the admitted contents of its two prefetched tables. -/
abbrev cfgG7 : Pipeline.Cfg sig Λ₀ := Pipeline.pin (pcfgs (F := F)) a 7

/-- Window `w`'s block at point `t`, read off its array as the region finds it (`V`); for the window whose index map
    reads the tables, a function of the tables' words. -/
def iblk7 (c : Dev nD) (w : Fin (cfgG7 a).W) (t : Fin (cfgG7 a).N) : (((cfgG7 a).win w).xblock ((cfgG7 a).grid.coords t)).Idx → Elt F ((cfgG7 a).win w).elt :=
  (((cfgG7 a).win w).blk t).view.read (Elt F) (V c (Pipeline.arrRef spec7 w))

/-! ## The tables as the body is handed them -/

abbrev tbM7_0 : Memref sig .tc .smem S123 .i32 := Memref.whole main_v86
abbrev htbM7_0 : tbM7_0.IsWhole := Memref.isWhole_whole _
abbrev tbM7_1 : Memref sig .tc .smem S123 .i32 := Memref.whole main_v89
abbrev htbM7_1 : tbM7_1.IsWhole := Memref.isWhole_whole _

/-- A table memref's buffer on core `c`: its contents type, and it held whole at `f`. -/
abbrev TbBuf7 (c : Dev nD) {S : Shape} {e : EltTy} (M : Memref sig .tc .smem S e) : Type := Buf (Elt F) (M.view.loc (c : Thread nD τ))
abbrev tbPt7 (c : Dev nD) {S : Shape} {e : EltTy} (M : Memref sig .tc .smem S e) (f : TbBuf7 (F := F) c M) : sProp 𝕄 :=
  M.view.loc (c : Thread nD τ) ↦{fullShare} f

/-- The word of a table the body loads at row `i 0`. -/
abbrev tword7 (c : Dev nD) (M : Memref sig .tc .smem S123 .i32) (i : grid7.Coords) (xt : TbBuf7 (F := F) c M) : Elt F .i32 :=
  M.view.readAt (Elt F) (Rect.unit (s := S123) (k7_off1 i) S1.size (k7_off1_inb i)).toLoadRect xt (Shape.Idx.first (numel1_S1.symm ▸ Nat.one_pos))

/-! ## The body's branch conditions -/

/-- `j = 0`: the accumulator is reset. -/
abbrev cond7_0 (i : grid7.Coords) : Prop := (Scalar.cmpi .ne (Scalar.extui (Scalar.cmpi .eq (BitVec.ofNat 32 (i 1).val) 0#32)) 0#32) = 1#1
theorem hcond7_0 : ∀ t : Fin grid7.N, cond7_0 (grid7.coords t) ↔ t.val % 125 = 0 := by decide +kernel
/-- `rlo[i] ≤ j ≤ rhi[i]` (signed), over the two table words: the block contributes. -/
abbrev cond7_1 (i : grid7.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond7_2 (i : grid7.Coords) : Prop := k7_cond3 i = 1#1
theorem hcond7_2 : ∀ t : Fin grid7.N, cond7_2 (grid7.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep7 (i : grid7.Coords) (x0 : Vec F S1x5120 .i32) (x1 : Vec F S800x128 .f32) (lo hi : BitVec 32) (xs : Vec F S5120x128 .f32) : Vec F S5120x128 .f32 :=
  if cond7_1 i lo hi then k7_pay2 i x0 x1 (if cond7_0 i then k7_pay1 (F := F) else xs) else (if cond7_0 i then k7_pay1 (F := F) else xs)

/-- The output window's buffer after the body: the scaled accumulator when `j = 124`, else what it held. -/
def outStep7 (i : grid7.Coords) (acc : Vec F S5120x128 .f32) (x2 : Vec F S5120x1 .f32) (xi3 : Vec F S5120x128 .f32) : Vec F S5120x128 .f32 :=
  if cond7_2 i then k7_pay3 acc x2 else xi3

/-- At a point that resets, what the scratch held before does not matter. -/
theorem accStep7_reset (i : grid7.Coords) (h : cond7_0 i) (x0 : Vec F S1x5120 .i32) (x1 : Vec F S800x128 .f32) (lo hi : BitVec 32) (xs xs' : Vec F S5120x128 .f32) :
    accStep7 i x0 x1 lo hi xs = accStep7 i x0 x1 lo hi xs' := by
  unfold accStep7; rw [if_pos h, if_pos h]

theorem outStep7_pos (i : grid7.Coords) (h : cond7_2 i) (acc : Vec F S5120x128 .f32) (x2 : Vec F S5120x1 .f32) (xi3 : Vec F S5120x128 .f32) :
    outStep7 i acc x2 xi3 = k7_pay3 acc x2 := by unfold outStep7; exact if_pos h
theorem outStep7_neg (i : grid7.Coords) (h : ¬cond7_2 i) (acc : Vec F S5120x128 .f32) (x2 : Vec F S5120x1 .f32) (xi3 : Vec F S5120x128 .f32) :
    outStep7 i acc x2 xi3 = xi3 := by unfold outStep7; exact if_neg h

/-! ## The schedule of the output window, whose index map reads no table -/

/-- The output block is written back at the last `j` of each `i`. -/
theorem flush7_3 : ∀ t : Fin (cfgG7 a).N, ((cfgG7 a).win 3).flush t = true ↔ t.val % 125 = 124 :=
  (by decide +kernel : ∀ t : Fin grid7.N, Pipeline.Window.flushOf grid7 true cc7_transform_3 t = true ↔ t.val % 125 = 124)

/-- The inputs are never idle. -/
theorem liveAt7_0 (t : Fin (cfgG7 a).N) : (cfgG7 a).idle 0 ((cfgG7 a).grid.coords t) = false := rfl
theorem liveAt7_1 (t : Fin (cfgG7 a).N) : (cfgG7 a).idle 1 ((cfgG7 a).grid.coords t) = false := rfl
theorem liveAt7_2 (t : Fin (cfgG7 a).N) : (cfgG7 a).idle 2 ((cfgG7 a).grid.coords t) = false := rfl
/-- The output is idle exactly where the body does not store it. -/
theorem idle7_3_eq (i : grid7.Coords) : (cfgG7 a).idle 3 i = !(k7_cond3 i == 1#1) := rfl
theorem idleAt7_3 (t : Fin (cfgG7 a).N) (h : ¬cond7_2 (grid7.coords t)) : (cfgG7 a).idle 3 ((cfgG7 a).grid.coords t) = true := by
  show (!(k7_cond3 (grid7.coords t) == 1#1)) = true
  rw [beq_eq_false_iff_ne.mpr h]; rfl
theorem liveAt7_3 (t : Fin (cfgG7 a).N) (h : cond7_2 (grid7.coords t)) : (cfgG7 a).idle 3 ((cfgG7 a).grid.coords t) = false := by
  show (!(k7_cond3 (grid7.coords t) == 1#1)) = false
  rw [show k7_cond3 (grid7.coords t) = 1#1 from h]; rfl
theorem noFlush7_3 (t : Fin (cfgG7 a).N) (h : ¬cond7_2 (grid7.coords t)) : ((cfgG7 a).win 3).flush t = false := by
  rw [Bool.eq_false_iff]; intro hf; exact h ((hcond7_2 t).mpr ((flush7_3 a t).mp hf))

/-! ## The memrefs the body is called with at a point -/

abbrev ms7_0 (t : Fin (cfgG7 a).N) : Memref sig .tc .vmem S1x5120 .i32 := spec7_0.stage ((cfgG7 a).slots t 0)
abbrev hs7_0 (t : Fin (cfgG7 a).N) : (ms7_0 a t).IsWhole := hstage7_0 (((cfgG7 a).slots t 0).cast nbuf7_0)
abbrev ms7_1 (t : Fin (cfgG7 a).N) : Memref sig .tc .vmem S800x128 .f32 := spec7_1.stage ((cfgG7 a).slots t 1)
abbrev hs7_1 (t : Fin (cfgG7 a).N) : (ms7_1 a t).IsWhole := hstage7_1 (((cfgG7 a).slots t 1).cast nbuf7_1)
abbrev ms7_2 (t : Fin (cfgG7 a).N) : Memref sig .tc .vmem S5120x1 .f32 := spec7_2.stage ((cfgG7 a).slots t 2)
abbrev hs7_2 (t : Fin (cfgG7 a).N) : (ms7_2 a t).IsWhole := hstage7_2 (((cfgG7 a).slots t 2).cast nbuf7_2)
abbrev ms7_3 (t : Fin (cfgG7 a).N) : Memref sig .tc .vmem S5120x128 .f32 := spec7_3.stage ((cfgG7 a).slots t 3)
abbrev hs7_3 (t : Fin (cfgG7 a).N) : (ms7_3 a t).IsWhole := hstage7_3 (((cfgG7 a).slots t 3).cast nbuf7_3)
/-- The scratch accumulator: a whole scoped buffer of the kernel's own. -/
abbrev scM7 : Memref sig .tc .vmem S5120x128 .f32 := Memref.whole cc7_scratch0

/-- The kernel body at point `t`, on what the pipeline calls it with. -/
abbrev bodyAt7 (t : Fin (cfgG7 a).N) : Prog (TpuEff nD τ sig (Elt F) Λ₀ .tc) PUnit :=
  cc7__gather_kernel (grid7.coords t) tbM7_0 htbM7_0 tbM7_1 htbM7_1 (ms7_0 a t) (hs7_0 a t) (ms7_1 a t) (hs7_1 a t) (ms7_2 a t) (hs7_2 a t) (ms7_3 a t) (hs7_3 a t) scM7 (Memref.isWhole_whole _)

/-! ## The tables' words at a point, and the accumulator point by point -/

/-- The words of the two tables at the row of point `t` (`rlo[i]`, `rhi[i]`), as the body loads them. -/
abbrev lo7 (c : Dev nD) (t : Fin (cfgG7 a).N) : BitVec 32 := tword7 c tbM7_0 (grid7.coords t) ((a 7).1 0)
abbrev hi7 (c : Dev nD) (t : Fin (cfgG7 a).N) : BitVec 32 := tword7 c tbM7_1 (grid7.coords t) ((a 7).1 1)

/-- THE ACCUMULATION. What the scratch holds after the body at position `n`, by recursion on the position: one step
    (`accStep7`: reset at `j = 0`, the gated one-hot product added) over what it held after the position before. -/
def accAt7 (c : Dev nD) : (n : ℕ) → n < (cfgG7 a).N → Vec F S5120x128 .f32
  | 0, hn => accStep7 (grid7.coords ⟨0, hn⟩) (iblk7 a V c 0 ⟨0, hn⟩) (iblk7 a V c 1 ⟨0, hn⟩) (lo7 a c ⟨0, hn⟩) (hi7 a c ⟨0, hn⟩) (k7_pay1 (F := F))
  | n + 1, hn => accStep7 (grid7.coords ⟨n + 1, hn⟩) (iblk7 a V c 0 ⟨n + 1, hn⟩) (iblk7 a V c 1 ⟨n + 1, hn⟩) (lo7 a c ⟨n + 1, hn⟩) (hi7 a c ⟨n + 1, hn⟩) (accAt7 c n (Nat.lt_of_succ_lt hn))

/-- One step at any point, over any `xs` that is what the point before left when there is one. -/
theorem accAt7_step (c : Dev nD) (t : Fin (cfgG7 a).N) (xs : Vec F S5120x128 .f32)
    (hxs : ∀ hz : t.val ≠ 0, xs = accAt7 a V c (t.val - 1) (Nat.lt_of_le_of_lt (Nat.sub_le _ _) t.isLt)) :
    accAt7 a V c t.val t.isLt = accStep7 (grid7.coords t) (iblk7 a V c 0 t) (iblk7 a V c 1 t) (lo7 a c t) (hi7 a c t) xs := by
  obtain ⟨n, hn⟩ := t
  cases n with
  | zero => exact accStep7_reset _ ((hcond7_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB7 (c : Dev nD) : sProp 𝕄 :=
  Pipeline.scopedRestBut (Ix := Unit) (Name := ℕ) (U := UR sig nD τ) (Lvl := ℕ) (Val := Elt F) spec7 c [cc7_scratch0]
/-- The two tables, whole, at the admitted contents. -/
abbrev tabs7 (c : Dev nD) : sProp 𝕄 :=
  Pipeline.prefHeld (Ix := Unit) (Name := ℕ) (U := UR sig nD τ) (Lvl := ℕ) pre7 c (fun _ => fullShare) (a 7).1

/-- The region invariant before position `n`: before the first point the scoped rest and the generator register as the
    region finds them; afterwards the scratch at what the point before left; at every point the tables whole. -/
def PhiS7 (c : Dev nD) : (n : ℕ) → n ≤ (cfgG7 a).N → sProp 𝕄
  | 0, _ => iprop(Pipeline.ΦA spec7 c ∗ tabs7 a c)
  | n + 1, hn => iprop(iprop(iprop(owns (c : Thread nD τ) scM7 fullShare (accAt7 a V c n hn) ∗ restB7 c) ∗ (∃ r, prngReg c r)) ∗ tabs7 a c)

theorem PhiS7_succ (c : Dev nD) (n : ℕ) (hn : n < (cfgG7 a).N) :
    PhiS7 a V c (n + 1) hn = iprop(iprop(iprop(owns (c : Thread nD τ) scM7 fullShare (accAt7 a V c n hn) ∗ restB7 c) ∗ (∃ r, prngReg c r)) ∗ tabs7 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS7`;
    nothing owed; full shares. -/
def dat7 (c : Dev nD) : Dat τ (Elt F) Unit ℕ (UR sig nD τ) ℕ (Pipeline.pin (pcfgs (F := F)) a 7) c where
  A w := V c (Pipeline.arrRef spec7 w)
  after w t := match w with
    | ⟨0, _⟩ => iblk7 a V c 0 t
    | ⟨1, _⟩ => iblk7 a V c 1 t
    | ⟨2, _⟩ => iblk7 a V c 2 t
    | ⟨3, _⟩ => k7_pay3 (accAt7 a V c t.val t.isLt) (iblk7 a V c 2 t)
  Φ t := PhiS7 a V c t.val (Nat.le_of_lt_succ t.isLt)
  q _ := fullShare
  owed _ := 0

theorem A_eq7 (c : Dev nD) (w : Fin (cfgG7 a).W) : (dat7 a V c).A w = V c (Pipeline.arrRef spec7 w) := by
  dsimp only [dat7]

theorem after7_0 (c : Dev nD) (t : Fin (cfgG7 a).N) : (dat7 a V c).after 0 t = iblk7 a V c 0 t := by dsimp only [dat7]; try rfl
theorem after7_1 (c : Dev nD) (t : Fin (cfgG7 a).N) : (dat7 a V c).after 1 t = iblk7 a V c 1 t := by dsimp only [dat7]; try rfl
theorem after7_2 (c : Dev nD) (t : Fin (cfgG7 a).N) : (dat7 a V c).after 2 t = iblk7 a V c 2 t := by dsimp only [dat7]; try rfl
theorem after7_3 (c : Dev nD) (t : Fin (cfgG7 a).N) :
    (dat7 a V c).after 3 t = k7_pay3 (accAt7 a V c t.val t.isLt) (iblk7 a V c 2 t) := by dsimp only [dat7]; try rfl

theorem PhiS7_castSucc (c : Dev nD) (t : Fin (cfgG7 a).N) :
    (dat7 a V c).Φ t.castSucc = PhiS7 a V c t.val (Nat.le_of_lt t.isLt) := by
  dsimp only [dat7]; simp only [Fin.coe_castSucc]

end Cert.Kernel.Hand

end
-- ==== Proof.K.Gather7Runs.lean ====
import proofs.«415143_j42460046688958_3_alg».proof.Proof.K.Gather7Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 7): its triple, control case by control case -/

/-! ## Loads and stores through the whole-buffer rectangle at zero offsets -/

theorem vec2_zero_g7 : (![0, 0] : Fin 2 → ℕ) = fun _ => 0 := by funext b; fin_cases b <;> rfl

/-- A load of a whole memref held at contents that read `X` reads `X`. -/
theorem readAt_whole_unread_g7 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g7 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g7 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g7 (i : grid7.Coords) {u u' : Vec F S1x5120 .i32} {v v' : Vec F S800x128 .f32} {s s' : Vec F S5120x128 .f32}
    (hu : u = u') (hv : v = v') (hs : s = s') : k7_pay2 i u v s = k7_pay2 i u' v' s' := by rw [hu, hv, hs]
theorem pay3_congr_g7 {s s' : Vec F S5120x128 .f32} {n n' : Vec F S5120x1 .f32}
    (hs : s = s') (hn : n = n') : k7_pay3 s n = k7_pay3 s' n' := by rw [hs, hn]

theorem accStep7_TT_g7 (i : grid7.Coords) (x0 : Vec F S1x5120 .i32) (x1 : Vec F S800x128 .f32) (lo hi : BitVec 32) (xs : Vec F S5120x128 .f32)
    (h0 : cond7_0 i) (h1 : cond7_1 i lo hi) : accStep7 i x0 x1 lo hi xs = k7_pay2 i x0 x1 (k7_pay1 (F := F)) := by
  unfold accStep7; rw [if_pos h1, if_pos h0]
theorem accStep7_TF_g7 (i : grid7.Coords) (x0 : Vec F S1x5120 .i32) (x1 : Vec F S800x128 .f32) (lo hi : BitVec 32) (xs : Vec F S5120x128 .f32)
    (h0 : cond7_0 i) (h1 : ¬cond7_1 i lo hi) : accStep7 i x0 x1 lo hi xs = (k7_pay1 (F := F) : Vec F S5120x128 .f32) := by
  unfold accStep7; rw [if_neg h1, if_pos h0]
theorem accStep7_FT_g7 (i : grid7.Coords) (x0 : Vec F S1x5120 .i32) (x1 : Vec F S800x128 .f32) (lo hi : BitVec 32) (xs : Vec F S5120x128 .f32)
    (h0 : ¬cond7_0 i) (h1 : cond7_1 i lo hi) : accStep7 i x0 x1 lo hi xs = k7_pay2 i x0 x1 xs := by
  unfold accStep7; rw [if_pos h1, if_neg h0]
theorem accStep7_FF_g7 (i : grid7.Coords) (x0 : Vec F S1x5120 .i32) (x1 : Vec F S800x128 .f32) (lo hi : BitVec 32) (xs : Vec F S5120x128 .f32)
    (h0 : ¬cond7_0 i) (h1 : ¬cond7_1 i lo hi) : accStep7 i x0 x1 lo hi xs = xs := by
  unfold accStep7; rw [if_neg h1, if_neg h0]
theorem outStep7_T_g7 (i : grid7.Coords) (acc : Vec F S5120x128 .f32) (x2 : Vec F S5120x1 .f32) (xi3 : Vec F S5120x128 .f32)
    (h2 : cond7_2 i) : outStep7 i acc x2 xi3 = k7_pay3 acc x2 := by unfold outStep7; rw [if_pos h2]
theorem outStep7_F_g7 (i : grid7.Coords) (acc : Vec F S5120x128 .f32) (x2 : Vec F S5120x1 .f32) (xi3 : Vec F S5120x128 .f32)
    (h2 : ¬cond7_2 i) : outStep7 i acc x2 xi3 = xi3 := by unfold outStep7; rw [if_neg h2]

set_option maxHeartbeats 4000000 in
/-- The body in the control case A: the accumulator reset, the table words admitting the column block, the output not stored. -/
theorem kernel7_A (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : cond7_0 i) (hc1 : cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay2 i x0 x1 (k7_pay1 (F := F))) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readCov_whole_g7 arg8 vec2_zero_g7 _ _ _))
  isplitl [HT0]; · iexact HT0
  iexact HT1

set_option maxHeartbeats 4000000 in
/-- The body in the control case B: the accumulator reset, the table words not admitting the column block, the output not stored. -/
theorem kernel7_B (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : cond7_0 i) (hc1 : ¬cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay1 (F := F) : Vec F S5120x128 .f32) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _)
  isplitl [HT0]; · iexact HT0
  iexact HT1

set_option maxHeartbeats 4000000 in
/-- The body in the control case C: the accumulator not reset, the table words admitting the column block, the output not stored. -/
theorem kernel7_C (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay2 i x0 x1 xs) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))
  isplitl [HT0]; · iexact HT0
  iexact HT1

set_option maxHeartbeats 4000000 in
/-- The body in the control case D: the accumulator not reset, the table words not admitting the column block, the output not stored. -/
theorem kernel7_D (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : ¬cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel7_E (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : cond7_1 i (tword7 c tbM7_0 i xt0) (tword7 c tbM7_1 i xt1)) (hc2 : cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare (k7_pay3 (k7_pay2 i x0 x1 xs) x2)
            ∗ owns (c : Thread nD τ) arg8 fullShare (k7_pay2 i x0 x1 xs) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g7 arg7 _ vec2_zero_g7 _ _ _).trans (pay3_congr_g7 ((readCov_whole_g7 arg8 vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))) (readAt_whole_unread_g7 arg6 harg6 x2 vec2_zero_g7 _))
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))
  isplitl [HT0]; · iexact HT0
  iexact HT1

set_option maxHeartbeats 4000000 in
/-- The body in the control case G: the accumulator not reset, the table words not admitting the column block, the output stored. -/
theorem kernel7_G (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : ¬cond7_1 i (tword7 c tbM7_0 i xt0) (tword7 c tbM7_1 i xt1)) (hc2 : cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare (k7_pay3 xs x2)
            ∗ owns (c : Thread nD τ) arg8 fullShare xs ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g7 arg7 _ vec2_zero_g7 _ _ _).trans (pay3_congr_g7 (readAt_whole_unread_g7 arg8 harg8 xs vec2_zero_g7 _) (readAt_whole_unread_g7 arg6 harg6 x2 vec2_zero_g7 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel7 (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hx : cond7_0 i → ¬cond7_2 i)
    (acc' : Vec F S5120x128 .f32) (hacc : acc' = accStep7 i x0 x1 (tword7 c tbM7_0 i xt0) (tword7 c tbM7_1 i xt1) xs)
    (out' : Vec F S5120x128 .f32) (hout : out' = outStep7 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  subst hout; subst hacc
  by_cases h0 : cond7_0 i <;> by_cases h1 : cond7_1 i (tword7 c tbM7_0 i xt0) (tword7 c tbM7_1 i xt1) <;> by_cases h2 : cond7_2 i
  · exact absurd h2 (hx h0)
  · rw [outStep7_F_g7 _ _ _ _ h2, accStep7_TT_g7 _ _ _ _ _ _ h0 h1]; exact kernel7_A c i arg4 harg4 arg5 harg5 arg6 harg6 arg7 harg7 arg8 harg8 x0 x1 x2 xi3 xt0 xt1 xs h0 h1 h2 E K
  · exact absurd h2 (hx h0)
  · rw [outStep7_F_g7 _ _ _ _ h2, accStep7_TF_g7 _ _ _ _ _ _ h0 h1]; exact kernel7_B c i arg4 harg4 arg5 harg5 arg6 harg6 arg7 harg7 arg8 harg8 x0 x1 x2 xi3 xt0 xt1 xs h0 h1 h2 E K
  · rw [outStep7_T_g7 _ _ _ _ h2, accStep7_FT_g7 _ _ _ _ _ _ h0 h1]; exact kernel7_E c i arg4 harg4 arg5 harg5 arg6 harg6 arg7 harg7 arg8 harg8 x0 x1 x2 xi3 xt0 xt1 xs h0 h1 h2 E K
  · rw [outStep7_F_g7 _ _ _ _ h2, accStep7_FT_g7 _ _ _ _ _ _ h0 h1]; exact kernel7_C c i arg4 harg4 arg5 harg5 arg6 harg6 arg7 harg7 arg8 harg8 x0 x1 x2 xi3 xt0 xt1 xs h0 h1 h2 E K
  · rw [outStep7_T_g7 _ _ _ _ h2, accStep7_FF_g7 _ _ _ _ _ _ h0 h1]; exact kernel7_G c i arg4 harg4 arg5 harg5 arg6 harg6 arg7 harg7 arg8 harg8 x0 x1 x2 xi3 xt0 xt1 xs h0 h1 h2 E K
  · rw [outStep7_F_g7 _ _ _ _ h2, accStep7_FF_g7 _ _ _ _ _ _ h0 h1]; exact kernel7_D c i arg4 harg4 arg5 harg5 arg6 harg6 arg7 harg7 arg8 harg8 x0 x1 x2 xi3 xt0 xt1 xs h0 h1 h2 E K

end Cert.Kernel.Hand

end
-- ==== Proof.K.Gather7.lean ====
import proofs.«415143_j42460046688958_3_alg».proof.Proof.K.Gather7Runs
import proofs.«415143_j42460046688958_3_alg».proof.Proof.K.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 7): the body obligation and the region as a segment of @main -/

theorem PhiA7_eq (c : Dev nD) :
    (Pipeline.ΦA spec7 c : sProp 𝕄)
      = iprop(iprop(iprop((∃ d, owns (c : Thread nD τ) scM7 fullShare d)) ∗ restB7 c) ∗ (∃ r, prngReg c r)) := by
  unfold Pipeline.ΦA; rw [scopedRest7_split]; simp only [scM7, owns_whole]; try rfl

theorem PhiT7_eq (c : Dev nD) : (tabs7 a c : sProp 𝕄) = iprop(tbPt7 c tbM7_0 ((a 7).1 0) ∗ tbPt7 c tbM7_1 ((a 7).1 1)) := by
  unfold tabs7 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS7_open (c : Dev nD) (n : ℕ) (h : n ≤ (cfgG7 a).N) :
    PhiS7 a V c n h ⊢ iprop(∃ xs, ⌜∀ hz : n ≠ 0, xs = accAt7 a V c (n - 1) (by omega)⌝ ∗ owns (c : Thread nD τ) scM7 fullShare xs ∗ restB7 c
      ∗ (∃ r, prngReg c r) ∗ tbPt7 c tbM7_0 ((a 7).1 0) ∗ tbPt7 c tbM7_1 ((a 7).1 1)) := by
  cases n with
  | zero =>
    rw [show PhiS7 a V c 0 h = iprop(Pipeline.ΦA spec7 c ∗ tabs7 a c) from rfl, PhiA7_eq, PhiT7_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS7_succ, PhiT7_eq]
    iintro ⟨⟨⟨HS, Hr⟩, Hg⟩, HT0, HT1⟩
    iexists (accAt7 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS7_out (c : Dev nD) (n : ℕ) (h : n ≤ (cfgG7 a).N) : PhiS7 a V c n h ⊢ iprop(Pipeline.ΦA spec7 c ∗ tabs7 a c) := by
  cases n with
  | zero => exact .rfl
  | succ n =>
    rw [PhiS7_succ, PhiA7_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before7_0_of {c : Dev nD} (dat : Dat τ (Elt F) Unit ℕ (UR sig nD τ) ℕ (cfgG7 a) c) (hA : dat.A 0 = V c (Pipeline.arrRef spec7 0))
    (hafter : ∀ t, dat.after 0 t = iblk7 a V c 0 t) (t : Fin (cfgG7 a).N) (d) : dat.before 0 t d = iblk7 a V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ (cfgG7 a) c) (hA : dat.A 1 = V c (Pipeline.arrRef spec7 1))
    (hafter : ∀ t, dat.after 1 t = iblk7 a V c 1 t) (t : Fin (cfgG7 a).N) (d) : dat.before 1 t d = iblk7 a V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ (cfgG7 a) c) (hA : dat.A 2 = V c (Pipeline.arrRef spec7 2))
    (hafter : ∀ t, dat.after 2 t = iblk7 a V c 2 t) (t : Fin (cfgG7 a).N) (d) : dat.before 2 t d = iblk7 a V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin (cfgG7 a).N) (d) : (dat7 a V c).before 0 t d = iblk7 a V c 0 t :=
  before7_0_of a V (dat7 a V c) (A_eq7 a V c 0) (after7_0 a V c) t d
theorem before7_1 (c : Dev nD) (t : Fin (cfgG7 a).N) (d) : (dat7 a V c).before 1 t d = iblk7 a V c 1 t :=
  before7_1_of a V (dat7 a V c) (A_eq7 a V c 1) (after7_1 a V c) t d
theorem before7_2 (c : Dev nD) (t : Fin (cfgG7 a).N) (d) : (dat7 a V c).before 2 t d = iblk7 a V c 2 t :=
  before7_2_of a V (dat7 a V c) (A_eq7 a V c 2) (after7_2 a V c) t d

/-! ## What the body leaves in each window's buffer -/

/-- At a point live for a window the obligation asks for the window's buffer at what the body leaves there. -/
theorem leavesExact_live_g7 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves7_0 (c : Dev nD) (t : Fin (cfgG7 a).N) :
    (dat7 a V c).leavesExact 0 t = owns (c : Thread nD τ) (ms7_0 a t) fullShare (iblk7 a V c 0 t) := by
  rw [leavesExact_live_g7 (dat7 a V c) 0 t (liveAt7_0 a t), after7_0]; rfl
theorem leaves7_1 (c : Dev nD) (t : Fin (cfgG7 a).N) :
    (dat7 a V c).leavesExact 1 t = owns (c : Thread nD τ) (ms7_1 a t) fullShare (iblk7 a V c 1 t) := by
  rw [leavesExact_live_g7 (dat7 a V c) 1 t (liveAt7_1 a t), after7_1]; rfl
theorem leaves7_2 (c : Dev nD) (t : Fin (cfgG7 a).N) :
    (dat7 a V c).leavesExact 2 t = owns (c : Thread nD τ) (ms7_2 a t) fullShare (iblk7 a V c 2 t) := by
  rw [leavesExact_live_g7 (dat7 a V c) 2 t (liveAt7_2 a t), after7_2]; rfl

/-- The output's buffer at one step of the output over what the body found is what the obligation asks of it: the
    scaled accumulator where the body stores it, what it found where the window is idle. -/
theorem leaves7_3_intro (c : Dev nD) (t : Fin (cfgG7 a).N) (d) :
    owns (c : Thread nD τ) (ms7_3 a t) fullShare (outStep7 (grid7.coords t) (accAt7 a V c t.val t.isLt) (iblk7 a V c 2 t) ((dat7 a V c).before 3 t d))
      ⊢ ((dat7 a V c).leavesExact 3 t : sProp 𝕄) := by
  by_cases h2 : cond7_2 (grid7.coords t)
  · rw [leavesExact_live_g7 (dat7 a V c) 3 t (liveAt7_3 a t h2), after7_3]
    exact Entails.of_eq (congrArg (owns (c : Thread nD τ) (ms7_3 a t) fullShare) (outStep7_pos _ h2 _ _ _))
  · rw [Dat.leavesExact_idle (dat7 a V c) 3 t (idleAt7_3 a t h2) (noFlush7_3 a t h2)]
    refine (Entails.of_eq (congrArg (owns (c : Thread nD τ) (ms7_3 a t) fullShare) (outStep7_neg _ h2 _ _ _))).trans ?_
    iintro H; iexists d; iexact H

/-! ## The body obligation, at a generic point -/

def bodyPre7 (c : Dev nD) (t : Fin (cfgG7 a).N) : sProp 𝕄 :=
  iprop((dat7 a V c).Φ t.castSucc ∗ (dat7 a V c).owesAt () t.castSucc
    ∗ (∃ d, owns (c : Thread nD τ) (ms7_0 a t) fullShare ((dat7 a V c).before 0 t d))
    ∗ (∃ d, owns (c : Thread nD τ) (ms7_1 a t) fullShare ((dat7 a V c).before 1 t d))
    ∗ (∃ d, owns (c : Thread nD τ) (ms7_2 a t) fullShare ((dat7 a V c).before 2 t d))
    ∗ (∃ d, owns (c : Thread nD τ) (ms7_3 a t) fullShare ((dat7 a V c).before 3 t d)))

def bodyPost7 (c : Dev nD) (t : Fin (cfgG7 a).N) : sProp 𝕄 :=
  iprop((dat7 a V c).Φ t.succ ∗ (dat7 a V c).owesAt () t.succ
    ∗ (dat7 a V c).leavesExact 0 t
    ∗ (dat7 a V c).leavesExact 1 t
    ∗ (dat7 a V c).leavesExact 2 t
    ∗ (dat7 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body7 (c : Dev nD) (t : Fin (cfgG7 a).N) :
    bodyPre7 a V c t ⊢ wp frame (wpE (defs₀ (F := F)) Variants.none c none) Set.univ (bodyAt7 a t) (fun _ => bodyPost7 a V c t) := by
  unfold bodyPre7 bodyPost7 bodyAt7
  simp only [before7_0, before7_1, before7_2]
  rw [show (dat7 a V c).owesAt () t.succ = (dat7 a V c).owesAt () t.castSucc from rfl]
  rw [show (dat7 a V c).Φ t.succ = PhiS7 a V c (t.val + 1) t.isLt from rfl, PhiS7_succ, PhiT7_eq]
  rw [leaves7_0, leaves7_1, leaves7_2, PhiS7_castSucc]
  iintro ⟨HΦ, Ho, ⟨%d0, H0⟩, ⟨%d1, H1⟩, ⟨%d2, H2⟩, ⟨%d3, H3⟩⟩
  ihave HΦ' := (PhiS7_open a V c t.val (Nat.le_of_lt t.isLt)) $$ HΦ
  icases HΦ' with ⟨%xs, %hxs, HS, Hr, Hg, HT0, HT1⟩
  iapply (kernel7 c (grid7.coords t) (ms7_0 a t) (hs7_0 a t) (ms7_1 a t) (hs7_1 a t) (ms7_2 a t) (hs7_2 a t) (ms7_3 a t) (hs7_3 a t) scM7 (Memref.isWhole_whole _)
    (iblk7 a V c 0 t) (iblk7 a V c 1 t) (iblk7 a V c 2 t) ((dat7 a V c).before 3 t d3) ((a 7).1 0) ((a 7).1 1) xs
    (fun h0 h2 => by have e0 := (hcond7_0 t).mp h0; have e2 := (hcond7_2 t).mp h2; omega)
    (accAt7 a V c t.val t.isLt) (accAt7_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves7_3_intro a V c t d3)
  iexact H3

/-- The library's body obligation, at every point. -/
theorem body_obligation7 (c : Dev nD) : BodyObligation (dat7 (F := F) a V c) (defs₀ (F := F)) Variants.none () Set.univ := fun t => by
  rw [bigSep_W7, bigSep_W7]
  exact sound_body7 a V c t

/-! ## The region as a segment of @main -/

/-- What rides beside the buffers through every segment: the generator register at some state, nothing owed. -/
abbrev R7 (c : Dev nD) : sProp 𝕄 := iprop((∃ r, prngReg c r) ∗ ∃ W, owes (c : Thread nD τ) (0 : CellTallies nD τ sig Unit) W)

theorem Phi7_in (c : Dev nD) : iprop((∃ r, prngReg c r) ∗ tabs7 a c ∗ Pipeline.scopedRest (Ix := Unit) (Name := ℕ) (U := UR sig nD τ) (Lvl := ℕ) (Val := Elt F) spec7 c) ⊢ ((dat7 a V c).Φ 0 : sProp 𝕄) := by
  rw [show (dat7 a V c).Φ 0 = iprop(Pipeline.ΦA spec7 c ∗ tabs7 a c) from rfl]; unfold Pipeline.ΦA
  iintro ⟨Hp, HT, Hr⟩
  isplitl [Hr Hp]
  · isplitl [Hr]; · iexact Hr
    iexact Hp
  iexact HT

theorem Phi7_out (c : Dev nD) : ((dat7 a V c).Φ (Fin.last (cfgG7 a).N) : sProp 𝕄)
    ⊢ iprop(iprop(tabs7 a c ∗ ∃ r, prngReg c r) ∗ BI.emp ∗ Pipeline.scopedRest (Ix := Unit) (Name := ℕ) (U := UR sig nD τ) (Lvl := ℕ) (Val := Elt F) spec7 c) := by
  rw [show (dat7 a V c).Φ (Fin.last (cfgG7 a).N) = PhiS7 a V c (cfgG7 a).N (Nat.le_refl _) from rfl]
  refine (PhiS7_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF7 (Vin : Dev nD → Valuation τ sig (Elt F)) (hV : ∀ c b, V c b = Vin c b) (c : Dev nD) : ∀ w : Fin 4,
    (dat7 a V c).arrAt w (cfgG7 a).N
      = Function.update (Vin c) main_v139 ((dat7 a V c).arrAt 3 (cfgG7 a).N) (Proc.devRef .tc (Pipeline.arrRef spec7 w))
  | 0 => ((((dat7 a V c).arrAt_in 0 rfl _).trans (A_eq7 a V c 0)).trans (hV c _)).trans
      (Function.update_of_ne (StableHlo.devRef_ne_of_ne (by decide : Pipeline.arrRef spec7 0 ≠ main_v139)) _ _).symm
  | 1 => ((((dat7 a V c).arrAt_in 1 rfl _).trans (A_eq7 a V c 1)).trans (hV c _)).trans
      (Function.update_of_ne (StableHlo.devRef_ne_of_ne (by decide : Pipeline.arrRef spec7 1 ≠ main_v139)) _ _).symm
  | 2 => ((((dat7 a V c).arrAt_in 2 rfl _).trans (A_eq7 a V c 2)).trans (hV c _)).trans
      (Function.update_of_ne (StableHlo.devRef_ne_of_ne (by decide : Pipeline.arrRef spec7 2 ≠ main_v139)) _ _).symm
  | 3 => (Function.update_self (Proc.devRef .tc main_v139) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat7` at this pipeline. -/
def reg7 (pdats : (p : Fin 13) → (c : Dev nD) → Dat τ (Elt F) Unit ℕ (UR sig nD τ) ℕ (Pipeline.pin (pcfgs (F := F)) a p) c)
    (h : ∀ c, pdats 7 c = dat7 a V c)
    (Vin : Dev nD → Valuation τ sig (Elt F)) (hV : ∀ c b, V c b = Vin c b)
    (hpf : ∀ c k, Vin c (pre7.ref k) = (a 7).1 k) :
    Pipeline.RegionSeg (pcfgs (F := F)) a pdats () defs₀ Variants.none (fun _ => (∅ : Finset Unit)) (fun _ _ => (0 : ℕ)) 7 where
  win := (launch7 (F := F)).win.to₀
  block_pos := (launch7 (F := F)).block_pos
  stage_whole := (launch7 (F := F)).stage_whole
  K := PEmpty
  osem k := k.elim
  ho := Pipeline.OwnSemFacts.none _
  hbody c := by rw [h c]; exact (body_obligation7 a V c).loose
  hwaits := Pipeline.hwaits_of_owed_zero _ _ _ _ _ _ 7 fun c t => by rw [h c]; rfl
  pre c := iprop(StableHlo.held (c : Thread nD τ) (Pipeline.ucRefs τ sig) (Vin c) ∗ R7 c)
  post c := iprop(StableHlo.held (c : Thread nD τ) (Pipeline.ucRefs τ sig)
      (Function.update (Vin c) main_v139 ((dat7 a V c).arrAt 3 (cfgG7 a).N)) ∗ R7 c)
  X c := tblX c
  Y c := tblY a 7 c
  Z c := tblZ a 7 c (Vin c)
  hentry c := tbl_hentry a pdats (launch7 (F := F)) c (Vin c) (fun w => by rw [h c]; exact (A_eq7 a V c w).trans (hV c _))
    (fun w => by rw [h c]; exact (dat7 a V c).share_full (fun _ => rfl) w) (by rw [h c]; rfl) (by rw [h c]; rfl) (hpf c)
  hin c := by rw [h c]; exact Phi7_in a V c
  hout c := by rw [Pipeline.ownSems0_none, h c]; exact Phi7_out a V c
  hexit c := tbl_hexit a pdats (launch7 (F := F)) c (Vin c) _ (fun w => by rw [h c]; exact (dat7 a V c).share_full (fun _ => rfl) w)
    (fun w => by rw [h c]; exact hF7 a V Vin hV c w) (upd_rest (p := 7) a (Vin c) 3 _) (by rw [h c]; rfl) (hpf c)

end Cert.Kernel.Hand

end
-- ==== Proof.K.Scatter8Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 8: its control conditions, the table words it reads, and what one run of the
    body leaves in the carried accumulator and in the output block, in closed form over the payloads -/

/-- The body zeroes the accumulator when the second grid coordinate is 0. -/
abbrev cond8_1 (i : grid8.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond8_2 (i : grid8.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond8_3 (i : grid8.Coords) : Prop := k8_cond3 i = 1#1

/-- The prefetched tables as the body is handed them: whole scalar-memory memrefs. -/
abbrev tbM8_0 : Memref sig .tc .smem S123 .i32 := Memref.whole main_v81
abbrev htbM8_0 : tbM8_0.IsWhole := Memref.isWhole_whole _
abbrev tbM8_1 : Memref sig .tc .smem S123 .i32 := Memref.whole main_v82
abbrev htbM8_1 : tbM8_1.IsWhole := Memref.isWhole_whole _
abbrev tbM8_2 : Memref sig .tc .smem S50 .i32 := Memref.whole main_v110
abbrev htbM8_2 : tbM8_2.IsWhole := Memref.isWhole_whole _
abbrev tbM8_3 : Memref sig .tc .smem S50 .i32 := Memref.whole main_v111
abbrev htbM8_3 : tbM8_3.IsWhole := Memref.isWhole_whole _

/-- A table memref's buffer on core `c`, and that buffer held whole at contents `f`. -/
abbrev TbBuf8 (c : Dev nD) {S : Shape} {e : EltTy} (M : Memref sig .tc .smem S e) : Type := Buf (Elt F) (M.view.loc (c : Thread nD τ))
abbrev tbPt8 (c : Dev nD) {S : Shape} {e : EltTy} (M : Memref sig .tc .smem S e) (f : TbBuf8 (F := F) c M) : sProp 𝕄 :=
  M.view.loc (c : Thread nD τ) ↦{fullShare} f

/-- The word of the first table the body compares from below, at the second grid coordinate, -/
abbrev wd8_0 (c : Dev nD) (i : grid8.Coords) (xt : TbBuf8 (F := F) c tbM8_0) : Elt F .i32 :=
  tbM8_0.view.readAt (Elt F) (Rect.unit (s := S123) (k8_off2 i) S1.size (k8_off2_inb i)).toLoadRect xt (Shape.Idx.first (numel1_S1.symm ▸ Nat.one_pos))
/-- and the word of the second table it compares from above. -/
abbrev wd8_1 (c : Dev nD) (i : grid8.Coords) (xt : TbBuf8 (F := F) c tbM8_1) : Elt F .i32 :=
  tbM8_1.view.readAt (Elt F) (Rect.unit (s := S123) (k8_off2 i) S1.size (k8_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc8 (i : grid8.Coords) (wlo whi : Elt F .i32) (x0 : Vec F S1x5120 .i32) (x1 : Vec F S5120x128 .f32)
    (xs : Vec F S2000x128 .f32) : Vec F S2000x128 .f32 :=
  if cond8_2 i wlo whi then k8_pay2 i x0 x1 (if cond8_1 i then (k8_pay1 : Vec F S2000x128 .f32) else xs)
  else (if cond8_1 i then (k8_pay1 : Vec F S2000x128 .f32) else xs)

/-- Where the accumulator is zeroed, what it held before does not matter. -/
theorem acc8_of_cond8_1 (i : grid8.Coords) (h : cond8_1 i) (wlo whi : Elt F .i32) (x0 : Vec F S1x5120 .i32) (x1 : Vec F S5120x128 .f32)
    (xs xs' : Vec F S2000x128 .f32) : acc8 i wlo whi x0 x1 xs = acc8 i wlo whi x0 x1 xs' := by
  unfold acc8; rw [if_pos h, if_pos h]

/-! # REGION 8 of @main (custom_call 8, pipeline 8) at the tables' admissible contents `a 8` and the entry contents `V` -/

section Region
variable (a : (p : Fin 13) → (pcfgs (F := F) p).Adm)
variable (V : (c : Dev nD) → (b : Ref sig .tc) → Buf (Elt F) ((c : Thread nD τ).loc b))

/-- Pipeline 8 at the tables' contents. -/
abbrev cfgM8 : Pipeline.Cfg sig Λ₀ := cfg8 (a 8)

/-- Window `w`'s block at point `t`, read off its array as the region finds it (`V`); for windows 0 and 1, whose index
    maps read the tables, a function of the tables' words. -/
def iblk8 (c : Dev nD) (w : Fin (cfgM8 a).W) (t : Fin (cfgM8 a).N) : (((cfgM8 a).win w).xblock ((cfgM8 a).grid.coords t)).Idx → Elt F ((cfgM8 a).win w).elt :=
  (((cfgM8 a).win w).blk t).view.read (Elt F) (V c (Pipeline.arrRef spec8 w))

/-! ## Each input window's current staging buffer holds its block at every point, fetched there or not -/

theorem before8_0_of {c : Dev nD} (dat : Dat τ (Elt F) Unit ℕ (UR sig nD τ) ℕ (cfgM8 a) c) (hA : dat.A 0 = V c (Pipeline.arrRef spec8 0))
    (hafter : ∀ t, dat.after 0 t = iblk8 a V c 0 t) (t : Fin (cfgM8 a).N) (d) : dat.before 0 t d = iblk8 a V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ (cfgM8 a) c) (hA : dat.A 1 = V c (Pipeline.arrRef spec8 1))
    (hafter : ∀ t, dat.after 1 t = iblk8 a V c 1 t) (t : Fin (cfgM8 a).N) (d) : dat.before 1 t d = iblk8 a V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ (cfgM8 a) c) (hA : dat.A 2 = V c (Pipeline.arrRef spec8 2))
    (hafter : ∀ t, dat.after 2 t = iblk8 a V c 2 t) (t : Fin (cfgM8 a).N) (d) : dat.before 2 t d = iblk8 a V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ (cfgM8 a) c) (hA : dat.A 3 = V c (Pipeline.arrRef spec8 3))
    (hafter : ∀ t, dat.after 3 t = iblk8 a V c 3 t) (t : Fin (cfgM8 a).N) (d) : dat.before 3 t d = iblk8 a V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ (cfgM8 a) c) (hA : dat.A 4 = V c (Pipeline.arrRef spec8 4))
    (hafter : ∀ t, dat.after 4 t = iblk8 a V c 4 t) (t : Fin (cfgM8 a).N) (d) : dat.before 4 t d = iblk8 a V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The staging memrefs at a point, the scratch, the body as the pipeline calls it -/

abbrev ms8_0 (t : Fin (cfgM8 a).N) : Memref sig .tc .vmem S1x5120 .i32 := spec8_0.stage ((cfgM8 a).slots t 0)
abbrev hs8_0 (t : Fin (cfgM8 a).N) : (ms8_0 a t).IsWhole := hstage8_0 (((cfgM8 a).slots t 0).cast nbuf8_0)
abbrev ms8_1 (t : Fin (cfgM8 a).N) : Memref sig .tc .vmem S5120x128 .f32 := spec8_1.stage ((cfgM8 a).slots t 1)
abbrev hs8_1 (t : Fin (cfgM8 a).N) : (ms8_1 a t).IsWhole := hstage8_1 (((cfgM8 a).slots t 1).cast nbuf8_1)
abbrev ms8_2 (t : Fin (cfgM8 a).N) : Memref sig .tc .vmem S2000x128 .f32 := spec8_2.stage ((cfgM8 a).slots t 2)
abbrev hs8_2 (t : Fin (cfgM8 a).N) : (ms8_2 a t).IsWhole := hstage8_2 (((cfgM8 a).slots t 2).cast nbuf8_2)
abbrev ms8_3 (t : Fin (cfgM8 a).N) : Memref sig .tc .vmem S128x128 .f32 := spec8_3.stage ((cfgM8 a).slots t 3)
abbrev hs8_3 (t : Fin (cfgM8 a).N) : (ms8_3 a t).IsWhole := hstage8_3 (((cfgM8 a).slots t 3).cast nbuf8_3)
abbrev ms8_4 (t : Fin (cfgM8 a).N) : Memref sig .tc .vmem S1x128 .f32 := spec8_4.stage ((cfgM8 a).slots t 4)
abbrev hs8_4 (t : Fin (cfgM8 a).N) : (ms8_4 a t).IsWhole := hstage8_4 (((cfgM8 a).slots t 4).cast nbuf8_4)
abbrev ms8_5 (t : Fin (cfgM8 a).N) : Memref sig .tc .vmem S2000x128 .f32 := spec8_5.stage ((cfgM8 a).slots t 5)
abbrev hs8_5 (t : Fin (cfgM8 a).N) : (ms8_5 a t).IsWhole := hstage8_5 (((cfgM8 a).slots t 5).cast nbuf8_5)
/-- The accumulator: a whole scoped buffer of the kernel's own, carried between points. -/
abbrev scM8 : Memref sig .tc .vmem S2000x128 .f32 := Memref.whole cc8_scratch0

abbrev bodyAt8 (t : Fin (cfgM8 a).N) :=
  cc8__scatter_kernel (F := F) (grid8.coords t) tbM8_0 htbM8_0 tbM8_1 htbM8_1 tbM8_2 htbM8_2 tbM8_3 htbM8_3 (ms8_0 a t) (hs8_0 a t) (ms8_1 a t) (hs8_1 a t) (ms8_2 a t) (hs8_2 a t) (ms8_3 a t) (hs8_3 a t) (ms8_4 a t) (hs8_4 a t) (ms8_5 a t) (hs8_5 a t) scM8 (Memref.isWhole_whole _)

/-! ## The accumulator point by point, and the output block -/

/-- One point's step of the accumulator: the body's closed form at the point's coordinates, table words and blocks. -/
def accStep8 (c : Dev nD) (t : Fin (cfgM8 a).N) (xs : Vec F S2000x128 .f32) : Vec F S2000x128 .f32 :=
  acc8 (grid8.coords t) (wd8_0 c (grid8.coords t) ((a 8).1 0)) (wd8_1 c (grid8.coords t) ((a 8).1 1)) (iblk8 a V c 0 t) (iblk8 a V c 1 t) xs

/-- THE ACCUMULATION: what the scratch holds after the body at position `n`, by recursion on the position (the first
    point zeroes it, so what it held before the region does not matter: stated from the zero payload). -/
def accAt8 (c : Dev nD) : (n : ℕ) → n < (cfgM8 a).N → Vec F S2000x128 .f32
  | 0, hn => accStep8 a V c ⟨0, hn⟩ (k8_pay1 : Vec F S2000x128 .f32)
  | n + 1, hn => accStep8 a V c ⟨n + 1, hn⟩ (accAt8 c n (Nat.lt_of_succ_lt hn))

theorem accAt8_zero (c : Dev nD) (hn : 0 < (cfgM8 a).N) : accAt8 a V c 0 hn = accStep8 a V c ⟨0, hn⟩ (k8_pay1 : Vec F S2000x128 .f32) := rfl
theorem accAt8_succ (c : Dev nD) (n : ℕ) (hn : n + 1 < (cfgM8 a).N) :
    accAt8 a V c (n + 1) hn = accStep8 a V c ⟨n + 1, hn⟩ (accAt8 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt8 (c : Dev nD) (t : Fin (cfgM8 a).N) : Vec F S2000x128 .f32 :=
  k8_pay3 (iblk8 a V c 2 t) (iblk8 a V c 3 t) (accAt8 a V c t.val t.isLt) (iblk8 a V c 4 t)

/-! ## The region invariant -/

/-- Before position `n`: the scratch at what the point before left (at anything before the first point), the other
    scoped buffers at anything, the generator register at some state, the prefetched tables whole at their contents. -/
def PhiS8 (c : Dev nD) (n : ℕ) (hn : n ≤ (cfgM8 a).N) : sProp 𝕄 :=
  iprop(iprop(∃ d : Vec F S2000x128 .f32, ⌜∀ h0 : n ≠ 0, d = accAt8 a V c (n - 1) (by omega)⌝ ∗ owns (c : Thread nD τ) scM8 fullShare d)
    ∗ Pipeline.scopedRestBut (Ix := Unit) (Name := ℕ) (U := UR sig nD τ) (Lvl := ℕ) (Val := Elt F) spec8 c [cc8_scratch0]
    ∗ iprop(∃ r, prngReg c r)
    ∗ Pipeline.prefHeld (Ix := Unit) (Name := ℕ) (U := UR sig nD τ) (Lvl := ℕ) pre8 c (fun _ => fullShare) (a 8).1)

/-! ## The pipeline's proof data -/

def dat8 (c : Dev nD) : Dat τ (Elt F) Unit ℕ (UR sig nD τ) ℕ (Pipeline.pin (pcfgs (F := F)) a 8) c where
  A w := V c (Pipeline.arrRef spec8 w)
  after w t := match w with
    | ⟨0, _⟩ => iblk8 a V c 0 t
    | ⟨1, _⟩ => iblk8 a V c 1 t
    | ⟨2, _⟩ => iblk8 a V c 2 t
    | ⟨3, _⟩ => iblk8 a V c 3 t
    | ⟨4, _⟩ => iblk8 a V c 4 t
    | ⟨5, _⟩ => outAt8 a V c t
  Φ t := PhiS8 a V c t.val (Nat.le_of_lt_succ t.isLt)
  q _ := fullShare
  owed _ := 0

theorem A_eq8 (c : Dev nD) (w : Fin (cfgM8 a).W) : (dat8 a V c).A w = V c (Pipeline.arrRef spec8 w) := by
  dsimp only [dat8]
theorem after8_0 (c : Dev nD) (t : Fin (cfgM8 a).N) : (dat8 a V c).after 0 t = iblk8 a V c 0 t := by dsimp only [dat8]; try rfl
theorem after8_1 (c : Dev nD) (t : Fin (cfgM8 a).N) : (dat8 a V c).after 1 t = iblk8 a V c 1 t := by dsimp only [dat8]; try rfl
theorem after8_2 (c : Dev nD) (t : Fin (cfgM8 a).N) : (dat8 a V c).after 2 t = iblk8 a V c 2 t := by dsimp only [dat8]; try rfl
theorem after8_3 (c : Dev nD) (t : Fin (cfgM8 a).N) : (dat8 a V c).after 3 t = iblk8 a V c 3 t := by dsimp only [dat8]; try rfl
theorem after8_4 (c : Dev nD) (t : Fin (cfgM8 a).N) : (dat8 a V c).after 4 t = iblk8 a V c 4 t := by dsimp only [dat8]; try rfl
theorem after8_5 (c : Dev nD) (t : Fin (cfgM8 a).N) : (dat8 a V c).after 5 t = outAt8 a V c t := by dsimp only [dat8]; try rfl
theorem before8_0 (c : Dev nD) (t : Fin (cfgM8 a).N) (d) : (dat8 a V c).before 0 t d = iblk8 a V c 0 t :=
  before8_0_of a V (dat8 a V c) (A_eq8 a V c 0) (after8_0 a V c) t d
theorem before8_1 (c : Dev nD) (t : Fin (cfgM8 a).N) (d) : (dat8 a V c).before 1 t d = iblk8 a V c 1 t :=
  before8_1_of a V (dat8 a V c) (A_eq8 a V c 1) (after8_1 a V c) t d
theorem before8_2 (c : Dev nD) (t : Fin (cfgM8 a).N) (d) : (dat8 a V c).before 2 t d = iblk8 a V c 2 t :=
  before8_2_of a V (dat8 a V c) (A_eq8 a V c 2) (after8_2 a V c) t d
theorem before8_3 (c : Dev nD) (t : Fin (cfgM8 a).N) (d) : (dat8 a V c).before 3 t d = iblk8 a V c 3 t :=
  before8_3_of a V (dat8 a V c) (A_eq8 a V c 3) (after8_3 a V c) t d
theorem before8_4 (c : Dev nD) (t : Fin (cfgM8 a).N) (d) : (dat8 a V c).before 4 t d = iblk8 a V c 4 t :=
  before8_4_of a V (dat8 a V c) (A_eq8 a V c 4) (after8_4 a V c) t d

theorem PhiS8_castSucc (c : Dev nD) (t : Fin (cfgM8 a).N) :
    (dat8 a V c).Φ t.castSucc = PhiS8 a V c t.val (Nat.le_of_lt t.isLt) := by
  dsimp only [dat8]; simp only [Fin.coe_castSucc]

/-! ## The grid's coordinates and the conditions in closed form -/

theorem stride8_0 : grid8.stride 0 = 123 := by decide
theorem stride8_1 : grid8.stride 1 = 1 := by decide
theorem coords8_0 (t : Fin grid8.N) : (grid8.coords t 0).val = t.val / 123 % 50 := by
  show t.val / grid8.stride 0 % grid8.bound 0 = _; rw [stride8_0]; rfl
theorem coords8_1 (t : Fin grid8.N) : (grid8.coords t 1).val = t.val % 123 := by
  show t.val / grid8.stride 1 % grid8.bound 1 = _; rw [stride8_1, Nat.div_one]; rfl

theorem cond8_1_iff (i : grid8.Coords) : cond8_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond8_3_iff (i : grid8.Coords) : cond8_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle8_5_of (t : Fin (cfgM8 a).N) (h : cond8_3 (grid8.coords t)) : (cfgM8 a).idle 5 (grid8.coords t) = false := by
  show (!(k8_cond3 (grid8.coords t) == 1#1)) = false
  rw [show k8_cond3 (grid8.coords t) = 1#1 from h]; rfl
theorem idle8_5_of_not (t : Fin (cfgM8 a).N) (h : ¬cond8_3 (grid8.coords t)) : (cfgM8 a).idle 5 (grid8.coords t) = true := by
  show (!(k8_cond3 (grid8.coords t) == 1#1)) = true
  rw [Bool.not_eq_true', beq_eq_false_iff_ne]; exact h

end Region

end Cert.Kernel.Hand

end
-- ==== Proof.K.Scatter8Runs.lean ====
import proofs.«415143_j42460046688958_3_alg».proof.Proof.K.Scatter8Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec8_zero8 : (![0, 0] : Fin 2 → ℕ) = fun _ => 0 := by funext b; fin_cases b <;> rfl

/-- A load of a whole memref held at contents that read `X` reads `X`. -/
theorem readAt_whole_unread8 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole8 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole8 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay8_congr8 (i : grid8.Coords) {u u' : Vec F S1x5120 .i32} {v v' : Vec F S5120x128 .f32} {s s' : Vec F S2000x128 .f32}
    (hu : u = u') (hv : v = v') (hs : s = s') : k8_pay2 i u v s = k8_pay2 i u' v' s' := by rw [hu, hv, hs]
theorem pay3_congr8 {u u' : Vec F S2000x128 .f32} {v v' : Vec F S128x128 .f32} {s s' : Vec F S2000x128 .f32} {b b' : Vec F S1x128 .f32}
    (hu : u = u') (hv : v = v') (hs : s = s') (hb : b = b') : k8_pay3 u v s b = k8_pay3 u' v' s' b' := by rw [hu, hv, hs, hb]

theorem acc8_TT (i : grid8.Coords) (wlo whi : Elt F .i32) (x0 : Vec F S1x5120 .i32) (x1 : Vec F S5120x128 .f32) (xs : Vec F S2000x128 .f32)
    (h1 : cond8_1 i) (h2 : cond8_2 i wlo whi) : acc8 i wlo whi x0 x1 xs = k8_pay2 i x0 x1 (k8_pay1 : Vec F S2000x128 .f32) := by
  unfold acc8; rw [if_pos h2, if_pos h1]
theorem acc8_TF (i : grid8.Coords) (wlo whi : Elt F .i32) (x0 : Vec F S1x5120 .i32) (x1 : Vec F S5120x128 .f32) (xs : Vec F S2000x128 .f32)
    (h1 : cond8_1 i) (h2 : ¬cond8_2 i wlo whi) : acc8 i wlo whi x0 x1 xs = (k8_pay1 : Vec F S2000x128 .f32) := by
  unfold acc8; rw [if_neg h2, if_pos h1]
theorem acc8_FT (i : grid8.Coords) (wlo whi : Elt F .i32) (x0 : Vec F S1x5120 .i32) (x1 : Vec F S5120x128 .f32) (xs : Vec F S2000x128 .f32)
    (h1 : ¬cond8_1 i) (h2 : cond8_2 i wlo whi) : acc8 i wlo whi x0 x1 xs = k8_pay2 i x0 x1 xs := by
  unfold acc8; rw [if_pos h2, if_neg h1]
theorem acc8_FF (i : grid8.Coords) (wlo whi : Elt F .i32) (x0 : Vec F S1x5120 .i32) (x1 : Vec F S5120x128 .f32) (xs : Vec F S2000x128 .f32)
    (h1 : ¬cond8_1 i) (h2 : ¬cond8_2 i wlo whi) : acc8 i wlo whi x0 x1 xs = xs := by
  unfold acc8; rw [if_neg h2, if_neg h1]

set_option maxHeartbeats 4000000 in
/-- The body in the control case A: the accumulator zeroed, the table words bracketing the row block, the output not stored. -/
theorem sound_kernel8_A (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : cond8_1 i) (hc2 : cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay2 i x0 x1 (k8_pay1 : Vec F S2000x128 .f32)) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readCov_whole8 arg12 vec8_zero8 _ _ _))
  isplitl [HT0]; · iexact HT0
  iexact HT1

set_option maxHeartbeats 4000000 in
/-- The body in the control case B: the accumulator zeroed, the table words not bracketing the row block, the output not stored. -/
theorem sound_kernel8_B (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : cond8_1 i) (hc2 : ¬cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay1 : Vec F S2000x128 .f32) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _)
  isplitl [HT0]; · iexact HT0
  iexact HT1

set_option maxHeartbeats 4000000 in
/-- The body in the control case C: the accumulator not zeroed, the table words bracketing the row block, the output not stored. -/
theorem sound_kernel8_C (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay2 i x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readAt_whole_unread8 arg12 harg12 xs vec8_zero8 _))
  isplitl [HT0]; · iexact HT0
  iexact HT1

set_option maxHeartbeats 4000000 in
/-- The body in the control case D: the accumulator not zeroed, the table words not bracketing the row block, the output not stored. -/
theorem sound_kernel8_D (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : ¬cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel8_E (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : cond8_2 i (wd8_0 c i xt0) (wd8_1 c i xt1)) (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 (k8_pay2 i x0 x1 xs) x4)
            ∗ owns (c : Thread nD τ) arg12 fullShare (k8_pay2 i x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole8 arg11 _ vec8_zero8 _ _ _).trans (pay3_congr8 (readAt_whole_unread8 arg8 harg8 x2 vec8_zero8 _) (readAt_whole_unread8 arg9 harg9 x3 vec8_zero8 _) ((readCov_whole8 arg12 vec8_zero8 _ _ _).trans (pay8_congr8 i (readAt_whole_unread8 arg6 harg6 x0 vec8_zero8 _) (readAt_whole_unread8 arg7 harg7 x1 vec8_zero8 _) (readAt_whole_unread8 arg12 harg12 xs vec8_zero8 _))) (readAt_whole_unread8 arg10 harg10 x4 vec8_zero8 _))
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readAt_whole_unread8 arg12 harg12 xs vec8_zero8 _))
  isplitl [HT0]; · iexact HT0
  iexact HT1

set_option maxHeartbeats 4000000 in
/-- The body in the control case F: the accumulator not zeroed, the table words not bracketing the row block, the output stored. -/
theorem sound_kernel8_F (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : ¬cond8_2 i (wd8_0 c i xt0) (wd8_1 c i xt1)) (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 xs x4)
            ∗ owns (c : Thread nD τ) arg12 fullShare xs ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole8 arg11 _ vec8_zero8 _ _ _).trans (pay3_congr8 (readAt_whole_unread8 arg8 harg8 x2 vec8_zero8 _) (readAt_whole_unread8 arg9 harg9 x3 vec8_zero8 _) (readAt_whole_unread8 arg12 harg12 xs vec8_zero8 _) (readAt_whole_unread8 arg10 harg10 x4 vec8_zero8 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel8_idle (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc8 i (wd8_0 c i xt0) (wd8_1 c i xt1) x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  by_cases h1 : cond8_1 i <;> by_cases h2 : cond8_2 i (wd8_0 c i xt0) (wd8_1 c i xt1)
  · rw [acc8_TT _ _ _ _ _ _ h1 h2]; exact sound_kernel8_A c E i arg6 harg6 arg7 harg7 arg8 harg8 arg9 harg9 arg10 harg10 arg11 harg11 arg12 harg12 x0 x1 x2 x3 x4 xs xo xt0 xt1 h1 h2 hc3 K
  · rw [acc8_TF _ _ _ _ _ _ h1 h2]; exact sound_kernel8_B c E i arg6 harg6 arg7 harg7 arg8 harg8 arg9 harg9 arg10 harg10 arg11 harg11 arg12 harg12 x0 x1 x2 x3 x4 xs xo xt0 xt1 h1 h2 hc3 K
  · rw [acc8_FT _ _ _ _ _ _ h1 h2]; exact sound_kernel8_C c E i arg6 harg6 arg7 harg7 arg8 harg8 arg9 harg9 arg10 harg10 arg11 harg11 arg12 harg12 x0 x1 x2 x3 x4 xs xo xt0 xt1 h1 h2 hc3 K
  · rw [acc8_FF _ _ _ _ _ _ h1 h2]; exact sound_kernel8_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel8_live (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 (acc8 i (wd8_0 c i xt0) (wd8_1 c i xt1) x0 x1 xs) x4)
            ∗ owns (c : Thread nD τ) arg12 fullShare (acc8 i (wd8_0 c i xt0) (wd8_1 c i xt1) x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  have h1 : ¬cond8_1 i := fun h => by
    have e1 := (cond8_1_iff i).mp h; have e3 := (cond8_3_iff i).mp hc3; omega
  by_cases h2 : cond8_2 i (wd8_0 c i xt0) (wd8_1 c i xt1)
  · rw [acc8_FT _ _ _ _ _ _ h1 h2]; exact sound_kernel8_E c E i arg6 harg6 arg7 harg7 arg8 harg8 arg9 harg9 arg10 harg10 arg11 harg11 arg12 harg12 x0 x1 x2 x3 x4 xs xo xt0 xt1 h1 h2 hc3 K
  · rw [acc8_FF _ _ _ _ _ _ h1 h2]; exact sound_kernel8_F c E i arg6 harg6 arg7 harg7 arg8 harg8 arg9 harg9 arg10 harg10 arg11 harg11 arg12 harg12 x0 x1 x2 x3 x4 xs xo xt0 xt1 h1 h2 hc3 K

end Cert.Kernel.Hand

end
-- ==== Proof.K.Scatter8.lean ====
import proofs.«415143_j42460046688958_3_alg».proof.Proof.K.Scatter8Runs
import proofs.«415143_j42460046688958_3_alg».proof.Proof.K.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush8_5 : ∀ t : Fin (cfgM8 a).N, ((cfgM8 a).win 5).flush t = true ↔ t.val % 123 = 122 :=
  (by decide +kernel : ∀ t : Fin grid8.N, Pipeline.Window.flushOf grid8 true cc8_transform_5 t = true ↔ t.val % 123 = 122)

/-- and at a point that does not store the output it writes nothing back. -/
theorem noFlush8_5 (t : Fin (cfgM8 a).N) (h : ¬cond8_3 (grid8.coords t)) : ((cfgM8 a).win 5).flush t = false := by
  rw [Bool.eq_false_iff]; intro hf
  exact h ((cond8_3_iff _).mpr (by rw [coords8_1]; exact (flush8_5 a t).mp hf))

/-- The tables whole at contents `v`, table by table: what the invariant hands the body and takes back. -/
theorem PhiT8_eq (c : Dev nD) (v : pre8.Contents (Elt F)) :
    (Pipeline.prefHeld (Ix := Unit) (Name := ℕ) (U := UR sig nD τ) (Lvl := ℕ) pre8 c (fun _ => fullShare) v : sProp 𝕄)
      = iprop(tbPt8 c tbM8_0 (v 0) ∗ tbPt8 c tbM8_1 (v 1) ∗ tbPt8 c tbM8_2 (v 2) ∗ tbPt8 c tbM8_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep8_eq_accAt8 (c : Dev nD) (t : Fin (cfgM8 a).N) (d : Vec F S2000x128 .f32)
    (hd : ∀ h0 : t.val ≠ 0, d = accAt8 a V c (t.val - 1) (by omega)) :
    accStep8 a V c t d = accAt8 a V c t.val t.isLt := by
  obtain ⟨n, hn⟩ := t
  cases n with
  | zero =>
    rw [accAt8_zero]; unfold accStep8
    exact acc8_of_cond8_1 _ ((cond8_1_iff _).mpr (by rw [coords8_1]; exact Nat.zero_mod _)) _ _ _ _ _ _
  | succ n =>
    rw [accAt8_succ, hd (Nat.succ_ne_zero n)]; rfl

/-! ## What the body obligation asks of each window's buffer after the body -/

theorem leaves8_0 (c : Dev nD) (t : Fin (cfgM8 a).N) :
    (dat8 a V c).leavesExact 0 t = owns (c : Thread nD τ) (ms8_0 a t) fullShare (iblk8 a V c 0 t) := by
  rw [← after8_0 a V c t]; rfl
theorem leaves8_1 (c : Dev nD) (t : Fin (cfgM8 a).N) :
    (dat8 a V c).leavesExact 1 t = owns (c : Thread nD τ) (ms8_1 a t) fullShare (iblk8 a V c 1 t) := by
  rw [← after8_1 a V c t]; rfl
theorem leaves8_2 (c : Dev nD) (t : Fin (cfgM8 a).N) :
    (dat8 a V c).leavesExact 2 t = owns (c : Thread nD τ) (ms8_2 a t) fullShare (iblk8 a V c 2 t) := by
  rw [← after8_2 a V c t]; rfl
theorem leaves8_3 (c : Dev nD) (t : Fin (cfgM8 a).N) :
    (dat8 a V c).leavesExact 3 t = owns (c : Thread nD τ) (ms8_3 a t) fullShare (iblk8 a V c 3 t) := by
  rw [← after8_3 a V c t]; rfl
theorem leaves8_4 (c : Dev nD) (t : Fin (cfgM8 a).N) :
    (dat8 a V c).leavesExact 4 t = owns (c : Thread nD τ) (ms8_4 a t) fullShare (iblk8 a V c 4 t) := by
  rw [← after8_4 a V c t]; rfl

/-- Where the body stores the output the window is live: its buffer ends at the output block. -/
theorem leaves8_5_live (c : Dev nD) (t : Fin (cfgM8 a).N) (h3 : cond8_3 (grid8.coords t)) :
    (dat8 a V c).leavesExact 5 t = owns (c : Thread nD τ) (ms8_5 a t) fullShare (outAt8 a V c t) := by
  have hi : (Pipeline.pin (pcfgs (F := F)) a 8).idle 5 ((Pipeline.pin (pcfgs (F := F)) a 8).grid.coords t) = false := idle8_5_of a t h3
  unfold Dat.leavesExact; rw [hi]; rfl

/-- Elsewhere it is idle and not written back: its buffer is handed back as found. -/
theorem leaves8_5_idle (c : Dev nD) (t : Fin (cfgM8 a).N) (h3 : ¬cond8_3 (grid8.coords t)) :
    (dat8 a V c).leavesExact 5 t = iprop(∃ d, owns (c : Thread nD τ) (ms8_5 a t) fullShare ((dat8 a V c).before 5 t d)) :=
  Dat.leavesExact_idle (dat8 a V c) 5 t (idle8_5_of_not a t h3) (noFlush8_5 a t h3)

/-! ## The body obligation, at a generic point -/

def bodyPre8 (c : Dev nD) (t : Fin (cfgM8 a).N) : sProp 𝕄 :=
  iprop((dat8 a V c).Φ t.castSucc ∗ (dat8 a V c).owesAt () t.castSucc
    ∗ (∃ d, owns (c : Thread nD τ) (ms8_0 a t) fullShare ((dat8 a V c).before 0 t d))
    ∗ (∃ d, owns (c : Thread nD τ) (ms8_1 a t) fullShare ((dat8 a V c).before 1 t d))
    ∗ (∃ d, owns (c : Thread nD τ) (ms8_2 a t) fullShare ((dat8 a V c).before 2 t d))
    ∗ (∃ d, owns (c : Thread nD τ) (ms8_3 a t) fullShare ((dat8 a V c).before 3 t d))
    ∗ (∃ d, owns (c : Thread nD τ) (ms8_4 a t) fullShare ((dat8 a V c).before 4 t d))
    ∗ (∃ d, owns (c : Thread nD τ) (ms8_5 a t) fullShare ((dat8 a V c).before 5 t d)))

def bodyPost8 (c : Dev nD) (t : Fin (cfgM8 a).N) : sProp 𝕄 :=
  iprop((dat8 a V c).Φ t.succ ∗ (dat8 a V c).owesAt () t.succ
    ∗ (dat8 a V c).leavesExact 0 t
    ∗ (dat8 a V c).leavesExact 1 t
    ∗ (dat8 a V c).leavesExact 2 t
    ∗ (dat8 a V c).leavesExact 3 t
    ∗ (dat8 a V c).leavesExact 4 t
    ∗ (dat8 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body8 (c : Dev nD) (t : Fin (cfgM8 a).N) :
    bodyPre8 a V c t ⊢ wp frame (wpE (defs₀ (F := F)) Variants.none c none) Set.univ (bodyAt8 a t) (fun _ => bodyPost8 a V c t) := by
  unfold bodyPre8 bodyPost8 bodyAt8
  simp only [before8_0, before8_1, before8_2, before8_3, before8_4]
  rw [show (dat8 a V c).owesAt () t.succ = (dat8 a V c).owesAt () t.castSucc from rfl]
  rw [show (dat8 a V c).Φ t.succ = PhiS8 a V c (t.val + 1) t.isLt from rfl, PhiS8_castSucc]
  rw [leaves8_0, leaves8_1, leaves8_2, leaves8_3, leaves8_4]
  unfold PhiS8
  rw [PhiT8_eq]
  by_cases h3 : cond8_3 (grid8.coords t)
  · rw [leaves8_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel8_live c Set.univ (grid8.coords t) _ _ _ _ _ _ _ _ _ _ _ _ _ _ (iblk8 a V c 0 t) (iblk8 a V c 1 t) (iblk8 a V c 2 t) (iblk8 a V c 3 t) (iblk8 a V c 4 t) d ((dat8 a V c).before 5 t d5) ((a 8).1 0) ((a 8).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep8_eq_accAt8 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt8 a V c t = k8_pay3 (iblk8 a V c 2 t) (iblk8 a V c 3 t) (accStep8 a V c t d) (iblk8 a V c 4 t) from by
      unfold outAt8; rw [accStep8_eq_accAt8 a V c t d hd]]
    iexact H5
  · rw [leaves8_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel8_idle c Set.univ (grid8.coords t) _ _ _ _ _ _ _ _ _ _ _ _ _ _ (iblk8 a V c 0 t) (iblk8 a V c 1 t) (iblk8 a V c 2 t) (iblk8 a V c 3 t) (iblk8 a V c 4 t) d ((dat8 a V c).before 5 t d5) ((a 8).1 0) ((a 8).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep8_eq_accAt8 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation8 (c : Dev nD) : BodyObligation (dat8 (F := F) a V c) (defs₀ (F := F)) Variants.none () Set.univ := fun t => by
  rw [bigSep_W8, bigSep_W8]
  exact sound_body8 a V c t

/-- The accumulator's memref is its whole scoped buffer. -/
theorem owns_scM8_eq (c : Dev nD) (d : Vec F S2000x128 .f32) :
    (owns (c : Thread nD τ) scM8 fullShare d : sProp 𝕄) = ((c : Thread nD τ).loc cc8_scratch0 ↦{fullShare} d) := by
  rw [show scM8 = Memref.whole cc8_scratch0 from rfl, owns_whole]

/-- What the region's entry hands over — the generator register, the tables whole at their contents, the scoped buffers
    no window stages — is the invariant before the first point. -/
theorem hin8 (c : Dev nD) :
    iprop(iprop(∃ r, prngReg c r) ∗ Pipeline.prefHeld (Ix := Unit) (Name := ℕ) (U := UR sig nD τ) (Lvl := ℕ) pre8 c (fun _ => fullShare) (a 8).1
        ∗ Pipeline.scopedRest (Ix := Unit) (Name := ℕ) (U := UR sig nD τ) (Lvl := ℕ) (Val := Elt F) spec8 c)
      ⊢ (dat8 a V c).Φ 0 := by
  rw [show (dat8 a V c).Φ 0 = PhiS8 a V c 0 (Nat.zero_le _) from rfl]; unfold PhiS8
  rw [scopedRest8_split]
  iintro ⟨Hg, HT, ⟨%f, Hs⟩, Hrest⟩
  isplitl [Hs]
  · iexists f; isplitr; · ipureintro; intro h0; exact absurd rfl h0
    rw [show scM8 = Memref.whole cc8_scratch0 from rfl, owns_whole]; iexact Hs
  isplitl [Hrest]; · iexact Hrest
  isplitl [Hg]; · iexact Hg
  iexact HT

/-- The invariant after the last point gives them back, the accumulator's named contents forgotten. -/
theorem hout8 (c : Dev nD) :
    (dat8 a V c).Φ (Fin.last (cfgM8 a).N)
      ⊢ iprop(iprop(Pipeline.prefHeld (Ix := Unit) (Name := ℕ) (U := UR sig nD τ) (Lvl := ℕ) pre8 c (fun _ => fullShare) (a 8).1 ∗ ∃ r, prngReg c r)
          ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none, show (dat8 a V c).Φ (Fin.last (cfgM8 a).N) = PhiS8 a V c (cfgM8 a).N (Nat.le_refl _) from rfl]; unfold PhiS8
  rw [scopedRest8_split]
  simp only [owns_scM8_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt8_in (c : Dev nD) (w : Fin (cfgM8 a).W) (hw : ((cfgM8 a).win w).isOut = false) (hne : Pipeline.arrRef spec8 w ≠ main_v145)
    (Vin : Dev nD → Valuation τ sig (Elt F)) (hV : ∀ c b, V c b = Vin c b)
    (x : (Proc.devRef .tc main_v145 : DevRef τ sig).ty.Contents (Elt F)) (n : ℕ) :
    (dat8 a V c).arrAt w n = Function.update (Vin c) main_v145 x (Pipeline.arrRef spec8 w) :=
  ((dat8 a V c).arrAt_in w hw n).trans ((A_eq8 a V c w).trans ((hV c _).trans
    (Function.update_of_ne (StableHlo.devRef_ne_of_ne hne) _ _).symm))

/-- The first five windows are inputs, and none of their arrays is the output's. -/
theorem inputs8_isIn : ∀ w : Fin 6, w.val < 5 → (spec8 w).isOut = false := by decide
theorem inputs8_ne : ∀ w : Fin 6, w.val < 5 → Pipeline.arrRef spec8 w ≠ main_v145 := by decide

/-- At the region's exit every array of the pipeline holds what the exit valuation says: the inputs as entered, the
    output's what the write-backs leave (named `X`, so that nothing unfolds the fold over the grid). -/
theorem hF8 (c : Dev nD) (Vin : Dev nD → Valuation τ sig (Elt F)) (hV : ∀ c b, V c b = Vin c b)
    (X : (Proc.devRef .tc main_v145 : DevRef τ sig).ty.Contents (Elt F)) (hX : (dat8 a V c).arrAt 5 (cfgM8 a).N = X) :
    ∀ w, (dat8 a V c).arrAt w (cfgM8 a).N
      = Function.update (Vin c) main_v145 X (Pipeline.arrRef (Pipeline.pin (pcfgs (F := F)) a 8).spec w) := by
  intro w
  by_cases hw : w.val < 5
  · exact arrAt8_in a V c w (inputs8_isIn w hw) (inputs8_ne w hw) Vin hV X _
  · have hW : w.val < 6 := w.isLt
    obtain ⟨wv, hwv⟩ := w
    obtain rfl : wv = 5 := by simp only at hw hW; omega
    exact hX.trans (Function.update_self (Proc.devRef .tc main_v145 : DevRef τ sig) X (Vin c)).symm

set_option backward.isDefEq.respectTransparency.types false in
/-- REGION 8 over the thread state: entered from every unscoped buffer at `Vin` (whose table buffers hold the tables'
    admissible contents), left with the output array at what the write-backs leave and every other buffer as entered;
    beside them the generator register at some state and the core owing nothing. -/
def reg8 (pdats : (p : Fin 13) → (c : Dev nD) → Dat τ (Elt F) Unit ℕ (UR sig nD τ) ℕ (Pipeline.pin (pcfgs (F := F)) a p) c)
    (h : ∀ c, pdats 8 c = dat8 a V c)
    (Vin : Dev nD → Valuation τ sig (Elt F)) (hV : ∀ c b, V c b = Vin c b)
    (hpf : ∀ c k, Vin c (pre8.ref k) = (a 8).1 k) :
    Pipeline.RegionSeg (pcfgs (F := F)) a pdats () (defs₀ (F := F)) Variants.none (fun _ => ∅) (fun _ _ => 0) 8 where
  win := (launch8 (F := F)).win.to₀
  block_pos := (launch8 (F := F)).block_pos
  stage_whole := (launch8 (F := F)).stage_whole
  K := PEmpty
  osem k := k.elim
  ho := Pipeline.OwnSemFacts.none _
  hbody c := by rw [h c]; exact (body_obligation8 a V c).loose
  hwaits := Pipeline.hwaits_of_owed_zero _ _ _ _ _ _ 8 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v145 ((dat8 a V c).arrAt 5 (cfgM8 a).N)) ∗ iprop((∃ r, prngReg c r) ∗ ∃ W, owes (c : Thread nD τ) (0 : CellTallies nD τ sig Unit) W))
  X c := tblX c
  Y c := tblY a 8 c
  Z c := tblZ a 8 c (Vin c)
  hentry c := tbl_hentry a pdats (launch8 (F := F)) c (Vin c)
    (fun w => by rw [h c, A_eq8]; exact hV c _)
    (by rw [h c]; exact (dat8 a V c).share_full fun _ => rfl)
    (by rw [h c]; rfl) (by rw [h c]; rfl) (hpf c)
  hin c := by rw [h c]; exact hin8 a V c
  hout c := by rw [h c]; exact hout8 a V c
  hexit c := tbl_hexit a pdats (launch8 (F := F)) c (Vin c) (Function.update (Vin c) main_v145 ((dat8 a V c).arrAt 5 (cfgM8 a).N))
    (by rw [h c]; exact (dat8 a V c).share_full fun _ => rfl)
    (by rw [h c]; exact hF8 a V c Vin hV _ rfl)
    (upd_rest a (p := 8) (Vin c) 5 _)
    (by rw [h c]; rfl) (hpf c)

end Region8

end Cert.Kernel.Hand

end
-- ==== Proof.K.Dense9.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 9, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.Kernel.Launch
import proofs.«415143_j42460046688958_3_alg».proof.Proof.Gen.Kernel.Skeleton
import proofs.«415143_j42460046688958_3_alg».proof.Proof.Gen.Kernel.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

-- the contents of the prefetched tables of the program's other pipelines: region 9 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The row block of x is in its staging buffer at every point: it is fetched at every point. Stated for any proof
    data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weight is in its staging buffer at every point although it is fetched at the first only: its block index never
    moves, and the body leaves the buffer as it finds it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S2000x128 := Rect.unit (s := S2000x128) ![0, 0] S2000x128.size inb_S2000x128_S2000x128_0_0
abbrev r9_1 : Rect S128x128 := Rect.unit (s := S128x128) ![0, 0] S128x128.size inb_S128x128_S128x128_0_0

/-! ## What the body leaves in the output block -/

/-- The output block after the body, from the two input blocks: its one store, of the product payload, over the
    whole block. -/
def out9_2 (x0 : Vec F S2000x128 .f32) (x1 : Vec F S128x128 .f32) : Vec F S2000x128 .f32 :=
  View.canon [⟨r9_0, k9_pay1 (View.ld x0 r9_0) (View.ld x1 r9_1)⟩]

/-- The one store covers the block. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The body on whole staging memrefs, the inputs' at read contents x0, x1 and the output's at anything, runs to the
    continuation holding the inputs' as they were and the output's at out9_2 x0 x1. The load of the output buffer
    before the store reads contents nothing depends on. -/
theorem sound_kernel9 (c : Dev nD) (E : Set ℕ) (i : grid9.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__dense_matmul_kernel i arg1 harg1 arg2 harg2 arg3 harg3) K := by
  simp only [cc9__dense_matmul_kernel_eq_skeleton]; unfold cc9__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data on core c, over the printed configuration: the arrays as the region finds them; after the body at
    point t each input's buffer at its block and the output's at out9_2 of the two blocks; the invariant the scoped rest
    and the generator register, untouched; nothing owed; full shares. -/
def dat9c (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The same as proof data of pipeline 9 of the program's family, pinned at any contents a of the tables: pipeline 9
    prefetches nothing, and pinned it is the printed configuration again. -/
abbrev dat9 (c : Dev nD) : Dat τ (Elt F) Unit ℕ (UR sig nD τ) ℕ (Pipeline.pin (pcfgs (F := F)) a 9) c := dat9c V c

theorem A_eq9 (c : Dev nD) (w : Fin cfg9.W) : (dat9c V c).A w = V c (Pipeline.arrRef spec9 w) := by
  dsimp only [dat9c]

theorem after9_0 (c : Dev nD) (t : Fin cfg9.N) : (dat9c V c).after 0 t = iblk9 V c 0 t := by dsimp only [dat9c]
theorem after9_1 (c : Dev nD) (t : Fin cfg9.N) : (dat9c V c).after 1 t = iblk9 V c 1 t := by dsimp only [dat9c]
theorem after9_2 (c : Dev nD) (t : Fin cfg9.N) : (dat9c V c).after 2 t = out9_2 (iblk9 V c 0 t) (iblk9 V c 1 t) := by dsimp only [dat9c]

theorem before9_0 (c : Dev nD) (t : Fin cfg9.N) (d) : (dat9c V c).before 0 t d = iblk9 V c 0 t :=
  before9_0_of V (dat9c V c) (A_eq9 V c 0) (after9_0 V c) t d
theorem before9_1 (c : Dev nD) (t : Fin cfg9.N) (d) : (dat9c V c).before 1 t d = iblk9 V c 1 t :=
  before9_1_of V (dat9c V c) (A_eq9 V c 1) (after9_1 V c) t d

/-! ## The body obligation, at a generic point -/

/-- What the body is called with at point t, the windows one by one, -/
def bodyPre9 (c : Dev nD) (t : Fin cfg9.N) : sProp 𝕄 :=
  iprop((dat9c V c).Φ t.castSucc ∗ (dat9c V c).owesAt () t.castSucc
    ∗ (∃ d, owns (c : Thread nD τ) (st9_0 t) fullShare ((dat9c V c).before 0 t d))
    ∗ (∃ d, owns (c : Thread nD τ) (st9_1 t) fullShare ((dat9c V c).before 1 t d))
    ∗ (∃ d, owns (c : Thread nD τ) (st9_2 t) fullShare ((dat9c V c).before 2 t d)))

/-- and what it returns. -/
def bodyPost9 (c : Dev nD) (t : Fin cfg9.N) : sProp 𝕄 :=
  iprop((dat9c V c).Φ t.succ ∗ (dat9c V c).owesAt () t.succ
    ∗ owns (c : Thread nD τ) (st9_0 t) fullShare ((dat9c V c).after 0 t)
    ∗ owns (c : Thread nD τ) (st9_1 t) fullShare ((dat9c V c).after 1 t)
    ∗ owns (c : Thread nD τ) (st9_2 t) fullShare ((dat9c V c).after 2 t))

/-- The body at any point: the inputs' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9c V c).Φ t.succ = (dat9c V c).Φ t.castSucc from rfl,
    show (dat9c V c).owesAt () t.succ = (dat9c V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation9c (c : Dev nD) : BodyObligation (dat9c (F := F) V c) (defs₀ (F := F)) Variants.none () Set.univ := fun t => by
  rw [bigSep_W9, bigSep_W9]
  exact sound_body9 V c t

/-- The same of the pinned pipeline's proof data. -/
theorem body_obligation9 (c : Dev nD) : BodyObligation (dat9 (F := F) a V c) (defs₀ (F := F)) Variants.none () Set.univ :=
  body_obligation9c V c

end Region9

/-! ## The exit valuation: the entry valuation with the result array replaced -/

section Exit9

variable (W : Valuation τ sig (Elt F)) (c : Dev nD) (x : Buf (Elt F) ((c : Thread nD τ).loc main_v148))

/-- The array of x is not the result array: the replacement leaves it. -/
theorem upd9_in0 : Function.update W main_v148 x (Pipeline.arrRef spec9 0 : Ref sig .tc) = W (Pipeline.arrRef spec9 0 : Ref sig .tc) :=
  Function.update_of_ne (StableHlo.devRef_ne_of_ne (show Pipeline.arrRef spec9 0 ≠ main_v148 by decide)) _ _
/-- Nor is the weight's. -/
theorem upd9_in1 : Function.update W main_v148 x (Pipeline.arrRef spec9 1 : Ref sig .tc) = W (Pipeline.arrRef spec9 1 : Ref sig .tc) :=
  Function.update_of_ne (StableHlo.devRef_ne_of_ne (show Pipeline.arrRef spec9 1 ≠ main_v148 by decide)) _ _
/-- Window 2's array is the result array. -/
theorem upd9_out : Function.update W main_v148 x (Pipeline.arrRef spec9 2 : Ref sig .tc) = x :=
  Function.update_self _ _ _
/-- A buffer that is no window's array is not the result array. -/
theorem upd9_rest (b : Ref sig .tc) (hb : b ∉ Finset.univ.image (Pipeline.arrRef spec9)) : Function.update W main_v148 x b = W b :=
  Function.update_of_ne (StableHlo.devRef_ne_of_ne fun e => hb (Finset.mem_image.mpr ⟨2, Finset.mem_univ _, e.symm⟩)) _ _

end Exit9

/-! ## The region as a segment of @main -/

-- a library lemma stated over the pinned pipeline unifies with the printed configuration only when unification may
-- unfold plain definitions in a metavariable's type
set_option backward.isDefEq.respectTransparency.types false in
set_option maxHeartbeats 2000000 in
/-- REGION 9 over the thread state, for any family of proof data whose pipeline 9 is dat9 at the entry valuation Vin:
    entered from every unscoped buffer at Vin, left at Vin with the result array main_v148 replaced by what the
    write-backs of the 50 points leave. Its arrays split out of the unscoped buffers and put back at the exit contents;
    the generator register into the invariant and out; nothing owed; no semaphore of the kernel's own. -/
def reg9 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 9 c = dat9 a (fun c b => Vin c b) c) :
    Pipeline.RegionSeg (pcfgs (F := F)) a pdats () defs₀ Variants.none (fun _ : GSem nD τ sig => (∅ : Finset Unit)) (fun (_ : GSem nD τ sig) (_ : Unit) => (0 : ℕ)) 9 where
  win := (launch9 (F := F)).win.to₀
  block_pos := (launch9 (F := F)).block_pos
  stage_whole := (launch9 (F := F)).stage_whole
  K := PEmpty
  osem k := k.elim
  ho := Pipeline.OwnSemFacts.none _
  hbody c := by rw [h c]; exact (body_obligation9 a (fun c b => Vin c b) c).loose
  hwaits := Pipeline.hwaits_of_owed_zero _ _ _ _ _ _ 9 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v148 ((dat9 a (fun c b => Vin c b) c).arrAt (2 : Fin 3) cfg9.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (fun b => Vin c b)
  hentry c := by
    have hd := h c
    rw [Pipeline.ownSems0_none]
    have hsplit := Pipeline.arrays_of_unscopedBufs (p := 9) (pcfgs (F := F)) a pdats (launch9 (F := F)).win (launch9 (F := F)).arr_whole c
      (by rw [hd]; exact (dat9 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat9 a (fun c b => Vin c b) c).Φ 0 = Pipeline.ΦA spec9 c from rfl]; unfold Pipeline.ΦA
    iintro ⟨Hp, -, Hr⟩
    isplitl [Hr]; · iexact Hr
    iexact Hp
  hout c := by
    rw [Pipeline.ownSems0_none, h c, show (dat9 a (fun c b => Vin c b) c).Φ (Fin.last _) = Pipeline.ΦA spec9 c from rfl]; unfold Pipeline.ΦA
    iintro ⟨Hr, Hp⟩
    isplitl [Hp]; · iexact Hp
    isplitr; · iempintro
    iexact Hr
  hexit c := by
    have hd := h c
    have hF : ∀ w : Fin 3, (dat9c (fun c b => Vin c b) c).arrAt w cfg9.N
        = Function.update (Vin c) main_v148 ((dat9 a (fun c b => Vin c b) c).arrAt (2 : Fin 3) cfg9.N) (Pipeline.arrRef spec9 w) := fun
      | ⟨0, _⟩ => (((dat9c (fun c b => Vin c b) c).arrAt_in 0 rfl _).trans (A_eq9 (fun c b => Vin c b) c 0)).trans (upd9_in0 (Vin c) c _).symm
      | ⟨1, _⟩ => (((dat9c (fun c b => Vin c b) c).arrAt_in 1 rfl _).trans (A_eq9 (fun c b => Vin c b) c 1)).trans (upd9_in1 (Vin c) c _).symm
      | ⟨2, _⟩ => (upd9_out (Vin c) c _).symm
    have hrest : ∀ b : Ref sig .tc, b ∉ Finset.univ.image (Pipeline.arrRef spec9)
        → Function.update (Vin c) main_v148 ((dat9 a (fun c b => Vin c b) c).arrAt (2 : Fin 3) cfg9.N) b = Vin c b :=
      fun b hb => upd9_rest (Vin c) c _ b hb
    have hjoin := Pipeline.unscopedBufs_of_arrays (p := 9) (pcfgs (F := F)) a (Ix := Unit) (Name := ℕ) (U := UR sig nD τ) (Lvl := ℕ)
      (launch9 (F := F)).win (launch9 (F := F)).arr_whole c pdats (by rw [hd]; exact (dat9 a (fun c b => Vin c b) c).share_full fun _ => rfl)
      (fun b => Vin c b) (fun b => Function.update (Vin c) main_v148 ((dat9 a (fun c b => Vin c b) c).arrAt (2 : Fin 3) cfg9.N) b)
      ((pdats 9 c).arrAt · cfg9.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.Kernel.Hand

end
-- ==== Proof.K.Gather10Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 10): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 10).1`, which are never evaluated. -/

/-! ## The pipeline at the admitted tables -/

/-- Pipeline 1 at the admitted contents of its two prefetched tables. -/
abbrev cfgG10 : Pipeline.Cfg sig Λ₀ := Pipeline.pin (pcfgs (F := F)) a 10

/-- Window `w`'s block at point `t`, read off its array as the region finds it (`V`); for the window whose index map
    reads the tables, a function of the tables' words. -/
def iblk10 (c : Dev nD) (w : Fin (cfgG10 a).W) (t : Fin (cfgG10 a).N) : (((cfgG10 a).win w).xblock ((cfgG10 a).grid.coords t)).Idx → Elt F ((cfgG10 a).win w).elt :=
  (((cfgG10 a).win w).blk t).view.read (Elt F) (V c (Pipeline.arrRef spec10 w))

/-! ## The tables as the body is handed them -/

abbrev tbM10_0 : Memref sig .tc .smem S123 .i32 := Memref.whole main_v86
abbrev htbM10_0 : tbM10_0.IsWhole := Memref.isWhole_whole _
abbrev tbM10_1 : Memref sig .tc .smem S123 .i32 := Memref.whole main_v89
abbrev htbM10_1 : tbM10_1.IsWhole := Memref.isWhole_whole _

/-- A table memref's buffer on core `c`: its contents type, and it held whole at `f`. -/
abbrev TbBuf10 (c : Dev nD) {S : Shape} {e : EltTy} (M : Memref sig .tc .smem S e) : Type := Buf (Elt F) (M.view.loc (c : Thread nD τ))
abbrev tbPt10 (c : Dev nD) {S : Shape} {e : EltTy} (M : Memref sig .tc .smem S e) (f : TbBuf10 (F := F) c M) : sProp 𝕄 :=
  M.view.loc (c : Thread nD τ) ↦{fullShare} f

/-- The word of a table the body loads at row `i 0`. -/
abbrev tword10 (c : Dev nD) (M : Memref sig .tc .smem S123 .i32) (i : grid10.Coords) (xt : TbBuf10 (F := F) c M) : Elt F .i32 :=
  M.view.readAt (Elt F) (Rect.unit (s := S123) (k10_off1 i) S1.size (k10_off1_inb i)).toLoadRect xt (Shape.Idx.first (numel1_S1.symm ▸ Nat.one_pos))

/-! ## The body's branch conditions -/

/-- `j = 0`: the accumulator is reset. -/
abbrev cond10_0 (i : grid10.Coords) : Prop := (Scalar.cmpi .ne (Scalar.extui (Scalar.cmpi .eq (BitVec.ofNat 32 (i 1).val) 0#32)) 0#32) = 1#1
theorem hcond10_0 : ∀ t : Fin grid10.N, cond10_0 (grid10.coords t) ↔ t.val % 125 = 0 := by decide +kernel
/-- `rlo[i] ≤ j ≤ rhi[i]` (signed), over the two table words: the block contributes. -/
abbrev cond10_1 (i : grid10.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond10_2 (i : grid10.Coords) : Prop := k10_cond3 i = 1#1
theorem hcond10_2 : ∀ t : Fin grid10.N, cond10_2 (grid10.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep10 (i : grid10.Coords) (x0 : Vec F S1x5120 .i32) (x1 : Vec F S800x128 .f32) (lo hi : BitVec 32) (xs : Vec F S5120x128 .f32) : Vec F S5120x128 .f32 :=
  if cond10_1 i lo hi then k10_pay2 i x0 x1 (if cond10_0 i then k10_pay1 (F := F) else xs) else (if cond10_0 i then k10_pay1 (F := F) else xs)

/-- The output window's buffer after the body: the scaled accumulator when `j = 124`, else what it held. -/
def outStep10 (i : grid10.Coords) (acc : Vec F S5120x128 .f32) (x2 : Vec F S5120x1 .f32) (xi3 : Vec F S5120x128 .f32) : Vec F S5120x128 .f32 :=
  if cond10_2 i then k10_pay3 acc x2 else xi3

/-- At a point that resets, what the scratch held before does not matter. -/
theorem accStep10_reset (i : grid10.Coords) (h : cond10_0 i) (x0 : Vec F S1x5120 .i32) (x1 : Vec F S800x128 .f32) (lo hi : BitVec 32) (xs xs' : Vec F S5120x128 .f32) :
    accStep10 i x0 x1 lo hi xs = accStep10 i x0 x1 lo hi xs' := by
  unfold accStep10; rw [if_pos h, if_pos h]

theorem outStep10_pos (i : grid10.Coords) (h : cond10_2 i) (acc : Vec F S5120x128 .f32) (x2 : Vec F S5120x1 .f32) (xi3 : Vec F S5120x128 .f32) :
    outStep10 i acc x2 xi3 = k10_pay3 acc x2 := by unfold outStep10; exact if_pos h
theorem outStep10_neg (i : grid10.Coords) (h : ¬cond10_2 i) (acc : Vec F S5120x128 .f32) (x2 : Vec F S5120x1 .f32) (xi3 : Vec F S5120x128 .f32) :
    outStep10 i acc x2 xi3 = xi3 := by unfold outStep10; exact if_neg h

/-! ## The schedule of the output window, whose index map reads no table -/

/-- The output block is written back at the last `j` of each `i`. -/
theorem flush10_3 : ∀ t : Fin (cfgG10 a).N, ((cfgG10 a).win 3).flush t = true ↔ t.val % 125 = 124 :=
  (by decide +kernel : ∀ t : Fin grid10.N, Pipeline.Window.flushOf grid10 true cc10_transform_3 t = true ↔ t.val % 125 = 124)

/-- The inputs are never idle. -/
theorem liveAt10_0 (t : Fin (cfgG10 a).N) : (cfgG10 a).idle 0 ((cfgG10 a).grid.coords t) = false := rfl
theorem liveAt10_1 (t : Fin (cfgG10 a).N) : (cfgG10 a).idle 1 ((cfgG10 a).grid.coords t) = false := rfl
theorem liveAt10_2 (t : Fin (cfgG10 a).N) : (cfgG10 a).idle 2 ((cfgG10 a).grid.coords t) = false := rfl
/-- The output is idle exactly where the body does not store it. -/
theorem idle10_3_eq (i : grid10.Coords) : (cfgG10 a).idle 3 i = !(k10_cond3 i == 1#1) := rfl
theorem idleAt10_3 (t : Fin (cfgG10 a).N) (h : ¬cond10_2 (grid10.coords t)) : (cfgG10 a).idle 3 ((cfgG10 a).grid.coords t) = true := by
  show (!(k10_cond3 (grid10.coords t) == 1#1)) = true
  rw [beq_eq_false_iff_ne.mpr h]; rfl
theorem liveAt10_3 (t : Fin (cfgG10 a).N) (h : cond10_2 (grid10.coords t)) : (cfgG10 a).idle 3 ((cfgG10 a).grid.coords t) = false := by
  show (!(k10_cond3 (grid10.coords t) == 1#1)) = false
  rw [show k10_cond3 (grid10.coords t) = 1#1 from h]; rfl
theorem noFlush10_3 (t : Fin (cfgG10 a).N) (h : ¬cond10_2 (grid10.coords t)) : ((cfgG10 a).win 3).flush t = false := by
  rw [Bool.eq_false_iff]; intro hf; exact h ((hcond10_2 t).mpr ((flush10_3 a t).mp hf))

/-! ## The memrefs the body is called with at a point -/

abbrev ms10_0 (t : Fin (cfgG10 a).N) : Memref sig .tc .vmem S1x5120 .i32 := spec10_0.stage ((cfgG10 a).slots t 0)
abbrev hs10_0 (t : Fin (cfgG10 a).N) : (ms10_0 a t).IsWhole := hstage10_0 (((cfgG10 a).slots t 0).cast nbuf10_0)
abbrev ms10_1 (t : Fin (cfgG10 a).N) : Memref sig .tc .vmem S800x128 .f32 := spec10_1.stage ((cfgG10 a).slots t 1)
abbrev hs10_1 (t : Fin (cfgG10 a).N) : (ms10_1 a t).IsWhole := hstage10_1 (((cfgG10 a).slots t 1).cast nbuf10_1)
abbrev ms10_2 (t : Fin (cfgG10 a).N) : Memref sig .tc .vmem S5120x1 .f32 := spec10_2.stage ((cfgG10 a).slots t 2)
abbrev hs10_2 (t : Fin (cfgG10 a).N) : (ms10_2 a t).IsWhole := hstage10_2 (((cfgG10 a).slots t 2).cast nbuf10_2)
abbrev ms10_3 (t : Fin (cfgG10 a).N) : Memref sig .tc .vmem S5120x128 .f32 := spec10_3.stage ((cfgG10 a).slots t 3)
abbrev hs10_3 (t : Fin (cfgG10 a).N) : (ms10_3 a t).IsWhole := hstage10_3 (((cfgG10 a).slots t 3).cast nbuf10_3)
/-- The scratch accumulator: a whole scoped buffer of the kernel's own. -/
abbrev scM10 : Memref sig .tc .vmem S5120x128 .f32 := Memref.whole cc10_scratch0

/-- The kernel body at point `t`, on what the pipeline calls it with. -/
abbrev bodyAt10 (t : Fin (cfgG10 a).N) : Prog (TpuEff nD τ sig (Elt F) Λ₀ .tc) PUnit :=
  cc10__gather_kernel (grid10.coords t) tbM10_0 htbM10_0 tbM10_1 htbM10_1 (ms10_0 a t) (hs10_0 a t) (ms10_1 a t) (hs10_1 a t) (ms10_2 a t) (hs10_2 a t) (ms10_3 a t) (hs10_3 a t) scM10 (Memref.isWhole_whole _)

/-! ## The tables' words at a point, and the accumulator point by point -/

/-- The words of the two tables at the row of point `t` (`rlo[i]`, `rhi[i]`), as the body loads them. -/
abbrev lo10 (c : Dev nD) (t : Fin (cfgG10 a).N) : BitVec 32 := tword10 c tbM10_0 (grid10.coords t) ((a 10).1 0)
abbrev hi10 (c : Dev nD) (t : Fin (cfgG10 a).N) : BitVec 32 := tword10 c tbM10_1 (grid10.coords t) ((a 10).1 1)

/-- THE ACCUMULATION. What the scratch holds after the body at position `n`, by recursion on the position: one step
    (`accStep10`: reset at `j = 0`, the gated one-hot product added) over what it held after the position before. -/
def accAt10 (c : Dev nD) : (n : ℕ) → n < (cfgG10 a).N → Vec F S5120x128 .f32
  | 0, hn => accStep10 (grid10.coords ⟨0, hn⟩) (iblk10 a V c 0 ⟨0, hn⟩) (iblk10 a V c 1 ⟨0, hn⟩) (lo10 a c ⟨0, hn⟩) (hi10 a c ⟨0, hn⟩) (k10_pay1 (F := F))
  | n + 1, hn => accStep10 (grid10.coords ⟨n + 1, hn⟩) (iblk10 a V c 0 ⟨n + 1, hn⟩) (iblk10 a V c 1 ⟨n + 1, hn⟩) (lo10 a c ⟨n + 1, hn⟩) (hi10 a c ⟨n + 1, hn⟩) (accAt10 c n (Nat.lt_of_succ_lt hn))

/-- One step at any point, over any `xs` that is what the point before left when there is one. -/
theorem accAt10_step (c : Dev nD) (t : Fin (cfgG10 a).N) (xs : Vec F S5120x128 .f32)
    (hxs : ∀ hz : t.val ≠ 0, xs = accAt10 a V c (t.val - 1) (Nat.lt_of_le_of_lt (Nat.sub_le _ _) t.isLt)) :
    accAt10 a V c t.val t.isLt = accStep10 (grid10.coords t) (iblk10 a V c 0 t) (iblk10 a V c 1 t) (lo10 a c t) (hi10 a c t) xs := by
  obtain ⟨n, hn⟩ := t
  cases n with
  | zero => exact accStep10_reset _ ((hcond10_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB10 (c : Dev nD) : sProp 𝕄 :=
  Pipeline.scopedRestBut (Ix := Unit) (Name := ℕ) (U := UR sig nD τ) (Lvl := ℕ) (Val := Elt F) spec10 c [cc10_scratch0]
/-- The two tables, whole, at the admitted contents. -/
abbrev tabs10 (c : Dev nD) : sProp 𝕄 :=
  Pipeline.prefHeld (Ix := Unit) (Name := ℕ) (U := UR sig nD τ) (Lvl := ℕ) pre10 c (fun _ => fullShare) (a 10).1

/-- The region invariant before position `n`: before the first point the scoped rest and the generator register as the
    region finds them; afterwards the scratch at what the point before left; at every point the tables whole. -/
def PhiS10 (c : Dev nD) : (n : ℕ) → n ≤ (cfgG10 a).N → sProp 𝕄
  | 0, _ => iprop(Pipeline.ΦA spec10 c ∗ tabs10 a c)
  | n + 1, hn => iprop(iprop(iprop(owns (c : Thread nD τ) scM10 fullShare (accAt10 a V c n hn) ∗ restB10 c) ∗ (∃ r, prngReg c r)) ∗ tabs10 a c)

theorem PhiS10_succ (c : Dev nD) (n : ℕ) (hn : n < (cfgG10 a).N) :
    PhiS10 a V c (n + 1) hn = iprop(iprop(iprop(owns (c : Thread nD τ) scM10 fullShare (accAt10 a V c n hn) ∗ restB10 c) ∗ (∃ r, prngReg c r)) ∗ tabs10 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS10`;
    nothing owed; full shares. -/
def dat10 (c : Dev nD) : Dat τ (Elt F) Unit ℕ (UR sig nD τ) ℕ (Pipeline.pin (pcfgs (F := F)) a 10) c where
  A w := V c (Pipeline.arrRef spec10 w)
  after w t := match w with
    | ⟨0, _⟩ => iblk10 a V c 0 t
    | ⟨1, _⟩ => iblk10 a V c 1 t
    | ⟨2, _⟩ => iblk10 a V c 2 t
    | ⟨3, _⟩ => k10_pay3 (accAt10 a V c t.val t.isLt) (iblk10 a V c 2 t)
  Φ t := PhiS10 a V c t.val (Nat.le_of_lt_succ t.isLt)
  q _ := fullShare
  owed _ := 0

theorem A_eq10 (c : Dev nD) (w : Fin (cfgG10 a).W) : (dat10 a V c).A w = V c (Pipeline.arrRef spec10 w) := by
  dsimp only [dat10]

theorem after10_0 (c : Dev nD) (t : Fin (cfgG10 a).N) : (dat10 a V c).after 0 t = iblk10 a V c 0 t := by dsimp only [dat10]; try rfl
theorem after10_1 (c : Dev nD) (t : Fin (cfgG10 a).N) : (dat10 a V c).after 1 t = iblk10 a V c 1 t := by dsimp only [dat10]; try rfl
theorem after10_2 (c : Dev nD) (t : Fin (cfgG10 a).N) : (dat10 a V c).after 2 t = iblk10 a V c 2 t := by dsimp only [dat10]; try rfl
theorem after10_3 (c : Dev nD) (t : Fin (cfgG10 a).N) :
    (dat10 a V c).after 3 t = k10_pay3 (accAt10 a V c t.val t.isLt) (iblk10 a V c 2 t) := by dsimp only [dat10]; try rfl

theorem PhiS10_castSucc (c : Dev nD) (t : Fin (cfgG10 a).N) :
    (dat10 a V c).Φ t.castSucc = PhiS10 a V c t.val (Nat.le_of_lt t.isLt) := by
  dsimp only [dat10]; simp only [Fin.coe_castSucc]

end Cert.Kernel.Hand

end
-- ==== Proof.K.Gather10Runs.lean ====
import proofs.«415143_j42460046688958_3_alg».proof.Proof.K.Gather10Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 10): its triple, control case by control case -/

/-! ## Loads and stores through the whole-buffer rectangle at zero offsets -/

theorem vec2_zero_g10 : (![0, 0] : Fin 2 → ℕ) = fun _ => 0 := by funext b; fin_cases b <;> rfl

/-- A load of a whole memref held at contents that read `X` reads `X`. -/
theorem readAt_whole_unread_g10 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g10 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g10 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g10 (i : grid10.Coords) {u u' : Vec F S1x5120 .i32} {v v' : Vec F S800x128 .f32} {s s' : Vec F S5120x128 .f32}
    (hu : u = u') (hv : v = v') (hs : s = s') : k10_pay2 i u v s = k10_pay2 i u' v' s' := by rw [hu, hv, hs]
theorem pay3_congr_g10 {s s' : Vec F S5120x128 .f32} {n n' : Vec F S5120x1 .f32}
    (hs : s = s') (hn : n = n') : k10_pay3 s n = k10_pay3 s' n' := by rw [hs, hn]

theorem accStep10_TT_g10 (i : grid10.Coords) (x0 : Vec F S1x5120 .i32) (x1 : Vec F S800x128 .f32) (lo hi : BitVec 32) (xs : Vec F S5120x128 .f32)
    (h0 : cond10_0 i) (h1 : cond10_1 i lo hi) : accStep10 i x0 x1 lo hi xs = k10_pay2 i x0 x1 (k10_pay1 (F := F)) := by
  unfold accStep10; rw [if_pos h1, if_pos h0]
theorem accStep10_TF_g10 (i : grid10.Coords) (x0 : Vec F S1x5120 .i32) (x1 : Vec F S800x128 .f32) (lo hi : BitVec 32) (xs : Vec F S5120x128 .f32)
    (h0 : cond10_0 i) (h1 : ¬cond10_1 i lo hi) : accStep10 i x0 x1 lo hi xs = (k10_pay1 (F := F) : Vec F S5120x128 .f32) := by
  unfold accStep10; rw [if_neg h1, if_pos h0]
theorem accStep10_FT_g10 (i : grid10.Coords) (x0 : Vec F S1x5120 .i32) (x1 : Vec F S800x128 .f32) (lo hi : BitVec 32) (xs : Vec F S5120x128 .f32)
    (h0 : ¬cond10_0 i) (h1 : cond10_1 i lo hi) : accStep10 i x0 x1 lo hi xs = k10_pay2 i x0 x1 xs := by
  unfold accStep10; rw [if_pos h1, if_neg h0]
theorem accStep10_FF_g10 (i : grid10.Coords) (x0 : Vec F S1x5120 .i32) (x1 : Vec F S800x128 .f32) (lo hi : BitVec 32) (xs : Vec F S5120x128 .f32)
    (h0 : ¬cond10_0 i) (h1 : ¬cond10_1 i lo hi) : accStep10 i x0 x1 lo hi xs = xs := by
  unfold accStep10; rw [if_neg h1, if_neg h0]
theorem outStep10_T_g10 (i : grid10.Coords) (acc : Vec F S5120x128 .f32) (x2 : Vec F S5120x1 .f32) (xi3 : Vec F S5120x128 .f32)
    (h2 : cond10_2 i) : outStep10 i acc x2 xi3 = k10_pay3 acc x2 := by unfold outStep10; rw [if_pos h2]
theorem outStep10_F_g10 (i : grid10.Coords) (acc : Vec F S5120x128 .f32) (x2 : Vec F S5120x1 .f32) (xi3 : Vec F S5120x128 .f32)
    (h2 : ¬cond10_2 i) : outStep10 i acc x2 xi3 = xi3 := by unfold outStep10; rw [if_neg h2]

set_option maxHeartbeats 4000000 in
/-- The body in the control case A: the accumulator reset, the table words admitting the column block, the output not stored. -/
theorem kernel10_A (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : cond10_0 i) (hc1 : cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay2 i x0 x1 (k10_pay1 (F := F))) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readCov_whole_g10 arg8 vec2_zero_g10 _ _ _))
  isplitl [HT0]; · iexact HT0
  iexact HT1

set_option maxHeartbeats 4000000 in
/-- The body in the control case B: the accumulator reset, the table words not admitting the column block, the output not stored. -/
theorem kernel10_B (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : cond10_0 i) (hc1 : ¬cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay1 (F := F) : Vec F S5120x128 .f32) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _)
  isplitl [HT0]; · iexact HT0
  iexact HT1

set_option maxHeartbeats 4000000 in
/-- The body in the control case C: the accumulator not reset, the table words admitting the column block, the output not stored. -/
theorem kernel10_C (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay2 i x0 x1 xs) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))
  isplitl [HT0]; · iexact HT0
  iexact HT1

set_option maxHeartbeats 4000000 in
/-- The body in the control case D: the accumulator not reset, the table words not admitting the column block, the output not stored. -/
theorem kernel10_D (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : ¬cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel10_E (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : cond10_1 i (tword10 c tbM10_0 i xt0) (tword10 c tbM10_1 i xt1)) (hc2 : cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare (k10_pay3 (k10_pay2 i x0 x1 xs) x2)
            ∗ owns (c : Thread nD τ) arg8 fullShare (k10_pay2 i x0 x1 xs) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g10 arg7 _ vec2_zero_g10 _ _ _).trans (pay3_congr_g10 ((readCov_whole_g10 arg8 vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))) (readAt_whole_unread_g10 arg6 harg6 x2 vec2_zero_g10 _))
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))
  isplitl [HT0]; · iexact HT0
  iexact HT1

set_option maxHeartbeats 4000000 in
/-- The body in the control case G: the accumulator not reset, the table words not admitting the column block, the output stored. -/
theorem kernel10_G (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : ¬cond10_1 i (tword10 c tbM10_0 i xt0) (tword10 c tbM10_1 i xt1)) (hc2 : cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare (k10_pay3 xs x2)
            ∗ owns (c : Thread nD τ) arg8 fullShare xs ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g10 arg7 _ vec2_zero_g10 _ _ _).trans (pay3_congr_g10 (readAt_whole_unread_g10 arg8 harg8 xs vec2_zero_g10 _) (readAt_whole_unread_g10 arg6 harg6 x2 vec2_zero_g10 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel10 (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hx : cond10_0 i → ¬cond10_2 i)
    (acc' : Vec F S5120x128 .f32) (hacc : acc' = accStep10 i x0 x1 (tword10 c tbM10_0 i xt0) (tword10 c tbM10_1 i xt1) xs)
    (out' : Vec F S5120x128 .f32) (hout : out' = outStep10 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  subst hout; subst hacc
  by_cases h0 : cond10_0 i <;> by_cases h1 : cond10_1 i (tword10 c tbM10_0 i xt0) (tword10 c tbM10_1 i xt1) <;> by_cases h2 : cond10_2 i
  · exact absurd h2 (hx h0)
  · rw [outStep10_F_g10 _ _ _ _ h2, accStep10_TT_g10 _ _ _ _ _ _ h0 h1]; exact kernel10_A c i arg4 harg4 arg5 harg5 arg6 harg6 arg7 harg7 arg8 harg8 x0 x1 x2 xi3 xt0 xt1 xs h0 h1 h2 E K
  · exact absurd h2 (hx h0)
  · rw [outStep10_F_g10 _ _ _ _ h2, accStep10_TF_g10 _ _ _ _ _ _ h0 h1]; exact kernel10_B c i arg4 harg4 arg5 harg5 arg6 harg6 arg7 harg7 arg8 harg8 x0 x1 x2 xi3 xt0 xt1 xs h0 h1 h2 E K
  · rw [outStep10_T_g10 _ _ _ _ h2, accStep10_FT_g10 _ _ _ _ _ _ h0 h1]; exact kernel10_E c i arg4 harg4 arg5 harg5 arg6 harg6 arg7 harg7 arg8 harg8 x0 x1 x2 xi3 xt0 xt1 xs h0 h1 h2 E K
  · rw [outStep10_F_g10 _ _ _ _ h2, accStep10_FT_g10 _ _ _ _ _ _ h0 h1]; exact kernel10_C c i arg4 harg4 arg5 harg5 arg6 harg6 arg7 harg7 arg8 harg8 x0 x1 x2 xi3 xt0 xt1 xs h0 h1 h2 E K
  · rw [outStep10_T_g10 _ _ _ _ h2, accStep10_FF_g10 _ _ _ _ _ _ h0 h1]; exact kernel10_G c i arg4 harg4 arg5 harg5 arg6 harg6 arg7 harg7 arg8 harg8 x0 x1 x2 xi3 xt0 xt1 xs h0 h1 h2 E K
  · rw [outStep10_F_g10 _ _ _ _ h2, accStep10_FF_g10 _ _ _ _ _ _ h0 h1]; exact kernel10_D c i arg4 harg4 arg5 harg5 arg6 harg6 arg7 harg7 arg8 harg8 x0 x1 x2 xi3 xt0 xt1 xs h0 h1 h2 E K

end Cert.Kernel.Hand

end
-- ==== Proof.K.Gather10.lean ====
import proofs.«415143_j42460046688958_3_alg».proof.Proof.K.Gather10Runs
import proofs.«415143_j42460046688958_3_alg».proof.Proof.K.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 10): the body obligation and the region as a segment of @main -/

theorem PhiA10_eq (c : Dev nD) :
    (Pipeline.ΦA spec10 c : sProp 𝕄)
      = iprop(iprop(iprop((∃ d, owns (c : Thread nD τ) scM10 fullShare d)) ∗ restB10 c) ∗ (∃ r, prngReg c r)) := by
  unfold Pipeline.ΦA; rw [scopedRest10_split]; simp only [scM10, owns_whole]; try rfl

theorem PhiT10_eq (c : Dev nD) : (tabs10 a c : sProp 𝕄) = iprop(tbPt10 c tbM10_0 ((a 10).1 0) ∗ tbPt10 c tbM10_1 ((a 10).1 1)) := by
  unfold tabs10 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS10_open (c : Dev nD) (n : ℕ) (h : n ≤ (cfgG10 a).N) :
    PhiS10 a V c n h ⊢ iprop(∃ xs, ⌜∀ hz : n ≠ 0, xs = accAt10 a V c (n - 1) (by omega)⌝ ∗ owns (c : Thread nD τ) scM10 fullShare xs ∗ restB10 c
      ∗ (∃ r, prngReg c r) ∗ tbPt10 c tbM10_0 ((a 10).1 0) ∗ tbPt10 c tbM10_1 ((a 10).1 1)) := by
  cases n with
  | zero =>
    rw [show PhiS10 a V c 0 h = iprop(Pipeline.ΦA spec10 c ∗ tabs10 a c) from rfl, PhiA10_eq, PhiT10_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS10_succ, PhiT10_eq]
    iintro ⟨⟨⟨HS, Hr⟩, Hg⟩, HT0, HT1⟩
    iexists (accAt10 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS10_out (c : Dev nD) (n : ℕ) (h : n ≤ (cfgG10 a).N) : PhiS10 a V c n h ⊢ iprop(Pipeline.ΦA spec10 c ∗ tabs10 a c) := by
  cases n with
  | zero => exact .rfl
  | succ n =>
    rw [PhiS10_succ, PhiA10_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before10_0_of {c : Dev nD} (dat : Dat τ (Elt F) Unit ℕ (UR sig nD τ) ℕ (cfgG10 a) c) (hA : dat.A 0 = V c (Pipeline.arrRef spec10 0))
    (hafter : ∀ t, dat.after 0 t = iblk10 a V c 0 t) (t : Fin (cfgG10 a).N) (d) : dat.before 0 t d = iblk10 a V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ (cfgG10 a) c) (hA : dat.A 1 = V c (Pipeline.arrRef spec10 1))
    (hafter : ∀ t, dat.after 1 t = iblk10 a V c 1 t) (t : Fin (cfgG10 a).N) (d) : dat.before 1 t d = iblk10 a V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ (cfgG10 a) c) (hA : dat.A 2 = V c (Pipeline.arrRef spec10 2))
    (hafter : ∀ t, dat.after 2 t = iblk10 a V c 2 t) (t : Fin (cfgG10 a).N) (d) : dat.before 2 t d = iblk10 a V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_0 (c : Dev nD) (t : Fin (cfgG10 a).N) (d) : (dat10 a V c).before 0 t d = iblk10 a V c 0 t :=
  before10_0_of a V (dat10 a V c) (A_eq10 a V c 0) (after10_0 a V c) t d
theorem before10_1 (c : Dev nD) (t : Fin (cfgG10 a).N) (d) : (dat10 a V c).before 1 t d = iblk10 a V c 1 t :=
  before10_1_of a V (dat10 a V c) (A_eq10 a V c 1) (after10_1 a V c) t d
theorem before10_2 (c : Dev nD) (t : Fin (cfgG10 a).N) (d) : (dat10 a V c).before 2 t d = iblk10 a V c 2 t :=
  before10_2_of a V (dat10 a V c) (A_eq10 a V c 2) (after10_2 a V c) t d

/-! ## What the body leaves in each window's buffer -/

/-- At a point live for a window the obligation asks for the window's buffer at what the body leaves there. -/
theorem leavesExact_live_g10 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves10_0 (c : Dev nD) (t : Fin (cfgG10 a).N) :
    (dat10 a V c).leavesExact 0 t = owns (c : Thread nD τ) (ms10_0 a t) fullShare (iblk10 a V c 0 t) := by
  rw [leavesExact_live_g10 (dat10 a V c) 0 t (liveAt10_0 a t), after10_0]; rfl
theorem leaves10_1 (c : Dev nD) (t : Fin (cfgG10 a).N) :
    (dat10 a V c).leavesExact 1 t = owns (c : Thread nD τ) (ms10_1 a t) fullShare (iblk10 a V c 1 t) := by
  rw [leavesExact_live_g10 (dat10 a V c) 1 t (liveAt10_1 a t), after10_1]; rfl
theorem leaves10_2 (c : Dev nD) (t : Fin (cfgG10 a).N) :
    (dat10 a V c).leavesExact 2 t = owns (c : Thread nD τ) (ms10_2 a t) fullShare (iblk10 a V c 2 t) := by
  rw [leavesExact_live_g10 (dat10 a V c) 2 t (liveAt10_2 a t), after10_2]; rfl

/-- The output's buffer at one step of the output over what the body found is what the obligation asks of it: the
    scaled accumulator where the body stores it, what it found where the window is idle. -/
theorem leaves10_3_intro (c : Dev nD) (t : Fin (cfgG10 a).N) (d) :
    owns (c : Thread nD τ) (ms10_3 a t) fullShare (outStep10 (grid10.coords t) (accAt10 a V c t.val t.isLt) (iblk10 a V c 2 t) ((dat10 a V c).before 3 t d))
      ⊢ ((dat10 a V c).leavesExact 3 t : sProp 𝕄) := by
  by_cases h2 : cond10_2 (grid10.coords t)
  · rw [leavesExact_live_g10 (dat10 a V c) 3 t (liveAt10_3 a t h2), after10_3]
    exact Entails.of_eq (congrArg (owns (c : Thread nD τ) (ms10_3 a t) fullShare) (outStep10_pos _ h2 _ _ _))
  · rw [Dat.leavesExact_idle (dat10 a V c) 3 t (idleAt10_3 a t h2) (noFlush10_3 a t h2)]
    refine (Entails.of_eq (congrArg (owns (c : Thread nD τ) (ms10_3 a t) fullShare) (outStep10_neg _ h2 _ _ _))).trans ?_
    iintro H; iexists d; iexact H

/-! ## The body obligation, at a generic point -/

def bodyPre10 (c : Dev nD) (t : Fin (cfgG10 a).N) : sProp 𝕄 :=
  iprop((dat10 a V c).Φ t.castSucc ∗ (dat10 a V c).owesAt () t.castSucc
    ∗ (∃ d, owns (c : Thread nD τ) (ms10_0 a t) fullShare ((dat10 a V c).before 0 t d))
    ∗ (∃ d, owns (c : Thread nD τ) (ms10_1 a t) fullShare ((dat10 a V c).before 1 t d))
    ∗ (∃ d, owns (c : Thread nD τ) (ms10_2 a t) fullShare ((dat10 a V c).before 2 t d))
    ∗ (∃ d, owns (c : Thread nD τ) (ms10_3 a t) fullShare ((dat10 a V c).before 3 t d)))

def bodyPost10 (c : Dev nD) (t : Fin (cfgG10 a).N) : sProp 𝕄 :=
  iprop((dat10 a V c).Φ t.succ ∗ (dat10 a V c).owesAt () t.succ
    ∗ (dat10 a V c).leavesExact 0 t
    ∗ (dat10 a V c).leavesExact 1 t
    ∗ (dat10 a V c).leavesExact 2 t
    ∗ (dat10 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body10 (c : Dev nD) (t : Fin (cfgG10 a).N) :
    bodyPre10 a V c t ⊢ wp frame (wpE (defs₀ (F := F)) Variants.none c none) Set.univ (bodyAt10 a t) (fun _ => bodyPost10 a V c t) := by
  unfold bodyPre10 bodyPost10 bodyAt10
  simp only [before10_0, before10_1, before10_2]
  rw [show (dat10 a V c).owesAt () t.succ = (dat10 a V c).owesAt () t.castSucc from rfl]
  rw [show (dat10 a V c).Φ t.succ = PhiS10 a V c (t.val + 1) t.isLt from rfl, PhiS10_succ, PhiT10_eq]
  rw [leaves10_0, leaves10_1, leaves10_2, PhiS10_castSucc]
  iintro ⟨HΦ, Ho, ⟨%d0, H0⟩, ⟨%d1, H1⟩, ⟨%d2, H2⟩, ⟨%d3, H3⟩⟩
  ihave HΦ' := (PhiS10_open a V c t.val (Nat.le_of_lt t.isLt)) $$ HΦ
  icases HΦ' with ⟨%xs, %hxs, HS, Hr, Hg, HT0, HT1⟩
  iapply (kernel10 c (grid10.coords t) (ms10_0 a t) (hs10_0 a t) (ms10_1 a t) (hs10_1 a t) (ms10_2 a t) (hs10_2 a t) (ms10_3 a t) (hs10_3 a t) scM10 (Memref.isWhole_whole _)
    (iblk10 a V c 0 t) (iblk10 a V c 1 t) (iblk10 a V c 2 t) ((dat10 a V c).before 3 t d3) ((a 10).1 0) ((a 10).1 1) xs
    (fun h0 h2 => by have e0 := (hcond10_0 t).mp h0; have e2 := (hcond10_2 t).mp h2; omega)
    (accAt10 a V c t.val t.isLt) (accAt10_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves10_3_intro a V c t d3)
  iexact H3

/-- The library's body obligation, at every point. -/
theorem body_obligation10 (c : Dev nD) : BodyObligation (dat10 (F := F) a V c) (defs₀ (F := F)) Variants.none () Set.univ := fun t => by
  rw [bigSep_W10, bigSep_W10]
  exact sound_body10 a V c t

/-! ## The region as a segment of @main -/

/-- What rides beside the buffers through every segment: the generator register at some state, nothing owed. -/
abbrev R10 (c : Dev nD) : sProp 𝕄 := iprop((∃ r, prngReg c r) ∗ ∃ W, owes (c : Thread nD τ) (0 : CellTallies nD τ sig Unit) W)

theorem Phi10_in (c : Dev nD) : iprop((∃ r, prngReg c r) ∗ tabs10 a c ∗ Pipeline.scopedRest (Ix := Unit) (Name := ℕ) (U := UR sig nD τ) (Lvl := ℕ) (Val := Elt F) spec10 c) ⊢ ((dat10 a V c).Φ 0 : sProp 𝕄) := by
  rw [show (dat10 a V c).Φ 0 = iprop(Pipeline.ΦA spec10 c ∗ tabs10 a c) from rfl]; unfold Pipeline.ΦA
  iintro ⟨Hp, HT, Hr⟩
  isplitl [Hr Hp]
  · isplitl [Hr]; · iexact Hr
    iexact Hp
  iexact HT

theorem Phi10_out (c : Dev nD) : ((dat10 a V c).Φ (Fin.last (cfgG10 a).N) : sProp 𝕄)
    ⊢ iprop(iprop(tabs10 a c ∗ ∃ r, prngReg c r) ∗ BI.emp ∗ Pipeline.scopedRest (Ix := Unit) (Name := ℕ) (U := UR sig nD τ) (Lvl := ℕ) (Val := Elt F) spec10 c) := by
  rw [show (dat10 a V c).Φ (Fin.last (cfgG10 a).N) = PhiS10 a V c (cfgG10 a).N (Nat.le_refl _) from rfl]
  refine (PhiS10_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF10 (Vin : Dev nD → Valuation τ sig (Elt F)) (hV : ∀ c b, V c b = Vin c b) (c : Dev nD) : ∀ w : Fin 4,
    (dat10 a V c).arrAt w (cfgG10 a).N
      = Function.update (Vin c) main_v149 ((dat10 a V c).arrAt 3 (cfgG10 a).N) (Proc.devRef .tc (Pipeline.arrRef spec10 w))
  | 0 => ((((dat10 a V c).arrAt_in 0 rfl _).trans (A_eq10 a V c 0)).trans (hV c _)).trans
      (Function.update_of_ne (StableHlo.devRef_ne_of_ne (by decide : Pipeline.arrRef spec10 0 ≠ main_v149)) _ _).symm
  | 1 => ((((dat10 a V c).arrAt_in 1 rfl _).trans (A_eq10 a V c 1)).trans (hV c _)).trans
      (Function.update_of_ne (StableHlo.devRef_ne_of_ne (by decide : Pipeline.arrRef spec10 1 ≠ main_v149)) _ _).symm
  | 2 => ((((dat10 a V c).arrAt_in 2 rfl _).trans (A_eq10 a V c 2)).trans (hV c _)).trans
      (Function.update_of_ne (StableHlo.devRef_ne_of_ne (by decide : Pipeline.arrRef spec10 2 ≠ main_v149)) _ _).symm
  | 3 => (Function.update_self (Proc.devRef .tc main_v149) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat10` at this pipeline. -/
def reg10 (pdats : (p : Fin 13) → (c : Dev nD) → Dat τ (Elt F) Unit ℕ (UR sig nD τ) ℕ (Pipeline.pin (pcfgs (F := F)) a p) c)
    (h : ∀ c, pdats 10 c = dat10 a V c)
    (Vin : Dev nD → Valuation τ sig (Elt F)) (hV : ∀ c b, V c b = Vin c b)
    (hpf : ∀ c k, Vin c (pre10.ref k) = (a 10).1 k) :
    Pipeline.RegionSeg (pcfgs (F := F)) a pdats () defs₀ Variants.none (fun _ => (∅ : Finset Unit)) (fun _ _ => (0 : ℕ)) 10 where
  win := (launch10 (F := F)).win.to₀
  block_pos := (launch10 (F := F)).block_pos
  stage_whole := (launch10 (F := F)).stage_whole
  K := PEmpty
  osem k := k.elim
  ho := Pipeline.OwnSemFacts.none _
  hbody c := by rw [h c]; exact (body_obligation10 a V c).loose
  hwaits := Pipeline.hwaits_of_owed_zero _ _ _ _ _ _ 10 fun c t => by rw [h c]; rfl
  pre c := iprop(StableHlo.held (c : Thread nD τ) (Pipeline.ucRefs τ sig) (Vin c) ∗ R10 c)
  post c := iprop(StableHlo.held (c : Thread nD τ) (Pipeline.ucRefs τ sig)
      (Function.update (Vin c) main_v149 ((dat10 a V c).arrAt 3 (cfgG10 a).N)) ∗ R10 c)
  X c := tblX c
  Y c := tblY a 10 c
  Z c := tblZ a 10 c (Vin c)
  hentry c := tbl_hentry a pdats (launch10 (F := F)) c (Vin c) (fun w => by rw [h c]; exact (A_eq10 a V c w).trans (hV c _))
    (fun w => by rw [h c]; exact (dat10 a V c).share_full (fun _ => rfl) w) (by rw [h c]; rfl) (by rw [h c]; rfl) (hpf c)
  hin c := by rw [h c]; exact Phi10_in a V c
  hout c := by rw [Pipeline.ownSems0_none, h c]; exact Phi10_out a V c
  hexit c := tbl_hexit a pdats (launch10 (F := F)) c (Vin c) _ (fun w => by rw [h c]; exact (dat10 a V c).share_full (fun _ => rfl) w)
    (fun w => by rw [h c]; exact hF10 a V Vin hV c w) (upd_rest (p := 10) a (Vin c) 3 _) (by rw [h c]; rfl) (hpf c)

end Cert.Kernel.Hand

end
-- ==== Proof.K.Scatter11Defs.lean ====
import proofs.«415143_j42460046688958_3_alg».proof.Proof.Gen.Kernel.Launch
import proofs.«415143_j42460046688958_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 11: its control conditions, the table words it reads, and what one run of the
    body leaves in the carried accumulator and in the output block, in closed form over the payloads -/

/-- The body zeroes the accumulator when the second grid coordinate is 0. -/
abbrev cond11_1 (i : grid11.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond11_2 (i : grid11.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond11_3 (i : grid11.Coords) : Prop := k11_cond3 i = 1#1

/-- The prefetched tables as the body is handed them: whole scalar-memory memrefs. -/
abbrev tbM11_0 : Memref sig .tc .smem S123 .i32 := Memref.whole main_v81
abbrev htbM11_0 : tbM11_0.IsWhole := Memref.isWhole_whole _
abbrev tbM11_1 : Memref sig .tc .smem S123 .i32 := Memref.whole main_v82
abbrev htbM11_1 : tbM11_1.IsWhole := Memref.isWhole_whole _
abbrev tbM11_2 : Memref sig .tc .smem S50 .i32 := Memref.whole main_v110
abbrev htbM11_2 : tbM11_2.IsWhole := Memref.isWhole_whole _
abbrev tbM11_3 : Memref sig .tc .smem S50 .i32 := Memref.whole main_v111
abbrev htbM11_3 : tbM11_3.IsWhole := Memref.isWhole_whole _

/-- A table memref's buffer on core `c`, and that buffer held whole at contents `f`. -/
abbrev TbBuf11 (c : Dev nD) {S : Shape} {e : EltTy} (M : Memref sig .tc .smem S e) : Type := Buf (Elt F) (M.view.loc (c : Thread nD τ))
abbrev tbPt11 (c : Dev nD) {S : Shape} {e : EltTy} (M : Memref sig .tc .smem S e) (f : TbBuf11 (F := F) c M) : sProp 𝕄 :=
  M.view.loc (c : Thread nD τ) ↦{fullShare} f

/-- The word of the first table the body compares from below, at the second grid coordinate, -/
abbrev wd11_0 (c : Dev nD) (i : grid11.Coords) (xt : TbBuf11 (F := F) c tbM11_0) : Elt F .i32 :=
  tbM11_0.view.readAt (Elt F) (Rect.unit (s := S123) (k11_off2 i) S1.size (k11_off2_inb i)).toLoadRect xt (Shape.Idx.first (numel1_S1.symm ▸ Nat.one_pos))
/-- and the word of the second table it compares from above. -/
abbrev wd11_1 (c : Dev nD) (i : grid11.Coords) (xt : TbBuf11 (F := F) c tbM11_1) : Elt F .i32 :=
  tbM11_1.view.readAt (Elt F) (Rect.unit (s := S123) (k11_off2 i) S1.size (k11_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc11 (i : grid11.Coords) (wlo whi : Elt F .i32) (x0 : Vec F S1x5120 .i32) (x1 : Vec F S5120x128 .f32)
    (xs : Vec F S2000x128 .f32) : Vec F S2000x128 .f32 :=
  if cond11_2 i wlo whi then k11_pay2 i x0 x1 (if cond11_1 i then (k11_pay1 : Vec F S2000x128 .f32) else xs)
  else (if cond11_1 i then (k11_pay1 : Vec F S2000x128 .f32) else xs)

/-- Where the accumulator is zeroed, what it held before does not matter. -/
theorem acc11_of_cond11_1 (i : grid11.Coords) (h : cond11_1 i) (wlo whi : Elt F .i32) (x0 : Vec F S1x5120 .i32) (x1 : Vec F S5120x128 .f32)
    (xs xs' : Vec F S2000x128 .f32) : acc11 i wlo whi x0 x1 xs = acc11 i wlo whi x0 x1 xs' := by
  unfold acc11; rw [if_pos h, if_pos h]

/-! # REGION 11 of @main (custom_call 11, pipeline 11) at the tables' admissible contents `a 11` and the entry contents `V` -/

section Region
variable (a : (p : Fin 13) → (pcfgs (F := F) p).Adm)
variable (V : (c : Dev nD) → (b : Ref sig .tc) → Buf (Elt F) ((c : Thread nD τ).loc b))

/-- Pipeline 11 at the tables' contents. -/
abbrev cfgM11 : Pipeline.Cfg sig Λ₀ := cfg11 (a 11)

/-- Window `w`'s block at point `t`, read off its array as the region finds it (`V`); for windows 0 and 1, whose index
    maps read the tables, a function of the tables' words. -/
def iblk11 (c : Dev nD) (w : Fin (cfgM11 a).W) (t : Fin (cfgM11 a).N) : (((cfgM11 a).win w).xblock ((cfgM11 a).grid.coords t)).Idx → Elt F ((cfgM11 a).win w).elt :=
  (((cfgM11 a).win w).blk t).view.read (Elt F) (V c (Pipeline.arrRef spec11 w))

/-! ## Each input window's current staging buffer holds its block at every point, fetched there or not -/

theorem before11_0_of {c : Dev nD} (dat : Dat τ (Elt F) Unit ℕ (UR sig nD τ) ℕ (cfgM11 a) c) (hA : dat.A 0 = V c (Pipeline.arrRef spec11 0))
    (hafter : ∀ t, dat.after 0 t = iblk11 a V c 0 t) (t : Fin (cfgM11 a).N) (d) : dat.before 0 t d = iblk11 a V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ (cfgM11 a) c) (hA : dat.A 1 = V c (Pipeline.arrRef spec11 1))
    (hafter : ∀ t, dat.after 1 t = iblk11 a V c 1 t) (t : Fin (cfgM11 a).N) (d) : dat.before 1 t d = iblk11 a V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ (cfgM11 a) c) (hA : dat.A 2 = V c (Pipeline.arrRef spec11 2))
    (hafter : ∀ t, dat.after 2 t = iblk11 a V c 2 t) (t : Fin (cfgM11 a).N) (d) : dat.before 2 t d = iblk11 a V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ (cfgM11 a) c) (hA : dat.A 3 = V c (Pipeline.arrRef spec11 3))
    (hafter : ∀ t, dat.after 3 t = iblk11 a V c 3 t) (t : Fin (cfgM11 a).N) (d) : dat.before 3 t d = iblk11 a V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ (cfgM11 a) c) (hA : dat.A 4 = V c (Pipeline.arrRef spec11 4))
    (hafter : ∀ t, dat.after 4 t = iblk11 a V c 4 t) (t : Fin (cfgM11 a).N) (d) : dat.before 4 t d = iblk11 a V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The staging memrefs at a point, the scratch, the body as the pipeline calls it -/

abbrev ms11_0 (t : Fin (cfgM11 a).N) : Memref sig .tc .vmem S1x5120 .i32 := spec11_0.stage ((cfgM11 a).slots t 0)
abbrev hs11_0 (t : Fin (cfgM11 a).N) : (ms11_0 a t).IsWhole := hstage11_0 (((cfgM11 a).slots t 0).cast nbuf11_0)
abbrev ms11_1 (t : Fin (cfgM11 a).N) : Memref sig .tc .vmem S5120x128 .f32 := spec11_1.stage ((cfgM11 a).slots t 1)
abbrev hs11_1 (t : Fin (cfgM11 a).N) : (ms11_1 a t).IsWhole := hstage11_1 (((cfgM11 a).slots t 1).cast nbuf11_1)
abbrev ms11_2 (t : Fin (cfgM11 a).N) : Memref sig .tc .vmem S2000x128 .f32 := spec11_2.stage ((cfgM11 a).slots t 2)
abbrev hs11_2 (t : Fin (cfgM11 a).N) : (ms11_2 a t).IsWhole := hstage11_2 (((cfgM11 a).slots t 2).cast nbuf11_2)
abbrev ms11_3 (t : Fin (cfgM11 a).N) : Memref sig .tc .vmem S128x128 .f32 := spec11_3.stage ((cfgM11 a).slots t 3)
abbrev hs11_3 (t : Fin (cfgM11 a).N) : (ms11_3 a t).IsWhole := hstage11_3 (((cfgM11 a).slots t 3).cast nbuf11_3)
abbrev ms11_4 (t : Fin (cfgM11 a).N) : Memref sig .tc .vmem S1x128 .f32 := spec11_4.stage ((cfgM11 a).slots t 4)
abbrev hs11_4 (t : Fin (cfgM11 a).N) : (ms11_4 a t).IsWhole := hstage11_4 (((cfgM11 a).slots t 4).cast nbuf11_4)
abbrev ms11_5 (t : Fin (cfgM11 a).N) : Memref sig .tc .vmem S2000x128 .f32 := spec11_5.stage ((cfgM11 a).slots t 5)
abbrev hs11_5 (t : Fin (cfgM11 a).N) : (ms11_5 a t).IsWhole := hstage11_5 (((cfgM11 a).slots t 5).cast nbuf11_5)
/-- The accumulator: a whole scoped buffer of the kernel's own, carried between points. -/
abbrev scM11 : Memref sig .tc .vmem S2000x128 .f32 := Memref.whole cc11_scratch0

abbrev bodyAt11 (t : Fin (cfgM11 a).N) :=
  cc11__scatter_kernel (F := F) (grid11.coords t) tbM11_0 htbM11_0 tbM11_1 htbM11_1 tbM11_2 htbM11_2 tbM11_3 htbM11_3 (ms11_0 a t) (hs11_0 a t) (ms11_1 a t) (hs11_1 a t) (ms11_2 a t) (hs11_2 a t) (ms11_3 a t) (hs11_3 a t) (ms11_4 a t) (hs11_4 a t) (ms11_5 a t) (hs11_5 a t) scM11 (Memref.isWhole_whole _)

/-! ## The accumulator point by point, and the output block -/

/-- One point's step of the accumulator: the body's closed form at the point's coordinates, table words and blocks. -/
def accStep11 (c : Dev nD) (t : Fin (cfgM11 a).N) (xs : Vec F S2000x128 .f32) : Vec F S2000x128 .f32 :=
  acc11 (grid11.coords t) (wd11_0 c (grid11.coords t) ((a 11).1 0)) (wd11_1 c (grid11.coords t) ((a 11).1 1)) (iblk11 a V c 0 t) (iblk11 a V c 1 t) xs

/-- THE ACCUMULATION: what the scratch holds after the body at position `n`, by recursion on the position (the first
    point zeroes it, so what it held before the region does not matter: stated from the zero payload). -/
def accAt11 (c : Dev nD) : (n : ℕ) → n < (cfgM11 a).N → Vec F S2000x128 .f32
  | 0, hn => accStep11 a V c ⟨0, hn⟩ (k11_pay1 : Vec F S2000x128 .f32)
  | n + 1, hn => accStep11 a V c ⟨n + 1, hn⟩ (accAt11 c n (Nat.lt_of_succ_lt hn))

theorem accAt11_zero (c : Dev nD) (hn : 0 < (cfgM11 a).N) : accAt11 a V c 0 hn = accStep11 a V c ⟨0, hn⟩ (k11_pay1 : Vec F S2000x128 .f32) := rfl
theorem accAt11_succ (c : Dev nD) (n : ℕ) (hn : n + 1 < (cfgM11 a).N) :
    accAt11 a V c (n + 1) hn = accStep11 a V c ⟨n + 1, hn⟩ (accAt11 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt11 (c : Dev nD) (t : Fin (cfgM11 a).N) : Vec F S2000x128 .f32 :=
  k11_pay3 (iblk11 a V c 2 t) (iblk11 a V c 3 t) (accAt11 a V c t.val t.isLt) (iblk11 a V c 4 t)

/-! ## The region invariant -/

/-- Before position `n`: the scratch at what the point before left (at anything before the first point), the other
    scoped buffers at anything, the generator register at some state, the prefetched tables whole at their contents. -/
def PhiS11 (c : Dev nD) (n : ℕ) (hn : n ≤ (cfgM11 a).N) : sProp 𝕄 :=
  iprop(iprop(∃ d : Vec F S2000x128 .f32, ⌜∀ h0 : n ≠ 0, d = accAt11 a V c (n - 1) (by omega)⌝ ∗ owns (c : Thread nD τ) scM11 fullShare d)
    ∗ Pipeline.scopedRestBut (Ix := Unit) (Name := ℕ) (U := UR sig nD τ) (Lvl := ℕ) (Val := Elt F) spec11 c [cc11_scratch0]
    ∗ iprop(∃ r, prngReg c r)
    ∗ Pipeline.prefHeld (Ix := Unit) (Name := ℕ) (U := UR sig nD τ) (Lvl := ℕ) pre11 c (fun _ => fullShare) (a 11).1)

/-! ## The pipeline's proof data -/

def dat11 (c : Dev nD) : Dat τ (Elt F) Unit ℕ (UR sig nD τ) ℕ (Pipeline.pin (pcfgs (F := F)) a 11) c where
  A w := V c (Pipeline.arrRef spec11 w)
  after w t := match w with
    | ⟨0, _⟩ => iblk11 a V c 0 t
    | ⟨1, _⟩ => iblk11 a V c 1 t
    | ⟨2, _⟩ => iblk11 a V c 2 t
    | ⟨3, _⟩ => iblk11 a V c 3 t
    | ⟨4, _⟩ => iblk11 a V c 4 t
    | ⟨5, _⟩ => outAt11 a V c t
  Φ t := PhiS11 a V c t.val (Nat.le_of_lt_succ t.isLt)
  q _ := fullShare
  owed _ := 0

theorem A_eq11 (c : Dev nD) (w : Fin (cfgM11 a).W) : (dat11 a V c).A w = V c (Pipeline.arrRef spec11 w) := by
  dsimp only [dat11]
theorem after11_0 (c : Dev nD) (t : Fin (cfgM11 a).N) : (dat11 a V c).after 0 t = iblk11 a V c 0 t := by dsimp only [dat11]; try rfl
theorem after11_1 (c : Dev nD) (t : Fin (cfgM11 a).N) : (dat11 a V c).after 1 t = iblk11 a V c 1 t := by dsimp only [dat11]; try rfl
theorem after11_2 (c : Dev nD) (t : Fin (cfgM11 a).N) : (dat11 a V c).after 2 t = iblk11 a V c 2 t := by dsimp only [dat11]; try rfl
theorem after11_3 (c : Dev nD) (t : Fin (cfgM11 a).N) : (dat11 a V c).after 3 t = iblk11 a V c 3 t := by dsimp only [dat11]; try rfl
theorem after11_4 (c : Dev nD) (t : Fin (cfgM11 a).N) : (dat11 a V c).after 4 t = iblk11 a V c 4 t := by dsimp only [dat11]; try rfl
theorem after11_5 (c : Dev nD) (t : Fin (cfgM11 a).N) : (dat11 a V c).after 5 t = outAt11 a V c t := by dsimp only [dat11]; try rfl
theorem before11_0 (c : Dev nD) (t : Fin (cfgM11 a).N) (d) : (dat11 a V c).before 0 t d = iblk11 a V c 0 t :=
  before11_0_of a V (dat11 a V c) (A_eq11 a V c 0) (after11_0 a V c) t d
theorem before11_1 (c : Dev nD) (t : Fin (cfgM11 a).N) (d) : (dat11 a V c).before 1 t d = iblk11 a V c 1 t :=
  before11_1_of a V (dat11 a V c) (A_eq11 a V c 1) (after11_1 a V c) t d
theorem before11_2 (c : Dev nD) (t : Fin (cfgM11 a).N) (d) : (dat11 a V c).before 2 t d = iblk11 a V c 2 t :=
  before11_2_of a V (dat11 a V c) (A_eq11 a V c 2) (after11_2 a V c) t d
theorem before11_3 (c : Dev nD) (t : Fin (cfgM11 a).N) (d) : (dat11 a V c).before 3 t d = iblk11 a V c 3 t :=
  before11_3_of a V (dat11 a V c) (A_eq11 a V c 3) (after11_3 a V c) t d
theorem before11_4 (c : Dev nD) (t : Fin (cfgM11 a).N) (d) : (dat11 a V c).before 4 t d = iblk11 a V c 4 t :=
  before11_4_of a V (dat11 a V c) (A_eq11 a V c 4) (after11_4 a V c) t d

theorem PhiS11_castSucc (c : Dev nD) (t : Fin (cfgM11 a).N) :
    (dat11 a V c).Φ t.castSucc = PhiS11 a V c t.val (Nat.le_of_lt t.isLt) := by
  dsimp only [dat11]; simp only [Fin.coe_castSucc]

/-! ## The grid's coordinates and the conditions in closed form -/

theorem stride11_0 : grid11.stride 0 = 123 := by decide
theorem stride11_1 : grid11.stride 1 = 1 := by decide
theorem coords11_0 (t : Fin grid11.N) : (grid11.coords t 0).val = t.val / 123 % 50 := by
  show t.val / grid11.stride 0 % grid11.bound 0 = _; rw [stride11_0]; rfl
theorem coords11_1 (t : Fin grid11.N) : (grid11.coords t 1).val = t.val % 123 := by
  show t.val / grid11.stride 1 % grid11.bound 1 = _; rw [stride11_1, Nat.div_one]; rfl

theorem cond11_1_iff (i : grid11.Coords) : cond11_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond11_3_iff (i : grid11.Coords) : cond11_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle11_5_of (t : Fin (cfgM11 a).N) (h : cond11_3 (grid11.coords t)) : (cfgM11 a).idle 5 (grid11.coords t) = false := by
  show (!(k11_cond3 (grid11.coords t) == 1#1)) = false
  rw [show k11_cond3 (grid11.coords t) = 1#1 from h]; rfl
theorem idle11_5_of_not (t : Fin (cfgM11 a).N) (h : ¬cond11_3 (grid11.coords t)) : (cfgM11 a).idle 5 (grid11.coords t) = true := by
  show (!(k11_cond3 (grid11.coords t) == 1#1)) = true
  rw [Bool.not_eq_true', beq_eq_false_iff_ne]; exact h

end Region

end Cert.Kernel.Hand

end
-- ==== Proof.K.Scatter11Runs.lean ====
import proofs.«415143_j42460046688958_3_alg».proof.Proof.K.Scatter11Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec11_zero11 : (![0, 0] : Fin 2 → ℕ) = fun _ => 0 := by funext b; fin_cases b <;> rfl

/-- A load of a whole memref held at contents that read `X` reads `X`. -/
theorem readAt_whole_unread11 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole11 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole11 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay11_congr11 (i : grid11.Coords) {u u' : Vec F S1x5120 .i32} {v v' : Vec F S5120x128 .f32} {s s' : Vec F S2000x128 .f32}
    (hu : u = u') (hv : v = v') (hs : s = s') : k11_pay2 i u v s = k11_pay2 i u' v' s' := by rw [hu, hv, hs]
theorem pay3_congr11 {u u' : Vec F S2000x128 .f32} {v v' : Vec F S128x128 .f32} {s s' : Vec F S2000x128 .f32} {b b' : Vec F S1x128 .f32}
    (hu : u = u') (hv : v = v') (hs : s = s') (hb : b = b') : k11_pay3 u v s b = k11_pay3 u' v' s' b' := by rw [hu, hv, hs, hb]

theorem acc11_TT (i : grid11.Coords) (wlo whi : Elt F .i32) (x0 : Vec F S1x5120 .i32) (x1 : Vec F S5120x128 .f32) (xs : Vec F S2000x128 .f32)
    (h1 : cond11_1 i) (h2 : cond11_2 i wlo whi) : acc11 i wlo whi x0 x1 xs = k11_pay2 i x0 x1 (k11_pay1 : Vec F S2000x128 .f32) := by
  unfold acc11; rw [if_pos h2, if_pos h1]
theorem acc11_TF (i : grid11.Coords) (wlo whi : Elt F .i32) (x0 : Vec F S1x5120 .i32) (x1 : Vec F S5120x128 .f32) (xs : Vec F S2000x128 .f32)
    (h1 : cond11_1 i) (h2 : ¬cond11_2 i wlo whi) : acc11 i wlo whi x0 x1 xs = (k11_pay1 : Vec F S2000x128 .f32) := by
  unfold acc11; rw [if_neg h2, if_pos h1]
theorem acc11_FT (i : grid11.Coords) (wlo whi : Elt F .i32) (x0 : Vec F S1x5120 .i32) (x1 : Vec F S5120x128 .f32) (xs : Vec F S2000x128 .f32)
    (h1 : ¬cond11_1 i) (h2 : cond11_2 i wlo whi) : acc11 i wlo whi x0 x1 xs = k11_pay2 i x0 x1 xs := by
  unfold acc11; rw [if_pos h2, if_neg h1]
theorem acc11_FF (i : grid11.Coords) (wlo whi : Elt F .i32) (x0 : Vec F S1x5120 .i32) (x1 : Vec F S5120x128 .f32) (xs : Vec F S2000x128 .f32)
    (h1 : ¬cond11_1 i) (h2 : ¬cond11_2 i wlo whi) : acc11 i wlo whi x0 x1 xs = xs := by
  unfold acc11; rw [if_neg h2, if_neg h1]

set_option maxHeartbeats 4000000 in
/-- The body in the control case A: the accumulator zeroed, the table words bracketing the row block, the output not stored. -/
theorem sound_kernel11_A (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : cond11_1 i) (hc2 : cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay2 i x0 x1 (k11_pay1 : Vec F S2000x128 .f32)) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readCov_whole11 arg12 vec11_zero11 _ _ _))
  isplitl [HT0]; · iexact HT0
  iexact HT1

set_option maxHeartbeats 4000000 in
/-- The body in the control case B: the accumulator zeroed, the table words not bracketing the row block, the output not stored. -/
theorem sound_kernel11_B (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : cond11_1 i) (hc2 : ¬cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay1 : Vec F S2000x128 .f32) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _)
  isplitl [HT0]; · iexact HT0
  iexact HT1

set_option maxHeartbeats 4000000 in
/-- The body in the control case C: the accumulator not zeroed, the table words bracketing the row block, the output not stored. -/
theorem sound_kernel11_C (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay2 i x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readAt_whole_unread11 arg12 harg12 xs vec11_zero11 _))
  isplitl [HT0]; · iexact HT0
  iexact HT1

set_option maxHeartbeats 4000000 in
/-- The body in the control case D: the accumulator not zeroed, the table words not bracketing the row block, the output not stored. -/
theorem sound_kernel11_D (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : ¬cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel11_E (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : cond11_2 i (wd11_0 c i xt0) (wd11_1 c i xt1)) (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 (k11_pay2 i x0 x1 xs) x4)
            ∗ owns (c : Thread nD τ) arg12 fullShare (k11_pay2 i x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole11 arg11 _ vec11_zero11 _ _ _).trans (pay3_congr11 (readAt_whole_unread11 arg8 harg8 x2 vec11_zero11 _) (readAt_whole_unread11 arg9 harg9 x3 vec11_zero11 _) ((readCov_whole11 arg12 vec11_zero11 _ _ _).trans (pay11_congr11 i (readAt_whole_unread11 arg6 harg6 x0 vec11_zero11 _) (readAt_whole_unread11 arg7 harg7 x1 vec11_zero11 _) (readAt_whole_unread11 arg12 harg12 xs vec11_zero11 _))) (readAt_whole_unread11 arg10 harg10 x4 vec11_zero11 _))
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readAt_whole_unread11 arg12 harg12 xs vec11_zero11 _))
  isplitl [HT0]; · iexact HT0
  iexact HT1

set_option maxHeartbeats 4000000 in
/-- The body in the control case F: the accumulator not zeroed, the table words not bracketing the row block, the output stored. -/
theorem sound_kernel11_F (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : ¬cond11_2 i (wd11_0 c i xt0) (wd11_1 c i xt1)) (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 xs x4)
            ∗ owns (c : Thread nD τ) arg12 fullShare xs ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole11 arg11 _ vec11_zero11 _ _ _).trans (pay3_congr11 (readAt_whole_unread11 arg8 harg8 x2 vec11_zero11 _) (readAt_whole_unread11 arg9 harg9 x3 vec11_zero11 _) (readAt_whole_unread11 arg12 harg12 xs vec11_zero11 _) (readAt_whole_unread11 arg10 harg10 x4 vec11_zero11 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel11_idle (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc11 i (wd11_0 c i xt0) (wd11_1 c i xt1) x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  by_cases h1 : cond11_1 i <;> by_cases h2 : cond11_2 i (wd11_0 c i xt0) (wd11_1 c i xt1)
  · rw [acc11_TT _ _ _ _ _ _ h1 h2]; exact sound_kernel11_A c E i arg6 harg6 arg7 harg7 arg8 harg8 arg9 harg9 arg10 harg10 arg11 harg11 arg12 harg12 x0 x1 x2 x3 x4 xs xo xt0 xt1 h1 h2 hc3 K
  · rw [acc11_TF _ _ _ _ _ _ h1 h2]; exact sound_kernel11_B c E i arg6 harg6 arg7 harg7 arg8 harg8 arg9 harg9 arg10 harg10 arg11 harg11 arg12 harg12 x0 x1 x2 x3 x4 xs xo xt0 xt1 h1 h2 hc3 K
  · rw [acc11_FT _ _ _ _ _ _ h1 h2]; exact sound_kernel11_C c E i arg6 harg6 arg7 harg7 arg8 harg8 arg9 harg9 arg10 harg10 arg11 harg11 arg12 harg12 x0 x1 x2 x3 x4 xs xo xt0 xt1 h1 h2 hc3 K
  · rw [acc11_FF _ _ _ _ _ _ h1 h2]; exact sound_kernel11_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel11_live (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 (acc11 i (wd11_0 c i xt0) (wd11_1 c i xt1) x0 x1 xs) x4)
            ∗ owns (c : Thread nD τ) arg12 fullShare (acc11 i (wd11_0 c i xt0) (wd11_1 c i xt1) x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  have h1 : ¬cond11_1 i := fun h => by
    have e1 := (cond11_1_iff i).mp h; have e3 := (cond11_3_iff i).mp hc3; omega
  by_cases h2 : cond11_2 i (wd11_0 c i xt0) (wd11_1 c i xt1)
  · rw [acc11_FT _ _ _ _ _ _ h1 h2]; exact sound_kernel11_E c E i arg6 harg6 arg7 harg7 arg8 harg8 arg9 harg9 arg10 harg10 arg11 harg11 arg12 harg12 x0 x1 x2 x3 x4 xs xo xt0 xt1 h1 h2 hc3 K
  · rw [acc11_FF _ _ _ _ _ _ h1 h2]; exact sound_kernel11_F c E i arg6 harg6 arg7 harg7 arg8 harg8 arg9 harg9 arg10 harg10 arg11 harg11 arg12 harg12 x0 x1 x2 x3 x4 xs xo xt0 xt1 h1 h2 hc3 K

end Cert.Kernel.Hand

end
-- ==== Proof.K.Scatter11.lean ====
import proofs.«415143_j42460046688958_3_alg».proof.Proof.K.Scatter11Runs
import proofs.«415143_j42460046688958_3_alg».proof.Proof.K.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush11_5 : ∀ t : Fin (cfgM11 a).N, ((cfgM11 a).win 5).flush t = true ↔ t.val % 123 = 122 :=
  (by decide +kernel : ∀ t : Fin grid11.N, Pipeline.Window.flushOf grid11 true cc11_transform_5 t = true ↔ t.val % 123 = 122)

/-- and at a point that does not store the output it writes nothing back. -/
theorem noFlush11_5 (t : Fin (cfgM11 a).N) (h : ¬cond11_3 (grid11.coords t)) : ((cfgM11 a).win 5).flush t = false := by
  rw [Bool.eq_false_iff]; intro hf
  exact h ((cond11_3_iff _).mpr (by rw [coords11_1]; exact (flush11_5 a t).mp hf))

/-- The tables whole at contents `v`, table by table: what the invariant hands the body and takes back. -/
theorem PhiT11_eq (c : Dev nD) (v : pre11.Contents (Elt F)) :
    (Pipeline.prefHeld (Ix := Unit) (Name := ℕ) (U := UR sig nD τ) (Lvl := ℕ) pre11 c (fun _ => fullShare) v : sProp 𝕄)
      = iprop(tbPt11 c tbM11_0 (v 0) ∗ tbPt11 c tbM11_1 (v 1) ∗ tbPt11 c tbM11_2 (v 2) ∗ tbPt11 c tbM11_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep11_eq_accAt11 (c : Dev nD) (t : Fin (cfgM11 a).N) (d : Vec F S2000x128 .f32)
    (hd : ∀ h0 : t.val ≠ 0, d = accAt11 a V c (t.val - 1) (by omega)) :
    accStep11 a V c t d = accAt11 a V c t.val t.isLt := by
  obtain ⟨n, hn⟩ := t
  cases n with
  | zero =>
    rw [accAt11_zero]; unfold accStep11
    exact acc11_of_cond11_1 _ ((cond11_1_iff _).mpr (by rw [coords11_1]; exact Nat.zero_mod _)) _ _ _ _ _ _
  | succ n =>
    rw [accAt11_succ, hd (Nat.succ_ne_zero n)]; rfl

/-! ## What the body obligation asks of each window's buffer after the body -/

theorem leaves11_0 (c : Dev nD) (t : Fin (cfgM11 a).N) :
    (dat11 a V c).leavesExact 0 t = owns (c : Thread nD τ) (ms11_0 a t) fullShare (iblk11 a V c 0 t) := by
  rw [← after11_0 a V c t]; rfl
theorem leaves11_1 (c : Dev nD) (t : Fin (cfgM11 a).N) :
    (dat11 a V c).leavesExact 1 t = owns (c : Thread nD τ) (ms11_1 a t) fullShare (iblk11 a V c 1 t) := by
  rw [← after11_1 a V c t]; rfl
theorem leaves11_2 (c : Dev nD) (t : Fin (cfgM11 a).N) :
    (dat11 a V c).leavesExact 2 t = owns (c : Thread nD τ) (ms11_2 a t) fullShare (iblk11 a V c 2 t) := by
  rw [← after11_2 a V c t]; rfl
theorem leaves11_3 (c : Dev nD) (t : Fin (cfgM11 a).N) :
    (dat11 a V c).leavesExact 3 t = owns (c : Thread nD τ) (ms11_3 a t) fullShare (iblk11 a V c 3 t) := by
  rw [← after11_3 a V c t]; rfl
theorem leaves11_4 (c : Dev nD) (t : Fin (cfgM11 a).N) :
    (dat11 a V c).leavesExact 4 t = owns (c : Thread nD τ) (ms11_4 a t) fullShare (iblk11 a V c 4 t) := by
  rw [← after11_4 a V c t]; rfl

/-- Where the body stores the output the window is live: its buffer ends at the output block. -/
theorem leaves11_5_live (c : Dev nD) (t : Fin (cfgM11 a).N) (h3 : cond11_3 (grid11.coords t)) :
    (dat11 a V c).leavesExact 5 t = owns (c : Thread nD τ) (ms11_5 a t) fullShare (outAt11 a V c t) := by
  have hi : (Pipeline.pin (pcfgs (F := F)) a 11).idle 5 ((Pipeline.pin (pcfgs (F := F)) a 11).grid.coords t) = false := idle11_5_of a t h3
  unfold Dat.leavesExact; rw [hi]; rfl

/-- Elsewhere it is idle and not written back: its buffer is handed back as found. -/
theorem leaves11_5_idle (c : Dev nD) (t : Fin (cfgM11 a).N) (h3 : ¬cond11_3 (grid11.coords t)) :
    (dat11 a V c).leavesExact 5 t = iprop(∃ d, owns (c : Thread nD τ) (ms11_5 a t) fullShare ((dat11 a V c).before 5 t d)) :=
  Dat.leavesExact_idle (dat11 a V c) 5 t (idle11_5_of_not a t h3) (noFlush11_5 a t h3)

/-! ## The body obligation, at a generic point -/

def bodyPre11 (c : Dev nD) (t : Fin (cfgM11 a).N) : sProp 𝕄 :=
  iprop((dat11 a V c).Φ t.castSucc ∗ (dat11 a V c).owesAt () t.castSucc
    ∗ (∃ d, owns (c : Thread nD τ) (ms11_0 a t) fullShare ((dat11 a V c).before 0 t d))
    ∗ (∃ d, owns (c : Thread nD τ) (ms11_1 a t) fullShare ((dat11 a V c).before 1 t d))
    ∗ (∃ d, owns (c : Thread nD τ) (ms11_2 a t) fullShare ((dat11 a V c).before 2 t d))
    ∗ (∃ d, owns (c : Thread nD τ) (ms11_3 a t) fullShare ((dat11 a V c).before 3 t d))
    ∗ (∃ d, owns (c : Thread nD τ) (ms11_4 a t) fullShare ((dat11 a V c).before 4 t d))
    ∗ (∃ d, owns (c : Thread nD τ) (ms11_5 a t) fullShare ((dat11 a V c).before 5 t d)))

def bodyPost11 (c : Dev nD) (t : Fin (cfgM11 a).N) : sProp 𝕄 :=
  iprop((dat11 a V c).Φ t.succ ∗ (dat11 a V c).owesAt () t.succ
    ∗ (dat11 a V c).leavesExact 0 t
    ∗ (dat11 a V c).leavesExact 1 t
    ∗ (dat11 a V c).leavesExact 2 t
    ∗ (dat11 a V c).leavesExact 3 t
    ∗ (dat11 a V c).leavesExact 4 t
    ∗ (dat11 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body11 (c : Dev nD) (t : Fin (cfgM11 a).N) :
    bodyPre11 a V c t ⊢ wp frame (wpE (defs₀ (F := F)) Variants.none c none) Set.univ (bodyAt11 a t) (fun _ => bodyPost11 a V c t) := by
  unfold bodyPre11 bodyPost11 bodyAt11
  simp only [before11_0, before11_1, before11_2, before11_3, before11_4]
  rw [show (dat11 a V c).owesAt () t.succ = (dat11 a V c).owesAt () t.castSucc from rfl]
  rw [show (dat11 a V c).Φ t.succ = PhiS11 a V c (t.val + 1) t.isLt from rfl, PhiS11_castSucc]
  rw [leaves11_0, leaves11_1, leaves11_2, leaves11_3, leaves11_4]
  unfold PhiS11
  rw [PhiT11_eq]
  by_cases h3 : cond11_3 (grid11.coords t)
  · rw [leaves11_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel11_live c Set.univ (grid11.coords t) _ _ _ _ _ _ _ _ _ _ _ _ _ _ (iblk11 a V c 0 t) (iblk11 a V c 1 t) (iblk11 a V c 2 t) (iblk11 a V c 3 t) (iblk11 a V c 4 t) d ((dat11 a V c).before 5 t d5) ((a 11).1 0) ((a 11).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep11_eq_accAt11 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt11 a V c t = k11_pay3 (iblk11 a V c 2 t) (iblk11 a V c 3 t) (accStep11 a V c t d) (iblk11 a V c 4 t) from by
      unfold outAt11; rw [accStep11_eq_accAt11 a V c t d hd]]
    iexact H5
  · rw [leaves11_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel11_idle c Set.univ (grid11.coords t) _ _ _ _ _ _ _ _ _ _ _ _ _ _ (iblk11 a V c 0 t) (iblk11 a V c 1 t) (iblk11 a V c 2 t) (iblk11 a V c 3 t) (iblk11 a V c 4 t) d ((dat11 a V c).before 5 t d5) ((a 11).1 0) ((a 11).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep11_eq_accAt11 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation11 (c : Dev nD) : BodyObligation (dat11 (F := F) a V c) (defs₀ (F := F)) Variants.none () Set.univ := fun t => by
  rw [bigSep_W11, bigSep_W11]
  exact sound_body11 a V c t

/-- The accumulator's memref is its whole scoped buffer. -/
theorem owns_scM11_eq (c : Dev nD) (d : Vec F S2000x128 .f32) :
    (owns (c : Thread nD τ) scM11 fullShare d : sProp 𝕄) = ((c : Thread nD τ).loc cc11_scratch0 ↦{fullShare} d) := by
  rw [show scM11 = Memref.whole cc11_scratch0 from rfl, owns_whole]

/-- What the region's entry hands over — the generator register, the tables whole at their contents, the scoped buffers
    no window stages — is the invariant before the first point. -/
theorem hin11 (c : Dev nD) :
    iprop(iprop(∃ r, prngReg c r) ∗ Pipeline.prefHeld (Ix := Unit) (Name := ℕ) (U := UR sig nD τ) (Lvl := ℕ) pre11 c (fun _ => fullShare) (a 11).1
        ∗ Pipeline.scopedRest (Ix := Unit) (Name := ℕ) (U := UR sig nD τ) (Lvl := ℕ) (Val := Elt F) spec11 c)
      ⊢ (dat11 a V c).Φ 0 := by
  rw [show (dat11 a V c).Φ 0 = PhiS11 a V c 0 (Nat.zero_le _) from rfl]; unfold PhiS11
  rw [scopedRest11_split]
  iintro ⟨Hg, HT, ⟨%f, Hs⟩, Hrest⟩
  isplitl [Hs]
  · iexists f; isplitr; · ipureintro; intro h0; exact absurd rfl h0
    rw [show scM11 = Memref.whole cc11_scratch0 from rfl, owns_whole]; iexact Hs
  isplitl [Hrest]; · iexact Hrest
  isplitl [Hg]; · iexact Hg
  iexact HT

/-- The invariant after the last point gives them back, the accumulator's named contents forgotten. -/
theorem hout11 (c : Dev nD) :
    (dat11 a V c).Φ (Fin.last (cfgM11 a).N)
      ⊢ iprop(iprop(Pipeline.prefHeld (Ix := Unit) (Name := ℕ) (U := UR sig nD τ) (Lvl := ℕ) pre11 c (fun _ => fullShare) (a 11).1 ∗ ∃ r, prngReg c r)
          ∗ Pipeline.ownSems0 (fun k : PEmpty => k.elim) c
          ∗ Pipeline.scopedRest (Ix := Unit) (Name := ℕ) (U := UR sig nD τ) (Lvl := ℕ) (Val := Elt F) spec11 c) := by
  rw [Pipeline.ownSems0_none, show (dat11 a V c).Φ (Fin.last (cfgM11 a).N) = PhiS11 a V c (cfgM11 a).N (Nat.le_refl _) from rfl]; unfold PhiS11
  rw [scopedRest11_split]
  simp only [owns_scM11_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt11_in (c : Dev nD) (w : Fin (cfgM11 a).W) (hw : ((cfgM11 a).win w).isOut = false) (hne : Pipeline.arrRef spec11 w ≠ main_v155)
    (Vin : Dev nD → Valuation τ sig (Elt F)) (hV : ∀ c b, V c b = Vin c b)
    (x : (Proc.devRef .tc main_v155 : DevRef τ sig).ty.Contents (Elt F)) (n : ℕ) :
    (dat11 a V c).arrAt w n = Function.update (Vin c) main_v155 x (Pipeline.arrRef spec11 w) :=
  ((dat11 a V c).arrAt_in w hw n).trans ((A_eq11 a V c w).trans ((hV c _).trans
    (Function.update_of_ne (StableHlo.devRef_ne_of_ne hne) _ _).symm))

/-- The first five windows are inputs, and none of their arrays is the output's. -/
theorem inputs11_isIn : ∀ w : Fin 6, w.val < 5 → (spec11 w).isOut = false := by decide
theorem inputs11_ne : ∀ w : Fin 6, w.val < 5 → Pipeline.arrRef spec11 w ≠ main_v155 := by decide

/-- At the region's exit every array of the pipeline holds what the exit valuation says: the inputs as entered, the
    output's what the write-backs leave (named `X`, so that nothing unfolds the fold over the grid). -/
theorem hF11 (c : Dev nD) (Vin : Dev nD → Valuation τ sig (Elt F)) (hV : ∀ c b, V c b = Vin c b)
    (X : (Proc.devRef .tc main_v155 : DevRef τ sig).ty.Contents (Elt F)) (hX : (dat11 a V c).arrAt 5 (cfgM11 a).N = X) :
    ∀ w, (dat11 a V c).arrAt w (cfgM11 a).N
      = Function.update (Vin c) main_v155 X (Pipeline.arrRef (Pipeline.pin (pcfgs (F := F)) a 11).spec w) := by
  intro w
  by_cases hw : w.val < 5
  · exact arrAt11_in a V c w (inputs11_isIn w hw) (inputs11_ne w hw) Vin hV X _
  · have hW : w.val < 6 := w.isLt
    obtain ⟨wv, hwv⟩ := w
    obtain rfl : wv = 5 := by simp only at hw hW; omega
    exact hX.trans (Function.update_self (Proc.devRef .tc main_v155 : DevRef τ sig) X (Vin c)).symm

set_option backward.isDefEq.respectTransparency.types false in
/-- REGION 11 over the thread state: entered from every unscoped buffer at `Vin` (whose table buffers hold the tables'
    admissible contents), left with the output array at what the write-backs leave and every other buffer as entered;
    beside them the generator register at some state and the core owing nothing. -/
def reg11 (pdats : (p : Fin 13) → (c : Dev nD) → Dat τ (Elt F) Unit ℕ (UR sig nD τ) ℕ (Pipeline.pin (pcfgs (F := F)) a p) c)
    (h : ∀ c, pdats 11 c = dat11 a V c)
    (Vin : Dev nD → Valuation τ sig (Elt F)) (hV : ∀ c b, V c b = Vin c b)
    (hpf : ∀ c k, Vin c (pre11.ref k) = (a 11).1 k) :
    Pipeline.RegionSeg (pcfgs (F := F)) a pdats () (defs₀ (F := F)) Variants.none (fun _ => ∅) (fun _ _ => 0) 11 where
  win := (launch11 (F := F)).win.to₀
  block_pos := (launch11 (F := F)).block_pos
  stage_whole := (launch11 (F := F)).stage_whole
  K := PEmpty
  osem k := k.elim
  ho := Pipeline.OwnSemFacts.none _
  hbody c := by rw [h c]; exact (body_obligation11 a V c).loose
  hwaits := Pipeline.hwaits_of_owed_zero _ _ _ _ _ _ 11 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v155 ((dat11 a V c).arrAt 5 (cfgM11 a).N)) ∗ iprop((∃ r, prngReg c r) ∗ ∃ W, owes (c : Thread nD τ) (0 : CellTallies nD τ sig Unit) W))
  X c := tblX c
  Y c := tblY a 11 c
  Z c := tblZ a 11 c (Vin c)
  hentry c := tbl_hentry a pdats (launch11 (F := F)) c (Vin c)
    (fun w => by rw [h c, A_eq11]; exact hV c _)
    (by rw [h c]; exact (dat11 a V c).share_full fun _ => rfl)
    (by rw [h c]; rfl) (by rw [h c]; rfl) (hpf c)
  hin c := by rw [h c]; exact hin11 a V c
  hout c := by rw [h c]; exact hout11 a V c
  hexit c := tbl_hexit a pdats (launch11 (F := F)) c (Vin c) (Function.update (Vin c) main_v155 ((dat11 a V c).arrAt 5 (cfgM11 a).N))
    (by rw [h c]; exact (dat11 a V c).share_full fun _ => rfl)
    (by rw [h c]; exact hF11 a V c Vin hV _ rfl)
    (upd_rest a (p := 11) (Vin c) 5 _)
    (by rw [h c]; rfl) (hpf c)

end Region11

end Cert.Kernel.Hand

end
-- ==== Proof.K.Head12.lean ====
/- The head region (custom_call 12, the MLP head: pipeline 12 of @main) at a PARAMETER entry contents: each window's
   block at a point, what the body leaves in the output window's buffer, the body's triple, the pipeline's proof data
   and its body obligation; then the region as a segment over the thread state "every unscoped buffer at a valuation,
   the generator register at some state, nothing owed", entered at a valuation and left at that valuation updated at
   the output array main_v158 with what the pipeline's write-backs leave there. Generic in the float model. -/
import proofs.«415143_j42460046688958_3_alg».proof.Proof.Gen.Kernel.Launch
import proofs.«415143_j42460046688958_3_alg».proof.Proof.Gen.Kernel.Skeleton
import proofs.«415143_j42460046688958_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (an unfetched
    window's block index has not moved), for any proof data whose array is the entry contents and whose body leaves
    the block in place. Window 0 moves with the point; windows 1 to 6 (the weights and biases) sit at block 0. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0
abbrev r12_3 : Rect S128x64 := Rect.unit (s := S128x64) ![0, 0] S128x64.size inb_S128x64_S128x64_0_0
abbrev r12_4 : Rect S1x64 := Rect.unit (s := S1x64) ![0, 0] S1x64.size inb_S1x64_S1x64_0_0
abbrev r12_5 : Rect S64x128 := Rect.unit (s := S64x128) ![0, 0] S64x128.size inb_S64x128_S64x128_0_0

/-! ## What the body leaves in the output window's buffer -/

/-- Window 7's staging buffer after the body, from the input windows' blocks: its one store, whose payload is
    tanh(relu(relu(relu(x) W1 + b1) W2 + b2) W3 + b3) of the seven blocks. -/
def out12_7 (x0 : Vec F S2000x128 .f32) (x1 : Vec F S128x128 .f32) (x2 : Vec F S1x128 .f32) (x3 : Vec F S128x64 .f32)
    (x4 : Vec F S1x64 .f32) (x5 : Vec F S64x128 .f32) (x6 : Vec F S1x128 .f32) : Vec F S2000x128 .f32 :=
  View.canon [⟨r12_0, k12_pay1 (View.ld x0 r12_0) (View.ld x1 r12_1) (View.ld x2 r12_2) (View.ld x3 r12_3) (View.ld x4 r12_4) (View.ld x5 r12_5) (View.ld x6 r12_2)⟩]

/-- The store is of the whole buffer, so it covers it. -/
theorem cover12_7 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

/-! ## The body's triple -/

set_option maxHeartbeats 1000000 in
/-- The kernel body on whole staging memrefs, the inputs' at read contents and the output's at anything, runs to the
    continuation holding the inputs' as they were and the output's at out12_7 of the inputs'. -/
theorem sound_kernel12 (c : Dev nD) (E : Set ℕ) (i : grid12.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S2000x128 .f32) (harg8 : arg8.IsWhole)
    (x0 : Vec F S2000x128 .f32) (x1 : Vec F S128x128 .f32) (x2 : Vec F S1x128 .f32) (x3 : Vec F S128x64 .f32)
    (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out12_7 x0 x1 x2 x3 x4 x5 x6)) -∗ K ⟨⟩))
      ⊢ wp frame (wpE (defs₀ (F := F)) Variants.none c none) E (cc12__head_kernel i arg1 harg1 arg2 harg2 arg3 harg3 arg4 harg4 arg5 harg5 arg6 harg6 arg7 harg7 arg8 harg8) K := by
  simp only [cc12__head_kernel_eq_skeleton]; unfold cc12__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The pipeline's proof data -/

/-- The proof data of pipeline 12 on core c: the arrays as the region finds them; after the body at point t each
    input's buffer at its block and the output's at out12_7 of the input blocks; the invariant the scoped rest and the
    generator register, untouched; nothing owed; full shares. -/
def dat12c (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the region-entry contents. -/
theorem A_eq12 (c : Dev nD) (w : Fin cfg12.W) : (dat12c V c).A w = V c (Pipeline.arrRef spec12 w) := by
  dsimp only [dat12c]

/-- What the body leaves, window by window. -/
theorem after12_0 (c : Dev nD) (t : Fin cfg12.N) : (dat12c V c).after 0 t = iblk12 V c 0 t := by dsimp only [dat12c]
theorem after12_1 (c : Dev nD) (t : Fin cfg12.N) : (dat12c V c).after 1 t = iblk12 V c 1 t := by dsimp only [dat12c]
theorem after12_2 (c : Dev nD) (t : Fin cfg12.N) : (dat12c V c).after 2 t = iblk12 V c 2 t := by dsimp only [dat12c]
theorem after12_3 (c : Dev nD) (t : Fin cfg12.N) : (dat12c V c).after 3 t = iblk12 V c 3 t := by dsimp only [dat12c]
theorem after12_4 (c : Dev nD) (t : Fin cfg12.N) : (dat12c V c).after 4 t = iblk12 V c 4 t := by dsimp only [dat12c]
theorem after12_5 (c : Dev nD) (t : Fin cfg12.N) : (dat12c V c).after 5 t = iblk12 V c 5 t := by dsimp only [dat12c]
theorem after12_6 (c : Dev nD) (t : Fin cfg12.N) : (dat12c V c).after 6 t = iblk12 V c 6 t := by dsimp only [dat12c]
theorem after12_7 (c : Dev nD) (t : Fin cfg12.N) : (dat12c V c).after 7 t
    = out12_7 (iblk12 V c 0 t) (iblk12 V c 1 t) (iblk12 V c 2 t) (iblk12 V c 3 t) (iblk12 V c 4 t) (iblk12 V c 5 t) (iblk12 V c 6 t) := by dsimp only [dat12c]

/-- Each input's current staging buffer holds its block at every point, fetched there or not. -/
theorem before12_0 (c : Dev nD) (t : Fin cfg12.N) (d) : (dat12c V c).before 0 t d = iblk12 V c 0 t :=
  before12_0_of V (dat12c V c) (A_eq12 V c 0) (after12_0 V c) t d
theorem before12_1 (c : Dev nD) (t : Fin cfg12.N) (d) : (dat12c V c).before 1 t d = iblk12 V c 1 t :=
  before12_1_of V (dat12c V c) (A_eq12 V c 1) (after12_1 V c) t d
theorem before12_2 (c : Dev nD) (t : Fin cfg12.N) (d) : (dat12c V c).before 2 t d = iblk12 V c 2 t :=
  before12_2_of V (dat12c V c) (A_eq12 V c 2) (after12_2 V c) t d
theorem before12_3 (c : Dev nD) (t : Fin cfg12.N) (d) : (dat12c V c).before 3 t d = iblk12 V c 3 t :=
  before12_3_of V (dat12c V c) (A_eq12 V c 3) (after12_3 V c) t d
theorem before12_4 (c : Dev nD) (t : Fin cfg12.N) (d) : (dat12c V c).before 4 t d = iblk12 V c 4 t :=
  before12_4_of V (dat12c V c) (A_eq12 V c 4) (after12_4 V c) t d
theorem before12_5 (c : Dev nD) (t : Fin cfg12.N) (d) : (dat12c V c).before 5 t d = iblk12 V c 5 t :=
  before12_5_of V (dat12c V c) (A_eq12 V c 5) (after12_5 V c) t d
theorem before12_6 (c : Dev nD) (t : Fin cfg12.N) (d) : (dat12c V c).before 6 t d = iblk12 V c 6 t :=
  before12_6_of V (dat12c V c) (A_eq12 V c 6) (after12_6 V c) t d

/-! ## The body obligation, at a generic point -/

/-- What the body is called with at point t, the windows one by one, -/
def bodyPre12 (c : Dev nD) (t : Fin cfg12.N) : sProp 𝕄 :=
  iprop((dat12c V c).Φ t.castSucc ∗ (dat12c V c).owesAt () t.castSucc
    ∗ (∃ d, owns (c : Thread nD τ) (st12_0 t) fullShare ((dat12c V c).before 0 t d))
    ∗ (∃ d, owns (c : Thread nD τ) (st12_1 t) fullShare ((dat12c V c).before 1 t d))
    ∗ (∃ d, owns (c : Thread nD τ) (st12_2 t) fullShare ((dat12c V c).before 2 t d))
    ∗ (∃ d, owns (c : Thread nD τ) (st12_3 t) fullShare ((dat12c V c).before 3 t d))
    ∗ (∃ d, owns (c : Thread nD τ) (st12_4 t) fullShare ((dat12c V c).before 4 t d))
    ∗ (∃ d, owns (c : Thread nD τ) (st12_5 t) fullShare ((dat12c V c).before 5 t d))
    ∗ (∃ d, owns (c : Thread nD τ) (st12_6 t) fullShare ((dat12c V c).before 6 t d))
    ∗ (∃ d, owns (c : Thread nD τ) (st12_7 t) fullShare ((dat12c V c).before 7 t d)))

/-- and what it returns. -/
def bodyPost12 (c : Dev nD) (t : Fin cfg12.N) : sProp 𝕄 :=
  iprop((dat12c V c).Φ t.succ ∗ (dat12c V c).owesAt () t.succ
    ∗ owns (c : Thread nD τ) (st12_0 t) fullShare ((dat12c V c).after 0 t)
    ∗ owns (c : Thread nD τ) (st12_1 t) fullShare ((dat12c V c).after 1 t)
    ∗ owns (c : Thread nD τ) (st12_2 t) fullShare ((dat12c V c).after 2 t)
    ∗ owns (c : Thread nD τ) (st12_3 t) fullShare ((dat12c V c).after 3 t)
    ∗ owns (c : Thread nD τ) (st12_4 t) fullShare ((dat12c V c).after 4 t)
    ∗ owns (c : Thread nD τ) (st12_5 t) fullShare ((dat12c V c).after 5 t)
    ∗ owns (c : Thread nD τ) (st12_6 t) fullShare ((dat12c V c).after 6 t)
    ∗ owns (c : Thread nD τ) (st12_7 t) fullShare ((dat12c V c).after 7 t))

/-- The body at any point: the inputs' memrefs hold their blocks, so the kernel's triple applies; the invariant and
    the core's owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12c V c).Φ t.succ = (dat12c V c).Φ t.castSucc from rfl,
    show (dat12c V c).owesAt () t.succ = (dat12c V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ (grid12.coords t) _ _ _ _ _ _ _ _ _ _ _ _ _ _ _ _
    (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation12c (c : Dev nD) : BodyObligation (dat12c (F := F) V c) (defs₀ (F := F)) Variants.none () Set.univ := fun t => by
  rw [bigSep_W12, bigSep_W12]
  exact sound_body12 V c t

end Region

/-! ## The region's interface: the proof data at the pinned configuration, and the region as a segment -/

section Seg

variable (a : (p : Fin 13) → (pcfgs (F := F) p).Adm)
variable (V : (c : Dev nD) → (b : Ref sig .tc) → Buf (Elt F) ((c : Thread nD τ).loc b))

/-- The proof data of pipeline 12 at the program's pinned configuration (pipeline 12 prefetches no table: pinned
    at any contents it is cfg12). -/
def dat12 (c : Dev nD) : Dat τ (Elt F) Unit ℕ (UR sig nD τ) ℕ (Pipeline.pin (pcfgs (F := F)) a 12) c := dat12c V c

theorem dat12_eq (c : Dev nD) : dat12 a V c = dat12c V c := rfl

/-- The body obligation of the exported proof data. -/
theorem body_obligation12 (c : Dev nD) : BodyObligation (dat12 (F := F) a V c) (defs₀ (F := F)) Variants.none () Set.univ :=
  body_obligation12c V c

end Seg

section Exit

variable (Vin : Dev nD → Valuation τ sig (Elt F))

/-- The valuation the region leaves: the entry valuation with the output array main_v158 at what the pipeline's
    write-backs leave there. -/
abbrev Vout12 (c : Dev nD) : Valuation τ sig (Elt F) :=
  Function.update (Vin c) main_v158 ((dat12c (fun c b => Vin c b) c).arrAt 7 cfg12.N)

/-- An input window's array is no main_v158, so the exit valuation has it as entered, which is what the pipeline
    leaves of an input. -/
theorem hF12_in (c : Dev nD) (w : Fin cfg12.W) (hw : (cfg12.win w).isOut = false)
    (hne : (Proc.devRef .tc (Pipeline.arrRef spec12 w) : DevRef τ sig) ≠ main_v158) :
    (dat12c (fun c b => Vin c b) c).arrAt w cfg12.N = Vout12 Vin c (Proc.devRef .tc (Pipeline.arrRef spec12 w)) := by
  unfold Vout12
  rw [Function.update_of_ne hne]
  exact ((dat12c (fun c b => Vin c b) c).arrAt_in w hw _).trans (A_eq12 (fun c b => Vin c b) c w)

/-- At the region's exit each of its arrays holds what the pipeline leaves, -/
theorem hF12 (c : Dev nD) : ∀ w : Fin cfg12.W,
    (dat12c (fun c b => Vin c b) c).arrAt w cfg12.N = Vout12 Vin c (Proc.devRef .tc (Pipeline.arrRef spec12 w))
  | ⟨0, _⟩ => hF12_in Vin c 0 rfl (StableHlo.devRef_ne_of_ne (by decide))
  | ⟨1, _⟩ => hF12_in Vin c 1 rfl (StableHlo.devRef_ne_of_ne (by decide))
  | ⟨2, _⟩ => hF12_in Vin c 2 rfl (StableHlo.devRef_ne_of_ne (by decide))
  | ⟨3, _⟩ => hF12_in Vin c 3 rfl (StableHlo.devRef_ne_of_ne (by decide))
  | ⟨4, _⟩ => hF12_in Vin c 4 rfl (StableHlo.devRef_ne_of_ne (by decide))
  | ⟨5, _⟩ => hF12_in Vin c 5 rfl (StableHlo.devRef_ne_of_ne (by decide))
  | ⟨6, _⟩ => hF12_in Vin c 6 rfl (StableHlo.devRef_ne_of_ne (by decide))
  | ⟨7, _⟩ => (Function.update_self (β := fun b : DevRef τ sig => b.ty.Contents (Elt F)) (main_v158 : DevRef τ sig) _ (Vin c)).symm

/-- and every other buffer what it held at entry. -/
theorem hrest12 (c : Dev nD) : ∀ b : Ref sig .tc, b ∉ Finset.univ.image (Pipeline.arrRef spec12) →
    Vout12 Vin c (Proc.devRef .tc b) = Vin c (Proc.devRef .tc b) := fun b hb =>
  Function.update_of_ne (fun e => hb (Finset.mem_image.mpr ⟨7, Finset.mem_univ _, (Proc.devRef_injective _ e).symm⟩)) _ _

end Exit

section Reg

variable (a : (p : Fin 13) → (pcfgs (F := F) p).Adm)
variable (Vin : Dev nD → Valuation τ sig (Elt F))

/-- What rides beside the buffers through the region: the core's generator register at some state (the invariant
    takes it in and gives it back) and its owes, at nothing. -/
abbrev R12 (c : Dev nD) : sProp 𝕄 := iprop((∃ r, prngReg c r) ∗ ∃ W, owes (c : Thread nD τ) (0 : CellTallies nD τ sig Unit) W)

set_option backward.isDefEq.respectTransparency.types false in
/-- REGION 12 (custom_call 12) over the thread state, for any family of proof data whose member 12 is dat12 at the
    entry valuation: entered from every unscoped buffer at Vin, left at Vin updated at main_v158 with the output
    array as the write-backs leave it. Its arrays split out of the unscoped buffers and put back at the exit contents;
    the generator register into the invariant and out; nothing owed; no semaphore of the kernel's own; no table. -/
def reg12 (pdats : (p : Fin 13) → (c : Dev nD) → Dat τ (Elt F) Unit ℕ (UR sig nD τ) ℕ (Pipeline.pin (pcfgs (F := F)) a p) c)
    (h : ∀ c, pdats 12 c = dat12 a (fun c b => Vin c b) c) :
    Pipeline.RegionSeg (pcfgs (F := F)) a pdats () defs₀ Variants.none (fun _ => (∅ : Finset Unit)) (fun _ _ => (0 : ℕ)) 12 where
  win := (launch12 (F := F)).win.to₀
  block_pos := (launch12 (F := F)).block_pos
  stage_whole := (launch12 (F := F)).stage_whole
  K := PEmpty
  osem k := k.elim
  ho := Pipeline.OwnSemFacts.none _
  hbody c := by rw [h c]; exact (body_obligation12 a (fun c b => Vin c b) c).loose
  hwaits := Pipeline.hwaits_of_owed_zero _ _ _ _ (fun _ => (∅ : Finset Unit)) (fun _ _ => (0 : ℕ)) 12 fun c _ => by rw [h c]; rfl
  pre c := iprop(StableHlo.held (c : Thread nD τ) (Pipeline.ucRefs τ sig) (Vin c) ∗ R12 c)
  post c := iprop(StableHlo.held (c : Thread nD τ) (Pipeline.ucRefs τ sig)
      (Function.update (Vin c) main_v158 ((dat12 a (fun c b => Vin c b) c).arrAt 7 cfg12.N)) ∗ R12 c)
  X c := iprop(∃ r, prngReg c r)
  Y c := iprop(∃ r, prngReg c r)
  Z c := Pipeline.unscopedRest (Ix := Unit) (Name := ℕ) (U := UR sig nD τ) (Lvl := ℕ) spec12 c (fun b => Vin c b)
  hentry c := by
    rw [Pipeline.ownSems0_none]
    have hsplit := Pipeline.arrays_of_unscopedBufs (p := 12) (pcfgs (F := F)) a pdats (launch12 (F := F)).win (launch12 (F := F)).arr_whole c
      ((pdats 12 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [h c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) a (Ix := Unit) (Name := ℕ) (U := UR sig nD τ) (Lvl := ℕ)
      (launch12 (F := F)).win (launch12 (F := F)).arr_whole c pdats ((pdats 12 c).share_full fun _ => by rw [h c]; rfl)
      (fun b => Vin c b) (fun b => Vout12 Vin c b) ((pdats 12 c).arrAt · cfg12.N)
      (fun w => by rw [h c]; exact hF12 Vin c w) (hrest12 Vin c)
    rw [Pipeline.unscopedBufs_held] at hjoin
    rw [h c] at hjoin ⊢
    unfold dat12 at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segment is entered from the thread state at Vin, -/
theorem reg12_pre (pdats) (h) (c : Dev nD) :
    (reg12 a Vin pdats h).pre c = iprop(StableHlo.held (c : Thread nD τ) (Pipeline.ucRefs τ sig) (Vin c) ∗ R12 c) := rfl
/-- and left at Vin updated at main_v158 with the output array at the last point. -/
theorem reg12_post (pdats) (h) (c : Dev nD) :
    (reg12 a Vin pdats h).post c = iprop(StableHlo.held (c : Thread nD τ) (Pipeline.ucRefs τ sig)
      (Function.update (Vin c) main_v158 ((dat12 a (fun c b => Vin c b) c).arrAt 7 cfg12.N)) ∗ R12 c) := rfl

end Reg

end Cert.Kernel.Hand

end
-- ==== Proof.K.Assemble.lean ====
import proofs.«415143_j42460046688958_3_alg».proof.Proof.K.Run
import proofs.«415143_j42460046688958_3_alg».proof.Proof.K.TablesScatter
import proofs.«415143_j42460046688958_3_alg».proof.Proof.K.TablesGather
import proofs.«415143_j42460046688958_3_alg».proof.Proof.K.Dense0
import proofs.«415143_j42460046688958_3_alg».proof.Proof.K.Gather1
import proofs.«415143_j42460046688958_3_alg».proof.Proof.K.Scatter2
import proofs.«415143_j42460046688958_3_alg».proof.Proof.K.Dense3
import proofs.«415143_j42460046688958_3_alg».proof.Proof.K.Gather4
import proofs.«415143_j42460046688958_3_alg».proof.Proof.K.Scatter5
import proofs.«415143_j42460046688958_3_alg».proof.Proof.K.Dense6
import proofs.«415143_j42460046688958_3_alg».proof.Proof.K.Gather7
import proofs.«415143_j42460046688958_3_alg».proof.Proof.K.Scatter8
import proofs.«415143_j42460046688958_3_alg».proof.Proof.K.Dense9
import proofs.«415143_j42460046688958_3_alg».proof.Proof.K.Gather10
import proofs.«415143_j42460046688958_3_alg».proof.Proof.K.Scatter11
import proofs.«415143_j42460046688958_3_alg».proof.Proof.K.Head12

-- decided memberships among the 437 references recurse past the default depth
set_option maxRecDepth 2260

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

local notation "Rest" c:max => iprop((∃ r, prngReg c r) ∗ ∃ W, owes (c : Thread nD τ) (0 : CellTallies nD τ sig Unit) W)

/-! ## The buffers' contents between items, with what each region leaves written out

The valuations between two items of @main, as the conditional run states them over unknowns `outs`, at the contents the
regions' pipelines do leave: after region K the valuation before it with the region's result array replaced by that
array as the write-backs of the last point leave it (window `w` of the region's proof data at the entry valuation).
Written for any admissible table contents `a`; the tables are fixed at the end. -/

section Chain

variable (a : (p : Fin 13) → (pcfgs (F := F) p).Adm) (m : (ℓ : Loc nD τ sig) → Buf (Elt F) ℓ)

/-- What region 0 leaves in `main_v118` on core `c`. -/
def out0 (c : Dev nD) : Buf (Elt F) ((c : Thread nD τ).loc main_v118) :=
  (dat0 a (fun c b => V33 m c b) c).arrAt (2 : Fin 3) (Pipeline.pin (pcfgs (F := F)) a 0).N
/-- Core `c`'s unscoped buffers after region 0. -/
def W34 (c : Dev nD) : Valuation τ sig (Elt F) := Function.update (V33 m c) main_v118 (out0 a m c)
/-- What region 1 leaves in `main_v119` on core `c`. -/
def out1 (c : Dev nD) : Buf (Elt F) ((c : Thread nD τ).loc main_v119) :=
  (dat1 a (fun c b => W34 a m c b) c).arrAt (3 : Fin 4) (Pipeline.pin (pcfgs (F := F)) a 1).N
/-- Core `c`'s unscoped buffers after region 1. -/
def W35 (c : Dev nD) : Valuation τ sig (Elt F) := Function.update (W34 a m c) main_v119 (out1 a m c)
/-- Core `c`'s unscoped buffers after the host stretch `hostOps2`. -/
def W36 (c : Dev nD) : Valuation τ sig (Elt F) := StableHlo.after hostOps2 (W35 a m c)
/-- What region 2 leaves in `main_v125` on core `c`. -/
def out2 (c : Dev nD) : Buf (Elt F) ((c : Thread nD τ).loc main_v125) :=
  (dat2 a (fun c b => W36 a m c b) c).arrAt (5 : Fin 6) (Pipeline.pin (pcfgs (F := F)) a 2).N
/-- Core `c`'s unscoped buffers after region 2. -/
def W37 (c : Dev nD) : Valuation τ sig (Elt F) := Function.update (W36 a m c) main_v125 (out2 a m c)
/-- Core `c`'s unscoped buffers after the host stretch `hostOps3`. -/
def W38 (c : Dev nD) : Valuation τ sig (Elt F) := StableHlo.after hostOps3 (W37 a m c)
/-- What region 3 leaves in `main_v128` on core `c`. -/
def out3 (c : Dev nD) : Buf (Elt F) ((c : Thread nD τ).loc main_v128) :=
  (dat3 a (fun c b => W38 a m c b) c).arrAt (2 : Fin 3) (Pipeline.pin (pcfgs (F := F)) a 3).N
/-- Core `c`'s unscoped buffers after region 3. -/
def W39 (c : Dev nD) : Valuation τ sig (Elt F) := Function.update (W38 a m c) main_v128 (out3 a m c)
/-- What region 4 leaves in `main_v129` on core `c`. -/
def out4 (c : Dev nD) : Buf (Elt F) ((c : Thread nD τ).loc main_v129) :=
  (dat4 a (fun c b => W39 a m c b) c).arrAt (3 : Fin 4) (Pipeline.pin (pcfgs (F := F)) a 4).N
/-- Core `c`'s unscoped buffers after region 4. -/
def W40 (c : Dev nD) : Valuation τ sig (Elt F) := Function.update (W39 a m c) main_v129 (out4 a m c)
/-- Core `c`'s unscoped buffers after the host stretch `hostOps5`. -/
def W41 (c : Dev nD) : Valuation τ sig (Elt F) := StableHlo.after hostOps5 (W40 a m c)
/-- What region 5 leaves in `main_v135` on core `c`. -/
def out5 (c : Dev nD) : Buf (Elt F) ((c : Thread nD τ).loc main_v135) :=
  (dat5 a (fun c b => W41 a m c b) c).arrAt (5 : Fin 6) (Pipeline.pin (pcfgs (F := F)) a 5).N
/-- Core `c`'s unscoped buffers after region 5. -/
def W42 (c : Dev nD) : Valuation τ sig (Elt F) := Function.update (W41 a m c) main_v135 (out5 a m c)
/-- Core `c`'s unscoped buffers after the host stretch `hostOps6`. -/
def W43 (c : Dev nD) : Valuation τ sig (Elt F) := StableHlo.after hostOps6 (W42 a m c)
/-- What region 6 leaves in `main_v138` on core `c`. -/
def out6 (c : Dev nD) : Buf (Elt F) ((c : Thread nD τ).loc main_v138) :=
  (dat6 a (fun c b => W43 a m c b) c).arrAt (2 : Fin 3) (Pipeline.pin (pcfgs (F := F)) a 6).N
/-- Core `c`'s unscoped buffers after region 6. -/
def W44 (c : Dev nD) : Valuation τ sig (Elt F) := Function.update (W43 a m c) main_v138 (out6 a m c)
/-- What region 7 leaves in `main_v139` on core `c`. -/
def out7 (c : Dev nD) : Buf (Elt F) ((c : Thread nD τ).loc main_v139) :=
  (dat7 a (fun c b => W44 a m c b) c).arrAt (3 : Fin 4) (Pipeline.pin (pcfgs (F := F)) a 7).N
/-- Core `c`'s unscoped buffers after region 7. -/
def W45 (c : Dev nD) : Valuation τ sig (Elt F) := Function.update (W44 a m c) main_v139 (out7 a m c)
/-- Core `c`'s unscoped buffers after the host stretch `hostOps8`. -/
def W46 (c : Dev nD) : Valuation τ sig (Elt F) := StableHlo.after hostOps8 (W45 a m c)
/-- What region 8 leaves in `main_v145` on core `c`. -/
def out8 (c : Dev nD) : Buf (Elt F) ((c : Thread nD τ).loc main_v145) :=
  (dat8 a (fun c b => W46 a m c b) c).arrAt (5 : Fin 6) (Pipeline.pin (pcfgs (F := F)) a 8).N
/-- Core `c`'s unscoped buffers after region 8. -/
def W47 (c : Dev nD) : Valuation τ sig (Elt F) := Function.update (W46 a m c) main_v145 (out8 a m c)
/-- Core `c`'s unscoped buffers after the host stretch `hostOps9`. -/
def W48 (c : Dev nD) : Valuation τ sig (Elt F) := StableHlo.after hostOps9 (W47 a m c)
/-- What region 9 leaves in `main_v148` on core `c`. -/
def out9 (c : Dev nD) : Buf (Elt F) ((c : Thread nD τ).loc main_v148) :=
  (dat9 a (fun c b => W48 a m c b) c).arrAt (2 : Fin 3) (Pipeline.pin (pcfgs (F := F)) a 9).N
/-- Core `c`'s unscoped buffers after region 9. -/
def W49 (c : Dev nD) : Valuation τ sig (Elt F) := Function.update (W48 a m c) main_v148 (out9 a m c)
/-- What region 10 leaves in `main_v149` on core `c`. -/
def out10 (c : Dev nD) : Buf (Elt F) ((c : Thread nD τ).loc main_v149) :=
  (dat10 a (fun c b => W49 a m c b) c).arrAt (3 : Fin 4) (Pipeline.pin (pcfgs (F := F)) a 10).N
/-- Core `c`'s unscoped buffers after region 10. -/
def W50 (c : Dev nD) : Valuation τ sig (Elt F) := Function.update (W49 a m c) main_v149 (out10 a m c)
/-- Core `c`'s unscoped buffers after the host stretch `hostOps11`. -/
def W51 (c : Dev nD) : Valuation τ sig (Elt F) := StableHlo.after hostOps11 (W50 a m c)
/-- What region 11 leaves in `main_v155` on core `c`. -/
def out11 (c : Dev nD) : Buf (Elt F) ((c : Thread nD τ).loc main_v155) :=
  (dat11 a (fun c b => W51 a m c b) c).arrAt (5 : Fin 6) (Pipeline.pin (pcfgs (F := F)) a 11).N
/-- Core `c`'s unscoped buffers after region 11. -/
def W52 (c : Dev nD) : Valuation τ sig (Elt F) := Function.update (W51 a m c) main_v155 (out11 a m c)
/-- Core `c`'s unscoped buffers after the host stretch `hostOps12`. -/
def W53 (c : Dev nD) : Valuation τ sig (Elt F) := StableHlo.after hostOps12 (W52 a m c)
/-- What region 12 leaves in `main_v158` on core `c`. -/
def out12 (c : Dev nD) : Buf (Elt F) ((c : Thread nD τ).loc main_v158) :=
  (dat12 a (fun c b => W53 a m c b) c).arrAt (7 : Fin 8) (Pipeline.pin (pcfgs (F := F)) a 12).N
/-- Core `c`'s unscoped buffers after region 12. -/
def W54 (c : Dev nD) : Valuation τ sig (Elt F) := Function.update (W53 a m c) main_v158 (out12 a m c)
/-- Core `c`'s unscoped buffers after the host stretch `hostOps13`. -/
def W55 (c : Dev nD) : Valuation τ sig (Elt F) := StableHlo.after hostOps13 (W54 a m c)

theorem out0_def (c : Dev nD) : out0 a m c = (dat0 a (fun c b => V33 m c b) c).arrAt (2 : Fin 3) (Pipeline.pin (pcfgs (F := F)) a 0).N := rfl
theorem W34_def (c : Dev nD) : W34 a m c = Function.update (V33 m c) main_v118 (out0 a m c) := rfl
theorem out1_def (c : Dev nD) : out1 a m c = (dat1 a (fun c b => W34 a m c b) c).arrAt (3 : Fin 4) (Pipeline.pin (pcfgs (F := F)) a 1).N := rfl
theorem W35_def (c : Dev nD) : W35 a m c = Function.update (W34 a m c) main_v119 (out1 a m c) := rfl
theorem W36_def (c : Dev nD) : W36 a m c = StableHlo.after hostOps2 (W35 a m c) := rfl
theorem out2_def (c : Dev nD) : out2 a m c = (dat2 a (fun c b => W36 a m c b) c).arrAt (5 : Fin 6) (Pipeline.pin (pcfgs (F := F)) a 2).N := rfl
theorem W37_def (c : Dev nD) : W37 a m c = Function.update (W36 a m c) main_v125 (out2 a m c) := rfl
theorem W38_def (c : Dev nD) : W38 a m c = StableHlo.after hostOps3 (W37 a m c) := rfl
theorem out3_def (c : Dev nD) : out3 a m c = (dat3 a (fun c b => W38 a m c b) c).arrAt (2 : Fin 3) (Pipeline.pin (pcfgs (F := F)) a 3).N := rfl
theorem W39_def (c : Dev nD) : W39 a m c = Function.update (W38 a m c) main_v128 (out3 a m c) := rfl
theorem out4_def (c : Dev nD) : out4 a m c = (dat4 a (fun c b => W39 a m c b) c).arrAt (3 : Fin 4) (Pipeline.pin (pcfgs (F := F)) a 4).N := rfl
theorem W40_def (c : Dev nD) : W40 a m c = Function.update (W39 a m c) main_v129 (out4 a m c) := rfl
theorem W41_def (c : Dev nD) : W41 a m c = StableHlo.after hostOps5 (W40 a m c) := rfl
theorem out5_def (c : Dev nD) : out5 a m c = (dat5 a (fun c b => W41 a m c b) c).arrAt (5 : Fin 6) (Pipeline.pin (pcfgs (F := F)) a 5).N := rfl
theorem W42_def (c : Dev nD) : W42 a m c = Function.update (W41 a m c) main_v135 (out5 a m c) := rfl
theorem W43_def (c : Dev nD) : W43 a m c = StableHlo.after hostOps6 (W42 a m c) := rfl
theorem out6_def (c : Dev nD) : out6 a m c = (dat6 a (fun c b => W43 a m c b) c).arrAt (2 : Fin 3) (Pipeline.pin (pcfgs (F := F)) a 6).N := rfl
theorem W44_def (c : Dev nD) : W44 a m c = Function.update (W43 a m c) main_v138 (out6 a m c) := rfl
theorem out7_def (c : Dev nD) : out7 a m c = (dat7 a (fun c b => W44 a m c b) c).arrAt (3 : Fin 4) (Pipeline.pin (pcfgs (F := F)) a 7).N := rfl
theorem W45_def (c : Dev nD) : W45 a m c = Function.update (W44 a m c) main_v139 (out7 a m c) := rfl
theorem W46_def (c : Dev nD) : W46 a m c = StableHlo.after hostOps8 (W45 a m c) := rfl
theorem out8_def (c : Dev nD) : out8 a m c = (dat8 a (fun c b => W46 a m c b) c).arrAt (5 : Fin 6) (Pipeline.pin (pcfgs (F := F)) a 8).N := rfl
theorem W47_def (c : Dev nD) : W47 a m c = Function.update (W46 a m c) main_v145 (out8 a m c) := rfl
theorem W48_def (c : Dev nD) : W48 a m c = StableHlo.after hostOps9 (W47 a m c) := rfl
theorem out9_def (c : Dev nD) : out9 a m c = (dat9 a (fun c b => W48 a m c b) c).arrAt (2 : Fin 3) (Pipeline.pin (pcfgs (F := F)) a 9).N := rfl
theorem W49_def (c : Dev nD) : W49 a m c = Function.update (W48 a m c) main_v148 (out9 a m c) := rfl
theorem out10_def (c : Dev nD) : out10 a m c = (dat10 a (fun c b => W49 a m c b) c).arrAt (3 : Fin 4) (Pipeline.pin (pcfgs (F := F)) a 10).N := rfl
theorem W50_def (c : Dev nD) : W50 a m c = Function.update (W49 a m c) main_v149 (out10 a m c) := rfl
theorem W51_def (c : Dev nD) : W51 a m c = StableHlo.after hostOps11 (W50 a m c) := rfl
theorem out11_def (c : Dev nD) : out11 a m c = (dat11 a (fun c b => W51 a m c b) c).arrAt (5 : Fin 6) (Pipeline.pin (pcfgs (F := F)) a 11).N := rfl
theorem W52_def (c : Dev nD) : W52 a m c = Function.update (W51 a m c) main_v155 (out11 a m c) := rfl
theorem W53_def (c : Dev nD) : W53 a m c = StableHlo.after hostOps12 (W52 a m c) := rfl
theorem out12_def (c : Dev nD) : out12 a m c = (dat12 a (fun c b => W53 a m c b) c).arrAt (7 : Fin 8) (Pipeline.pin (pcfgs (F := F)) a 12).N := rfl
theorem W54_def (c : Dev nD) : W54 a m c = Function.update (W53 a m c) main_v158 (out12 a m c) := rfl
theorem W55_def (c : Dev nD) : W55 a m c = StableHlo.after hostOps13 (W54 a m c) := rfl

/-- The unknowns of the conditional run at what the regions leave: the result array of region K at `outK`; any other
    reference at its launch contents (never read). -/
def outsOf : Outs (F := F) := fun _ r c =>
  if h0 : r = main_v118 then h0 ▸ out0 a m c else
  if h1 : r = main_v119 then h1 ▸ out1 a m c else
  if h2 : r = main_v125 then h2 ▸ out2 a m c else
  if h3 : r = main_v128 then h3 ▸ out3 a m c else
  if h4 : r = main_v129 then h4 ▸ out4 a m c else
  if h5 : r = main_v135 then h5 ▸ out5 a m c else
  if h6 : r = main_v138 then h6 ▸ out6 a m c else
  if h7 : r = main_v139 then h7 ▸ out7 a m c else
  if h8 : r = main_v145 then h8 ▸ out8 a m c else
  if h9 : r = main_v148 then h9 ▸ out9 a m c else
  if h10 : r = main_v149 then h10 ▸ out10 a m c else
  if h11 : r = main_v155 then h11 ▸ out11 a m c else
  if h12 : r = main_v158 then h12 ▸ out12 a m c else
  m ((c : Thread nD τ).loc r)

theorem outs_0 (J : ℕ) (c : Dev nD) : outsOf a m J main_v118 c = out0 a m c := by
  unfold outsOf
  rw [dif_pos rfl]
theorem outs_1 (J : ℕ) (c : Dev nD) : outsOf a m J main_v119 c = out1 a m c := by
  unfold outsOf
  rw [dif_neg (show ¬ (main_v119 : Ref sig .tc) = main_v118 by decide), dif_pos rfl]
theorem outs_2 (J : ℕ) (c : Dev nD) : outsOf a m J main_v125 c = out2 a m c := by
  unfold outsOf
  rw [dif_neg (show ¬ (main_v125 : Ref sig .tc) = main_v118 by decide), dif_neg (show ¬ (main_v125 : Ref sig .tc) = main_v119 by decide), dif_pos rfl]
theorem outs_3 (J : ℕ) (c : Dev nD) : outsOf a m J main_v128 c = out3 a m c := by
  unfold outsOf
  rw [dif_neg (show ¬ (main_v128 : Ref sig .tc) = main_v118 by decide), dif_neg (show ¬ (main_v128 : Ref sig .tc) = main_v119 by decide), dif_neg (show ¬ (main_v128 : Ref sig .tc) = main_v125 by decide), dif_pos rfl]
theorem outs_4 (J : ℕ) (c : Dev nD) : outsOf a m J main_v129 c = out4 a m c := by
  unfold outsOf
  rw [dif_neg (show ¬ (main_v129 : Ref sig .tc) = main_v118 by decide), dif_neg (show ¬ (main_v129 : Ref sig .tc) = main_v119 by decide), dif_neg (show ¬ (main_v129 : Ref sig .tc) = main_v125 by decide), dif_neg (show ¬ (main_v129 : Ref sig .tc) = main_v128 by decide), dif_pos rfl]
theorem outs_5 (J : ℕ) (c : Dev nD) : outsOf a m J main_v135 c = out5 a m c := by
  unfold outsOf
  rw [dif_neg (show ¬ (main_v135 : Ref sig .tc) = main_v118 by decide), dif_neg (show ¬ (main_v135 : Ref sig .tc) = main_v119 by decide), dif_neg (show ¬ (main_v135 : Ref sig .tc) = main_v125 by decide), dif_neg (show ¬ (main_v135 : Ref sig .tc) = main_v128 by decide), dif_neg (show ¬ (main_v135 : Ref sig .tc) = main_v129 by decide), dif_pos rfl]
theorem outs_6 (J : ℕ) (c : Dev nD) : outsOf a m J main_v138 c = out6 a m c := by
  unfold outsOf
  rw [dif_neg (show ¬ (main_v138 : Ref sig .tc) = main_v118 by decide), dif_neg (show ¬ (main_v138 : Ref sig .tc) = main_v119 by decide), dif_neg (show ¬ (main_v138 : Ref sig .tc) = main_v125 by decide), dif_neg (show ¬ (main_v138 : Ref sig .tc) = main_v128 by decide), dif_neg (show ¬ (main_v138 : Ref sig .tc) = main_v129 by decide), dif_neg (show ¬ (main_v138 : Ref sig .tc) = main_v135 by decide), dif_pos rfl]
theorem outs_7 (J : ℕ) (c : Dev nD) : outsOf a m J main_v139 c = out7 a m c := by
  unfold outsOf
  rw [dif_neg (show ¬ (main_v139 : Ref sig .tc) = main_v118 by decide), dif_neg (show ¬ (main_v139 : Ref sig .tc) = main_v119 by decide), dif_neg (show ¬ (main_v139 : Ref sig .tc) = main_v125 by decide), dif_neg (show ¬ (main_v139 : Ref sig .tc) = main_v128 by decide), dif_neg (show ¬ (main_v139 : Ref sig .tc) = main_v129 by decide), dif_neg (show ¬ (main_v139 : Ref sig .tc) = main_v135 by decide), dif_neg (show ¬ (main_v139 : Ref sig .tc) = main_v138 by decide), dif_pos rfl]
theorem outs_8 (J : ℕ) (c : Dev nD) : outsOf a m J main_v145 c = out8 a m c := by
  unfold outsOf
  rw [dif_neg (show ¬ (main_v145 : Ref sig .tc) = main_v118 by decide), dif_neg (show ¬ (main_v145 : Ref sig .tc) = main_v119 by decide), dif_neg (show ¬ (main_v145 : Ref sig .tc) = main_v125 by decide), dif_neg (show ¬ (main_v145 : Ref sig .tc) = main_v128 by decide), dif_neg (show ¬ (main_v145 : Ref sig .tc) = main_v129 by decide), dif_neg (show ¬ (main_v145 : Ref sig .tc) = main_v135 by decide), dif_neg (show ¬ (main_v145 : Ref sig .tc) = main_v138 by decide), dif_neg (show ¬ (main_v145 : Ref sig .tc) = main_v139 by decide), dif_pos rfl]
theorem outs_9 (J : ℕ) (c : Dev nD) : outsOf a m J main_v148 c = out9 a m c := by
  unfold outsOf
  rw [dif_neg (show ¬ (main_v148 : Ref sig .tc) = main_v118 by decide), dif_neg (show ¬ (main_v148 : Ref sig .tc) = main_v119 by decide), dif_neg (show ¬ (main_v148 : Ref sig .tc) = main_v125 by decide), dif_neg (show ¬ (main_v148 : Ref sig .tc) = main_v128 by decide), dif_neg (show ¬ (main_v148 : Ref sig .tc) = main_v129 by decide), dif_neg (show ¬ (main_v148 : Ref sig .tc) = main_v135 by decide), dif_neg (show ¬ (main_v148 : Ref sig .tc) = main_v138 by decide), dif_neg (show ¬ (main_v148 : Ref sig .tc) = main_v139 by decide), dif_neg (show ¬ (main_v148 : Ref sig .tc) = main_v145 by decide), dif_pos rfl]
theorem outs_10 (J : ℕ) (c : Dev nD) : outsOf a m J main_v149 c = out10 a m c := by
  unfold outsOf
  rw [dif_neg (show ¬ (main_v149 : Ref sig .tc) = main_v118 by decide), dif_neg (show ¬ (main_v149 : Ref sig .tc) = main_v119 by decide), dif_neg (show ¬ (main_v149 : Ref sig .tc) = main_v125 by decide), dif_neg (show ¬ (main_v149 : Ref sig .tc) = main_v128 by decide), dif_neg (show ¬ (main_v149 : Ref sig .tc) = main_v129 by decide), dif_neg (show ¬ (main_v149 : Ref sig .tc) = main_v135 by decide), dif_neg (show ¬ (main_v149 : Ref sig .tc) = main_v138 by decide), dif_neg (show ¬ (main_v149 : Ref sig .tc) = main_v139 by decide), dif_neg (show ¬ (main_v149 : Ref sig .tc) = main_v145 by decide), dif_neg (show ¬ (main_v149 : Ref sig .tc) = main_v148 by decide), dif_pos rfl]
theorem outs_11 (J : ℕ) (c : Dev nD) : outsOf a m J main_v155 c = out11 a m c := by
  unfold outsOf
  rw [dif_neg (show ¬ (main_v155 : Ref sig .tc) = main_v118 by decide), dif_neg (show ¬ (main_v155 : Ref sig .tc) = main_v119 by decide), dif_neg (show ¬ (main_v155 : Ref sig .tc) = main_v125 by decide), dif_neg (show ¬ (main_v155 : Ref sig .tc) = main_v128 by decide), dif_neg (show ¬ (main_v155 : Ref sig .tc) = main_v129 by decide), dif_neg (show ¬ (main_v155 : Ref sig .tc) = main_v135 by decide), dif_neg (show ¬ (main_v155 : Ref sig .tc) = main_v138 by decide), dif_neg (show ¬ (main_v155 : Ref sig .tc) = main_v139 by decide), dif_neg (show ¬ (main_v155 : Ref sig .tc) = main_v145 by decide), dif_neg (show ¬ (main_v155 : Ref sig .tc) = main_v148 by decide), dif_neg (show ¬ (main_v155 : Ref sig .tc) = main_v149 by decide), dif_pos rfl]
theorem outs_12 (J : ℕ) (c : Dev nD) : outsOf a m J main_v158 c = out12 a m c := by
  unfold outsOf
  rw [dif_neg (show ¬ (main_v158 : Ref sig .tc) = main_v118 by decide), dif_neg (show ¬ (main_v158 : Ref sig .tc) = main_v119 by decide), dif_neg (show ¬ (main_v158 : Ref sig .tc) = main_v125 by decide), dif_neg (show ¬ (main_v158 : Ref sig .tc) = main_v128 by decide), dif_neg (show ¬ (main_v158 : Ref sig .tc) = main_v129 by decide), dif_neg (show ¬ (main_v158 : Ref sig .tc) = main_v135 by decide), dif_neg (show ¬ (main_v158 : Ref sig .tc) = main_v138 by decide), dif_neg (show ¬ (main_v158 : Ref sig .tc) = main_v139 by decide), dif_neg (show ¬ (main_v158 : Ref sig .tc) = main_v145 by decide), dif_neg (show ¬ (main_v158 : Ref sig .tc) = main_v148 by decide), dif_neg (show ¬ (main_v158 : Ref sig .tc) = main_v149 by decide), dif_neg (show ¬ (main_v158 : Ref sig .tc) = main_v155 by decide), dif_pos rfl]

theorem V34_eq (c : Dev nD) : V34 m (outsOf a m) c = W34 a m c := by
  show Function.update (V33 m c) main_v118 (outsOf a m 34 main_v118 c) = Function.update (V33 m c) main_v118 (out0 a m c)
  rw [outs_0]
theorem V35_eq (c : Dev nD) : V35 m (outsOf a m) c = W35 a m c := by
  show Function.update (V34 m (outsOf a m) c) main_v119 (outsOf a m 35 main_v119 c) = Function.update (W34 a m c) main_v119 (out1 a m c)
  rw [V34_eq, outs_1]
theorem V36_eq (c : Dev nD) : V36 m (outsOf a m) c = W36 a m c := by
  show StableHlo.after hostOps2 (V35 m (outsOf a m) c) = StableHlo.after hostOps2 (W35 a m c)
  rw [V35_eq]
theorem V37_eq (c : Dev nD) : V37 m (outsOf a m) c = W37 a m c := by
  show Function.update (V36 m (outsOf a m) c) main_v125 (outsOf a m 37 main_v125 c) = Function.update (W36 a m c) main_v125 (out2 a m c)
  rw [V36_eq, outs_2]
theorem V38_eq (c : Dev nD) : V38 m (outsOf a m) c = W38 a m c := by
  show StableHlo.after hostOps3 (V37 m (outsOf a m) c) = StableHlo.after hostOps3 (W37 a m c)
  rw [V37_eq]
theorem V39_eq (c : Dev nD) : V39 m (outsOf a m) c = W39 a m c := by
  show Function.update (V38 m (outsOf a m) c) main_v128 (outsOf a m 39 main_v128 c) = Function.update (W38 a m c) main_v128 (out3 a m c)
  rw [V38_eq, outs_3]
theorem V40_eq (c : Dev nD) : V40 m (outsOf a m) c = W40 a m c := by
  show Function.update (V39 m (outsOf a m) c) main_v129 (outsOf a m 40 main_v129 c) = Function.update (W39 a m c) main_v129 (out4 a m c)
  rw [V39_eq, outs_4]
theorem V41_eq (c : Dev nD) : V41 m (outsOf a m) c = W41 a m c := by
  show StableHlo.after hostOps5 (V40 m (outsOf a m) c) = StableHlo.after hostOps5 (W40 a m c)
  rw [V40_eq]
theorem V42_eq (c : Dev nD) : V42 m (outsOf a m) c = W42 a m c := by
  show Function.update (V41 m (outsOf a m) c) main_v135 (outsOf a m 42 main_v135 c) = Function.update (W41 a m c) main_v135 (out5 a m c)
  rw [V41_eq, outs_5]
theorem V43_eq (c : Dev nD) : V43 m (outsOf a m) c = W43 a m c := by
  show StableHlo.after hostOps6 (V42 m (outsOf a m) c) = StableHlo.after hostOps6 (W42 a m c)
  rw [V42_eq]
theorem V44_eq (c : Dev nD) : V44 m (outsOf a m) c = W44 a m c := by
  show Function.update (V43 m (outsOf a m) c) main_v138 (outsOf a m 44 main_v138 c) = Function.update (W43 a m c) main_v138 (out6 a m c)
  rw [V43_eq, outs_6]
theorem V45_eq (c : Dev nD) : V45 m (outsOf a m) c = W45 a m c := by
  show Function.update (V44 m (outsOf a m) c) main_v139 (outsOf a m 45 main_v139 c) = Function.update (W44 a m c) main_v139 (out7 a m c)
  rw [V44_eq, outs_7]
theorem V46_eq (c : Dev nD) : V46 m (outsOf a m) c = W46 a m c := by
  show StableHlo.after hostOps8 (V45 m (outsOf a m) c) = StableHlo.after hostOps8 (W45 a m c)
  rw [V45_eq]
theorem V47_eq (c : Dev nD) : V47 m (outsOf a m) c = W47 a m c := by
  show Function.update (V46 m (outsOf a m) c) main_v145 (outsOf a m 47 main_v145 c) = Function.update (W46 a m c) main_v145 (out8 a m c)
  rw [V46_eq, outs_8]
theorem V48_eq (c : Dev nD) : V48 m (outsOf a m) c = W48 a m c := by
  show StableHlo.after hostOps9 (V47 m (outsOf a m) c) = StableHlo.after hostOps9 (W47 a m c)
  rw [V47_eq]
theorem V49_eq (c : Dev nD) : V49 m (outsOf a m) c = W49 a m c := by
  show Function.update (V48 m (outsOf a m) c) main_v148 (outsOf a m 49 main_v148 c) = Function.update (W48 a m c) main_v148 (out9 a m c)
  rw [V48_eq, outs_9]
theorem V50_eq (c : Dev nD) : V50 m (outsOf a m) c = W50 a m c := by
  show Function.update (V49 m (outsOf a m) c) main_v149 (outsOf a m 50 main_v149 c) = Function.update (W49 a m c) main_v149 (out10 a m c)
  rw [V49_eq, outs_10]
theorem V51_eq (c : Dev nD) : V51 m (outsOf a m) c = W51 a m c := by
  show StableHlo.after hostOps11 (V50 m (outsOf a m) c) = StableHlo.after hostOps11 (W50 a m c)
  rw [V50_eq]
theorem V52_eq (c : Dev nD) : V52 m (outsOf a m) c = W52 a m c := by
  show Function.update (V51 m (outsOf a m) c) main_v155 (outsOf a m 52 main_v155 c) = Function.update (W51 a m c) main_v155 (out11 a m c)
  rw [V51_eq, outs_11]
theorem V53_eq (c : Dev nD) : V53 m (outsOf a m) c = W53 a m c := by
  show StableHlo.after hostOps12 (V52 m (outsOf a m) c) = StableHlo.after hostOps12 (W52 a m c)
  rw [V52_eq]
theorem V54_eq (c : Dev nD) : V54 m (outsOf a m) c = W54 a m c := by
  show Function.update (V53 m (outsOf a m) c) main_v158 (outsOf a m 54 main_v158 c) = Function.update (W53 a m c) main_v158 (out12 a m c)
  rw [V53_eq, outs_12]
theorem V55_eq (c : Dev nD) : V55 m (outsOf a m) c = W55 a m c := by
  show StableHlo.after hostOps13 (V54 m (outsOf a m) c) = StableHlo.after hostOps13 (W54 a m c)
  rw [V54_eq]

/-- Every pipeline's proof data at its region's entry contents. -/
def pdatsOf : (p : Fin 13) → (c : Dev nD) → Dat τ (Elt F) Unit ℕ (UR sig nD τ) ℕ (Pipeline.pin (pcfgs (F := F)) a p) c
  | ⟨0, _⟩ => fun c => dat0 a (fun c b => V33 m c b) c
  | ⟨1, _⟩ => fun c => dat1 a (fun c b => W34 a m c b) c
  | ⟨2, _⟩ => fun c => dat2 a (fun c b => W36 a m c b) c
  | ⟨3, _⟩ => fun c => dat3 a (fun c b => W38 a m c b) c
  | ⟨4, _⟩ => fun c => dat4 a (fun c b => W39 a m c b) c
  | ⟨5, _⟩ => fun c => dat5 a (fun c b => W41 a m c b) c
  | ⟨6, _⟩ => fun c => dat6 a (fun c b => W43 a m c b) c
  | ⟨7, _⟩ => fun c => dat7 a (fun c b => W44 a m c b) c
  | ⟨8, _⟩ => fun c => dat8 a (fun c b => W46 a m c b) c
  | ⟨9, _⟩ => fun c => dat9 a (fun c b => W48 a m c b) c
  | ⟨10, _⟩ => fun c => dat10 a (fun c b => W49 a m c b) c
  | ⟨11, _⟩ => fun c => dat11 a (fun c b => W51 a m c b) c
  | ⟨12, _⟩ => fun c => dat12 a (fun c b => W53 a m c b) c
  | ⟨_ + 13, h⟩ => absurd h (Nat.not_lt.2 (Nat.le_add_left _ _))

theorem pdatsOf_0 (c : Dev nD) : pdatsOf a m 0 c = dat0 a (fun c b => V33 m c b) c := rfl
theorem pdatsOf_1 (c : Dev nD) : pdatsOf a m 1 c = dat1 a (fun c b => W34 a m c b) c := rfl
theorem pdatsOf_2 (c : Dev nD) : pdatsOf a m 2 c = dat2 a (fun c b => W36 a m c b) c := rfl
theorem pdatsOf_3 (c : Dev nD) : pdatsOf a m 3 c = dat3 a (fun c b => W38 a m c b) c := rfl
theorem pdatsOf_4 (c : Dev nD) : pdatsOf a m 4 c = dat4 a (fun c b => W39 a m c b) c := rfl
theorem pdatsOf_5 (c : Dev nD) : pdatsOf a m 5 c = dat5 a (fun c b => W41 a m c b) c := rfl
theorem pdatsOf_6 (c : Dev nD) : pdatsOf a m 6 c = dat6 a (fun c b => W43 a m c b) c := rfl
theorem pdatsOf_7 (c : Dev nD) : pdatsOf a m 7 c = dat7 a (fun c b => W44 a m c b) c := rfl
theorem pdatsOf_8 (c : Dev nD) : pdatsOf a m 8 c = dat8 a (fun c b => W46 a m c b) c := rfl
theorem pdatsOf_9 (c : Dev nD) : pdatsOf a m 9 c = dat9 a (fun c b => W48 a m c b) c := rfl
theorem pdatsOf_10 (c : Dev nD) : pdatsOf a m 10 c = dat10 a (fun c b => W49 a m c b) c := rfl
theorem pdatsOf_11 (c : Dev nD) : pdatsOf a m 11 c = dat11 a (fun c b => W51 a m c b) c := rfl
theorem pdatsOf_12 (c : Dev nD) : pdatsOf a m 12 c = dat12 a (fun c b => W53 a m c b) c := rfl

end Chain

/-! ## The tables at the regions' entries

No host stretch after item 32 and no region writes a prefetched table: at each table region's entry the tables hold what
they held after item 32. -/

section TablesAtEntry

variable (a : (p : Fin 13) → (pcfgs (F := F) p).Adm) (m : (ℓ : Loc nD τ sig) → Buf (Elt F) ℓ)

theorem pre1_at_entry (c : Dev nD) (k : Fin 2) : W34 a m c (pre1.ref k) = V33 m c (pre1.ref k) :=
  (congrFun (V34_eq a m c) _).symm.trans <|
    (V34_of m (outsOf a m) c _ (by revert k; decide))
theorem pre2_at_entry (c : Dev nD) (k : Fin 4) : W36 a m c (pre2.ref k) = V33 m c (pre2.ref k) :=
  (congrFun (V36_eq a m c) _).symm.trans <|
    (V36_of m (outsOf a m) c _ (by revert k; decide)).trans <|
    (V35_of m (outsOf a m) c _ (by revert k; decide)).trans <|
    (V34_of m (outsOf a m) c _ (by revert k; decide))
theorem pre4_at_entry (c : Dev nD) (k : Fin 2) : W39 a m c (pre4.ref k) = V33 m c (pre4.ref k) :=
  (congrFun (V39_eq a m c) _).symm.trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre5_at_entry (c : Dev nD) (k : Fin 4) : W41 a m c (pre5.ref k) = V33 m c (pre5.ref k) :=
  (congrFun (V41_eq a m c) _).symm.trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre7_at_entry (c : Dev nD) (k : Fin 2) : W44 a m c (pre7.ref k) = V33 m c (pre7.ref k) :=
  (congrFun (V44_eq a m c) _).symm.trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre8_at_entry (c : Dev nD) (k : Fin 4) : W46 a m c (pre8.ref k) = V33 m c (pre8.ref k) :=
  (congrFun (V46_eq a m c) _).symm.trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre10_at_entry (c : Dev nD) (k : Fin 2) : W49 a m c (pre10.ref k) = V33 m c (pre10.ref k) :=
  (congrFun (V49_eq a m c) _).symm.trans <|
    (V49_of m (outsOf a m) c _ (by revert k; decide)).trans <|
    (V48_of m (outsOf a m) c _ (by revert k; decide)).trans <|
    (V47_of m (outsOf a m) c _ (by revert k; decide)).trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre11_at_entry (c : Dev nD) (k : Fin 4) : W51 a m c (pre11.ref k) = V33 m c (pre11.ref k) :=
  (congrFun (V51_eq a m c) _).symm.trans <|
    (V51_of m (outsOf a m) c _ (by revert k; decide)).trans <|
    (V50_of m (outsOf a m) c _ (by revert k; decide)).trans <|
    (V49_of m (outsOf a m) c _ (by revert k; decide)).trans <|
    (V48_of m (outsOf a m) c _ (by revert k; decide)).trans <|
    (V47_of m (outsOf a m) c _ (by revert k; decide)).trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))

end TablesAtEntry

/-! ## The tables fixed: every pipeline's admissible contents, read off the valuation after item 32 -/

section All

variable (m : (ℓ : Loc nD τ sig) → Buf (Elt F) ℓ)

/-- Every pipeline's admissible table contents: none for a pipeline that prefetches nothing; for the others the tables
    as the host stretches before region 0 leave them. -/
def admAll : (p : Fin 13) → (pcfgs (F := F) p).Adm
  | ⟨0, _⟩ => (cfg0).toPCfg_adm
  | ⟨1, _⟩ => adm1 m
  | ⟨2, _⟩ => adm2 m
  | ⟨3, _⟩ => (cfg3).toPCfg_adm
  | ⟨4, _⟩ => adm4 m
  | ⟨5, _⟩ => adm5 m
  | ⟨6, _⟩ => (cfg6).toPCfg_adm
  | ⟨7, _⟩ => adm7 m
  | ⟨8, _⟩ => adm8 m
  | ⟨9, _⟩ => (cfg9).toPCfg_adm
  | ⟨10, _⟩ => adm10 m
  | ⟨11, _⟩ => adm11 m
  | ⟨12, _⟩ => (cfg12).toPCfg_adm
  | ⟨_ + 13, h⟩ => absurd h (Nat.not_lt.2 (Nat.le_add_left _ _))

/-- What the regions leave, at those tables. -/
abbrev outsAll : Outs (F := F) := outsOf (admAll m) m
/-- Every pipeline's proof data, at those tables. -/
abbrev pdatsAll := pdatsOf (admAll m) m

/-- At each table region's entry the table buffers hold the admissible contents. -/
theorem hpf_1 (c : Dev nD) (k : Fin 2) : W34 (admAll m) m c (pre1.ref k) = (admAll m 1).1 k :=
  (pre1_at_entry (admAll m) m c k).trans (V33_pre1 m c k)
theorem hpf_2 (c : Dev nD) (k : Fin 4) : W36 (admAll m) m c (pre2.ref k) = (admAll m 2).1 k :=
  (pre2_at_entry (admAll m) m c k).trans (V33_pre2 m c k)
theorem hpf_4 (c : Dev nD) (k : Fin 2) : W39 (admAll m) m c (pre4.ref k) = (admAll m 4).1 k :=
  (pre4_at_entry (admAll m) m c k).trans (V33_pre4 m c k)
theorem hpf_5 (c : Dev nD) (k : Fin 4) : W41 (admAll m) m c (pre5.ref k) = (admAll m 5).1 k :=
  (pre5_at_entry (admAll m) m c k).trans (V33_pre5 m c k)
theorem hpf_7 (c : Dev nD) (k : Fin 2) : W44 (admAll m) m c (pre7.ref k) = (admAll m 7).1 k :=
  (pre7_at_entry (admAll m) m c k).trans (V33_pre7 m c k)
theorem hpf_8 (c : Dev nD) (k : Fin 4) : W46 (admAll m) m c (pre8.ref k) = (admAll m 8).1 k :=
  (pre8_at_entry (admAll m) m c k).trans (V33_pre8 m c k)
theorem hpf_10 (c : Dev nD) (k : Fin 2) : W49 (admAll m) m c (pre10.ref k) = (admAll m 10).1 k :=
  (pre10_at_entry (admAll m) m c k).trans (V33_pre10 m c k)
theorem hpf_11 (c : Dev nD) (k : Fin 4) : W51 (admAll m) m c (pre11.ref k) = (admAll m 11).1 k :=
  (pre11_at_entry (admAll m) m c k).trans (V33_pre11 m c k)

set_option maxHeartbeats 1000000 in
/-- THE RUN. Every weakly fair execution of @main from memory `m` with zero counters terminates; every final memory holds
    each argument as launched, and holds the result buffer `main_v159` at the last valuation of the chain at what the
    thirteen regions leave. -/
theorem run_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m (outsAll m) c main_v159) :=
  run_main m ρ (outsOf (admAll m) m) (admAll m) (pdatsOf (admAll m) m)
    (reg0 (admAll m) (V33 m) (pdatsOf (admAll m) m) (pdatsOf_0 (admAll m) m))
      (fun _ => .rfl)
      (fun c => by rw [V34_eq]; exact .rfl)
    (reg1 (admAll m) (fun c b => W34 (admAll m) m c b) (pdatsOf (admAll m) m) (pdatsOf_1 (admAll m) m) (W34 (admAll m) m) (fun _ _ => rfl) (hpf_1 m))
      (fun c => by rw [V34_eq]; exact .rfl)
      (fun c => by rw [V35_eq]; exact .rfl)
    (reg2 (admAll m) (fun c b => W36 (admAll m) m c b) (pdatsOf (admAll m) m) (pdatsOf_2 (admAll m) m) (W36 (admAll m) m) (fun _ _ => rfl) (hpf_2 m))
      (fun c => by rw [V36_eq]; exact .rfl)
      (fun c => by rw [V37_eq]; exact .rfl)
    (reg3 (admAll m) (W38 (admAll m) m) (pdatsOf (admAll m) m) (pdatsOf_3 (admAll m) m))
      (fun c => by rw [V38_eq]; exact .rfl)
      (fun c => by rw [V39_eq]; exact .rfl)
    (reg4 (admAll m) (fun c b => W39 (admAll m) m c b) (pdatsOf (admAll m) m) (pdatsOf_4 (admAll m) m) (W39 (admAll m) m) (fun _ _ => rfl) (hpf_4 m))
      (fun c => by rw [V39_eq]; exact .rfl)
      (fun c => by rw [V40_eq]; exact .rfl)
    (reg5 (admAll m) (fun c b => W41 (admAll m) m c b) (pdatsOf (admAll m) m) (pdatsOf_5 (admAll m) m) (W41 (admAll m) m) (fun _ _ => rfl) (hpf_5 m))
      (fun c => by rw [V41_eq]; exact .rfl)
      (fun c => by rw [V42_eq]; exact .rfl)
    (reg6 (admAll m) (W43 (admAll m) m) (pdatsOf (admAll m) m) (pdatsOf_6 (admAll m) m))
      (fun c => by rw [V43_eq]; exact .rfl)
      (fun c => by rw [V44_eq]; exact .rfl)
    (reg7 (admAll m) (fun c b => W44 (admAll m) m c b) (pdatsOf (admAll m) m) (pdatsOf_7 (admAll m) m) (W44 (admAll m) m) (fun _ _ => rfl) (hpf_7 m))
      (fun c => by rw [V44_eq]; exact .rfl)
      (fun c => by rw [V45_eq]; exact .rfl)
    (reg8 (admAll m) (fun c b => W46 (admAll m) m c b) (pdatsOf (admAll m) m) (pdatsOf_8 (admAll m) m) (W46 (admAll m) m) (fun _ _ => rfl) (hpf_8 m))
      (fun c => by rw [V46_eq]; exact .rfl)
      (fun c => by rw [V47_eq]; exact .rfl)
    (reg9 (admAll m) (W48 (admAll m) m) (pdatsOf (admAll m) m) (pdatsOf_9 (admAll m) m))
      (fun c => by rw [V48_eq]; exact .rfl)
      (fun c => by rw [V49_eq]; exact .rfl)
    (reg10 (admAll m) (fun c b => W49 (admAll m) m c b) (pdatsOf (admAll m) m) (pdatsOf_10 (admAll m) m) (W49 (admAll m) m) (fun _ _ => rfl) (hpf_10 m))
      (fun c => by rw [V49_eq]; exact .rfl)
      (fun c => by rw [V50_eq]; exact .rfl)
    (reg11 (admAll m) (fun c b => W51 (admAll m) m c b) (pdatsOf (admAll m) m) (pdatsOf_11 (admAll m) m) (W51 (admAll m) m) (fun _ _ => rfl) (hpf_11 m))
      (fun c => by rw [V51_eq]; exact .rfl)
      (fun c => by rw [V52_eq]; exact .rfl)
    (reg12 (admAll m) (W53 (admAll m) m) (pdatsOf (admAll m) m) (pdatsOf_12 (admAll m) m))
      (fun c => by rw [V53_eq]; exact .rfl)
      (fun c => by rw [V54_eq]; exact .rfl)

end All

end Cert.Kernel.Hand

end
-- ==== Proof.KI.Run.lean ====
import proofs.«415143_j42460046688958_3_alg».proof.Proof.KI.RegionsP

-- decided memberships among the 437 references recurse past the default depth
set_option maxRecDepth 2260

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run, given the regions' records: the arguments unchanged AND the result buffer read -/

-- the implicit arguments of the run theorem are found by unifying its conclusion with this one, which takes unfolding
-- plain definitions in a metavariable's type
set_option backward.isDefEq.respectTransparency.types false in
/-- The conditional run. Same hypotheses as the conditional frame (one segment record per region, entered from the
    thread state before it and left at the one after it). Conclusion: every weakly fair execution of @main from memory
    `m` with zero counters terminates, every final memory holds each argument as launched, and the result buffer
    `main_v159` holds its contents at the last valuation `V55 m outs c`. The last thread state holds every unscoped
    buffer at `V55`; reading it against the final state gives the arguments (unchanged through the fold) and the
    result buffer alike. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 13) → (pcfgs (F := F) p).Adm)
    (pdats : (p : Fin 13) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V33 m c) ∗ E 0 c) ⊢ R0.pre c)
    (hpost0 : ∀ c : Dev nD, R0.post c ⊢ iprop(StableHlo.held (c : Thread nD τ) (Pipeline.ucRefs τ sig) (V34 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V34 m outs c) ∗ E 1 c) ⊢ R1.pre c)
    (hpost1 : ∀ c : Dev nD, R1.post c ⊢ iprop(StableHlo.held (c : Thread nD τ) (Pipeline.ucRefs τ sig) (V35 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V36 m outs c) ∗ E 2 c) ⊢ R2.pre c)
    (hpost2 : ∀ c : Dev nD, R2.post c ⊢ iprop(StableHlo.held (c : Thread nD τ) (Pipeline.ucRefs τ sig) (V37 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V38 m outs c) ∗ E 3 c) ⊢ R3.pre c)
    (hpost3 : ∀ c : Dev nD, R3.post c ⊢ iprop(StableHlo.held (c : Thread nD τ) (Pipeline.ucRefs τ sig) (V39 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V39 m outs c) ∗ E 4 c) ⊢ R4.pre c)
    (hpost4 : ∀ c : Dev nD, R4.post c ⊢ iprop(StableHlo.held (c : Thread nD τ) (Pipeline.ucRefs τ sig) (V40 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V41 m outs c) ∗ E 5 c) ⊢ R5.pre c)
    (hpost5 : ∀ c : Dev nD, R5.post c ⊢ iprop(StableHlo.held (c : Thread nD τ) (Pipeline.ucRefs τ sig) (V42 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V43 m outs c) ∗ E 6 c) ⊢ R6.pre c)
    (hpost6 : ∀ c : Dev nD, R6.post c ⊢ iprop(StableHlo.held (c : Thread nD τ) (Pipeline.ucRefs τ sig) (V44 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V44 m outs c) ∗ E 7 c) ⊢ R7.pre c)
    (hpost7 : ∀ c : Dev nD, R7.post c ⊢ iprop(StableHlo.held (c : Thread nD τ) (Pipeline.ucRefs τ sig) (V45 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V46 m outs c) ∗ E 8 c) ⊢ R8.pre c)
    (hpost8 : ∀ c : Dev nD, R8.post c ⊢ iprop(StableHlo.held (c : Thread nD τ) (Pipeline.ucRefs τ sig) (V47 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V48 m outs c) ∗ E 9 c) ⊢ R9.pre c)
    (hpost9 : ∀ c : Dev nD, R9.post c ⊢ iprop(StableHlo.held (c : Thread nD τ) (Pipeline.ucRefs τ sig) (V49 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V49 m outs c) ∗ E 10 c) ⊢ R10.pre c)
    (hpost10 : ∀ c : Dev nD, R10.post c ⊢ iprop(StableHlo.held (c : Thread nD τ) (Pipeline.ucRefs τ sig) (V50 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V51 m outs c) ∗ E 11 c) ⊢ R11.pre c)
    (hpost11 : ∀ c : Dev nD, R11.post c ⊢ iprop(StableHlo.held (c : Thread nD τ) (Pipeline.ucRefs τ sig) (V52 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V53 m outs c) ∗ E 12 c) ⊢ R12.pre c)
    (hpost12 : ∀ c : Dev nD, R12.post c ⊢ iprop(StableHlo.held (c : Thread nD τ) (Pipeline.ucRefs τ sig) (V54 m outs c) ∗ E 13 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m outs c main_v159) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12)
    (fun c Q => by
      rewrite [main_chain c, Seg.run_eq_chain,
        show (segs m outs 𝒱₀ L lv E ι a pdats R0 R1 R2 R3 R4 R5 R6 R7 R8 R9 R10 R11 R12 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          StableHlo.seq hostOps0_31,
          StableHlo.seq hostOps0_32,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V55 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, hpre2 c, hpost2 c, hpre3 c, (hpost3 c).trans (hpre4 c), hpost4 c, hpre5 c, hpost5 c, hpre6 c, (hpost6 c).trans (hpre7 c), hpost7 c, hpre8 c, hpost8 c, hpre9 c, (hpost9 c).trans (hpre10 c), hpost10 c, hpre11 c, hpost11 c, hpre12 c, hpost12 c, sep_mono .rfl (hE13 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_v159) = V55 m outs c main_v159)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V55 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V55_main_arg0 m outs c),
        (h (Proc.devRef .tc main_arg1) (Finset.mem_filter.mpr ⟨StableHlo.devRef_mem_tcRefs main_arg1, by decide⟩)).trans (V55_main_arg1 m outs c),
        (h (Proc.devRef .tc main_arg2) (Finset.mem_filter.mpr ⟨StableHlo.devRef_mem_tcRefs main_arg2, by decide⟩)).trans (V55_main_arg2 m outs c),
        (h (Proc.devRef .tc main_arg3) (Finset.mem_filter.mpr ⟨StableHlo.devRef_mem_tcRefs main_arg3, by decide⟩)).trans (V55_main_arg3 m outs c),
        (h (Proc.devRef .tc main_arg4) (Finset.mem_filter.mpr ⟨StableHlo.devRef_mem_tcRefs main_arg4, by decide⟩)).trans (V55_main_arg4 m outs c),
        (h (Proc.devRef .tc main_arg5) (Finset.mem_filter.mpr ⟨StableHlo.devRef_mem_tcRefs main_arg5, by decide⟩)).trans (V55_main_arg5 m outs c),
        (h (Proc.devRef .tc main_arg6) (Finset.mem_filter.mpr ⟨StableHlo.devRef_mem_tcRefs main_arg6, by decide⟩)).trans (V55_main_arg6 m outs c),
        (h (Proc.devRef .tc main_arg7) (Finset.mem_filter.mpr ⟨StableHlo.devRef_mem_tcRefs main_arg7, by decide⟩)).trans (V55_main_arg7 m outs c),
        (h (Proc.devRef .tc main_arg8) (Finset.mem_filter.mpr ⟨StableHlo.devRef_mem_tcRefs main_arg8, by decide⟩)).trans (V55_main_arg8 m outs c),
        (h (Proc.devRef .tc main_arg9) (Finset.mem_filter.mpr ⟨StableHlo.devRef_mem_tcRefs main_arg9, by decide⟩)).trans (V55_main_arg9 m outs c),
        (h (Proc.devRef .tc main_arg10) (Finset.mem_filter.mpr ⟨StableHlo.devRef_mem_tcRefs main_arg10, by decide⟩)).trans (V55_main_arg10 m outs c),
        (h (Proc.devRef .tc main_arg11) (Finset.mem_filter.mpr ⟨StableHlo.devRef_mem_tcRefs main_arg11, by decide⟩)).trans (V55_main_arg11 m outs c),
        (h (Proc.devRef .tc main_arg12) (Finset.mem_filter.mpr ⟨StableHlo.devRef_mem_tcRefs main_arg12, by decide⟩)).trans (V55_main_arg12 m outs c),
        (h (Proc.devRef .tc main_arg13) (Finset.mem_filter.mpr ⟨StableHlo.devRef_mem_tcRefs main_arg13, by decide⟩)).trans (V55_main_arg13 m outs c),
        h (Proc.devRef .tc main_v159) (Finset.mem_filter.mpr ⟨StableHlo.devRef_mem_tcRefs main_v159, by decide⟩)⟩
    · iexact HSI

/-! ## The launch: the run at the unit user algebra, nothing owed between cores -/

/-- What rides beside the buffers between two items on core `c`: the generator register at some state and the core
    owing nothing. -/
local notation "Rest" c:max => iprop((∃ r, prngReg c r) ∗ ∃ W, owes (c : Thread nD τ) (0 : CellTallies nD τ sig Unit) W)

/-- The run of @main at `Ix := Unit`, the pipeline library's own algebra, no level assigned, no launch dues, no ghost
    resources, the rest state `Rest c` at every boundary: GIVEN the thirteen regions' segment records between this
    module's thread states, every weakly fair execution from memory `m` with zero counters terminates, every final
    memory holds each argument as launched and holds the result buffer `main_v159` at `V55 m outs c main_v159`. -/
theorem run_main (ρ : Dev nD → PrngReg) (outs : Outs (F := F)) (a : (p : Fin 13) → (pcfgs (F := F) p).Adm)
    (pdats : (p : Fin 13) → (c : Dev nD) → Dat τ (Elt F) Unit ℕ (UR sig nD τ) ℕ (Pipeline.pin (pcfgs (F := F)) a p) c)
    (R0 : RegionSeg (pcfgs (F := F)) a pdats () defs₀ Variants.none (fun _ => ∅) (fun _ _ => 0) 0)
    (hpre0 : ∀ c : Dev nD, iprop(StableHlo.held (c : Thread nD τ) (Pipeline.ucRefs τ sig) (V33 m c) ∗ Rest c) ⊢ R0.pre c)
    (hpost0 : ∀ c : Dev nD, R0.post c ⊢ iprop(StableHlo.held (c : Thread nD τ) (Pipeline.ucRefs τ sig) (V34 m outs c) ∗ Rest c))
    (R1 : RegionSeg (pcfgs (F := F)) a pdats () defs₀ Variants.none (fun _ => ∅) (fun _ _ => 0) 1)
    (hpre1 : ∀ c : Dev nD, iprop(StableHlo.held (c : Thread nD τ) (Pipeline.ucRefs τ sig) (V34 m outs c) ∗ Rest c) ⊢ R1.pre c)
    (hpost1 : ∀ c : Dev nD, R1.post c ⊢ iprop(StableHlo.held (c : Thread nD τ) (Pipeline.ucRefs τ sig) (V35 m outs c) ∗ Rest c))
    (R2 : RegionSeg (pcfgs (F := F)) a pdats () defs₀ Variants.none (fun _ => ∅) (fun _ _ => 0) 2)
    (hpre2 : ∀ c : Dev nD, iprop(StableHlo.held (c : Thread nD τ) (Pipeline.ucRefs τ sig) (V36 m outs c) ∗ Rest c) ⊢ R2.pre c)
    (hpost2 : ∀ c : Dev nD, R2.post c ⊢ iprop(StableHlo.held (c : Thread nD τ) (Pipeline.ucRefs τ sig) (V37 m outs c) ∗ Rest c))
    (R3 : RegionSeg (pcfgs (F := F)) a pdats () defs₀ Variants.none (fun _ => ∅) (fun _ _ => 0) 3)
    (hpre3 : ∀ c : Dev nD, iprop(StableHlo.held (c : Thread nD τ) (Pipeline.ucRefs τ sig) (V38 m outs c) ∗ Rest c) ⊢ R3.pre c)
    (hpost3 : ∀ c : Dev nD, R3.post c ⊢ iprop(StableHlo.held (c : Thread nD τ) (Pipeline.ucRefs τ sig) (V39 m outs c) ∗ Rest c))
    (R4 : RegionSeg (pcfgs (F := F)) a pdats () defs₀ Variants.none (fun _ => ∅) (fun _ _ => 0) 4)
    (hpre4 : ∀ c : Dev nD, iprop(StableHlo.held (c : Thread nD τ) (Pipeline.ucRefs τ sig) (V39 m outs c) ∗ Rest c) ⊢ R4.pre c)
    (hpost4 : ∀ c : Dev nD, R4.post c ⊢ iprop(StableHlo.held (c : Thread nD τ) (Pipeline.ucRefs τ sig) (V40 m outs c) ∗ Rest c))
    (R5 : RegionSeg (pcfgs (F := F)) a pdats () defs₀ Variants.none (fun _ => ∅) (fun _ _ => 0) 5)
    (hpre5 : ∀ c : Dev nD, iprop(StableHlo.held (c : Thread nD τ) (Pipeline.ucRefs τ sig) (V41 m outs c) ∗ Rest c) ⊢ R5.pre c)
    (hpost5 : ∀ c : Dev nD, R5.post c ⊢ iprop(StableHlo.held (c : Thread nD τ) (Pipeline.ucRefs τ sig) (V42 m outs c) ∗ Rest c))
    (R6 : RegionSeg (pcfgs (F := F)) a pdats () defs₀ Variants.none (fun _ => ∅) (fun _ _ => 0) 6)
    (hpre6 : ∀ c : Dev nD, iprop(StableHlo.held (c : Thread nD τ) (Pipeline.ucRefs τ sig) (V43 m outs c) ∗ Rest c) ⊢ R6.pre c)
    (hpost6 : ∀ c : Dev nD, R6.post c ⊢ iprop(StableHlo.held (c : Thread nD τ) (Pipeline.ucRefs τ sig) (V44 m outs c) ∗ Rest c))
    (R7 : RegionSeg (pcfgs (F := F)) a pdats () defs₀ Variants.none (fun _ => ∅) (fun _ _ => 0) 7)
    (hpre7 : ∀ c : Dev nD, iprop(StableHlo.held (c : Thread nD τ) (Pipeline.ucRefs τ sig) (V44 m outs c) ∗ Rest c) ⊢ R7.pre c)
    (hpost7 : ∀ c : Dev nD, R7.post c ⊢ iprop(StableHlo.held (c : Thread nD τ) (Pipeline.ucRefs τ sig) (V45 m outs c) ∗ Rest c))
    (R8 : RegionSeg (pcfgs (F := F)) a pdats () defs₀ Variants.none (fun _ => ∅) (fun _ _ => 0) 8)
    (hpre8 : ∀ c : Dev nD, iprop(StableHlo.held (c : Thread nD τ) (Pipeline.ucRefs τ sig) (V46 m outs c) ∗ Rest c) ⊢ R8.pre c)
    (hpost8 : ∀ c : Dev nD, R8.post c ⊢ iprop(StableHlo.held (c : Thread nD τ) (Pipeline.ucRefs τ sig) (V47 m outs c) ∗ Rest c))
    (R9 : RegionSeg (pcfgs (F := F)) a pdats () defs₀ Variants.none (fun _ => ∅) (fun _ _ => 0) 9)
    (hpre9 : ∀ c : Dev nD, iprop(StableHlo.held (c : Thread nD τ) (Pipeline.ucRefs τ sig) (V48 m outs c) ∗ Rest c) ⊢ R9.pre c)
    (hpost9 : ∀ c : Dev nD, R9.post c ⊢ iprop(StableHlo.held (c : Thread nD τ) (Pipeline.ucRefs τ sig) (V49 m outs c) ∗ Rest c))
    (R10 : RegionSeg (pcfgs (F := F)) a pdats () defs₀ Variants.none (fun _ => ∅) (fun _ _ => 0) 10)
    (hpre10 : ∀ c : Dev nD, iprop(StableHlo.held (c : Thread nD τ) (Pipeline.ucRefs τ sig) (V49 m outs c) ∗ Rest c) ⊢ R10.pre c)
    (hpost10 : ∀ c : Dev nD, R10.post c ⊢ iprop(StableHlo.held (c : Thread nD τ) (Pipeline.ucRefs τ sig) (V50 m outs c) ∗ Rest c))
    (R11 : RegionSeg (pcfgs (F := F)) a pdats () defs₀ Variants.none (fun _ => ∅) (fun _ _ => 0) 11)
    (hpre11 : ∀ c : Dev nD, iprop(StableHlo.held (c : Thread nD τ) (Pipeline.ucRefs τ sig) (V51 m outs c) ∗ Rest c) ⊢ R11.pre c)
    (hpost11 : ∀ c : Dev nD, R11.post c ⊢ iprop(StableHlo.held (c : Thread nD τ) (Pipeline.ucRefs τ sig) (V52 m outs c) ∗ Rest c))
    (R12 : RegionSeg (pcfgs (F := F)) a pdats () defs₀ Variants.none (fun _ => ∅) (fun _ _ => 0) 12)
    (hpre12 : ∀ c : Dev nD, iprop(StableHlo.held (c : Thread nD τ) (Pipeline.ucRefs τ sig) (V53 m outs c) ∗ Rest c) ⊢ R12.pre c)
    (hpost12 : ∀ c : Dev nD, R12.post c ⊢ iprop(StableHlo.held (c : Thread nD τ) (Pipeline.ucRefs τ sig) (V54 m outs c) ∗ Rest c)) :
        θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m outs c main_v159) :=
  run_cond m (emb₁ : Emb (UR sig nD τ) 𝕄) () Variants.none (fun _ => ∅) (fun _ _ => 0) (fun _ _ => rfl) ρ outs a pdats
    (0 : Dev nD → CellTallies nD τ sig Unit) (fun _ => iprop(emp))
    (initOf (Pipeline.cells (Pipeline.pin (pcfgs (F := F)) a) (cellOf_inj a)) (Pipeline.launchToks (Pipeline.pin (pcfgs (F := F)) a) (cellOf_inj a)))
    (by
      -- the launch element is the pipeline library's own; no ghost resource is dealt
      iintro Hu; imodintro
      isplitl [Hu]
      · iapply (show (ownU (initOf (Pipeline.cells (Pipeline.pin (pcfgs (F := F)) a) (cellOf_inj a)) (Pipeline.launchToks (Pipeline.pin (pcfgs (F := F)) a) (cellOf_inj a))) : sProp 𝕄)
            ⊢ BI.own (emb₁ (initOf (Pipeline.cells (Pipeline.pin (pcfgs (F := F)) a) (cellOf_inj a)) (Pipeline.launchToks (Pipeline.pin (pcfgs (F := F)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      -- each core keeps its generator register and its (empty) dues; the rest of what the launch deals is dropped
      refine Pipeline.initEach _ _ fun c => ?_
      iintro ⟨⟨-, HO, -, Hp, -⟩, -⟩
      imodintro
      isplitl [Hp]; · iexists _; iexact Hp
      iexists ∅; iexact HO)
    (fun c => by iintro ⟨-, H⟩; iexact H)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12

end Cert.KernelIdeal.Hand

end
-- ==== Proof.KI.TablesScatter.lean ====
import proofs.«415143_j42460046688958_3_alg».proof.Proof.KI.RegionsP
import Idealize.ShloMosaic.Lib.StableHlo.Predicate
import Idealize.ShloMosaic.PureOps.Reduce
import Idealize.ShloMosaic.Lib.Pipeline.Value

/-!
The scatter regions' prefetched tables, read off the host stretches that compute them.

With `col` the sorted column vector (629760 words, 123 blocks of 5120), the program computes, per edge block `j`,
`lo j = ⌊min (min of block j) 99999 / 2000⌋` and `hi j = ⌊min (max of block j) 99999 / 2000⌋`, and per node block `i`
the first and last edge block whose interval `[lo j, hi j]` holds `i` (`elo i`, `ehi i`; `0` and `122` when there is
none). This file proves, at any float instance: every word of `elo` and `ehi` is in `[0, 122]`; a column word
`k` in `[0, 100000)` of block `j` has `lo j ≤ k / 2000 ≤ hi j`; and `lo j ≤ i ≤ hi j` gives `elo i ≤ j ≤ ehi i`, so
that the clamp `min (max j (elo i)) (ehi i)` of the index maps is `j` on every tile the gate admits, and is a block of
the 123 everywhere. From the first fact the tables are admissible contents of the four scatter pipelines.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo.Predicate

variable {F : FTy → Type} [FloatOps F]

/-! ## Words: signed minimum, maximum and their folds; the floor division by 2000; the clamp -/

theorem minsi_toInt (x y : BitVec 32) : (IntOp.minsi x y).toInt = min x.toInt y.toInt := by
  unfold IntOp.minsi
  simp only [BitVec.slt, decide_eq_true_eq]
  split_ifs with h
  · exact (min_eq_left (le_of_lt h)).symm
  · exact (min_eq_right (not_lt.1 h)).symm

theorem maxsi_toInt (x y : BitVec 32) : (IntOp.maxsi x y).toInt = max x.toInt y.toInt := by
  unfold IntOp.maxsi
  simp only [BitVec.slt, decide_eq_true_eq]
  split_ifs with h
  · exact (max_eq_left (le_of_lt h)).symm
  · exact (max_eq_right (not_lt.1 h)).symm

/-- A fold by signed minimum is at most each of its terms, -/
theorem fold_minsi_le {ι : Type} [DecidableEq ι] (s : Finset ι) (f : ι → BitVec 32) (init : BitVec 32) (k : ι) (hk : k ∈ s) :
    (s.fold IntOp.minsi init f).toInt ≤ (f k).toInt := by
  revert hk
  refine Finset.induction_on s ?_ ?_
  · intro h; simp at h
  · intro a s ha ih hk
    rw [Finset.fold_insert ha, minsi_toInt]
    rcases Finset.mem_insert.1 hk with h | h
    · rw [h]; exact min_le_left _ _
    · exact le_trans (min_le_right _ _) (ih h)

/-- and at least any bound below its start and its terms. -/
theorem le_fold_minsi {ι : Type} [DecidableEq ι] (s : Finset ι) (f : ι → BitVec 32) (init : BitVec 32) (L : ℤ)
    (hi : L ≤ init.toInt) (hf : ∀ k ∈ s, L ≤ (f k).toInt) : L ≤ (s.fold IntOp.minsi init f).toInt := by
  revert hf
  refine Finset.induction_on s ?_ ?_
  · intro _; rw [Finset.fold_empty]; exact hi
  · intro a s ha ih hf
    rw [Finset.fold_insert ha, minsi_toInt]
    exact le_min (hf a (Finset.mem_insert_self a s)) (ih fun k hk => hf k (Finset.mem_insert_of_mem hk))

/-- A fold by signed maximum is at least each of its terms, -/
theorem le_fold_maxsi {ι : Type} [DecidableEq ι] (s : Finset ι) (f : ι → BitVec 32) (init : BitVec 32) (k : ι) (hk : k ∈ s) :
    (f k).toInt ≤ (s.fold IntOp.maxsi init f).toInt := by
  revert hk
  refine Finset.induction_on s ?_ ?_
  · intro h; simp at h
  · intro a s ha ih hk
    rw [Finset.fold_insert ha, maxsi_toInt]
    rcases Finset.mem_insert.1 hk with h | h
    · rw [h]; exact le_max_left _ _
    · exact le_trans (ih h) (le_max_right _ _)

/-- and at most any bound above its start and its terms. -/
theorem fold_maxsi_le {ι : Type} [DecidableEq ι] (s : Finset ι) (f : ι → BitVec 32) (init : BitVec 32) (U : ℤ)
    (hi : init.toInt ≤ U) (hf : ∀ k ∈ s, (f k).toInt ≤ U) : (s.fold IntOp.maxsi init f).toInt ≤ U := by
  revert hf
  refine Finset.induction_on s ?_ ?_
  · intro _; rw [Finset.fold_empty]; exact hi
  · intro a s ha ih hf
    rw [Finset.fold_insert ha, maxsi_toInt]
    exact max_le (hf a (Finset.mem_insert_self a s)) (ih fun k hk => hf k (Finset.mem_insert_of_mem hk))

theorem andi_eq_one : ∀ (a b : BitVec 1), IntOp.andi a b = 1#1 ↔ a = 1#1 ∧ b = 1#1 := by decide

theorem cmpi_ne_eq_one (x y : BitVec 32) : IntOp.cmpi .ne x y = 1#1 ↔ x ≠ y := by
  unfold IntOp.cmpi
  rw [ofBool_eq_one_iff]
  simp

theorem cmpi_sle_eq_one (x y : BitVec 32) : IntOp.cmpi .sle x y = 1#1 ↔ x.toInt ≤ y.toInt := by
  unfold IntOp.cmpi
  rw [ofBool_eq_one_iff]
  simp [BitVec.sle]

theorem cmpi_sge_eq_one (x y : BitVec 32) : IntOp.cmpi .sge x y = 1#1 ↔ y.toInt ≤ x.toInt := by
  unfold IntOp.cmpi
  rw [ofBool_eq_one_iff]
  simp [BitVec.sle]

theorem toInt_range (a : BitVec 32) : -2147483648 ≤ a.toInt ∧ a.toInt < 2147483648 := by
  have h1 := BitVec.le_toInt a
  have h2 := BitVec.toInt_lt (x := a)
  constructor <;> omega

theorem toInt_of_toNat_lt (a : BitVec 32) (h : a.toNat < 2147483648) : a.toInt = (a.toNat : ℤ) :=
  toInt_eq_toNat_of_lt (by simpa using h)

theorem toNat_of_toInt_nonneg (a : BitVec 32) (h : 0 ≤ a.toInt) : (a.toNat : ℤ) = a.toInt := by
  have := BitVec.toInt_eq_toNat_cond a
  have h2 := a.isLt
  split at this <;> omega

/-- The sign word of `a` (0, −1 or 1). -/
def sgnW (a : BitVec 32) : BitVec 32 := if a = 0 then 0 else if a.msb then -1 else 1

theorem sgnW_ne_one (a : BitVec 32) : sgnW a ≠ 1#32 ↔ a.toInt ≤ 0 := by
  unfold sgnW
  have hm := BitVec.msb_eq_toInt (x := a)
  split_ifs with h0 h1
  · subst h0; decide
  · rw [h1] at hm
    have : a.toInt < 0 := by simpa using hm.symm
    constructor
    · intro _; omega
    · intro _; decide
  · have h1' : a.msb = false := by simpa using h1
    rw [h1'] at hm
    have hn : ¬ a.toInt < 0 := by simpa using hm.symm
    have hz : a.toInt ≠ 0 := fun hz => h0 (BitVec.eq_of_toInt_eq (by rw [hz]; rfl))
    constructor
    · intro h; exact absurd rfl h
    · intro h; omega

/-- The host program's floor division of a word by 2000: the quotient rounded toward zero, less one where the signs
    differ and the remainder is not zero. -/
def fdivW (a : BitVec 32) : BitVec 32 :=
  Scalar.select (IntOp.andi (IntOp.cmpi .ne (sgnW a) (sgnW 2000#32)) (IntOp.cmpi .ne (IntOp.remsi .host a 2000#32) 0#32))
    (IntOp.subi (IntOp.divsi .host a 2000#32) 1#32) (IntOp.divsi .host a 2000#32)

theorem divsi_2000 (a : BitVec 32) : IntOp.divsi .host a 2000#32 = a.sdiv 2000#32 := by
  unfold IntOp.divsi
  rw [if_neg]
  rintro (h | ⟨_, h⟩) <;> exact absurd h (by decide)

theorem remsi_2000 (a : BitVec 32) : IntOp.remsi .host a 2000#32 = a.srem 2000#32 := by
  unfold IntOp.remsi
  rw [if_neg]
  rintro (h | ⟨_, h⟩) <;> exact absurd h (by decide)

/-- It is the floor of the signed quotient. -/
theorem fdivW_toInt (a : BitVec 32) : (fdivW a).toInt = a.toInt / 2000 := by
  obtain ⟨hlo, hhi⟩ := toInt_range a
  have hq : (a.sdiv 2000#32).toInt = a.toInt.tdiv 2000 := by
    rw [BitVec.toInt_sdiv_of_ne_or_ne _ _ (Or.inr (by decide))]; rfl
  have hr : (a.srem 2000#32).toInt = a.toInt.tmod 2000 := by
    rw [BitVec.toInt_srem]; rfl
  have hs : sgnW 2000#32 = 1#32 := by decide
  unfold fdivW Scalar.select
  rw [divsi_2000, remsi_2000, hs]
  split_ifs with hc
  · replace hc : IntOp.andi (IntOp.cmpi .ne (sgnW a) 1#32) (IntOp.cmpi .ne (a.srem 2000#32) 0#32) = 1#1 := hc
    rw [andi_eq_one, cmpi_ne_eq_one, cmpi_ne_eq_one, sgnW_ne_one] at hc
    obtain ⟨hneg, hrem⟩ := hc
    have hrem' : a.toInt.tmod 2000 ≠ 0 := fun h => hrem (BitVec.eq_of_toInt_eq (by rw [hr, h]; rfl))
    have hlt : a.toInt < 0 := by
      rcases lt_or_eq_of_le hneg with h | h
      · exact h
      · rw [h] at hrem'; exact absurd rfl hrem'
    have e1 : a.toInt.tdiv 2000 = -((-a.toInt) / 2000) := by
      rw [← Int.tdiv_eq_ediv_of_nonneg (by omega), Int.neg_tdiv, neg_neg]
    have e2 : a.toInt.tmod 2000 = -((-a.toInt) % 2000) := by
      rw [← Int.tmod_eq_emod_of_nonneg (by omega), Int.neg_tmod, neg_neg]
    rw [e2] at hrem'
    show (a.sdiv 2000#32 - 1#32).toInt = _
    rw [BitVec.toInt_sub, hq, e1]
    have : ((1#32 : BitVec 32)).toInt = 1 := by decide
    rw [this]
    have hb : (-((-a.toInt) / 2000) - 1).bmod (2 ^ 32) = -((-a.toInt) / 2000) - 1 := by
      apply Int.bmod_eq_of_le <;> omega
    rw [hb]; omega
  · rw [hq]
    replace hc : ¬ (IntOp.andi (IntOp.cmpi .ne (sgnW a) 1#32) (IntOp.cmpi .ne (a.srem 2000#32) 0#32) = 1#1) := hc
    rw [andi_eq_one, cmpi_ne_eq_one, cmpi_ne_eq_one, sgnW_ne_one] at hc
    by_cases hn : 0 ≤ a.toInt
    · rw [Int.tdiv_eq_ediv_of_nonneg hn]
    · have hrem : a.srem 2000#32 = 0#32 := by
        by_contra h; exact hc ⟨by omega, h⟩
      have hrem' : a.toInt.tmod 2000 = 0 := by rw [← hr, hrem]; rfl
      have e1 : a.toInt.tdiv 2000 = -((-a.toInt) / 2000) := by
        rw [← Int.tdiv_eq_ediv_of_nonneg (by omega), Int.neg_tdiv, neg_neg]
      have e2 : a.toInt.tmod 2000 = -((-a.toInt) % 2000) := by
        rw [← Int.tmod_eq_emod_of_nonneg (by omega), Int.neg_tmod, neg_neg]
      rw [e2] at hrem'
      rw [e1]; omega

/-- The clamp of a block index `j < 123` between words in `[0, 122]` is a block index. -/
theorem clamp_le (j : ℕ) (hj : j < 123) (a b : BitVec 32) (ha : a.toNat ≤ 122) (hb : b.toNat ≤ 122) :
    (Scalar.minsi (Scalar.maxsi (BitVec.ofNat 32 j) a) b).toNat ≤ 122 := by
  have hji : (BitVec.ofNat 32 j).toInt = (j : ℤ) := toInt_ofNat_small j (by omega)
  have hai := toInt_of_toNat_lt a (by omega)
  have hbi := toInt_of_toNat_lt b (by omega)
  have e : (Scalar.minsi (Scalar.maxsi (BitVec.ofNat 32 j) a) b).toInt
      = min (max (j : ℤ) (a.toNat : ℤ)) (b.toNat : ℤ) := by
    show (IntOp.minsi (IntOp.maxsi (BitVec.ofNat 32 j) a) b).toInt = _
    rw [minsi_toInt, maxsi_toInt, hji, hai, hbi]
  have h0 : 0 ≤ (Scalar.minsi (Scalar.maxsi (BitVec.ofNat 32 j) a) b).toInt := by
    rw [e]; exact le_min (le_max_of_le_left (by omega)) (by omega)
  have h1 := toNat_of_toInt_nonneg _ h0
  have h2 : (Scalar.minsi (Scalar.maxsi (BitVec.ofNat 32 j) a) b).toInt ≤ 122 := by
    rw [e]; exact le_trans (min_le_right _ _) (by omega)
  omega

/-- Between bounds that bracket it the clamp is the index itself. -/
theorem clamp_eq (j : ℕ) (a b : BitVec 32) (ha : a.toNat ≤ j) (hb : j ≤ b.toNat) (hb' : b.toNat ≤ 122) :
    (Scalar.minsi (Scalar.maxsi (BitVec.ofNat 32 j) a) b).toNat = j := by
  have hji : (BitVec.ofNat 32 j).toInt = (j : ℤ) := toInt_ofNat_small j (by omega)
  have hai := toInt_of_toNat_lt a (by omega)
  have hbi := toInt_of_toNat_lt b (by omega)
  have e : (Scalar.minsi (Scalar.maxsi (BitVec.ofNat 32 j) a) b).toInt = (j : ℤ) := by
    show (IntOp.minsi (IntOp.maxsi (BitVec.ofNat 32 j) a) b).toInt = _
    rw [minsi_toInt, maxsi_toInt, hji, hai, hbi, max_eq_left (by omega), min_eq_left (by omega)]
  have h1 := toNat_of_toInt_nonneg _ (by rw [e]; omega)
  omega

/-- A rank-1 index is its one coordinate. -/
theorem idx1_eta {n : ℕ} (x : (⟨1, ![n]⟩ : Shape).Idx) : x = Shape.Idx.ofFin (x 0) := by
  funext a
  have ha : a = 0 := Subsingleton.elim _ _
  subst ha
  exact Fin.ext rfl

/-! ## Row reductions by signed minimum and maximum -/

/-- The reduction of an [n × m] array along its rows by signed minimum is, at row `p`, at most each entry of the row, -/
theorem reduce_minsi_row_le {n m : ℕ} {u : Shape} (h : (⟨2, ![n, m]⟩ : Shape).ReducesTo [1] ⟨1, ![n]⟩)
    (x : (⟨2, ![n, m]⟩ : Shape).Idx → BitVec 32) (init : u.Idx → BitVec 32) (hu : 0 < u.numel) (p : Fin n) (q : Fin m)
    (hb : ((0 : Fin (⟨1, ![n]⟩ : Shape).rank) : ℕ) < ((⟨2, ![n, m]⟩ : Shape).kept [1]).length)
    (hc : ((⟨2, ![n, m]⟩ : Shape).kept [1])[((0 : Fin (⟨1, ![n]⟩ : Shape).rank) : ℕ)] = (0 : Fin 2)) :
    (Host.reduce IntOp.minsi x init h hu (Shape.Idx.ofFin p)).toInt ≤ (x (ij p q)).toInt := by
  rw [Host.reduce_eq_fold]
  refine fold_minsi_le _ _ _ (ij p q) (Finset.mem_filter.2 ⟨Finset.mem_univ _, ?_⟩)
  funext b
  have hb : b = 0 := Subsingleton.elim _ _
  subst hb
  exact Fin.ext (h.drop_apply_val_of_eq (ij p q) 0 0 hb hc)

/-- and by signed maximum at least each entry of the row. -/
theorem le_reduce_maxsi_row {n m : ℕ} {u : Shape} (h : (⟨2, ![n, m]⟩ : Shape).ReducesTo [1] ⟨1, ![n]⟩)
    (x : (⟨2, ![n, m]⟩ : Shape).Idx → BitVec 32) (init : u.Idx → BitVec 32) (hu : 0 < u.numel) (p : Fin n) (q : Fin m)
    (hb : ((0 : Fin (⟨1, ![n]⟩ : Shape).rank) : ℕ) < ((⟨2, ![n, m]⟩ : Shape).kept [1]).length)
    (hc : ((⟨2, ![n, m]⟩ : Shape).kept [1])[((0 : Fin (⟨1, ![n]⟩ : Shape).rank) : ℕ)] = (0 : Fin 2)) :
    (x (ij p q)).toInt ≤ (Host.reduce IntOp.maxsi x init h hu (Shape.Idx.ofFin p)).toInt := by
  rw [Host.reduce_eq_fold]
  refine le_fold_maxsi _ _ _ (ij p q) (Finset.mem_filter.2 ⟨Finset.mem_univ _, ?_⟩)
  funext b
  have hb : b = 0 := Subsingleton.elim _ _
  subst hb
  exact Fin.ext (h.drop_apply_val_of_eq (ij p q) 0 0 hb hc)

/-- A bound below the start and every entry is below the minimum; -/
theorem le_reduce_minsi {s t u : Shape} {axes : List (Fin s.rank)} (h : s.ReducesTo axes t) (x : s.Idx → BitVec 32)
    (init : u.Idx → BitVec 32) (hu : 0 < u.numel) (j : t.Idx) (L : ℤ) (hi : L ≤ (init (Shape.Idx.first hu)).toInt)
    (hx : ∀ i, L ≤ (x i).toInt) : L ≤ (Host.reduce IntOp.minsi x init h hu j).toInt := by
  rw [Host.reduce_eq_fold]
  exact le_fold_minsi _ _ _ L hi fun k _ => hx k

/-- a bound above the start and every entry is above the maximum. -/
theorem reduce_maxsi_le {s t u : Shape} {axes : List (Fin s.rank)} (h : s.ReducesTo axes t) (x : s.Idx → BitVec 32)
    (init : u.Idx → BitVec 32) (hu : 0 < u.numel) (j : t.Idx) (U : ℤ) (hi : (init (Shape.Idx.first hu)).toInt ≤ U)
    (hx : ∀ i, (x i).toInt ≤ U) : (Host.reduce IntOp.maxsi x init h hu j).toInt ≤ U := by
  rw [Host.reduce_eq_fold]
  exact fold_maxsi_le _ _ _ U hi fun k _ => hx k

/-! ## The tables as functions of the column vector -/

/-- Per edge block, the least column word of the block, capped at 99999 (`lo`'s dividend). -/
def colMin (col : IVec S629760 32) : IVec S123 32 :=
  minsi (Host.reduce IntOp.minsi (shapeCast S123x5120 col Gen.shapeCasts_S629760_S123x5120) (constantI S_ 32 2147483647#32)
    Gen.reducesTo_S123x5120_S123_d1 Gen.h_S_) (broadcastInDim S123 ![] Gen.bcast_S_S123 (constantI S_ 32 99999#32))

/-- Per edge block, the greatest column word of the block, capped at 99999 (`hi`'s dividend). -/
def colMax (col : IVec S629760 32) : IVec S123 32 :=
  minsi (Host.reduce IntOp.maxsi (shapeCast S123x5120 col Gen.shapeCasts_S629760_S123x5120) (constantI S_ 32 2147483648#32)
    Gen.reducesTo_S123x5120_S123_d1 Gen.h_S_) (broadcastInDim S123 ![] Gen.bcast_S_S123 (constantI S_ 32 99999#32))

/-- The host program's floor division of a [123] vector by 2000, operation by operation. -/
def fdivV (x : IVec S123 32) : IVec S123 32 :=
  select
    (andi (cmpi .ne (signi x) (broadcastInDim S123 ![] Gen.bcast_S_S123 (signi (constantI S_ 32 2000#32))))
      (cmpi .ne (Host.remsi x (broadcastInDim S123 ![] Gen.bcast_S_S123 (constantI S_ 32 2000#32)))
        (broadcastInDim S123 ![] Gen.bcast_S_S123 (constantI S_ 32 0#32))))
    (subi (Host.divsi x (broadcastInDim S123 ![] Gen.bcast_S_S123 (constantI S_ 32 2000#32)))
      (broadcastInDim S123 ![] Gen.bcast_S_S123 (constantI S_ 32 1#32)))
    (Host.divsi x (broadcastInDim S123 ![] Gen.bcast_S_S123 (constantI S_ 32 2000#32)))

theorem fdivV_apply (x : IVec S123 32) (j : S123.Idx) : fdivV x j = fdivW (x j) := rfl

/-- `lo` and `hi` of the column vector. -/
def loOf (col : IVec S629760 32) : IVec S123 32 := fdivV (colMin col)
def hiOf (col : IVec S629760 32) : IVec S123 32 := fdivV (colMax col)

/-- A [123] vector along the rows of a [50 × 123] rectangle, a [50] vector down its columns, a word everywhere. -/
def rowJ (v : IVec S123 32) : IVec S50x123 32 :=
  broadcastInDim S50x123 ![0, 1] Gen.bcast_S1x123_S50x123_0_1 (broadcastInDim S1x123 ![1] Gen.bcast_S123_S1x123_1 v)
def colI (v : IVec S50 32) : IVec S50x123 32 :=
  broadcastInDim S50x123 ![0, 1] Gen.bcast_S50x1_S50x123_0_1 (broadcastInDim S50x1 ![0] Gen.bcast_S50_S50x1_0 v)
def cstIJ (w : BitVec 32) : IVec S50x123 32 := broadcastInDim S50x123 ![] Gen.bcast_S_S50x123 (constantI S_ 32 w)

theorem rowJ_apply (v : IVec S123 32) (p : Fin 50) (q : Fin 123) : rowJ v (ij p q) = v (Shape.Idx.ofFin q) :=
  bcast_cols Gen.bcast_S123_S1x123_1 Gen.bcast_S1x123_S50x123_0_1 v p q
theorem colI_apply (v : IVec S50 32) (p : Fin 50) (q : Fin 123) : colI v (ij p q) = v (Shape.Idx.ofFin p) :=
  bcast_rows Gen.bcast_S50_S50x1_0 Gen.bcast_S50x1_S50x123_0_1 v p q
theorem cstIJ_apply (w : BitVec 32) (x : S50x123.Idx) : cstIJ w x = w := rfl

/-- The gate of tile `(i, j)`: `lo j ≤ i ≤ hi j`. -/
def validOf (lo hi : IVec S123 32) : IVec S50x123 1 :=
  andi (cmpi .sle (rowJ lo) (colI (iotaInDim S50 32 0))) (cmpi .sge (rowJ hi) (colI (iotaInDim S50 32 0)))

/-- Per node block, the first admitted edge block (123 when there is none) and the last (−1 when there is none). -/
def eminOf (lo hi : IVec S123 32) : IVec S50 32 :=
  Host.reduce IntOp.minsi (select (validOf lo hi) (rowJ (iotaInDim S123 32 0)) (cstIJ 123#32)) (constantI S_ 32 2147483647#32)
    Gen.reducesTo_S50x123_S50_d1 Gen.h_S_
def emaxOf (lo hi : IVec S123 32) : IVec S50 32 :=
  Host.reduce IntOp.maxsi (select (validOf lo hi) (rowJ (iotaInDim S123 32 0)) (cstIJ 4294967295#32)) (constantI S_ 32 2147483648#32)
    Gen.reducesTo_S50x123_S50_d1 Gen.h_S_

/-- `elo` and `ehi` of `lo` and `hi`. -/
def eloOf (lo hi : IVec S123 32) : IVec S50 32 :=
  select (cmpi .sle (eminOf lo hi) (emaxOf lo hi)) (eminOf lo hi) (broadcastInDim S50 ![] Gen.bcast_S_S50 (constantI S_ 32 0#32))
def ehiOf (lo hi : IVec S123 32) : IVec S50 32 :=
  select (cmpi .sle (eminOf lo hi) (emaxOf lo hi)) (emaxOf lo hi) (broadcastInDim S50 ![] Gen.bcast_S_S50 (constantI S_ 32 122#32))

section Facts

variable (lo hi : IVec S123 32)

theorem validOf_apply (i : Fin 50) (j : Fin 123) :
    validOf lo hi (ij i j) = IntOp.andi (IntOp.cmpi .sle (lo (Shape.Idx.ofFin j)) (BitVec.ofNat 32 i.val))
      (IntOp.cmpi .sge (hi (Shape.Idx.ofFin j)) (BitVec.ofNat 32 i.val)) := by
  show IntOp.andi (IntOp.cmpi .sle (rowJ lo (ij i j)) (colI (iotaInDim S50 32 0) (ij i j)))
    (IntOp.cmpi .sge (rowJ hi (ij i j)) (colI (iotaInDim S50 32 0) (ij i j))) = _
  rw [rowJ_apply, rowJ_apply, colI_apply]
  rfl

theorem validOf_eq_one (i : Fin 50) (j : Fin 123) :
    validOf lo hi (ij i j) = 1#1 ↔ (lo (Shape.Idx.ofFin j)).toInt ≤ (i.val : ℤ) ∧ (i.val : ℤ) ≤ (hi (Shape.Idx.ofFin j)).toInt := by
  rw [validOf_apply, andi_eq_one, cmpi_sle_eq_one, cmpi_sge_eq_one, toInt_ofNat_small i.val (by have := i.isLt; omega)]

/-- The entries reduced for the first admitted block: `j` where the gate admits, else 123. -/
theorem minEntry_apply (i : Fin 50) (j : Fin 123) :
    select (validOf lo hi) (rowJ (iotaInDim S123 32 0)) (cstIJ 123#32) (ij i j)
      = if validOf lo hi (ij i j) = 1#1 then BitVec.ofNat 32 j.val else 123#32 := by
  show Scalar.select (validOf lo hi (ij i j)) (rowJ (iotaInDim S123 32 0) (ij i j)) (cstIJ 123#32 (ij i j)) = _
  rw [rowJ_apply]
  rfl

theorem maxEntry_apply (i : Fin 50) (j : Fin 123) :
    select (validOf lo hi) (rowJ (iotaInDim S123 32 0)) (cstIJ 4294967295#32) (ij i j)
      = if validOf lo hi (ij i j) = 1#1 then BitVec.ofNat 32 j.val else 4294967295#32 := by
  show Scalar.select (validOf lo hi (ij i j)) (rowJ (iotaInDim S123 32 0) (ij i j)) (cstIJ 4294967295#32 (ij i j)) = _
  rw [rowJ_apply]
  rfl

theorem toInt_blk (j : Fin 123) : (BitVec.ofNat 32 j.val).toInt = (j.val : ℤ) :=
  toInt_ofNat_small j.val (by have := j.isLt; omega)

theorem minEntry_range (x : S50x123.Idx) :
    0 ≤ (select (validOf lo hi) (rowJ (iotaInDim S123 32 0)) (cstIJ 123#32) x).toInt
      ∧ (select (validOf lo hi) (rowJ (iotaInDim S123 32 0)) (cstIJ 123#32) x).toInt ≤ 123 := by
  obtain ⟨p, q, rfl⟩ : ∃ (p : Fin 50) (q : Fin 123), x = ij p q := ⟨x 0, x 1, (ij_eta (n := 50) (m := 123) x).symm⟩
  rw [minEntry_apply]
  split_ifs
  · rw [toInt_blk]; have := q.isLt; constructor <;> omega
  · constructor <;> decide

theorem maxEntry_range (x : S50x123.Idx) :
    -1 ≤ (select (validOf lo hi) (rowJ (iotaInDim S123 32 0)) (cstIJ 4294967295#32) x).toInt
      ∧ (select (validOf lo hi) (rowJ (iotaInDim S123 32 0)) (cstIJ 4294967295#32) x).toInt ≤ 122 := by
  obtain ⟨p, q, rfl⟩ : ∃ (p : Fin 50) (q : Fin 123), x = ij p q := ⟨x 0, x 1, (ij_eta (n := 50) (m := 123) x).symm⟩
  rw [maxEntry_apply]
  split_ifs
  · rw [toInt_blk]; have := q.isLt; constructor <;> omega
  · constructor <;> decide

theorem emin_nonneg (i : Fin 50) : 0 ≤ (eminOf lo hi (Shape.Idx.ofFin i)).toInt :=
  le_reduce_minsi _ _ _ _ _ 0 (by decide) fun x => (minEntry_range lo hi x).1

theorem emax_le (i : Fin 50) : (emaxOf lo hi (Shape.Idx.ofFin i)).toInt ≤ 122 :=
  reduce_maxsi_le _ _ _ _ _ 122 (by decide) fun x => (maxEntry_range lo hi x).2

theorem emin_le_of_valid (i : Fin 50) (j : Fin 123) (hv : validOf lo hi (ij i j) = 1#1) :
    (eminOf lo hi (Shape.Idx.ofFin i)).toInt ≤ (j.val : ℤ) := by
  have h := reduce_minsi_row_le Gen.reducesTo_S50x123_S50_d1 (select (validOf lo hi) (rowJ (iotaInDim S123 32 0)) (cstIJ 123#32))
    (constantI S_ 32 2147483647#32) Gen.h_S_ i j (by decide) (by decide)
  rw [minEntry_apply, if_pos hv, toInt_blk] at h
  exact h

theorem le_emax_of_valid (i : Fin 50) (j : Fin 123) (hv : validOf lo hi (ij i j) = 1#1) :
    (j.val : ℤ) ≤ (emaxOf lo hi (Shape.Idx.ofFin i)).toInt := by
  have h := le_reduce_maxsi_row Gen.reducesTo_S50x123_S50_d1 (select (validOf lo hi) (rowJ (iotaInDim S123 32 0)) (cstIJ 4294967295#32))
    (constantI S_ 32 2147483648#32) Gen.h_S_ i j (by decide) (by decide)
  rw [maxEntry_apply, if_pos hv, toInt_blk] at h
  exact h

theorem eloOf_apply (i : Fin 50) :
    eloOf lo hi (Shape.Idx.ofFin i)
      = if IntOp.cmpi .sle (eminOf lo hi (Shape.Idx.ofFin i)) (emaxOf lo hi (Shape.Idx.ofFin i)) = 1#1 then eminOf lo hi (Shape.Idx.ofFin i) else 0#32 := rfl
theorem ehiOf_apply (i : Fin 50) :
    ehiOf lo hi (Shape.Idx.ofFin i)
      = if IntOp.cmpi .sle (eminOf lo hi (Shape.Idx.ofFin i)) (emaxOf lo hi (Shape.Idx.ofFin i)) = 1#1 then emaxOf lo hi (Shape.Idx.ofFin i) else 122#32 := rfl

/-- Every word of `elo` is in `[0, 122]`. -/
theorem eloOf_le (x : S50.Idx) : (eloOf lo hi x).toNat ≤ 122 := by
  obtain ⟨p, rfl⟩ : ∃ p : Fin 50, x = Shape.Idx.ofFin p := ⟨x 0, idx1_eta (n := 50) x⟩
  rw [eloOf_apply]
  have h0 := emin_nonneg lo hi p
  have h1 := emax_le lo hi p
  split_ifs with hc
  · rw [cmpi_sle_eq_one] at hc
    have := toNat_of_toInt_nonneg _ h0
    omega
  · decide

/-- Every word of `ehi` is in `[0, 122]`. -/
theorem ehiOf_le (x : S50.Idx) : (ehiOf lo hi x).toNat ≤ 122 := by
  obtain ⟨p, rfl⟩ : ∃ p : Fin 50, x = Shape.Idx.ofFin p := ⟨x 0, idx1_eta (n := 50) x⟩
  rw [ehiOf_apply]
  have h0 := emin_nonneg lo hi p
  have h1 := emax_le lo hi p
  split_ifs with hc
  · rw [cmpi_sle_eq_one] at hc
    have := toNat_of_toInt_nonneg (emaxOf lo hi (Shape.Idx.ofFin p)) (by omega)
    omega
  · decide

/-- A tile the gate admits has `elo i ≤ j ≤ ehi i`. -/
theorem eloOf_ehiOf_of_gate (i : Fin 50) (j : Fin 123) (h1 : (lo (Shape.Idx.ofFin j)).toInt ≤ (i.val : ℤ))
    (h2 : (i.val : ℤ) ≤ (hi (Shape.Idx.ofFin j)).toInt) :
    (eloOf lo hi (Shape.Idx.ofFin i)).toNat ≤ j.val ∧ j.val ≤ (ehiOf lo hi (Shape.Idx.ofFin i)).toNat := by
  have hv : validOf lo hi (ij i j) = 1#1 := (validOf_eq_one lo hi i j).2 ⟨h1, h2⟩
  have ha := emin_le_of_valid lo hi i j hv
  have hb := le_emax_of_valid lo hi i j hv
  have h0 := emin_nonneg lo hi i
  have hc : IntOp.cmpi .sle (eminOf lo hi (Shape.Idx.ofFin i)) (emaxOf lo hi (Shape.Idx.ofFin i)) = 1#1 :=
    (cmpi_sle_eq_one _ _).2 (by omega)
  rw [eloOf_apply, ehiOf_apply, if_pos hc, if_pos hc]
  have e1 := toNat_of_toInt_nonneg _ h0
  have e2 := toNat_of_toInt_nonneg (emaxOf lo hi (Shape.Idx.ofFin i)) (by omega)
  constructor <;> omega

end Facts

section ColFacts

variable (col : IVec S629760 32)

/-- Position `e` of the column vector is entry `(e / 5120, e % 5120)` of its [123 × 5120] reshape. -/
theorem reshape_apply (e : Fin 629760) (j : Fin 123) (hj : e.val / 5120 = j.val) :
    shapeCast S123x5120 col Gen.shapeCasts_S629760_S123x5120 (ij j ⟨e.val % 5120, Nat.mod_lt _ (by decide)⟩) = col (Shape.Idx.ofFin e) := by
  refine shapeCast_apply col _ _ (Shape.Idx.ofFin e) ?_
  rw [Shape.rowMajor_val_one, Shape.rowMajor_val_two]
  show e.val = j.val * 5120 + e.val % 5120
  omega

theorem toInt_99999 : (99999#32 : BitVec 32).toInt = 99999 := by decide

theorem colMin_apply (x : S123.Idx) :
    (colMin col x).toInt = min (Host.reduce IntOp.minsi (shapeCast S123x5120 col Gen.shapeCasts_S629760_S123x5120) (constantI S_ 32 2147483647#32)
      Gen.reducesTo_S123x5120_S123_d1 Gen.h_S_ x).toInt 99999 := by
  have h := minsi_toInt (Host.reduce IntOp.minsi (shapeCast S123x5120 col Gen.shapeCasts_S629760_S123x5120) (constantI S_ 32 2147483647#32)
      Gen.reducesTo_S123x5120_S123_d1 Gen.h_S_ x) 99999#32
  rw [toInt_99999] at h
  exact h

theorem colMax_apply (x : S123.Idx) :
    (colMax col x).toInt = min (Host.reduce IntOp.maxsi (shapeCast S123x5120 col Gen.shapeCasts_S629760_S123x5120) (constantI S_ 32 2147483648#32)
      Gen.reducesTo_S123x5120_S123_d1 Gen.h_S_ x).toInt 99999 := by
  have h := minsi_toInt (Host.reduce IntOp.maxsi (shapeCast S123x5120 col Gen.shapeCasts_S629760_S123x5120) (constantI S_ 32 2147483648#32)
      Gen.reducesTo_S123x5120_S123_d1 Gen.h_S_ x) 99999#32
  rw [toInt_99999] at h
  exact h

/-- A column word `k` in `[0, 100000)` of edge block `j` has `lo j ≤ k / 2000 ≤ hi j`. -/
theorem loOf_hiOf_of_col (e : Fin 629760) (j : Fin 123) (hj : e.val / 5120 = j.val) (hk : (col (Shape.Idx.ofFin e)).toNat < 100000) :
    (loOf col (Shape.Idx.ofFin j)).toInt ≤ (((col (Shape.Idx.ofFin e)).toNat / 2000 : ℕ) : ℤ)
      ∧ (((col (Shape.Idx.ofFin e)).toNat / 2000 : ℕ) : ℤ) ≤ (hiOf col (Shape.Idx.ofFin j)).toInt := by
  have hki := toInt_of_toNat_lt (col (Shape.Idx.ofFin e)) (by omega)
  have hmin := reduce_minsi_row_le Gen.reducesTo_S123x5120_S123_d1 (shapeCast S123x5120 col Gen.shapeCasts_S629760_S123x5120)
    (constantI S_ 32 2147483647#32) Gen.h_S_ j ⟨e.val % 5120, Nat.mod_lt _ (by decide)⟩ (by decide) (by decide)
  have hmax := le_reduce_maxsi_row Gen.reducesTo_S123x5120_S123_d1 (shapeCast S123x5120 col Gen.shapeCasts_S629760_S123x5120)
    (constantI S_ 32 2147483648#32) Gen.h_S_ j ⟨e.val % 5120, Nat.mod_lt _ (by decide)⟩ (by decide) (by decide)
  rw [reshape_apply col e j hj, hki] at hmin hmax
  have e1 : (loOf col (Shape.Idx.ofFin j)).toInt = (colMin col (Shape.Idx.ofFin j)).toInt / 2000 := by
    show (fdivV (colMin col) (Shape.Idx.ofFin j)).toInt = _
    rw [fdivV_apply, fdivW_toInt]
  have e2 : (hiOf col (Shape.Idx.ofFin j)).toInt = (colMax col (Shape.Idx.ofFin j)).toInt / 2000 := by
    show (fdivV (colMax col) (Shape.Idx.ofFin j)).toInt = _
    rw [fdivV_apply, fdivW_toInt]
  have c1 : (colMin col (Shape.Idx.ofFin j)).toInt ≤ ((col (Shape.Idx.ofFin e)).toNat : ℤ) := by
    rw [colMin_apply]; exact le_trans (min_le_left _ _) hmin
  have c2 : ((col (Shape.Idx.ofFin e)).toNat : ℤ) ≤ (colMax col (Shape.Idx.ofFin j)).toInt := by
    rw [colMax_apply]; exact le_min hmax (by omega)
  have d1 := Int.ediv_le_ediv (by decide : (0 : ℤ) < 2000) c1
  have d2 := Int.ediv_le_ediv (by decide : (0 : ℤ) < 2000) c2
  rw [e1, e2]
  constructor <;> omega

end ColFacts

/-! ## The host stretches that compute the tables, at any entry valuation -/

section Stretches

variable (W : Valuation τ sig (Elt F))

/-- The divisor the first floor division reads. -/
theorem s8_c25 : (StableHlo.after hostOps0_8 W (Proc.devRef .tc main_c_25) : S_.Idx → BitVec 32) = constantI S_ 32 2000#32 := by
  after_results
  all_goals rfl

set_option maxHeartbeats 4000000 in
/-- The capped block minima and maxima, of the sorted column vector the same stretch gathers. -/
theorem s8_v77 : (StableHlo.after hostOps0_8 W (Proc.devRef .tc main_v77) : S123.Idx → BitVec 32)
    = colMin (StableHlo.after hostOps0_8 W (Proc.devRef .tc main_v59) : S629760.Idx → BitVec 32) := by
  after_results
  all_goals rfl

set_option maxHeartbeats 4000000 in
theorem s8_v80 : (StableHlo.after hostOps0_8 W (Proc.devRef .tc main_v80) : S123.Idx → BitVec 32)
    = colMax (StableHlo.after hostOps0_8 W (Proc.devRef .tc main_v59) : S629760.Idx → BitVec 32) := by
  after_results
  all_goals rfl

set_option maxHeartbeats 4000000 in
/-- `lo`: the floor division of the capped minima, its divisor the word the stretch before left. -/
theorem s9_v81 (hc : (W (Proc.devRef .tc main_c_25) : S_.Idx → BitVec 32) = constantI S_ 32 2000#32) :
    (StableHlo.after hostOps0_9 W (Proc.devRef .tc main_v81) : S123.Idx → BitVec 32)
      = fdivV (W (Proc.devRef .tc main_v77) : S123.Idx → BitVec 32) := by
  after_results
  rw [hc]
  all_goals rfl

set_option maxHeartbeats 4000000 in
/-- `hi`: the floor division of the capped maxima. -/
theorem s11_v82 :
    (StableHlo.after hostOps0_11 (StableHlo.after hostOps0_10 W) (Proc.devRef .tc main_v82) : S123.Idx → BitVec 32)
      = fdivV (W (Proc.devRef .tc main_v80) : S123.Idx → BitVec 32) := by
  after_results
  all_goals rfl

set_option maxHeartbeats 8000000 in
/-- `elo` and `ehi`, of `lo` and `hi`. -/
theorem s27_v110 :
    (StableHlo.after hostOps0_27 (StableHlo.after hostOps0_26 (StableHlo.after hostOps0_25 (StableHlo.after hostOps0_24
      (StableHlo.after hostOps0_23 (StableHlo.after hostOps0_22 (StableHlo.after hostOps0_21 (StableHlo.after hostOps0_20 W)))))))
        (Proc.devRef .tc main_v110) : S50.Idx → BitVec 32)
      = eloOf (W (Proc.devRef .tc main_v81) : S123.Idx → BitVec 32) (W (Proc.devRef .tc main_v82) : S123.Idx → BitVec 32) := by
  after_results
  all_goals rfl

set_option maxHeartbeats 8000000 in
theorem s27_v111 :
    (StableHlo.after hostOps0_27 (StableHlo.after hostOps0_26 (StableHlo.after hostOps0_25 (StableHlo.after hostOps0_24
      (StableHlo.after hostOps0_23 (StableHlo.after hostOps0_22 (StableHlo.after hostOps0_21 (StableHlo.after hostOps0_20 W)))))))
        (Proc.devRef .tc main_v111) : S50.Idx → BitVec 32)
      = ehiOf (W (Proc.devRef .tc main_v81) : S123.Idx → BitVec 32) (W (Proc.devRef .tc main_v82) : S123.Idx → BitVec 32) := by
  after_results
  all_goals rfl

end Stretches

/-! ## The tables in the valuation the regions are entered at -/

section Tables

variable (m : (ℓ : Loc nD τ sig) → Buf (Elt F) ℓ)

theorem V33_v59 (c : Dev nD) : V33 m c main_v59 = V9 m c main_v59 :=
  (V33_of m c main_v59 (by decide)).trans <| (V32_of m c main_v59 (by decide)).trans <| (V31_of m c main_v59 (by decide)).trans <| (V30_of m c main_v59 (by decide)).trans <| (V29_of m c main_v59 (by decide)).trans <| (V28_of m c main_v59 (by decide)).trans <| (V27_of m c main_v59 (by decide)).trans <| (V26_of m c main_v59 (by decide)).trans <| (V25_of m c main_v59 (by decide)).trans <| (V24_of m c main_v59 (by decide)).trans <| (V23_of m c main_v59 (by decide)).trans <| (V22_of m c main_v59 (by decide)).trans <| (V21_of m c main_v59 (by decide)).trans <| (V20_of m c main_v59 (by decide)).trans <| (V19_of m c main_v59 (by decide)).trans <| (V18_of m c main_v59 (by decide)).trans <| (V17_of m c main_v59 (by decide)).trans <| (V16_of m c main_v59 (by decide)).trans <| (V15_of m c main_v59 (by decide)).trans <| (V14_of m c main_v59 (by decide)).trans <| (V13_of m c main_v59 (by decide)).trans <| (V12_of m c main_v59 (by decide)).trans <| (V11_of m c main_v59 (by decide)).trans <| (V10_of m c main_v59 (by decide))
theorem V33_v81 (c : Dev nD) : V33 m c main_v81 = V10 m c main_v81 :=
  (V33_of m c main_v81 (by decide)).trans <| (V32_of m c main_v81 (by decide)).trans <| (V31_of m c main_v81 (by decide)).trans <| (V30_of m c main_v81 (by decide)).trans <| (V29_of m c main_v81 (by decide)).trans <| (V28_of m c main_v81 (by decide)).trans <| (V27_of m c main_v81 (by decide)).trans <| (V26_of m c main_v81 (by decide)).trans <| (V25_of m c main_v81 (by decide)).trans <| (V24_of m c main_v81 (by decide)).trans <| (V23_of m c main_v81 (by decide)).trans <| (V22_of m c main_v81 (by decide)).trans <| (V21_of m c main_v81 (by decide)).trans <| (V20_of m c main_v81 (by decide)).trans <| (V19_of m c main_v81 (by decide)).trans <| (V18_of m c main_v81 (by decide)).trans <| (V17_of m c main_v81 (by decide)).trans <| (V16_of m c main_v81 (by decide)).trans <| (V15_of m c main_v81 (by decide)).trans <| (V14_of m c main_v81 (by decide)).trans <| (V13_of m c main_v81 (by decide)).trans <| (V12_of m c main_v81 (by decide)).trans <| (V11_of m c main_v81 (by decide))
theorem V33_v82 (c : Dev nD) : V33 m c main_v82 = V12 m c main_v82 :=
  (V33_of m c main_v82 (by decide)).trans <| (V32_of m c main_v82 (by decide)).trans <| (V31_of m c main_v82 (by decide)).trans <| (V30_of m c main_v82 (by decide)).trans <| (V29_of m c main_v82 (by decide)).trans <| (V28_of m c main_v82 (by decide)).trans <| (V27_of m c main_v82 (by decide)).trans <| (V26_of m c main_v82 (by decide)).trans <| (V25_of m c main_v82 (by decide)).trans <| (V24_of m c main_v82 (by decide)).trans <| (V23_of m c main_v82 (by decide)).trans <| (V22_of m c main_v82 (by decide)).trans <| (V21_of m c main_v82 (by decide)).trans <| (V20_of m c main_v82 (by decide)).trans <| (V19_of m c main_v82 (by decide)).trans <| (V18_of m c main_v82 (by decide)).trans <| (V17_of m c main_v82 (by decide)).trans <| (V16_of m c main_v82 (by decide)).trans <| (V15_of m c main_v82 (by decide)).trans <| (V14_of m c main_v82 (by decide)).trans <| (V13_of m c main_v82 (by decide))
theorem V33_v110 (c : Dev nD) : V33 m c main_v110 = V28 m c main_v110 :=
  (V33_of m c main_v110 (by decide)).trans <| (V32_of m c main_v110 (by decide)).trans <| (V31_of m c main_v110 (by decide)).trans <| (V30_of m c main_v110 (by decide)).trans <| (V29_of m c main_v110 (by decide))
theorem V33_v111 (c : Dev nD) : V33 m c main_v111 = V28 m c main_v111 :=
  (V33_of m c main_v111 (by decide)).trans <| (V32_of m c main_v111 (by decide)).trans <| (V31_of m c main_v111 (by decide)).trans <| (V30_of m c main_v111 (by decide)).trans <| (V29_of m c main_v111 (by decide))
theorem V20_v81 (c : Dev nD) : V20 m c main_v81 = V10 m c main_v81 :=
  (V20_of m c main_v81 (by decide)).trans <| (V19_of m c main_v81 (by decide)).trans <| (V18_of m c main_v81 (by decide)).trans <| (V17_of m c main_v81 (by decide)).trans <| (V16_of m c main_v81 (by decide)).trans <| (V15_of m c main_v81 (by decide)).trans <| (V14_of m c main_v81 (by decide)).trans <| (V13_of m c main_v81 (by decide)).trans <| (V12_of m c main_v81 (by decide)).trans <| (V11_of m c main_v81 (by decide))
theorem V20_v82 (c : Dev nD) : V20 m c main_v82 = V12 m c main_v82 :=
  (V20_of m c main_v82 (by decide)).trans <| (V19_of m c main_v82 (by decide)).trans <| (V18_of m c main_v82 (by decide)).trans <| (V17_of m c main_v82 (by decide)).trans <| (V16_of m c main_v82 (by decide)).trans <| (V15_of m c main_v82 (by decide)).trans <| (V14_of m c main_v82 (by decide)).trans <| (V13_of m c main_v82 (by decide))
theorem V10_v80 (c : Dev nD) : V10 m c main_v80 = V9 m c main_v80 :=
  V10_of m c main_v80 (by decide)

/-- `lo` is `loOf` of the sorted column vector, -/
theorem lo_eq (c : Dev nD) :
    (V33 m c main_v81 : S123.Idx → BitVec 32) = loOf (V33 m c main_v59 : S629760.Idx → BitVec 32) :=
  (V33_v81 m c).trans <| (s9_v81 (V9 m c) (s8_c25 (V8 m c))).trans <|
    (congrArg fdivV (s8_v77 (V8 m c))).trans (congrArg loOf (V33_v59 m c).symm)

/-- `hi` is `hiOf` of it, -/
theorem hi_eq (c : Dev nD) :
    (V33 m c main_v82 : S123.Idx → BitVec 32) = hiOf (V33 m c main_v59 : S629760.Idx → BitVec 32) :=
  (V33_v82 m c).trans <| (s11_v82 (V10 m c)).trans <| (congrArg fdivV (V10_v80 m c)).trans <|
    (congrArg fdivV (s8_v80 (V8 m c))).trans (congrArg hiOf (V33_v59 m c).symm)

/-- and `elo`, `ehi` are `eloOf`, `ehiOf` of `lo` and `hi`. -/
theorem elo_eq (c : Dev nD) :
    (V33 m c main_v110 : S50.Idx → BitVec 32)
      = eloOf (V33 m c main_v81 : S123.Idx → BitVec 32) (V33 m c main_v82 : S123.Idx → BitVec 32) :=
  (V33_v110 m c).trans <| (s27_v110 (V20 m c)).trans <|
    (congrArg (fun l : S123.Idx → BitVec 32 => eloOf l (V20 m c main_v82 : S123.Idx → BitVec 32)) ((V20_v81 m c).trans (V33_v81 m c).symm)).trans
      (congrArg (eloOf (V33 m c main_v81 : S123.Idx → BitVec 32)) ((V20_v82 m c).trans (V33_v82 m c).symm))

theorem ehi_eq (c : Dev nD) :
    (V33 m c main_v111 : S50.Idx → BitVec 32)
      = ehiOf (V33 m c main_v81 : S123.Idx → BitVec 32) (V33 m c main_v82 : S123.Idx → BitVec 32) :=
  (V33_v111 m c).trans <| (s27_v111 (V20 m c)).trans <|
    (congrArg (fun l : S123.Idx → BitVec 32 => ehiOf l (V20 m c main_v82 : S123.Idx → BitVec 32)) ((V20_v81 m c).trans (V33_v81 m c).symm)).trans
      (congrArg (ehiOf (V33 m c main_v81 : S123.Idx → BitVec 32)) ((V20_v82 m c).trans (V33_v82 m c).symm))

/-- Every word of `elo` is in `[0, 122]`. -/
theorem elo_le (c : Dev nD) (x : S50.Idx) : ((V33 m c main_v110 : S50.Idx → BitVec 32) x).toNat ≤ 122 :=
  (congrArg (fun f : S50.Idx → BitVec 32 => (f x).toNat ≤ 122) (elo_eq m c)).mpr (eloOf_le _ _ x)

/-- Every word of `ehi` is in `[0, 122]`. -/
theorem ehi_le (c : Dev nD) (x : S50.Idx) : ((V33 m c main_v111 : S50.Idx → BitVec 32) x).toNat ≤ 122 :=
  (congrArg (fun f : S50.Idx → BitVec 32 => (f x).toNat ≤ 122) (ehi_eq m c)).mpr (ehiOf_le _ _ x)

/-- A column word `k` in `[0, 100000)` at position `e` of edge block `j` lies, divided by 2000, between that
    block's `lo` and `hi` (signed). -/
theorem lo_hi_of_col (c : Dev nD) (e : Fin 629760) (j : Fin 123) (hj : e.val / 5120 = j.val)
    (hk : ((V33 m c main_v59 : S629760.Idx → BitVec 32) (Shape.Idx.ofFin e)).toNat < 100000) :
    ((V33 m c main_v81 : S123.Idx → BitVec 32) (Shape.Idx.ofFin j)).toInt
        ≤ ((((V33 m c main_v59 : S629760.Idx → BitVec 32) (Shape.Idx.ofFin e)).toNat / 2000 : ℕ) : ℤ)
      ∧ ((((V33 m c main_v59 : S629760.Idx → BitVec 32) (Shape.Idx.ofFin e)).toNat / 2000 : ℕ) : ℤ)
        ≤ ((V33 m c main_v82 : S123.Idx → BitVec 32) (Shape.Idx.ofFin j)).toInt := by
  have h := loOf_hiOf_of_col (V33 m c main_v59 : S629760.Idx → BitVec 32) e j hj hk
  exact ⟨(congrArg (fun f : S123.Idx → BitVec 32 => (f (Shape.Idx.ofFin j)).toInt) (lo_eq m c)).trans_le h.1,
    h.2.trans_eq (congrArg (fun f : S123.Idx → BitVec 32 => (f (Shape.Idx.ofFin j)).toInt) (hi_eq m c)).symm⟩

/-- A tile `(i, j)` the gate admits (`lo j ≤ i ≤ hi j`, signed) has `elo i ≤ j ≤ ehi i`. -/
theorem elo_ehi_of_gate (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) :
    ((V33 m c main_v110 : S50.Idx → BitVec 32) (Shape.Idx.ofFin i)).toNat ≤ j.val
      ∧ j.val ≤ ((V33 m c main_v111 : S50.Idx → BitVec 32) (Shape.Idx.ofFin i)).toNat := by
  have h := eloOf_ehiOf_of_gate (V33 m c main_v81 : S123.Idx → BitVec 32) (V33 m c main_v82 : S123.Idx → BitVec 32) i j h1 h2
  exact ⟨(congrArg (fun f : S50.Idx → BitVec 32 => (f (Shape.Idx.ofFin i)).toNat) (elo_eq m c)).trans_le h.1,
    h.2.trans_eq (congrArg (fun f : S50.Idx → BitVec 32 => (f (Shape.Idx.ofFin i)).toNat) (ehi_eq m c)).symm⟩

end Tables

/-! ## The scatter pipelines' side conditions -/

/-- Region 2's side condition at any contents whose `elo` and `ehi` words are in `[0, 122]`: the clamped block index
    of windows 0 and 1 is one of the 123 blocks. -/
theorem ok2_of (pf : pre2.Contents (Elt F)) (h2 : ∀ x : S50.Idx, ((pf 2 : S50.Idx → BitVec 32) x).toNat ≤ 122)
    (h3 : ∀ x : S50.Idx, ((pf 3 : S50.Idx → BitVec 32) x).toNat ≤ 122) : ok2 pf := by
  have key : ∀ i : grid2.Coords, ∃ w : BitVec 32, w.toNat ≤ 122 ∧
      cc2_transform_0 Facts₀.k2_off1_inb Facts₀.numel1_S1 pf i = ![0, w.toNat] ∧
      cc2_transform_1 Facts₀.k2_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 5's side condition at any contents whose `elo` and `ehi` words are in `[0, 122]`: the clamped block index
    of windows 0 and 1 is one of the 123 blocks. -/
theorem ok5_of (pf : pre5.Contents (Elt F)) (h2 : ∀ x : S50.Idx, ((pf 2 : S50.Idx → BitVec 32) x).toNat ≤ 122)
    (h3 : ∀ x : S50.Idx, ((pf 3 : S50.Idx → BitVec 32) x).toNat ≤ 122) : ok5 pf := by
  have key : ∀ i : grid5.Coords, ∃ w : BitVec 32, w.toNat ≤ 122 ∧
      cc5_transform_0 Facts₀.k5_off1_inb Facts₀.numel1_S1 pf i = ![0, w.toNat] ∧
      cc5_transform_1 Facts₀.k5_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 8's side condition at any contents whose `elo` and `ehi` words are in `[0, 122]`: the clamped block index
    of windows 0 and 1 is one of the 123 blocks. -/
theorem ok8_of (pf : pre8.Contents (Elt F)) (h2 : ∀ x : S50.Idx, ((pf 2 : S50.Idx → BitVec 32) x).toNat ≤ 122)
    (h3 : ∀ x : S50.Idx, ((pf 3 : S50.Idx → BitVec 32) x).toNat ≤ 122) : ok8 pf := by
  have key : ∀ i : grid8.Coords, ∃ w : BitVec 32, w.toNat ≤ 122 ∧
      cc8_transform_0 Facts₀.k8_off1_inb Facts₀.numel1_S1 pf i = ![0, w.toNat] ∧
      cc8_transform_1 Facts₀.k8_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega

/-- Region 11's side condition at any contents whose `elo` and `ehi` words are in `[0, 122]`: the clamped block index
    of windows 0 and 1 is one of the 123 blocks. -/
theorem ok11_of (pf : pre11.Contents (Elt F)) (h2 : ∀ x : S50.Idx, ((pf 2 : S50.Idx → BitVec 32) x).toNat ≤ 122)
    (h3 : ∀ x : S50.Idx, ((pf 3 : S50.Idx → BitVec 32) x).toNat ≤ 122) : ok11 pf := by
  have key : ∀ i : grid11.Coords, ∃ w : BitVec 32, w.toNat ≤ 122 ∧
      cc11_transform_0 Facts₀.k11_off1_inb Facts₀.numel1_S1 pf i = ![0, w.toNat] ∧
      cc11_transform_1 Facts₀.k11_off1_inb Facts₀.numel1_S1 pf i = ![w.toNat, 0] := fun i =>
    ⟨_, clamp_le (i 1).val (i 1).isLt _ _ (h2 _) (h3 _), rfl, rfl⟩
  refine ⟨fun i => ?_, fun i => ?_⟩
  · obtain ⟨w, hw, e0, -⟩ := key i
    refine ⟨fun a => ?_, Or.inl rfl⟩
    rw [e0]
    fin_cases a <;> simp [S1x5120, S1x629760] <;> omega
  · obtain ⟨w, hw, -, e1⟩ := key i
    refine ⟨fun a => ?_, Or.inl rfl⟩
    rw [e1]
    fin_cases a <;> simp [S5120x128, S629760x128] <;> omega
section Adm

variable (m : (ℓ : Loc nD τ sig) → Buf (Elt F) ℓ)

/-- The four tables' contents when the regions are entered (the program runs on one device: device 0's). -/
def tbl2 : pre2.Contents (Elt F) := fun k => V33 m (0 : Dev nD) (pre2.ref k)
def tbl5 : pre5.Contents (Elt F) := fun k => V33 m (0 : Dev nD) (pre5.ref k)
def tbl8 : pre8.Contents (Elt F) := fun k => V33 m (0 : Dev nD) (pre8.ref k)
def tbl11 : pre11.Contents (Elt F) := fun k => V33 m (0 : Dev nD) (pre11.ref k)

/-- On every device the tables hold those contents. -/
theorem V33_pre2 (c : Dev nD) (k : Fin 4) : V33 m c (pre2.ref k) = tbl2 m k := by
  obtain rfl : c = 0 := Subsingleton.elim _ _; rfl
theorem V33_pre5 (c : Dev nD) (k : Fin 4) : V33 m c (pre5.ref k) = tbl5 m k := by
  obtain rfl : c = 0 := Subsingleton.elim _ _; rfl
theorem V33_pre8 (c : Dev nD) (k : Fin 4) : V33 m c (pre8.ref k) = tbl8 m k := by
  obtain rfl : c = 0 := Subsingleton.elim _ _; rfl
theorem V33_pre11 (c : Dev nD) (k : Fin 4) : V33 m c (pre11.ref k) = tbl11 m k := by
  obtain rfl : c = 0 := Subsingleton.elim _ _; rfl

theorem ok2_tbl : ok2 (tbl2 m) := ok2_of (tbl2 m) (fun x => elo_le m 0 x) (fun x => ehi_le m 0 x)
theorem ok5_tbl : ok5 (tbl5 m) := ok5_of (tbl5 m) (fun x => elo_le m 0 x) (fun x => ehi_le m 0 x)
theorem ok8_tbl : ok8 (tbl8 m) := ok8_of (tbl8 m) (fun x => elo_le m 0 x) (fun x => ehi_le m 0 x)
theorem ok11_tbl : ok11 (tbl11 m) := ok11_of (tbl11 m) (fun x => elo_le m 0 x) (fun x => ehi_le m 0 x)

/-- The tables as admissible contents of the four scatter pipelines. -/
def adm2 : (pcfgs (F := F) 2).Adm := ⟨tbl2 m, ok2_tbl m⟩
def adm5 : (pcfgs (F := F) 5).Adm := ⟨tbl5 m, ok5_tbl m⟩
def adm8 : (pcfgs (F := F) 8).Adm := ⟨tbl8 m, ok8_tbl m⟩
def adm11 : (pcfgs (F := F) 11).Adm := ⟨tbl11 m, ok11_tbl m⟩

theorem adm2_val : (adm2 m).1 = tbl2 m := rfl
theorem adm5_val : (adm5 m).1 = tbl5 m := rfl
theorem adm8_val : (adm8 m).1 = tbl8 m := rfl
theorem adm11_val : (adm11 m).1 = tbl11 m := rfl

end Adm

end Cert.KernelIdeal.Hand

end
-- ==== Proof.KI.TablesGather.lean ====
import proofs.«415143_j42460046688958_3_alg».proof.Proof.KI.RegionsP
import Idealize.ShloMosaic.Lib.StableHlo.Predicate
import Idealize.ShloMosaic.PureOps.Reduce

-- decided memberships among the 437 references recurse past the default depth
set_option maxRecDepth 2260

noncomputable section

namespace Cert.KernelIdeal.Hand

open Cert.KernelIdeal Cert.KernelIdeal.Gen
open Idealize.ShloMosaic Idealize.ShloMosaic.TcCoe Idealize.SL.Sem

variable {F : FTy → Type} [FloatOps F]

/-! # The gather tables

The gather pipelines (1, 4, 7, 10) prefetch two tables of 123 words, one per block of 5120 edges: `rlo` (main_v86) is the
clamp to [0, 124] of the floor of (the least row word of the block) / 800, `rhi` (main_v89) the same of the greatest.
Whatever the row words, every word of either table is in [0, 124], so the table-indexed window of 800 rows stays
inside its 125 blocks; and a row word r in [0, 100000) of block i has rlo[i] ≤ r / 800 ≤ rhi[i], so the tile that holds
row r is one the gate admits. -/

namespace TG

/-! ## Words: sign, floor division by 800, the clamp to [0, 124], as signed integers -/

/-- The sign of a word: 0 at zero, -1 at a negative word, 1 at a positive one. -/
def sgnW (x : BitVec 32) : BitVec 32 := if x = 0 then 0 else if x.msb then -1 else 1

/-- Floor division of a word by 800: the quotient rounded toward zero, less one when the signs of dividend and
    divisor differ and the remainder is not zero. -/
def fdivW (x : BitVec 32) : BitVec 32 :=
  Scalar.select (IntOp.andi (IntOp.cmpi .ne (sgnW x) (sgnW 800#32)) (IntOp.cmpi .ne (IntOp.remsi .host x 800#32) 0#32))
    (IntOp.subi (IntOp.divsi .host x 800#32) 1#32) (IntOp.divsi .host x 800#32)

/-- The clamp of a word to [0, 124]: the smaller of 124 and the larger of 0 and the word. -/
def clipW (x : BitVec 32) : BitVec 32 := IntOp.minsi 124#32 (IntOp.maxsi 0#32 x)

theorem toInt_maxsi (x y : BitVec 32) : (IntOp.maxsi x y).toInt = max x.toInt y.toInt := by
  unfold IntOp.maxsi
  split <;> rename_i hc <;> simp only [BitVec.slt_eq_decide, decide_eq_true_eq] at hc <;> omega

theorem toInt_minsi (x y : BitVec 32) : (IntOp.minsi x y).toInt = min x.toInt y.toInt := by
  unfold IntOp.minsi
  split <;> rename_i hc <;> simp only [BitVec.slt_eq_decide, decide_eq_true_eq] at hc <;> omega

/-- The clamp as an integer: between 0 and 124 whatever the word. -/
theorem toInt_clipW (x : BitVec 32) : (clipW x).toInt = min 124 (max 0 x.toInt) := by
  unfold clipW
  rw [toInt_minsi, toInt_maxsi]
  rfl

theorem and1 : ∀ a b : BitVec 1, IntOp.andi a b = 1#1 ↔ a = 1#1 ∧ b = 1#1 := by decide

theorem cmpi_ne_iff (a b : BitVec 32) : IntOp.cmpi .ne a b = 1#1 ↔ a ≠ b := by
  simp only [IntOp.cmpi, StableHlo.Predicate.ofBool_eq_one_iff, bne_iff_ne]

theorem toInt_eq_zero_iff (x : BitVec 32) : x.toInt = 0 ↔ x = 0#32 :=
  ⟨fun h => BitVec.eq_of_toInt_eq (by rw [h]; rfl), fun h => by rw [h]; rfl⟩

/-- The sign is 1 exactly at the positive words. -/
theorem sgnW_eq_one_iff (x : BitVec 32) : sgnW x = 1#32 ↔ 0 < x.toInt := by
  unfold sgnW
  by_cases h0 : x = 0
  · subst h0; decide
  · rw [if_neg h0]
    have hne : x.toInt ≠ 0 := fun h => h0 ((toInt_eq_zero_iff x).1 h)
    have hlt := x.isLt
    by_cases hm : x.msb = true
    · rw [if_pos hm]
      have hneg : x.toInt < 0 := by
        rw [BitVec.toInt_eq_msb_cond, if_pos hm]; omega
      exact ⟨fun h => absurd h (by decide), fun h => by omega⟩
    · rw [if_neg hm]
      have hpos : 0 ≤ x.toInt := by
        rw [BitVec.toInt_eq_msb_cond, if_neg hm]; omega
      exact ⟨fun _ => by omega, fun _ => rfl⟩

/-- Floor division by 800 as an integer: the floor of the quotient. -/
theorem toInt_fdivW (x : BitVec 32) : (fdivW x).toInt = x.toInt / 800 := by
  have h800 : (800#32 : BitVec 32).toInt = 800 := by decide
  have hnc : ¬ IntOp.SDivCorner x 800#32 := by
    intro hc; rcases hc with hc | ⟨_, hc⟩ <;> exact absurd hc (by decide)
  have hq : (IntOp.divsi .host x 800#32).toInt = x.toInt.tdiv 800 := by
    rw [IntOp.divsi, if_neg hnc, BitVec.toInt_sdiv_of_ne_or_ne _ _ (Or.inr (by decide)), h800]
  have hr : (IntOp.remsi .host x 800#32).toInt = x.toInt.tmod 800 := by
    rw [IntOp.remsi, if_neg hnc, BitVec.toInt_srem, h800]
  have hs800 : sgnW 800#32 = 1#32 := by decide
  have hlo : -(2 ^ 31 : Int) ≤ x.toInt := BitVec.le_toInt x
  have hhi : x.toInt < (2 ^ 31 : Int) := BitVec.toInt_lt
  have hsign : (800 : Int).sign = 1 := rfl
  have hnat : (800 : Int).natAbs = 800 := rfl
  unfold fdivW Scalar.select
  rw [hs800]
  by_cases hx : 0 ≤ x.toInt ∨ (800 : Int) ∣ x.toInt
  · -- the quotient rounded toward zero is already the floor, and the correction is off
    have hc : ¬ (IntOp.andi (IntOp.cmpi .ne (sgnW x) 1#32) (IntOp.cmpi .ne (IntOp.remsi .host x 800#32) 0#32) = 1) := by
      rw [show (1 : BitVec 1) = 1#1 from rfl, and1, cmpi_ne_iff, cmpi_ne_iff]
      rintro ⟨hs, hrem⟩
      rcases hx with hx | hx
      · rcases Int.lt_or_eq_of_le hx with hpos | hz
        · exact hs ((sgnW_eq_one_iff x).2 hpos)
        · apply hrem
          apply (toInt_eq_zero_iff _).1
          rw [hr, ← hz]; rfl
      · apply hrem
        apply (toInt_eq_zero_iff _).1
        rw [hr, Int.tmod_eq_emod, if_pos (Or.inr hx), Int.emod_eq_zero_of_dvd hx]; rfl
    rw [if_neg hc, hq, Int.tdiv_eq_ediv, if_pos hx]; omega
  · have hneg : x.toInt < 0 := by
      by_cases h : x.toInt < 0
      · exact h
      · exact absurd (Or.inl (by omega)) hx
    have hnd : ¬ (800 : Int) ∣ x.toInt := fun h => hx (Or.inr h)
    have hc : IntOp.andi (IntOp.cmpi .ne (sgnW x) 1#32) (IntOp.cmpi .ne (IntOp.remsi .host x 800#32) 0#32) = 1 := by
      rw [show (1 : BitVec 1) = 1#1 from rfl, and1, cmpi_ne_iff, cmpi_ne_iff]
      refine ⟨fun hs => ?_, fun hrem => ?_⟩
      · have := (sgnW_eq_one_iff x).1 hs; omega
      · have h0 : (IntOp.remsi .host x 800#32).toInt = 0 := by rw [hrem]; rfl
        rw [hr, Int.tmod_eq_emod, if_neg hx, hnat] at h0
        have := Int.emod_nonneg x.toInt (show (800 : Int) ≠ 0 by decide)
        have := Int.emod_lt_of_pos x.toInt (show (0 : Int) < 800 by decide)
        omega
    rw [if_pos hc, IntOp.subi, BitVec.toInt_sub, hq, Int.tdiv_eq_ediv, if_neg hx, hsign,
      show (1#32 : BitVec 32).toInt = 1 from by decide]
    rw [Int.bmod_eq_of_le (by omega) (by omega)]
    omega

/-- Floor division by 800 is monotone in the signed order. -/
theorem fdivW_mono {x y : BitVec 32} (h : x.toInt ≤ y.toInt) : (fdivW x).toInt ≤ (fdivW y).toInt := by
  rw [toInt_fdivW, toInt_fdivW]; omega

/-- So is the clamp. -/
theorem clipW_mono {x y : BitVec 32} (h : x.toInt ≤ y.toInt) : (clipW x).toInt ≤ (clipW y).toInt := by
  rw [toInt_clipW, toInt_clipW]; omega

/-- A clamped word read unsigned is at most 124. -/
theorem clipW_toNat_le (x : BitVec 32) : (clipW x).toNat ≤ 124 := by
  have h := toInt_clipW x
  have hlt := (clipW x).isLt
  rw [BitVec.toInt_eq_toNat_cond] at h
  split at h <;> omega

/-! ## Folds: the signed minimum (maximum) over a set is below (above) every member -/

theorem fold_minsi_le {ι : Type} [DecidableEq ι] (S : Finset ι) (f : ι → BitVec 32) (b : BitVec 32) :
    ∀ k ∈ S, (S.fold IntOp.minsi b f).toInt ≤ (f k).toInt := by
  induction S using Finset.induction_on with
  | empty => intro k hk; exact absurd hk (Finset.notMem_empty k)
  | insert a S ha ih =>
    intro k hk
    rw [Finset.fold_insert ha, toInt_minsi]
    rcases Finset.mem_insert.1 hk with rfl | hk
    · omega
    · have := ih k hk; omega

theorem le_fold_maxsi {ι : Type} [DecidableEq ι] (S : Finset ι) (f : ι → BitVec 32) (b : BitVec 32) :
    ∀ k ∈ S, (f k).toInt ≤ (S.fold IntOp.maxsi b f).toInt := by
  induction S using Finset.induction_on with
  | empty => intro k hk; exact absurd hk (Finset.notMem_empty k)
  | insert a S ha ih =>
    intro k hk
    rw [Finset.fold_insert ha, toInt_maxsi]
    rcases Finset.mem_insert.1 hk with rfl | hk
    · omega
    · have := ih k hk; omega

/-! ## The clamp of the index map -/

/-- A coordinate below 125 clamped between two words of [0, 124] is a word of [0, 124]. -/
theorem clamp_le124 (j : Nat) (hj : j < 125) (lo hi : BitVec 32) (hlo : lo.toNat ≤ 124) (hhi : hi.toNat ≤ 124) :
    (Scalar.minsi (Scalar.maxsi (BitVec.ofNat 32 j) lo) hi).toNat ≤ 124 := by
  have e : (Scalar.minsi (Scalar.maxsi (BitVec.ofNat 32 j) lo) hi).toInt
      = min (max (BitVec.ofNat 32 j).toInt lo.toInt) hi.toInt := by
    unfold Scalar.minsi Scalar.maxsi; rw [toInt_minsi, toInt_maxsi]
  rw [StableHlo.Predicate.toInt_ofNat_small j (by omega), StableHlo.Predicate.toInt_eq_toNat_of_lt (a := lo) (by omega),
    StableHlo.Predicate.toInt_eq_toNat_of_lt (a := hi) (by omega)] at e
  have hlt := (Scalar.minsi (Scalar.maxsi (BitVec.ofNat 32 j) lo) hi).isLt
  rw [BitVec.toInt_eq_toNat_cond] at e
  split at e <;> omega

/-- Between words of [0, 124] that bracket it the clamp is the coordinate itself. -/
theorem clamp_eq124 (j : Nat) (lo hi : BitVec 32) (hlo : lo.toNat ≤ j) (hhi : j ≤ hi.toNat) (hhi' : hi.toNat ≤ 124) :
    (Scalar.minsi (Scalar.maxsi (BitVec.ofNat 32 j) lo) hi).toNat = j := by
  have e : (Scalar.minsi (Scalar.maxsi (BitVec.ofNat 32 j) lo) hi).toInt
      = min (max (BitVec.ofNat 32 j).toInt lo.toInt) hi.toInt := by
    unfold Scalar.minsi Scalar.maxsi; rw [toInt_minsi, toInt_maxsi]
  rw [StableHlo.Predicate.toInt_ofNat_small j (by omega), StableHlo.Predicate.toInt_eq_toNat_of_lt (a := lo) (by omega),
    StableHlo.Predicate.toInt_eq_toNat_of_lt (a := hi) (by omega)] at e
  have hlt := (Scalar.minsi (Scalar.maxsi (BitVec.ofNat 32 j) lo) hi).isLt
  rw [BitVec.toInt_eq_toNat_cond] at e
  split at e <;> omega

end TG

/-! ## Indices: the reshape of the 629760 row words into 123 blocks of 5120 -/

namespace TG

/-- The block-and-lane index matched with position `e` has block `e / 5120`. -/
theorem reshape_row (e : S629760.Idx) :
    (((Shape.reshapeEquiv shapeCasts_S629760_S123x5120).symm e) 0).val = (e 0).val / 5120 := by
  have h := Shape.rowMajor_reshapeEquiv shapeCasts_S629760_S123x5120 ((Shape.reshapeEquiv shapeCasts_S629760_S123x5120).symm e)
  rw [Equiv.apply_symm_apply, Shape.rowMajor_val_one, Shape.rowMajor_val_two] at h
  have hd : (![123, 5120] : Fin 2 → Nat) 1 = 5120 := rfl
  rw [hd] at h
  have h1 : (((Shape.reshapeEquiv shapeCasts_S629760_S123x5120).symm e) 1).val < 5120 :=
    (((Shape.reshapeEquiv shapeCasts_S629760_S123x5120).symm e) 1).isLt
  omega

/-- The reshaped words at that index are the word at `e`. -/
theorem shapeCast_symm {α : Type} (row : S629760.Idx → α) (e : S629760.Idx) :
    shapeCast S123x5120 row shapeCasts_S629760_S123x5120 ((Shape.reshapeEquiv shapeCasts_S629760_S123x5120).symm e) = row e := by
  unfold shapeCast
  rw [Equiv.apply_symm_apply]

/-- An index of block `x` drops to `x` when its lane coordinate is removed. -/
theorem drop_eq (i : S123x5120.Idx) (x : S123.Idx) (h : (i 0).val = (x 0).val) :
    reducesTo_S123x5120_S123_d1.drop i = x := by
  funext b
  apply Fin.ext
  obtain rfl : b = 0 := Subsingleton.elim _ _
  rw [Shape.ReducesTo.drop_apply_val_of_eq reducesTo_S123x5120_S123_d1 i 0 0]
  exact h

/-- The signed minimum along the lanes is below every word of the block, whatever the initial word. -/
theorem reduce_min_le (X : S123x5120.Idx → BitVec 32) (init : S_.Idx → BitVec 32) (x : S123.Idx) (i : S123x5120.Idx)
    (hi : (i 0).val = (x 0).val) :
    (Host.reduce IntOp.minsi X init reducesTo_S123x5120_S123_d1 h_S_ x).toInt ≤ (X i).toInt := by
  rw [Host.reduce_eq_fold]
  exact fold_minsi_le _ _ _ i (Finset.mem_filter.2 ⟨Finset.mem_univ _, drop_eq i x hi⟩)

/-- The signed maximum along the lanes is above every word of the block. -/
theorem le_reduce_max (X : S123x5120.Idx → BitVec 32) (init : S_.Idx → BitVec 32) (x : S123.Idx) (i : S123x5120.Idx)
    (hi : (i 0).val = (x 0).val) :
    (X i).toInt ≤ (Host.reduce IntOp.maxsi X init reducesTo_S123x5120_S123_d1 h_S_ x).toInt := by
  rw [Host.reduce_eq_fold]
  exact le_fold_maxsi _ _ _ i (Finset.mem_filter.2 ⟨Finset.mem_univ _, drop_eq i x hi⟩)

end TG

/-! ## The stretches, from any contents `W` before them -/

section Stretches

variable (W : Valuation τ sig (Elt F))

/-- The reshape of the row words and their minimum along the lanes (the stretch of %83, %84). -/
theorem r83_at : StableHlo.after hostOps0_12 W (Proc.devRef .tc main_v83)
    = shapeCast S123x5120 (W (Proc.devRef .tc main_v66) : S629760.Idx → BitVec 32) shapeCasts_S629760_S123x5120 := by
  after_results
  rfl
theorem rmin_at : StableHlo.after hostOps0_12 W (Proc.devRef .tc main_v84)
    = Host.reduce IntOp.minsi (shapeCast S123x5120 (W (Proc.devRef .tc main_v66) : S629760.Idx → BitVec 32) shapeCasts_S629760_S123x5120)
        (constantI S_ 32 2147483647#32) reducesTo_S123x5120_S123_d1 h_S_ := by
  after_results
  rfl
theorem c28_at : StableHlo.after hostOps0_12 W (Proc.devRef .tc main_c_28) = constantI S_ 32 800#32 := by
  after_results
  try rfl
/-- Their maximum (the stretch of %87), from the reshaped words. -/
theorem rmax_at : StableHlo.after hostOps0_16 W (Proc.devRef .tc main_v87)
    = Host.reduce IntOp.maxsi (W (Proc.devRef .tc main_v83) : S123x5120.Idx → BitVec 32)
        (constantI S_ 32 2147483648#32) reducesTo_S123x5120_S123_d1 h_S_ := by
  after_results
  try rfl
theorem c32_at : StableHlo.after hostOps0_16 W (Proc.devRef .tc main_c_32) = constantI S_ 32 800#32 := by
  after_results
  try rfl
/-- The clamps' bounds. -/
theorem c29_at : StableHlo.after hostOps0_14 W (Proc.devRef .tc main_c_29) = constantI S_ 32 0#32 := by
  after_results
  try rfl
theorem c30_at : StableHlo.after hostOps0_14 W (Proc.devRef .tc main_c_30) = constantI S_ 32 124#32 := by
  after_results
  try rfl
theorem c33_at : StableHlo.after hostOps0_18 W (Proc.devRef .tc main_c_33) = constantI S_ 32 0#32 := by
  after_results
  try rfl
theorem c34_at : StableHlo.after hostOps0_18 W (Proc.devRef .tc main_c_34) = constantI S_ 32 124#32 := by
  after_results
  try rfl

/-- Floor division by 800 of the minimum (record main_call6), word by word, when the divisor buffer holds 800. -/
theorem fdiv6_at (h28 : W (Proc.devRef .tc main_c_28) = constantI S_ 32 800#32) (x : S123.Idx) :
    (StableHlo.after hostOps0_13 W (Proc.devRef .tc main_v85) : S123.Idx → BitVec 32) x
      = TG.fdivW ((W (Proc.devRef .tc main_v84) : S123.Idx → BitVec 32) x) := by
  after_results_simp
  rw [h28]
  simp only [StableHlo.TRef.ofBuf, StableHlo.TRef.toBuf, cast_eq]
  unfold TG.fdivW TG.sgnW
  simp only [select, andi, cmpi, signi, subi, Host.remsi, Host.divsi, broadcastInDim, constantI, id]
  rfl
/-- The same of the maximum (record main_call8). -/
theorem fdiv8_at (h32 : W (Proc.devRef .tc main_c_32) = constantI S_ 32 800#32) (x : S123.Idx) :
    (StableHlo.after hostOps0_17 W (Proc.devRef .tc main_v88) : S123.Idx → BitVec 32) x
      = TG.fdivW ((W (Proc.devRef .tc main_v87) : S123.Idx → BitVec 32) x) := by
  after_results_simp
  rw [h32]
  simp only [StableHlo.TRef.ofBuf, StableHlo.TRef.toBuf, cast_eq]
  unfold TG.fdivW TG.sgnW
  simp only [select, andi, cmpi, signi, subi, Host.remsi, Host.divsi, broadcastInDim, constantI, id]
  rfl
/-- The clamp to [0, 124] (record main_call7), word by word, when the bound buffers hold 0 and 124. -/
theorem clip7_at (h29 : W (Proc.devRef .tc main_c_29) = constantI S_ 32 0#32)
    (h30 : W (Proc.devRef .tc main_c_30) = constantI S_ 32 124#32) (x : S123.Idx) :
    (StableHlo.after hostOps0_15 W (Proc.devRef .tc main_v86) : S123.Idx → BitVec 32) x
      = TG.clipW ((W (Proc.devRef .tc main_v85) : S123.Idx → BitVec 32) x) := by
  after_results_simp
  rw [h29, h30]
  rfl
/-- The same (record main_call9). -/
theorem clip9_at (h33 : W (Proc.devRef .tc main_c_33) = constantI S_ 32 0#32)
    (h34 : W (Proc.devRef .tc main_c_34) = constantI S_ 32 124#32) (x : S123.Idx) :
    (StableHlo.after hostOps0_19 W (Proc.devRef .tc main_v89) : S123.Idx → BitVec 32) x
      = TG.clipW ((W (Proc.devRef .tc main_v88) : S123.Idx → BitVec 32) x) := by
  after_results_simp
  rw [h33, h34]
  rfl

end Stretches
/-! ## The tables' words -/

section Tables

variable (m : (ℓ : Loc nD τ sig) → Buf (Elt F) ℓ)

/-! ## Which stretch writes what: a buffer no later stretch writes keeps its contents -/

theorem V33_v86 (c : Dev nD) : V33 m c main_v86 = V16 m c main_v86 :=
  (V33_of m c main_v86 (by decide)).trans <| (V32_of m c main_v86 (by decide)).trans <| (V31_of m c main_v86 (by decide)).trans <| (V30_of m c main_v86 (by decide)).trans <| (V29_of m c main_v86 (by decide)).trans <| (V28_of m c main_v86 (by decide)).trans <| (V27_of m c main_v86 (by decide)).trans <| (V26_of m c main_v86 (by decide)).trans <| (V25_of m c main_v86 (by decide)).trans <| (V24_of m c main_v86 (by decide)).trans <| (V23_of m c main_v86 (by decide)).trans <| (V22_of m c main_v86 (by decide)).trans <| (V21_of m c main_v86 (by decide)).trans <| (V20_of m c main_v86 (by decide)).trans <| (V19_of m c main_v86 (by decide)).trans <| (V18_of m c main_v86 (by decide)).trans <| (V17_of m c main_v86 (by decide))
theorem V33_v89 (c : Dev nD) : V33 m c main_v89 = V20 m c main_v89 :=
  (V33_of m c main_v89 (by decide)).trans <| (V32_of m c main_v89 (by decide)).trans <| (V31_of m c main_v89 (by decide)).trans <| (V30_of m c main_v89 (by decide)).trans <| (V29_of m c main_v89 (by decide)).trans <| (V28_of m c main_v89 (by decide)).trans <| (V27_of m c main_v89 (by decide)).trans <| (V26_of m c main_v89 (by decide)).trans <| (V25_of m c main_v89 (by decide)).trans <| (V24_of m c main_v89 (by decide)).trans <| (V23_of m c main_v89 (by decide)).trans <| (V22_of m c main_v89 (by decide)).trans <| (V21_of m c main_v89 (by decide))
theorem V33_v66 (c : Dev nD) : V33 m c main_v66 = V9 m c main_v66 :=
  (V33_of m c main_v66 (by decide)).trans <| (V32_of m c main_v66 (by decide)).trans <| (V31_of m c main_v66 (by decide)).trans <| (V30_of m c main_v66 (by decide)).trans <| (V29_of m c main_v66 (by decide)).trans <| (V28_of m c main_v66 (by decide)).trans <| (V27_of m c main_v66 (by decide)).trans <| (V26_of m c main_v66 (by decide)).trans <| (V25_of m c main_v66 (by decide)).trans <| (V24_of m c main_v66 (by decide)).trans <| (V23_of m c main_v66 (by decide)).trans <| (V22_of m c main_v66 (by decide)).trans <| (V21_of m c main_v66 (by decide)).trans <| (V20_of m c main_v66 (by decide)).trans <| (V19_of m c main_v66 (by decide)).trans <| (V18_of m c main_v66 (by decide)).trans <| (V17_of m c main_v66 (by decide)).trans <| (V16_of m c main_v66 (by decide)).trans <| (V15_of m c main_v66 (by decide)).trans <| (V14_of m c main_v66 (by decide)).trans <| (V13_of m c main_v66 (by decide)).trans <| (V12_of m c main_v66 (by decide)).trans <| (V11_of m c main_v66 (by decide)).trans <| (V10_of m c main_v66 (by decide))
theorem V12_v66 (c : Dev nD) : V12 m c main_v66 = V9 m c main_v66 :=
  (V12_of m c main_v66 (by decide)).trans <| (V11_of m c main_v66 (by decide)).trans <| (V10_of m c main_v66 (by decide))
theorem V15_v85 (c : Dev nD) : V15 m c main_v85 = V14 m c main_v85 :=
  (V15_of m c main_v85 (by decide))
theorem V19_v88 (c : Dev nD) : V19 m c main_v88 = V18 m c main_v88 :=
  (V19_of m c main_v88 (by decide))
theorem V16_v83 (c : Dev nD) : V16 m c main_v83 = V13 m c main_v83 :=
  (V16_of m c main_v83 (by decide)).trans <| (V15_of m c main_v83 (by decide)).trans <| (V14_of m c main_v83 (by decide))

/-! ## The tables as functions of the row words -/

/-- `rlo` is the clamp of the floor quotient of the block's least row word. -/
theorem rlo_eq (c : Dev nD) (x : S123.Idx) : (V33 m c main_v86 : S123.Idx → BitVec 32) x
    = TG.clipW (TG.fdivW ((V13 m c main_v84 : S123.Idx → BitVec 32) x)) :=
  (congrFun (V33_v86 m c) x).trans <|
    (clip7_at (V15 m c) (c29_at (V14 m c)) (c30_at (V14 m c)) x).trans <|
      congrArg TG.clipW <| (congrFun (V15_v85 m c) x).trans (fdiv6_at (V13 m c) (c28_at (V12 m c)) x)

/-- `rhi` is the clamp of the floor quotient of the block's greatest row word. -/
theorem rhi_eq (c : Dev nD) (x : S123.Idx) : (V33 m c main_v89 : S123.Idx → BitVec 32) x
    = TG.clipW (TG.fdivW ((V17 m c main_v87 : S123.Idx → BitVec 32) x)) :=
  (congrFun (V33_v89 m c) x).trans <|
    (clip9_at (V19 m c) (c33_at (V18 m c)) (c34_at (V18 m c)) x).trans <|
      congrArg TG.clipW <| (congrFun (V19_v88 m c) x).trans (fdiv8_at (V17 m c) (c32_at (V16 m c)) x)

/-- The block's least row word is below each of its row words. -/
theorem rmin_le (c : Dev nD) (x : S123.Idx) (e : S629760.Idx) (hx : (e 0).val / 5120 = (x 0).val) :
    ((V13 m c main_v84 : S123.Idx → BitVec 32) x).toInt ≤ ((V33 m c main_v66 : S629760.Idx → BitVec 32) e).toInt := by
  have e1 : (V13 m c main_v84 : S123.Idx → BitVec 32) x
      = Host.reduce IntOp.minsi (shapeCast S123x5120 (V12 m c main_v66 : S629760.Idx → BitVec 32) shapeCasts_S629760_S123x5120)
          (constantI S_ 32 2147483647#32) reducesTo_S123x5120_S123_d1 h_S_ x := congrFun (rmin_at (V12 m c)) x
  have e2 : (V12 m c main_v66 : S629760.Idx → BitVec 32) e = (V33 m c main_v66 : S629760.Idx → BitVec 32) e :=
    congrFun ((V12_v66 m c).trans (V33_v66 m c).symm) e
  rw [e1, ← e2, ← TG.shapeCast_symm (V12 m c main_v66 : S629760.Idx → BitVec 32) e]
  exact TG.reduce_min_le _ _ x _ ((TG.reshape_row e).trans hx)

/-- The block's greatest row word is above each of its row words. -/
theorem le_rmax (c : Dev nD) (x : S123.Idx) (e : S629760.Idx) (hx : (e 0).val / 5120 = (x 0).val) :
    ((V33 m c main_v66 : S629760.Idx → BitVec 32) e).toInt ≤ ((V17 m c main_v87 : S123.Idx → BitVec 32) x).toInt := by
  have e0 : (V16 m c main_v83 : S123x5120.Idx → BitVec 32)
      = shapeCast S123x5120 (V12 m c main_v66 : S629760.Idx → BitVec 32) shapeCasts_S629760_S123x5120 :=
    (V16_v83 m c).trans (r83_at (V12 m c))
  have e1 : (V17 m c main_v87 : S123.Idx → BitVec 32) x
      = Host.reduce IntOp.maxsi (V16 m c main_v83 : S123x5120.Idx → BitVec 32)
          (constantI S_ 32 2147483648#32) reducesTo_S123x5120_S123_d1 h_S_ x := congrFun (rmax_at (V16 m c)) x
  have e2 : (V12 m c main_v66 : S629760.Idx → BitVec 32) e = (V33 m c main_v66 : S629760.Idx → BitVec 32) e :=
    congrFun ((V12_v66 m c).trans (V33_v66 m c).symm) e
  rw [e1, e0, ← e2, ← TG.shapeCast_symm (V12 m c main_v66 : S629760.Idx → BitVec 32) e]
  exact TG.le_reduce_max _ _ x _ ((TG.reshape_row e).trans hx)

/-- Every word of `rlo` is in [0, 124]. -/
theorem rlo_le (c : Dev nD) (x : S123.Idx) : ((V33 m c main_v86 : S123.Idx → BitVec 32) x).toNat ≤ 124 := by
  rw [rlo_eq]; exact TG.clipW_toNat_le _

/-- Every word of `rhi` is in [0, 124]. -/
theorem rhi_le (c : Dev nD) (x : S123.Idx) : ((V33 m c main_v89 : S123.Idx → BitVec 32) x).toNat ≤ 124 := by
  rw [rhi_eq]; exact TG.clipW_toNat_le _

/-- A row word r in [0, 100000) of edge block `x` has rlo[x] ≤ r / 800 ≤ rhi[x]. -/
theorem rlo_rhi_of_row_idx (c : Dev nD) (e : S629760.Idx) (x : S123.Idx) (hx : (e 0).val / 5120 = (x 0).val)
    (hr : ((V33 m c main_v66 : S629760.Idx → BitVec 32) e).toNat < 100000) :
    ((V33 m c main_v86 : S123.Idx → BitVec 32) x).toNat ≤ ((V33 m c main_v66 : S629760.Idx → BitVec 32) e).toNat / 800
      ∧ ((V33 m c main_v66 : S629760.Idx → BitVec 32) e).toNat / 800 ≤ ((V33 m c main_v89 : S123.Idx → BitVec 32) x).toNat := by
  have hri : ((V33 m c main_v66 : S629760.Idx → BitVec 32) e).toInt
      = (((V33 m c main_v66 : S629760.Idx → BitVec 32) e).toNat : Int) :=
    StableHlo.Predicate.toInt_eq_toNat_of_lt (by omega)
  have hmid := TG.toInt_clipW (TG.fdivW ((V33 m c main_v66 : S629760.Idx → BitVec 32) e))
  rw [TG.toInt_fdivW, hri] at hmid
  have hlo := TG.clipW_mono (TG.fdivW_mono (rmin_le m c x e hx))
  have hhi := TG.clipW_mono (TG.fdivW_mono (le_rmax m c x e hx))
  rw [← rlo_eq, hmid] at hlo
  rw [← rhi_eq, hmid] at hhi
  have hl := rlo_le m c x
  have hh := rhi_le m c x
  rw [StableHlo.Predicate.toInt_eq_toNat_of_lt (by omega)] at hlo hhi
  constructor <;> omega

/-- The same at a position `e` and a block `i` given as numbers. -/
theorem rlo_rhi_of_row (c : Dev nD) (e : Fin 629760) (i : Fin 123) (hi : e.val / 5120 = i.val)
    (hr : ((V33 m c main_v66 : S629760.Idx → BitVec 32) (Shape.Idx.ofFin e)).toNat < 100000) :
    ((V33 m c main_v86 : S123.Idx → BitVec 32) (Shape.Idx.ofFin i)).toNat
        ≤ ((V33 m c main_v66 : S629760.Idx → BitVec 32) (Shape.Idx.ofFin e)).toNat / 800
      ∧ ((V33 m c main_v66 : S629760.Idx → BitVec 32) (Shape.Idx.ofFin e)).toNat / 800
        ≤ ((V33 m c main_v89 : S123.Idx → BitVec 32) (Shape.Idx.ofFin i)).toNat :=
  rlo_rhi_of_row_idx m c (Shape.Idx.ofFin e) (Shape.Idx.ofFin i) hi hr

end Tables

/-! ## The pipelines' side conditions, the contents a variable -/

/-- Pipeline 1's side condition at any contents of its tables whose words are in [0, 124]: window 1's block, at the
    coordinate clamped between the two words, is one of the 125 blocks of 800 rows. -/
theorem ok1_of (pf : pre1.Contents (Elt F)) (h0 : ∀ x : S123.Idx, ((pf 0 : S123.Idx → BitVec 32) x).toNat ≤ 124)
    (h1 : ∀ x : S123.Idx, ((pf 1 : S123.Idx → BitVec 32) x).toNat ≤ 124) : ok1 (F := F) pf := by
  intro i
  obtain ⟨w, hw, e⟩ : ∃ w : BitVec 32, w.toNat ≤ 124 ∧ cc1_transform_1 k1_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 4's side condition at any contents of its tables whose words are in [0, 124]: window 1's block, at the
    coordinate clamped between the two words, is one of the 125 blocks of 800 rows. -/
theorem ok4_of (pf : pre4.Contents (Elt F)) (h0 : ∀ x : S123.Idx, ((pf 0 : S123.Idx → BitVec 32) x).toNat ≤ 124)
    (h1 : ∀ x : S123.Idx, ((pf 1 : S123.Idx → BitVec 32) x).toNat ≤ 124) : ok4 (F := F) pf := by
  intro i
  obtain ⟨w, hw, e⟩ : ∃ w : BitVec 32, w.toNat ≤ 124 ∧ cc4_transform_1 k4_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 7's side condition at any contents of its tables whose words are in [0, 124]: window 1's block, at the
    coordinate clamped between the two words, is one of the 125 blocks of 800 rows. -/
theorem ok7_of (pf : pre7.Contents (Elt F)) (h0 : ∀ x : S123.Idx, ((pf 0 : S123.Idx → BitVec 32) x).toNat ≤ 124)
    (h1 : ∀ x : S123.Idx, ((pf 1 : S123.Idx → BitVec 32) x).toNat ≤ 124) : ok7 (F := F) pf := by
  intro i
  obtain ⟨w, hw, e⟩ : ∃ w : BitVec 32, w.toNat ≤ 124 ∧ cc7_transform_1 k7_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-- Pipeline 10's side condition at any contents of its tables whose words are in [0, 124]: window 1's block, at the
    coordinate clamped between the two words, is one of the 125 blocks of 800 rows. -/
theorem ok10_of (pf : pre10.Contents (Elt F)) (h0 : ∀ x : S123.Idx, ((pf 0 : S123.Idx → BitVec 32) x).toNat ≤ 124)
    (h1 : ∀ x : S123.Idx, ((pf 1 : S123.Idx → BitVec 32) x).toNat ≤ 124) : ok10 (F := F) pf := by
  intro i
  obtain ⟨w, hw, e⟩ : ∃ w : BitVec 32, w.toNat ≤ 124 ∧ cc10_transform_1 k10_off1_inb numel1_S1 pf i = ![w.toNat, 0] :=
    ⟨_, TG.clamp_le124 (i 1).val (i 1).isLt _ _ (h0 _) (h1 _), rfl⟩
  refine ⟨fun a => ?_, Or.inl rfl⟩
  rw [e]
  fin_cases a <;> simp [S800x128, S100000x128] <;> omega

/-! ## The tables' contents, admissible -/

section Adm

variable (m : (ℓ : Loc nD τ sig) → Buf (Elt F) ℓ)

/-- The tables' contents when gather pipeline 1 is entered: device 0's (there is one device). -/
def tbl1 : pre1.Contents (Elt F) := fun k => V33 m (0 : Dev nD) (pre1.ref k)
/-- On every device the tables hold those contents. -/
theorem V33_pre1 (c : Dev nD) (k : Fin 2) : V33 m c (pre1.ref k) = tbl1 m k := by
  obtain rfl : c = 0 := Subsingleton.elim _ _; rfl
theorem tbl1_0 (x : S123.Idx) : (tbl1 m 0 : S123.Idx → BitVec 32) x = (V33 m (0 : Dev nD) main_v86 : S123.Idx → BitVec 32) x := rfl
theorem tbl1_1 (x : S123.Idx) : (tbl1 m 1 : S123.Idx → BitVec 32) x = (V33 m (0 : Dev nD) main_v89 : S123.Idx → BitVec 32) x := rfl
/-- The side condition holds of them. -/
theorem ok1_tbl : ok1 (tbl1 m) := ok1_of (tbl1 m) (fun x => rlo_le m 0 x) (fun x => rhi_le m 0 x)
/-- The tables' contents as admissible contents of pipeline 1. -/
def adm1 : (pcfgs (F := F) 1).Adm := ⟨tbl1 m, ok1_tbl m⟩
theorem adm1_val : (adm1 m).1 = tbl1 m := rfl

/-- The tables' contents when gather pipeline 4 is entered: device 0's (there is one device). -/
def tbl4 : pre4.Contents (Elt F) := fun k => V33 m (0 : Dev nD) (pre4.ref k)
/-- On every device the tables hold those contents. -/
theorem V33_pre4 (c : Dev nD) (k : Fin 2) : V33 m c (pre4.ref k) = tbl4 m k := by
  obtain rfl : c = 0 := Subsingleton.elim _ _; rfl
theorem tbl4_0 (x : S123.Idx) : (tbl4 m 0 : S123.Idx → BitVec 32) x = (V33 m (0 : Dev nD) main_v86 : S123.Idx → BitVec 32) x := rfl
theorem tbl4_1 (x : S123.Idx) : (tbl4 m 1 : S123.Idx → BitVec 32) x = (V33 m (0 : Dev nD) main_v89 : S123.Idx → BitVec 32) x := rfl
/-- The side condition holds of them. -/
theorem ok4_tbl : ok4 (tbl4 m) := ok4_of (tbl4 m) (fun x => rlo_le m 0 x) (fun x => rhi_le m 0 x)
/-- The tables' contents as admissible contents of pipeline 4. -/
def adm4 : (pcfgs (F := F) 4).Adm := ⟨tbl4 m, ok4_tbl m⟩
theorem adm4_val : (adm4 m).1 = tbl4 m := rfl

/-- The tables' contents when gather pipeline 7 is entered: device 0's (there is one device). -/
def tbl7 : pre7.Contents (Elt F) := fun k => V33 m (0 : Dev nD) (pre7.ref k)
/-- On every device the tables hold those contents. -/
theorem V33_pre7 (c : Dev nD) (k : Fin 2) : V33 m c (pre7.ref k) = tbl7 m k := by
  obtain rfl : c = 0 := Subsingleton.elim _ _; rfl
theorem tbl7_0 (x : S123.Idx) : (tbl7 m 0 : S123.Idx → BitVec 32) x = (V33 m (0 : Dev nD) main_v86 : S123.Idx → BitVec 32) x := rfl
theorem tbl7_1 (x : S123.Idx) : (tbl7 m 1 : S123.Idx → BitVec 32) x = (V33 m (0 : Dev nD) main_v89 : S123.Idx → BitVec 32) x := rfl
/-- The side condition holds of them. -/
theorem ok7_tbl : ok7 (tbl7 m) := ok7_of (tbl7 m) (fun x => rlo_le m 0 x) (fun x => rhi_le m 0 x)
/-- The tables' contents as admissible contents of pipeline 7. -/
def adm7 : (pcfgs (F := F) 7).Adm := ⟨tbl7 m, ok7_tbl m⟩
theorem adm7_val : (adm7 m).1 = tbl7 m := rfl

/-- The tables' contents when gather pipeline 10 is entered: device 0's (there is one device). -/
def tbl10 : pre10.Contents (Elt F) := fun k => V33 m (0 : Dev nD) (pre10.ref k)
/-- On every device the tables hold those contents. -/
theorem V33_pre10 (c : Dev nD) (k : Fin 2) : V33 m c (pre10.ref k) = tbl10 m k := by
  obtain rfl : c = 0 := Subsingleton.elim _ _; rfl
theorem tbl10_0 (x : S123.Idx) : (tbl10 m 0 : S123.Idx → BitVec 32) x = (V33 m (0 : Dev nD) main_v86 : S123.Idx → BitVec 32) x := rfl
theorem tbl10_1 (x : S123.Idx) : (tbl10 m 1 : S123.Idx → BitVec 32) x = (V33 m (0 : Dev nD) main_v89 : S123.Idx → BitVec 32) x := rfl
/-- The side condition holds of them. -/
theorem ok10_tbl : ok10 (tbl10 m) := ok10_of (tbl10 m) (fun x => rlo_le m 0 x) (fun x => rhi_le m 0 x)
/-- The tables' contents as admissible contents of pipeline 10. -/
def adm10 : (pcfgs (F := F) 10).Adm := ⟨tbl10 m, ok10_tbl m⟩
theorem adm10_val : (adm10 m).1 = tbl10 m := rfl

end Adm

end Cert.KernelIdeal.Hand

end
-- ==== Proof.KI.Dense0.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 0, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.KernelIdeal.Launch
import proofs.«415143_j42460046688958_3_alg».proof.Proof.Gen.KernelIdeal.Skeleton
import proofs.«415143_j42460046688958_3_alg».proof.Proof.Gen.KernelIdeal.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the prefetched tables of the program's other pipelines: region 0 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point: it is fetched at every point. Stated for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight is in its staging buffer at every point although it is fetched at the first only: its block index never
    moves, and the body leaves the buffer as it finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output block -/

/-- The output block after the body, from the two input blocks: its one store, of the product payload, over the
    whole block. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the block. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The body on whole staging memrefs, the inputs' at read contents x0, x1 and the output's at anything, runs to the
    continuation holding the inputs' as they were and the output's at out0_2 x0 x1. The load of the output buffer
    before the store reads contents nothing depends on. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core c, over the printed configuration: the arrays as the region finds them; after the body at
    point t each input's buffer at its block and the output's at out0_2 of the two blocks; the invariant the scoped rest
    and the generator register, untouched; nothing owed; full shares. -/
def dat0c (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The same as proof data of pipeline 0 of the program's family, pinned at any contents a of the tables: pipeline 0
    prefetches nothing, and pinned it is the printed configuration again. -/
abbrev dat0 (c : Dev nD) : Dat τ (Elt F) Unit ℕ (UR sig nD τ) ℕ (Pipeline.pin (pcfgs (F := F)) a 0) c := dat0c V c

theorem A_eq0 (c : Dev nD) (w : Fin cfg0.W) : (dat0c V c).A w = V c (Pipeline.arrRef spec0 w) := by
  dsimp only [dat0c]

theorem after0_0 (c : Dev nD) (t : Fin cfg0.N) : (dat0c V c).after 0 t = iblk0 V c 0 t := by dsimp only [dat0c]
theorem after0_1 (c : Dev nD) (t : Fin cfg0.N) : (dat0c V c).after 1 t = iblk0 V c 1 t := by dsimp only [dat0c]
theorem after0_2 (c : Dev nD) (t : Fin cfg0.N) : (dat0c V c).after 2 t = out0_2 (iblk0 V c 0 t) (iblk0 V c 1 t) := by dsimp only [dat0c]

theorem before0_0 (c : Dev nD) (t : Fin cfg0.N) (d) : (dat0c V c).before 0 t d = iblk0 V c 0 t :=
  before0_0_of V (dat0c V c) (A_eq0 V c 0) (after0_0 V c) t d
theorem before0_1 (c : Dev nD) (t : Fin cfg0.N) (d) : (dat0c V c).before 1 t d = iblk0 V c 1 t :=
  before0_1_of V (dat0c V c) (A_eq0 V c 1) (after0_1 V c) t d

/-! ## The body obligation, at a generic point -/

/-- What the body is called with at point t, the windows one by one, -/
def bodyPre0 (c : Dev nD) (t : Fin cfg0.N) : sProp 𝕄 :=
  iprop((dat0c V c).Φ t.castSucc ∗ (dat0c V c).owesAt () t.castSucc
    ∗ (∃ d, owns (c : Thread nD τ) (st0_0 t) fullShare ((dat0c V c).before 0 t d))
    ∗ (∃ d, owns (c : Thread nD τ) (st0_1 t) fullShare ((dat0c V c).before 1 t d))
    ∗ (∃ d, owns (c : Thread nD τ) (st0_2 t) fullShare ((dat0c V c).before 2 t d)))

/-- and what it returns. -/
def bodyPost0 (c : Dev nD) (t : Fin cfg0.N) : sProp 𝕄 :=
  iprop((dat0c V c).Φ t.succ ∗ (dat0c V c).owesAt () t.succ
    ∗ owns (c : Thread nD τ) (st0_0 t) fullShare ((dat0c V c).after 0 t)
    ∗ owns (c : Thread nD τ) (st0_1 t) fullShare ((dat0c V c).after 1 t)
    ∗ owns (c : Thread nD τ) (st0_2 t) fullShare ((dat0c V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0c V c).Φ t.succ = (dat0c V c).Φ t.castSucc from rfl,
    show (dat0c V c).owesAt () t.succ = (dat0c V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation0c (c : Dev nD) : BodyObligation (dat0c (F := F) V c) (defs₀ (F := F)) Variants.none () Set.univ := fun t => by
  rw [bigSep_W0, bigSep_W0]
  exact sound_body0 V c t

/-- The same of the pinned pipeline's proof data. -/
theorem body_obligation0 (c : Dev nD) : BodyObligation (dat0 (F := F) a V c) (defs₀ (F := F)) Variants.none () Set.univ :=
  body_obligation0c V c

end Region0

/-! ## The exit valuation: the entry valuation with the result array replaced -/

section Exit0

variable (W : Valuation τ sig (Elt F)) (c : Dev nD) (x : Buf (Elt F) ((c : Thread nD τ).loc main_v118))

/-- The array of x is not the result array: the replacement leaves it. -/
theorem upd0_in0 : Function.update W main_v118 x (Pipeline.arrRef spec0 0 : Ref sig .tc) = W (Pipeline.arrRef spec0 0 : Ref sig .tc) :=
  Function.update_of_ne (StableHlo.devRef_ne_of_ne (show Pipeline.arrRef spec0 0 ≠ main_v118 by decide)) _ _
/-- Nor is the weight's. -/
theorem upd0_in1 : Function.update W main_v118 x (Pipeline.arrRef spec0 1 : Ref sig .tc) = W (Pipeline.arrRef spec0 1 : Ref sig .tc) :=
  Function.update_of_ne (StableHlo.devRef_ne_of_ne (show Pipeline.arrRef spec0 1 ≠ main_v118 by decide)) _ _
/-- Window 2's array is the result array. -/
theorem upd0_out : Function.update W main_v118 x (Pipeline.arrRef spec0 2 : Ref sig .tc) = x :=
  Function.update_self _ _ _
/-- A buffer that is no window's array is not the result array. -/
theorem upd0_rest (b : Ref sig .tc) (hb : b ∉ Finset.univ.image (Pipeline.arrRef spec0)) : Function.update W main_v118 x b = W b :=
  Function.update_of_ne (StableHlo.devRef_ne_of_ne fun e => hb (Finset.mem_image.mpr ⟨2, Finset.mem_univ _, e.symm⟩)) _ _

end Exit0

/-! ## The region as a segment of @main -/

-- a library lemma stated over the pinned pipeline unifies with the printed configuration only when unification may
-- unfold plain definitions in a metavariable's type
set_option backward.isDefEq.respectTransparency.types false in
set_option maxHeartbeats 2000000 in
/-- REGION 0 over the thread state, for any family of proof data whose pipeline 0 is dat0 at the entry valuation Vin:
    entered from every unscoped buffer at Vin, left at Vin with the result array main_v118 replaced by what the
    write-backs of the 50 points leave. Its arrays split out of the unscoped buffers and put back at the exit contents;
    the generator register into the invariant and out; nothing owed; no semaphore of the kernel's own. -/
def reg0 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 0 c = dat0 a (fun c b => Vin c b) c) :
    Pipeline.RegionSeg (pcfgs (F := F)) a pdats () defs₀ Variants.none (fun _ : GSem nD τ sig => (∅ : Finset Unit)) (fun (_ : GSem nD τ sig) (_ : Unit) => (0 : ℕ)) 0 where
  win := (launch0 (F := F)).win.to₀
  block_pos := (launch0 (F := F)).block_pos
  stage_whole := (launch0 (F := F)).stage_whole
  K := PEmpty
  osem k := k.elim
  ho := Pipeline.OwnSemFacts.none _
  hbody c := by rw [h c]; exact (body_obligation0 a (fun c b => Vin c b) c).loose
  hwaits := Pipeline.hwaits_of_owed_zero _ _ _ _ _ _ 0 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v118 ((dat0 a (fun c b => Vin c b) c).arrAt (2 : Fin 3) cfg0.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    have hd := h c
    rw [Pipeline.ownSems0_none]
    have hsplit := Pipeline.arrays_of_unscopedBufs (p := 0) (pcfgs (F := F)) a pdats (launch0 (F := F)).win (launch0 (F := F)).arr_whole c
      (by rw [hd]; exact (dat0 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat0 a (fun c b => Vin c b) c).Φ 0 = Pipeline.ΦA spec0 c from rfl]; unfold Pipeline.ΦA
    iintro ⟨Hp, -, Hr⟩
    isplitl [Hr]; · iexact Hr
    iexact Hp
  hout c := by
    rw [Pipeline.ownSems0_none, h c, show (dat0 a (fun c b => Vin c b) c).Φ (Fin.last _) = Pipeline.ΦA spec0 c from rfl]; unfold Pipeline.ΦA
    iintro ⟨Hr, Hp⟩
    isplitl [Hp]; · iexact Hp
    isplitr; · iempintro
    iexact Hr
  hexit c := by
    have hd := h c
    have hF : ∀ w : Fin 3, (dat0c (fun c b => Vin c b) c).arrAt w cfg0.N
        = Function.update (Vin c) main_v118 ((dat0 a (fun c b => Vin c b) c).arrAt (2 : Fin 3) cfg0.N) (Pipeline.arrRef spec0 w) := fun
      | ⟨0, _⟩ => (((dat0c (fun c b => Vin c b) c).arrAt_in 0 rfl _).trans (A_eq0 (fun c b => Vin c b) c 0)).trans (upd0_in0 (Vin c) c _).symm
      | ⟨1, _⟩ => (((dat0c (fun c b => Vin c b) c).arrAt_in 1 rfl _).trans (A_eq0 (fun c b => Vin c b) c 1)).trans (upd0_in1 (Vin c) c _).symm
      | ⟨2, _⟩ => (upd0_out (Vin c) c _).symm
    have hrest : ∀ b : Ref sig .tc, b ∉ Finset.univ.image (Pipeline.arrRef spec0)
        → Function.update (Vin c) main_v118 ((dat0 a (fun c b => Vin c b) c).arrAt (2 : Fin 3) cfg0.N) b = Vin c b :=
      fun b hb => upd0_rest (Vin c) c _ b hb
    have hjoin := Pipeline.unscopedBufs_of_arrays (p := 0) (pcfgs (F := F)) a (Ix := Unit) (Name := ℕ) (U := UR sig nD τ) (Lvl := ℕ)
      (launch0 (F := F)).win (launch0 (F := F)).arr_whole c pdats (by rw [hd]; exact (dat0 a (fun c b => Vin c b) c).share_full fun _ => rfl)
      (fun b => Vin c b) (fun b => Function.update (Vin c) main_v118 ((dat0 a (fun c b => Vin c b) c).arrAt (2 : Fin 3) cfg0.N) b)
      ((pdats 0 c).arrAt · cfg0.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.KernelIdeal.Hand

end
-- ==== Proof.KI.Gather1Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 1): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 1).1`, which are never evaluated. -/

/-! ## The pipeline at the admitted tables -/

/-- Pipeline 1 at the admitted contents of its two prefetched tables. -/
abbrev cfgG1 : Pipeline.Cfg sig Λ₀ := Pipeline.pin (pcfgs (F := F)) a 1

/-- Window `w`'s block at point `t`, read off its array as the region finds it (`V`); for the window whose index map
    reads the tables, a function of the tables' words. -/
def iblk1 (c : Dev nD) (w : Fin (cfgG1 a).W) (t : Fin (cfgG1 a).N) : (((cfgG1 a).win w).xblock ((cfgG1 a).grid.coords t)).Idx → Elt F ((cfgG1 a).win w).elt :=
  (((cfgG1 a).win w).blk t).view.read (Elt F) (V c (Pipeline.arrRef spec1 w))

/-! ## The tables as the body is handed them -/

abbrev tbM1_0 : Memref sig .tc .smem S123 .i32 := Memref.whole main_v86
abbrev htbM1_0 : tbM1_0.IsWhole := Memref.isWhole_whole _
abbrev tbM1_1 : Memref sig .tc .smem S123 .i32 := Memref.whole main_v89
abbrev htbM1_1 : tbM1_1.IsWhole := Memref.isWhole_whole _

/-- A table memref's buffer on core `c`: its contents type, and it held whole at `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word of a table the body loads at row `i 0`. -/
abbrev tword1 (c : Dev nD) (M : Memref sig .tc .smem S123 .i32) (i : grid1.Coords) (xt : TbBuf1 (F := F) c M) : Elt F .i32 :=
  M.view.readAt (Elt F) (Rect.unit (s := S123) (k1_off1 i) S1.size (k1_off1_inb i)).toLoadRect xt (Shape.Idx.first (numel1_S1.symm ▸ Nat.one_pos))

/-! ## The body's branch conditions -/

/-- `j = 0`: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin grid1.N, cond1_0 (grid1.coords t) ↔ t.val % 125 = 0 := by decide +kernel
/-- `rlo[i] ≤ j ≤ rhi[i]` (signed), over the two table words: the block contributes. -/
abbrev cond1_1 (i : grid1.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond1_2 (i : grid1.Coords) : Prop := k1_cond3 i = 1#1
theorem hcond1_2 : ∀ t : Fin grid1.N, cond1_2 (grid1.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep1 (i : grid1.Coords) (x0 : Vec F S1x5120 .i32) (x1 : Vec F S800x128 .f32) (lo hi : BitVec 32) (xs : Vec F S5120x128 .f32) : Vec F S5120x128 .f32 :=
  if cond1_1 i lo hi then k1_pay2 i x0 x1 (if cond1_0 i then k1_pay1 (F := F) else xs) else (if cond1_0 i then k1_pay1 (F := F) else xs)

/-- The output window's buffer after the body: the scaled accumulator when `j = 124`, else what it held. -/
def outStep1 (i : grid1.Coords) (acc : Vec F S5120x128 .f32) (x2 : Vec F S5120x1 .f32) (xi3 : Vec F S5120x128 .f32) : Vec F S5120x128 .f32 :=
  if cond1_2 i then k1_pay3 acc x2 else xi3

/-- At a point that resets, what the scratch held before does not matter. -/
theorem accStep1_reset (i : grid1.Coords) (h : cond1_0 i) (x0 : Vec F S1x5120 .i32) (x1 : Vec F S800x128 .f32) (lo hi : BitVec 32) (xs xs' : Vec F S5120x128 .f32) :
    accStep1 i x0 x1 lo hi xs = accStep1 i x0 x1 lo hi xs' := by
  unfold accStep1; rw [if_pos h, if_pos h]

theorem outStep1_pos (i : grid1.Coords) (h : cond1_2 i) (acc : Vec F S5120x128 .f32) (x2 : Vec F S5120x1 .f32) (xi3 : Vec F S5120x128 .f32) :
    outStep1 i acc x2 xi3 = k1_pay3 acc x2 := by unfold outStep1; exact if_pos h
theorem outStep1_neg (i : grid1.Coords) (h : ¬cond1_2 i) (acc : Vec F S5120x128 .f32) (x2 : Vec F S5120x1 .f32) (xi3 : Vec F S5120x128 .f32) :
    outStep1 i acc x2 xi3 = xi3 := by unfold outStep1; exact if_neg h

/-! ## The schedule of the output window, whose index map reads no table -/

/-- The output block is written back at the last `j` of each `i`. -/
theorem flush1_3 : ∀ t : Fin (cfgG1 a).N, ((cfgG1 a).win 3).flush t = true ↔ t.val % 125 = 124 :=
  (by decide +kernel : ∀ t : Fin grid1.N, Pipeline.Window.flushOf grid1 true cc1_transform_3 t = true ↔ t.val % 125 = 124)

/-- The inputs are never idle. -/
theorem liveAt1_0 (t : Fin (cfgG1 a).N) : (cfgG1 a).idle 0 ((cfgG1 a).grid.coords t) = false := rfl
theorem liveAt1_1 (t : Fin (cfgG1 a).N) : (cfgG1 a).idle 1 ((cfgG1 a).grid.coords t) = false := rfl
theorem liveAt1_2 (t : Fin (cfgG1 a).N) : (cfgG1 a).idle 2 ((cfgG1 a).grid.coords t) = false := rfl
/-- The output is idle exactly where the body does not store it. -/
theorem idle1_3_eq (i : grid1.Coords) : (cfgG1 a).idle 3 i = !(k1_cond3 i == 1#1) := rfl
theorem idleAt1_3 (t : Fin (cfgG1 a).N) (h : ¬cond1_2 (grid1.coords t)) : (cfgG1 a).idle 3 ((cfgG1 a).grid.coords t) = true := by
  show (!(k1_cond3 (grid1.coords t) == 1#1)) = true
  rw [beq_eq_false_iff_ne.mpr h]; rfl
theorem liveAt1_3 (t : Fin (cfgG1 a).N) (h : cond1_2 (grid1.coords t)) : (cfgG1 a).idle 3 ((cfgG1 a).grid.coords t) = false := by
  show (!(k1_cond3 (grid1.coords t) == 1#1)) = false
  rw [show k1_cond3 (grid1.coords t) = 1#1 from h]; rfl
theorem noFlush1_3 (t : Fin (cfgG1 a).N) (h : ¬cond1_2 (grid1.coords t)) : ((cfgG1 a).win 3).flush t = false := by
  rw [Bool.eq_false_iff]; intro hf; exact h ((hcond1_2 t).mpr ((flush1_3 a t).mp hf))

/-! ## The memrefs the body is called with at a point -/

abbrev ms1_0 (t : Fin (cfgG1 a).N) : Memref sig .tc .vmem S1x5120 .i32 := spec1_0.stage ((cfgG1 a).slots t 0)
abbrev hs1_0 (t : Fin (cfgG1 a).N) : (ms1_0 a t).IsWhole := hstage1_0 (((cfgG1 a).slots t 0).cast nbuf1_0)
abbrev ms1_1 (t : Fin (cfgG1 a).N) : Memref sig .tc .vmem S800x128 .f32 := spec1_1.stage ((cfgG1 a).slots t 1)
abbrev hs1_1 (t : Fin (cfgG1 a).N) : (ms1_1 a t).IsWhole := hstage1_1 (((cfgG1 a).slots t 1).cast nbuf1_1)
abbrev ms1_2 (t : Fin (cfgG1 a).N) : Memref sig .tc .vmem S5120x1 .f32 := spec1_2.stage ((cfgG1 a).slots t 2)
abbrev hs1_2 (t : Fin (cfgG1 a).N) : (ms1_2 a t).IsWhole := hstage1_2 (((cfgG1 a).slots t 2).cast nbuf1_2)
abbrev ms1_3 (t : Fin (cfgG1 a).N) : Memref sig .tc .vmem S5120x128 .f32 := spec1_3.stage ((cfgG1 a).slots t 3)
abbrev hs1_3 (t : Fin (cfgG1 a).N) : (ms1_3 a t).IsWhole := hstage1_3 (((cfgG1 a).slots t 3).cast nbuf1_3)
/-- The scratch accumulator: a whole scoped buffer of the kernel's own. -/
abbrev scM1 : Memref sig .tc .vmem S5120x128 .f32 := Memref.whole cc1_scratch0

/-- The kernel body at point `t`, on what the pipeline calls it with. -/
abbrev bodyAt1 (t : Fin (cfgG1 a).N) : Prog (TpuEff nD τ sig (Elt F) Λ₀ .tc) PUnit :=
  cc1__gather_kernel (grid1.coords t) tbM1_0 htbM1_0 tbM1_1 htbM1_1 (ms1_0 a t) (hs1_0 a t) (ms1_1 a t) (hs1_1 a t) (ms1_2 a t) (hs1_2 a t) (ms1_3 a t) (hs1_3 a t) scM1 (Memref.isWhole_whole _)

/-! ## The tables' words at a point, and the accumulator point by point -/

/-- The words of the two tables at the row of point `t` (`rlo[i]`, `rhi[i]`), as the body loads them. -/
abbrev lo1 (c : Dev nD) (t : Fin (cfgG1 a).N) : BitVec 32 := tword1 c tbM1_0 (grid1.coords t) ((a 1).1 0)
abbrev hi1 (c : Dev nD) (t : Fin (cfgG1 a).N) : BitVec 32 := tword1 c tbM1_1 (grid1.coords t) ((a 1).1 1)

/-- THE ACCUMULATION. What the scratch holds after the body at position `n`, by recursion on the position: one step
    (`accStep1`: reset at `j = 0`, the gated one-hot product added) over what it held after the position before. -/
def accAt1 (c : Dev nD) : (n : ℕ) → n < (cfgG1 a).N → Vec F S5120x128 .f32
  | 0, hn => accStep1 (grid1.coords ⟨0, hn⟩) (iblk1 a V c 0 ⟨0, hn⟩) (iblk1 a V c 1 ⟨0, hn⟩) (lo1 a c ⟨0, hn⟩) (hi1 a c ⟨0, hn⟩) (k1_pay1 (F := F))
  | n + 1, hn => accStep1 (grid1.coords ⟨n + 1, hn⟩) (iblk1 a V c 0 ⟨n + 1, hn⟩) (iblk1 a V c 1 ⟨n + 1, hn⟩) (lo1 a c ⟨n + 1, hn⟩) (hi1 a c ⟨n + 1, hn⟩) (accAt1 c n (Nat.lt_of_succ_lt hn))

/-- One step at any point, over any `xs` that is what the point before left when there is one. -/
theorem accAt1_step (c : Dev nD) (t : Fin (cfgG1 a).N) (xs : Vec F S5120x128 .f32)
    (hxs : ∀ hz : t.val ≠ 0, xs = accAt1 a V c (t.val - 1) (Nat.lt_of_le_of_lt (Nat.sub_le _ _) t.isLt)) :
    accAt1 a V c t.val t.isLt = accStep1 (grid1.coords t) (iblk1 a V c 0 t) (iblk1 a V c 1 t) (lo1 a c t) (hi1 a c t) xs := by
  obtain ⟨n, hn⟩ := t
  cases n with
  | zero => exact accStep1_reset _ ((hcond1_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB1 (c : Dev nD) : sProp 𝕄 :=
  Pipeline.scopedRestBut (Ix := Unit) (Name := ℕ) (U := UR sig nD τ) (Lvl := ℕ) (Val := Elt F) spec1 c [cc1_scratch0]
/-- The two tables, whole, at the admitted contents. -/
abbrev tabs1 (c : Dev nD) : sProp 𝕄 :=
  Pipeline.prefHeld (Ix := Unit) (Name := ℕ) (U := UR sig nD τ) (Lvl := ℕ) pre1 c (fun _ => fullShare) (a 1).1

/-- The region invariant before position `n`: before the first point the scoped rest and the generator register as the
    region finds them; afterwards the scratch at what the point before left; at every point the tables whole. -/
def PhiS1 (c : Dev nD) : (n : ℕ) → n ≤ (cfgG1 a).N → sProp 𝕄
  | 0, _ => iprop(Pipeline.ΦA spec1 c ∗ tabs1 a c)
  | n + 1, hn => iprop(iprop(iprop(owns (c : Thread nD τ) scM1 fullShare (accAt1 a V c n hn) ∗ restB1 c) ∗ (∃ r, prngReg c r)) ∗ tabs1 a c)

theorem PhiS1_succ (c : Dev nD) (n : ℕ) (hn : n < (cfgG1 a).N) :
    PhiS1 a V c (n + 1) hn = iprop(iprop(iprop(owns (c : Thread nD τ) scM1 fullShare (accAt1 a V c n hn) ∗ restB1 c) ∗ (∃ r, prngReg c r)) ∗ tabs1 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS1`;
    nothing owed; full shares. -/
def dat1 (c : Dev nD) : Dat τ (Elt F) Unit ℕ (UR sig nD τ) ℕ (Pipeline.pin (pcfgs (F := F)) a 1) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => k1_pay3 (accAt1 a V c t.val t.isLt) (iblk1 a V c 2 t)
  Φ t := PhiS1 a V c t.val (Nat.le_of_lt_succ t.isLt)
  q _ := fullShare
  owed _ := 0

theorem A_eq1 (c : Dev nD) (w : Fin (cfgG1 a).W) : (dat1 a V c).A w = V c (Pipeline.arrRef spec1 w) := by
  dsimp only [dat1]

theorem after1_0 (c : Dev nD) (t : Fin (cfgG1 a).N) : (dat1 a V c).after 0 t = iblk1 a V c 0 t := by dsimp only [dat1]; try rfl
theorem after1_1 (c : Dev nD) (t : Fin (cfgG1 a).N) : (dat1 a V c).after 1 t = iblk1 a V c 1 t := by dsimp only [dat1]; try rfl
theorem after1_2 (c : Dev nD) (t : Fin (cfgG1 a).N) : (dat1 a V c).after 2 t = iblk1 a V c 2 t := by dsimp only [dat1]; try rfl
theorem after1_3 (c : Dev nD) (t : Fin (cfgG1 a).N) :
    (dat1 a V c).after 3 t = k1_pay3 (accAt1 a V c t.val t.isLt) (iblk1 a V c 2 t) := by dsimp only [dat1]; try rfl

theorem PhiS1_castSucc (c : Dev nD) (t : Fin (cfgG1 a).N) :
    (dat1 a V c).Φ t.castSucc = PhiS1 a V c t.val (Nat.le_of_lt t.isLt) := by
  dsimp only [dat1]; simp only [Fin.coe_castSucc]

end Cert.KernelIdeal.Hand

end
-- ==== Proof.KI.Gather1Runs.lean ====
import proofs.«415143_j42460046688958_3_alg».proof.Proof.KI.Gather1Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 1): its triple, control case by control case -/

/-! ## Loads and stores through the whole-buffer rectangle at zero offsets -/

theorem vec2_zero_g1 : (![0, 0] : Fin 2 → ℕ) = fun _ => 0 := by funext b; fin_cases b <;> rfl

/-- A load of a whole memref held at contents that read `X` reads `X`. -/
theorem readAt_whole_unread_g1 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g1 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g1 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g1 (i : grid1.Coords) {u u' : Vec F S1x5120 .i32} {v v' : Vec F S800x128 .f32} {s s' : Vec F S5120x128 .f32}
    (hu : u = u') (hv : v = v') (hs : s = s') : k1_pay2 i u v s = k1_pay2 i u' v' s' := by rw [hu, hv, hs]
theorem pay3_congr_g1 {s s' : Vec F S5120x128 .f32} {n n' : Vec F S5120x1 .f32}
    (hs : s = s') (hn : n = n') : k1_pay3 s n = k1_pay3 s' n' := by rw [hs, hn]

theorem accStep1_TT_g1 (i : grid1.Coords) (x0 : Vec F S1x5120 .i32) (x1 : Vec F S800x128 .f32) (lo hi : BitVec 32) (xs : Vec F S5120x128 .f32)
    (h0 : cond1_0 i) (h1 : cond1_1 i lo hi) : accStep1 i x0 x1 lo hi xs = k1_pay2 i x0 x1 (k1_pay1 (F := F)) := by
  unfold accStep1; rw [if_pos h1, if_pos h0]
theorem accStep1_TF_g1 (i : grid1.Coords) (x0 : Vec F S1x5120 .i32) (x1 : Vec F S800x128 .f32) (lo hi : BitVec 32) (xs : Vec F S5120x128 .f32)
    (h0 : cond1_0 i) (h1 : ¬cond1_1 i lo hi) : accStep1 i x0 x1 lo hi xs = (k1_pay1 (F := F) : Vec F S5120x128 .f32) := by
  unfold accStep1; rw [if_neg h1, if_pos h0]
theorem accStep1_FT_g1 (i : grid1.Coords) (x0 : Vec F S1x5120 .i32) (x1 : Vec F S800x128 .f32) (lo hi : BitVec 32) (xs : Vec F S5120x128 .f32)
    (h0 : ¬cond1_0 i) (h1 : cond1_1 i lo hi) : accStep1 i x0 x1 lo hi xs = k1_pay2 i x0 x1 xs := by
  unfold accStep1; rw [if_pos h1, if_neg h0]
theorem accStep1_FF_g1 (i : grid1.Coords) (x0 : Vec F S1x5120 .i32) (x1 : Vec F S800x128 .f32) (lo hi : BitVec 32) (xs : Vec F S5120x128 .f32)
    (h0 : ¬cond1_0 i) (h1 : ¬cond1_1 i lo hi) : accStep1 i x0 x1 lo hi xs = xs := by
  unfold accStep1; rw [if_neg h1, if_neg h0]
theorem outStep1_T_g1 (i : grid1.Coords) (acc : Vec F S5120x128 .f32) (x2 : Vec F S5120x1 .f32) (xi3 : Vec F S5120x128 .f32)
    (h2 : cond1_2 i) : outStep1 i acc x2 xi3 = k1_pay3 acc x2 := by unfold outStep1; rw [if_pos h2]
theorem outStep1_F_g1 (i : grid1.Coords) (acc : Vec F S5120x128 .f32) (x2 : Vec F S5120x1 .f32) (xi3 : Vec F S5120x128 .f32)
    (h2 : ¬cond1_2 i) : outStep1 i acc x2 xi3 = xi3 := by unfold outStep1; rw [if_neg h2]

set_option maxHeartbeats 4000000 in
/-- The body in the control case A: the accumulator reset, the table words admitting the column block, the output not stored. -/
theorem kernel1_A (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : cond1_0 i) (hc1 : cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay2 i x0 x1 (k1_pay1 (F := F))) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readCov_whole_g1 arg8 vec2_zero_g1 _ _ _))
  isplitl [HT0]; · iexact HT0
  iexact HT1

set_option maxHeartbeats 4000000 in
/-- The body in the control case B: the accumulator reset, the table words not admitting the column block, the output not stored. -/
theorem kernel1_B (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : cond1_0 i) (hc1 : ¬cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay1 (F := F) : Vec F S5120x128 .f32) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _)
  isplitl [HT0]; · iexact HT0
  iexact HT1

set_option maxHeartbeats 4000000 in
/-- The body in the control case C: the accumulator not reset, the table words admitting the column block, the output not stored. -/
theorem kernel1_C (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k1_pay2 i x0 x1 xs) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))
  isplitl [HT0]; · iexact HT0
  iexact HT1

set_option maxHeartbeats 4000000 in
/-- The body in the control case D: the accumulator not reset, the table words not admitting the column block, the output not stored. -/
theorem kernel1_D (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : ¬cond1_1 i (tword1 c tbM1_0 i xt0) (tword1 c tbM1_1 i xt1)) (hc2 : ¬cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel1_E (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : cond1_1 i (tword1 c tbM1_0 i xt0) (tword1 c tbM1_1 i xt1)) (hc2 : cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare (k1_pay3 (k1_pay2 i x0 x1 xs) x2)
            ∗ owns (c : Thread nD τ) arg8 fullShare (k1_pay2 i x0 x1 xs) ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g1 arg7 _ vec2_zero_g1 _ _ _).trans (pay3_congr_g1 ((readCov_whole_g1 arg8 vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))) (readAt_whole_unread_g1 arg6 harg6 x2 vec2_zero_g1 _))
  isplitl [HS]
  · iexists _; isplitr
    swap; · iexact HS
    ipureintro
    exact (read_writes_whole_g1 arg8 _ vec2_zero_g1 _ _ _).trans (pay2_congr_g1 i (readAt_whole_unread_g1 arg4 harg4 x0 vec2_zero_g1 _) (readAt_whole_unread_g1 arg5 harg5 x1 vec2_zero_g1 _) (readAt_whole_unread_g1 arg8 harg8 xs vec2_zero_g1 _))
  isplitl [HT0]; · iexact HT0
  iexact HT1

set_option maxHeartbeats 4000000 in
/-- The body in the control case G: the accumulator not reset, the table words not admitting the column block, the output stored. -/
theorem kernel1_G (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hc0 : ¬cond1_0 i) (hc1 : ¬cond1_1 i (tword1 c tbM1_0 i xt0) (tword1 c tbM1_1 i xt1)) (hc2 : cond1_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare (k1_pay3 xs x2)
            ∗ owns (c : Thread nD τ) arg8 fullShare xs ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g1 arg7 _ vec2_zero_g1 _ _ _).trans (pay3_congr_g1 (readAt_whole_unread_g1 arg8 harg8 xs vec2_zero_g1 _) (readAt_whole_unread_g1 arg6 harg6 x2 vec2_zero_g1 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel1 (c : Dev nD) (i : grid1.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf1 (F := F) c tbM1_0) (xt1 : TbBuf1 (F := F) c tbM1_1) (xs : Vec F S5120x128 .f32)
    (hx : cond1_0 i → ¬cond1_2 i)
    (acc' : Vec F S5120x128 .f32) (hacc : acc' = accStep1 i x0 x1 (tword1 c tbM1_0 i xt0) (tword1 c tbM1_1 i xt1) xs)
    (out' : Vec F S5120x128 .f32) (hout : out' = outStep1 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt1 c tbM1_0 xt0 ∗ tbPt1 c tbM1_1 xt1) -∗ K ⟨⟩))
      ⊢ wp frame (wpE (defs₀ (F := F)) Variants.none c none) E (cc1__gather_kernel i tbM1_0 htbM1_0 tbM1_1 htbM1_1 arg4 harg4 arg5 harg5 arg6 harg6 arg7 harg7 arg8 harg8) K := by
  subst hout; subst hacc
  by_cases h0 : cond1_0 i <;> by_cases h1 : cond1_1 i (tword1 c tbM1_0 i xt0) (tword1 c tbM1_1 i xt1) <;> by_cases h2 : cond1_2 i
  · exact absurd h2 (hx h0)
  · rw [outStep1_F_g1 _ _ _ _ h2, accStep1_TT_g1 _ _ _ _ _ _ h0 h1]; exact kernel1_A c i arg4 harg4 arg5 harg5 arg6 harg6 arg7 harg7 arg8 harg8 x0 x1 x2 xi3 xt0 xt1 xs h0 h1 h2 E K
  · exact absurd h2 (hx h0)
  · rw [outStep1_F_g1 _ _ _ _ h2, accStep1_TF_g1 _ _ _ _ _ _ h0 h1]; exact kernel1_B c i arg4 harg4 arg5 harg5 arg6 harg6 arg7 harg7 arg8 harg8 x0 x1 x2 xi3 xt0 xt1 xs h0 h1 h2 E K
  · rw [outStep1_T_g1 _ _ _ _ h2, accStep1_FT_g1 _ _ _ _ _ _ h0 h1]; exact kernel1_E c i arg4 harg4 arg5 harg5 arg6 harg6 arg7 harg7 arg8 harg8 x0 x1 x2 xi3 xt0 xt1 xs h0 h1 h2 E K
  · rw [outStep1_F_g1 _ _ _ _ h2, accStep1_FT_g1 _ _ _ _ _ _ h0 h1]; exact kernel1_C c i arg4 harg4 arg5 harg5 arg6 harg6 arg7 harg7 arg8 harg8 x0 x1 x2 xi3 xt0 xt1 xs h0 h1 h2 E K
  · rw [outStep1_T_g1 _ _ _ _ h2, accStep1_FF_g1 _ _ _ _ _ _ h0 h1]; exact kernel1_G c i arg4 harg4 arg5 harg5 arg6 harg6 arg7 harg7 arg8 harg8 x0 x1 x2 xi3 xt0 xt1 xs h0 h1 h2 E K
  · rw [outStep1_F_g1 _ _ _ _ h2, accStep1_FF_g1 _ _ _ _ _ _ h0 h1]; exact kernel1_D c i arg4 harg4 arg5 harg5 arg6 harg6 arg7 harg7 arg8 harg8 x0 x1 x2 xi3 xt0 xt1 xs h0 h1 h2 E K

end Cert.KernelIdeal.Hand

end
-- ==== Proof.KI.RegTables.lean ====
import proofs.«415143_j42460046688958_3_alg».proof.Proof.Gen.KernelIdeal.Launch
import Idealize.ShloMosaic.Lib.Pipeline.Frame
import Idealize.ShloMosaic.Lib.Pipeline.Regions
import Idealize.ShloMosaic.Lib.Pipeline.RegionsLoop

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! # A region whose pipeline prefetches tables, entered from and left at "every unscoped buffer at a valuation"

The thread state between two items of @main holds every unscoped buffer of the core whole at a valuation `V`, beside
the generator register at some state and the core owing nothing. The tables a pipeline prefetches are unscoped buffers
that are no window's array: they sit in the unscoped rest. At the region's ENTRY the unscoped buffers split into the
windows' arrays, the tables (whole, at the admissible contents, when `V` holds those there) and what is neither; at its
EXIT the three go back together at any valuation that has the arrays at their final contents and agrees with `V` off
them. Stated once for any pipeline `p` laid out as the launch needs, and any proof data that reads its entry arrays
off `V`, holds every array whole, and owes nothing at the first and the last point. -/

section

variable (a : (p : Fin 13) → (pcfgs (F := F) p).Adm)
  (pdats : (p : Fin 13) → (c : Dev nD) → Dat τ (Elt F) Unit ℕ (UR sig nD τ) ℕ (Pipeline.pin (pcfgs (F := F)) a p) c)

/-- What rides beside the buffers between two items on core `c`: the generator register at some state and the core
    owing nothing. -/
local notation "Rest" c:max => iprop((∃ r, prngReg c r) ∗ ∃ W, owes (c : Thread nD τ) (0 : CellTallies nD τ sig Unit) W)

/-- What enters the invariant beside the tables and the scoped rest: the generator register at some state. -/
abbrev tblX (c : Dev nD) : sProp 𝕄 := iprop(∃ r, prngReg c r)

/-- What the invariant gives back at the last point: the tables whole at the admissible contents, and the generator
    register at some state. -/
abbrev tblY (p : Fin 13) (c : Dev nD) : sProp 𝕄 :=
  iprop(Pipeline.prefHeld (pcfgs (F := F) p).pre c (fun _ => fullShare) (a p).1 ∗ ∃ r, prngReg c r)

/-- What bypasses the region: the unscoped buffers that are neither a window's array nor a table, whole at `V`. -/
abbrev tblZ (a : (p : Fin 13) → (pcfgs (F := F) p).Adm) (p : Fin 13) (c : Dev nD) (V : Valuation τ sig (Elt F)) : sProp 𝕄 :=
  Pipeline.unscopedRestP (pcfgs (F := F) p).pre (pcfgs (F := F) p).spec c (fun b => V b)

/-- A valuation updated at one window's array agrees with the old one off the windows' arrays. -/
theorem upd_rest {p : Fin 13} (V : Valuation τ sig (Elt F)) (wout : Fin (Pipeline.pin (pcfgs (F := F)) a p).W)
    (x : (Proc.devRef .tc (Pipeline.arrRef (Pipeline.pin (pcfgs (F := F)) a p).spec wout) : DevRef τ sig).ty.Contents (Elt F)) :
    ∀ b : Ref sig .tc, b ∉ Finset.univ.image (Pipeline.arrRef (Pipeline.pin (pcfgs (F := F)) a p).spec)
      → Function.update V (Proc.devRef .tc (Pipeline.arrRef (Pipeline.pin (pcfgs (F := F)) a p).spec wout)) x b = V b :=
  fun b hb => Function.update_of_ne
    (StableHlo.devRef_ne_of_ne fun h : b = Pipeline.arrRef (Pipeline.pin (pcfgs (F := F)) a p).spec wout =>
      hb (by rw [h]; exact Finset.mem_image_of_mem _ (Finset.mem_univ wout))) _ _

-- a library lemma stated over `pin pcs a p` unifies with the pinned configuration only when unification may unfold
-- plain definitions in a metavariable's type
set_option backward.isDefEq.respectTransparency.types false in
/-- ENTRY. From every unscoped buffer at `V` beside the rest state (and no semaphore of the kernel's own): the windows'
    arrays at the proof data's entry contents, the tables whole at the admissible contents, the core's dues at the first
    point, the generator register, and the unscoped buffers that are neither. -/
theorem tbl_hentry {L : GSem nD τ sig → Finset Unit} {lv : GSem nD τ sig → Unit → ℕ} {p : Fin 13}
    (kit : Pipeline.PLaunchFacts (nD := nD) (τ := τ) (pcfgs (F := F)) p) (c : Dev nD) (V : Valuation τ sig (Elt F))
    (hA : ∀ w, (pdats p c).A w = V (Pipeline.arrRef (Pipeline.pin (pcfgs (F := F)) a p).spec w))
    (hshare : ∀ w, (pdats p c).share w = fullShare)
    (howed : (pdats p c).owed 0 = 0) (hrec : (pdats p c).recorded 0 = Set.univ)
    (hpf : ∀ k, V ((pcfgs (F := F) p).pre.ref k) = (a p).1 k) :
    iprop(iprop(StableHlo.held (c : Thread nD τ) (Pipeline.ucRefs τ sig) V ∗ Rest c)
        ∗ Pipeline.ownSems0 (fun k : PEmpty => k.elim) c ∗ levAts L lv)
      ⊢ (|={Set.univ}=> iprop((pdats p c).arrays ((pdats p c).arrAt · 0)
          ∗ Pipeline.prefHeld (pcfgs (F := F) p).pre c (fun _ => fullShare) (a p).1
          ∗ (pdats p c).owesAt () 0 ∗ tblX c ∗ tblZ a p c V) : sProp 𝕄) := by
  have hsplit : (unscopedBufs c (fun b => V b) : sProp 𝕄)
      ⊢ iprop((pdats p c).arrays ((pdats p c).arrAt · 0) ∗ Pipeline.unscopedRest (pcfgs (F := F) p).spec c (fun b => V b)) :=
    Pipeline.arrays_of_unscopedBufs (p := p) (pcfgs (F := F)) a pdats kit.win kit.arr_whole c hshare (fun b => V b) hA
  rw [Pipeline.unscopedBufs_held, Pipeline.unscopedRest_split kit.pre c (fun b => V b),
    show (fun k => V ((pcfgs (F := F) p).pre.ref k)) = (a p).1 from funext hpf] at hsplit
  iintro ⟨⟨Hub, Hp, HO⟩, -, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    rw [howed]
    icases HO with ⟨%W, HO⟩; iexists W; isplitr; · ipureintro; exact fun _ _ => Or.inl (hrec ▸ trivial)
    iexact HO
  isplitl [Hp]; · iexact Hp
  iexact Hrest

set_option backward.isDefEq.respectTransparency.types false in
/-- EXIT. The windows' arrays at their final contents, the core's dues at the last point, what the invariant gives back
    (the tables and the generator register) and what bypassed the region make every unscoped buffer at `V'` beside the
    rest state, for any `V'` that has the arrays at their final contents and agrees with `V` off them. -/
theorem tbl_hexit {p : Fin 13}
    (kit : Pipeline.PLaunchFacts (nD := nD) (τ := τ) (pcfgs (F := F)) p) (c : Dev nD) (V V' : Valuation τ sig (Elt F))
    (hshare : ∀ w, (pdats p c).share w = fullShare)
    (hF : ∀ w, (pdats p c).arrAt w (Pipeline.pin (pcfgs (F := F)) a p).N = V' (Pipeline.arrRef (Pipeline.pin (pcfgs (F := F)) a p).spec w))
    (hrest : ∀ b : Ref sig .tc, b ∉ Finset.univ.image (Pipeline.arrRef (Pipeline.pin (pcfgs (F := F)) a p).spec) → V' b = V b)
    (howed : (pdats p c).owed (Fin.last (Pipeline.pin (pcfgs (F := F)) a p).N) = 0)
    (hpf : ∀ k, V ((pcfgs (F := F) p).pre.ref k) = (a p).1 k) :
    iprop((pdats p c).arrays ((pdats p c).arrAt · (Pipeline.pin (pcfgs (F := F)) a p).N)
        ∗ (pdats p c).owesAt () (Fin.last (Pipeline.pin (pcfgs (F := F)) a p).N) ∗ tblY a p c ∗ tblZ a p c V)
      ⊢ (|={Set.univ}=> iprop(StableHlo.held (c : Thread nD τ) (Pipeline.ucRefs τ sig) V' ∗ Rest c) : sProp 𝕄) := by
  have hjoin : iprop((pdats p c).arrays ((pdats p c).arrAt · (Pipeline.pin (pcfgs (F := F)) a p).N)
        ∗ Pipeline.unscopedRest (pcfgs (F := F) p).spec c (fun b => V b)) ⊢ (unscopedBufs c (fun b => V' b) : sProp 𝕄) :=
    Pipeline.unscopedBufs_of_arrays (p := p) (pcfgs (F := F)) a (Ix := Unit) (Name := ℕ) (U := UR sig nD τ) (Lvl := ℕ)
      kit.win kit.arr_whole c pdats hshare (fun b => V b) (fun b => V' b) ((pdats p c).arrAt · (Pipeline.pin (pcfgs (F := F)) a p).N) hF hrest
  rw [Pipeline.unscopedBufs_held, Pipeline.unscopedRest_split kit.pre c (fun b => V b),
    show (fun k => V ((pcfgs (F := F) p).pre.ref k)) = (a p).1 from funext hpf] at hjoin
  have hO : ((pdats p c).owesAt () (Fin.last (Pipeline.pin (pcfgs (F := F)) a p).N) : sProp 𝕄)
      ⊢ iprop(∃ W, owes (c : Thread nD τ) (0 : CellTallies nD τ sig Unit) W) := by
    unfold Pipeline.Dat.owesAt Pipeline.owesWithin
    rw [howed]
    iintro ⟨%W, -, HO⟩; iexists W; iexact HO
  iintro ⟨Ha, HO, ⟨Ht, Hp⟩, Hrest⟩
  imodintro
  isplitl [Ha Ht Hrest]
  · iapply hjoin
    isplitl [Ha]; · iexact Ha
    isplitl [Ht]; · iexact Ht
    iexact Hrest
  isplitl [Hp]; · iexact Hp
  iapply hO; iexact HO

end

end Cert.KernelIdeal.Hand

end
-- ==== Proof.KI.Gather1.lean ====
import proofs.«415143_j42460046688958_3_alg».proof.Proof.KI.Gather1Runs
import proofs.«415143_j42460046688958_3_alg».proof.Proof.KI.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 1): the body obligation and the region as a segment of @main -/

theorem PhiA1_eq (c : Dev nD) :
    (Pipeline.ΦA spec1 c : sProp 𝕄)
      = iprop(iprop(iprop((∃ d, owns (c : Thread nD τ) scM1 fullShare d)) ∗ restB1 c) ∗ (∃ r, prngReg c r)) := by
  unfold Pipeline.ΦA; rw [scopedRest1_split]; simp only [scM1, owns_whole]; try rfl

theorem PhiT1_eq (c : Dev nD) : (tabs1 a c : sProp 𝕄) = iprop(tbPt1 c tbM1_0 ((a 1).1 0) ∗ tbPt1 c tbM1_1 ((a 1).1 1)) := by
  unfold tabs1 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS1_open (c : Dev nD) (n : ℕ) (h : n ≤ (cfgG1 a).N) :
    PhiS1 a V c n h ⊢ iprop(∃ xs, ⌜∀ hz : n ≠ 0, xs = accAt1 a V c (n - 1) (by omega)⌝ ∗ owns (c : Thread nD τ) scM1 fullShare xs ∗ restB1 c
      ∗ (∃ r, prngReg c r) ∗ tbPt1 c tbM1_0 ((a 1).1 0) ∗ tbPt1 c tbM1_1 ((a 1).1 1)) := by
  cases n with
  | zero =>
    rw [show PhiS1 a V c 0 h = iprop(Pipeline.ΦA spec1 c ∗ tabs1 a c) from rfl, PhiA1_eq, PhiT1_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS1_succ, PhiT1_eq]
    iintro ⟨⟨⟨HS, Hr⟩, Hg⟩, HT0, HT1⟩
    iexists (accAt1 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS1_out (c : Dev nD) (n : ℕ) (h : n ≤ (cfgG1 a).N) : PhiS1 a V c n h ⊢ iprop(Pipeline.ΦA spec1 c ∗ tabs1 a c) := by
  cases n with
  | zero => exact .rfl
  | succ n =>
    rw [PhiS1_succ, PhiA1_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before1_0_of {c : Dev nD} (dat : Dat τ (Elt F) Unit ℕ (UR sig nD τ) ℕ (cfgG1 a) c) (hA : dat.A 0 = V c (Pipeline.arrRef spec1 0))
    (hafter : ∀ t, dat.after 0 t = iblk1 a V c 0 t) (t : Fin (cfgG1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfgG1 a) c) (hA : dat.A 1 = V c (Pipeline.arrRef spec1 1))
    (hafter : ∀ t, dat.after 1 t = iblk1 a V c 1 t) (t : Fin (cfgG1 a).N) (d) : dat.before 1 t d = iblk1 a V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ (cfgG1 a) c) (hA : dat.A 2 = V c (Pipeline.arrRef spec1 2))
    (hafter : ∀ t, dat.after 2 t = iblk1 a V c 2 t) (t : Fin (cfgG1 a).N) (d) : dat.before 2 t d = iblk1 a V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfgG1 a).N) (d) : (dat1 a V c).before 0 t d = iblk1 a V c 0 t :=
  before1_0_of a V (dat1 a V c) (A_eq1 a V c 0) (after1_0 a V c) t d
theorem before1_1 (c : Dev nD) (t : Fin (cfgG1 a).N) (d) : (dat1 a V c).before 1 t d = iblk1 a V c 1 t :=
  before1_1_of a V (dat1 a V c) (A_eq1 a V c 1) (after1_1 a V c) t d
theorem before1_2 (c : Dev nD) (t : Fin (cfgG1 a).N) (d) : (dat1 a V c).before 2 t d = iblk1 a V c 2 t :=
  before1_2_of a V (dat1 a V c) (A_eq1 a V c 2) (after1_2 a V c) t d

/-! ## What the body leaves in each window's buffer -/

/-- At a point live for a window the obligation asks for the window's buffer at what the body leaves there. -/
theorem leavesExact_live_g1 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves1_0 (c : Dev nD) (t : Fin (cfgG1 a).N) :
    (dat1 a V c).leavesExact 0 t = owns (c : Thread nD τ) (ms1_0 a t) fullShare (iblk1 a V c 0 t) := by
  rw [leavesExact_live_g1 (dat1 a V c) 0 t (liveAt1_0 a t), after1_0]; rfl
theorem leaves1_1 (c : Dev nD) (t : Fin (cfgG1 a).N) :
    (dat1 a V c).leavesExact 1 t = owns (c : Thread nD τ) (ms1_1 a t) fullShare (iblk1 a V c 1 t) := by
  rw [leavesExact_live_g1 (dat1 a V c) 1 t (liveAt1_1 a t), after1_1]; rfl
theorem leaves1_2 (c : Dev nD) (t : Fin (cfgG1 a).N) :
    (dat1 a V c).leavesExact 2 t = owns (c : Thread nD τ) (ms1_2 a t) fullShare (iblk1 a V c 2 t) := by
  rw [leavesExact_live_g1 (dat1 a V c) 2 t (liveAt1_2 a t), after1_2]; rfl

/-- The output's buffer at one step of the output over what the body found is what the obligation asks of it: the
    scaled accumulator where the body stores it, what it found where the window is idle. -/
theorem leaves1_3_intro (c : Dev nD) (t : Fin (cfgG1 a).N) (d) :
    owns (c : Thread nD τ) (ms1_3 a t) fullShare (outStep1 (grid1.coords t) (accAt1 a V c t.val t.isLt) (iblk1 a V c 2 t) ((dat1 a V c).before 3 t d))
      ⊢ ((dat1 a V c).leavesExact 3 t : sProp 𝕄) := by
  by_cases h2 : cond1_2 (grid1.coords t)
  · rw [leavesExact_live_g1 (dat1 a V c) 3 t (liveAt1_3 a t h2), after1_3]
    exact Entails.of_eq (congrArg (owns (c : Thread nD τ) (ms1_3 a t) fullShare) (outStep1_pos _ h2 _ _ _))
  · rw [Dat.leavesExact_idle (dat1 a V c) 3 t (idleAt1_3 a t h2) (noFlush1_3 a t h2)]
    refine (Entails.of_eq (congrArg (owns (c : Thread nD τ) (ms1_3 a t) fullShare) (outStep1_neg _ h2 _ _ _))).trans ?_
    iintro H; iexists d; iexact H

/-! ## The body obligation, at a generic point -/

def bodyPre1 (c : Dev nD) (t : Fin (cfgG1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d)))

def bodyPost1 (c : Dev nD) (t : Fin (cfgG1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body1 (c : Dev nD) (t : Fin (cfgG1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2]
  rw [show (dat1 a V c).owesAt () t.succ = (dat1 a V c).owesAt () t.castSucc from rfl]
  rw [show (dat1 a V c).Φ t.succ = PhiS1 a V c (t.val + 1) t.isLt from rfl, PhiS1_succ, PhiT1_eq]
  rw [leaves1_0, leaves1_1, leaves1_2, PhiS1_castSucc]
  iintro ⟨HΦ, Ho, ⟨%d0, H0⟩, ⟨%d1, H1⟩, ⟨%d2, H2⟩, ⟨%d3, H3⟩⟩
  ihave HΦ' := (PhiS1_open a V c t.val (Nat.le_of_lt t.isLt)) $$ HΦ
  icases HΦ' with ⟨%xs, %hxs, HS, Hr, Hg, HT0, HT1⟩
  iapply (kernel1 c (grid1.coords t) (ms1_0 a t) (hs1_0 a t) (ms1_1 a t) (hs1_1 a t) (ms1_2 a t) (hs1_2 a t) (ms1_3 a t) (hs1_3 a t) scM1 (Memref.isWhole_whole _)
    (iblk1 a V c 0 t) (iblk1 a V c 1 t) (iblk1 a V c 2 t) ((dat1 a V c).before 3 t d3) ((a 1).1 0) ((a 1).1 1) xs
    (fun h0 h2 => by have e0 := (hcond1_0 t).mp h0; have e2 := (hcond1_2 t).mp h2; omega)
    (accAt1 a V c t.val t.isLt) (accAt1_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves1_3_intro a V c t d3)
  iexact H3

/-- The library's body obligation, at every point. -/
theorem body_obligation1 (c : Dev nD) : BodyObligation (dat1 (F := F) a V c) (defs₀ (F := F)) Variants.none () Set.univ := fun t => by
  rw [bigSep_W1, bigSep_W1]
  exact sound_body1 a V c t

/-! ## The region as a segment of @main -/

/-- What rides beside the buffers through every segment: the generator register at some state, nothing owed. -/
abbrev R1 (c : Dev nD) : sProp 𝕄 := iprop((∃ r, prngReg c r) ∗ ∃ W, owes (c : Thread nD τ) (0 : CellTallies nD τ sig Unit) W)

theorem Phi1_in (c : Dev nD) : iprop((∃ r, prngReg c r) ∗ tabs1 a c ∗ Pipeline.scopedRest (Ix := Unit) (Name := ℕ) (U := UR sig nD τ) (Lvl := ℕ) (Val := Elt F) spec1 c) ⊢ ((dat1 a V c).Φ 0 : sProp 𝕄) := by
  rw [show (dat1 a V c).Φ 0 = iprop(Pipeline.ΦA spec1 c ∗ tabs1 a c) from rfl]; unfold Pipeline.ΦA
  iintro ⟨Hp, HT, Hr⟩
  isplitl [Hr Hp]
  · isplitl [Hr]; · iexact Hr
    iexact Hp
  iexact HT

theorem Phi1_out (c : Dev nD) : ((dat1 a V c).Φ (Fin.last (cfgG1 a).N) : sProp 𝕄)
    ⊢ iprop(iprop(tabs1 a c ∗ ∃ r, prngReg c r) ∗ BI.emp ∗ Pipeline.scopedRest (Ix := Unit) (Name := ℕ) (U := UR sig nD τ) (Lvl := ℕ) (Val := Elt F) spec1 c) := by
  rw [show (dat1 a V c).Φ (Fin.last (cfgG1 a).N) = PhiS1 a V c (cfgG1 a).N (Nat.le_refl _) from rfl]
  refine (PhiS1_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF1 (Vin : Dev nD → Valuation τ sig (Elt F)) (hV : ∀ c b, V c b = Vin c b) (c : Dev nD) : ∀ w : Fin 4,
    (dat1 a V c).arrAt w (cfgG1 a).N
      = Function.update (Vin c) main_v119 ((dat1 a V c).arrAt 3 (cfgG1 a).N) (Proc.devRef .tc (Pipeline.arrRef spec1 w))
  | 0 => ((((dat1 a V c).arrAt_in 0 rfl _).trans (A_eq1 a V c 0)).trans (hV c _)).trans
      (Function.update_of_ne (StableHlo.devRef_ne_of_ne (by decide : Pipeline.arrRef spec1 0 ≠ main_v119)) _ _).symm
  | 1 => ((((dat1 a V c).arrAt_in 1 rfl _).trans (A_eq1 a V c 1)).trans (hV c _)).trans
      (Function.update_of_ne (StableHlo.devRef_ne_of_ne (by decide : Pipeline.arrRef spec1 1 ≠ main_v119)) _ _).symm
  | 2 => ((((dat1 a V c).arrAt_in 2 rfl _).trans (A_eq1 a V c 2)).trans (hV c _)).trans
      (Function.update_of_ne (StableHlo.devRef_ne_of_ne (by decide : Pipeline.arrRef spec1 2 ≠ main_v119)) _ _).symm
  | 3 => (Function.update_self (Proc.devRef .tc main_v119) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat1` at this pipeline. -/
def reg1 (pdats : (p : Fin 13) → (c : Dev nD) → Dat τ (Elt F) Unit ℕ (UR sig nD τ) ℕ (Pipeline.pin (pcfgs (F := F)) a p) c)
    (h : ∀ c, pdats 1 c = dat1 a V c)
    (Vin : Dev nD → Valuation τ sig (Elt F)) (hV : ∀ c b, V c b = Vin c b)
    (hpf : ∀ c k, Vin c (pre1.ref k) = (a 1).1 k) :
    Pipeline.RegionSeg (pcfgs (F := F)) a pdats () defs₀ Variants.none (fun _ => (∅ : Finset Unit)) (fun _ _ => (0 : ℕ)) 1 where
  win := (launch1 (F := F)).win.to₀
  block_pos := (launch1 (F := F)).block_pos
  stage_whole := (launch1 (F := F)).stage_whole
  K := PEmpty
  osem k := k.elim
  ho := Pipeline.OwnSemFacts.none _
  hbody c := by rw [h c]; exact (body_obligation1 a V c).loose
  hwaits := Pipeline.hwaits_of_owed_zero _ _ _ _ _ _ 1 fun c t => by rw [h c]; rfl
  pre c := iprop(StableHlo.held (c : Thread nD τ) (Pipeline.ucRefs τ sig) (Vin c) ∗ R1 c)
  post c := iprop(StableHlo.held (c : Thread nD τ) (Pipeline.ucRefs τ sig)
      (Function.update (Vin c) main_v119 ((dat1 a V c).arrAt 3 (cfgG1 a).N)) ∗ R1 c)
  X c := tblX c
  Y c := tblY a 1 c
  Z c := tblZ a 1 c (Vin c)
  hentry c := tbl_hentry a pdats (launch1 (F := F)) c (Vin c) (fun w => by rw [h c]; exact (A_eq1 a V c w).trans (hV c _))
    (fun w => by rw [h c]; exact (dat1 a V c).share_full (fun _ => rfl) w) (by rw [h c]; rfl) (by rw [h c]; rfl) (hpf c)
  hin c := by rw [h c]; exact Phi1_in a V c
  hout c := by rw [Pipeline.ownSems0_none, h c]; exact Phi1_out a V c
  hexit c := tbl_hexit a pdats (launch1 (F := F)) c (Vin c) _ (fun w => by rw [h c]; exact (dat1 a V c).share_full (fun _ => rfl) w)
    (fun w => by rw [h c]; exact hF1 a V Vin hV c w) (upd_rest (p := 1) a (Vin c) 3 _) (by rw [h c]; rfl) (hpf c)

end Cert.KernelIdeal.Hand

end
-- ==== Proof.KI.Scatter2Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 2: its control conditions, the table words it reads, and what one run of the
    body leaves in the carried accumulator and in the output block, in closed form over the payloads -/

/-- The body zeroes the accumulator when the second grid coordinate is 0. -/
abbrev cond2_1 (i : grid2.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond2_2 (i : grid2.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond2_3 (i : grid2.Coords) : Prop := k2_cond3 i = 1#1

/-- The prefetched tables as the body is handed them: whole scalar-memory memrefs. -/
abbrev tbM2_0 : Memref sig .tc .smem S123 .i32 := Memref.whole main_v81
abbrev htbM2_0 : tbM2_0.IsWhole := Memref.isWhole_whole _
abbrev tbM2_1 : Memref sig .tc .smem S123 .i32 := Memref.whole main_v82
abbrev htbM2_1 : tbM2_1.IsWhole := Memref.isWhole_whole _
abbrev tbM2_2 : Memref sig .tc .smem S50 .i32 := Memref.whole main_v110
abbrev htbM2_2 : tbM2_2.IsWhole := Memref.isWhole_whole _
abbrev tbM2_3 : Memref sig .tc .smem S50 .i32 := Memref.whole main_v111
abbrev htbM2_3 : tbM2_3.IsWhole := Memref.isWhole_whole _

/-- A table memref's buffer on core `c`, and that buffer held whole at contents `f`. -/
abbrev TbBuf2 (c : Dev nD) {S : Shape} {e : EltTy} (M : Memref sig .tc .smem S e) : Type := Buf (Elt F) (M.view.loc (c : Thread nD τ))
abbrev tbPt2 (c : Dev nD) {S : Shape} {e : EltTy} (M : Memref sig .tc .smem S e) (f : TbBuf2 (F := F) c M) : sProp 𝕄 :=
  M.view.loc (c : Thread nD τ) ↦{fullShare} f

/-- The word of the first table the body compares from below, at the second grid coordinate, -/
abbrev wd2_0 (c : Dev nD) (i : grid2.Coords) (xt : TbBuf2 (F := F) c tbM2_0) : Elt F .i32 :=
  tbM2_0.view.readAt (Elt F) (Rect.unit (s := S123) (k2_off2 i) S1.size (k2_off2_inb i)).toLoadRect xt (Shape.Idx.first (numel1_S1.symm ▸ Nat.one_pos))
/-- and the word of the second table it compares from above. -/
abbrev wd2_1 (c : Dev nD) (i : grid2.Coords) (xt : TbBuf2 (F := F) c tbM2_1) : Elt F .i32 :=
  tbM2_1.view.readAt (Elt F) (Rect.unit (s := S123) (k2_off2 i) S1.size (k2_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc2 (i : grid2.Coords) (wlo whi : Elt F .i32) (x0 : Vec F S1x5120 .i32) (x1 : Vec F S5120x128 .f32)
    (xs : Vec F S2000x128 .f32) : Vec F S2000x128 .f32 :=
  if cond2_2 i wlo whi then k2_pay2 i x0 x1 (if cond2_1 i then (k2_pay1 : Vec F S2000x128 .f32) else xs)
  else (if cond2_1 i then (k2_pay1 : Vec F S2000x128 .f32) else xs)

/-- Where the accumulator is zeroed, what it held before does not matter. -/
theorem acc2_of_cond2_1 (i : grid2.Coords) (h : cond2_1 i) (wlo whi : Elt F .i32) (x0 : Vec F S1x5120 .i32) (x1 : Vec F S5120x128 .f32)
    (xs xs' : Vec F S2000x128 .f32) : acc2 i wlo whi x0 x1 xs = acc2 i wlo whi x0 x1 xs' := by
  unfold acc2; rw [if_pos h, if_pos h]

/-! # REGION 2 of @main (custom_call 2, pipeline 2) at the tables' admissible contents `a 2` and the entry contents `V` -/

section Region
variable (a : (p : Fin 13) → (pcfgs (F := F) p).Adm)
variable (V : (c : Dev nD) → (b : Ref sig .tc) → Buf (Elt F) ((c : Thread nD τ).loc b))

/-- Pipeline 2 at the tables' contents. -/
abbrev cfgM2 : Pipeline.Cfg sig Λ₀ := cfg2 (a 2)

/-- Window `w`'s block at point `t`, read off its array as the region finds it (`V`); for windows 0 and 1, whose index
    maps read the tables, a function of the tables' words. -/
def iblk2 (c : Dev nD) (w : Fin (cfgM2 a).W) (t : Fin (cfgM2 a).N) : (((cfgM2 a).win w).xblock ((cfgM2 a).grid.coords t)).Idx → Elt F ((cfgM2 a).win w).elt :=
  (((cfgM2 a).win w).blk t).view.read (Elt F) (V c (Pipeline.arrRef spec2 w))

/-! ## Each input window's current staging buffer holds its block at every point, fetched there or not -/

theorem before2_0_of {c : Dev nD} (dat : Dat τ (Elt F) Unit ℕ (UR sig nD τ) ℕ (cfgM2 a) c) (hA : dat.A 0 = V c (Pipeline.arrRef spec2 0))
    (hafter : ∀ t, dat.after 0 t = iblk2 a V c 0 t) (t : Fin (cfgM2 a).N) (d) : dat.before 0 t d = iblk2 a V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ (cfgM2 a) c) (hA : dat.A 1 = V c (Pipeline.arrRef spec2 1))
    (hafter : ∀ t, dat.after 1 t = iblk2 a V c 1 t) (t : Fin (cfgM2 a).N) (d) : dat.before 1 t d = iblk2 a V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ (cfgM2 a) c) (hA : dat.A 2 = V c (Pipeline.arrRef spec2 2))
    (hafter : ∀ t, dat.after 2 t = iblk2 a V c 2 t) (t : Fin (cfgM2 a).N) (d) : dat.before 2 t d = iblk2 a V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ (cfgM2 a) c) (hA : dat.A 3 = V c (Pipeline.arrRef spec2 3))
    (hafter : ∀ t, dat.after 3 t = iblk2 a V c 3 t) (t : Fin (cfgM2 a).N) (d) : dat.before 3 t d = iblk2 a V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ (cfgM2 a) c) (hA : dat.A 4 = V c (Pipeline.arrRef spec2 4))
    (hafter : ∀ t, dat.after 4 t = iblk2 a V c 4 t) (t : Fin (cfgM2 a).N) (d) : dat.before 4 t d = iblk2 a V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point, the scratch, the body as the pipeline calls it -/

abbrev ms2_0 (t : Fin (cfgM2 a).N) : Memref sig .tc .vmem S1x5120 .i32 := spec2_0.stage ((cfgM2 a).slots t 0)
abbrev hs2_0 (t : Fin (cfgM2 a).N) : (ms2_0 a t).IsWhole := hstage2_0 (((cfgM2 a).slots t 0).cast nbuf2_0)
abbrev ms2_1 (t : Fin (cfgM2 a).N) : Memref sig .tc .vmem S5120x128 .f32 := spec2_1.stage ((cfgM2 a).slots t 1)
abbrev hs2_1 (t : Fin (cfgM2 a).N) : (ms2_1 a t).IsWhole := hstage2_1 (((cfgM2 a).slots t 1).cast nbuf2_1)
abbrev ms2_2 (t : Fin (cfgM2 a).N) : Memref sig .tc .vmem S2000x128 .f32 := spec2_2.stage ((cfgM2 a).slots t 2)
abbrev hs2_2 (t : Fin (cfgM2 a).N) : (ms2_2 a t).IsWhole := hstage2_2 (((cfgM2 a).slots t 2).cast nbuf2_2)
abbrev ms2_3 (t : Fin (cfgM2 a).N) : Memref sig .tc .vmem S128x128 .f32 := spec2_3.stage ((cfgM2 a).slots t 3)
abbrev hs2_3 (t : Fin (cfgM2 a).N) : (ms2_3 a t).IsWhole := hstage2_3 (((cfgM2 a).slots t 3).cast nbuf2_3)
abbrev ms2_4 (t : Fin (cfgM2 a).N) : Memref sig .tc .vmem S1x128 .f32 := spec2_4.stage ((cfgM2 a).slots t 4)
abbrev hs2_4 (t : Fin (cfgM2 a).N) : (ms2_4 a t).IsWhole := hstage2_4 (((cfgM2 a).slots t 4).cast nbuf2_4)
abbrev ms2_5 (t : Fin (cfgM2 a).N) : Memref sig .tc .vmem S2000x128 .f32 := spec2_5.stage ((cfgM2 a).slots t 5)
abbrev hs2_5 (t : Fin (cfgM2 a).N) : (ms2_5 a t).IsWhole := hstage2_5 (((cfgM2 a).slots t 5).cast nbuf2_5)
/-- The accumulator: a whole scoped buffer of the kernel's own, carried between points. -/
abbrev scM2 : Memref sig .tc .vmem S2000x128 .f32 := Memref.whole cc2_scratch0

abbrev bodyAt2 (t : Fin (cfgM2 a).N) :=
  cc2__scatter_kernel (F := F) (grid2.coords t) tbM2_0 htbM2_0 tbM2_1 htbM2_1 tbM2_2 htbM2_2 tbM2_3 htbM2_3 (ms2_0 a t) (hs2_0 a t) (ms2_1 a t) (hs2_1 a t) (ms2_2 a t) (hs2_2 a t) (ms2_3 a t) (hs2_3 a t) (ms2_4 a t) (hs2_4 a t) (ms2_5 a t) (hs2_5 a t) scM2 (Memref.isWhole_whole _)

/-! ## The accumulator point by point, and the output block -/

/-- One point's step of the accumulator: the body's closed form at the point's coordinates, table words and blocks. -/
def accStep2 (c : Dev nD) (t : Fin (cfgM2 a).N) (xs : Vec F S2000x128 .f32) : Vec F S2000x128 .f32 :=
  acc2 (grid2.coords t) (wd2_0 c (grid2.coords t) ((a 2).1 0)) (wd2_1 c (grid2.coords t) ((a 2).1 1)) (iblk2 a V c 0 t) (iblk2 a V c 1 t) xs

/-- THE ACCUMULATION: what the scratch holds after the body at position `n`, by recursion on the position (the first
    point zeroes it, so what it held before the region does not matter: stated from the zero payload). -/
def accAt2 (c : Dev nD) : (n : ℕ) → n < (cfgM2 a).N → Vec F S2000x128 .f32
  | 0, hn => accStep2 a V c ⟨0, hn⟩ (k2_pay1 : Vec F S2000x128 .f32)
  | n + 1, hn => accStep2 a V c ⟨n + 1, hn⟩ (accAt2 c n (Nat.lt_of_succ_lt hn))

theorem accAt2_zero (c : Dev nD) (hn : 0 < (cfgM2 a).N) : accAt2 a V c 0 hn = accStep2 a V c ⟨0, hn⟩ (k2_pay1 : Vec F S2000x128 .f32) := rfl
theorem accAt2_succ (c : Dev nD) (n : ℕ) (hn : n + 1 < (cfgM2 a).N) :
    accAt2 a V c (n + 1) hn = accStep2 a V c ⟨n + 1, hn⟩ (accAt2 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt2 (c : Dev nD) (t : Fin (cfgM2 a).N) : Vec F S2000x128 .f32 :=
  k2_pay3 (iblk2 a V c 2 t) (iblk2 a V c 3 t) (accAt2 a V c t.val t.isLt) (iblk2 a V c 4 t)

/-! ## The region invariant -/

/-- Before position `n`: the scratch at what the point before left (at anything before the first point), the other
    scoped buffers at anything, the generator register at some state, the prefetched tables whole at their contents. -/
def PhiS2 (c : Dev nD) (n : ℕ) (hn : n ≤ (cfgM2 a).N) : sProp 𝕄 :=
  iprop(iprop(∃ d : Vec F S2000x128 .f32, ⌜∀ h0 : n ≠ 0, d = accAt2 a V c (n - 1) (by omega)⌝ ∗ owns (c : Thread nD τ) scM2 fullShare d)
    ∗ Pipeline.scopedRestBut (Ix := Unit) (Name := ℕ) (U := UR sig nD τ) (Lvl := ℕ) (Val := Elt F) spec2 c [cc2_scratch0]
    ∗ iprop(∃ r, prngReg c r)
    ∗ Pipeline.prefHeld (Ix := Unit) (Name := ℕ) (U := UR sig nD τ) (Lvl := ℕ) pre2 c (fun _ => fullShare) (a 2).1)

/-! ## The pipeline's proof data -/

def dat2 (c : Dev nD) : Dat τ (Elt F) Unit ℕ (UR sig nD τ) ℕ (Pipeline.pin (pcfgs (F := F)) a 2) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => iblk2 a V c 3 t
    | ⟨4, _⟩ => iblk2 a V c 4 t
    | ⟨5, _⟩ => outAt2 a V c t
  Φ t := PhiS2 a V c t.val (Nat.le_of_lt_succ t.isLt)
  q _ := fullShare
  owed _ := 0

theorem A_eq2 (c : Dev nD) (w : Fin (cfgM2 a).W) : (dat2 a V c).A w = V c (Pipeline.arrRef spec2 w) := by
  dsimp only [dat2]
theorem after2_0 (c : Dev nD) (t : Fin (cfgM2 a).N) : (dat2 a V c).after 0 t = iblk2 a V c 0 t := by dsimp only [dat2]; try rfl
theorem after2_1 (c : Dev nD) (t : Fin (cfgM2 a).N) : (dat2 a V c).after 1 t = iblk2 a V c 1 t := by dsimp only [dat2]; try rfl
theorem after2_2 (c : Dev nD) (t : Fin (cfgM2 a).N) : (dat2 a V c).after 2 t = iblk2 a V c 2 t := by dsimp only [dat2]; try rfl
theorem after2_3 (c : Dev nD) (t : Fin (cfgM2 a).N) : (dat2 a V c).after 3 t = iblk2 a V c 3 t := by dsimp only [dat2]; try rfl
theorem after2_4 (c : Dev nD) (t : Fin (cfgM2 a).N) : (dat2 a V c).after 4 t = iblk2 a V c 4 t := by dsimp only [dat2]; try rfl
theorem after2_5 (c : Dev nD) (t : Fin (cfgM2 a).N) : (dat2 a V c).after 5 t = outAt2 a V c t := by dsimp only [dat2]; try rfl
theorem before2_0 (c : Dev nD) (t : Fin (cfgM2 a).N) (d) : (dat2 a V c).before 0 t d = iblk2 a V c 0 t :=
  before2_0_of a V (dat2 a V c) (A_eq2 a V c 0) (after2_0 a V c) t d
theorem before2_1 (c : Dev nD) (t : Fin (cfgM2 a).N) (d) : (dat2 a V c).before 1 t d = iblk2 a V c 1 t :=
  before2_1_of a V (dat2 a V c) (A_eq2 a V c 1) (after2_1 a V c) t d
theorem before2_2 (c : Dev nD) (t : Fin (cfgM2 a).N) (d) : (dat2 a V c).before 2 t d = iblk2 a V c 2 t :=
  before2_2_of a V (dat2 a V c) (A_eq2 a V c 2) (after2_2 a V c) t d
theorem before2_3 (c : Dev nD) (t : Fin (cfgM2 a).N) (d) : (dat2 a V c).before 3 t d = iblk2 a V c 3 t :=
  before2_3_of a V (dat2 a V c) (A_eq2 a V c 3) (after2_3 a V c) t d
theorem before2_4 (c : Dev nD) (t : Fin (cfgM2 a).N) (d) : (dat2 a V c).before 4 t d = iblk2 a V c 4 t :=
  before2_4_of a V (dat2 a V c) (A_eq2 a V c 4) (after2_4 a V c) t d

theorem PhiS2_castSucc (c : Dev nD) (t : Fin (cfgM2 a).N) :
    (dat2 a V c).Φ t.castSucc = PhiS2 a V c t.val (Nat.le_of_lt t.isLt) := by
  dsimp only [dat2]; simp only [Fin.coe_castSucc]

/-! ## The grid's coordinates and the conditions in closed form -/

theorem stride2_0 : grid2.stride 0 = 123 := by decide
theorem stride2_1 : grid2.stride 1 = 1 := by decide
theorem coords2_0 (t : Fin grid2.N) : (grid2.coords t 0).val = t.val / 123 % 50 := by
  show t.val / grid2.stride 0 % grid2.bound 0 = _; rw [stride2_0]; rfl
theorem coords2_1 (t : Fin grid2.N) : (grid2.coords t 1).val = t.val % 123 := by
  show t.val / grid2.stride 1 % grid2.bound 1 = _; rw [stride2_1, Nat.div_one]; rfl

theorem cond2_1_iff (i : grid2.Coords) : cond2_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond2_3_iff (i : grid2.Coords) : cond2_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle2_5_of (t : Fin (cfgM2 a).N) (h : cond2_3 (grid2.coords t)) : (cfgM2 a).idle 5 (grid2.coords t) = false := by
  show (!(k2_cond3 (grid2.coords t) == 1#1)) = false
  rw [show k2_cond3 (grid2.coords t) = 1#1 from h]; rfl
theorem idle2_5_of_not (t : Fin (cfgM2 a).N) (h : ¬cond2_3 (grid2.coords t)) : (cfgM2 a).idle 5 (grid2.coords t) = true := by
  show (!(k2_cond3 (grid2.coords t) == 1#1)) = true
  rw [Bool.not_eq_true', beq_eq_false_iff_ne]; exact h

end Region

end Cert.KernelIdeal.Hand

end
-- ==== Proof.KI.Scatter2Runs.lean ====
import proofs.«415143_j42460046688958_3_alg».proof.Proof.KI.Scatter2Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec2_zero2 : (![0, 0] : Fin 2 → ℕ) = fun _ => 0 := by funext b; fin_cases b <;> rfl

/-- A load of a whole memref held at contents that read `X` reads `X`. -/
theorem readAt_whole_unread2 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole2 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole2 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay2_congr2 (i : grid2.Coords) {u u' : Vec F S1x5120 .i32} {v v' : Vec F S5120x128 .f32} {s s' : Vec F S2000x128 .f32}
    (hu : u = u') (hv : v = v') (hs : s = s') : k2_pay2 i u v s = k2_pay2 i u' v' s' := by rw [hu, hv, hs]
theorem pay3_congr2 {u u' : Vec F S2000x128 .f32} {v v' : Vec F S128x128 .f32} {s s' : Vec F S2000x128 .f32} {b b' : Vec F S1x128 .f32}
    (hu : u = u') (hv : v = v') (hs : s = s') (hb : b = b') : k2_pay3 u v s b = k2_pay3 u' v' s' b' := by rw [hu, hv, hs, hb]

theorem acc2_TT (i : grid2.Coords) (wlo whi : Elt F .i32) (x0 : Vec F S1x5120 .i32) (x1 : Vec F S5120x128 .f32) (xs : Vec F S2000x128 .f32)
    (h1 : cond2_1 i) (h2 : cond2_2 i wlo whi) : acc2 i wlo whi x0 x1 xs = k2_pay2 i x0 x1 (k2_pay1 : Vec F S2000x128 .f32) := by
  unfold acc2; rw [if_pos h2, if_pos h1]
theorem acc2_TF (i : grid2.Coords) (wlo whi : Elt F .i32) (x0 : Vec F S1x5120 .i32) (x1 : Vec F S5120x128 .f32) (xs : Vec F S2000x128 .f32)
    (h1 : cond2_1 i) (h2 : ¬cond2_2 i wlo whi) : acc2 i wlo whi x0 x1 xs = (k2_pay1 : Vec F S2000x128 .f32) := by
  unfold acc2; rw [if_neg h2, if_pos h1]
theorem acc2_FT (i : grid2.Coords) (wlo whi : Elt F .i32) (x0 : Vec F S1x5120 .i32) (x1 : Vec F S5120x128 .f32) (xs : Vec F S2000x128 .f32)
    (h1 : ¬cond2_1 i) (h2 : cond2_2 i wlo whi) : acc2 i wlo whi x0 x1 xs = k2_pay2 i x0 x1 xs := by
  unfold acc2; rw [if_pos h2, if_neg h1]
theorem acc2_FF (i : grid2.Coords) (wlo whi : Elt F .i32) (x0 : Vec F S1x5120 .i32) (x1 : Vec F S5120x128 .f32) (xs : Vec F S2000x128 .f32)
    (h1 : ¬cond2_1 i) (h2 : ¬cond2_2 i wlo whi) : acc2 i wlo whi x0 x1 xs = xs := by
  unfold acc2; rw [if_neg h2, if_neg h1]

set_option maxHeartbeats 4000000 in
/-- The body in the control case A: the accumulator zeroed, the table words bracketing the row block, the output not stored. -/
theorem sound_kernel2_A (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : cond2_1 i) (hc2 : cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay2 i x0 x1 (k2_pay1 : Vec F S2000x128 .f32)) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readCov_whole2 arg12 vec2_zero2 _ _ _))
  isplitl [HT0]; · iexact HT0
  iexact HT1

set_option maxHeartbeats 4000000 in
/-- The body in the control case B: the accumulator zeroed, the table words not bracketing the row block, the output not stored. -/
theorem sound_kernel2_B (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : cond2_1 i) (hc2 : ¬cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay1 : Vec F S2000x128 .f32) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _)
  isplitl [HT0]; · iexact HT0
  iexact HT1

set_option maxHeartbeats 4000000 in
/-- The body in the control case C: the accumulator not zeroed, the table words bracketing the row block, the output not stored. -/
theorem sound_kernel2_C (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k2_pay2 i x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readAt_whole_unread2 arg12 harg12 xs vec2_zero2 _))
  isplitl [HT0]; · iexact HT0
  iexact HT1

set_option maxHeartbeats 4000000 in
/-- The body in the control case D: the accumulator not zeroed, the table words not bracketing the row block, the output not stored. -/
theorem sound_kernel2_D (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : ¬cond2_2 i (wd2_0 c i xt0) (wd2_1 c i xt1)) (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel2_E (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : cond2_2 i (wd2_0 c i xt0) (wd2_1 c i xt1)) (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 (k2_pay2 i x0 x1 xs) x4)
            ∗ owns (c : Thread nD τ) arg12 fullShare (k2_pay2 i x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole2 arg11 _ vec2_zero2 _ _ _).trans (pay3_congr2 (readAt_whole_unread2 arg8 harg8 x2 vec2_zero2 _) (readAt_whole_unread2 arg9 harg9 x3 vec2_zero2 _) ((readCov_whole2 arg12 vec2_zero2 _ _ _).trans (pay2_congr2 i (readAt_whole_unread2 arg6 harg6 x0 vec2_zero2 _) (readAt_whole_unread2 arg7 harg7 x1 vec2_zero2 _) (readAt_whole_unread2 arg12 harg12 xs vec2_zero2 _))) (readAt_whole_unread2 arg10 harg10 x4 vec2_zero2 _))
  isplitl [HS]
  · iexists _; isplitr
    swap; · iexact HS
    ipureintro
    exact (read_writes_whole2 arg12 _ vec2_zero2 _ _ _).trans (pay2_congr2 i (readAt_whole_unread2 arg6 harg6 x0 vec2_zero2 _) (readAt_whole_unread2 arg7 harg7 x1 vec2_zero2 _) (readAt_whole_unread2 arg12 harg12 xs vec2_zero2 _))
  isplitl [HT0]; · iexact HT0
  iexact HT1

set_option maxHeartbeats 4000000 in
/-- The body in the control case F: the accumulator not zeroed, the table words not bracketing the row block, the output stored. -/
theorem sound_kernel2_F (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc1 : ¬cond2_1 i) (hc2 : ¬cond2_2 i (wd2_0 c i xt0) (wd2_1 c i xt1)) (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 xs x4)
            ∗ owns (c : Thread nD τ) arg12 fullShare xs ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole2 arg11 _ vec2_zero2 _ _ _).trans (pay3_congr2 (readAt_whole_unread2 arg8 harg8 x2 vec2_zero2 _) (readAt_whole_unread2 arg9 harg9 x3 vec2_zero2 _) (readAt_whole_unread2 arg12 harg12 xs vec2_zero2 _) (readAt_whole_unread2 arg10 harg10 x4 vec2_zero2 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel2_idle (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc3 : ¬cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc2 i (wd2_0 c i xt0) (wd2_1 c i xt1) x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  by_cases h1 : cond2_1 i <;> by_cases h2 : cond2_2 i (wd2_0 c i xt0) (wd2_1 c i xt1)
  · rw [acc2_TT _ _ _ _ _ _ h1 h2]; exact sound_kernel2_A c E i arg6 harg6 arg7 harg7 arg8 harg8 arg9 harg9 arg10 harg10 arg11 harg11 arg12 harg12 x0 x1 x2 x3 x4 xs xo xt0 xt1 h1 h2 hc3 K
  · rw [acc2_TF _ _ _ _ _ _ h1 h2]; exact sound_kernel2_B c E i arg6 harg6 arg7 harg7 arg8 harg8 arg9 harg9 arg10 harg10 arg11 harg11 arg12 harg12 x0 x1 x2 x3 x4 xs xo xt0 xt1 h1 h2 hc3 K
  · rw [acc2_FT _ _ _ _ _ _ h1 h2]; exact sound_kernel2_C c E i arg6 harg6 arg7 harg7 arg8 harg8 arg9 harg9 arg10 harg10 arg11 harg11 arg12 harg12 x0 x1 x2 x3 x4 xs xo xt0 xt1 h1 h2 hc3 K
  · rw [acc2_FF _ _ _ _ _ _ h1 h2]; exact sound_kernel2_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel2_live (c : Dev nD) (E : Set ℕ) (i : grid2.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf2 (F := F) c tbM2_0) (xt1 : TbBuf2 (F := F) c tbM2_1)
    (hc3 : cond2_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt2 c tbM2_0 xt0 ∗ tbPt2 c tbM2_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k2_pay3 x2 x3 (acc2 i (wd2_0 c i xt0) (wd2_1 c i xt1) x0 x1 xs) x4)
            ∗ owns (c : Thread nD τ) arg12 fullShare (acc2 i (wd2_0 c i xt0) (wd2_1 c i xt1) x0 x1 xs) ∗ tbPt2 c tbM2_0 xt0 ∗ tbPt2 c tbM2_1 xt1) -∗ K ⟨⟩))
      ⊢ wp frame (wpE (defs₀ (F := F)) Variants.none c none) E (cc2__scatter_kernel i tbM2_0 htbM2_0 tbM2_1 htbM2_1 tbM2_2 htbM2_2 tbM2_3 htbM2_3 arg6 harg6 arg7 harg7 arg8 harg8 arg9 harg9 arg10 harg10 arg11 harg11 arg12 harg12) K := by
  have h1 : ¬cond2_1 i := fun h => by
    have e1 := (cond2_1_iff i).mp h; have e3 := (cond2_3_iff i).mp hc3; omega
  by_cases h2 : cond2_2 i (wd2_0 c i xt0) (wd2_1 c i xt1)
  · rw [acc2_FT _ _ _ _ _ _ h1 h2]; exact sound_kernel2_E c E i arg6 harg6 arg7 harg7 arg8 harg8 arg9 harg9 arg10 harg10 arg11 harg11 arg12 harg12 x0 x1 x2 x3 x4 xs xo xt0 xt1 h1 h2 hc3 K
  · rw [acc2_FF _ _ _ _ _ _ h1 h2]; exact sound_kernel2_F c E i arg6 harg6 arg7 harg7 arg8 harg8 arg9 harg9 arg10 harg10 arg11 harg11 arg12 harg12 x0 x1 x2 x3 x4 xs xo xt0 xt1 h1 h2 hc3 K

end Cert.KernelIdeal.Hand

end
-- ==== Proof.KI.Scatter2.lean ====
import proofs.«415143_j42460046688958_3_alg».proof.Proof.KI.Scatter2Runs
import proofs.«415143_j42460046688958_3_alg».proof.Proof.KI.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush2_5 : ∀ t : Fin (cfgM2 a).N, ((cfgM2 a).win 5).flush t = true ↔ t.val % 123 = 122 :=
  (by decide +kernel : ∀ t : Fin grid2.N, Pipeline.Window.flushOf grid2 true cc2_transform_5 t = true ↔ t.val % 123 = 122)

/-- and at a point that does not store the output it writes nothing back. -/
theorem noFlush2_5 (t : Fin (cfgM2 a).N) (h : ¬cond2_3 (grid2.coords t)) : ((cfgM2 a).win 5).flush t = false := by
  rw [Bool.eq_false_iff]; intro hf
  exact h ((cond2_3_iff _).mpr (by rw [coords2_1]; exact (flush2_5 a t).mp hf))

/-- The tables whole at contents `v`, table by table: what the invariant hands the body and takes back. -/
theorem PhiT2_eq (c : Dev nD) (v : pre2.Contents (Elt F)) :
    (Pipeline.prefHeld (Ix := Unit) (Name := ℕ) (U := UR sig nD τ) (Lvl := ℕ) pre2 c (fun _ => fullShare) v : sProp 𝕄)
      = iprop(tbPt2 c tbM2_0 (v 0) ∗ tbPt2 c tbM2_1 (v 1) ∗ tbPt2 c tbM2_2 (v 2) ∗ tbPt2 c tbM2_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep2_eq_accAt2 (c : Dev nD) (t : Fin (cfgM2 a).N) (d : Vec F S2000x128 .f32)
    (hd : ∀ h0 : t.val ≠ 0, d = accAt2 a V c (t.val - 1) (by omega)) :
    accStep2 a V c t d = accAt2 a V c t.val t.isLt := by
  obtain ⟨n, hn⟩ := t
  cases n with
  | zero =>
    rw [accAt2_zero]; unfold accStep2
    exact acc2_of_cond2_1 _ ((cond2_1_iff _).mpr (by rw [coords2_1]; exact Nat.zero_mod _)) _ _ _ _ _ _
  | succ n =>
    rw [accAt2_succ, hd (Nat.succ_ne_zero n)]; rfl

/-! ## What the body obligation asks of each window's buffer after the body -/

theorem leaves2_0 (c : Dev nD) (t : Fin (cfgM2 a).N) :
    (dat2 a V c).leavesExact 0 t = owns (c : Thread nD τ) (ms2_0 a t) fullShare (iblk2 a V c 0 t) := by
  rw [← after2_0 a V c t]; rfl
theorem leaves2_1 (c : Dev nD) (t : Fin (cfgM2 a).N) :
    (dat2 a V c).leavesExact 1 t = owns (c : Thread nD τ) (ms2_1 a t) fullShare (iblk2 a V c 1 t) := by
  rw [← after2_1 a V c t]; rfl
theorem leaves2_2 (c : Dev nD) (t : Fin (cfgM2 a).N) :
    (dat2 a V c).leavesExact 2 t = owns (c : Thread nD τ) (ms2_2 a t) fullShare (iblk2 a V c 2 t) := by
  rw [← after2_2 a V c t]; rfl
theorem leaves2_3 (c : Dev nD) (t : Fin (cfgM2 a).N) :
    (dat2 a V c).leavesExact 3 t = owns (c : Thread nD τ) (ms2_3 a t) fullShare (iblk2 a V c 3 t) := by
  rw [← after2_3 a V c t]; rfl
theorem leaves2_4 (c : Dev nD) (t : Fin (cfgM2 a).N) :
    (dat2 a V c).leavesExact 4 t = owns (c : Thread nD τ) (ms2_4 a t) fullShare (iblk2 a V c 4 t) := by
  rw [← after2_4 a V c t]; rfl

/-- Where the body stores the output the window is live: its buffer ends at the output block. -/
theorem leaves2_5_live (c : Dev nD) (t : Fin (cfgM2 a).N) (h3 : cond2_3 (grid2.coords t)) :
    (dat2 a V c).leavesExact 5 t = owns (c : Thread nD τ) (ms2_5 a t) fullShare (outAt2 a V c t) := by
  have hi : (Pipeline.pin (pcfgs (F := F)) a 2).idle 5 ((Pipeline.pin (pcfgs (F := F)) a 2).grid.coords t) = false := idle2_5_of a t h3
  unfold Dat.leavesExact; rw [hi]; rfl

/-- Elsewhere it is idle and not written back: its buffer is handed back as found. -/
theorem leaves2_5_idle (c : Dev nD) (t : Fin (cfgM2 a).N) (h3 : ¬cond2_3 (grid2.coords t)) :
    (dat2 a V c).leavesExact 5 t = iprop(∃ d, owns (c : Thread nD τ) (ms2_5 a t) fullShare ((dat2 a V c).before 5 t d)) :=
  Dat.leavesExact_idle (dat2 a V c) 5 t (idle2_5_of_not a t h3) (noFlush2_5 a t h3)

/-! ## The body obligation, at a generic point -/

def bodyPre2 (c : Dev nD) (t : Fin (cfgM2 a).N) : sProp 𝕄 :=
  iprop((dat2 a V c).Φ t.castSucc ∗ (dat2 a V c).owesAt () t.castSucc
    ∗ (∃ d, owns (c : Thread nD τ) (ms2_0 a t) fullShare ((dat2 a V c).before 0 t d))
    ∗ (∃ d, owns (c : Thread nD τ) (ms2_1 a t) fullShare ((dat2 a V c).before 1 t d))
    ∗ (∃ d, owns (c : Thread nD τ) (ms2_2 a t) fullShare ((dat2 a V c).before 2 t d))
    ∗ (∃ d, owns (c : Thread nD τ) (ms2_3 a t) fullShare ((dat2 a V c).before 3 t d))
    ∗ (∃ d, owns (c : Thread nD τ) (ms2_4 a t) fullShare ((dat2 a V c).before 4 t d))
    ∗ (∃ d, owns (c : Thread nD τ) (ms2_5 a t) fullShare ((dat2 a V c).before 5 t d)))

def bodyPost2 (c : Dev nD) (t : Fin (cfgM2 a).N) : sProp 𝕄 :=
  iprop((dat2 a V c).Φ t.succ ∗ (dat2 a V c).owesAt () t.succ
    ∗ (dat2 a V c).leavesExact 0 t
    ∗ (dat2 a V c).leavesExact 1 t
    ∗ (dat2 a V c).leavesExact 2 t
    ∗ (dat2 a V c).leavesExact 3 t
    ∗ (dat2 a V c).leavesExact 4 t
    ∗ (dat2 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body2 (c : Dev nD) (t : Fin (cfgM2 a).N) :
    bodyPre2 a V c t ⊢ wp frame (wpE (defs₀ (F := F)) Variants.none c none) Set.univ (bodyAt2 a t) (fun _ => bodyPost2 a V c t) := by
  unfold bodyPre2 bodyPost2 bodyAt2
  simp only [before2_0, before2_1, before2_2, before2_3, before2_4]
  rw [show (dat2 a V c).owesAt () t.succ = (dat2 a V c).owesAt () t.castSucc from rfl]
  rw [show (dat2 a V c).Φ t.succ = PhiS2 a V c (t.val + 1) t.isLt from rfl, PhiS2_castSucc]
  rw [leaves2_0, leaves2_1, leaves2_2, leaves2_3, leaves2_4]
  unfold PhiS2
  rw [PhiT2_eq]
  by_cases h3 : cond2_3 (grid2.coords t)
  · rw [leaves2_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel2_live c Set.univ (grid2.coords t) _ _ _ _ _ _ _ _ _ _ _ _ _ _ (iblk2 a V c 0 t) (iblk2 a V c 1 t) (iblk2 a V c 2 t) (iblk2 a V c 3 t) (iblk2 a V c 4 t) d ((dat2 a V c).before 5 t d5) ((a 2).1 0) ((a 2).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep2_eq_accAt2 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt2 a V c t = k2_pay3 (iblk2 a V c 2 t) (iblk2 a V c 3 t) (accStep2 a V c t d) (iblk2 a V c 4 t) from by
      unfold outAt2; rw [accStep2_eq_accAt2 a V c t d hd]]
    iexact H5
  · rw [leaves2_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel2_idle c Set.univ (grid2.coords t) _ _ _ _ _ _ _ _ _ _ _ _ _ _ (iblk2 a V c 0 t) (iblk2 a V c 1 t) (iblk2 a V c 2 t) (iblk2 a V c 3 t) (iblk2 a V c 4 t) d ((dat2 a V c).before 5 t d5) ((a 2).1 0) ((a 2).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep2_eq_accAt2 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation2 (c : Dev nD) : BodyObligation (dat2 (F := F) a V c) (defs₀ (F := F)) Variants.none () Set.univ := fun t => by
  rw [bigSep_W2, bigSep_W2]
  exact sound_body2 a V c t

/-- The accumulator's memref is its whole scoped buffer. -/
theorem owns_scM2_eq (c : Dev nD) (d : Vec F S2000x128 .f32) :
    (owns (c : Thread nD τ) scM2 fullShare d : sProp 𝕄) = ((c : Thread nD τ).loc cc2_scratch0 ↦{fullShare} d) := by
  rw [show scM2 = Memref.whole cc2_scratch0 from rfl, owns_whole]

/-- What the region's entry hands over — the generator register, the tables whole at their contents, the scoped buffers
    no window stages — is the invariant before the first point. -/
theorem hin2 (c : Dev nD) :
    iprop(iprop(∃ r, prngReg c r) ∗ Pipeline.prefHeld (Ix := Unit) (Name := ℕ) (U := UR sig nD τ) (Lvl := ℕ) pre2 c (fun _ => fullShare) (a 2).1
        ∗ Pipeline.scopedRest (Ix := Unit) (Name := ℕ) (U := UR sig nD τ) (Lvl := ℕ) (Val := Elt F) spec2 c)
      ⊢ (dat2 a V c).Φ 0 := by
  rw [show (dat2 a V c).Φ 0 = PhiS2 a V c 0 (Nat.zero_le _) from rfl]; unfold PhiS2
  rw [scopedRest2_split]
  iintro ⟨Hg, HT, ⟨%f, Hs⟩, Hrest⟩
  isplitl [Hs]
  · iexists f; isplitr; · ipureintro; intro h0; exact absurd rfl h0
    rw [show scM2 = Memref.whole cc2_scratch0 from rfl, owns_whole]; iexact Hs
  isplitl [Hrest]; · iexact Hrest
  isplitl [Hg]; · iexact Hg
  iexact HT

/-- The invariant after the last point gives them back, the accumulator's named contents forgotten. -/
theorem hout2 (c : Dev nD) :
    (dat2 a V c).Φ (Fin.last (cfgM2 a).N)
      ⊢ iprop(iprop(Pipeline.prefHeld (Ix := Unit) (Name := ℕ) (U := UR sig nD τ) (Lvl := ℕ) pre2 c (fun _ => fullShare) (a 2).1 ∗ ∃ r, prngReg c r)
          ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 a V c).Φ (Fin.last (cfgM2 a).N) = PhiS2 a V c (cfgM2 a).N (Nat.le_refl _) from rfl]; unfold PhiS2
  rw [scopedRest2_split]
  simp only [owns_scM2_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt2_in (c : Dev nD) (w : Fin (cfgM2 a).W) (hw : ((cfgM2 a).win w).isOut = false) (hne : Pipeline.arrRef spec2 w ≠ main_v125)
    (Vin : Dev nD → Valuation τ sig (Elt F)) (hV : ∀ c b, V c b = Vin c b)
    (x : (Proc.devRef .tc main_v125 : DevRef τ sig).ty.Contents (Elt F)) (n : ℕ) :
    (dat2 a V c).arrAt w n = Function.update (Vin c) main_v125 x (Pipeline.arrRef spec2 w) :=
  ((dat2 a V c).arrAt_in w hw n).trans ((A_eq2 a V c w).trans ((hV c _).trans
    (Function.update_of_ne (StableHlo.devRef_ne_of_ne hne) _ _).symm))

/-- The first five windows are inputs, and none of their arrays is the output's. -/
theorem inputs2_isIn : ∀ w : Fin 6, w.val < 5 → (spec2 w).isOut = false := by decide
theorem inputs2_ne : ∀ w : Fin 6, w.val < 5 → Pipeline.arrRef spec2 w ≠ main_v125 := by decide

/-- At the region's exit every array of the pipeline holds what the exit valuation says: the inputs as entered, the
    output's what the write-backs leave (named `X`, so that nothing unfolds the fold over the grid). -/
theorem hF2 (c : Dev nD) (Vin : Dev nD → Valuation τ sig (Elt F)) (hV : ∀ c b, V c b = Vin c b)
    (X : (Proc.devRef .tc main_v125 : DevRef τ sig).ty.Contents (Elt F)) (hX : (dat2 a V c).arrAt 5 (cfgM2 a).N = X) :
    ∀ w, (dat2 a V c).arrAt w (cfgM2 a).N
      = Function.update (Vin c) main_v125 X (Pipeline.arrRef (Pipeline.pin (pcfgs (F := F)) a 2).spec w) := by
  intro w
  by_cases hw : w.val < 5
  · exact arrAt2_in a V c w (inputs2_isIn w hw) (inputs2_ne w hw) Vin hV X _
  · have hW : w.val < 6 := w.isLt
    obtain ⟨wv, hwv⟩ := w
    obtain rfl : wv = 5 := by simp only at hw hW; omega
    exact hX.trans (Function.update_self (Proc.devRef .tc main_v125 : DevRef τ sig) X (Vin c)).symm

set_option backward.isDefEq.respectTransparency.types false in
/-- REGION 2 over the thread state: entered from every unscoped buffer at `Vin` (whose table buffers hold the tables'
    admissible contents), left with the output array at what the write-backs leave and every other buffer as entered;
    beside them the generator register at some state and the core owing nothing. -/
def reg2 (pdats : (p : Fin 13) → (c : Dev nD) → Dat τ (Elt F) Unit ℕ (UR sig nD τ) ℕ (Pipeline.pin (pcfgs (F := F)) a p) c)
    (h : ∀ c, pdats 2 c = dat2 a V c)
    (Vin : Dev nD → Valuation τ sig (Elt F)) (hV : ∀ c b, V c b = Vin c b)
    (hpf : ∀ c k, Vin c (pre2.ref k) = (a 2).1 k) :
    Pipeline.RegionSeg (pcfgs (F := F)) a pdats () (defs₀ (F := F)) Variants.none (fun _ => ∅) (fun _ _ => 0) 2 where
  win := (launch2 (F := F)).win.to₀
  block_pos := (launch2 (F := F)).block_pos
  stage_whole := (launch2 (F := F)).stage_whole
  K := PEmpty
  osem k := k.elim
  ho := Pipeline.OwnSemFacts.none _
  hbody c := by rw [h c]; exact (body_obligation2 a V c).loose
  hwaits := Pipeline.hwaits_of_owed_zero _ _ _ _ _ _ 2 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v125 ((dat2 a V c).arrAt 5 (cfgM2 a).N)) ∗ iprop((∃ r, prngReg c r) ∗ ∃ W, owes (c : Thread nD τ) (0 : CellTallies nD τ sig Unit) W))
  X c := tblX c
  Y c := tblY a 2 c
  Z c := tblZ a 2 c (Vin c)
  hentry c := tbl_hentry a pdats (launch2 (F := F)) c (Vin c)
    (fun w => by rw [h c, A_eq2]; exact hV c _)
    (by rw [h c]; exact (dat2 a V c).share_full fun _ => rfl)
    (by rw [h c]; rfl) (by rw [h c]; rfl) (hpf c)
  hin c := by rw [h c]; exact hin2 a V c
  hout c := by rw [h c]; exact hout2 a V c
  hexit c := tbl_hexit a pdats (launch2 (F := F)) c (Vin c) (Function.update (Vin c) main_v125 ((dat2 a V c).arrAt 5 (cfgM2 a).N))
    (by rw [h c]; exact (dat2 a V c).share_full fun _ => rfl)
    (by rw [h c]; exact hF2 a V c Vin hV _ rfl)
    (upd_rest a (p := 2) (Vin c) 5 _)
    (by rw [h c]; rfl) (hpf c)

end Region2

end Cert.KernelIdeal.Hand

end
-- ==== Proof.KI.Dense3.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 3, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.KernelIdeal.Launch
import proofs.«415143_j42460046688958_3_alg».proof.Proof.Gen.KernelIdeal.Skeleton
import proofs.«415143_j42460046688958_3_alg».proof.Proof.Gen.KernelIdeal.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the contents of the prefetched tables of the program's other pipelines: region 3 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of x is in its staging buffer at every point: it is fetched at every point. Stated for any proof
    data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight is in its staging buffer at every point although it is fetched at the first only: its block index never
    moves, and the body leaves the buffer as it finds it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

/-! ## What the body leaves in the output block -/

/-- The output block after the body, from the two input blocks: its one store, of the product payload, over the
    whole block. -/
def out3_2 (x0 : Vec F S2000x128 .f32) (x1 : Vec F S128x128 .f32) : Vec F S2000x128 .f32 :=
  View.canon [⟨r3_0, k3_pay1 (View.ld x0 r3_0) (View.ld x1 r3_1)⟩]

/-- The one store covers the block. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The body on whole staging memrefs, the inputs' at read contents x0, x1 and the output's at anything, runs to the
    continuation holding the inputs' as they were and the output's at out3_2 x0 x1. The load of the output buffer
    before the store reads contents nothing depends on. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data on core c, over the printed configuration: the arrays as the region finds them; after the body at
    point t each input's buffer at its block and the output's at out3_2 of the two blocks; the invariant the scoped rest
    and the generator register, untouched; nothing owed; full shares. -/
def dat3c (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The same as proof data of pipeline 3 of the program's family, pinned at any contents a of the tables: pipeline 3
    prefetches nothing, and pinned it is the printed configuration again. -/
abbrev dat3 (c : Dev nD) : Dat τ (Elt F) Unit ℕ (UR sig nD τ) ℕ (Pipeline.pin (pcfgs (F := F)) a 3) c := dat3c V c

theorem A_eq3 (c : Dev nD) (w : Fin cfg3.W) : (dat3c V c).A w = V c (Pipeline.arrRef spec3 w) := by
  dsimp only [dat3c]

theorem after3_0 (c : Dev nD) (t : Fin cfg3.N) : (dat3c V c).after 0 t = iblk3 V c 0 t := by dsimp only [dat3c]
theorem after3_1 (c : Dev nD) (t : Fin cfg3.N) : (dat3c V c).after 1 t = iblk3 V c 1 t := by dsimp only [dat3c]
theorem after3_2 (c : Dev nD) (t : Fin cfg3.N) : (dat3c V c).after 2 t = out3_2 (iblk3 V c 0 t) (iblk3 V c 1 t) := by dsimp only [dat3c]

theorem before3_0 (c : Dev nD) (t : Fin cfg3.N) (d) : (dat3c V c).before 0 t d = iblk3 V c 0 t :=
  before3_0_of V (dat3c V c) (A_eq3 V c 0) (after3_0 V c) t d
theorem before3_1 (c : Dev nD) (t : Fin cfg3.N) (d) : (dat3c V c).before 1 t d = iblk3 V c 1 t :=
  before3_1_of V (dat3c V c) (A_eq3 V c 1) (after3_1 V c) t d

/-! ## The body obligation, at a generic point -/

/-- What the body is called with at point t, the windows one by one, -/
def bodyPre3 (c : Dev nD) (t : Fin cfg3.N) : sProp 𝕄 :=
  iprop((dat3c V c).Φ t.castSucc ∗ (dat3c V c).owesAt () t.castSucc
    ∗ (∃ d, owns (c : Thread nD τ) (st3_0 t) fullShare ((dat3c V c).before 0 t d))
    ∗ (∃ d, owns (c : Thread nD τ) (st3_1 t) fullShare ((dat3c V c).before 1 t d))
    ∗ (∃ d, owns (c : Thread nD τ) (st3_2 t) fullShare ((dat3c V c).before 2 t d)))

/-- and what it returns. -/
def bodyPost3 (c : Dev nD) (t : Fin cfg3.N) : sProp 𝕄 :=
  iprop((dat3c V c).Φ t.succ ∗ (dat3c V c).owesAt () t.succ
    ∗ owns (c : Thread nD τ) (st3_0 t) fullShare ((dat3c V c).after 0 t)
    ∗ owns (c : Thread nD τ) (st3_1 t) fullShare ((dat3c V c).after 1 t)
    ∗ owns (c : Thread nD τ) (st3_2 t) fullShare ((dat3c V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3c V c).Φ t.succ = (dat3c V c).Φ t.castSucc from rfl,
    show (dat3c V c).owesAt () t.succ = (dat3c V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation3c (c : Dev nD) : BodyObligation (dat3c (F := F) V c) (defs₀ (F := F)) Variants.none () Set.univ := fun t => by
  rw [bigSep_W3, bigSep_W3]
  exact sound_body3 V c t

/-- The same of the pinned pipeline's proof data. -/
theorem body_obligation3 (c : Dev nD) : BodyObligation (dat3 (F := F) a V c) (defs₀ (F := F)) Variants.none () Set.univ :=
  body_obligation3c V c

end Region3

/-! ## The exit valuation: the entry valuation with the result array replaced -/

section Exit3

variable (W : Valuation τ sig (Elt F)) (c : Dev nD) (x : Buf (Elt F) ((c : Thread nD τ).loc main_v128))

/-- The array of x is not the result array: the replacement leaves it. -/
theorem upd3_in0 : Function.update W main_v128 x (Pipeline.arrRef spec3 0 : Ref sig .tc) = W (Pipeline.arrRef spec3 0 : Ref sig .tc) :=
  Function.update_of_ne (StableHlo.devRef_ne_of_ne (show Pipeline.arrRef spec3 0 ≠ main_v128 by decide)) _ _
/-- Nor is the weight's. -/
theorem upd3_in1 : Function.update W main_v128 x (Pipeline.arrRef spec3 1 : Ref sig .tc) = W (Pipeline.arrRef spec3 1 : Ref sig .tc) :=
  Function.update_of_ne (StableHlo.devRef_ne_of_ne (show Pipeline.arrRef spec3 1 ≠ main_v128 by decide)) _ _
/-- Window 2's array is the result array. -/
theorem upd3_out : Function.update W main_v128 x (Pipeline.arrRef spec3 2 : Ref sig .tc) = x :=
  Function.update_self _ _ _
/-- A buffer that is no window's array is not the result array. -/
theorem upd3_rest (b : Ref sig .tc) (hb : b ∉ Finset.univ.image (Pipeline.arrRef spec3)) : Function.update W main_v128 x b = W b :=
  Function.update_of_ne (StableHlo.devRef_ne_of_ne fun e => hb (Finset.mem_image.mpr ⟨2, Finset.mem_univ _, e.symm⟩)) _ _

end Exit3

/-! ## The region as a segment of @main -/

-- a library lemma stated over the pinned pipeline unifies with the printed configuration only when unification may
-- unfold plain definitions in a metavariable's type
set_option backward.isDefEq.respectTransparency.types false in
set_option maxHeartbeats 2000000 in
/-- REGION 3 over the thread state, for any family of proof data whose pipeline 3 is dat3 at the entry valuation Vin:
    entered from every unscoped buffer at Vin, left at Vin with the result array main_v128 replaced by what the
    write-backs of the 50 points leave. Its arrays split out of the unscoped buffers and put back at the exit contents;
    the generator register into the invariant and out; nothing owed; no semaphore of the kernel's own. -/
def reg3 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 3 c = dat3 a (fun c b => Vin c b) c) :
    Pipeline.RegionSeg (pcfgs (F := F)) a pdats () defs₀ Variants.none (fun _ : GSem nD τ sig => (∅ : Finset Unit)) (fun (_ : GSem nD τ sig) (_ : Unit) => (0 : ℕ)) 3 where
  win := (launch3 (F := F)).win.to₀
  block_pos := (launch3 (F := F)).block_pos
  stage_whole := (launch3 (F := F)).stage_whole
  K := PEmpty
  osem k := k.elim
  ho := Pipeline.OwnSemFacts.none _
  hbody c := by rw [h c]; exact (body_obligation3 a (fun c b => Vin c b) c).loose
  hwaits := Pipeline.hwaits_of_owed_zero _ _ _ _ _ _ 3 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v128 ((dat3 a (fun c b => Vin c b) c).arrAt (2 : Fin 3) cfg3.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    have hd := h c
    rw [Pipeline.ownSems0_none]
    have hsplit := Pipeline.arrays_of_unscopedBufs (p := 3) (pcfgs (F := F)) a pdats (launch3 (F := F)).win (launch3 (F := F)).arr_whole c
      (by rw [hd]; exact (dat3 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat3 a (fun c b => Vin c b) c).Φ 0 = Pipeline.ΦA spec3 c from rfl]; unfold Pipeline.ΦA
    iintro ⟨Hp, -, Hr⟩
    isplitl [Hr]; · iexact Hr
    iexact Hp
  hout c := by
    rw [Pipeline.ownSems0_none, h c, show (dat3 a (fun c b => Vin c b) c).Φ (Fin.last _) = Pipeline.ΦA spec3 c from rfl]; unfold Pipeline.ΦA
    iintro ⟨Hr, Hp⟩
    isplitl [Hp]; · iexact Hp
    isplitr; · iempintro
    iexact Hr
  hexit c := by
    have hd := h c
    have hF : ∀ w : Fin 3, (dat3c (fun c b => Vin c b) c).arrAt w cfg3.N
        = Function.update (Vin c) main_v128 ((dat3 a (fun c b => Vin c b) c).arrAt (2 : Fin 3) cfg3.N) (Pipeline.arrRef spec3 w) := fun
      | ⟨0, _⟩ => (((dat3c (fun c b => Vin c b) c).arrAt_in 0 rfl _).trans (A_eq3 (fun c b => Vin c b) c 0)).trans (upd3_in0 (Vin c) c _).symm
      | ⟨1, _⟩ => (((dat3c (fun c b => Vin c b) c).arrAt_in 1 rfl _).trans (A_eq3 (fun c b => Vin c b) c 1)).trans (upd3_in1 (Vin c) c _).symm
      | ⟨2, _⟩ => (upd3_out (Vin c) c _).symm
    have hrest : ∀ b : Ref sig .tc, b ∉ Finset.univ.image (Pipeline.arrRef spec3)
        → Function.update (Vin c) main_v128 ((dat3 a (fun c b => Vin c b) c).arrAt (2 : Fin 3) cfg3.N) b = Vin c b :=
      fun b hb => upd3_rest (Vin c) c _ b hb
    have hjoin := Pipeline.unscopedBufs_of_arrays (p := 3) (pcfgs (F := F)) a (Ix := Unit) (Name := ℕ) (U := UR sig nD τ) (Lvl := ℕ)
      (launch3 (F := F)).win (launch3 (F := F)).arr_whole c pdats (by rw [hd]; exact (dat3 a (fun c b => Vin c b) c).share_full fun _ => rfl)
      (fun b => Vin c b) (fun b => Function.update (Vin c) main_v128 ((dat3 a (fun c b => Vin c b) c).arrAt (2 : Fin 3) cfg3.N) b)
      ((pdats 3 c).arrAt · cfg3.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.KernelIdeal.Hand

end
-- ==== Proof.KI.Gather4Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 4): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 4).1`, which are never evaluated. -/

/-! ## The pipeline at the admitted tables -/

/-- Pipeline 1 at the admitted contents of its two prefetched tables. -/
abbrev cfgG4 : Pipeline.Cfg sig Λ₀ := Pipeline.pin (pcfgs (F := F)) a 4

/-- Window `w`'s block at point `t`, read off its array as the region finds it (`V`); for the window whose index map
    reads the tables, a function of the tables' words. -/
def iblk4 (c : Dev nD) (w : Fin (cfgG4 a).W) (t : Fin (cfgG4 a).N) : (((cfgG4 a).win w).xblock ((cfgG4 a).grid.coords t)).Idx → Elt F ((cfgG4 a).win w).elt :=
  (((cfgG4 a).win w).blk t).view.read (Elt F) (V c (Pipeline.arrRef spec4 w))

/-! ## The tables as the body is handed them -/

abbrev tbM4_0 : Memref sig .tc .smem S123 .i32 := Memref.whole main_v86
abbrev htbM4_0 : tbM4_0.IsWhole := Memref.isWhole_whole _
abbrev tbM4_1 : Memref sig .tc .smem S123 .i32 := Memref.whole main_v89
abbrev htbM4_1 : tbM4_1.IsWhole := Memref.isWhole_whole _

/-- A table memref's buffer on core `c`: its contents type, and it held whole at `f`. -/
abbrev TbBuf4 (c : Dev nD) {S : Shape} {e : EltTy} (M : Memref sig .tc .smem S e) : Type := Buf (Elt F) (M.view.loc (c : Thread nD τ))
abbrev tbPt4 (c : Dev nD) {S : Shape} {e : EltTy} (M : Memref sig .tc .smem S e) (f : TbBuf4 (F := F) c M) : sProp 𝕄 :=
  M.view.loc (c : Thread nD τ) ↦{fullShare} f

/-- The word of a table the body loads at row `i 0`. -/
abbrev tword4 (c : Dev nD) (M : Memref sig .tc .smem S123 .i32) (i : grid4.Coords) (xt : TbBuf4 (F := F) c M) : Elt F .i32 :=
  M.view.readAt (Elt F) (Rect.unit (s := S123) (k4_off1 i) S1.size (k4_off1_inb i)).toLoadRect xt (Shape.Idx.first (numel1_S1.symm ▸ Nat.one_pos))

/-! ## The body's branch conditions -/

/-- `j = 0`: the accumulator is reset. -/
abbrev cond4_0 (i : grid4.Coords) : Prop := (Scalar.cmpi .ne (Scalar.extui (Scalar.cmpi .eq (BitVec.ofNat 32 (i 1).val) 0#32)) 0#32) = 1#1
theorem hcond4_0 : ∀ t : Fin grid4.N, cond4_0 (grid4.coords t) ↔ t.val % 125 = 0 := by decide +kernel
/-- `rlo[i] ≤ j ≤ rhi[i]` (signed), over the two table words: the block contributes. -/
abbrev cond4_1 (i : grid4.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond4_2 (i : grid4.Coords) : Prop := k4_cond3 i = 1#1
theorem hcond4_2 : ∀ t : Fin grid4.N, cond4_2 (grid4.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep4 (i : grid4.Coords) (x0 : Vec F S1x5120 .i32) (x1 : Vec F S800x128 .f32) (lo hi : BitVec 32) (xs : Vec F S5120x128 .f32) : Vec F S5120x128 .f32 :=
  if cond4_1 i lo hi then k4_pay2 i x0 x1 (if cond4_0 i then k4_pay1 (F := F) else xs) else (if cond4_0 i then k4_pay1 (F := F) else xs)

/-- The output window's buffer after the body: the scaled accumulator when `j = 124`, else what it held. -/
def outStep4 (i : grid4.Coords) (acc : Vec F S5120x128 .f32) (x2 : Vec F S5120x1 .f32) (xi3 : Vec F S5120x128 .f32) : Vec F S5120x128 .f32 :=
  if cond4_2 i then k4_pay3 acc x2 else xi3

/-- At a point that resets, what the scratch held before does not matter. -/
theorem accStep4_reset (i : grid4.Coords) (h : cond4_0 i) (x0 : Vec F S1x5120 .i32) (x1 : Vec F S800x128 .f32) (lo hi : BitVec 32) (xs xs' : Vec F S5120x128 .f32) :
    accStep4 i x0 x1 lo hi xs = accStep4 i x0 x1 lo hi xs' := by
  unfold accStep4; rw [if_pos h, if_pos h]

theorem outStep4_pos (i : grid4.Coords) (h : cond4_2 i) (acc : Vec F S5120x128 .f32) (x2 : Vec F S5120x1 .f32) (xi3 : Vec F S5120x128 .f32) :
    outStep4 i acc x2 xi3 = k4_pay3 acc x2 := by unfold outStep4; exact if_pos h
theorem outStep4_neg (i : grid4.Coords) (h : ¬cond4_2 i) (acc : Vec F S5120x128 .f32) (x2 : Vec F S5120x1 .f32) (xi3 : Vec F S5120x128 .f32) :
    outStep4 i acc x2 xi3 = xi3 := by unfold outStep4; exact if_neg h

/-! ## The schedule of the output window, whose index map reads no table -/

/-- The output block is written back at the last `j` of each `i`. -/
theorem flush4_3 : ∀ t : Fin (cfgG4 a).N, ((cfgG4 a).win 3).flush t = true ↔ t.val % 125 = 124 :=
  (by decide +kernel : ∀ t : Fin grid4.N, Pipeline.Window.flushOf grid4 true cc4_transform_3 t = true ↔ t.val % 125 = 124)

/-- The inputs are never idle. -/
theorem liveAt4_0 (t : Fin (cfgG4 a).N) : (cfgG4 a).idle 0 ((cfgG4 a).grid.coords t) = false := rfl
theorem liveAt4_1 (t : Fin (cfgG4 a).N) : (cfgG4 a).idle 1 ((cfgG4 a).grid.coords t) = false := rfl
theorem liveAt4_2 (t : Fin (cfgG4 a).N) : (cfgG4 a).idle 2 ((cfgG4 a).grid.coords t) = false := rfl
/-- The output is idle exactly where the body does not store it. -/
theorem idle4_3_eq (i : grid4.Coords) : (cfgG4 a).idle 3 i = !(k4_cond3 i == 1#1) := rfl
theorem idleAt4_3 (t : Fin (cfgG4 a).N) (h : ¬cond4_2 (grid4.coords t)) : (cfgG4 a).idle 3 ((cfgG4 a).grid.coords t) = true := by
  show (!(k4_cond3 (grid4.coords t) == 1#1)) = true
  rw [beq_eq_false_iff_ne.mpr h]; rfl
theorem liveAt4_3 (t : Fin (cfgG4 a).N) (h : cond4_2 (grid4.coords t)) : (cfgG4 a).idle 3 ((cfgG4 a).grid.coords t) = false := by
  show (!(k4_cond3 (grid4.coords t) == 1#1)) = false
  rw [show k4_cond3 (grid4.coords t) = 1#1 from h]; rfl
theorem noFlush4_3 (t : Fin (cfgG4 a).N) (h : ¬cond4_2 (grid4.coords t)) : ((cfgG4 a).win 3).flush t = false := by
  rw [Bool.eq_false_iff]; intro hf; exact h ((hcond4_2 t).mpr ((flush4_3 a t).mp hf))

/-! ## The memrefs the body is called with at a point -/

abbrev ms4_0 (t : Fin (cfgG4 a).N) : Memref sig .tc .vmem S1x5120 .i32 := spec4_0.stage ((cfgG4 a).slots t 0)
abbrev hs4_0 (t : Fin (cfgG4 a).N) : (ms4_0 a t).IsWhole := hstage4_0 (((cfgG4 a).slots t 0).cast nbuf4_0)
abbrev ms4_1 (t : Fin (cfgG4 a).N) : Memref sig .tc .vmem S800x128 .f32 := spec4_1.stage ((cfgG4 a).slots t 1)
abbrev hs4_1 (t : Fin (cfgG4 a).N) : (ms4_1 a t).IsWhole := hstage4_1 (((cfgG4 a).slots t 1).cast nbuf4_1)
abbrev ms4_2 (t : Fin (cfgG4 a).N) : Memref sig .tc .vmem S5120x1 .f32 := spec4_2.stage ((cfgG4 a).slots t 2)
abbrev hs4_2 (t : Fin (cfgG4 a).N) : (ms4_2 a t).IsWhole := hstage4_2 (((cfgG4 a).slots t 2).cast nbuf4_2)
abbrev ms4_3 (t : Fin (cfgG4 a).N) : Memref sig .tc .vmem S5120x128 .f32 := spec4_3.stage ((cfgG4 a).slots t 3)
abbrev hs4_3 (t : Fin (cfgG4 a).N) : (ms4_3 a t).IsWhole := hstage4_3 (((cfgG4 a).slots t 3).cast nbuf4_3)
/-- The scratch accumulator: a whole scoped buffer of the kernel's own. -/
abbrev scM4 : Memref sig .tc .vmem S5120x128 .f32 := Memref.whole cc4_scratch0

/-- The kernel body at point `t`, on what the pipeline calls it with. -/
abbrev bodyAt4 (t : Fin (cfgG4 a).N) : Prog (TpuEff nD τ sig (Elt F) Λ₀ .tc) PUnit :=
  cc4__gather_kernel (grid4.coords t) tbM4_0 htbM4_0 tbM4_1 htbM4_1 (ms4_0 a t) (hs4_0 a t) (ms4_1 a t) (hs4_1 a t) (ms4_2 a t) (hs4_2 a t) (ms4_3 a t) (hs4_3 a t) scM4 (Memref.isWhole_whole _)

/-! ## The tables' words at a point, and the accumulator point by point -/

/-- The words of the two tables at the row of point `t` (`rlo[i]`, `rhi[i]`), as the body loads them. -/
abbrev lo4 (c : Dev nD) (t : Fin (cfgG4 a).N) : BitVec 32 := tword4 c tbM4_0 (grid4.coords t) ((a 4).1 0)
abbrev hi4 (c : Dev nD) (t : Fin (cfgG4 a).N) : BitVec 32 := tword4 c tbM4_1 (grid4.coords t) ((a 4).1 1)

/-- THE ACCUMULATION. What the scratch holds after the body at position `n`, by recursion on the position: one step
    (`accStep4`: reset at `j = 0`, the gated one-hot product added) over what it held after the position before. -/
def accAt4 (c : Dev nD) : (n : ℕ) → n < (cfgG4 a).N → Vec F S5120x128 .f32
  | 0, hn => accStep4 (grid4.coords ⟨0, hn⟩) (iblk4 a V c 0 ⟨0, hn⟩) (iblk4 a V c 1 ⟨0, hn⟩) (lo4 a c ⟨0, hn⟩) (hi4 a c ⟨0, hn⟩) (k4_pay1 (F := F))
  | n + 1, hn => accStep4 (grid4.coords ⟨n + 1, hn⟩) (iblk4 a V c 0 ⟨n + 1, hn⟩) (iblk4 a V c 1 ⟨n + 1, hn⟩) (lo4 a c ⟨n + 1, hn⟩) (hi4 a c ⟨n + 1, hn⟩) (accAt4 c n (Nat.lt_of_succ_lt hn))

/-- One step at any point, over any `xs` that is what the point before left when there is one. -/
theorem accAt4_step (c : Dev nD) (t : Fin (cfgG4 a).N) (xs : Vec F S5120x128 .f32)
    (hxs : ∀ hz : t.val ≠ 0, xs = accAt4 a V c (t.val - 1) (Nat.lt_of_le_of_lt (Nat.sub_le _ _) t.isLt)) :
    accAt4 a V c t.val t.isLt = accStep4 (grid4.coords t) (iblk4 a V c 0 t) (iblk4 a V c 1 t) (lo4 a c t) (hi4 a c t) xs := by
  obtain ⟨n, hn⟩ := t
  cases n with
  | zero => exact accStep4_reset _ ((hcond4_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB4 (c : Dev nD) : sProp 𝕄 :=
  Pipeline.scopedRestBut (Ix := Unit) (Name := ℕ) (U := UR sig nD τ) (Lvl := ℕ) (Val := Elt F) spec4 c [cc4_scratch0]
/-- The two tables, whole, at the admitted contents. -/
abbrev tabs4 (c : Dev nD) : sProp 𝕄 :=
  Pipeline.prefHeld (Ix := Unit) (Name := ℕ) (U := UR sig nD τ) (Lvl := ℕ) pre4 c (fun _ => fullShare) (a 4).1

/-- The region invariant before position `n`: before the first point the scoped rest and the generator register as the
    region finds them; afterwards the scratch at what the point before left; at every point the tables whole. -/
def PhiS4 (c : Dev nD) : (n : ℕ) → n ≤ (cfgG4 a).N → sProp 𝕄
  | 0, _ => iprop(Pipeline.ΦA spec4 c ∗ tabs4 a c)
  | n + 1, hn => iprop(iprop(iprop(owns (c : Thread nD τ) scM4 fullShare (accAt4 a V c n hn) ∗ restB4 c) ∗ (∃ r, prngReg c r)) ∗ tabs4 a c)

theorem PhiS4_succ (c : Dev nD) (n : ℕ) (hn : n < (cfgG4 a).N) :
    PhiS4 a V c (n + 1) hn = iprop(iprop(iprop(owns (c : Thread nD τ) scM4 fullShare (accAt4 a V c n hn) ∗ restB4 c) ∗ (∃ r, prngReg c r)) ∗ tabs4 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS4`;
    nothing owed; full shares. -/
def dat4 (c : Dev nD) : Dat τ (Elt F) Unit ℕ (UR sig nD τ) ℕ (Pipeline.pin (pcfgs (F := F)) a 4) c where
  A w := V c (Pipeline.arrRef spec4 w)
  after w t := match w with
    | ⟨0, _⟩ => iblk4 a V c 0 t
    | ⟨1, _⟩ => iblk4 a V c 1 t
    | ⟨2, _⟩ => iblk4 a V c 2 t
    | ⟨3, _⟩ => k4_pay3 (accAt4 a V c t.val t.isLt) (iblk4 a V c 2 t)
  Φ t := PhiS4 a V c t.val (Nat.le_of_lt_succ t.isLt)
  q _ := fullShare
  owed _ := 0

theorem A_eq4 (c : Dev nD) (w : Fin (cfgG4 a).W) : (dat4 a V c).A w = V c (Pipeline.arrRef spec4 w) := by
  dsimp only [dat4]

theorem after4_0 (c : Dev nD) (t : Fin (cfgG4 a).N) : (dat4 a V c).after 0 t = iblk4 a V c 0 t := by dsimp only [dat4]; try rfl
theorem after4_1 (c : Dev nD) (t : Fin (cfgG4 a).N) : (dat4 a V c).after 1 t = iblk4 a V c 1 t := by dsimp only [dat4]; try rfl
theorem after4_2 (c : Dev nD) (t : Fin (cfgG4 a).N) : (dat4 a V c).after 2 t = iblk4 a V c 2 t := by dsimp only [dat4]; try rfl
theorem after4_3 (c : Dev nD) (t : Fin (cfgG4 a).N) :
    (dat4 a V c).after 3 t = k4_pay3 (accAt4 a V c t.val t.isLt) (iblk4 a V c 2 t) := by dsimp only [dat4]; try rfl

theorem PhiS4_castSucc (c : Dev nD) (t : Fin (cfgG4 a).N) :
    (dat4 a V c).Φ t.castSucc = PhiS4 a V c t.val (Nat.le_of_lt t.isLt) := by
  dsimp only [dat4]; simp only [Fin.coe_castSucc]

end Cert.KernelIdeal.Hand

end
-- ==== Proof.KI.Gather4Runs.lean ====
import proofs.«415143_j42460046688958_3_alg».proof.Proof.KI.Gather4Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 4): its triple, control case by control case -/

/-! ## Loads and stores through the whole-buffer rectangle at zero offsets -/

theorem vec2_zero_g4 : (![0, 0] : Fin 2 → ℕ) = fun _ => 0 := by funext b; fin_cases b <;> rfl

/-- A load of a whole memref held at contents that read `X` reads `X`. -/
theorem readAt_whole_unread_g4 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g4 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g4 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g4 (i : grid4.Coords) {u u' : Vec F S1x5120 .i32} {v v' : Vec F S800x128 .f32} {s s' : Vec F S5120x128 .f32}
    (hu : u = u') (hv : v = v') (hs : s = s') : k4_pay2 i u v s = k4_pay2 i u' v' s' := by rw [hu, hv, hs]
theorem pay3_congr_g4 {s s' : Vec F S5120x128 .f32} {n n' : Vec F S5120x1 .f32}
    (hs : s = s') (hn : n = n') : k4_pay3 s n = k4_pay3 s' n' := by rw [hs, hn]

theorem accStep4_TT_g4 (i : grid4.Coords) (x0 : Vec F S1x5120 .i32) (x1 : Vec F S800x128 .f32) (lo hi : BitVec 32) (xs : Vec F S5120x128 .f32)
    (h0 : cond4_0 i) (h1 : cond4_1 i lo hi) : accStep4 i x0 x1 lo hi xs = k4_pay2 i x0 x1 (k4_pay1 (F := F)) := by
  unfold accStep4; rw [if_pos h1, if_pos h0]
theorem accStep4_TF_g4 (i : grid4.Coords) (x0 : Vec F S1x5120 .i32) (x1 : Vec F S800x128 .f32) (lo hi : BitVec 32) (xs : Vec F S5120x128 .f32)
    (h0 : cond4_0 i) (h1 : ¬cond4_1 i lo hi) : accStep4 i x0 x1 lo hi xs = (k4_pay1 (F := F) : Vec F S5120x128 .f32) := by
  unfold accStep4; rw [if_neg h1, if_pos h0]
theorem accStep4_FT_g4 (i : grid4.Coords) (x0 : Vec F S1x5120 .i32) (x1 : Vec F S800x128 .f32) (lo hi : BitVec 32) (xs : Vec F S5120x128 .f32)
    (h0 : ¬cond4_0 i) (h1 : cond4_1 i lo hi) : accStep4 i x0 x1 lo hi xs = k4_pay2 i x0 x1 xs := by
  unfold accStep4; rw [if_pos h1, if_neg h0]
theorem accStep4_FF_g4 (i : grid4.Coords) (x0 : Vec F S1x5120 .i32) (x1 : Vec F S800x128 .f32) (lo hi : BitVec 32) (xs : Vec F S5120x128 .f32)
    (h0 : ¬cond4_0 i) (h1 : ¬cond4_1 i lo hi) : accStep4 i x0 x1 lo hi xs = xs := by
  unfold accStep4; rw [if_neg h1, if_neg h0]
theorem outStep4_T_g4 (i : grid4.Coords) (acc : Vec F S5120x128 .f32) (x2 : Vec F S5120x1 .f32) (xi3 : Vec F S5120x128 .f32)
    (h2 : cond4_2 i) : outStep4 i acc x2 xi3 = k4_pay3 acc x2 := by unfold outStep4; rw [if_pos h2]
theorem outStep4_F_g4 (i : grid4.Coords) (acc : Vec F S5120x128 .f32) (x2 : Vec F S5120x1 .f32) (xi3 : Vec F S5120x128 .f32)
    (h2 : ¬cond4_2 i) : outStep4 i acc x2 xi3 = xi3 := by unfold outStep4; rw [if_neg h2]

set_option maxHeartbeats 4000000 in
/-- The body in the control case A: the accumulator reset, the table words admitting the column block, the output not stored. -/
theorem kernel4_A (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : cond4_0 i) (hc1 : cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay2 i x0 x1 (k4_pay1 (F := F))) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readCov_whole_g4 arg8 vec2_zero_g4 _ _ _))
  isplitl [HT0]; · iexact HT0
  iexact HT1

set_option maxHeartbeats 4000000 in
/-- The body in the control case B: the accumulator reset, the table words not admitting the column block, the output not stored. -/
theorem kernel4_B (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : cond4_0 i) (hc1 : ¬cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay1 (F := F) : Vec F S5120x128 .f32) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _)
  isplitl [HT0]; · iexact HT0
  iexact HT1

set_option maxHeartbeats 4000000 in
/-- The body in the control case C: the accumulator not reset, the table words admitting the column block, the output not stored. -/
theorem kernel4_C (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k4_pay2 i x0 x1 xs) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))
  isplitl [HT0]; · iexact HT0
  iexact HT1

set_option maxHeartbeats 4000000 in
/-- The body in the control case D: the accumulator not reset, the table words not admitting the column block, the output not stored. -/
theorem kernel4_D (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : ¬cond4_1 i (tword4 c tbM4_0 i xt0) (tword4 c tbM4_1 i xt1)) (hc2 : ¬cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel4_E (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : cond4_1 i (tword4 c tbM4_0 i xt0) (tword4 c tbM4_1 i xt1)) (hc2 : cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare (k4_pay3 (k4_pay2 i x0 x1 xs) x2)
            ∗ owns (c : Thread nD τ) arg8 fullShare (k4_pay2 i x0 x1 xs) ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g4 arg7 _ vec2_zero_g4 _ _ _).trans (pay3_congr_g4 ((readCov_whole_g4 arg8 vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))) (readAt_whole_unread_g4 arg6 harg6 x2 vec2_zero_g4 _))
  isplitl [HS]
  · iexists _; isplitr
    swap; · iexact HS
    ipureintro
    exact (read_writes_whole_g4 arg8 _ vec2_zero_g4 _ _ _).trans (pay2_congr_g4 i (readAt_whole_unread_g4 arg4 harg4 x0 vec2_zero_g4 _) (readAt_whole_unread_g4 arg5 harg5 x1 vec2_zero_g4 _) (readAt_whole_unread_g4 arg8 harg8 xs vec2_zero_g4 _))
  isplitl [HT0]; · iexact HT0
  iexact HT1

set_option maxHeartbeats 4000000 in
/-- The body in the control case G: the accumulator not reset, the table words not admitting the column block, the output stored. -/
theorem kernel4_G (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hc0 : ¬cond4_0 i) (hc1 : ¬cond4_1 i (tword4 c tbM4_0 i xt0) (tword4 c tbM4_1 i xt1)) (hc2 : cond4_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare (k4_pay3 xs x2)
            ∗ owns (c : Thread nD τ) arg8 fullShare xs ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g4 arg7 _ vec2_zero_g4 _ _ _).trans (pay3_congr_g4 (readAt_whole_unread_g4 arg8 harg8 xs vec2_zero_g4 _) (readAt_whole_unread_g4 arg6 harg6 x2 vec2_zero_g4 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel4 (c : Dev nD) (i : grid4.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf4 (F := F) c tbM4_0) (xt1 : TbBuf4 (F := F) c tbM4_1) (xs : Vec F S5120x128 .f32)
    (hx : cond4_0 i → ¬cond4_2 i)
    (acc' : Vec F S5120x128 .f32) (hacc : acc' = accStep4 i x0 x1 (tword4 c tbM4_0 i xt0) (tword4 c tbM4_1 i xt1) xs)
    (out' : Vec F S5120x128 .f32) (hout : out' = outStep4 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt4 c tbM4_0 xt0 ∗ tbPt4 c tbM4_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt4 c tbM4_0 xt0 ∗ tbPt4 c tbM4_1 xt1) -∗ K ⟨⟩))
      ⊢ wp frame (wpE (defs₀ (F := F)) Variants.none c none) E (cc4__gather_kernel i tbM4_0 htbM4_0 tbM4_1 htbM4_1 arg4 harg4 arg5 harg5 arg6 harg6 arg7 harg7 arg8 harg8) K := by
  subst hout; subst hacc
  by_cases h0 : cond4_0 i <;> by_cases h1 : cond4_1 i (tword4 c tbM4_0 i xt0) (tword4 c tbM4_1 i xt1) <;> by_cases h2 : cond4_2 i
  · exact absurd h2 (hx h0)
  · rw [outStep4_F_g4 _ _ _ _ h2, accStep4_TT_g4 _ _ _ _ _ _ h0 h1]; exact kernel4_A c i arg4 harg4 arg5 harg5 arg6 harg6 arg7 harg7 arg8 harg8 x0 x1 x2 xi3 xt0 xt1 xs h0 h1 h2 E K
  · exact absurd h2 (hx h0)
  · rw [outStep4_F_g4 _ _ _ _ h2, accStep4_TF_g4 _ _ _ _ _ _ h0 h1]; exact kernel4_B c i arg4 harg4 arg5 harg5 arg6 harg6 arg7 harg7 arg8 harg8 x0 x1 x2 xi3 xt0 xt1 xs h0 h1 h2 E K
  · rw [outStep4_T_g4 _ _ _ _ h2, accStep4_FT_g4 _ _ _ _ _ _ h0 h1]; exact kernel4_E c i arg4 harg4 arg5 harg5 arg6 harg6 arg7 harg7 arg8 harg8 x0 x1 x2 xi3 xt0 xt1 xs h0 h1 h2 E K
  · rw [outStep4_F_g4 _ _ _ _ h2, accStep4_FT_g4 _ _ _ _ _ _ h0 h1]; exact kernel4_C c i arg4 harg4 arg5 harg5 arg6 harg6 arg7 harg7 arg8 harg8 x0 x1 x2 xi3 xt0 xt1 xs h0 h1 h2 E K
  · rw [outStep4_T_g4 _ _ _ _ h2, accStep4_FF_g4 _ _ _ _ _ _ h0 h1]; exact kernel4_G c i arg4 harg4 arg5 harg5 arg6 harg6 arg7 harg7 arg8 harg8 x0 x1 x2 xi3 xt0 xt1 xs h0 h1 h2 E K
  · rw [outStep4_F_g4 _ _ _ _ h2, accStep4_FF_g4 _ _ _ _ _ _ h0 h1]; exact kernel4_D c i arg4 harg4 arg5 harg5 arg6 harg6 arg7 harg7 arg8 harg8 x0 x1 x2 xi3 xt0 xt1 xs h0 h1 h2 E K

end Cert.KernelIdeal.Hand

end
-- ==== Proof.KI.Gather4.lean ====
import proofs.«415143_j42460046688958_3_alg».proof.Proof.KI.Gather4Runs
import proofs.«415143_j42460046688958_3_alg».proof.Proof.KI.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 4): the body obligation and the region as a segment of @main -/

theorem PhiA4_eq (c : Dev nD) :
    (Pipeline.ΦA spec4 c : sProp 𝕄)
      = iprop(iprop(iprop((∃ d, owns (c : Thread nD τ) scM4 fullShare d)) ∗ restB4 c) ∗ (∃ r, prngReg c r)) := by
  unfold Pipeline.ΦA; rw [scopedRest4_split]; simp only [scM4, owns_whole]; try rfl

theorem PhiT4_eq (c : Dev nD) : (tabs4 a c : sProp 𝕄) = iprop(tbPt4 c tbM4_0 ((a 4).1 0) ∗ tbPt4 c tbM4_1 ((a 4).1 1)) := by
  unfold tabs4 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS4_open (c : Dev nD) (n : ℕ) (h : n ≤ (cfgG4 a).N) :
    PhiS4 a V c n h ⊢ iprop(∃ xs, ⌜∀ hz : n ≠ 0, xs = accAt4 a V c (n - 1) (by omega)⌝ ∗ owns (c : Thread nD τ) scM4 fullShare xs ∗ restB4 c
      ∗ (∃ r, prngReg c r) ∗ tbPt4 c tbM4_0 ((a 4).1 0) ∗ tbPt4 c tbM4_1 ((a 4).1 1)) := by
  cases n with
  | zero =>
    rw [show PhiS4 a V c 0 h = iprop(Pipeline.ΦA spec4 c ∗ tabs4 a c) from rfl, PhiA4_eq, PhiT4_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS4_succ, PhiT4_eq]
    iintro ⟨⟨⟨HS, Hr⟩, Hg⟩, HT0, HT1⟩
    iexists (accAt4 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS4_out (c : Dev nD) (n : ℕ) (h : n ≤ (cfgG4 a).N) : PhiS4 a V c n h ⊢ iprop(Pipeline.ΦA spec4 c ∗ tabs4 a c) := by
  cases n with
  | zero => exact .rfl
  | succ n =>
    rw [PhiS4_succ, PhiA4_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before4_0_of {c : Dev nD} (dat : Dat τ (Elt F) Unit ℕ (UR sig nD τ) ℕ (cfgG4 a) c) (hA : dat.A 0 = V c (Pipeline.arrRef spec4 0))
    (hafter : ∀ t, dat.after 0 t = iblk4 a V c 0 t) (t : Fin (cfgG4 a).N) (d) : dat.before 0 t d = iblk4 a V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ (cfgG4 a) c) (hA : dat.A 1 = V c (Pipeline.arrRef spec4 1))
    (hafter : ∀ t, dat.after 1 t = iblk4 a V c 1 t) (t : Fin (cfgG4 a).N) (d) : dat.before 1 t d = iblk4 a V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ (cfgG4 a) c) (hA : dat.A 2 = V c (Pipeline.arrRef spec4 2))
    (hafter : ∀ t, dat.after 2 t = iblk4 a V c 2 t) (t : Fin (cfgG4 a).N) (d) : dat.before 2 t d = iblk4 a V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin (cfgG4 a).N) (d) : (dat4 a V c).before 0 t d = iblk4 a V c 0 t :=
  before4_0_of a V (dat4 a V c) (A_eq4 a V c 0) (after4_0 a V c) t d
theorem before4_1 (c : Dev nD) (t : Fin (cfgG4 a).N) (d) : (dat4 a V c).before 1 t d = iblk4 a V c 1 t :=
  before4_1_of a V (dat4 a V c) (A_eq4 a V c 1) (after4_1 a V c) t d
theorem before4_2 (c : Dev nD) (t : Fin (cfgG4 a).N) (d) : (dat4 a V c).before 2 t d = iblk4 a V c 2 t :=
  before4_2_of a V (dat4 a V c) (A_eq4 a V c 2) (after4_2 a V c) t d

/-! ## What the body leaves in each window's buffer -/

/-- At a point live for a window the obligation asks for the window's buffer at what the body leaves there. -/
theorem leavesExact_live_g4 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves4_0 (c : Dev nD) (t : Fin (cfgG4 a).N) :
    (dat4 a V c).leavesExact 0 t = owns (c : Thread nD τ) (ms4_0 a t) fullShare (iblk4 a V c 0 t) := by
  rw [leavesExact_live_g4 (dat4 a V c) 0 t (liveAt4_0 a t), after4_0]; rfl
theorem leaves4_1 (c : Dev nD) (t : Fin (cfgG4 a).N) :
    (dat4 a V c).leavesExact 1 t = owns (c : Thread nD τ) (ms4_1 a t) fullShare (iblk4 a V c 1 t) := by
  rw [leavesExact_live_g4 (dat4 a V c) 1 t (liveAt4_1 a t), after4_1]; rfl
theorem leaves4_2 (c : Dev nD) (t : Fin (cfgG4 a).N) :
    (dat4 a V c).leavesExact 2 t = owns (c : Thread nD τ) (ms4_2 a t) fullShare (iblk4 a V c 2 t) := by
  rw [leavesExact_live_g4 (dat4 a V c) 2 t (liveAt4_2 a t), after4_2]; rfl

/-- The output's buffer at one step of the output over what the body found is what the obligation asks of it: the
    scaled accumulator where the body stores it, what it found where the window is idle. -/
theorem leaves4_3_intro (c : Dev nD) (t : Fin (cfgG4 a).N) (d) :
    owns (c : Thread nD τ) (ms4_3 a t) fullShare (outStep4 (grid4.coords t) (accAt4 a V c t.val t.isLt) (iblk4 a V c 2 t) ((dat4 a V c).before 3 t d))
      ⊢ ((dat4 a V c).leavesExact 3 t : sProp 𝕄) := by
  by_cases h2 : cond4_2 (grid4.coords t)
  · rw [leavesExact_live_g4 (dat4 a V c) 3 t (liveAt4_3 a t h2), after4_3]
    exact Entails.of_eq (congrArg (owns (c : Thread nD τ) (ms4_3 a t) fullShare) (outStep4_pos _ h2 _ _ _))
  · rw [Dat.leavesExact_idle (dat4 a V c) 3 t (idleAt4_3 a t h2) (noFlush4_3 a t h2)]
    refine (Entails.of_eq (congrArg (owns (c : Thread nD τ) (ms4_3 a t) fullShare) (outStep4_neg _ h2 _ _ _))).trans ?_
    iintro H; iexists d; iexact H

/-! ## The body obligation, at a generic point -/

def bodyPre4 (c : Dev nD) (t : Fin (cfgG4 a).N) : sProp 𝕄 :=
  iprop((dat4 a V c).Φ t.castSucc ∗ (dat4 a V c).owesAt () t.castSucc
    ∗ (∃ d, owns (c : Thread nD τ) (ms4_0 a t) fullShare ((dat4 a V c).before 0 t d))
    ∗ (∃ d, owns (c : Thread nD τ) (ms4_1 a t) fullShare ((dat4 a V c).before 1 t d))
    ∗ (∃ d, owns (c : Thread nD τ) (ms4_2 a t) fullShare ((dat4 a V c).before 2 t d))
    ∗ (∃ d, owns (c : Thread nD τ) (ms4_3 a t) fullShare ((dat4 a V c).before 3 t d)))

def bodyPost4 (c : Dev nD) (t : Fin (cfgG4 a).N) : sProp 𝕄 :=
  iprop((dat4 a V c).Φ t.succ ∗ (dat4 a V c).owesAt () t.succ
    ∗ (dat4 a V c).leavesExact 0 t
    ∗ (dat4 a V c).leavesExact 1 t
    ∗ (dat4 a V c).leavesExact 2 t
    ∗ (dat4 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body4 (c : Dev nD) (t : Fin (cfgG4 a).N) :
    bodyPre4 a V c t ⊢ wp frame (wpE (defs₀ (F := F)) Variants.none c none) Set.univ (bodyAt4 a t) (fun _ => bodyPost4 a V c t) := by
  unfold bodyPre4 bodyPost4 bodyAt4
  simp only [before4_0, before4_1, before4_2]
  rw [show (dat4 a V c).owesAt () t.succ = (dat4 a V c).owesAt () t.castSucc from rfl]
  rw [show (dat4 a V c).Φ t.succ = PhiS4 a V c (t.val + 1) t.isLt from rfl, PhiS4_succ, PhiT4_eq]
  rw [leaves4_0, leaves4_1, leaves4_2, PhiS4_castSucc]
  iintro ⟨HΦ, Ho, ⟨%d0, H0⟩, ⟨%d1, H1⟩, ⟨%d2, H2⟩, ⟨%d3, H3⟩⟩
  ihave HΦ' := (PhiS4_open a V c t.val (Nat.le_of_lt t.isLt)) $$ HΦ
  icases HΦ' with ⟨%xs, %hxs, HS, Hr, Hg, HT0, HT1⟩
  iapply (kernel4 c (grid4.coords t) (ms4_0 a t) (hs4_0 a t) (ms4_1 a t) (hs4_1 a t) (ms4_2 a t) (hs4_2 a t) (ms4_3 a t) (hs4_3 a t) scM4 (Memref.isWhole_whole _)
    (iblk4 a V c 0 t) (iblk4 a V c 1 t) (iblk4 a V c 2 t) ((dat4 a V c).before 3 t d3) ((a 4).1 0) ((a 4).1 1) xs
    (fun h0 h2 => by have e0 := (hcond4_0 t).mp h0; have e2 := (hcond4_2 t).mp h2; omega)
    (accAt4 a V c t.val t.isLt) (accAt4_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves4_3_intro a V c t d3)
  iexact H3

/-- The library's body obligation, at every point. -/
theorem body_obligation4 (c : Dev nD) : BodyObligation (dat4 (F := F) a V c) (defs₀ (F := F)) Variants.none () Set.univ := fun t => by
  rw [bigSep_W4, bigSep_W4]
  exact sound_body4 a V c t

/-! ## The region as a segment of @main -/

/-- What rides beside the buffers through every segment: the generator register at some state, nothing owed. -/
abbrev R4 (c : Dev nD) : sProp 𝕄 := iprop((∃ r, prngReg c r) ∗ ∃ W, owes (c : Thread nD τ) (0 : CellTallies nD τ sig Unit) W)

theorem Phi4_in (c : Dev nD) : iprop((∃ r, prngReg c r) ∗ tabs4 a c ∗ Pipeline.scopedRest (Ix := Unit) (Name := ℕ) (U := UR sig nD τ) (Lvl := ℕ) (Val := Elt F) spec4 c) ⊢ ((dat4 a V c).Φ 0 : sProp 𝕄) := by
  rw [show (dat4 a V c).Φ 0 = iprop(Pipeline.ΦA spec4 c ∗ tabs4 a c) from rfl]; unfold Pipeline.ΦA
  iintro ⟨Hp, HT, Hr⟩
  isplitl [Hr Hp]
  · isplitl [Hr]; · iexact Hr
    iexact Hp
  iexact HT

theorem Phi4_out (c : Dev nD) : ((dat4 a V c).Φ (Fin.last (cfgG4 a).N) : sProp 𝕄)
    ⊢ iprop(iprop(tabs4 a c ∗ ∃ r, prngReg c r) ∗ BI.emp ∗ Pipeline.scopedRest (Ix := Unit) (Name := ℕ) (U := UR sig nD τ) (Lvl := ℕ) (Val := Elt F) spec4 c) := by
  rw [show (dat4 a V c).Φ (Fin.last (cfgG4 a).N) = PhiS4 a V c (cfgG4 a).N (Nat.le_refl _) from rfl]
  refine (PhiS4_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF4 (Vin : Dev nD → Valuation τ sig (Elt F)) (hV : ∀ c b, V c b = Vin c b) (c : Dev nD) : ∀ w : Fin 4,
    (dat4 a V c).arrAt w (cfgG4 a).N
      = Function.update (Vin c) main_v129 ((dat4 a V c).arrAt 3 (cfgG4 a).N) (Proc.devRef .tc (Pipeline.arrRef spec4 w))
  | 0 => ((((dat4 a V c).arrAt_in 0 rfl _).trans (A_eq4 a V c 0)).trans (hV c _)).trans
      (Function.update_of_ne (StableHlo.devRef_ne_of_ne (by decide : Pipeline.arrRef spec4 0 ≠ main_v129)) _ _).symm
  | 1 => ((((dat4 a V c).arrAt_in 1 rfl _).trans (A_eq4 a V c 1)).trans (hV c _)).trans
      (Function.update_of_ne (StableHlo.devRef_ne_of_ne (by decide : Pipeline.arrRef spec4 1 ≠ main_v129)) _ _).symm
  | 2 => ((((dat4 a V c).arrAt_in 2 rfl _).trans (A_eq4 a V c 2)).trans (hV c _)).trans
      (Function.update_of_ne (StableHlo.devRef_ne_of_ne (by decide : Pipeline.arrRef spec4 2 ≠ main_v129)) _ _).symm
  | 3 => (Function.update_self (Proc.devRef .tc main_v129) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat4` at this pipeline. -/
def reg4 (pdats : (p : Fin 13) → (c : Dev nD) → Dat τ (Elt F) Unit ℕ (UR sig nD τ) ℕ (Pipeline.pin (pcfgs (F := F)) a p) c)
    (h : ∀ c, pdats 4 c = dat4 a V c)
    (Vin : Dev nD → Valuation τ sig (Elt F)) (hV : ∀ c b, V c b = Vin c b)
    (hpf : ∀ c k, Vin c (pre4.ref k) = (a 4).1 k) :
    Pipeline.RegionSeg (pcfgs (F := F)) a pdats () defs₀ Variants.none (fun _ => (∅ : Finset Unit)) (fun _ _ => (0 : ℕ)) 4 where
  win := (launch4 (F := F)).win.to₀
  block_pos := (launch4 (F := F)).block_pos
  stage_whole := (launch4 (F := F)).stage_whole
  K := PEmpty
  osem k := k.elim
  ho := Pipeline.OwnSemFacts.none _
  hbody c := by rw [h c]; exact (body_obligation4 a V c).loose
  hwaits := Pipeline.hwaits_of_owed_zero _ _ _ _ _ _ 4 fun c t => by rw [h c]; rfl
  pre c := iprop(StableHlo.held (c : Thread nD τ) (Pipeline.ucRefs τ sig) (Vin c) ∗ R4 c)
  post c := iprop(StableHlo.held (c : Thread nD τ) (Pipeline.ucRefs τ sig)
      (Function.update (Vin c) main_v129 ((dat4 a V c).arrAt 3 (cfgG4 a).N)) ∗ R4 c)
  X c := tblX c
  Y c := tblY a 4 c
  Z c := tblZ a 4 c (Vin c)
  hentry c := tbl_hentry a pdats (launch4 (F := F)) c (Vin c) (fun w => by rw [h c]; exact (A_eq4 a V c w).trans (hV c _))
    (fun w => by rw [h c]; exact (dat4 a V c).share_full (fun _ => rfl) w) (by rw [h c]; rfl) (by rw [h c]; rfl) (hpf c)
  hin c := by rw [h c]; exact Phi4_in a V c
  hout c := by rw [Pipeline.ownSems0_none, h c]; exact Phi4_out a V c
  hexit c := tbl_hexit a pdats (launch4 (F := F)) c (Vin c) _ (fun w => by rw [h c]; exact (dat4 a V c).share_full (fun _ => rfl) w)
    (fun w => by rw [h c]; exact hF4 a V Vin hV c w) (upd_rest (p := 4) a (Vin c) 3 _) (by rw [h c]; rfl) (hpf c)

end Cert.KernelIdeal.Hand

end
-- ==== Proof.KI.Scatter5Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 5: its control conditions, the table words it reads, and what one run of the
    body leaves in the carried accumulator and in the output block, in closed form over the payloads -/

/-- The body zeroes the accumulator when the second grid coordinate is 0. -/
abbrev cond5_1 (i : grid5.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond5_2 (i : grid5.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond5_3 (i : grid5.Coords) : Prop := k5_cond3 i = 1#1

/-- The prefetched tables as the body is handed them: whole scalar-memory memrefs. -/
abbrev tbM5_0 : Memref sig .tc .smem S123 .i32 := Memref.whole main_v81
abbrev htbM5_0 : tbM5_0.IsWhole := Memref.isWhole_whole _
abbrev tbM5_1 : Memref sig .tc .smem S123 .i32 := Memref.whole main_v82
abbrev htbM5_1 : tbM5_1.IsWhole := Memref.isWhole_whole _
abbrev tbM5_2 : Memref sig .tc .smem S50 .i32 := Memref.whole main_v110
abbrev htbM5_2 : tbM5_2.IsWhole := Memref.isWhole_whole _
abbrev tbM5_3 : Memref sig .tc .smem S50 .i32 := Memref.whole main_v111
abbrev htbM5_3 : tbM5_3.IsWhole := Memref.isWhole_whole _

/-- A table memref's buffer on core `c`, and that buffer held whole at contents `f`. -/
abbrev TbBuf5 (c : Dev nD) {S : Shape} {e : EltTy} (M : Memref sig .tc .smem S e) : Type := Buf (Elt F) (M.view.loc (c : Thread nD τ))
abbrev tbPt5 (c : Dev nD) {S : Shape} {e : EltTy} (M : Memref sig .tc .smem S e) (f : TbBuf5 (F := F) c M) : sProp 𝕄 :=
  M.view.loc (c : Thread nD τ) ↦{fullShare} f

/-- The word of the first table the body compares from below, at the second grid coordinate, -/
abbrev wd5_0 (c : Dev nD) (i : grid5.Coords) (xt : TbBuf5 (F := F) c tbM5_0) : Elt F .i32 :=
  tbM5_0.view.readAt (Elt F) (Rect.unit (s := S123) (k5_off2 i) S1.size (k5_off2_inb i)).toLoadRect xt (Shape.Idx.first (numel1_S1.symm ▸ Nat.one_pos))
/-- and the word of the second table it compares from above. -/
abbrev wd5_1 (c : Dev nD) (i : grid5.Coords) (xt : TbBuf5 (F := F) c tbM5_1) : Elt F .i32 :=
  tbM5_1.view.readAt (Elt F) (Rect.unit (s := S123) (k5_off2 i) S1.size (k5_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc5 (i : grid5.Coords) (wlo whi : Elt F .i32) (x0 : Vec F S1x5120 .i32) (x1 : Vec F S5120x128 .f32)
    (xs : Vec F S2000x128 .f32) : Vec F S2000x128 .f32 :=
  if cond5_2 i wlo whi then k5_pay2 i x0 x1 (if cond5_1 i then (k5_pay1 : Vec F S2000x128 .f32) else xs)
  else (if cond5_1 i then (k5_pay1 : Vec F S2000x128 .f32) else xs)

/-- Where the accumulator is zeroed, what it held before does not matter. -/
theorem acc5_of_cond5_1 (i : grid5.Coords) (h : cond5_1 i) (wlo whi : Elt F .i32) (x0 : Vec F S1x5120 .i32) (x1 : Vec F S5120x128 .f32)
    (xs xs' : Vec F S2000x128 .f32) : acc5 i wlo whi x0 x1 xs = acc5 i wlo whi x0 x1 xs' := by
  unfold acc5; rw [if_pos h, if_pos h]

/-! # REGION 5 of @main (custom_call 5, pipeline 5) at the tables' admissible contents `a 5` and the entry contents `V` -/

section Region
variable (a : (p : Fin 13) → (pcfgs (F := F) p).Adm)
variable (V : (c : Dev nD) → (b : Ref sig .tc) → Buf (Elt F) ((c : Thread nD τ).loc b))

/-- Pipeline 5 at the tables' contents. -/
abbrev cfgM5 : Pipeline.Cfg sig Λ₀ := cfg5 (a 5)

/-- Window `w`'s block at point `t`, read off its array as the region finds it (`V`); for windows 0 and 1, whose index
    maps read the tables, a function of the tables' words. -/
def iblk5 (c : Dev nD) (w : Fin (cfgM5 a).W) (t : Fin (cfgM5 a).N) : (((cfgM5 a).win w).xblock ((cfgM5 a).grid.coords t)).Idx → Elt F ((cfgM5 a).win w).elt :=
  (((cfgM5 a).win w).blk t).view.read (Elt F) (V c (Pipeline.arrRef spec5 w))

/-! ## Each input window's current staging buffer holds its block at every point, fetched there or not -/

theorem before5_0_of {c : Dev nD} (dat : Dat τ (Elt F) Unit ℕ (UR sig nD τ) ℕ (cfgM5 a) c) (hA : dat.A 0 = V c (Pipeline.arrRef spec5 0))
    (hafter : ∀ t, dat.after 0 t = iblk5 a V c 0 t) (t : Fin (cfgM5 a).N) (d) : dat.before 0 t d = iblk5 a V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ (cfgM5 a) c) (hA : dat.A 1 = V c (Pipeline.arrRef spec5 1))
    (hafter : ∀ t, dat.after 1 t = iblk5 a V c 1 t) (t : Fin (cfgM5 a).N) (d) : dat.before 1 t d = iblk5 a V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ (cfgM5 a) c) (hA : dat.A 2 = V c (Pipeline.arrRef spec5 2))
    (hafter : ∀ t, dat.after 2 t = iblk5 a V c 2 t) (t : Fin (cfgM5 a).N) (d) : dat.before 2 t d = iblk5 a V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ (cfgM5 a) c) (hA : dat.A 3 = V c (Pipeline.arrRef spec5 3))
    (hafter : ∀ t, dat.after 3 t = iblk5 a V c 3 t) (t : Fin (cfgM5 a).N) (d) : dat.before 3 t d = iblk5 a V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ (cfgM5 a) c) (hA : dat.A 4 = V c (Pipeline.arrRef spec5 4))
    (hafter : ∀ t, dat.after 4 t = iblk5 a V c 4 t) (t : Fin (cfgM5 a).N) (d) : dat.before 4 t d = iblk5 a V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The staging memrefs at a point, the scratch, the body as the pipeline calls it -/

abbrev ms5_0 (t : Fin (cfgM5 a).N) : Memref sig .tc .vmem S1x5120 .i32 := spec5_0.stage ((cfgM5 a).slots t 0)
abbrev hs5_0 (t : Fin (cfgM5 a).N) : (ms5_0 a t).IsWhole := hstage5_0 (((cfgM5 a).slots t 0).cast nbuf5_0)
abbrev ms5_1 (t : Fin (cfgM5 a).N) : Memref sig .tc .vmem S5120x128 .f32 := spec5_1.stage ((cfgM5 a).slots t 1)
abbrev hs5_1 (t : Fin (cfgM5 a).N) : (ms5_1 a t).IsWhole := hstage5_1 (((cfgM5 a).slots t 1).cast nbuf5_1)
abbrev ms5_2 (t : Fin (cfgM5 a).N) : Memref sig .tc .vmem S2000x128 .f32 := spec5_2.stage ((cfgM5 a).slots t 2)
abbrev hs5_2 (t : Fin (cfgM5 a).N) : (ms5_2 a t).IsWhole := hstage5_2 (((cfgM5 a).slots t 2).cast nbuf5_2)
abbrev ms5_3 (t : Fin (cfgM5 a).N) : Memref sig .tc .vmem S128x128 .f32 := spec5_3.stage ((cfgM5 a).slots t 3)
abbrev hs5_3 (t : Fin (cfgM5 a).N) : (ms5_3 a t).IsWhole := hstage5_3 (((cfgM5 a).slots t 3).cast nbuf5_3)
abbrev ms5_4 (t : Fin (cfgM5 a).N) : Memref sig .tc .vmem S1x128 .f32 := spec5_4.stage ((cfgM5 a).slots t 4)
abbrev hs5_4 (t : Fin (cfgM5 a).N) : (ms5_4 a t).IsWhole := hstage5_4 (((cfgM5 a).slots t 4).cast nbuf5_4)
abbrev ms5_5 (t : Fin (cfgM5 a).N) : Memref sig .tc .vmem S2000x128 .f32 := spec5_5.stage ((cfgM5 a).slots t 5)
abbrev hs5_5 (t : Fin (cfgM5 a).N) : (ms5_5 a t).IsWhole := hstage5_5 (((cfgM5 a).slots t 5).cast nbuf5_5)
/-- The accumulator: a whole scoped buffer of the kernel's own, carried between points. -/
abbrev scM5 : Memref sig .tc .vmem S2000x128 .f32 := Memref.whole cc5_scratch0

abbrev bodyAt5 (t : Fin (cfgM5 a).N) :=
  cc5__scatter_kernel (F := F) (grid5.coords t) tbM5_0 htbM5_0 tbM5_1 htbM5_1 tbM5_2 htbM5_2 tbM5_3 htbM5_3 (ms5_0 a t) (hs5_0 a t) (ms5_1 a t) (hs5_1 a t) (ms5_2 a t) (hs5_2 a t) (ms5_3 a t) (hs5_3 a t) (ms5_4 a t) (hs5_4 a t) (ms5_5 a t) (hs5_5 a t) scM5 (Memref.isWhole_whole _)

/-! ## The accumulator point by point, and the output block -/

/-- One point's step of the accumulator: the body's closed form at the point's coordinates, table words and blocks. -/
def accStep5 (c : Dev nD) (t : Fin (cfgM5 a).N) (xs : Vec F S2000x128 .f32) : Vec F S2000x128 .f32 :=
  acc5 (grid5.coords t) (wd5_0 c (grid5.coords t) ((a 5).1 0)) (wd5_1 c (grid5.coords t) ((a 5).1 1)) (iblk5 a V c 0 t) (iblk5 a V c 1 t) xs

/-- THE ACCUMULATION: what the scratch holds after the body at position `n`, by recursion on the position (the first
    point zeroes it, so what it held before the region does not matter: stated from the zero payload). -/
def accAt5 (c : Dev nD) : (n : ℕ) → n < (cfgM5 a).N → Vec F S2000x128 .f32
  | 0, hn => accStep5 a V c ⟨0, hn⟩ (k5_pay1 : Vec F S2000x128 .f32)
  | n + 1, hn => accStep5 a V c ⟨n + 1, hn⟩ (accAt5 c n (Nat.lt_of_succ_lt hn))

theorem accAt5_zero (c : Dev nD) (hn : 0 < (cfgM5 a).N) : accAt5 a V c 0 hn = accStep5 a V c ⟨0, hn⟩ (k5_pay1 : Vec F S2000x128 .f32) := rfl
theorem accAt5_succ (c : Dev nD) (n : ℕ) (hn : n + 1 < (cfgM5 a).N) :
    accAt5 a V c (n + 1) hn = accStep5 a V c ⟨n + 1, hn⟩ (accAt5 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt5 (c : Dev nD) (t : Fin (cfgM5 a).N) : Vec F S2000x128 .f32 :=
  k5_pay3 (iblk5 a V c 2 t) (iblk5 a V c 3 t) (accAt5 a V c t.val t.isLt) (iblk5 a V c 4 t)

/-! ## The region invariant -/

/-- Before position `n`: the scratch at what the point before left (at anything before the first point), the other
    scoped buffers at anything, the generator register at some state, the prefetched tables whole at their contents. -/
def PhiS5 (c : Dev nD) (n : ℕ) (hn : n ≤ (cfgM5 a).N) : sProp 𝕄 :=
  iprop(iprop(∃ d : Vec F S2000x128 .f32, ⌜∀ h0 : n ≠ 0, d = accAt5 a V c (n - 1) (by omega)⌝ ∗ owns (c : Thread nD τ) scM5 fullShare d)
    ∗ Pipeline.scopedRestBut (Ix := Unit) (Name := ℕ) (U := UR sig nD τ) (Lvl := ℕ) (Val := Elt F) spec5 c [cc5_scratch0]
    ∗ iprop(∃ r, prngReg c r)
    ∗ Pipeline.prefHeld (Ix := Unit) (Name := ℕ) (U := UR sig nD τ) (Lvl := ℕ) pre5 c (fun _ => fullShare) (a 5).1)

/-! ## The pipeline's proof data -/

def dat5 (c : Dev nD) : Dat τ (Elt F) Unit ℕ (UR sig nD τ) ℕ (Pipeline.pin (pcfgs (F := F)) a 5) c where
  A w := V c (Pipeline.arrRef spec5 w)
  after w t := match w with
    | ⟨0, _⟩ => iblk5 a V c 0 t
    | ⟨1, _⟩ => iblk5 a V c 1 t
    | ⟨2, _⟩ => iblk5 a V c 2 t
    | ⟨3, _⟩ => iblk5 a V c 3 t
    | ⟨4, _⟩ => iblk5 a V c 4 t
    | ⟨5, _⟩ => outAt5 a V c t
  Φ t := PhiS5 a V c t.val (Nat.le_of_lt_succ t.isLt)
  q _ := fullShare
  owed _ := 0

theorem A_eq5 (c : Dev nD) (w : Fin (cfgM5 a).W) : (dat5 a V c).A w = V c (Pipeline.arrRef spec5 w) := by
  dsimp only [dat5]
theorem after5_0 (c : Dev nD) (t : Fin (cfgM5 a).N) : (dat5 a V c).after 0 t = iblk5 a V c 0 t := by dsimp only [dat5]; try rfl
theorem after5_1 (c : Dev nD) (t : Fin (cfgM5 a).N) : (dat5 a V c).after 1 t = iblk5 a V c 1 t := by dsimp only [dat5]; try rfl
theorem after5_2 (c : Dev nD) (t : Fin (cfgM5 a).N) : (dat5 a V c).after 2 t = iblk5 a V c 2 t := by dsimp only [dat5]; try rfl
theorem after5_3 (c : Dev nD) (t : Fin (cfgM5 a).N) : (dat5 a V c).after 3 t = iblk5 a V c 3 t := by dsimp only [dat5]; try rfl
theorem after5_4 (c : Dev nD) (t : Fin (cfgM5 a).N) : (dat5 a V c).after 4 t = iblk5 a V c 4 t := by dsimp only [dat5]; try rfl
theorem after5_5 (c : Dev nD) (t : Fin (cfgM5 a).N) : (dat5 a V c).after 5 t = outAt5 a V c t := by dsimp only [dat5]; try rfl
theorem before5_0 (c : Dev nD) (t : Fin (cfgM5 a).N) (d) : (dat5 a V c).before 0 t d = iblk5 a V c 0 t :=
  before5_0_of a V (dat5 a V c) (A_eq5 a V c 0) (after5_0 a V c) t d
theorem before5_1 (c : Dev nD) (t : Fin (cfgM5 a).N) (d) : (dat5 a V c).before 1 t d = iblk5 a V c 1 t :=
  before5_1_of a V (dat5 a V c) (A_eq5 a V c 1) (after5_1 a V c) t d
theorem before5_2 (c : Dev nD) (t : Fin (cfgM5 a).N) (d) : (dat5 a V c).before 2 t d = iblk5 a V c 2 t :=
  before5_2_of a V (dat5 a V c) (A_eq5 a V c 2) (after5_2 a V c) t d
theorem before5_3 (c : Dev nD) (t : Fin (cfgM5 a).N) (d) : (dat5 a V c).before 3 t d = iblk5 a V c 3 t :=
  before5_3_of a V (dat5 a V c) (A_eq5 a V c 3) (after5_3 a V c) t d
theorem before5_4 (c : Dev nD) (t : Fin (cfgM5 a).N) (d) : (dat5 a V c).before 4 t d = iblk5 a V c 4 t :=
  before5_4_of a V (dat5 a V c) (A_eq5 a V c 4) (after5_4 a V c) t d

theorem PhiS5_castSucc (c : Dev nD) (t : Fin (cfgM5 a).N) :
    (dat5 a V c).Φ t.castSucc = PhiS5 a V c t.val (Nat.le_of_lt t.isLt) := by
  dsimp only [dat5]; simp only [Fin.coe_castSucc]

/-! ## The grid's coordinates and the conditions in closed form -/

theorem stride5_0 : grid5.stride 0 = 123 := by decide
theorem stride5_1 : grid5.stride 1 = 1 := by decide
theorem coords5_0 (t : Fin grid5.N) : (grid5.coords t 0).val = t.val / 123 % 50 := by
  show t.val / grid5.stride 0 % grid5.bound 0 = _; rw [stride5_0]; rfl
theorem coords5_1 (t : Fin grid5.N) : (grid5.coords t 1).val = t.val % 123 := by
  show t.val / grid5.stride 1 % grid5.bound 1 = _; rw [stride5_1, Nat.div_one]; rfl

theorem cond5_1_iff (i : grid5.Coords) : cond5_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond5_3_iff (i : grid5.Coords) : cond5_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle5_5_of (t : Fin (cfgM5 a).N) (h : cond5_3 (grid5.coords t)) : (cfgM5 a).idle 5 (grid5.coords t) = false := by
  show (!(k5_cond3 (grid5.coords t) == 1#1)) = false
  rw [show k5_cond3 (grid5.coords t) = 1#1 from h]; rfl
theorem idle5_5_of_not (t : Fin (cfgM5 a).N) (h : ¬cond5_3 (grid5.coords t)) : (cfgM5 a).idle 5 (grid5.coords t) = true := by
  show (!(k5_cond3 (grid5.coords t) == 1#1)) = true
  rw [Bool.not_eq_true', beq_eq_false_iff_ne]; exact h

end Region

end Cert.KernelIdeal.Hand

end
-- ==== Proof.KI.Scatter5Runs.lean ====
import proofs.«415143_j42460046688958_3_alg».proof.Proof.KI.Scatter5Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec5_zero5 : (![0, 0] : Fin 2 → ℕ) = fun _ => 0 := by funext b; fin_cases b <;> rfl

/-- A load of a whole memref held at contents that read `X` reads `X`. -/
theorem readAt_whole_unread5 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole5 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole5 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay5_congr5 (i : grid5.Coords) {u u' : Vec F S1x5120 .i32} {v v' : Vec F S5120x128 .f32} {s s' : Vec F S2000x128 .f32}
    (hu : u = u') (hv : v = v') (hs : s = s') : k5_pay2 i u v s = k5_pay2 i u' v' s' := by rw [hu, hv, hs]
theorem pay3_congr5 {u u' : Vec F S2000x128 .f32} {v v' : Vec F S128x128 .f32} {s s' : Vec F S2000x128 .f32} {b b' : Vec F S1x128 .f32}
    (hu : u = u') (hv : v = v') (hs : s = s') (hb : b = b') : k5_pay3 u v s b = k5_pay3 u' v' s' b' := by rw [hu, hv, hs, hb]

theorem acc5_TT (i : grid5.Coords) (wlo whi : Elt F .i32) (x0 : Vec F S1x5120 .i32) (x1 : Vec F S5120x128 .f32) (xs : Vec F S2000x128 .f32)
    (h1 : cond5_1 i) (h2 : cond5_2 i wlo whi) : acc5 i wlo whi x0 x1 xs = k5_pay2 i x0 x1 (k5_pay1 : Vec F S2000x128 .f32) := by
  unfold acc5; rw [if_pos h2, if_pos h1]
theorem acc5_TF (i : grid5.Coords) (wlo whi : Elt F .i32) (x0 : Vec F S1x5120 .i32) (x1 : Vec F S5120x128 .f32) (xs : Vec F S2000x128 .f32)
    (h1 : cond5_1 i) (h2 : ¬cond5_2 i wlo whi) : acc5 i wlo whi x0 x1 xs = (k5_pay1 : Vec F S2000x128 .f32) := by
  unfold acc5; rw [if_neg h2, if_pos h1]
theorem acc5_FT (i : grid5.Coords) (wlo whi : Elt F .i32) (x0 : Vec F S1x5120 .i32) (x1 : Vec F S5120x128 .f32) (xs : Vec F S2000x128 .f32)
    (h1 : ¬cond5_1 i) (h2 : cond5_2 i wlo whi) : acc5 i wlo whi x0 x1 xs = k5_pay2 i x0 x1 xs := by
  unfold acc5; rw [if_pos h2, if_neg h1]
theorem acc5_FF (i : grid5.Coords) (wlo whi : Elt F .i32) (x0 : Vec F S1x5120 .i32) (x1 : Vec F S5120x128 .f32) (xs : Vec F S2000x128 .f32)
    (h1 : ¬cond5_1 i) (h2 : ¬cond5_2 i wlo whi) : acc5 i wlo whi x0 x1 xs = xs := by
  unfold acc5; rw [if_neg h2, if_neg h1]

set_option maxHeartbeats 4000000 in
/-- The body in the control case A: the accumulator zeroed, the table words bracketing the row block, the output not stored. -/
theorem sound_kernel5_A (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : cond5_1 i) (hc2 : cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay2 i x0 x1 (k5_pay1 : Vec F S2000x128 .f32)) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readCov_whole5 arg12 vec5_zero5 _ _ _))
  isplitl [HT0]; · iexact HT0
  iexact HT1

set_option maxHeartbeats 4000000 in
/-- The body in the control case B: the accumulator zeroed, the table words not bracketing the row block, the output not stored. -/
theorem sound_kernel5_B (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : cond5_1 i) (hc2 : ¬cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay1 : Vec F S2000x128 .f32) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _)
  isplitl [HT0]; · iexact HT0
  iexact HT1

set_option maxHeartbeats 4000000 in
/-- The body in the control case C: the accumulator not zeroed, the table words bracketing the row block, the output not stored. -/
theorem sound_kernel5_C (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k5_pay2 i x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readAt_whole_unread5 arg12 harg12 xs vec5_zero5 _))
  isplitl [HT0]; · iexact HT0
  iexact HT1

set_option maxHeartbeats 4000000 in
/-- The body in the control case D: the accumulator not zeroed, the table words not bracketing the row block, the output not stored. -/
theorem sound_kernel5_D (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : ¬cond5_2 i (wd5_0 c i xt0) (wd5_1 c i xt1)) (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel5_E (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : cond5_2 i (wd5_0 c i xt0) (wd5_1 c i xt1)) (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 (k5_pay2 i x0 x1 xs) x4)
            ∗ owns (c : Thread nD τ) arg12 fullShare (k5_pay2 i x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole5 arg11 _ vec5_zero5 _ _ _).trans (pay3_congr5 (readAt_whole_unread5 arg8 harg8 x2 vec5_zero5 _) (readAt_whole_unread5 arg9 harg9 x3 vec5_zero5 _) ((readCov_whole5 arg12 vec5_zero5 _ _ _).trans (pay5_congr5 i (readAt_whole_unread5 arg6 harg6 x0 vec5_zero5 _) (readAt_whole_unread5 arg7 harg7 x1 vec5_zero5 _) (readAt_whole_unread5 arg12 harg12 xs vec5_zero5 _))) (readAt_whole_unread5 arg10 harg10 x4 vec5_zero5 _))
  isplitl [HS]
  · iexists _; isplitr
    swap; · iexact HS
    ipureintro
    exact (read_writes_whole5 arg12 _ vec5_zero5 _ _ _).trans (pay5_congr5 i (readAt_whole_unread5 arg6 harg6 x0 vec5_zero5 _) (readAt_whole_unread5 arg7 harg7 x1 vec5_zero5 _) (readAt_whole_unread5 arg12 harg12 xs vec5_zero5 _))
  isplitl [HT0]; · iexact HT0
  iexact HT1

set_option maxHeartbeats 4000000 in
/-- The body in the control case F: the accumulator not zeroed, the table words not bracketing the row block, the output stored. -/
theorem sound_kernel5_F (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc1 : ¬cond5_1 i) (hc2 : ¬cond5_2 i (wd5_0 c i xt0) (wd5_1 c i xt1)) (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 xs x4)
            ∗ owns (c : Thread nD τ) arg12 fullShare xs ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole5 arg11 _ vec5_zero5 _ _ _).trans (pay3_congr5 (readAt_whole_unread5 arg8 harg8 x2 vec5_zero5 _) (readAt_whole_unread5 arg9 harg9 x3 vec5_zero5 _) (readAt_whole_unread5 arg12 harg12 xs vec5_zero5 _) (readAt_whole_unread5 arg10 harg10 x4 vec5_zero5 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel5_idle (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc3 : ¬cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc5 i (wd5_0 c i xt0) (wd5_1 c i xt1) x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  by_cases h1 : cond5_1 i <;> by_cases h2 : cond5_2 i (wd5_0 c i xt0) (wd5_1 c i xt1)
  · rw [acc5_TT _ _ _ _ _ _ h1 h2]; exact sound_kernel5_A c E i arg6 harg6 arg7 harg7 arg8 harg8 arg9 harg9 arg10 harg10 arg11 harg11 arg12 harg12 x0 x1 x2 x3 x4 xs xo xt0 xt1 h1 h2 hc3 K
  · rw [acc5_TF _ _ _ _ _ _ h1 h2]; exact sound_kernel5_B c E i arg6 harg6 arg7 harg7 arg8 harg8 arg9 harg9 arg10 harg10 arg11 harg11 arg12 harg12 x0 x1 x2 x3 x4 xs xo xt0 xt1 h1 h2 hc3 K
  · rw [acc5_FT _ _ _ _ _ _ h1 h2]; exact sound_kernel5_C c E i arg6 harg6 arg7 harg7 arg8 harg8 arg9 harg9 arg10 harg10 arg11 harg11 arg12 harg12 x0 x1 x2 x3 x4 xs xo xt0 xt1 h1 h2 hc3 K
  · rw [acc5_FF _ _ _ _ _ _ h1 h2]; exact sound_kernel5_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel5_live (c : Dev nD) (E : Set ℕ) (i : grid5.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf5 (F := F) c tbM5_0) (xt1 : TbBuf5 (F := F) c tbM5_1)
    (hc3 : cond5_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt5 c tbM5_0 xt0 ∗ tbPt5 c tbM5_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k5_pay3 x2 x3 (acc5 i (wd5_0 c i xt0) (wd5_1 c i xt1) x0 x1 xs) x4)
            ∗ owns (c : Thread nD τ) arg12 fullShare (acc5 i (wd5_0 c i xt0) (wd5_1 c i xt1) x0 x1 xs) ∗ tbPt5 c tbM5_0 xt0 ∗ tbPt5 c tbM5_1 xt1) -∗ K ⟨⟩))
      ⊢ wp frame (wpE (defs₀ (F := F)) Variants.none c none) E (cc5__scatter_kernel i tbM5_0 htbM5_0 tbM5_1 htbM5_1 tbM5_2 htbM5_2 tbM5_3 htbM5_3 arg6 harg6 arg7 harg7 arg8 harg8 arg9 harg9 arg10 harg10 arg11 harg11 arg12 harg12) K := by
  have h1 : ¬cond5_1 i := fun h => by
    have e1 := (cond5_1_iff i).mp h; have e3 := (cond5_3_iff i).mp hc3; omega
  by_cases h2 : cond5_2 i (wd5_0 c i xt0) (wd5_1 c i xt1)
  · rw [acc5_FT _ _ _ _ _ _ h1 h2]; exact sound_kernel5_E c E i arg6 harg6 arg7 harg7 arg8 harg8 arg9 harg9 arg10 harg10 arg11 harg11 arg12 harg12 x0 x1 x2 x3 x4 xs xo xt0 xt1 h1 h2 hc3 K
  · rw [acc5_FF _ _ _ _ _ _ h1 h2]; exact sound_kernel5_F c E i arg6 harg6 arg7 harg7 arg8 harg8 arg9 harg9 arg10 harg10 arg11 harg11 arg12 harg12 x0 x1 x2 x3 x4 xs xo xt0 xt1 h1 h2 hc3 K

end Cert.KernelIdeal.Hand

end
-- ==== Proof.KI.Scatter5.lean ====
import proofs.«415143_j42460046688958_3_alg».proof.Proof.KI.Scatter5Runs
import proofs.«415143_j42460046688958_3_alg».proof.Proof.KI.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush5_5 : ∀ t : Fin (cfgM5 a).N, ((cfgM5 a).win 5).flush t = true ↔ t.val % 123 = 122 :=
  (by decide +kernel : ∀ t : Fin grid5.N, Pipeline.Window.flushOf grid5 true cc5_transform_5 t = true ↔ t.val % 123 = 122)

/-- and at a point that does not store the output it writes nothing back. -/
theorem noFlush5_5 (t : Fin (cfgM5 a).N) (h : ¬cond5_3 (grid5.coords t)) : ((cfgM5 a).win 5).flush t = false := by
  rw [Bool.eq_false_iff]; intro hf
  exact h ((cond5_3_iff _).mpr (by rw [coords5_1]; exact (flush5_5 a t).mp hf))

/-- The tables whole at contents `v`, table by table: what the invariant hands the body and takes back. -/
theorem PhiT5_eq (c : Dev nD) (v : pre5.Contents (Elt F)) :
    (Pipeline.prefHeld (Ix := Unit) (Name := ℕ) (U := UR sig nD τ) (Lvl := ℕ) pre5 c (fun _ => fullShare) v : sProp 𝕄)
      = iprop(tbPt5 c tbM5_0 (v 0) ∗ tbPt5 c tbM5_1 (v 1) ∗ tbPt5 c tbM5_2 (v 2) ∗ tbPt5 c tbM5_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep5_eq_accAt5 (c : Dev nD) (t : Fin (cfgM5 a).N) (d : Vec F S2000x128 .f32)
    (hd : ∀ h0 : t.val ≠ 0, d = accAt5 a V c (t.val - 1) (by omega)) :
    accStep5 a V c t d = accAt5 a V c t.val t.isLt := by
  obtain ⟨n, hn⟩ := t
  cases n with
  | zero =>
    rw [accAt5_zero]; unfold accStep5
    exact acc5_of_cond5_1 _ ((cond5_1_iff _).mpr (by rw [coords5_1]; exact Nat.zero_mod _)) _ _ _ _ _ _
  | succ n =>
    rw [accAt5_succ, hd (Nat.succ_ne_zero n)]; rfl

/-! ## What the body obligation asks of each window's buffer after the body -/

theorem leaves5_0 (c : Dev nD) (t : Fin (cfgM5 a).N) :
    (dat5 a V c).leavesExact 0 t = owns (c : Thread nD τ) (ms5_0 a t) fullShare (iblk5 a V c 0 t) := by
  rw [← after5_0 a V c t]; rfl
theorem leaves5_1 (c : Dev nD) (t : Fin (cfgM5 a).N) :
    (dat5 a V c).leavesExact 1 t = owns (c : Thread nD τ) (ms5_1 a t) fullShare (iblk5 a V c 1 t) := by
  rw [← after5_1 a V c t]; rfl
theorem leaves5_2 (c : Dev nD) (t : Fin (cfgM5 a).N) :
    (dat5 a V c).leavesExact 2 t = owns (c : Thread nD τ) (ms5_2 a t) fullShare (iblk5 a V c 2 t) := by
  rw [← after5_2 a V c t]; rfl
theorem leaves5_3 (c : Dev nD) (t : Fin (cfgM5 a).N) :
    (dat5 a V c).leavesExact 3 t = owns (c : Thread nD τ) (ms5_3 a t) fullShare (iblk5 a V c 3 t) := by
  rw [← after5_3 a V c t]; rfl
theorem leaves5_4 (c : Dev nD) (t : Fin (cfgM5 a).N) :
    (dat5 a V c).leavesExact 4 t = owns (c : Thread nD τ) (ms5_4 a t) fullShare (iblk5 a V c 4 t) := by
  rw [← after5_4 a V c t]; rfl

/-- Where the body stores the output the window is live: its buffer ends at the output block. -/
theorem leaves5_5_live (c : Dev nD) (t : Fin (cfgM5 a).N) (h3 : cond5_3 (grid5.coords t)) :
    (dat5 a V c).leavesExact 5 t = owns (c : Thread nD τ) (ms5_5 a t) fullShare (outAt5 a V c t) := by
  have hi : (Pipeline.pin (pcfgs (F := F)) a 5).idle 5 ((Pipeline.pin (pcfgs (F := F)) a 5).grid.coords t) = false := idle5_5_of a t h3
  unfold Dat.leavesExact; rw [hi]; rfl

/-- Elsewhere it is idle and not written back: its buffer is handed back as found. -/
theorem leaves5_5_idle (c : Dev nD) (t : Fin (cfgM5 a).N) (h3 : ¬cond5_3 (grid5.coords t)) :
    (dat5 a V c).leavesExact 5 t = iprop(∃ d, owns (c : Thread nD τ) (ms5_5 a t) fullShare ((dat5 a V c).before 5 t d)) :=
  Dat.leavesExact_idle (dat5 a V c) 5 t (idle5_5_of_not a t h3) (noFlush5_5 a t h3)

/-! ## The body obligation, at a generic point -/

def bodyPre5 (c : Dev nD) (t : Fin (cfgM5 a).N) : sProp 𝕄 :=
  iprop((dat5 a V c).Φ t.castSucc ∗ (dat5 a V c).owesAt () t.castSucc
    ∗ (∃ d, owns (c : Thread nD τ) (ms5_0 a t) fullShare ((dat5 a V c).before 0 t d))
    ∗ (∃ d, owns (c : Thread nD τ) (ms5_1 a t) fullShare ((dat5 a V c).before 1 t d))
    ∗ (∃ d, owns (c : Thread nD τ) (ms5_2 a t) fullShare ((dat5 a V c).before 2 t d))
    ∗ (∃ d, owns (c : Thread nD τ) (ms5_3 a t) fullShare ((dat5 a V c).before 3 t d))
    ∗ (∃ d, owns (c : Thread nD τ) (ms5_4 a t) fullShare ((dat5 a V c).before 4 t d))
    ∗ (∃ d, owns (c : Thread nD τ) (ms5_5 a t) fullShare ((dat5 a V c).before 5 t d)))

def bodyPost5 (c : Dev nD) (t : Fin (cfgM5 a).N) : sProp 𝕄 :=
  iprop((dat5 a V c).Φ t.succ ∗ (dat5 a V c).owesAt () t.succ
    ∗ (dat5 a V c).leavesExact 0 t
    ∗ (dat5 a V c).leavesExact 1 t
    ∗ (dat5 a V c).leavesExact 2 t
    ∗ (dat5 a V c).leavesExact 3 t
    ∗ (dat5 a V c).leavesExact 4 t
    ∗ (dat5 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body5 (c : Dev nD) (t : Fin (cfgM5 a).N) :
    bodyPre5 a V c t ⊢ wp frame (wpE (defs₀ (F := F)) Variants.none c none) Set.univ (bodyAt5 a t) (fun _ => bodyPost5 a V c t) := by
  unfold bodyPre5 bodyPost5 bodyAt5
  simp only [before5_0, before5_1, before5_2, before5_3, before5_4]
  rw [show (dat5 a V c).owesAt () t.succ = (dat5 a V c).owesAt () t.castSucc from rfl]
  rw [show (dat5 a V c).Φ t.succ = PhiS5 a V c (t.val + 1) t.isLt from rfl, PhiS5_castSucc]
  rw [leaves5_0, leaves5_1, leaves5_2, leaves5_3, leaves5_4]
  unfold PhiS5
  rw [PhiT5_eq]
  by_cases h3 : cond5_3 (grid5.coords t)
  · rw [leaves5_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel5_live c Set.univ (grid5.coords t) _ _ _ _ _ _ _ _ _ _ _ _ _ _ (iblk5 a V c 0 t) (iblk5 a V c 1 t) (iblk5 a V c 2 t) (iblk5 a V c 3 t) (iblk5 a V c 4 t) d ((dat5 a V c).before 5 t d5) ((a 5).1 0) ((a 5).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep5_eq_accAt5 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt5 a V c t = k5_pay3 (iblk5 a V c 2 t) (iblk5 a V c 3 t) (accStep5 a V c t d) (iblk5 a V c 4 t) from by
      unfold outAt5; rw [accStep5_eq_accAt5 a V c t d hd]]
    iexact H5
  · rw [leaves5_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel5_idle c Set.univ (grid5.coords t) _ _ _ _ _ _ _ _ _ _ _ _ _ _ (iblk5 a V c 0 t) (iblk5 a V c 1 t) (iblk5 a V c 2 t) (iblk5 a V c 3 t) (iblk5 a V c 4 t) d ((dat5 a V c).before 5 t d5) ((a 5).1 0) ((a 5).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep5_eq_accAt5 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation5 (c : Dev nD) : BodyObligation (dat5 (F := F) a V c) (defs₀ (F := F)) Variants.none () Set.univ := fun t => by
  rw [bigSep_W5, bigSep_W5]
  exact sound_body5 a V c t

/-- The accumulator's memref is its whole scoped buffer. -/
theorem owns_scM5_eq (c : Dev nD) (d : Vec F S2000x128 .f32) :
    (owns (c : Thread nD τ) scM5 fullShare d : sProp 𝕄) = ((c : Thread nD τ).loc cc5_scratch0 ↦{fullShare} d) := by
  rw [show scM5 = Memref.whole cc5_scratch0 from rfl, owns_whole]

/-- What the region's entry hands over — the generator register, the tables whole at their contents, the scoped buffers
    no window stages — is the invariant before the first point. -/
theorem hin5 (c : Dev nD) :
    iprop(iprop(∃ r, prngReg c r) ∗ Pipeline.prefHeld (Ix := Unit) (Name := ℕ) (U := UR sig nD τ) (Lvl := ℕ) pre5 c (fun _ => fullShare) (a 5).1
        ∗ Pipeline.scopedRest (Ix := Unit) (Name := ℕ) (U := UR sig nD τ) (Lvl := ℕ) (Val := Elt F) spec5 c)
      ⊢ (dat5 a V c).Φ 0 := by
  rw [show (dat5 a V c).Φ 0 = PhiS5 a V c 0 (Nat.zero_le _) from rfl]; unfold PhiS5
  rw [scopedRest5_split]
  iintro ⟨Hg, HT, ⟨%f, Hs⟩, Hrest⟩
  isplitl [Hs]
  · iexists f; isplitr; · ipureintro; intro h0; exact absurd rfl h0
    rw [show scM5 = Memref.whole cc5_scratch0 from rfl, owns_whole]; iexact Hs
  isplitl [Hrest]; · iexact Hrest
  isplitl [Hg]; · iexact Hg
  iexact HT

/-- The invariant after the last point gives them back, the accumulator's named contents forgotten. -/
theorem hout5 (c : Dev nD) :
    (dat5 a V c).Φ (Fin.last (cfgM5 a).N)
      ⊢ iprop(iprop(Pipeline.prefHeld (Ix := Unit) (Name := ℕ) (U := UR sig nD τ) (Lvl := ℕ) pre5 c (fun _ => fullShare) (a 5).1 ∗ ∃ r, prngReg c r)
          ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none, show (dat5 a V c).Φ (Fin.last (cfgM5 a).N) = PhiS5 a V c (cfgM5 a).N (Nat.le_refl _) from rfl]; unfold PhiS5
  rw [scopedRest5_split]
  simp only [owns_scM5_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt5_in (c : Dev nD) (w : Fin (cfgM5 a).W) (hw : ((cfgM5 a).win w).isOut = false) (hne : Pipeline.arrRef spec5 w ≠ main_v135)
    (Vin : Dev nD → Valuation τ sig (Elt F)) (hV : ∀ c b, V c b = Vin c b)
    (x : (Proc.devRef .tc main_v135 : DevRef τ sig).ty.Contents (Elt F)) (n : ℕ) :
    (dat5 a V c).arrAt w n = Function.update (Vin c) main_v135 x (Pipeline.arrRef spec5 w) :=
  ((dat5 a V c).arrAt_in w hw n).trans ((A_eq5 a V c w).trans ((hV c _).trans
    (Function.update_of_ne (StableHlo.devRef_ne_of_ne hne) _ _).symm))

/-- The first five windows are inputs, and none of their arrays is the output's. -/
theorem inputs5_isIn : ∀ w : Fin 6, w.val < 5 → (spec5 w).isOut = false := by decide
theorem inputs5_ne : ∀ w : Fin 6, w.val < 5 → Pipeline.arrRef spec5 w ≠ main_v135 := by decide

/-- At the region's exit every array of the pipeline holds what the exit valuation says: the inputs as entered, the
    output's what the write-backs leave (named `X`, so that nothing unfolds the fold over the grid). -/
theorem hF5 (c : Dev nD) (Vin : Dev nD → Valuation τ sig (Elt F)) (hV : ∀ c b, V c b = Vin c b)
    (X : (Proc.devRef .tc main_v135 : DevRef τ sig).ty.Contents (Elt F)) (hX : (dat5 a V c).arrAt 5 (cfgM5 a).N = X) :
    ∀ w, (dat5 a V c).arrAt w (cfgM5 a).N
      = Function.update (Vin c) main_v135 X (Pipeline.arrRef (Pipeline.pin (pcfgs (F := F)) a 5).spec w) := by
  intro w
  by_cases hw : w.val < 5
  · exact arrAt5_in a V c w (inputs5_isIn w hw) (inputs5_ne w hw) Vin hV X _
  · have hW : w.val < 6 := w.isLt
    obtain ⟨wv, hwv⟩ := w
    obtain rfl : wv = 5 := by simp only at hw hW; omega
    exact hX.trans (Function.update_self (Proc.devRef .tc main_v135 : DevRef τ sig) X (Vin c)).symm

set_option backward.isDefEq.respectTransparency.types false in
/-- REGION 5 over the thread state: entered from every unscoped buffer at `Vin` (whose table buffers hold the tables'
    admissible contents), left with the output array at what the write-backs leave and every other buffer as entered;
    beside them the generator register at some state and the core owing nothing. -/
def reg5 (pdats : (p : Fin 13) → (c : Dev nD) → Dat τ (Elt F) Unit ℕ (UR sig nD τ) ℕ (Pipeline.pin (pcfgs (F := F)) a p) c)
    (h : ∀ c, pdats 5 c = dat5 a V c)
    (Vin : Dev nD → Valuation τ sig (Elt F)) (hV : ∀ c b, V c b = Vin c b)
    (hpf : ∀ c k, Vin c (pre5.ref k) = (a 5).1 k) :
    Pipeline.RegionSeg (pcfgs (F := F)) a pdats () (defs₀ (F := F)) Variants.none (fun _ => ∅) (fun _ _ => 0) 5 where
  win := (launch5 (F := F)).win.to₀
  block_pos := (launch5 (F := F)).block_pos
  stage_whole := (launch5 (F := F)).stage_whole
  K := PEmpty
  osem k := k.elim
  ho := Pipeline.OwnSemFacts.none _
  hbody c := by rw [h c]; exact (body_obligation5 a V c).loose
  hwaits := Pipeline.hwaits_of_owed_zero _ _ _ _ _ _ 5 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v135 ((dat5 a V c).arrAt 5 (cfgM5 a).N)) ∗ iprop((∃ r, prngReg c r) ∗ ∃ W, owes (c : Thread nD τ) (0 : CellTallies nD τ sig Unit) W))
  X c := tblX c
  Y c := tblY a 5 c
  Z c := tblZ a 5 c (Vin c)
  hentry c := tbl_hentry a pdats (launch5 (F := F)) c (Vin c)
    (fun w => by rw [h c, A_eq5]; exact hV c _)
    (by rw [h c]; exact (dat5 a V c).share_full fun _ => rfl)
    (by rw [h c]; rfl) (by rw [h c]; rfl) (hpf c)
  hin c := by rw [h c]; exact hin5 a V c
  hout c := by rw [h c]; exact hout5 a V c
  hexit c := tbl_hexit a pdats (launch5 (F := F)) c (Vin c) (Function.update (Vin c) main_v135 ((dat5 a V c).arrAt 5 (cfgM5 a).N))
    (by rw [h c]; exact (dat5 a V c).share_full fun _ => rfl)
    (by rw [h c]; exact hF5 a V c Vin hV _ rfl)
    (upd_rest a (p := 5) (Vin c) 5 _)
    (by rw [h c]; rfl) (hpf c)

end Region5

end Cert.KernelIdeal.Hand

end
-- ==== Proof.KI.Dense6.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 6, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.KernelIdeal.Launch
import proofs.«415143_j42460046688958_3_alg».proof.Proof.Gen.KernelIdeal.Skeleton
import proofs.«415143_j42460046688958_3_alg».proof.Proof.Gen.KernelIdeal.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

-- the contents of the prefetched tables of the program's other pipelines: region 6 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block of x is in its staging buffer at every point: it is fetched at every point. Stated for any proof
    data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weight is in its staging buffer at every point although it is fetched at the first only: its block index never
    moves, and the body leaves the buffer as it finds it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-! ## What the body leaves in the output block -/

/-- The output block after the body, from the two input blocks: its one store, of the product payload, over the
    whole block. -/
def out6_2 (x0 : Vec F S2000x128 .f32) (x1 : Vec F S128x128 .f32) : Vec F S2000x128 .f32 :=
  View.canon [⟨r6_0, k6_pay1 (View.ld x0 r6_0) (View.ld x1 r6_1)⟩]

/-- The one store covers the block. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The body on whole staging memrefs, the inputs' at read contents x0, x1 and the output's at anything, runs to the
    continuation holding the inputs' as they were and the output's at out6_2 x0 x1. The load of the output buffer
    before the store reads contents nothing depends on. -/
theorem sound_kernel6 (c : Dev nD) (E : Set ℕ) (i : grid6.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data on core c, over the printed configuration: the arrays as the region finds them; after the body at
    point t each input's buffer at its block and the output's at out6_2 of the two blocks; the invariant the scoped rest
    and the generator register, untouched; nothing owed; full shares. -/
def dat6c (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The same as proof data of pipeline 6 of the program's family, pinned at any contents a of the tables: pipeline 6
    prefetches nothing, and pinned it is the printed configuration again. -/
abbrev dat6 (c : Dev nD) : Dat τ (Elt F) Unit ℕ (UR sig nD τ) ℕ (Pipeline.pin (pcfgs (F := F)) a 6) c := dat6c V c

theorem A_eq6 (c : Dev nD) (w : Fin cfg6.W) : (dat6c V c).A w = V c (Pipeline.arrRef spec6 w) := by
  dsimp only [dat6c]

theorem after6_0 (c : Dev nD) (t : Fin cfg6.N) : (dat6c V c).after 0 t = iblk6 V c 0 t := by dsimp only [dat6c]
theorem after6_1 (c : Dev nD) (t : Fin cfg6.N) : (dat6c V c).after 1 t = iblk6 V c 1 t := by dsimp only [dat6c]
theorem after6_2 (c : Dev nD) (t : Fin cfg6.N) : (dat6c V c).after 2 t = out6_2 (iblk6 V c 0 t) (iblk6 V c 1 t) := by dsimp only [dat6c]

theorem before6_0 (c : Dev nD) (t : Fin cfg6.N) (d) : (dat6c V c).before 0 t d = iblk6 V c 0 t :=
  before6_0_of V (dat6c V c) (A_eq6 V c 0) (after6_0 V c) t d
theorem before6_1 (c : Dev nD) (t : Fin cfg6.N) (d) : (dat6c V c).before 1 t d = iblk6 V c 1 t :=
  before6_1_of V (dat6c V c) (A_eq6 V c 1) (after6_1 V c) t d

/-! ## The body obligation, at a generic point -/

/-- What the body is called with at point t, the windows one by one, -/
def bodyPre6 (c : Dev nD) (t : Fin cfg6.N) : sProp 𝕄 :=
  iprop((dat6c V c).Φ t.castSucc ∗ (dat6c V c).owesAt () t.castSucc
    ∗ (∃ d, owns (c : Thread nD τ) (st6_0 t) fullShare ((dat6c V c).before 0 t d))
    ∗ (∃ d, owns (c : Thread nD τ) (st6_1 t) fullShare ((dat6c V c).before 1 t d))
    ∗ (∃ d, owns (c : Thread nD τ) (st6_2 t) fullShare ((dat6c V c).before 2 t d)))

/-- and what it returns. -/
def bodyPost6 (c : Dev nD) (t : Fin cfg6.N) : sProp 𝕄 :=
  iprop((dat6c V c).Φ t.succ ∗ (dat6c V c).owesAt () t.succ
    ∗ owns (c : Thread nD τ) (st6_0 t) fullShare ((dat6c V c).after 0 t)
    ∗ owns (c : Thread nD τ) (st6_1 t) fullShare ((dat6c V c).after 1 t)
    ∗ owns (c : Thread nD τ) (st6_2 t) fullShare ((dat6c V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6c V c).Φ t.succ = (dat6c V c).Φ t.castSucc from rfl,
    show (dat6c V c).owesAt () t.succ = (dat6c V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation6c (c : Dev nD) : BodyObligation (dat6c (F := F) V c) (defs₀ (F := F)) Variants.none () Set.univ := fun t => by
  rw [bigSep_W6, bigSep_W6]
  exact sound_body6 V c t

/-- The same of the pinned pipeline's proof data. -/
theorem body_obligation6 (c : Dev nD) : BodyObligation (dat6 (F := F) a V c) (defs₀ (F := F)) Variants.none () Set.univ :=
  body_obligation6c V c

end Region6

/-! ## The exit valuation: the entry valuation with the result array replaced -/

section Exit6

variable (W : Valuation τ sig (Elt F)) (c : Dev nD) (x : Buf (Elt F) ((c : Thread nD τ).loc main_v138))

/-- The array of x is not the result array: the replacement leaves it. -/
theorem upd6_in0 : Function.update W main_v138 x (Pipeline.arrRef spec6 0 : Ref sig .tc) = W (Pipeline.arrRef spec6 0 : Ref sig .tc) :=
  Function.update_of_ne (StableHlo.devRef_ne_of_ne (show Pipeline.arrRef spec6 0 ≠ main_v138 by decide)) _ _
/-- Nor is the weight's. -/
theorem upd6_in1 : Function.update W main_v138 x (Pipeline.arrRef spec6 1 : Ref sig .tc) = W (Pipeline.arrRef spec6 1 : Ref sig .tc) :=
  Function.update_of_ne (StableHlo.devRef_ne_of_ne (show Pipeline.arrRef spec6 1 ≠ main_v138 by decide)) _ _
/-- Window 2's array is the result array. -/
theorem upd6_out : Function.update W main_v138 x (Pipeline.arrRef spec6 2 : Ref sig .tc) = x :=
  Function.update_self _ _ _
/-- A buffer that is no window's array is not the result array. -/
theorem upd6_rest (b : Ref sig .tc) (hb : b ∉ Finset.univ.image (Pipeline.arrRef spec6)) : Function.update W main_v138 x b = W b :=
  Function.update_of_ne (StableHlo.devRef_ne_of_ne fun e => hb (Finset.mem_image.mpr ⟨2, Finset.mem_univ _, e.symm⟩)) _ _

end Exit6

/-! ## The region as a segment of @main -/

-- a library lemma stated over the pinned pipeline unifies with the printed configuration only when unification may
-- unfold plain definitions in a metavariable's type
set_option backward.isDefEq.respectTransparency.types false in
set_option maxHeartbeats 2000000 in
/-- REGION 6 over the thread state, for any family of proof data whose pipeline 6 is dat6 at the entry valuation Vin:
    entered from every unscoped buffer at Vin, left at Vin with the result array main_v138 replaced by what the
    write-backs of the 50 points leave. Its arrays split out of the unscoped buffers and put back at the exit contents;
    the generator register into the invariant and out; nothing owed; no semaphore of the kernel's own. -/
def reg6 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 6 c = dat6 a (fun c b => Vin c b) c) :
    Pipeline.RegionSeg (pcfgs (F := F)) a pdats () defs₀ Variants.none (fun _ : GSem nD τ sig => (∅ : Finset Unit)) (fun (_ : GSem nD τ sig) (_ : Unit) => (0 : ℕ)) 6 where
  win := (launch6 (F := F)).win.to₀
  block_pos := (launch6 (F := F)).block_pos
  stage_whole := (launch6 (F := F)).stage_whole
  K := PEmpty
  osem k := k.elim
  ho := Pipeline.OwnSemFacts.none _
  hbody c := by rw [h c]; exact (body_obligation6 a (fun c b => Vin c b) c).loose
  hwaits := Pipeline.hwaits_of_owed_zero _ _ _ _ _ _ 6 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v138 ((dat6 a (fun c b => Vin c b) c).arrAt (2 : Fin 3) cfg6.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (fun b => Vin c b)
  hentry c := by
    have hd := h c
    rw [Pipeline.ownSems0_none]
    have hsplit := Pipeline.arrays_of_unscopedBufs (p := 6) (pcfgs (F := F)) a pdats (launch6 (F := F)).win (launch6 (F := F)).arr_whole c
      (by rw [hd]; exact (dat6 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat6 a (fun c b => Vin c b) c).Φ 0 = Pipeline.ΦA spec6 c from rfl]; unfold Pipeline.ΦA
    iintro ⟨Hp, -, Hr⟩
    isplitl [Hr]; · iexact Hr
    iexact Hp
  hout c := by
    rw [Pipeline.ownSems0_none, h c, show (dat6 a (fun c b => Vin c b) c).Φ (Fin.last _) = Pipeline.ΦA spec6 c from rfl]; unfold Pipeline.ΦA
    iintro ⟨Hr, Hp⟩
    isplitl [Hp]; · iexact Hp
    isplitr; · iempintro
    iexact Hr
  hexit c := by
    have hd := h c
    have hF : ∀ w : Fin 3, (dat6c (fun c b => Vin c b) c).arrAt w cfg6.N
        = Function.update (Vin c) main_v138 ((dat6 a (fun c b => Vin c b) c).arrAt (2 : Fin 3) cfg6.N) (Pipeline.arrRef spec6 w) := fun
      | ⟨0, _⟩ => (((dat6c (fun c b => Vin c b) c).arrAt_in 0 rfl _).trans (A_eq6 (fun c b => Vin c b) c 0)).trans (upd6_in0 (Vin c) c _).symm
      | ⟨1, _⟩ => (((dat6c (fun c b => Vin c b) c).arrAt_in 1 rfl _).trans (A_eq6 (fun c b => Vin c b) c 1)).trans (upd6_in1 (Vin c) c _).symm
      | ⟨2, _⟩ => (upd6_out (Vin c) c _).symm
    have hrest : ∀ b : Ref sig .tc, b ∉ Finset.univ.image (Pipeline.arrRef spec6)
        → Function.update (Vin c) main_v138 ((dat6 a (fun c b => Vin c b) c).arrAt (2 : Fin 3) cfg6.N) b = Vin c b :=
      fun b hb => upd6_rest (Vin c) c _ b hb
    have hjoin := Pipeline.unscopedBufs_of_arrays (p := 6) (pcfgs (F := F)) a (Ix := Unit) (Name := ℕ) (U := UR sig nD τ) (Lvl := ℕ)
      (launch6 (F := F)).win (launch6 (F := F)).arr_whole c pdats (by rw [hd]; exact (dat6 a (fun c b => Vin c b) c).share_full fun _ => rfl)
      (fun b => Vin c b) (fun b => Function.update (Vin c) main_v138 ((dat6 a (fun c b => Vin c b) c).arrAt (2 : Fin 3) cfg6.N) b)
      ((pdats 6 c).arrAt · cfg6.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.KernelIdeal.Hand

end
-- ==== Proof.KI.Gather7Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 7): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 7).1`, which are never evaluated. -/

/-! ## The pipeline at the admitted tables -/

/-- Pipeline 1 at the admitted contents of its two prefetched tables. -/
abbrev cfgG7 : Pipeline.Cfg sig Λ₀ := Pipeline.pin (pcfgs (F := F)) a 7

/-- Window `w`'s block at point `t`, read off its array as the region finds it (`V`); for the window whose index map
    reads the tables, a function of the tables' words. -/
def iblk7 (c : Dev nD) (w : Fin (cfgG7 a).W) (t : Fin (cfgG7 a).N) : (((cfgG7 a).win w).xblock ((cfgG7 a).grid.coords t)).Idx → Elt F ((cfgG7 a).win w).elt :=
  (((cfgG7 a).win w).blk t).view.read (Elt F) (V c (Pipeline.arrRef spec7 w))

/-! ## The tables as the body is handed them -/

abbrev tbM7_0 : Memref sig .tc .smem S123 .i32 := Memref.whole main_v86
abbrev htbM7_0 : tbM7_0.IsWhole := Memref.isWhole_whole _
abbrev tbM7_1 : Memref sig .tc .smem S123 .i32 := Memref.whole main_v89
abbrev htbM7_1 : tbM7_1.IsWhole := Memref.isWhole_whole _

/-- A table memref's buffer on core `c`: its contents type, and it held whole at `f`. -/
abbrev TbBuf7 (c : Dev nD) {S : Shape} {e : EltTy} (M : Memref sig .tc .smem S e) : Type := Buf (Elt F) (M.view.loc (c : Thread nD τ))
abbrev tbPt7 (c : Dev nD) {S : Shape} {e : EltTy} (M : Memref sig .tc .smem S e) (f : TbBuf7 (F := F) c M) : sProp 𝕄 :=
  M.view.loc (c : Thread nD τ) ↦{fullShare} f

/-- The word of a table the body loads at row `i 0`. -/
abbrev tword7 (c : Dev nD) (M : Memref sig .tc .smem S123 .i32) (i : grid7.Coords) (xt : TbBuf7 (F := F) c M) : Elt F .i32 :=
  M.view.readAt (Elt F) (Rect.unit (s := S123) (k7_off1 i) S1.size (k7_off1_inb i)).toLoadRect xt (Shape.Idx.first (numel1_S1.symm ▸ Nat.one_pos))

/-! ## The body's branch conditions -/

/-- `j = 0`: the accumulator is reset. -/
abbrev cond7_0 (i : grid7.Coords) : Prop := (Scalar.cmpi .ne (Scalar.extui (Scalar.cmpi .eq (BitVec.ofNat 32 (i 1).val) 0#32)) 0#32) = 1#1
theorem hcond7_0 : ∀ t : Fin grid7.N, cond7_0 (grid7.coords t) ↔ t.val % 125 = 0 := by decide +kernel
/-- `rlo[i] ≤ j ≤ rhi[i]` (signed), over the two table words: the block contributes. -/
abbrev cond7_1 (i : grid7.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond7_2 (i : grid7.Coords) : Prop := k7_cond3 i = 1#1
theorem hcond7_2 : ∀ t : Fin grid7.N, cond7_2 (grid7.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep7 (i : grid7.Coords) (x0 : Vec F S1x5120 .i32) (x1 : Vec F S800x128 .f32) (lo hi : BitVec 32) (xs : Vec F S5120x128 .f32) : Vec F S5120x128 .f32 :=
  if cond7_1 i lo hi then k7_pay2 i x0 x1 (if cond7_0 i then k7_pay1 (F := F) else xs) else (if cond7_0 i then k7_pay1 (F := F) else xs)

/-- The output window's buffer after the body: the scaled accumulator when `j = 124`, else what it held. -/
def outStep7 (i : grid7.Coords) (acc : Vec F S5120x128 .f32) (x2 : Vec F S5120x1 .f32) (xi3 : Vec F S5120x128 .f32) : Vec F S5120x128 .f32 :=
  if cond7_2 i then k7_pay3 acc x2 else xi3

/-- At a point that resets, what the scratch held before does not matter. -/
theorem accStep7_reset (i : grid7.Coords) (h : cond7_0 i) (x0 : Vec F S1x5120 .i32) (x1 : Vec F S800x128 .f32) (lo hi : BitVec 32) (xs xs' : Vec F S5120x128 .f32) :
    accStep7 i x0 x1 lo hi xs = accStep7 i x0 x1 lo hi xs' := by
  unfold accStep7; rw [if_pos h, if_pos h]

theorem outStep7_pos (i : grid7.Coords) (h : cond7_2 i) (acc : Vec F S5120x128 .f32) (x2 : Vec F S5120x1 .f32) (xi3 : Vec F S5120x128 .f32) :
    outStep7 i acc x2 xi3 = k7_pay3 acc x2 := by unfold outStep7; exact if_pos h
theorem outStep7_neg (i : grid7.Coords) (h : ¬cond7_2 i) (acc : Vec F S5120x128 .f32) (x2 : Vec F S5120x1 .f32) (xi3 : Vec F S5120x128 .f32) :
    outStep7 i acc x2 xi3 = xi3 := by unfold outStep7; exact if_neg h

/-! ## The schedule of the output window, whose index map reads no table -/

/-- The output block is written back at the last `j` of each `i`. -/
theorem flush7_3 : ∀ t : Fin (cfgG7 a).N, ((cfgG7 a).win 3).flush t = true ↔ t.val % 125 = 124 :=
  (by decide +kernel : ∀ t : Fin grid7.N, Pipeline.Window.flushOf grid7 true cc7_transform_3 t = true ↔ t.val % 125 = 124)

/-- The inputs are never idle. -/
theorem liveAt7_0 (t : Fin (cfgG7 a).N) : (cfgG7 a).idle 0 ((cfgG7 a).grid.coords t) = false := rfl
theorem liveAt7_1 (t : Fin (cfgG7 a).N) : (cfgG7 a).idle 1 ((cfgG7 a).grid.coords t) = false := rfl
theorem liveAt7_2 (t : Fin (cfgG7 a).N) : (cfgG7 a).idle 2 ((cfgG7 a).grid.coords t) = false := rfl
/-- The output is idle exactly where the body does not store it. -/
theorem idle7_3_eq (i : grid7.Coords) : (cfgG7 a).idle 3 i = !(k7_cond3 i == 1#1) := rfl
theorem idleAt7_3 (t : Fin (cfgG7 a).N) (h : ¬cond7_2 (grid7.coords t)) : (cfgG7 a).idle 3 ((cfgG7 a).grid.coords t) = true := by
  show (!(k7_cond3 (grid7.coords t) == 1#1)) = true
  rw [beq_eq_false_iff_ne.mpr h]; rfl
theorem liveAt7_3 (t : Fin (cfgG7 a).N) (h : cond7_2 (grid7.coords t)) : (cfgG7 a).idle 3 ((cfgG7 a).grid.coords t) = false := by
  show (!(k7_cond3 (grid7.coords t) == 1#1)) = false
  rw [show k7_cond3 (grid7.coords t) = 1#1 from h]; rfl
theorem noFlush7_3 (t : Fin (cfgG7 a).N) (h : ¬cond7_2 (grid7.coords t)) : ((cfgG7 a).win 3).flush t = false := by
  rw [Bool.eq_false_iff]; intro hf; exact h ((hcond7_2 t).mpr ((flush7_3 a t).mp hf))

/-! ## The memrefs the body is called with at a point -/

abbrev ms7_0 (t : Fin (cfgG7 a).N) : Memref sig .tc .vmem S1x5120 .i32 := spec7_0.stage ((cfgG7 a).slots t 0)
abbrev hs7_0 (t : Fin (cfgG7 a).N) : (ms7_0 a t).IsWhole := hstage7_0 (((cfgG7 a).slots t 0).cast nbuf7_0)
abbrev ms7_1 (t : Fin (cfgG7 a).N) : Memref sig .tc .vmem S800x128 .f32 := spec7_1.stage ((cfgG7 a).slots t 1)
abbrev hs7_1 (t : Fin (cfgG7 a).N) : (ms7_1 a t).IsWhole := hstage7_1 (((cfgG7 a).slots t 1).cast nbuf7_1)
abbrev ms7_2 (t : Fin (cfgG7 a).N) : Memref sig .tc .vmem S5120x1 .f32 := spec7_2.stage ((cfgG7 a).slots t 2)
abbrev hs7_2 (t : Fin (cfgG7 a).N) : (ms7_2 a t).IsWhole := hstage7_2 (((cfgG7 a).slots t 2).cast nbuf7_2)
abbrev ms7_3 (t : Fin (cfgG7 a).N) : Memref sig .tc .vmem S5120x128 .f32 := spec7_3.stage ((cfgG7 a).slots t 3)
abbrev hs7_3 (t : Fin (cfgG7 a).N) : (ms7_3 a t).IsWhole := hstage7_3 (((cfgG7 a).slots t 3).cast nbuf7_3)
/-- The scratch accumulator: a whole scoped buffer of the kernel's own. -/
abbrev scM7 : Memref sig .tc .vmem S5120x128 .f32 := Memref.whole cc7_scratch0

/-- The kernel body at point `t`, on what the pipeline calls it with. -/
abbrev bodyAt7 (t : Fin (cfgG7 a).N) : Prog (TpuEff nD τ sig (Elt F) Λ₀ .tc) PUnit :=
  cc7__gather_kernel (grid7.coords t) tbM7_0 htbM7_0 tbM7_1 htbM7_1 (ms7_0 a t) (hs7_0 a t) (ms7_1 a t) (hs7_1 a t) (ms7_2 a t) (hs7_2 a t) (ms7_3 a t) (hs7_3 a t) scM7 (Memref.isWhole_whole _)

/-! ## The tables' words at a point, and the accumulator point by point -/

/-- The words of the two tables at the row of point `t` (`rlo[i]`, `rhi[i]`), as the body loads them. -/
abbrev lo7 (c : Dev nD) (t : Fin (cfgG7 a).N) : BitVec 32 := tword7 c tbM7_0 (grid7.coords t) ((a 7).1 0)
abbrev hi7 (c : Dev nD) (t : Fin (cfgG7 a).N) : BitVec 32 := tword7 c tbM7_1 (grid7.coords t) ((a 7).1 1)

/-- THE ACCUMULATION. What the scratch holds after the body at position `n`, by recursion on the position: one step
    (`accStep7`: reset at `j = 0`, the gated one-hot product added) over what it held after the position before. -/
def accAt7 (c : Dev nD) : (n : ℕ) → n < (cfgG7 a).N → Vec F S5120x128 .f32
  | 0, hn => accStep7 (grid7.coords ⟨0, hn⟩) (iblk7 a V c 0 ⟨0, hn⟩) (iblk7 a V c 1 ⟨0, hn⟩) (lo7 a c ⟨0, hn⟩) (hi7 a c ⟨0, hn⟩) (k7_pay1 (F := F))
  | n + 1, hn => accStep7 (grid7.coords ⟨n + 1, hn⟩) (iblk7 a V c 0 ⟨n + 1, hn⟩) (iblk7 a V c 1 ⟨n + 1, hn⟩) (lo7 a c ⟨n + 1, hn⟩) (hi7 a c ⟨n + 1, hn⟩) (accAt7 c n (Nat.lt_of_succ_lt hn))

/-- One step at any point, over any `xs` that is what the point before left when there is one. -/
theorem accAt7_step (c : Dev nD) (t : Fin (cfgG7 a).N) (xs : Vec F S5120x128 .f32)
    (hxs : ∀ hz : t.val ≠ 0, xs = accAt7 a V c (t.val - 1) (Nat.lt_of_le_of_lt (Nat.sub_le _ _) t.isLt)) :
    accAt7 a V c t.val t.isLt = accStep7 (grid7.coords t) (iblk7 a V c 0 t) (iblk7 a V c 1 t) (lo7 a c t) (hi7 a c t) xs := by
  obtain ⟨n, hn⟩ := t
  cases n with
  | zero => exact accStep7_reset _ ((hcond7_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB7 (c : Dev nD) : sProp 𝕄 :=
  Pipeline.scopedRestBut (Ix := Unit) (Name := ℕ) (U := UR sig nD τ) (Lvl := ℕ) (Val := Elt F) spec7 c [cc7_scratch0]
/-- The two tables, whole, at the admitted contents. -/
abbrev tabs7 (c : Dev nD) : sProp 𝕄 :=
  Pipeline.prefHeld (Ix := Unit) (Name := ℕ) (U := UR sig nD τ) (Lvl := ℕ) pre7 c (fun _ => fullShare) (a 7).1

/-- The region invariant before position `n`: before the first point the scoped rest and the generator register as the
    region finds them; afterwards the scratch at what the point before left; at every point the tables whole. -/
def PhiS7 (c : Dev nD) : (n : ℕ) → n ≤ (cfgG7 a).N → sProp 𝕄
  | 0, _ => iprop(Pipeline.ΦA spec7 c ∗ tabs7 a c)
  | n + 1, hn => iprop(iprop(iprop(owns (c : Thread nD τ) scM7 fullShare (accAt7 a V c n hn) ∗ restB7 c) ∗ (∃ r, prngReg c r)) ∗ tabs7 a c)

theorem PhiS7_succ (c : Dev nD) (n : ℕ) (hn : n < (cfgG7 a).N) :
    PhiS7 a V c (n + 1) hn = iprop(iprop(iprop(owns (c : Thread nD τ) scM7 fullShare (accAt7 a V c n hn) ∗ restB7 c) ∗ (∃ r, prngReg c r)) ∗ tabs7 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS7`;
    nothing owed; full shares. -/
def dat7 (c : Dev nD) : Dat τ (Elt F) Unit ℕ (UR sig nD τ) ℕ (Pipeline.pin (pcfgs (F := F)) a 7) c where
  A w := V c (Pipeline.arrRef spec7 w)
  after w t := match w with
    | ⟨0, _⟩ => iblk7 a V c 0 t
    | ⟨1, _⟩ => iblk7 a V c 1 t
    | ⟨2, _⟩ => iblk7 a V c 2 t
    | ⟨3, _⟩ => k7_pay3 (accAt7 a V c t.val t.isLt) (iblk7 a V c 2 t)
  Φ t := PhiS7 a V c t.val (Nat.le_of_lt_succ t.isLt)
  q _ := fullShare
  owed _ := 0

theorem A_eq7 (c : Dev nD) (w : Fin (cfgG7 a).W) : (dat7 a V c).A w = V c (Pipeline.arrRef spec7 w) := by
  dsimp only [dat7]

theorem after7_0 (c : Dev nD) (t : Fin (cfgG7 a).N) : (dat7 a V c).after 0 t = iblk7 a V c 0 t := by dsimp only [dat7]; try rfl
theorem after7_1 (c : Dev nD) (t : Fin (cfgG7 a).N) : (dat7 a V c).after 1 t = iblk7 a V c 1 t := by dsimp only [dat7]; try rfl
theorem after7_2 (c : Dev nD) (t : Fin (cfgG7 a).N) : (dat7 a V c).after 2 t = iblk7 a V c 2 t := by dsimp only [dat7]; try rfl
theorem after7_3 (c : Dev nD) (t : Fin (cfgG7 a).N) :
    (dat7 a V c).after 3 t = k7_pay3 (accAt7 a V c t.val t.isLt) (iblk7 a V c 2 t) := by dsimp only [dat7]; try rfl

theorem PhiS7_castSucc (c : Dev nD) (t : Fin (cfgG7 a).N) :
    (dat7 a V c).Φ t.castSucc = PhiS7 a V c t.val (Nat.le_of_lt t.isLt) := by
  dsimp only [dat7]; simp only [Fin.coe_castSucc]

end Cert.KernelIdeal.Hand

end
-- ==== Proof.KI.Gather7Runs.lean ====
import proofs.«415143_j42460046688958_3_alg».proof.Proof.KI.Gather7Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 7): its triple, control case by control case -/

/-! ## Loads and stores through the whole-buffer rectangle at zero offsets -/

theorem vec2_zero_g7 : (![0, 0] : Fin 2 → ℕ) = fun _ => 0 := by funext b; fin_cases b <;> rfl

/-- A load of a whole memref held at contents that read `X` reads `X`. -/
theorem readAt_whole_unread_g7 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g7 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g7 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g7 (i : grid7.Coords) {u u' : Vec F S1x5120 .i32} {v v' : Vec F S800x128 .f32} {s s' : Vec F S5120x128 .f32}
    (hu : u = u') (hv : v = v') (hs : s = s') : k7_pay2 i u v s = k7_pay2 i u' v' s' := by rw [hu, hv, hs]
theorem pay3_congr_g7 {s s' : Vec F S5120x128 .f32} {n n' : Vec F S5120x1 .f32}
    (hs : s = s') (hn : n = n') : k7_pay3 s n = k7_pay3 s' n' := by rw [hs, hn]

theorem accStep7_TT_g7 (i : grid7.Coords) (x0 : Vec F S1x5120 .i32) (x1 : Vec F S800x128 .f32) (lo hi : BitVec 32) (xs : Vec F S5120x128 .f32)
    (h0 : cond7_0 i) (h1 : cond7_1 i lo hi) : accStep7 i x0 x1 lo hi xs = k7_pay2 i x0 x1 (k7_pay1 (F := F)) := by
  unfold accStep7; rw [if_pos h1, if_pos h0]
theorem accStep7_TF_g7 (i : grid7.Coords) (x0 : Vec F S1x5120 .i32) (x1 : Vec F S800x128 .f32) (lo hi : BitVec 32) (xs : Vec F S5120x128 .f32)
    (h0 : cond7_0 i) (h1 : ¬cond7_1 i lo hi) : accStep7 i x0 x1 lo hi xs = (k7_pay1 (F := F) : Vec F S5120x128 .f32) := by
  unfold accStep7; rw [if_neg h1, if_pos h0]
theorem accStep7_FT_g7 (i : grid7.Coords) (x0 : Vec F S1x5120 .i32) (x1 : Vec F S800x128 .f32) (lo hi : BitVec 32) (xs : Vec F S5120x128 .f32)
    (h0 : ¬cond7_0 i) (h1 : cond7_1 i lo hi) : accStep7 i x0 x1 lo hi xs = k7_pay2 i x0 x1 xs := by
  unfold accStep7; rw [if_pos h1, if_neg h0]
theorem accStep7_FF_g7 (i : grid7.Coords) (x0 : Vec F S1x5120 .i32) (x1 : Vec F S800x128 .f32) (lo hi : BitVec 32) (xs : Vec F S5120x128 .f32)
    (h0 : ¬cond7_0 i) (h1 : ¬cond7_1 i lo hi) : accStep7 i x0 x1 lo hi xs = xs := by
  unfold accStep7; rw [if_neg h1, if_neg h0]
theorem outStep7_T_g7 (i : grid7.Coords) (acc : Vec F S5120x128 .f32) (x2 : Vec F S5120x1 .f32) (xi3 : Vec F S5120x128 .f32)
    (h2 : cond7_2 i) : outStep7 i acc x2 xi3 = k7_pay3 acc x2 := by unfold outStep7; rw [if_pos h2]
theorem outStep7_F_g7 (i : grid7.Coords) (acc : Vec F S5120x128 .f32) (x2 : Vec F S5120x1 .f32) (xi3 : Vec F S5120x128 .f32)
    (h2 : ¬cond7_2 i) : outStep7 i acc x2 xi3 = xi3 := by unfold outStep7; rw [if_neg h2]

set_option maxHeartbeats 4000000 in
/-- The body in the control case A: the accumulator reset, the table words admitting the column block, the output not stored. -/
theorem kernel7_A (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : cond7_0 i) (hc1 : cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay2 i x0 x1 (k7_pay1 (F := F))) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readCov_whole_g7 arg8 vec2_zero_g7 _ _ _))
  isplitl [HT0]; · iexact HT0
  iexact HT1

set_option maxHeartbeats 4000000 in
/-- The body in the control case B: the accumulator reset, the table words not admitting the column block, the output not stored. -/
theorem kernel7_B (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : cond7_0 i) (hc1 : ¬cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay1 (F := F) : Vec F S5120x128 .f32) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _)
  isplitl [HT0]; · iexact HT0
  iexact HT1

set_option maxHeartbeats 4000000 in
/-- The body in the control case C: the accumulator not reset, the table words admitting the column block, the output not stored. -/
theorem kernel7_C (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k7_pay2 i x0 x1 xs) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))
  isplitl [HT0]; · iexact HT0
  iexact HT1

set_option maxHeartbeats 4000000 in
/-- The body in the control case D: the accumulator not reset, the table words not admitting the column block, the output not stored. -/
theorem kernel7_D (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : ¬cond7_1 i (tword7 c tbM7_0 i xt0) (tword7 c tbM7_1 i xt1)) (hc2 : ¬cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel7_E (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : cond7_1 i (tword7 c tbM7_0 i xt0) (tword7 c tbM7_1 i xt1)) (hc2 : cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare (k7_pay3 (k7_pay2 i x0 x1 xs) x2)
            ∗ owns (c : Thread nD τ) arg8 fullShare (k7_pay2 i x0 x1 xs) ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g7 arg7 _ vec2_zero_g7 _ _ _).trans (pay3_congr_g7 ((readCov_whole_g7 arg8 vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))) (readAt_whole_unread_g7 arg6 harg6 x2 vec2_zero_g7 _))
  isplitl [HS]
  · iexists _; isplitr
    swap; · iexact HS
    ipureintro
    exact (read_writes_whole_g7 arg8 _ vec2_zero_g7 _ _ _).trans (pay2_congr_g7 i (readAt_whole_unread_g7 arg4 harg4 x0 vec2_zero_g7 _) (readAt_whole_unread_g7 arg5 harg5 x1 vec2_zero_g7 _) (readAt_whole_unread_g7 arg8 harg8 xs vec2_zero_g7 _))
  isplitl [HT0]; · iexact HT0
  iexact HT1

set_option maxHeartbeats 4000000 in
/-- The body in the control case G: the accumulator not reset, the table words not admitting the column block, the output stored. -/
theorem kernel7_G (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hc0 : ¬cond7_0 i) (hc1 : ¬cond7_1 i (tword7 c tbM7_0 i xt0) (tword7 c tbM7_1 i xt1)) (hc2 : cond7_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare (k7_pay3 xs x2)
            ∗ owns (c : Thread nD τ) arg8 fullShare xs ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  simp only [cc7__gather_kernel_eq_skeleton]; unfold cc7__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g7 arg7 _ vec2_zero_g7 _ _ _).trans (pay3_congr_g7 (readAt_whole_unread_g7 arg8 harg8 xs vec2_zero_g7 _) (readAt_whole_unread_g7 arg6 harg6 x2 vec2_zero_g7 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel7 (c : Dev nD) (i : grid7.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf7 (F := F) c tbM7_0) (xt1 : TbBuf7 (F := F) c tbM7_1) (xs : Vec F S5120x128 .f32)
    (hx : cond7_0 i → ¬cond7_2 i)
    (acc' : Vec F S5120x128 .f32) (hacc : acc' = accStep7 i x0 x1 (tword7 c tbM7_0 i xt0) (tword7 c tbM7_1 i xt1) xs)
    (out' : Vec F S5120x128 .f32) (hout : out' = outStep7 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt7 c tbM7_0 xt0 ∗ tbPt7 c tbM7_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt7 c tbM7_0 xt0 ∗ tbPt7 c tbM7_1 xt1) -∗ K ⟨⟩))
      ⊢ wp frame (wpE (defs₀ (F := F)) Variants.none c none) E (cc7__gather_kernel i tbM7_0 htbM7_0 tbM7_1 htbM7_1 arg4 harg4 arg5 harg5 arg6 harg6 arg7 harg7 arg8 harg8) K := by
  subst hout; subst hacc
  by_cases h0 : cond7_0 i <;> by_cases h1 : cond7_1 i (tword7 c tbM7_0 i xt0) (tword7 c tbM7_1 i xt1) <;> by_cases h2 : cond7_2 i
  · exact absurd h2 (hx h0)
  · rw [outStep7_F_g7 _ _ _ _ h2, accStep7_TT_g7 _ _ _ _ _ _ h0 h1]; exact kernel7_A c i arg4 harg4 arg5 harg5 arg6 harg6 arg7 harg7 arg8 harg8 x0 x1 x2 xi3 xt0 xt1 xs h0 h1 h2 E K
  · exact absurd h2 (hx h0)
  · rw [outStep7_F_g7 _ _ _ _ h2, accStep7_TF_g7 _ _ _ _ _ _ h0 h1]; exact kernel7_B c i arg4 harg4 arg5 harg5 arg6 harg6 arg7 harg7 arg8 harg8 x0 x1 x2 xi3 xt0 xt1 xs h0 h1 h2 E K
  · rw [outStep7_T_g7 _ _ _ _ h2, accStep7_FT_g7 _ _ _ _ _ _ h0 h1]; exact kernel7_E c i arg4 harg4 arg5 harg5 arg6 harg6 arg7 harg7 arg8 harg8 x0 x1 x2 xi3 xt0 xt1 xs h0 h1 h2 E K
  · rw [outStep7_F_g7 _ _ _ _ h2, accStep7_FT_g7 _ _ _ _ _ _ h0 h1]; exact kernel7_C c i arg4 harg4 arg5 harg5 arg6 harg6 arg7 harg7 arg8 harg8 x0 x1 x2 xi3 xt0 xt1 xs h0 h1 h2 E K
  · rw [outStep7_T_g7 _ _ _ _ h2, accStep7_FF_g7 _ _ _ _ _ _ h0 h1]; exact kernel7_G c i arg4 harg4 arg5 harg5 arg6 harg6 arg7 harg7 arg8 harg8 x0 x1 x2 xi3 xt0 xt1 xs h0 h1 h2 E K
  · rw [outStep7_F_g7 _ _ _ _ h2, accStep7_FF_g7 _ _ _ _ _ _ h0 h1]; exact kernel7_D c i arg4 harg4 arg5 harg5 arg6 harg6 arg7 harg7 arg8 harg8 x0 x1 x2 xi3 xt0 xt1 xs h0 h1 h2 E K

end Cert.KernelIdeal.Hand

end
-- ==== Proof.KI.Gather7.lean ====
import proofs.«415143_j42460046688958_3_alg».proof.Proof.KI.Gather7Runs
import proofs.«415143_j42460046688958_3_alg».proof.Proof.KI.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 7): the body obligation and the region as a segment of @main -/

theorem PhiA7_eq (c : Dev nD) :
    (Pipeline.ΦA spec7 c : sProp 𝕄)
      = iprop(iprop(iprop((∃ d, owns (c : Thread nD τ) scM7 fullShare d)) ∗ restB7 c) ∗ (∃ r, prngReg c r)) := by
  unfold Pipeline.ΦA; rw [scopedRest7_split]; simp only [scM7, owns_whole]; try rfl

theorem PhiT7_eq (c : Dev nD) : (tabs7 a c : sProp 𝕄) = iprop(tbPt7 c tbM7_0 ((a 7).1 0) ∗ tbPt7 c tbM7_1 ((a 7).1 1)) := by
  unfold tabs7 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS7_open (c : Dev nD) (n : ℕ) (h : n ≤ (cfgG7 a).N) :
    PhiS7 a V c n h ⊢ iprop(∃ xs, ⌜∀ hz : n ≠ 0, xs = accAt7 a V c (n - 1) (by omega)⌝ ∗ owns (c : Thread nD τ) scM7 fullShare xs ∗ restB7 c
      ∗ (∃ r, prngReg c r) ∗ tbPt7 c tbM7_0 ((a 7).1 0) ∗ tbPt7 c tbM7_1 ((a 7).1 1)) := by
  cases n with
  | zero =>
    rw [show PhiS7 a V c 0 h = iprop(Pipeline.ΦA spec7 c ∗ tabs7 a c) from rfl, PhiA7_eq, PhiT7_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS7_succ, PhiT7_eq]
    iintro ⟨⟨⟨HS, Hr⟩, Hg⟩, HT0, HT1⟩
    iexists (accAt7 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS7_out (c : Dev nD) (n : ℕ) (h : n ≤ (cfgG7 a).N) : PhiS7 a V c n h ⊢ iprop(Pipeline.ΦA spec7 c ∗ tabs7 a c) := by
  cases n with
  | zero => exact .rfl
  | succ n =>
    rw [PhiS7_succ, PhiA7_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before7_0_of {c : Dev nD} (dat : Dat τ (Elt F) Unit ℕ (UR sig nD τ) ℕ (cfgG7 a) c) (hA : dat.A 0 = V c (Pipeline.arrRef spec7 0))
    (hafter : ∀ t, dat.after 0 t = iblk7 a V c 0 t) (t : Fin (cfgG7 a).N) (d) : dat.before 0 t d = iblk7 a V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ (cfgG7 a) c) (hA : dat.A 1 = V c (Pipeline.arrRef spec7 1))
    (hafter : ∀ t, dat.after 1 t = iblk7 a V c 1 t) (t : Fin (cfgG7 a).N) (d) : dat.before 1 t d = iblk7 a V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ (cfgG7 a) c) (hA : dat.A 2 = V c (Pipeline.arrRef spec7 2))
    (hafter : ∀ t, dat.after 2 t = iblk7 a V c 2 t) (t : Fin (cfgG7 a).N) (d) : dat.before 2 t d = iblk7 a V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin (cfgG7 a).N) (d) : (dat7 a V c).before 0 t d = iblk7 a V c 0 t :=
  before7_0_of a V (dat7 a V c) (A_eq7 a V c 0) (after7_0 a V c) t d
theorem before7_1 (c : Dev nD) (t : Fin (cfgG7 a).N) (d) : (dat7 a V c).before 1 t d = iblk7 a V c 1 t :=
  before7_1_of a V (dat7 a V c) (A_eq7 a V c 1) (after7_1 a V c) t d
theorem before7_2 (c : Dev nD) (t : Fin (cfgG7 a).N) (d) : (dat7 a V c).before 2 t d = iblk7 a V c 2 t :=
  before7_2_of a V (dat7 a V c) (A_eq7 a V c 2) (after7_2 a V c) t d

/-! ## What the body leaves in each window's buffer -/

/-- At a point live for a window the obligation asks for the window's buffer at what the body leaves there. -/
theorem leavesExact_live_g7 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves7_0 (c : Dev nD) (t : Fin (cfgG7 a).N) :
    (dat7 a V c).leavesExact 0 t = owns (c : Thread nD τ) (ms7_0 a t) fullShare (iblk7 a V c 0 t) := by
  rw [leavesExact_live_g7 (dat7 a V c) 0 t (liveAt7_0 a t), after7_0]; rfl
theorem leaves7_1 (c : Dev nD) (t : Fin (cfgG7 a).N) :
    (dat7 a V c).leavesExact 1 t = owns (c : Thread nD τ) (ms7_1 a t) fullShare (iblk7 a V c 1 t) := by
  rw [leavesExact_live_g7 (dat7 a V c) 1 t (liveAt7_1 a t), after7_1]; rfl
theorem leaves7_2 (c : Dev nD) (t : Fin (cfgG7 a).N) :
    (dat7 a V c).leavesExact 2 t = owns (c : Thread nD τ) (ms7_2 a t) fullShare (iblk7 a V c 2 t) := by
  rw [leavesExact_live_g7 (dat7 a V c) 2 t (liveAt7_2 a t), after7_2]; rfl

/-- The output's buffer at one step of the output over what the body found is what the obligation asks of it: the
    scaled accumulator where the body stores it, what it found where the window is idle. -/
theorem leaves7_3_intro (c : Dev nD) (t : Fin (cfgG7 a).N) (d) :
    owns (c : Thread nD τ) (ms7_3 a t) fullShare (outStep7 (grid7.coords t) (accAt7 a V c t.val t.isLt) (iblk7 a V c 2 t) ((dat7 a V c).before 3 t d))
      ⊢ ((dat7 a V c).leavesExact 3 t : sProp 𝕄) := by
  by_cases h2 : cond7_2 (grid7.coords t)
  · rw [leavesExact_live_g7 (dat7 a V c) 3 t (liveAt7_3 a t h2), after7_3]
    exact Entails.of_eq (congrArg (owns (c : Thread nD τ) (ms7_3 a t) fullShare) (outStep7_pos _ h2 _ _ _))
  · rw [Dat.leavesExact_idle (dat7 a V c) 3 t (idleAt7_3 a t h2) (noFlush7_3 a t h2)]
    refine (Entails.of_eq (congrArg (owns (c : Thread nD τ) (ms7_3 a t) fullShare) (outStep7_neg _ h2 _ _ _))).trans ?_
    iintro H; iexists d; iexact H

/-! ## The body obligation, at a generic point -/

def bodyPre7 (c : Dev nD) (t : Fin (cfgG7 a).N) : sProp 𝕄 :=
  iprop((dat7 a V c).Φ t.castSucc ∗ (dat7 a V c).owesAt () t.castSucc
    ∗ (∃ d, owns (c : Thread nD τ) (ms7_0 a t) fullShare ((dat7 a V c).before 0 t d))
    ∗ (∃ d, owns (c : Thread nD τ) (ms7_1 a t) fullShare ((dat7 a V c).before 1 t d))
    ∗ (∃ d, owns (c : Thread nD τ) (ms7_2 a t) fullShare ((dat7 a V c).before 2 t d))
    ∗ (∃ d, owns (c : Thread nD τ) (ms7_3 a t) fullShare ((dat7 a V c).before 3 t d)))

def bodyPost7 (c : Dev nD) (t : Fin (cfgG7 a).N) : sProp 𝕄 :=
  iprop((dat7 a V c).Φ t.succ ∗ (dat7 a V c).owesAt () t.succ
    ∗ (dat7 a V c).leavesExact 0 t
    ∗ (dat7 a V c).leavesExact 1 t
    ∗ (dat7 a V c).leavesExact 2 t
    ∗ (dat7 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body7 (c : Dev nD) (t : Fin (cfgG7 a).N) :
    bodyPre7 a V c t ⊢ wp frame (wpE (defs₀ (F := F)) Variants.none c none) Set.univ (bodyAt7 a t) (fun _ => bodyPost7 a V c t) := by
  unfold bodyPre7 bodyPost7 bodyAt7
  simp only [before7_0, before7_1, before7_2]
  rw [show (dat7 a V c).owesAt () t.succ = (dat7 a V c).owesAt () t.castSucc from rfl]
  rw [show (dat7 a V c).Φ t.succ = PhiS7 a V c (t.val + 1) t.isLt from rfl, PhiS7_succ, PhiT7_eq]
  rw [leaves7_0, leaves7_1, leaves7_2, PhiS7_castSucc]
  iintro ⟨HΦ, Ho, ⟨%d0, H0⟩, ⟨%d1, H1⟩, ⟨%d2, H2⟩, ⟨%d3, H3⟩⟩
  ihave HΦ' := (PhiS7_open a V c t.val (Nat.le_of_lt t.isLt)) $$ HΦ
  icases HΦ' with ⟨%xs, %hxs, HS, Hr, Hg, HT0, HT1⟩
  iapply (kernel7 c (grid7.coords t) (ms7_0 a t) (hs7_0 a t) (ms7_1 a t) (hs7_1 a t) (ms7_2 a t) (hs7_2 a t) (ms7_3 a t) (hs7_3 a t) scM7 (Memref.isWhole_whole _)
    (iblk7 a V c 0 t) (iblk7 a V c 1 t) (iblk7 a V c 2 t) ((dat7 a V c).before 3 t d3) ((a 7).1 0) ((a 7).1 1) xs
    (fun h0 h2 => by have e0 := (hcond7_0 t).mp h0; have e2 := (hcond7_2 t).mp h2; omega)
    (accAt7 a V c t.val t.isLt) (accAt7_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves7_3_intro a V c t d3)
  iexact H3

/-- The library's body obligation, at every point. -/
theorem body_obligation7 (c : Dev nD) : BodyObligation (dat7 (F := F) a V c) (defs₀ (F := F)) Variants.none () Set.univ := fun t => by
  rw [bigSep_W7, bigSep_W7]
  exact sound_body7 a V c t

/-! ## The region as a segment of @main -/

/-- What rides beside the buffers through every segment: the generator register at some state, nothing owed. -/
abbrev R7 (c : Dev nD) : sProp 𝕄 := iprop((∃ r, prngReg c r) ∗ ∃ W, owes (c : Thread nD τ) (0 : CellTallies nD τ sig Unit) W)

theorem Phi7_in (c : Dev nD) : iprop((∃ r, prngReg c r) ∗ tabs7 a c ∗ Pipeline.scopedRest (Ix := Unit) (Name := ℕ) (U := UR sig nD τ) (Lvl := ℕ) (Val := Elt F) spec7 c) ⊢ ((dat7 a V c).Φ 0 : sProp 𝕄) := by
  rw [show (dat7 a V c).Φ 0 = iprop(Pipeline.ΦA spec7 c ∗ tabs7 a c) from rfl]; unfold Pipeline.ΦA
  iintro ⟨Hp, HT, Hr⟩
  isplitl [Hr Hp]
  · isplitl [Hr]; · iexact Hr
    iexact Hp
  iexact HT

theorem Phi7_out (c : Dev nD) : ((dat7 a V c).Φ (Fin.last (cfgG7 a).N) : sProp 𝕄)
    ⊢ iprop(iprop(tabs7 a c ∗ ∃ r, prngReg c r) ∗ BI.emp ∗ Pipeline.scopedRest (Ix := Unit) (Name := ℕ) (U := UR sig nD τ) (Lvl := ℕ) (Val := Elt F) spec7 c) := by
  rw [show (dat7 a V c).Φ (Fin.last (cfgG7 a).N) = PhiS7 a V c (cfgG7 a).N (Nat.le_refl _) from rfl]
  refine (PhiS7_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF7 (Vin : Dev nD → Valuation τ sig (Elt F)) (hV : ∀ c b, V c b = Vin c b) (c : Dev nD) : ∀ w : Fin 4,
    (dat7 a V c).arrAt w (cfgG7 a).N
      = Function.update (Vin c) main_v139 ((dat7 a V c).arrAt 3 (cfgG7 a).N) (Proc.devRef .tc (Pipeline.arrRef spec7 w))
  | 0 => ((((dat7 a V c).arrAt_in 0 rfl _).trans (A_eq7 a V c 0)).trans (hV c _)).trans
      (Function.update_of_ne (StableHlo.devRef_ne_of_ne (by decide : Pipeline.arrRef spec7 0 ≠ main_v139)) _ _).symm
  | 1 => ((((dat7 a V c).arrAt_in 1 rfl _).trans (A_eq7 a V c 1)).trans (hV c _)).trans
      (Function.update_of_ne (StableHlo.devRef_ne_of_ne (by decide : Pipeline.arrRef spec7 1 ≠ main_v139)) _ _).symm
  | 2 => ((((dat7 a V c).arrAt_in 2 rfl _).trans (A_eq7 a V c 2)).trans (hV c _)).trans
      (Function.update_of_ne (StableHlo.devRef_ne_of_ne (by decide : Pipeline.arrRef spec7 2 ≠ main_v139)) _ _).symm
  | 3 => (Function.update_self (Proc.devRef .tc main_v139) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat7` at this pipeline. -/
def reg7 (pdats : (p : Fin 13) → (c : Dev nD) → Dat τ (Elt F) Unit ℕ (UR sig nD τ) ℕ (Pipeline.pin (pcfgs (F := F)) a p) c)
    (h : ∀ c, pdats 7 c = dat7 a V c)
    (Vin : Dev nD → Valuation τ sig (Elt F)) (hV : ∀ c b, V c b = Vin c b)
    (hpf : ∀ c k, Vin c (pre7.ref k) = (a 7).1 k) :
    Pipeline.RegionSeg (pcfgs (F := F)) a pdats () defs₀ Variants.none (fun _ => (∅ : Finset Unit)) (fun _ _ => (0 : ℕ)) 7 where
  win := (launch7 (F := F)).win.to₀
  block_pos := (launch7 (F := F)).block_pos
  stage_whole := (launch7 (F := F)).stage_whole
  K := PEmpty
  osem k := k.elim
  ho := Pipeline.OwnSemFacts.none _
  hbody c := by rw [h c]; exact (body_obligation7 a V c).loose
  hwaits := Pipeline.hwaits_of_owed_zero _ _ _ _ _ _ 7 fun c t => by rw [h c]; rfl
  pre c := iprop(StableHlo.held (c : Thread nD τ) (Pipeline.ucRefs τ sig) (Vin c) ∗ R7 c)
  post c := iprop(StableHlo.held (c : Thread nD τ) (Pipeline.ucRefs τ sig)
      (Function.update (Vin c) main_v139 ((dat7 a V c).arrAt 3 (cfgG7 a).N)) ∗ R7 c)
  X c := tblX c
  Y c := tblY a 7 c
  Z c := tblZ a 7 c (Vin c)
  hentry c := tbl_hentry a pdats (launch7 (F := F)) c (Vin c) (fun w => by rw [h c]; exact (A_eq7 a V c w).trans (hV c _))
    (fun w => by rw [h c]; exact (dat7 a V c).share_full (fun _ => rfl) w) (by rw [h c]; rfl) (by rw [h c]; rfl) (hpf c)
  hin c := by rw [h c]; exact Phi7_in a V c
  hout c := by rw [Pipeline.ownSems0_none, h c]; exact Phi7_out a V c
  hexit c := tbl_hexit a pdats (launch7 (F := F)) c (Vin c) _ (fun w => by rw [h c]; exact (dat7 a V c).share_full (fun _ => rfl) w)
    (fun w => by rw [h c]; exact hF7 a V Vin hV c w) (upd_rest (p := 7) a (Vin c) 3 _) (by rw [h c]; rfl) (hpf c)

end Cert.KernelIdeal.Hand

end
-- ==== Proof.KI.Scatter8Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 8: its control conditions, the table words it reads, and what one run of the
    body leaves in the carried accumulator and in the output block, in closed form over the payloads -/

/-- The body zeroes the accumulator when the second grid coordinate is 0. -/
abbrev cond8_1 (i : grid8.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond8_2 (i : grid8.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond8_3 (i : grid8.Coords) : Prop := k8_cond3 i = 1#1

/-- The prefetched tables as the body is handed them: whole scalar-memory memrefs. -/
abbrev tbM8_0 : Memref sig .tc .smem S123 .i32 := Memref.whole main_v81
abbrev htbM8_0 : tbM8_0.IsWhole := Memref.isWhole_whole _
abbrev tbM8_1 : Memref sig .tc .smem S123 .i32 := Memref.whole main_v82
abbrev htbM8_1 : tbM8_1.IsWhole := Memref.isWhole_whole _
abbrev tbM8_2 : Memref sig .tc .smem S50 .i32 := Memref.whole main_v110
abbrev htbM8_2 : tbM8_2.IsWhole := Memref.isWhole_whole _
abbrev tbM8_3 : Memref sig .tc .smem S50 .i32 := Memref.whole main_v111
abbrev htbM8_3 : tbM8_3.IsWhole := Memref.isWhole_whole _

/-- A table memref's buffer on core `c`, and that buffer held whole at contents `f`. -/
abbrev TbBuf8 (c : Dev nD) {S : Shape} {e : EltTy} (M : Memref sig .tc .smem S e) : Type := Buf (Elt F) (M.view.loc (c : Thread nD τ))
abbrev tbPt8 (c : Dev nD) {S : Shape} {e : EltTy} (M : Memref sig .tc .smem S e) (f : TbBuf8 (F := F) c M) : sProp 𝕄 :=
  M.view.loc (c : Thread nD τ) ↦{fullShare} f

/-- The word of the first table the body compares from below, at the second grid coordinate, -/
abbrev wd8_0 (c : Dev nD) (i : grid8.Coords) (xt : TbBuf8 (F := F) c tbM8_0) : Elt F .i32 :=
  tbM8_0.view.readAt (Elt F) (Rect.unit (s := S123) (k8_off2 i) S1.size (k8_off2_inb i)).toLoadRect xt (Shape.Idx.first (numel1_S1.symm ▸ Nat.one_pos))
/-- and the word of the second table it compares from above. -/
abbrev wd8_1 (c : Dev nD) (i : grid8.Coords) (xt : TbBuf8 (F := F) c tbM8_1) : Elt F .i32 :=
  tbM8_1.view.readAt (Elt F) (Rect.unit (s := S123) (k8_off2 i) S1.size (k8_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc8 (i : grid8.Coords) (wlo whi : Elt F .i32) (x0 : Vec F S1x5120 .i32) (x1 : Vec F S5120x128 .f32)
    (xs : Vec F S2000x128 .f32) : Vec F S2000x128 .f32 :=
  if cond8_2 i wlo whi then k8_pay2 i x0 x1 (if cond8_1 i then (k8_pay1 : Vec F S2000x128 .f32) else xs)
  else (if cond8_1 i then (k8_pay1 : Vec F S2000x128 .f32) else xs)

/-- Where the accumulator is zeroed, what it held before does not matter. -/
theorem acc8_of_cond8_1 (i : grid8.Coords) (h : cond8_1 i) (wlo whi : Elt F .i32) (x0 : Vec F S1x5120 .i32) (x1 : Vec F S5120x128 .f32)
    (xs xs' : Vec F S2000x128 .f32) : acc8 i wlo whi x0 x1 xs = acc8 i wlo whi x0 x1 xs' := by
  unfold acc8; rw [if_pos h, if_pos h]

/-! # REGION 8 of @main (custom_call 8, pipeline 8) at the tables' admissible contents `a 8` and the entry contents `V` -/

section Region
variable (a : (p : Fin 13) → (pcfgs (F := F) p).Adm)
variable (V : (c : Dev nD) → (b : Ref sig .tc) → Buf (Elt F) ((c : Thread nD τ).loc b))

/-- Pipeline 8 at the tables' contents. -/
abbrev cfgM8 : Pipeline.Cfg sig Λ₀ := cfg8 (a 8)

/-- Window `w`'s block at point `t`, read off its array as the region finds it (`V`); for windows 0 and 1, whose index
    maps read the tables, a function of the tables' words. -/
def iblk8 (c : Dev nD) (w : Fin (cfgM8 a).W) (t : Fin (cfgM8 a).N) : (((cfgM8 a).win w).xblock ((cfgM8 a).grid.coords t)).Idx → Elt F ((cfgM8 a).win w).elt :=
  (((cfgM8 a).win w).blk t).view.read (Elt F) (V c (Pipeline.arrRef spec8 w))

/-! ## Each input window's current staging buffer holds its block at every point, fetched there or not -/

theorem before8_0_of {c : Dev nD} (dat : Dat τ (Elt F) Unit ℕ (UR sig nD τ) ℕ (cfgM8 a) c) (hA : dat.A 0 = V c (Pipeline.arrRef spec8 0))
    (hafter : ∀ t, dat.after 0 t = iblk8 a V c 0 t) (t : Fin (cfgM8 a).N) (d) : dat.before 0 t d = iblk8 a V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ (cfgM8 a) c) (hA : dat.A 1 = V c (Pipeline.arrRef spec8 1))
    (hafter : ∀ t, dat.after 1 t = iblk8 a V c 1 t) (t : Fin (cfgM8 a).N) (d) : dat.before 1 t d = iblk8 a V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ (cfgM8 a) c) (hA : dat.A 2 = V c (Pipeline.arrRef spec8 2))
    (hafter : ∀ t, dat.after 2 t = iblk8 a V c 2 t) (t : Fin (cfgM8 a).N) (d) : dat.before 2 t d = iblk8 a V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ (cfgM8 a) c) (hA : dat.A 3 = V c (Pipeline.arrRef spec8 3))
    (hafter : ∀ t, dat.after 3 t = iblk8 a V c 3 t) (t : Fin (cfgM8 a).N) (d) : dat.before 3 t d = iblk8 a V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ (cfgM8 a) c) (hA : dat.A 4 = V c (Pipeline.arrRef spec8 4))
    (hafter : ∀ t, dat.after 4 t = iblk8 a V c 4 t) (t : Fin (cfgM8 a).N) (d) : dat.before 4 t d = iblk8 a V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The staging memrefs at a point, the scratch, the body as the pipeline calls it -/

abbrev ms8_0 (t : Fin (cfgM8 a).N) : Memref sig .tc .vmem S1x5120 .i32 := spec8_0.stage ((cfgM8 a).slots t 0)
abbrev hs8_0 (t : Fin (cfgM8 a).N) : (ms8_0 a t).IsWhole := hstage8_0 (((cfgM8 a).slots t 0).cast nbuf8_0)
abbrev ms8_1 (t : Fin (cfgM8 a).N) : Memref sig .tc .vmem S5120x128 .f32 := spec8_1.stage ((cfgM8 a).slots t 1)
abbrev hs8_1 (t : Fin (cfgM8 a).N) : (ms8_1 a t).IsWhole := hstage8_1 (((cfgM8 a).slots t 1).cast nbuf8_1)
abbrev ms8_2 (t : Fin (cfgM8 a).N) : Memref sig .tc .vmem S2000x128 .f32 := spec8_2.stage ((cfgM8 a).slots t 2)
abbrev hs8_2 (t : Fin (cfgM8 a).N) : (ms8_2 a t).IsWhole := hstage8_2 (((cfgM8 a).slots t 2).cast nbuf8_2)
abbrev ms8_3 (t : Fin (cfgM8 a).N) : Memref sig .tc .vmem S128x128 .f32 := spec8_3.stage ((cfgM8 a).slots t 3)
abbrev hs8_3 (t : Fin (cfgM8 a).N) : (ms8_3 a t).IsWhole := hstage8_3 (((cfgM8 a).slots t 3).cast nbuf8_3)
abbrev ms8_4 (t : Fin (cfgM8 a).N) : Memref sig .tc .vmem S1x128 .f32 := spec8_4.stage ((cfgM8 a).slots t 4)
abbrev hs8_4 (t : Fin (cfgM8 a).N) : (ms8_4 a t).IsWhole := hstage8_4 (((cfgM8 a).slots t 4).cast nbuf8_4)
abbrev ms8_5 (t : Fin (cfgM8 a).N) : Memref sig .tc .vmem S2000x128 .f32 := spec8_5.stage ((cfgM8 a).slots t 5)
abbrev hs8_5 (t : Fin (cfgM8 a).N) : (ms8_5 a t).IsWhole := hstage8_5 (((cfgM8 a).slots t 5).cast nbuf8_5)
/-- The accumulator: a whole scoped buffer of the kernel's own, carried between points. -/
abbrev scM8 : Memref sig .tc .vmem S2000x128 .f32 := Memref.whole cc8_scratch0

abbrev bodyAt8 (t : Fin (cfgM8 a).N) :=
  cc8__scatter_kernel (F := F) (grid8.coords t) tbM8_0 htbM8_0 tbM8_1 htbM8_1 tbM8_2 htbM8_2 tbM8_3 htbM8_3 (ms8_0 a t) (hs8_0 a t) (ms8_1 a t) (hs8_1 a t) (ms8_2 a t) (hs8_2 a t) (ms8_3 a t) (hs8_3 a t) (ms8_4 a t) (hs8_4 a t) (ms8_5 a t) (hs8_5 a t) scM8 (Memref.isWhole_whole _)

/-! ## The accumulator point by point, and the output block -/

/-- One point's step of the accumulator: the body's closed form at the point's coordinates, table words and blocks. -/
def accStep8 (c : Dev nD) (t : Fin (cfgM8 a).N) (xs : Vec F S2000x128 .f32) : Vec F S2000x128 .f32 :=
  acc8 (grid8.coords t) (wd8_0 c (grid8.coords t) ((a 8).1 0)) (wd8_1 c (grid8.coords t) ((a 8).1 1)) (iblk8 a V c 0 t) (iblk8 a V c 1 t) xs

/-- THE ACCUMULATION: what the scratch holds after the body at position `n`, by recursion on the position (the first
    point zeroes it, so what it held before the region does not matter: stated from the zero payload). -/
def accAt8 (c : Dev nD) : (n : ℕ) → n < (cfgM8 a).N → Vec F S2000x128 .f32
  | 0, hn => accStep8 a V c ⟨0, hn⟩ (k8_pay1 : Vec F S2000x128 .f32)
  | n + 1, hn => accStep8 a V c ⟨n + 1, hn⟩ (accAt8 c n (Nat.lt_of_succ_lt hn))

theorem accAt8_zero (c : Dev nD) (hn : 0 < (cfgM8 a).N) : accAt8 a V c 0 hn = accStep8 a V c ⟨0, hn⟩ (k8_pay1 : Vec F S2000x128 .f32) := rfl
theorem accAt8_succ (c : Dev nD) (n : ℕ) (hn : n + 1 < (cfgM8 a).N) :
    accAt8 a V c (n + 1) hn = accStep8 a V c ⟨n + 1, hn⟩ (accAt8 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt8 (c : Dev nD) (t : Fin (cfgM8 a).N) : Vec F S2000x128 .f32 :=
  k8_pay3 (iblk8 a V c 2 t) (iblk8 a V c 3 t) (accAt8 a V c t.val t.isLt) (iblk8 a V c 4 t)

/-! ## The region invariant -/

/-- Before position `n`: the scratch at what the point before left (at anything before the first point), the other
    scoped buffers at anything, the generator register at some state, the prefetched tables whole at their contents. -/
def PhiS8 (c : Dev nD) (n : ℕ) (hn : n ≤ (cfgM8 a).N) : sProp 𝕄 :=
  iprop(iprop(∃ d : Vec F S2000x128 .f32, ⌜∀ h0 : n ≠ 0, d = accAt8 a V c (n - 1) (by omega)⌝ ∗ owns (c : Thread nD τ) scM8 fullShare d)
    ∗ Pipeline.scopedRestBut (Ix := Unit) (Name := ℕ) (U := UR sig nD τ) (Lvl := ℕ) (Val := Elt F) spec8 c [cc8_scratch0]
    ∗ iprop(∃ r, prngReg c r)
    ∗ Pipeline.prefHeld (Ix := Unit) (Name := ℕ) (U := UR sig nD τ) (Lvl := ℕ) pre8 c (fun _ => fullShare) (a 8).1)

/-! ## The pipeline's proof data -/

def dat8 (c : Dev nD) : Dat τ (Elt F) Unit ℕ (UR sig nD τ) ℕ (Pipeline.pin (pcfgs (F := F)) a 8) c where
  A w := V c (Pipeline.arrRef spec8 w)
  after w t := match w with
    | ⟨0, _⟩ => iblk8 a V c 0 t
    | ⟨1, _⟩ => iblk8 a V c 1 t
    | ⟨2, _⟩ => iblk8 a V c 2 t
    | ⟨3, _⟩ => iblk8 a V c 3 t
    | ⟨4, _⟩ => iblk8 a V c 4 t
    | ⟨5, _⟩ => outAt8 a V c t
  Φ t := PhiS8 a V c t.val (Nat.le_of_lt_succ t.isLt)
  q _ := fullShare
  owed _ := 0

theorem A_eq8 (c : Dev nD) (w : Fin (cfgM8 a).W) : (dat8 a V c).A w = V c (Pipeline.arrRef spec8 w) := by
  dsimp only [dat8]
theorem after8_0 (c : Dev nD) (t : Fin (cfgM8 a).N) : (dat8 a V c).after 0 t = iblk8 a V c 0 t := by dsimp only [dat8]; try rfl
theorem after8_1 (c : Dev nD) (t : Fin (cfgM8 a).N) : (dat8 a V c).after 1 t = iblk8 a V c 1 t := by dsimp only [dat8]; try rfl
theorem after8_2 (c : Dev nD) (t : Fin (cfgM8 a).N) : (dat8 a V c).after 2 t = iblk8 a V c 2 t := by dsimp only [dat8]; try rfl
theorem after8_3 (c : Dev nD) (t : Fin (cfgM8 a).N) : (dat8 a V c).after 3 t = iblk8 a V c 3 t := by dsimp only [dat8]; try rfl
theorem after8_4 (c : Dev nD) (t : Fin (cfgM8 a).N) : (dat8 a V c).after 4 t = iblk8 a V c 4 t := by dsimp only [dat8]; try rfl
theorem after8_5 (c : Dev nD) (t : Fin (cfgM8 a).N) : (dat8 a V c).after 5 t = outAt8 a V c t := by dsimp only [dat8]; try rfl
theorem before8_0 (c : Dev nD) (t : Fin (cfgM8 a).N) (d) : (dat8 a V c).before 0 t d = iblk8 a V c 0 t :=
  before8_0_of a V (dat8 a V c) (A_eq8 a V c 0) (after8_0 a V c) t d
theorem before8_1 (c : Dev nD) (t : Fin (cfgM8 a).N) (d) : (dat8 a V c).before 1 t d = iblk8 a V c 1 t :=
  before8_1_of a V (dat8 a V c) (A_eq8 a V c 1) (after8_1 a V c) t d
theorem before8_2 (c : Dev nD) (t : Fin (cfgM8 a).N) (d) : (dat8 a V c).before 2 t d = iblk8 a V c 2 t :=
  before8_2_of a V (dat8 a V c) (A_eq8 a V c 2) (after8_2 a V c) t d
theorem before8_3 (c : Dev nD) (t : Fin (cfgM8 a).N) (d) : (dat8 a V c).before 3 t d = iblk8 a V c 3 t :=
  before8_3_of a V (dat8 a V c) (A_eq8 a V c 3) (after8_3 a V c) t d
theorem before8_4 (c : Dev nD) (t : Fin (cfgM8 a).N) (d) : (dat8 a V c).before 4 t d = iblk8 a V c 4 t :=
  before8_4_of a V (dat8 a V c) (A_eq8 a V c 4) (after8_4 a V c) t d

theorem PhiS8_castSucc (c : Dev nD) (t : Fin (cfgM8 a).N) :
    (dat8 a V c).Φ t.castSucc = PhiS8 a V c t.val (Nat.le_of_lt t.isLt) := by
  dsimp only [dat8]; simp only [Fin.coe_castSucc]

/-! ## The grid's coordinates and the conditions in closed form -/

theorem stride8_0 : grid8.stride 0 = 123 := by decide
theorem stride8_1 : grid8.stride 1 = 1 := by decide
theorem coords8_0 (t : Fin grid8.N) : (grid8.coords t 0).val = t.val / 123 % 50 := by
  show t.val / grid8.stride 0 % grid8.bound 0 = _; rw [stride8_0]; rfl
theorem coords8_1 (t : Fin grid8.N) : (grid8.coords t 1).val = t.val % 123 := by
  show t.val / grid8.stride 1 % grid8.bound 1 = _; rw [stride8_1, Nat.div_one]; rfl

theorem cond8_1_iff (i : grid8.Coords) : cond8_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond8_3_iff (i : grid8.Coords) : cond8_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle8_5_of (t : Fin (cfgM8 a).N) (h : cond8_3 (grid8.coords t)) : (cfgM8 a).idle 5 (grid8.coords t) = false := by
  show (!(k8_cond3 (grid8.coords t) == 1#1)) = false
  rw [show k8_cond3 (grid8.coords t) = 1#1 from h]; rfl
theorem idle8_5_of_not (t : Fin (cfgM8 a).N) (h : ¬cond8_3 (grid8.coords t)) : (cfgM8 a).idle 5 (grid8.coords t) = true := by
  show (!(k8_cond3 (grid8.coords t) == 1#1)) = true
  rw [Bool.not_eq_true', beq_eq_false_iff_ne]; exact h

end Region

end Cert.KernelIdeal.Hand

end
-- ==== Proof.KI.Scatter8Runs.lean ====
import proofs.«415143_j42460046688958_3_alg».proof.Proof.KI.Scatter8Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec8_zero8 : (![0, 0] : Fin 2 → ℕ) = fun _ => 0 := by funext b; fin_cases b <;> rfl

/-- A load of a whole memref held at contents that read `X` reads `X`. -/
theorem readAt_whole_unread8 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole8 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole8 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay8_congr8 (i : grid8.Coords) {u u' : Vec F S1x5120 .i32} {v v' : Vec F S5120x128 .f32} {s s' : Vec F S2000x128 .f32}
    (hu : u = u') (hv : v = v') (hs : s = s') : k8_pay2 i u v s = k8_pay2 i u' v' s' := by rw [hu, hv, hs]
theorem pay3_congr8 {u u' : Vec F S2000x128 .f32} {v v' : Vec F S128x128 .f32} {s s' : Vec F S2000x128 .f32} {b b' : Vec F S1x128 .f32}
    (hu : u = u') (hv : v = v') (hs : s = s') (hb : b = b') : k8_pay3 u v s b = k8_pay3 u' v' s' b' := by rw [hu, hv, hs, hb]

theorem acc8_TT (i : grid8.Coords) (wlo whi : Elt F .i32) (x0 : Vec F S1x5120 .i32) (x1 : Vec F S5120x128 .f32) (xs : Vec F S2000x128 .f32)
    (h1 : cond8_1 i) (h2 : cond8_2 i wlo whi) : acc8 i wlo whi x0 x1 xs = k8_pay2 i x0 x1 (k8_pay1 : Vec F S2000x128 .f32) := by
  unfold acc8; rw [if_pos h2, if_pos h1]
theorem acc8_TF (i : grid8.Coords) (wlo whi : Elt F .i32) (x0 : Vec F S1x5120 .i32) (x1 : Vec F S5120x128 .f32) (xs : Vec F S2000x128 .f32)
    (h1 : cond8_1 i) (h2 : ¬cond8_2 i wlo whi) : acc8 i wlo whi x0 x1 xs = (k8_pay1 : Vec F S2000x128 .f32) := by
  unfold acc8; rw [if_neg h2, if_pos h1]
theorem acc8_FT (i : grid8.Coords) (wlo whi : Elt F .i32) (x0 : Vec F S1x5120 .i32) (x1 : Vec F S5120x128 .f32) (xs : Vec F S2000x128 .f32)
    (h1 : ¬cond8_1 i) (h2 : cond8_2 i wlo whi) : acc8 i wlo whi x0 x1 xs = k8_pay2 i x0 x1 xs := by
  unfold acc8; rw [if_pos h2, if_neg h1]
theorem acc8_FF (i : grid8.Coords) (wlo whi : Elt F .i32) (x0 : Vec F S1x5120 .i32) (x1 : Vec F S5120x128 .f32) (xs : Vec F S2000x128 .f32)
    (h1 : ¬cond8_1 i) (h2 : ¬cond8_2 i wlo whi) : acc8 i wlo whi x0 x1 xs = xs := by
  unfold acc8; rw [if_neg h2, if_neg h1]

set_option maxHeartbeats 4000000 in
/-- The body in the control case A: the accumulator zeroed, the table words bracketing the row block, the output not stored. -/
theorem sound_kernel8_A (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : cond8_1 i) (hc2 : cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay2 i x0 x1 (k8_pay1 : Vec F S2000x128 .f32)) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readCov_whole8 arg12 vec8_zero8 _ _ _))
  isplitl [HT0]; · iexact HT0
  iexact HT1

set_option maxHeartbeats 4000000 in
/-- The body in the control case B: the accumulator zeroed, the table words not bracketing the row block, the output not stored. -/
theorem sound_kernel8_B (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : cond8_1 i) (hc2 : ¬cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay1 : Vec F S2000x128 .f32) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _)
  isplitl [HT0]; · iexact HT0
  iexact HT1

set_option maxHeartbeats 4000000 in
/-- The body in the control case C: the accumulator not zeroed, the table words bracketing the row block, the output not stored. -/
theorem sound_kernel8_C (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k8_pay2 i x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readAt_whole_unread8 arg12 harg12 xs vec8_zero8 _))
  isplitl [HT0]; · iexact HT0
  iexact HT1

set_option maxHeartbeats 4000000 in
/-- The body in the control case D: the accumulator not zeroed, the table words not bracketing the row block, the output not stored. -/
theorem sound_kernel8_D (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : ¬cond8_2 i (wd8_0 c i xt0) (wd8_1 c i xt1)) (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel8_E (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : cond8_2 i (wd8_0 c i xt0) (wd8_1 c i xt1)) (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 (k8_pay2 i x0 x1 xs) x4)
            ∗ owns (c : Thread nD τ) arg12 fullShare (k8_pay2 i x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole8 arg11 _ vec8_zero8 _ _ _).trans (pay3_congr8 (readAt_whole_unread8 arg8 harg8 x2 vec8_zero8 _) (readAt_whole_unread8 arg9 harg9 x3 vec8_zero8 _) ((readCov_whole8 arg12 vec8_zero8 _ _ _).trans (pay8_congr8 i (readAt_whole_unread8 arg6 harg6 x0 vec8_zero8 _) (readAt_whole_unread8 arg7 harg7 x1 vec8_zero8 _) (readAt_whole_unread8 arg12 harg12 xs vec8_zero8 _))) (readAt_whole_unread8 arg10 harg10 x4 vec8_zero8 _))
  isplitl [HS]
  · iexists _; isplitr
    swap; · iexact HS
    ipureintro
    exact (read_writes_whole8 arg12 _ vec8_zero8 _ _ _).trans (pay8_congr8 i (readAt_whole_unread8 arg6 harg6 x0 vec8_zero8 _) (readAt_whole_unread8 arg7 harg7 x1 vec8_zero8 _) (readAt_whole_unread8 arg12 harg12 xs vec8_zero8 _))
  isplitl [HT0]; · iexact HT0
  iexact HT1

set_option maxHeartbeats 4000000 in
/-- The body in the control case F: the accumulator not zeroed, the table words not bracketing the row block, the output stored. -/
theorem sound_kernel8_F (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc1 : ¬cond8_1 i) (hc2 : ¬cond8_2 i (wd8_0 c i xt0) (wd8_1 c i xt1)) (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 xs x4)
            ∗ owns (c : Thread nD τ) arg12 fullShare xs ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole8 arg11 _ vec8_zero8 _ _ _).trans (pay3_congr8 (readAt_whole_unread8 arg8 harg8 x2 vec8_zero8 _) (readAt_whole_unread8 arg9 harg9 x3 vec8_zero8 _) (readAt_whole_unread8 arg12 harg12 xs vec8_zero8 _) (readAt_whole_unread8 arg10 harg10 x4 vec8_zero8 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel8_idle (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc3 : ¬cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc8 i (wd8_0 c i xt0) (wd8_1 c i xt1) x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  by_cases h1 : cond8_1 i <;> by_cases h2 : cond8_2 i (wd8_0 c i xt0) (wd8_1 c i xt1)
  · rw [acc8_TT _ _ _ _ _ _ h1 h2]; exact sound_kernel8_A c E i arg6 harg6 arg7 harg7 arg8 harg8 arg9 harg9 arg10 harg10 arg11 harg11 arg12 harg12 x0 x1 x2 x3 x4 xs xo xt0 xt1 h1 h2 hc3 K
  · rw [acc8_TF _ _ _ _ _ _ h1 h2]; exact sound_kernel8_B c E i arg6 harg6 arg7 harg7 arg8 harg8 arg9 harg9 arg10 harg10 arg11 harg11 arg12 harg12 x0 x1 x2 x3 x4 xs xo xt0 xt1 h1 h2 hc3 K
  · rw [acc8_FT _ _ _ _ _ _ h1 h2]; exact sound_kernel8_C c E i arg6 harg6 arg7 harg7 arg8 harg8 arg9 harg9 arg10 harg10 arg11 harg11 arg12 harg12 x0 x1 x2 x3 x4 xs xo xt0 xt1 h1 h2 hc3 K
  · rw [acc8_FF _ _ _ _ _ _ h1 h2]; exact sound_kernel8_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel8_live (c : Dev nD) (E : Set ℕ) (i : grid8.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf8 (F := F) c tbM8_0) (xt1 : TbBuf8 (F := F) c tbM8_1)
    (hc3 : cond8_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt8 c tbM8_0 xt0 ∗ tbPt8 c tbM8_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k8_pay3 x2 x3 (acc8 i (wd8_0 c i xt0) (wd8_1 c i xt1) x0 x1 xs) x4)
            ∗ owns (c : Thread nD τ) arg12 fullShare (acc8 i (wd8_0 c i xt0) (wd8_1 c i xt1) x0 x1 xs) ∗ tbPt8 c tbM8_0 xt0 ∗ tbPt8 c tbM8_1 xt1) -∗ K ⟨⟩))
      ⊢ wp frame (wpE (defs₀ (F := F)) Variants.none c none) E (cc8__scatter_kernel i tbM8_0 htbM8_0 tbM8_1 htbM8_1 tbM8_2 htbM8_2 tbM8_3 htbM8_3 arg6 harg6 arg7 harg7 arg8 harg8 arg9 harg9 arg10 harg10 arg11 harg11 arg12 harg12) K := by
  have h1 : ¬cond8_1 i := fun h => by
    have e1 := (cond8_1_iff i).mp h; have e3 := (cond8_3_iff i).mp hc3; omega
  by_cases h2 : cond8_2 i (wd8_0 c i xt0) (wd8_1 c i xt1)
  · rw [acc8_FT _ _ _ _ _ _ h1 h2]; exact sound_kernel8_E c E i arg6 harg6 arg7 harg7 arg8 harg8 arg9 harg9 arg10 harg10 arg11 harg11 arg12 harg12 x0 x1 x2 x3 x4 xs xo xt0 xt1 h1 h2 hc3 K
  · rw [acc8_FF _ _ _ _ _ _ h1 h2]; exact sound_kernel8_F c E i arg6 harg6 arg7 harg7 arg8 harg8 arg9 harg9 arg10 harg10 arg11 harg11 arg12 harg12 x0 x1 x2 x3 x4 xs xo xt0 xt1 h1 h2 hc3 K

end Cert.KernelIdeal.Hand

end
-- ==== Proof.KI.Scatter8.lean ====
import proofs.«415143_j42460046688958_3_alg».proof.Proof.KI.Scatter8Runs
import proofs.«415143_j42460046688958_3_alg».proof.Proof.KI.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush8_5 : ∀ t : Fin (cfgM8 a).N, ((cfgM8 a).win 5).flush t = true ↔ t.val % 123 = 122 :=
  (by decide +kernel : ∀ t : Fin grid8.N, Pipeline.Window.flushOf grid8 true cc8_transform_5 t = true ↔ t.val % 123 = 122)

/-- and at a point that does not store the output it writes nothing back. -/
theorem noFlush8_5 (t : Fin (cfgM8 a).N) (h : ¬cond8_3 (grid8.coords t)) : ((cfgM8 a).win 5).flush t = false := by
  rw [Bool.eq_false_iff]; intro hf
  exact h ((cond8_3_iff _).mpr (by rw [coords8_1]; exact (flush8_5 a t).mp hf))

/-- The tables whole at contents `v`, table by table: what the invariant hands the body and takes back. -/
theorem PhiT8_eq (c : Dev nD) (v : pre8.Contents (Elt F)) :
    (Pipeline.prefHeld (Ix := Unit) (Name := ℕ) (U := UR sig nD τ) (Lvl := ℕ) pre8 c (fun _ => fullShare) v : sProp 𝕄)
      = iprop(tbPt8 c tbM8_0 (v 0) ∗ tbPt8 c tbM8_1 (v 1) ∗ tbPt8 c tbM8_2 (v 2) ∗ tbPt8 c tbM8_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep8_eq_accAt8 (c : Dev nD) (t : Fin (cfgM8 a).N) (d : Vec F S2000x128 .f32)
    (hd : ∀ h0 : t.val ≠ 0, d = accAt8 a V c (t.val - 1) (by omega)) :
    accStep8 a V c t d = accAt8 a V c t.val t.isLt := by
  obtain ⟨n, hn⟩ := t
  cases n with
  | zero =>
    rw [accAt8_zero]; unfold accStep8
    exact acc8_of_cond8_1 _ ((cond8_1_iff _).mpr (by rw [coords8_1]; exact Nat.zero_mod _)) _ _ _ _ _ _
  | succ n =>
    rw [accAt8_succ, hd (Nat.succ_ne_zero n)]; rfl

/-! ## What the body obligation asks of each window's buffer after the body -/

theorem leaves8_0 (c : Dev nD) (t : Fin (cfgM8 a).N) :
    (dat8 a V c).leavesExact 0 t = owns (c : Thread nD τ) (ms8_0 a t) fullShare (iblk8 a V c 0 t) := by
  rw [← after8_0 a V c t]; rfl
theorem leaves8_1 (c : Dev nD) (t : Fin (cfgM8 a).N) :
    (dat8 a V c).leavesExact 1 t = owns (c : Thread nD τ) (ms8_1 a t) fullShare (iblk8 a V c 1 t) := by
  rw [← after8_1 a V c t]; rfl
theorem leaves8_2 (c : Dev nD) (t : Fin (cfgM8 a).N) :
    (dat8 a V c).leavesExact 2 t = owns (c : Thread nD τ) (ms8_2 a t) fullShare (iblk8 a V c 2 t) := by
  rw [← after8_2 a V c t]; rfl
theorem leaves8_3 (c : Dev nD) (t : Fin (cfgM8 a).N) :
    (dat8 a V c).leavesExact 3 t = owns (c : Thread nD τ) (ms8_3 a t) fullShare (iblk8 a V c 3 t) := by
  rw [← after8_3 a V c t]; rfl
theorem leaves8_4 (c : Dev nD) (t : Fin (cfgM8 a).N) :
    (dat8 a V c).leavesExact 4 t = owns (c : Thread nD τ) (ms8_4 a t) fullShare (iblk8 a V c 4 t) := by
  rw [← after8_4 a V c t]; rfl

/-- Where the body stores the output the window is live: its buffer ends at the output block. -/
theorem leaves8_5_live (c : Dev nD) (t : Fin (cfgM8 a).N) (h3 : cond8_3 (grid8.coords t)) :
    (dat8 a V c).leavesExact 5 t = owns (c : Thread nD τ) (ms8_5 a t) fullShare (outAt8 a V c t) := by
  have hi : (Pipeline.pin (pcfgs (F := F)) a 8).idle 5 ((Pipeline.pin (pcfgs (F := F)) a 8).grid.coords t) = false := idle8_5_of a t h3
  unfold Dat.leavesExact; rw [hi]; rfl

/-- Elsewhere it is idle and not written back: its buffer is handed back as found. -/
theorem leaves8_5_idle (c : Dev nD) (t : Fin (cfgM8 a).N) (h3 : ¬cond8_3 (grid8.coords t)) :
    (dat8 a V c).leavesExact 5 t = iprop(∃ d, owns (c : Thread nD τ) (ms8_5 a t) fullShare ((dat8 a V c).before 5 t d)) :=
  Dat.leavesExact_idle (dat8 a V c) 5 t (idle8_5_of_not a t h3) (noFlush8_5 a t h3)

/-! ## The body obligation, at a generic point -/

def bodyPre8 (c : Dev nD) (t : Fin (cfgM8 a).N) : sProp 𝕄 :=
  iprop((dat8 a V c).Φ t.castSucc ∗ (dat8 a V c).owesAt () t.castSucc
    ∗ (∃ d, owns (c : Thread nD τ) (ms8_0 a t) fullShare ((dat8 a V c).before 0 t d))
    ∗ (∃ d, owns (c : Thread nD τ) (ms8_1 a t) fullShare ((dat8 a V c).before 1 t d))
    ∗ (∃ d, owns (c : Thread nD τ) (ms8_2 a t) fullShare ((dat8 a V c).before 2 t d))
    ∗ (∃ d, owns (c : Thread nD τ) (ms8_3 a t) fullShare ((dat8 a V c).before 3 t d))
    ∗ (∃ d, owns (c : Thread nD τ) (ms8_4 a t) fullShare ((dat8 a V c).before 4 t d))
    ∗ (∃ d, owns (c : Thread nD τ) (ms8_5 a t) fullShare ((dat8 a V c).before 5 t d)))

def bodyPost8 (c : Dev nD) (t : Fin (cfgM8 a).N) : sProp 𝕄 :=
  iprop((dat8 a V c).Φ t.succ ∗ (dat8 a V c).owesAt () t.succ
    ∗ (dat8 a V c).leavesExact 0 t
    ∗ (dat8 a V c).leavesExact 1 t
    ∗ (dat8 a V c).leavesExact 2 t
    ∗ (dat8 a V c).leavesExact 3 t
    ∗ (dat8 a V c).leavesExact 4 t
    ∗ (dat8 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body8 (c : Dev nD) (t : Fin (cfgM8 a).N) :
    bodyPre8 a V c t ⊢ wp frame (wpE (defs₀ (F := F)) Variants.none c none) Set.univ (bodyAt8 a t) (fun _ => bodyPost8 a V c t) := by
  unfold bodyPre8 bodyPost8 bodyAt8
  simp only [before8_0, before8_1, before8_2, before8_3, before8_4]
  rw [show (dat8 a V c).owesAt () t.succ = (dat8 a V c).owesAt () t.castSucc from rfl]
  rw [show (dat8 a V c).Φ t.succ = PhiS8 a V c (t.val + 1) t.isLt from rfl, PhiS8_castSucc]
  rw [leaves8_0, leaves8_1, leaves8_2, leaves8_3, leaves8_4]
  unfold PhiS8
  rw [PhiT8_eq]
  by_cases h3 : cond8_3 (grid8.coords t)
  · rw [leaves8_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel8_live c Set.univ (grid8.coords t) _ _ _ _ _ _ _ _ _ _ _ _ _ _ (iblk8 a V c 0 t) (iblk8 a V c 1 t) (iblk8 a V c 2 t) (iblk8 a V c 3 t) (iblk8 a V c 4 t) d ((dat8 a V c).before 5 t d5) ((a 8).1 0) ((a 8).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep8_eq_accAt8 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt8 a V c t = k8_pay3 (iblk8 a V c 2 t) (iblk8 a V c 3 t) (accStep8 a V c t d) (iblk8 a V c 4 t) from by
      unfold outAt8; rw [accStep8_eq_accAt8 a V c t d hd]]
    iexact H5
  · rw [leaves8_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel8_idle c Set.univ (grid8.coords t) _ _ _ _ _ _ _ _ _ _ _ _ _ _ (iblk8 a V c 0 t) (iblk8 a V c 1 t) (iblk8 a V c 2 t) (iblk8 a V c 3 t) (iblk8 a V c 4 t) d ((dat8 a V c).before 5 t d5) ((a 8).1 0) ((a 8).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep8_eq_accAt8 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation8 (c : Dev nD) : BodyObligation (dat8 (F := F) a V c) (defs₀ (F := F)) Variants.none () Set.univ := fun t => by
  rw [bigSep_W8, bigSep_W8]
  exact sound_body8 a V c t

/-- The accumulator's memref is its whole scoped buffer. -/
theorem owns_scM8_eq (c : Dev nD) (d : Vec F S2000x128 .f32) :
    (owns (c : Thread nD τ) scM8 fullShare d : sProp 𝕄) = ((c : Thread nD τ).loc cc8_scratch0 ↦{fullShare} d) := by
  rw [show scM8 = Memref.whole cc8_scratch0 from rfl, owns_whole]

/-- What the region's entry hands over — the generator register, the tables whole at their contents, the scoped buffers
    no window stages — is the invariant before the first point. -/
theorem hin8 (c : Dev nD) :
    iprop(iprop(∃ r, prngReg c r) ∗ Pipeline.prefHeld (Ix := Unit) (Name := ℕ) (U := UR sig nD τ) (Lvl := ℕ) pre8 c (fun _ => fullShare) (a 8).1
        ∗ Pipeline.scopedRest (Ix := Unit) (Name := ℕ) (U := UR sig nD τ) (Lvl := ℕ) (Val := Elt F) spec8 c)
      ⊢ (dat8 a V c).Φ 0 := by
  rw [show (dat8 a V c).Φ 0 = PhiS8 a V c 0 (Nat.zero_le _) from rfl]; unfold PhiS8
  rw [scopedRest8_split]
  iintro ⟨Hg, HT, ⟨%f, Hs⟩, Hrest⟩
  isplitl [Hs]
  · iexists f; isplitr; · ipureintro; intro h0; exact absurd rfl h0
    rw [show scM8 = Memref.whole cc8_scratch0 from rfl, owns_whole]; iexact Hs
  isplitl [Hrest]; · iexact Hrest
  isplitl [Hg]; · iexact Hg
  iexact HT

/-- The invariant after the last point gives them back, the accumulator's named contents forgotten. -/
theorem hout8 (c : Dev nD) :
    (dat8 a V c).Φ (Fin.last (cfgM8 a).N)
      ⊢ iprop(iprop(Pipeline.prefHeld (Ix := Unit) (Name := ℕ) (U := UR sig nD τ) (Lvl := ℕ) pre8 c (fun _ => fullShare) (a 8).1 ∗ ∃ r, prngReg c r)
          ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none, show (dat8 a V c).Φ (Fin.last (cfgM8 a).N) = PhiS8 a V c (cfgM8 a).N (Nat.le_refl _) from rfl]; unfold PhiS8
  rw [scopedRest8_split]
  simp only [owns_scM8_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt8_in (c : Dev nD) (w : Fin (cfgM8 a).W) (hw : ((cfgM8 a).win w).isOut = false) (hne : Pipeline.arrRef spec8 w ≠ main_v145)
    (Vin : Dev nD → Valuation τ sig (Elt F)) (hV : ∀ c b, V c b = Vin c b)
    (x : (Proc.devRef .tc main_v145 : DevRef τ sig).ty.Contents (Elt F)) (n : ℕ) :
    (dat8 a V c).arrAt w n = Function.update (Vin c) main_v145 x (Pipeline.arrRef spec8 w) :=
  ((dat8 a V c).arrAt_in w hw n).trans ((A_eq8 a V c w).trans ((hV c _).trans
    (Function.update_of_ne (StableHlo.devRef_ne_of_ne hne) _ _).symm))

/-- The first five windows are inputs, and none of their arrays is the output's. -/
theorem inputs8_isIn : ∀ w : Fin 6, w.val < 5 → (spec8 w).isOut = false := by decide
theorem inputs8_ne : ∀ w : Fin 6, w.val < 5 → Pipeline.arrRef spec8 w ≠ main_v145 := by decide

/-- At the region's exit every array of the pipeline holds what the exit valuation says: the inputs as entered, the
    output's what the write-backs leave (named `X`, so that nothing unfolds the fold over the grid). -/
theorem hF8 (c : Dev nD) (Vin : Dev nD → Valuation τ sig (Elt F)) (hV : ∀ c b, V c b = Vin c b)
    (X : (Proc.devRef .tc main_v145 : DevRef τ sig).ty.Contents (Elt F)) (hX : (dat8 a V c).arrAt 5 (cfgM8 a).N = X) :
    ∀ w, (dat8 a V c).arrAt w (cfgM8 a).N
      = Function.update (Vin c) main_v145 X (Pipeline.arrRef (Pipeline.pin (pcfgs (F := F)) a 8).spec w) := by
  intro w
  by_cases hw : w.val < 5
  · exact arrAt8_in a V c w (inputs8_isIn w hw) (inputs8_ne w hw) Vin hV X _
  · have hW : w.val < 6 := w.isLt
    obtain ⟨wv, hwv⟩ := w
    obtain rfl : wv = 5 := by simp only at hw hW; omega
    exact hX.trans (Function.update_self (Proc.devRef .tc main_v145 : DevRef τ sig) X (Vin c)).symm

set_option backward.isDefEq.respectTransparency.types false in
/-- REGION 8 over the thread state: entered from every unscoped buffer at `Vin` (whose table buffers hold the tables'
    admissible contents), left with the output array at what the write-backs leave and every other buffer as entered;
    beside them the generator register at some state and the core owing nothing. -/
def reg8 (pdats : (p : Fin 13) → (c : Dev nD) → Dat τ (Elt F) Unit ℕ (UR sig nD τ) ℕ (Pipeline.pin (pcfgs (F := F)) a p) c)
    (h : ∀ c, pdats 8 c = dat8 a V c)
    (Vin : Dev nD → Valuation τ sig (Elt F)) (hV : ∀ c b, V c b = Vin c b)
    (hpf : ∀ c k, Vin c (pre8.ref k) = (a 8).1 k) :
    Pipeline.RegionSeg (pcfgs (F := F)) a pdats () (defs₀ (F := F)) Variants.none (fun _ => ∅) (fun _ _ => 0) 8 where
  win := (launch8 (F := F)).win.to₀
  block_pos := (launch8 (F := F)).block_pos
  stage_whole := (launch8 (F := F)).stage_whole
  K := PEmpty
  osem k := k.elim
  ho := Pipeline.OwnSemFacts.none _
  hbody c := by rw [h c]; exact (body_obligation8 a V c).loose
  hwaits := Pipeline.hwaits_of_owed_zero _ _ _ _ _ _ 8 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v145 ((dat8 a V c).arrAt 5 (cfgM8 a).N)) ∗ iprop((∃ r, prngReg c r) ∗ ∃ W, owes (c : Thread nD τ) (0 : CellTallies nD τ sig Unit) W))
  X c := tblX c
  Y c := tblY a 8 c
  Z c := tblZ a 8 c (Vin c)
  hentry c := tbl_hentry a pdats (launch8 (F := F)) c (Vin c)
    (fun w => by rw [h c, A_eq8]; exact hV c _)
    (by rw [h c]; exact (dat8 a V c).share_full fun _ => rfl)
    (by rw [h c]; rfl) (by rw [h c]; rfl) (hpf c)
  hin c := by rw [h c]; exact hin8 a V c
  hout c := by rw [h c]; exact hout8 a V c
  hexit c := tbl_hexit a pdats (launch8 (F := F)) c (Vin c) (Function.update (Vin c) main_v145 ((dat8 a V c).arrAt 5 (cfgM8 a).N))
    (by rw [h c]; exact (dat8 a V c).share_full fun _ => rfl)
    (by rw [h c]; exact hF8 a V c Vin hV _ rfl)
    (upd_rest a (p := 8) (Vin c) 5 _)
    (by rw [h c]; rfl) (hpf c)

end Region8

end Cert.KernelIdeal.Hand

end
-- ==== Proof.KI.Dense9.lean ====
/- Regions 0, 3, 6, 9 of @main are one dense layer each: the pallas_call computes tmp = x · w on a grid of 50 row
   blocks. Window 0 is the row block of x (2000 × 128) at the point, window 1 the whole weight (128 × 128, the same
   block at every point), window 2 the row block of the result. The body reads both inputs whole and stores one
   payload, the product of the two blocks into a zero accumulator, over the whole output block.

   This module is region 9, at ANY contents V of the TensorCore's buffers when the region is entered: each window's
   block at a point, what the body leaves in the output block as a closed function of the two input blocks, the body's
   triple, the pipeline's proof data, the body obligation, and the region as a segment of @main between two thread
   states: every unscoped buffer held at the entry valuation, and the same with the result array replaced by what the
   write-backs of all 50 points leave. -/
import proofs.«415143_j42460046688958_3_alg».proof.Proof.Gen.KernelIdeal.Launch
import proofs.«415143_j42460046688958_3_alg».proof.Proof.Gen.KernelIdeal.Skeleton
import proofs.«415143_j42460046688958_3_alg».proof.Proof.Gen.KernelIdeal.Points
import Idealize.ShloMosaic.Lib.Pipeline.FrameBody
import Idealize.ShloMosaic.Lib.Pipeline.RegionsLoop
import Idealize.ShloMosaic.Lib.Tactic

-- membership of an index in a rectangle of 2000 rows recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

-- the contents of the prefetched tables of the program's other pipelines: region 9 has none, and nothing here reads them
variable (a : (p : Fin 13) → (pcfgs (F := F) p).Adm)
-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The row block of x is in its staging buffer at every point: it is fetched at every point. Stated for any proof
    data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weight is in its staging buffer at every point although it is fetched at the first only: its block index never
    moves, and the body leaves the buffer as it finds it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S2000x128 := Rect.unit (s := S2000x128) ![0, 0] S2000x128.size inb_S2000x128_S2000x128_0_0
abbrev r9_1 : Rect S128x128 := Rect.unit (s := S128x128) ![0, 0] S128x128.size inb_S128x128_S128x128_0_0

/-! ## What the body leaves in the output block -/

/-- The output block after the body, from the two input blocks: its one store, of the product payload, over the
    whole block. -/
def out9_2 (x0 : Vec F S2000x128 .f32) (x1 : Vec F S128x128 .f32) : Vec F S2000x128 .f32 :=
  View.canon [⟨r9_0, k9_pay1 (View.ld x0 r9_0) (View.ld x1 r9_1)⟩]

/-- The one store covers the block. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The body on whole staging memrefs, the inputs' at read contents x0, x1 and the output's at anything, runs to the
    continuation holding the inputs' as they were and the output's at out9_2 x0 x1. The load of the output buffer
    before the store reads contents nothing depends on. -/
theorem sound_kernel9 (c : Dev nD) (E : Set ℕ) (i : grid9.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__dense_matmul_kernel i arg1 harg1 arg2 harg2 arg3 harg3) K := by
  simp only [cc9__dense_matmul_kernel_eq_skeleton]; unfold cc9__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data on core c, over the printed configuration: the arrays as the region finds them; after the body at
    point t each input's buffer at its block and the output's at out9_2 of the two blocks; the invariant the scoped rest
    and the generator register, untouched; nothing owed; full shares. -/
def dat9c (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The same as proof data of pipeline 9 of the program's family, pinned at any contents a of the tables: pipeline 9
    prefetches nothing, and pinned it is the printed configuration again. -/
abbrev dat9 (c : Dev nD) : Dat τ (Elt F) Unit ℕ (UR sig nD τ) ℕ (Pipeline.pin (pcfgs (F := F)) a 9) c := dat9c V c

theorem A_eq9 (c : Dev nD) (w : Fin cfg9.W) : (dat9c V c).A w = V c (Pipeline.arrRef spec9 w) := by
  dsimp only [dat9c]

theorem after9_0 (c : Dev nD) (t : Fin cfg9.N) : (dat9c V c).after 0 t = iblk9 V c 0 t := by dsimp only [dat9c]
theorem after9_1 (c : Dev nD) (t : Fin cfg9.N) : (dat9c V c).after 1 t = iblk9 V c 1 t := by dsimp only [dat9c]
theorem after9_2 (c : Dev nD) (t : Fin cfg9.N) : (dat9c V c).after 2 t = out9_2 (iblk9 V c 0 t) (iblk9 V c 1 t) := by dsimp only [dat9c]

theorem before9_0 (c : Dev nD) (t : Fin cfg9.N) (d) : (dat9c V c).before 0 t d = iblk9 V c 0 t :=
  before9_0_of V (dat9c V c) (A_eq9 V c 0) (after9_0 V c) t d
theorem before9_1 (c : Dev nD) (t : Fin cfg9.N) (d) : (dat9c V c).before 1 t d = iblk9 V c 1 t :=
  before9_1_of V (dat9c V c) (A_eq9 V c 1) (after9_1 V c) t d

/-! ## The body obligation, at a generic point -/

/-- What the body is called with at point t, the windows one by one, -/
def bodyPre9 (c : Dev nD) (t : Fin cfg9.N) : sProp 𝕄 :=
  iprop((dat9c V c).Φ t.castSucc ∗ (dat9c V c).owesAt () t.castSucc
    ∗ (∃ d, owns (c : Thread nD τ) (st9_0 t) fullShare ((dat9c V c).before 0 t d))
    ∗ (∃ d, owns (c : Thread nD τ) (st9_1 t) fullShare ((dat9c V c).before 1 t d))
    ∗ (∃ d, owns (c : Thread nD τ) (st9_2 t) fullShare ((dat9c V c).before 2 t d)))

/-- and what it returns. -/
def bodyPost9 (c : Dev nD) (t : Fin cfg9.N) : sProp 𝕄 :=
  iprop((dat9c V c).Φ t.succ ∗ (dat9c V c).owesAt () t.succ
    ∗ owns (c : Thread nD τ) (st9_0 t) fullShare ((dat9c V c).after 0 t)
    ∗ owns (c : Thread nD τ) (st9_1 t) fullShare ((dat9c V c).after 1 t)
    ∗ owns (c : Thread nD τ) (st9_2 t) fullShare ((dat9c V c).after 2 t))

/-- The body at any point: the inputs' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9c V c).Φ t.succ = (dat9c V c).Φ t.castSucc from rfl,
    show (dat9c V c).owesAt () t.succ = (dat9c V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation over the printed configuration, at every point. -/
theorem body_obligation9c (c : Dev nD) : BodyObligation (dat9c (F := F) V c) (defs₀ (F := F)) Variants.none () Set.univ := fun t => by
  rw [bigSep_W9, bigSep_W9]
  exact sound_body9 V c t

/-- The same of the pinned pipeline's proof data. -/
theorem body_obligation9 (c : Dev nD) : BodyObligation (dat9 (F := F) a V c) (defs₀ (F := F)) Variants.none () Set.univ :=
  body_obligation9c V c

end Region9

/-! ## The exit valuation: the entry valuation with the result array replaced -/

section Exit9

variable (W : Valuation τ sig (Elt F)) (c : Dev nD) (x : Buf (Elt F) ((c : Thread nD τ).loc main_v148))

/-- The array of x is not the result array: the replacement leaves it. -/
theorem upd9_in0 : Function.update W main_v148 x (Pipeline.arrRef spec9 0 : Ref sig .tc) = W (Pipeline.arrRef spec9 0 : Ref sig .tc) :=
  Function.update_of_ne (StableHlo.devRef_ne_of_ne (show Pipeline.arrRef spec9 0 ≠ main_v148 by decide)) _ _
/-- Nor is the weight's. -/
theorem upd9_in1 : Function.update W main_v148 x (Pipeline.arrRef spec9 1 : Ref sig .tc) = W (Pipeline.arrRef spec9 1 : Ref sig .tc) :=
  Function.update_of_ne (StableHlo.devRef_ne_of_ne (show Pipeline.arrRef spec9 1 ≠ main_v148 by decide)) _ _
/-- Window 2's array is the result array. -/
theorem upd9_out : Function.update W main_v148 x (Pipeline.arrRef spec9 2 : Ref sig .tc) = x :=
  Function.update_self _ _ _
/-- A buffer that is no window's array is not the result array. -/
theorem upd9_rest (b : Ref sig .tc) (hb : b ∉ Finset.univ.image (Pipeline.arrRef spec9)) : Function.update W main_v148 x b = W b :=
  Function.update_of_ne (StableHlo.devRef_ne_of_ne fun e => hb (Finset.mem_image.mpr ⟨2, Finset.mem_univ _, e.symm⟩)) _ _

end Exit9

/-! ## The region as a segment of @main -/

-- a library lemma stated over the pinned pipeline unifies with the printed configuration only when unification may
-- unfold plain definitions in a metavariable's type
set_option backward.isDefEq.respectTransparency.types false in
set_option maxHeartbeats 2000000 in
/-- REGION 9 over the thread state, for any family of proof data whose pipeline 9 is dat9 at the entry valuation Vin:
    entered from every unscoped buffer at Vin, left at Vin with the result array main_v148 replaced by what the
    write-backs of the 50 points leave. Its arrays split out of the unscoped buffers and put back at the exit contents;
    the generator register into the invariant and out; nothing owed; no semaphore of the kernel's own. -/
def reg9 (a : (p : Fin 13) → (pcfgs (F := F) p).Adm) (Vin : Dev nD → Valuation τ sig (Elt F))
    (pdats : (p : Fin 13) → (c : Dev nD) → Dat τ (Elt F) Unit ℕ (UR sig nD τ) ℕ (Pipeline.pin (pcfgs (F := F)) a p) c)
    (h : ∀ c, pdats 9 c = dat9 a (fun c b => Vin c b) c) :
    Pipeline.RegionSeg (pcfgs (F := F)) a pdats () defs₀ Variants.none (fun _ : GSem nD τ sig => (∅ : Finset Unit)) (fun (_ : GSem nD τ sig) (_ : Unit) => (0 : ℕ)) 9 where
  win := (launch9 (F := F)).win.to₀
  block_pos := (launch9 (F := F)).block_pos
  stage_whole := (launch9 (F := F)).stage_whole
  K := PEmpty
  osem k := k.elim
  ho := Pipeline.OwnSemFacts.none _
  hbody c := by rw [h c]; exact (body_obligation9 a (fun c b => Vin c b) c).loose
  hwaits := Pipeline.hwaits_of_owed_zero _ _ _ _ _ _ 9 fun c t => by rw [h c]; rfl
  pre c := iprop(StableHlo.held (c : Thread nD τ) (Pipeline.ucRefs τ sig) (Vin c)
    ∗ (∃ r, prngReg c r) ∗ ∃ W, owes (c : Thread nD τ) (0 : CellTallies nD τ sig Unit) W)
  post c := iprop(StableHlo.held (c : Thread nD τ) (Pipeline.ucRefs τ sig)
      (Function.update (Vin c) main_v148 ((dat9 a (fun c b => Vin c b) c).arrAt (2 : Fin 3) cfg9.N))
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (fun b => Vin c b)
  hentry c := by
    have hd := h c
    rw [Pipeline.ownSems0_none]
    have hsplit := Pipeline.arrays_of_unscopedBufs (p := 9) (pcfgs (F := F)) a pdats (launch9 (F := F)).win (launch9 (F := F)).arr_whole c
      (by rw [hd]; exact (dat9 a (fun c b => Vin c b) c).share_full fun _ => rfl) (fun b => Vin c b) (by rw [hd]; exact fun _ => rfl)
    rw [Pipeline.unscopedBufs_held] at hsplit
    rw [hd] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c, show (dat9 a (fun c b => Vin c b) c).Φ 0 = Pipeline.ΦA spec9 c from rfl]; unfold Pipeline.ΦA
    iintro ⟨Hp, -, Hr⟩
    isplitl [Hr]; · iexact Hr
    iexact Hp
  hout c := by
    rw [Pipeline.ownSems0_none, h c, show (dat9 a (fun c b => Vin c b) c).Φ (Fin.last _) = Pipeline.ΦA spec9 c from rfl]; unfold Pipeline.ΦA
    iintro ⟨Hr, Hp⟩
    isplitl [Hp]; · iexact Hp
    isplitr; · iempintro
    iexact Hr
  hexit c := by
    have hd := h c
    have hF : ∀ w : Fin 3, (dat9c (fun c b => Vin c b) c).arrAt w cfg9.N
        = Function.update (Vin c) main_v148 ((dat9 a (fun c b => Vin c b) c).arrAt (2 : Fin 3) cfg9.N) (Pipeline.arrRef spec9 w) := fun
      | ⟨0, _⟩ => (((dat9c (fun c b => Vin c b) c).arrAt_in 0 rfl _).trans (A_eq9 (fun c b => Vin c b) c 0)).trans (upd9_in0 (Vin c) c _).symm
      | ⟨1, _⟩ => (((dat9c (fun c b => Vin c b) c).arrAt_in 1 rfl _).trans (A_eq9 (fun c b => Vin c b) c 1)).trans (upd9_in1 (Vin c) c _).symm
      | ⟨2, _⟩ => (upd9_out (Vin c) c _).symm
    have hrest : ∀ b : Ref sig .tc, b ∉ Finset.univ.image (Pipeline.arrRef spec9)
        → Function.update (Vin c) main_v148 ((dat9 a (fun c b => Vin c b) c).arrAt (2 : Fin 3) cfg9.N) b = Vin c b :=
      fun b hb => upd9_rest (Vin c) c _ b hb
    have hjoin := Pipeline.unscopedBufs_of_arrays (p := 9) (pcfgs (F := F)) a (Ix := Unit) (Name := ℕ) (U := UR sig nD τ) (Lvl := ℕ)
      (launch9 (F := F)).win (launch9 (F := F)).arr_whole c pdats (by rw [hd]; exact (dat9 a (fun c b => Vin c b) c).share_full fun _ => rfl)
      (fun b => Vin c b) (fun b => Function.update (Vin c) main_v148 ((dat9 a (fun c b => Vin c b) c).arrAt (2 : Fin 3) cfg9.N) b)
      ((pdats 9 c).arrAt · cfg9.N) (by rw [hd]; exact hF) hrest
    rw [Pipeline.unscopedBufs_held] at hjoin
    iintro ⟨Ha, HO, HY, Hrest⟩
    imodintro
    isplitl [Ha Hrest]
    · iapply hjoin; isplitl [Ha] <;> iassumption
    isplitl [HY]; · iexact HY
    rw [hd]
    unfold Pipeline.Dat.owesAt Pipeline.owesWithin
    icases HO with ⟨%W, -, HO⟩; iexists W; iexact HO

end Cert.KernelIdeal.Hand

end
-- ==== Proof.KI.Gather10Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 10): what its certificate is stated over

The body carries a scratch accumulator across the `j` axis of the grid `(i, j)`: reset at `j = 0`, a one-hot product of
the row block with the table-indexed block of `tmp` added when the tables' words at `i` admit `j`, scaled by `norm` into
the output block at `j = 124`. Everything here is a function of the tables' words `(a 10).1`, which are never evaluated. -/

/-! ## The pipeline at the admitted tables -/

/-- Pipeline 1 at the admitted contents of its two prefetched tables. -/
abbrev cfgG10 : Pipeline.Cfg sig Λ₀ := Pipeline.pin (pcfgs (F := F)) a 10

/-- Window `w`'s block at point `t`, read off its array as the region finds it (`V`); for the window whose index map
    reads the tables, a function of the tables' words. -/
def iblk10 (c : Dev nD) (w : Fin (cfgG10 a).W) (t : Fin (cfgG10 a).N) : (((cfgG10 a).win w).xblock ((cfgG10 a).grid.coords t)).Idx → Elt F ((cfgG10 a).win w).elt :=
  (((cfgG10 a).win w).blk t).view.read (Elt F) (V c (Pipeline.arrRef spec10 w))

/-! ## The tables as the body is handed them -/

abbrev tbM10_0 : Memref sig .tc .smem S123 .i32 := Memref.whole main_v86
abbrev htbM10_0 : tbM10_0.IsWhole := Memref.isWhole_whole _
abbrev tbM10_1 : Memref sig .tc .smem S123 .i32 := Memref.whole main_v89
abbrev htbM10_1 : tbM10_1.IsWhole := Memref.isWhole_whole _

/-- A table memref's buffer on core `c`: its contents type, and it held whole at `f`. -/
abbrev TbBuf10 (c : Dev nD) {S : Shape} {e : EltTy} (M : Memref sig .tc .smem S e) : Type := Buf (Elt F) (M.view.loc (c : Thread nD τ))
abbrev tbPt10 (c : Dev nD) {S : Shape} {e : EltTy} (M : Memref sig .tc .smem S e) (f : TbBuf10 (F := F) c M) : sProp 𝕄 :=
  M.view.loc (c : Thread nD τ) ↦{fullShare} f

/-- The word of a table the body loads at row `i 0`. -/
abbrev tword10 (c : Dev nD) (M : Memref sig .tc .smem S123 .i32) (i : grid10.Coords) (xt : TbBuf10 (F := F) c M) : Elt F .i32 :=
  M.view.readAt (Elt F) (Rect.unit (s := S123) (k10_off1 i) S1.size (k10_off1_inb i)).toLoadRect xt (Shape.Idx.first (numel1_S1.symm ▸ Nat.one_pos))

/-! ## The body's branch conditions -/

/-- `j = 0`: the accumulator is reset. -/
abbrev cond10_0 (i : grid10.Coords) : Prop := (Scalar.cmpi .ne (Scalar.extui (Scalar.cmpi .eq (BitVec.ofNat 32 (i 1).val) 0#32)) 0#32) = 1#1
theorem hcond10_0 : ∀ t : Fin grid10.N, cond10_0 (grid10.coords t) ↔ t.val % 125 = 0 := by decide +kernel
/-- `rlo[i] ≤ j ≤ rhi[i]` (signed), over the two table words: the block contributes. -/
abbrev cond10_1 (i : grid10.Coords) (lo hi : BitVec 32) : Prop :=
  (Scalar.cmpi .ne (Scalar.extui (Scalar.andi (Scalar.cmpi .sle lo (BitVec.ofNat 32 (i 1).val)) (Scalar.cmpi .sle (BitVec.ofNat 32 (i 1).val) hi))) 0#32) = 1#1
/-- `j = 124`: the output block is stored. -/
abbrev cond10_2 (i : grid10.Coords) : Prop := k10_cond3 i = 1#1
theorem hcond10_2 : ∀ t : Fin grid10.N, cond10_2 (grid10.coords t) ↔ t.val % 125 = 124 := by decide +kernel

/-! ## One step of the accumulation, and of the output -/

/-- The scratch after the body at a point with coordinates `i`, from what it held before (`xs`): reset to zeros when
    `j = 0`, then, when the table words admit `j`, the one-hot product of the row block with the table-indexed block
    added. -/
def accStep10 (i : grid10.Coords) (x0 : Vec F S1x5120 .i32) (x1 : Vec F S800x128 .f32) (lo hi : BitVec 32) (xs : Vec F S5120x128 .f32) : Vec F S5120x128 .f32 :=
  if cond10_1 i lo hi then k10_pay2 i x0 x1 (if cond10_0 i then k10_pay1 (F := F) else xs) else (if cond10_0 i then k10_pay1 (F := F) else xs)

/-- The output window's buffer after the body: the scaled accumulator when `j = 124`, else what it held. -/
def outStep10 (i : grid10.Coords) (acc : Vec F S5120x128 .f32) (x2 : Vec F S5120x1 .f32) (xi3 : Vec F S5120x128 .f32) : Vec F S5120x128 .f32 :=
  if cond10_2 i then k10_pay3 acc x2 else xi3

/-- At a point that resets, what the scratch held before does not matter. -/
theorem accStep10_reset (i : grid10.Coords) (h : cond10_0 i) (x0 : Vec F S1x5120 .i32) (x1 : Vec F S800x128 .f32) (lo hi : BitVec 32) (xs xs' : Vec F S5120x128 .f32) :
    accStep10 i x0 x1 lo hi xs = accStep10 i x0 x1 lo hi xs' := by
  unfold accStep10; rw [if_pos h, if_pos h]

theorem outStep10_pos (i : grid10.Coords) (h : cond10_2 i) (acc : Vec F S5120x128 .f32) (x2 : Vec F S5120x1 .f32) (xi3 : Vec F S5120x128 .f32) :
    outStep10 i acc x2 xi3 = k10_pay3 acc x2 := by unfold outStep10; exact if_pos h
theorem outStep10_neg (i : grid10.Coords) (h : ¬cond10_2 i) (acc : Vec F S5120x128 .f32) (x2 : Vec F S5120x1 .f32) (xi3 : Vec F S5120x128 .f32) :
    outStep10 i acc x2 xi3 = xi3 := by unfold outStep10; exact if_neg h

/-! ## The schedule of the output window, whose index map reads no table -/

/-- The output block is written back at the last `j` of each `i`. -/
theorem flush10_3 : ∀ t : Fin (cfgG10 a).N, ((cfgG10 a).win 3).flush t = true ↔ t.val % 125 = 124 :=
  (by decide +kernel : ∀ t : Fin grid10.N, Pipeline.Window.flushOf grid10 true cc10_transform_3 t = true ↔ t.val % 125 = 124)

/-- The inputs are never idle. -/
theorem liveAt10_0 (t : Fin (cfgG10 a).N) : (cfgG10 a).idle 0 ((cfgG10 a).grid.coords t) = false := rfl
theorem liveAt10_1 (t : Fin (cfgG10 a).N) : (cfgG10 a).idle 1 ((cfgG10 a).grid.coords t) = false := rfl
theorem liveAt10_2 (t : Fin (cfgG10 a).N) : (cfgG10 a).idle 2 ((cfgG10 a).grid.coords t) = false := rfl
/-- The output is idle exactly where the body does not store it. -/
theorem idle10_3_eq (i : grid10.Coords) : (cfgG10 a).idle 3 i = !(k10_cond3 i == 1#1) := rfl
theorem idleAt10_3 (t : Fin (cfgG10 a).N) (h : ¬cond10_2 (grid10.coords t)) : (cfgG10 a).idle 3 ((cfgG10 a).grid.coords t) = true := by
  show (!(k10_cond3 (grid10.coords t) == 1#1)) = true
  rw [beq_eq_false_iff_ne.mpr h]; rfl
theorem liveAt10_3 (t : Fin (cfgG10 a).N) (h : cond10_2 (grid10.coords t)) : (cfgG10 a).idle 3 ((cfgG10 a).grid.coords t) = false := by
  show (!(k10_cond3 (grid10.coords t) == 1#1)) = false
  rw [show k10_cond3 (grid10.coords t) = 1#1 from h]; rfl
theorem noFlush10_3 (t : Fin (cfgG10 a).N) (h : ¬cond10_2 (grid10.coords t)) : ((cfgG10 a).win 3).flush t = false := by
  rw [Bool.eq_false_iff]; intro hf; exact h ((hcond10_2 t).mpr ((flush10_3 a t).mp hf))

/-! ## The memrefs the body is called with at a point -/

abbrev ms10_0 (t : Fin (cfgG10 a).N) : Memref sig .tc .vmem S1x5120 .i32 := spec10_0.stage ((cfgG10 a).slots t 0)
abbrev hs10_0 (t : Fin (cfgG10 a).N) : (ms10_0 a t).IsWhole := hstage10_0 (((cfgG10 a).slots t 0).cast nbuf10_0)
abbrev ms10_1 (t : Fin (cfgG10 a).N) : Memref sig .tc .vmem S800x128 .f32 := spec10_1.stage ((cfgG10 a).slots t 1)
abbrev hs10_1 (t : Fin (cfgG10 a).N) : (ms10_1 a t).IsWhole := hstage10_1 (((cfgG10 a).slots t 1).cast nbuf10_1)
abbrev ms10_2 (t : Fin (cfgG10 a).N) : Memref sig .tc .vmem S5120x1 .f32 := spec10_2.stage ((cfgG10 a).slots t 2)
abbrev hs10_2 (t : Fin (cfgG10 a).N) : (ms10_2 a t).IsWhole := hstage10_2 (((cfgG10 a).slots t 2).cast nbuf10_2)
abbrev ms10_3 (t : Fin (cfgG10 a).N) : Memref sig .tc .vmem S5120x128 .f32 := spec10_3.stage ((cfgG10 a).slots t 3)
abbrev hs10_3 (t : Fin (cfgG10 a).N) : (ms10_3 a t).IsWhole := hstage10_3 (((cfgG10 a).slots t 3).cast nbuf10_3)
/-- The scratch accumulator: a whole scoped buffer of the kernel's own. -/
abbrev scM10 : Memref sig .tc .vmem S5120x128 .f32 := Memref.whole cc10_scratch0

/-- The kernel body at point `t`, on what the pipeline calls it with. -/
abbrev bodyAt10 (t : Fin (cfgG10 a).N) : Prog (TpuEff nD τ sig (Elt F) Λ₀ .tc) PUnit :=
  cc10__gather_kernel (grid10.coords t) tbM10_0 htbM10_0 tbM10_1 htbM10_1 (ms10_0 a t) (hs10_0 a t) (ms10_1 a t) (hs10_1 a t) (ms10_2 a t) (hs10_2 a t) (ms10_3 a t) (hs10_3 a t) scM10 (Memref.isWhole_whole _)

/-! ## The tables' words at a point, and the accumulator point by point -/

/-- The words of the two tables at the row of point `t` (`rlo[i]`, `rhi[i]`), as the body loads them. -/
abbrev lo10 (c : Dev nD) (t : Fin (cfgG10 a).N) : BitVec 32 := tword10 c tbM10_0 (grid10.coords t) ((a 10).1 0)
abbrev hi10 (c : Dev nD) (t : Fin (cfgG10 a).N) : BitVec 32 := tword10 c tbM10_1 (grid10.coords t) ((a 10).1 1)

/-- THE ACCUMULATION. What the scratch holds after the body at position `n`, by recursion on the position: one step
    (`accStep10`: reset at `j = 0`, the gated one-hot product added) over what it held after the position before. -/
def accAt10 (c : Dev nD) : (n : ℕ) → n < (cfgG10 a).N → Vec F S5120x128 .f32
  | 0, hn => accStep10 (grid10.coords ⟨0, hn⟩) (iblk10 a V c 0 ⟨0, hn⟩) (iblk10 a V c 1 ⟨0, hn⟩) (lo10 a c ⟨0, hn⟩) (hi10 a c ⟨0, hn⟩) (k10_pay1 (F := F))
  | n + 1, hn => accStep10 (grid10.coords ⟨n + 1, hn⟩) (iblk10 a V c 0 ⟨n + 1, hn⟩) (iblk10 a V c 1 ⟨n + 1, hn⟩) (lo10 a c ⟨n + 1, hn⟩) (hi10 a c ⟨n + 1, hn⟩) (accAt10 c n (Nat.lt_of_succ_lt hn))

/-- One step at any point, over any `xs` that is what the point before left when there is one. -/
theorem accAt10_step (c : Dev nD) (t : Fin (cfgG10 a).N) (xs : Vec F S5120x128 .f32)
    (hxs : ∀ hz : t.val ≠ 0, xs = accAt10 a V c (t.val - 1) (Nat.lt_of_le_of_lt (Nat.sub_le _ _) t.isLt)) :
    accAt10 a V c t.val t.isLt = accStep10 (grid10.coords t) (iblk10 a V c 0 t) (iblk10 a V c 1 t) (lo10 a c t) (hi10 a c t) xs := by
  obtain ⟨n, hn⟩ := t
  cases n with
  | zero => exact accStep10_reset _ ((hcond10_0 ⟨0, hn⟩).mpr (Nat.zero_mod _)) _ _ _ _ _ _
  | succ n => rw [hxs (Nat.succ_ne_zero n)]; rfl

/-! ## The invariant: the scratch at the accumulator, the tables whole -/

/-- The scoped buffers that are neither a staging buffer nor the scratch. -/
abbrev restB10 (c : Dev nD) : sProp 𝕄 :=
  Pipeline.scopedRestBut (Ix := Unit) (Name := ℕ) (U := UR sig nD τ) (Lvl := ℕ) (Val := Elt F) spec10 c [cc10_scratch0]
/-- The two tables, whole, at the admitted contents. -/
abbrev tabs10 (c : Dev nD) : sProp 𝕄 :=
  Pipeline.prefHeld (Ix := Unit) (Name := ℕ) (U := UR sig nD τ) (Lvl := ℕ) pre10 c (fun _ => fullShare) (a 10).1

/-- The region invariant before position `n`: before the first point the scoped rest and the generator register as the
    region finds them; afterwards the scratch at what the point before left; at every point the tables whole. -/
def PhiS10 (c : Dev nD) : (n : ℕ) → n ≤ (cfgG10 a).N → sProp 𝕄
  | 0, _ => iprop(Pipeline.ΦA spec10 c ∗ tabs10 a c)
  | n + 1, hn => iprop(iprop(iprop(owns (c : Thread nD τ) scM10 fullShare (accAt10 a V c n hn) ∗ restB10 c) ∗ (∃ r, prngReg c r)) ∗ tabs10 a c)

theorem PhiS10_succ (c : Dev nD) (n : ℕ) (hn : n < (cfgG10 a).N) :
    PhiS10 a V c (n + 1) hn = iprop(iprop(iprop(owns (c : Thread nD τ) scM10 fullShare (accAt10 a V c n hn) ∗ restB10 c) ∗ (∃ r, prngReg c r)) ∗ tabs10 a c) := rfl

/-! ## The pipeline's proof data -/

/-- The proof data of the gather pipeline on core `c`: the arrays as the region finds them (`V`); after the body at
    point `t` each input's buffer at its block, the output's at the accumulator scaled by the norm block (what the body
    stores at `j = 124`; at the other points the window is idle and this is not consulted); the invariant `PhiS10`;
    nothing owed; full shares. -/
def dat10 (c : Dev nD) : Dat τ (Elt F) Unit ℕ (UR sig nD τ) ℕ (Pipeline.pin (pcfgs (F := F)) a 10) c where
  A w := V c (Pipeline.arrRef spec10 w)
  after w t := match w with
    | ⟨0, _⟩ => iblk10 a V c 0 t
    | ⟨1, _⟩ => iblk10 a V c 1 t
    | ⟨2, _⟩ => iblk10 a V c 2 t
    | ⟨3, _⟩ => k10_pay3 (accAt10 a V c t.val t.isLt) (iblk10 a V c 2 t)
  Φ t := PhiS10 a V c t.val (Nat.le_of_lt_succ t.isLt)
  q _ := fullShare
  owed _ := 0

theorem A_eq10 (c : Dev nD) (w : Fin (cfgG10 a).W) : (dat10 a V c).A w = V c (Pipeline.arrRef spec10 w) := by
  dsimp only [dat10]

theorem after10_0 (c : Dev nD) (t : Fin (cfgG10 a).N) : (dat10 a V c).after 0 t = iblk10 a V c 0 t := by dsimp only [dat10]; try rfl
theorem after10_1 (c : Dev nD) (t : Fin (cfgG10 a).N) : (dat10 a V c).after 1 t = iblk10 a V c 1 t := by dsimp only [dat10]; try rfl
theorem after10_2 (c : Dev nD) (t : Fin (cfgG10 a).N) : (dat10 a V c).after 2 t = iblk10 a V c 2 t := by dsimp only [dat10]; try rfl
theorem after10_3 (c : Dev nD) (t : Fin (cfgG10 a).N) :
    (dat10 a V c).after 3 t = k10_pay3 (accAt10 a V c t.val t.isLt) (iblk10 a V c 2 t) := by dsimp only [dat10]; try rfl

theorem PhiS10_castSucc (c : Dev nD) (t : Fin (cfgG10 a).N) :
    (dat10 a V c).Φ t.castSucc = PhiS10 a V c t.val (Nat.le_of_lt t.isLt) := by
  dsimp only [dat10]; simp only [Fin.coe_castSucc]

end Cert.KernelIdeal.Hand

end
-- ==== Proof.KI.Gather10Runs.lean ====
import proofs.«415143_j42460046688958_3_alg».proof.Proof.KI.Gather10Defs
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather kernel body (custom_call 10): its triple, control case by control case -/

/-! ## Loads and stores through the whole-buffer rectangle at zero offsets -/

theorem vec2_zero_g10 : (![0, 0] : Fin 2 → ℕ) = fun _ => 0 := by funext b; fin_cases b <;> rfl

/-- A load of a whole memref held at contents that read `X` reads `X`. -/
theorem readAt_whole_unread_g10 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole_g10 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole_g10 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments; one step of the accumulation and of the output, case by case -/

theorem pay2_congr_g10 (i : grid10.Coords) {u u' : Vec F S1x5120 .i32} {v v' : Vec F S800x128 .f32} {s s' : Vec F S5120x128 .f32}
    (hu : u = u') (hv : v = v') (hs : s = s') : k10_pay2 i u v s = k10_pay2 i u' v' s' := by rw [hu, hv, hs]
theorem pay3_congr_g10 {s s' : Vec F S5120x128 .f32} {n n' : Vec F S5120x1 .f32}
    (hs : s = s') (hn : n = n') : k10_pay3 s n = k10_pay3 s' n' := by rw [hs, hn]

theorem accStep10_TT_g10 (i : grid10.Coords) (x0 : Vec F S1x5120 .i32) (x1 : Vec F S800x128 .f32) (lo hi : BitVec 32) (xs : Vec F S5120x128 .f32)
    (h0 : cond10_0 i) (h1 : cond10_1 i lo hi) : accStep10 i x0 x1 lo hi xs = k10_pay2 i x0 x1 (k10_pay1 (F := F)) := by
  unfold accStep10; rw [if_pos h1, if_pos h0]
theorem accStep10_TF_g10 (i : grid10.Coords) (x0 : Vec F S1x5120 .i32) (x1 : Vec F S800x128 .f32) (lo hi : BitVec 32) (xs : Vec F S5120x128 .f32)
    (h0 : cond10_0 i) (h1 : ¬cond10_1 i lo hi) : accStep10 i x0 x1 lo hi xs = (k10_pay1 (F := F) : Vec F S5120x128 .f32) := by
  unfold accStep10; rw [if_neg h1, if_pos h0]
theorem accStep10_FT_g10 (i : grid10.Coords) (x0 : Vec F S1x5120 .i32) (x1 : Vec F S800x128 .f32) (lo hi : BitVec 32) (xs : Vec F S5120x128 .f32)
    (h0 : ¬cond10_0 i) (h1 : cond10_1 i lo hi) : accStep10 i x0 x1 lo hi xs = k10_pay2 i x0 x1 xs := by
  unfold accStep10; rw [if_pos h1, if_neg h0]
theorem accStep10_FF_g10 (i : grid10.Coords) (x0 : Vec F S1x5120 .i32) (x1 : Vec F S800x128 .f32) (lo hi : BitVec 32) (xs : Vec F S5120x128 .f32)
    (h0 : ¬cond10_0 i) (h1 : ¬cond10_1 i lo hi) : accStep10 i x0 x1 lo hi xs = xs := by
  unfold accStep10; rw [if_neg h1, if_neg h0]
theorem outStep10_T_g10 (i : grid10.Coords) (acc : Vec F S5120x128 .f32) (x2 : Vec F S5120x1 .f32) (xi3 : Vec F S5120x128 .f32)
    (h2 : cond10_2 i) : outStep10 i acc x2 xi3 = k10_pay3 acc x2 := by unfold outStep10; rw [if_pos h2]
theorem outStep10_F_g10 (i : grid10.Coords) (acc : Vec F S5120x128 .f32) (x2 : Vec F S5120x1 .f32) (xi3 : Vec F S5120x128 .f32)
    (h2 : ¬cond10_2 i) : outStep10 i acc x2 xi3 = xi3 := by unfold outStep10; rw [if_neg h2]

set_option maxHeartbeats 4000000 in
/-- The body in the control case A: the accumulator reset, the table words admitting the column block, the output not stored. -/
theorem kernel10_A (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : cond10_0 i) (hc1 : cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay2 i x0 x1 (k10_pay1 (F := F))) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readCov_whole_g10 arg8 vec2_zero_g10 _ _ _))
  isplitl [HT0]; · iexact HT0
  iexact HT1

set_option maxHeartbeats 4000000 in
/-- The body in the control case B: the accumulator reset, the table words not admitting the column block, the output not stored. -/
theorem kernel10_B (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : cond10_0 i) (hc1 : ¬cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay1 (F := F) : Vec F S5120x128 .f32) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _)
  isplitl [HT0]; · iexact HT0
  iexact HT1

set_option maxHeartbeats 4000000 in
/-- The body in the control case C: the accumulator not reset, the table words admitting the column block, the output not stored. -/
theorem kernel10_C (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare (k10_pay2 i x0 x1 xs) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))
  isplitl [HT0]; · iexact HT0
  iexact HT1

set_option maxHeartbeats 4000000 in
/-- The body in the control case D: the accumulator not reset, the table words not admitting the column block, the output not stored. -/
theorem kernel10_D (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : ¬cond10_1 i (tword10 c tbM10_0 i xt0) (tword10 c tbM10_1 i xt1)) (hc2 : ¬cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare xi3
            ∗ owns (c : Thread nD τ) arg8 fullShare xs ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS]
  · iexists _; isplitr; · ipureintro; exact harg8.read_unread _
    iexact HS
  isplitl [HT0]; · iexact HT0
  iexact HT1

set_option maxHeartbeats 4000000 in
/-- The body in the control case E: the accumulator not reset, the table words admitting the column block, the output stored. -/
theorem kernel10_E (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : cond10_1 i (tword10 c tbM10_0 i xt0) (tword10 c tbM10_1 i xt1)) (hc2 : cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare (k10_pay3 (k10_pay2 i x0 x1 xs) x2)
            ∗ owns (c : Thread nD τ) arg8 fullShare (k10_pay2 i x0 x1 xs) ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g10 arg7 _ vec2_zero_g10 _ _ _).trans (pay3_congr_g10 ((readCov_whole_g10 arg8 vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))) (readAt_whole_unread_g10 arg6 harg6 x2 vec2_zero_g10 _))
  isplitl [HS]
  · iexists _; isplitr
    swap; · iexact HS
    ipureintro
    exact (read_writes_whole_g10 arg8 _ vec2_zero_g10 _ _ _).trans (pay2_congr_g10 i (readAt_whole_unread_g10 arg4 harg4 x0 vec2_zero_g10 _) (readAt_whole_unread_g10 arg5 harg5 x1 vec2_zero_g10 _) (readAt_whole_unread_g10 arg8 harg8 xs vec2_zero_g10 _))
  isplitl [HT0]; · iexact HT0
  iexact HT1

set_option maxHeartbeats 4000000 in
/-- The body in the control case G: the accumulator not reset, the table words not admitting the column block, the output stored. -/
theorem kernel10_G (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hc0 : ¬cond10_0 i) (hc1 : ¬cond10_1 i (tword10 c tbM10_0 i xt0) (tword10 c tbM10_1 i xt1)) (hc2 : cond10_2 i)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare (k10_pay3 xs x2)
            ∗ owns (c : Thread nD τ) arg8 fullShare xs ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  simp only [cc10__gather_kernel_eq_skeleton]; unfold cc10__gather_kernel_skel
  unfold owns
  iintro ⟨⟨%f0, %hf0, H0⟩, ⟨%f1, %hf1, H1⟩, ⟨%f2, %hf2, H2⟩, ⟨%f3, %hf3, H3⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hfs
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    exact (read_writes_whole_g10 arg7 _ vec2_zero_g10 _ _ _).trans (pay3_congr_g10 (readAt_whole_unread_g10 arg8 harg8 xs vec2_zero_g10 _) (readAt_whole_unread_g10 arg6 harg6 x2 vec2_zero_g10 _))
  isplitl [HS]
  · iexists _; isplitr; · ipureintro; exact harg8.read_unread _
    iexact HS
  isplitl [HT0]; · iexact HT0
  iexact HT1

/-- The kernel body on whole staging memrefs, the scratch and the tables: the inputs' memrefs at their contents, the
    output's at `xi3`, the scratch at `xs`, the tables held whole; it runs to the continuation holding the inputs and
    the tables as they were, the scratch at one step of the accumulation and the output at one step of the output. -/

theorem kernel10 (c : Dev nD) (i : grid10.Coords) (arg4 : Memref sig .tc .vmem S1x5120 .i32) (harg4 : arg4.IsWhole) (arg5 : Memref sig .tc .vmem S800x128 .f32) (harg5 : arg5.IsWhole) (arg6 : Memref sig .tc .vmem S5120x1 .f32) (harg6 : arg6.IsWhole) (arg7 : Memref sig .tc .vmem S5120x128 .f32) (harg7 : arg7.IsWhole) (arg8 : Memref sig .tc .vmem S5120x128 .f32) (harg8 : arg8.IsWhole)
    (x0 : Vec F S1x5120 .i32) (x1 : Vec F S800x128 .f32) (x2 : Vec F S5120x1 .f32) (xi3 : Vec F S5120x128 .f32)
    (xt0 : TbBuf10 (F := F) c tbM10_0) (xt1 : TbBuf10 (F := F) c tbM10_1) (xs : Vec F S5120x128 .f32)
    (hx : cond10_0 i → ¬cond10_2 i)
    (acc' : Vec F S5120x128 .f32) (hacc : acc' = accStep10 i x0 x1 (tword10 c tbM10_0 i xt0) (tword10 c tbM10_1 i xt1) xs)
    (out' : Vec F S5120x128 .f32) (hout : out' = outStep10 i acc' x2 xi3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare xi3
        ∗ owns (c : Thread nD τ) arg8 fullShare xs ∗ tbPt10 c tbM10_0 xt0 ∗ tbPt10 c tbM10_1 xt1
        ∗ (iprop(owns (c : Thread nD τ) arg4 fullShare x0 ∗ owns (c : Thread nD τ) arg5 fullShare x1 ∗ owns (c : Thread nD τ) arg6 fullShare x2 ∗ owns (c : Thread nD τ) arg7 fullShare out'
            ∗ owns (c : Thread nD τ) arg8 fullShare acc' ∗ tbPt10 c tbM10_0 xt0 ∗ tbPt10 c tbM10_1 xt1) -∗ K ⟨⟩))
      ⊢ wp frame (wpE (defs₀ (F := F)) Variants.none c none) E (cc10__gather_kernel i tbM10_0 htbM10_0 tbM10_1 htbM10_1 arg4 harg4 arg5 harg5 arg6 harg6 arg7 harg7 arg8 harg8) K := by
  subst hout; subst hacc
  by_cases h0 : cond10_0 i <;> by_cases h1 : cond10_1 i (tword10 c tbM10_0 i xt0) (tword10 c tbM10_1 i xt1) <;> by_cases h2 : cond10_2 i
  · exact absurd h2 (hx h0)
  · rw [outStep10_F_g10 _ _ _ _ h2, accStep10_TT_g10 _ _ _ _ _ _ h0 h1]; exact kernel10_A c i arg4 harg4 arg5 harg5 arg6 harg6 arg7 harg7 arg8 harg8 x0 x1 x2 xi3 xt0 xt1 xs h0 h1 h2 E K
  · exact absurd h2 (hx h0)
  · rw [outStep10_F_g10 _ _ _ _ h2, accStep10_TF_g10 _ _ _ _ _ _ h0 h1]; exact kernel10_B c i arg4 harg4 arg5 harg5 arg6 harg6 arg7 harg7 arg8 harg8 x0 x1 x2 xi3 xt0 xt1 xs h0 h1 h2 E K
  · rw [outStep10_T_g10 _ _ _ _ h2, accStep10_FT_g10 _ _ _ _ _ _ h0 h1]; exact kernel10_E c i arg4 harg4 arg5 harg5 arg6 harg6 arg7 harg7 arg8 harg8 x0 x1 x2 xi3 xt0 xt1 xs h0 h1 h2 E K
  · rw [outStep10_F_g10 _ _ _ _ h2, accStep10_FT_g10 _ _ _ _ _ _ h0 h1]; exact kernel10_C c i arg4 harg4 arg5 harg5 arg6 harg6 arg7 harg7 arg8 harg8 x0 x1 x2 xi3 xt0 xt1 xs h0 h1 h2 E K
  · rw [outStep10_T_g10 _ _ _ _ h2, accStep10_FF_g10 _ _ _ _ _ _ h0 h1]; exact kernel10_G c i arg4 harg4 arg5 harg5 arg6 harg6 arg7 harg7 arg8 harg8 x0 x1 x2 xi3 xt0 xt1 xs h0 h1 h2 E K
  · rw [outStep10_F_g10 _ _ _ _ h2, accStep10_FF_g10 _ _ _ _ _ _ h0 h1]; exact kernel10_D c i arg4 harg4 arg5 harg5 arg6 harg6 arg7 harg7 arg8 harg8 x0 x1 x2 xi3 xt0 xt1 xs h0 h1 h2 E K

end Cert.KernelIdeal.Hand

end
-- ==== Proof.KI.Gather10.lean ====
import proofs.«415143_j42460046688958_3_alg».proof.Proof.KI.Gather10Runs
import proofs.«415143_j42460046688958_3_alg».proof.Proof.KI.RegTables
import Idealize.ShloMosaic.Lib.Pipeline.FrameBody
import Idealize.ShloMosaic.Lib.Pipeline.RegionsLoop
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (p : Fin 13) → (pcfgs (F := F) p).Adm)
variable (V : (c : Dev nD) → (b : Ref sig .tc) → Buf (Elt F) ((c : Thread nD τ).loc b))

/-! # The gather region (custom_call 10): the body obligation and the region as a segment of @main -/

theorem PhiA10_eq (c : Dev nD) :
    (Pipeline.ΦA spec10 c : sProp 𝕄)
      = iprop(iprop(iprop((∃ d, owns (c : Thread nD τ) scM10 fullShare d)) ∗ restB10 c) ∗ (∃ r, prngReg c r)) := by
  unfold Pipeline.ΦA; rw [scopedRest10_split]; simp only [scM10, owns_whole]; try rfl

theorem PhiT10_eq (c : Dev nD) : (tabs10 a c : sProp 𝕄) = iprop(tbPt10 c tbM10_0 ((a 10).1 0) ∗ tbPt10 c tbM10_1 ((a 10).1 1)) := by
  unfold tabs10 Pipeline.prefHeld
  rw [show (Finset.univ : Finset (Fin 2)) = insert (0 : Fin 2) {(1 : Fin 2)} from by decide,
    bigSep_insert (by decide), bigSep_singleton]
  rfl

/-- The invariant opened: the scratch at some contents, which are what the point before left when there is one. -/
theorem PhiS10_open (c : Dev nD) (n : ℕ) (h : n ≤ (cfgG10 a).N) :
    PhiS10 a V c n h ⊢ iprop(∃ xs, ⌜∀ hz : n ≠ 0, xs = accAt10 a V c (n - 1) (by omega)⌝ ∗ owns (c : Thread nD τ) scM10 fullShare xs ∗ restB10 c
      ∗ (∃ r, prngReg c r) ∗ tbPt10 c tbM10_0 ((a 10).1 0) ∗ tbPt10 c tbM10_1 ((a 10).1 1)) := by
  cases n with
  | zero =>
    rw [show PhiS10 a V c 0 h = iprop(Pipeline.ΦA spec10 c ∗ tabs10 a c) from rfl, PhiA10_eq, PhiT10_eq]
    iintro ⟨⟨⟨⟨%d, HS⟩, Hr⟩, Hg⟩, HT0, HT1⟩
    iexists d; isplitr; · ipureintro; intro hz; exact absurd rfl hz
    isplitl [HS]; · iexact HS
    isplitl [Hr]; · iexact Hr
    isplitl [Hg]; · iexact Hg
    isplitl [HT0]; · iexact HT0
    iexact HT1
  | succ n =>
    rw [PhiS10_succ, PhiT10_eq]
    iintro ⟨⟨⟨HS, Hr⟩, Hg⟩, HT0, HT1⟩
    iexists (accAt10 a V c n (Nat.lt_of_succ_le h)); isplitr; · ipureintro; intro _; rfl
    isplitl [HS]; · iexact HS
    isplitl [Hr]; · iexact Hr
    isplitl [Hg]; · iexact Hg
    isplitl [HT0]; · iexact HT0
    iexact HT1

/-- After any point the invariant gives the region's own back: the scratch's named contents are forgotten. -/
theorem PhiS10_out (c : Dev nD) (n : ℕ) (h : n ≤ (cfgG10 a).N) : PhiS10 a V c n h ⊢ iprop(Pipeline.ΦA spec10 c ∗ tabs10 a c) := by
  cases n with
  | zero => exact .rfl
  | succ n =>
    rw [PhiS10_succ, PhiA10_eq]
    iintro ⟨⟨⟨HS, Hr⟩, Hg⟩, HT⟩
    isplitl [HS Hr Hg]
    · isplitl [HS Hr]
      · isplitl [HS]; · iexists _; iexact HS
        iexact Hr
      iexact Hg
    iexact HT

/-! ## The windows' blocks in their staging buffers -/

theorem before10_0_of {c : Dev nD} (dat : Dat τ (Elt F) Unit ℕ (UR sig nD τ) ℕ (cfgG10 a) c) (hA : dat.A 0 = V c (Pipeline.arrRef spec10 0))
    (hafter : ∀ t, dat.after 0 t = iblk10 a V c 0 t) (t : Fin (cfgG10 a).N) (d) : dat.before 0 t d = iblk10 a V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ (cfgG10 a) c) (hA : dat.A 1 = V c (Pipeline.arrRef spec10 1))
    (hafter : ∀ t, dat.after 1 t = iblk10 a V c 1 t) (t : Fin (cfgG10 a).N) (d) : dat.before 1 t d = iblk10 a V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ (cfgG10 a) c) (hA : dat.A 2 = V c (Pipeline.arrRef spec10 2))
    (hafter : ∀ t, dat.after 2 t = iblk10 a V c 2 t) (t : Fin (cfgG10 a).N) (d) : dat.before 2 t d = iblk10 a V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_0 (c : Dev nD) (t : Fin (cfgG10 a).N) (d) : (dat10 a V c).before 0 t d = iblk10 a V c 0 t :=
  before10_0_of a V (dat10 a V c) (A_eq10 a V c 0) (after10_0 a V c) t d
theorem before10_1 (c : Dev nD) (t : Fin (cfgG10 a).N) (d) : (dat10 a V c).before 1 t d = iblk10 a V c 1 t :=
  before10_1_of a V (dat10 a V c) (A_eq10 a V c 1) (after10_1 a V c) t d
theorem before10_2 (c : Dev nD) (t : Fin (cfgG10 a).N) (d) : (dat10 a V c).before 2 t d = iblk10 a V c 2 t :=
  before10_2_of a V (dat10 a V c) (A_eq10 a V c 2) (after10_2 a V c) t d

/-! ## What the body leaves in each window's buffer -/

/-- At a point live for a window the obligation asks for the window's buffer at what the body leaves there. -/
theorem leavesExact_live_g10 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves10_0 (c : Dev nD) (t : Fin (cfgG10 a).N) :
    (dat10 a V c).leavesExact 0 t = owns (c : Thread nD τ) (ms10_0 a t) fullShare (iblk10 a V c 0 t) := by
  rw [leavesExact_live_g10 (dat10 a V c) 0 t (liveAt10_0 a t), after10_0]; rfl
theorem leaves10_1 (c : Dev nD) (t : Fin (cfgG10 a).N) :
    (dat10 a V c).leavesExact 1 t = owns (c : Thread nD τ) (ms10_1 a t) fullShare (iblk10 a V c 1 t) := by
  rw [leavesExact_live_g10 (dat10 a V c) 1 t (liveAt10_1 a t), after10_1]; rfl
theorem leaves10_2 (c : Dev nD) (t : Fin (cfgG10 a).N) :
    (dat10 a V c).leavesExact 2 t = owns (c : Thread nD τ) (ms10_2 a t) fullShare (iblk10 a V c 2 t) := by
  rw [leavesExact_live_g10 (dat10 a V c) 2 t (liveAt10_2 a t), after10_2]; rfl

/-- The output's buffer at one step of the output over what the body found is what the obligation asks of it: the
    scaled accumulator where the body stores it, what it found where the window is idle. -/
theorem leaves10_3_intro (c : Dev nD) (t : Fin (cfgG10 a).N) (d) :
    owns (c : Thread nD τ) (ms10_3 a t) fullShare (outStep10 (grid10.coords t) (accAt10 a V c t.val t.isLt) (iblk10 a V c 2 t) ((dat10 a V c).before 3 t d))
      ⊢ ((dat10 a V c).leavesExact 3 t : sProp 𝕄) := by
  by_cases h2 : cond10_2 (grid10.coords t)
  · rw [leavesExact_live_g10 (dat10 a V c) 3 t (liveAt10_3 a t h2), after10_3]
    exact Entails.of_eq (congrArg (owns (c : Thread nD τ) (ms10_3 a t) fullShare) (outStep10_pos _ h2 _ _ _))
  · rw [Dat.leavesExact_idle (dat10 a V c) 3 t (idleAt10_3 a t h2) (noFlush10_3 a t h2)]
    refine (Entails.of_eq (congrArg (owns (c : Thread nD τ) (ms10_3 a t) fullShare) (outStep10_neg _ h2 _ _ _))).trans ?_
    iintro H; iexists d; iexact H

/-! ## The body obligation, at a generic point -/

def bodyPre10 (c : Dev nD) (t : Fin (cfgG10 a).N) : sProp 𝕄 :=
  iprop((dat10 a V c).Φ t.castSucc ∗ (dat10 a V c).owesAt () t.castSucc
    ∗ (∃ d, owns (c : Thread nD τ) (ms10_0 a t) fullShare ((dat10 a V c).before 0 t d))
    ∗ (∃ d, owns (c : Thread nD τ) (ms10_1 a t) fullShare ((dat10 a V c).before 1 t d))
    ∗ (∃ d, owns (c : Thread nD τ) (ms10_2 a t) fullShare ((dat10 a V c).before 2 t d))
    ∗ (∃ d, owns (c : Thread nD τ) (ms10_3 a t) fullShare ((dat10 a V c).before 3 t d)))

def bodyPost10 (c : Dev nD) (t : Fin (cfgG10 a).N) : sProp 𝕄 :=
  iprop((dat10 a V c).Φ t.succ ∗ (dat10 a V c).owesAt () t.succ
    ∗ (dat10 a V c).leavesExact 0 t
    ∗ (dat10 a V c).leavesExact 1 t
    ∗ (dat10 a V c).leavesExact 2 t
    ∗ (dat10 a V c).leavesExact 3 t)

set_option maxHeartbeats 1600000 in
/-- The body at any point: the inputs' memrefs hold their blocks, the invariant hands the scratch at what the point
    before left (at anything at the first point, which resets) and the tables; the kernel's triple applies, and the
    invariant takes the scratch back at this point's accumulator. -/
theorem sound_body10 (c : Dev nD) (t : Fin (cfgG10 a).N) :
    bodyPre10 a V c t ⊢ wp frame (wpE (defs₀ (F := F)) Variants.none c none) Set.univ (bodyAt10 a t) (fun _ => bodyPost10 a V c t) := by
  unfold bodyPre10 bodyPost10 bodyAt10
  simp only [before10_0, before10_1, before10_2]
  rw [show (dat10 a V c).owesAt () t.succ = (dat10 a V c).owesAt () t.castSucc from rfl]
  rw [show (dat10 a V c).Φ t.succ = PhiS10 a V c (t.val + 1) t.isLt from rfl, PhiS10_succ, PhiT10_eq]
  rw [leaves10_0, leaves10_1, leaves10_2, PhiS10_castSucc]
  iintro ⟨HΦ, Ho, ⟨%d0, H0⟩, ⟨%d1, H1⟩, ⟨%d2, H2⟩, ⟨%d3, H3⟩⟩
  ihave HΦ' := (PhiS10_open a V c t.val (Nat.le_of_lt t.isLt)) $$ HΦ
  icases HΦ' with ⟨%xs, %hxs, HS, Hr, Hg, HT0, HT1⟩
  iapply (kernel10 c (grid10.coords t) (ms10_0 a t) (hs10_0 a t) (ms10_1 a t) (hs10_1 a t) (ms10_2 a t) (hs10_2 a t) (ms10_3 a t) (hs10_3 a t) scM10 (Memref.isWhole_whole _)
    (iblk10 a V c 0 t) (iblk10 a V c 1 t) (iblk10 a V c 2 t) ((dat10 a V c).before 3 t d3) ((a 10).1 0) ((a 10).1 1) xs
    (fun h0 h2 => by have e0 := (hcond10_0 t).mp h0; have e2 := (hcond10_2 t).mp h2; omega)
    (accAt10 a V c t.val t.isLt) (accAt10_step a V c t xs hxs)
    _ rfl Set.univ _)
  isplitl [H0]; · iexact H0
  isplitl [H1]; · iexact H1
  isplitl [H2]; · iexact H2
  isplitl [H3]; · iexact H3
  isplitl [HS]; · iexact HS
  isplitl [HT0]; · iexact HT0
  isplitl [HT1]; · iexact HT1
  iintro ⟨H0, H1, H2, H3, HS, HT0, HT1⟩
  isplitl [HS Hr Hg HT0 HT1]
  · isplitl [HS Hr Hg]
    · isplitl [HS Hr]
      · isplitl [HS]; · iexact HS
        iexact Hr
      iexact Hg
    isplitl [HT0]; · iexact HT0
    iexact HT1
  isplitl [Ho]; · iexact Ho
  isplitl [H0]; · iexact H0
  isplitl [H1]; · iexact H1
  isplitl [H2]; · iexact H2
  iapply (leaves10_3_intro a V c t d3)
  iexact H3

/-- The library's body obligation, at every point. -/
theorem body_obligation10 (c : Dev nD) : BodyObligation (dat10 (F := F) a V c) (defs₀ (F := F)) Variants.none () Set.univ := fun t => by
  rw [bigSep_W10, bigSep_W10]
  exact sound_body10 a V c t

/-! ## The region as a segment of @main -/

/-- What rides beside the buffers through every segment: the generator register at some state, nothing owed. -/
abbrev R10 (c : Dev nD) : sProp 𝕄 := iprop((∃ r, prngReg c r) ∗ ∃ W, owes (c : Thread nD τ) (0 : CellTallies nD τ sig Unit) W)

theorem Phi10_in (c : Dev nD) : iprop((∃ r, prngReg c r) ∗ tabs10 a c ∗ Pipeline.scopedRest (Ix := Unit) (Name := ℕ) (U := UR sig nD τ) (Lvl := ℕ) (Val := Elt F) spec10 c) ⊢ ((dat10 a V c).Φ 0 : sProp 𝕄) := by
  rw [show (dat10 a V c).Φ 0 = iprop(Pipeline.ΦA spec10 c ∗ tabs10 a c) from rfl]; unfold Pipeline.ΦA
  iintro ⟨Hp, HT, Hr⟩
  isplitl [Hr Hp]
  · isplitl [Hr]; · iexact Hr
    iexact Hp
  iexact HT

theorem Phi10_out (c : Dev nD) : ((dat10 a V c).Φ (Fin.last (cfgG10 a).N) : sProp 𝕄)
    ⊢ iprop(iprop(tabs10 a c ∗ ∃ r, prngReg c r) ∗ BI.emp ∗ Pipeline.scopedRest (Ix := Unit) (Name := ℕ) (U := UR sig nD τ) (Lvl := ℕ) (Val := Elt F) spec10 c) := by
  rw [show (dat10 a V c).Φ (Fin.last (cfgG10 a).N) = PhiS10 a V c (cfgG10 a).N (Nat.le_refl _) from rfl]
  refine (PhiS10_out a V c _ _).trans ?_
  unfold Pipeline.ΦA
  iintro ⟨⟨Hr, Hp⟩, HT⟩
  isplitl [HT Hp]
  · isplitl [HT]; · iexact HT
    iexact Hp
  isplitr; · iempintro
  iexact Hr

/-- At the exit each array holds what the updated valuation has there: the inputs as entered (never written), the output
    what the write-backs leave. -/
theorem hF10 (Vin : Dev nD → Valuation τ sig (Elt F)) (hV : ∀ c b, V c b = Vin c b) (c : Dev nD) : ∀ w : Fin 4,
    (dat10 a V c).arrAt w (cfgG10 a).N
      = Function.update (Vin c) main_v149 ((dat10 a V c).arrAt 3 (cfgG10 a).N) (Proc.devRef .tc (Pipeline.arrRef spec10 w))
  | 0 => ((((dat10 a V c).arrAt_in 0 rfl _).trans (A_eq10 a V c 0)).trans (hV c _)).trans
      (Function.update_of_ne (StableHlo.devRef_ne_of_ne (by decide : Pipeline.arrRef spec10 0 ≠ main_v149)) _ _).symm
  | 1 => ((((dat10 a V c).arrAt_in 1 rfl _).trans (A_eq10 a V c 1)).trans (hV c _)).trans
      (Function.update_of_ne (StableHlo.devRef_ne_of_ne (by decide : Pipeline.arrRef spec10 1 ≠ main_v149)) _ _).symm
  | 2 => ((((dat10 a V c).arrAt_in 2 rfl _).trans (A_eq10 a V c 2)).trans (hV c _)).trans
      (Function.update_of_ne (StableHlo.devRef_ne_of_ne (by decide : Pipeline.arrRef spec10 2 ≠ main_v149)) _ _).symm
  | 3 => (Function.update_self (Proc.devRef .tc main_v149) _ (Vin c)).symm
  | ⟨_ + 4, h⟩ => absurd h (Nat.not_lt.2 (Nat.le_add_left _ _))

-- a library lemma stated over `pin pcs a p` unifies with the pinned configuration only when unification may unfold
-- plain definitions in a metavariable's type
set_option backward.isDefEq.respectTransparency.types false in
/-- THE GATHER REGION over the thread state "every unscoped buffer at a valuation, the generator register at some state,
    nothing owed": entered from `Vin` (which `V` reads at the TensorCore's references: `hV`), whose table buffers hold the
    admitted contents (`hpf`), left at `Vin` updated at the output array by what the write-backs leave; for any family of
    proof data that is `dat10` at this pipeline. -/
def reg10 (pdats : (p : Fin 13) → (c : Dev nD) → Dat τ (Elt F) Unit ℕ (UR sig nD τ) ℕ (Pipeline.pin (pcfgs (F := F)) a p) c)
    (h : ∀ c, pdats 10 c = dat10 a V c)
    (Vin : Dev nD → Valuation τ sig (Elt F)) (hV : ∀ c b, V c b = Vin c b)
    (hpf : ∀ c k, Vin c (pre10.ref k) = (a 10).1 k) :
    Pipeline.RegionSeg (pcfgs (F := F)) a pdats () defs₀ Variants.none (fun _ => (∅ : Finset Unit)) (fun _ _ => (0 : ℕ)) 10 where
  win := (launch10 (F := F)).win.to₀
  block_pos := (launch10 (F := F)).block_pos
  stage_whole := (launch10 (F := F)).stage_whole
  K := PEmpty
  osem k := k.elim
  ho := Pipeline.OwnSemFacts.none _
  hbody c := by rw [h c]; exact (body_obligation10 a V c).loose
  hwaits := Pipeline.hwaits_of_owed_zero _ _ _ _ _ _ 10 fun c t => by rw [h c]; rfl
  pre c := iprop(StableHlo.held (c : Thread nD τ) (Pipeline.ucRefs τ sig) (Vin c) ∗ R10 c)
  post c := iprop(StableHlo.held (c : Thread nD τ) (Pipeline.ucRefs τ sig)
      (Function.update (Vin c) main_v149 ((dat10 a V c).arrAt 3 (cfgG10 a).N)) ∗ R10 c)
  X c := tblX c
  Y c := tblY a 10 c
  Z c := tblZ a 10 c (Vin c)
  hentry c := tbl_hentry a pdats (launch10 (F := F)) c (Vin c) (fun w => by rw [h c]; exact (A_eq10 a V c w).trans (hV c _))
    (fun w => by rw [h c]; exact (dat10 a V c).share_full (fun _ => rfl) w) (by rw [h c]; rfl) (by rw [h c]; rfl) (hpf c)
  hin c := by rw [h c]; exact Phi10_in a V c
  hout c := by rw [Pipeline.ownSems0_none, h c]; exact Phi10_out a V c
  hexit c := tbl_hexit a pdats (launch10 (F := F)) c (Vin c) _ (fun w => by rw [h c]; exact (dat10 a V c).share_full (fun _ => rfl) w)
    (fun w => by rw [h c]; exact hF10 a V Vin hV c w) (upd_rest (p := 10) a (Vin c) 3 _) (by rw [h c]; rfl) (hpf c)

end Cert.KernelIdeal.Hand

end
-- ==== Proof.KI.Scatter11Defs.lean ====
import proofs.«415143_j42460046688958_3_alg».proof.Proof.Gen.KernelIdeal.Launch
import proofs.«415143_j42460046688958_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel of custom_call 11: its control conditions, the table words it reads, and what one run of the
    body leaves in the carried accumulator and in the output block, in closed form over the payloads -/

/-- The body zeroes the accumulator when the second grid coordinate is 0. -/
abbrev cond11_1 (i : grid11.Coords) : Prop :=
  (Scalar.cmpi .ne (Scalar.extui (Scalar.cmpi .eq (BitVec.ofNat 32 (i 1).val) 0#32)) 0#32 : BitVec 1) = 1#1

/-- The body accumulates when the two table words bracket the first grid coordinate: `wlo ≤ i ≤ whi` (signed). -/
abbrev cond11_2 (i : grid11.Coords) (wlo whi : Elt F .i32) : Prop :=
  (Scalar.cmpi .ne (Scalar.extui (Scalar.andi (Scalar.cmpi .sle wlo (BitVec.ofNat 32 (i 0).val)) (Scalar.cmpi .sle (BitVec.ofNat 32 (i 0).val) whi))) 0#32 : BitVec 1) = 1#1

/-- The body stores the output block when the second grid coordinate is 122. -/
abbrev cond11_3 (i : grid11.Coords) : Prop := k11_cond3 i = 1#1

/-- The prefetched tables as the body is handed them: whole scalar-memory memrefs. -/
abbrev tbM11_0 : Memref sig .tc .smem S123 .i32 := Memref.whole main_v81
abbrev htbM11_0 : tbM11_0.IsWhole := Memref.isWhole_whole _
abbrev tbM11_1 : Memref sig .tc .smem S123 .i32 := Memref.whole main_v82
abbrev htbM11_1 : tbM11_1.IsWhole := Memref.isWhole_whole _
abbrev tbM11_2 : Memref sig .tc .smem S50 .i32 := Memref.whole main_v110
abbrev htbM11_2 : tbM11_2.IsWhole := Memref.isWhole_whole _
abbrev tbM11_3 : Memref sig .tc .smem S50 .i32 := Memref.whole main_v111
abbrev htbM11_3 : tbM11_3.IsWhole := Memref.isWhole_whole _

/-- A table memref's buffer on core `c`, and that buffer held whole at contents `f`. -/
abbrev TbBuf11 (c : Dev nD) {S : Shape} {e : EltTy} (M : Memref sig .tc .smem S e) : Type := Buf (Elt F) (M.view.loc (c : Thread nD τ))
abbrev tbPt11 (c : Dev nD) {S : Shape} {e : EltTy} (M : Memref sig .tc .smem S e) (f : TbBuf11 (F := F) c M) : sProp 𝕄 :=
  M.view.loc (c : Thread nD τ) ↦{fullShare} f

/-- The word of the first table the body compares from below, at the second grid coordinate, -/
abbrev wd11_0 (c : Dev nD) (i : grid11.Coords) (xt : TbBuf11 (F := F) c tbM11_0) : Elt F .i32 :=
  tbM11_0.view.readAt (Elt F) (Rect.unit (s := S123) (k11_off2 i) S1.size (k11_off2_inb i)).toLoadRect xt (Shape.Idx.first (numel1_S1.symm ▸ Nat.one_pos))
/-- and the word of the second table it compares from above. -/
abbrev wd11_1 (c : Dev nD) (i : grid11.Coords) (xt : TbBuf11 (F := F) c tbM11_1) : Elt F .i32 :=
  tbM11_1.view.readAt (Elt F) (Rect.unit (s := S123) (k11_off2 i) S1.size (k11_off2_inb i)).toLoadRect xt (Shape.Idx.first (numel1_S1.symm ▸ Nat.one_pos))

/-- The accumulator after one run of the body at `i`, from its contents `xs` before: zeroed first where the second
    coordinate is 0, then the one-hot product of the column block `x0` and the payload block `x1` added where the
    table words `wlo`, `whi` bracket the first coordinate. -/
def acc11 (i : grid11.Coords) (wlo whi : Elt F .i32) (x0 : Vec F S1x5120 .i32) (x1 : Vec F S5120x128 .f32)
    (xs : Vec F S2000x128 .f32) : Vec F S2000x128 .f32 :=
  if cond11_2 i wlo whi then k11_pay2 i x0 x1 (if cond11_1 i then (k11_pay1 : Vec F S2000x128 .f32) else xs)
  else (if cond11_1 i then (k11_pay1 : Vec F S2000x128 .f32) else xs)

/-- Where the accumulator is zeroed, what it held before does not matter. -/
theorem acc11_of_cond11_1 (i : grid11.Coords) (h : cond11_1 i) (wlo whi : Elt F .i32) (x0 : Vec F S1x5120 .i32) (x1 : Vec F S5120x128 .f32)
    (xs xs' : Vec F S2000x128 .f32) : acc11 i wlo whi x0 x1 xs = acc11 i wlo whi x0 x1 xs' := by
  unfold acc11; rw [if_pos h, if_pos h]

/-! # REGION 11 of @main (custom_call 11, pipeline 11) at the tables' admissible contents `a 11` and the entry contents `V` -/

section Region
variable (a : (p : Fin 13) → (pcfgs (F := F) p).Adm)
variable (V : (c : Dev nD) → (b : Ref sig .tc) → Buf (Elt F) ((c : Thread nD τ).loc b))

/-- Pipeline 11 at the tables' contents. -/
abbrev cfgM11 : Pipeline.Cfg sig Λ₀ := cfg11 (a 11)

/-- Window `w`'s block at point `t`, read off its array as the region finds it (`V`); for windows 0 and 1, whose index
    maps read the tables, a function of the tables' words. -/
def iblk11 (c : Dev nD) (w : Fin (cfgM11 a).W) (t : Fin (cfgM11 a).N) : (((cfgM11 a).win w).xblock ((cfgM11 a).grid.coords t)).Idx → Elt F ((cfgM11 a).win w).elt :=
  (((cfgM11 a).win w).blk t).view.read (Elt F) (V c (Pipeline.arrRef spec11 w))

/-! ## Each input window's current staging buffer holds its block at every point, fetched there or not -/

theorem before11_0_of {c : Dev nD} (dat : Dat τ (Elt F) Unit ℕ (UR sig nD τ) ℕ (cfgM11 a) c) (hA : dat.A 0 = V c (Pipeline.arrRef spec11 0))
    (hafter : ∀ t, dat.after 0 t = iblk11 a V c 0 t) (t : Fin (cfgM11 a).N) (d) : dat.before 0 t d = iblk11 a V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ (cfgM11 a) c) (hA : dat.A 1 = V c (Pipeline.arrRef spec11 1))
    (hafter : ∀ t, dat.after 1 t = iblk11 a V c 1 t) (t : Fin (cfgM11 a).N) (d) : dat.before 1 t d = iblk11 a V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ (cfgM11 a) c) (hA : dat.A 2 = V c (Pipeline.arrRef spec11 2))
    (hafter : ∀ t, dat.after 2 t = iblk11 a V c 2 t) (t : Fin (cfgM11 a).N) (d) : dat.before 2 t d = iblk11 a V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ (cfgM11 a) c) (hA : dat.A 3 = V c (Pipeline.arrRef spec11 3))
    (hafter : ∀ t, dat.after 3 t = iblk11 a V c 3 t) (t : Fin (cfgM11 a).N) (d) : dat.before 3 t d = iblk11 a V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ (cfgM11 a) c) (hA : dat.A 4 = V c (Pipeline.arrRef spec11 4))
    (hafter : ∀ t, dat.after 4 t = iblk11 a V c 4 t) (t : Fin (cfgM11 a).N) (d) : dat.before 4 t d = iblk11 a V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The staging memrefs at a point, the scratch, the body as the pipeline calls it -/

abbrev ms11_0 (t : Fin (cfgM11 a).N) : Memref sig .tc .vmem S1x5120 .i32 := spec11_0.stage ((cfgM11 a).slots t 0)
abbrev hs11_0 (t : Fin (cfgM11 a).N) : (ms11_0 a t).IsWhole := hstage11_0 (((cfgM11 a).slots t 0).cast nbuf11_0)
abbrev ms11_1 (t : Fin (cfgM11 a).N) : Memref sig .tc .vmem S5120x128 .f32 := spec11_1.stage ((cfgM11 a).slots t 1)
abbrev hs11_1 (t : Fin (cfgM11 a).N) : (ms11_1 a t).IsWhole := hstage11_1 (((cfgM11 a).slots t 1).cast nbuf11_1)
abbrev ms11_2 (t : Fin (cfgM11 a).N) : Memref sig .tc .vmem S2000x128 .f32 := spec11_2.stage ((cfgM11 a).slots t 2)
abbrev hs11_2 (t : Fin (cfgM11 a).N) : (ms11_2 a t).IsWhole := hstage11_2 (((cfgM11 a).slots t 2).cast nbuf11_2)
abbrev ms11_3 (t : Fin (cfgM11 a).N) : Memref sig .tc .vmem S128x128 .f32 := spec11_3.stage ((cfgM11 a).slots t 3)
abbrev hs11_3 (t : Fin (cfgM11 a).N) : (ms11_3 a t).IsWhole := hstage11_3 (((cfgM11 a).slots t 3).cast nbuf11_3)
abbrev ms11_4 (t : Fin (cfgM11 a).N) : Memref sig .tc .vmem S1x128 .f32 := spec11_4.stage ((cfgM11 a).slots t 4)
abbrev hs11_4 (t : Fin (cfgM11 a).N) : (ms11_4 a t).IsWhole := hstage11_4 (((cfgM11 a).slots t 4).cast nbuf11_4)
abbrev ms11_5 (t : Fin (cfgM11 a).N) : Memref sig .tc .vmem S2000x128 .f32 := spec11_5.stage ((cfgM11 a).slots t 5)
abbrev hs11_5 (t : Fin (cfgM11 a).N) : (ms11_5 a t).IsWhole := hstage11_5 (((cfgM11 a).slots t 5).cast nbuf11_5)
/-- The accumulator: a whole scoped buffer of the kernel's own, carried between points. -/
abbrev scM11 : Memref sig .tc .vmem S2000x128 .f32 := Memref.whole cc11_scratch0

abbrev bodyAt11 (t : Fin (cfgM11 a).N) :=
  cc11__scatter_kernel (F := F) (grid11.coords t) tbM11_0 htbM11_0 tbM11_1 htbM11_1 tbM11_2 htbM11_2 tbM11_3 htbM11_3 (ms11_0 a t) (hs11_0 a t) (ms11_1 a t) (hs11_1 a t) (ms11_2 a t) (hs11_2 a t) (ms11_3 a t) (hs11_3 a t) (ms11_4 a t) (hs11_4 a t) (ms11_5 a t) (hs11_5 a t) scM11 (Memref.isWhole_whole _)

/-! ## The accumulator point by point, and the output block -/

/-- One point's step of the accumulator: the body's closed form at the point's coordinates, table words and blocks. -/
def accStep11 (c : Dev nD) (t : Fin (cfgM11 a).N) (xs : Vec F S2000x128 .f32) : Vec F S2000x128 .f32 :=
  acc11 (grid11.coords t) (wd11_0 c (grid11.coords t) ((a 11).1 0)) (wd11_1 c (grid11.coords t) ((a 11).1 1)) (iblk11 a V c 0 t) (iblk11 a V c 1 t) xs

/-- THE ACCUMULATION: what the scratch holds after the body at position `n`, by recursion on the position (the first
    point zeroes it, so what it held before the region does not matter: stated from the zero payload). -/
def accAt11 (c : Dev nD) : (n : ℕ) → n < (cfgM11 a).N → Vec F S2000x128 .f32
  | 0, hn => accStep11 a V c ⟨0, hn⟩ (k11_pay1 : Vec F S2000x128 .f32)
  | n + 1, hn => accStep11 a V c ⟨n + 1, hn⟩ (accAt11 c n (Nat.lt_of_succ_lt hn))

theorem accAt11_zero (c : Dev nD) (hn : 0 < (cfgM11 a).N) : accAt11 a V c 0 hn = accStep11 a V c ⟨0, hn⟩ (k11_pay1 : Vec F S2000x128 .f32) := rfl
theorem accAt11_succ (c : Dev nD) (n : ℕ) (hn : n + 1 < (cfgM11 a).N) :
    accAt11 a V c (n + 1) hn = accStep11 a V c ⟨n + 1, hn⟩ (accAt11 a V c n (Nat.lt_of_succ_lt hn)) := rfl

/-- What the body leaves in the output window's staging buffer at a point that stores it (the second coordinate 122):
    `relu(acc + h0 · root_w + bias)` over the accumulator as that point leaves it. Stated at every point; where the window
    is idle nothing consults it. -/
def outAt11 (c : Dev nD) (t : Fin (cfgM11 a).N) : Vec F S2000x128 .f32 :=
  k11_pay3 (iblk11 a V c 2 t) (iblk11 a V c 3 t) (accAt11 a V c t.val t.isLt) (iblk11 a V c 4 t)

/-! ## The region invariant -/

/-- Before position `n`: the scratch at what the point before left (at anything before the first point), the other
    scoped buffers at anything, the generator register at some state, the prefetched tables whole at their contents. -/
def PhiS11 (c : Dev nD) (n : ℕ) (hn : n ≤ (cfgM11 a).N) : sProp 𝕄 :=
  iprop(iprop(∃ d : Vec F S2000x128 .f32, ⌜∀ h0 : n ≠ 0, d = accAt11 a V c (n - 1) (by omega)⌝ ∗ owns (c : Thread nD τ) scM11 fullShare d)
    ∗ Pipeline.scopedRestBut (Ix := Unit) (Name := ℕ) (U := UR sig nD τ) (Lvl := ℕ) (Val := Elt F) spec11 c [cc11_scratch0]
    ∗ iprop(∃ r, prngReg c r)
    ∗ Pipeline.prefHeld (Ix := Unit) (Name := ℕ) (U := UR sig nD τ) (Lvl := ℕ) pre11 c (fun _ => fullShare) (a 11).1)

/-! ## The pipeline's proof data -/

def dat11 (c : Dev nD) : Dat τ (Elt F) Unit ℕ (UR sig nD τ) ℕ (Pipeline.pin (pcfgs (F := F)) a 11) c where
  A w := V c (Pipeline.arrRef spec11 w)
  after w t := match w with
    | ⟨0, _⟩ => iblk11 a V c 0 t
    | ⟨1, _⟩ => iblk11 a V c 1 t
    | ⟨2, _⟩ => iblk11 a V c 2 t
    | ⟨3, _⟩ => iblk11 a V c 3 t
    | ⟨4, _⟩ => iblk11 a V c 4 t
    | ⟨5, _⟩ => outAt11 a V c t
  Φ t := PhiS11 a V c t.val (Nat.le_of_lt_succ t.isLt)
  q _ := fullShare
  owed _ := 0

theorem A_eq11 (c : Dev nD) (w : Fin (cfgM11 a).W) : (dat11 a V c).A w = V c (Pipeline.arrRef spec11 w) := by
  dsimp only [dat11]
theorem after11_0 (c : Dev nD) (t : Fin (cfgM11 a).N) : (dat11 a V c).after 0 t = iblk11 a V c 0 t := by dsimp only [dat11]; try rfl
theorem after11_1 (c : Dev nD) (t : Fin (cfgM11 a).N) : (dat11 a V c).after 1 t = iblk11 a V c 1 t := by dsimp only [dat11]; try rfl
theorem after11_2 (c : Dev nD) (t : Fin (cfgM11 a).N) : (dat11 a V c).after 2 t = iblk11 a V c 2 t := by dsimp only [dat11]; try rfl
theorem after11_3 (c : Dev nD) (t : Fin (cfgM11 a).N) : (dat11 a V c).after 3 t = iblk11 a V c 3 t := by dsimp only [dat11]; try rfl
theorem after11_4 (c : Dev nD) (t : Fin (cfgM11 a).N) : (dat11 a V c).after 4 t = iblk11 a V c 4 t := by dsimp only [dat11]; try rfl
theorem after11_5 (c : Dev nD) (t : Fin (cfgM11 a).N) : (dat11 a V c).after 5 t = outAt11 a V c t := by dsimp only [dat11]; try rfl
theorem before11_0 (c : Dev nD) (t : Fin (cfgM11 a).N) (d) : (dat11 a V c).before 0 t d = iblk11 a V c 0 t :=
  before11_0_of a V (dat11 a V c) (A_eq11 a V c 0) (after11_0 a V c) t d
theorem before11_1 (c : Dev nD) (t : Fin (cfgM11 a).N) (d) : (dat11 a V c).before 1 t d = iblk11 a V c 1 t :=
  before11_1_of a V (dat11 a V c) (A_eq11 a V c 1) (after11_1 a V c) t d
theorem before11_2 (c : Dev nD) (t : Fin (cfgM11 a).N) (d) : (dat11 a V c).before 2 t d = iblk11 a V c 2 t :=
  before11_2_of a V (dat11 a V c) (A_eq11 a V c 2) (after11_2 a V c) t d
theorem before11_3 (c : Dev nD) (t : Fin (cfgM11 a).N) (d) : (dat11 a V c).before 3 t d = iblk11 a V c 3 t :=
  before11_3_of a V (dat11 a V c) (A_eq11 a V c 3) (after11_3 a V c) t d
theorem before11_4 (c : Dev nD) (t : Fin (cfgM11 a).N) (d) : (dat11 a V c).before 4 t d = iblk11 a V c 4 t :=
  before11_4_of a V (dat11 a V c) (A_eq11 a V c 4) (after11_4 a V c) t d

theorem PhiS11_castSucc (c : Dev nD) (t : Fin (cfgM11 a).N) :
    (dat11 a V c).Φ t.castSucc = PhiS11 a V c t.val (Nat.le_of_lt t.isLt) := by
  dsimp only [dat11]; simp only [Fin.coe_castSucc]

/-! ## The grid's coordinates and the conditions in closed form -/

theorem stride11_0 : grid11.stride 0 = 123 := by decide
theorem stride11_1 : grid11.stride 1 = 1 := by decide
theorem coords11_0 (t : Fin grid11.N) : (grid11.coords t 0).val = t.val / 123 % 50 := by
  show t.val / grid11.stride 0 % grid11.bound 0 = _; rw [stride11_0]; rfl
theorem coords11_1 (t : Fin grid11.N) : (grid11.coords t 1).val = t.val % 123 := by
  show t.val / grid11.stride 1 % grid11.bound 1 = _; rw [stride11_1, Nat.div_one]; rfl

theorem cond11_1_iff (i : grid11.Coords) : cond11_1 i ↔ (i 1).val = 0 := by
  have h : ∀ j : Fin 123, ((Scalar.cmpi .ne (Scalar.extui (Scalar.cmpi .eq (BitVec.ofNat 32 j.val) 0#32)) 0#32 : BitVec 1) = 1#1) ↔ j.val = 0 := by decide +kernel
  exact h (i 1)
theorem cond11_3_iff (i : grid11.Coords) : cond11_3 i ↔ (i 1).val = 122 := by
  have h : ∀ j : Fin 123, ((Scalar.cmpi .ne (Scalar.extui (Scalar.cmpi .eq (BitVec.ofNat 32 j.val) 122#32)) 0#32 : BitVec 1) = 1#1) ↔ j.val = 122 := by decide +kernel
  exact h (i 1)

theorem idle11_5_of (t : Fin (cfgM11 a).N) (h : cond11_3 (grid11.coords t)) : (cfgM11 a).idle 5 (grid11.coords t) = false := by
  show (!(k11_cond3 (grid11.coords t) == 1#1)) = false
  rw [show k11_cond3 (grid11.coords t) = 1#1 from h]; rfl
theorem idle11_5_of_not (t : Fin (cfgM11 a).N) (h : ¬cond11_3 (grid11.coords t)) : (cfgM11 a).idle 5 (grid11.coords t) = true := by
  show (!(k11_cond3 (grid11.coords t) == 1#1)) = true
  rw [Bool.not_eq_true', beq_eq_false_iff_ne]; exact h

end Region

end Cert.KernelIdeal.Hand

end
-- ==== Proof.KI.Scatter11Runs.lean ====
import proofs.«415143_j42460046688958_3_alg».proof.Proof.KI.Scatter11Defs
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle at zero offsets -/

theorem vec11_zero11 : (![0, 0] : Fin 2 → ℕ) = fun _ => 0 := by funext b; fin_cases b <;> rfl

/-- A load of a whole memref held at contents that read `X` reads `X`. -/
theorem readAt_whole_unread11 {S : Shape} {e : EltTy} {sp : Space} (m : Memref sig .tc sp S e) (hm : m.IsWhole) (X : S.Idx → Elt F e)
    {off : Fin S.rank → Nat} (h : off = fun _ => 0) (inb : ∀ b, off b + S.size b ≤ S.size b) :
    m.view.readAt (Elt F) (Rect.unit off S.size inb).toLoadRect (hm.unread X) = X := by
  rw [View.readAt_eq_ld, hm.read_unread]; exact View.ld_unit_zero h inb X

/-- A store of the whole buffer, last, leaves its payload. -/
theorem read_writes_whole11 {S : Shape} {e : EltTy} {sp : Space} (m : Memref sig .tc sp S e) (f : m.view.ty.Contents (Elt F))
    {off : Fin S.rank → Nat} (h : off = fun _ => 0) (inb : ∀ b, off b + S.size b ≤ S.size b) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-- A load of the whole buffer after such a store reads the payload back. -/
theorem readCov_whole11 {S : Shape} {e : EltTy} {sp : Space} (m : Memref sig .tc sp S e)
    {off : Fin S.rank → Nat} (h : off = fun _ => 0) (inb : ∀ b, off b + S.size b ≤ S.size b) (w : S.Idx → Elt F e) (L : List (View.Piece (Elt F) S e)) :
    m.view.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h inb, View.ld_unit_zero h inb]

/-! ## The payloads at equal arguments -/

theorem pay11_congr11 (i : grid11.Coords) {u u' : Vec F S1x5120 .i32} {v v' : Vec F S5120x128 .f32} {s s' : Vec F S2000x128 .f32}
    (hu : u = u') (hv : v = v') (hs : s = s') : k11_pay2 i u v s = k11_pay2 i u' v' s' := by rw [hu, hv, hs]
theorem pay3_congr11 {u u' : Vec F S2000x128 .f32} {v v' : Vec F S128x128 .f32} {s s' : Vec F S2000x128 .f32} {b b' : Vec F S1x128 .f32}
    (hu : u = u') (hv : v = v') (hs : s = s') (hb : b = b') : k11_pay3 u v s b = k11_pay3 u' v' s' b' := by rw [hu, hv, hs, hb]

theorem acc11_TT (i : grid11.Coords) (wlo whi : Elt F .i32) (x0 : Vec F S1x5120 .i32) (x1 : Vec F S5120x128 .f32) (xs : Vec F S2000x128 .f32)
    (h1 : cond11_1 i) (h2 : cond11_2 i wlo whi) : acc11 i wlo whi x0 x1 xs = k11_pay2 i x0 x1 (k11_pay1 : Vec F S2000x128 .f32) := by
  unfold acc11; rw [if_pos h2, if_pos h1]
theorem acc11_TF (i : grid11.Coords) (wlo whi : Elt F .i32) (x0 : Vec F S1x5120 .i32) (x1 : Vec F S5120x128 .f32) (xs : Vec F S2000x128 .f32)
    (h1 : cond11_1 i) (h2 : ¬cond11_2 i wlo whi) : acc11 i wlo whi x0 x1 xs = (k11_pay1 : Vec F S2000x128 .f32) := by
  unfold acc11; rw [if_neg h2, if_pos h1]
theorem acc11_FT (i : grid11.Coords) (wlo whi : Elt F .i32) (x0 : Vec F S1x5120 .i32) (x1 : Vec F S5120x128 .f32) (xs : Vec F S2000x128 .f32)
    (h1 : ¬cond11_1 i) (h2 : cond11_2 i wlo whi) : acc11 i wlo whi x0 x1 xs = k11_pay2 i x0 x1 xs := by
  unfold acc11; rw [if_pos h2, if_neg h1]
theorem acc11_FF (i : grid11.Coords) (wlo whi : Elt F .i32) (x0 : Vec F S1x5120 .i32) (x1 : Vec F S5120x128 .f32) (xs : Vec F S2000x128 .f32)
    (h1 : ¬cond11_1 i) (h2 : ¬cond11_2 i wlo whi) : acc11 i wlo whi x0 x1 xs = xs := by
  unfold acc11; rw [if_neg h2, if_neg h1]

set_option maxHeartbeats 4000000 in
/-- The body in the control case A: the accumulator zeroed, the table words bracketing the row block, the output not stored. -/
theorem sound_kernel11_A (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : cond11_1 i) (hc2 : cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay2 i x0 x1 (k11_pay1 : Vec F S2000x128 .f32)) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readCov_whole11 arg12 vec11_zero11 _ _ _))
  isplitl [HT0]; · iexact HT0
  iexact HT1

set_option maxHeartbeats 4000000 in
/-- The body in the control case B: the accumulator zeroed, the table words not bracketing the row block, the output not stored. -/
theorem sound_kernel11_B (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : cond11_1 i) (hc2 : ¬cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay1 : Vec F S2000x128 .f32) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _)
  isplitl [HT0]; · iexact HT0
  iexact HT1

set_option maxHeartbeats 4000000 in
/-- The body in the control case C: the accumulator not zeroed, the table words bracketing the row block, the output not stored. -/
theorem sound_kernel11_C (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (k11_pay2 i x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readAt_whole_unread11 arg12 harg12 xs vec11_zero11 _))
  isplitl [HT0]; · iexact HT0
  iexact HT1

set_option maxHeartbeats 4000000 in
/-- The body in the control case D: the accumulator not zeroed, the table words not bracketing the row block, the output not stored. -/
theorem sound_kernel11_D (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : ¬cond11_2 i (wd11_0 c i xt0) (wd11_1 c i xt1)) (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare xs ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [HS]
  · iexists _; isplitr; · ipureintro; exact harg12.read_unread _
    iexact HS
  isplitl [HT0]; · iexact HT0
  iexact HT1

set_option maxHeartbeats 4000000 in
/-- The body in the control case E: the accumulator not zeroed, the table words bracketing the row block, the output stored. -/
theorem sound_kernel11_E (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : cond11_2 i (wd11_0 c i xt0) (wd11_1 c i xt1)) (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 (k11_pay2 i x0 x1 xs) x4)
            ∗ owns (c : Thread nD τ) arg12 fullShare (k11_pay2 i x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole11 arg11 _ vec11_zero11 _ _ _).trans (pay3_congr11 (readAt_whole_unread11 arg8 harg8 x2 vec11_zero11 _) (readAt_whole_unread11 arg9 harg9 x3 vec11_zero11 _) ((readCov_whole11 arg12 vec11_zero11 _ _ _).trans (pay11_congr11 i (readAt_whole_unread11 arg6 harg6 x0 vec11_zero11 _) (readAt_whole_unread11 arg7 harg7 x1 vec11_zero11 _) (readAt_whole_unread11 arg12 harg12 xs vec11_zero11 _))) (readAt_whole_unread11 arg10 harg10 x4 vec11_zero11 _))
  isplitl [HS]
  · iexists _; isplitr
    swap; · iexact HS
    ipureintro
    exact (read_writes_whole11 arg12 _ vec11_zero11 _ _ _).trans (pay11_congr11 i (readAt_whole_unread11 arg6 harg6 x0 vec11_zero11 _) (readAt_whole_unread11 arg7 harg7 x1 vec11_zero11 _) (readAt_whole_unread11 arg12 harg12 xs vec11_zero11 _))
  isplitl [HT0]; · iexact HT0
  iexact HT1

set_option maxHeartbeats 4000000 in
/-- The body in the control case F: the accumulator not zeroed, the table words not bracketing the row block, the output stored. -/
theorem sound_kernel11_F (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc1 : ¬cond11_1 i) (hc2 : ¬cond11_2 i (wd11_0 c i xt0) (wd11_1 c i xt1)) (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 xs x4)
            ∗ owns (c : Thread nD τ) arg12 fullShare xs ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  simp only [cc11__scatter_kernel_eq_skeleton]; unfold cc11__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  obtain rfl := harg6.eq_unread hf0; obtain rfl := harg7.eq_unread hf1; obtain rfl := harg8.eq_unread hf2
  obtain rfl := harg9.eq_unread hf3; obtain rfl := harg10.eq_unread hf4; obtain rfl := harg11.eq_unread hf5; obtain rfl := harg12.eq_unread hfs
  sl_exec (disch := first | sl_exact hc1 | sl_exact hc2 | sl_exact hc3)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr
    swap; · iexact H5
    ipureintro
    exact (read_writes_whole11 arg11 _ vec11_zero11 _ _ _).trans (pay3_congr11 (readAt_whole_unread11 arg8 harg8 x2 vec11_zero11 _) (readAt_whole_unread11 arg9 harg9 x3 vec11_zero11 _) (readAt_whole_unread11 arg12 harg12 xs vec11_zero11 _) (readAt_whole_unread11 arg10 harg10 x4 vec11_zero11 _))
  isplitl [HS]
  · iexists _; isplitr; · ipureintro; exact harg12.read_unread _
    iexact HS
  isplitl [HT0]; · iexact HT0
  iexact HT1

/-! ## The body at any table words: where the output is stored, and where it is not -/

/-- The body at a point that does not store the output: the output's buffer is handed back as found, the accumulator
    ends at its closed form. -/
theorem sound_kernel11_idle (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc3 : ¬cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare xo
            ∗ owns (c : Thread nD τ) arg12 fullShare (acc11 i (wd11_0 c i xt0) (wd11_1 c i xt1) x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  by_cases h1 : cond11_1 i <;> by_cases h2 : cond11_2 i (wd11_0 c i xt0) (wd11_1 c i xt1)
  · rw [acc11_TT _ _ _ _ _ _ h1 h2]; exact sound_kernel11_A c E i arg6 harg6 arg7 harg7 arg8 harg8 arg9 harg9 arg10 harg10 arg11 harg11 arg12 harg12 x0 x1 x2 x3 x4 xs xo xt0 xt1 h1 h2 hc3 K
  · rw [acc11_TF _ _ _ _ _ _ h1 h2]; exact sound_kernel11_B c E i arg6 harg6 arg7 harg7 arg8 harg8 arg9 harg9 arg10 harg10 arg11 harg11 arg12 harg12 x0 x1 x2 x3 x4 xs xo xt0 xt1 h1 h2 hc3 K
  · rw [acc11_FT _ _ _ _ _ _ h1 h2]; exact sound_kernel11_C c E i arg6 harg6 arg7 harg7 arg8 harg8 arg9 harg9 arg10 harg10 arg11 harg11 arg12 harg12 x0 x1 x2 x3 x4 xs xo xt0 xt1 h1 h2 hc3 K
  · rw [acc11_FF _ _ _ _ _ _ h1 h2]; exact sound_kernel11_D c E i arg6 harg6 arg7 harg7 arg8 harg8 arg9 harg9 arg10 harg10 arg11 harg11 arg12 harg12 x0 x1 x2 x3 x4 xs xo xt0 xt1 h1 h2 hc3 K

/-- The body at a point that stores the output (the second coordinate is 122, so the accumulator is not zeroed there):
    the output's buffer ends at `relu(acc + h0 · root_w + bias)` over the accumulator's closed form. -/
theorem sound_kernel11_live (c : Dev nD) (E : Set ℕ) (i : grid11.Coords) (arg6 : Memref sig .tc .vmem S1x5120 .i32) (harg6 : arg6.IsWhole) (arg7 : Memref sig .tc .vmem S5120x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S2000x128 .f32) (harg12 : arg12.IsWhole)
    (x0 : Vec F S1x5120 .i32) (x1 : Vec F S5120x128 .f32) (x2 : Vec F S2000x128 .f32) (x3 : Vec F S128x128 .f32) (x4 : Vec F S1x128 .f32) (xs : Vec F S2000x128 .f32) (xo : Vec F S2000x128 .f32) (xt0 : TbBuf11 (F := F) c tbM11_0) (xt1 : TbBuf11 (F := F) c tbM11_1)
    (hc3 : cond11_3 i) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare xo
        ∗ owns (c : Thread nD τ) arg12 fullShare xs ∗ tbPt11 c tbM11_0 xt0 ∗ tbPt11 c tbM11_1 xt1
        ∗ (iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4
            ∗ owns (c : Thread nD τ) arg11 fullShare (k11_pay3 x2 x3 (acc11 i (wd11_0 c i xt0) (wd11_1 c i xt1) x0 x1 xs) x4)
            ∗ owns (c : Thread nD τ) arg12 fullShare (acc11 i (wd11_0 c i xt0) (wd11_1 c i xt1) x0 x1 xs) ∗ tbPt11 c tbM11_0 xt0 ∗ tbPt11 c tbM11_1 xt1) -∗ K ⟨⟩))
      ⊢ wp frame (wpE (defs₀ (F := F)) Variants.none c none) E (cc11__scatter_kernel i tbM11_0 htbM11_0 tbM11_1 htbM11_1 tbM11_2 htbM11_2 tbM11_3 htbM11_3 arg6 harg6 arg7 harg7 arg8 harg8 arg9 harg9 arg10 harg10 arg11 harg11 arg12 harg12) K := by
  have h1 : ¬cond11_1 i := fun h => by
    have e1 := (cond11_1_iff i).mp h; have e3 := (cond11_3_iff i).mp hc3; omega
  by_cases h2 : cond11_2 i (wd11_0 c i xt0) (wd11_1 c i xt1)
  · rw [acc11_FT _ _ _ _ _ _ h1 h2]; exact sound_kernel11_E c E i arg6 harg6 arg7 harg7 arg8 harg8 arg9 harg9 arg10 harg10 arg11 harg11 arg12 harg12 x0 x1 x2 x3 x4 xs xo xt0 xt1 h1 h2 hc3 K
  · rw [acc11_FF _ _ _ _ _ _ h1 h2]; exact sound_kernel11_F c E i arg6 harg6 arg7 harg7 arg8 harg8 arg9 harg9 arg10 harg10 arg11 harg11 arg12 harg12 x0 x1 x2 x3 x4 xs xo xt0 xt1 h1 h2 hc3 K

end Cert.KernelIdeal.Hand

end
-- ==== Proof.KI.Scatter11.lean ====
import proofs.«415143_j42460046688958_3_alg».proof.Proof.KI.Scatter11Runs
import proofs.«415143_j42460046688958_3_alg».proof.Proof.KI.RegTables
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (a : (p : Fin 13) → (pcfgs (F := F) p).Adm)
variable (V : (c : Dev nD) → (b : Ref sig .tc) → Buf (Elt F) ((c : Thread nD τ).loc b))

/-- The output window's block index is the first grid coordinate, so the pipeline writes its block back exactly at the
    points whose second coordinate is 122 (decided over the grid: the index map reads no table), -/
theorem flush11_5 : ∀ t : Fin (cfgM11 a).N, ((cfgM11 a).win 5).flush t = true ↔ t.val % 123 = 122 :=
  (by decide +kernel : ∀ t : Fin grid11.N, Pipeline.Window.flushOf grid11 true cc11_transform_5 t = true ↔ t.val % 123 = 122)

/-- and at a point that does not store the output it writes nothing back. -/
theorem noFlush11_5 (t : Fin (cfgM11 a).N) (h : ¬cond11_3 (grid11.coords t)) : ((cfgM11 a).win 5).flush t = false := by
  rw [Bool.eq_false_iff]; intro hf
  exact h ((cond11_3_iff _).mpr (by rw [coords11_1]; exact (flush11_5 a t).mp hf))

/-- The tables whole at contents `v`, table by table: what the invariant hands the body and takes back. -/
theorem PhiT11_eq (c : Dev nD) (v : pre11.Contents (Elt F)) :
    (Pipeline.prefHeld (Ix := Unit) (Name := ℕ) (U := UR sig nD τ) (Lvl := ℕ) pre11 c (fun _ => fullShare) v : sProp 𝕄)
      = iprop(tbPt11 c tbM11_0 (v 0) ∗ tbPt11 c tbM11_1 (v 1) ∗ tbPt11 c tbM11_2 (v 2) ∗ tbPt11 c tbM11_3 (v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- One run of the body from what the invariant names takes the accumulator to the position's contents: at the first
    point the body zeroes it whatever it held; later the invariant names what the point before left. -/
theorem accStep11_eq_accAt11 (c : Dev nD) (t : Fin (cfgM11 a).N) (d : Vec F S2000x128 .f32)
    (hd : ∀ h0 : t.val ≠ 0, d = accAt11 a V c (t.val - 1) (by omega)) :
    accStep11 a V c t d = accAt11 a V c t.val t.isLt := by
  obtain ⟨n, hn⟩ := t
  cases n with
  | zero =>
    rw [accAt11_zero]; unfold accStep11
    exact acc11_of_cond11_1 _ ((cond11_1_iff _).mpr (by rw [coords11_1]; exact Nat.zero_mod _)) _ _ _ _ _ _
  | succ n =>
    rw [accAt11_succ, hd (Nat.succ_ne_zero n)]; rfl

/-! ## What the body obligation asks of each window's buffer after the body -/

theorem leaves11_0 (c : Dev nD) (t : Fin (cfgM11 a).N) :
    (dat11 a V c).leavesExact 0 t = owns (c : Thread nD τ) (ms11_0 a t) fullShare (iblk11 a V c 0 t) := by
  rw [← after11_0 a V c t]; rfl
theorem leaves11_1 (c : Dev nD) (t : Fin (cfgM11 a).N) :
    (dat11 a V c).leavesExact 1 t = owns (c : Thread nD τ) (ms11_1 a t) fullShare (iblk11 a V c 1 t) := by
  rw [← after11_1 a V c t]; rfl
theorem leaves11_2 (c : Dev nD) (t : Fin (cfgM11 a).N) :
    (dat11 a V c).leavesExact 2 t = owns (c : Thread nD τ) (ms11_2 a t) fullShare (iblk11 a V c 2 t) := by
  rw [← after11_2 a V c t]; rfl
theorem leaves11_3 (c : Dev nD) (t : Fin (cfgM11 a).N) :
    (dat11 a V c).leavesExact 3 t = owns (c : Thread nD τ) (ms11_3 a t) fullShare (iblk11 a V c 3 t) := by
  rw [← after11_3 a V c t]; rfl
theorem leaves11_4 (c : Dev nD) (t : Fin (cfgM11 a).N) :
    (dat11 a V c).leavesExact 4 t = owns (c : Thread nD τ) (ms11_4 a t) fullShare (iblk11 a V c 4 t) := by
  rw [← after11_4 a V c t]; rfl

/-- Where the body stores the output the window is live: its buffer ends at the output block. -/
theorem leaves11_5_live (c : Dev nD) (t : Fin (cfgM11 a).N) (h3 : cond11_3 (grid11.coords t)) :
    (dat11 a V c).leavesExact 5 t = owns (c : Thread nD τ) (ms11_5 a t) fullShare (outAt11 a V c t) := by
  have hi : (Pipeline.pin (pcfgs (F := F)) a 11).idle 5 ((Pipeline.pin (pcfgs (F := F)) a 11).grid.coords t) = false := idle11_5_of a t h3
  unfold Dat.leavesExact; rw [hi]; rfl

/-- Elsewhere it is idle and not written back: its buffer is handed back as found. -/
theorem leaves11_5_idle (c : Dev nD) (t : Fin (cfgM11 a).N) (h3 : ¬cond11_3 (grid11.coords t)) :
    (dat11 a V c).leavesExact 5 t = iprop(∃ d, owns (c : Thread nD τ) (ms11_5 a t) fullShare ((dat11 a V c).before 5 t d)) :=
  Dat.leavesExact_idle (dat11 a V c) 5 t (idle11_5_of_not a t h3) (noFlush11_5 a t h3)

/-! ## The body obligation, at a generic point -/

def bodyPre11 (c : Dev nD) (t : Fin (cfgM11 a).N) : sProp 𝕄 :=
  iprop((dat11 a V c).Φ t.castSucc ∗ (dat11 a V c).owesAt () t.castSucc
    ∗ (∃ d, owns (c : Thread nD τ) (ms11_0 a t) fullShare ((dat11 a V c).before 0 t d))
    ∗ (∃ d, owns (c : Thread nD τ) (ms11_1 a t) fullShare ((dat11 a V c).before 1 t d))
    ∗ (∃ d, owns (c : Thread nD τ) (ms11_2 a t) fullShare ((dat11 a V c).before 2 t d))
    ∗ (∃ d, owns (c : Thread nD τ) (ms11_3 a t) fullShare ((dat11 a V c).before 3 t d))
    ∗ (∃ d, owns (c : Thread nD τ) (ms11_4 a t) fullShare ((dat11 a V c).before 4 t d))
    ∗ (∃ d, owns (c : Thread nD τ) (ms11_5 a t) fullShare ((dat11 a V c).before 5 t d)))

def bodyPost11 (c : Dev nD) (t : Fin (cfgM11 a).N) : sProp 𝕄 :=
  iprop((dat11 a V c).Φ t.succ ∗ (dat11 a V c).owesAt () t.succ
    ∗ (dat11 a V c).leavesExact 0 t
    ∗ (dat11 a V c).leavesExact 1 t
    ∗ (dat11 a V c).leavesExact 2 t
    ∗ (dat11 a V c).leavesExact 3 t
    ∗ (dat11 a V c).leavesExact 4 t
    ∗ (dat11 a V c).leavesExact 5 t)

set_option maxHeartbeats 4000000 in
/-- The body at any point: the inputs' memrefs hold their blocks; the invariant hands the body the accumulator at what
    the point before left (at anything at the first point, which zeroes it) and the tables whole; by cases on whether
    the point stores the output, the body's triple applies; the invariant takes the accumulator back at this point's
    contents. The core owes nothing throughout. -/
theorem sound_body11 (c : Dev nD) (t : Fin (cfgM11 a).N) :
    bodyPre11 a V c t ⊢ wp frame (wpE (defs₀ (F := F)) Variants.none c none) Set.univ (bodyAt11 a t) (fun _ => bodyPost11 a V c t) := by
  unfold bodyPre11 bodyPost11 bodyAt11
  simp only [before11_0, before11_1, before11_2, before11_3, before11_4]
  rw [show (dat11 a V c).owesAt () t.succ = (dat11 a V c).owesAt () t.castSucc from rfl]
  rw [show (dat11 a V c).Φ t.succ = PhiS11 a V c (t.val + 1) t.isLt from rfl, PhiS11_castSucc]
  rw [leaves11_0, leaves11_1, leaves11_2, leaves11_3, leaves11_4]
  unfold PhiS11
  rw [PhiT11_eq]
  by_cases h3 : cond11_3 (grid11.coords t)
  · rw [leaves11_5_live a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel11_live c Set.univ (grid11.coords t) _ _ _ _ _ _ _ _ _ _ _ _ _ _ (iblk11 a V c 0 t) (iblk11 a V c 1 t) (iblk11 a V c 2 t) (iblk11 a V c 3 t) (iblk11 a V c 4 t) d ((dat11 a V c).before 5 t d5) ((a 11).1 0) ((a 11).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep11_eq_accAt11 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    rw [show outAt11 a V c t = k11_pay3 (iblk11 a V c 2 t) (iblk11 a V c 3 t) (accStep11 a V c t d) (iblk11 a V c 4 t) from by
      unfold outAt11; rw [accStep11_eq_accAt11 a V c t d hd]]
    iexact H5
  · rw [leaves11_5_idle a V c t h3]
    iintro ⟨⟨⟨%d, %hd, HS⟩, Hrest, Hg, HT0, HT1, HT2, HT3⟩, Ho, ⟨%d0, H0⟩, ⟨%d1, H1⟩, ⟨%d2, H2⟩, ⟨%d3, H3⟩, ⟨%d4, H4⟩, ⟨%d5, H5⟩⟩
    iapply (sound_kernel11_idle c Set.univ (grid11.coords t) _ _ _ _ _ _ _ _ _ _ _ _ _ _ (iblk11 a V c 0 t) (iblk11 a V c 1 t) (iblk11 a V c 2 t) (iblk11 a V c 3 t) (iblk11 a V c 4 t) d ((dat11 a V c).before 5 t d5) ((a 11).1 0) ((a 11).1 1) h3 _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    isplitl [HT1]; · iexact HT1
    iintro ⟨H0, H1, H2, H3, H4, H5, HS, HT0, HT1⟩
    isplitl [HS Hrest Hg HT0 HT1 HT2 HT3]
    · isplitl [HS]
      · iexists _; isplitr
        swap; · iexact HS
        ipureintro; intro _; exact accStep11_eq_accAt11 a V c t d hd
      isplitl [Hrest]; · iexact Hrest
      isplitl [Hg]; · iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation11 (c : Dev nD) : BodyObligation (dat11 (F := F) a V c) (defs₀ (F := F)) Variants.none () Set.univ := fun t => by
  rw [bigSep_W11, bigSep_W11]
  exact sound_body11 a V c t

/-- The accumulator's memref is its whole scoped buffer. -/
theorem owns_scM11_eq (c : Dev nD) (d : Vec F S2000x128 .f32) :
    (owns (c : Thread nD τ) scM11 fullShare d : sProp 𝕄) = ((c : Thread nD τ).loc cc11_scratch0 ↦{fullShare} d) := by
  rw [show scM11 = Memref.whole cc11_scratch0 from rfl, owns_whole]

/-- What the region's entry hands over — the generator register, the tables whole at their contents, the scoped buffers
    no window stages — is the invariant before the first point. -/
theorem hin11 (c : Dev nD) :
    iprop(iprop(∃ r, prngReg c r) ∗ Pipeline.prefHeld (Ix := Unit) (Name := ℕ) (U := UR sig nD τ) (Lvl := ℕ) pre11 c (fun _ => fullShare) (a 11).1
        ∗ Pipeline.scopedRest (Ix := Unit) (Name := ℕ) (U := UR sig nD τ) (Lvl := ℕ) (Val := Elt F) spec11 c)
      ⊢ (dat11 a V c).Φ 0 := by
  rw [show (dat11 a V c).Φ 0 = PhiS11 a V c 0 (Nat.zero_le _) from rfl]; unfold PhiS11
  rw [scopedRest11_split]
  iintro ⟨Hg, HT, ⟨%f, Hs⟩, Hrest⟩
  isplitl [Hs]
  · iexists f; isplitr; · ipureintro; intro h0; exact absurd rfl h0
    rw [show scM11 = Memref.whole cc11_scratch0 from rfl, owns_whole]; iexact Hs
  isplitl [Hrest]; · iexact Hrest
  isplitl [Hg]; · iexact Hg
  iexact HT

/-- The invariant after the last point gives them back, the accumulator's named contents forgotten. -/
theorem hout11 (c : Dev nD) :
    (dat11 a V c).Φ (Fin.last (cfgM11 a).N)
      ⊢ iprop(iprop(Pipeline.prefHeld (Ix := Unit) (Name := ℕ) (U := UR sig nD τ) (Lvl := ℕ) pre11 c (fun _ => fullShare) (a 11).1 ∗ ∃ r, prngReg c r)
          ∗ Pipeline.ownSems0 (fun k : PEmpty => k.elim) c
          ∗ Pipeline.scopedRest (Ix := Unit) (Name := ℕ) (U := UR sig nD τ) (Lvl := ℕ) (Val := Elt F) spec11 c) := by
  rw [Pipeline.ownSems0_none, show (dat11 a V c).Φ (Fin.last (cfgM11 a).N) = PhiS11 a V c (cfgM11 a).N (Nat.le_refl _) from rfl]; unfold PhiS11
  rw [scopedRest11_split]
  simp only [owns_scM11_eq]
  iintro ⟨⟨%d, -, Hs⟩, Hrest, Hg, HT⟩
  isplitl [HT Hg]
  · isplitl [HT]; · iexact HT
    iexact Hg
  isplitr; · iempintro
  isplitl [Hs]
  · iexists d; iexact Hs
  iexact Hrest

/-! ## The region as a segment of @main -/

/-- An input window's array ends as entered, which is what the exit valuation (the entry one updated at the output's
    array) holds there. -/
theorem arrAt11_in (c : Dev nD) (w : Fin (cfgM11 a).W) (hw : ((cfgM11 a).win w).isOut = false) (hne : Pipeline.arrRef spec11 w ≠ main_v155)
    (Vin : Dev nD → Valuation τ sig (Elt F)) (hV : ∀ c b, V c b = Vin c b)
    (x : (Proc.devRef .tc main_v155 : DevRef τ sig).ty.Contents (Elt F)) (n : ℕ) :
    (dat11 a V c).arrAt w n = Function.update (Vin c) main_v155 x (Pipeline.arrRef spec11 w) :=
  ((dat11 a V c).arrAt_in w hw n).trans ((A_eq11 a V c w).trans ((hV c _).trans
    (Function.update_of_ne (StableHlo.devRef_ne_of_ne hne) _ _).symm))

/-- The first five windows are inputs, and none of their arrays is the output's. -/
theorem inputs11_isIn : ∀ w : Fin 6, w.val < 5 → (spec11 w).isOut = false := by decide
theorem inputs11_ne : ∀ w : Fin 6, w.val < 5 → Pipeline.arrRef spec11 w ≠ main_v155 := by decide

/-- At the region's exit every array of the pipeline holds what the exit valuation says: the inputs as entered, the
    output's what the write-backs leave (named `X`, so that nothing unfolds the fold over the grid). -/
theorem hF11 (c : Dev nD) (Vin : Dev nD → Valuation τ sig (Elt F)) (hV : ∀ c b, V c b = Vin c b)
    (X : (Proc.devRef .tc main_v155 : DevRef τ sig).ty.Contents (Elt F)) (hX : (dat11 a V c).arrAt 5 (cfgM11 a).N = X) :
    ∀ w, (dat11 a V c).arrAt w (cfgM11 a).N
      = Function.update (Vin c) main_v155 X (Pipeline.arrRef (Pipeline.pin (pcfgs (F := F)) a 11).spec w) := by
  intro w
  by_cases hw : w.val < 5
  · exact arrAt11_in a V c w (inputs11_isIn w hw) (inputs11_ne w hw) Vin hV X _
  · have hW : w.val < 6 := w.isLt
    obtain ⟨wv, hwv⟩ := w
    obtain rfl : wv = 5 := by simp only at hw hW; omega
    exact hX.trans (Function.update_self (Proc.devRef .tc main_v155 : DevRef τ sig) X (Vin c)).symm

set_option backward.isDefEq.respectTransparency.types false in
/-- REGION 11 over the thread state: entered from every unscoped buffer at `Vin` (whose table buffers hold the tables'
    admissible contents), left with the output array at what the write-backs leave and every other buffer as entered;
    beside them the generator register at some state and the core owing nothing. -/
def reg11 (pdats : (p : Fin 13) → (c : Dev nD) → Dat τ (Elt F) Unit ℕ (UR sig nD τ) ℕ (Pipeline.pin (pcfgs (F := F)) a p) c)
    (h : ∀ c, pdats 11 c = dat11 a V c)
    (Vin : Dev nD → Valuation τ sig (Elt F)) (hV : ∀ c b, V c b = Vin c b)
    (hpf : ∀ c k, Vin c (pre11.ref k) = (a 11).1 k) :
    Pipeline.RegionSeg (pcfgs (F := F)) a pdats () (defs₀ (F := F)) Variants.none (fun _ => ∅) (fun _ _ => 0) 11 where
  win := (launch11 (F := F)).win.to₀
  block_pos := (launch11 (F := F)).block_pos
  stage_whole := (launch11 (F := F)).stage_whole
  K := PEmpty
  osem k := k.elim
  ho := Pipeline.OwnSemFacts.none _
  hbody c := by rw [h c]; exact (body_obligation11 a V c).loose
  hwaits := Pipeline.hwaits_of_owed_zero _ _ _ _ _ _ 11 fun c _ => by rw [h c]; rfl
  pre c := iprop(StableHlo.held (c : Thread nD τ) (Pipeline.ucRefs τ sig) (Vin c) ∗ iprop((∃ r, prngReg c r) ∗ ∃ W, owes (c : Thread nD τ) (0 : CellTallies nD τ sig Unit) W))
  post c := iprop(StableHlo.held (c : Thread nD τ) (Pipeline.ucRefs τ sig) (Function.update (Vin c) main_v155 ((dat11 a V c).arrAt 5 (cfgM11 a).N)) ∗ iprop((∃ r, prngReg c r) ∗ ∃ W, owes (c : Thread nD τ) (0 : CellTallies nD τ sig Unit) W))
  X c := tblX c
  Y c := tblY a 11 c
  Z c := tblZ a 11 c (Vin c)
  hentry c := tbl_hentry a pdats (launch11 (F := F)) c (Vin c)
    (fun w => by rw [h c, A_eq11]; exact hV c _)
    (by rw [h c]; exact (dat11 a V c).share_full fun _ => rfl)
    (by rw [h c]; rfl) (by rw [h c]; rfl) (hpf c)
  hin c := by rw [h c]; exact hin11 a V c
  hout c := by rw [h c]; exact hout11 a V c
  hexit c := tbl_hexit a pdats (launch11 (F := F)) c (Vin c) (Function.update (Vin c) main_v155 ((dat11 a V c).arrAt 5 (cfgM11 a).N))
    (by rw [h c]; exact (dat11 a V c).share_full fun _ => rfl)
    (by rw [h c]; exact hF11 a V c Vin hV _ rfl)
    (upd_rest a (p := 11) (Vin c) 5 _)
    (by rw [h c]; rfl) (hpf c)

end Region11

end Cert.KernelIdeal.Hand

end
-- ==== Proof.KI.Head12.lean ====
/- The head region (custom_call 12, the MLP head: pipeline 12 of @main) at a PARAMETER entry contents: each window's
   block at a point, what the body leaves in the output window's buffer, the body's triple, the pipeline's proof data
   and its body obligation; then the region as a segment over the thread state "every unscoped buffer at a valuation,
   the generator register at some state, nothing owed", entered at a valuation and left at that valuation updated at
   the output array main_v158 with what the pipeline's write-backs leave there. Generic in the float model. -/
import proofs.«415143_j42460046688958_3_alg».proof.Proof.Gen.KernelIdeal.Launch
import proofs.«415143_j42460046688958_3_alg».proof.Proof.Gen.KernelIdeal.Skeleton
import proofs.«415143_j42460046688958_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (an unfetched
    window's block index has not moved), for any proof data whose array is the entry contents and whose body leaves
    the block in place. Window 0 moves with the point; windows 1 to 6 (the weights and biases) sit at block 0. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0
abbrev r12_3 : Rect S128x64 := Rect.unit (s := S128x64) ![0, 0] S128x64.size inb_S128x64_S128x64_0_0
abbrev r12_4 : Rect S1x64 := Rect.unit (s := S1x64) ![0, 0] S1x64.size inb_S1x64_S1x64_0_0
abbrev r12_5 : Rect S64x128 := Rect.unit (s := S64x128) ![0, 0] S64x128.size inb_S64x128_S64x128_0_0

/-! ## What the body leaves in the output window's buffer -/

/-- Window 7's staging buffer after the body, from the input windows' blocks: its one store, whose payload is
    tanh(relu(relu(relu(x) W1 + b1) W2 + b2) W3 + b3) of the seven blocks. -/
def out12_7 (x0 : Vec F S2000x128 .f32) (x1 : Vec F S128x128 .f32) (x2 : Vec F S1x128 .f32) (x3 : Vec F S128x64 .f32)
    (x4 : Vec F S1x64 .f32) (x5 : Vec F S64x128 .f32) (x6 : Vec F S1x128 .f32) : Vec F S2000x128 .f32 :=
  View.canon [⟨r12_0, k12_pay1 (View.ld x0 r12_0) (View.ld x1 r12_1) (View.ld x2 r12_2) (View.ld x3 r12_3) (View.ld x4 r12_4) (View.ld x5 r12_5) (View.ld x6 r12_2)⟩]

/-- The store is of the whole buffer, so it covers it. -/
theorem cover12_7 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

/-! ## The body's triple -/

set_option maxHeartbeats 1000000 in
/-- The kernel body on whole staging memrefs, the inputs' at read contents and the output's at anything, runs to the
    continuation holding the inputs' as they were and the output's at out12_7 of the inputs'. -/
theorem sound_kernel12 (c : Dev nD) (E : Set ℕ) (i : grid12.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x128 .f32) (harg6 : arg6.IsWhole)
    (arg7 : Memref sig .tc .vmem S1x128 .f32) (harg7 : arg7.IsWhole) (arg8 : Memref sig .tc .vmem S2000x128 .f32) (harg8 : arg8.IsWhole)
    (x0 : Vec F S2000x128 .f32) (x1 : Vec F S128x128 .f32) (x2 : Vec F S1x128 .f32) (x3 : Vec F S128x64 .f32)
    (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out12_7 x0 x1 x2 x3 x4 x5 x6)) -∗ K ⟨⟩))
      ⊢ wp frame (wpE (defs₀ (F := F)) Variants.none c none) E (cc12__head_kernel i arg1 harg1 arg2 harg2 arg3 harg3 arg4 harg4 arg5 harg5 arg6 harg6 arg7 harg7 arg8 harg8) K := by
  simp only [cc12__head_kernel_eq_skeleton]; unfold cc12__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The pipeline's proof data -/

/-- The proof data of pipeline 12 on core c: the arrays as the region finds them; after the body at point t each
    input's buffer at its block and the output's at out12_7 of the input blocks; the invariant the scoped rest and the
    generator register, untouched; nothing owed; full shares. -/
def dat12c (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the region-entry contents. -/
theorem A_eq12 (c : Dev nD) (w : Fin cfg12.W) : (dat12c V c).A w = V c (Pipeline.arrRef spec12 w) := by
  dsimp only [dat12c]

/-- What the body leaves, window by window. -/
theorem after12_0 (c : Dev nD) (t : Fin cfg12.N) : (dat12c V c).after 0 t = iblk12 V c 0 t := by dsimp only [dat12c]
theorem after12_1 (c : Dev nD) (t : Fin cfg12.N) : (dat12c V c).after 1 t = iblk12 V c 1 t := by dsimp only [dat12c]
theorem after12_2 (c : Dev nD) (t : Fin cfg12.N) : (dat12c V c).after 2 t = iblk12 V c 2 t := by dsimp only [dat12c]
theorem after12_3 (c : Dev nD) (t : Fin cfg12.N) : (dat12c V c).after 3 t = iblk12 V c 3 t := by dsimp only [dat12c]
theorem after12_4 (c : Dev nD) (t : Fin cfg12.N) : (dat12c V c).after 4 t = iblk12 V c 4 t := by dsimp only [dat12c]
theorem after12_5 (c : Dev nD) (t : Fin cfg12.N) : (dat12c V c).after 5 t = iblk12 V c 5 t := by dsimp only [dat12c]
theorem after12_6 (c : Dev nD) (t : Fin cfg12.N) : (dat12c V c).after 6 t = iblk12 V c 6 t := by dsimp only [dat12c]
theorem after12_7 (c : Dev nD) (t : Fin cfg12.N) : (dat12c V c).after 7 t
    = out12_7 (iblk12 V c 0 t) (iblk12 V c 1 t) (iblk12 V c 2 t) (iblk12 V c 3 t) (iblk12 V c 4 t) (iblk12 V c 5 t) (iblk12 V c 6 t) := by dsimp only [dat12c]

/-- Each input's current staging buffer holds its block at every point, fetched there or not. -/
theorem before12_0 (c : Dev nD) (t : Fin cfg12.N) (d) : (dat12c V c).before 0 t d = iblk12 V c 0 t :=
  before12_0_of V (dat12c V c) (A_eq12 V c 0) (after12_0 V c) t d
theorem before12_1 (c : Dev nD) (t : Fin cfg12.N) (d) : (dat12c V c).before 1 t d = iblk12 V c 1 t :=
  before12_1_of V (dat12c V c) (A_eq12 V c 1) (after12_1 V c) t d
theorem before12_2 (c : Dev nD) (t : Fin cfg12.N) (d) : (dat12c V c).before 2 t d = iblk12 V c 2 t :=
  before12_2_of V (dat12c V c) (A_eq12 V c 2) (after12_2 V c) t d
theorem before12_3 (c : Dev nD) (t : Fin cfg12.N) (d) : (dat12c V c).before 3 t d = iblk12 V c 3 t :=
  before12_3_of V (dat12c V c) (A_eq12 V c 3) (after12_3 V c) t d
theorem before12_4 (c : Dev nD) (t : Fin cfg12.N) (d) : (dat12c V c).before 4 t d = iblk12 V c 4 t :=
  before12_4_of V (dat12c V c) (A_eq12 V c 4) (after12_4 V c) t d
theorem before12_5 (c : Dev nD) (t : Fin cfg12.N) (d) : (dat12c V c).before 5 t d = iblk12 V c 5 t :=
  before12_5_of V (dat12c V c) (A_eq12 V c 5) (after12_5 V c) t d
theorem before12_6 (c : Dev nD) (t : Fin cfg12.N) (d) : (dat12c V c).before 6 t d = iblk12 V c 6 t :=
  before12_6_of V (dat12c V c) (A_eq12 V c 6) (after12_6 V c) t d

/-! ## The body obligation, at a generic point -/

/-- What the body is called with at point t, the windows one by one, -/
def bodyPre12 (c : Dev nD) (t : Fin cfg12.N) : sProp 𝕄 :=
  iprop((dat12c V c).Φ t.castSucc ∗ (dat12c V c).owesAt () t.castSucc
    ∗ (∃ d, owns (c : Thread nD τ) (st12_0 t) fullShare ((dat12c V c).before 0 t d))
    ∗ (∃ d, owns (c : Thread nD τ) (st12_1 t) fullShare ((dat12c V c).before 1 t d))
    ∗ (∃ d, owns (c : Thread nD τ) (st12_2 t) fullShare ((dat12c V c).before 2 t d))
    ∗ (∃ d, owns (c : Thread nD τ) (st12_3 t) fullShare ((dat12c V c).before 3 t d))
    ∗ (∃ d, owns (c : Thread nD τ) (st12_4 t) fullShare ((dat12c V c).before 4 t d))
    ∗ (∃ d, owns (c : Thread nD τ) (st12_5 t) fullShare ((dat12c V c).before 5 t d))
    ∗ (∃ d, owns (c : Thread nD τ) (st12_6 t) fullShare ((dat12c V c).before 6 t d))
    ∗ (∃ d, owns (c : Thread nD τ) (st12_7 t) fullShare ((dat12c V c).before 7 t d)))

/-- and what it returns. -/
def bodyPost12 (c : Dev nD) (t : Fin cfg12.N) : sProp 𝕄 :=
  iprop((dat12c V c).Φ t.succ ∗ (dat12c V c).owesAt () t.succ
    ∗ owns (c : Thread nD τ) (st12_0 t) fullShare ((dat12c V c).after 0 t)
    ∗ owns (c : Thread nD τ) (st12_1 t) fullShare ((dat12c V c).after 1 t)
    ∗ owns (c : Thread nD τ) (st12_2 t) fullShare ((dat12c V c).after 2 t)
    ∗ owns (c : Thread nD τ) (st12_3 t) fullShare ((dat12c V c).after 3 t)
    ∗ owns (c : Thread nD τ) (st12_4 t) fullShare ((dat12c V c).after 4 t)
    ∗ owns (c : Thread nD τ) (st12_5 t) fullShare ((dat12c V c).after 5 t)
    ∗ owns (c : Thread nD τ) (st12_6 t) fullShare ((dat12c V c).after 6 t)
    ∗ owns (c : Thread nD τ) (st12_7 t) fullShare ((dat12c V c).after 7 t))

/-- The body at any point: the inputs' memrefs hold their blocks, so the kernel's triple applies; the invariant and
    the core's owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12c V c).Φ t.succ = (dat12c V c).Φ t.castSucc from rfl,
    show (dat12c V c).owesAt () t.succ = (dat12c V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ (grid12.coords t) _ _ _ _ _ _ _ _ _ _ _ _ _ _ _ _
    (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation12c (c : Dev nD) : BodyObligation (dat12c (F := F) V c) (defs₀ (F := F)) Variants.none () Set.univ := fun t => by
  rw [bigSep_W12, bigSep_W12]
  exact sound_body12 V c t

end Region

/-! ## The region's interface: the proof data at the pinned configuration, and the region as a segment -/

section Seg

variable (a : (p : Fin 13) → (pcfgs (F := F) p).Adm)
variable (V : (c : Dev nD) → (b : Ref sig .tc) → Buf (Elt F) ((c : Thread nD τ).loc b))

/-- The proof data of pipeline 12 at the program's pinned configuration (pipeline 12 prefetches no table: pinned
    at any contents it is cfg12). -/
def dat12 (c : Dev nD) : Dat τ (Elt F) Unit ℕ (UR sig nD τ) ℕ (Pipeline.pin (pcfgs (F := F)) a 12) c := dat12c V c

theorem dat12_eq (c : Dev nD) : dat12 a V c = dat12c V c := rfl

/-- The body obligation of the exported proof data. -/
theorem body_obligation12 (c : Dev nD) : BodyObligation (dat12 (F := F) a V c) (defs₀ (F := F)) Variants.none () Set.univ :=
  body_obligation12c V c

end Seg

section Exit

variable (Vin : Dev nD → Valuation τ sig (Elt F))

/-- The valuation the region leaves: the entry valuation with the output array main_v158 at what the pipeline's
    write-backs leave there. -/
abbrev Vout12 (c : Dev nD) : Valuation τ sig (Elt F) :=
  Function.update (Vin c) main_v158 ((dat12c (fun c b => Vin c b) c).arrAt 7 cfg12.N)

/-- An input window's array is no main_v158, so the exit valuation has it as entered, which is what the pipeline
    leaves of an input. -/
theorem hF12_in (c : Dev nD) (w : Fin cfg12.W) (hw : (cfg12.win w).isOut = false)
    (hne : (Proc.devRef .tc (Pipeline.arrRef spec12 w) : DevRef τ sig) ≠ main_v158) :
    (dat12c (fun c b => Vin c b) c).arrAt w cfg12.N = Vout12 Vin c (Proc.devRef .tc (Pipeline.arrRef spec12 w)) := by
  unfold Vout12
  rw [Function.update_of_ne hne]
  exact ((dat12c (fun c b => Vin c b) c).arrAt_in w hw _).trans (A_eq12 (fun c b => Vin c b) c w)

/-- At the region's exit each of its arrays holds what the pipeline leaves, -/
theorem hF12 (c : Dev nD) : ∀ w : Fin cfg12.W,
    (dat12c (fun c b => Vin c b) c).arrAt w cfg12.N = Vout12 Vin c (Proc.devRef .tc (Pipeline.arrRef spec12 w))
  | ⟨0, _⟩ => hF12_in Vin c 0 rfl (StableHlo.devRef_ne_of_ne (by decide))
  | ⟨1, _⟩ => hF12_in Vin c 1 rfl (StableHlo.devRef_ne_of_ne (by decide))
  | ⟨2, _⟩ => hF12_in Vin c 2 rfl (StableHlo.devRef_ne_of_ne (by decide))
  | ⟨3, _⟩ => hF12_in Vin c 3 rfl (StableHlo.devRef_ne_of_ne (by decide))
  | ⟨4, _⟩ => hF12_in Vin c 4 rfl (StableHlo.devRef_ne_of_ne (by decide))
  | ⟨5, _⟩ => hF12_in Vin c 5 rfl (StableHlo.devRef_ne_of_ne (by decide))
  | ⟨6, _⟩ => hF12_in Vin c 6 rfl (StableHlo.devRef_ne_of_ne (by decide))
  | ⟨7, _⟩ => (Function.update_self (β := fun b : DevRef τ sig => b.ty.Contents (Elt F)) (main_v158 : DevRef τ sig) _ (Vin c)).symm

/-- and every other buffer what it held at entry. -/
theorem hrest12 (c : Dev nD) : ∀ b : Ref sig .tc, b ∉ Finset.univ.image (Pipeline.arrRef spec12) →
    Vout12 Vin c (Proc.devRef .tc b) = Vin c (Proc.devRef .tc b) := fun b hb =>
  Function.update_of_ne (fun e => hb (Finset.mem_image.mpr ⟨7, Finset.mem_univ _, (Proc.devRef_injective _ e).symm⟩)) _ _

end Exit

section Reg

variable (a : (p : Fin 13) → (pcfgs (F := F) p).Adm)
variable (Vin : Dev nD → Valuation τ sig (Elt F))

/-- What rides beside the buffers through the region: the core's generator register at some state (the invariant
    takes it in and gives it back) and its owes, at nothing. -/
abbrev R12 (c : Dev nD) : sProp 𝕄 := iprop((∃ r, prngReg c r) ∗ ∃ W, owes (c : Thread nD τ) (0 : CellTallies nD τ sig Unit) W)

set_option backward.isDefEq.respectTransparency.types false in
/-- REGION 12 (custom_call 12) over the thread state, for any family of proof data whose member 12 is dat12 at the
    entry valuation: entered from every unscoped buffer at Vin, left at Vin updated at main_v158 with the output
    array as the write-backs leave it. Its arrays split out of the unscoped buffers and put back at the exit contents;
    the generator register into the invariant and out; nothing owed; no semaphore of the kernel's own; no table. -/
def reg12 (pdats : (p : Fin 13) → (c : Dev nD) → Dat τ (Elt F) Unit ℕ (UR sig nD τ) ℕ (Pipeline.pin (pcfgs (F := F)) a p) c)
    (h : ∀ c, pdats 12 c = dat12 a (fun c b => Vin c b) c) :
    Pipeline.RegionSeg (pcfgs (F := F)) a pdats () defs₀ Variants.none (fun _ => (∅ : Finset Unit)) (fun _ _ => (0 : ℕ)) 12 where
  win := (launch12 (F := F)).win.to₀
  block_pos := (launch12 (F := F)).block_pos
  stage_whole := (launch12 (F := F)).stage_whole
  K := PEmpty
  osem k := k.elim
  ho := Pipeline.OwnSemFacts.none _
  hbody c := by rw [h c]; exact (body_obligation12 a (fun c b => Vin c b) c).loose
  hwaits := Pipeline.hwaits_of_owed_zero _ _ _ _ (fun _ => (∅ : Finset Unit)) (fun _ _ => (0 : ℕ)) 12 fun c _ => by rw [h c]; rfl
  pre c := iprop(StableHlo.held (c : Thread nD τ) (Pipeline.ucRefs τ sig) (Vin c) ∗ R12 c)
  post c := iprop(StableHlo.held (c : Thread nD τ) (Pipeline.ucRefs τ sig)
      (Function.update (Vin c) main_v158 ((dat12 a (fun c b => Vin c b) c).arrAt 7 cfg12.N)) ∗ R12 c)
  X c := iprop(∃ r, prngReg c r)
  Y c := iprop(∃ r, prngReg c r)
  Z c := Pipeline.unscopedRest (Ix := Unit) (Name := ℕ) (U := UR sig nD τ) (Lvl := ℕ) spec12 c (fun b => Vin c b)
  hentry c := by
    rw [Pipeline.ownSems0_none]
    have hsplit := Pipeline.arrays_of_unscopedBufs (p := 12) (pcfgs (F := F)) a pdats (launch12 (F := F)).win (launch12 (F := F)).arr_whole c
      ((pdats 12 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [h c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) a (Ix := Unit) (Name := ℕ) (U := UR sig nD τ) (Lvl := ℕ)
      (launch12 (F := F)).win (launch12 (F := F)).arr_whole c pdats ((pdats 12 c).share_full fun _ => by rw [h c]; rfl)
      (fun b => Vin c b) (fun b => Vout12 Vin c b) ((pdats 12 c).arrAt · cfg12.N)
      (fun w => by rw [h c]; exact hF12 Vin c w) (hrest12 Vin c)
    rw [Pipeline.unscopedBufs_held] at hjoin
    rw [h c] at hjoin ⊢
    unfold dat12 at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segment is entered from the thread state at Vin, -/
theorem reg12_pre (pdats) (h) (c : Dev nD) :
    (reg12 a Vin pdats h).pre c = iprop(StableHlo.held (c : Thread nD τ) (Pipeline.ucRefs τ sig) (Vin c) ∗ R12 c) := rfl
/-- and left at Vin updated at main_v158 with the output array at the last point. -/
theorem reg12_post (pdats) (h) (c : Dev nD) :
    (reg12 a Vin pdats h).post c = iprop(StableHlo.held (c : Thread nD τ) (Pipeline.ucRefs τ sig)
      (Function.update (Vin c) main_v158 ((dat12 a (fun c b => Vin c b) c).arrAt 7 cfg12.N)) ∗ R12 c) := rfl

end Reg

end Cert.KernelIdeal.Hand

end
-- ==== Proof.KI.Assemble.lean ====
import proofs.«415143_j42460046688958_3_alg».proof.Proof.KI.Run
import proofs.«415143_j42460046688958_3_alg».proof.Proof.KI.TablesScatter
import proofs.«415143_j42460046688958_3_alg».proof.Proof.KI.TablesGather
import proofs.«415143_j42460046688958_3_alg».proof.Proof.KI.Dense0
import proofs.«415143_j42460046688958_3_alg».proof.Proof.KI.Gather1
import proofs.«415143_j42460046688958_3_alg».proof.Proof.KI.Scatter2
import proofs.«415143_j42460046688958_3_alg».proof.Proof.KI.Dense3
import proofs.«415143_j42460046688958_3_alg».proof.Proof.KI.Gather4
import proofs.«415143_j42460046688958_3_alg».proof.Proof.KI.Scatter5
import proofs.«415143_j42460046688958_3_alg».proof.Proof.KI.Dense6
import proofs.«415143_j42460046688958_3_alg».proof.Proof.KI.Gather7
import proofs.«415143_j42460046688958_3_alg».proof.Proof.KI.Scatter8
import proofs.«415143_j42460046688958_3_alg».proof.Proof.KI.Dense9
import proofs.«415143_j42460046688958_3_alg».proof.Proof.KI.Gather10
import proofs.«415143_j42460046688958_3_alg».proof.Proof.KI.Scatter11
import proofs.«415143_j42460046688958_3_alg».proof.Proof.KI.Head12

-- decided memberships among the 437 references recurse past the default depth
set_option maxRecDepth 2260

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

local notation "Rest" c:max => iprop((∃ r, prngReg c r) ∗ ∃ W, owes (c : Thread nD τ) (0 : CellTallies nD τ sig Unit) W)

/-! ## The buffers' contents between items, with what each region leaves written out

The valuations between two items of @main, as the conditional run states them over unknowns `outs`, at the contents the
regions' pipelines do leave: after region K the valuation before it with the region's result array replaced by that
array as the write-backs of the last point leave it (window `w` of the region's proof data at the entry valuation).
Written for any admissible table contents `a`; the tables are fixed at the end. -/

section Chain

variable (a : (p : Fin 13) → (pcfgs (F := F) p).Adm) (m : (ℓ : Loc nD τ sig) → Buf (Elt F) ℓ)

/-- What region 0 leaves in `main_v118` on core `c`. -/
def out0 (c : Dev nD) : Buf (Elt F) ((c : Thread nD τ).loc main_v118) :=
  (dat0 a (fun c b => V33 m c b) c).arrAt (2 : Fin 3) (Pipeline.pin (pcfgs (F := F)) a 0).N
/-- Core `c`'s unscoped buffers after region 0. -/
def W34 (c : Dev nD) : Valuation τ sig (Elt F) := Function.update (V33 m c) main_v118 (out0 a m c)
/-- What region 1 leaves in `main_v119` on core `c`. -/
def out1 (c : Dev nD) : Buf (Elt F) ((c : Thread nD τ).loc main_v119) :=
  (dat1 a (fun c b => W34 a m c b) c).arrAt (3 : Fin 4) (Pipeline.pin (pcfgs (F := F)) a 1).N
/-- Core `c`'s unscoped buffers after region 1. -/
def W35 (c : Dev nD) : Valuation τ sig (Elt F) := Function.update (W34 a m c) main_v119 (out1 a m c)
/-- Core `c`'s unscoped buffers after the host stretch `hostOps2`. -/
def W36 (c : Dev nD) : Valuation τ sig (Elt F) := StableHlo.after hostOps2 (W35 a m c)
/-- What region 2 leaves in `main_v125` on core `c`. -/
def out2 (c : Dev nD) : Buf (Elt F) ((c : Thread nD τ).loc main_v125) :=
  (dat2 a (fun c b => W36 a m c b) c).arrAt (5 : Fin 6) (Pipeline.pin (pcfgs (F := F)) a 2).N
/-- Core `c`'s unscoped buffers after region 2. -/
def W37 (c : Dev nD) : Valuation τ sig (Elt F) := Function.update (W36 a m c) main_v125 (out2 a m c)
/-- Core `c`'s unscoped buffers after the host stretch `hostOps3`. -/
def W38 (c : Dev nD) : Valuation τ sig (Elt F) := StableHlo.after hostOps3 (W37 a m c)
/-- What region 3 leaves in `main_v128` on core `c`. -/
def out3 (c : Dev nD) : Buf (Elt F) ((c : Thread nD τ).loc main_v128) :=
  (dat3 a (fun c b => W38 a m c b) c).arrAt (2 : Fin 3) (Pipeline.pin (pcfgs (F := F)) a 3).N
/-- Core `c`'s unscoped buffers after region 3. -/
def W39 (c : Dev nD) : Valuation τ sig (Elt F) := Function.update (W38 a m c) main_v128 (out3 a m c)
/-- What region 4 leaves in `main_v129` on core `c`. -/
def out4 (c : Dev nD) : Buf (Elt F) ((c : Thread nD τ).loc main_v129) :=
  (dat4 a (fun c b => W39 a m c b) c).arrAt (3 : Fin 4) (Pipeline.pin (pcfgs (F := F)) a 4).N
/-- Core `c`'s unscoped buffers after region 4. -/
def W40 (c : Dev nD) : Valuation τ sig (Elt F) := Function.update (W39 a m c) main_v129 (out4 a m c)
/-- Core `c`'s unscoped buffers after the host stretch `hostOps5`. -/
def W41 (c : Dev nD) : Valuation τ sig (Elt F) := StableHlo.after hostOps5 (W40 a m c)
/-- What region 5 leaves in `main_v135` on core `c`. -/
def out5 (c : Dev nD) : Buf (Elt F) ((c : Thread nD τ).loc main_v135) :=
  (dat5 a (fun c b => W41 a m c b) c).arrAt (5 : Fin 6) (Pipeline.pin (pcfgs (F := F)) a 5).N
/-- Core `c`'s unscoped buffers after region 5. -/
def W42 (c : Dev nD) : Valuation τ sig (Elt F) := Function.update (W41 a m c) main_v135 (out5 a m c)
/-- Core `c`'s unscoped buffers after the host stretch `hostOps6`. -/
def W43 (c : Dev nD) : Valuation τ sig (Elt F) := StableHlo.after hostOps6 (W42 a m c)
/-- What region 6 leaves in `main_v138` on core `c`. -/
def out6 (c : Dev nD) : Buf (Elt F) ((c : Thread nD τ).loc main_v138) :=
  (dat6 a (fun c b => W43 a m c b) c).arrAt (2 : Fin 3) (Pipeline.pin (pcfgs (F := F)) a 6).N
/-- Core `c`'s unscoped buffers after region 6. -/
def W44 (c : Dev nD) : Valuation τ sig (Elt F) := Function.update (W43 a m c) main_v138 (out6 a m c)
/-- What region 7 leaves in `main_v139` on core `c`. -/
def out7 (c : Dev nD) : Buf (Elt F) ((c : Thread nD τ).loc main_v139) :=
  (dat7 a (fun c b => W44 a m c b) c).arrAt (3 : Fin 4) (Pipeline.pin (pcfgs (F := F)) a 7).N
/-- Core `c`'s unscoped buffers after region 7. -/
def W45 (c : Dev nD) : Valuation τ sig (Elt F) := Function.update (W44 a m c) main_v139 (out7 a m c)
/-- Core `c`'s unscoped buffers after the host stretch `hostOps8`. -/
def W46 (c : Dev nD) : Valuation τ sig (Elt F) := StableHlo.after hostOps8 (W45 a m c)
/-- What region 8 leaves in `main_v145` on core `c`. -/
def out8 (c : Dev nD) : Buf (Elt F) ((c : Thread nD τ).loc main_v145) :=
  (dat8 a (fun c b => W46 a m c b) c).arrAt (5 : Fin 6) (Pipeline.pin (pcfgs (F := F)) a 8).N
/-- Core `c`'s unscoped buffers after region 8. -/
def W47 (c : Dev nD) : Valuation τ sig (Elt F) := Function.update (W46 a m c) main_v145 (out8 a m c)
/-- Core `c`'s unscoped buffers after the host stretch `hostOps9`. -/
def W48 (c : Dev nD) : Valuation τ sig (Elt F) := StableHlo.after hostOps9 (W47 a m c)
/-- What region 9 leaves in `main_v148` on core `c`. -/
def out9 (c : Dev nD) : Buf (Elt F) ((c : Thread nD τ).loc main_v148) :=
  (dat9 a (fun c b => W48 a m c b) c).arrAt (2 : Fin 3) (Pipeline.pin (pcfgs (F := F)) a 9).N
/-- Core `c`'s unscoped buffers after region 9. -/
def W49 (c : Dev nD) : Valuation τ sig (Elt F) := Function.update (W48 a m c) main_v148 (out9 a m c)
/-- What region 10 leaves in `main_v149` on core `c`. -/
def out10 (c : Dev nD) : Buf (Elt F) ((c : Thread nD τ).loc main_v149) :=
  (dat10 a (fun c b => W49 a m c b) c).arrAt (3 : Fin 4) (Pipeline.pin (pcfgs (F := F)) a 10).N
/-- Core `c`'s unscoped buffers after region 10. -/
def W50 (c : Dev nD) : Valuation τ sig (Elt F) := Function.update (W49 a m c) main_v149 (out10 a m c)
/-- Core `c`'s unscoped buffers after the host stretch `hostOps11`. -/
def W51 (c : Dev nD) : Valuation τ sig (Elt F) := StableHlo.after hostOps11 (W50 a m c)
/-- What region 11 leaves in `main_v155` on core `c`. -/
def out11 (c : Dev nD) : Buf (Elt F) ((c : Thread nD τ).loc main_v155) :=
  (dat11 a (fun c b => W51 a m c b) c).arrAt (5 : Fin 6) (Pipeline.pin (pcfgs (F := F)) a 11).N
/-- Core `c`'s unscoped buffers after region 11. -/
def W52 (c : Dev nD) : Valuation τ sig (Elt F) := Function.update (W51 a m c) main_v155 (out11 a m c)
/-- Core `c`'s unscoped buffers after the host stretch `hostOps12`. -/
def W53 (c : Dev nD) : Valuation τ sig (Elt F) := StableHlo.after hostOps12 (W52 a m c)
/-- What region 12 leaves in `main_v158` on core `c`. -/
def out12 (c : Dev nD) : Buf (Elt F) ((c : Thread nD τ).loc main_v158) :=
  (dat12 a (fun c b => W53 a m c b) c).arrAt (7 : Fin 8) (Pipeline.pin (pcfgs (F := F)) a 12).N
/-- Core `c`'s unscoped buffers after region 12. -/
def W54 (c : Dev nD) : Valuation τ sig (Elt F) := Function.update (W53 a m c) main_v158 (out12 a m c)
/-- Core `c`'s unscoped buffers after the host stretch `hostOps13`. -/
def W55 (c : Dev nD) : Valuation τ sig (Elt F) := StableHlo.after hostOps13 (W54 a m c)

theorem out0_def (c : Dev nD) : out0 a m c = (dat0 a (fun c b => V33 m c b) c).arrAt (2 : Fin 3) (Pipeline.pin (pcfgs (F := F)) a 0).N := rfl
theorem W34_def (c : Dev nD) : W34 a m c = Function.update (V33 m c) main_v118 (out0 a m c) := rfl
theorem out1_def (c : Dev nD) : out1 a m c = (dat1 a (fun c b => W34 a m c b) c).arrAt (3 : Fin 4) (Pipeline.pin (pcfgs (F := F)) a 1).N := rfl
theorem W35_def (c : Dev nD) : W35 a m c = Function.update (W34 a m c) main_v119 (out1 a m c) := rfl
theorem W36_def (c : Dev nD) : W36 a m c = StableHlo.after hostOps2 (W35 a m c) := rfl
theorem out2_def (c : Dev nD) : out2 a m c = (dat2 a (fun c b => W36 a m c b) c).arrAt (5 : Fin 6) (Pipeline.pin (pcfgs (F := F)) a 2).N := rfl
theorem W37_def (c : Dev nD) : W37 a m c = Function.update (W36 a m c) main_v125 (out2 a m c) := rfl
theorem W38_def (c : Dev nD) : W38 a m c = StableHlo.after hostOps3 (W37 a m c) := rfl
theorem out3_def (c : Dev nD) : out3 a m c = (dat3 a (fun c b => W38 a m c b) c).arrAt (2 : Fin 3) (Pipeline.pin (pcfgs (F := F)) a 3).N := rfl
theorem W39_def (c : Dev nD) : W39 a m c = Function.update (W38 a m c) main_v128 (out3 a m c) := rfl
theorem out4_def (c : Dev nD) : out4 a m c = (dat4 a (fun c b => W39 a m c b) c).arrAt (3 : Fin 4) (Pipeline.pin (pcfgs (F := F)) a 4).N := rfl
theorem W40_def (c : Dev nD) : W40 a m c = Function.update (W39 a m c) main_v129 (out4 a m c) := rfl
theorem W41_def (c : Dev nD) : W41 a m c = StableHlo.after hostOps5 (W40 a m c) := rfl
theorem out5_def (c : Dev nD) : out5 a m c = (dat5 a (fun c b => W41 a m c b) c).arrAt (5 : Fin 6) (Pipeline.pin (pcfgs (F := F)) a 5).N := rfl
theorem W42_def (c : Dev nD) : W42 a m c = Function.update (W41 a m c) main_v135 (out5 a m c) := rfl
theorem W43_def (c : Dev nD) : W43 a m c = StableHlo.after hostOps6 (W42 a m c) := rfl
theorem out6_def (c : Dev nD) : out6 a m c = (dat6 a (fun c b => W43 a m c b) c).arrAt (2 : Fin 3) (Pipeline.pin (pcfgs (F := F)) a 6).N := rfl
theorem W44_def (c : Dev nD) : W44 a m c = Function.update (W43 a m c) main_v138 (out6 a m c) := rfl
theorem out7_def (c : Dev nD) : out7 a m c = (dat7 a (fun c b => W44 a m c b) c).arrAt (3 : Fin 4) (Pipeline.pin (pcfgs (F := F)) a 7).N := rfl
theorem W45_def (c : Dev nD) : W45 a m c = Function.update (W44 a m c) main_v139 (out7 a m c) := rfl
theorem W46_def (c : Dev nD) : W46 a m c = StableHlo.after hostOps8 (W45 a m c) := rfl
theorem out8_def (c : Dev nD) : out8 a m c = (dat8 a (fun c b => W46 a m c b) c).arrAt (5 : Fin 6) (Pipeline.pin (pcfgs (F := F)) a 8).N := rfl
theorem W47_def (c : Dev nD) : W47 a m c = Function.update (W46 a m c) main_v145 (out8 a m c) := rfl
theorem W48_def (c : Dev nD) : W48 a m c = StableHlo.after hostOps9 (W47 a m c) := rfl
theorem out9_def (c : Dev nD) : out9 a m c = (dat9 a (fun c b => W48 a m c b) c).arrAt (2 : Fin 3) (Pipeline.pin (pcfgs (F := F)) a 9).N := rfl
theorem W49_def (c : Dev nD) : W49 a m c = Function.update (W48 a m c) main_v148 (out9 a m c) := rfl
theorem out10_def (c : Dev nD) : out10 a m c = (dat10 a (fun c b => W49 a m c b) c).arrAt (3 : Fin 4) (Pipeline.pin (pcfgs (F := F)) a 10).N := rfl
theorem W50_def (c : Dev nD) : W50 a m c = Function.update (W49 a m c) main_v149 (out10 a m c) := rfl
theorem W51_def (c : Dev nD) : W51 a m c = StableHlo.after hostOps11 (W50 a m c) := rfl
theorem out11_def (c : Dev nD) : out11 a m c = (dat11 a (fun c b => W51 a m c b) c).arrAt (5 : Fin 6) (Pipeline.pin (pcfgs (F := F)) a 11).N := rfl
theorem W52_def (c : Dev nD) : W52 a m c = Function.update (W51 a m c) main_v155 (out11 a m c) := rfl
theorem W53_def (c : Dev nD) : W53 a m c = StableHlo.after hostOps12 (W52 a m c) := rfl
theorem out12_def (c : Dev nD) : out12 a m c = (dat12 a (fun c b => W53 a m c b) c).arrAt (7 : Fin 8) (Pipeline.pin (pcfgs (F := F)) a 12).N := rfl
theorem W54_def (c : Dev nD) : W54 a m c = Function.update (W53 a m c) main_v158 (out12 a m c) := rfl
theorem W55_def (c : Dev nD) : W55 a m c = StableHlo.after hostOps13 (W54 a m c) := rfl

/-- The unknowns of the conditional run at what the regions leave: the result array of region K at `outK`; any other
    reference at its launch contents (never read). -/
def outsOf : Outs (F := F) := fun _ r c =>
  if h0 : r = main_v118 then h0 ▸ out0 a m c else
  if h1 : r = main_v119 then h1 ▸ out1 a m c else
  if h2 : r = main_v125 then h2 ▸ out2 a m c else
  if h3 : r = main_v128 then h3 ▸ out3 a m c else
  if h4 : r = main_v129 then h4 ▸ out4 a m c else
  if h5 : r = main_v135 then h5 ▸ out5 a m c else
  if h6 : r = main_v138 then h6 ▸ out6 a m c else
  if h7 : r = main_v139 then h7 ▸ out7 a m c else
  if h8 : r = main_v145 then h8 ▸ out8 a m c else
  if h9 : r = main_v148 then h9 ▸ out9 a m c else
  if h10 : r = main_v149 then h10 ▸ out10 a m c else
  if h11 : r = main_v155 then h11 ▸ out11 a m c else
  if h12 : r = main_v158 then h12 ▸ out12 a m c else
  m ((c : Thread nD τ).loc r)

theorem outs_0 (J : ℕ) (c : Dev nD) : outsOf a m J main_v118 c = out0 a m c := by
  unfold outsOf
  rw [dif_pos rfl]
theorem outs_1 (J : ℕ) (c : Dev nD) : outsOf a m J main_v119 c = out1 a m c := by
  unfold outsOf
  rw [dif_neg (show ¬ (main_v119 : Ref sig .tc) = main_v118 by decide), dif_pos rfl]
theorem outs_2 (J : ℕ) (c : Dev nD) : outsOf a m J main_v125 c = out2 a m c := by
  unfold outsOf
  rw [dif_neg (show ¬ (main_v125 : Ref sig .tc) = main_v118 by decide), dif_neg (show ¬ (main_v125 : Ref sig .tc) = main_v119 by decide), dif_pos rfl]
theorem outs_3 (J : ℕ) (c : Dev nD) : outsOf a m J main_v128 c = out3 a m c := by
  unfold outsOf
  rw [dif_neg (show ¬ (main_v128 : Ref sig .tc) = main_v118 by decide), dif_neg (show ¬ (main_v128 : Ref sig .tc) = main_v119 by decide), dif_neg (show ¬ (main_v128 : Ref sig .tc) = main_v125 by decide), dif_pos rfl]
theorem outs_4 (J : ℕ) (c : Dev nD) : outsOf a m J main_v129 c = out4 a m c := by
  unfold outsOf
  rw [dif_neg (show ¬ (main_v129 : Ref sig .tc) = main_v118 by decide), dif_neg (show ¬ (main_v129 : Ref sig .tc) = main_v119 by decide), dif_neg (show ¬ (main_v129 : Ref sig .tc) = main_v125 by decide), dif_neg (show ¬ (main_v129 : Ref sig .tc) = main_v128 by decide), dif_pos rfl]
theorem outs_5 (J : ℕ) (c : Dev nD) : outsOf a m J main_v135 c = out5 a m c := by
  unfold outsOf
  rw [dif_neg (show ¬ (main_v135 : Ref sig .tc) = main_v118 by decide), dif_neg (show ¬ (main_v135 : Ref sig .tc) = main_v119 by decide), dif_neg (show ¬ (main_v135 : Ref sig .tc) = main_v125 by decide), dif_neg (show ¬ (main_v135 : Ref sig .tc) = main_v128 by decide), dif_neg (show ¬ (main_v135 : Ref sig .tc) = main_v129 by decide), dif_pos rfl]
theorem outs_6 (J : ℕ) (c : Dev nD) : outsOf a m J main_v138 c = out6 a m c := by
  unfold outsOf
  rw [dif_neg (show ¬ (main_v138 : Ref sig .tc) = main_v118 by decide), dif_neg (show ¬ (main_v138 : Ref sig .tc) = main_v119 by decide), dif_neg (show ¬ (main_v138 : Ref sig .tc) = main_v125 by decide), dif_neg (show ¬ (main_v138 : Ref sig .tc) = main_v128 by decide), dif_neg (show ¬ (main_v138 : Ref sig .tc) = main_v129 by decide), dif_neg (show ¬ (main_v138 : Ref sig .tc) = main_v135 by decide), dif_pos rfl]
theorem outs_7 (J : ℕ) (c : Dev nD) : outsOf a m J main_v139 c = out7 a m c := by
  unfold outsOf
  rw [dif_neg (show ¬ (main_v139 : Ref sig .tc) = main_v118 by decide), dif_neg (show ¬ (main_v139 : Ref sig .tc) = main_v119 by decide), dif_neg (show ¬ (main_v139 : Ref sig .tc) = main_v125 by decide), dif_neg (show ¬ (main_v139 : Ref sig .tc) = main_v128 by decide), dif_neg (show ¬ (main_v139 : Ref sig .tc) = main_v129 by decide), dif_neg (show ¬ (main_v139 : Ref sig .tc) = main_v135 by decide), dif_neg (show ¬ (main_v139 : Ref sig .tc) = main_v138 by decide), dif_pos rfl]
theorem outs_8 (J : ℕ) (c : Dev nD) : outsOf a m J main_v145 c = out8 a m c := by
  unfold outsOf
  rw [dif_neg (show ¬ (main_v145 : Ref sig .tc) = main_v118 by decide), dif_neg (show ¬ (main_v145 : Ref sig .tc) = main_v119 by decide), dif_neg (show ¬ (main_v145 : Ref sig .tc) = main_v125 by decide), dif_neg (show ¬ (main_v145 : Ref sig .tc) = main_v128 by decide), dif_neg (show ¬ (main_v145 : Ref sig .tc) = main_v129 by decide), dif_neg (show ¬ (main_v145 : Ref sig .tc) = main_v135 by decide), dif_neg (show ¬ (main_v145 : Ref sig .tc) = main_v138 by decide), dif_neg (show ¬ (main_v145 : Ref sig .tc) = main_v139 by decide), dif_pos rfl]
theorem outs_9 (J : ℕ) (c : Dev nD) : outsOf a m J main_v148 c = out9 a m c := by
  unfold outsOf
  rw [dif_neg (show ¬ (main_v148 : Ref sig .tc) = main_v118 by decide), dif_neg (show ¬ (main_v148 : Ref sig .tc) = main_v119 by decide), dif_neg (show ¬ (main_v148 : Ref sig .tc) = main_v125 by decide), dif_neg (show ¬ (main_v148 : Ref sig .tc) = main_v128 by decide), dif_neg (show ¬ (main_v148 : Ref sig .tc) = main_v129 by decide), dif_neg (show ¬ (main_v148 : Ref sig .tc) = main_v135 by decide), dif_neg (show ¬ (main_v148 : Ref sig .tc) = main_v138 by decide), dif_neg (show ¬ (main_v148 : Ref sig .tc) = main_v139 by decide), dif_neg (show ¬ (main_v148 : Ref sig .tc) = main_v145 by decide), dif_pos rfl]
theorem outs_10 (J : ℕ) (c : Dev nD) : outsOf a m J main_v149 c = out10 a m c := by
  unfold outsOf
  rw [dif_neg (show ¬ (main_v149 : Ref sig .tc) = main_v118 by decide), dif_neg (show ¬ (main_v149 : Ref sig .tc) = main_v119 by decide), dif_neg (show ¬ (main_v149 : Ref sig .tc) = main_v125 by decide), dif_neg (show ¬ (main_v149 : Ref sig .tc) = main_v128 by decide), dif_neg (show ¬ (main_v149 : Ref sig .tc) = main_v129 by decide), dif_neg (show ¬ (main_v149 : Ref sig .tc) = main_v135 by decide), dif_neg (show ¬ (main_v149 : Ref sig .tc) = main_v138 by decide), dif_neg (show ¬ (main_v149 : Ref sig .tc) = main_v139 by decide), dif_neg (show ¬ (main_v149 : Ref sig .tc) = main_v145 by decide), dif_neg (show ¬ (main_v149 : Ref sig .tc) = main_v148 by decide), dif_pos rfl]
theorem outs_11 (J : ℕ) (c : Dev nD) : outsOf a m J main_v155 c = out11 a m c := by
  unfold outsOf
  rw [dif_neg (show ¬ (main_v155 : Ref sig .tc) = main_v118 by decide), dif_neg (show ¬ (main_v155 : Ref sig .tc) = main_v119 by decide), dif_neg (show ¬ (main_v155 : Ref sig .tc) = main_v125 by decide), dif_neg (show ¬ (main_v155 : Ref sig .tc) = main_v128 by decide), dif_neg (show ¬ (main_v155 : Ref sig .tc) = main_v129 by decide), dif_neg (show ¬ (main_v155 : Ref sig .tc) = main_v135 by decide), dif_neg (show ¬ (main_v155 : Ref sig .tc) = main_v138 by decide), dif_neg (show ¬ (main_v155 : Ref sig .tc) = main_v139 by decide), dif_neg (show ¬ (main_v155 : Ref sig .tc) = main_v145 by decide), dif_neg (show ¬ (main_v155 : Ref sig .tc) = main_v148 by decide), dif_neg (show ¬ (main_v155 : Ref sig .tc) = main_v149 by decide), dif_pos rfl]
theorem outs_12 (J : ℕ) (c : Dev nD) : outsOf a m J main_v158 c = out12 a m c := by
  unfold outsOf
  rw [dif_neg (show ¬ (main_v158 : Ref sig .tc) = main_v118 by decide), dif_neg (show ¬ (main_v158 : Ref sig .tc) = main_v119 by decide), dif_neg (show ¬ (main_v158 : Ref sig .tc) = main_v125 by decide), dif_neg (show ¬ (main_v158 : Ref sig .tc) = main_v128 by decide), dif_neg (show ¬ (main_v158 : Ref sig .tc) = main_v129 by decide), dif_neg (show ¬ (main_v158 : Ref sig .tc) = main_v135 by decide), dif_neg (show ¬ (main_v158 : Ref sig .tc) = main_v138 by decide), dif_neg (show ¬ (main_v158 : Ref sig .tc) = main_v139 by decide), dif_neg (show ¬ (main_v158 : Ref sig .tc) = main_v145 by decide), dif_neg (show ¬ (main_v158 : Ref sig .tc) = main_v148 by decide), dif_neg (show ¬ (main_v158 : Ref sig .tc) = main_v149 by decide), dif_neg (show ¬ (main_v158 : Ref sig .tc) = main_v155 by decide), dif_pos rfl]

theorem V34_eq (c : Dev nD) : V34 m (outsOf a m) c = W34 a m c := by
  show Function.update (V33 m c) main_v118 (outsOf a m 34 main_v118 c) = Function.update (V33 m c) main_v118 (out0 a m c)
  rw [outs_0]
theorem V35_eq (c : Dev nD) : V35 m (outsOf a m) c = W35 a m c := by
  show Function.update (V34 m (outsOf a m) c) main_v119 (outsOf a m 35 main_v119 c) = Function.update (W34 a m c) main_v119 (out1 a m c)
  rw [V34_eq, outs_1]
theorem V36_eq (c : Dev nD) : V36 m (outsOf a m) c = W36 a m c := by
  show StableHlo.after hostOps2 (V35 m (outsOf a m) c) = StableHlo.after hostOps2 (W35 a m c)
  rw [V35_eq]
theorem V37_eq (c : Dev nD) : V37 m (outsOf a m) c = W37 a m c := by
  show Function.update (V36 m (outsOf a m) c) main_v125 (outsOf a m 37 main_v125 c) = Function.update (W36 a m c) main_v125 (out2 a m c)
  rw [V36_eq, outs_2]
theorem V38_eq (c : Dev nD) : V38 m (outsOf a m) c = W38 a m c := by
  show StableHlo.after hostOps3 (V37 m (outsOf a m) c) = StableHlo.after hostOps3 (W37 a m c)
  rw [V37_eq]
theorem V39_eq (c : Dev nD) : V39 m (outsOf a m) c = W39 a m c := by
  show Function.update (V38 m (outsOf a m) c) main_v128 (outsOf a m 39 main_v128 c) = Function.update (W38 a m c) main_v128 (out3 a m c)
  rw [V38_eq, outs_3]
theorem V40_eq (c : Dev nD) : V40 m (outsOf a m) c = W40 a m c := by
  show Function.update (V39 m (outsOf a m) c) main_v129 (outsOf a m 40 main_v129 c) = Function.update (W39 a m c) main_v129 (out4 a m c)
  rw [V39_eq, outs_4]
theorem V41_eq (c : Dev nD) : V41 m (outsOf a m) c = W41 a m c := by
  show StableHlo.after hostOps5 (V40 m (outsOf a m) c) = StableHlo.after hostOps5 (W40 a m c)
  rw [V40_eq]
theorem V42_eq (c : Dev nD) : V42 m (outsOf a m) c = W42 a m c := by
  show Function.update (V41 m (outsOf a m) c) main_v135 (outsOf a m 42 main_v135 c) = Function.update (W41 a m c) main_v135 (out5 a m c)
  rw [V41_eq, outs_5]
theorem V43_eq (c : Dev nD) : V43 m (outsOf a m) c = W43 a m c := by
  show StableHlo.after hostOps6 (V42 m (outsOf a m) c) = StableHlo.after hostOps6 (W42 a m c)
  rw [V42_eq]
theorem V44_eq (c : Dev nD) : V44 m (outsOf a m) c = W44 a m c := by
  show Function.update (V43 m (outsOf a m) c) main_v138 (outsOf a m 44 main_v138 c) = Function.update (W43 a m c) main_v138 (out6 a m c)
  rw [V43_eq, outs_6]
theorem V45_eq (c : Dev nD) : V45 m (outsOf a m) c = W45 a m c := by
  show Function.update (V44 m (outsOf a m) c) main_v139 (outsOf a m 45 main_v139 c) = Function.update (W44 a m c) main_v139 (out7 a m c)
  rw [V44_eq, outs_7]
theorem V46_eq (c : Dev nD) : V46 m (outsOf a m) c = W46 a m c := by
  show StableHlo.after hostOps8 (V45 m (outsOf a m) c) = StableHlo.after hostOps8 (W45 a m c)
  rw [V45_eq]
theorem V47_eq (c : Dev nD) : V47 m (outsOf a m) c = W47 a m c := by
  show Function.update (V46 m (outsOf a m) c) main_v145 (outsOf a m 47 main_v145 c) = Function.update (W46 a m c) main_v145 (out8 a m c)
  rw [V46_eq, outs_8]
theorem V48_eq (c : Dev nD) : V48 m (outsOf a m) c = W48 a m c := by
  show StableHlo.after hostOps9 (V47 m (outsOf a m) c) = StableHlo.after hostOps9 (W47 a m c)
  rw [V47_eq]
theorem V49_eq (c : Dev nD) : V49 m (outsOf a m) c = W49 a m c := by
  show Function.update (V48 m (outsOf a m) c) main_v148 (outsOf a m 49 main_v148 c) = Function.update (W48 a m c) main_v148 (out9 a m c)
  rw [V48_eq, outs_9]
theorem V50_eq (c : Dev nD) : V50 m (outsOf a m) c = W50 a m c := by
  show Function.update (V49 m (outsOf a m) c) main_v149 (outsOf a m 50 main_v149 c) = Function.update (W49 a m c) main_v149 (out10 a m c)
  rw [V49_eq, outs_10]
theorem V51_eq (c : Dev nD) : V51 m (outsOf a m) c = W51 a m c := by
  show StableHlo.after hostOps11 (V50 m (outsOf a m) c) = StableHlo.after hostOps11 (W50 a m c)
  rw [V50_eq]
theorem V52_eq (c : Dev nD) : V52 m (outsOf a m) c = W52 a m c := by
  show Function.update (V51 m (outsOf a m) c) main_v155 (outsOf a m 52 main_v155 c) = Function.update (W51 a m c) main_v155 (out11 a m c)
  rw [V51_eq, outs_11]
theorem V53_eq (c : Dev nD) : V53 m (outsOf a m) c = W53 a m c := by
  show StableHlo.after hostOps12 (V52 m (outsOf a m) c) = StableHlo.after hostOps12 (W52 a m c)
  rw [V52_eq]
theorem V54_eq (c : Dev nD) : V54 m (outsOf a m) c = W54 a m c := by
  show Function.update (V53 m (outsOf a m) c) main_v158 (outsOf a m 54 main_v158 c) = Function.update (W53 a m c) main_v158 (out12 a m c)
  rw [V53_eq, outs_12]
theorem V55_eq (c : Dev nD) : V55 m (outsOf a m) c = W55 a m c := by
  show StableHlo.after hostOps13 (V54 m (outsOf a m) c) = StableHlo.after hostOps13 (W54 a m c)
  rw [V54_eq]

/-- Every pipeline's proof data at its region's entry contents. -/
def pdatsOf : (p : Fin 13) → (c : Dev nD) → Dat τ (Elt F) Unit ℕ (UR sig nD τ) ℕ (Pipeline.pin (pcfgs (F := F)) a p) c
  | ⟨0, _⟩ => fun c => dat0 a (fun c b => V33 m c b) c
  | ⟨1, _⟩ => fun c => dat1 a (fun c b => W34 a m c b) c
  | ⟨2, _⟩ => fun c => dat2 a (fun c b => W36 a m c b) c
  | ⟨3, _⟩ => fun c => dat3 a (fun c b => W38 a m c b) c
  | ⟨4, _⟩ => fun c => dat4 a (fun c b => W39 a m c b) c
  | ⟨5, _⟩ => fun c => dat5 a (fun c b => W41 a m c b) c
  | ⟨6, _⟩ => fun c => dat6 a (fun c b => W43 a m c b) c
  | ⟨7, _⟩ => fun c => dat7 a (fun c b => W44 a m c b) c
  | ⟨8, _⟩ => fun c => dat8 a (fun c b => W46 a m c b) c
  | ⟨9, _⟩ => fun c => dat9 a (fun c b => W48 a m c b) c
  | ⟨10, _⟩ => fun c => dat10 a (fun c b => W49 a m c b) c
  | ⟨11, _⟩ => fun c => dat11 a (fun c b => W51 a m c b) c
  | ⟨12, _⟩ => fun c => dat12 a (fun c b => W53 a m c b) c
  | ⟨_ + 13, h⟩ => absurd h (Nat.not_lt.2 (Nat.le_add_left _ _))

theorem pdatsOf_0 (c : Dev nD) : pdatsOf a m 0 c = dat0 a (fun c b => V33 m c b) c := rfl
theorem pdatsOf_1 (c : Dev nD) : pdatsOf a m 1 c = dat1 a (fun c b => W34 a m c b) c := rfl
theorem pdatsOf_2 (c : Dev nD) : pdatsOf a m 2 c = dat2 a (fun c b => W36 a m c b) c := rfl
theorem pdatsOf_3 (c : Dev nD) : pdatsOf a m 3 c = dat3 a (fun c b => W38 a m c b) c := rfl
theorem pdatsOf_4 (c : Dev nD) : pdatsOf a m 4 c = dat4 a (fun c b => W39 a m c b) c := rfl
theorem pdatsOf_5 (c : Dev nD) : pdatsOf a m 5 c = dat5 a (fun c b => W41 a m c b) c := rfl
theorem pdatsOf_6 (c : Dev nD) : pdatsOf a m 6 c = dat6 a (fun c b => W43 a m c b) c := rfl
theorem pdatsOf_7 (c : Dev nD) : pdatsOf a m 7 c = dat7 a (fun c b => W44 a m c b) c := rfl
theorem pdatsOf_8 (c : Dev nD) : pdatsOf a m 8 c = dat8 a (fun c b => W46 a m c b) c := rfl
theorem pdatsOf_9 (c : Dev nD) : pdatsOf a m 9 c = dat9 a (fun c b => W48 a m c b) c := rfl
theorem pdatsOf_10 (c : Dev nD) : pdatsOf a m 10 c = dat10 a (fun c b => W49 a m c b) c := rfl
theorem pdatsOf_11 (c : Dev nD) : pdatsOf a m 11 c = dat11 a (fun c b => W51 a m c b) c := rfl
theorem pdatsOf_12 (c : Dev nD) : pdatsOf a m 12 c = dat12 a (fun c b => W53 a m c b) c := rfl

end Chain

/-! ## The tables at the regions' entries

No host stretch after item 32 and no region writes a prefetched table: at each table region's entry the tables hold what
they held after item 32. -/

section TablesAtEntry

variable (a : (p : Fin 13) → (pcfgs (F := F) p).Adm) (m : (ℓ : Loc nD τ sig) → Buf (Elt F) ℓ)

theorem pre1_at_entry (c : Dev nD) (k : Fin 2) : W34 a m c (pre1.ref k) = V33 m c (pre1.ref k) :=
  (congrFun (V34_eq a m c) _).symm.trans <|
    (V34_of m (outsOf a m) c _ (by revert k; decide))
theorem pre2_at_entry (c : Dev nD) (k : Fin 4) : W36 a m c (pre2.ref k) = V33 m c (pre2.ref k) :=
  (congrFun (V36_eq a m c) _).symm.trans <|
    (V36_of m (outsOf a m) c _ (by revert k; decide)).trans <|
    (V35_of m (outsOf a m) c _ (by revert k; decide)).trans <|
    (V34_of m (outsOf a m) c _ (by revert k; decide))
theorem pre4_at_entry (c : Dev nD) (k : Fin 2) : W39 a m c (pre4.ref k) = V33 m c (pre4.ref k) :=
  (congrFun (V39_eq a m c) _).symm.trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre5_at_entry (c : Dev nD) (k : Fin 4) : W41 a m c (pre5.ref k) = V33 m c (pre5.ref k) :=
  (congrFun (V41_eq a m c) _).symm.trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre7_at_entry (c : Dev nD) (k : Fin 2) : W44 a m c (pre7.ref k) = V33 m c (pre7.ref k) :=
  (congrFun (V44_eq a m c) _).symm.trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre8_at_entry (c : Dev nD) (k : Fin 4) : W46 a m c (pre8.ref k) = V33 m c (pre8.ref k) :=
  (congrFun (V46_eq a m c) _).symm.trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre10_at_entry (c : Dev nD) (k : Fin 2) : W49 a m c (pre10.ref k) = V33 m c (pre10.ref k) :=
  (congrFun (V49_eq a m c) _).symm.trans <|
    (V49_of m (outsOf a m) c _ (by revert k; decide)).trans <|
    (V48_of m (outsOf a m) c _ (by revert k; decide)).trans <|
    (V47_of m (outsOf a m) c _ (by revert k; decide)).trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))
theorem pre11_at_entry (c : Dev nD) (k : Fin 4) : W51 a m c (pre11.ref k) = V33 m c (pre11.ref k) :=
  (congrFun (V51_eq a m c) _).symm.trans <|
    (V51_of m (outsOf a m) c _ (by revert k; decide)).trans <|
    (V50_of m (outsOf a m) c _ (by revert k; decide)).trans <|
    (V49_of m (outsOf a m) c _ (by revert k; decide)).trans <|
    (V48_of m (outsOf a m) c _ (by revert k; decide)).trans <|
    (V47_of m (outsOf a m) c _ (by revert k; decide)).trans <|
    (V46_of m (outsOf a m) c _ (by revert k; decide)).trans <|
    (V45_of m (outsOf a m) c _ (by revert k; decide)).trans <|
    (V44_of m (outsOf a m) c _ (by revert k; decide)).trans <|
    (V43_of m (outsOf a m) c _ (by revert k; decide)).trans <|
    (V42_of m (outsOf a m) c _ (by revert k; decide)).trans <|
    (V41_of m (outsOf a m) c _ (by revert k; decide)).trans <|
    (V40_of m (outsOf a m) c _ (by revert k; decide)).trans <|
    (V39_of m (outsOf a m) c _ (by revert k; decide)).trans <|
    (V38_of m (outsOf a m) c _ (by revert k; decide)).trans <|
    (V37_of m (outsOf a m) c _ (by revert k; decide)).trans <|
    (V36_of m (outsOf a m) c _ (by revert k; decide)).trans <|
    (V35_of m (outsOf a m) c _ (by revert k; decide)).trans <|
    (V34_of m (outsOf a m) c _ (by revert k; decide))

end TablesAtEntry

/-! ## The tables fixed: every pipeline's admissible contents, read off the valuation after item 32 -/

section All

variable (m : (ℓ : Loc nD τ sig) → Buf (Elt F) ℓ)

/-- Every pipeline's admissible table contents: none for a pipeline that prefetches nothing; for the others the tables
    as the host stretches before region 0 leave them. -/
def admAll : (p : Fin 13) → (pcfgs (F := F) p).Adm
  | ⟨0, _⟩ => (cfg0).toPCfg_adm
  | ⟨1, _⟩ => adm1 m
  | ⟨2, _⟩ => adm2 m
  | ⟨3, _⟩ => (cfg3).toPCfg_adm
  | ⟨4, _⟩ => adm4 m
  | ⟨5, _⟩ => adm5 m
  | ⟨6, _⟩ => (cfg6).toPCfg_adm
  | ⟨7, _⟩ => adm7 m
  | ⟨8, _⟩ => adm8 m
  | ⟨9, _⟩ => (cfg9).toPCfg_adm
  | ⟨10, _⟩ => adm10 m
  | ⟨11, _⟩ => adm11 m
  | ⟨12, _⟩ => (cfg12).toPCfg_adm
  | ⟨_ + 13, h⟩ => absurd h (Nat.not_lt.2 (Nat.le_add_left _ _))

/-- What the regions leave, at those tables. -/
abbrev outsAll : Outs (F := F) := outsOf (admAll m) m
/-- Every pipeline's proof data, at those tables. -/
abbrev pdatsAll := pdatsOf (admAll m) m

/-- At each table region's entry the table buffers hold the admissible contents. -/
theorem hpf_1 (c : Dev nD) (k : Fin 2) : W34 (admAll m) m c (pre1.ref k) = (admAll m 1).1 k :=
  (pre1_at_entry (admAll m) m c k).trans (V33_pre1 m c k)
theorem hpf_2 (c : Dev nD) (k : Fin 4) : W36 (admAll m) m c (pre2.ref k) = (admAll m 2).1 k :=
  (pre2_at_entry (admAll m) m c k).trans (V33_pre2 m c k)
theorem hpf_4 (c : Dev nD) (k : Fin 2) : W39 (admAll m) m c (pre4.ref k) = (admAll m 4).1 k :=
  (pre4_at_entry (admAll m) m c k).trans (V33_pre4 m c k)
theorem hpf_5 (c : Dev nD) (k : Fin 4) : W41 (admAll m) m c (pre5.ref k) = (admAll m 5).1 k :=
  (pre5_at_entry (admAll m) m c k).trans (V33_pre5 m c k)
theorem hpf_7 (c : Dev nD) (k : Fin 2) : W44 (admAll m) m c (pre7.ref k) = (admAll m 7).1 k :=
  (pre7_at_entry (admAll m) m c k).trans (V33_pre7 m c k)
theorem hpf_8 (c : Dev nD) (k : Fin 4) : W46 (admAll m) m c (pre8.ref k) = (admAll m 8).1 k :=
  (pre8_at_entry (admAll m) m c k).trans (V33_pre8 m c k)
theorem hpf_10 (c : Dev nD) (k : Fin 2) : W49 (admAll m) m c (pre10.ref k) = (admAll m 10).1 k :=
  (pre10_at_entry (admAll m) m c k).trans (V33_pre10 m c k)
theorem hpf_11 (c : Dev nD) (k : Fin 4) : W51 (admAll m) m c (pre11.ref k) = (admAll m 11).1 k :=
  (pre11_at_entry (admAll m) m c k).trans (V33_pre11 m c k)

set_option maxHeartbeats 1000000 in
/-- THE RUN. Every weakly fair execution of @main from memory `m` with zero counters terminates; every final memory holds
    each argument as launched, and holds the result buffer `main_v159` at the last valuation of the chain at what the
    thirteen regions leave. -/
theorem run_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_v159) = V55 m (outsAll m) c main_v159) :=
  run_main m ρ (outsOf (admAll m) m) (admAll m) (pdatsOf (admAll m) m)
    (reg0 (admAll m) (V33 m) (pdatsOf (admAll m) m) (pdatsOf_0 (admAll m) m))
      (fun _ => .rfl)
      (fun c => by rw [V34_eq]; exact .rfl)
    (reg1 (admAll m) (fun c b => W34 (admAll m) m c b) (pdatsOf (admAll m) m) (pdatsOf_1 (admAll m) m) (W34 (admAll m) m) (fun _ _ => rfl) (hpf_1 m))
      (fun c => by rw [V34_eq]; exact .rfl)
      (fun c => by rw [V35_eq]; exact .rfl)
    (reg2 (admAll m) (fun c b => W36 (admAll m) m c b) (pdatsOf (admAll m) m) (pdatsOf_2 (admAll m) m) (W36 (admAll m) m) (fun _ _ => rfl) (hpf_2 m))
      (fun c => by rw [V36_eq]; exact .rfl)
      (fun c => by rw [V37_eq]; exact .rfl)
    (reg3 (admAll m) (W38 (admAll m) m) (pdatsOf (admAll m) m) (pdatsOf_3 (admAll m) m))
      (fun c => by rw [V38_eq]; exact .rfl)
      (fun c => by rw [V39_eq]; exact .rfl)
    (reg4 (admAll m) (fun c b => W39 (admAll m) m c b) (pdatsOf (admAll m) m) (pdatsOf_4 (admAll m) m) (W39 (admAll m) m) (fun _ _ => rfl) (hpf_4 m))
      (fun c => by rw [V39_eq]; exact .rfl)
      (fun c => by rw [V40_eq]; exact .rfl)
    (reg5 (admAll m) (fun c b => W41 (admAll m) m c b) (pdatsOf (admAll m) m) (pdatsOf_5 (admAll m) m) (W41 (admAll m) m) (fun _ _ => rfl) (hpf_5 m))
      (fun c => by rw [V41_eq]; exact .rfl)
      (fun c => by rw [V42_eq]; exact .rfl)
    (reg6 (admAll m) (W43 (admAll m) m) (pdatsOf (admAll m) m) (pdatsOf_6 (admAll m) m))
      (fun c => by rw [V43_eq]; exact .rfl)
      (fun c => by rw [V44_eq]; exact .rfl)
    (reg7 (admAll m) (fun c b => W44 (admAll m) m c b) (pdatsOf (admAll m) m) (pdatsOf_7 (admAll m) m) (W44 (admAll m) m) (fun _ _ => rfl) (hpf_7 m))
      (fun c => by rw [V44_eq]; exact .rfl)
      (fun c => by rw [V45_eq]; exact .rfl)
    (reg8 (admAll m) (fun c b => W46 (admAll m) m c b) (pdatsOf (admAll m) m) (pdatsOf_8 (admAll m) m) (W46 (admAll m) m) (fun _ _ => rfl) (hpf_8 m))
      (fun c => by rw [V46_eq]; exact .rfl)
      (fun c => by rw [V47_eq]; exact .rfl)
    (reg9 (admAll m) (W48 (admAll m) m) (pdatsOf (admAll m) m) (pdatsOf_9 (admAll m) m))
      (fun c => by rw [V48_eq]; exact .rfl)
      (fun c => by rw [V49_eq]; exact .rfl)
    (reg10 (admAll m) (fun c b => W49 (admAll m) m c b) (pdatsOf (admAll m) m) (pdatsOf_10 (admAll m) m) (W49 (admAll m) m) (fun _ _ => rfl) (hpf_10 m))
      (fun c => by rw [V49_eq]; exact .rfl)
      (fun c => by rw [V50_eq]; exact .rfl)
    (reg11 (admAll m) (fun c b => W51 (admAll m) m c b) (pdatsOf (admAll m) m) (pdatsOf_11 (admAll m) m) (W51 (admAll m) m) (fun _ _ => rfl) (hpf_11 m))
      (fun c => by rw [V51_eq]; exact .rfl)
      (fun c => by rw [V52_eq]; exact .rfl)
    (reg12 (admAll m) (W53 (admAll m) m) (pdatsOf (admAll m) m) (pdatsOf_12 (admAll m) m))
      (fun c => by rw [V53_eq]; exact .rfl)
      (fun c => by rw [V54_eq]; exact .rfl)

end All

end Cert.KernelIdeal.Hand

end
-- ==== Proof.KI.SharedChains.lean ====
/- The four host chains the kernel's program and the reference share.

   Both programs compute, by the same host operations on the same arguments, the embedded node features h0 (a gather of
   the embedding table at the node words), the edges' source and target words (the two rows of the edge array) and the
   edge weights norm (the degree-normalised edge attributes). The kernel's program holds them in main_v6, main_v8, main_v10
   and main_v41 when its first region is entered; the reference names them val_main_v6, val_main_v13, val_main_v15 and
   val_main_v41 of its arguments. Each is carried as one function of the arguments: the operations are compared by name,
   one stretch of the program at a time, never opened. -/
import proofs.«415143_j42460046688958_3_alg».proof.Proof.KI.RegionsP
import proofs.«415143_j42460046688958_3_alg».proof.Proof.Ref.ReadP
import Idealize.ShloMosaic.Lib.StableHlo.Run

-- decided memberships among the 437 references recurse past the default depth
set_option maxRecDepth 4096
set_option maxHeartbeats 1600000

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-! ## The first host stretch -/

theorem ch_v6 : (V1 m c main_v6 : S100000x128.Idx → Elt F .f32) = Cert.ReferenceIdeal.Read.val_main_v6 (F := F) (m ((c : Thread nD τ).loc main_arg0)) (m ((c : Thread nD τ).loc main_arg3)) := by
  show StableHlo.after hostOps0 (V0 m c) (Proc.devRef .tc main_v6) = _
  after_results_simp
  all_goals rfl
theorem ch_v8 : (V1 m c main_v8 : S625000.Idx → BitVec 32) = Cert.ReferenceIdeal.Read.val_main_v13 (F := F) (m ((c : Thread nD τ).loc main_arg1)) := by
  show StableHlo.after hostOps0 (V0 m c) (Proc.devRef .tc main_v8) = _
  after_results_simp
  all_goals rfl
theorem ch_v10 : (V1 m c main_v10 : S625000.Idx → BitVec 32) = Cert.ReferenceIdeal.Read.val_main_v15 (F := F) (m ((c : Thread nD τ).loc main_arg1)) := by
  show StableHlo.after hostOps0 (V0 m c) (Proc.devRef .tc main_v10) = _
  after_results_simp
  all_goals rfl
theorem ch_v15 : (V1 m c main_v15 : S625000.Idx → Elt F .f32) = Cert.ReferenceIdeal.Read.val_main_v11 (F := F) (m ((c : Thread nD τ).loc main_arg2)) := by
  show StableHlo.after hostOps0 (V0 m c) (Proc.devRef .tc main_v15) = _
  after_results_simp
  all_goals rfl
theorem ch_v18 : (V1 m c main_v18 : S100000.Idx → Elt F .f32) = Cert.ReferenceIdeal.Read.val_main_v18 (F := F) (m ((c : Thread nD τ).loc main_arg1)) (m ((c : Thread nD τ).loc main_arg2)) := by
  show StableHlo.after hostOps0 (V0 m c) (Proc.devRef .tc main_v18) = _
  after_results_simp
  all_goals rfl
theorem ch_v20 : (V1 m c main_v20 : S100000.Idx → BitVec 1) = Cert.ReferenceIdeal.Read.val_main_v20 (F := F) (m ((c : Thread nD τ).loc main_arg1)) (m ((c : Thread nD τ).loc main_arg2)) := by
  show StableHlo.after hostOps0 (V0 m c) (Proc.devRef .tc main_v20) = _
  after_results_simp
  all_goals rfl
theorem ch_v22 : (V1 m c main_v22 : S100000.Idx → BitVec 1) = Cert.ReferenceIdeal.Read.val_main_v22 (F := F) (m ((c : Thread nD τ).loc main_arg1)) (m ((c : Thread nD τ).loc main_arg2)) := by
  show StableHlo.after hostOps0 (V0 m c) (Proc.devRef .tc main_v22) = _
  after_results_simp
  all_goals rfl
theorem ch_cst4 : (V1 m c main_cst_4 : S_.Idx → Elt F .f32) = Cert.ReferenceIdeal.Read.val_main_cst_4 (F := F) := by
  show StableHlo.after hostOps0 (V0 m c) (Proc.devRef .tc main_cst_4) = _
  after_results_simp
  all_goals rfl

/-! ## The degree's reciprocal square root, through the two calls -/

theorem ch_v23 : (V2 m c main_v23 : S100000.Idx → Elt F .f32) = Cert.ReferenceIdeal.Read.val_main_v23 (F := F) (m ((c : Thread nD τ).loc main_arg1)) (m ((c : Thread nD τ).loc main_arg2)) := by
  have h : (V2 m c main_v23 : S100000.Idx → Elt F .f32)
      = select (V1 m c main_v22 : S100000.Idx → BitVec 1) (V1 m c main_v18 : S100000.Idx → Elt F .f32)
          (broadcastInDim S100000 ![] bcast_S_S100000 (id (V1 m c main_cst_4 : S_.Idx → Elt F .f32))) := by
    show StableHlo.after hostOps0_1 (V1 m c) (Proc.devRef .tc main_v23) = _
    generalize V1 m c = W
    after_results_simp
    all_goals rfl
  rw [h, ch_v22 m c, ch_v18 m c, ch_cst4 m c]
  rfl
theorem ch_v24 : (V3 m c main_v24 : S100000.Idx → Elt F .f32) = Cert.ReferenceIdeal.Read.val_main_v24 (F := F) (m ((c : Thread nD τ).loc main_arg1)) (m ((c : Thread nD τ).loc main_arg2)) := by
  have h : (V3 m c main_v24 : S100000.Idx → Elt F .f32) = Host.rsqrt (V2 m c main_v23 : S100000.Idx → Elt F .f32) := by
    show StableHlo.after hostOps0_2 (V2 m c) (Proc.devRef .tc main_v24) = _
    generalize V2 m c = W
    after_results_simp
    all_goals rfl
  rw [h, ch_v23 m c]
  rfl
theorem ch_cst5 : (V3 m c main_cst_5 : S_.Idx → Elt F .f32) = Cert.ReferenceIdeal.Read.val_main_cst_5 (F := F) := by
  show StableHlo.after hostOps0_2 (V2 m c) (Proc.devRef .tc main_cst_5) = _
  generalize V2 m c = W
  after_results_simp
  all_goals rfl
theorem ch_v25 : (V4 m c main_v25 : S100000.Idx → Elt F .f32) = Cert.ReferenceIdeal.Read.val_main_v25 (F := F) (m ((c : Thread nD τ).loc main_arg1)) (m ((c : Thread nD τ).loc main_arg2)) := by
  have h : (V4 m c main_v25 : S100000.Idx → Elt F .f32)
      = select (V3 m c main_v20 : S100000.Idx → BitVec 1) (V3 m c main_v24 : S100000.Idx → Elt F .f32)
          (broadcastInDim S100000 ![] bcast_S_S100000 (id (V3 m c main_cst_5 : S_.Idx → Elt F .f32))) := by
    show StableHlo.after hostOps0_3 (V3 m c) (Proc.devRef .tc main_v25) = _
    generalize V3 m c = W
    after_results_simp
    all_goals rfl
  have h20 : (V3 m c main_v20 : S100000.Idx → BitVec 1) = (V1 m c main_v20 : S100000.Idx → BitVec 1) :=
    (V3_of m c main_v20 (by decide)).trans <| (V2_of m c main_v20 (by decide))
  rw [h, h20, ch_v20 m c, ch_v24 m c, ch_cst5 m c]
  rfl

/-! ## The edge weights -/

theorem ch_v41 : (V5 m c main_v41 : S625000.Idx → Elt F .f32) = Cert.ReferenceIdeal.Read.val_main_v41 (F := F) (m ((c : Thread nD τ).loc main_arg1)) (m ((c : Thread nD τ).loc main_arg2)) := by
  have h8 : (V4 m c main_v8 : S625000.Idx → BitVec 32) = (V1 m c main_v8 : S625000.Idx → BitVec 32) :=
    (V4_of m c main_v8 (by decide)).trans <| (V3_of m c main_v8 (by decide)).trans <| (V2_of m c main_v8 (by decide))
  have h10 : (V4 m c main_v10 : S625000.Idx → BitVec 32) = (V1 m c main_v10 : S625000.Idx → BitVec 32) :=
    (V4_of m c main_v10 (by decide)).trans <| (V3_of m c main_v10 (by decide)).trans <| (V2_of m c main_v10 (by decide))
  have h15 : (V4 m c main_v15 : S625000.Idx → Elt F .f32) = (V1 m c main_v15 : S625000.Idx → Elt F .f32) :=
    (V4_of m c main_v15 (by decide)).trans <| (V3_of m c main_v15 (by decide)).trans <| (V2_of m c main_v15 (by decide))
  have h : (V5 m c main_v41 : S625000.Idx → Elt F .f32)
      = mulf (mulf (Host.gather gather_S100000_S625000x1_S625000_n_0_n_n_0_1_1 (V4 m c main_v25 : S100000.Idx → Elt F .f32)
            (broadcastInDim S625000x1 ![0] bcast_S625000_S625000x1_0
              (select (cmpi .slt (V4 m c main_v8 : S625000.Idx → BitVec 32) (broadcastInDim S625000 ![] bcast_S_S625000 (constantI S_ 32 0#32)))
                (addi (V4 m c main_v8 : S625000.Idx → BitVec 32) (broadcastInDim S625000 ![] bcast_S_S625000 (constantI S_ 32 100000#32)))
                (V4 m c main_v8 : S625000.Idx → BitVec 32))))
          (V4 m c main_v15 : S625000.Idx → Elt F .f32))
        (Host.gather gather_S100000_S625000x1_S625000_n_0_n_n_0_1_1 (V4 m c main_v25 : S100000.Idx → Elt F .f32)
          (broadcastInDim S625000x1 ![0] bcast_S625000_S625000x1_0
            (select (cmpi .slt (V4 m c main_v10 : S625000.Idx → BitVec 32) (broadcastInDim S625000 ![] bcast_S_S625000 (constantI S_ 32 0#32)))
              (addi (V4 m c main_v10 : S625000.Idx → BitVec 32) (broadcastInDim S625000 ![] bcast_S_S625000 (constantI S_ 32 100000#32)))
              (V4 m c main_v10 : S625000.Idx → BitVec 32)))) := by
    show StableHlo.after hostOps0_4 (V4 m c) (Proc.devRef .tc main_v41) = _
    generalize V4 m c = W
    after_results_simp
    all_goals rfl
  rw [h, h8, h10, h15, ch_v8 m c, ch_v10 m c, ch_v15 m c, ch_v25 m c]
  rfl

/-! ## The four chains when the first region is entered -/

/-- The embedded node features. -/
theorem chain_h0 : (V33 m c main_v6 : S100000x128.Idx → Elt F .f32) = Cert.ReferenceIdeal.Read.val_main_v6 (F := F) (m ((c : Thread nD τ).loc main_arg0)) (m ((c : Thread nD τ).loc main_arg3)) :=
  ((V33_of m c main_v6 (by decide)).trans <| (V32_of m c main_v6 (by decide)).trans <| (V31_of m c main_v6 (by decide)).trans <| (V30_of m c main_v6 (by decide)).trans <| (V29_of m c main_v6 (by decide)).trans <| (V28_of m c main_v6 (by decide)).trans <| (V27_of m c main_v6 (by decide)).trans <| (V26_of m c main_v6 (by decide)).trans <| (V25_of m c main_v6 (by decide)).trans <| (V24_of m c main_v6 (by decide)).trans <| (V23_of m c main_v6 (by decide)).trans <| (V22_of m c main_v6 (by decide)).trans <| (V21_of m c main_v6 (by decide)).trans <| (V20_of m c main_v6 (by decide)).trans <| (V19_of m c main_v6 (by decide)).trans <| (V18_of m c main_v6 (by decide)).trans <| (V17_of m c main_v6 (by decide)).trans <| (V16_of m c main_v6 (by decide)).trans <| (V15_of m c main_v6 (by decide)).trans <| (V14_of m c main_v6 (by decide)).trans <| (V13_of m c main_v6 (by decide)).trans <| (V12_of m c main_v6 (by decide)).trans <| (V11_of m c main_v6 (by decide)).trans <| (V10_of m c main_v6 (by decide)).trans <| (V9_of m c main_v6 (by decide)).trans <| (V8_of m c main_v6 (by decide)).trans <| (V7_of m c main_v6 (by decide)).trans <| (V6_of m c main_v6 (by decide)).trans <| (V5_of m c main_v6 (by decide)).trans <| (V4_of m c main_v6 (by decide)).trans <| (V3_of m c main_v6 (by decide)).trans <| (V2_of m c main_v6 (by decide))).trans (ch_v6 m c)
/-- The edges' source words. -/
theorem chain_row : (V33 m c main_v8 : S625000.Idx → BitVec 32) = Cert.ReferenceIdeal.Read.val_main_v13 (F := F) (m ((c : Thread nD τ).loc main_arg1)) :=
  ((V33_of m c main_v8 (by decide)).trans <| (V32_of m c main_v8 (by decide)).trans <| (V31_of m c main_v8 (by decide)).trans <| (V30_of m c main_v8 (by decide)).trans <| (V29_of m c main_v8 (by decide)).trans <| (V28_of m c main_v8 (by decide)).trans <| (V27_of m c main_v8 (by decide)).trans <| (V26_of m c main_v8 (by decide)).trans <| (V25_of m c main_v8 (by decide)).trans <| (V24_of m c main_v8 (by decide)).trans <| (V23_of m c main_v8 (by decide)).trans <| (V22_of m c main_v8 (by decide)).trans <| (V21_of m c main_v8 (by decide)).trans <| (V20_of m c main_v8 (by decide)).trans <| (V19_of m c main_v8 (by decide)).trans <| (V18_of m c main_v8 (by decide)).trans <| (V17_of m c main_v8 (by decide)).trans <| (V16_of m c main_v8 (by decide)).trans <| (V15_of m c main_v8 (by decide)).trans <| (V14_of m c main_v8 (by decide)).trans <| (V13_of m c main_v8 (by decide)).trans <| (V12_of m c main_v8 (by decide)).trans <| (V11_of m c main_v8 (by decide)).trans <| (V10_of m c main_v8 (by decide)).trans <| (V9_of m c main_v8 (by decide)).trans <| (V8_of m c main_v8 (by decide)).trans <| (V7_of m c main_v8 (by decide)).trans <| (V6_of m c main_v8 (by decide)).trans <| (V5_of m c main_v8 (by decide)).trans <| (V4_of m c main_v8 (by decide)).trans <| (V3_of m c main_v8 (by decide)).trans <| (V2_of m c main_v8 (by decide))).trans (ch_v8 m c)
/-- The edges' target words. -/
theorem chain_col : (V33 m c main_v10 : S625000.Idx → BitVec 32) = Cert.ReferenceIdeal.Read.val_main_v15 (F := F) (m ((c : Thread nD τ).loc main_arg1)) :=
  ((V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide)).trans <| (V8_of m c main_v10 (by decide)).trans <| (V7_of m c main_v10 (by decide)).trans <| (V6_of m c main_v10 (by decide)).trans <| (V5_of m c main_v10 (by decide)).trans <| (V4_of m c main_v10 (by decide)).trans <| (V3_of m c main_v10 (by decide)).trans <| (V2_of m c main_v10 (by decide))).trans (ch_v10 m c)
/-- The edge weights. -/
theorem chain_norm : (V33 m c main_v41 : S625000.Idx → Elt F .f32) = Cert.ReferenceIdeal.Read.val_main_v41 (F := F) (m ((c : Thread nD τ).loc main_arg1)) (m ((c : Thread nD τ).loc main_arg2)) :=
  ((V33_of m c main_v41 (by decide)).trans <| (V32_of m c main_v41 (by decide)).trans <| (V31_of m c main_v41 (by decide)).trans <| (V30_of m c main_v41 (by decide)).trans <| (V29_of m c main_v41 (by decide)).trans <| (V28_of m c main_v41 (by decide)).trans <| (V27_of m c main_v41 (by decide)).trans <| (V26_of m c main_v41 (by decide)).trans <| (V25_of m c main_v41 (by decide)).trans <| (V24_of m c main_v41 (by decide)).trans <| (V23_of m c main_v41 (by decide)).trans <| (V22_of m c main_v41 (by decide)).trans <| (V21_of m c main_v41 (by decide)).trans <| (V20_of m c main_v41 (by decide)).trans <| (V19_of m c main_v41 (by decide)).trans <| (V18_of m c main_v41 (by decide)).trans <| (V17_of m c main_v41 (by decide)).trans <| (V16_of m c main_v41 (by decide)).trans <| (V15_of m c main_v41 (by decide)).trans <| (V14_of m c main_v41 (by decide)).trans <| (V13_of m c main_v41 (by decide)).trans <| (V12_of m c main_v41 (by decide)).trans <| (V11_of m c main_v41 (by decide)).trans <| (V10_of m c main_v41 (by decide)).trans <| (V9_of m c main_v41 (by decide)).trans <| (V8_of m c main_v41 (by decide)).trans <| (V7_of m c main_v41 (by decide)).trans <| (V6_of m c main_v41 (by decide))).trans (ch_v41 m c)

end Cert.KernelIdeal.Hand

end
-- ==== Proof.KI.HostSorted.lean ====
import proofs.«415143_j42460046688958_3_alg».proof.Proof.KI.RegionsP
import Idealize.ShloMosaic.Lib.SortFacts
import Idealize.ShloMosaic.Lib.StableHlo.Predicate
import Idealize.ShloMosaic.Lib.ValueIdx
import Idealize.ShloMosaic.Lib.Pipeline.Value

/-!
# The sorted edge arrays

The host pads the edge list `(row, col, norm)` from 625000 to 629760 entries (row 0, column 116000, weight 0 on the
4760 added entries), sorts the padded positions stably by the key `(col / 16000) * 100000 + row`, and reads the three
padded arrays through the sorting permutation. This file states what the three sorted arrays, and the three reshaped
copies the gather and scatter calls stage, hold at an index:

* there is ONE permutation `edgePerm` of the 629760 positions with
  `row_s e = row_pad (edgePerm e)`, `col_s e = col_pad (edgePerm e)`, `norm_s e = norm_pad (edgePerm e)`;
* a padded array at `e` is the edge array at `e` below 625000 and the pad constant from there on;
* `row2 (0, e) = row_s e`, `col2 (0, e) = col_s e`, `norm_col (e, 0) = norm_s e`;
* a property of every word of `row` that `0` also has is a property of every word of `row_s` (so of `row2`): in
  particular "signed in [0, 100000)".

Nothing here depends on HOW the positions are ordered: only that the sort reads its operands through a bijection of
the positions. The permutation is made irreducible once these facts are proved, so that no later step unfolds the sort.
-/

-- decided memberships among the 437 references recurse past the default depth
set_option maxRecDepth 2260

noncomputable section

namespace Cert.KernelIdeal.Hand

open Cert.KernelIdeal.Gen
open Idealize.ShloMosaic Idealize.ShloMosaic.TcCoe
open Idealize.SL.Sem

variable {F : FTy → Type} [FloatOps F]

/-! ## Rank-1 and rank-2 arrays read at an index, at any extent

Stated for a VARIABLE extent: nothing below can be evaluated on the program's 629760 positions. -/

section Generic
variable {α β : Type}

/-- The second result of a two-operand stable sort of rank-1 arrays reads its operand through ONE self-map of the
    positions: `sortedFrom` of the comparator on the pairs of words at two positions. -/
theorem sort2_rank1_snd {n : Nat} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The same at position `e`, with the "sorts before" relation NAMED: any relation that is, position by position, the
    comparator on the pairs of words. (So a certificate can name the relation once and never open it again.) -/
theorem sort2_rank1_snd_of {n : Nat} (cmp : α × β → α × β → BitVec 1)
    (x : (⟨1, ![n]⟩ : Shape).Idx → α) (y : (⟨1, ![n]⟩ : Shape).Idx → β) (before : Fin n → Fin n → Bool)
    (hb : ∀ k k', before k k' = (cmp (x (Shape.Idx.ofFin k), y (Shape.Idx.ofFin k))
      (x (Shape.Idx.ofFin k'), y (Shape.Idx.ofFin k')) == 1#1)) (e : Fin n) :
    (Host.sort2 ⟨1, ![n]⟩ 0 cmp x y).2 (Shape.Idx.ofFin e) = y (Shape.Idx.ofFin (sortedFrom before e)) := by
  rw [sort2_rank1_snd]
  have hfun : (fun k k' => cmp (x (Shape.Idx.ofFin k), y (Shape.Idx.ofFin k))
      (x (Shape.Idx.ofFin k'), y (Shape.Idx.ofFin k')) == 1#1) = before := funext fun k => funext fun k' => (hb k k').symm
  rw [hfun, Shape.Idx.ofFin_zero]

/-- A TAKE THROUGH A TABLE OF POSITIONS. `perm` holds at each position `p` the word of a position `s p` of the
    operand (below 2³¹, so non-negative as a signed word). The index wrap `select (perm < 0) (perm + w) perm` then
    leaves it, the clamp of the take leaves it, and the take reads the operand at `s p`. -/
theorem take_wrapped {N : Nat} (hN : 0 < N) (hN31 : N < 2 ^ 31)
    (d : GatherDims ⟨1, ![N]⟩ ⟨2, ![N, 1]⟩ ⟨1, ![N]⟩)
    (hcoll : d.collapsedSliceDims = [0]) (hob : d.operandBatchingDims = [])
    (hsim : d.startIndexMap = [0]) (hivd : d.indexVectorDim = 1)
    (h₁ : (⟨1, ![N]⟩ : Shape).BroadcastsInDim ⟨2, ![N, 1]⟩ ![0])
    (x : (⟨1, ![N]⟩ : Shape).Idx → α) (perm z w : IVec ⟨1, ![N]⟩ 32) (s : Fin N → Fin N)
    (hperm : ∀ p, perm (Shape.Idx.ofFin p) = BitVec.ofNat 32 (s p).val) (hz : ∀ j, z j = 0#32) (p : Fin N) :
    Host.gather d x (broadcastInDim ⟨2, ![N, 1]⟩ ![0] h₁ (select (cmpi .slt perm z) (addi perm w) perm)) (Shape.Idx.ofFin p)
      = x (Shape.Idx.ofFin (s p)) := by
  refine (StableHlo.Predicate.gather_take d hcoll hob hsim hivd _ _ p hN).trans ?_
  have hs : (s p).val < 2 ^ 31 := lt_trans (s p).isLt hN31
  have hc : IntOp.cmpi .slt (BitVec.ofNat 32 (s p).val) 0#32 = 0#1 := by
    apply ValueIdx.eq_zero_of_ne_one
    intro h1
    have h2 := (StableHlo.Predicate.slt_iff_toNat (a := BitVec.ofNat 32 (s p).val) (b := 0#32)
      (by rw [BitVec.toNat_ofNat]; exact lt_of_le_of_lt (Nat.mod_le _ _) hs) (by decide)).mp h1
    simp at h2
  have hsel : select (cmpi .slt perm z) (addi perm w) perm (Shape.Idx.ofFin p) = BitVec.ofNat 32 (s p).val := by
    show Scalar.select (IntOp.cmpi .slt (perm (Shape.Idx.ofFin p)) (z (Shape.Idx.ofFin p))) _ (perm (Shape.Idx.ofFin p)) = _
    rw [hz, hperm, hc, ValueIdx.select_zero]
  refine congrArg x (congrArg Shape.Idx.ofFin (Fin.ext ?_))
  show min (broadcastInDim ⟨2, ![N, 1]⟩ ![0] h₁ (select (cmpi .slt perm z) (addi perm w) perm)
    (StableHlo.Predicate.ixP p)).toInt.toNat (N - 1) = (s p).val
  rw [StableHlo.Predicate.bcast_col1, hsel, StableHlo.Predicate.toInt_ofNat_small _ hs, Int.toNat_natCast]
  have := (s p).isLt
  omega

/-- A two-piece concatenation of rank-1 arrays at position `e`: the first piece below its extent, the second from
    there on, the first extent less. -/
theorem concat2_apply {n₁ n₂ n : Nat} (hn : n = n₁ + n₂)
    (h : Shape.Concatenates [(⟨1, ![n₁]⟩ : Shape), ⟨1, ![n₂]⟩] ⟨1, ![n]⟩ 0)
    (x₁ : (⟨1, ![n₁]⟩ : Shape).Idx → α) (x₂ : (⟨1, ![n₂]⟩ : Shape).Idx → α) (e : Fin n) :
    concatenate ⟨1, ![n]⟩ 0 [⟨⟨1, ![n₁]⟩, x₁⟩, ⟨⟨1, ![n₂]⟩, x₂⟩] h (Shape.Idx.ofFin e)
      = if he : e.val < n₁ then x₁ (Shape.Idx.ofFin ⟨e.val, he⟩)
        else x₂ (Shape.Idx.ofFin ⟨e.val - n₁, by have := e.isLt; omega⟩) := by
  split
  · next he =>
    exact concatenate_pair_apply_left 0 x₁ x₂ h _ rfl _ (fun b => by
      obtain rfl : b = 0 := Subsingleton.elim _ _
      rfl)
  · next he =>
    exact concatenate_pair_apply_right 0 x₁ x₂ h _ rfl rfl _
      (fun b hb => absurd (Subsingleton.elim _ _) hb)
      (by show e.val - n₁ + n₁ = e.val; omega)

/-- An `[a]` array cast to `[1, a]` reads, at any index, the operand at the index's second coordinate. -/
theorem cast_row_apply {a : ℕ} (x : (⟨1, ![a]⟩ : Shape).Idx → α) (h : (⟨1, ![a]⟩ : Shape).ShapeCasts ⟨2, ![1, a]⟩)
    (j : (⟨2, ![1, a]⟩ : Shape).Idx) : shapeCast ⟨2, ![1, a]⟩ x h j = x (Shape.Idx.ofFin (j 1)) :=
  shapeCast_apply x h j _ (by
    have h0 : (j 0).val = 0 := by have := ValueIdx.idx2_lt0 j; omega
    rw [Shape.rowMajor_val_two, Shape.rowMajor_val_one]
    show (j 1).val = (j 0).val * a + (j 1).val
    rw [h0, Nat.zero_mul, Nat.zero_add])

/-- An `[a]` array cast to `[a, 1]` reads, at any index, the operand at the index's first coordinate. -/
theorem cast_col_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (Shape.Idx.ofFin (j 0)) :=
  shapeCast_apply x h j _ (by
    have h1 : (j 1).val = 0 := by have := ValueIdx.idx2_lt1 j; omega
    rw [Shape.rowMajor_val_two, Shape.rowMajor_val_one]
    show (j 0).val = (j 0).val * 1 + (j 1).val
    rw [h1, Nat.mul_one, Nat.add_zero])

end Generic

/-! ## The host stretches that write these arrays, run from ANY contents `W`

With the contents before the stretch a variable, reading a stretch's result never opens the stretches before it. -/

section Stages
variable (W : Valuation τ sig (Elt F))

/-- The padding stretch: `row_pad = concatenate(row, 4760 × 0)`. -/
theorem stage4_v43 :
    (StableHlo.after hostOps0_4 W (Proc.devRef .tc main_v43) : S629760.Idx → BitVec 32)
      = concatenate S629760 0 [⟨S625000, (W (Proc.devRef .tc main_v8) : S625000.Idx → BitVec 32)⟩,
          ⟨S4760, broadcastInDim S4760 ![] bcast_S_S4760 (constantI S_ 32 0#32)⟩] concatenates_S625000_S4760_S629760_d0 := by
  after_results <;> rfl

/-- `col_pad = concatenate(col, 4760 × 116000)`. -/
theorem stage4_v45 :
    (StableHlo.after hostOps0_4 W (Proc.devRef .tc main_v45) : S629760.Idx → BitVec 32)
      = concatenate S629760 0 [⟨S625000, (W (Proc.devRef .tc main_v10) : S625000.Idx → BitVec 32)⟩,
          ⟨S4760, broadcastInDim S4760 ![] bcast_S_S4760 (constantI S_ 32 116000#32)⟩] concatenates_S625000_S4760_S629760_d0 := by
  after_results <;> rfl

/-- `norm_pad = concatenate(norm, 4760 × 0.0)`, with `norm` the same stretch's own result: both sides open to the
    same term over `W`. -/
theorem stage4_v47 :
    (StableHlo.after hostOps0_4 W (Proc.devRef .tc main_v47) : S629760.Idx → Elt F .f32)
      = concatenate S629760 0 [⟨S625000, (StableHlo.after hostOps0_4 W (Proc.devRef .tc main_v41) : S625000.Idx → Elt F .f32)⟩,
          ⟨S4760, broadcastInDim S4760 ![] bcast_S_S4760 (constant (F := F) S_ .f32 0x00000000#32)⟩] concatenates_S625000_S4760_S629760_d0 := by
  after_results_simp <;> rfl

/-- The argsort stretch: the positions carried through the stable sort of the key. -/
theorem stage7_v52 :
    (StableHlo.after hostOps0_7 W (Proc.devRef .tc main_v52) : S629760.Idx → BitVec 32)
      = (Host.sort2 S629760 0 comparator_i32_i32_d0 (W (Proc.devRef .tc main_v51) : S629760.Idx → BitVec 32)
          (iotaInDim S629760 32 0)).2 := by
  after_results <;> rfl

set_option maxHeartbeats 1600000 in
/-- The three takes of the stretch after the sort, each through the wrapped argsort words. -/
theorem stage8_v59 :
    (StableHlo.after hostOps0_8 W (Proc.devRef .tc main_v59) : S629760.Idx → BitVec 32)
      = Host.gather gather_S629760_S629760x1_S629760_n_0_n_n_0_1_1 (W (Proc.devRef .tc main_v45) : S629760.Idx → BitVec 32)
          (broadcastInDim S629760x1 ![0] bcast_S629760_S629760x1_0
            (select (cmpi .slt (W (Proc.devRef .tc main_v52) : S629760.Idx → BitVec 32)
                (broadcastInDim S629760 ![] bcast_S_S629760 (constantI S_ 32 0#32)))
              (addi (W (Proc.devRef .tc main_v52) : S629760.Idx → BitVec 32)
                (broadcastInDim S629760 ![] bcast_S_S629760 (constantI S_ 32 629760#32)))
              (W (Proc.devRef .tc main_v52) : S629760.Idx → BitVec 32))) := by
  after_results_simp <;> rfl

set_option maxHeartbeats 1600000 in
theorem stage8_v66 :
    (StableHlo.after hostOps0_8 W (Proc.devRef .tc main_v66) : S629760.Idx → BitVec 32)
      = Host.gather gather_S629760_S629760x1_S629760_n_0_n_n_0_1_1 (W (Proc.devRef .tc main_v43) : S629760.Idx → BitVec 32)
          (broadcastInDim S629760x1 ![0] bcast_S629760_S629760x1_0
            (select (cmpi .slt (W (Proc.devRef .tc main_v52) : S629760.Idx → BitVec 32)
                (broadcastInDim S629760 ![] bcast_S_S629760 (constantI S_ 32 0#32)))
              (addi (W (Proc.devRef .tc main_v52) : S629760.Idx → BitVec 32)
                (broadcastInDim S629760 ![] bcast_S_S629760 (constantI S_ 32 629760#32)))
              (W (Proc.devRef .tc main_v52) : S629760.Idx → BitVec 32))) := by
  after_results_simp <;> rfl

set_option maxHeartbeats 1600000 in
theorem stage8_v73 :
    (StableHlo.after hostOps0_8 W (Proc.devRef .tc main_v73) : S629760.Idx → Elt F .f32)
      = Host.gather gather_S629760_S629760x1_S629760_n_0_n_n_0_1_1 (W (Proc.devRef .tc main_v47) : S629760.Idx → Elt F .f32)
          (broadcastInDim S629760x1 ![0] bcast_S629760_S629760x1_0
            (select (cmpi .slt (W (Proc.devRef .tc main_v52) : S629760.Idx → BitVec 32)
                (broadcastInDim S629760 ![] bcast_S_S629760 (constantI S_ 32 0#32)))
              (addi (W (Proc.devRef .tc main_v52) : S629760.Idx → BitVec 32)
                (broadcastInDim S629760 ![] bcast_S_S629760 (constantI S_ 32 629760#32)))
              (W (Proc.devRef .tc main_v52) : S629760.Idx → BitVec 32))) := by
  after_results_simp <;> rfl

/-- The three reshapes the gather and scatter calls stage. -/
theorem stage28_v112 :
    (StableHlo.after hostOps0_28 W (Proc.devRef .tc main_v112) : S1x629760.Idx → BitVec 32)
      = shapeCast S1x629760 (W (Proc.devRef .tc main_v66) : S629760.Idx → BitVec 32) shapeCasts_S629760_S1x629760 := by
  after_results <;> rfl

theorem stage28_v113 :
    (StableHlo.after hostOps0_28 W (Proc.devRef .tc main_v113) : S1x629760.Idx → BitVec 32)
      = shapeCast S1x629760 (W (Proc.devRef .tc main_v59) : S629760.Idx → BitVec 32) shapeCasts_S629760_S1x629760 := by
  after_results <;> rfl

theorem stage28_v114 :
    (StableHlo.after hostOps0_28 W (Proc.devRef .tc main_v114) : S629760x1.Idx → Elt F .f32)
      = shapeCast S629760x1 (W (Proc.devRef .tc main_v73) : S629760.Idx → Elt F .f32) shapeCasts_S629760_S629760x1 := by
  after_results <;> rfl

end Stages

/-! ## The program's arrays -/

variable (m : (ℓ : Loc nD τ sig) → Buf (Elt F) ℓ) (c : Dev nD)

open Lean in
/-- `walk% m c r hi lo : V‹hi› m c r = V‹lo› m c r` for a reference `r` that none of the stretches
    `lo … hi - 1` writes: the contents pass unchanged through each (one decided non-membership per stretch). -/
scoped macro "walk% " m:term:max c:term:max r:term:max hi:num lo:num : term => do
  let mut t ← `(rfl)
  for k in [lo.getNat + 1 : hi.getNat + 1] do
    let id := mkIdent (Name.mkSimple s!"V{k}_of")
    t ← `(Eq.trans ($id $m $c $r (by decide)) $t)
  return t

/-- "Position `k` sorts strictly before position `k'`": the sort's comparator on the key words (and the carried
    positions, which it ignores) at the two positions. -/
def keyBefore : Fin 629760 → Fin 629760 → Bool := fun k k' =>
  comparator_i32_i32_d0
    ((V33 m c main_v51 : S629760.Idx → BitVec 32) (Shape.Idx.ofFin k), iotaInDim S629760 32 0 (Shape.Idx.ofFin k))
    ((V33 m c main_v51 : S629760.Idx → BitVec 32) (Shape.Idx.ofFin k'), iotaInDim S629760 32 0 (Shape.Idx.ofFin k')) == 1#1

/-- The padded position whose edge the stable sort puts at sorted position `e`. -/
def edgeFrom : Fin 629760 → Fin 629760 := sortedFrom (keyBefore m c)

theorem edgeFrom_injective : Function.Injective (edgeFrom m c) := sortedFrom_injective _
theorem edgeFrom_surjective : Function.Surjective (edgeFrom m c) := sortedFrom_surjective _

/-- THE SORTING PERMUTATION of the 629760 padded positions: sorted position ↦ padded position. -/
def edgePerm : Equiv.Perm (Fin 629760) := Equiv.ofBijective (edgeFrom m c) ⟨edgeFrom_injective m c, edgeFrom_surjective m c⟩

theorem edgePerm_apply (e : Fin 629760) : edgePerm m c e = sortedFrom (keyBefore m c) e := by
  unfold edgePerm
  exact Equiv.ofBijective_apply _ _ e

/-- The argsort's word at sorted position `e` is the padded position `edgePerm e`. -/
theorem perm_word (e : Fin 629760) :
    (V33 m c main_v52 : S629760.Idx → BitVec 32) (Shape.Idx.ofFin e) = BitVec.ofNat 32 (edgePerm m c e).val := by
  refine (congrFun (walk% m c main_v52 33 8) _).trans ?_
  refine (congrFun (stage7_v52 (V7 m c)) _).trans ?_
  have hk : (V7 m c main_v51 : S629760.Idx → BitVec 32) = V33 m c main_v51 := (walk% m c main_v51 33 7).symm
  rw [hk, edgePerm_apply]
  exact (sort2_rank1_snd_of comparator_i32_i32_d0 (V33 m c main_v51 : S629760.Idx → BitVec 32) (iotaInDim S629760 32 0)
    (keyBefore m c) (fun k k' => rfl) e).trans (StableHlo.Predicate.iota_apply _)

/-! ### The sorted arrays read the padded ones through the permutation -/

/-- The argsort's words as the stretch after the sort sees them. -/
theorem perm_word8 (p : Fin 629760) :
    (V8 m c main_v52 : S629760.Idx → BitVec 32) (Shape.Idx.ofFin p) = BitVec.ofNat 32 (edgePerm m c p).val :=
  (congrFun (walk% m c main_v52 33 8).symm _).trans (perm_word m c p)

/-- `row_s e = row_pad (edgePerm e)`. -/
theorem row_s_eq (e : Fin 629760) :
    (V33 m c main_v66 : S629760.Idx → BitVec 32) (Shape.Idx.ofFin e)
      = (V33 m c main_v43 : S629760.Idx → BitVec 32) (Shape.Idx.ofFin (edgePerm m c e)) := by
  refine (congrFun (walk% m c main_v66 33 9) _).trans ?_
  refine (congrFun (stage8_v66 (V8 m c)) _).trans ?_
  refine (take_wrapped (N := 629760) (by decide) (by decide) gather_S629760_S629760x1_S629760_n_0_n_n_0_1_1 rfl rfl rfl rfl
    bcast_S629760_S629760x1_0 _ _ _ _ (edgePerm m c) (perm_word8 m c) (fun j => rfl) e).trans ?_
  exact congrFun ((walk% m c main_v43 8 5).trans (walk% m c main_v43 33 5).symm) _

/-- `col_s e = col_pad (edgePerm e)`. -/
theorem col_s_eq (e : Fin 629760) :
    (V33 m c main_v59 : S629760.Idx → BitVec 32) (Shape.Idx.ofFin e)
      = (V33 m c main_v45 : S629760.Idx → BitVec 32) (Shape.Idx.ofFin (edgePerm m c e)) := by
  refine (congrFun (walk% m c main_v59 33 9) _).trans ?_
  refine (congrFun (stage8_v59 (V8 m c)) _).trans ?_
  refine (take_wrapped (N := 629760) (by decide) (by decide) gather_S629760_S629760x1_S629760_n_0_n_n_0_1_1 rfl rfl rfl rfl
    bcast_S629760_S629760x1_0 _ _ _ _ (edgePerm m c) (perm_word8 m c) (fun j => rfl) e).trans ?_
  exact congrFun ((walk% m c main_v45 8 5).trans (walk% m c main_v45 33 5).symm) _

/-- `norm_s e = norm_pad (edgePerm e)`. -/
theorem norm_s_eq (e : Fin 629760) :
    (V33 m c main_v73 : S629760.Idx → Elt F .f32) (Shape.Idx.ofFin e)
      = (V33 m c main_v47 : S629760.Idx → Elt F .f32) (Shape.Idx.ofFin (edgePerm m c e)) := by
  refine (congrFun (walk% m c main_v73 33 9) _).trans ?_
  refine (congrFun (stage8_v73 (V8 m c)) _).trans ?_
  refine (take_wrapped (N := 629760) (by decide) (by decide) gather_S629760_S629760x1_S629760_n_0_n_n_0_1_1 rfl rfl rfl rfl
    bcast_S629760_S629760x1_0 _ _ _ _ (edgePerm m c) (perm_word8 m c) (fun j => rfl) e).trans ?_
  exact congrFun ((walk% m c main_v47 8 5).trans (walk% m c main_v47 33 5).symm) _

/-! ### The padded arrays: the edge array, then the pad constant -/

/-- `row_pad e` is `row e` below 625000 and `0` from there on. -/
theorem row_pad_eq (e : Fin 629760) :
    (V33 m c main_v43 : S629760.Idx → BitVec 32) (Shape.Idx.ofFin e)
      = if h : e.val < 625000 then (V33 m c main_v8 : S625000.Idx → BitVec 32) (Shape.Idx.ofFin ⟨e.val, h⟩) else 0#32 := by
  refine (congrFun (walk% m c main_v43 33 5) _).trans ?_
  refine (congrFun (stage4_v43 (V4 m c)) _).trans ?_
  refine (concat2_apply (n₁ := 625000) (n₂ := 4760) (n := 629760) rfl concatenates_S625000_S4760_S629760_d0 _ _ e).trans ?_
  have h8 : (V4 m c main_v8 : S625000.Idx → BitVec 32) = V33 m c main_v8 :=
    (walk% m c main_v8 4 1).trans (walk% m c main_v8 33 1).symm
  by_cases he : e.val < 625000
  · rw [dif_pos he, dif_pos he]; exact congrFun h8 _
  · rw [dif_neg he, dif_neg he]; rfl

/-- `col_pad e` is `col e` below 625000 and `116000` from there on. -/
theorem col_pad_eq (e : Fin 629760) :
    (V33 m c main_v45 : S629760.Idx → BitVec 32) (Shape.Idx.ofFin e)
      = if h : e.val < 625000 then (V33 m c main_v10 : S625000.Idx → BitVec 32) (Shape.Idx.ofFin ⟨e.val, h⟩) else 116000#32 := by
  refine (congrFun (walk% m c main_v45 33 5) _).trans ?_
  refine (congrFun (stage4_v45 (V4 m c)) _).trans ?_
  refine (concat2_apply (n₁ := 625000) (n₂ := 4760) (n := 629760) rfl concatenates_S625000_S4760_S629760_d0 _ _ e).trans ?_
  have h10 : (V4 m c main_v10 : S625000.Idx → BitVec 32) = V33 m c main_v10 :=
    (walk% m c main_v10 4 1).trans (walk% m c main_v10 33 1).symm
  by_cases he : e.val < 625000
  · rw [dif_pos he, dif_pos he]; exact congrFun h10 _
  · rw [dif_neg he, dif_neg he]; rfl

/-- `norm_pad e` is `norm e` below 625000 and the float zero from there on. -/
theorem norm_pad_eq (e : Fin 629760) :
    (V33 m c main_v47 : S629760.Idx → Elt F .f32) (Shape.Idx.ofFin e)
      = if h : e.val < 625000 then (V33 m c main_v41 : S625000.Idx → Elt F .f32) (Shape.Idx.ofFin ⟨e.val, h⟩)
        else (FloatOps.ofBits .f32 0x00000000#32 : F .f32) := by
  refine (congrFun (walk% m c main_v47 33 5) _).trans ?_
  refine (congrFun (stage4_v47 (V4 m c)) _).trans ?_
  refine (concat2_apply (n₁ := 625000) (n₂ := 4760) (n := 629760) rfl concatenates_S625000_S4760_S629760_d0 _ _ e).trans ?_
  have h41 : (StableHlo.after hostOps0_4 (V4 m c) (Proc.devRef .tc main_v41) : S625000.Idx → Elt F .f32) = V33 m c main_v41 :=
    (walk% m c main_v41 33 5).symm
  by_cases he : e.val < 625000
  · rw [dif_pos he, dif_pos he]; exact congrFun h41 _
  · rw [dif_neg he, dif_neg he]; rfl

/-! ### The reshaped copies the gather and scatter calls stage -/

/-- `row2 (0, e) = row_s e`, at any index of the [1, 629760] array. -/
theorem row2_eq (j : S1x629760.Idx) :
    (V33 m c main_v112 : S1x629760.Idx → BitVec 32) j = (V33 m c main_v66 : S629760.Idx → BitVec 32) (Shape.Idx.ofFin (j 1)) := by
  refine (congrFun (walk% m c main_v112 33 29) _).trans ?_
  refine (congrFun (stage28_v112 (V28 m c)) _).trans ?_
  refine (cast_row_apply _ shapeCasts_S629760_S1x629760 j).trans ?_
  exact congrFun ((walk% m c main_v66 28 9).trans (walk% m c main_v66 33 9).symm) _

/-- `col2 (0, e) = col_s e`, at any index of the [1, 629760] array. -/
theorem col2_eq (j : S1x629760.Idx) :
    (V33 m c main_v113 : S1x629760.Idx → BitVec 32) j = (V33 m c main_v59 : S629760.Idx → BitVec 32) (Shape.Idx.ofFin (j 1)) := by
  refine (congrFun (walk% m c main_v113 33 29) _).trans ?_
  refine (congrFun (stage28_v113 (V28 m c)) _).trans ?_
  refine (cast_row_apply _ shapeCasts_S629760_S1x629760 j).trans ?_
  exact congrFun ((walk% m c main_v59 28 9).trans (walk% m c main_v59 33 9).symm) _

/-- `norm_col (e, 0) = norm_s e`, at any index of the [629760, 1] array. -/
theorem norm_col_eq (j : S629760x1.Idx) :
    (V33 m c main_v114 : S629760x1.Idx → Elt F .f32) j = (V33 m c main_v73 : S629760.Idx → Elt F .f32) (Shape.Idx.ofFin (j 0)) := by
  refine (congrFun (walk% m c main_v114 33 29) _).trans ?_
  refine (congrFun (stage28_v114 (V28 m c)) _).trans ?_
  refine (cast_col_apply _ shapeCasts_S629760_S629760x1 j).trans ?_
  exact congrFun ((walk% m c main_v73 28 9).trans (walk% m c main_v73 33 9).symm) _

/-! ### The same facts at an arbitrary rank-1 index -/

theorem row_s_idx (j : S629760.Idx) :
    (V33 m c main_v66 : S629760.Idx → BitVec 32) j = (V33 m c main_v43 : S629760.Idx → BitVec 32) (Shape.Idx.ofFin (edgePerm m c (j 0))) :=
  (congrArg (V33 m c main_v66 : S629760.Idx → BitVec 32) (Shape.Idx.eq_ofFin j)).trans (row_s_eq m c (j 0))
theorem col_s_idx (j : S629760.Idx) :
    (V33 m c main_v59 : S629760.Idx → BitVec 32) j = (V33 m c main_v45 : S629760.Idx → BitVec 32) (Shape.Idx.ofFin (edgePerm m c (j 0))) :=
  (congrArg (V33 m c main_v59 : S629760.Idx → BitVec 32) (Shape.Idx.eq_ofFin j)).trans (col_s_eq m c (j 0))
theorem norm_s_idx (j : S629760.Idx) :
    (V33 m c main_v73 : S629760.Idx → Elt F .f32) j = (V33 m c main_v47 : S629760.Idx → Elt F .f32) (Shape.Idx.ofFin (edgePerm m c (j 0))) :=
  (congrArg (V33 m c main_v73 : S629760.Idx → Elt F .f32) (Shape.Idx.eq_ofFin j)).trans (norm_s_eq m c (j 0))

/-! ### What every word of `row` has, every word of `row_s` has -/

/-- A property of every word of `row` that the pad word `0` also has holds of every word of `row_s`. -/
theorem row_s_forall (P : BitVec 32 → Prop) (h0 : P 0#32)
    (h : ∀ i : S625000.Idx, P ((V33 m c main_v8 : S625000.Idx → BitVec 32) i)) (j : S629760.Idx) :
    P ((V33 m c main_v66 : S629760.Idx → BitVec 32) j) := by
  rw [row_s_idx m c j, row_pad_eq m c (edgePerm m c (j 0))]
  by_cases he : (edgePerm m c (j 0)).val < 625000
  · rw [dif_pos he]; exact h _
  · rw [dif_neg he]; exact h0

/-- … and of every word of `row2`. -/
theorem row2_forall (P : BitVec 32 → Prop) (h0 : P 0#32)
    (h : ∀ i : S625000.Idx, P ((V33 m c main_v8 : S625000.Idx → BitVec 32) i)) (j : S1x629760.Idx) :
    P ((V33 m c main_v112 : S1x629760.Idx → BitVec 32) j) := by
  rw [row2_eq m c j]
  exact row_s_forall m c P h0 h _

/-- If every word of `row` is signed in [0, 100000) then so is every word of `row_s`. -/
theorem row_s_range
    (h : ∀ i : S625000.Idx, 0 ≤ ((V33 m c main_v8 : S625000.Idx → BitVec 32) i).toInt
      ∧ ((V33 m c main_v8 : S625000.Idx → BitVec 32) i).toInt < 100000) (j : S629760.Idx) :
    0 ≤ ((V33 m c main_v66 : S629760.Idx → BitVec 32) j).toInt ∧ ((V33 m c main_v66 : S629760.Idx → BitVec 32) j).toInt < 100000 :=
  row_s_forall m c (fun w => 0 ≤ w.toInt ∧ w.toInt < 100000) ⟨by decide, by decide⟩ h j

/-- … and every word of `row2`. -/
theorem row2_range
    (h : ∀ i : S625000.Idx, 0 ≤ ((V33 m c main_v8 : S625000.Idx → BitVec 32) i).toInt
      ∧ ((V33 m c main_v8 : S625000.Idx → BitVec 32) i).toInt < 100000) (j : S1x629760.Idx) :
    0 ≤ ((V33 m c main_v112 : S1x629760.Idx → BitVec 32) j).toInt ∧ ((V33 m c main_v112 : S1x629760.Idx → BitVec 32) j).toInt < 100000 :=
  row2_forall m c (fun w => 0 ≤ w.toInt ∧ w.toInt < 100000) ⟨by decide, by decide⟩ h j

attribute [irreducible] keyBefore edgeFrom edgePerm

end Cert.KernelIdeal.Hand

end
-- ==== Proof.Ref.Spec.lean ====
import Idealize.ShloMosaic.PureOps.Ideal
import Idealize.ShloMosaic.PureOps.Ideal.Laws
import Idealize.ShloMosaic.PureOps.Contract
import Idealize.ShloMosaic.Lib.Pipeline.Value
import Idealize.ShloMosaic.Lib.ValueIdx

/-!
# The reference's result, stage by stage

A four-layer graph convolution followed by a three-layer perceptron, over 100000 nodes with 128 features and
625000 edges. Edge `e` goes from node `src e` to node `col e` and carries the weight `nrm e`. With `h0` the nodes'
embedded features, one layer maps the node features `L` to

  `relu (A (L · W) + h0 · RW + b)`,   `(A Z)[n, f] = ∑ over the edges e with col e = n of nrm e · Z[src e, f]`,

and the head is `tanh (relu (relu (relu L₄ · W₁ + b₁) · W₂ + b₂) · W₃ + b₃)`.

Every function here is stated over literal shapes, entry by entry. The edge arrays (`rowv`, `colv` : the edges'
source and target words), the weights `nrm` and the features `h0` are parameters: how a program computes them from
its inputs is not opened here.

The last part reads the dense host operations a program builds these stages from — a plain matrix product, a zero
splat, a row added to every row of a matrix (broadcast in two steps), the maximum with the zero splat, one matrix of a
stack or one row of a table taken by a slice and a reshape — as these functions, for every size.
-/

noncomputable section

open scoped BigOperators

namespace Cert.ReferenceIdeal.Hand

open Idealize.ShloMosaic Idealize.ShloMosaic.ValueIdx

/-- An `[r, c]` array of extended reals. -/
abbrev Mat (r c : Nat) : Type := (⟨2, ![r, c]⟩ : Shape).Idx → EReal
/-- An `[n]` array of extended reals. -/
abbrev Row (n : Nat) : Type := (⟨1, ![n]⟩ : Shape).Idx → EReal
/-- A `[t, r, c]` array of extended reals. -/
abbrev Stack (t r c : Nat) : Type := (⟨3, ![t, r, c]⟩ : Shape).Idx → EReal
/-- An `[n]` array of 32-bit words. -/
abbrev Words (n : Nat) : Type := (⟨1, ![n]⟩ : Shape).Idx → BitVec 32

/-! ## Dense pieces -/

/-- The product `A · W`: entry `(n, f)` is `∑ k, A[n, k] · W[k, f]`. -/
def mm {R K M : Nat} (A : Mat R K) (W : Mat K M) : Mat R M :=
  fun i => ∑ k : Fin K, A (ix2 (⟨(i 0).val, idx2_lt0 i⟩ : Fin R) k) * W (ix2 k (⟨(i 1).val, idx2_lt1 i⟩ : Fin M))

theorem mm_apply {R K M : Nat} (A : Mat R K) (W : Mat K M) (n : Fin R) (f : Fin M) :
    mm A W (ix2 n f) = ∑ k : Fin K, A (ix2 n k) * W (ix2 k f) := rfl

/-- Matrix `t` of a stack of matrices. -/
def slab {T K M : Nat} (W : Stack T K M) (t : Fin T) : Mat K M :=
  fun i => W (ix3 t (⟨(i 0).val, idx2_lt0 i⟩ : Fin K) (⟨(i 1).val, idx2_lt1 i⟩ : Fin M))

theorem slab_apply {T K M : Nat} (W : Stack T K M) (t : Fin T) (k : Fin K) (f : Fin M) :
    slab W t (ix2 k f) = W (ix3 t k f) := rfl

/-- Row `t` of a matrix. -/
def rowOf {T M : Nat} (B : Mat T M) (t : Fin T) : Row M :=
  fun i => B (ix2 t (⟨(i 0).val, (i 0).isLt⟩ : Fin M))

theorem rowOf_apply {T M : Nat} (B : Mat T M) (t : Fin T) (f : Fin M) : rowOf B t (ix1 f) = B (ix2 t f) := rfl

/-- The positive part, entry by entry. -/
def relu {r c : Nat} (A : Mat r c) : Mat r c := fun i => max (A i) 0

theorem relu_apply {r c : Nat} (A : Mat r c) (i : (⟨2, ![r, c]⟩ : Shape).Idx) : relu A i = max (A i) 0 := rfl

/-- An affine layer `A · W + b`, the row `b` added to every row. -/
def dense {R K M : Nat} (A : Mat R K) (W : Mat K M) (b : Row M) : Mat R M :=
  fun i => mm A W i + b (ix1 (⟨(i 1).val, idx2_lt1 i⟩ : Fin M))

theorem dense_apply {R K M : Nat} (A : Mat R K) (W : Mat K M) (b : Row M) (n : Fin R) (f : Fin M) :
    dense A W b (ix2 n f) = mm A W (ix2 n f) + b (ix1 f) := rfl

/-! ## The edges -/

/-- A source word as the indexing reads it: a negative word counts from the end (`+ 100000`). -/
def wrapW (r : BitVec 32) : BitVec 32 := Scalar.select (IntOp.cmpi .slt r 0#32) (IntOp.addi r 100000#32) r

/-- The node edge `e` reads: its source word, wrapped, read signed and clamped into the node range. -/
def src (rowv : Words 625000) (e : Fin 625000) : Fin 100000 :=
  ⟨min (wrapW (rowv (ix1 e))).toInt.toNat (100000 - 1), by omega⟩

/-- Every source word is a node number. -/
def RowOK (rowv : Words 625000) : Prop :=
  ∀ e : Fin 625000, 0 ≤ (rowv (ix1 e)).toInt ∧ (rowv (ix1 e)).toInt < 100000

/-- A word that is not negative is not wrapped. -/
theorem wrapW_of_nonneg {r : BitVec 32} (h : 0 ≤ r.toInt) : wrapW r = r := by
  have hc : IntOp.cmpi .slt r 0#32 = 0#1 := by
    unfold IntOp.cmpi
    have h0 : (0#32 : BitVec 32).toInt = 0 := by decide
    have : r.slt 0#32 = false := by
      simp only [BitVec.slt, h0, decide_eq_false_iff_not, not_lt]; exact h
    rw [this]; rfl
  unfold wrapW
  rw [hc]
  exact select_zero _ _

/-- A word that is signed in `[0, 2 ^ 31)` reads the same unsigned. -/
theorem toInt_toNat_of_nonneg {r : BitVec 32} (h : 0 ≤ r.toInt) : r.toInt.toNat = r.toNat := by
  have hc := BitVec.toInt_eq_toNat_cond r
  have hlt := r.isLt
  split at hc <;> omega

/-- Where the source words are node numbers, the node an edge reads is its source word. -/
theorem src_val {rowv : Words 625000} (h : RowOK rowv) (e : Fin 625000) :
    (src rowv e).val = (rowv (ix1 e)).toNat := by
  obtain ⟨h0, h1⟩ := h e
  show min (wrapW (rowv (ix1 e))).toInt.toNat (100000 - 1) = _
  rw [wrapW_of_nonneg h0, toInt_toNat_of_nonneg h0]
  have := toInt_toNat_of_nonneg h0
  omega

/-- The same, read signed. -/
theorem src_val_int {rowv : Words 625000} (h : RowOK rowv) (e : Fin 625000) :
    ((src rowv e).val : Int) = (rowv (ix1 e)).toInt := by
  obtain ⟨h0, h1⟩ := h e
  rw [src_val h e, ← toInt_toNat_of_nonneg h0]
  omega

/-- What an edge carries: its weight times the features of the node it reads. -/
def scaled (rowv : Words 625000) (nrm : Row 625000) (Z : Mat 100000 128) : Mat 625000 128 :=
  fun j => nrm (ix1 (⟨(j 0).val, idx2_lt0 j⟩ : Fin 625000))
    * Z (ix2 (src rowv (⟨(j 0).val, idx2_lt0 j⟩ : Fin 625000)) (⟨(j 1).val, idx2_lt1 j⟩ : Fin 128))

theorem scaled_apply (rowv : Words 625000) (nrm : Row 625000) (Z : Mat 100000 128) (e : Fin 625000) (f : Fin 128) :
    scaled rowv nrm Z (ix2 e f) = nrm (ix1 e) * Z (ix2 (src rowv e) f) := rfl

/-- The sum, at each node, of what the edges that point at it carry: an edge points at node `n` when its target
    word, read signed, is `n`; an edge whose target word is no node number is counted nowhere. -/
def segsum (colv : Words 625000) (S : Mat 625000 128) : Mat 100000 128 :=
  fun i => ∑ e ∈ Finset.univ.filter (fun e : Fin 625000 => (colv (ix1 e)).toInt = ((i 0).val : Int)),
    S (ix2 e (⟨(i 1).val, idx2_lt1 i⟩ : Fin 128))

theorem segsum_apply (colv : Words 625000) (S : Mat 625000 128) (n : Fin 100000) (f : Fin 128) :
    segsum colv S (ix2 n f)
      = ∑ e ∈ Finset.univ.filter (fun e : Fin 625000 => (colv (ix1 e)).toInt = (n.val : Int)), S (ix2 e f) := rfl

/-- The aggregation `A Z`. -/
def agg (rowv colv : Words 625000) (nrm : Row 625000) (Z : Mat 100000 128) : Mat 100000 128 :=
  segsum colv (scaled rowv nrm Z)

theorem agg_apply (rowv colv : Words 625000) (nrm : Row 625000) (Z : Mat 100000 128) (n : Fin 100000) (f : Fin 128) :
    agg rowv colv nrm Z (ix2 n f)
      = ∑ e ∈ Finset.univ.filter (fun e : Fin 625000 => (colv (ix1 e)).toInt = (n.val : Int)),
          nrm (ix1 e) * Z (ix2 (src rowv e) f) := rfl

/-! ## A layer, the four layers, the head -/

/-- The end of a layer: the aggregated edge values plus `h0 · RW` plus the bias, then the positive part. -/
def combine (colv : Words 625000) (S : Mat 625000 128) (h0 : Mat 100000 128) (RW : Mat 128 128) (b : Row 128) :
    Mat 100000 128 :=
  fun i => max (segsum colv S i + mm h0 RW i + b (ix1 (⟨(i 1).val, idx2_lt1 i⟩ : Fin 128))) 0

theorem combine_apply (colv : Words 625000) (S : Mat 625000 128) (h0 : Mat 100000 128) (RW : Mat 128 128) (b : Row 128)
    (n : Fin 100000) (f : Fin 128) :
    combine colv S h0 RW b (ix2 n f) = max (segsum colv S (ix2 n f) + mm h0 RW (ix2 n f) + b (ix1 f)) 0 := rfl

/-- One layer: `relu (A (L · W) + h0 · RW + b)`. -/
def layer (rowv colv : Words 625000) (nrm : Row 625000) (h0 : Mat 100000 128) (W RW : Mat 128 128) (b : Row 128)
    (L : Mat 100000 128) : Mat 100000 128 :=
  combine colv (scaled rowv nrm (mm L W)) h0 RW b

theorem layer_apply (rowv colv : Words 625000) (nrm : Row 625000) (h0 : Mat 100000 128) (W RW : Mat 128 128)
    (b : Row 128) (L : Mat 100000 128) (n : Fin 100000) (f : Fin 128) :
    layer rowv colv nrm h0 W RW b L (ix2 n f)
      = max (agg rowv colv nrm (mm L W) (ix2 n f) + mm h0 RW (ix2 n f) + b (ix1 f)) 0 := rfl

/-- The four layers, from `h0`: the first with `W₀`, the next three with the stack `Ws`; layer `t` with `RWs[t]`, `Bs[t]`. -/
def layers (rowv colv : Words 625000) (nrm : Row 625000) (h0 : Mat 100000 128) (W₀ : Mat 128 128)
    (Ws : Stack 3 128 128) (RWs : Stack 4 128 128) (Bs : Mat 4 128) : Mat 100000 128 :=
  layer rowv colv nrm h0 (slab Ws 2) (slab RWs 3) (rowOf Bs 3)
    (layer rowv colv nrm h0 (slab Ws 1) (slab RWs 2) (rowOf Bs 2)
      (layer rowv colv nrm h0 (slab Ws 0) (slab RWs 1) (rowOf Bs 1)
        (layer rowv colv nrm h0 W₀ (slab RWs 0) (rowOf Bs 0) h0)))

/-- The head before its last function: three affine layers, the positive part before each. -/
def headPre (L : Mat 100000 128) (W₁ : Mat 128 128) (b₁ : Row 128) (W₂ : Mat 128 64) (b₂ : Row 64)
    (W₃ : Mat 64 32) (b₃ : Row 32) : Mat 100000 32 :=
  dense (relu (dense (relu (dense (relu L) W₁ b₁)) W₂ b₂)) W₃ b₃

/-- The result: the hyperbolic tangent of the head over the four layers. -/
def refOutOf (rowv colv : Words 625000) (nrm : Row 625000) (h0 : Mat 100000 128) (W₀ : Mat 128 128)
    (Ws : Stack 3 128 128) (RWs : Stack 4 128 128) (Bs : Mat 4 128) (W₁ : Mat 128 128) (b₁ : Row 128)
    (W₂ : Mat 128 64) (b₂ : Row 64) (W₃ : Mat 64 32) (b₃ : Row 32) : Mat 100000 32 :=
  fun i => FloatOps.hostUnary (F := Ideal) (φ := .f32) .tanh
    (headPre (layers rowv colv nrm h0 W₀ Ws RWs Bs) W₁ b₁ W₂ b₂ W₃ b₃ i)

/-! # The dense host operations are these functions -/

/-! ## The plain product -/

section Plain
variable {R K M : Nat}

theorem plain_lhs0 (i : (⟨2, ![R, M]⟩ : Shape).Idx) (q : (DotDims.plain R K M).contr.Idx) :
    ((DotDims.plain R K M).lhsIdx i q 0).val = (i 0).val := by
  unfold DotDims.lhsIdx
  rw [dif_neg (show ¬(0 : Fin 2) ∈ (DotDims.plain R K M).lhsBatch from List.not_mem_nil),
    dif_pos (show (0 : Fin 2) ∈ (DotDims.plain R K M).lhsNonContracting from List.mem_singleton.mpr rfl)]
  rfl

theorem plain_rhs1 (i : (⟨2, ![R, M]⟩ : Shape).Idx) (q : (DotDims.plain R K M).contr.Idx) :
    ((DotDims.plain R K M).rhsIdx i q 1).val = (i 1).val := by
  unfold DotDims.rhsIdx
  rw [dif_neg (show ¬(1 : Fin 2) ∈ (DotDims.plain R K M).rhsBatch from List.not_mem_nil),
    dif_pos (show (1 : Fin 2) ∈ (DotDims.plain R K M).rhsNonContracting from List.mem_singleton.mpr rfl)]
  rfl

/-- The host's plain product `[R, K] · [K, M]` at the extended reals is `mm`: the contraction index is its one
    coordinate `k`, the left operand is read at `(row, k)`, the right at `(k, column)`. -/
theorem plainDot_eq_mm (A : FVec Ideal ⟨2, ![R, K]⟩ .f32) (W : FVec Ideal ⟨2, ![K, M]⟩ .f32) :
    Host.dotGeneral (DotDims.plain R K M) none A W = mm (R := R) (K := K) (M := M) A W := by
  funext i
  simp only [Host.dotGeneral]
  rw [Ideal.dotGeneral_apply, ← Equiv.sum_comp (contrEquiv1 (DotDims.plain R K M) K rfl rfl).symm]
  refine (Finset.sum_congr rfl fun k _ => ?_ : _ = mm (R := R) (K := K) (M := M) A W i)
  have hk := contrEquiv1_symm_val (DotDims.plain R K M) K rfl rfl k
  have el : (DotDims.plain R K M).lhsIdx i ((contrEquiv1 (DotDims.plain R K M) K rfl rfl).symm k)
      = ix2 (⟨(i 0).val, idx2_lt0 i⟩ : Fin R) k := funext fun a => Fin.ext (by
    match a with
    | ⟨0, _⟩ => exact plain_lhs0 _ _
    | ⟨1, _⟩ => exact ((DotDims.plain R K M).lhsIdx_val_of_single rfl i _).trans hk)
  have er : (DotDims.plain R K M).rhsIdx i ((contrEquiv1 (DotDims.plain R K M) K rfl rfl).symm k)
      = ix2 k (⟨(i 1).val, idx2_lt1 i⟩ : Fin M) := funext fun a => Fin.ext (by
    match a with
    | ⟨0, _⟩ => exact ((DotDims.plain R K M).rhsIdx_val_of_single rfl i _).trans hk
    | ⟨1, _⟩ => exact plain_rhs1 _ _)
  rw [el, er]

end Plain

/-! ## Splats and broadcasts -/

/-- The splat of the zero word is `0` everywhere. -/
theorem zeroSplat_apply {s : Shape} (h : (⟨0, ![]⟩ : Shape).BroadcastsInDim s ![]) (i : s.Idx) :
    broadcastInDim s ![] h (constant (F := Ideal) ⟨0, ![]⟩ .f32 0x00000000#32) i = 0 := by
  rw [broadcastInDim_apply _ h _ i (fun a => a.elim0) (fun a => a.elim0)]
  exact Ideal.ofBits_zero_f32

/-- The maximum with the zero splat is the positive part. -/
theorem maxZero_eq_relu {R M : Nat} (h : (⟨0, ![]⟩ : Shape).BroadcastsInDim ⟨2, ![R, M]⟩ ![])
    (A : FVec Ideal ⟨2, ![R, M]⟩ .f32) :
    maximumf A (broadcastInDim ⟨2, ![R, M]⟩ ![] h (constant (F := Ideal) ⟨0, ![]⟩ .f32 0x00000000#32))
      = relu (r := R) (c := M) A := by
  funext i
  show max (A i) (broadcastInDim ⟨2, ![R, M]⟩ ![] h (constant (F := Ideal) ⟨0, ![]⟩ .f32 0x00000000#32) i) = max (A i) 0
  rw [zeroSplat_apply]

/-- A row `b : [M]` broadcast to `[1, M]` and then to `[R, M]` reads `b` at the column. -/
theorem rowSplat_apply {α : Type} {R M : Nat} (hM : M ≠ 1)
    (h1 : (⟨1, ![M]⟩ : Shape).BroadcastsInDim ⟨2, ![1, M]⟩ ![1])
    (h2 : (⟨2, ![1, M]⟩ : Shape).BroadcastsInDim ⟨2, ![R, M]⟩ ![0, 1])
    (b : (⟨1, ![M]⟩ : Shape).Idx → α) (n : Fin R) (f : Fin M) :
    broadcastInDim ⟨2, ![R, M]⟩ ![0, 1] h2 (broadcastInDim ⟨2, ![1, M]⟩ ![1] h1 b) (ix2 n f) = b (ix1 f) := by
  rw [broadcastInDim_apply _ h2 _ (ix2 n f) (ix2 (0 : Fin 1) f) (fun a => match a with
    | ⟨0, _⟩ => by show 0 = if (1 : Nat) = 1 then 0 else n.val; rw [if_pos rfl]
    | ⟨1, _⟩ => by show f.val = if M = 1 then 0 else f.val; rw [if_neg hM])]
  exact broadcastInDim_apply _ h1 b (ix2 (0 : Fin 1) f) (ix1 f) (fun a => match a with
    | ⟨0, _⟩ => by show f.val = if M = 1 then 0 else f.val; rw [if_neg hM])

/-- The plain product plus a broadcast row is the affine layer `dense`. -/
theorem dotBias_eq_dense {R K M : Nat} (hM : M ≠ 1)
    (h1 : (⟨1, ![M]⟩ : Shape).BroadcastsInDim ⟨2, ![1, M]⟩ ![1])
    (h2 : (⟨2, ![1, M]⟩ : Shape).BroadcastsInDim ⟨2, ![R, M]⟩ ![0, 1])
    (A : FVec Ideal ⟨2, ![R, K]⟩ .f32) (W : FVec Ideal ⟨2, ![K, M]⟩ .f32) (b : FVec Ideal ⟨1, ![M]⟩ .f32) :
    addf (Host.dotGeneral (DotDims.plain R K M) none A W)
        (broadcastInDim ⟨2, ![R, M]⟩ ![0, 1] h2 (broadcastInDim ⟨2, ![1, M]⟩ ![1] h1 b))
      = dense (R := R) (K := K) (M := M) A W b := by
  funext i
  obtain ⟨n, f, rfl⟩ : ∃ (n : Fin R) (f : Fin M), i = ix2 n f := ⟨i 0, i 1, eq_ix2 i⟩
  show Host.dotGeneral (DotDims.plain R K M) none A W (ix2 n f)
      + broadcastInDim ⟨2, ![R, M]⟩ ![0, 1] h2 (broadcastInDim ⟨2, ![1, M]⟩ ![1] h1 b) (ix2 n f) = _
  rw [plainDot_eq_mm, rowSplat_apply hM]
  rfl

/-! ## One matrix of a stack, one row of a table -/

/-- Matrix `t` of a stack `[T, K, M]`, taken as the slice `[t : t + 1]` reshaped to `[K, M]`, is `slab`. -/
theorem sliceCast_eq_slab {T K M : Nat} (t : Fin T) (x : Stack T K M)
    (hs : (⟨3, ![T, K, M]⟩ : Shape).Slices ![t.val, 0, 0] ⟨3, ![1, K, M]⟩)
    (hc : (⟨3, ![1, K, M]⟩ : Shape).ShapeCasts ⟨2, ![K, M]⟩) :
    shapeCast ⟨2, ![K, M]⟩ (extractStridedSlice ⟨3, ![1, K, M]⟩ ![t.val, 0, 0] x hs) hc = slab x t := by
  funext i
  obtain ⟨k, f, rfl⟩ : ∃ (k : Fin K) (f : Fin M), i = ix2 k f := ⟨i 0, i 1, eq_ix2 i⟩
  refine (shapeCast_apply _ hc (ix2 k f) (ix3 (0 : Fin 1) k f) ?_).trans
    (extractStridedSlice_apply ![t.val, 0, 0] x hs (ix3 (0 : Fin 1) k f) (ix3 t k f) (fun a => match a with
      | ⟨0, _⟩ => by show t.val = t.val + 0; omega
      | ⟨1, _⟩ => by show k.val = 0 + k.val; omega
      | ⟨2, _⟩ => by show f.val = 0 + f.val; omega))
  rewrite [Shape.rowMajor_val_three, Shape.rowMajor_val_two]
  show (0 * K + k.val) * M + f.val = k.val * M + f.val
  rw [Nat.zero_mul, Nat.zero_add]

/-- Row `t` of a table `[T, M]`, taken as the slice `[t : t + 1]` reshaped to `[M]`, is `rowOf`. -/
theorem sliceCast_eq_rowOf {T M : Nat} (t : Fin T) (x : Mat T M)
    (hs : (⟨2, ![T, M]⟩ : Shape).Slices ![t.val, 0] ⟨2, ![1, M]⟩)
    (hc : (⟨2, ![1, M]⟩ : Shape).ShapeCasts ⟨1, ![M]⟩) :
    shapeCast ⟨1, ![M]⟩ (extractStridedSlice ⟨2, ![1, M]⟩ ![t.val, 0] x hs) hc = rowOf x t := by
  funext i
  obtain ⟨f, rfl⟩ : ∃ (f : Fin M), i = ix1 f := ⟨i 0, eq_ix1 i⟩
  refine (shapeCast_apply _ hc (ix1 f) (ix2 (0 : Fin 1) f) ?_).trans
    (extractStridedSlice_apply ![t.val, 0] x hs (ix2 (0 : Fin 1) f) (ix2 t f) (fun a => match a with
      | ⟨0, _⟩ => by show t.val = t.val + 0; omega
      | ⟨1, _⟩ => by show f.val = 0 + f.val; omega))
  rewrite [Shape.rowMajor_val_two, Shape.rowMajor_val_one]
  show 0 * M + f.val = f.val
  rw [Nat.zero_mul, Nat.zero_add]

end Cert.ReferenceIdeal.Hand

end
-- ==== Proof.Math.LibOneHot.lean ====
/-
  One-hot contractions over the extended reals.

  A one-hot vector `δ` (the value `1` at one index `r`, `0` elsewhere) contracted against any vector `x` picks out
  `x r`: in `EReal` the products `0 * x n` vanish even when `x n` is `⊤` or `⊥`, and adding `0` changes nothing, so
  no finiteness of `x` is needed. The file states this for a finite set of an arbitrary index type, for a whole finite
  type, and for a BLOCK `{off + k | k < B}` of the naturals (both as a sum over `Finset.range B` and over `Fin B`);
  then for an accumulator folded over blocks `j = 0 … J-1` that is reset at `j = 0` and adds block `j`'s contraction
  only when a gate admits `j` (the gather form: the result is `x r` when the block holding `r` is admitted, `0` when no
  admitted block holds `r`; and the scatter form: the result is the flat sum over all `J * B` positions when every
  block holding a non-zero term is admitted). Last, the one-hot entry in the form a vector program produces it: a
  one-bit equality test, zero-extended to 32 bits and converted to a float, is `1` or `0`.
-/
import Mathlib.Data.EReal.Inv
import Mathlib.Algebra.BigOperators.Group.Finset.Basic
import Mathlib.Algebra.BigOperators.Fin
import Mathlib.Algebra.Ring.Defs
import Idealize.ShloMosaic.PureOps.Ideal

open scoped BigOperators

namespace Cert.Math

/-! ## (A) The one-hot contraction -/

/-- ONE-HOT CONTRACTION over a finite set `s` of any index type: if `δ` is `1` at `r` and `0` at every other index of
    `s`, then `∑ n ∈ s, δ n * x n` is `x r` when `r ∈ s` and `0` when `r` lies outside `s`. No finiteness of `x`. -/
theorem sum_oneHot_mul_of {ι : Type*} [DecidableEq ι] (s : Finset ι) (δ x : ι → EReal) (r : ι)
    (h1 : δ r = 1) (h0 : ∀ n ∈ s, n ≠ r → δ n = 0) :
    ∑ n ∈ s, δ n * x n = if r ∈ s then x r else 0 := by
  by_cases hr : r ∈ s
  · rw [if_pos hr, Finset.sum_eq_single_of_mem r hr]
    · rw [h1, one_mul]
    · intro n hn hne
      rw [h0 n hn hne, zero_mul]
  · rw [if_neg hr]
    refine Finset.sum_eq_zero ?_
    intro n hn
    have hne : n ≠ r := fun h => hr (h ▸ hn)
    rw [h0 n hn hne, zero_mul]

/-- The same with the one-hot factor on the right. -/
theorem sum_mul_oneHot_of {ι : Type*} [DecidableEq ι] (s : Finset ι) (δ x : ι → EReal) (r : ι)
    (h1 : δ r = 1) (h0 : ∀ n ∈ s, n ≠ r → δ n = 0) :
    ∑ n ∈ s, x n * δ n = if r ∈ s then x r else 0 := by
  rw [Finset.sum_congr rfl (fun n _ => mul_comm (x n) (δ n))]
  exact sum_oneHot_mul_of s δ x r h1 h0

/-- One-hot contraction over a whole finite type, the one-hot written as `if n = r then 1 else 0`. -/
theorem sum_ite_eq_mul {ι : Type*} [Fintype ι] [DecidableEq ι] (r : ι) (x : ι → EReal) :
    ∑ n, (if n = r then (1 : EReal) else 0) * x n = x r := by
  exact (sum_oneHot_mul_of Finset.univ (fun n => if n = r then (1 : EReal) else 0) x r (if_pos rfl)
    (fun n _ hne => if_neg hne)).trans (if_pos (Finset.mem_univ r))

/-- The same with the test written `r = n`. -/
theorem sum_ite_eq_mul' {ι : Type*} [Fintype ι] [DecidableEq ι] (r : ι) (x : ι → EReal) :
    ∑ n, (if r = n then (1 : EReal) else 0) * x n = x r := by
  exact (sum_oneHot_mul_of Finset.univ (fun n => if r = n then (1 : EReal) else 0) x r (if_pos rfl)
    (fun n _ hne => if_neg (fun h => hne h.symm))).trans (if_pos (Finset.mem_univ r))

/-- One-hot contraction over a whole finite type, the one-hot on the right. -/
theorem sum_mul_ite_eq {ι : Type*} [Fintype ι] [DecidableEq ι] (r : ι) (x : ι → EReal) :
    ∑ n, x n * (if n = r then (1 : EReal) else 0) = x r := by
  exact (sum_mul_oneHot_of Finset.univ (fun n => if n = r then (1 : EReal) else 0) x r (if_pos rfl)
    (fun n _ hne => if_neg hne)).trans (if_pos (Finset.mem_univ r))

/-- The same with the test written `r = n`. -/
theorem sum_mul_ite_eq' {ι : Type*} [Fintype ι] [DecidableEq ι] (r : ι) (x : ι → EReal) :
    ∑ n, x n * (if r = n then (1 : EReal) else 0) = x r := by
  exact (sum_mul_oneHot_of Finset.univ (fun n => if r = n then (1 : EReal) else 0) x r (if_pos rfl)
    (fun n _ hne => if_neg (fun h => hne h.symm))).trans (if_pos (Finset.mem_univ r))

/-- One-hot contraction over the BLOCK `{off + k | k < B}` of the naturals (`off = j * B` for block `j` of width `B`):
    `x r` when `r` lies in the block, `0` when it does not. -/
theorem sum_range_block_oneHot_mul (B off r : ℕ) (δ x : ℕ → EReal)
    (h1 : δ r = 1) (h0 : ∀ n, n ≠ r → δ n = 0) :
    ∑ k ∈ Finset.range B, δ (off + k) * x (off + k) = if off ≤ r ∧ r < off + B then x r else 0 := by
  by_cases hr : off ≤ r ∧ r < off + B
  · rw [if_pos hr]
    have hk : r - off ∈ Finset.range B := Finset.mem_range.mpr (by omega)
    rw [Finset.sum_eq_single_of_mem (r - off) hk]
    · have e : off + (r - off) = r := by omega
      rw [e, h1, one_mul]
    · intro k _ hne
      have hne' : off + k ≠ r := by omega
      rw [h0 _ hne', zero_mul]
  · rw [if_neg hr]
    refine Finset.sum_eq_zero ?_
    intro k hk
    have hk' := Finset.mem_range.mp hk
    have hne' : off + k ≠ r := by omega
    rw [h0 _ hne', zero_mul]

/-- The block contraction as a sum over `Fin B`. -/
theorem sum_fin_block_oneHot_mul (B off r : ℕ) (δ x : ℕ → EReal)
    (h1 : δ r = 1) (h0 : ∀ n, n ≠ r → δ n = 0) :
    ∑ k : Fin B, δ (off + k.val) * x (off + k.val) = if off ≤ r ∧ r < off + B then x r else 0 := by
  exact (Finset.sum_range (fun k => δ (off + k) * x (off + k))).symm.trans
    (sum_range_block_oneHot_mul B off r δ x h1 h0)

/-- The block contraction with the one-hot on the right. -/
theorem sum_fin_block_mul_oneHot (B off r : ℕ) (δ x : ℕ → EReal)
    (h1 : δ r = 1) (h0 : ∀ n, n ≠ r → δ n = 0) :
    ∑ k : Fin B, x (off + k.val) * δ (off + k.val) = if off ≤ r ∧ r < off + B then x r else 0 := by
  rw [Finset.sum_congr rfl (fun (k : Fin B) _ => mul_comm (x (off + k.val)) (δ (off + k.val)))]
  exact sum_fin_block_oneHot_mul B off r δ x h1 h0

/-- The block contraction against a vector `y` indexed INSIDE the block (`k : Fin B`): when the one-hot entry at
    `k` tests `off + k = r`, the sum is `y` at the local position `r - off` if `r` lies in the block, else `0`. -/
theorem sum_fin_oneHot_local (B off r : ℕ) (d y : Fin B → EReal)
    (hd : ∀ k : Fin B, d k = if off + k.val = r then 1 else 0) :
    ∑ k : Fin B, d k * y k = if h : off ≤ r ∧ r < off + B then y ⟨r - off, by omega⟩ else 0 := by
  by_cases hr : off ≤ r ∧ r < off + B
  · rw [dif_pos hr]
    have hlt : r - off < B := by omega
    rw [Finset.sum_eq_single_of_mem (⟨r - off, hlt⟩ : Fin B) (Finset.mem_univ _)]
    · have e : off + ((⟨r - off, hlt⟩ : Fin B) : ℕ) = r := by
        show off + (r - off) = r
        omega
      rw [hd, if_pos e, one_mul]
    · intro k _ hne
      have hne' : off + k.val ≠ r := by
        intro h
        apply hne
        apply Fin.ext
        show k.val = r - off
        omega
      rw [hd, if_neg hne', zero_mul]
  · rw [dif_neg hr]
    refine Finset.sum_eq_zero ?_
    intro k _
    have hk := k.isLt
    have hne' : off + k.val ≠ r := by omega
    rw [hd, if_neg hne', zero_mul]

/-! ## Blocks of a range -/

/-- A sum over `J` consecutive blocks of width `B` is the sum over the flat range `J * B`. -/
theorem sum_blocks_eq_sum_flat (f : ℕ → EReal) (J B : ℕ) :
    ∑ j ∈ Finset.range J, ∑ k ∈ Finset.range B, f (j * B + k) = ∑ e ∈ Finset.range (J * B), f e := by
  induction J with
  | zero => rw [Nat.zero_mul, Finset.sum_range_zero, Finset.sum_range_zero]
  | succ J ih =>
    rw [Finset.sum_range_succ, ih, show (J + 1) * B = J * B + B from Nat.succ_mul J B, Finset.sum_range_add]

/-- A GATED sum over blocks is the flat sum when `f` vanishes on every block the gate refuses. -/
theorem sum_gated_blocks_eq_sum_flat (f : ℕ → EReal) (gate : ℕ → Prop) [DecidablePred gate] (J B : ℕ)
    (hz : ∀ j, j < J → ¬ gate j → ∀ k, k < B → f (j * B + k) = 0) :
    ∑ j ∈ Finset.range J, (if gate j then ∑ k ∈ Finset.range B, f (j * B + k) else 0)
      = ∑ e ∈ Finset.range (J * B), f e := by
  rw [← sum_blocks_eq_sum_flat]
  refine Finset.sum_congr rfl ?_
  intro j hj
  have hj' := Finset.mem_range.mp hj
  by_cases hg : gate j
  · rw [if_pos hg]
  · rw [if_neg hg]
    refine (Finset.sum_eq_zero ?_).symm
    intro k hk
    exact hz j hj' hg k (Finset.mem_range.mp hk)

/-- Position `r` lies in block `j` of width `B` exactly when `r / B = j`. -/
theorem block_iff_div {B : ℕ} (hB : 0 < B) (j r : ℕ) : (j * B ≤ r ∧ r < j * B + B) ↔ r / B = j := by
  constructor
  · rintro ⟨h1, h2⟩
    have a : j ≤ r / B := (Nat.le_div_iff_mul_le hB).mpr h1
    have b : r / B < j + 1 := (Nat.div_lt_iff_lt_mul hB).mpr (by rw [Nat.succ_mul]; exact h2)
    omega
  · rintro rfl
    exact ⟨Nat.div_mul_le_self r B, Nat.lt_div_mul_add hB⟩

/-! ## (B), (C) The gated accumulator -/

/-- Adding under a gate: `if g then b + t else b` is `b + (if g then t else 0)`. -/
theorem ite_add_eq_add_ite (g : Prop) [Decidable g] (b t : EReal) :
    (if g then b + t else b) = b + if g then t else 0 := by
  by_cases h : g
  · rw [if_pos h, if_pos h]
  · rw [if_neg h, if_neg h, add_zero]

/-- THE GATED FOLD. An accumulator that at step `j` is first reset to `0` when `j = 0` and then has `term j` added when
    `gate j` holds is, after `J ≥ 1` steps, the sum of the admitted terms; its initial contents `acc 0` do not matter. -/
theorem gated_fold_eq_sum (acc term : ℕ → EReal) (gate : ℕ → Prop) [DecidablePred gate] (J : ℕ) (hJ : 0 < J)
    (hstep : ∀ j, j < J → acc (j + 1) = (if j = 0 then 0 else acc j) + if gate j then term j else 0) :
    acc J = ∑ j ∈ Finset.range J, if gate j then term j else 0 := by
  obtain ⟨m, rfl⟩ : ∃ m, J = m + 1 := ⟨J - 1, by omega⟩
  clear hJ
  induction m with
  | zero =>
    rw [hstep 0 (by omega), if_pos rfl, Finset.sum_range_succ, Finset.sum_range_zero]
  | succ k ih =>
    rw [hstep (k + 1) (by omega), if_neg (by omega), Finset.sum_range_succ _ (k + 1),
      ih (fun j hj => hstep j (by omega))]

/-- The gated fold with the step written as a branch: `if gate j then base + term j else base`. -/
theorem gated_fold_eq_sum' (acc term : ℕ → EReal) (gate : ℕ → Prop) [DecidablePred gate] (J : ℕ) (hJ : 0 < J)
    (hstep : ∀ j, j < J → acc (j + 1) =
      if gate j then (if j = 0 then 0 else acc j) + term j else (if j = 0 then 0 else acc j)) :
    acc J = ∑ j ∈ Finset.range J, if gate j then term j else 0 := by
  refine gated_fold_eq_sum acc term gate J hJ (fun j hj => ?_)
  rw [hstep j hj, ite_add_eq_add_ite]

/-- (C) THE SCATTER FORM. If every admitted step adds its block's sum of `f`, and `f` vanishes on every refused block,
    the accumulator ends as the flat sum of `f` over all `J * B` positions. -/
theorem gated_fold_blocks_eq_sum_flat (acc term f : ℕ → EReal) (gate : ℕ → Prop) [DecidablePred gate]
    (J B : ℕ) (hJ : 0 < J)
    (hstep : ∀ j, j < J → acc (j + 1) = (if j = 0 then 0 else acc j) + if gate j then term j else 0)
    (hterm : ∀ j, j < J → gate j → term j = ∑ k ∈ Finset.range B, f (j * B + k))
    (hz : ∀ j, j < J → ¬ gate j → ∀ k, k < B → f (j * B + k) = 0) :
    acc J = ∑ e ∈ Finset.range (J * B), f e := by
  rw [gated_fold_eq_sum acc term gate J hJ hstep, ← sum_gated_blocks_eq_sum_flat f gate J B hz]
  refine Finset.sum_congr rfl ?_
  intro j hj
  by_cases hg : gate j
  · rw [if_pos hg, if_pos hg, hterm j (Finset.mem_range.mp hj) hg]
  · rw [if_neg hg, if_neg hg]

/-- (C) with the one-hot spelled out: position `e` carries the key `c e`, and the accumulator for key `n` adds
    `[c e = n] * s e` over each admitted block. If the gate admits every block holding some position with key `n`, the
    accumulator ends as `∑ e < J * B, [c e = n] * s e`. -/
theorem gated_scatter_oneHot {κ : Type*} [DecidableEq κ] (acc term s : ℕ → EReal) (c : ℕ → κ) (n : κ)
    (gate : ℕ → Prop) [DecidablePred gate] (J B : ℕ) (hJ : 0 < J)
    (hstep : ∀ j, j < J → acc (j + 1) = (if j = 0 then 0 else acc j) + if gate j then term j else 0)
    (hterm : ∀ j, j < J → gate j →
      term j = ∑ k ∈ Finset.range B, (if c (j * B + k) = n then (1 : EReal) else 0) * s (j * B + k))
    (hg : ∀ j, j < J → ∀ k, k < B → c (j * B + k) = n → gate j) :
    acc J = ∑ e ∈ Finset.range (J * B), (if c e = n then (1 : EReal) else 0) * s e := by
  refine gated_fold_blocks_eq_sum_flat acc term (fun e => (if c e = n then (1 : EReal) else 0) * s e) gate J B hJ
    hstep hterm ?_
  intro j hj hng k hk
  have hne : c (j * B + k) ≠ n := fun h => hng (hg j hj k hk h)
  show (if c (j * B + k) = n then (1 : EReal) else 0) * s (j * B + k) = 0
  rw [if_neg hne, zero_mul]

/-- (C) with the blocks summed over `Fin B` and the result over `Fin (J * B)`. -/
theorem gated_scatter_oneHot_fin {κ : Type*} [DecidableEq κ] (acc term s : ℕ → EReal) (c : ℕ → κ) (n : κ)
    (gate : ℕ → Prop) [DecidablePred gate] (J B : ℕ) (hJ : 0 < J)
    (hstep : ∀ j, j < J → acc (j + 1) = (if j = 0 then 0 else acc j) + if gate j then term j else 0)
    (hterm : ∀ j, j < J → gate j →
      term j = ∑ k : Fin B, (if c (j * B + k.val) = n then (1 : EReal) else 0) * s (j * B + k.val))
    (hg : ∀ j, j < J → ∀ k, k < B → c (j * B + k) = n → gate j) :
    acc J = ∑ e : Fin (J * B), (if c e.val = n then (1 : EReal) else 0) * s e.val := by
  rw [gated_scatter_oneHot acc term s c n gate J B hJ hstep (fun j hj hgj => by
    rw [hterm j hj hgj]
    exact (Finset.sum_range (fun k => (if c (j * B + k) = n then (1 : EReal) else 0) * s (j * B + k))).symm) hg]
  exact Finset.sum_range (fun e => (if c e = n then (1 : EReal) else 0) * s e)

/-- (B) THE GATHER FORM. Each admitted step `j` adds the contraction of a one-hot `δ` (hot at `r`) with `x` over block
    `j`. After `J ≥ 1` steps the accumulator is `x r` if `r < J * B` and the block `r / B` holding `r` is admitted, and
    `0` otherwise. -/
theorem gated_gather_oneHot (acc term δ x : ℕ → EReal) (gate : ℕ → Prop) [DecidablePred gate]
    (J B r : ℕ) (hJ : 0 < J) (hB : 0 < B)
    (hstep : ∀ j, j < J → acc (j + 1) = (if j = 0 then 0 else acc j) + if gate j then term j else 0)
    (hterm : ∀ j, j < J → gate j → term j = ∑ k ∈ Finset.range B, δ (j * B + k) * x (j * B + k))
    (h1 : δ r = 1) (h0 : ∀ n, n ≠ r → δ n = 0) :
    acc J = if r < J * B ∧ gate (r / B) then x r else 0 := by
  rw [gated_fold_eq_sum acc term gate J hJ hstep]
  have hterm' : ∀ j ∈ Finset.range J,
      (if gate j then term j else 0) = if gate j ∧ r / B = j then x r else 0 := by
    intro j hj
    by_cases hgj : gate j
    · rw [if_pos hgj, hterm j (Finset.mem_range.mp hj) hgj, sum_range_block_oneHot_mul B (j * B) r δ x h1 h0]
      by_cases hb : r / B = j
      · rw [if_pos ((block_iff_div hB j r).mpr hb), if_pos ⟨hgj, hb⟩]
      · rw [if_neg (fun h => hb ((block_iff_div hB j r).mp h)), if_neg (fun h => hb h.2)]
    · rw [if_neg hgj, if_neg (fun h => hgj h.1)]
  rw [Finset.sum_congr rfl hterm']
  by_cases hr : r < J * B ∧ gate (r / B)
  · rw [if_pos hr, Finset.sum_eq_single_of_mem (r / B)
      (Finset.mem_range.mpr ((Nat.div_lt_iff_lt_mul hB).mpr hr.1))]
    · rw [if_pos ⟨hr.2, rfl⟩]
    · intro j _ hne
      rw [if_neg (fun h => hne h.2.symm)]
  · rw [if_neg hr]
    refine Finset.sum_eq_zero ?_
    intro j hj
    rw [if_neg]
    rintro ⟨hgj, rfl⟩
    exact hr ⟨(Nat.div_lt_iff_lt_mul hB).mp (Finset.mem_range.mp hj), hgj⟩

/-- (B), the hit: the block holding `r` is admitted, so the accumulator ends as `x r`. -/
theorem gated_gather_oneHot_hit (acc term δ x : ℕ → EReal) (gate : ℕ → Prop) [DecidablePred gate]
    (J B r : ℕ) (hJ : 0 < J) (hB : 0 < B)
    (hstep : ∀ j, j < J → acc (j + 1) = (if j = 0 then 0 else acc j) + if gate j then term j else 0)
    (hterm : ∀ j, j < J → gate j → term j = ∑ k ∈ Finset.range B, δ (j * B + k) * x (j * B + k))
    (h1 : δ r = 1) (h0 : ∀ n, n ≠ r → δ n = 0) (hr : r < J * B) (hg : gate (r / B)) :
    acc J = x r := by
  rw [gated_gather_oneHot acc term δ x gate J B r hJ hB hstep hterm h1 h0, if_pos ⟨hr, hg⟩]

/-- (B), the miss: no admitted block holds `r`, so the accumulator ends as `0`. -/
theorem gated_gather_oneHot_miss (acc term δ x : ℕ → EReal) (gate : ℕ → Prop) [DecidablePred gate]
    (J B r : ℕ) (hJ : 0 < J) (hB : 0 < B)
    (hstep : ∀ j, j < J → acc (j + 1) = (if j = 0 then 0 else acc j) + if gate j then term j else 0)
    (hterm : ∀ j, j < J → gate j → term j = ∑ k ∈ Finset.range B, δ (j * B + k) * x (j * B + k))
    (h1 : δ r = 1) (h0 : ∀ n, n ≠ r → δ n = 0)
    (hm : ∀ j, j < J → gate j → ¬ (j * B ≤ r ∧ r < j * B + B)) :
    acc J = 0 := by
  rw [gated_gather_oneHot acc term δ x gate J B r hJ hB hstep hterm h1 h0, if_neg]
  rintro ⟨hr, hg⟩
  exact hm (r / B) ((Nat.div_lt_iff_lt_mul hB).mpr hr) hg ((block_iff_div hB (r / B) r).mpr rfl)

/-- (B), the hit, with each block summed over `Fin B`. -/
theorem gated_gather_oneHot_hit_fin (acc term δ x : ℕ → EReal) (gate : ℕ → Prop) [DecidablePred gate]
    (J B r : ℕ) (hJ : 0 < J) (hB : 0 < B)
    (hstep : ∀ j, j < J → acc (j + 1) = (if j = 0 then 0 else acc j) + if gate j then term j else 0)
    (hterm : ∀ j, j < J → gate j → term j = ∑ k : Fin B, δ (j * B + k.val) * x (j * B + k.val))
    (h1 : δ r = 1) (h0 : ∀ n, n ≠ r → δ n = 0) (hr : r < J * B) (hg : gate (r / B)) :
    acc J = x r := by
  refine gated_gather_oneHot_hit acc term δ x gate J B r hJ hB hstep (fun j hj hgj => ?_) h1 h0 hr hg
  rw [hterm j hj hgj]
  exact (Finset.sum_range (fun k => δ (j * B + k) * x (j * B + k))).symm

/-- A window index clamped into `[lo, hi]` is the index itself when it lies there. -/
theorem clamp_eq_self {lo hi j : ℕ} (h1 : lo ≤ j) (h2 : j ≤ hi) : min (max j lo) hi = j := by
  omega

/-! ## The one-hot entry as a vector program produces it -/

section Payload
open Idealize.ShloMosaic

/-- A one-bit equality test, zero-extended to 32 bits and converted to a float, is `1` where the words agree and
    `0` where they differ (at the ideal instance the conversion is the integer itself). -/
theorem oneHot_word {w : ℕ} (φ : FTy) (a b : BitVec w) :
    (FloatOps.sitofp (F := Ideal) φ ((IntOp.cmpi .eq a b).setWidth 32) : EReal) = if a = b then 1 else 0 := by
  show ((((IntOp.cmpi .eq a b).setWidth 32).toInt : ℝ) : EReal) = _
  by_cases h : a = b
  · have e1 : IntOp.cmpi .eq a b = 1#1 := by simp [IntOp.cmpi, h]
    have e2 : ((1#1 : BitVec 1).setWidth 32).toInt = 1 := by decide
    rw [e1, e2, if_pos h, Int.cast_one, EReal.coe_one]
  · have hb : (a == b) = false := by
      cases hab : (a == b)
      · rfl
      · exact absurd (eq_of_beq hab) h
    have e1 : IntOp.cmpi .eq a b = 0#1 := by
      show BitVec.ofBool (a == b) = 0#1
      rw [hb]
      rfl
    have e2 : ((0#1 : BitVec 1).setWidth 32).toInt = 0 := by decide
    rw [e1, e2, if_neg h, Int.cast_zero, EReal.coe_zero]

/-- The same with the words compared as naturals. -/
theorem oneHot_word_toNat {w : ℕ} (φ : FTy) (a b : BitVec w) :
    (FloatOps.sitofp (F := Ideal) φ ((IntOp.cmpi .eq a b).setWidth 32) : EReal)
      = if a.toNat = b.toNat then 1 else 0 := by
  rw [oneHot_word]
  by_cases h : a = b
  · rw [if_pos h, if_pos (congrArg BitVec.toNat h)]
  · rw [if_neg h, if_neg (fun e => h (BitVec.eq_of_toNat_eq e))]

/-- The vector form read at an index: `truncf (sitofp (extui (cmpi eq x y)))` at `i` is `1` if `x i = y i`, else `0`
    (a change of float format is the identity at the ideal instance). -/
theorem oneHot_payload_apply {s : Shape} {w : ℕ} (x y : IVec s w) (h32 : 1 < 32) (hb : FTy.bf16.bits < FTy.f32.bits)
    (i : s.Idx) :
    (truncf (F := Ideal) .bf16 (sitofp .f32 (extui 32 (cmpi .eq x y) h32)) hb i : EReal)
      = if x i = y i then 1 else 0 := by
  exact oneHot_word .f32 (x i) (y i)

/-- The word `j * B + k` computed in 32 bits is the natural number itself when that is below `2 ^ 32`. -/
theorem toNat_ofNat_mul_add (j B k : ℕ) (h : j * B + k < 2 ^ 32) :
    (BitVec.ofNat 32 j * BitVec.ofNat 32 B + BitVec.ofNat 32 k).toNat = j * B + k := by
  rw [BitVec.toNat_add, BitVec.toNat_mul, BitVec.toNat_ofNat, BitVec.toNat_ofNat, BitVec.toNat_ofNat,
    ← Nat.mul_mod, ← Nat.add_mod, Nat.mod_eq_of_lt h]

/-- The one-hot entry of block `j`, position `k`: the test of a 32-bit word `a` against `j * B + k` computed in 32 bits
    is `1` exactly when `j * B + k` is the natural number `a` holds. -/
theorem oneHot_word_block (φ : FTy) (a : BitVec 32) (j B k : ℕ) (h : j * B + k < 2 ^ 32) :
    (FloatOps.sitofp (F := Ideal) φ
      ((IntOp.cmpi .eq a (BitVec.ofNat 32 j * BitVec.ofNat 32 B + BitVec.ofNat 32 k)).setWidth 32) : EReal)
      = if j * B + k = a.toNat then 1 else 0 := by
  rw [oneHot_word_toNat, toNat_ofNat_mul_add j B k h]
  by_cases e : a.toNat = j * B + k
  · rw [if_pos e, if_pos e.symm]
  · rw [if_neg e, if_neg (fun h' => e h'.symm)]

end Payload

end Cert.Math
-- ==== Proof.Math.LibPermSum.lean ====
/-
  Re-indexing and bookkeeping for finite sums over the extended reals.

  (D) A sum over a finite type does not change when its index runs through a permutation (or through any injective
  self-map of a finite type, which is a bijection); a sum over `Fin P` of a function that vanishes from position `E`
  on is the sum over `Fin E` (stated for `P = E + Pd` with `Fin.castAdd` / `Fin.natAdd`, for any `E ≤ P` with
  `Fin.castLE`, and for sums over `Finset.range`); sums over `Fin n` and over `Finset.range n` are the same sums.
  (E) Products in `EReal` commute and associate (`EReal` is a commutative monoid with zero), so a one-hot factor can be
  moved across a product; a one-hot factor times `x` is `x` or `0`; and a sum of one-hot-weighted terms is the sum over
  the positions whose key matches. Distributivity is never used: it fails in `EReal`.
-/
import Mathlib.Data.EReal.Inv
import Mathlib.Algebra.BigOperators.Group.Finset.Basic
import Mathlib.Algebra.BigOperators.Fin
import Mathlib.Algebra.Ring.Defs
import Mathlib.Data.Fintype.Card

open scoped BigOperators

namespace Cert.Math

/-! ## (D) Re-indexing -/

/-- A sum over `Fin P` is unchanged when the index runs through a permutation. -/
theorem sum_perm {P : ℕ} (σ : Equiv.Perm (Fin P)) (f : Fin P → EReal) : ∑ e, f (σ e) = ∑ e, f e :=
  Equiv.sum_comp σ f

/-- A sum over a finite type is unchanged when the index runs through a bijection of the type. -/
theorem sum_comp_bijective {α : Type*} [Fintype α] (σ : α → α) (hσ : Function.Bijective σ) (f : α → EReal) :
    ∑ e, f (σ e) = ∑ e, f e :=
  hσ.sum_comp f

/-- An injective self-map of a finite type is a bijection, so the sum is unchanged along it too. -/
theorem sum_comp_injective {α : Type*} [Fintype α] (σ : α → α) (hσ : Function.Injective σ) (f : α → EReal) :
    ∑ e, f (σ e) = ∑ e, f e :=
  (Finite.injective_iff_bijective.mp hσ).sum_comp f

/-- The one-hot-weighted sum for key `n` is unchanged when keys and values are read through the same permutation. -/
theorem sum_oneHot_perm {P : ℕ} {κ : Type*} [DecidableEq κ] (σ : Equiv.Perm (Fin P)) (c : Fin P → κ) (n : κ)
    (s : Fin P → EReal) :
    ∑ e, (if c (σ e) = n then (1 : EReal) else 0) * s (σ e) = ∑ e, (if c e = n then (1 : EReal) else 0) * s e :=
  Equiv.sum_comp σ (fun e => (if c e = n then (1 : EReal) else 0) * s e)

/-- A sum over `Fin n` of a function of the position's value is the sum over `Finset.range n`. -/
theorem sum_fin_eq_sum_range (n : ℕ) (f : ℕ → EReal) : ∑ e : Fin n, f e.val = ∑ e ∈ Finset.range n, f e :=
  (Finset.sum_range f).symm

/-- A sum over `Fin n` as a sum over `Finset.range n`, the function extended by `0` outside. -/
theorem sum_fin_eq_sum_range_dite (n : ℕ) (f : Fin n → EReal) :
    ∑ e : Fin n, f e = ∑ e ∈ Finset.range n, if h : e < n then f ⟨e, h⟩ else 0 := by
  rw [Finset.sum_range (fun e => if h : e < n then f ⟨e, h⟩ else 0)]
  refine Finset.sum_congr rfl ?_
  intro e _
  rw [dif_pos e.isLt]

/-- A sum over a range of a function vanishing from position `E` on is the sum over the first `E` positions. -/
theorem sum_range_of_tail_zero {E P : ℕ} (h : E ≤ P) (f : ℕ → EReal)
    (hz : ∀ e, E ≤ e → e < P → f e = 0) :
    ∑ e ∈ Finset.range P, f e = ∑ e ∈ Finset.range E, f e := by
  refine (Finset.sum_subset (Finset.range_mono h) ?_).symm
  intro e heP heE
  exact hz e (Nat.le_of_not_lt (fun hlt => heE (Finset.mem_range.mpr hlt))) (Finset.mem_range.mp heP)

/-- A sum over `Fin (E + Pd)` of a function vanishing on the last `Pd` positions is the sum over the first `E`. -/
theorem sum_fin_add_of_tail_zero {E Pd : ℕ} (f : Fin (E + Pd) → EReal)
    (hz : ∀ i : Fin Pd, f (Fin.natAdd E i) = 0) :
    ∑ e, f e = ∑ e : Fin E, f (Fin.castAdd Pd e) := by
  rw [Fin.sum_univ_add, Finset.sum_eq_zero (fun i _ => hz i), add_zero]

/-- For any `E ≤ P`: a sum over `Fin P` of a function vanishing from position `E` on is the sum over `Fin E`. -/
theorem sum_fin_castLE_of_tail_zero {E P : ℕ} (h : E ≤ P) (f : Fin P → EReal)
    (hz : ∀ e : Fin P, E ≤ e.val → f e = 0) :
    ∑ e, f e = ∑ e : Fin E, f (Fin.castLE h e) := by
  rw [sum_fin_eq_sum_range_dite P f, sum_fin_eq_sum_range_dite E (fun e => f (Fin.castLE h e)),
    sum_range_of_tail_zero h _ (fun e he hP => by rw [dif_pos hP]; exact hz ⟨e, hP⟩ he)]
  refine Finset.sum_congr rfl ?_
  intro e he
  have heE := Finset.mem_range.mp he
  rw [dif_pos heE, dif_pos (lt_of_lt_of_le heE h)]
  rfl

/-! ## (E) Products and one-hot factors -/

/-- A one-hot factor on the left: `[p] * x` is `x` if `p`, else `0` (also for `x = ⊤` or `⊥`). -/
theorem oneHot_mul (p : Prop) [Decidable p] (x : EReal) : (if p then (1 : EReal) else 0) * x = if p then x else 0 :=
  boole_mul p x

/-- A one-hot factor on the right. -/
theorem mul_oneHot (p : Prop) [Decidable p] (x : EReal) : x * (if p then (1 : EReal) else 0) = if p then x else 0 :=
  mul_boole p x

/-- A one-hot factor moves inside a product past the first factor. -/
theorem oneHot_mul_mul (p : Prop) [Decidable p] (a b : EReal) :
    (if p then (1 : EReal) else 0) * (a * b) = a * ((if p then (1 : EReal) else 0) * b) :=
  mul_left_comm _ a b

/-- The two factors under a one-hot weight commute. -/
theorem oneHot_mul_mul_comm (p : Prop) [Decidable p] (a b : EReal) :
    (if p then (1 : EReal) else 0) * (a * b) = (if p then (1 : EReal) else 0) * (b * a) := by
  rw [mul_comm a b]

/-- A one-hot factor on the right of a product moves to the left. -/
theorem mul_mul_oneHot (p : Prop) [Decidable p] (a b : EReal) :
    a * b * (if p then (1 : EReal) else 0) = (if p then (1 : EReal) else 0) * (a * b) :=
  mul_comm _ _

/-- The one-hot-weighted sum for key `n` over a finite set is the sum over its positions whose key is `n`. -/
theorem sum_oneHot_mul_eq_sum_filter_of {α κ : Type*} [DecidableEq κ] (t : Finset α) (c : α → κ) (n : κ)
    (s : α → EReal) :
    ∑ e ∈ t, (if c e = n then (1 : EReal) else 0) * s e = ∑ e ∈ t.filter (fun e => c e = n), s e := by
  rw [Finset.sum_filter]
  exact Finset.sum_congr rfl (fun e _ => boole_mul _ _)

/-- The one-hot-weighted sum for key `n` over a whole finite type is the sum over the positions whose key is `n`. -/
theorem sum_oneHot_mul_eq_sum_filter {α κ : Type*} [Fintype α] [DecidableEq κ] (c : α → κ) (n : κ) (s : α → EReal) :
    ∑ e, (if c e = n then (1 : EReal) else 0) * s e = ∑ e ∈ Finset.univ.filter (fun e => c e = n), s e :=
  sum_oneHot_mul_eq_sum_filter_of Finset.univ c n s

/-- One-hot-weighted sums agree when the weighted values agree at every position whose key matches. -/
theorem sum_oneHot_mul_congr {α κ : Type*} [DecidableEq κ] (t : Finset α) (c : α → κ) (n : κ) (s s' : α → EReal)
    (h : ∀ e ∈ t, c e = n → s e = s' e) :
    ∑ e ∈ t, (if c e = n then (1 : EReal) else 0) * s e = ∑ e ∈ t, (if c e = n then (1 : EReal) else 0) * s' e := by
  refine Finset.sum_congr rfl ?_
  intro e he
  by_cases hc : c e = n
  · rw [h e he hc]
  · rw [if_neg hc, zero_mul, zero_mul]

end Cert.Math
-- ==== Proof.Math.LayerEq.lean ====
/-
  One message-passing layer computed by one-hot products is the specification's layer.

  The program sorts the padded edge list once and then, per layer, (1) multiplies the node features by a weight matrix,
  (2) gathers, for each sorted edge position, the product's row at the position's source word by a gated sum of one-hot
  products over 125 node blocks of 800 and scales it by the position's weight, (3) scatters the scaled rows to the
  positions' target words by a gated sum of one-hot products over 123 edge blocks of 5120, adds `h0 · RW` and the bias
  and takes the positive part. Given what the sorted arrays hold (the padded edge arrays read through ONE permutation;
  the pads carry source word 0, target word 116000 and weight 0) and that the gates admit every block that holds a
  matching word, the result is `layer` of the specification, entry by entry.
-/
import proofs.«415143_j42460046688958_3_alg».proof.Proof.Ref.Spec
import proofs.«415143_j42460046688958_3_alg».proof.Proof.Math.LibOneHot
import proofs.«415143_j42460046688958_3_alg».proof.Proof.Math.LibPermSum
import Mathlib.Algebra.BigOperators.Group.Finset.Sigma
import Mathlib.Logic.Equiv.Fin.Basic

noncomputable section

open scoped BigOperators

namespace Cert.Math

open Cert.ReferenceIdeal.Hand Idealize.ShloMosaic Idealize.ShloMosaic.ValueIdx

/-! ## The three sums

  (G) A gated sum over 125 blocks of 800 of a one-hot at `r0` against `x` is `x r0` as soon as the gate admits the block
      `r0 / 800` that holds `r0`. (S) A gated sum over 123 blocks of 5120 of `[cn e] * s e` is the flat sum over all 629760
      positions as soon as the gate admits every block holding a position with `cn`. (P) A sum over 629760 positions read
      through a permutation, of a function that vanishes from position 625000 on, is the sum over the first 625000. -/

/-- (G) THE GATHER SUM. -/
theorem gather_collapse (gate : Fin 125 → Prop) [DecidablePred gate] (r0 : ℕ) (hr0 : r0 < 100000) (x : ℕ → EReal)
    (hg : ∀ j : Fin 125, j.val = r0 / 800 → gate j) :
    (∑ j : Fin 125, if gate j then
        ∑ r : Fin 800, (if j.val * 800 + r.val = r0 then (1 : EReal) else 0) * x (j.val * 800 + r.val) else 0) = x r0 := by
  have hin : ∀ j : Fin 125,
      (∑ r : Fin 800, (if j.val * 800 + r.val = r0 then (1 : EReal) else 0) * x (j.val * 800 + r.val))
        = if j.val * 800 ≤ r0 ∧ r0 < j.val * 800 + 800 then x r0 else 0 := fun j =>
    sum_fin_block_oneHot_mul 800 (j.val * 800) r0 (fun n => if n = r0 then (1 : EReal) else 0) x (if_pos rfl)
      (fun n hn => if_neg hn)
  have hj0 : r0 / 800 < 125 := by omega
  rw [Finset.sum_eq_single_of_mem (⟨r0 / 800, hj0⟩ : Fin 125) (Finset.mem_univ _)]
  · rw [if_pos (hg _ rfl), hin, if_pos]
    constructor
    · show r0 / 800 * 800 ≤ r0
      omega
    · show r0 < r0 / 800 * 800 + 800
      omega
  · intro j _ hne
    by_cases hgj : gate j
    · rw [if_pos hgj, hin, if_neg]
      rintro ⟨h1, h2⟩
      apply hne
      apply Fin.ext
      show j.val = r0 / 800
      omega
    · rw [if_neg hgj]

/-- (S) THE SCATTER SUM. -/
theorem scatter_collapse (gate : Fin 123 → Prop) [DecidablePred gate] (cn : Fin 629760 → Prop) [DecidablePred cn]
    (s : Fin 629760 → EReal) (epos : Fin 123 → Fin 5120 → Fin 629760)
    (hepos : ∀ j k, (epos j k).val = j.val * 5120 + k.val)
    (hg : ∀ j k, cn (epos j k) → gate j) :
    (∑ j : Fin 123, if gate j then ∑ k : Fin 5120, (if cn (epos j k) then (1 : EReal) else 0) * s (epos j k) else 0)
      = ∑ e : Fin 629760, (if cn e then (1 : EReal) else 0) * s e := by
  have hdrop : ∀ j : Fin 123,
      (if gate j then ∑ k : Fin 5120, (if cn (epos j k) then (1 : EReal) else 0) * s (epos j k) else 0)
        = ∑ k : Fin 5120, (if cn (epos j k) then (1 : EReal) else 0) * s (epos j k) := by
    intro j
    by_cases hgj : gate j
    · rw [if_pos hgj]
    · rw [if_neg hgj]
      refine (Finset.sum_eq_zero ?_).symm
      intro k _
      rw [if_neg (fun h => hgj (hg j k h)), zero_mul]
  rw [Finset.sum_congr rfl (fun j _ => hdrop j)]
  rw [← Fintype.sum_prod_type' (fun (j : Fin 123) (k : Fin 5120) => (if cn (epos j k) then (1 : EReal) else 0) * s (epos j k))]
  refine Fintype.sum_equiv (finProdFinEquiv (m := 123) (n := 5120)) _ _ (fun p => ?_)
  have he : epos p.1 p.2 = finProdFinEquiv (m := 123) (n := 5120) p := by
    apply Fin.ext
    rw [hepos]
    show p.1.val * 5120 + p.2.val = p.2.val + 5120 * p.1.val
    omega
  rw [he]

/-- (P) THE PERMUTED, PADDED SUM. -/
theorem perm_pad_sum (σ : Equiv.Perm (Fin 629760)) (F : Fin 629760 → EReal) (G : Fin 625000 → EReal)
    (hlo : ∀ (e : Fin 629760) (h : e.val < 625000), F e = G ⟨e.val, h⟩)
    (hhi : ∀ e : Fin 629760, 625000 ≤ e.val → F e = 0) :
    ∑ e, F (σ e) = ∑ e, G e := by
  rw [Equiv.sum_comp σ F, sum_fin_castLE_of_tail_zero (by decide : 625000 ≤ 629760) F hhi]
  refine Finset.sum_congr rfl (fun e _ => ?_)
  exact hlo (Fin.castLE (by decide : 625000 ≤ 629760) e) e.isLt

/-! ## The padded edge arrays -/

/-- The source words padded to 629760 positions by the word `0`. -/
def rowPad (rowv : Words 625000) (e : Fin 629760) : BitVec 32 :=
  if h : e.val < 625000 then rowv (ix1 (⟨e.val, h⟩ : Fin 625000)) else 0#32

/-- The target words padded by the word `116000` (no node number). -/
def colPad (colv : Words 625000) (e : Fin 629760) : BitVec 32 :=
  if h : e.val < 625000 then colv (ix1 (⟨e.val, h⟩ : Fin 625000)) else 116000#32

/-- The edge weights padded by `0`. -/
def nrmPad (nrm : Row 625000) (e : Fin 629760) : EReal :=
  if h : e.val < 625000 then nrm (ix1 (⟨e.val, h⟩ : Fin 625000)) else 0

/-- A word below `2 ^ 31` read unsigned is `n` exactly when read signed it is `n`. -/
theorem toNat_eq_iff_toInt_eq (w : BitVec 32) (n : ℕ) (hn : n < 100000) : w.toNat = n ↔ w.toInt = (n : ℤ) := by
  have hc := BitVec.toInt_eq_toNat_cond w
  have hlt := w.isLt
  split at hc <;> omega

/-- A source word that is a node number is below 100000 read unsigned. -/
theorem toNat_lt_of_rowOK {rowv : Words 625000} (h : RowOK rowv) (e : Fin 625000) : (rowv (ix1 e)).toNat < 100000 := by
  obtain ⟨h0, h1⟩ := h e
  have := toInt_toNat_of_nonneg h0
  omega

/-- Every padded source word is below 100000 read unsigned. -/
theorem rowPad_lt {rowv : Words 625000} (h : RowOK rowv) (e : Fin 629760) : (rowPad rowv e).toNat < 100000 := by
  unfold rowPad
  split
  · exact toNat_lt_of_rowOK h _
  · decide

/-- The edge block of a sorted position is one of the 123. -/
theorem blk_lt (e : Fin 629760) : e.val / 5120 < 123 := by
  have := e.isLt
  omega

/-! ## The layer -/

section Layer

variable (rowv colv : Words 625000) (nrm : Row 625000) (h0 X : Mat 100000 128) (W RW : Mat 128 128) (b : Row 128)
variable (row2 col2 : (⟨2, ![1, 629760]⟩ : Shape).Idx → BitVec 32) (normc : (⟨2, ![629760, 1]⟩ : Shape).Idx → EReal)
variable (bb : (⟨2, ![1, 128]⟩ : Shape).Idx → EReal)
variable (gateG : Fin 123 → Fin 125 → Prop) [∀ i, DecidablePred (gateG i)] (gateS : ℕ → Fin 123 → Prop) [∀ i, DecidablePred (gateS i)]
variable (epos : Fin 123 → Fin 5120 → Fin 629760)
variable (tmp : Mat 100000 128) (scaled : Mat 629760 128) (out : Mat 100000 128)

/-- What the gather leaves at a sorted position: the product's row at the position's source word, times its weight. -/
theorem scaled_eq (hrow : RowOK rowv) (σ : Equiv.Perm (Fin 629760))
    (hrow2 : ∀ e : Fin 629760, row2 (ix2 (0 : Fin 1) e) = rowPad rowv (σ e))
    (hG : ∀ e : Fin 629760, (row2 (ix2 (0 : Fin 1) e)).toNat < 100000 → ∀ j : Fin 125,
      j.val = (row2 (ix2 (0 : Fin 1) e)).toNat / 800 → gateG ⟨e.val / 5120, blk_lt e⟩ j)
    (hjr : ∀ (j : Fin 125) (r : Fin 800), j.val * 800 + r.val < 100000)
    (hscaled : ∀ (e : Fin 629760) (f : Fin 128), scaled (ix2 e f)
      = (∑ j : Fin 125, if gateG ⟨e.val / 5120, blk_lt e⟩ j then
          ∑ r : Fin 800, (if j.val * 800 + r.val = (row2 (ix2 (0 : Fin 1) e)).toNat then (1 : EReal) else 0)
            * tmp (ix2 (⟨j.val * 800 + r.val, hjr j r⟩ : Fin 100000) f) else 0) * normc (ix2 e (0 : Fin 1)))
    (e : Fin 629760) (f : Fin 128) :
    scaled (ix2 e f)
      = tmp (ix2 (⟨(rowPad rowv (σ e)).toNat, rowPad_lt hrow (σ e)⟩ : Fin 100000) f) * normc (ix2 e (0 : Fin 1)) := by
  rw [hscaled e f]
  have hr0 : (row2 (ix2 (0 : Fin 1) e)).toNat < 100000 := by rw [hrow2]; exact rowPad_lt hrow (σ e)
  have hsum := gather_collapse (gateG ⟨e.val / 5120, blk_lt e⟩) (row2 (ix2 (0 : Fin 1) e)).toNat hr0
    (fun n => if h : n < 100000 then tmp (ix2 (⟨n, h⟩ : Fin 100000) f) else 0) (hG e hr0)
  have hd : ∀ (j : Fin 125) (r : Fin 800), tmp (ix2 (⟨j.val * 800 + r.val, hjr j r⟩ : Fin 100000) f)
      = (if h : j.val * 800 + r.val < 100000 then tmp (ix2 (⟨j.val * 800 + r.val, h⟩ : Fin 100000) f) else 0) := fun j r => by
    rw [dif_pos (hjr j r)]
  have hrew : (∑ j : Fin 125, if gateG ⟨e.val / 5120, blk_lt e⟩ j then
        ∑ r : Fin 800, (if j.val * 800 + r.val = (row2 (ix2 (0 : Fin 1) e)).toNat then (1 : EReal) else 0)
          * tmp (ix2 (⟨j.val * 800 + r.val, hjr j r⟩ : Fin 100000) f) else 0)
      = tmp (ix2 (⟨(row2 (ix2 (0 : Fin 1) e)).toNat, hr0⟩ : Fin 100000) f) := by
    refine Eq.trans (Finset.sum_congr rfl (fun j _ => ?_)) (hsum.trans (dif_pos hr0))
    by_cases hg : gateG ⟨e.val / 5120, blk_lt e⟩ j
    · rw [if_pos hg, if_pos hg]
      exact Finset.sum_congr rfl (fun r _ => congrArg
        (fun z : EReal => (if j.val * 800 + r.val = (row2 (ix2 (0 : Fin 1) e)).toNat then (1 : EReal) else 0) * z)
        (hd j r))
    · rw [if_neg hg, if_neg hg]
  rw [hrew]
  refine congrArg (fun i : Fin 100000 => tmp (ix2 i f) * normc (ix2 e (0 : Fin 1))) (Fin.ext ?_)
  show (row2 (ix2 (0 : Fin 1) e)).toNat = (rowPad rowv (σ e)).toNat
  rw [hrow2]

/-- THE LAYER. -/
theorem layer_eq (hrow : RowOK rowv) (σ : Equiv.Perm (Fin 629760))
    (hrow2 : ∀ e : Fin 629760, row2 (ix2 (0 : Fin 1) e) = rowPad rowv (σ e))
    (hcol2 : ∀ e : Fin 629760, col2 (ix2 (0 : Fin 1) e) = colPad colv (σ e))
    (hnormc : ∀ e : Fin 629760, normc (ix2 e (0 : Fin 1)) = nrmPad nrm (σ e))
    (hG : ∀ e : Fin 629760, (row2 (ix2 (0 : Fin 1) e)).toNat < 100000 → ∀ j : Fin 125,
      j.val = (row2 (ix2 (0 : Fin 1) e)).toNat / 800 → gateG ⟨e.val / 5120, blk_lt e⟩ j)
    (hS : ∀ e : Fin 629760, (col2 (ix2 (0 : Fin 1) e)).toNat < 100000 → ∀ j : Fin 123,
      j.val = e.val / 5120 → gateS ((col2 (ix2 (0 : Fin 1) e)).toNat / 2000) j)
    (hepos : ∀ j k, (epos j k).val = j.val * 5120 + k.val)
    (hb : ∀ f : Fin 128, bb (ix2 (0 : Fin 1) f) = b (ix1 f))
    (htmp : ∀ (n : Fin 100000) (f : Fin 128), tmp (ix2 n f) = ∑ k : Fin 128, X (ix2 n k) * W (ix2 k f))
    (hjr : ∀ (j : Fin 125) (r : Fin 800), j.val * 800 + r.val < 100000)
    (hscaled : ∀ (e : Fin 629760) (f : Fin 128), scaled (ix2 e f)
      = (∑ j : Fin 125, if gateG ⟨e.val / 5120, blk_lt e⟩ j then
          ∑ r : Fin 800, (if j.val * 800 + r.val = (row2 (ix2 (0 : Fin 1) e)).toNat then (1 : EReal) else 0)
            * tmp (ix2 (⟨j.val * 800 + r.val, hjr j r⟩ : Fin 100000) f) else 0) * normc (ix2 e (0 : Fin 1)))
    (hout : ∀ (n : Fin 100000) (f : Fin 128), out (ix2 n f)
      = max ((∑ j : Fin 123, if gateS (n.val / 2000) j then
            ∑ k : Fin 5120, (if (col2 (ix2 (0 : Fin 1) (epos j k))).toNat = n.val then (1 : EReal) else 0)
              * scaled (ix2 (epos j k) f) else 0)
          + ∑ k : Fin 128, h0 (ix2 n k) * RW (ix2 k f) + bb (ix2 (0 : Fin 1) f)) 0) :
    out = layer rowv colv nrm h0 W RW b X := by
  funext i
  obtain ⟨n, f, rfl⟩ : ∃ (n : Fin 100000) (f : Fin 128), i = ix2 n f := ⟨i 0, i 1, eq_ix2 i⟩
  rw [hout n f, layer_apply, agg_apply, mm_apply, hb f]
  refine congrArg (fun z : EReal => max (z + (∑ k : Fin 128, h0 (ix2 n k) * RW (ix2 k f)) + b (ix1 f)) 0) ?_
  -- the gated block sum is the flat sum over the sorted positions
  rw [scatter_collapse (gateS (n.val / 2000)) (fun e => (col2 (ix2 (0 : Fin 1) e)).toNat = n.val)
    (fun e => scaled (ix2 e f)) epos hepos (fun j k hc => by
      have hlt : (col2 (ix2 (0 : Fin 1) (epos j k))).toNat < 100000 := by rw [hc]; exact n.isLt
      have hj : j.val = (epos j k).val / 5120 := by rw [hepos]; have := k.isLt; omega
      have := hS (epos j k) hlt j hj
      rwa [hc] at this)]
  -- each sorted position carries the product's row at its source word times its weight; read through the permutation
  let F : Fin 629760 → EReal := fun e' => (if (colPad colv e').toNat = n.val then (1 : EReal) else 0)
    * (tmp (ix2 (⟨(rowPad rowv e').toNat, rowPad_lt hrow e'⟩ : Fin 100000) f) * nrmPad nrm e')
  let G : Fin 625000 → EReal := fun e => (if (colv (ix1 e)).toNat = n.val then (1 : EReal) else 0)
    * (tmp (ix2 (⟨(rowv (ix1 e)).toNat, toNat_lt_of_rowOK hrow e⟩ : Fin 100000) f) * nrm (ix1 e))
  have hF : ∀ e : Fin 629760, (if (col2 (ix2 (0 : Fin 1) e)).toNat = n.val then (1 : EReal) else 0) * scaled (ix2 e f)
      = F (σ e) := fun e => by
    show _ = (if (colPad colv (σ e)).toNat = n.val then (1 : EReal) else 0)
      * (tmp (ix2 (⟨(rowPad rowv (σ e)).toNat, rowPad_lt hrow (σ e)⟩ : Fin 100000) f) * nrmPad nrm (σ e))
    rw [scaled_eq rowv row2 normc gateG tmp scaled hrow σ hrow2 hG hjr hscaled e f, hcol2 e, hnormc e]
  have hlo : ∀ (e : Fin 629760) (h : e.val < 625000), F e = G ⟨e.val, h⟩ := fun e h => by
    show (if (colPad colv e).toNat = n.val then (1 : EReal) else 0)
        * (tmp (ix2 (⟨(rowPad rowv e).toNat, rowPad_lt hrow e⟩ : Fin 100000) f) * nrmPad nrm e)
      = (if (colv (ix1 (⟨e.val, h⟩ : Fin 625000))).toNat = n.val then (1 : EReal) else 0)
        * (tmp (ix2 (⟨(rowv (ix1 (⟨e.val, h⟩ : Fin 625000))).toNat, toNat_lt_of_rowOK hrow _⟩ : Fin 100000) f)
          * nrm (ix1 (⟨e.val, h⟩ : Fin 625000)))
    have e1 : colPad colv e = colv (ix1 (⟨e.val, h⟩ : Fin 625000)) := dif_pos h
    have e2 : rowPad rowv e = rowv (ix1 (⟨e.val, h⟩ : Fin 625000)) := dif_pos h
    have e3 : nrmPad nrm e = nrm (ix1 (⟨e.val, h⟩ : Fin 625000)) := dif_pos h
    rw [e1, e3]
    refine congrArg (fun i : Fin 100000 => (if (colv (ix1 (⟨e.val, h⟩ : Fin 625000))).toNat = n.val then (1 : EReal) else 0)
      * (tmp (ix2 i f) * nrm (ix1 (⟨e.val, h⟩ : Fin 625000)))) (Fin.ext ?_)
    show (rowPad rowv e).toNat = (rowv (ix1 (⟨e.val, h⟩ : Fin 625000))).toNat
    rw [e2]
  have hhi : ∀ e : Fin 629760, 625000 ≤ e.val → F e = 0 := fun e h => by
    show (if (colPad colv e).toNat = n.val then (1 : EReal) else 0) * _ = 0
    have e1 : colPad colv e = 116000#32 := dif_neg (by omega)
    have hne : ¬ ((116000#32 : BitVec 32).toNat = n.val) := by
      have := n.isLt
      show ¬ (116000 = n.val)
      omega
    rw [e1, if_neg hne, zero_mul]
  refine ((Finset.sum_congr rfl (fun e _ => hF e)).trans (perm_pad_sum σ F G hlo hhi)).trans ?_
  -- the positions whose target word is the node, in the specification's spelling
  rw [Finset.sum_filter]
  refine Finset.sum_congr rfl (fun e _ => ?_)
  show (if (colv (ix1 e)).toNat = n.val then (1 : EReal) else 0)
      * (tmp (ix2 (⟨(rowv (ix1 e)).toNat, toNat_lt_of_rowOK hrow e⟩ : Fin 100000) f) * nrm (ix1 e))
    = if (colv (ix1 e)).toInt = ((n.val : ℕ) : ℤ) then nrm (ix1 e) * mm X W (ix2 (src rowv e) f) else 0
  by_cases hc : (colv (ix1 e)).toNat = n.val
  · rw [if_pos hc, if_pos ((toNat_eq_iff_toInt_eq _ _ n.isLt).mp hc), one_mul, mul_comm]
    refine congrArg (fun z : EReal => nrm (ix1 e) * z) ?_
    rw [mm_apply, ← htmp]
    exact congrArg (fun i : Fin 100000 => tmp (ix2 i f)) (Fin.ext (src_val hrow e).symm)
  · rw [if_neg hc, if_neg (fun h => hc ((toNat_eq_iff_toInt_eq _ _ n.isLt).mpr h)), zero_mul]

end Layer

end Cert.Math

end
-- ==== Proof.KI.ValChain.lean ====
/- The kernel program's result is the specification's network at the program's own host values.

   Between the thirteen kernel regions the program's buffers hold: after a dense region the product of the layer's input
   and its weight; after a gather region, at each sorted edge position, a gated sum of one-hot products of that product
   scaled by the position's weight; after a scatter region the positive part of a gated sum of one-hot products of the
   scaled rows plus h0 times the root weight plus the bias. With the sorted edge arrays read back as the padded edge
   arrays through one permutation, and the gates' tables bracketing every word they cover, each such triple is one layer
   of the specification (the layer lemma, used four times); the weights the layers and the head read are slices and
   reshapes of the arguments; the last region is the head and the result its first 32 columns. -/
import proofs.«415143_j42460046688958_3_alg».proof.Proof.KI.RegionsP
import proofs.«415143_j42460046688958_3_alg».proof.Proof.KI.HostSorted
import proofs.«415143_j42460046688958_3_alg».proof.Proof.KI.TablesGather
import proofs.«415143_j42460046688958_3_alg».proof.Proof.KI.TablesScatter
import proofs.«415143_j42460046688958_3_alg».proof.Proof.Math.LayerEq
import Idealize.ShloMosaic.Lib.StableHlo.Run
import Idealize.ShloMosaic.Lib.ValueIdx
import Idealize.ShloMosaic.Lib.KernelVsHost
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Cert.ReferenceIdeal.Hand (Mat Row Words Stack mm slab rowOf relu dense layer layers headPre refOutOf RowOK)
open Cert.Math (rowPad colPad nrmPad)

variable (m : (ℓ : Loc nD τ sig) → Buf (Elt Ideal) ℓ) (outs : Outs (F := Ideal)) (c : Dev nD)

/-! ## The program's host values the network is stated over -/

/-- The edges' source words, -/
abbrev rowK : Words 625000 := (V33 m c main_v8 : S625000.Idx → BitVec 32)
/-- their target words, -/
abbrev colK : Words 625000 := (V33 m c main_v10 : S625000.Idx → BitVec 32)
/-- their weights -/
abbrev nrmK : Row 625000 := (V33 m c main_v41 : S625000.Idx → EReal)
/-- and the embedded node features, as the program's first host stretches leave them. -/
abbrev h0K : Mat 100000 128 := (V33 m c main_v6 : S100000x128.Idx → EReal)

/-! ## The sorted arrays are the padded edge arrays through one permutation -/

theorem vc_ofFin_eq_ix1 {n : ℕ} (k : Fin n) : Shape.Idx.ofFin k = ValueIdx.ix1 k := by
  funext a
  have ha : a = 0 := Subsingleton.elim _ _
  subst ha
  exact Fin.ext rfl

theorem row2K_eq (e : Fin 629760) :
    (V33 m c main_v112 : S1x629760.Idx → BitVec 32) (ValueIdx.ix2 (0 : Fin 1) e) = rowPad (rowK m c) (edgePerm m c e) := by
  refine (row2_eq m c (ValueIdx.ix2 (0 : Fin 1) e)).trans ?_
  show (V33 m c main_v66 : S629760.Idx → BitVec 32) (Shape.Idx.ofFin e) = _
  rw [row_s_eq m c e, row_pad_eq m c (edgePerm m c e)]
  unfold rowPad
  split
  · rw [vc_ofFin_eq_ix1]
  · rfl

theorem col2K_eq (e : Fin 629760) :
    (V33 m c main_v113 : S1x629760.Idx → BitVec 32) (ValueIdx.ix2 (0 : Fin 1) e) = colPad (colK m c) (edgePerm m c e) := by
  refine (col2_eq m c (ValueIdx.ix2 (0 : Fin 1) e)).trans ?_
  show (V33 m c main_v59 : S629760.Idx → BitVec 32) (Shape.Idx.ofFin e) = _
  rw [col_s_eq m c e, col_pad_eq m c (edgePerm m c e)]
  unfold colPad
  split
  · rw [vc_ofFin_eq_ix1]
  · rfl

theorem normcK_eq (e : Fin 629760) :
    (V33 m c main_v114 : S629760x1.Idx → EReal) (ValueIdx.ix2 e (0 : Fin 1)) = nrmPad (nrmK m c) (edgePerm m c e) := by
  refine (norm_col_eq m c (ValueIdx.ix2 e (0 : Fin 1))).trans ?_
  show (V33 m c main_v73 : S629760.Idx → EReal) (Shape.Idx.ofFin e) = _
  rw [norm_s_eq m c e, norm_pad_eq m c (edgePerm m c e)]
  unfold nrmPad
  split
  · rw [vc_ofFin_eq_ix1]
  · exact Ideal.ofBits_zero_f32

/-! ## The gates admit every block that holds a matching word -/

/-- The gather gate's table words bracket the node block of every in-range source word of the edge block. -/
theorem gateG_words (e : Fin 629760)
    (hr : ((V33 m c main_v112 : S1x629760.Idx → BitVec 32) (ValueIdx.ix2 (0 : Fin 1) e)).toNat < 100000) :
    ((V33 m c main_v86 : S123.Idx → BitVec 32) (Shape.Idx.ofFin (⟨e.val / 5120, by have := e.isLt; omega⟩ : Fin 123))).toNat
        ≤ ((V33 m c main_v112 : S1x629760.Idx → BitVec 32) (ValueIdx.ix2 (0 : Fin 1) e)).toNat / 800
      ∧ ((V33 m c main_v112 : S1x629760.Idx → BitVec 32) (ValueIdx.ix2 (0 : Fin 1) e)).toNat / 800
        ≤ ((V33 m c main_v89 : S123.Idx → BitVec 32) (Shape.Idx.ofFin (⟨e.val / 5120, by have := e.isLt; omega⟩ : Fin 123))).toNat := by
  have h1 : (V33 m c main_v112 : S1x629760.Idx → BitVec 32) (ValueIdx.ix2 (0 : Fin 1) e)
      = (V33 m c main_v66 : S629760.Idx → BitVec 32) (Shape.Idx.ofFin e) := row2_eq m c (ValueIdx.ix2 (0 : Fin 1) e)
  rw [h1] at hr ⊢
  exact rlo_rhi_of_row m c e ⟨e.val / 5120, by have := e.isLt; omega⟩ rfl hr

/-- The scatter gate's table words bracket the node block of every in-range target word of the edge block. -/
theorem gateS_words (e : Fin 629760)
    (hk : ((V33 m c main_v113 : S1x629760.Idx → BitVec 32) (ValueIdx.ix2 (0 : Fin 1) e)).toNat < 100000) :
    ((V33 m c main_v81 : S123.Idx → BitVec 32) (Shape.Idx.ofFin (⟨e.val / 5120, by have := e.isLt; omega⟩ : Fin 123))).toInt
        ≤ ((((V33 m c main_v113 : S1x629760.Idx → BitVec 32) (ValueIdx.ix2 (0 : Fin 1) e)).toNat / 2000 : ℕ) : ℤ)
      ∧ ((((V33 m c main_v113 : S1x629760.Idx → BitVec 32) (ValueIdx.ix2 (0 : Fin 1) e)).toNat / 2000 : ℕ) : ℤ)
        ≤ ((V33 m c main_v82 : S123.Idx → BitVec 32) (Shape.Idx.ofFin (⟨e.val / 5120, by have := e.isLt; omega⟩ : Fin 123))).toInt := by
  have h1 : (V33 m c main_v113 : S1x629760.Idx → BitVec 32) (ValueIdx.ix2 (0 : Fin 1) e)
      = (V33 m c main_v59 : S629760.Idx → BitVec 32) (Shape.Idx.ofFin e) := col2_eq m c (ValueIdx.ix2 (0 : Fin 1) e)
  rw [h1] at hk ⊢
  exact lo_hi_of_col m c e ⟨e.val / 5120, by have := e.isLt; omega⟩ rfl hk

/-! ## Reading reshapes, slices and pads at an index -/

/-- A row of `M` entries reshaped to `[1, M]` reads, at `(0, f)`, the row at `f`. -/
theorem vc_cast_row_apply {α : Type} {M : ℕ} (x : (⟨1, ![M]⟩ : Shape).Idx → α)
    (hc : (⟨1, ![M]⟩ : Shape).ShapeCasts ⟨2, ![1, M]⟩) (f : Fin M) :
    shapeCast ⟨2, ![1, M]⟩ x hc (ValueIdx.ix2 (0 : Fin 1) f) = x (ValueIdx.ix1 f) := by
  refine shapeCast_apply x hc (ValueIdx.ix2 (0 : Fin 1) f) (ValueIdx.ix1 f) ?_
  rewrite [Shape.rowMajor_val_one, Shape.rowMajor_val_two]
  show f.val = 0 * M + f.val
  omega

/-- A `[K, N]` matrix padded on the right to `[K, N + P]` reads, at a column below `N`, the matrix there. -/
theorem vc_pad_cols_apply {α : Type} {K N P : ℕ} (x : (⟨2, ![K, N]⟩ : Shape).Idx → α) {u : Shape} (v : u.Idx → α)
    (h : (⟨2, ![K, N]⟩ : Shape).Pads ![0, 0] ![0, P] ![0, 0] ⟨2, ![K, N + P]⟩) (hu : 0 < u.numel) (k : Fin K) (q : Fin (N + P))
    (hq : q.val < N) :
    pad ⟨2, ![K, N + P]⟩ ![0, 0] ![0, P] ![0, 0] x v h hu (ValueIdx.ix2 k q) = x (ValueIdx.ix2 k (⟨q.val, hq⟩ : Fin N)) :=
  pad_apply_of_inside _ _ _ x v h hu (ValueIdx.ix2 k q) (ValueIdx.ix2 k (⟨q.val, hq⟩ : Fin N)) (fun a => match a with
    | ⟨0, _⟩ => by show k.val = 0 + k.val * (0 + 1); omega
    | ⟨1, _⟩ => by show q.val = 0 + q.val * (0 + 1); omega)

/-- A row of `N` entries padded on the right to `N + P` reads, below `N`, the row there. -/
theorem vc_pad_row_apply {α : Type} {N P : ℕ} (x : (⟨1, ![N]⟩ : Shape).Idx → α) {u : Shape} (v : u.Idx → α)
    (h : (⟨1, ![N]⟩ : Shape).Pads ![0] ![P] ![0] ⟨1, ![N + P]⟩) (hu : 0 < u.numel) (q : Fin (N + P)) (hq : q.val < N) :
    pad ⟨1, ![N + P]⟩ ![0] ![P] ![0] x v h hu (ValueIdx.ix1 q) = x (ValueIdx.ix1 (⟨q.val, hq⟩ : Fin N)) :=
  pad_apply_of_inside _ _ _ x v h hu (ValueIdx.ix1 q) (ValueIdx.ix1 (⟨q.val, hq⟩ : Fin N)) (fun a => match a with
    | ⟨0, _⟩ => by show q.val = 0 + q.val * (0 + 1); omega)

/-! ## What the regions read between the layers: the arguments, their slices, and the arrays that persist -/

theorem V33_arg4 : (V33 m c main_arg4 : S128x128.Idx → EReal) = m ((c : Thread nD τ).loc main_arg4) :=
  (V33_of m c main_arg4 (by decide)).trans <| (V32_of m c main_arg4 (by decide)).trans <| (V31_of m c main_arg4 (by decide)).trans <| (V30_of m c main_arg4 (by decide)).trans <| (V29_of m c main_arg4 (by decide)).trans <| (V28_of m c main_arg4 (by decide)).trans <| (V27_of m c main_arg4 (by decide)).trans <| (V26_of m c main_arg4 (by decide)).trans <| (V25_of m c main_arg4 (by decide)).trans <| (V24_of m c main_arg4 (by decide)).trans <| (V23_of m c main_arg4 (by decide)).trans <| (V22_of m c main_arg4 (by decide)).trans <| (V21_of m c main_arg4 (by decide)).trans <| (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

/-! ### Layer 0 -/

theorem g0_row2 : (V34 m outs c main_v112 : S1x629760.Idx → BitVec 32) = (V33 m c main_v112 : S1x629760.Idx → BitVec 32) :=
  (V34_of m outs c main_v112 (by decide))
theorem g0_normc : (V34 m outs c main_v114 : S629760x1.Idx → EReal) = (V33 m c main_v114 : S629760x1.Idx → EReal) :=
  (V34_of m outs c main_v114 (by decide))
theorem s0_col2 : (V36 m outs c main_v113 : S1x629760.Idx → BitVec 32) = (V33 m c main_v113 : S1x629760.Idx → BitVec 32) :=
  (V36_of m outs c main_v113 (by decide)).trans <| (V35_of m outs c main_v113 (by decide)).trans <| (V34_of m outs c main_v113 (by decide))
theorem s0_h0 : (V36 m outs c main_v6 : S100000x128.Idx → EReal) = (V33 m c main_v6 : S100000x128.Idx → EReal) :=
  (V36_of m outs c main_v6 (by decide)).trans <| (V35_of m outs c main_v6 (by decide)).trans <| (V34_of m outs c main_v6 (by decide))
theorem s0_scaled : (V36 m outs c main_v119 : S629760x128.Idx → EReal) = (V35 m outs c main_v119 : S629760x128.Idx → EReal) :=
  (V36_of m outs c main_v119 (by decide))
theorem s0_rw : (V36 m outs c main_v121 : S128x128.Idx → EReal) = slab (m ((c : Thread nD τ).loc main_arg6) : S4x128x128.Idx → EReal) (0 : Fin 4) := by
  have h : (V36 m outs c main_v121 : S128x128.Idx → EReal)
      = shapeCast S128x128 (extractStridedSlice S1x128x128 ![0, 0, 0] (V35 m outs c main_arg6 : S4x128x128.Idx → EReal)
          slices_S4x128x128_S1x128x128_0_0_0) shapeCasts_S1x128x128_S128x128 := by
    show StableHlo.after hostOps2 (V35 m outs c) (Proc.devRef .tc main_v121) = _
    generalize V35 m outs c = W
    after_results
    all_goals rfl
  have hp : (V35 m outs c main_arg6 : S4x128x128.Idx → EReal) = m ((c : Thread nD τ).loc main_arg6) :=
    (V35_of m outs c main_arg6 (by decide)).trans <| (V34_of m outs c main_arg6 (by decide)).trans <| (V33_of m c main_arg6 (by decide)).trans <| (V32_of m c main_arg6 (by decide)).trans <| (V31_of m c main_arg6 (by decide)).trans <| (V30_of m c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
  rw [h, hp]
  exact Cert.ReferenceIdeal.Hand.sliceCast_eq_slab (0 : Fin 4) _ _ _
theorem s0_bb (f : Fin 128) : (V36 m outs c main_v124 : S1x128.Idx → EReal) (ValueIdx.ix2 (0 : Fin 1) f) = rowOf (m ((c : Thread nD τ).loc main_arg7) : S4x128.Idx → EReal) (0 : Fin 4) (ValueIdx.ix1 f) := by
  have h : (V36 m outs c main_v124 : S1x128.Idx → EReal)
      = shapeCast S1x128 (shapeCast S128 (extractStridedSlice S1x128 ![0, 0] (V35 m outs c main_arg7 : S4x128.Idx → EReal)
          slices_S4x128_S1x128_0_0) shapeCasts_S1x128_S128) shapeCasts_S128_S1x128 := by
    show StableHlo.after hostOps2 (V35 m outs c) (Proc.devRef .tc main_v124) = _
    generalize V35 m outs c = W
    after_results
    all_goals rfl
  have hp : (V35 m outs c main_arg7 : S4x128.Idx → EReal) = m ((c : Thread nD τ).loc main_arg7) :=
    (V35_of m outs c main_arg7 (by decide)).trans <| (V34_of m outs c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide)).trans <| (V26_of m c main_arg7 (by decide)).trans <| (V25_of m c main_arg7 (by decide)).trans <| (V24_of m c main_arg7 (by decide)).trans <| (V23_of m c main_arg7 (by decide)).trans <| (V22_of m c main_arg7 (by decide)).trans <| (V21_of m c main_arg7 (by decide)).trans <| (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
  rw [h, hp]
  refine (vc_cast_row_apply _ _ f).trans ?_
  exact congrFun (Cert.ReferenceIdeal.Hand.sliceCast_eq_rowOf (0 : Fin 4) _ _ _) (ValueIdx.ix1 f)

/-! ### Layer 1 -/

theorem g1_row2 : (V39 m outs c main_v112 : S1x629760.Idx → BitVec 32) = (V33 m c main_v112 : S1x629760.Idx → BitVec 32) :=
  (V39_of m outs c main_v112 (by decide)).trans <| (V38_of m outs c main_v112 (by decide)).trans <| (V37_of m outs c main_v112 (by decide)).trans <| (V36_of m outs c main_v112 (by decide)).trans <| (V35_of m outs c main_v112 (by decide)).trans <| (V34_of m outs c main_v112 (by decide))
theorem g1_normc : (V39 m outs c main_v114 : S629760x1.Idx → EReal) = (V33 m c main_v114 : S629760x1.Idx → EReal) :=
  (V39_of m outs c main_v114 (by decide)).trans <| (V38_of m outs c main_v114 (by decide)).trans <| (V37_of m outs c main_v114 (by decide)).trans <| (V36_of m outs c main_v114 (by decide)).trans <| (V35_of m outs c main_v114 (by decide)).trans <| (V34_of m outs c main_v114 (by decide))
theorem s1_col2 : (V41 m outs c main_v113 : S1x629760.Idx → BitVec 32) = (V33 m c main_v113 : S1x629760.Idx → BitVec 32) :=
  (V41_of m outs c main_v113 (by decide)).trans <| (V40_of m outs c main_v113 (by decide)).trans <| (V39_of m outs c main_v113 (by decide)).trans <| (V38_of m outs c main_v113 (by decide)).trans <| (V37_of m outs c main_v113 (by decide)).trans <| (V36_of m outs c main_v113 (by decide)).trans <| (V35_of m outs c main_v113 (by decide)).trans <| (V34_of m outs c main_v113 (by decide))
theorem s1_h0 : (V41 m outs c main_v6 : S100000x128.Idx → EReal) = (V33 m c main_v6 : S100000x128.Idx → EReal) :=
  (V41_of m outs c main_v6 (by decide)).trans <| (V40_of m outs c main_v6 (by decide)).trans <| (V39_of m outs c main_v6 (by decide)).trans <| (V38_of m outs c main_v6 (by decide)).trans <| (V37_of m outs c main_v6 (by decide)).trans <| (V36_of m outs c main_v6 (by decide)).trans <| (V35_of m outs c main_v6 (by decide)).trans <| (V34_of m outs c main_v6 (by decide))
theorem s1_scaled : (V41 m outs c main_v129 : S629760x128.Idx → EReal) = (V40 m outs c main_v129 : S629760x128.Idx → EReal) :=
  (V41_of m outs c main_v129 (by decide))
theorem d1_x : (V38 m outs c main_v125 : S100000x128.Idx → EReal) = (V37 m outs c main_v125 : S100000x128.Idx → EReal) :=
  (V38_of m outs c main_v125 (by decide))
theorem d1_w : (V38 m outs c main_v127 : S128x128.Idx → EReal) = slab (m ((c : Thread nD τ).loc main_arg5) : S3x128x128.Idx → EReal) (0 : Fin 3) := by
  have h : (V38 m outs c main_v127 : S128x128.Idx → EReal)
      = shapeCast S128x128 (extractStridedSlice S1x128x128 ![0, 0, 0] (V37 m outs c main_arg5 : S3x128x128.Idx → EReal)
          slices_S3x128x128_S1x128x128_0_0_0) shapeCasts_S1x128x128_S128x128 := by
    show StableHlo.after hostOps3 (V37 m outs c) (Proc.devRef .tc main_v127) = _
    generalize V37 m outs c = W
    after_results
    all_goals rfl
  have hp : (V37 m outs c main_arg5 : S3x128x128.Idx → EReal) = m ((c : Thread nD τ).loc main_arg5) :=
    (V37_of m outs c main_arg5 (by decide)).trans <| (V36_of m outs c main_arg5 (by decide)).trans <| (V35_of m outs c main_arg5 (by decide)).trans <| (V34_of m outs c main_arg5 (by decide)).trans <| (V33_of m c main_arg5 (by decide)).trans <| (V32_of m c main_arg5 (by decide)).trans <| (V31_of m c main_arg5 (by decide)).trans <| (V30_of m c main_arg5 (by decide)).trans <| (V29_of m c main_arg5 (by decide)).trans <| (V28_of m c main_arg5 (by decide)).trans <| (V27_of m c main_arg5 (by decide)).trans <| (V26_of m c main_arg5 (by decide)).trans <| (V25_of m c main_arg5 (by decide)).trans <| (V24_of m c main_arg5 (by decide)).trans <| (V23_of m c main_arg5 (by decide)).trans <| (V22_of m c main_arg5 (by decide)).trans <| (V21_of m c main_arg5 (by decide)).trans <| (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
  rw [h, hp]
  exact Cert.ReferenceIdeal.Hand.sliceCast_eq_slab (0 : Fin 3) _ _ _
theorem s1_rw : (V41 m outs c main_v131 : S128x128.Idx → EReal) = slab (m ((c : Thread nD τ).loc main_arg6) : S4x128x128.Idx → EReal) (1 : Fin 4) := by
  have h : (V41 m outs c main_v131 : S128x128.Idx → EReal)
      = shapeCast S128x128 (extractStridedSlice S1x128x128 ![1, 0, 0] (V40 m outs c main_arg6 : S4x128x128.Idx → EReal)
          slices_S4x128x128_S1x128x128_1_0_0) shapeCasts_S1x128x128_S128x128 := by
    show StableHlo.after hostOps5 (V40 m outs c) (Proc.devRef .tc main_v131) = _
    generalize V40 m outs c = W
    after_results
    all_goals rfl
  have hp : (V40 m outs c main_arg6 : S4x128x128.Idx → EReal) = m ((c : Thread nD τ).loc main_arg6) :=
    (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m c main_arg6 (by decide)).trans <| (V32_of m c main_arg6 (by decide)).trans <| (V31_of m c main_arg6 (by decide)).trans <| (V30_of m c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
  rw [h, hp]
  exact Cert.ReferenceIdeal.Hand.sliceCast_eq_slab (1 : Fin 4) _ _ _
theorem s1_bb (f : Fin 128) : (V41 m outs c main_v134 : S1x128.Idx → EReal) (ValueIdx.ix2 (0 : Fin 1) f) = rowOf (m ((c : Thread nD τ).loc main_arg7) : S4x128.Idx → EReal) (1 : Fin 4) (ValueIdx.ix1 f) := by
  have h : (V41 m outs c main_v134 : S1x128.Idx → EReal)
      = shapeCast S1x128 (shapeCast S128 (extractStridedSlice S1x128 ![1, 0] (V40 m outs c main_arg7 : S4x128.Idx → EReal)
          slices_S4x128_S1x128_1_0) shapeCasts_S1x128_S128) shapeCasts_S128_S1x128 := by
    show StableHlo.after hostOps5 (V40 m outs c) (Proc.devRef .tc main_v134) = _
    generalize V40 m outs c = W
    after_results
    all_goals rfl
  have hp : (V40 m outs c main_arg7 : S4x128.Idx → EReal) = m ((c : Thread nD τ).loc main_arg7) :=
    (V40_of m outs c main_arg7 (by decide)).trans <| (V39_of m outs c main_arg7 (by decide)).trans <| (V38_of m outs c main_arg7 (by decide)).trans <| (V37_of m outs c main_arg7 (by decide)).trans <| (V36_of m outs c main_arg7 (by decide)).trans <| (V35_of m outs c main_arg7 (by decide)).trans <| (V34_of m outs c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide)).trans <| (V26_of m c main_arg7 (by decide)).trans <| (V25_of m c main_arg7 (by decide)).trans <| (V24_of m c main_arg7 (by decide)).trans <| (V23_of m c main_arg7 (by decide)).trans <| (V22_of m c main_arg7 (by decide)).trans <| (V21_of m c main_arg7 (by decide)).trans <| (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
  rw [h, hp]
  refine (vc_cast_row_apply _ _ f).trans ?_
  exact congrFun (Cert.ReferenceIdeal.Hand.sliceCast_eq_rowOf (1 : Fin 4) _ _ _) (ValueIdx.ix1 f)

/-! ### Layer 2 -/

theorem g2_row2 : (V44 m outs c main_v112 : S1x629760.Idx → BitVec 32) = (V33 m c main_v112 : S1x629760.Idx → BitVec 32) :=
  (V44_of m outs c main_v112 (by decide)).trans <| (V43_of m outs c main_v112 (by decide)).trans <| (V42_of m outs c main_v112 (by decide)).trans <| (V41_of m outs c main_v112 (by decide)).trans <| (V40_of m outs c main_v112 (by decide)).trans <| (V39_of m outs c main_v112 (by decide)).trans <| (V38_of m outs c main_v112 (by decide)).trans <| (V37_of m outs c main_v112 (by decide)).trans <| (V36_of m outs c main_v112 (by decide)).trans <| (V35_of m outs c main_v112 (by decide)).trans <| (V34_of m outs c main_v112 (by decide))
theorem g2_normc : (V44 m outs c main_v114 : S629760x1.Idx → EReal) = (V33 m c main_v114 : S629760x1.Idx → EReal) :=
  (V44_of m outs c main_v114 (by decide)).trans <| (V43_of m outs c main_v114 (by decide)).trans <| (V42_of m outs c main_v114 (by decide)).trans <| (V41_of m outs c main_v114 (by decide)).trans <| (V40_of m outs c main_v114 (by decide)).trans <| (V39_of m outs c main_v114 (by decide)).trans <| (V38_of m outs c main_v114 (by decide)).trans <| (V37_of m outs c main_v114 (by decide)).trans <| (V36_of m outs c main_v114 (by decide)).trans <| (V35_of m outs c main_v114 (by decide)).trans <| (V34_of m outs c main_v114 (by decide))
theorem s2_col2 : (V46 m outs c main_v113 : S1x629760.Idx → BitVec 32) = (V33 m c main_v113 : S1x629760.Idx → BitVec 32) :=
  (V46_of m outs c main_v113 (by decide)).trans <| (V45_of m outs c main_v113 (by decide)).trans <| (V44_of m outs c main_v113 (by decide)).trans <| (V43_of m outs c main_v113 (by decide)).trans <| (V42_of m outs c main_v113 (by decide)).trans <| (V41_of m outs c main_v113 (by decide)).trans <| (V40_of m outs c main_v113 (by decide)).trans <| (V39_of m outs c main_v113 (by decide)).trans <| (V38_of m outs c main_v113 (by decide)).trans <| (V37_of m outs c main_v113 (by decide)).trans <| (V36_of m outs c main_v113 (by decide)).trans <| (V35_of m outs c main_v113 (by decide)).trans <| (V34_of m outs c main_v113 (by decide))
theorem s2_h0 : (V46 m outs c main_v6 : S100000x128.Idx → EReal) = (V33 m c main_v6 : S100000x128.Idx → EReal) :=
  (V46_of m outs c main_v6 (by decide)).trans <| (V45_of m outs c main_v6 (by decide)).trans <| (V44_of m outs c main_v6 (by decide)).trans <| (V43_of m outs c main_v6 (by decide)).trans <| (V42_of m outs c main_v6 (by decide)).trans <| (V41_of m outs c main_v6 (by decide)).trans <| (V40_of m outs c main_v6 (by decide)).trans <| (V39_of m outs c main_v6 (by decide)).trans <| (V38_of m outs c main_v6 (by decide)).trans <| (V37_of m outs c main_v6 (by decide)).trans <| (V36_of m outs c main_v6 (by decide)).trans <| (V35_of m outs c main_v6 (by decide)).trans <| (V34_of m outs c main_v6 (by decide))
theorem s2_scaled : (V46 m outs c main_v139 : S629760x128.Idx → EReal) = (V45 m outs c main_v139 : S629760x128.Idx → EReal) :=
  (V46_of m outs c main_v139 (by decide))
theorem d2_x : (V43 m outs c main_v135 : S100000x128.Idx → EReal) = (V42 m outs c main_v135 : S100000x128.Idx → EReal) :=
  (V43_of m outs c main_v135 (by decide))
theorem d2_w : (V43 m outs c main_v137 : S128x128.Idx → EReal) = slab (m ((c : Thread nD τ).loc main_arg5) : S3x128x128.Idx → EReal) (1 : Fin 3) := by
  have h : (V43 m outs c main_v137 : S128x128.Idx → EReal)
      = shapeCast S128x128 (extractStridedSlice S1x128x128 ![1, 0, 0] (V42 m outs c main_arg5 : S3x128x128.Idx → EReal)
          slices_S3x128x128_S1x128x128_1_0_0) shapeCasts_S1x128x128_S128x128 := by
    show StableHlo.after hostOps6 (V42 m outs c) (Proc.devRef .tc main_v137) = _
    generalize V42 m outs c = W
    after_results
    all_goals rfl
  have hp : (V42 m outs c main_arg5 : S3x128x128.Idx → EReal) = m ((c : Thread nD τ).loc main_arg5) :=
    (V42_of m outs c main_arg5 (by decide)).trans <| (V41_of m outs c main_arg5 (by decide)).trans <| (V40_of m outs c main_arg5 (by decide)).trans <| (V39_of m outs c main_arg5 (by decide)).trans <| (V38_of m outs c main_arg5 (by decide)).trans <| (V37_of m outs c main_arg5 (by decide)).trans <| (V36_of m outs c main_arg5 (by decide)).trans <| (V35_of m outs c main_arg5 (by decide)).trans <| (V34_of m outs c main_arg5 (by decide)).trans <| (V33_of m c main_arg5 (by decide)).trans <| (V32_of m c main_arg5 (by decide)).trans <| (V31_of m c main_arg5 (by decide)).trans <| (V30_of m c main_arg5 (by decide)).trans <| (V29_of m c main_arg5 (by decide)).trans <| (V28_of m c main_arg5 (by decide)).trans <| (V27_of m c main_arg5 (by decide)).trans <| (V26_of m c main_arg5 (by decide)).trans <| (V25_of m c main_arg5 (by decide)).trans <| (V24_of m c main_arg5 (by decide)).trans <| (V23_of m c main_arg5 (by decide)).trans <| (V22_of m c main_arg5 (by decide)).trans <| (V21_of m c main_arg5 (by decide)).trans <| (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
  rw [h, hp]
  exact Cert.ReferenceIdeal.Hand.sliceCast_eq_slab (1 : Fin 3) _ _ _
theorem s2_rw : (V46 m outs c main_v141 : S128x128.Idx → EReal) = slab (m ((c : Thread nD τ).loc main_arg6) : S4x128x128.Idx → EReal) (2 : Fin 4) := by
  have h : (V46 m outs c main_v141 : S128x128.Idx → EReal)
      = shapeCast S128x128 (extractStridedSlice S1x128x128 ![2, 0, 0] (V45 m outs c main_arg6 : S4x128x128.Idx → EReal)
          slices_S4x128x128_S1x128x128_2_0_0) shapeCasts_S1x128x128_S128x128 := by
    show StableHlo.after hostOps8 (V45 m outs c) (Proc.devRef .tc main_v141) = _
    generalize V45 m outs c = W
    after_results
    all_goals rfl
  have hp : (V45 m outs c main_arg6 : S4x128x128.Idx → EReal) = m ((c : Thread nD τ).loc main_arg6) :=
    (V45_of m outs c main_arg6 (by decide)).trans <| (V44_of m outs c main_arg6 (by decide)).trans <| (V43_of m outs c main_arg6 (by decide)).trans <| (V42_of m outs c main_arg6 (by decide)).trans <| (V41_of m outs c main_arg6 (by decide)).trans <| (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m c main_arg6 (by decide)).trans <| (V32_of m c main_arg6 (by decide)).trans <| (V31_of m c main_arg6 (by decide)).trans <| (V30_of m c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
  rw [h, hp]
  exact Cert.ReferenceIdeal.Hand.sliceCast_eq_slab (2 : Fin 4) _ _ _
theorem s2_bb (f : Fin 128) : (V46 m outs c main_v144 : S1x128.Idx → EReal) (ValueIdx.ix2 (0 : Fin 1) f) = rowOf (m ((c : Thread nD τ).loc main_arg7) : S4x128.Idx → EReal) (2 : Fin 4) (ValueIdx.ix1 f) := by
  have h : (V46 m outs c main_v144 : S1x128.Idx → EReal)
      = shapeCast S1x128 (shapeCast S128 (extractStridedSlice S1x128 ![2, 0] (V45 m outs c main_arg7 : S4x128.Idx → EReal)
          slices_S4x128_S1x128_2_0) shapeCasts_S1x128_S128) shapeCasts_S128_S1x128 := by
    show StableHlo.after hostOps8 (V45 m outs c) (Proc.devRef .tc main_v144) = _
    generalize V45 m outs c = W
    after_results
    all_goals rfl
  have hp : (V45 m outs c main_arg7 : S4x128.Idx → EReal) = m ((c : Thread nD τ).loc main_arg7) :=
    (V45_of m outs c main_arg7 (by decide)).trans <| (V44_of m outs c main_arg7 (by decide)).trans <| (V43_of m outs c main_arg7 (by decide)).trans <| (V42_of m outs c main_arg7 (by decide)).trans <| (V41_of m outs c main_arg7 (by decide)).trans <| (V40_of m outs c main_arg7 (by decide)).trans <| (V39_of m outs c main_arg7 (by decide)).trans <| (V38_of m outs c main_arg7 (by decide)).trans <| (V37_of m outs c main_arg7 (by decide)).trans <| (V36_of m outs c main_arg7 (by decide)).trans <| (V35_of m outs c main_arg7 (by decide)).trans <| (V34_of m outs c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide)).trans <| (V26_of m c main_arg7 (by decide)).trans <| (V25_of m c main_arg7 (by decide)).trans <| (V24_of m c main_arg7 (by decide)).trans <| (V23_of m c main_arg7 (by decide)).trans <| (V22_of m c main_arg7 (by decide)).trans <| (V21_of m c main_arg7 (by decide)).trans <| (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
  rw [h, hp]
  refine (vc_cast_row_apply _ _ f).trans ?_
  exact congrFun (Cert.ReferenceIdeal.Hand.sliceCast_eq_rowOf (2 : Fin 4) _ _ _) (ValueIdx.ix1 f)

/-! ### Layer 3 -/

theorem g3_row2 : (V49 m outs c main_v112 : S1x629760.Idx → BitVec 32) = (V33 m c main_v112 : S1x629760.Idx → BitVec 32) :=
  (V49_of m outs c main_v112 (by decide)).trans <| (V48_of m outs c main_v112 (by decide)).trans <| (V47_of m outs c main_v112 (by decide)).trans <| (V46_of m outs c main_v112 (by decide)).trans <| (V45_of m outs c main_v112 (by decide)).trans <| (V44_of m outs c main_v112 (by decide)).trans <| (V43_of m outs c main_v112 (by decide)).trans <| (V42_of m outs c main_v112 (by decide)).trans <| (V41_of m outs c main_v112 (by decide)).trans <| (V40_of m outs c main_v112 (by decide)).trans <| (V39_of m outs c main_v112 (by decide)).trans <| (V38_of m outs c main_v112 (by decide)).trans <| (V37_of m outs c main_v112 (by decide)).trans <| (V36_of m outs c main_v112 (by decide)).trans <| (V35_of m outs c main_v112 (by decide)).trans <| (V34_of m outs c main_v112 (by decide))
theorem g3_normc : (V49 m outs c main_v114 : S629760x1.Idx → EReal) = (V33 m c main_v114 : S629760x1.Idx → EReal) :=
  (V49_of m outs c main_v114 (by decide)).trans <| (V48_of m outs c main_v114 (by decide)).trans <| (V47_of m outs c main_v114 (by decide)).trans <| (V46_of m outs c main_v114 (by decide)).trans <| (V45_of m outs c main_v114 (by decide)).trans <| (V44_of m outs c main_v114 (by decide)).trans <| (V43_of m outs c main_v114 (by decide)).trans <| (V42_of m outs c main_v114 (by decide)).trans <| (V41_of m outs c main_v114 (by decide)).trans <| (V40_of m outs c main_v114 (by decide)).trans <| (V39_of m outs c main_v114 (by decide)).trans <| (V38_of m outs c main_v114 (by decide)).trans <| (V37_of m outs c main_v114 (by decide)).trans <| (V36_of m outs c main_v114 (by decide)).trans <| (V35_of m outs c main_v114 (by decide)).trans <| (V34_of m outs c main_v114 (by decide))
theorem s3_col2 : (V51 m outs c main_v113 : S1x629760.Idx → BitVec 32) = (V33 m c main_v113 : S1x629760.Idx → BitVec 32) :=
  (V51_of m outs c main_v113 (by decide)).trans <| (V50_of m outs c main_v113 (by decide)).trans <| (V49_of m outs c main_v113 (by decide)).trans <| (V48_of m outs c main_v113 (by decide)).trans <| (V47_of m outs c main_v113 (by decide)).trans <| (V46_of m outs c main_v113 (by decide)).trans <| (V45_of m outs c main_v113 (by decide)).trans <| (V44_of m outs c main_v113 (by decide)).trans <| (V43_of m outs c main_v113 (by decide)).trans <| (V42_of m outs c main_v113 (by decide)).trans <| (V41_of m outs c main_v113 (by decide)).trans <| (V40_of m outs c main_v113 (by decide)).trans <| (V39_of m outs c main_v113 (by decide)).trans <| (V38_of m outs c main_v113 (by decide)).trans <| (V37_of m outs c main_v113 (by decide)).trans <| (V36_of m outs c main_v113 (by decide)).trans <| (V35_of m outs c main_v113 (by decide)).trans <| (V34_of m outs c main_v113 (by decide))
theorem s3_h0 : (V51 m outs c main_v6 : S100000x128.Idx → EReal) = (V33 m c main_v6 : S100000x128.Idx → EReal) :=
  (V51_of m outs c main_v6 (by decide)).trans <| (V50_of m outs c main_v6 (by decide)).trans <| (V49_of m outs c main_v6 (by decide)).trans <| (V48_of m outs c main_v6 (by decide)).trans <| (V47_of m outs c main_v6 (by decide)).trans <| (V46_of m outs c main_v6 (by decide)).trans <| (V45_of m outs c main_v6 (by decide)).trans <| (V44_of m outs c main_v6 (by decide)).trans <| (V43_of m outs c main_v6 (by decide)).trans <| (V42_of m outs c main_v6 (by decide)).trans <| (V41_of m outs c main_v6 (by decide)).trans <| (V40_of m outs c main_v6 (by decide)).trans <| (V39_of m outs c main_v6 (by decide)).trans <| (V38_of m outs c main_v6 (by decide)).trans <| (V37_of m outs c main_v6 (by decide)).trans <| (V36_of m outs c main_v6 (by decide)).trans <| (V35_of m outs c main_v6 (by decide)).trans <| (V34_of m outs c main_v6 (by decide))
theorem s3_scaled : (V51 m outs c main_v149 : S629760x128.Idx → EReal) = (V50 m outs c main_v149 : S629760x128.Idx → EReal) :=
  (V51_of m outs c main_v149 (by decide))
theorem d3_x : (V48 m outs c main_v145 : S100000x128.Idx → EReal) = (V47 m outs c main_v145 : S100000x128.Idx → EReal) :=
  (V48_of m outs c main_v145 (by decide))
theorem d3_w : (V48 m outs c main_v147 : S128x128.Idx → EReal) = slab (m ((c : Thread nD τ).loc main_arg5) : S3x128x128.Idx → EReal) (2 : Fin 3) := by
  have h : (V48 m outs c main_v147 : S128x128.Idx → EReal)
      = shapeCast S128x128 (extractStridedSlice S1x128x128 ![2, 0, 0] (V47 m outs c main_arg5 : S3x128x128.Idx → EReal)
          slices_S3x128x128_S1x128x128_2_0_0) shapeCasts_S1x128x128_S128x128 := by
    show StableHlo.after hostOps9 (V47 m outs c) (Proc.devRef .tc main_v147) = _
    generalize V47 m outs c = W
    after_results
    all_goals rfl
  have hp : (V47 m outs c main_arg5 : S3x128x128.Idx → EReal) = m ((c : Thread nD τ).loc main_arg5) :=
    (V47_of m outs c main_arg5 (by decide)).trans <| (V46_of m outs c main_arg5 (by decide)).trans <| (V45_of m outs c main_arg5 (by decide)).trans <| (V44_of m outs c main_arg5 (by decide)).trans <| (V43_of m outs c main_arg5 (by decide)).trans <| (V42_of m outs c main_arg5 (by decide)).trans <| (V41_of m outs c main_arg5 (by decide)).trans <| (V40_of m outs c main_arg5 (by decide)).trans <| (V39_of m outs c main_arg5 (by decide)).trans <| (V38_of m outs c main_arg5 (by decide)).trans <| (V37_of m outs c main_arg5 (by decide)).trans <| (V36_of m outs c main_arg5 (by decide)).trans <| (V35_of m outs c main_arg5 (by decide)).trans <| (V34_of m outs c main_arg5 (by decide)).trans <| (V33_of m c main_arg5 (by decide)).trans <| (V32_of m c main_arg5 (by decide)).trans <| (V31_of m c main_arg5 (by decide)).trans <| (V30_of m c main_arg5 (by decide)).trans <| (V29_of m c main_arg5 (by decide)).trans <| (V28_of m c main_arg5 (by decide)).trans <| (V27_of m c main_arg5 (by decide)).trans <| (V26_of m c main_arg5 (by decide)).trans <| (V25_of m c main_arg5 (by decide)).trans <| (V24_of m c main_arg5 (by decide)).trans <| (V23_of m c main_arg5 (by decide)).trans <| (V22_of m c main_arg5 (by decide)).trans <| (V21_of m c main_arg5 (by decide)).trans <| (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
  rw [h, hp]
  exact Cert.ReferenceIdeal.Hand.sliceCast_eq_slab (2 : Fin 3) _ _ _
theorem s3_rw : (V51 m outs c main_v151 : S128x128.Idx → EReal) = slab (m ((c : Thread nD τ).loc main_arg6) : S4x128x128.Idx → EReal) (3 : Fin 4) := by
  have h : (V51 m outs c main_v151 : S128x128.Idx → EReal)
      = shapeCast S128x128 (extractStridedSlice S1x128x128 ![3, 0, 0] (V50 m outs c main_arg6 : S4x128x128.Idx → EReal)
          slices_S4x128x128_S1x128x128_3_0_0) shapeCasts_S1x128x128_S128x128 := by
    show StableHlo.after hostOps11 (V50 m outs c) (Proc.devRef .tc main_v151) = _
    generalize V50 m outs c = W
    after_results
    all_goals rfl
  have hp : (V50 m outs c main_arg6 : S4x128x128.Idx → EReal) = m ((c : Thread nD τ).loc main_arg6) :=
    (V50_of m outs c main_arg6 (by decide)).trans <| (V49_of m outs c main_arg6 (by decide)).trans <| (V48_of m outs c main_arg6 (by decide)).trans <| (V47_of m outs c main_arg6 (by decide)).trans <| (V46_of m outs c main_arg6 (by decide)).trans <| (V45_of m outs c main_arg6 (by decide)).trans <| (V44_of m outs c main_arg6 (by decide)).trans <| (V43_of m outs c main_arg6 (by decide)).trans <| (V42_of m outs c main_arg6 (by decide)).trans <| (V41_of m outs c main_arg6 (by decide)).trans <| (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m c main_arg6 (by decide)).trans <| (V32_of m c main_arg6 (by decide)).trans <| (V31_of m c main_arg6 (by decide)).trans <| (V30_of m c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
  rw [h, hp]
  exact Cert.ReferenceIdeal.Hand.sliceCast_eq_slab (3 : Fin 4) _ _ _
theorem s3_bb (f : Fin 128) : (V51 m outs c main_v154 : S1x128.Idx → EReal) (ValueIdx.ix2 (0 : Fin 1) f) = rowOf (m ((c : Thread nD τ).loc main_arg7) : S4x128.Idx → EReal) (3 : Fin 4) (ValueIdx.ix1 f) := by
  have h : (V51 m outs c main_v154 : S1x128.Idx → EReal)
      = shapeCast S1x128 (shapeCast S128 (extractStridedSlice S1x128 ![3, 0] (V50 m outs c main_arg7 : S4x128.Idx → EReal)
          slices_S4x128_S1x128_3_0) shapeCasts_S1x128_S128) shapeCasts_S128_S1x128 := by
    show StableHlo.after hostOps11 (V50 m outs c) (Proc.devRef .tc main_v154) = _
    generalize V50 m outs c = W
    after_results
    all_goals rfl
  have hp : (V50 m outs c main_arg7 : S4x128.Idx → EReal) = m ((c : Thread nD τ).loc main_arg7) :=
    (V50_of m outs c main_arg7 (by decide)).trans <| (V49_of m outs c main_arg7 (by decide)).trans <| (V48_of m outs c main_arg7 (by decide)).trans <| (V47_of m outs c main_arg7 (by decide)).trans <| (V46_of m outs c main_arg7 (by decide)).trans <| (V45_of m outs c main_arg7 (by decide)).trans <| (V44_of m outs c main_arg7 (by decide)).trans <| (V43_of m outs c main_arg7 (by decide)).trans <| (V42_of m outs c main_arg7 (by decide)).trans <| (V41_of m outs c main_arg7 (by decide)).trans <| (V40_of m outs c main_arg7 (by decide)).trans <| (V39_of m outs c main_arg7 (by decide)).trans <| (V38_of m outs c main_arg7 (by decide)).trans <| (V37_of m outs c main_arg7 (by decide)).trans <| (V36_of m outs c main_arg7 (by decide)).trans <| (V35_of m outs c main_arg7 (by decide)).trans <| (V34_of m outs c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide)).trans <| (V26_of m c main_arg7 (by decide)).trans <| (V25_of m c main_arg7 (by decide)).trans <| (V24_of m c main_arg7 (by decide)).trans <| (V23_of m c main_arg7 (by decide)).trans <| (V22_of m c main_arg7 (by decide)).trans <| (V21_of m c main_arg7 (by decide)).trans <| (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
  rw [h, hp]
  refine (vc_cast_row_apply _ _ f).trans ?_
  exact congrFun (Cert.ReferenceIdeal.Hand.sliceCast_eq_rowOf (3 : Fin 4) _ _ _) (ValueIdx.ix1 f)

/-! ### The head -/

theorem hd_x : (V53 m outs c main_v155 : S100000x128.Idx → EReal) = (V52 m outs c main_v155 : S100000x128.Idx → EReal) :=
  (V53_of m outs c main_v155 (by decide))
theorem hd_w1 : (V53 m outs c main_arg8 : S128x128.Idx → EReal) = m ((c : Thread nD τ).loc main_arg8) :=
  (V53_of m outs c main_arg8 (by decide)).trans <| (V52_of m outs c main_arg8 (by decide)).trans <| (V51_of m outs c main_arg8 (by decide)).trans <| (V50_of m outs c main_arg8 (by decide)).trans <| (V49_of m outs c main_arg8 (by decide)).trans <| (V48_of m outs c main_arg8 (by decide)).trans <| (V47_of m outs c main_arg8 (by decide)).trans <| (V46_of m outs c main_arg8 (by decide)).trans <| (V45_of m outs c main_arg8 (by decide)).trans <| (V44_of m outs c main_arg8 (by decide)).trans <| (V43_of m outs c main_arg8 (by decide)).trans <| (V42_of m outs c main_arg8 (by decide)).trans <| (V41_of m outs c main_arg8 (by decide)).trans <| (V40_of m outs c main_arg8 (by decide)).trans <| (V39_of m outs c main_arg8 (by decide)).trans <| (V38_of m outs c main_arg8 (by decide)).trans <| (V37_of m outs c main_arg8 (by decide)).trans <| (V36_of m outs c main_arg8 (by decide)).trans <| (V35_of m outs c main_arg8 (by decide)).trans <| (V34_of m outs c main_arg8 (by decide)).trans <| (V33_of m c main_arg8 (by decide)).trans <| (V32_of m c main_arg8 (by decide)).trans <| (V31_of m c main_arg8 (by decide)).trans <| (V30_of m c main_arg8 (by decide)).trans <| (V29_of m c main_arg8 (by decide)).trans <| (V28_of m c main_arg8 (by decide)).trans <| (V27_of m c main_arg8 (by decide)).trans <| (V26_of m c main_arg8 (by decide)).trans <| (V25_of m c main_arg8 (by decide)).trans <| (V24_of m c main_arg8 (by decide)).trans <| (V23_of m c main_arg8 (by decide)).trans <| (V22_of m c main_arg8 (by decide)).trans <| (V21_of m c main_arg8 (by decide)).trans <| (V20_of m c main_arg8 (by decide)).trans <| (V19_of m c main_arg8 (by decide)).trans <| (V18_of m c main_arg8 (by decide)).trans <| (V17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem hd_w2 : (V53 m outs c main_arg10 : S128x64.Idx → EReal) = m ((c : Thread nD τ).loc main_arg10) :=
  (V53_of m outs c main_arg10 (by decide)).trans <| (V52_of m outs c main_arg10 (by decide)).trans <| (V51_of m outs c main_arg10 (by decide)).trans <| (V50_of m outs c main_arg10 (by decide)).trans <| (V49_of m outs c main_arg10 (by decide)).trans <| (V48_of m outs c main_arg10 (by decide)).trans <| (V47_of m outs c main_arg10 (by decide)).trans <| (V46_of m outs c main_arg10 (by decide)).trans <| (V45_of m outs c main_arg10 (by decide)).trans <| (V44_of m outs c main_arg10 (by decide)).trans <| (V43_of m outs c main_arg10 (by decide)).trans <| (V42_of m outs c main_arg10 (by decide)).trans <| (V41_of m outs c main_arg10 (by decide)).trans <| (V40_of m outs c main_arg10 (by decide)).trans <| (V39_of m outs c main_arg10 (by decide)).trans <| (V38_of m outs c main_arg10 (by decide)).trans <| (V37_of m outs c main_arg10 (by decide)).trans <| (V36_of m outs c main_arg10 (by decide)).trans <| (V35_of m outs c main_arg10 (by decide)).trans <| (V34_of m outs c main_arg10 (by decide)).trans <| (V33_of m c main_arg10 (by decide)).trans <| (V32_of m c main_arg10 (by decide)).trans <| (V31_of m c main_arg10 (by decide)).trans <| (V30_of m c main_arg10 (by decide)).trans <| (V29_of m c main_arg10 (by decide)).trans <| (V28_of m c main_arg10 (by decide)).trans <| (V27_of m c main_arg10 (by decide)).trans <| (V26_of m c main_arg10 (by decide)).trans <| (V25_of m c main_arg10 (by decide)).trans <| (V24_of m c main_arg10 (by decide)).trans <| (V23_of m c main_arg10 (by decide)).trans <| (V22_of m c main_arg10 (by decide)).trans <| (V21_of m c main_arg10 (by decide)).trans <| (V20_of m c main_arg10 (by decide)).trans <| (V19_of m c main_arg10 (by decide)).trans <| (V18_of m c main_arg10 (by decide)).trans <| (V17_of m c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem hd_b1 (l : Fin 128) : (V53 m outs c main_v156 : S1x128.Idx → EReal) (ValueIdx.ix2 (0 : Fin 1) l)
    = (m ((c : Thread nD τ).loc main_arg9) : S128.Idx → EReal) (ValueIdx.ix1 l) := by
  have h : (V53 m outs c main_v156 : S1x128.Idx → EReal) = shapeCast S1x128 (V52 m outs c main_arg9 : S128.Idx → EReal) shapeCasts_S128_S1x128 := by
    show StableHlo.after hostOps12 (V52 m outs c) (Proc.devRef .tc main_v156) = _
    generalize V52 m outs c = W
    after_results
    all_goals rfl
  have hp : (V52 m outs c main_arg9 : S128.Idx → EReal) = m ((c : Thread nD τ).loc main_arg9) :=
    (V52_of m outs c main_arg9 (by decide)).trans <| (V51_of m outs c main_arg9 (by decide)).trans <| (V50_of m outs c main_arg9 (by decide)).trans <| (V49_of m outs c main_arg9 (by decide)).trans <| (V48_of m outs c main_arg9 (by decide)).trans <| (V47_of m outs c main_arg9 (by decide)).trans <| (V46_of m outs c main_arg9 (by decide)).trans <| (V45_of m outs c main_arg9 (by decide)).trans <| (V44_of m outs c main_arg9 (by decide)).trans <| (V43_of m outs c main_arg9 (by decide)).trans <| (V42_of m outs c main_arg9 (by decide)).trans <| (V41_of m outs c main_arg9 (by decide)).trans <| (V40_of m outs c main_arg9 (by decide)).trans <| (V39_of m outs c main_arg9 (by decide)).trans <| (V38_of m outs c main_arg9 (by decide)).trans <| (V37_of m outs c main_arg9 (by decide)).trans <| (V36_of m outs c main_arg9 (by decide)).trans <| (V35_of m outs c main_arg9 (by decide)).trans <| (V34_of m outs c main_arg9 (by decide)).trans <| (V33_of m c main_arg9 (by decide)).trans <| (V32_of m c main_arg9 (by decide)).trans <| (V31_of m c main_arg9 (by decide)).trans <| (V30_of m c main_arg9 (by decide)).trans <| (V29_of m c main_arg9 (by decide)).trans <| (V28_of m c main_arg9 (by decide)).trans <| (V27_of m c main_arg9 (by decide)).trans <| (V26_of m c main_arg9 (by decide)).trans <| (V25_of m c main_arg9 (by decide)).trans <| (V24_of m c main_arg9 (by decide)).trans <| (V23_of m c main_arg9 (by decide)).trans <| (V22_of m c main_arg9 (by decide)).trans <| (V21_of m c main_arg9 (by decide)).trans <| (V20_of m c main_arg9 (by decide)).trans <| (V19_of m c main_arg9 (by decide)).trans <| (V18_of m c main_arg9 (by decide)).trans <| (V17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
  rw [h, hp]
  exact vc_cast_row_apply _ _ l
theorem hd_b2 (k : Fin 64) : (V53 m outs c main_v157 : S1x64.Idx → EReal) (ValueIdx.ix2 (0 : Fin 1) k)
    = (m ((c : Thread nD τ).loc main_arg11) : S64.Idx → EReal) (ValueIdx.ix1 k) := by
  have h : (V53 m outs c main_v157 : S1x64.Idx → EReal) = shapeCast S1x64 (V52 m outs c main_arg11 : S64.Idx → EReal) shapeCasts_S64_S1x64 := by
    show StableHlo.after hostOps12 (V52 m outs c) (Proc.devRef .tc main_v157) = _
    generalize V52 m outs c = W
    after_results
    all_goals rfl
  have hp : (V52 m outs c main_arg11 : S64.Idx → EReal) = m ((c : Thread nD τ).loc main_arg11) :=
    (V52_of m outs c main_arg11 (by decide)).trans <| (V51_of m outs c main_arg11 (by decide)).trans <| (V50_of m outs c main_arg11 (by decide)).trans <| (V49_of m outs c main_arg11 (by decide)).trans <| (V48_of m outs c main_arg11 (by decide)).trans <| (V47_of m outs c main_arg11 (by decide)).trans <| (V46_of m outs c main_arg11 (by decide)).trans <| (V45_of m outs c main_arg11 (by decide)).trans <| (V44_of m outs c main_arg11 (by decide)).trans <| (V43_of m outs c main_arg11 (by decide)).trans <| (V42_of m outs c main_arg11 (by decide)).trans <| (V41_of m outs c main_arg11 (by decide)).trans <| (V40_of m outs c main_arg11 (by decide)).trans <| (V39_of m outs c main_arg11 (by decide)).trans <| (V38_of m outs c main_arg11 (by decide)).trans <| (V37_of m outs c main_arg11 (by decide)).trans <| (V36_of m outs c main_arg11 (by decide)).trans <| (V35_of m outs c main_arg11 (by decide)).trans <| (V34_of m outs c main_arg11 (by decide)).trans <| (V33_of m c main_arg11 (by decide)).trans <| (V32_of m c main_arg11 (by decide)).trans <| (V31_of m c main_arg11 (by decide)).trans <| (V30_of m c main_arg11 (by decide)).trans <| (V29_of m c main_arg11 (by decide)).trans <| (V28_of m c main_arg11 (by decide)).trans <| (V27_of m c main_arg11 (by decide)).trans <| (V26_of m c main_arg11 (by decide)).trans <| (V25_of m c main_arg11 (by decide)).trans <| (V24_of m c main_arg11 (by decide)).trans <| (V23_of m c main_arg11 (by decide)).trans <| (V22_of m c main_arg11 (by decide)).trans <| (V21_of m c main_arg11 (by decide)).trans <| (V20_of m c main_arg11 (by decide)).trans <| (V19_of m c main_arg11 (by decide)).trans <| (V18_of m c main_arg11 (by decide)).trans <| (V17_of m c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
  rw [h, hp]
  exact vc_cast_row_apply _ _ k
theorem hd_w3 (k : Fin 64) (q : Fin 128) (hq : q.val < 32) : (V53 m outs c main_v115 : S64x128.Idx → EReal) (ValueIdx.ix2 k q)
    = (m ((c : Thread nD τ).loc main_arg12) : S64x32.Idx → EReal) (ValueIdx.ix2 k (⟨q.val, hq⟩ : Fin 32)) := by
  obtain ⟨v, h⟩ : ∃ v : S_.Idx → EReal, (V30 m c main_v115 : S64x128.Idx → EReal)
      = pad S64x128 ![0, 0] ![0, 96] ![0, 0] (V29 m c main_arg12 : S64x32.Idx → EReal) v pads_S64x32_S64x128_000_0960 h_S_ := by
    refine ⟨sitofp (F := Ideal) .f32 (V29 m c main_c_41 : S_.Idx → BitVec 32), ?_⟩
    show StableHlo.after hostOps0_29 (V29 m c) (Proc.devRef .tc main_v115) = _
    generalize V29 m c = W
    after_results
    all_goals rfl
  have hp : (V29 m c main_arg12 : S64x32.Idx → EReal) = m ((c : Thread nD τ).loc main_arg12) :=
    (V29_of m c main_arg12 (by decide)).trans <| (V28_of m c main_arg12 (by decide)).trans <| (V27_of m c main_arg12 (by decide)).trans <| (V26_of m c main_arg12 (by decide)).trans <| (V25_of m c main_arg12 (by decide)).trans <| (V24_of m c main_arg12 (by decide)).trans <| (V23_of m c main_arg12 (by decide)).trans <| (V22_of m c main_arg12 (by decide)).trans <| (V21_of m c main_arg12 (by decide)).trans <| (V20_of m c main_arg12 (by decide)).trans <| (V19_of m c main_arg12 (by decide)).trans <| (V18_of m c main_arg12 (by decide)).trans <| (V17_of m c main_arg12 (by decide)).trans <| (V16_of m c main_arg12 (by decide)).trans <| (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl
  have hq' : (V53 m outs c main_v115 : S64x128.Idx → EReal) = (V30 m c main_v115 : S64x128.Idx → EReal) :=
    (V53_of m outs c main_v115 (by decide)).trans <| (V52_of m outs c main_v115 (by decide)).trans <| (V51_of m outs c main_v115 (by decide)).trans <| (V50_of m outs c main_v115 (by decide)).trans <| (V49_of m outs c main_v115 (by decide)).trans <| (V48_of m outs c main_v115 (by decide)).trans <| (V47_of m outs c main_v115 (by decide)).trans <| (V46_of m outs c main_v115 (by decide)).trans <| (V45_of m outs c main_v115 (by decide)).trans <| (V44_of m outs c main_v115 (by decide)).trans <| (V43_of m outs c main_v115 (by decide)).trans <| (V42_of m outs c main_v115 (by decide)).trans <| (V41_of m outs c main_v115 (by decide)).trans <| (V40_of m outs c main_v115 (by decide)).trans <| (V39_of m outs c main_v115 (by decide)).trans <| (V38_of m outs c main_v115 (by decide)).trans <| (V37_of m outs c main_v115 (by decide)).trans <| (V36_of m outs c main_v115 (by decide)).trans <| (V35_of m outs c main_v115 (by decide)).trans <| (V34_of m outs c main_v115 (by decide)).trans <| (V33_of m c main_v115 (by decide)).trans <| (V32_of m c main_v115 (by decide)).trans <| (V31_of m c main_v115 (by decide))
  rw [hq', h, hp]
  exact vc_pad_cols_apply (K := 64) (N := 32) (P := 96) _ v _ _ k q hq
theorem hd_b3 (q : Fin 128) (hq : q.val < 32) : (V53 m outs c main_v117 : S1x128.Idx → EReal) (ValueIdx.ix2 (0 : Fin 1) q)
    = (m ((c : Thread nD τ).loc main_arg13) : S32.Idx → EReal) (ValueIdx.ix1 (⟨q.val, hq⟩ : Fin 32)) := by
  have h1 : (V33 m c main_v117 : S1x128.Idx → EReal) = shapeCast S1x128 (V32 m c main_v116 : S128.Idx → EReal) shapeCasts_S128_S1x128 := by
    show StableHlo.after hostOps0_32 (V32 m c) (Proc.devRef .tc main_v117) = _
    generalize V32 m c = W
    after_results
    all_goals rfl
  obtain ⟨v, h2⟩ : ∃ v : S_.Idx → EReal, (V32 m c main_v116 : S128.Idx → EReal)
      = pad S128 ![0] ![96] ![0] (V31 m c main_arg13 : S32.Idx → EReal) v pads_S32_S128_0960 h_S_ := by
    refine ⟨sitofp (F := Ideal) .f32 (V31 m c main_c_42 : S_.Idx → BitVec 32), ?_⟩
    show StableHlo.after hostOps0_31 (V31 m c) (Proc.devRef .tc main_v116) = _
    generalize V31 m c = W
    after_results
    all_goals rfl
  have hp : (V31 m c main_arg13 : S32.Idx → EReal) = m ((c : Thread nD τ).loc main_arg13) :=
    (V31_of m c main_arg13 (by decide)).trans <| (V30_of m c main_arg13 (by decide)).trans <| (V29_of m c main_arg13 (by decide)).trans <| (V28_of m c main_arg13 (by decide)).trans <| (V27_of m c main_arg13 (by decide)).trans <| (V26_of m c main_arg13 (by decide)).trans <| (V25_of m c main_arg13 (by decide)).trans <| (V24_of m c main_arg13 (by decide)).trans <| (V23_of m c main_arg13 (by decide)).trans <| (V22_of m c main_arg13 (by decide)).trans <| (V21_of m c main_arg13 (by decide)).trans <| (V20_of m c main_arg13 (by decide)).trans <| (V19_of m c main_arg13 (by decide)).trans <| (V18_of m c main_arg13 (by decide)).trans <| (V17_of m c main_arg13 (by decide)).trans <| (V16_of m c main_arg13 (by decide)).trans <| (V15_of m c main_arg13 (by decide)).trans <| (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl
  have hq' : (V53 m outs c main_v117 : S1x128.Idx → EReal) = (V33 m c main_v117 : S1x128.Idx → EReal) :=
    (V53_of m outs c main_v117 (by decide)).trans <| (V52_of m outs c main_v117 (by decide)).trans <| (V51_of m outs c main_v117 (by decide)).trans <| (V50_of m outs c main_v117 (by decide)).trans <| (V49_of m outs c main_v117 (by decide)).trans <| (V48_of m outs c main_v117 (by decide)).trans <| (V47_of m outs c main_v117 (by decide)).trans <| (V46_of m outs c main_v117 (by decide)).trans <| (V45_of m outs c main_v117 (by decide)).trans <| (V44_of m outs c main_v117 (by decide)).trans <| (V43_of m outs c main_v117 (by decide)).trans <| (V42_of m outs c main_v117 (by decide)).trans <| (V41_of m outs c main_v117 (by decide)).trans <| (V40_of m outs c main_v117 (by decide)).trans <| (V39_of m outs c main_v117 (by decide)).trans <| (V38_of m outs c main_v117 (by decide)).trans <| (V37_of m outs c main_v117 (by decide)).trans <| (V36_of m outs c main_v117 (by decide)).trans <| (V35_of m outs c main_v117 (by decide)).trans <| (V34_of m outs c main_v117 (by decide))
  rw [hq', h1, h2, hp]
  refine (vc_cast_row_apply _ _ q).trans ?_
  exact vc_pad_row_apply (N := 32) (P := 96) _ v _ _ q hq
/-- The result is the first 32 columns of the head's array. -/
theorem res_slice (n : Fin 100000) (f : Fin 32) (hf : f.val < 128) : (V55 m outs c main_v159 : S100000x32.Idx → EReal) (ValueIdx.ix2 n f)
    = (V54 m outs c main_v158 : S100000x128.Idx → EReal) (ValueIdx.ix2 n (⟨f.val, hf⟩ : Fin 128)) := by
  have h : (V55 m outs c main_v159 : S100000x32.Idx → EReal)
      = extractStridedSlice S100000x32 ![0, 0] (V54 m outs c main_v158 : S100000x128.Idx → EReal) slices_S100000x128_S100000x32_0_0 := by
    show StableHlo.after hostOps13 (V54 m outs c) (Proc.devRef .tc main_v159) = _
    generalize V54 m outs c = W
    after_results
    all_goals rfl
  rw [h]
  exact extractStridedSlice_apply _ _ _ (ValueIdx.ix2 n f) (ValueIdx.ix2 n (⟨f.val, hf⟩ : Fin 128)) (fun a => match a with
    | ⟨0, _⟩ => by show n.val = 0 + n.val; omega
    | ⟨1, _⟩ => by show f.val = 0 + f.val; omega)

/-! ## The specification's head, entry by entry -/

theorem vc_headPre_at (L : Mat 100000 128) (W₁ : Mat 128 128) (b₁ : Row 128) (W₂ : Mat 128 64) (b₂ : Row 64) (W₃ : Mat 64 32) (b₃ : Row 32)
    (n : Fin 100000) (f : Fin 32) :
    headPre L W₁ b₁ W₂ b₂ W₃ b₃ (ValueIdx.ix2 n f)
      = (∑ k : Fin 64, max ((∑ l : Fin 128, max ((∑ p : Fin 128, max (L (ValueIdx.ix2 n p)) 0 * W₁ (ValueIdx.ix2 p l)) + b₁ (ValueIdx.ix1 l)) 0
          * W₂ (ValueIdx.ix2 l k)) + b₂ (ValueIdx.ix1 k)) 0 * W₃ (ValueIdx.ix2 k f)) + b₃ (ValueIdx.ix1 f) := by
  simp only [headPre, Cert.ReferenceIdeal.Hand.dense_apply, Cert.ReferenceIdeal.Hand.mm_apply, Cert.ReferenceIdeal.Hand.relu_apply]

theorem vc_tanh (x : Ideal .f32) : FloatOps.hostUnary (F := Ideal) (φ := .f32) HostUnaryOp.tanh x = Ideal.tanh x := rfl

theorem vc_refOutOf_at (rowv colv : Words 625000) (nrm : Row 625000) (h0 : Mat 100000 128) (W₀ : Mat 128 128)
    (Ws : Stack 3 128 128) (RWs : Stack 4 128 128) (Bs : Mat 4 128) (W₁ : Mat 128 128) (b₁ : Row 128)
    (W₂ : Mat 128 64) (b₂ : Row 64) (W₃ : Mat 64 32) (b₃ : Row 32) (n : Fin 100000) (f : Fin 32) :
    refOutOf rowv colv nrm h0 W₀ Ws RWs Bs W₁ b₁ W₂ b₂ W₃ b₃ (ValueIdx.ix2 n f)
      = Ideal.tanh (headPre (layers rowv colv nrm h0 W₀ Ws RWs Bs) W₁ b₁ W₂ b₂ W₃ b₃ (ValueIdx.ix2 n f)) := by
  show FloatOps.hostUnary (F := Ideal) (φ := .f32) HostUnaryOp.tanh _ = _
  exact vc_tanh _

/-! ## The network -/

section Network

/-- What a dense region leaves: the product of its two arrays. -/
def DenseVal (X : S100000x128.Idx → EReal) (Wt : S128x128.Idx → EReal) (tmp : S100000x128.Idx → EReal) : Prop :=
  ∀ (n : Fin 100000) (f : Fin 128), tmp (ValueIdx.ix2 n f) = ∑ k : Fin 128, X (ValueIdx.ix2 n k) * Wt (ValueIdx.ix2 k f)

/-- What a gather region leaves: at sorted position e, the gated sum over the 125 node blocks of the one-hot products of
    the position's source word with the block's rows of tmp, times the position's weight. -/
def GatherVal (gateG : Fin 123 → Fin 125 → Prop) [∀ i, DecidablePred (gateG i)] (hjr : ∀ (j : Fin 125) (r : Fin 800), j.val * 800 + r.val < 100000)
    (row2 : S1x629760.Idx → BitVec 32) (tmp : S100000x128.Idx → EReal) (normc : S629760x1.Idx → EReal)
    (scaled : S629760x128.Idx → EReal) : Prop :=
  ∀ (e : Fin 629760) (f : Fin 128), scaled (ValueIdx.ix2 e f)
    = (∑ j : Fin 125, if gateG ⟨e.val / 5120, Cert.Math.blk_lt e⟩ j then
        ∑ r : Fin 800, (if j.val * 800 + r.val = (row2 (ValueIdx.ix2 (0 : Fin 1) e)).toNat then (1 : EReal) else 0)
          * tmp (ValueIdx.ix2 (⟨j.val * 800 + r.val, hjr j r⟩ : Fin 100000) f) else 0) * normc (ValueIdx.ix2 e (0 : Fin 1))

/-- What a scatter region leaves: at node n, the positive part of the gated sum over the 123 edge blocks of the one-hot
    products of the block's target words with its scaled rows, plus h0 times the root weight, plus the bias. -/
def ScatterVal (gateS : ℕ → Fin 123 → Prop) [∀ i, DecidablePred (gateS i)] (epos : Fin 123 → Fin 5120 → Fin 629760) (col2 : S1x629760.Idx → BitVec 32) (scaled : S629760x128.Idx → EReal) (h0 : S100000x128.Idx → EReal)
    (rw : S128x128.Idx → EReal) (bb : S1x128.Idx → EReal) (out : S100000x128.Idx → EReal) : Prop :=
  ∀ (n : Fin 100000) (f : Fin 128), out (ValueIdx.ix2 n f)
    = max ((∑ j : Fin 123, if gateS (n.val / 2000) j then
          ∑ k : Fin 5120, (if (col2 (ValueIdx.ix2 (0 : Fin 1) (epos j k))).toNat = n.val then (1 : EReal) else 0)
            * scaled (ValueIdx.ix2 (epos j k) f) else 0)
        + ∑ k : Fin 128, h0 (ValueIdx.ix2 n k) * rw (ValueIdx.ix2 k f) + bb (ValueIdx.ix2 (0 : Fin 1) f)) 0

/-- What the head region leaves: three affine layers, the positive part before each, then the hyperbolic tangent. -/
def HeadVal (X : S100000x128.Idx → EReal) (W1 : S128x128.Idx → EReal) (b1 : S1x128.Idx → EReal) (W2 : S128x64.Idx → EReal)
    (b2 : S1x64.Idx → EReal) (W3 : S64x128.Idx → EReal) (b3 : S1x128.Idx → EReal) (out : S100000x128.Idx → EReal) : Prop :=
  ∀ (n : Fin 100000) (q : Fin 128), out (ValueIdx.ix2 n q)
    = Ideal.tanh ((∑ k : Fin 64, max ((∑ l : Fin 128, max ((∑ p : Fin 128, max (X (ValueIdx.ix2 n p)) 0 * W1 (ValueIdx.ix2 p l))
        + b1 (ValueIdx.ix2 (0 : Fin 1) l)) 0 * W2 (ValueIdx.ix2 l k)) + b2 (ValueIdx.ix2 (0 : Fin 1) k)) 0 * W3 (ValueIdx.ix2 k q))
        + b3 (ValueIdx.ix2 (0 : Fin 1) q))

/-- THE KERNEL PROGRAM'S RESULT, given what each region leaves (its value lemma, read at the valuations of the chain) and
    that the gates hold wherever the table words bracket: the specification's network at the program's host values. -/
theorem kernel_value_of
    (gateG0 : Fin 123 → Fin 125 → Prop) [∀ i, DecidablePred (gateG0 i)] (gateS0 : ℕ → Fin 123 → Prop) [∀ i, DecidablePred (gateS0 i)]
    (epos0 : Fin 123 → Fin 5120 → Fin 629760)
    (gateG1 : Fin 123 → Fin 125 → Prop) [∀ i, DecidablePred (gateG1 i)] (gateS1 : ℕ → Fin 123 → Prop) [∀ i, DecidablePred (gateS1 i)]
    (epos1 : Fin 123 → Fin 5120 → Fin 629760)
    (gateG2 : Fin 123 → Fin 125 → Prop) [∀ i, DecidablePred (gateG2 i)] (gateS2 : ℕ → Fin 123 → Prop) [∀ i, DecidablePred (gateS2 i)]
    (epos2 : Fin 123 → Fin 5120 → Fin 629760)
    (gateG3 : Fin 123 → Fin 125 → Prop) [∀ i, DecidablePred (gateG3 i)] (gateS3 : ℕ → Fin 123 → Prop) [∀ i, DecidablePred (gateS3 i)]
    (epos3 : Fin 123 → Fin 5120 → Fin 629760)
    (hrow : RowOK (rowK m c))
    (hgG0 : ∀ (i : Fin 123) (j : Fin 125), ((V33 m c main_v86 : S123.Idx → BitVec 32) (Shape.Idx.ofFin i)).toNat ≤ j.val →
      j.val ≤ ((V33 m c main_v89 : S123.Idx → BitVec 32) (Shape.Idx.ofFin i)).toNat → gateG0 i j)
    (hgS0 : ∀ (i : Fin 50) (j : Fin 123), ((V33 m c main_v81 : S123.Idx → BitVec 32) (Shape.Idx.ofFin j)).toInt ≤ (i.val : ℤ) →
      (i.val : ℤ) ≤ ((V33 m c main_v82 : S123.Idx → BitVec 32) (Shape.Idx.ofFin j)).toInt → gateS0 i.val j)
    (hepos0 : ∀ j k, (epos0 j k).val = j.val * 5120 + k.val)
    (hgG1 : ∀ (i : Fin 123) (j : Fin 125), ((V33 m c main_v86 : S123.Idx → BitVec 32) (Shape.Idx.ofFin i)).toNat ≤ j.val →
      j.val ≤ ((V33 m c main_v89 : S123.Idx → BitVec 32) (Shape.Idx.ofFin i)).toNat → gateG1 i j)
    (hgS1 : ∀ (i : Fin 50) (j : Fin 123), ((V33 m c main_v81 : S123.Idx → BitVec 32) (Shape.Idx.ofFin j)).toInt ≤ (i.val : ℤ) →
      (i.val : ℤ) ≤ ((V33 m c main_v82 : S123.Idx → BitVec 32) (Shape.Idx.ofFin j)).toInt → gateS1 i.val j)
    (hepos1 : ∀ j k, (epos1 j k).val = j.val * 5120 + k.val)
    (hgG2 : ∀ (i : Fin 123) (j : Fin 125), ((V33 m c main_v86 : S123.Idx → BitVec 32) (Shape.Idx.ofFin i)).toNat ≤ j.val →
      j.val ≤ ((V33 m c main_v89 : S123.Idx → BitVec 32) (Shape.Idx.ofFin i)).toNat → gateG2 i j)
    (hgS2 : ∀ (i : Fin 50) (j : Fin 123), ((V33 m c main_v81 : S123.Idx → BitVec 32) (Shape.Idx.ofFin j)).toInt ≤ (i.val : ℤ) →
      (i.val : ℤ) ≤ ((V33 m c main_v82 : S123.Idx → BitVec 32) (Shape.Idx.ofFin j)).toInt → gateS2 i.val j)
    (hepos2 : ∀ j k, (epos2 j k).val = j.val * 5120 + k.val)
    (hgG3 : ∀ (i : Fin 123) (j : Fin 125), ((V33 m c main_v86 : S123.Idx → BitVec 32) (Shape.Idx.ofFin i)).toNat ≤ j.val →
      j.val ≤ ((V33 m c main_v89 : S123.Idx → BitVec 32) (Shape.Idx.ofFin i)).toNat → gateG3 i j)
    (hgS3 : ∀ (i : Fin 50) (j : Fin 123), ((V33 m c main_v81 : S123.Idx → BitVec 32) (Shape.Idx.ofFin j)).toInt ≤ (i.val : ℤ) →
      (i.val : ℤ) ≤ ((V33 m c main_v82 : S123.Idx → BitVec 32) (Shape.Idx.ofFin j)).toInt → gateS3 i.val j)
    (hepos3 : ∀ j k, (epos3 j k).val = j.val * 5120 + k.val)
    (hjr : ∀ (j : Fin 125) (r : Fin 800), j.val * 800 + r.val < 100000)
    (hd0 : DenseVal (V33 m c main_v6) (V33 m c main_arg4) (V34 m outs c main_v118))
    (hg0 : GatherVal gateG0 hjr (V34 m outs c main_v112) (V34 m outs c main_v118) (V34 m outs c main_v114) (V35 m outs c main_v119))
    (hs0 : ScatterVal gateS0 epos0 (V36 m outs c main_v113) (V36 m outs c main_v119) (V36 m outs c main_v6) (V36 m outs c main_v121) (V36 m outs c main_v124) (V37 m outs c main_v125))
    (hd1 : DenseVal (V38 m outs c main_v125) (V38 m outs c main_v127) (V39 m outs c main_v128))
    (hg1 : GatherVal gateG1 hjr (V39 m outs c main_v112) (V39 m outs c main_v128) (V39 m outs c main_v114) (V40 m outs c main_v129))
    (hs1 : ScatterVal gateS1 epos1 (V41 m outs c main_v113) (V41 m outs c main_v129) (V41 m outs c main_v6) (V41 m outs c main_v131) (V41 m outs c main_v134) (V42 m outs c main_v135))
    (hd2 : DenseVal (V43 m outs c main_v135) (V43 m outs c main_v137) (V44 m outs c main_v138))
    (hg2 : GatherVal gateG2 hjr (V44 m outs c main_v112) (V44 m outs c main_v138) (V44 m outs c main_v114) (V45 m outs c main_v139))
    (hs2 : ScatterVal gateS2 epos2 (V46 m outs c main_v113) (V46 m outs c main_v139) (V46 m outs c main_v6) (V46 m outs c main_v141) (V46 m outs c main_v144) (V47 m outs c main_v145))
    (hd3 : DenseVal (V48 m outs c main_v145) (V48 m outs c main_v147) (V49 m outs c main_v148))
    (hg3 : GatherVal gateG3 hjr (V49 m outs c main_v112) (V49 m outs c main_v148) (V49 m outs c main_v114) (V50 m outs c main_v149))
    (hs3 : ScatterVal gateS3 epos3 (V51 m outs c main_v113) (V51 m outs c main_v149) (V51 m outs c main_v6) (V51 m outs c main_v151) (V51 m outs c main_v154) (V52 m outs c main_v155))
    (hh : HeadVal (V53 m outs c main_v155) (V53 m outs c main_arg8) (V53 m outs c main_v156) (V53 m outs c main_arg10) (V53 m outs c main_v157) (V53 m outs c main_v115) (V53 m outs c main_v117) (V54 m outs c main_v158)) :
    (V55 m outs c main_v159 : S100000x32.Idx → EReal)
      = refOutOf (rowK m c) (colK m c) (nrmK m c) (h0K m c)
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) := by
  -- the gates hold wherever a word matches, by the tables' bracketing facts
  have hG : ∀ (gateG : Fin 123 → Fin 125 → Prop) (hgG : ∀ (i : Fin 123) (j : Fin 125),
      ((V33 m c main_v86 : S123.Idx → BitVec 32) (Shape.Idx.ofFin i)).toNat ≤ j.val →
      j.val ≤ ((V33 m c main_v89 : S123.Idx → BitVec 32) (Shape.Idx.ofFin i)).toNat → gateG i j)
      (e : Fin 629760), ((V33 m c main_v112 : S1x629760.Idx → BitVec 32) (ValueIdx.ix2 (0 : Fin 1) e)).toNat < 100000 →
      ∀ j : Fin 125, j.val = ((V33 m c main_v112 : S1x629760.Idx → BitVec 32) (ValueIdx.ix2 (0 : Fin 1) e)).toNat / 800 →
        gateG ⟨e.val / 5120, Cert.Math.blk_lt e⟩ j := by
    intro gateG hgG e hr j hj
    obtain ⟨h1, h2⟩ := gateG_words m c e hr
    exact hgG ⟨e.val / 5120, Cert.Math.blk_lt e⟩ j (by rw [hj]; exact h1) (by rw [hj]; exact h2)
  have hS : ∀ (gateS : ℕ → Fin 123 → Prop) (hgS : ∀ (i : Fin 50) (j : Fin 123),
      ((V33 m c main_v81 : S123.Idx → BitVec 32) (Shape.Idx.ofFin j)).toInt ≤ (i.val : ℤ) →
      (i.val : ℤ) ≤ ((V33 m c main_v82 : S123.Idx → BitVec 32) (Shape.Idx.ofFin j)).toInt → gateS i.val j)
      (e : Fin 629760), ((V33 m c main_v113 : S1x629760.Idx → BitVec 32) (ValueIdx.ix2 (0 : Fin 1) e)).toNat < 100000 →
      ∀ j : Fin 123, j.val = e.val / 5120 →
        gateS (((V33 m c main_v113 : S1x629760.Idx → BitVec 32) (ValueIdx.ix2 (0 : Fin 1) e)).toNat / 2000) j := by
    intro gateS hgS e hk j hj
    obtain ⟨h1, h2⟩ := gateS_words m c e hk
    have hj' : j = (⟨e.val / 5120, by have := e.isLt; omega⟩ : Fin 123) := Fin.ext hj
    rw [hj']
    exact hgS ⟨((V33 m c main_v113 : S1x629760.Idx → BitVec 32) (ValueIdx.ix2 (0 : Fin 1) e)).toNat / 2000, by omega⟩ _ h1 h2
  -- layer 0
  have L0 : (V37 m outs c main_v125 : S100000x128.Idx → EReal)
      = layer (rowK m c) (colK m c) (nrmK m c) (h0K m c) (m ((c : Thread nD τ).loc main_arg4))
          (slab ((m ((c : Thread nD τ).loc main_arg6)) : S4x128x128.Idx → EReal) (0 : Fin 4)) (rowOf ((m ((c : Thread nD τ).loc main_arg7)) : S4x128.Idx → EReal) (0 : Fin 4)) (h0K m c) := by
    refine Cert.Math.layer_eq (rowK m c) (colK m c) (nrmK m c) (h0K m c) (h0K m c) _ _ _
      (V33 m c main_v112 : S1x629760.Idx → BitVec 32) (V33 m c main_v113 : S1x629760.Idx → BitVec 32)
      (V33 m c main_v114 : S629760x1.Idx → EReal) (V36 m outs c main_v124 : S1x128.Idx → EReal) gateG0 gateS0 epos0
      (V34 m outs c main_v118 : S100000x128.Idx → EReal) (V35 m outs c main_v119 : S629760x128.Idx → EReal)
      (V37 m outs c main_v125 : S100000x128.Idx → EReal)
      hrow (edgePerm m c) (row2K_eq m c) (col2K_eq m c) (normcK_eq m c) (hG gateG0 hgG0) (hS gateS0 hgS0) hepos0 (s0_bb m outs c) ?_ hjr ?_ ?_
    · intro n f
      rw [hd0 n f, V33_arg4 m c]
    · intro e f
      rw [hg0 e f, g0_row2 m outs c, g0_normc m outs c]
    · intro n f
      rw [hs0 n f, s0_col2 m outs c, s0_scaled m outs c, s0_h0 m outs c, s0_rw m outs c]
  -- layer 1
  have L1 : (V42 m outs c main_v135 : S100000x128.Idx → EReal)
      = layer (rowK m c) (colK m c) (nrmK m c) (h0K m c) (slab ((m ((c : Thread nD τ).loc main_arg5)) : S3x128x128.Idx → EReal) (0 : Fin 3))
          (slab ((m ((c : Thread nD τ).loc main_arg6)) : S4x128x128.Idx → EReal) (1 : Fin 4)) (rowOf ((m ((c : Thread nD τ).loc main_arg7)) : S4x128.Idx → EReal) (1 : Fin 4)) (V37 m outs c main_v125 : S100000x128.Idx → EReal) := by
    refine Cert.Math.layer_eq (rowK m c) (colK m c) (nrmK m c) (h0K m c) (V37 m outs c main_v125 : S100000x128.Idx → EReal) _ _ _
      (V33 m c main_v112 : S1x629760.Idx → BitVec 32) (V33 m c main_v113 : S1x629760.Idx → BitVec 32)
      (V33 m c main_v114 : S629760x1.Idx → EReal) (V41 m outs c main_v134 : S1x128.Idx → EReal) gateG1 gateS1 epos1
      (V39 m outs c main_v128 : S100000x128.Idx → EReal) (V40 m outs c main_v129 : S629760x128.Idx → EReal)
      (V42 m outs c main_v135 : S100000x128.Idx → EReal)
      hrow (edgePerm m c) (row2K_eq m c) (col2K_eq m c) (normcK_eq m c) (hG gateG1 hgG1) (hS gateS1 hgS1) hepos1 (s1_bb m outs c) ?_ hjr ?_ ?_
    · intro n f
      rw [hd1 n f, d1_x m outs c, d1_w m outs c]
    · intro e f
      rw [hg1 e f, g1_row2 m outs c, g1_normc m outs c]
    · intro n f
      rw [hs1 n f, s1_col2 m outs c, s1_scaled m outs c, s1_h0 m outs c, s1_rw m outs c]
  -- layer 2
  have L2 : (V47 m outs c main_v145 : S100000x128.Idx → EReal)
      = layer (rowK m c) (colK m c) (nrmK m c) (h0K m c) (slab ((m ((c : Thread nD τ).loc main_arg5)) : S3x128x128.Idx → EReal) (1 : Fin 3))
          (slab ((m ((c : Thread nD τ).loc main_arg6)) : S4x128x128.Idx → EReal) (2 : Fin 4)) (rowOf ((m ((c : Thread nD τ).loc main_arg7)) : S4x128.Idx → EReal) (2 : Fin 4)) (V42 m outs c main_v135 : S100000x128.Idx → EReal) := by
    refine Cert.Math.layer_eq (rowK m c) (colK m c) (nrmK m c) (h0K m c) (V42 m outs c main_v135 : S100000x128.Idx → EReal) _ _ _
      (V33 m c main_v112 : S1x629760.Idx → BitVec 32) (V33 m c main_v113 : S1x629760.Idx → BitVec 32)
      (V33 m c main_v114 : S629760x1.Idx → EReal) (V46 m outs c main_v144 : S1x128.Idx → EReal) gateG2 gateS2 epos2
      (V44 m outs c main_v138 : S100000x128.Idx → EReal) (V45 m outs c main_v139 : S629760x128.Idx → EReal)
      (V47 m outs c main_v145 : S100000x128.Idx → EReal)
      hrow (edgePerm m c) (row2K_eq m c) (col2K_eq m c) (normcK_eq m c) (hG gateG2 hgG2) (hS gateS2 hgS2) hepos2 (s2_bb m outs c) ?_ hjr ?_ ?_
    · intro n f
      rw [hd2 n f, d2_x m outs c, d2_w m outs c]
    · intro e f
      rw [hg2 e f, g2_row2 m outs c, g2_normc m outs c]
    · intro n f
      rw [hs2 n f, s2_col2 m outs c, s2_scaled m outs c, s2_h0 m outs c, s2_rw m outs c]
  -- layer 3
  have L3 : (V52 m outs c main_v155 : S100000x128.Idx → EReal)
      = layer (rowK m c) (colK m c) (nrmK m c) (h0K m c) (slab ((m ((c : Thread nD τ).loc main_arg5)) : S3x128x128.Idx → EReal) (2 : Fin 3))
          (slab ((m ((c : Thread nD τ).loc main_arg6)) : S4x128x128.Idx → EReal) (3 : Fin 4)) (rowOf ((m ((c : Thread nD τ).loc main_arg7)) : S4x128.Idx → EReal) (3 : Fin 4)) (V47 m outs c main_v145 : S100000x128.Idx → EReal) := by
    refine Cert.Math.layer_eq (rowK m c) (colK m c) (nrmK m c) (h0K m c) (V47 m outs c main_v145 : S100000x128.Idx → EReal) _ _ _
      (V33 m c main_v112 : S1x629760.Idx → BitVec 32) (V33 m c main_v113 : S1x629760.Idx → BitVec 32)
      (V33 m c main_v114 : S629760x1.Idx → EReal) (V51 m outs c main_v154 : S1x128.Idx → EReal) gateG3 gateS3 epos3
      (V49 m outs c main_v148 : S100000x128.Idx → EReal) (V50 m outs c main_v149 : S629760x128.Idx → EReal)
      (V52 m outs c main_v155 : S100000x128.Idx → EReal)
      hrow (edgePerm m c) (row2K_eq m c) (col2K_eq m c) (normcK_eq m c) (hG gateG3 hgG3) (hS gateS3 hgS3) hepos3 (s3_bb m outs c) ?_ hjr ?_ ?_
    · intro n f
      rw [hd3 n f, d3_x m outs c, d3_w m outs c]
    · intro e f
      rw [hg3 e f, g3_row2 m outs c, g3_normc m outs c]
    · intro n f
      rw [hs3 n f, s3_col2 m outs c, s3_scaled m outs c, s3_h0 m outs c, s3_rw m outs c]
  -- the four layers
  have LL : (V52 m outs c main_v155 : S100000x128.Idx → EReal)
      = layers (rowK m c) (colK m c) (nrmK m c) (h0K m c) (m ((c : Thread nD τ).loc main_arg4)) (m ((c : Thread nD τ).loc main_arg5)) (m ((c : Thread nD τ).loc main_arg6)) (m ((c : Thread nD τ).loc main_arg7)) := by
    rw [L3, L2, L1, L0]
    rfl
  -- the head and the slice
  funext i
  obtain ⟨n, f, rfl⟩ : ∃ (n : Fin 100000) (f : Fin 32), i = ValueIdx.ix2 n f := ⟨i 0, i 1, ValueIdx.eq_ix2 i⟩
  have hf : f.val < 128 := by have := f.isLt; omega
  have hq : (⟨f.val, hf⟩ : Fin 128).val < 32 := f.isLt
  have e3 : ∀ k : Fin 64, (V53 m outs c main_v115 : S64x128.Idx → EReal) (ValueIdx.ix2 k (⟨f.val, hf⟩ : Fin 128))
      = (m ((c : Thread nD τ).loc main_arg12) : S64x32.Idx → EReal) (ValueIdx.ix2 k f) := fun k => hd_w3 m outs c k _ hq
  have e4 : (V53 m outs c main_v117 : S1x128.Idx → EReal) (ValueIdx.ix2 (0 : Fin 1) (⟨f.val, hf⟩ : Fin 128))
      = (m ((c : Thread nD τ).loc main_arg13) : S32.Idx → EReal) (ValueIdx.ix1 f) := hd_b3 m outs c _ hq
  rw [res_slice m outs c n f hf, hh n _, hd_x m outs c, LL, hd_w1 m outs c, hd_w2 m outs c]
  simp only [hd_b1 m outs c, hd_b2 m outs c, e3, e4]
  rw [vc_refOutOf_at, vc_headPre_at]

end Network

end Cert.KernelIdeal.Hand

end
-- ==== Proof.KI.ValGather1.lean ====
/- The value of a gather layer's region at the ideal instance. Tile (i, j) of the grid adds, into an accumulator of
   5120 rows carried along j, the product of a one-hot matrix (column e is hot at the nodes k of node block j whose
   number 800 j + k is the row word of edge 5120 i + e) with the block's 800 node rows; it does so only when the table
   words rlo i, rhi i bracket j, and on those tiles the clamped block index of the node window is j itself. At the
   extended reals the format changes are the identity and a product into a zero accumulator is the plain sum, so after
   the last tile of edge block i the accumulator's entry (e, f) is the sum, over the admitted node blocks j and the
   nodes k in them, of [800 j + k = row (5120 i + e)] * tmp (800 j + k, f). The tile j = 124 then stores the accumulator
   times the edge's norm to the result's row block i; the 123 row blocks tile the result array. -/
import proofs.«415143_j42460046688958_3_alg».proof.Proof.KI.Gather1Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A column [a, 1] broadcast to [a, b] reads, at (p, c), the column at p. -/
theorem g1_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (e, f) and contraction index k read the one-hot at (k, e) and the
    node block at (k, f) -/

abbrev Dg1 := dot_S800x5120_S800x128_S5120x128_0_0_1_1_n_n

theorem lhs_g1_0 (j : S5120x128.Idx) (k : Dg1.contr.Idx) : (Dg1.lhsIdx j k 0 : ℕ) = k ⟨0, by decide⟩ := by
  simp [DotDims.lhsIdx, Dg1, dot_S800x5120_S800x128_S5120x128_0_0_1_1_n_n] <;> rfl
theorem lhs_g1_1 (j : S5120x128.Idx) (k : Dg1.contr.Idx) : (Dg1.lhsIdx j k 1 : ℕ) = j 0 := by
  simp [DotDims.lhsIdx, Dg1, dot_S800x5120_S800x128_S5120x128_0_0_1_1_n_n] <;> rfl
theorem rhs_g1_0 (j : S5120x128.Idx) (k : Dg1.contr.Idx) : (Dg1.rhsIdx j k 0 : ℕ) = k ⟨0, by decide⟩ := by
  simp [DotDims.rhsIdx, Dg1, dot_S800x5120_S800x128_S5120x128_0_0_1_1_n_n] <;> rfl
theorem rhs_g1_1 (j : S5120x128.Idx) (k : Dg1.contr.Idx) : (Dg1.rhsIdx j k 1 : ℕ) = j 1 := by
  simp [DotDims.rhsIdx, Dg1, dot_S800x5120_S800x128_S5120x128_0_0_1_1_n_n] <;> rfl

/-- The contraction (the one-hot 800 x 5120 against the node block 800 x 128, over the 800 nodes, into the zero splat)
    at edge e, column f. -/
theorem dotg1_apply {φ₁ φ₂ : FTy} (L : FVec Ideal S800x5120 φ₁) (R : FVec Ideal S800x128 φ₂) (e : Fin 5120) (f : Fin 128) :
    FloatOps.matmul Dg1 none L R (constant S5120x128 .f32 0x00000000#32) (ValueIdx.ix2 e f)
      = ∑ k : Fin 800, L (ValueIdx.ix2 k e) * R (ValueIdx.ix2 k f) := by
  rw [Ideal.matmul_constant_zero_apply, ← Equiv.sum_comp (ValueIdx.contrEquiv1 Dg1 800 (by decide) (by decide)).symm]
  refine Finset.sum_congr rfl fun p _ => ?_
  congr 2
  · funext a; apply Fin.ext
    match a with
    | ⟨0, _⟩ => exact (lhs_g1_0 _ _).trans (ValueIdx.contrEquiv1_symm_val Dg1 800 _ _ p)
    | ⟨1, _⟩ => exact lhs_g1_1 _ _
  · funext a; apply Fin.ext
    match a with
    | ⟨0, _⟩ => exact (rhs_g1_0 _ _).trans (ValueIdx.contrEquiv1_symm_val Dg1 800 _ _ p)
    | ⟨1, _⟩ => exact rhs_g1_1 _ _

/-! ## The three payloads at an index -/

/-- The reset payload reads 0 everywhere. -/
theorem k1_pay1_apply (x : S5120x128.Idx) : (k1_pay1 (F := Ideal)) x = 0 := by
  unfold k1_pay1
  rw [shapeCast_self]
  exact Ideal.ofBits_zero_f32

/-- Node j * 800 + k as the body computes it, in 32-bit words, is the natural number. -/
theorem g1_node_word (j : Fin 125) (k : Fin 800) :
    (BitVec.ofNat 32 j.val * 800#32 + BitVec.ofNat 32 k.val).toNat = j.val * 800 + k.val :=
  Cert.Math.toNat_ofNat_mul_add j.val 800 k.val (by have := j.isLt; have := k.isLt; omega)

/-- THE ACCUMULATING PAYLOAD at (e, f): what was there plus the sum over the 800 nodes k of block (i 1) of
    [node (i 1) * 800 + k is edge e's row word] * node block (k, f). -/
theorem k1_pay2_apply (i : grid1.Coords) (x0 : Vec Ideal S1x5120 .i32) (x1 : Vec Ideal S800x128 .f32) (xs : Vec Ideal S5120x128 .f32)
    (e : Fin 5120) (f : Fin 128) :
    k1_pay2 (F := Ideal) i x0 x1 xs (ValueIdx.ix2 e f)
      = xs (ValueIdx.ix2 e f) + ∑ k : Fin 800,
          (if (i 1).val * 800 + k.val = (x0 (ValueIdx.ix2 (0 : Fin 1) e)).toNat then (1 : EReal) else 0) * x1 (ValueIdx.ix2 k f) := by
  unfold k1_pay2
  simp only [shapeCast_self]
  show xs (ValueIdx.ix2 e f) + FloatOps.matmul (F := Ideal) Dg1 none _ _ (constant S5120x128 .f32 0x00000000#32) (ValueIdx.ix2 e f) = _
  rw [dotg1_apply]
  refine congrArg (xs (ValueIdx.ix2 e f) + ·) (Finset.sum_congr rfl fun k _ => ?_)
  refine congrArg₂ (· * ·) ?_ rfl
  refine (Cert.Math.oneHot_payload_apply _ _ natLt_1_32 bitsLt_bf16_f32 (ValueIdx.ix2 k e)).trans ?_
  rw [ValueIdx.broadcastTo_1b_ab_apply, g1_broadcastTo_a1_ab_apply]
  have hv : ∀ w : BitVec 32, addi (broadcast S800x1 w) (iota Kind.tc S800x1 32 [0] iota_S800x1_d0_w32) (ValueIdx.ix2 k (0 : Fin 1))
      = w + BitVec.ofNat 32 k.val := fun w => by
    show w + iota Kind.tc S800x1 32 [0] iota_S800x1_d0_w32 (ValueIdx.ix2 k (0 : Fin 1)) = _
    rw [iota_single_apply]
  rw [hv]
  show (if x0 (ValueIdx.ix2 (0 : Fin 1) e) = BitVec.ofNat 32 (i 1).val * 800#32 + BitVec.ofNat 32 k.val then (1 : EReal) else 0) = _
  have hw := g1_node_word (i 1) k
  by_cases h : x0 (ValueIdx.ix2 (0 : Fin 1) e) = BitVec.ofNat 32 (i 1).val * 800#32 + BitVec.ofNat 32 k.val
  · rw [if_pos h, if_pos (by rw [h, hw])]
  · rw [if_neg h, if_neg (fun h' => h (BitVec.eq_of_toNat_eq (by rw [hw]; exact h'.symm)))]

/-- THE STORED PAYLOAD at (e, f): the accumulator at (e, f) times the norm of edge e. -/
theorem k1_pay3_apply (acc : Vec Ideal S5120x128 .f32) (x2 : Vec Ideal S5120x1 .f32) (e : Fin 5120) (f : Fin 128) :
    k1_pay3 (F := Ideal) acc x2 (ValueIdx.ix2 e f) = acc (ValueIdx.ix2 e f) * x2 (ValueIdx.ix2 e (0 : Fin 1)) := by
  unfold k1_pay3
  simp only [shapeCast_self]
  show acc (ValueIdx.ix2 e f) * broadcastTo S5120x128 x2 _ (ValueIdx.ix2 e f) = _
  rw [g1_broadcastTo_a1_ab_apply]

/-! ## Signed comparisons, and the gate in closed form -/

/-- A signed comparison's bit. -/
theorem g1_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed and unsigned; an edge block's too. -/
theorem g1_toInt_ofNat_lt125 : ∀ k : Fin 125, (BitVec.ofNat 32 k.val).toInt = (k.val : ℤ) := by decide
theorem g1_toNat_ofNat_lt123 : ∀ k : Fin 123, (BitVec.ofNat 32 k.val).toNat = k.val := by decide

/-- THE GATE: the body accumulates at coordinates i exactly when the two table words bracket the second coordinate. -/
theorem cond1_1_iff (i : grid1.Coords) (wlo whi : BitVec 32) :
    cond1_1 i wlo whi ↔ (wlo.toInt ≤ ((i 1).val : ℤ) ∧ ((i 1).val : ℤ) ≤ whi.toInt) := by
  have hI : (BitVec.ofNat 32 (i 1).val).toInt = ((i 1).val : ℤ) := g1_toInt_ofNat_lt125 (i 1)
  show ((Scalar.cmpi .ne (Scalar.extui (Scalar.andi (Scalar.cmpi .sle wlo (BitVec.ofNat 32 (i 1).val)) (Scalar.cmpi .sle (BitVec.ofNat 32 (i 1).val) whi))) 0#32 : BitVec 1) = 1#1) ↔ _
  rw [g1_sle_bit, g1_sle_bit, hI]
  by_cases h1 : wlo.toInt ≤ ((i 1).val : ℤ)
  · by_cases h2 : ((i 1).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 1).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-! ## The grid's coordinates: point t = 125 i + j -/

theorem g1_stride_i : grid1.stride 0 = 125 := by decide
theorem g1_stride_j : grid1.stride 1 = 1 := by decide

theorem g1_coords_i (t : Fin grid1.N) : (grid1.coords t 0).val = t.val / 125 := by
  have ht : t.val < 15375 := t.isLt.trans_eq N_1
  show t.val / grid1.stride 0 % 123 = _
  rw [g1_stride_i]
  exact Nat.mod_eq_of_lt (by omega)
theorem g1_coords_j (t : Fin grid1.N) : (grid1.coords t 1).val = t.val % 125 := by
  show t.val / grid1.stride 1 % 125 = _
  rw [g1_stride_j, Nat.div_one]

/-! ## One step of the accumulation at an index -/

/-- The scratch after a step, at (e, f): nothing or what it held (reset at j = 0), plus, when the table words admit j,
    the sum over the block's 800 nodes of [node is edge e's row word] * node block (k, f). -/
theorem accStep1_apply (i : grid1.Coords) (x0 : Vec Ideal S1x5120 .i32) (x1 : Vec Ideal S800x128 .f32) (lo hi : BitVec 32)
    (xs : Vec Ideal S5120x128 .f32) (e : Fin 5120) (f : Fin 128) :
    accStep1 (F := Ideal) i x0 x1 lo hi xs (ValueIdx.ix2 e f)
      = (if cond1_0 i then 0 else xs (ValueIdx.ix2 e f))
        + (if cond1_1 i lo hi then ∑ k : Fin 800,
            (if (i 1).val * 800 + k.val = (x0 (ValueIdx.ix2 (0 : Fin 1) e)).toNat then (1 : EReal) else 0) * x1 (ValueIdx.ix2 k f) else 0) := by
  unfold accStep1
  by_cases h1 : cond1_1 i lo hi
  · rw [if_pos h1, if_pos h1, k1_pay2_apply]
    by_cases h0 : cond1_0 i
    · rw [if_pos h0, if_pos h0, k1_pay1_apply]
    · rw [if_neg h0, if_neg h0]
  · rw [if_neg h1, if_neg h1, add_zero]
    by_cases h0 : cond1_0 i
    · rw [if_pos h0, if_pos h0, k1_pay1_apply]
    · rw [if_neg h0, if_neg h0]

/-! ## The arrays the region reads, the table words, the gate -/

section Region1

variable (a : (p : Fin 13) → (pcfgs (F := Ideal) p).Adm)
variable (V : (c : Dev nD) → (b : Ref sig .tc) → Buf (Elt Ideal) ((c : Thread nD τ).loc b))

/-- The sorted row words (one row of 629760 = 123 * 5120 words), -/
abbrev rowA1 (c : Dev nD) : S1x629760.Idx → BitVec 32 := V c main_v112
/-- the node rows the layer's matmul left, -/
abbrev tmpA1 (c : Dev nD) : S100000x128.Idx → Elt Ideal .f32 := V c main_v118
/-- and the edges' norms (one column), as the region finds them. -/
abbrev normA1 (c : Dev nD) : S629760x1.Idx → Elt Ideal .f32 := V c main_v114

/-- The two prefetched tables at the admissible contents: per edge block the least and the greatest node block of its
    row words. -/
abbrev rloT1 : S123.Idx → BitVec 32 := (a 1).1 0
abbrev rhiT1 : S123.Idx → BitVec 32 := (a 1).1 1

/-- THE GATE of tile (i, j), on the table words: rlo i ≤ j ≤ rhi i, signed. -/
def gate1 (i : Fin 123) (j : ℕ) : Prop :=
  (rloT1 a (Shape.Idx.ofFin i)).toInt ≤ (j : ℤ) ∧ (j : ℤ) ≤ (rhiT1 a (Shape.Idx.ofFin i)).toInt

instance (i : Fin 123) (j : ℕ) : Decidable (gate1 a i j) := by unfold gate1; infer_instance

/-- On every tile the gate admits, the clamped block index of the node window is the node block itself. -/
def Hclamp1 : Prop := ∀ (i : Fin 123) (j : Fin 125), gate1 a i j.val →
  (Scalar.minsi (Scalar.maxsi (BitVec.ofNat 32 j.val) (rloT1 a (Shape.Idx.ofFin i))) (rhiT1 a (Shape.Idx.ofFin i))).toNat = j.val

/-- Node k of node block j among the 100000 nodes; edge e of edge block i among the 629760 edge positions. -/
def nPos1 (j : Fin 125) (k : Fin 800) : Fin 100000 := ⟨j.val * 800 + k.val, by have := j.isLt; have := k.isLt; omega⟩
def ePos1 (i : Fin 123) (e : Fin 5120) : Fin 629760 := ⟨i.val * 5120 + e.val, by have := i.isLt; have := e.isLt; omega⟩

/-- What node block j adds to the gathered row of edge e, column f: the node rows of the block whose number is the
    edge's row word. -/
def gathTerm1 (c : Dev nD) (e : Fin 629760) (f : Fin 128) (j : Fin 125) : EReal :=
  ∑ k : Fin 800, (if j.val * 800 + k.val = (rowA1 V c (ValueIdx.ix2 (0 : Fin 1) e)).toNat then (1 : EReal) else 0)
    * tmpA1 V c (ValueIdx.ix2 (nPos1 j k) f)

/-- WHAT THE RESULT ARRAY ENDS HOLDING: entry (e, f) is the sum over the node blocks j the gate admits for edge block
    e / 5120 of that block's contribution, times the edge's norm. -/
def gathG1 (c : Dev nD) : S629760x128.Idx → Elt Ideal .f32 := fun x =>
  (∑ j : Fin 125, if gate1 a ⟨(x 0).val / 5120, by have h : (x 0).val < 629760 := (x 0).isLt; omega⟩ j.val
      then gathTerm1 V c ⟨(x 0).val, (x 0).isLt⟩ ⟨(x 1).val, (x 1).isLt⟩ j else 0)
    * normA1 V c (ValueIdx.ix2 (⟨(x 0).val, (x 0).isLt⟩ : Fin 629760) (0 : Fin 1))

/-! ## The table words as the body and the index map read them -/

theorem g1_N (t : Fin (cfgG1 a).N) : t.val < 15375 := t.isLt.trans_eq N_1
theorem g1_row_lt (t : Fin (cfgG1 a).N) : t.val / 125 < 123 := by have := g1_N a t; omega

/-- The edge block of a point. -/
def iOf1 (t : Fin (cfgG1 a).N) : Fin 123 := ⟨t.val / 125, g1_row_lt a t⟩

theorem g1_coords_i_eq (t : Fin (cfgG1 a).N) : grid1.coords t 0 = iOf1 a t := Fin.ext (g1_coords_i t)

/-- The word of the first table the body loads at a point is the table's word at the point's edge block, -/
theorem lo1_eq (c : Dev nD) (t : Fin (cfgG1 a).N) : lo1 a c t = rloT1 a (Shape.Idx.ofFin (iOf1 a t)) := by
  rw [← g1_coords_i_eq]
  show ((a 1).1 0 : S123.Idx → BitVec 32) _ = _
  refine congrArg ((a 1).1 0 : S123.Idx → BitVec 32) (funext fun x => Fin.ext ?_)
  match x with
  | ⟨0, _⟩ =>
    show (BitVec.ofNat 32 (grid1.coords t 0).val).toNat + 1 * 0 = (grid1.coords t 0).val
    rw [g1_toNat_ofNat_lt123 (grid1.coords t 0)]; omega
/-- and of the second. -/
theorem hi1_eq (c : Dev nD) (t : Fin (cfgG1 a).N) : hi1 a c t = rhiT1 a (Shape.Idx.ofFin (iOf1 a t)) := by
  rw [← g1_coords_i_eq]
  show ((a 1).1 1 : S123.Idx → BitVec 32) _ = _
  refine congrArg ((a 1).1 1 : S123.Idx → BitVec 32) (funext fun x => Fin.ext ?_)
  match x with
  | ⟨0, _⟩ =>
    show (BitVec.ofNat 32 (grid1.coords t 0).val).toNat + 1 * 0 = (grid1.coords t 0).val
    rw [g1_toNat_ofNat_lt123 (grid1.coords t 0)]; omega

/-- The body's branch at a point is the gate of its tile. -/
theorem gate1_iff (c : Dev nD) (t : Fin (cfgG1 a).N) :
    cond1_1 (grid1.coords t) (lo1 a c t) (hi1 a c t) ↔ gate1 a (iOf1 a t) (t.val % 125) := by
  rw [cond1_1_iff, lo1_eq, hi1_eq, g1_coords_j]
  exact Iff.rfl

end Region1

section Region1b

variable (a : (p : Fin 13) → (pcfgs (F := Ideal) p).Adm)
variable (V : (c : Dev nD) → (b : Ref sig .tc) → Buf (Elt Ideal) ((c : Thread nD τ).loc b))

/-! ## The windows' block indices at a point -/

/-- The row words' block: row 0, column block i. -/
theorem index1_0_0 (t : Fin (cfgG1 a).N) : ((cfgG1 a).win 0).index t (0 : Fin 2) = 0 := rfl
theorem index1_0_1 (t : Fin (cfgG1 a).N) : ((cfgG1 a).win 0).index t (1 : Fin 2) = t.val / 125 := by
  show (BitVec.ofNat 32 (grid1.coords t 0).val).toNat = _
  rw [g1_toNat_ofNat_lt123 (grid1.coords t 0), g1_coords_i]
/-- The norms' block and the result's: row block i, column block 0. -/
theorem index1_2_0 (t : Fin (cfgG1 a).N) : ((cfgG1 a).win 2).index t (0 : Fin 2) = t.val / 125 := by
  show (BitVec.ofNat 32 (grid1.coords t 0).val).toNat = _
  rw [g1_toNat_ofNat_lt123 (grid1.coords t 0), g1_coords_i]
theorem index1_2_1 (t : Fin (cfgG1 a).N) : ((cfgG1 a).win 2).index t (1 : Fin 2) = 0 := rfl
theorem index1_3_0 (t : Fin (cfgG1 a).N) : ((cfgG1 a).win 3).index t (0 : Fin 2) = t.val / 125 := by
  show (BitVec.ofNat 32 (grid1.coords t 0).val).toNat = _
  rw [g1_toNat_ofNat_lt123 (grid1.coords t 0), g1_coords_i]
theorem index1_3_1 (t : Fin (cfgG1 a).N) : ((cfgG1 a).win 3).index t (1 : Fin 2) = 0 := rfl

/-- The table's index an index map reads at the point's edge block. -/
theorem g1_emb_first (t : Fin (cfgG1 a).N) (inb : ∀ x, (![(Scalar.indexCast (BitVec.ofNat 32 (grid1.coords t 0).val)).toNat] : Fin 1 → Nat) x + S1.size x ≤ S123.size x)
    (h1 : 0 < S1.numel) :
    (Rect.unit (s := S123) ![(Scalar.indexCast (BitVec.ofNat 32 (grid1.coords t 0).val)).toNat] S1.size inb).emb (Shape.Idx.first h1)
      = Shape.Idx.ofFin (iOf1 a t) := by
  funext x
  apply Fin.ext
  match x with
  | ⟨0, _⟩ =>
    show (BitVec.ofNat 32 (grid1.coords t 0).val).toNat + 1 * 0 = t.val / 125
    rw [g1_toNat_ofNat_lt123 (grid1.coords t 0), g1_coords_i]; omega

/-- The node window's block: the node block j clamped between the two table words of edge block i, column block 0. -/
theorem index1_1_0 (t : Fin (cfgG1 a).N) : ((cfgG1 a).win 1).index t (0 : Fin 2)
    = (Scalar.minsi (Scalar.maxsi (BitVec.ofNat 32 (t.val % 125)) (rloT1 a (Shape.Idx.ofFin (iOf1 a t)))) (rhiT1 a (Shape.Idx.ofFin (iOf1 a t)))).toNat := by
  have h0 := g1_emb_first a t (k1_off1_inb (grid1.coords t)) (numel1_S1.symm ▸ Nat.one_pos)
  exact congrArg BitVec.toNat (congrArg₂ Scalar.minsi
    (congrArg₂ Scalar.maxsi (congrArg (BitVec.ofNat 32) (g1_coords_j t)) (congrArg ((a 1).1 0 : S123.Idx → BitVec 32) h0))
    (congrArg ((a 1).1 1 : S123.Idx → BitVec 32) h0))
theorem index1_1_1 (t : Fin (cfgG1 a).N) : ((cfgG1 a).win 1).index t (1 : Fin 2) = 0 := rfl

/-! ## The windows' blocks, at their element types -/

def rowB1 (c : Dev nD) (t : Fin (cfgG1 a).N) : Vec Ideal S1x5120 .i32 := iblk1 a V c 0 t
def tmpB1 (c : Dev nD) (t : Fin (cfgG1 a).N) : Vec Ideal S800x128 .f32 := iblk1 a V c 1 t
def normB1 (c : Dev nD) (t : Fin (cfgG1 a).N) : Vec Ideal S5120x1 .f32 := iblk1 a V c 2 t

/-- The row words' block at point t, position e, is the row word of edge 5120 i + e. -/
theorem rowB1_apply (c : Dev nD) (t : Fin (cfgG1 a).N) (e : Fin 5120) :
    rowB1 a V c t (ValueIdx.ix2 (0 : Fin 1) e) = rowA1 V c (ValueIdx.ix2 (0 : Fin 1) (ePos1 (iOf1 a t) e)) := by
  show V c main_v112 ((((cfgG1 a).win 0).blk t).view.emb (ValueIdx.ix2 (0 : Fin 1) e)) = _
  congr 1
  funext x; apply Fin.ext
  match x with
  | ⟨0, _⟩ => show ((cfgG1 a).win 0).index t (0 : Fin 2) * 1 + 1 * 0 = 0; rw [index1_0_0]
  | ⟨1, _⟩ => show ((cfgG1 a).win 0).index t (1 : Fin 2) * 5120 + 1 * e.val = t.val / 125 * 5120 + e.val; rw [index1_0_1]; omega

/-- The norms' block at point t, position e, is the norm of edge 5120 i + e. -/
theorem normB1_apply (c : Dev nD) (t : Fin (cfgG1 a).N) (e : Fin 5120) :
    normB1 a V c t (ValueIdx.ix2 e (0 : Fin 1)) = normA1 V c (ValueIdx.ix2 (ePos1 (iOf1 a t) e) (0 : Fin 1)) := by
  show V c main_v114 ((((cfgG1 a).win 2).blk t).view.emb (ValueIdx.ix2 e (0 : Fin 1))) = _
  congr 1
  funext x; apply Fin.ext
  match x with
  | ⟨0, _⟩ => show ((cfgG1 a).win 2).index t (0 : Fin 2) * 5120 + 1 * e.val = t.val / 125 * 5120 + e.val; rw [index1_2_0]; omega
  | ⟨1, _⟩ => show ((cfgG1 a).win 2).index t (1 : Fin 2) * 1 + 1 * 0 = 0; rw [index1_2_1]

/-- The node window's block at a point whose block index is j, row k, is node row 800 j + k. -/
theorem tmpB1_apply (c : Dev nD) (t : Fin (cfgG1 a).N) (j : Fin 125) (hj : ((cfgG1 a).win 1).index t (0 : Fin 2) = j.val)
    (k : Fin 800) (f : Fin 128) :
    tmpB1 a V c t (ValueIdx.ix2 k f) = tmpA1 V c (ValueIdx.ix2 (nPos1 j k) f) := by
  show V c main_v118 ((((cfgG1 a).win 1).blk t).view.emb (ValueIdx.ix2 k f)) = _
  congr 1
  funext x; apply Fin.ext
  match x with
  | ⟨0, _⟩ => show ((cfgG1 a).win 1).index t (0 : Fin 2) * 800 + 1 * k.val = j.val * 800 + k.val; rw [hj]; omega
  | ⟨1, _⟩ => show ((cfgG1 a).win 1).index t (1 : Fin 2) * 128 + 1 * f.val = f.val; rw [index1_1_1]; omega

/-- The result window's block at point t sits at rows 5120 i + e. -/
theorem emb1_3 (t : Fin (cfgG1 a).N) (e : Fin 5120) (f : Fin 128) :
    ((((cfgG1 a).win 3).blk t).view.emb (ValueIdx.ix2 e f) : S629760x128.Idx) = ValueIdx.ix2 (ePos1 (iOf1 a t) e) f := by
  funext x; apply Fin.ext
  match x with
  | ⟨0, _⟩ => show ((cfgG1 a).win 3).index t (0 : Fin 2) * 5120 + 1 * e.val = t.val / 125 * 5120 + e.val; rw [index1_3_0]; omega
  | ⟨1, _⟩ => show ((cfgG1 a).win 3).index t (1 : Fin 2) * 128 + 1 * f.val = f.val; rw [index1_3_1]; omega

end Region1b

section Region1c

variable (a : (p : Fin 13) → (pcfgs (F := Ideal) p).Adm)
variable (V : (c : Dev nD) → (b : Ref sig .tc) → Buf (Elt Ideal) ((c : Thread nD τ).loc b))

/-! ## The accumulator along the grid -/

/-- The accumulator's entry (e, f) after point n (0 past the grid). -/
def accV1 (c : Dev nD) (e : Fin 5120) (f : Fin 128) (n : ℕ) : EReal :=
  if h : n < (cfgG1 a).N then accAt1 a V c n h (ValueIdx.ix2 e f) else 0

/-- What the body adds at point n when the gate admits it (0 past the grid). -/
def gterm1 (c : Dev nD) (e : Fin 5120) (f : Fin 128) (n : ℕ) : EReal :=
  if h : n < (cfgG1 a).N then
    ∑ k : Fin 800, (if n % 125 * 800 + k.val = (rowB1 a V c ⟨n, h⟩ (ValueIdx.ix2 (0 : Fin 1) e)).toNat then (1 : EReal) else 0)
      * tmpB1 a V c ⟨n, h⟩ (ValueIdx.ix2 k f)
  else 0

/-- ONE STEP: after point n the entry is nothing (at j = 0) or what it was, plus the point's term when the gate admits
    the tile. -/
theorem accV1_step (c : Dev nD) (e : Fin 5120) (f : Fin 128) (n : ℕ) (hn : n < (cfgG1 a).N) :
    accV1 a V c e f n = (if n % 125 = 0 then 0 else accV1 a V c e f (n - 1))
      + (if gate1 a (iOf1 a ⟨n, hn⟩) (n % 125) then gterm1 a V c e f n else 0) := by
  have hprev : n - 1 < (cfgG1 a).N := Nat.lt_of_le_of_lt (Nat.sub_le _ _) hn
  have hstep : accAt1 a V c n hn = accStep1 (grid1.coords ⟨n, hn⟩) (rowB1 a V c ⟨n, hn⟩) (tmpB1 a V c ⟨n, hn⟩)
      (lo1 a c ⟨n, hn⟩) (hi1 a c ⟨n, hn⟩) (accAt1 a V c (n - 1) hprev) :=
    accAt1_step a V c ⟨n, hn⟩ (accAt1 a V c (n - 1) hprev) (fun _ => rfl)
  have happ := accStep1_apply (grid1.coords ⟨n, hn⟩) (rowB1 a V c ⟨n, hn⟩) (tmpB1 a V c ⟨n, hn⟩)
    (lo1 a c ⟨n, hn⟩) (hi1 a c ⟨n, hn⟩) (accAt1 a V c (n - 1) hprev) e f
  unfold accV1 gterm1
  rw [dif_pos hn, dif_pos hn, dif_pos hprev, hstep, happ]
  congr 1
  · by_cases h0 : n % 125 = 0
    · rw [if_pos h0, if_pos ((hcond1_0 ⟨n, hn⟩).mpr h0)]
    · rw [if_neg h0, if_neg (fun h => h0 ((hcond1_0 ⟨n, hn⟩).mp h))]
  · by_cases hg : gate1 a (iOf1 a ⟨n, hn⟩) (n % 125)
    · rw [if_pos hg, if_pos ((gate1_iff a c ⟨n, hn⟩).mpr hg), g1_coords_j]
    · rw [if_neg hg, if_neg (fun h => hg ((gate1_iff a c ⟨n, hn⟩).mp h))]

/-- AFTER THE LAST TILE of edge block i the entry is the sum of the admitted tiles' terms. -/
theorem accV1_last (c : Dev nD) (i : Fin 123) (e : Fin 5120) (f : Fin 128) :
    accV1 a V c e f (i.val * 125 + 124)
      = ∑ j ∈ Finset.range 125, if gate1 a i j then gterm1 a V c e f (i.val * 125 + j) else 0 := by
  have hN : (cfgG1 a).N = 15375 := N_1
  exact Cert.Math.gated_fold_eq_sum (fun j => accV1 a V c e f (i.val * 125 + j - 1)) (fun j => gterm1 a V c e f (i.val * 125 + j))
    (fun j => gate1 a i j) 125 (by decide) (fun j hj => by
      have hn : i.val * 125 + j < (cfgG1 a).N := by rw [hN]; have := i.isLt; omega
      have hmod : (i.val * 125 + j) % 125 = j := by omega
      have hi : iOf1 a ⟨i.val * 125 + j, hn⟩ = i := Fin.ext (by show (i.val * 125 + j) / 125 = i.val; omega)
      show accV1 a V c e f (i.val * 125 + (j + 1) - 1)
        = (if j = 0 then 0 else accV1 a V c e f (i.val * 125 + j - 1)) + (if gate1 a i j then gterm1 a V c e f (i.val * 125 + j) else 0)
      rw [show i.val * 125 + (j + 1) - 1 = i.val * 125 + j from by omega, accV1_step a V c e f _ hn, hmod, hi])

/-! ## The admitted tiles' terms over the arrays -/

/-- On a tile the gate admits, under the clamp hypothesis, the point's term is the node block's contribution to the
    gathered row of edge 5120 i + e. -/
theorem gterm1_eq (hc : Hclamp1 a) (c : Dev nD) (i : Fin 123) (j : Fin 125) (hg : gate1 a i j.val) (e : Fin 5120) (f : Fin 128) :
    gterm1 a V c e f (i.val * 125 + j.val) = gathTerm1 V c (ePos1 i e) f j := by
  have hN : (cfgG1 a).N = 15375 := N_1
  have hn : i.val * 125 + j.val < (cfgG1 a).N := by rw [hN]; have := i.isLt; have := j.isLt; omega
  have hmod : (i.val * 125 + j.val) % 125 = j.val := by have := j.isLt; omega
  have hi : iOf1 a ⟨i.val * 125 + j.val, hn⟩ = i := Fin.ext (by show (i.val * 125 + j.val) / 125 = i.val; have := j.isLt; omega)
  have hidx : ((cfgG1 a).win 1).index ⟨i.val * 125 + j.val, hn⟩ (0 : Fin 2) = j.val := by
    rw [index1_1_0, hi]
    show (Scalar.minsi (Scalar.maxsi (BitVec.ofNat 32 ((i.val * 125 + j.val) % 125)) _) _).toNat = _
    rw [hmod]
    exact hc i j hg
  unfold gterm1 gathTerm1
  rw [dif_pos hn, hmod]
  refine Finset.sum_congr rfl fun k _ => ?_
  rw [rowB1_apply, hi, tmpB1_apply a V c _ j hidx]

/-- The gathered array at row 5120 i + e. -/
theorem gathG1_apply (c : Dev nD) (i : Fin 123) (e : Fin 5120) (f : Fin 128) :
    gathG1 a V c (ValueIdx.ix2 (ePos1 i e) f)
      = (∑ j : Fin 125, if gate1 a i j.val then gathTerm1 V c (ePos1 i e) f j else 0)
        * normA1 V c (ValueIdx.ix2 (ePos1 i e) (0 : Fin 1)) := by
  have hI : ∀ h, (⟨(ePos1 i e).val / 5120, h⟩ : Fin 123) = i := fun h =>
    Fin.ext (by show (i.val * 5120 + e.val) / 5120 = i.val; have := e.isLt; omega)
  show (∑ j : Fin 125, if gate1 a ⟨(ePos1 i e).val / 5120, _⟩ j.val then gathTerm1 V c (ePos1 i e) f j else 0) * _ = _
  rw [hI]

/-! ## The result array -/

theorem accAt1_congr (c : Dev nD) {n n' : ℕ} (h : n = n') (hn : n < (cfgG1 a).N) (hn' : n' < (cfgG1 a).N) :
    accAt1 a V c n hn = accAt1 a V c n' hn' := by subst h; rfl

/-- The 123 row blocks cover the array, each written back at its last tile. -/
theorem cover1_3 (x : S629760x128.Idx) : ∃ t : Fin (cfgG1 a).N, ((cfgG1 a).win 3).flush t = true ∧ x ∈ (((cfgG1 a).win 3).blk t).view.set := by
  have hx0 : (x 0).val < 629760 := (x 0).isLt
  have hx1 : (x 1).val < 128 := (x 1).isLt
  have hN : (cfgG1 a).N = 15375 := N_1
  let t : Fin (cfgG1 a).N := ⟨(x 0).val / 5120 * 125 + 124, by rw [hN]; omega⟩
  have ht : t.val = (x 0).val / 5120 * 125 + 124 := rfl
  have hi : (iOf1 a t).val = (x 0).val / 5120 := by show t.val / 125 = _; omega
  refine ⟨t, (flush1_3 a t).mpr (by rw [ht]; omega), ?_⟩
  have hx : (ValueIdx.ix2 (ePos1 (iOf1 a t) ⟨(x 0).val % 5120, Nat.mod_lt _ (by decide)⟩) (⟨(x 1).val, hx1⟩ : Fin 128) : S629760x128.Idx) = x := by
    funext ax; apply Fin.ext
    match ax with
    | ⟨0, _⟩ => show (iOf1 a t).val * 5120 + (x 0).val % 5120 = (x 0).val; rw [hi]; omega
    | ⟨1, _⟩ => rfl
  have hm := (((cfgG1 a).win 3).blk t).view.emb_mem_set (ValueIdx.ix2 (⟨(x 0).val % 5120, Nat.mod_lt _ (by decide)⟩ : Fin 5120) (⟨(x 1).val, hx1⟩ : Fin 128))
  have hxe : x = (((cfgG1 a).win 3).blk t).view.emb (ValueIdx.ix2 (⟨(x 0).val % 5120, Nat.mod_lt _ (by decide)⟩ : Fin 5120) (⟨(x 1).val, hx1⟩ : Fin 128)) :=
    hx.symm.trans (emb1_3 a t _ _).symm
  exact hxe ▸ hm

/-- WHAT A WRITING POINT WRITES BACK is its block of the gathered array, for any proof data of the pipeline whose
    output buffer after the body is the accumulator times the norms. -/
theorem flushed1_3_eq (hc : Hclamp1 a) (c : Dev nD) (dat : Dat τ (Elt Ideal) Unit ℕ (UR sig nD τ) ℕ (cfgG1 a) c)
    (hafter : ∀ t, dat.after 3 t = k1_pay3 (accAt1 a V c t.val t.isLt) (iblk1 a V c 2 t))
    (t : Fin (cfgG1 a).N) (hf : ((cfgG1 a).win 3).flush t = true) :
    dat.flushed 3 t = (((cfgG1 a).win 3).blk t).view.read (Elt Ideal) (gathG1 a V c) := by
  have h124 : t.val % 125 = 124 := (flush1_3 a t).mp hf
  have htN := g1_N a t
  have hti : t.val = (iOf1 a t).val * 125 + 124 := by show t.val = t.val / 125 * 125 + 124; omega
  have hlast : (iOf1 a t).val * 125 + 124 < (cfgG1 a).N := hti ▸ t.isLt
  show ((cfgG1 a).win 3).cut (grid1.coords t) (dat.after 3 t) = _
  rw [hafter]
  refine funext fun (x : S5120x128.Idx) => ?_
  obtain ⟨e, f, rfl⟩ : ∃ e f, x = ValueIdx.ix2 e f := ⟨x 0, x 1, ValueIdx.eq_ix2 x⟩
  -- the accumulator's entry after the block's last tile
  have hS : accAt1 a V c t.val t.isLt (ValueIdx.ix2 e f)
      = ∑ j : Fin 125, if gate1 a (iOf1 a t) j.val then gathTerm1 V c (ePos1 (iOf1 a t) e) f j else 0 := by
    have h1 : accAt1 a V c t.val t.isLt (ValueIdx.ix2 e f) = accV1 a V c e f ((iOf1 a t).val * 125 + 124) := by
      unfold accV1
      rw [dif_pos hlast, accAt1_congr a V c hti t.isLt hlast]
    rw [h1, accV1_last, Finset.sum_range (fun j => if gate1 a (iOf1 a t) j then gterm1 a V c e f ((iOf1 a t).val * 125 + j) else 0)]
    refine Finset.sum_congr rfl fun j _ => ?_
    by_cases hg : gate1 a (iOf1 a t) j.val
    · rw [if_pos hg, if_pos hg, gterm1_eq a V hc c (iOf1 a t) j hg e f]
    · rw [if_neg hg, if_neg hg]
  exact (k1_pay3_apply (accAt1 a V c t.val t.isLt) (normB1 a V c t) e f).trans
    ((congrArg₂ (· * ·) hS (normB1_apply a V c t e)).trans
      ((gathG1_apply a V c (iOf1 a t) e f).symm.trans (congrArg (gathG1 a V c) (emb1_3 a t e f).symm)))

/-- THE RESULT ARRAY after the region, for any proof data of the pipeline whose output buffer after the body is the
    accumulator times the norms. -/
theorem arr1_3_of (hc : Hclamp1 a) (c : Dev nD) (dat : Dat τ (Elt Ideal) Unit ℕ (UR sig nD τ) ℕ (cfgG1 a) c)
    (hafter : ∀ t, dat.after 3 t = k1_pay3 (accAt1 a V c t.val t.isLt) (iblk1 a V c 2 t)) :
    dat.arrAt 3 (cfgG1 a).N = gathG1 a V c :=
  dat.arrAt_eq_of_cover 3 (gathG1 a V c) (fun t hf => flushed1_3_eq a V hc c dat hafter t hf) (cover1_3 a)

end Region1c

section Region1e

variable (a : (p : Fin 13) → (pcfgs (F := Ideal) p).Adm)
variable (V : (c : Dev nD) → (b : Ref sig .tc) → Buf (Elt Ideal) ((c : Thread nD τ).loc b))

/-! ## The gathered sum in closed form -/

/-- One node block's contribution: the node row whose number is the edge's row word, when the block holds it. -/
theorem gathTerm1_closed (c : Dev nD) (e : Fin 629760) (f : Fin 128) (j : Fin 125) :
    gathTerm1 V c e f j
      = if h : j.val * 800 ≤ (rowA1 V c (ValueIdx.ix2 (0 : Fin 1) e)).toNat ∧ (rowA1 V c (ValueIdx.ix2 (0 : Fin 1) e)).toNat < j.val * 800 + 800
        then tmpA1 V c (ValueIdx.ix2 (⟨(rowA1 V c (ValueIdx.ix2 (0 : Fin 1) e)).toNat, by have := j.isLt; omega⟩ : Fin 100000) f) else 0 := by
  have hj := j.isLt
  let r := (rowA1 V c (ValueIdx.ix2 (0 : Fin 1) e)).toNat
  let x : ℕ → EReal := fun n => if h : n < 100000 then tmpA1 V c (ValueIdx.ix2 (⟨n, h⟩ : Fin 100000) f) else 0
  let δ : ℕ → EReal := fun n => if n = r then 1 else 0
  have hsum : gathTerm1 V c e f j = ∑ k : Fin 800, δ (j.val * 800 + k.val) * x (j.val * 800 + k.val) := by
    unfold gathTerm1
    refine Finset.sum_congr rfl fun k _ => ?_
    have hk : j.val * 800 + k.val < 100000 := (nPos1 j k).isLt
    show _ * _ = (if j.val * 800 + k.val = r then (1 : EReal) else 0) * (if h : j.val * 800 + k.val < 100000 then tmpA1 V c (ValueIdx.ix2 (⟨j.val * 800 + k.val, h⟩ : Fin 100000) f) else 0)
    rw [dif_pos hk]
    rfl
  rw [hsum, Cert.Math.sum_fin_block_oneHot_mul 800 (j.val * 800) r δ x (if_pos rfl) (fun n hn => if_neg hn)]
  by_cases hb : j.val * 800 ≤ r ∧ r < j.val * 800 + 800
  · rw [if_pos hb, dif_pos hb]
    show (if h : r < 100000 then tmpA1 V c (ValueIdx.ix2 (⟨r, h⟩ : Fin 100000) f) else 0) = _
    rw [dif_pos (by omega)]
  · rw [if_neg hb, dif_neg hb]

/-- THE GATHERED SUM: the node row the edge's row word names, when the word is a node and the gate admits its block;
    nothing otherwise. -/
theorem gathSum1_closed (c : Dev nD) (i : Fin 123) (e : Fin 629760) (f : Fin 128) :
    (∑ j : Fin 125, if gate1 a i j.val then gathTerm1 V c e f j else 0)
      = if h : (rowA1 V c (ValueIdx.ix2 (0 : Fin 1) e)).toNat < 100000 ∧ gate1 a i ((rowA1 V c (ValueIdx.ix2 (0 : Fin 1) e)).toNat / 800)
        then tmpA1 V c (ValueIdx.ix2 (⟨(rowA1 V c (ValueIdx.ix2 (0 : Fin 1) e)).toNat, h.1⟩ : Fin 100000) f) else 0 := by
  by_cases hr : (rowA1 V c (ValueIdx.ix2 (0 : Fin 1) e)).toNat < 100000 ∧ gate1 a i ((rowA1 V c (ValueIdx.ix2 (0 : Fin 1) e)).toNat / 800)
  · rw [dif_pos hr]
    have hj0 : (rowA1 V c (ValueIdx.ix2 (0 : Fin 1) e)).toNat / 800 < 125 := by have := hr.1; omega
    rw [Finset.sum_eq_single (⟨(rowA1 V c (ValueIdx.ix2 (0 : Fin 1) e)).toNat / 800, hj0⟩ : Fin 125)]
    · have hb : (rowA1 V c (ValueIdx.ix2 (0 : Fin 1) e)).toNat / 800 * 800 ≤ (rowA1 V c (ValueIdx.ix2 (0 : Fin 1) e)).toNat
          ∧ (rowA1 V c (ValueIdx.ix2 (0 : Fin 1) e)).toNat < (rowA1 V c (ValueIdx.ix2 (0 : Fin 1) e)).toNat / 800 * 800 + 800 := by omega
      rw [if_pos hr.2, gathTerm1_closed, dif_pos hb]
    · intro j _ hne
      by_cases hg : gate1 a i j.val
      · rw [if_pos hg, gathTerm1_closed, dif_neg]
        rintro ⟨h1, h2⟩
        exact hne (Fin.ext (by show j.val = (rowA1 V c (ValueIdx.ix2 (0 : Fin 1) e)).toNat / 800; omega))
      · rw [if_neg hg]
    · intro h; exact absurd (Finset.mem_univ _) h
  · rw [dif_neg hr]
    refine Finset.sum_eq_zero fun j _ => ?_
    by_cases hg : gate1 a i j.val
    · rw [if_pos hg, gathTerm1_closed, dif_neg]
      rintro ⟨h1, h2⟩
      have hj := j.isLt
      have hd : (rowA1 V c (ValueIdx.ix2 (0 : Fin 1) e)).toNat / 800 = j.val := by omega
      exact hr ⟨by omega, hd ▸ hg⟩
    · rw [if_neg hg]

end Region1e

/-! ## The region's own proof data -/

section Region1d

variable (a : (p : Fin 13) → (pcfgs (F := Ideal) p).Adm)
variable (V : (c : Dev nD) → (b : Ref sig .tc) → Buf (Elt Ideal) ((c : Thread nD τ).loc b))

/-- THE RESULT ARRAY after the gather region. -/
theorem arr1_3 (hc : Hclamp1 a) (c : Dev nD) : (dat1 a V c).arrAt 3 (cfgG1 a).N = gathG1 a V c :=
  arr1_3_of a V hc c (dat1 a V c) (after1_3 a V c)

/-- Index by index. -/
theorem arr1_3_apply (hc : Hclamp1 a) (c : Dev nD) (i : Fin 123) (e : Fin 5120) (f : Fin 128) :
    (dat1 a V c).arrAt 3 (cfgG1 a).N (ValueIdx.ix2 (ePos1 i e) f)
      = (∑ j : Fin 125, if gate1 a i j.val then gathTerm1 V c (ePos1 i e) f j else 0)
        * normA1 V c (ValueIdx.ix2 (ePos1 i e) (0 : Fin 1)) :=
  (congrFun (arr1_3 a V hc c) (ValueIdx.ix2 (ePos1 i e) f)).trans (gathG1_apply a V c i e f)

/-- In closed form: the node row the edge's row word names (when it is a node of a block the gate admits), times the
    edge's norm. -/
theorem arr1_3_closed (hc : Hclamp1 a) (c : Dev nD) (i : Fin 123) (e : Fin 5120) (f : Fin 128) :
    (dat1 a V c).arrAt 3 (cfgG1 a).N (ValueIdx.ix2 (ePos1 i e) f)
      = (if h : (rowA1 V c (ValueIdx.ix2 (0 : Fin 1) (ePos1 i e))).toNat < 100000
            ∧ gate1 a i ((rowA1 V c (ValueIdx.ix2 (0 : Fin 1) (ePos1 i e))).toNat / 800)
          then tmpA1 V c (ValueIdx.ix2 (⟨(rowA1 V c (ValueIdx.ix2 (0 : Fin 1) (ePos1 i e))).toNat, h.1⟩ : Fin 100000) f) else 0)
        * normA1 V c (ValueIdx.ix2 (ePos1 i e) (0 : Fin 1)) := by
  rw [arr1_3_apply a V hc c i e f, gathSum1_closed]

end Region1d

end Cert.KernelIdeal.Hand

end
-- ==== Proof.KI.ValGather4.lean ====
/- The value of a gather layer's region at the ideal instance. Tile (i, j) of the grid adds, into an accumulator of
   5120 rows carried along j, the product of a one-hot matrix (column e is hot at the nodes k of node block j whose
   number 800 j + k is the row word of edge 5120 i + e) with the block's 800 node rows; it does so only when the table
   words rlo i, rhi i bracket j, and on those tiles the clamped block index of the node window is j itself. At the
   extended reals the format changes are the identity and a product into a zero accumulator is the plain sum, so after
   the last tile of edge block i the accumulator's entry (e, f) is the sum, over the admitted node blocks j and the
   nodes k in them, of [800 j + k = row (5120 i + e)] * tmp (800 j + k, f). The tile j = 124 then stores the accumulator
   times the edge's norm to the result's row block i; the 123 row blocks tile the result array. -/
import proofs.«415143_j42460046688958_3_alg».proof.Proof.KI.Gather4Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A column [a, 1] broadcast to [a, b] reads, at (p, c), the column at p. -/
theorem g4_broadcastTo_a4_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (e, f) and contraction index k read the one-hot at (k, e) and the
    node block at (k, f) -/

abbrev Dg4 := dot_S800x5120_S800x128_S5120x128_0_0_1_1_n_n

theorem lhs_g4_0 (j : S5120x128.Idx) (k : Dg4.contr.Idx) : (Dg4.lhsIdx j k 0 : ℕ) = k ⟨0, by decide⟩ := by
  simp [DotDims.lhsIdx, Dg4, dot_S800x5120_S800x128_S5120x128_0_0_1_1_n_n] <;> rfl
theorem lhs_g4_1 (j : S5120x128.Idx) (k : Dg4.contr.Idx) : (Dg4.lhsIdx j k 1 : ℕ) = j 0 := by
  simp [DotDims.lhsIdx, Dg4, dot_S800x5120_S800x128_S5120x128_0_0_1_1_n_n] <;> rfl
theorem rhs_g4_0 (j : S5120x128.Idx) (k : Dg4.contr.Idx) : (Dg4.rhsIdx j k 0 : ℕ) = k ⟨0, by decide⟩ := by
  simp [DotDims.rhsIdx, Dg4, dot_S800x5120_S800x128_S5120x128_0_0_1_1_n_n] <;> rfl
theorem rhs_g4_1 (j : S5120x128.Idx) (k : Dg4.contr.Idx) : (Dg4.rhsIdx j k 1 : ℕ) = j 1 := by
  simp [DotDims.rhsIdx, Dg4, dot_S800x5120_S800x128_S5120x128_0_0_1_1_n_n] <;> rfl

/-- The contraction (the one-hot 800 x 5120 against the node block 800 x 128, over the 800 nodes, into the zero splat)
    at edge e, column f. -/
theorem dotg4_apply {φ₁ φ₂ : FTy} (L : FVec Ideal S800x5120 φ₁) (R : FVec Ideal S800x128 φ₂) (e : Fin 5120) (f : Fin 128) :
    FloatOps.matmul Dg4 none L R (constant S5120x128 .f32 0x00000000#32) (ValueIdx.ix2 e f)
      = ∑ k : Fin 800, L (ValueIdx.ix2 k e) * R (ValueIdx.ix2 k f) := by
  rw [Ideal.matmul_constant_zero_apply, ← Equiv.sum_comp (ValueIdx.contrEquiv1 Dg4 800 (by decide) (by decide)).symm]
  refine Finset.sum_congr rfl fun p _ => ?_
  congr 2
  · funext a; apply Fin.ext
    match a with
    | ⟨0, _⟩ => exact (lhs_g4_0 _ _).trans (ValueIdx.contrEquiv1_symm_val Dg4 800 _ _ p)
    | ⟨1, _⟩ => exact lhs_g4_1 _ _
  · funext a; apply Fin.ext
    match a with
    | ⟨0, _⟩ => exact (rhs_g4_0 _ _).trans (ValueIdx.contrEquiv1_symm_val Dg4 800 _ _ p)
    | ⟨1, _⟩ => exact rhs_g4_1 _ _

/-! ## The three payloads at an index -/

/-- The reset payload reads 0 everywhere. -/
theorem k4_pay4_apply (x : S5120x128.Idx) : (k4_pay1 (F := Ideal)) x = 0 := by
  unfold k4_pay1
  rw [shapeCast_self]
  exact Ideal.ofBits_zero_f32

/-- Node j * 800 + k as the body computes it, in 32-bit words, is the natural number. -/
theorem g4_node_word (j : Fin 125) (k : Fin 800) :
    (BitVec.ofNat 32 j.val * 800#32 + BitVec.ofNat 32 k.val).toNat = j.val * 800 + k.val :=
  Cert.Math.toNat_ofNat_mul_add j.val 800 k.val (by have := j.isLt; have := k.isLt; omega)

/-- THE ACCUMULATING PAYLOAD at (e, f): what was there plus the sum over the 800 nodes k of block (i 1) of
    [node (i 1) * 800 + k is edge e's row word] * node block (k, f). -/
theorem k4_pay2_apply (i : grid4.Coords) (x0 : Vec Ideal S1x5120 .i32) (x1 : Vec Ideal S800x128 .f32) (xs : Vec Ideal S5120x128 .f32)
    (e : Fin 5120) (f : Fin 128) :
    k4_pay2 (F := Ideal) i x0 x1 xs (ValueIdx.ix2 e f)
      = xs (ValueIdx.ix2 e f) + ∑ k : Fin 800,
          (if (i 1).val * 800 + k.val = (x0 (ValueIdx.ix2 (0 : Fin 1) e)).toNat then (1 : EReal) else 0) * x1 (ValueIdx.ix2 k f) := by
  unfold k4_pay2
  simp only [shapeCast_self]
  show xs (ValueIdx.ix2 e f) + FloatOps.matmul (F := Ideal) Dg4 none _ _ (constant S5120x128 .f32 0x00000000#32) (ValueIdx.ix2 e f) = _
  rw [dotg4_apply]
  refine congrArg (xs (ValueIdx.ix2 e f) + ·) (Finset.sum_congr rfl fun k _ => ?_)
  refine congrArg₂ (· * ·) ?_ rfl
  refine (Cert.Math.oneHot_payload_apply _ _ natLt_1_32 bitsLt_bf16_f32 (ValueIdx.ix2 k e)).trans ?_
  rw [ValueIdx.broadcastTo_1b_ab_apply, g4_broadcastTo_a4_ab_apply]
  have hv : ∀ w : BitVec 32, addi (broadcast S800x1 w) (iota Kind.tc S800x1 32 [0] iota_S800x1_d0_w32) (ValueIdx.ix2 k (0 : Fin 1))
      = w + BitVec.ofNat 32 k.val := fun w => by
    show w + iota Kind.tc S800x1 32 [0] iota_S800x1_d0_w32 (ValueIdx.ix2 k (0 : Fin 1)) = _
    rw [iota_single_apply]
  rw [hv]
  show (if x0 (ValueIdx.ix2 (0 : Fin 1) e) = BitVec.ofNat 32 (i 1).val * 800#32 + BitVec.ofNat 32 k.val then (1 : EReal) else 0) = _
  have hw := g4_node_word (i 1) k
  by_cases h : x0 (ValueIdx.ix2 (0 : Fin 1) e) = BitVec.ofNat 32 (i 1).val * 800#32 + BitVec.ofNat 32 k.val
  · rw [if_pos h, if_pos (by rw [h, hw])]
  · rw [if_neg h, if_neg (fun h' => h (BitVec.eq_of_toNat_eq (by rw [hw]; exact h'.symm)))]

/-- THE STORED PAYLOAD at (e, f): the accumulator at (e, f) times the norm of edge e. -/
theorem k4_pay3_apply (acc : Vec Ideal S5120x128 .f32) (x2 : Vec Ideal S5120x1 .f32) (e : Fin 5120) (f : Fin 128) :
    k4_pay3 (F := Ideal) acc x2 (ValueIdx.ix2 e f) = acc (ValueIdx.ix2 e f) * x2 (ValueIdx.ix2 e (0 : Fin 1)) := by
  unfold k4_pay3
  simp only [shapeCast_self]
  show acc (ValueIdx.ix2 e f) * broadcastTo S5120x128 x2 _ (ValueIdx.ix2 e f) = _
  rw [g4_broadcastTo_a4_ab_apply]

/-! ## Signed comparisons, and the gate in closed form -/

/-- A signed comparison's bit. -/
theorem g4_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed and unsigned; an edge block's too. -/
theorem g4_toInt_ofNat_lt125 : ∀ k : Fin 125, (BitVec.ofNat 32 k.val).toInt = (k.val : ℤ) := by decide
theorem g4_toNat_ofNat_lt123 : ∀ k : Fin 123, (BitVec.ofNat 32 k.val).toNat = k.val := by decide

/-- THE GATE: the body accumulates at coordinates i exactly when the two table words bracket the second coordinate. -/
theorem cond4_1_iff (i : grid4.Coords) (wlo whi : BitVec 32) :
    cond4_1 i wlo whi ↔ (wlo.toInt ≤ ((i 1).val : ℤ) ∧ ((i 1).val : ℤ) ≤ whi.toInt) := by
  have hI : (BitVec.ofNat 32 (i 1).val).toInt = ((i 1).val : ℤ) := g4_toInt_ofNat_lt125 (i 1)
  show ((Scalar.cmpi .ne (Scalar.extui (Scalar.andi (Scalar.cmpi .sle wlo (BitVec.ofNat 32 (i 1).val)) (Scalar.cmpi .sle (BitVec.ofNat 32 (i 1).val) whi))) 0#32 : BitVec 1) = 1#1) ↔ _
  rw [g4_sle_bit, g4_sle_bit, hI]
  by_cases h1 : wlo.toInt ≤ ((i 1).val : ℤ)
  · by_cases h2 : ((i 1).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 1).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-! ## The grid's coordinates: point t = 125 i + j -/

theorem g4_stride_i : grid4.stride 0 = 125 := by decide
theorem g4_stride_j : grid4.stride 1 = 1 := by decide

theorem g4_coords_i (t : Fin grid4.N) : (grid4.coords t 0).val = t.val / 125 := by
  have ht : t.val < 15375 := t.isLt.trans_eq N_4
  show t.val / grid4.stride 0 % 123 = _
  rw [g4_stride_i]
  exact Nat.mod_eq_of_lt (by omega)
theorem g4_coords_j (t : Fin grid4.N) : (grid4.coords t 1).val = t.val % 125 := by
  show t.val / grid4.stride 1 % 125 = _
  rw [g4_stride_j, Nat.div_one]

/-! ## One step of the accumulation at an index -/

/-- The scratch after a step, at (e, f): nothing or what it held (reset at j = 0), plus, when the table words admit j,
    the sum over the block's 800 nodes of [node is edge e's row word] * node block (k, f). -/
theorem accStep4_apply (i : grid4.Coords) (x0 : Vec Ideal S1x5120 .i32) (x1 : Vec Ideal S800x128 .f32) (lo hi : BitVec 32)
    (xs : Vec Ideal S5120x128 .f32) (e : Fin 5120) (f : Fin 128) :
    accStep4 (F := Ideal) i x0 x1 lo hi xs (ValueIdx.ix2 e f)
      = (if cond4_0 i then 0 else xs (ValueIdx.ix2 e f))
        + (if cond4_1 i lo hi then ∑ k : Fin 800,
            (if (i 1).val * 800 + k.val = (x0 (ValueIdx.ix2 (0 : Fin 1) e)).toNat then (1 : EReal) else 0) * x1 (ValueIdx.ix2 k f) else 0) := by
  unfold accStep4
  by_cases h1 : cond4_1 i lo hi
  · rw [if_pos h1, if_pos h1, k4_pay2_apply]
    by_cases h0 : cond4_0 i
    · rw [if_pos h0, if_pos h0, k4_pay4_apply]
    · rw [if_neg h0, if_neg h0]
  · rw [if_neg h1, if_neg h1, add_zero]
    by_cases h0 : cond4_0 i
    · rw [if_pos h0, if_pos h0, k4_pay4_apply]
    · rw [if_neg h0, if_neg h0]

/-! ## The arrays the region reads, the table words, the gate -/

section Region4

variable (a : (p : Fin 13) → (pcfgs (F := Ideal) p).Adm)
variable (V : (c : Dev nD) → (b : Ref sig .tc) → Buf (Elt Ideal) ((c : Thread nD τ).loc b))

/-- The sorted row words (one row of 629760 = 123 * 5120 words), -/
abbrev rowA4 (c : Dev nD) : S1x629760.Idx → BitVec 32 := V c main_v112
/-- the node rows the layer's matmul left, -/
abbrev tmpA4 (c : Dev nD) : S100000x128.Idx → Elt Ideal .f32 := V c main_v128
/-- and the edges' norms (one column), as the region finds them. -/
abbrev normA4 (c : Dev nD) : S629760x1.Idx → Elt Ideal .f32 := V c main_v114

/-- The two prefetched tables at the admissible contents: per edge block the least and the greatest node block of its
    row words. -/
abbrev rloT4 : S123.Idx → BitVec 32 := (a 4).1 0
abbrev rhiT4 : S123.Idx → BitVec 32 := (a 4).1 1

/-- THE GATE of tile (i, j), on the table words: rlo i ≤ j ≤ rhi i, signed. -/
def gate4 (i : Fin 123) (j : ℕ) : Prop :=
  (rloT4 a (Shape.Idx.ofFin i)).toInt ≤ (j : ℤ) ∧ (j : ℤ) ≤ (rhiT4 a (Shape.Idx.ofFin i)).toInt

instance (i : Fin 123) (j : ℕ) : Decidable (gate4 a i j) := by unfold gate4; infer_instance

/-- On every tile the gate admits, the clamped block index of the node window is the node block itself. -/
def Hclamp4 : Prop := ∀ (i : Fin 123) (j : Fin 125), gate4 a i j.val →
  (Scalar.minsi (Scalar.maxsi (BitVec.ofNat 32 j.val) (rloT4 a (Shape.Idx.ofFin i))) (rhiT4 a (Shape.Idx.ofFin i))).toNat = j.val

/-- Node k of node block j among the 100000 nodes; edge e of edge block i among the 629760 edge positions. -/
def nPos4 (j : Fin 125) (k : Fin 800) : Fin 100000 := ⟨j.val * 800 + k.val, by have := j.isLt; have := k.isLt; omega⟩
def ePos4 (i : Fin 123) (e : Fin 5120) : Fin 629760 := ⟨i.val * 5120 + e.val, by have := i.isLt; have := e.isLt; omega⟩

/-- What node block j adds to the gathered row of edge e, column f: the node rows of the block whose number is the
    edge's row word. -/
def gathTerm4 (c : Dev nD) (e : Fin 629760) (f : Fin 128) (j : Fin 125) : EReal :=
  ∑ k : Fin 800, (if j.val * 800 + k.val = (rowA4 V c (ValueIdx.ix2 (0 : Fin 1) e)).toNat then (1 : EReal) else 0)
    * tmpA4 V c (ValueIdx.ix2 (nPos4 j k) f)

/-- WHAT THE RESULT ARRAY ENDS HOLDING: entry (e, f) is the sum over the node blocks j the gate admits for edge block
    e / 5120 of that block's contribution, times the edge's norm. -/
def gathG4 (c : Dev nD) : S629760x128.Idx → Elt Ideal .f32 := fun x =>
  (∑ j : Fin 125, if gate4 a ⟨(x 0).val / 5120, by have h : (x 0).val < 629760 := (x 0).isLt; omega⟩ j.val
      then gathTerm4 V c ⟨(x 0).val, (x 0).isLt⟩ ⟨(x 1).val, (x 1).isLt⟩ j else 0)
    * normA4 V c (ValueIdx.ix2 (⟨(x 0).val, (x 0).isLt⟩ : Fin 629760) (0 : Fin 1))

/-! ## The table words as the body and the index map read them -/

theorem g4_N (t : Fin (cfgG4 a).N) : t.val < 15375 := t.isLt.trans_eq N_4
theorem g4_row_lt (t : Fin (cfgG4 a).N) : t.val / 125 < 123 := by have := g4_N a t; omega

/-- The edge block of a point. -/
def iOf4 (t : Fin (cfgG4 a).N) : Fin 123 := ⟨t.val / 125, g4_row_lt a t⟩

theorem g4_coords_i_eq (t : Fin (cfgG4 a).N) : grid4.coords t 0 = iOf4 a t := Fin.ext (g4_coords_i t)

/-- The word of the first table the body loads at a point is the table's word at the point's edge block, -/
theorem lo4_eq (c : Dev nD) (t : Fin (cfgG4 a).N) : lo4 a c t = rloT4 a (Shape.Idx.ofFin (iOf4 a t)) := by
  rw [← g4_coords_i_eq]
  show ((a 4).1 0 : S123.Idx → BitVec 32) _ = _
  refine congrArg ((a 4).1 0 : S123.Idx → BitVec 32) (funext fun x => Fin.ext ?_)
  match x with
  | ⟨0, _⟩ =>
    show (BitVec.ofNat 32 (grid4.coords t 0).val).toNat + 1 * 0 = (grid4.coords t 0).val
    rw [g4_toNat_ofNat_lt123 (grid4.coords t 0)]; omega
/-- and of the second. -/
theorem hi4_eq (c : Dev nD) (t : Fin (cfgG4 a).N) : hi4 a c t = rhiT4 a (Shape.Idx.ofFin (iOf4 a t)) := by
  rw [← g4_coords_i_eq]
  show ((a 4).1 1 : S123.Idx → BitVec 32) _ = _
  refine congrArg ((a 4).1 1 : S123.Idx → BitVec 32) (funext fun x => Fin.ext ?_)
  match x with
  | ⟨0, _⟩ =>
    show (BitVec.ofNat 32 (grid4.coords t 0).val).toNat + 1 * 0 = (grid4.coords t 0).val
    rw [g4_toNat_ofNat_lt123 (grid4.coords t 0)]; omega

/-- The body's branch at a point is the gate of its tile. -/
theorem gate4_iff (c : Dev nD) (t : Fin (cfgG4 a).N) :
    cond4_1 (grid4.coords t) (lo4 a c t) (hi4 a c t) ↔ gate4 a (iOf4 a t) (t.val % 125) := by
  rw [cond4_1_iff, lo4_eq, hi4_eq, g4_coords_j]
  exact Iff.rfl

end Region4

section Region4b

variable (a : (p : Fin 13) → (pcfgs (F := Ideal) p).Adm)
variable (V : (c : Dev nD) → (b : Ref sig .tc) → Buf (Elt Ideal) ((c : Thread nD τ).loc b))

/-! ## The windows' block indices at a point -/

/-- The row words' block: row 0, column block i. -/
theorem index4_0_0 (t : Fin (cfgG4 a).N) : ((cfgG4 a).win 0).index t (0 : Fin 2) = 0 := rfl
theorem index4_0_1 (t : Fin (cfgG4 a).N) : ((cfgG4 a).win 0).index t (1 : Fin 2) = t.val / 125 := by
  show (BitVec.ofNat 32 (grid4.coords t 0).val).toNat = _
  rw [g4_toNat_ofNat_lt123 (grid4.coords t 0), g4_coords_i]
/-- The norms' block and the result's: row block i, column block 0. -/
theorem index4_2_0 (t : Fin (cfgG4 a).N) : ((cfgG4 a).win 2).index t (0 : Fin 2) = t.val / 125 := by
  show (BitVec.ofNat 32 (grid4.coords t 0).val).toNat = _
  rw [g4_toNat_ofNat_lt123 (grid4.coords t 0), g4_coords_i]
theorem index4_2_1 (t : Fin (cfgG4 a).N) : ((cfgG4 a).win 2).index t (1 : Fin 2) = 0 := rfl
theorem index4_3_0 (t : Fin (cfgG4 a).N) : ((cfgG4 a).win 3).index t (0 : Fin 2) = t.val / 125 := by
  show (BitVec.ofNat 32 (grid4.coords t 0).val).toNat = _
  rw [g4_toNat_ofNat_lt123 (grid4.coords t 0), g4_coords_i]
theorem index4_3_1 (t : Fin (cfgG4 a).N) : ((cfgG4 a).win 3).index t (1 : Fin 2) = 0 := rfl

/-- The table's index an index map reads at the point's edge block. -/
theorem g4_emb_first (t : Fin (cfgG4 a).N) (inb : ∀ x, (![(Scalar.indexCast (BitVec.ofNat 32 (grid4.coords t 0).val)).toNat] : Fin 1 → Nat) x + S1.size x ≤ S123.size x)
    (h1 : 0 < S1.numel) :
    (Rect.unit (s := S123) ![(Scalar.indexCast (BitVec.ofNat 32 (grid4.coords t 0).val)).toNat] S1.size inb).emb (Shape.Idx.first h1)
      = Shape.Idx.ofFin (iOf4 a t) := by
  funext x
  apply Fin.ext
  match x with
  | ⟨0, _⟩ =>
    show (BitVec.ofNat 32 (grid4.coords t 0).val).toNat + 1 * 0 = t.val / 125
    rw [g4_toNat_ofNat_lt123 (grid4.coords t 0), g4_coords_i]; omega

/-- The node window's block: the node block j clamped between the two table words of edge block i, column block 0. -/
theorem index4_1_0 (t : Fin (cfgG4 a).N) : ((cfgG4 a).win 1).index t (0 : Fin 2)
    = (Scalar.minsi (Scalar.maxsi (BitVec.ofNat 32 (t.val % 125)) (rloT4 a (Shape.Idx.ofFin (iOf4 a t)))) (rhiT4 a (Shape.Idx.ofFin (iOf4 a t)))).toNat := by
  have h0 := g4_emb_first a t (k4_off1_inb (grid4.coords t)) (numel1_S1.symm ▸ Nat.one_pos)
  exact congrArg BitVec.toNat (congrArg₂ Scalar.minsi
    (congrArg₂ Scalar.maxsi (congrArg (BitVec.ofNat 32) (g4_coords_j t)) (congrArg ((a 4).1 0 : S123.Idx → BitVec 32) h0))
    (congrArg ((a 4).1 1 : S123.Idx → BitVec 32) h0))
theorem index4_1_1 (t : Fin (cfgG4 a).N) : ((cfgG4 a).win 1).index t (1 : Fin 2) = 0 := rfl

/-! ## The windows' blocks, at their element types -/

def rowB4 (c : Dev nD) (t : Fin (cfgG4 a).N) : Vec Ideal S1x5120 .i32 := iblk4 a V c 0 t
def tmpB4 (c : Dev nD) (t : Fin (cfgG4 a).N) : Vec Ideal S800x128 .f32 := iblk4 a V c 1 t
def normB4 (c : Dev nD) (t : Fin (cfgG4 a).N) : Vec Ideal S5120x1 .f32 := iblk4 a V c 2 t

/-- The row words' block at point t, position e, is the row word of edge 5120 i + e. -/
theorem rowB4_apply (c : Dev nD) (t : Fin (cfgG4 a).N) (e : Fin 5120) :
    rowB4 a V c t (ValueIdx.ix2 (0 : Fin 1) e) = rowA4 V c (ValueIdx.ix2 (0 : Fin 1) (ePos4 (iOf4 a t) e)) := by
  show V c main_v112 ((((cfgG4 a).win 0).blk t).view.emb (ValueIdx.ix2 (0 : Fin 1) e)) = _
  congr 1
  funext x; apply Fin.ext
  match x with
  | ⟨0, _⟩ => show ((cfgG4 a).win 0).index t (0 : Fin 2) * 1 + 1 * 0 = 0; rw [index4_0_0]
  | ⟨1, _⟩ => show ((cfgG4 a).win 0).index t (1 : Fin 2) * 5120 + 1 * e.val = t.val / 125 * 5120 + e.val; rw [index4_0_1]; omega

/-- The norms' block at point t, position e, is the norm of edge 5120 i + e. -/
theorem normB4_apply (c : Dev nD) (t : Fin (cfgG4 a).N) (e : Fin 5120) :
    normB4 a V c t (ValueIdx.ix2 e (0 : Fin 1)) = normA4 V c (ValueIdx.ix2 (ePos4 (iOf4 a t) e) (0 : Fin 1)) := by
  show V c main_v114 ((((cfgG4 a).win 2).blk t).view.emb (ValueIdx.ix2 e (0 : Fin 1))) = _
  congr 1
  funext x; apply Fin.ext
  match x with
  | ⟨0, _⟩ => show ((cfgG4 a).win 2).index t (0 : Fin 2) * 5120 + 1 * e.val = t.val / 125 * 5120 + e.val; rw [index4_2_0]; omega
  | ⟨1, _⟩ => show ((cfgG4 a).win 2).index t (1 : Fin 2) * 1 + 1 * 0 = 0; rw [index4_2_1]

/-- The node window's block at a point whose block index is j, row k, is node row 800 j + k. -/
theorem tmpB4_apply (c : Dev nD) (t : Fin (cfgG4 a).N) (j : Fin 125) (hj : ((cfgG4 a).win 1).index t (0 : Fin 2) = j.val)
    (k : Fin 800) (f : Fin 128) :
    tmpB4 a V c t (ValueIdx.ix2 k f) = tmpA4 V c (ValueIdx.ix2 (nPos4 j k) f) := by
  show V c main_v128 ((((cfgG4 a).win 1).blk t).view.emb (ValueIdx.ix2 k f)) = _
  congr 1
  funext x; apply Fin.ext
  match x with
  | ⟨0, _⟩ => show ((cfgG4 a).win 1).index t (0 : Fin 2) * 800 + 1 * k.val = j.val * 800 + k.val; rw [hj]; omega
  | ⟨1, _⟩ => show ((cfgG4 a).win 1).index t (1 : Fin 2) * 128 + 1 * f.val = f.val; rw [index4_1_1]; omega

/-- The result window's block at point t sits at rows 5120 i + e. -/
theorem emb4_3 (t : Fin (cfgG4 a).N) (e : Fin 5120) (f : Fin 128) :
    ((((cfgG4 a).win 3).blk t).view.emb (ValueIdx.ix2 e f) : S629760x128.Idx) = ValueIdx.ix2 (ePos4 (iOf4 a t) e) f := by
  funext x; apply Fin.ext
  match x with
  | ⟨0, _⟩ => show ((cfgG4 a).win 3).index t (0 : Fin 2) * 5120 + 1 * e.val = t.val / 125 * 5120 + e.val; rw [index4_3_0]; omega
  | ⟨1, _⟩ => show ((cfgG4 a).win 3).index t (1 : Fin 2) * 128 + 1 * f.val = f.val; rw [index4_3_1]; omega

end Region4b

section Region4c

variable (a : (p : Fin 13) → (pcfgs (F := Ideal) p).Adm)
variable (V : (c : Dev nD) → (b : Ref sig .tc) → Buf (Elt Ideal) ((c : Thread nD τ).loc b))

/-! ## The accumulator along the grid -/

/-- The accumulator's entry (e, f) after point n (0 past the grid). -/
def accV4 (c : Dev nD) (e : Fin 5120) (f : Fin 128) (n : ℕ) : EReal :=
  if h : n < (cfgG4 a).N then accAt4 a V c n h (ValueIdx.ix2 e f) else 0

/-- What the body adds at point n when the gate admits it (0 past the grid). -/
def gterm4 (c : Dev nD) (e : Fin 5120) (f : Fin 128) (n : ℕ) : EReal :=
  if h : n < (cfgG4 a).N then
    ∑ k : Fin 800, (if n % 125 * 800 + k.val = (rowB4 a V c ⟨n, h⟩ (ValueIdx.ix2 (0 : Fin 1) e)).toNat then (1 : EReal) else 0)
      * tmpB4 a V c ⟨n, h⟩ (ValueIdx.ix2 k f)
  else 0

/-- ONE STEP: after point n the entry is nothing (at j = 0) or what it was, plus the point's term when the gate admits
    the tile. -/
theorem accV4_step (c : Dev nD) (e : Fin 5120) (f : Fin 128) (n : ℕ) (hn : n < (cfgG4 a).N) :
    accV4 a V c e f n = (if n % 125 = 0 then 0 else accV4 a V c e f (n - 1))
      + (if gate4 a (iOf4 a ⟨n, hn⟩) (n % 125) then gterm4 a V c e f n else 0) := by
  have hprev : n - 1 < (cfgG4 a).N := Nat.lt_of_le_of_lt (Nat.sub_le _ _) hn
  have hstep : accAt4 a V c n hn = accStep4 (grid4.coords ⟨n, hn⟩) (rowB4 a V c ⟨n, hn⟩) (tmpB4 a V c ⟨n, hn⟩)
      (lo4 a c ⟨n, hn⟩) (hi4 a c ⟨n, hn⟩) (accAt4 a V c (n - 1) hprev) :=
    accAt4_step a V c ⟨n, hn⟩ (accAt4 a V c (n - 1) hprev) (fun _ => rfl)
  have happ := accStep4_apply (grid4.coords ⟨n, hn⟩) (rowB4 a V c ⟨n, hn⟩) (tmpB4 a V c ⟨n, hn⟩)
    (lo4 a c ⟨n, hn⟩) (hi4 a c ⟨n, hn⟩) (accAt4 a V c (n - 1) hprev) e f
  unfold accV4 gterm4
  rw [dif_pos hn, dif_pos hn, dif_pos hprev, hstep, happ]
  congr 1
  · by_cases h0 : n % 125 = 0
    · rw [if_pos h0, if_pos ((hcond4_0 ⟨n, hn⟩).mpr h0)]
    · rw [if_neg h0, if_neg (fun h => h0 ((hcond4_0 ⟨n, hn⟩).mp h))]
  · by_cases hg : gate4 a (iOf4 a ⟨n, hn⟩) (n % 125)
    · rw [if_pos hg, if_pos ((gate4_iff a c ⟨n, hn⟩).mpr hg), g4_coords_j]
    · rw [if_neg hg, if_neg (fun h => hg ((gate4_iff a c ⟨n, hn⟩).mp h))]

/-- AFTER THE LAST TILE of edge block i the entry is the sum of the admitted tiles' terms. -/
theorem accV4_last (c : Dev nD) (i : Fin 123) (e : Fin 5120) (f : Fin 128) :
    accV4 a V c e f (i.val * 125 + 124)
      = ∑ j ∈ Finset.range 125, if gate4 a i j then gterm4 a V c e f (i.val * 125 + j) else 0 := by
  have hN : (cfgG4 a).N = 15375 := N_4
  exact Cert.Math.gated_fold_eq_sum (fun j => accV4 a V c e f (i.val * 125 + j - 1)) (fun j => gterm4 a V c e f (i.val * 125 + j))
    (fun j => gate4 a i j) 125 (by decide) (fun j hj => by
      have hn : i.val * 125 + j < (cfgG4 a).N := by rw [hN]; have := i.isLt; omega
      have hmod : (i.val * 125 + j) % 125 = j := by omega
      have hi : iOf4 a ⟨i.val * 125 + j, hn⟩ = i := Fin.ext (by show (i.val * 125 + j) / 125 = i.val; omega)
      show accV4 a V c e f (i.val * 125 + (j + 1) - 1)
        = (if j = 0 then 0 else accV4 a V c e f (i.val * 125 + j - 1)) + (if gate4 a i j then gterm4 a V c e f (i.val * 125 + j) else 0)
      rw [show i.val * 125 + (j + 1) - 1 = i.val * 125 + j from by omega, accV4_step a V c e f _ hn, hmod, hi])

/-! ## The admitted tiles' terms over the arrays -/

/-- On a tile the gate admits, under the clamp hypothesis, the point's term is the node block's contribution to the
    gathered row of edge 5120 i + e. -/
theorem gterm4_eq (hc : Hclamp4 a) (c : Dev nD) (i : Fin 123) (j : Fin 125) (hg : gate4 a i j.val) (e : Fin 5120) (f : Fin 128) :
    gterm4 a V c e f (i.val * 125 + j.val) = gathTerm4 V c (ePos4 i e) f j := by
  have hN : (cfgG4 a).N = 15375 := N_4
  have hn : i.val * 125 + j.val < (cfgG4 a).N := by rw [hN]; have := i.isLt; have := j.isLt; omega
  have hmod : (i.val * 125 + j.val) % 125 = j.val := by have := j.isLt; omega
  have hi : iOf4 a ⟨i.val * 125 + j.val, hn⟩ = i := Fin.ext (by show (i.val * 125 + j.val) / 125 = i.val; have := j.isLt; omega)
  have hidx : ((cfgG4 a).win 1).index ⟨i.val * 125 + j.val, hn⟩ (0 : Fin 2) = j.val := by
    rw [index4_1_0, hi]
    show (Scalar.minsi (Scalar.maxsi (BitVec.ofNat 32 ((i.val * 125 + j.val) % 125)) _) _).toNat = _
    rw [hmod]
    exact hc i j hg
  unfold gterm4 gathTerm4
  rw [dif_pos hn, hmod]
  refine Finset.sum_congr rfl fun k _ => ?_
  rw [rowB4_apply, hi, tmpB4_apply a V c _ j hidx]

/-- The gathered array at row 5120 i + e. -/
theorem gathG4_apply (c : Dev nD) (i : Fin 123) (e : Fin 5120) (f : Fin 128) :
    gathG4 a V c (ValueIdx.ix2 (ePos4 i e) f)
      = (∑ j : Fin 125, if gate4 a i j.val then gathTerm4 V c (ePos4 i e) f j else 0)
        * normA4 V c (ValueIdx.ix2 (ePos4 i e) (0 : Fin 1)) := by
  have hI : ∀ h, (⟨(ePos4 i e).val / 5120, h⟩ : Fin 123) = i := fun h =>
    Fin.ext (by show (i.val * 5120 + e.val) / 5120 = i.val; have := e.isLt; omega)
  show (∑ j : Fin 125, if gate4 a ⟨(ePos4 i e).val / 5120, _⟩ j.val then gathTerm4 V c (ePos4 i e) f j else 0) * _ = _
  rw [hI]

/-! ## The result array -/

theorem accAt4_congr (c : Dev nD) {n n' : ℕ} (h : n = n') (hn : n < (cfgG4 a).N) (hn' : n' < (cfgG4 a).N) :
    accAt4 a V c n hn = accAt4 a V c n' hn' := by subst h; rfl

/-- The 123 row blocks cover the array, each written back at its last tile. -/
theorem cover4_3 (x : S629760x128.Idx) : ∃ t : Fin (cfgG4 a).N, ((cfgG4 a).win 3).flush t = true ∧ x ∈ (((cfgG4 a).win 3).blk t).view.set := by
  have hx0 : (x 0).val < 629760 := (x 0).isLt
  have hx1 : (x 1).val < 128 := (x 1).isLt
  have hN : (cfgG4 a).N = 15375 := N_4
  let t : Fin (cfgG4 a).N := ⟨(x 0).val / 5120 * 125 + 124, by rw [hN]; omega⟩
  have ht : t.val = (x 0).val / 5120 * 125 + 124 := rfl
  have hi : (iOf4 a t).val = (x 0).val / 5120 := by show t.val / 125 = _; omega
  refine ⟨t, (flush4_3 a t).mpr (by rw [ht]; omega), ?_⟩
  have hx : (ValueIdx.ix2 (ePos4 (iOf4 a t) ⟨(x 0).val % 5120, Nat.mod_lt _ (by decide)⟩) (⟨(x 1).val, hx1⟩ : Fin 128) : S629760x128.Idx) = x := by
    funext ax; apply Fin.ext
    match ax with
    | ⟨0, _⟩ => show (iOf4 a t).val * 5120 + (x 0).val % 5120 = (x 0).val; rw [hi]; omega
    | ⟨1, _⟩ => rfl
  have hm := (((cfgG4 a).win 3).blk t).view.emb_mem_set (ValueIdx.ix2 (⟨(x 0).val % 5120, Nat.mod_lt _ (by decide)⟩ : Fin 5120) (⟨(x 1).val, hx1⟩ : Fin 128))
  have hxe : x = (((cfgG4 a).win 3).blk t).view.emb (ValueIdx.ix2 (⟨(x 0).val % 5120, Nat.mod_lt _ (by decide)⟩ : Fin 5120) (⟨(x 1).val, hx1⟩ : Fin 128)) :=
    hx.symm.trans (emb4_3 a t _ _).symm
  exact hxe ▸ hm

/-- WHAT A WRITING POINT WRITES BACK is its block of the gathered array, for any proof data of the pipeline whose
    output buffer after the body is the accumulator times the norms. -/
theorem flushed4_3_eq (hc : Hclamp4 a) (c : Dev nD) (dat : Dat τ (Elt Ideal) Unit ℕ (UR sig nD τ) ℕ (cfgG4 a) c)
    (hafter : ∀ t, dat.after 3 t = k4_pay3 (accAt4 a V c t.val t.isLt) (iblk4 a V c 2 t))
    (t : Fin (cfgG4 a).N) (hf : ((cfgG4 a).win 3).flush t = true) :
    dat.flushed 3 t = (((cfgG4 a).win 3).blk t).view.read (Elt Ideal) (gathG4 a V c) := by
  have h124 : t.val % 125 = 124 := (flush4_3 a t).mp hf
  have htN := g4_N a t
  have hti : t.val = (iOf4 a t).val * 125 + 124 := by show t.val = t.val / 125 * 125 + 124; omega
  have hlast : (iOf4 a t).val * 125 + 124 < (cfgG4 a).N := hti ▸ t.isLt
  show ((cfgG4 a).win 3).cut (grid4.coords t) (dat.after 3 t) = _
  rw [hafter]
  refine funext fun (x : S5120x128.Idx) => ?_
  obtain ⟨e, f, rfl⟩ : ∃ e f, x = ValueIdx.ix2 e f := ⟨x 0, x 1, ValueIdx.eq_ix2 x⟩
  -- the accumulator's entry after the block's last tile
  have hS : accAt4 a V c t.val t.isLt (ValueIdx.ix2 e f)
      = ∑ j : Fin 125, if gate4 a (iOf4 a t) j.val then gathTerm4 V c (ePos4 (iOf4 a t) e) f j else 0 := by
    have h1 : accAt4 a V c t.val t.isLt (ValueIdx.ix2 e f) = accV4 a V c e f ((iOf4 a t).val * 125 + 124) := by
      unfold accV4
      rw [dif_pos hlast, accAt4_congr a V c hti t.isLt hlast]
    rw [h1, accV4_last, Finset.sum_range (fun j => if gate4 a (iOf4 a t) j then gterm4 a V c e f ((iOf4 a t).val * 125 + j) else 0)]
    refine Finset.sum_congr rfl fun j _ => ?_
    by_cases hg : gate4 a (iOf4 a t) j.val
    · rw [if_pos hg, if_pos hg, gterm4_eq a V hc c (iOf4 a t) j hg e f]
    · rw [if_neg hg, if_neg hg]
  exact (k4_pay3_apply (accAt4 a V c t.val t.isLt) (normB4 a V c t) e f).trans
    ((congrArg₂ (· * ·) hS (normB4_apply a V c t e)).trans
      ((gathG4_apply a V c (iOf4 a t) e f).symm.trans (congrArg (gathG4 a V c) (emb4_3 a t e f).symm)))

/-- THE RESULT ARRAY after the region, for any proof data of the pipeline whose output buffer after the body is the
    accumulator times the norms. -/
theorem arr4_3_of (hc : Hclamp4 a) (c : Dev nD) (dat : Dat τ (Elt Ideal) Unit ℕ (UR sig nD τ) ℕ (cfgG4 a) c)
    (hafter : ∀ t, dat.after 3 t = k4_pay3 (accAt4 a V c t.val t.isLt) (iblk4 a V c 2 t)) :
    dat.arrAt 3 (cfgG4 a).N = gathG4 a V c :=
  dat.arrAt_eq_of_cover 3 (gathG4 a V c) (fun t hf => flushed4_3_eq a V hc c dat hafter t hf) (cover4_3 a)

end Region4c

section Region1e

variable (a : (p : Fin 13) → (pcfgs (F := Ideal) p).Adm)
variable (V : (c : Dev nD) → (b : Ref sig .tc) → Buf (Elt Ideal) ((c : Thread nD τ).loc b))

/-! ## The gathered sum in closed form -/

/-- One node block's contribution: the node row whose number is the edge's row word, when the block holds it. -/
theorem gathTerm4_closed (c : Dev nD) (e : Fin 629760) (f : Fin 128) (j : Fin 125) :
    gathTerm4 V c e f j
      = if h : j.val * 800 ≤ (rowA4 V c (ValueIdx.ix2 (0 : Fin 1) e)).toNat ∧ (rowA4 V c (ValueIdx.ix2 (0 : Fin 1) e)).toNat < j.val * 800 + 800
        then tmpA4 V c (ValueIdx.ix2 (⟨(rowA4 V c (ValueIdx.ix2 (0 : Fin 1) e)).toNat, by have := j.isLt; omega⟩ : Fin 100000) f) else 0 := by
  have hj := j.isLt
  let r := (rowA4 V c (ValueIdx.ix2 (0 : Fin 1) e)).toNat
  let x : ℕ → EReal := fun n => if h : n < 100000 then tmpA4 V c (ValueIdx.ix2 (⟨n, h⟩ : Fin 100000) f) else 0
  let δ : ℕ → EReal := fun n => if n = r then 1 else 0
  have hsum : gathTerm4 V c e f j = ∑ k : Fin 800, δ (j.val * 800 + k.val) * x (j.val * 800 + k.val) := by
    unfold gathTerm4
    refine Finset.sum_congr rfl fun k _ => ?_
    have hk : j.val * 800 + k.val < 100000 := (nPos4 j k).isLt
    show _ * _ = (if j.val * 800 + k.val = r then (1 : EReal) else 0) * (if h : j.val * 800 + k.val < 100000 then tmpA4 V c (ValueIdx.ix2 (⟨j.val * 800 + k.val, h⟩ : Fin 100000) f) else 0)
    rw [dif_pos hk]
    rfl
  rw [hsum, Cert.Math.sum_fin_block_oneHot_mul 800 (j.val * 800) r δ x (if_pos rfl) (fun n hn => if_neg hn)]
  by_cases hb : j.val * 800 ≤ r ∧ r < j.val * 800 + 800
  · rw [if_pos hb, dif_pos hb]
    show (if h : r < 100000 then tmpA4 V c (ValueIdx.ix2 (⟨r, h⟩ : Fin 100000) f) else 0) = _
    rw [dif_pos (by omega)]
  · rw [if_neg hb, dif_neg hb]

/-- THE GATHERED SUM: the node row the edge's row word names, when the word is a node and the gate admits its block;
    nothing otherwise. -/
theorem gathSum4_closed (c : Dev nD) (i : Fin 123) (e : Fin 629760) (f : Fin 128) :
    (∑ j : Fin 125, if gate4 a i j.val then gathTerm4 V c e f j else 0)
      = if h : (rowA4 V c (ValueIdx.ix2 (0 : Fin 1) e)).toNat < 100000 ∧ gate4 a i ((rowA4 V c (ValueIdx.ix2 (0 : Fin 1) e)).toNat / 800)
        then tmpA4 V c (ValueIdx.ix2 (⟨(rowA4 V c (ValueIdx.ix2 (0 : Fin 1) e)).toNat, h.1⟩ : Fin 100000) f) else 0 := by
  by_cases hr : (rowA4 V c (ValueIdx.ix2 (0 : Fin 1) e)).toNat < 100000 ∧ gate4 a i ((rowA4 V c (ValueIdx.ix2 (0 : Fin 1) e)).toNat / 800)
  · rw [dif_pos hr]
    have hj0 : (rowA4 V c (ValueIdx.ix2 (0 : Fin 1) e)).toNat / 800 < 125 := by have := hr.1; omega
    rw [Finset.sum_eq_single (⟨(rowA4 V c (ValueIdx.ix2 (0 : Fin 1) e)).toNat / 800, hj0⟩ : Fin 125)]
    · have hb : (rowA4 V c (ValueIdx.ix2 (0 : Fin 1) e)).toNat / 800 * 800 ≤ (rowA4 V c (ValueIdx.ix2 (0 : Fin 1) e)).toNat
          ∧ (rowA4 V c (ValueIdx.ix2 (0 : Fin 1) e)).toNat < (rowA4 V c (ValueIdx.ix2 (0 : Fin 1) e)).toNat / 800 * 800 + 800 := by omega
      rw [if_pos hr.2, gathTerm4_closed, dif_pos hb]
    · intro j _ hne
      by_cases hg : gate4 a i j.val
      · rw [if_pos hg, gathTerm4_closed, dif_neg]
        rintro ⟨h1, h2⟩
        exact hne (Fin.ext (by show j.val = (rowA4 V c (ValueIdx.ix2 (0 : Fin 1) e)).toNat / 800; omega))
      · rw [if_neg hg]
    · intro h; exact absurd (Finset.mem_univ _) h
  · rw [dif_neg hr]
    refine Finset.sum_eq_zero fun j _ => ?_
    by_cases hg : gate4 a i j.val
    · rw [if_pos hg, gathTerm4_closed, dif_neg]
      rintro ⟨h1, h2⟩
      have hj := j.isLt
      have hd : (rowA4 V c (ValueIdx.ix2 (0 : Fin 1) e)).toNat / 800 = j.val := by omega
      exact hr ⟨by omega, hd ▸ hg⟩
    · rw [if_neg hg]

end Region1e

/-! ## The region's own proof data -/

section Region4d

variable (a : (p : Fin 13) → (pcfgs (F := Ideal) p).Adm)
variable (V : (c : Dev nD) → (b : Ref sig .tc) → Buf (Elt Ideal) ((c : Thread nD τ).loc b))

/-- THE RESULT ARRAY after the gather region. -/
theorem arr4_3 (hc : Hclamp4 a) (c : Dev nD) : (dat4 a V c).arrAt 3 (cfgG4 a).N = gathG4 a V c :=
  arr4_3_of a V hc c (dat4 a V c) (after4_3 a V c)

/-- Index by index. -/
theorem arr4_3_apply (hc : Hclamp4 a) (c : Dev nD) (i : Fin 123) (e : Fin 5120) (f : Fin 128) :
    (dat4 a V c).arrAt 3 (cfgG4 a).N (ValueIdx.ix2 (ePos4 i e) f)
      = (∑ j : Fin 125, if gate4 a i j.val then gathTerm4 V c (ePos4 i e) f j else 0)
        * normA4 V c (ValueIdx.ix2 (ePos4 i e) (0 : Fin 1)) :=
  (congrFun (arr4_3 a V hc c) (ValueIdx.ix2 (ePos4 i e) f)).trans (gathG4_apply a V c i e f)

/-- In closed form: the node row the edge's row word names (when it is a node of a block the gate admits), times the
    edge's norm. -/
theorem arr4_3_closed (hc : Hclamp4 a) (c : Dev nD) (i : Fin 123) (e : Fin 5120) (f : Fin 128) :
    (dat4 a V c).arrAt 3 (cfgG4 a).N (ValueIdx.ix2 (ePos4 i e) f)
      = (if h : (rowA4 V c (ValueIdx.ix2 (0 : Fin 1) (ePos4 i e))).toNat < 100000
            ∧ gate4 a i ((rowA4 V c (ValueIdx.ix2 (0 : Fin 1) (ePos4 i e))).toNat / 800)
          then tmpA4 V c (ValueIdx.ix2 (⟨(rowA4 V c (ValueIdx.ix2 (0 : Fin 1) (ePos4 i e))).toNat, h.1⟩ : Fin 100000) f) else 0)
        * normA4 V c (ValueIdx.ix2 (ePos4 i e) (0 : Fin 1)) := by
  rw [arr4_3_apply a V hc c i e f, gathSum4_closed]

end Region4d

end Cert.KernelIdeal.Hand

end
-- ==== Proof.KI.ValGather7.lean ====
/- The value of a gather layer's region at the ideal instance. Tile (i, j) of the grid adds, into an accumulator of
   5120 rows carried along j, the product of a one-hot matrix (column e is hot at the nodes k of node block j whose
   number 800 j + k is the row word of edge 5120 i + e) with the block's 800 node rows; it does so only when the table
   words rlo i, rhi i bracket j, and on those tiles the clamped block index of the node window is j itself. At the
   extended reals the format changes are the identity and a product into a zero accumulator is the plain sum, so after
   the last tile of edge block i the accumulator's entry (e, f) is the sum, over the admitted node blocks j and the
   nodes k in them, of [800 j + k = row (5120 i + e)] * tmp (800 j + k, f). The tile j = 124 then stores the accumulator
   times the edge's norm to the result's row block i; the 123 row blocks tile the result array. -/
import proofs.«415143_j42460046688958_3_alg».proof.Proof.KI.Gather7Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A column [a, 1] broadcast to [a, b] reads, at (p, c), the column at p. -/
theorem g7_broadcastTo_a7_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (e, f) and contraction index k read the one-hot at (k, e) and the
    node block at (k, f) -/

abbrev Dg7 := dot_S800x5120_S800x128_S5120x128_0_0_1_1_n_n

theorem lhs_g7_0 (j : S5120x128.Idx) (k : Dg7.contr.Idx) : (Dg7.lhsIdx j k 0 : ℕ) = k ⟨0, by decide⟩ := by
  simp [DotDims.lhsIdx, Dg7, dot_S800x5120_S800x128_S5120x128_0_0_1_1_n_n] <;> rfl
theorem lhs_g7_1 (j : S5120x128.Idx) (k : Dg7.contr.Idx) : (Dg7.lhsIdx j k 1 : ℕ) = j 0 := by
  simp [DotDims.lhsIdx, Dg7, dot_S800x5120_S800x128_S5120x128_0_0_1_1_n_n] <;> rfl
theorem rhs_g7_0 (j : S5120x128.Idx) (k : Dg7.contr.Idx) : (Dg7.rhsIdx j k 0 : ℕ) = k ⟨0, by decide⟩ := by
  simp [DotDims.rhsIdx, Dg7, dot_S800x5120_S800x128_S5120x128_0_0_1_1_n_n] <;> rfl
theorem rhs_g7_1 (j : S5120x128.Idx) (k : Dg7.contr.Idx) : (Dg7.rhsIdx j k 1 : ℕ) = j 1 := by
  simp [DotDims.rhsIdx, Dg7, dot_S800x5120_S800x128_S5120x128_0_0_1_1_n_n] <;> rfl

/-- The contraction (the one-hot 800 x 5120 against the node block 800 x 128, over the 800 nodes, into the zero splat)
    at edge e, column f. -/
theorem dotg7_apply {φ₁ φ₂ : FTy} (L : FVec Ideal S800x5120 φ₁) (R : FVec Ideal S800x128 φ₂) (e : Fin 5120) (f : Fin 128) :
    FloatOps.matmul Dg7 none L R (constant S5120x128 .f32 0x00000000#32) (ValueIdx.ix2 e f)
      = ∑ k : Fin 800, L (ValueIdx.ix2 k e) * R (ValueIdx.ix2 k f) := by
  rw [Ideal.matmul_constant_zero_apply, ← Equiv.sum_comp (ValueIdx.contrEquiv1 Dg7 800 (by decide) (by decide)).symm]
  refine Finset.sum_congr rfl fun p _ => ?_
  congr 2
  · funext a; apply Fin.ext
    match a with
    | ⟨0, _⟩ => exact (lhs_g7_0 _ _).trans (ValueIdx.contrEquiv1_symm_val Dg7 800 _ _ p)
    | ⟨1, _⟩ => exact lhs_g7_1 _ _
  · funext a; apply Fin.ext
    match a with
    | ⟨0, _⟩ => exact (rhs_g7_0 _ _).trans (ValueIdx.contrEquiv1_symm_val Dg7 800 _ _ p)
    | ⟨1, _⟩ => exact rhs_g7_1 _ _

/-! ## The three payloads at an index -/

/-- The reset payload reads 0 everywhere. -/
theorem k7_pay7_apply (x : S5120x128.Idx) : (k7_pay1 (F := Ideal)) x = 0 := by
  unfold k7_pay1
  rw [shapeCast_self]
  exact Ideal.ofBits_zero_f32

/-- Node j * 800 + k as the body computes it, in 32-bit words, is the natural number. -/
theorem g7_node_word (j : Fin 125) (k : Fin 800) :
    (BitVec.ofNat 32 j.val * 800#32 + BitVec.ofNat 32 k.val).toNat = j.val * 800 + k.val :=
  Cert.Math.toNat_ofNat_mul_add j.val 800 k.val (by have := j.isLt; have := k.isLt; omega)

/-- THE ACCUMULATING PAYLOAD at (e, f): what was there plus the sum over the 800 nodes k of block (i 1) of
    [node (i 1) * 800 + k is edge e's row word] * node block (k, f). -/
theorem k7_pay2_apply (i : grid7.Coords) (x0 : Vec Ideal S1x5120 .i32) (x1 : Vec Ideal S800x128 .f32) (xs : Vec Ideal S5120x128 .f32)
    (e : Fin 5120) (f : Fin 128) :
    k7_pay2 (F := Ideal) i x0 x1 xs (ValueIdx.ix2 e f)
      = xs (ValueIdx.ix2 e f) + ∑ k : Fin 800,
          (if (i 1).val * 800 + k.val = (x0 (ValueIdx.ix2 (0 : Fin 1) e)).toNat then (1 : EReal) else 0) * x1 (ValueIdx.ix2 k f) := by
  unfold k7_pay2
  simp only [shapeCast_self]
  show xs (ValueIdx.ix2 e f) + FloatOps.matmul (F := Ideal) Dg7 none _ _ (constant S5120x128 .f32 0x00000000#32) (ValueIdx.ix2 e f) = _
  rw [dotg7_apply]
  refine congrArg (xs (ValueIdx.ix2 e f) + ·) (Finset.sum_congr rfl fun k _ => ?_)
  refine congrArg₂ (· * ·) ?_ rfl
  refine (Cert.Math.oneHot_payload_apply _ _ natLt_1_32 bitsLt_bf16_f32 (ValueIdx.ix2 k e)).trans ?_
  rw [ValueIdx.broadcastTo_1b_ab_apply, g7_broadcastTo_a7_ab_apply]
  have hv : ∀ w : BitVec 32, addi (broadcast S800x1 w) (iota Kind.tc S800x1 32 [0] iota_S800x1_d0_w32) (ValueIdx.ix2 k (0 : Fin 1))
      = w + BitVec.ofNat 32 k.val := fun w => by
    show w + iota Kind.tc S800x1 32 [0] iota_S800x1_d0_w32 (ValueIdx.ix2 k (0 : Fin 1)) = _
    rw [iota_single_apply]
  rw [hv]
  show (if x0 (ValueIdx.ix2 (0 : Fin 1) e) = BitVec.ofNat 32 (i 1).val * 800#32 + BitVec.ofNat 32 k.val then (1 : EReal) else 0) = _
  have hw := g7_node_word (i 1) k
  by_cases h : x0 (ValueIdx.ix2 (0 : Fin 1) e) = BitVec.ofNat 32 (i 1).val * 800#32 + BitVec.ofNat 32 k.val
  · rw [if_pos h, if_pos (by rw [h, hw])]
  · rw [if_neg h, if_neg (fun h' => h (BitVec.eq_of_toNat_eq (by rw [hw]; exact h'.symm)))]

/-- THE STORED PAYLOAD at (e, f): the accumulator at (e, f) times the norm of edge e. -/
theorem k7_pay3_apply (acc : Vec Ideal S5120x128 .f32) (x2 : Vec Ideal S5120x1 .f32) (e : Fin 5120) (f : Fin 128) :
    k7_pay3 (F := Ideal) acc x2 (ValueIdx.ix2 e f) = acc (ValueIdx.ix2 e f) * x2 (ValueIdx.ix2 e (0 : Fin 1)) := by
  unfold k7_pay3
  simp only [shapeCast_self]
  show acc (ValueIdx.ix2 e f) * broadcastTo S5120x128 x2 _ (ValueIdx.ix2 e f) = _
  rw [g7_broadcastTo_a7_ab_apply]

/-! ## Signed comparisons, and the gate in closed form -/

/-- A signed comparison's bit. -/
theorem g7_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed and unsigned; an edge block's too. -/
theorem g7_toInt_ofNat_lt125 : ∀ k : Fin 125, (BitVec.ofNat 32 k.val).toInt = (k.val : ℤ) := by decide
theorem g7_toNat_ofNat_lt123 : ∀ k : Fin 123, (BitVec.ofNat 32 k.val).toNat = k.val := by decide

/-- THE GATE: the body accumulates at coordinates i exactly when the two table words bracket the second coordinate. -/
theorem cond7_1_iff (i : grid7.Coords) (wlo whi : BitVec 32) :
    cond7_1 i wlo whi ↔ (wlo.toInt ≤ ((i 1).val : ℤ) ∧ ((i 1).val : ℤ) ≤ whi.toInt) := by
  have hI : (BitVec.ofNat 32 (i 1).val).toInt = ((i 1).val : ℤ) := g7_toInt_ofNat_lt125 (i 1)
  show ((Scalar.cmpi .ne (Scalar.extui (Scalar.andi (Scalar.cmpi .sle wlo (BitVec.ofNat 32 (i 1).val)) (Scalar.cmpi .sle (BitVec.ofNat 32 (i 1).val) whi))) 0#32 : BitVec 1) = 1#1) ↔ _
  rw [g7_sle_bit, g7_sle_bit, hI]
  by_cases h1 : wlo.toInt ≤ ((i 1).val : ℤ)
  · by_cases h2 : ((i 1).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 1).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-! ## The grid's coordinates: point t = 125 i + j -/

theorem g7_stride_i : grid7.stride 0 = 125 := by decide
theorem g7_stride_j : grid7.stride 1 = 1 := by decide

theorem g7_coords_i (t : Fin grid7.N) : (grid7.coords t 0).val = t.val / 125 := by
  have ht : t.val < 15375 := t.isLt.trans_eq N_7
  show t.val / grid7.stride 0 % 123 = _
  rw [g7_stride_i]
  exact Nat.mod_eq_of_lt (by omega)
theorem g7_coords_j (t : Fin grid7.N) : (grid7.coords t 1).val = t.val % 125 := by
  show t.val / grid7.stride 1 % 125 = _
  rw [g7_stride_j, Nat.div_one]

/-! ## One step of the accumulation at an index -/

/-- The scratch after a step, at (e, f): nothing or what it held (reset at j = 0), plus, when the table words admit j,
    the sum over the block's 800 nodes of [node is edge e's row word] * node block (k, f). -/
theorem accStep7_apply (i : grid7.Coords) (x0 : Vec Ideal S1x5120 .i32) (x1 : Vec Ideal S800x128 .f32) (lo hi : BitVec 32)
    (xs : Vec Ideal S5120x128 .f32) (e : Fin 5120) (f : Fin 128) :
    accStep7 (F := Ideal) i x0 x1 lo hi xs (ValueIdx.ix2 e f)
      = (if cond7_0 i then 0 else xs (ValueIdx.ix2 e f))
        + (if cond7_1 i lo hi then ∑ k : Fin 800,
            (if (i 1).val * 800 + k.val = (x0 (ValueIdx.ix2 (0 : Fin 1) e)).toNat then (1 : EReal) else 0) * x1 (ValueIdx.ix2 k f) else 0) := by
  unfold accStep7
  by_cases h1 : cond7_1 i lo hi
  · rw [if_pos h1, if_pos h1, k7_pay2_apply]
    by_cases h0 : cond7_0 i
    · rw [if_pos h0, if_pos h0, k7_pay7_apply]
    · rw [if_neg h0, if_neg h0]
  · rw [if_neg h1, if_neg h1, add_zero]
    by_cases h0 : cond7_0 i
    · rw [if_pos h0, if_pos h0, k7_pay7_apply]
    · rw [if_neg h0, if_neg h0]

/-! ## The arrays the region reads, the table words, the gate -/

section Region7

variable (a : (p : Fin 13) → (pcfgs (F := Ideal) p).Adm)
variable (V : (c : Dev nD) → (b : Ref sig .tc) → Buf (Elt Ideal) ((c : Thread nD τ).loc b))

/-- The sorted row words (one row of 629760 = 123 * 5120 words), -/
abbrev rowA7 (c : Dev nD) : S1x629760.Idx → BitVec 32 := V c main_v112
/-- the node rows the layer's matmul left, -/
abbrev tmpA7 (c : Dev nD) : S100000x128.Idx → Elt Ideal .f32 := V c main_v138
/-- and the edges' norms (one column), as the region finds them. -/
abbrev normA7 (c : Dev nD) : S629760x1.Idx → Elt Ideal .f32 := V c main_v114

/-- The two prefetched tables at the admissible contents: per edge block the least and the greatest node block of its
    row words. -/
abbrev rloT7 : S123.Idx → BitVec 32 := (a 7).1 0
abbrev rhiT7 : S123.Idx → BitVec 32 := (a 7).1 1

/-- THE GATE of tile (i, j), on the table words: rlo i ≤ j ≤ rhi i, signed. -/
def gate7 (i : Fin 123) (j : ℕ) : Prop :=
  (rloT7 a (Shape.Idx.ofFin i)).toInt ≤ (j : ℤ) ∧ (j : ℤ) ≤ (rhiT7 a (Shape.Idx.ofFin i)).toInt

instance (i : Fin 123) (j : ℕ) : Decidable (gate7 a i j) := by unfold gate7; infer_instance

/-- On every tile the gate admits, the clamped block index of the node window is the node block itself. -/
def Hclamp7 : Prop := ∀ (i : Fin 123) (j : Fin 125), gate7 a i j.val →
  (Scalar.minsi (Scalar.maxsi (BitVec.ofNat 32 j.val) (rloT7 a (Shape.Idx.ofFin i))) (rhiT7 a (Shape.Idx.ofFin i))).toNat = j.val

/-- Node k of node block j among the 100000 nodes; edge e of edge block i among the 629760 edge positions. -/
def nPos7 (j : Fin 125) (k : Fin 800) : Fin 100000 := ⟨j.val * 800 + k.val, by have := j.isLt; have := k.isLt; omega⟩
def ePos7 (i : Fin 123) (e : Fin 5120) : Fin 629760 := ⟨i.val * 5120 + e.val, by have := i.isLt; have := e.isLt; omega⟩

/-- What node block j adds to the gathered row of edge e, column f: the node rows of the block whose number is the
    edge's row word. -/
def gathTerm7 (c : Dev nD) (e : Fin 629760) (f : Fin 128) (j : Fin 125) : EReal :=
  ∑ k : Fin 800, (if j.val * 800 + k.val = (rowA7 V c (ValueIdx.ix2 (0 : Fin 1) e)).toNat then (1 : EReal) else 0)
    * tmpA7 V c (ValueIdx.ix2 (nPos7 j k) f)

/-- WHAT THE RESULT ARRAY ENDS HOLDING: entry (e, f) is the sum over the node blocks j the gate admits for edge block
    e / 5120 of that block's contribution, times the edge's norm. -/
def gathG7 (c : Dev nD) : S629760x128.Idx → Elt Ideal .f32 := fun x =>
  (∑ j : Fin 125, if gate7 a ⟨(x 0).val / 5120, by have h : (x 0).val < 629760 := (x 0).isLt; omega⟩ j.val
      then gathTerm7 V c ⟨(x 0).val, (x 0).isLt⟩ ⟨(x 1).val, (x 1).isLt⟩ j else 0)
    * normA7 V c (ValueIdx.ix2 (⟨(x 0).val, (x 0).isLt⟩ : Fin 629760) (0 : Fin 1))

/-! ## The table words as the body and the index map read them -/

theorem g7_N (t : Fin (cfgG7 a).N) : t.val < 15375 := t.isLt.trans_eq N_7
theorem g7_row_lt (t : Fin (cfgG7 a).N) : t.val / 125 < 123 := by have := g7_N a t; omega

/-- The edge block of a point. -/
def iOf7 (t : Fin (cfgG7 a).N) : Fin 123 := ⟨t.val / 125, g7_row_lt a t⟩

theorem g7_coords_i_eq (t : Fin (cfgG7 a).N) : grid7.coords t 0 = iOf7 a t := Fin.ext (g7_coords_i t)

/-- The word of the first table the body loads at a point is the table's word at the point's edge block, -/
theorem lo7_eq (c : Dev nD) (t : Fin (cfgG7 a).N) : lo7 a c t = rloT7 a (Shape.Idx.ofFin (iOf7 a t)) := by
  rw [← g7_coords_i_eq]
  show ((a 7).1 0 : S123.Idx → BitVec 32) _ = _
  refine congrArg ((a 7).1 0 : S123.Idx → BitVec 32) (funext fun x => Fin.ext ?_)
  match x with
  | ⟨0, _⟩ =>
    show (BitVec.ofNat 32 (grid7.coords t 0).val).toNat + 1 * 0 = (grid7.coords t 0).val
    rw [g7_toNat_ofNat_lt123 (grid7.coords t 0)]; omega
/-- and of the second. -/
theorem hi7_eq (c : Dev nD) (t : Fin (cfgG7 a).N) : hi7 a c t = rhiT7 a (Shape.Idx.ofFin (iOf7 a t)) := by
  rw [← g7_coords_i_eq]
  show ((a 7).1 1 : S123.Idx → BitVec 32) _ = _
  refine congrArg ((a 7).1 1 : S123.Idx → BitVec 32) (funext fun x => Fin.ext ?_)
  match x with
  | ⟨0, _⟩ =>
    show (BitVec.ofNat 32 (grid7.coords t 0).val).toNat + 1 * 0 = (grid7.coords t 0).val
    rw [g7_toNat_ofNat_lt123 (grid7.coords t 0)]; omega

/-- The body's branch at a point is the gate of its tile. -/
theorem gate7_iff (c : Dev nD) (t : Fin (cfgG7 a).N) :
    cond7_1 (grid7.coords t) (lo7 a c t) (hi7 a c t) ↔ gate7 a (iOf7 a t) (t.val % 125) := by
  rw [cond7_1_iff, lo7_eq, hi7_eq, g7_coords_j]
  exact Iff.rfl

end Region7

section Region7b

variable (a : (p : Fin 13) → (pcfgs (F := Ideal) p).Adm)
variable (V : (c : Dev nD) → (b : Ref sig .tc) → Buf (Elt Ideal) ((c : Thread nD τ).loc b))

/-! ## The windows' block indices at a point -/

/-- The row words' block: row 0, column block i. -/
theorem index7_0_0 (t : Fin (cfgG7 a).N) : ((cfgG7 a).win 0).index t (0 : Fin 2) = 0 := rfl
theorem index7_0_1 (t : Fin (cfgG7 a).N) : ((cfgG7 a).win 0).index t (1 : Fin 2) = t.val / 125 := by
  show (BitVec.ofNat 32 (grid7.coords t 0).val).toNat = _
  rw [g7_toNat_ofNat_lt123 (grid7.coords t 0), g7_coords_i]
/-- The norms' block and the result's: row block i, column block 0. -/
theorem index7_2_0 (t : Fin (cfgG7 a).N) : ((cfgG7 a).win 2).index t (0 : Fin 2) = t.val / 125 := by
  show (BitVec.ofNat 32 (grid7.coords t 0).val).toNat = _
  rw [g7_toNat_ofNat_lt123 (grid7.coords t 0), g7_coords_i]
theorem index7_2_1 (t : Fin (cfgG7 a).N) : ((cfgG7 a).win 2).index t (1 : Fin 2) = 0 := rfl
theorem index7_3_0 (t : Fin (cfgG7 a).N) : ((cfgG7 a).win 3).index t (0 : Fin 2) = t.val / 125 := by
  show (BitVec.ofNat 32 (grid7.coords t 0).val).toNat = _
  rw [g7_toNat_ofNat_lt123 (grid7.coords t 0), g7_coords_i]
theorem index7_3_1 (t : Fin (cfgG7 a).N) : ((cfgG7 a).win 3).index t (1 : Fin 2) = 0 := rfl

/-- The table's index an index map reads at the point's edge block. -/
theorem g7_emb_first (t : Fin (cfgG7 a).N) (inb : ∀ x, (![(Scalar.indexCast (BitVec.ofNat 32 (grid7.coords t 0).val)).toNat] : Fin 1 → Nat) x + S1.size x ≤ S123.size x)
    (h1 : 0 < S1.numel) :
    (Rect.unit (s := S123) ![(Scalar.indexCast (BitVec.ofNat 32 (grid7.coords t 0).val)).toNat] S1.size inb).emb (Shape.Idx.first h1)
      = Shape.Idx.ofFin (iOf7 a t) := by
  funext x
  apply Fin.ext
  match x with
  | ⟨0, _⟩ =>
    show (BitVec.ofNat 32 (grid7.coords t 0).val).toNat + 1 * 0 = t.val / 125
    rw [g7_toNat_ofNat_lt123 (grid7.coords t 0), g7_coords_i]; omega

/-- The node window's block: the node block j clamped between the two table words of edge block i, column block 0. -/
theorem index7_1_0 (t : Fin (cfgG7 a).N) : ((cfgG7 a).win 1).index t (0 : Fin 2)
    = (Scalar.minsi (Scalar.maxsi (BitVec.ofNat 32 (t.val % 125)) (rloT7 a (Shape.Idx.ofFin (iOf7 a t)))) (rhiT7 a (Shape.Idx.ofFin (iOf7 a t)))).toNat := by
  have h0 := g7_emb_first a t (k7_off1_inb (grid7.coords t)) (numel1_S1.symm ▸ Nat.one_pos)
  exact congrArg BitVec.toNat (congrArg₂ Scalar.minsi
    (congrArg₂ Scalar.maxsi (congrArg (BitVec.ofNat 32) (g7_coords_j t)) (congrArg ((a 7).1 0 : S123.Idx → BitVec 32) h0))
    (congrArg ((a 7).1 1 : S123.Idx → BitVec 32) h0))
theorem index7_1_1 (t : Fin (cfgG7 a).N) : ((cfgG7 a).win 1).index t (1 : Fin 2) = 0 := rfl

/-! ## The windows' blocks, at their element types -/

def rowB7 (c : Dev nD) (t : Fin (cfgG7 a).N) : Vec Ideal S1x5120 .i32 := iblk7 a V c 0 t
def tmpB7 (c : Dev nD) (t : Fin (cfgG7 a).N) : Vec Ideal S800x128 .f32 := iblk7 a V c 1 t
def normB7 (c : Dev nD) (t : Fin (cfgG7 a).N) : Vec Ideal S5120x1 .f32 := iblk7 a V c 2 t

/-- The row words' block at point t, position e, is the row word of edge 5120 i + e. -/
theorem rowB7_apply (c : Dev nD) (t : Fin (cfgG7 a).N) (e : Fin 5120) :
    rowB7 a V c t (ValueIdx.ix2 (0 : Fin 1) e) = rowA7 V c (ValueIdx.ix2 (0 : Fin 1) (ePos7 (iOf7 a t) e)) := by
  show V c main_v112 ((((cfgG7 a).win 0).blk t).view.emb (ValueIdx.ix2 (0 : Fin 1) e)) = _
  congr 1
  funext x; apply Fin.ext
  match x with
  | ⟨0, _⟩ => show ((cfgG7 a).win 0).index t (0 : Fin 2) * 1 + 1 * 0 = 0; rw [index7_0_0]
  | ⟨1, _⟩ => show ((cfgG7 a).win 0).index t (1 : Fin 2) * 5120 + 1 * e.val = t.val / 125 * 5120 + e.val; rw [index7_0_1]; omega

/-- The norms' block at point t, position e, is the norm of edge 5120 i + e. -/
theorem normB7_apply (c : Dev nD) (t : Fin (cfgG7 a).N) (e : Fin 5120) :
    normB7 a V c t (ValueIdx.ix2 e (0 : Fin 1)) = normA7 V c (ValueIdx.ix2 (ePos7 (iOf7 a t) e) (0 : Fin 1)) := by
  show V c main_v114 ((((cfgG7 a).win 2).blk t).view.emb (ValueIdx.ix2 e (0 : Fin 1))) = _
  congr 1
  funext x; apply Fin.ext
  match x with
  | ⟨0, _⟩ => show ((cfgG7 a).win 2).index t (0 : Fin 2) * 5120 + 1 * e.val = t.val / 125 * 5120 + e.val; rw [index7_2_0]; omega
  | ⟨1, _⟩ => show ((cfgG7 a).win 2).index t (1 : Fin 2) * 1 + 1 * 0 = 0; rw [index7_2_1]

/-- The node window's block at a point whose block index is j, row k, is node row 800 j + k. -/
theorem tmpB7_apply (c : Dev nD) (t : Fin (cfgG7 a).N) (j : Fin 125) (hj : ((cfgG7 a).win 1).index t (0 : Fin 2) = j.val)
    (k : Fin 800) (f : Fin 128) :
    tmpB7 a V c t (ValueIdx.ix2 k f) = tmpA7 V c (ValueIdx.ix2 (nPos7 j k) f) := by
  show V c main_v138 ((((cfgG7 a).win 1).blk t).view.emb (ValueIdx.ix2 k f)) = _
  congr 1
  funext x; apply Fin.ext
  match x with
  | ⟨0, _⟩ => show ((cfgG7 a).win 1).index t (0 : Fin 2) * 800 + 1 * k.val = j.val * 800 + k.val; rw [hj]; omega
  | ⟨1, _⟩ => show ((cfgG7 a).win 1).index t (1 : Fin 2) * 128 + 1 * f.val = f.val; rw [index7_1_1]; omega

/-- The result window's block at point t sits at rows 5120 i + e. -/
theorem emb7_3 (t : Fin (cfgG7 a).N) (e : Fin 5120) (f : Fin 128) :
    ((((cfgG7 a).win 3).blk t).view.emb (ValueIdx.ix2 e f) : S629760x128.Idx) = ValueIdx.ix2 (ePos7 (iOf7 a t) e) f := by
  funext x; apply Fin.ext
  match x with
  | ⟨0, _⟩ => show ((cfgG7 a).win 3).index t (0 : Fin 2) * 5120 + 1 * e.val = t.val / 125 * 5120 + e.val; rw [index7_3_0]; omega
  | ⟨1, _⟩ => show ((cfgG7 a).win 3).index t (1 : Fin 2) * 128 + 1 * f.val = f.val; rw [index7_3_1]; omega

end Region7b

section Region7c

variable (a : (p : Fin 13) → (pcfgs (F := Ideal) p).Adm)
variable (V : (c : Dev nD) → (b : Ref sig .tc) → Buf (Elt Ideal) ((c : Thread nD τ).loc b))

/-! ## The accumulator along the grid -/

/-- The accumulator's entry (e, f) after point n (0 past the grid). -/
def accV7 (c : Dev nD) (e : Fin 5120) (f : Fin 128) (n : ℕ) : EReal :=
  if h : n < (cfgG7 a).N then accAt7 a V c n h (ValueIdx.ix2 e f) else 0

/-- What the body adds at point n when the gate admits it (0 past the grid). -/
def gterm7 (c : Dev nD) (e : Fin 5120) (f : Fin 128) (n : ℕ) : EReal :=
  if h : n < (cfgG7 a).N then
    ∑ k : Fin 800, (if n % 125 * 800 + k.val = (rowB7 a V c ⟨n, h⟩ (ValueIdx.ix2 (0 : Fin 1) e)).toNat then (1 : EReal) else 0)
      * tmpB7 a V c ⟨n, h⟩ (ValueIdx.ix2 k f)
  else 0

/-- ONE STEP: after point n the entry is nothing (at j = 0) or what it was, plus the point's term when the gate admits
    the tile. -/
theorem accV7_step (c : Dev nD) (e : Fin 5120) (f : Fin 128) (n : ℕ) (hn : n < (cfgG7 a).N) :
    accV7 a V c e f n = (if n % 125 = 0 then 0 else accV7 a V c e f (n - 1))
      + (if gate7 a (iOf7 a ⟨n, hn⟩) (n % 125) then gterm7 a V c e f n else 0) := by
  have hprev : n - 1 < (cfgG7 a).N := Nat.lt_of_le_of_lt (Nat.sub_le _ _) hn
  have hstep : accAt7 a V c n hn = accStep7 (grid7.coords ⟨n, hn⟩) (rowB7 a V c ⟨n, hn⟩) (tmpB7 a V c ⟨n, hn⟩)
      (lo7 a c ⟨n, hn⟩) (hi7 a c ⟨n, hn⟩) (accAt7 a V c (n - 1) hprev) :=
    accAt7_step a V c ⟨n, hn⟩ (accAt7 a V c (n - 1) hprev) (fun _ => rfl)
  have happ := accStep7_apply (grid7.coords ⟨n, hn⟩) (rowB7 a V c ⟨n, hn⟩) (tmpB7 a V c ⟨n, hn⟩)
    (lo7 a c ⟨n, hn⟩) (hi7 a c ⟨n, hn⟩) (accAt7 a V c (n - 1) hprev) e f
  unfold accV7 gterm7
  rw [dif_pos hn, dif_pos hn, dif_pos hprev, hstep, happ]
  congr 1
  · by_cases h0 : n % 125 = 0
    · rw [if_pos h0, if_pos ((hcond7_0 ⟨n, hn⟩).mpr h0)]
    · rw [if_neg h0, if_neg (fun h => h0 ((hcond7_0 ⟨n, hn⟩).mp h))]
  · by_cases hg : gate7 a (iOf7 a ⟨n, hn⟩) (n % 125)
    · rw [if_pos hg, if_pos ((gate7_iff a c ⟨n, hn⟩).mpr hg), g7_coords_j]
    · rw [if_neg hg, if_neg (fun h => hg ((gate7_iff a c ⟨n, hn⟩).mp h))]

/-- AFTER THE LAST TILE of edge block i the entry is the sum of the admitted tiles' terms. -/
theorem accV7_last (c : Dev nD) (i : Fin 123) (e : Fin 5120) (f : Fin 128) :
    accV7 a V c e f (i.val * 125 + 124)
      = ∑ j ∈ Finset.range 125, if gate7 a i j then gterm7 a V c e f (i.val * 125 + j) else 0 := by
  have hN : (cfgG7 a).N = 15375 := N_7
  exact Cert.Math.gated_fold_eq_sum (fun j => accV7 a V c e f (i.val * 125 + j - 1)) (fun j => gterm7 a V c e f (i.val * 125 + j))
    (fun j => gate7 a i j) 125 (by decide) (fun j hj => by
      have hn : i.val * 125 + j < (cfgG7 a).N := by rw [hN]; have := i.isLt; omega
      have hmod : (i.val * 125 + j) % 125 = j := by omega
      have hi : iOf7 a ⟨i.val * 125 + j, hn⟩ = i := Fin.ext (by show (i.val * 125 + j) / 125 = i.val; omega)
      show accV7 a V c e f (i.val * 125 + (j + 1) - 1)
        = (if j = 0 then 0 else accV7 a V c e f (i.val * 125 + j - 1)) + (if gate7 a i j then gterm7 a V c e f (i.val * 125 + j) else 0)
      rw [show i.val * 125 + (j + 1) - 1 = i.val * 125 + j from by omega, accV7_step a V c e f _ hn, hmod, hi])

/-! ## The admitted tiles' terms over the arrays -/

/-- On a tile the gate admits, under the clamp hypothesis, the point's term is the node block's contribution to the
    gathered row of edge 5120 i + e. -/
theorem gterm7_eq (hc : Hclamp7 a) (c : Dev nD) (i : Fin 123) (j : Fin 125) (hg : gate7 a i j.val) (e : Fin 5120) (f : Fin 128) :
    gterm7 a V c e f (i.val * 125 + j.val) = gathTerm7 V c (ePos7 i e) f j := by
  have hN : (cfgG7 a).N = 15375 := N_7
  have hn : i.val * 125 + j.val < (cfgG7 a).N := by rw [hN]; have := i.isLt; have := j.isLt; omega
  have hmod : (i.val * 125 + j.val) % 125 = j.val := by have := j.isLt; omega
  have hi : iOf7 a ⟨i.val * 125 + j.val, hn⟩ = i := Fin.ext (by show (i.val * 125 + j.val) / 125 = i.val; have := j.isLt; omega)
  have hidx : ((cfgG7 a).win 1).index ⟨i.val * 125 + j.val, hn⟩ (0 : Fin 2) = j.val := by
    rw [index7_1_0, hi]
    show (Scalar.minsi (Scalar.maxsi (BitVec.ofNat 32 ((i.val * 125 + j.val) % 125)) _) _).toNat = _
    rw [hmod]
    exact hc i j hg
  unfold gterm7 gathTerm7
  rw [dif_pos hn, hmod]
  refine Finset.sum_congr rfl fun k _ => ?_
  rw [rowB7_apply, hi, tmpB7_apply a V c _ j hidx]

/-- The gathered array at row 5120 i + e. -/
theorem gathG7_apply (c : Dev nD) (i : Fin 123) (e : Fin 5120) (f : Fin 128) :
    gathG7 a V c (ValueIdx.ix2 (ePos7 i e) f)
      = (∑ j : Fin 125, if gate7 a i j.val then gathTerm7 V c (ePos7 i e) f j else 0)
        * normA7 V c (ValueIdx.ix2 (ePos7 i e) (0 : Fin 1)) := by
  have hI : ∀ h, (⟨(ePos7 i e).val / 5120, h⟩ : Fin 123) = i := fun h =>
    Fin.ext (by show (i.val * 5120 + e.val) / 5120 = i.val; have := e.isLt; omega)
  show (∑ j : Fin 125, if gate7 a ⟨(ePos7 i e).val / 5120, _⟩ j.val then gathTerm7 V c (ePos7 i e) f j else 0) * _ = _
  rw [hI]

/-! ## The result array -/

theorem accAt7_congr (c : Dev nD) {n n' : ℕ} (h : n = n') (hn : n < (cfgG7 a).N) (hn' : n' < (cfgG7 a).N) :
    accAt7 a V c n hn = accAt7 a V c n' hn' := by subst h; rfl

/-- The 123 row blocks cover the array, each written back at its last tile. -/
theorem cover7_3 (x : S629760x128.Idx) : ∃ t : Fin (cfgG7 a).N, ((cfgG7 a).win 3).flush t = true ∧ x ∈ (((cfgG7 a).win 3).blk t).view.set := by
  have hx0 : (x 0).val < 629760 := (x 0).isLt
  have hx1 : (x 1).val < 128 := (x 1).isLt
  have hN : (cfgG7 a).N = 15375 := N_7
  let t : Fin (cfgG7 a).N := ⟨(x 0).val / 5120 * 125 + 124, by rw [hN]; omega⟩
  have ht : t.val = (x 0).val / 5120 * 125 + 124 := rfl
  have hi : (iOf7 a t).val = (x 0).val / 5120 := by show t.val / 125 = _; omega
  refine ⟨t, (flush7_3 a t).mpr (by rw [ht]; omega), ?_⟩
  have hx : (ValueIdx.ix2 (ePos7 (iOf7 a t) ⟨(x 0).val % 5120, Nat.mod_lt _ (by decide)⟩) (⟨(x 1).val, hx1⟩ : Fin 128) : S629760x128.Idx) = x := by
    funext ax; apply Fin.ext
    match ax with
    | ⟨0, _⟩ => show (iOf7 a t).val * 5120 + (x 0).val % 5120 = (x 0).val; rw [hi]; omega
    | ⟨1, _⟩ => rfl
  have hm := (((cfgG7 a).win 3).blk t).view.emb_mem_set (ValueIdx.ix2 (⟨(x 0).val % 5120, Nat.mod_lt _ (by decide)⟩ : Fin 5120) (⟨(x 1).val, hx1⟩ : Fin 128))
  have hxe : x = (((cfgG7 a).win 3).blk t).view.emb (ValueIdx.ix2 (⟨(x 0).val % 5120, Nat.mod_lt _ (by decide)⟩ : Fin 5120) (⟨(x 1).val, hx1⟩ : Fin 128)) :=
    hx.symm.trans (emb7_3 a t _ _).symm
  exact hxe ▸ hm

/-- WHAT A WRITING POINT WRITES BACK is its block of the gathered array, for any proof data of the pipeline whose
    output buffer after the body is the accumulator times the norms. -/
theorem flushed7_3_eq (hc : Hclamp7 a) (c : Dev nD) (dat : Dat τ (Elt Ideal) Unit ℕ (UR sig nD τ) ℕ (cfgG7 a) c)
    (hafter : ∀ t, dat.after 3 t = k7_pay3 (accAt7 a V c t.val t.isLt) (iblk7 a V c 2 t))
    (t : Fin (cfgG7 a).N) (hf : ((cfgG7 a).win 3).flush t = true) :
    dat.flushed 3 t = (((cfgG7 a).win 3).blk t).view.read (Elt Ideal) (gathG7 a V c) := by
  have h124 : t.val % 125 = 124 := (flush7_3 a t).mp hf
  have htN := g7_N a t
  have hti : t.val = (iOf7 a t).val * 125 + 124 := by show t.val = t.val / 125 * 125 + 124; omega
  have hlast : (iOf7 a t).val * 125 + 124 < (cfgG7 a).N := hti ▸ t.isLt
  show ((cfgG7 a).win 3).cut (grid7.coords t) (dat.after 3 t) = _
  rw [hafter]
  refine funext fun (x : S5120x128.Idx) => ?_
  obtain ⟨e, f, rfl⟩ : ∃ e f, x = ValueIdx.ix2 e f := ⟨x 0, x 1, ValueIdx.eq_ix2 x⟩
  -- the accumulator's entry after the block's last tile
  have hS : accAt7 a V c t.val t.isLt (ValueIdx.ix2 e f)
      = ∑ j : Fin 125, if gate7 a (iOf7 a t) j.val then gathTerm7 V c (ePos7 (iOf7 a t) e) f j else 0 := by
    have h1 : accAt7 a V c t.val t.isLt (ValueIdx.ix2 e f) = accV7 a V c e f ((iOf7 a t).val * 125 + 124) := by
      unfold accV7
      rw [dif_pos hlast, accAt7_congr a V c hti t.isLt hlast]
    rw [h1, accV7_last, Finset.sum_range (fun j => if gate7 a (iOf7 a t) j then gterm7 a V c e f ((iOf7 a t).val * 125 + j) else 0)]
    refine Finset.sum_congr rfl fun j _ => ?_
    by_cases hg : gate7 a (iOf7 a t) j.val
    · rw [if_pos hg, if_pos hg, gterm7_eq a V hc c (iOf7 a t) j hg e f]
    · rw [if_neg hg, if_neg hg]
  exact (k7_pay3_apply (accAt7 a V c t.val t.isLt) (normB7 a V c t) e f).trans
    ((congrArg₂ (· * ·) hS (normB7_apply a V c t e)).trans
      ((gathG7_apply a V c (iOf7 a t) e f).symm.trans (congrArg (gathG7 a V c) (emb7_3 a t e f).symm)))

/-- THE RESULT ARRAY after the region, for any proof data of the pipeline whose output buffer after the body is the
    accumulator times the norms. -/
theorem arr7_3_of (hc : Hclamp7 a) (c : Dev nD) (dat : Dat τ (Elt Ideal) Unit ℕ (UR sig nD τ) ℕ (cfgG7 a) c)
    (hafter : ∀ t, dat.after 3 t = k7_pay3 (accAt7 a V c t.val t.isLt) (iblk7 a V c 2 t)) :
    dat.arrAt 3 (cfgG7 a).N = gathG7 a V c :=
  dat.arrAt_eq_of_cover 3 (gathG7 a V c) (fun t hf => flushed7_3_eq a V hc c dat hafter t hf) (cover7_3 a)

end Region7c

section Region1e

variable (a : (p : Fin 13) → (pcfgs (F := Ideal) p).Adm)
variable (V : (c : Dev nD) → (b : Ref sig .tc) → Buf (Elt Ideal) ((c : Thread nD τ).loc b))

/-! ## The gathered sum in closed form -/

/-- One node block's contribution: the node row whose number is the edge's row word, when the block holds it. -/
theorem gathTerm7_closed (c : Dev nD) (e : Fin 629760) (f : Fin 128) (j : Fin 125) :
    gathTerm7 V c e f j
      = if h : j.val * 800 ≤ (rowA7 V c (ValueIdx.ix2 (0 : Fin 1) e)).toNat ∧ (rowA7 V c (ValueIdx.ix2 (0 : Fin 1) e)).toNat < j.val * 800 + 800
        then tmpA7 V c (ValueIdx.ix2 (⟨(rowA7 V c (ValueIdx.ix2 (0 : Fin 1) e)).toNat, by have := j.isLt; omega⟩ : Fin 100000) f) else 0 := by
  have hj := j.isLt
  let r := (rowA7 V c (ValueIdx.ix2 (0 : Fin 1) e)).toNat
  let x : ℕ → EReal := fun n => if h : n < 100000 then tmpA7 V c (ValueIdx.ix2 (⟨n, h⟩ : Fin 100000) f) else 0
  let δ : ℕ → EReal := fun n => if n = r then 1 else 0
  have hsum : gathTerm7 V c e f j = ∑ k : Fin 800, δ (j.val * 800 + k.val) * x (j.val * 800 + k.val) := by
    unfold gathTerm7
    refine Finset.sum_congr rfl fun k _ => ?_
    have hk : j.val * 800 + k.val < 100000 := (nPos7 j k).isLt
    show _ * _ = (if j.val * 800 + k.val = r then (1 : EReal) else 0) * (if h : j.val * 800 + k.val < 100000 then tmpA7 V c (ValueIdx.ix2 (⟨j.val * 800 + k.val, h⟩ : Fin 100000) f) else 0)
    rw [dif_pos hk]
    rfl
  rw [hsum, Cert.Math.sum_fin_block_oneHot_mul 800 (j.val * 800) r δ x (if_pos rfl) (fun n hn => if_neg hn)]
  by_cases hb : j.val * 800 ≤ r ∧ r < j.val * 800 + 800
  · rw [if_pos hb, dif_pos hb]
    show (if h : r < 100000 then tmpA7 V c (ValueIdx.ix2 (⟨r, h⟩ : Fin 100000) f) else 0) = _
    rw [dif_pos (by omega)]
  · rw [if_neg hb, dif_neg hb]

/-- THE GATHERED SUM: the node row the edge's row word names, when the word is a node and the gate admits its block;
    nothing otherwise. -/
theorem gathSum7_closed (c : Dev nD) (i : Fin 123) (e : Fin 629760) (f : Fin 128) :
    (∑ j : Fin 125, if gate7 a i j.val then gathTerm7 V c e f j else 0)
      = if h : (rowA7 V c (ValueIdx.ix2 (0 : Fin 1) e)).toNat < 100000 ∧ gate7 a i ((rowA7 V c (ValueIdx.ix2 (0 : Fin 1) e)).toNat / 800)
        then tmpA7 V c (ValueIdx.ix2 (⟨(rowA7 V c (ValueIdx.ix2 (0 : Fin 1) e)).toNat, h.1⟩ : Fin 100000) f) else 0 := by
  by_cases hr : (rowA7 V c (ValueIdx.ix2 (0 : Fin 1) e)).toNat < 100000 ∧ gate7 a i ((rowA7 V c (ValueIdx.ix2 (0 : Fin 1) e)).toNat / 800)
  · rw [dif_pos hr]
    have hj0 : (rowA7 V c (ValueIdx.ix2 (0 : Fin 1) e)).toNat / 800 < 125 := by have := hr.1; omega
    rw [Finset.sum_eq_single (⟨(rowA7 V c (ValueIdx.ix2 (0 : Fin 1) e)).toNat / 800, hj0⟩ : Fin 125)]
    · have hb : (rowA7 V c (ValueIdx.ix2 (0 : Fin 1) e)).toNat / 800 * 800 ≤ (rowA7 V c (ValueIdx.ix2 (0 : Fin 1) e)).toNat
          ∧ (rowA7 V c (ValueIdx.ix2 (0 : Fin 1) e)).toNat < (rowA7 V c (ValueIdx.ix2 (0 : Fin 1) e)).toNat / 800 * 800 + 800 := by omega
      rw [if_pos hr.2, gathTerm7_closed, dif_pos hb]
    · intro j _ hne
      by_cases hg : gate7 a i j.val
      · rw [if_pos hg, gathTerm7_closed, dif_neg]
        rintro ⟨h1, h2⟩
        exact hne (Fin.ext (by show j.val = (rowA7 V c (ValueIdx.ix2 (0 : Fin 1) e)).toNat / 800; omega))
      · rw [if_neg hg]
    · intro h; exact absurd (Finset.mem_univ _) h
  · rw [dif_neg hr]
    refine Finset.sum_eq_zero fun j _ => ?_
    by_cases hg : gate7 a i j.val
    · rw [if_pos hg, gathTerm7_closed, dif_neg]
      rintro ⟨h1, h2⟩
      have hj := j.isLt
      have hd : (rowA7 V c (ValueIdx.ix2 (0 : Fin 1) e)).toNat / 800 = j.val := by omega
      exact hr ⟨by omega, hd ▸ hg⟩
    · rw [if_neg hg]

end Region1e

/-! ## The region's own proof data -/

section Region7d

variable (a : (p : Fin 13) → (pcfgs (F := Ideal) p).Adm)
variable (V : (c : Dev nD) → (b : Ref sig .tc) → Buf (Elt Ideal) ((c : Thread nD τ).loc b))

/-- THE RESULT ARRAY after the gather region. -/
theorem arr7_3 (hc : Hclamp7 a) (c : Dev nD) : (dat7 a V c).arrAt 3 (cfgG7 a).N = gathG7 a V c :=
  arr7_3_of a V hc c (dat7 a V c) (after7_3 a V c)

/-- Index by index. -/
theorem arr7_3_apply (hc : Hclamp7 a) (c : Dev nD) (i : Fin 123) (e : Fin 5120) (f : Fin 128) :
    (dat7 a V c).arrAt 3 (cfgG7 a).N (ValueIdx.ix2 (ePos7 i e) f)
      = (∑ j : Fin 125, if gate7 a i j.val then gathTerm7 V c (ePos7 i e) f j else 0)
        * normA7 V c (ValueIdx.ix2 (ePos7 i e) (0 : Fin 1)) :=
  (congrFun (arr7_3 a V hc c) (ValueIdx.ix2 (ePos7 i e) f)).trans (gathG7_apply a V c i e f)

/-- In closed form: the node row the edge's row word names (when it is a node of a block the gate admits), times the
    edge's norm. -/
theorem arr7_3_closed (hc : Hclamp7 a) (c : Dev nD) (i : Fin 123) (e : Fin 5120) (f : Fin 128) :
    (dat7 a V c).arrAt 3 (cfgG7 a).N (ValueIdx.ix2 (ePos7 i e) f)
      = (if h : (rowA7 V c (ValueIdx.ix2 (0 : Fin 1) (ePos7 i e))).toNat < 100000
            ∧ gate7 a i ((rowA7 V c (ValueIdx.ix2 (0 : Fin 1) (ePos7 i e))).toNat / 800)
          then tmpA7 V c (ValueIdx.ix2 (⟨(rowA7 V c (ValueIdx.ix2 (0 : Fin 1) (ePos7 i e))).toNat, h.1⟩ : Fin 100000) f) else 0)
        * normA7 V c (ValueIdx.ix2 (ePos7 i e) (0 : Fin 1)) := by
  rw [arr7_3_apply a V hc c i e f, gathSum7_closed]

end Region7d

end Cert.KernelIdeal.Hand

end
-- ==== Proof.KI.ValGather10.lean ====
/- The value of a gather layer's region at the ideal instance. Tile (i, j) of the grid adds, into an accumulator of
   5120 rows carried along j, the product of a one-hot matrix (column e is hot at the nodes k of node block j whose
   number 800 j + k is the row word of edge 5120 i + e) with the block's 800 node rows; it does so only when the table
   words rlo i, rhi i bracket j, and on those tiles the clamped block index of the node window is j itself. At the
   extended reals the format changes are the identity and a product into a zero accumulator is the plain sum, so after
   the last tile of edge block i the accumulator's entry (e, f) is the sum, over the admitted node blocks j and the
   nodes k in them, of [800 j + k = row (5120 i + e)] * tmp (800 j + k, f). The tile j = 124 then stores the accumulator
   times the edge's norm to the result's row block i; the 123 row blocks tile the result array. -/
import proofs.«415143_j42460046688958_3_alg».proof.Proof.KI.Gather10Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A column [a, 1] broadcast to [a, b] reads, at (p, c), the column at p. -/
theorem g10_broadcastTo_a10_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (e, f) and contraction index k read the one-hot at (k, e) and the
    node block at (k, f) -/

abbrev Dg10 := dot_S800x5120_S800x128_S5120x128_0_0_1_1_n_n

theorem lhs_g10_0 (j : S5120x128.Idx) (k : Dg10.contr.Idx) : (Dg10.lhsIdx j k 0 : ℕ) = k ⟨0, by decide⟩ := by
  simp [DotDims.lhsIdx, Dg10, dot_S800x5120_S800x128_S5120x128_0_0_1_1_n_n] <;> rfl
theorem lhs_g10_1 (j : S5120x128.Idx) (k : Dg10.contr.Idx) : (Dg10.lhsIdx j k 1 : ℕ) = j 0 := by
  simp [DotDims.lhsIdx, Dg10, dot_S800x5120_S800x128_S5120x128_0_0_1_1_n_n] <;> rfl
theorem rhs_g10_0 (j : S5120x128.Idx) (k : Dg10.contr.Idx) : (Dg10.rhsIdx j k 0 : ℕ) = k ⟨0, by decide⟩ := by
  simp [DotDims.rhsIdx, Dg10, dot_S800x5120_S800x128_S5120x128_0_0_1_1_n_n] <;> rfl
theorem rhs_g10_1 (j : S5120x128.Idx) (k : Dg10.contr.Idx) : (Dg10.rhsIdx j k 1 : ℕ) = j 1 := by
  simp [DotDims.rhsIdx, Dg10, dot_S800x5120_S800x128_S5120x128_0_0_1_1_n_n] <;> rfl

/-- The contraction (the one-hot 800 x 5120 against the node block 800 x 128, over the 800 nodes, into the zero splat)
    at edge e, column f. -/
theorem dotg10_apply {φ₁ φ₂ : FTy} (L : FVec Ideal S800x5120 φ₁) (R : FVec Ideal S800x128 φ₂) (e : Fin 5120) (f : Fin 128) :
    FloatOps.matmul Dg10 none L R (constant S5120x128 .f32 0x00000000#32) (ValueIdx.ix2 e f)
      = ∑ k : Fin 800, L (ValueIdx.ix2 k e) * R (ValueIdx.ix2 k f) := by
  rw [Ideal.matmul_constant_zero_apply, ← Equiv.sum_comp (ValueIdx.contrEquiv1 Dg10 800 (by decide) (by decide)).symm]
  refine Finset.sum_congr rfl fun p _ => ?_
  congr 2
  · funext a; apply Fin.ext
    match a with
    | ⟨0, _⟩ => exact (lhs_g10_0 _ _).trans (ValueIdx.contrEquiv1_symm_val Dg10 800 _ _ p)
    | ⟨1, _⟩ => exact lhs_g10_1 _ _
  · funext a; apply Fin.ext
    match a with
    | ⟨0, _⟩ => exact (rhs_g10_0 _ _).trans (ValueIdx.contrEquiv1_symm_val Dg10 800 _ _ p)
    | ⟨1, _⟩ => exact rhs_g10_1 _ _

/-! ## The three payloads at an index -/

/-- The reset payload reads 0 everywhere. -/
theorem k10_pay10_apply (x : S5120x128.Idx) : (k10_pay1 (F := Ideal)) x = 0 := by
  unfold k10_pay1
  rw [shapeCast_self]
  exact Ideal.ofBits_zero_f32

/-- Node j * 800 + k as the body computes it, in 32-bit words, is the natural number. -/
theorem g10_node_word (j : Fin 125) (k : Fin 800) :
    (BitVec.ofNat 32 j.val * 800#32 + BitVec.ofNat 32 k.val).toNat = j.val * 800 + k.val :=
  Cert.Math.toNat_ofNat_mul_add j.val 800 k.val (by have := j.isLt; have := k.isLt; omega)

/-- THE ACCUMULATING PAYLOAD at (e, f): what was there plus the sum over the 800 nodes k of block (i 1) of
    [node (i 1) * 800 + k is edge e's row word] * node block (k, f). -/
theorem k10_pay2_apply (i : grid10.Coords) (x0 : Vec Ideal S1x5120 .i32) (x1 : Vec Ideal S800x128 .f32) (xs : Vec Ideal S5120x128 .f32)
    (e : Fin 5120) (f : Fin 128) :
    k10_pay2 (F := Ideal) i x0 x1 xs (ValueIdx.ix2 e f)
      = xs (ValueIdx.ix2 e f) + ∑ k : Fin 800,
          (if (i 1).val * 800 + k.val = (x0 (ValueIdx.ix2 (0 : Fin 1) e)).toNat then (1 : EReal) else 0) * x1 (ValueIdx.ix2 k f) := by
  unfold k10_pay2
  simp only [shapeCast_self]
  show xs (ValueIdx.ix2 e f) + FloatOps.matmul (F := Ideal) Dg10 none _ _ (constant S5120x128 .f32 0x00000000#32) (ValueIdx.ix2 e f) = _
  rw [dotg10_apply]
  refine congrArg (xs (ValueIdx.ix2 e f) + ·) (Finset.sum_congr rfl fun k _ => ?_)
  refine congrArg₂ (· * ·) ?_ rfl
  refine (Cert.Math.oneHot_payload_apply _ _ natLt_1_32 bitsLt_bf16_f32 (ValueIdx.ix2 k e)).trans ?_
  rw [ValueIdx.broadcastTo_1b_ab_apply, g10_broadcastTo_a10_ab_apply]
  have hv : ∀ w : BitVec 32, addi (broadcast S800x1 w) (iota Kind.tc S800x1 32 [0] iota_S800x1_d0_w32) (ValueIdx.ix2 k (0 : Fin 1))
      = w + BitVec.ofNat 32 k.val := fun w => by
    show w + iota Kind.tc S800x1 32 [0] iota_S800x1_d0_w32 (ValueIdx.ix2 k (0 : Fin 1)) = _
    rw [iota_single_apply]
  rw [hv]
  show (if x0 (ValueIdx.ix2 (0 : Fin 1) e) = BitVec.ofNat 32 (i 1).val * 800#32 + BitVec.ofNat 32 k.val then (1 : EReal) else 0) = _
  have hw := g10_node_word (i 1) k
  by_cases h : x0 (ValueIdx.ix2 (0 : Fin 1) e) = BitVec.ofNat 32 (i 1).val * 800#32 + BitVec.ofNat 32 k.val
  · rw [if_pos h, if_pos (by rw [h, hw])]
  · rw [if_neg h, if_neg (fun h' => h (BitVec.eq_of_toNat_eq (by rw [hw]; exact h'.symm)))]

/-- THE STORED PAYLOAD at (e, f): the accumulator at (e, f) times the norm of edge e. -/
theorem k10_pay3_apply (acc : Vec Ideal S5120x128 .f32) (x2 : Vec Ideal S5120x1 .f32) (e : Fin 5120) (f : Fin 128) :
    k10_pay3 (F := Ideal) acc x2 (ValueIdx.ix2 e f) = acc (ValueIdx.ix2 e f) * x2 (ValueIdx.ix2 e (0 : Fin 1)) := by
  unfold k10_pay3
  simp only [shapeCast_self]
  show acc (ValueIdx.ix2 e f) * broadcastTo S5120x128 x2 _ (ValueIdx.ix2 e f) = _
  rw [g10_broadcastTo_a10_ab_apply]

/-! ## Signed comparisons, and the gate in closed form -/

/-- A signed comparison's bit. -/
theorem g10_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed and unsigned; an edge block's too. -/
theorem g10_toInt_ofNat_lt125 : ∀ k : Fin 125, (BitVec.ofNat 32 k.val).toInt = (k.val : ℤ) := by decide
theorem g10_toNat_ofNat_lt123 : ∀ k : Fin 123, (BitVec.ofNat 32 k.val).toNat = k.val := by decide

/-- THE GATE: the body accumulates at coordinates i exactly when the two table words bracket the second coordinate. -/
theorem cond10_1_iff (i : grid10.Coords) (wlo whi : BitVec 32) :
    cond10_1 i wlo whi ↔ (wlo.toInt ≤ ((i 1).val : ℤ) ∧ ((i 1).val : ℤ) ≤ whi.toInt) := by
  have hI : (BitVec.ofNat 32 (i 1).val).toInt = ((i 1).val : ℤ) := g10_toInt_ofNat_lt125 (i 1)
  show ((Scalar.cmpi .ne (Scalar.extui (Scalar.andi (Scalar.cmpi .sle wlo (BitVec.ofNat 32 (i 1).val)) (Scalar.cmpi .sle (BitVec.ofNat 32 (i 1).val) whi))) 0#32 : BitVec 1) = 1#1) ↔ _
  rw [g10_sle_bit, g10_sle_bit, hI]
  by_cases h1 : wlo.toInt ≤ ((i 1).val : ℤ)
  · by_cases h2 : ((i 1).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 1).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-! ## The grid's coordinates: point t = 125 i + j -/

theorem g10_stride_i : grid10.stride 0 = 125 := by decide
theorem g10_stride_j : grid10.stride 1 = 1 := by decide

theorem g10_coords_i (t : Fin grid10.N) : (grid10.coords t 0).val = t.val / 125 := by
  have ht : t.val < 15375 := t.isLt.trans_eq N_10
  show t.val / grid10.stride 0 % 123 = _
  rw [g10_stride_i]
  exact Nat.mod_eq_of_lt (by omega)
theorem g10_coords_j (t : Fin grid10.N) : (grid10.coords t 1).val = t.val % 125 := by
  show t.val / grid10.stride 1 % 125 = _
  rw [g10_stride_j, Nat.div_one]

/-! ## One step of the accumulation at an index -/

/-- The scratch after a step, at (e, f): nothing or what it held (reset at j = 0), plus, when the table words admit j,
    the sum over the block's 800 nodes of [node is edge e's row word] * node block (k, f). -/
theorem accStep10_apply (i : grid10.Coords) (x0 : Vec Ideal S1x5120 .i32) (x1 : Vec Ideal S800x128 .f32) (lo hi : BitVec 32)
    (xs : Vec Ideal S5120x128 .f32) (e : Fin 5120) (f : Fin 128) :
    accStep10 (F := Ideal) i x0 x1 lo hi xs (ValueIdx.ix2 e f)
      = (if cond10_0 i then 0 else xs (ValueIdx.ix2 e f))
        + (if cond10_1 i lo hi then ∑ k : Fin 800,
            (if (i 1).val * 800 + k.val = (x0 (ValueIdx.ix2 (0 : Fin 1) e)).toNat then (1 : EReal) else 0) * x1 (ValueIdx.ix2 k f) else 0) := by
  unfold accStep10
  by_cases h1 : cond10_1 i lo hi
  · rw [if_pos h1, if_pos h1, k10_pay2_apply]
    by_cases h0 : cond10_0 i
    · rw [if_pos h0, if_pos h0, k10_pay10_apply]
    · rw [if_neg h0, if_neg h0]
  · rw [if_neg h1, if_neg h1, add_zero]
    by_cases h0 : cond10_0 i
    · rw [if_pos h0, if_pos h0, k10_pay10_apply]
    · rw [if_neg h0, if_neg h0]

/-! ## The arrays the region reads, the table words, the gate -/

section Region10

variable (a : (p : Fin 13) → (pcfgs (F := Ideal) p).Adm)
variable (V : (c : Dev nD) → (b : Ref sig .tc) → Buf (Elt Ideal) ((c : Thread nD τ).loc b))

/-- The sorted row words (one row of 629760 = 123 * 5120 words), -/
abbrev rowA10 (c : Dev nD) : S1x629760.Idx → BitVec 32 := V c main_v112
/-- the node rows the layer's matmul left, -/
abbrev tmpA10 (c : Dev nD) : S100000x128.Idx → Elt Ideal .f32 := V c main_v148
/-- and the edges' norms (one column), as the region finds them. -/
abbrev normA10 (c : Dev nD) : S629760x1.Idx → Elt Ideal .f32 := V c main_v114

/-- The two prefetched tables at the admissible contents: per edge block the least and the greatest node block of its
    row words. -/
abbrev rloT10 : S123.Idx → BitVec 32 := (a 10).1 0
abbrev rhiT10 : S123.Idx → BitVec 32 := (a 10).1 1

/-- THE GATE of tile (i, j), on the table words: rlo i ≤ j ≤ rhi i, signed. -/
def gate10 (i : Fin 123) (j : ℕ) : Prop :=
  (rloT10 a (Shape.Idx.ofFin i)).toInt ≤ (j : ℤ) ∧ (j : ℤ) ≤ (rhiT10 a (Shape.Idx.ofFin i)).toInt

instance (i : Fin 123) (j : ℕ) : Decidable (gate10 a i j) := by unfold gate10; infer_instance

/-- On every tile the gate admits, the clamped block index of the node window is the node block itself. -/
def Hclamp10 : Prop := ∀ (i : Fin 123) (j : Fin 125), gate10 a i j.val →
  (Scalar.minsi (Scalar.maxsi (BitVec.ofNat 32 j.val) (rloT10 a (Shape.Idx.ofFin i))) (rhiT10 a (Shape.Idx.ofFin i))).toNat = j.val

/-- Node k of node block j among the 100000 nodes; edge e of edge block i among the 629760 edge positions. -/
def nPos10 (j : Fin 125) (k : Fin 800) : Fin 100000 := ⟨j.val * 800 + k.val, by have := j.isLt; have := k.isLt; omega⟩
def ePos10 (i : Fin 123) (e : Fin 5120) : Fin 629760 := ⟨i.val * 5120 + e.val, by have := i.isLt; have := e.isLt; omega⟩

/-- What node block j adds to the gathered row of edge e, column f: the node rows of the block whose number is the
    edge's row word. -/
def gathTerm10 (c : Dev nD) (e : Fin 629760) (f : Fin 128) (j : Fin 125) : EReal :=
  ∑ k : Fin 800, (if j.val * 800 + k.val = (rowA10 V c (ValueIdx.ix2 (0 : Fin 1) e)).toNat then (1 : EReal) else 0)
    * tmpA10 V c (ValueIdx.ix2 (nPos10 j k) f)

/-- WHAT THE RESULT ARRAY ENDS HOLDING: entry (e, f) is the sum over the node blocks j the gate admits for edge block
    e / 5120 of that block's contribution, times the edge's norm. -/
def gathG10 (c : Dev nD) : S629760x128.Idx → Elt Ideal .f32 := fun x =>
  (∑ j : Fin 125, if gate10 a ⟨(x 0).val / 5120, by have h : (x 0).val < 629760 := (x 0).isLt; omega⟩ j.val
      then gathTerm10 V c ⟨(x 0).val, (x 0).isLt⟩ ⟨(x 1).val, (x 1).isLt⟩ j else 0)
    * normA10 V c (ValueIdx.ix2 (⟨(x 0).val, (x 0).isLt⟩ : Fin 629760) (0 : Fin 1))

/-! ## The table words as the body and the index map read them -/

theorem g10_N (t : Fin (cfgG10 a).N) : t.val < 15375 := t.isLt.trans_eq N_10
theorem g10_row_lt (t : Fin (cfgG10 a).N) : t.val / 125 < 123 := by have := g10_N a t; omega

/-- The edge block of a point. -/
def iOf10 (t : Fin (cfgG10 a).N) : Fin 123 := ⟨t.val / 125, g10_row_lt a t⟩

theorem g10_coords_i_eq (t : Fin (cfgG10 a).N) : grid10.coords t 0 = iOf10 a t := Fin.ext (g10_coords_i t)

/-- The word of the first table the body loads at a point is the table's word at the point's edge block, -/
theorem lo10_eq (c : Dev nD) (t : Fin (cfgG10 a).N) : lo10 a c t = rloT10 a (Shape.Idx.ofFin (iOf10 a t)) := by
  rw [← g10_coords_i_eq]
  show ((a 10).1 0 : S123.Idx → BitVec 32) _ = _
  refine congrArg ((a 10).1 0 : S123.Idx → BitVec 32) (funext fun x => Fin.ext ?_)
  match x with
  | ⟨0, _⟩ =>
    show (BitVec.ofNat 32 (grid10.coords t 0).val).toNat + 1 * 0 = (grid10.coords t 0).val
    rw [g10_toNat_ofNat_lt123 (grid10.coords t 0)]; omega
/-- and of the second. -/
theorem hi10_eq (c : Dev nD) (t : Fin (cfgG10 a).N) : hi10 a c t = rhiT10 a (Shape.Idx.ofFin (iOf10 a t)) := by
  rw [← g10_coords_i_eq]
  show ((a 10).1 1 : S123.Idx → BitVec 32) _ = _
  refine congrArg ((a 10).1 1 : S123.Idx → BitVec 32) (funext fun x => Fin.ext ?_)
  match x with
  | ⟨0, _⟩ =>
    show (BitVec.ofNat 32 (grid10.coords t 0).val).toNat + 1 * 0 = (grid10.coords t 0).val
    rw [g10_toNat_ofNat_lt123 (grid10.coords t 0)]; omega

/-- The body's branch at a point is the gate of its tile. -/
theorem gate10_iff (c : Dev nD) (t : Fin (cfgG10 a).N) :
    cond10_1 (grid10.coords t) (lo10 a c t) (hi10 a c t) ↔ gate10 a (iOf10 a t) (t.val % 125) := by
  rw [cond10_1_iff, lo10_eq, hi10_eq, g10_coords_j]
  exact Iff.rfl

end Region10

section Region10b

variable (a : (p : Fin 13) → (pcfgs (F := Ideal) p).Adm)
variable (V : (c : Dev nD) → (b : Ref sig .tc) → Buf (Elt Ideal) ((c : Thread nD τ).loc b))

/-! ## The windows' block indices at a point -/

/-- The row words' block: row 0, column block i. -/
theorem index10_0_0 (t : Fin (cfgG10 a).N) : ((cfgG10 a).win 0).index t (0 : Fin 2) = 0 := rfl
theorem index10_0_1 (t : Fin (cfgG10 a).N) : ((cfgG10 a).win 0).index t (1 : Fin 2) = t.val / 125 := by
  show (BitVec.ofNat 32 (grid10.coords t 0).val).toNat = _
  rw [g10_toNat_ofNat_lt123 (grid10.coords t 0), g10_coords_i]
/-- The norms' block and the result's: row block i, column block 0. -/
theorem index10_2_0 (t : Fin (cfgG10 a).N) : ((cfgG10 a).win 2).index t (0 : Fin 2) = t.val / 125 := by
  show (BitVec.ofNat 32 (grid10.coords t 0).val).toNat = _
  rw [g10_toNat_ofNat_lt123 (grid10.coords t 0), g10_coords_i]
theorem index10_2_1 (t : Fin (cfgG10 a).N) : ((cfgG10 a).win 2).index t (1 : Fin 2) = 0 := rfl
theorem index10_3_0 (t : Fin (cfgG10 a).N) : ((cfgG10 a).win 3).index t (0 : Fin 2) = t.val / 125 := by
  show (BitVec.ofNat 32 (grid10.coords t 0).val).toNat = _
  rw [g10_toNat_ofNat_lt123 (grid10.coords t 0), g10_coords_i]
theorem index10_3_1 (t : Fin (cfgG10 a).N) : ((cfgG10 a).win 3).index t (1 : Fin 2) = 0 := rfl

/-- The table's index an index map reads at the point's edge block. -/
theorem g10_emb_first (t : Fin (cfgG10 a).N) (inb : ∀ x, (![(Scalar.indexCast (BitVec.ofNat 32 (grid10.coords t 0).val)).toNat] : Fin 1 → Nat) x + S1.size x ≤ S123.size x)
    (h1 : 0 < S1.numel) :
    (Rect.unit (s := S123) ![(Scalar.indexCast (BitVec.ofNat 32 (grid10.coords t 0).val)).toNat] S1.size inb).emb (Shape.Idx.first h1)
      = Shape.Idx.ofFin (iOf10 a t) := by
  funext x
  apply Fin.ext
  match x with
  | ⟨0, _⟩ =>
    show (BitVec.ofNat 32 (grid10.coords t 0).val).toNat + 1 * 0 = t.val / 125
    rw [g10_toNat_ofNat_lt123 (grid10.coords t 0), g10_coords_i]; omega

/-- The node window's block: the node block j clamped between the two table words of edge block i, column block 0. -/
theorem index10_1_0 (t : Fin (cfgG10 a).N) : ((cfgG10 a).win 1).index t (0 : Fin 2)
    = (Scalar.minsi (Scalar.maxsi (BitVec.ofNat 32 (t.val % 125)) (rloT10 a (Shape.Idx.ofFin (iOf10 a t)))) (rhiT10 a (Shape.Idx.ofFin (iOf10 a t)))).toNat := by
  have h0 := g10_emb_first a t (k10_off1_inb (grid10.coords t)) (numel1_S1.symm ▸ Nat.one_pos)
  exact congrArg BitVec.toNat (congrArg₂ Scalar.minsi
    (congrArg₂ Scalar.maxsi (congrArg (BitVec.ofNat 32) (g10_coords_j t)) (congrArg ((a 10).1 0 : S123.Idx → BitVec 32) h0))
    (congrArg ((a 10).1 1 : S123.Idx → BitVec 32) h0))
theorem index10_1_1 (t : Fin (cfgG10 a).N) : ((cfgG10 a).win 1).index t (1 : Fin 2) = 0 := rfl

/-! ## The windows' blocks, at their element types -/

def rowB10 (c : Dev nD) (t : Fin (cfgG10 a).N) : Vec Ideal S1x5120 .i32 := iblk10 a V c 0 t
def tmpB10 (c : Dev nD) (t : Fin (cfgG10 a).N) : Vec Ideal S800x128 .f32 := iblk10 a V c 1 t
def normB10 (c : Dev nD) (t : Fin (cfgG10 a).N) : Vec Ideal S5120x1 .f32 := iblk10 a V c 2 t

/-- The row words' block at point t, position e, is the row word of edge 5120 i + e. -/
theorem rowB10_apply (c : Dev nD) (t : Fin (cfgG10 a).N) (e : Fin 5120) :
    rowB10 a V c t (ValueIdx.ix2 (0 : Fin 1) e) = rowA10 V c (ValueIdx.ix2 (0 : Fin 1) (ePos10 (iOf10 a t) e)) := by
  show V c main_v112 ((((cfgG10 a).win 0).blk t).view.emb (ValueIdx.ix2 (0 : Fin 1) e)) = _
  congr 1
  funext x; apply Fin.ext
  match x with
  | ⟨0, _⟩ => show ((cfgG10 a).win 0).index t (0 : Fin 2) * 1 + 1 * 0 = 0; rw [index10_0_0]
  | ⟨1, _⟩ => show ((cfgG10 a).win 0).index t (1 : Fin 2) * 5120 + 1 * e.val = t.val / 125 * 5120 + e.val; rw [index10_0_1]; omega

/-- The norms' block at point t, position e, is the norm of edge 5120 i + e. -/
theorem normB10_apply (c : Dev nD) (t : Fin (cfgG10 a).N) (e : Fin 5120) :
    normB10 a V c t (ValueIdx.ix2 e (0 : Fin 1)) = normA10 V c (ValueIdx.ix2 (ePos10 (iOf10 a t) e) (0 : Fin 1)) := by
  show V c main_v114 ((((cfgG10 a).win 2).blk t).view.emb (ValueIdx.ix2 e (0 : Fin 1))) = _
  congr 1
  funext x; apply Fin.ext
  match x with
  | ⟨0, _⟩ => show ((cfgG10 a).win 2).index t (0 : Fin 2) * 5120 + 1 * e.val = t.val / 125 * 5120 + e.val; rw [index10_2_0]; omega
  | ⟨1, _⟩ => show ((cfgG10 a).win 2).index t (1 : Fin 2) * 1 + 1 * 0 = 0; rw [index10_2_1]

/-- The node window's block at a point whose block index is j, row k, is node row 800 j + k. -/
theorem tmpB10_apply (c : Dev nD) (t : Fin (cfgG10 a).N) (j : Fin 125) (hj : ((cfgG10 a).win 1).index t (0 : Fin 2) = j.val)
    (k : Fin 800) (f : Fin 128) :
    tmpB10 a V c t (ValueIdx.ix2 k f) = tmpA10 V c (ValueIdx.ix2 (nPos10 j k) f) := by
  show V c main_v148 ((((cfgG10 a).win 1).blk t).view.emb (ValueIdx.ix2 k f)) = _
  congr 1
  funext x; apply Fin.ext
  match x with
  | ⟨0, _⟩ => show ((cfgG10 a).win 1).index t (0 : Fin 2) * 800 + 1 * k.val = j.val * 800 + k.val; rw [hj]; omega
  | ⟨1, _⟩ => show ((cfgG10 a).win 1).index t (1 : Fin 2) * 128 + 1 * f.val = f.val; rw [index10_1_1]; omega

/-- The result window's block at point t sits at rows 5120 i + e. -/
theorem emb10_3 (t : Fin (cfgG10 a).N) (e : Fin 5120) (f : Fin 128) :
    ((((cfgG10 a).win 3).blk t).view.emb (ValueIdx.ix2 e f) : S629760x128.Idx) = ValueIdx.ix2 (ePos10 (iOf10 a t) e) f := by
  funext x; apply Fin.ext
  match x with
  | ⟨0, _⟩ => show ((cfgG10 a).win 3).index t (0 : Fin 2) * 5120 + 1 * e.val = t.val / 125 * 5120 + e.val; rw [index10_3_0]; omega
  | ⟨1, _⟩ => show ((cfgG10 a).win 3).index t (1 : Fin 2) * 128 + 1 * f.val = f.val; rw [index10_3_1]; omega

end Region10b

section Region10c

variable (a : (p : Fin 13) → (pcfgs (F := Ideal) p).Adm)
variable (V : (c : Dev nD) → (b : Ref sig .tc) → Buf (Elt Ideal) ((c : Thread nD τ).loc b))

/-! ## The accumulator along the grid -/

/-- The accumulator's entry (e, f) after point n (0 past the grid). -/
def accV10 (c : Dev nD) (e : Fin 5120) (f : Fin 128) (n : ℕ) : EReal :=
  if h : n < (cfgG10 a).N then accAt10 a V c n h (ValueIdx.ix2 e f) else 0

/-- What the body adds at point n when the gate admits it (0 past the grid). -/
def gterm10 (c : Dev nD) (e : Fin 5120) (f : Fin 128) (n : ℕ) : EReal :=
  if h : n < (cfgG10 a).N then
    ∑ k : Fin 800, (if n % 125 * 800 + k.val = (rowB10 a V c ⟨n, h⟩ (ValueIdx.ix2 (0 : Fin 1) e)).toNat then (1 : EReal) else 0)
      * tmpB10 a V c ⟨n, h⟩ (ValueIdx.ix2 k f)
  else 0

/-- ONE STEP: after point n the entry is nothing (at j = 0) or what it was, plus the point's term when the gate admits
    the tile. -/
theorem accV10_step (c : Dev nD) (e : Fin 5120) (f : Fin 128) (n : ℕ) (hn : n < (cfgG10 a).N) :
    accV10 a V c e f n = (if n % 125 = 0 then 0 else accV10 a V c e f (n - 1))
      + (if gate10 a (iOf10 a ⟨n, hn⟩) (n % 125) then gterm10 a V c e f n else 0) := by
  have hprev : n - 1 < (cfgG10 a).N := Nat.lt_of_le_of_lt (Nat.sub_le _ _) hn
  have hstep : accAt10 a V c n hn = accStep10 (grid10.coords ⟨n, hn⟩) (rowB10 a V c ⟨n, hn⟩) (tmpB10 a V c ⟨n, hn⟩)
      (lo10 a c ⟨n, hn⟩) (hi10 a c ⟨n, hn⟩) (accAt10 a V c (n - 1) hprev) :=
    accAt10_step a V c ⟨n, hn⟩ (accAt10 a V c (n - 1) hprev) (fun _ => rfl)
  have happ := accStep10_apply (grid10.coords ⟨n, hn⟩) (rowB10 a V c ⟨n, hn⟩) (tmpB10 a V c ⟨n, hn⟩)
    (lo10 a c ⟨n, hn⟩) (hi10 a c ⟨n, hn⟩) (accAt10 a V c (n - 1) hprev) e f
  unfold accV10 gterm10
  rw [dif_pos hn, dif_pos hn, dif_pos hprev, hstep, happ]
  congr 1
  · by_cases h0 : n % 125 = 0
    · rw [if_pos h0, if_pos ((hcond10_0 ⟨n, hn⟩).mpr h0)]
    · rw [if_neg h0, if_neg (fun h => h0 ((hcond10_0 ⟨n, hn⟩).mp h))]
  · by_cases hg : gate10 a (iOf10 a ⟨n, hn⟩) (n % 125)
    · rw [if_pos hg, if_pos ((gate10_iff a c ⟨n, hn⟩).mpr hg), g10_coords_j]
    · rw [if_neg hg, if_neg (fun h => hg ((gate10_iff a c ⟨n, hn⟩).mp h))]

/-- AFTER THE LAST TILE of edge block i the entry is the sum of the admitted tiles' terms. -/
theorem accV10_last (c : Dev nD) (i : Fin 123) (e : Fin 5120) (f : Fin 128) :
    accV10 a V c e f (i.val * 125 + 124)
      = ∑ j ∈ Finset.range 125, if gate10 a i j then gterm10 a V c e f (i.val * 125 + j) else 0 := by
  have hN : (cfgG10 a).N = 15375 := N_10
  exact Cert.Math.gated_fold_eq_sum (fun j => accV10 a V c e f (i.val * 125 + j - 1)) (fun j => gterm10 a V c e f (i.val * 125 + j))
    (fun j => gate10 a i j) 125 (by decide) (fun j hj => by
      have hn : i.val * 125 + j < (cfgG10 a).N := by rw [hN]; have := i.isLt; omega
      have hmod : (i.val * 125 + j) % 125 = j := by omega
      have hi : iOf10 a ⟨i.val * 125 + j, hn⟩ = i := Fin.ext (by show (i.val * 125 + j) / 125 = i.val; omega)
      show accV10 a V c e f (i.val * 125 + (j + 1) - 1)
        = (if j = 0 then 0 else accV10 a V c e f (i.val * 125 + j - 1)) + (if gate10 a i j then gterm10 a V c e f (i.val * 125 + j) else 0)
      rw [show i.val * 125 + (j + 1) - 1 = i.val * 125 + j from by omega, accV10_step a V c e f _ hn, hmod, hi])

/-! ## The admitted tiles' terms over the arrays -/

/-- On a tile the gate admits, under the clamp hypothesis, the point's term is the node block's contribution to the
    gathered row of edge 5120 i + e. -/
theorem gterm10_eq (hc : Hclamp10 a) (c : Dev nD) (i : Fin 123) (j : Fin 125) (hg : gate10 a i j.val) (e : Fin 5120) (f : Fin 128) :
    gterm10 a V c e f (i.val * 125 + j.val) = gathTerm10 V c (ePos10 i e) f j := by
  have hN : (cfgG10 a).N = 15375 := N_10
  have hn : i.val * 125 + j.val < (cfgG10 a).N := by rw [hN]; have := i.isLt; have := j.isLt; omega
  have hmod : (i.val * 125 + j.val) % 125 = j.val := by have := j.isLt; omega
  have hi : iOf10 a ⟨i.val * 125 + j.val, hn⟩ = i := Fin.ext (by show (i.val * 125 + j.val) / 125 = i.val; have := j.isLt; omega)
  have hidx : ((cfgG10 a).win 1).index ⟨i.val * 125 + j.val, hn⟩ (0 : Fin 2) = j.val := by
    rw [index10_1_0, hi]
    show (Scalar.minsi (Scalar.maxsi (BitVec.ofNat 32 ((i.val * 125 + j.val) % 125)) _) _).toNat = _
    rw [hmod]
    exact hc i j hg
  unfold gterm10 gathTerm10
  rw [dif_pos hn, hmod]
  refine Finset.sum_congr rfl fun k _ => ?_
  rw [rowB10_apply, hi, tmpB10_apply a V c _ j hidx]

/-- The gathered array at row 5120 i + e. -/
theorem gathG10_apply (c : Dev nD) (i : Fin 123) (e : Fin 5120) (f : Fin 128) :
    gathG10 a V c (ValueIdx.ix2 (ePos10 i e) f)
      = (∑ j : Fin 125, if gate10 a i j.val then gathTerm10 V c (ePos10 i e) f j else 0)
        * normA10 V c (ValueIdx.ix2 (ePos10 i e) (0 : Fin 1)) := by
  have hI : ∀ h, (⟨(ePos10 i e).val / 5120, h⟩ : Fin 123) = i := fun h =>
    Fin.ext (by show (i.val * 5120 + e.val) / 5120 = i.val; have := e.isLt; omega)
  show (∑ j : Fin 125, if gate10 a ⟨(ePos10 i e).val / 5120, _⟩ j.val then gathTerm10 V c (ePos10 i e) f j else 0) * _ = _
  rw [hI]

/-! ## The result array -/

theorem accAt10_congr (c : Dev nD) {n n' : ℕ} (h : n = n') (hn : n < (cfgG10 a).N) (hn' : n' < (cfgG10 a).N) :
    accAt10 a V c n hn = accAt10 a V c n' hn' := by subst h; rfl

/-- The 123 row blocks cover the array, each written back at its last tile. -/
theorem cover10_3 (x : S629760x128.Idx) : ∃ t : Fin (cfgG10 a).N, ((cfgG10 a).win 3).flush t = true ∧ x ∈ (((cfgG10 a).win 3).blk t).view.set := by
  have hx0 : (x 0).val < 629760 := (x 0).isLt
  have hx1 : (x 1).val < 128 := (x 1).isLt
  have hN : (cfgG10 a).N = 15375 := N_10
  let t : Fin (cfgG10 a).N := ⟨(x 0).val / 5120 * 125 + 124, by rw [hN]; omega⟩
  have ht : t.val = (x 0).val / 5120 * 125 + 124 := rfl
  have hi : (iOf10 a t).val = (x 0).val / 5120 := by show t.val / 125 = _; omega
  refine ⟨t, (flush10_3 a t).mpr (by rw [ht]; omega), ?_⟩
  have hx : (ValueIdx.ix2 (ePos10 (iOf10 a t) ⟨(x 0).val % 5120, Nat.mod_lt _ (by decide)⟩) (⟨(x 1).val, hx1⟩ : Fin 128) : S629760x128.Idx) = x := by
    funext ax; apply Fin.ext
    match ax with
    | ⟨0, _⟩ => show (iOf10 a t).val * 5120 + (x 0).val % 5120 = (x 0).val; rw [hi]; omega
    | ⟨1, _⟩ => rfl
  have hm := (((cfgG10 a).win 3).blk t).view.emb_mem_set (ValueIdx.ix2 (⟨(x 0).val % 5120, Nat.mod_lt _ (by decide)⟩ : Fin 5120) (⟨(x 1).val, hx1⟩ : Fin 128))
  have hxe : x = (((cfgG10 a).win 3).blk t).view.emb (ValueIdx.ix2 (⟨(x 0).val % 5120, Nat.mod_lt _ (by decide)⟩ : Fin 5120) (⟨(x 1).val, hx1⟩ : Fin 128)) :=
    hx.symm.trans (emb10_3 a t _ _).symm
  exact hxe ▸ hm

/-- WHAT A WRITING POINT WRITES BACK is its block of the gathered array, for any proof data of the pipeline whose
    output buffer after the body is the accumulator times the norms. -/
theorem flushed10_3_eq (hc : Hclamp10 a) (c : Dev nD) (dat : Dat τ (Elt Ideal) Unit ℕ (UR sig nD τ) ℕ (cfgG10 a) c)
    (hafter : ∀ t, dat.after 3 t = k10_pay3 (accAt10 a V c t.val t.isLt) (iblk10 a V c 2 t))
    (t : Fin (cfgG10 a).N) (hf : ((cfgG10 a).win 3).flush t = true) :
    dat.flushed 3 t = (((cfgG10 a).win 3).blk t).view.read (Elt Ideal) (gathG10 a V c) := by
  have h124 : t.val % 125 = 124 := (flush10_3 a t).mp hf
  have htN := g10_N a t
  have hti : t.val = (iOf10 a t).val * 125 + 124 := by show t.val = t.val / 125 * 125 + 124; omega
  have hlast : (iOf10 a t).val * 125 + 124 < (cfgG10 a).N := hti ▸ t.isLt
  show ((cfgG10 a).win 3).cut (grid10.coords t) (dat.after 3 t) = _
  rw [hafter]
  refine funext fun (x : S5120x128.Idx) => ?_
  obtain ⟨e, f, rfl⟩ : ∃ e f, x = ValueIdx.ix2 e f := ⟨x 0, x 1, ValueIdx.eq_ix2 x⟩
  -- the accumulator's entry after the block's last tile
  have hS : accAt10 a V c t.val t.isLt (ValueIdx.ix2 e f)
      = ∑ j : Fin 125, if gate10 a (iOf10 a t) j.val then gathTerm10 V c (ePos10 (iOf10 a t) e) f j else 0 := by
    have h1 : accAt10 a V c t.val t.isLt (ValueIdx.ix2 e f) = accV10 a V c e f ((iOf10 a t).val * 125 + 124) := by
      unfold accV10
      rw [dif_pos hlast, accAt10_congr a V c hti t.isLt hlast]
    rw [h1, accV10_last, Finset.sum_range (fun j => if gate10 a (iOf10 a t) j then gterm10 a V c e f ((iOf10 a t).val * 125 + j) else 0)]
    refine Finset.sum_congr rfl fun j _ => ?_
    by_cases hg : gate10 a (iOf10 a t) j.val
    · rw [if_pos hg, if_pos hg, gterm10_eq a V hc c (iOf10 a t) j hg e f]
    · rw [if_neg hg, if_neg hg]
  exact (k10_pay3_apply (accAt10 a V c t.val t.isLt) (normB10 a V c t) e f).trans
    ((congrArg₂ (· * ·) hS (normB10_apply a V c t e)).trans
      ((gathG10_apply a V c (iOf10 a t) e f).symm.trans (congrArg (gathG10 a V c) (emb10_3 a t e f).symm)))

/-- THE RESULT ARRAY after the region, for any proof data of the pipeline whose output buffer after the body is the
    accumulator times the norms. -/
theorem arr10_3_of (hc : Hclamp10 a) (c : Dev nD) (dat : Dat τ (Elt Ideal) Unit ℕ (UR sig nD τ) ℕ (cfgG10 a) c)
    (hafter : ∀ t, dat.after 3 t = k10_pay3 (accAt10 a V c t.val t.isLt) (iblk10 a V c 2 t)) :
    dat.arrAt 3 (cfgG10 a).N = gathG10 a V c :=
  dat.arrAt_eq_of_cover 3 (gathG10 a V c) (fun t hf => flushed10_3_eq a V hc c dat hafter t hf) (cover10_3 a)

end Region10c

section Region1e

variable (a : (p : Fin 13) → (pcfgs (F := Ideal) p).Adm)
variable (V : (c : Dev nD) → (b : Ref sig .tc) → Buf (Elt Ideal) ((c : Thread nD τ).loc b))

/-! ## The gathered sum in closed form -/

/-- One node block's contribution: the node row whose number is the edge's row word, when the block holds it. -/
theorem gathTerm10_closed (c : Dev nD) (e : Fin 629760) (f : Fin 128) (j : Fin 125) :
    gathTerm10 V c e f j
      = if h : j.val * 800 ≤ (rowA10 V c (ValueIdx.ix2 (0 : Fin 1) e)).toNat ∧ (rowA10 V c (ValueIdx.ix2 (0 : Fin 1) e)).toNat < j.val * 800 + 800
        then tmpA10 V c (ValueIdx.ix2 (⟨(rowA10 V c (ValueIdx.ix2 (0 : Fin 1) e)).toNat, by have := j.isLt; omega⟩ : Fin 100000) f) else 0 := by
  have hj := j.isLt
  let r := (rowA10 V c (ValueIdx.ix2 (0 : Fin 1) e)).toNat
  let x : ℕ → EReal := fun n => if h : n < 100000 then tmpA10 V c (ValueIdx.ix2 (⟨n, h⟩ : Fin 100000) f) else 0
  let δ : ℕ → EReal := fun n => if n = r then 1 else 0
  have hsum : gathTerm10 V c e f j = ∑ k : Fin 800, δ (j.val * 800 + k.val) * x (j.val * 800 + k.val) := by
    unfold gathTerm10
    refine Finset.sum_congr rfl fun k _ => ?_
    have hk : j.val * 800 + k.val < 100000 := (nPos10 j k).isLt
    show _ * _ = (if j.val * 800 + k.val = r then (1 : EReal) else 0) * (if h : j.val * 800 + k.val < 100000 then tmpA10 V c (ValueIdx.ix2 (⟨j.val * 800 + k.val, h⟩ : Fin 100000) f) else 0)
    rw [dif_pos hk]
    rfl
  rw [hsum, Cert.Math.sum_fin_block_oneHot_mul 800 (j.val * 800) r δ x (if_pos rfl) (fun n hn => if_neg hn)]
  by_cases hb : j.val * 800 ≤ r ∧ r < j.val * 800 + 800
  · rw [if_pos hb, dif_pos hb]
    show (if h : r < 100000 then tmpA10 V c (ValueIdx.ix2 (⟨r, h⟩ : Fin 100000) f) else 0) = _
    rw [dif_pos (by omega)]
  · rw [if_neg hb, dif_neg hb]

/-- THE GATHERED SUM: the node row the edge's row word names, when the word is a node and the gate admits its block;
    nothing otherwise. -/
theorem gathSum10_closed (c : Dev nD) (i : Fin 123) (e : Fin 629760) (f : Fin 128) :
    (∑ j : Fin 125, if gate10 a i j.val then gathTerm10 V c e f j else 0)
      = if h : (rowA10 V c (ValueIdx.ix2 (0 : Fin 1) e)).toNat < 100000 ∧ gate10 a i ((rowA10 V c (ValueIdx.ix2 (0 : Fin 1) e)).toNat / 800)
        then tmpA10 V c (ValueIdx.ix2 (⟨(rowA10 V c (ValueIdx.ix2 (0 : Fin 1) e)).toNat, h.1⟩ : Fin 100000) f) else 0 := by
  by_cases hr : (rowA10 V c (ValueIdx.ix2 (0 : Fin 1) e)).toNat < 100000 ∧ gate10 a i ((rowA10 V c (ValueIdx.ix2 (0 : Fin 1) e)).toNat / 800)
  · rw [dif_pos hr]
    have hj0 : (rowA10 V c (ValueIdx.ix2 (0 : Fin 1) e)).toNat / 800 < 125 := by have := hr.1; omega
    rw [Finset.sum_eq_single (⟨(rowA10 V c (ValueIdx.ix2 (0 : Fin 1) e)).toNat / 800, hj0⟩ : Fin 125)]
    · have hb : (rowA10 V c (ValueIdx.ix2 (0 : Fin 1) e)).toNat / 800 * 800 ≤ (rowA10 V c (ValueIdx.ix2 (0 : Fin 1) e)).toNat
          ∧ (rowA10 V c (ValueIdx.ix2 (0 : Fin 1) e)).toNat < (rowA10 V c (ValueIdx.ix2 (0 : Fin 1) e)).toNat / 800 * 800 + 800 := by omega
      rw [if_pos hr.2, gathTerm10_closed, dif_pos hb]
    · intro j _ hne
      by_cases hg : gate10 a i j.val
      · rw [if_pos hg, gathTerm10_closed, dif_neg]
        rintro ⟨h1, h2⟩
        exact hne (Fin.ext (by show j.val = (rowA10 V c (ValueIdx.ix2 (0 : Fin 1) e)).toNat / 800; omega))
      · rw [if_neg hg]
    · intro h; exact absurd (Finset.mem_univ _) h
  · rw [dif_neg hr]
    refine Finset.sum_eq_zero fun j _ => ?_
    by_cases hg : gate10 a i j.val
    · rw [if_pos hg, gathTerm10_closed, dif_neg]
      rintro ⟨h1, h2⟩
      have hj := j.isLt
      have hd : (rowA10 V c (ValueIdx.ix2 (0 : Fin 1) e)).toNat / 800 = j.val := by omega
      exact hr ⟨by omega, hd ▸ hg⟩
    · rw [if_neg hg]

end Region1e

/-! ## The region's own proof data -/

section Region10d

variable (a : (p : Fin 13) → (pcfgs (F := Ideal) p).Adm)
variable (V : (c : Dev nD) → (b : Ref sig .tc) → Buf (Elt Ideal) ((c : Thread nD τ).loc b))

/-- THE RESULT ARRAY after the gather region. -/
theorem arr10_3 (hc : Hclamp10 a) (c : Dev nD) : (dat10 a V c).arrAt 3 (cfgG10 a).N = gathG10 a V c :=
  arr10_3_of a V hc c (dat10 a V c) (after10_3 a V c)

/-- Index by index. -/
theorem arr10_3_apply (hc : Hclamp10 a) (c : Dev nD) (i : Fin 123) (e : Fin 5120) (f : Fin 128) :
    (dat10 a V c).arrAt 3 (cfgG10 a).N (ValueIdx.ix2 (ePos10 i e) f)
      = (∑ j : Fin 125, if gate10 a i j.val then gathTerm10 V c (ePos10 i e) f j else 0)
        * normA10 V c (ValueIdx.ix2 (ePos10 i e) (0 : Fin 1)) :=
  (congrFun (arr10_3 a V hc c) (ValueIdx.ix2 (ePos10 i e) f)).trans (gathG10_apply a V c i e f)

/-- In closed form: the node row the edge's row word names (when it is a node of a block the gate admits), times the
    edge's norm. -/
theorem arr10_3_closed (hc : Hclamp10 a) (c : Dev nD) (i : Fin 123) (e : Fin 5120) (f : Fin 128) :
    (dat10 a V c).arrAt 3 (cfgG10 a).N (ValueIdx.ix2 (ePos10 i e) f)
      = (if h : (rowA10 V c (ValueIdx.ix2 (0 : Fin 1) (ePos10 i e))).toNat < 100000
            ∧ gate10 a i ((rowA10 V c (ValueIdx.ix2 (0 : Fin 1) (ePos10 i e))).toNat / 800)
          then tmpA10 V c (ValueIdx.ix2 (⟨(rowA10 V c (ValueIdx.ix2 (0 : Fin 1) (ePos10 i e))).toNat, h.1⟩ : Fin 100000) f) else 0)
        * normA10 V c (ValueIdx.ix2 (ePos10 i e) (0 : Fin 1)) := by
  rw [arr10_3_apply a V hc c i e f, gathSum10_closed]

end Region10d

end Cert.KernelIdeal.Hand

end
-- ==== Proof.KI.ValAllGather.lean ====
/- The four gather regions' value lemmas in the chain's form: each region's result array, read in the valuation after
   the region, is the gated one-hot sum its value lemma states of the valuation before it; the gate is the table words'
   bracket, on which the clamped node block is the block itself. -/
import proofs.«415143_j42460046688958_3_alg».proof.Proof.KI.Assemble
import proofs.«415143_j42460046688958_3_alg».proof.Proof.KI.ValChain
import proofs.«415143_j42460046688958_3_alg».proof.Proof.KI.ValGather1
import proofs.«415143_j42460046688958_3_alg».proof.Proof.KI.ValGather4
import proofs.«415143_j42460046688958_3_alg».proof.Proof.KI.ValGather7
import proofs.«415143_j42460046688958_3_alg».proof.Proof.KI.ValGather10

noncomputable section

open scoped BigOperators

namespace Cert.KernelIdeal.Hand

open Cert.KernelIdeal Cert.KernelIdeal.Gen Idealize.ShloMosaic Idealize.ShloMosaic.TcCoe Idealize.SL.Sem
open Cert.ReferenceIdeal.Hand (refOutOf RowOK)

variable (m : (ℓ : Loc nD τ sig) → Buf (Elt Ideal) ℓ)

/-- A word at most 124 read signed is itself read unsigned. -/
theorem toInt_of_le124 (w : BitVec 32) (h : w.toNat ≤ 124) : w.toInt = (w.toNat : ℤ) := by
  have hc := BitVec.toInt_eq_toNat_cond w
  split at hc <;> omega

theorem rloT1_all (x : S123.Idx) : rloT1 (admAll (F := Ideal) m) x = (V33 m (0 : Dev nD) main_v86 : S123.Idx → BitVec 32) x := by
  show ((admAll (F := Ideal) m 1).1 0 : S123.Idx → BitVec 32) x = _
  rw [show admAll (F := Ideal) m 1 = adm1 m from rfl, adm1_val]
  exact tbl1_0 m x
theorem rhiT1_all (x : S123.Idx) : rhiT1 (admAll (F := Ideal) m) x = (V33 m (0 : Dev nD) main_v89 : S123.Idx → BitVec 32) x := by
  show ((admAll (F := Ideal) m 1).1 1 : S123.Idx → BitVec 32) x = _
  rw [show admAll (F := Ideal) m 1 = adm1 m from rfl, adm1_val]
  exact tbl1_1 m x

/-- Region 1's gate holds wherever its table words bracket the node block. -/
theorem gateG1_of (c : Dev nD) (i : Fin 123) (j : Fin 125)
    (h1 : ((V33 m c main_v86 : S123.Idx → BitVec 32) (Shape.Idx.ofFin i)).toNat ≤ j.val)
    (h2 : j.val ≤ ((V33 m c main_v89 : S123.Idx → BitVec 32) (Shape.Idx.ofFin i)).toNat) : gate1 (admAll m) i j.val := by
  obtain rfl : c = 0 := Subsingleton.elim _ _
  unfold gate1
  rw [rloT1_all, rhiT1_all, toInt_of_le124 _ (rlo_le m 0 _), toInt_of_le124 _ (rhi_le m 0 _)]
  exact ⟨by exact_mod_cast h1, by exact_mod_cast h2⟩

/-- On every tile region 1's gate admits, the clamped node block is the block itself. -/
theorem hclamp1 : Hclamp1 (admAll (F := Ideal) m) := by
  intro i j hg
  unfold gate1 at hg
  rw [rloT1_all, rhiT1_all, toInt_of_le124 _ (rlo_le m 0 _), toInt_of_le124 _ (rhi_le m 0 _)] at hg
  rw [rloT1_all, rhiT1_all]
  exact TG.clamp_eq124 j.val _ _ (by exact_mod_cast hg.1) (by exact_mod_cast hg.2) (rhi_le m 0 _)

theorem rloT4_all (x : S123.Idx) : rloT4 (admAll (F := Ideal) m) x = (V33 m (0 : Dev nD) main_v86 : S123.Idx → BitVec 32) x := by
  show ((admAll (F := Ideal) m 4).1 0 : S123.Idx → BitVec 32) x = _
  rw [show admAll (F := Ideal) m 4 = adm4 m from rfl, adm4_val]
  exact tbl4_0 m x
theorem rhiT4_all (x : S123.Idx) : rhiT4 (admAll (F := Ideal) m) x = (V33 m (0 : Dev nD) main_v89 : S123.Idx → BitVec 32) x := by
  show ((admAll (F := Ideal) m 4).1 1 : S123.Idx → BitVec 32) x = _
  rw [show admAll (F := Ideal) m 4 = adm4 m from rfl, adm4_val]
  exact tbl4_1 m x

/-- Region 4's gate holds wherever its table words bracket the node block. -/
theorem gateG4_of (c : Dev nD) (i : Fin 123) (j : Fin 125)
    (h1 : ((V33 m c main_v86 : S123.Idx → BitVec 32) (Shape.Idx.ofFin i)).toNat ≤ j.val)
    (h2 : j.val ≤ ((V33 m c main_v89 : S123.Idx → BitVec 32) (Shape.Idx.ofFin i)).toNat) : gate4 (admAll m) i j.val := by
  obtain rfl : c = 0 := Subsingleton.elim _ _
  unfold gate4
  rw [rloT4_all, rhiT4_all, toInt_of_le124 _ (rlo_le m 0 _), toInt_of_le124 _ (rhi_le m 0 _)]
  exact ⟨by exact_mod_cast h1, by exact_mod_cast h2⟩

/-- On every tile region 4's gate admits, the clamped node block is the block itself. -/
theorem hclamp4 : Hclamp4 (admAll (F := Ideal) m) := by
  intro i j hg
  unfold gate4 at hg
  rw [rloT4_all, rhiT4_all, toInt_of_le124 _ (rlo_le m 0 _), toInt_of_le124 _ (rhi_le m 0 _)] at hg
  rw [rloT4_all, rhiT4_all]
  exact TG.clamp_eq124 j.val _ _ (by exact_mod_cast hg.1) (by exact_mod_cast hg.2) (rhi_le m 0 _)

theorem rloT7_all (x : S123.Idx) : rloT7 (admAll (F := Ideal) m) x = (V33 m (0 : Dev nD) main_v86 : S123.Idx → BitVec 32) x := by
  show ((admAll (F := Ideal) m 7).1 0 : S123.Idx → BitVec 32) x = _
  rw [show admAll (F := Ideal) m 7 = adm7 m from rfl, adm7_val]
  exact tbl7_0 m x
theorem rhiT7_all (x : S123.Idx) : rhiT7 (admAll (F := Ideal) m) x = (V33 m (0 : Dev nD) main_v89 : S123.Idx → BitVec 32) x := by
  show ((admAll (F := Ideal) m 7).1 1 : S123.Idx → BitVec 32) x = _
  rw [show admAll (F := Ideal) m 7 = adm7 m from rfl, adm7_val]
  exact tbl7_1 m x

/-- Region 7's gate holds wherever its table words bracket the node block. -/
theorem gateG7_of (c : Dev nD) (i : Fin 123) (j : Fin 125)
    (h1 : ((V33 m c main_v86 : S123.Idx → BitVec 32) (Shape.Idx.ofFin i)).toNat ≤ j.val)
    (h2 : j.val ≤ ((V33 m c main_v89 : S123.Idx → BitVec 32) (Shape.Idx.ofFin i)).toNat) : gate7 (admAll m) i j.val := by
  obtain rfl : c = 0 := Subsingleton.elim _ _
  unfold gate7
  rw [rloT7_all, rhiT7_all, toInt_of_le124 _ (rlo_le m 0 _), toInt_of_le124 _ (rhi_le m 0 _)]
  exact ⟨by exact_mod_cast h1, by exact_mod_cast h2⟩

/-- On every tile region 7's gate admits, the clamped node block is the block itself. -/
theorem hclamp7 : Hclamp7 (admAll (F := Ideal) m) := by
  intro i j hg
  unfold gate7 at hg
  rw [rloT7_all, rhiT7_all, toInt_of_le124 _ (rlo_le m 0 _), toInt_of_le124 _ (rhi_le m 0 _)] at hg
  rw [rloT7_all, rhiT7_all]
  exact TG.clamp_eq124 j.val _ _ (by exact_mod_cast hg.1) (by exact_mod_cast hg.2) (rhi_le m 0 _)

theorem rloT10_all (x : S123.Idx) : rloT10 (admAll (F := Ideal) m) x = (V33 m (0 : Dev nD) main_v86 : S123.Idx → BitVec 32) x := by
  show ((admAll (F := Ideal) m 10).1 0 : S123.Idx → BitVec 32) x = _
  rw [show admAll (F := Ideal) m 10 = adm10 m from rfl, adm10_val]
  exact tbl10_0 m x
theorem rhiT10_all (x : S123.Idx) : rhiT10 (admAll (F := Ideal) m) x = (V33 m (0 : Dev nD) main_v89 : S123.Idx → BitVec 32) x := by
  show ((admAll (F := Ideal) m 10).1 1 : S123.Idx → BitVec 32) x = _
  rw [show admAll (F := Ideal) m 10 = adm10 m from rfl, adm10_val]
  exact tbl10_1 m x

/-- Region 10's gate holds wherever its table words bracket the node block. -/
theorem gateG10_of (c : Dev nD) (i : Fin 123) (j : Fin 125)
    (h1 : ((V33 m c main_v86 : S123.Idx → BitVec 32) (Shape.Idx.ofFin i)).toNat ≤ j.val)
    (h2 : j.val ≤ ((V33 m c main_v89 : S123.Idx → BitVec 32) (Shape.Idx.ofFin i)).toNat) : gate10 (admAll m) i j.val := by
  obtain rfl : c = 0 := Subsingleton.elim _ _
  unfold gate10
  rw [rloT10_all, rhiT10_all, toInt_of_le124 _ (rlo_le m 0 _), toInt_of_le124 _ (rhi_le m 0 _)]
  exact ⟨by exact_mod_cast h1, by exact_mod_cast h2⟩

/-- On every tile region 10's gate admits, the clamped node block is the block itself. -/
theorem hclamp10 : Hclamp10 (admAll (F := Ideal) m) := by
  intro i j hg
  unfold gate10 at hg
  rw [rloT10_all, rhiT10_all, toInt_of_le124 _ (rlo_le m 0 _), toInt_of_le124 _ (rhi_le m 0 _)] at hg
  rw [rloT10_all, rhiT10_all]
  exact TG.clamp_eq124 j.val _ _ (by exact_mod_cast hg.1) (by exact_mod_cast hg.2) (rhi_le m 0 _)

theorem hjrAll (j : Fin 125) (r : Fin 800) : j.val * 800 + r.val < 100000 := by
  have := j.isLt
  have := r.isLt
  omega

section Outs

variable (c : Dev nD)

theorem out_1 : V35 m (outsAll m) c main_v119
    = (dat1 (admAll m) (fun c b => V34 m (outsAll m) c b) c).arrAt (3 : Fin 4) (Pipeline.pin (pcfgs (F := Ideal)) (admAll m) 1).N := by
  have h1 : V35 m (outsAll m) c main_v119 = outsAll m 35 main_v119 c := by
    show Function.update (V34 m (outsAll m) c) (Proc.devRef .tc main_v119) (outsAll m 35 main_v119 c) (Proc.devRef .tc main_v119) = _
    exact Function.update_self _ _ _
  have hW : (fun (c : Dev nD) (b : Ref sig .tc) => W34 (admAll m) m c b) = (fun (c : Dev nD) (b : Ref sig .tc) => V34 m (outsAll m) c b) :=
    funext fun c => funext fun b => by rw [V34_eq]
  exact h1.trans ((outs_1 (admAll m) m 35 c).trans ((out1_def (admAll m) m c).trans (by rw [hW])))

theorem gather0_val : GatherVal (fun i j => gate1 (admAll m) i j.val) hjrAll (V34 m (outsAll m) c main_v112) (V34 m (outsAll m) c main_v118)
    (V34 m (outsAll m) c main_v114) (V35 m (outsAll m) c main_v119) := by
  intro e f
  rw [out_1 m c]
  have he : e = ePos1 ⟨e.val / 5120, Cert.Math.blk_lt e⟩ ⟨e.val % 5120, Nat.mod_lt _ (by decide)⟩ :=
    Fin.ext (by show e.val = e.val / 5120 * 5120 + e.val % 5120; omega)
  have h := arr1_3_apply (admAll m) (fun c b => V34 m (outsAll m) c b) (hclamp1 m) c ⟨e.val / 5120, Cert.Math.blk_lt e⟩
    ⟨e.val % 5120, Nat.mod_lt _ (by decide)⟩ f
  rw [← he] at h
  exact h

theorem out_4 : V40 m (outsAll m) c main_v129
    = (dat4 (admAll m) (fun c b => V39 m (outsAll m) c b) c).arrAt (3 : Fin 4) (Pipeline.pin (pcfgs (F := Ideal)) (admAll m) 4).N := by
  have h1 : V40 m (outsAll m) c main_v129 = outsAll m 40 main_v129 c := by
    show Function.update (V39 m (outsAll m) c) (Proc.devRef .tc main_v129) (outsAll m 40 main_v129 c) (Proc.devRef .tc main_v129) = _
    exact Function.update_self _ _ _
  have hW : (fun (c : Dev nD) (b : Ref sig .tc) => W39 (admAll m) m c b) = (fun (c : Dev nD) (b : Ref sig .tc) => V39 m (outsAll m) c b) :=
    funext fun c => funext fun b => by rw [V39_eq]
  exact h1.trans ((outs_4 (admAll m) m 40 c).trans ((out4_def (admAll m) m c).trans (by rw [hW])))

theorem gather1_val : GatherVal (fun i j => gate4 (admAll m) i j.val) hjrAll (V39 m (outsAll m) c main_v112) (V39 m (outsAll m) c main_v128)
    (V39 m (outsAll m) c main_v114) (V40 m (outsAll m) c main_v129) := by
  intro e f
  rw [out_4 m c]
  have he : e = ePos4 ⟨e.val / 5120, Cert.Math.blk_lt e⟩ ⟨e.val % 5120, Nat.mod_lt _ (by decide)⟩ :=
    Fin.ext (by show e.val = e.val / 5120 * 5120 + e.val % 5120; omega)
  have h := arr4_3_apply (admAll m) (fun c b => V39 m (outsAll m) c b) (hclamp4 m) c ⟨e.val / 5120, Cert.Math.blk_lt e⟩
    ⟨e.val % 5120, Nat.mod_lt _ (by decide)⟩ f
  rw [← he] at h
  exact h

theorem out_7 : V45 m (outsAll m) c main_v139
    = (dat7 (admAll m) (fun c b => V44 m (outsAll m) c b) c).arrAt (3 : Fin 4) (Pipeline.pin (pcfgs (F := Ideal)) (admAll m) 7).N := by
  have h1 : V45 m (outsAll m) c main_v139 = outsAll m 45 main_v139 c := by
    show Function.update (V44 m (outsAll m) c) (Proc.devRef .tc main_v139) (outsAll m 45 main_v139 c) (Proc.devRef .tc main_v139) = _
    exact Function.update_self _ _ _
  have hW : (fun (c : Dev nD) (b : Ref sig .tc) => W44 (admAll m) m c b) = (fun (c : Dev nD) (b : Ref sig .tc) => V44 m (outsAll m) c b) :=
    funext fun c => funext fun b => by rw [V44_eq]
  exact h1.trans ((outs_7 (admAll m) m 45 c).trans ((out7_def (admAll m) m c).trans (by rw [hW])))

theorem gather2_val : GatherVal (fun i j => gate7 (admAll m) i j.val) hjrAll (V44 m (outsAll m) c main_v112) (V44 m (outsAll m) c main_v138)
    (V44 m (outsAll m) c main_v114) (V45 m (outsAll m) c main_v139) := by
  intro e f
  rw [out_7 m c]
  have he : e = ePos7 ⟨e.val / 5120, Cert.Math.blk_lt e⟩ ⟨e.val % 5120, Nat.mod_lt _ (by decide)⟩ :=
    Fin.ext (by show e.val = e.val / 5120 * 5120 + e.val % 5120; omega)
  have h := arr7_3_apply (admAll m) (fun c b => V44 m (outsAll m) c b) (hclamp7 m) c ⟨e.val / 5120, Cert.Math.blk_lt e⟩
    ⟨e.val % 5120, Nat.mod_lt _ (by decide)⟩ f
  rw [← he] at h
  exact h

theorem out_10 : V50 m (outsAll m) c main_v149
    = (dat10 (admAll m) (fun c b => V49 m (outsAll m) c b) c).arrAt (3 : Fin 4) (Pipeline.pin (pcfgs (F := Ideal)) (admAll m) 10).N := by
  have h1 : V50 m (outsAll m) c main_v149 = outsAll m 50 main_v149 c := by
    show Function.update (V49 m (outsAll m) c) (Proc.devRef .tc main_v149) (outsAll m 50 main_v149 c) (Proc.devRef .tc main_v149) = _
    exact Function.update_self _ _ _
  have hW : (fun (c : Dev nD) (b : Ref sig .tc) => W49 (admAll m) m c b) = (fun (c : Dev nD) (b : Ref sig .tc) => V49 m (outsAll m) c b) :=
    funext fun c => funext fun b => by rw [V49_eq]
  exact h1.trans ((outs_10 (admAll m) m 50 c).trans ((out10_def (admAll m) m c).trans (by rw [hW])))

theorem gather3_val : GatherVal (fun i j => gate10 (admAll m) i j.val) hjrAll (V49 m (outsAll m) c main_v112) (V49 m (outsAll m) c main_v148)
    (V49 m (outsAll m) c main_v114) (V50 m (outsAll m) c main_v149) := by
  intro e f
  rw [out_10 m c]
  have he : e = ePos10 ⟨e.val / 5120, Cert.Math.blk_lt e⟩ ⟨e.val % 5120, Nat.mod_lt _ (by decide)⟩ :=
    Fin.ext (by show e.val = e.val / 5120 * 5120 + e.val % 5120; omega)
  have h := arr10_3_apply (admAll m) (fun c b => V49 m (outsAll m) c b) (hclamp10 m) c ⟨e.val / 5120, Cert.Math.blk_lt e⟩
    ⟨e.val % 5120, Nat.mod_lt _ (by decide)⟩ f
  rw [← he] at h
  exact h

end Outs

end Cert.KernelIdeal.Hand

end
-- ==== Proof.KI.ValScatter2.lean ====
/- The value of a scatter layer's region at the ideal instance. Tile (i, j) of the grid adds, into an accumulator of
   2000 rows carried along j, the product of a one-hot matrix (row r is hot at the positions k of edge block j whose
   column word is node 2000 i + r) with the block's 5120 payload rows; it does so only when the table words lo j, hi j
   bracket i, and on those tiles the clamped block index of the two edge windows is j itself. At the extended reals the
   format changes are the identity and a product into a zero accumulator is the plain sum, so after the last tile of
   row block i the accumulator's entry (r, f) is the sum, over the admitted edge blocks j and the positions k in them,
   of [col (j, k) = 2000 i + r] * scaled (j, k, f). The tile j = 122 then stores max (acc + h0 . root_w + bias) 0 to
   the result's row block i; the 50 row blocks tile the result array. -/
import proofs.«415143_j42460046688958_3_alg».proof.Proof.KI.Scatter2Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws
import Mathlib.Logic.Equiv.Fin.Basic
import Mathlib.Data.Fintype.BigOperators

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A `[a, 1]` array broadcast to `[a, b]` reads, at `(p, c)`, the operand's one column at `p`. -/
theorem vs2_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (r, f) and contraction index k read the one-hot at (r, k) and the payload at (k, f) -/

theorem lhs_hot2_0 (i : S2000x128.Idx) (q : dot_S2000x5120_S5120x128_S2000x128_1_0_0_1_n_n.contr.Idx) :
    (dot_S2000x5120_S5120x128_S2000x128_1_0_0_1_n_n.lhsIdx i q 0).val = (i 0).val := by
  unfold DotDims.lhsIdx
  rw [dif_neg (show ¬(0 : Fin S2000x5120.rank) ∈ dot_S2000x5120_S5120x128_S2000x128_1_0_0_1_n_n.lhsBatch by decide), dif_pos (show (0 : Fin S2000x5120.rank) ∈ dot_S2000x5120_S5120x128_S2000x128_1_0_0_1_n_n.lhsNonContracting by decide)]
  rfl
theorem lhs_hot2_1 (i : S2000x128.Idx) (q : dot_S2000x5120_S5120x128_S2000x128_1_0_0_1_n_n.contr.Idx) :
    (dot_S2000x5120_S5120x128_S2000x128_1_0_0_1_n_n.lhsIdx i q 1).val = (q ⟨0, by decide⟩).val :=
  dot_S2000x5120_S5120x128_S2000x128_1_0_0_1_n_n.lhsIdx_val_of_single rfl i q
theorem rhs_hot2_0 (i : S2000x128.Idx) (q : dot_S2000x5120_S5120x128_S2000x128_1_0_0_1_n_n.contr.Idx) :
    (dot_S2000x5120_S5120x128_S2000x128_1_0_0_1_n_n.rhsIdx i q 0).val = (q ⟨0, by decide⟩).val :=
  dot_S2000x5120_S5120x128_S2000x128_1_0_0_1_n_n.rhsIdx_val_of_single rfl i q
theorem rhs_hot2_1 (i : S2000x128.Idx) (q : dot_S2000x5120_S5120x128_S2000x128_1_0_0_1_n_n.contr.Idx) :
    (dot_S2000x5120_S5120x128_S2000x128_1_0_0_1_n_n.rhsIdx i q 1).val = (i 1).val := by
  unfold DotDims.rhsIdx
  rw [dif_neg (show ¬(1 : Fin S5120x128.rank) ∈ dot_S2000x5120_S5120x128_S2000x128_1_0_0_1_n_n.rhsBatch by decide), dif_pos (show (1 : Fin S5120x128.rank) ∈ dot_S2000x5120_S5120x128_S2000x128_1_0_0_1_n_n.rhsNonContracting by decide)]
  rfl

/-- The accumulator's zero payload reads 0 everywhere. -/
theorem k2_pay1_apply (x : S2000x128.Idx) : (k2_pay1 (F := Ideal)) x = 0 := by
  unfold k2_pay1
  rw [shapeCast_self]
  exact Ideal.ofBits_zero_f32

/-- THE ACCUMULATING PAYLOAD at (r, f): what was there plus the sum over the block's positions k of
    [column word k = 2000 i + r] * payload (k, f); the node number computed in 32-bit words. -/
theorem k2_pay2_apply (i : grid2.Coords) (x0 : Vec Ideal S1x5120 .i32) (x1 : Vec Ideal S5120x128 .f32) (xs : Vec Ideal S2000x128 .f32)
    (r : Fin 2000) (f : Fin 128) :
    k2_pay2 (F := Ideal) i x0 x1 xs (ValueIdx.ix2 r f)
      = xs (ValueIdx.ix2 r f) + ∑ k : Fin 5120,
          (if x0 (ValueIdx.ix2 (0 : Fin 1) k) = BitVec.ofNat 32 (i 0).val * 2000#32 + BitVec.ofNat 32 r.val then (1 : EReal) else 0)
            * x1 (ValueIdx.ix2 k f) := by
  unfold k2_pay2
  simp only [matmul]
  rw [shapeCast_self, ValueIdx.addf_apply]
  rw [Ideal.matmul_constant_zero_apply, ← Equiv.sum_comp (ValueIdx.contrEquiv1 dot_S2000x5120_S5120x128_S2000x128_1_0_0_1_n_n 5120 rfl rfl).symm]
  refine congrArg (xs (ValueIdx.ix2 r f) + ·) (Finset.sum_congr rfl fun k _ => ?_)
  have hk := ValueIdx.contrEquiv1_symm_val dot_S2000x5120_S5120x128_S2000x128_1_0_0_1_n_n 5120 rfl rfl k
  have el : dot_S2000x5120_S5120x128_S2000x128_1_0_0_1_n_n.lhsIdx (ValueIdx.ix2 r f) ((ValueIdx.contrEquiv1 dot_S2000x5120_S5120x128_S2000x128_1_0_0_1_n_n 5120 rfl rfl).symm k) = ValueIdx.ix2 r k := funext fun a => Fin.ext (by
    match a with
    | ⟨0, _⟩ => exact lhs_hot2_0 _ _
    | ⟨1, _⟩ => exact (lhs_hot2_1 _ _).trans hk)
  have er : dot_S2000x5120_S5120x128_S2000x128_1_0_0_1_n_n.rhsIdx (ValueIdx.ix2 r f) ((ValueIdx.contrEquiv1 dot_S2000x5120_S5120x128_S2000x128_1_0_0_1_n_n 5120 rfl rfl).symm k) = ValueIdx.ix2 k f := funext fun a => Fin.ext (by
    match a with
    | ⟨0, _⟩ => exact (rhs_hot2_0 _ _).trans hk
    | ⟨1, _⟩ => exact rhs_hot2_1 _ _)
  rw [el, er]
  refine congrArg₂ (· * ·) ?_ ?_
  · refine (Cert.Math.oneHot_payload_apply _ _ _ _ (ValueIdx.ix2 r k)).trans ?_
    have e21 : broadcastTo S2000x5120 (shapeCast S1x5120 x0 shapeCasts_S1x5120_S1x5120) broadcasts_S1x5120_S2000x5120 (ValueIdx.ix2 r k)
        = x0 (ValueIdx.ix2 (0 : Fin 1) k) := by
      rw [ValueIdx.broadcastTo_1b_ab_apply, shapeCast_self]
    have e22 : broadcastTo S2000x5120 (addi (broadcast S2000x1 (Scalar.muli (BitVec.ofNat 32 (i 0).val) 2000#32)) (iota .tc S2000x1 32 [0] iota_S2000x1_d0_w32))
        broadcasts_S2000x1_S2000x5120 (ValueIdx.ix2 r k) = BitVec.ofNat 32 (i 0).val * 2000#32 + BitVec.ofNat 32 r.val := by
      rw [vs2_broadcastTo_a1_ab_apply]
      show IntOp.addi (Scalar.muli (BitVec.ofNat 32 (i 0).val) 2000#32) (iota .tc S2000x1 32 [0] iota_S2000x1_d0_w32 (ValueIdx.ix2 r (0 : Fin 1))) = _
      rw [iota_single_apply]
      rfl
    rw [e21, e22]
  · rw [ValueIdx.truncf_apply, shapeCast_self]

/-! ## The root product's operand indices -/

theorem lhs_root2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_root2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_root2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_root2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- THE STORED PAYLOAD at (r, f): max (acc (r, f) + sum over k of h0 (r, k) * root_w (k, f) + bias f) 0. -/
theorem k2_pay3_apply (x2 : Vec Ideal S2000x128 .f32) (x3 : Vec Ideal S128x128 .f32) (acc : Vec Ideal S2000x128 .f32) (x4 : Vec Ideal S1x128 .f32)
    (r : Fin 2000) (f : Fin 128) :
    k2_pay3 (F := Ideal) x2 x3 acc x4 (ValueIdx.ix2 r f)
      = max (acc (ValueIdx.ix2 r f) + ∑ k : Fin 128, x2 (ValueIdx.ix2 r k) * x3 (ValueIdx.ix2 k f) + x4 (ValueIdx.ix2 (0 : Fin 1) f)) 0 := by
  unfold k2_pay3
  simp only [matmul]
  rw [ValueIdx.maximumf_apply, ValueIdx.addf_apply, ValueIdx.addf_apply, ValueIdx.broadcast_apply]
  rw [Ideal.matmul_constant_zero_apply, ← Equiv.sum_comp (ValueIdx.contrEquiv1 dot_S2000x128_S128x128_S2000x128_1_0_0_1_n_n 128 rfl rfl).symm]
  have e4 : broadcastTo S2000x128 (shapeCast S1x128 x4 shapeCasts_S1x128_S1x128) broadcasts_S1x128_S2000x128 (ValueIdx.ix2 r f)
      = x4 (ValueIdx.ix2 (0 : Fin 1) f) := by
    rw [ValueIdx.broadcastTo_1b_ab_apply, shapeCast_self]
  have e0 : (Scalar.ofBits (F := Ideal) .f32 0x00000000#32 : Ideal .f32) = 0 := Ideal.ofBits_zero_f32
  rw [e4, e0]
  refine congrArg (fun s => max (acc (ValueIdx.ix2 r f) + s + x4 (ValueIdx.ix2 (0 : Fin 1) f)) 0) (Finset.sum_congr rfl fun k _ => ?_)
  have hk := ValueIdx.contrEquiv1_symm_val dot_S2000x128_S128x128_S2000x128_1_0_0_1_n_n 128 rfl rfl k
  have el : dot_S2000x128_S128x128_S2000x128_1_0_0_1_n_n.lhsIdx (ValueIdx.ix2 r f) ((ValueIdx.contrEquiv1 dot_S2000x128_S128x128_S2000x128_1_0_0_1_n_n 128 rfl rfl).symm k) = ValueIdx.ix2 r k := funext fun a => Fin.ext (by
    match a with
    | ⟨0, _⟩ => exact lhs_root2_0 _ _
    | ⟨1, _⟩ => exact (lhs_root2_1 _ _).trans hk)
  have er : dot_S2000x128_S128x128_S2000x128_1_0_0_1_n_n.rhsIdx (ValueIdx.ix2 r f) ((ValueIdx.contrEquiv1 dot_S2000x128_S128x128_S2000x128_1_0_0_1_n_n 128 rfl rfl).symm k) = ValueIdx.ix2 k f := funext fun a => Fin.ext (by
    match a with
    | ⟨0, _⟩ => exact (rhs_root2_0 _ _).trans hk
    | ⟨1, _⟩ => exact rhs_root2_1 _ _)
  rw [el, er, ValueIdx.truncf_apply, ValueIdx.truncf_apply, shapeCast_self, shapeCast_self]

/-! ## Signed comparisons and the gate in closed form -/

/-- A signed comparison's bit. -/
theorem vs2_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed. -/
theorem vs2_toInt_ofNat_lt50 : ∀ k : Fin 50, (BitVec.ofNat 32 k.val).toInt = (k.val : ℤ) := by decide

/-- THE GATE: the body accumulates at coordinates i exactly when the two table words bracket the first coordinate. -/
theorem vcond2_2_iff (i : grid2.Coords) (wlo whi : BitVec 32) :
    cond2_2 (F := Ideal) i wlo whi ↔ (wlo.toInt ≤ ((i 0).val : ℤ) ∧ ((i 0).val : ℤ) ≤ whi.toInt) := by
  have hI : (BitVec.ofNat 32 (i 0).val).toInt = ((i 0).val : ℤ) := vs2_toInt_ofNat_lt50 (i 0)
  show ((Scalar.cmpi .ne (Scalar.extui (Scalar.andi (Scalar.cmpi .sle wlo (BitVec.ofNat 32 (i 0).val)) (Scalar.cmpi .sle (BitVec.ofNat 32 (i 0).val) whi))) 0#32 : BitVec 1) = 1#1) ↔ _
  rw [vs2_sle_bit, vs2_sle_bit, hI]
  by_cases h1 : wlo.toInt ≤ ((i 0).val : ℤ)
  · by_cases h2 : ((i 0).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 0).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-- An edge block's number as a 32-bit index is itself. -/
theorem vs2_toNat_ofNat_lt123 : ∀ k : Fin 123, (BitVec.ofNat 32 k.val).toNat = k.val := by decide
theorem vs2_toNat_ofNat_lt50 : ∀ k : Fin 50, (BitVec.ofNat 32 k.val).toNat = k.val := by decide

/-- Two rank-1 indices with the same coordinate are equal. -/
theorem vs2_idx1_ext {n : ℕ} (x y : (⟨1, ![n]⟩ : Shape).Idx) (h : (x 0).val = (y 0).val) : x = y := funext fun a => by
  have ha : a = 0 := Subsingleton.elim _ _
  subst ha
  exact Fin.ext h

/-- The word the body compares from below is the first table's word of the second coordinate, -/
theorem vwd2_0_eq (c : Dev nD) (i : grid2.Coords) (xt : TbBuf2 (F := Ideal) c tbM2_0) (j : Fin 123) (hj : (i 1).val = j.val) :
    wd2_0 c i xt = (xt : S123.Idx → BitVec 32) (Shape.Idx.ofFin j) := by
  show (xt : S123.Idx → BitVec 32) _ = _
  refine congrArg (xt : S123.Idx → BitVec 32) (vs2_idx1_ext _ _ ?_)
  show (BitVec.ofNat 32 (i 1).val).toNat + 1 * 0 = j.val
  rw [vs2_toNat_ofNat_lt123 (i 1), hj]
  omega
/-- and the word it compares from above the second table's. -/
theorem vwd2_1_eq (c : Dev nD) (i : grid2.Coords) (xt : TbBuf2 (F := Ideal) c tbM2_1) (j : Fin 123) (hj : (i 1).val = j.val) :
    wd2_1 c i xt = (xt : S123.Idx → BitVec 32) (Shape.Idx.ofFin j) := by
  show (xt : S123.Idx → BitVec 32) _ = _
  refine congrArg (xt : S123.Idx → BitVec 32) (vs2_idx1_ext _ _ ?_)
  show (BitVec.ofNat 32 (i 1).val).toNat + 1 * 0 = j.val
  rw [vs2_toNat_ofNat_lt123 (i 1), hj]
  omega

/-! ## The two edge windows' index maps on the table words -/

/-- The word of a table of 50 an index map reads at the first coordinate. -/
theorem tbl50_emb2 (i : grid2.Coords) (iv : Fin 50) (hi : (i 0).val = iv.val)
    (inb : ∀ a, (![(Scalar.indexCast (BitVec.ofNat 32 (i 0).val)).toNat] : Fin 1 → Nat) a + S1.size a ≤ S50.size a) (h1 : 0 < S1.numel) :
    (Rect.unit (s := S50) ![(Scalar.indexCast (BitVec.ofNat 32 (i 0).val)).toNat] S1.size inb).emb (Shape.Idx.first h1) = Shape.Idx.ofFin iv := by
  refine vs2_idx1_ext _ _ ?_
  show (BitVec.ofNat 32 (i 0).val).toNat + 1 * 0 = iv.val
  rw [vs2_toNat_ofNat_lt50 (i 0), hi]
  omega

theorem cc2_transform_0_eq (pf : pre2.Contents (Elt Ideal)) (i : grid2.Coords) (iv : Fin 50) (hi : (i 0).val = iv.val) :
    cc2_transform_0 k2_off1_inb numel1_S1 pf i
      = ![0, (Scalar.minsi (Scalar.maxsi (BitVec.ofNat 32 (i 1).val) ((pf 2 : S50.Idx → BitVec 32) (Shape.Idx.ofFin iv)))
              ((pf 3 : S50.Idx → BitVec 32) (Shape.Idx.ofFin iv))).toNat] := by
  have e2 : pf.at 2 (Rect.unit (s := S50) ![(Scalar.indexCast (BitVec.ofNat 32 (i 0).val)).toNat] S1.size (k2_off1_inb i)) numel1_S1
      = (pf 2 : S50.Idx → BitVec 32) (Shape.Idx.ofFin iv) := congrArg (pf 2 : S50.Idx → BitVec 32) (tbl50_emb2 i iv hi _ _)
  have e3 : pf.at 3 (Rect.unit (s := S50) ![(Scalar.indexCast (BitVec.ofNat 32 (i 0).val)).toNat] S1.size (k2_off1_inb i)) numel1_S1
      = (pf 3 : S50.Idx → BitVec 32) (Shape.Idx.ofFin iv) := congrArg (pf 3 : S50.Idx → BitVec 32) (tbl50_emb2 i iv hi _ _)
  unfold cc2_transform_0
  dsimp only
  rw [e2, e3]
  rfl

theorem cc2_transform_1_eq (pf : pre2.Contents (Elt Ideal)) (i : grid2.Coords) (iv : Fin 50) (hi : (i 0).val = iv.val) :
    cc2_transform_1 k2_off1_inb numel1_S1 pf i
      = ![(Scalar.minsi (Scalar.maxsi (BitVec.ofNat 32 (i 1).val) ((pf 2 : S50.Idx → BitVec 32) (Shape.Idx.ofFin iv)))
              ((pf 3 : S50.Idx → BitVec 32) (Shape.Idx.ofFin iv))).toNat, 0] := by
  have e2 : pf.at 2 (Rect.unit (s := S50) ![(Scalar.indexCast (BitVec.ofNat 32 (i 0).val)).toNat] S1.size (k2_off1_inb i)) numel1_S1
      = (pf 2 : S50.Idx → BitVec 32) (Shape.Idx.ofFin iv) := congrArg (pf 2 : S50.Idx → BitVec 32) (tbl50_emb2 i iv hi _ _)
  have e3 : pf.at 3 (Rect.unit (s := S50) ![(Scalar.indexCast (BitVec.ofNat 32 (i 0).val)).toNat] S1.size (k2_off1_inb i)) numel1_S1
      = (pf 3 : S50.Idx → BitVec 32) (Shape.Idx.ofFin iv) := congrArg (pf 3 : S50.Idx → BitVec 32) (tbl50_emb2 i iv hi _ _)
  unfold cc2_transform_1
  dsimp only
  rw [e2, e3]
  rfl

/-! ## The arrays the region reads, the table words, the gate -/

section Region2

variable (a : (p : Fin 13) → (pcfgs (F := Ideal) p).Adm)
variable (V : (c : Dev nD) → (b : Ref sig .tc) → Buf (Elt Ideal) ((c : Thread nD τ).loc b))

/-- The sorted column words (one row of 629760 = 123 * 5120 words), -/
abbrev colA2 (c : Dev nD) : S1x629760.Idx → BitVec 32 := V c main_v113
/-- the edge payload rows, -/
abbrev scaledA2 (c : Dev nD) : S629760x128.Idx → Elt Ideal .f32 := V c main_v119
/-- the node features, -/
abbrev h0A2 (c : Dev nD) : S100000x128.Idx → Elt Ideal .f32 := V c main_v6
/-- the root weight, -/
abbrev rwA2 (c : Dev nD) : S128x128.Idx → Elt Ideal .f32 := V c main_v121
/-- and the bias row, as the region finds them. -/
abbrev bA2 (c : Dev nD) : S1x128.Idx → Elt Ideal .f32 := V c main_v124

/-- The four prefetched tables at the admissible contents: per edge block the least and the greatest node block of its
    column words, per node block the first and the last edge block that may hold it. -/
abbrev loT2 : S123.Idx → BitVec 32 := (a 2).1 0
abbrev hiT2 : S123.Idx → BitVec 32 := (a 2).1 1
abbrev eloT2 : S50.Idx → BitVec 32 := (a 2).1 2
abbrev ehiT2 : S50.Idx → BitVec 32 := (a 2).1 3

/-- THE GATE of tile (i, j), on the table words: lo j ≤ i ≤ hi j, signed. -/
abbrev gate2 (i : ℕ) (j : Fin 123) : Prop :=
  (loT2 a (Shape.Idx.ofFin j)).toInt ≤ (i : ℤ) ∧ (i : ℤ) ≤ (hiT2 a (Shape.Idx.ofFin j)).toInt

/-- Position k of edge block j among the 629760 edge positions. -/
def ePos2 (j : Fin 123) (k : Fin 5120) : Fin 629760 := ⟨j.val * 5120 + k.val, by have := j.isLt; have := k.isLt; omega⟩

theorem ePos2_val (j : Fin 123) (k : Fin 5120) : (ePos2 j k).val = j.val * 5120 + k.val := rfl

/-- What edge block j adds to entry (n, f): the payload rows of the block's positions whose column word is n. -/
def scatTerm2 (c : Dev nD) (n : ℕ) (f : Fin 128) (j : Fin 123) : EReal :=
  ∑ k : Fin 5120, (if (colA2 V c (ValueIdx.ix2 (0 : Fin 1) (ePos2 j k))).toNat = n then (1 : EReal) else 0)
    * scaledA2 V c (ValueIdx.ix2 (ePos2 j k) f)

/-- Entry (n, f) of the result: max (S + (h0 . root_w) (n, f) + bias f) 0, with S the sum over the edge blocks j the
    gate admits for node block n / 2000 of that block's contribution. -/
def scatE2 (c : Dev nD) (n : Fin 100000) (f : Fin 128) : EReal :=
  max ((∑ j : Fin 123, if gate2 a (n.val / 2000) j then scatTerm2 V c n.val f j else 0)
      + ∑ k : Fin 128, h0A2 V c (ValueIdx.ix2 n k) * rwA2 V c (ValueIdx.ix2 k f)
      + bA2 V c (ValueIdx.ix2 (0 : Fin 1) f)) 0

/-- WHAT THE RESULT ARRAY ENDS HOLDING. -/
def scatG2 (c : Dev nD) : S100000x128.Idx → Elt Ideal .f32 := fun x =>
  scatE2 a V c ⟨(x 0).val, (x 0).isLt⟩ ⟨(x 1).val, (x 1).isLt⟩

/-- On every tile the gate admits, the clamped block index of the two edge windows is the edge block itself. -/
def Hclamp2 : Prop := ∀ (i : Fin 50) (j : Fin 123), gate2 a i.val j →
  (Scalar.minsi (Scalar.maxsi (BitVec.ofNat 32 j.val) (eloT2 a (Shape.Idx.ofFin i))) (ehiT2 a (Shape.Idx.ofFin i))).toNat = j.val

/-! ## The grid's coordinates and the windows' block indices at a point -/

theorem N2_val : (cfgM2 a).N = 6150 := N_2

theorem vcoord2_0 (n : ℕ) (hn : n < (cfgM2 a).N) (i : Fin 50) (hi : n / 123 = i.val) : (grid2.coords (⟨n, hn⟩ : Fin (cfgM2 a).N) 0).val = i.val := by
  have hN : (cfgM2 a).N = 6150 := N_2
  have e := coords2_0 (⟨n, hn⟩ : Fin grid2.N)
  have e' : (grid2.coords (⟨n, hn⟩ : Fin (cfgM2 a).N) 0).val = n / 123 % 50 := e
  rw [e']; omega
theorem vcoord2_1 (n : ℕ) (hn : n < (cfgM2 a).N) (j : Fin 123) (hj : n % 123 = j.val) : (grid2.coords (⟨n, hn⟩ : Fin (cfgM2 a).N) 1).val = j.val := by
  have e : (grid2.coords (⟨n, hn⟩ : Fin (cfgM2 a).N) 1).val = n % 123 := coords2_1 (⟨n, hn⟩ : Fin grid2.N)
  rw [e, hj]

theorem vindex2_0 (t : Fin (cfgM2 a).N) : ((cfgM2 a).win 0).index t = cc2_transform_0 k2_off1_inb numel1_S1 (a 2).1 (grid2.coords t) := rfl
theorem vindex2_1 (t : Fin (cfgM2 a).N) : ((cfgM2 a).win 1).index t = cc2_transform_1 k2_off1_inb numel1_S1 (a 2).1 (grid2.coords t) := rfl
theorem vindex2_2 (t : Fin (cfgM2 a).N) : ((cfgM2 a).win 2).index t = ![(BitVec.ofNat 32 (grid2.coords t 0).val).toNat, 0] := rfl
theorem vindex2_3 (t : Fin (cfgM2 a).N) : ((cfgM2 a).win 3).index t = ![0, 0] := rfl
theorem vindex2_4 (t : Fin (cfgM2 a).N) : ((cfgM2 a).win 4).index t = ![0, 0] := rfl
theorem vindex2_5 (t : Fin (cfgM2 a).N) : ((cfgM2 a).win 5).index t = ![(BitVec.ofNat 32 (grid2.coords t 0).val).toNat, 0] := rfl

/-- On an admitted tile (i, j) the column window's block is (0, j) -/
theorem vindex2_0_of_gate (hc : Hclamp2 a) (n : ℕ) (hn : n < (cfgM2 a).N) (i : Fin 50) (j : Fin 123) (hi : n / 123 = i.val) (hj : n % 123 = j.val)
    (hg : gate2 a i.val j) : ((cfgM2 a).win 0).index ⟨n, hn⟩ = ![0, j.val] := by
  rw [vindex2_0, cc2_transform_0_eq (a 2).1 (grid2.coords ⟨n, hn⟩) i (vcoord2_0 a n hn i hi), vcoord2_1 a n hn j hj]
  exact congrArg (fun x => ![0, x]) (hc i j hg)
/-- and the payload window's block is (j, 0). -/
theorem vindex2_1_of_gate (hc : Hclamp2 a) (n : ℕ) (hn : n < (cfgM2 a).N) (i : Fin 50) (j : Fin 123) (hi : n / 123 = i.val) (hj : n % 123 = j.val)
    (hg : gate2 a i.val j) : ((cfgM2 a).win 1).index ⟨n, hn⟩ = ![j.val, 0] := by
  rw [vindex2_1, cc2_transform_1_eq (a 2).1 (grid2.coords ⟨n, hn⟩) i (vcoord2_0 a n hn i hi), vcoord2_1 a n hn j hj]
  exact congrArg (fun x => ![x, 0]) (hc i j hg)

/-! ## The input blocks at a point, as vectors of their literal types, read off the arrays -/

abbrev cblk2 (c : Dev nD) (t : Fin (cfgM2 a).N) : Vec Ideal S1x5120 .i32 := iblk2 a V c 0 t
abbrev sblk2 (c : Dev nD) (t : Fin (cfgM2 a).N) : Vec Ideal S5120x128 .f32 := iblk2 a V c 1 t
abbrev hblk2 (c : Dev nD) (t : Fin (cfgM2 a).N) : Vec Ideal S2000x128 .f32 := iblk2 a V c 2 t
abbrev wblk2 (c : Dev nD) (t : Fin (cfgM2 a).N) : Vec Ideal S128x128 .f32 := iblk2 a V c 3 t
abbrev bblk2 (c : Dev nD) (t : Fin (cfgM2 a).N) : Vec Ideal S1x128 .f32 := iblk2 a V c 4 t

theorem cblk2_apply (c : Dev nD) (t : Fin (cfgM2 a).N) (j : Fin 123) (hidx : ((cfgM2 a).win 0).index t = ![0, j.val]) (k : Fin 5120) :
    cblk2 a V c t (ValueIdx.ix2 (0 : Fin 1) k) = colA2 V c (ValueIdx.ix2 (0 : Fin 1) (ePos2 j k)) := by
  have h0 : ((cfgM2 a).win 0).index t (0 : Fin 2) = 0 := congrFun hidx (0 : Fin 2)
  have h1 : ((cfgM2 a).win 0).index t (1 : Fin 2) = j.val := congrFun hidx (1 : Fin 2)
  show V c main_v113 ((((cfgM2 a).win 0).blk t).view.emb (ValueIdx.ix2 (0 : Fin 1) k)) = V c main_v113 (ValueIdx.ix2 (0 : Fin 1) (ePos2 j k))
  refine congrArg (V c main_v113) (funext fun x => Fin.ext ?_)
  match x with
  | ⟨0, _⟩ => show ((cfgM2 a).win 0).index t (0 : Fin 2) * 1 + 1 * 0 = 0; omega
  | ⟨1, _⟩ => show ((cfgM2 a).win 0).index t (1 : Fin 2) * 5120 + 1 * k.val = j.val * 5120 + k.val; omega

theorem sblk2_apply (c : Dev nD) (t : Fin (cfgM2 a).N) (j : Fin 123) (hidx : ((cfgM2 a).win 1).index t = ![j.val, 0]) (k : Fin 5120) (f : Fin 128) :
    sblk2 a V c t (ValueIdx.ix2 k f) = scaledA2 V c (ValueIdx.ix2 (ePos2 j k) f) := by
  have h0 : ((cfgM2 a).win 1).index t (0 : Fin 2) = j.val := congrFun hidx (0 : Fin 2)
  have h1 : ((cfgM2 a).win 1).index t (1 : Fin 2) = 0 := congrFun hidx (1 : Fin 2)
  show V c main_v119 ((((cfgM2 a).win 1).blk t).view.emb (ValueIdx.ix2 k f)) = V c main_v119 (ValueIdx.ix2 (ePos2 j k) f)
  refine congrArg (V c main_v119) (funext fun x => Fin.ext ?_)
  match x with
  | ⟨0, _⟩ => show ((cfgM2 a).win 1).index t (0 : Fin 2) * 5120 + 1 * k.val = j.val * 5120 + k.val; omega
  | ⟨1, _⟩ => show ((cfgM2 a).win 1).index t (1 : Fin 2) * 128 + 1 * f.val = f.val; omega

theorem hblk2_apply (c : Dev nD) (n : ℕ) (hn : n < (cfgM2 a).N) (i : Fin 50) (hi : n / 123 = i.val) (r : Fin 2000) (k : Fin 128)
    (hlt : i.val * 2000 + r.val < 100000) :
    hblk2 a V c ⟨n, hn⟩ (ValueIdx.ix2 r k) = h0A2 V c (ValueIdx.ix2 (⟨i.val * 2000 + r.val, hlt⟩ : Fin 100000) k) := by
  have hidx := vindex2_2 a ⟨n, hn⟩
  rw [vcoord2_0 a n hn i hi, vs2_toNat_ofNat_lt50 i] at hidx
  have h0 : ((cfgM2 a).win 2).index ⟨n, hn⟩ (0 : Fin 2) = i.val := congrFun hidx (0 : Fin 2)
  have h1 : ((cfgM2 a).win 2).index ⟨n, hn⟩ (1 : Fin 2) = 0 := congrFun hidx (1 : Fin 2)
  show V c main_v6 ((((cfgM2 a).win 2).blk ⟨n, hn⟩).view.emb (ValueIdx.ix2 r k)) = V c main_v6 (ValueIdx.ix2 (⟨i.val * 2000 + r.val, hlt⟩ : Fin 100000) k)
  refine congrArg (V c main_v6) (funext fun x => Fin.ext ?_)
  match x with
  | ⟨0, _⟩ => show ((cfgM2 a).win 2).index ⟨n, hn⟩ (0 : Fin 2) * 2000 + 1 * r.val = i.val * 2000 + r.val; omega
  | ⟨1, _⟩ => show ((cfgM2 a).win 2).index ⟨n, hn⟩ (1 : Fin 2) * 128 + 1 * k.val = k.val; omega

theorem wblk2_apply (c : Dev nD) (t : Fin (cfgM2 a).N) (k : Fin 128) (f : Fin 128) :
    wblk2 a V c t (ValueIdx.ix2 k f) = rwA2 V c (ValueIdx.ix2 k f) := by
  have hidx := vindex2_3 a t
  have h0 : ((cfgM2 a).win 3).index t (0 : Fin 2) = 0 := congrFun hidx (0 : Fin 2)
  have h1 : ((cfgM2 a).win 3).index t (1 : Fin 2) = 0 := congrFun hidx (1 : Fin 2)
  show V c main_v121 ((((cfgM2 a).win 3).blk t).view.emb (ValueIdx.ix2 k f)) = V c main_v121 (ValueIdx.ix2 k f)
  refine congrArg (V c main_v121) (funext fun x => Fin.ext ?_)
  match x with
  | ⟨0, _⟩ => show ((cfgM2 a).win 3).index t (0 : Fin 2) * 128 + 1 * k.val = k.val; omega
  | ⟨1, _⟩ => show ((cfgM2 a).win 3).index t (1 : Fin 2) * 128 + 1 * f.val = f.val; omega

theorem bblk2_apply (c : Dev nD) (t : Fin (cfgM2 a).N) (f : Fin 128) :
    bblk2 a V c t (ValueIdx.ix2 (0 : Fin 1) f) = bA2 V c (ValueIdx.ix2 (0 : Fin 1) f) := by
  have hidx := vindex2_4 a t
  have h0 : ((cfgM2 a).win 4).index t (0 : Fin 2) = 0 := congrFun hidx (0 : Fin 2)
  have h1 : ((cfgM2 a).win 4).index t (1 : Fin 2) = 0 := congrFun hidx (1 : Fin 2)
  show V c main_v124 ((((cfgM2 a).win 4).blk t).view.emb (ValueIdx.ix2 (0 : Fin 1) f)) = V c main_v124 (ValueIdx.ix2 (0 : Fin 1) f)
  refine congrArg (V c main_v124) (funext fun x => Fin.ext ?_)
  match x with
  | ⟨0, _⟩ => show ((cfgM2 a).win 4).index t (0 : Fin 2) * 1 + 1 * 0 = 0; omega
  | ⟨1, _⟩ => show ((cfgM2 a).win 4).index t (1 : Fin 2) * 128 + 1 * f.val = f.val; omega

/-! ## One point's step of the accumulator at an entry -/

/-- A column word is the node 2000 i + r computed in 32-bit words exactly when it is that number. -/
theorem vs2_word_eq_node (w : BitVec 32) (i r : ℕ) (h : i * 2000 + r < 2 ^ 32) :
    (w = BitVec.ofNat 32 i * 2000#32 + BitVec.ofNat 32 r) ↔ w.toNat = i * 2000 + r := by
  rw [← Cert.Math.toNat_ofNat_mul_add i 2000 r h]
  exact ⟨fun e => congrArg BitVec.toNat e, fun e => BitVec.eq_of_toNat_eq e⟩

/-- The step over VARIABLES of the blocks' literal types: zeroed where the second coordinate is 0, the one-hot product
    added where the words bracket the first. -/
theorem acc2_apply (i : grid2.Coords) (wlo whi : BitVec 32) (x0 : Vec Ideal S1x5120 .i32) (x1 : Vec Ideal S5120x128 .f32)
    (xs : Vec Ideal S2000x128 .f32) (r : Fin 2000) (f : Fin 128) :
    acc2 (F := Ideal) i wlo whi x0 x1 xs (ValueIdx.ix2 r f)
      = (if (i 1).val = 0 then (0 : EReal) else xs (ValueIdx.ix2 r f))
        + if (wlo.toInt ≤ ((i 0).val : ℤ) ∧ ((i 0).val : ℤ) ≤ whi.toInt) then
            ∑ k : Fin 5120, (if x0 (ValueIdx.ix2 (0 : Fin 1) k) = BitVec.ofNat 32 (i 0).val * 2000#32 + BitVec.ofNat 32 r.val then (1 : EReal) else 0)
              * x1 (ValueIdx.ix2 k f)
          else 0 := by
  have hbase : (if cond2_1 i then (k2_pay1 (F := Ideal) : Vec Ideal S2000x128 .f32) else xs) (ValueIdx.ix2 r f)
      = if (i 1).val = 0 then (0 : EReal) else xs (ValueIdx.ix2 r f) := by
    by_cases h : (i 1).val = 0
    · rw [if_pos ((cond2_1_iff i).mpr h), if_pos h]; exact k2_pay1_apply _
    · rw [if_neg (fun h' => h ((cond2_1_iff i).mp h')), if_neg h]
  unfold acc2
  by_cases hg : (wlo.toInt ≤ ((i 0).val : ℤ) ∧ ((i 0).val : ℤ) ≤ whi.toInt)
  · rw [if_pos ((vcond2_2_iff i wlo whi).mpr hg), if_pos hg]
    refine (k2_pay2_apply i x0 x1 _ r f).trans ?_
    rw [hbase]
  · rw [if_neg (fun h' => hg ((vcond2_2_iff i wlo whi).mp h')), if_neg hg, add_zero]
    exact hbase

/-- THE STEP AT A POINT (i, j) of the grid, under the clamp hypothesis: the entry (r, f) of the accumulator is zeroed
    first where j = 0, then edge block j's contribution to node 2000 i + r is added where the gate admits (i, j). -/
theorem accStep2_apply (hc : Hclamp2 a) (c : Dev nD) (n : ℕ) (hn : n < (cfgM2 a).N) (i : Fin 50) (j : Fin 123)
    (hi : n / 123 = i.val) (hj : n % 123 = j.val) (xs : Vec Ideal S2000x128 .f32) (r : Fin 2000) (f : Fin 128) :
    accStep2 a V c ⟨n, hn⟩ xs (ValueIdx.ix2 r f)
      = (if j.val = 0 then (0 : EReal) else xs (ValueIdx.ix2 r f))
        + if gate2 a i.val j then scatTerm2 V c (i.val * 2000 + r.val) f j else 0 := by
  have hstep := acc2_apply (grid2.coords (⟨n, hn⟩ : Fin (cfgM2 a).N)) (wd2_0 c (grid2.coords (⟨n, hn⟩ : Fin (cfgM2 a).N)) ((a 2).1 0))
    (wd2_1 c (grid2.coords (⟨n, hn⟩ : Fin (cfgM2 a).N)) ((a 2).1 1)) (cblk2 a V c ⟨n, hn⟩) (sblk2 a V c ⟨n, hn⟩) xs r f
  refine hstep.trans ?_
  rw [vwd2_0_eq c (grid2.coords (⟨n, hn⟩ : Fin (cfgM2 a).N)) ((a 2).1 0) j (vcoord2_1 a n hn j hj), vwd2_1_eq c (grid2.coords (⟨n, hn⟩ : Fin (cfgM2 a).N)) ((a 2).1 1) j (vcoord2_1 a n hn j hj), vcoord2_0 a n hn i hi, vcoord2_1 a n hn j hj]
  by_cases hg : gate2 a i.val j
  · rw [if_pos hg, if_pos hg]
    refine congrArg (_ + ·) (Finset.sum_congr rfl fun k _ => ?_)
    rw [cblk2_apply a V c ⟨n, hn⟩ j (vindex2_0_of_gate a hc n hn i j hi hj hg) k,
      sblk2_apply a V c ⟨n, hn⟩ j (vindex2_1_of_gate a hc n hn i j hi hj hg) k f]
    refine congrArg (· * _) ?_
    have hlt : i.val * 2000 + r.val < 2 ^ 32 := by have := i.isLt; have := r.isLt; omega
    by_cases hw : (colA2 V c (ValueIdx.ix2 (0 : Fin 1) (ePos2 j k))).toNat = i.val * 2000 + r.val
    · rw [if_pos ((vs2_word_eq_node _ _ _ hlt).mpr hw), if_pos hw]
    · rw [if_neg (fun h' => hw ((vs2_word_eq_node _ _ _ hlt).mp h')), if_neg hw]
  · rw [if_neg hg, if_neg hg]

/-! ## The accumulator along a row block's run of points -/

/-- Edge block j's admitted contribution to entry (2000 i + r, f), for a bare natural j (0 past the 123 blocks). -/
def gT2 (c : Dev nD) (i : Fin 50) (r : Fin 2000) (f : Fin 128) (j : ℕ) : EReal :=
  if h : j < 123 then (if gate2 a i.val ⟨j, h⟩ then scatTerm2 V c (i.val * 2000 + r.val) f ⟨j, h⟩ else 0) else 0

theorem accAt2_eq_step (c : Dev nD) (n : ℕ) (hn : n < (cfgM2 a).N) : ∃ xs, accAt2 a V c n hn = accStep2 a V c ⟨n, hn⟩ xs := by
  cases n with
  | zero => exact ⟨_, rfl⟩
  | succ m => exact ⟨_, rfl⟩

/-- THE ACCUMULATION: after tile (i, j) the accumulator's entry (r, f) is the sum of the admitted contributions of edge
    blocks 0 … j to node 2000 i + r. By induction on j; the tile j = 0 zeroes what the row block before left. -/
theorem accAt2_run (hc : Hclamp2 a) (c : Dev nD) (i : Fin 50) (r : Fin 2000) (f : Fin 128) :
    ∀ (j : ℕ) (hj : j < 123) (h : i.val * 123 + j < (cfgM2 a).N),
      accAt2 a V c (i.val * 123 + j) h (ValueIdx.ix2 r f) = ∑ j' ∈ Finset.range (j + 1), gT2 a V c i r f j'
  | 0, hj, h => by
    obtain ⟨xs, e⟩ := accAt2_eq_step a V c (i.val * 123 + 0) h
    rw [e, accStep2_apply a V hc c (i.val * 123 + 0) h i ⟨0, hj⟩ (by omega) (by show (i.val * 123 + 0) % 123 = 0; omega) xs r f,
      if_pos rfl, zero_add, Finset.sum_range_one]
    unfold gT2
    rw [dif_pos hj]
  | j + 1, hj, h => by
    have ih := accAt2_run hc c i r f j (by omega) (by omega)
    show accAt2 a V c ((i.val * 123 + j) + 1) h (ValueIdx.ix2 r f) = _
    rw [accAt2_succ, accStep2_apply a V hc c ((i.val * 123 + j) + 1) h i ⟨j + 1, hj⟩ (by omega) (by show (i.val * 123 + j + 1) % 123 = j + 1; omega) _ r f,
      if_neg (Nat.succ_ne_zero j), ih, Finset.sum_range_succ _ (j + 1)]
    refine congrArg (_ + ·) ?_
    unfold gT2
    rw [dif_pos hj]

/-- At the row block's last tile: the sum over the 123 edge blocks. -/
theorem accAt2_last (hc : Hclamp2 a) (c : Dev nD) (i : Fin 50) (r : Fin 2000) (f : Fin 128) (h : i.val * 123 + 122 < (cfgM2 a).N) :
    accAt2 a V c (i.val * 123 + 122) h (ValueIdx.ix2 r f)
      = ∑ j : Fin 123, if gate2 a i.val j then scatTerm2 V c (i.val * 2000 + r.val) f j else 0 := by
  rw [accAt2_run a V hc c i r f 122 (by omega) h, Finset.sum_range]
  refine Finset.sum_congr rfl fun j _ => ?_
  unfold gT2
  rw [dif_pos j.isLt]

/-! ## The output block at the storing tile, the write-back schedule, the cover -/

/-- The result window is written back exactly at the last tile of each row block, at any contents of the tables. -/
theorem vflush2_5 : ∀ t : Fin (cfgM2 a).N, ((cfgM2 a).win 5).flush t = decide (t.val % 123 = 122) :=
  (by decide +kernel : ∀ t : Fin grid2.N, Pipeline.Window.flushOf grid2 true cc2_transform_5 t = decide (t.val % 123 = 122))

/-- The array's contents at an index whose coordinates are known. -/
theorem scatG2_at (c : Dev nD) (E : S100000x128.Idx) (n : Fin 100000) (f : Fin 128) (h0 : (E 0).val = n.val) (h1 : (E 1).val = f.val) :
    scatG2 a V c E = scatE2 a V c n f := by
  have e0 : (⟨(E 0).val, (E 0).isLt⟩ : Fin 100000) = n := Fin.ext h0
  have e1 : (⟨(E 1).val, (E 1).isLt⟩ : Fin 128) = f := Fin.ext h1
  show scatE2 a V c ⟨(E 0).val, (E 0).isLt⟩ ⟨(E 1).val, (E 1).isLt⟩ = _
  rw [e0, e1]

/-- WHAT A STORING TILE WRITES BACK is its row block of the array `scatG2`. -/
theorem vflushed2_5_eq (hc : Hclamp2 a) (c : Dev nD) (t : Fin (cfgM2 a).N) (hf : ((cfgM2 a).win 5).flush t = true) :
    (dat2 a V c).flushed 5 t = (((cfgM2 a).win 5).blk t).view.read (Elt Ideal) (scatG2 a V c) := by
  rw [vflush2_5, decide_eq_true_eq] at hf
  have hN : (cfgM2 a).N = 6150 := N_2
  obtain ⟨n, hn⟩ := t
  obtain ⟨i, rfl⟩ : ∃ i : Fin 50, n = i.val * 123 + 122 := ⟨⟨n / 123, by omega⟩, by show n = n / 123 * 123 + 122; have : n % 123 = 122 := hf; omega⟩
  show ((cfgM2 a).win 5).cut (grid2.coords ⟨i.val * 123 + 122, hn⟩) ((dat2 a V c).after 5 ⟨i.val * 123 + 122, hn⟩) = _
  rw [after2_5]
  funext y
  obtain ⟨r, f, rfl⟩ : ∃ (r : Fin 2000) (f : Fin 128), y = ValueIdx.ix2 r f :=
    ⟨⟨(y (0 : Fin 2)).val, (y (0 : Fin 2)).isLt⟩, ⟨(y (1 : Fin 2)).val, (y (1 : Fin 2)).isLt⟩, funext fun x => by match x with | ⟨0, _⟩ => rfl | ⟨1, _⟩ => rfl⟩
  have hlt : i.val * 2000 + r.val < 100000 := by have := i.isLt; have := r.isLt; omega
  have hi : (i.val * 123 + 122) / 123 = i.val := by omega
  have hidx := vindex2_5 a ⟨i.val * 123 + 122, hn⟩
  rw [vcoord2_0 a _ hn i hi, vs2_toNat_ofNat_lt50 i] at hidx
  have h0 : ((cfgM2 a).win 5).index ⟨i.val * 123 + 122, hn⟩ (0 : Fin 2) = i.val := congrFun hidx (0 : Fin 2)
  have h1 : ((cfgM2 a).win 5).index ⟨i.val * 123 + 122, hn⟩ (1 : Fin 2) = 0 := congrFun hidx (1 : Fin 2)
  show k2_pay3 (F := Ideal) (hblk2 a V c ⟨i.val * 123 + 122, hn⟩) (wblk2 a V c ⟨i.val * 123 + 122, hn⟩) (accAt2 a V c (i.val * 123 + 122) hn) (bblk2 a V c ⟨i.val * 123 + 122, hn⟩) (ValueIdx.ix2 r f)
    = scatG2 a V c ((((cfgM2 a).win 5).blk ⟨i.val * 123 + 122, hn⟩).view.emb (ValueIdx.ix2 r f))
  have ex0 : ((((cfgM2 a).win 5).blk ⟨i.val * 123 + 122, hn⟩).view.emb (ValueIdx.ix2 r f) (0 : Fin 2)).val = i.val * 2000 + r.val := by
    show ((cfgM2 a).win 5).index ⟨i.val * 123 + 122, hn⟩ (0 : Fin 2) * 2000 + 1 * r.val = _; omega
  have ex1 : ((((cfgM2 a).win 5).blk ⟨i.val * 123 + 122, hn⟩).view.emb (ValueIdx.ix2 r f) (1 : Fin 2)).val = f.val := by
    show ((cfgM2 a).win 5).index ⟨i.val * 123 + 122, hn⟩ (1 : Fin 2) * 128 + 1 * f.val = _; omega
  refine Eq.trans ?_ (scatG2_at a V c _ ⟨i.val * 2000 + r.val, hlt⟩ f ex0 ex1).symm
  refine (k2_pay3_apply (hblk2 a V c ⟨i.val * 123 + 122, hn⟩) (wblk2 a V c ⟨i.val * 123 + 122, hn⟩) (accAt2 a V c (i.val * 123 + 122) hn) (bblk2 a V c ⟨i.val * 123 + 122, hn⟩) r f).trans ?_
  have hsum : ∑ k : Fin 128, hblk2 a V c ⟨i.val * 123 + 122, hn⟩ (ValueIdx.ix2 r k) * wblk2 a V c ⟨i.val * 123 + 122, hn⟩ (ValueIdx.ix2 k f)
      = ∑ k : Fin 128, h0A2 V c (ValueIdx.ix2 (⟨i.val * 2000 + r.val, hlt⟩ : Fin 100000) k) * rwA2 V c (ValueIdx.ix2 k f) :=
    Finset.sum_congr rfl fun k _ => by rw [hblk2_apply a V c _ hn i hi r k hlt, wblk2_apply a V c _ k f]
  have hdiv : (i.val * 2000 + r.val) / 2000 = i.val := by have := r.isLt; omega
  rw [hsum, bblk2_apply a V c _ f, accAt2_last a V hc c i r f hn]
  unfold scatE2
  dsimp only
  rw [hdiv]

/-- An index of the result array is in a point's block iff each coordinate is in the block's range on its axis. -/
theorem vmem_blk2_5 (t : Fin (cfgM2 a).N) (x : S100000x128.Idx) :
    x ∈ (((cfgM2 a).win 5).blk t).view.set ↔ ∀ ax : Fin 2, ((cfgM2 a).win 5).index t ax * S2000x128.size ax ≤ (x ax).val
      ∧ (x ax).val < ((cfgM2 a).win 5).index t ax * S2000x128.size ax + S2000x128.size ax := by
  show x ∈ ((View.whole main_v125).slice (((cfgM2 a).win 5).rect t)).set ↔ _
  refine (Eq.to_iff (congrArg (x ∈ ·) (View.set_slice_whole main_v125 (((cfgM2 a).win 5).rect t)))).trans ?_
  exact Rect.mem_set_unit

/-- THE ROW BLOCKS TILE THE ARRAY: row n is in the block the last tile of row block n / 2000 writes back. -/
theorem vcover2_5 (x : S100000x128.Idx) :
    ∃ t : Fin (cfgM2 a).N, ((cfgM2 a).win 5).flush t = true ∧ x ∈ (((cfgM2 a).win 5).blk t).view.set := by
  have hx0 : (x 0).val < 100000 := (x 0).isLt
  have hx1 : (x 1).val < 128 := (x 1).isLt
  have hN : (cfgM2 a).N = 6150 := N_2
  have hn : (x 0).val / 2000 * 123 + 122 < (cfgM2 a).N := by rw [hN]; omega
  have hi50 : (x 0).val / 2000 < 50 := by omega
  refine ⟨⟨(x 0).val / 2000 * 123 + 122, hn⟩, ?_, ?_⟩
  · rw [vflush2_5, decide_eq_true_eq]; show ((x 0).val / 2000 * 123 + 122) % 123 = 122; omega
  · rw [vmem_blk2_5]
    have hidx := vindex2_5 a ⟨(x 0).val / 2000 * 123 + 122, hn⟩
    rw [vcoord2_0 a _ hn ⟨(x 0).val / 2000, hi50⟩ (by show ((x 0).val / 2000 * 123 + 122) / 123 = (x 0).val / 2000; omega),
      vs2_toNat_ofNat_lt50 ⟨(x 0).val / 2000, hi50⟩] at hidx
    have h0 : ((cfgM2 a).win 5).index ⟨(x 0).val / 2000 * 123 + 122, hn⟩ (0 : Fin 2) = (x 0).val / 2000 := congrFun hidx (0 : Fin 2)
    have h1 : ((cfgM2 a).win 5).index ⟨(x 0).val / 2000 * 123 + 122, hn⟩ (1 : Fin 2) = 0 := congrFun hidx (1 : Fin 2)
    intro ax
    match ax with
    | ⟨0, _⟩ =>
      show ((cfgM2 a).win 5).index ⟨(x 0).val / 2000 * 123 + 122, hn⟩ (0 : Fin 2) * 2000 ≤ (x 0).val
        ∧ (x 0).val < ((cfgM2 a).win 5).index ⟨(x 0).val / 2000 * 123 + 122, hn⟩ (0 : Fin 2) * 2000 + 2000
      omega
    | ⟨1, _⟩ =>
      show ((cfgM2 a).win 5).index ⟨(x 0).val / 2000 * 123 + 122, hn⟩ (1 : Fin 2) * 128 ≤ (x 1).val
        ∧ (x 1).val < ((cfgM2 a).win 5).index ⟨(x 0).val / 2000 * 123 + 122, hn⟩ (1 : Fin 2) * 128 + 128
      omega

/-! ## The result array -/

/-- THE RESULT ARRAY after the region, under the clamp hypothesis. -/
theorem arr2_5 (c : Dev nD) (hc : Hclamp2 a) : (dat2 a V c).arrAt 5 (cfgM2 a).N = scatG2 a V c :=
  (dat2 a V c).arrAt_eq_of_cover 5 (scatG2 a V c) (fun t hf => vflushed2_5_eq a V hc c t hf) (vcover2_5 a)

/-- Index by index: entry (n, f) is max (sum over the admitted edge blocks j and their positions k of
    [col (j, k) = n] * scaled (j, k, f), plus the sum over k of h0 (n, k) * root_w (k, f), plus bias f) 0. -/
theorem arr2_5_apply (c : Dev nD) (hc : Hclamp2 a) (n : Fin 100000) (f : Fin 128) :
    (dat2 a V c).arrAt 5 (cfgM2 a).N (ValueIdx.ix2 n f)
      = max ((∑ j : Fin 123, if gate2 a (n.val / 2000) j then scatTerm2 V c n.val f j else 0)
          + ∑ k : Fin 128, h0A2 V c (ValueIdx.ix2 n k) * rwA2 V c (ValueIdx.ix2 k f)
          + bA2 V c (ValueIdx.ix2 (0 : Fin 1) f)) 0 :=
  (congrFun (arr2_5 a V c hc) (ValueIdx.ix2 n f)).trans (scatG2_at a V c (ValueIdx.ix2 n f) n f rfl rfl)

/-! ## The flat form: the sum over all 629760 edge positions

When the gate admits every tile whose edge block holds a position with column word n (the table words bracket every
column word's node block), the refused blocks contribute nothing to node n and the gated sum over blocks is the sum
over all positions. -/

/-- Every column word below 100000 has its node block between its edge block's two table words. -/
def Hgate2 (c : Dev nD) : Prop := ∀ (j : Fin 123) (k : Fin 5120),
  (colA2 V c (ValueIdx.ix2 (0 : Fin 1) (ePos2 j k))).toNat < 100000 →
    gate2 a ((colA2 V c (ValueIdx.ix2 (0 : Fin 1) (ePos2 j k))).toNat / 2000) j

/-- A refused edge block holds no position whose column word is n. -/
theorem scatTerm2_eq_zero (c : Dev nD) (hg : Hgate2 a V c) (n : Fin 100000) (f : Fin 128) (j : Fin 123)
    (h : ¬ gate2 a (n.val / 2000) j) : scatTerm2 V c n.val f j = 0 := by
  unfold scatTerm2
  refine Finset.sum_eq_zero fun k _ => ?_
  have hne : (colA2 V c (ValueIdx.ix2 (0 : Fin 1) (ePos2 j k))).toNat ≠ n.val := fun e => h (by
    have h' := hg j k (by rw [e]; exact n.isLt)
    rwa [e] at h')
  rw [if_neg hne, zero_mul]

/-- The 123 blocks of 5120 positions are the 629760 positions. -/
theorem sum_blocks2 (F : Fin 629760 → EReal) : ∑ j : Fin 123, ∑ k : Fin 5120, F (ePos2 j k) = ∑ e : Fin 629760, F e := by
  have hE : ∀ x : Fin 123 × Fin 5120, (finProdFinEquiv x : Fin (123 * 5120)) = ePos2 x.1 x.2 := fun x =>
    Fin.ext (by rw [finProdFinEquiv_apply_val, ePos2_val]; omega)
  rw [← Fintype.sum_prod_type' (fun j k => F (ePos2 j k))]
  rw [← Equiv.sum_comp (finProdFinEquiv : Fin 123 × Fin 5120 ≃ Fin (123 * 5120)) F]
  exact Finset.sum_congr rfl fun x _ => by rw [hE x]

/-- The gated sum over edge blocks is the sum over all edge positions. -/
theorem sum_gated2_eq_flat (c : Dev nD) (hg : Hgate2 a V c) (n : Fin 100000) (f : Fin 128) :
    (∑ j : Fin 123, if gate2 a (n.val / 2000) j then scatTerm2 V c n.val f j else 0)
      = ∑ e : Fin 629760, (if (colA2 V c (ValueIdx.ix2 (0 : Fin 1) e)).toNat = n.val then (1 : EReal) else 0)
          * scaledA2 V c (ValueIdx.ix2 e f) := by
  have h1 : (∑ j : Fin 123, if gate2 a (n.val / 2000) j then scatTerm2 V c n.val f j else 0)
      = ∑ j : Fin 123, scatTerm2 V c n.val f j := Finset.sum_congr rfl fun j _ => by
    by_cases h : gate2 a (n.val / 2000) j
    · rw [if_pos h]
    · rw [if_neg h, scatTerm2_eq_zero a V c hg n f j h]
  rw [h1]
  unfold scatTerm2
  exact sum_blocks2 (fun e => (if (colA2 V c (ValueIdx.ix2 (0 : Fin 1) e)).toNat = n.val then (1 : EReal) else 0)
    * scaledA2 V c (ValueIdx.ix2 e f))

/-- THE RESULT ARRAY, index by index, in the flat form: entry (n, f) is
    max (sum over ALL edge positions e of [col e = n] * scaled (e, f), plus sum over k of h0 (n, k) * root_w (k, f), plus bias f) 0. -/
theorem arr2_5_flat (c : Dev nD) (hc : Hclamp2 a) (hg : Hgate2 a V c) (n : Fin 100000) (f : Fin 128) :
    (dat2 a V c).arrAt 5 (cfgM2 a).N (ValueIdx.ix2 n f)
      = max ((∑ e : Fin 629760, (if (colA2 V c (ValueIdx.ix2 (0 : Fin 1) e)).toNat = n.val then (1 : EReal) else 0)
                * scaledA2 V c (ValueIdx.ix2 e f))
          + ∑ k : Fin 128, h0A2 V c (ValueIdx.ix2 n k) * rwA2 V c (ValueIdx.ix2 k f)
          + bA2 V c (ValueIdx.ix2 (0 : Fin 1) f)) 0 := by
  rw [arr2_5_apply a V c hc n f, sum_gated2_eq_flat a V c hg n f]

end Region2

end Cert.KernelIdeal.Hand

end
-- ==== Proof.KI.ValAllScatter2.lean ====
/- Region 2 (the first scatter region) in the chain's form. Its result array, read in the valuation after the region, is
   the positive part of the gated one-hot sum over the edge blocks plus h0 times the root weight plus the bias, of the
   arrays as the valuation before the region holds them. The gate of tile (i, j) is the bracket lo j ≤ i ≤ hi j of the
   table words; the tables hold the words the host stretches before the first region leave, and on every tile the gate
   admits the clamped edge block min (max j (elo i)) (ehi i) is j itself. -/
import proofs.«415143_j42460046688958_3_alg».proof.Proof.KI.Assemble
import proofs.«415143_j42460046688958_3_alg».proof.Proof.KI.ValChain
import proofs.«415143_j42460046688958_3_alg».proof.Proof.KI.ValScatter2

noncomputable section

open scoped BigOperators

namespace Cert.KernelIdeal.Hand

open Cert.KernelIdeal Cert.KernelIdeal.Gen Idealize.ShloMosaic Idealize.ShloMosaic.TcCoe Idealize.SL.Sem

/-! ## Over any table contents: the region's value lemma at the chain's valuations -/

section AnyTables

variable (a : (p : Fin 13) → (pcfgs (F := Ideal) p).Adm) (m : (ℓ : Loc nD τ sig) → Buf (Elt Ideal) ℓ) (c : Dev nD)

/-- Region 2's value lemma over the chain's valuations, at any table contents on which the clamped edge block of an
    admitted tile is the block itself. -/
theorem scatterW2 (hc : Hclamp2 a) :
    ScatterVal (gate2 a) ePos2 (W36 a m c main_v113) (W36 a m c main_v119) (W36 a m c main_v6)
      (W36 a m c main_v121) (W36 a m c main_v124) (W37 a m c main_v125) := by
  intro n f
  have hout : (W37 a m c main_v125 : S100000x128.Idx → EReal)
      = (dat2 a (fun c b => W36 a m c b) c).arrAt (5 : Fin 6) (Pipeline.pin (pcfgs (F := Ideal)) a 2).N := by
    rw [W37_def]
    exact (Function.update_self _ _ _).trans (out2_def a m c)
  rw [hout]
  exact arr2_5_apply a (fun c b => W36 a m c b) c hc n f

end AnyTables

/-! ## At the program's tables -/

variable (m : (ℓ : Loc nD τ sig) → Buf (Elt Ideal) ℓ)

/-- The four table words of region 2 are the words the host stretches leave. -/
theorem loT2_all (x : S123.Idx) : loT2 (admAll (F := Ideal) m) x = (V33 m (0 : Dev nD) main_v81 : S123.Idx → BitVec 32) x := by
  show ((admAll (F := Ideal) m 2).1 0 : S123.Idx → BitVec 32) x = _
  rw [show admAll (F := Ideal) m 2 = adm2 m from rfl, adm2_val]
  rfl
theorem hiT2_all (x : S123.Idx) : hiT2 (admAll (F := Ideal) m) x = (V33 m (0 : Dev nD) main_v82 : S123.Idx → BitVec 32) x := by
  show ((admAll (F := Ideal) m 2).1 1 : S123.Idx → BitVec 32) x = _
  rw [show admAll (F := Ideal) m 2 = adm2 m from rfl, adm2_val]
  rfl
theorem eloT2_all (x : S50.Idx) : eloT2 (admAll (F := Ideal) m) x = (V33 m (0 : Dev nD) main_v110 : S50.Idx → BitVec 32) x := by
  show ((admAll (F := Ideal) m 2).1 2 : S50.Idx → BitVec 32) x = _
  rw [show admAll (F := Ideal) m 2 = adm2 m from rfl, adm2_val]
  rfl
theorem ehiT2_all (x : S50.Idx) : ehiT2 (admAll (F := Ideal) m) x = (V33 m (0 : Dev nD) main_v111 : S50.Idx → BitVec 32) x := by
  show ((admAll (F := Ideal) m 2).1 3 : S50.Idx → BitVec 32) x = _
  rw [show admAll (F := Ideal) m 2 = adm2 m from rfl, adm2_val]
  rfl

/-- Region 2's gate holds wherever its table words bracket the node block. -/
theorem gateS2_of (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) : gate2 (admAll m) i.val j := by
  obtain rfl : c = 0 := Subsingleton.elim _ _
  show (loT2 (admAll (F := Ideal) m) (Shape.Idx.ofFin j)).toInt ≤ (i.val : ℤ) ∧ (i.val : ℤ) ≤ (hiT2 (admAll (F := Ideal) m) (Shape.Idx.ofFin j)).toInt
  rw [loT2_all, hiT2_all]
  exact ⟨h1, h2⟩

/-- On every tile region 2's gate admits, the clamped edge block is the block itself. -/
theorem hclamp2 : Hclamp2 (admAll (F := Ideal) m) := by
  intro i j hg
  have hg' : (loT2 (admAll (F := Ideal) m) (Shape.Idx.ofFin j)).toInt ≤ (i.val : ℤ)
    ∧ (i.val : ℤ) ≤ (hiT2 (admAll (F := Ideal) m) (Shape.Idx.ofFin j)).toInt := hg
  rw [loT2_all, hiT2_all] at hg'
  obtain ⟨e1, e2⟩ := elo_ehi_of_gate m 0 i j hg'.1 hg'.2
  rw [eloT2_all, ehiT2_all]
  exact clamp_eq j.val _ _ e1 e2 (ehi_le m 0 _)

/-- Region 2's value lemma at the program's tables, in the valuations the run names. -/
theorem scatter0_val (c : Dev nD) :
    ScatterVal (gate2 (admAll m)) ePos2 (V36 m (outsAll m) c main_v113) (V36 m (outsAll m) c main_v119) (V36 m (outsAll m) c main_v6)
      (V36 m (outsAll m) c main_v121) (V36 m (outsAll m) c main_v124) (V37 m (outsAll m) c main_v125) := by
  rw [V36_eq (admAll m) m c, V37_eq (admAll m) m c]
  exact scatterW2 (admAll m) m c (hclamp2 m)

end Cert.KernelIdeal.Hand

end
-- ==== Proof.KI.ValScatter5.lean ====
/- The value of a scatter layer's region at the ideal instance. Tile (i, j) of the grid adds, into an accumulator of
   2000 rows carried along j, the product of a one-hot matrix (row r is hot at the positions k of edge block j whose
   column word is node 2000 i + r) with the block's 5120 payload rows; it does so only when the table words lo j, hi j
   bracket i, and on those tiles the clamped block index of the two edge windows is j itself. At the extended reals the
   format changes are the identity and a product into a zero accumulator is the plain sum, so after the last tile of
   row block i the accumulator's entry (r, f) is the sum, over the admitted edge blocks j and the positions k in them,
   of [col (j, k) = 2000 i + r] * scaled (j, k, f). The tile j = 122 then stores max (acc + h0 . root_w + bias) 0 to
   the result's row block i; the 50 row blocks tile the result array. -/
import proofs.«415143_j42460046688958_3_alg».proof.Proof.KI.Scatter5Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws
import Mathlib.Logic.Equiv.Fin.Basic
import Mathlib.Data.Fintype.BigOperators

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A `[a, 1]` array broadcast to `[a, b]` reads, at `(p, c)`, the operand's one column at `p`. -/
theorem vs5_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (r, f) and contraction index k read the one-hot at (r, k) and the payload at (k, f) -/

theorem lhs_hot5_0 (i : S2000x128.Idx) (q : dot_S2000x5120_S5120x128_S2000x128_1_0_0_1_n_n.contr.Idx) :
    (dot_S2000x5120_S5120x128_S2000x128_1_0_0_1_n_n.lhsIdx i q 0).val = (i 0).val := by
  unfold DotDims.lhsIdx
  rw [dif_neg (show ¬(0 : Fin S2000x5120.rank) ∈ dot_S2000x5120_S5120x128_S2000x128_1_0_0_1_n_n.lhsBatch by decide), dif_pos (show (0 : Fin S2000x5120.rank) ∈ dot_S2000x5120_S5120x128_S2000x128_1_0_0_1_n_n.lhsNonContracting by decide)]
  rfl
theorem lhs_hot5_1 (i : S2000x128.Idx) (q : dot_S2000x5120_S5120x128_S2000x128_1_0_0_1_n_n.contr.Idx) :
    (dot_S2000x5120_S5120x128_S2000x128_1_0_0_1_n_n.lhsIdx i q 1).val = (q ⟨0, by decide⟩).val :=
  dot_S2000x5120_S5120x128_S2000x128_1_0_0_1_n_n.lhsIdx_val_of_single rfl i q
theorem rhs_hot5_0 (i : S2000x128.Idx) (q : dot_S2000x5120_S5120x128_S2000x128_1_0_0_1_n_n.contr.Idx) :
    (dot_S2000x5120_S5120x128_S2000x128_1_0_0_1_n_n.rhsIdx i q 0).val = (q ⟨0, by decide⟩).val :=
  dot_S2000x5120_S5120x128_S2000x128_1_0_0_1_n_n.rhsIdx_val_of_single rfl i q
theorem rhs_hot5_1 (i : S2000x128.Idx) (q : dot_S2000x5120_S5120x128_S2000x128_1_0_0_1_n_n.contr.Idx) :
    (dot_S2000x5120_S5120x128_S2000x128_1_0_0_1_n_n.rhsIdx i q 1).val = (i 1).val := by
  unfold DotDims.rhsIdx
  rw [dif_neg (show ¬(1 : Fin S5120x128.rank) ∈ dot_S2000x5120_S5120x128_S2000x128_1_0_0_1_n_n.rhsBatch by decide), dif_pos (show (1 : Fin S5120x128.rank) ∈ dot_S2000x5120_S5120x128_S2000x128_1_0_0_1_n_n.rhsNonContracting by decide)]
  rfl

/-- The accumulator's zero payload reads 0 everywhere. -/
theorem k5_pay1_apply (x : S2000x128.Idx) : (k5_pay1 (F := Ideal)) x = 0 := by
  unfold k5_pay1
  rw [shapeCast_self]
  exact Ideal.ofBits_zero_f32

/-- THE ACCUMULATING PAYLOAD at (r, f): what was there plus the sum over the block's positions k of
    [column word k = 2000 i + r] * payload (k, f); the node number computed in 32-bit words. -/
theorem k5_pay5_apply (i : grid5.Coords) (x0 : Vec Ideal S1x5120 .i32) (x1 : Vec Ideal S5120x128 .f32) (xs : Vec Ideal S2000x128 .f32)
    (r : Fin 2000) (f : Fin 128) :
    k5_pay2 (F := Ideal) i x0 x1 xs (ValueIdx.ix2 r f)
      = xs (ValueIdx.ix2 r f) + ∑ k : Fin 5120,
          (if x0 (ValueIdx.ix2 (0 : Fin 1) k) = BitVec.ofNat 32 (i 0).val * 2000#32 + BitVec.ofNat 32 r.val then (1 : EReal) else 0)
            * x1 (ValueIdx.ix2 k f) := by
  unfold k5_pay2
  simp only [matmul]
  rw [shapeCast_self, ValueIdx.addf_apply]
  rw [Ideal.matmul_constant_zero_apply, ← Equiv.sum_comp (ValueIdx.contrEquiv1 dot_S2000x5120_S5120x128_S2000x128_1_0_0_1_n_n 5120 rfl rfl).symm]
  refine congrArg (xs (ValueIdx.ix2 r f) + ·) (Finset.sum_congr rfl fun k _ => ?_)
  have hk := ValueIdx.contrEquiv1_symm_val dot_S2000x5120_S5120x128_S2000x128_1_0_0_1_n_n 5120 rfl rfl k
  have el : dot_S2000x5120_S5120x128_S2000x128_1_0_0_1_n_n.lhsIdx (ValueIdx.ix2 r f) ((ValueIdx.contrEquiv1 dot_S2000x5120_S5120x128_S2000x128_1_0_0_1_n_n 5120 rfl rfl).symm k) = ValueIdx.ix2 r k := funext fun a => Fin.ext (by
    match a with
    | ⟨0, _⟩ => exact lhs_hot5_0 _ _
    | ⟨1, _⟩ => exact (lhs_hot5_1 _ _).trans hk)
  have er : dot_S2000x5120_S5120x128_S2000x128_1_0_0_1_n_n.rhsIdx (ValueIdx.ix2 r f) ((ValueIdx.contrEquiv1 dot_S2000x5120_S5120x128_S2000x128_1_0_0_1_n_n 5120 rfl rfl).symm k) = ValueIdx.ix2 k f := funext fun a => Fin.ext (by
    match a with
    | ⟨0, _⟩ => exact (rhs_hot5_0 _ _).trans hk
    | ⟨1, _⟩ => exact rhs_hot5_1 _ _)
  rw [el, er]
  refine congrArg₂ (· * ·) ?_ ?_
  · refine (Cert.Math.oneHot_payload_apply _ _ _ _ (ValueIdx.ix2 r k)).trans ?_
    have e21 : broadcastTo S2000x5120 (shapeCast S1x5120 x0 shapeCasts_S1x5120_S1x5120) broadcasts_S1x5120_S2000x5120 (ValueIdx.ix2 r k)
        = x0 (ValueIdx.ix2 (0 : Fin 1) k) := by
      rw [ValueIdx.broadcastTo_1b_ab_apply, shapeCast_self]
    have e22 : broadcastTo S2000x5120 (addi (broadcast S2000x1 (Scalar.muli (BitVec.ofNat 32 (i 0).val) 2000#32)) (iota .tc S2000x1 32 [0] iota_S2000x1_d0_w32))
        broadcasts_S2000x1_S2000x5120 (ValueIdx.ix2 r k) = BitVec.ofNat 32 (i 0).val * 2000#32 + BitVec.ofNat 32 r.val := by
      rw [vs5_broadcastTo_a1_ab_apply]
      show IntOp.addi (Scalar.muli (BitVec.ofNat 32 (i 0).val) 2000#32) (iota .tc S2000x1 32 [0] iota_S2000x1_d0_w32 (ValueIdx.ix2 r (0 : Fin 1))) = _
      rw [iota_single_apply]
      rfl
    rw [e21, e22]
  · rw [ValueIdx.truncf_apply, shapeCast_self]

/-! ## The root product's operand indices -/

theorem lhs_root5_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_root5_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_root5_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_root5_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- THE STORED PAYLOAD at (r, f): max (acc (r, f) + sum over k of h0 (r, k) * root_w (k, f) + bias f) 0. -/
theorem k5_pay3_apply (x2 : Vec Ideal S2000x128 .f32) (x3 : Vec Ideal S128x128 .f32) (acc : Vec Ideal S2000x128 .f32) (x4 : Vec Ideal S1x128 .f32)
    (r : Fin 2000) (f : Fin 128) :
    k5_pay3 (F := Ideal) x2 x3 acc x4 (ValueIdx.ix2 r f)
      = max (acc (ValueIdx.ix2 r f) + ∑ k : Fin 128, x2 (ValueIdx.ix2 r k) * x3 (ValueIdx.ix2 k f) + x4 (ValueIdx.ix2 (0 : Fin 1) f)) 0 := by
  unfold k5_pay3
  simp only [matmul]
  rw [ValueIdx.maximumf_apply, ValueIdx.addf_apply, ValueIdx.addf_apply, ValueIdx.broadcast_apply]
  rw [Ideal.matmul_constant_zero_apply, ← Equiv.sum_comp (ValueIdx.contrEquiv1 dot_S2000x128_S128x128_S2000x128_1_0_0_1_n_n 128 rfl rfl).symm]
  have e4 : broadcastTo S2000x128 (shapeCast S1x128 x4 shapeCasts_S1x128_S1x128) broadcasts_S1x128_S2000x128 (ValueIdx.ix2 r f)
      = x4 (ValueIdx.ix2 (0 : Fin 1) f) := by
    rw [ValueIdx.broadcastTo_1b_ab_apply, shapeCast_self]
  have e0 : (Scalar.ofBits (F := Ideal) .f32 0x00000000#32 : Ideal .f32) = 0 := Ideal.ofBits_zero_f32
  rw [e4, e0]
  refine congrArg (fun s => max (acc (ValueIdx.ix2 r f) + s + x4 (ValueIdx.ix2 (0 : Fin 1) f)) 0) (Finset.sum_congr rfl fun k _ => ?_)
  have hk := ValueIdx.contrEquiv1_symm_val dot_S2000x128_S128x128_S2000x128_1_0_0_1_n_n 128 rfl rfl k
  have el : dot_S2000x128_S128x128_S2000x128_1_0_0_1_n_n.lhsIdx (ValueIdx.ix2 r f) ((ValueIdx.contrEquiv1 dot_S2000x128_S128x128_S2000x128_1_0_0_1_n_n 128 rfl rfl).symm k) = ValueIdx.ix2 r k := funext fun a => Fin.ext (by
    match a with
    | ⟨0, _⟩ => exact lhs_root5_0 _ _
    | ⟨1, _⟩ => exact (lhs_root5_1 _ _).trans hk)
  have er : dot_S2000x128_S128x128_S2000x128_1_0_0_1_n_n.rhsIdx (ValueIdx.ix2 r f) ((ValueIdx.contrEquiv1 dot_S2000x128_S128x128_S2000x128_1_0_0_1_n_n 128 rfl rfl).symm k) = ValueIdx.ix2 k f := funext fun a => Fin.ext (by
    match a with
    | ⟨0, _⟩ => exact (rhs_root5_0 _ _).trans hk
    | ⟨1, _⟩ => exact rhs_root5_1 _ _)
  rw [el, er, ValueIdx.truncf_apply, ValueIdx.truncf_apply, shapeCast_self, shapeCast_self]

/-! ## Signed comparisons and the gate in closed form -/

/-- A signed comparison's bit. -/
theorem vs5_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed. -/
theorem vs5_toInt_ofNat_lt50 : ∀ k : Fin 50, (BitVec.ofNat 32 k.val).toInt = (k.val : ℤ) := by decide

/-- THE GATE: the body accumulates at coordinates i exactly when the two table words bracket the first coordinate. -/
theorem vcond5_2_iff (i : grid5.Coords) (wlo whi : BitVec 32) :
    cond5_2 (F := Ideal) i wlo whi ↔ (wlo.toInt ≤ ((i 0).val : ℤ) ∧ ((i 0).val : ℤ) ≤ whi.toInt) := by
  have hI : (BitVec.ofNat 32 (i 0).val).toInt = ((i 0).val : ℤ) := vs5_toInt_ofNat_lt50 (i 0)
  show ((Scalar.cmpi .ne (Scalar.extui (Scalar.andi (Scalar.cmpi .sle wlo (BitVec.ofNat 32 (i 0).val)) (Scalar.cmpi .sle (BitVec.ofNat 32 (i 0).val) whi))) 0#32 : BitVec 1) = 1#1) ↔ _
  rw [vs5_sle_bit, vs5_sle_bit, hI]
  by_cases h1 : wlo.toInt ≤ ((i 0).val : ℤ)
  · by_cases h2 : ((i 0).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 0).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-- An edge block's number as a 32-bit index is itself. -/
theorem vs5_toNat_ofNat_lt123 : ∀ k : Fin 123, (BitVec.ofNat 32 k.val).toNat = k.val := by decide
theorem vs5_toNat_ofNat_lt50 : ∀ k : Fin 50, (BitVec.ofNat 32 k.val).toNat = k.val := by decide

/-- Two rank-1 indices with the same coordinate are equal. -/
theorem vs5_idx1_ext {n : ℕ} (x y : (⟨1, ![n]⟩ : Shape).Idx) (h : (x 0).val = (y 0).val) : x = y := funext fun a => by
  have ha : a = 0 := Subsingleton.elim _ _
  subst ha
  exact Fin.ext h

/-- The word the body compares from below is the first table's word of the second coordinate, -/
theorem vwd5_0_eq (c : Dev nD) (i : grid5.Coords) (xt : TbBuf5 (F := Ideal) c tbM5_0) (j : Fin 123) (hj : (i 1).val = j.val) :
    wd5_0 c i xt = (xt : S123.Idx → BitVec 32) (Shape.Idx.ofFin j) := by
  show (xt : S123.Idx → BitVec 32) _ = _
  refine congrArg (xt : S123.Idx → BitVec 32) (vs5_idx1_ext _ _ ?_)
  show (BitVec.ofNat 32 (i 1).val).toNat + 1 * 0 = j.val
  rw [vs5_toNat_ofNat_lt123 (i 1), hj]
  omega
/-- and the word it compares from above the second table's. -/
theorem vwd5_1_eq (c : Dev nD) (i : grid5.Coords) (xt : TbBuf5 (F := Ideal) c tbM5_1) (j : Fin 123) (hj : (i 1).val = j.val) :
    wd5_1 c i xt = (xt : S123.Idx → BitVec 32) (Shape.Idx.ofFin j) := by
  show (xt : S123.Idx → BitVec 32) _ = _
  refine congrArg (xt : S123.Idx → BitVec 32) (vs5_idx1_ext _ _ ?_)
  show (BitVec.ofNat 32 (i 1).val).toNat + 1 * 0 = j.val
  rw [vs5_toNat_ofNat_lt123 (i 1), hj]
  omega

/-! ## The two edge windows' index maps on the table words -/

/-- The word of a table of 50 an index map reads at the first coordinate. -/
theorem tbl50_emb5 (i : grid5.Coords) (iv : Fin 50) (hi : (i 0).val = iv.val)
    (inb : ∀ a, (![(Scalar.indexCast (BitVec.ofNat 32 (i 0).val)).toNat] : Fin 1 → Nat) a + S1.size a ≤ S50.size a) (h1 : 0 < S1.numel) :
    (Rect.unit (s := S50) ![(Scalar.indexCast (BitVec.ofNat 32 (i 0).val)).toNat] S1.size inb).emb (Shape.Idx.first h1) = Shape.Idx.ofFin iv := by
  refine vs5_idx1_ext _ _ ?_
  show (BitVec.ofNat 32 (i 0).val).toNat + 1 * 0 = iv.val
  rw [vs5_toNat_ofNat_lt50 (i 0), hi]
  omega

theorem cc5_transform_0_eq (pf : pre5.Contents (Elt Ideal)) (i : grid5.Coords) (iv : Fin 50) (hi : (i 0).val = iv.val) :
    cc5_transform_0 k5_off1_inb numel1_S1 pf i
      = ![0, (Scalar.minsi (Scalar.maxsi (BitVec.ofNat 32 (i 1).val) ((pf 2 : S50.Idx → BitVec 32) (Shape.Idx.ofFin iv)))
              ((pf 3 : S50.Idx → BitVec 32) (Shape.Idx.ofFin iv))).toNat] := by
  have e2 : pf.at 2 (Rect.unit (s := S50) ![(Scalar.indexCast (BitVec.ofNat 32 (i 0).val)).toNat] S1.size (k5_off1_inb i)) numel1_S1
      = (pf 2 : S50.Idx → BitVec 32) (Shape.Idx.ofFin iv) := congrArg (pf 2 : S50.Idx → BitVec 32) (tbl50_emb5 i iv hi _ _)
  have e3 : pf.at 3 (Rect.unit (s := S50) ![(Scalar.indexCast (BitVec.ofNat 32 (i 0).val)).toNat] S1.size (k5_off1_inb i)) numel1_S1
      = (pf 3 : S50.Idx → BitVec 32) (Shape.Idx.ofFin iv) := congrArg (pf 3 : S50.Idx → BitVec 32) (tbl50_emb5 i iv hi _ _)
  unfold cc5_transform_0
  dsimp only
  rw [e2, e3]
  rfl

theorem cc5_transform_1_eq (pf : pre5.Contents (Elt Ideal)) (i : grid5.Coords) (iv : Fin 50) (hi : (i 0).val = iv.val) :
    cc5_transform_1 k5_off1_inb numel1_S1 pf i
      = ![(Scalar.minsi (Scalar.maxsi (BitVec.ofNat 32 (i 1).val) ((pf 2 : S50.Idx → BitVec 32) (Shape.Idx.ofFin iv)))
              ((pf 3 : S50.Idx → BitVec 32) (Shape.Idx.ofFin iv))).toNat, 0] := by
  have e2 : pf.at 2 (Rect.unit (s := S50) ![(Scalar.indexCast (BitVec.ofNat 32 (i 0).val)).toNat] S1.size (k5_off1_inb i)) numel1_S1
      = (pf 2 : S50.Idx → BitVec 32) (Shape.Idx.ofFin iv) := congrArg (pf 2 : S50.Idx → BitVec 32) (tbl50_emb5 i iv hi _ _)
  have e3 : pf.at 3 (Rect.unit (s := S50) ![(Scalar.indexCast (BitVec.ofNat 32 (i 0).val)).toNat] S1.size (k5_off1_inb i)) numel1_S1
      = (pf 3 : S50.Idx → BitVec 32) (Shape.Idx.ofFin iv) := congrArg (pf 3 : S50.Idx → BitVec 32) (tbl50_emb5 i iv hi _ _)
  unfold cc5_transform_1
  dsimp only
  rw [e2, e3]
  rfl

/-! ## The arrays the region reads, the table words, the gate -/

section Region5

variable (a : (p : Fin 13) → (pcfgs (F := Ideal) p).Adm)
variable (V : (c : Dev nD) → (b : Ref sig .tc) → Buf (Elt Ideal) ((c : Thread nD τ).loc b))

/-- The sorted column words (one row of 629760 = 123 * 5120 words), -/
abbrev colA5 (c : Dev nD) : S1x629760.Idx → BitVec 32 := V c main_v113
/-- the edge payload rows, -/
abbrev scaledA5 (c : Dev nD) : S629760x128.Idx → Elt Ideal .f32 := V c main_v129
/-- the node features, -/
abbrev h0A5 (c : Dev nD) : S100000x128.Idx → Elt Ideal .f32 := V c main_v6
/-- the root weight, -/
abbrev rwA5 (c : Dev nD) : S128x128.Idx → Elt Ideal .f32 := V c main_v131
/-- and the bias row, as the region finds them. -/
abbrev bA5 (c : Dev nD) : S1x128.Idx → Elt Ideal .f32 := V c main_v134

/-- The four prefetched tables at the admissible contents: per edge block the least and the greatest node block of its
    column words, per node block the first and the last edge block that may hold it. -/
abbrev loT5 : S123.Idx → BitVec 32 := (a 5).1 0
abbrev hiT5 : S123.Idx → BitVec 32 := (a 5).1 1
abbrev eloT5 : S50.Idx → BitVec 32 := (a 5).1 2
abbrev ehiT5 : S50.Idx → BitVec 32 := (a 5).1 3

/-- THE GATE of tile (i, j), on the table words: lo j ≤ i ≤ hi j, signed. -/
abbrev gate5 (i : ℕ) (j : Fin 123) : Prop :=
  (loT5 a (Shape.Idx.ofFin j)).toInt ≤ (i : ℤ) ∧ (i : ℤ) ≤ (hiT5 a (Shape.Idx.ofFin j)).toInt

/-- Position k of edge block j among the 629760 edge positions. -/
def ePos5 (j : Fin 123) (k : Fin 5120) : Fin 629760 := ⟨j.val * 5120 + k.val, by have := j.isLt; have := k.isLt; omega⟩

theorem ePos5_val (j : Fin 123) (k : Fin 5120) : (ePos5 j k).val = j.val * 5120 + k.val := rfl

/-- What edge block j adds to entry (n, f): the payload rows of the block's positions whose column word is n. -/
def scatTerm5 (c : Dev nD) (n : ℕ) (f : Fin 128) (j : Fin 123) : EReal :=
  ∑ k : Fin 5120, (if (colA5 V c (ValueIdx.ix2 (0 : Fin 1) (ePos5 j k))).toNat = n then (1 : EReal) else 0)
    * scaledA5 V c (ValueIdx.ix2 (ePos5 j k) f)

/-- Entry (n, f) of the result: max (S + (h0 . root_w) (n, f) + bias f) 0, with S the sum over the edge blocks j the
    gate admits for node block n / 2000 of that block's contribution. -/
def scatE5 (c : Dev nD) (n : Fin 100000) (f : Fin 128) : EReal :=
  max ((∑ j : Fin 123, if gate5 a (n.val / 2000) j then scatTerm5 V c n.val f j else 0)
      + ∑ k : Fin 128, h0A5 V c (ValueIdx.ix2 n k) * rwA5 V c (ValueIdx.ix2 k f)
      + bA5 V c (ValueIdx.ix2 (0 : Fin 1) f)) 0

/-- WHAT THE RESULT ARRAY ENDS HOLDING. -/
def scatG5 (c : Dev nD) : S100000x128.Idx → Elt Ideal .f32 := fun x =>
  scatE5 a V c ⟨(x 0).val, (x 0).isLt⟩ ⟨(x 1).val, (x 1).isLt⟩

/-- On every tile the gate admits, the clamped block index of the two edge windows is the edge block itself. -/
def Hclamp5 : Prop := ∀ (i : Fin 50) (j : Fin 123), gate5 a i.val j →
  (Scalar.minsi (Scalar.maxsi (BitVec.ofNat 32 j.val) (eloT5 a (Shape.Idx.ofFin i))) (ehiT5 a (Shape.Idx.ofFin i))).toNat = j.val

/-! ## The grid's coordinates and the windows' block indices at a point -/

theorem N5_val : (cfgM5 a).N = 6150 := N_5

theorem vcoord5_0 (n : ℕ) (hn : n < (cfgM5 a).N) (i : Fin 50) (hi : n / 123 = i.val) : (grid5.coords (⟨n, hn⟩ : Fin (cfgM5 a).N) 0).val = i.val := by
  have hN : (cfgM5 a).N = 6150 := N_5
  have e := coords5_0 (⟨n, hn⟩ : Fin grid5.N)
  have e' : (grid5.coords (⟨n, hn⟩ : Fin (cfgM5 a).N) 0).val = n / 123 % 50 := e
  rw [e']; omega
theorem vcoord5_1 (n : ℕ) (hn : n < (cfgM5 a).N) (j : Fin 123) (hj : n % 123 = j.val) : (grid5.coords (⟨n, hn⟩ : Fin (cfgM5 a).N) 1).val = j.val := by
  have e : (grid5.coords (⟨n, hn⟩ : Fin (cfgM5 a).N) 1).val = n % 123 := coords5_1 (⟨n, hn⟩ : Fin grid5.N)
  rw [e, hj]

theorem vindex5_0 (t : Fin (cfgM5 a).N) : ((cfgM5 a).win 0).index t = cc5_transform_0 k5_off1_inb numel1_S1 (a 5).1 (grid5.coords t) := rfl
theorem vindex5_1 (t : Fin (cfgM5 a).N) : ((cfgM5 a).win 1).index t = cc5_transform_1 k5_off1_inb numel1_S1 (a 5).1 (grid5.coords t) := rfl
theorem vindex5_2 (t : Fin (cfgM5 a).N) : ((cfgM5 a).win 2).index t = ![(BitVec.ofNat 32 (grid5.coords t 0).val).toNat, 0] := rfl
theorem vindex5_3 (t : Fin (cfgM5 a).N) : ((cfgM5 a).win 3).index t = ![0, 0] := rfl
theorem vindex5_4 (t : Fin (cfgM5 a).N) : ((cfgM5 a).win 4).index t = ![0, 0] := rfl
theorem vindex5_5 (t : Fin (cfgM5 a).N) : ((cfgM5 a).win 5).index t = ![(BitVec.ofNat 32 (grid5.coords t 0).val).toNat, 0] := rfl

/-- On an admitted tile (i, j) the column window's block is (0, j) -/
theorem vindex5_0_of_gate (hc : Hclamp5 a) (n : ℕ) (hn : n < (cfgM5 a).N) (i : Fin 50) (j : Fin 123) (hi : n / 123 = i.val) (hj : n % 123 = j.val)
    (hg : gate5 a i.val j) : ((cfgM5 a).win 0).index ⟨n, hn⟩ = ![0, j.val] := by
  rw [vindex5_0, cc5_transform_0_eq (a 5).1 (grid5.coords ⟨n, hn⟩) i (vcoord5_0 a n hn i hi), vcoord5_1 a n hn j hj]
  exact congrArg (fun x => ![0, x]) (hc i j hg)
/-- and the payload window's block is (j, 0). -/
theorem vindex5_1_of_gate (hc : Hclamp5 a) (n : ℕ) (hn : n < (cfgM5 a).N) (i : Fin 50) (j : Fin 123) (hi : n / 123 = i.val) (hj : n % 123 = j.val)
    (hg : gate5 a i.val j) : ((cfgM5 a).win 1).index ⟨n, hn⟩ = ![j.val, 0] := by
  rw [vindex5_1, cc5_transform_1_eq (a 5).1 (grid5.coords ⟨n, hn⟩) i (vcoord5_0 a n hn i hi), vcoord5_1 a n hn j hj]
  exact congrArg (fun x => ![x, 0]) (hc i j hg)

/-! ## The input blocks at a point, as vectors of their literal types, read off the arrays -/

abbrev cblk5 (c : Dev nD) (t : Fin (cfgM5 a).N) : Vec Ideal S1x5120 .i32 := iblk5 a V c 0 t
abbrev sblk5 (c : Dev nD) (t : Fin (cfgM5 a).N) : Vec Ideal S5120x128 .f32 := iblk5 a V c 1 t
abbrev hblk5 (c : Dev nD) (t : Fin (cfgM5 a).N) : Vec Ideal S2000x128 .f32 := iblk5 a V c 2 t
abbrev wblk5 (c : Dev nD) (t : Fin (cfgM5 a).N) : Vec Ideal S128x128 .f32 := iblk5 a V c 3 t
abbrev bblk5 (c : Dev nD) (t : Fin (cfgM5 a).N) : Vec Ideal S1x128 .f32 := iblk5 a V c 4 t

theorem cblk5_apply (c : Dev nD) (t : Fin (cfgM5 a).N) (j : Fin 123) (hidx : ((cfgM5 a).win 0).index t = ![0, j.val]) (k : Fin 5120) :
    cblk5 a V c t (ValueIdx.ix2 (0 : Fin 1) k) = colA5 V c (ValueIdx.ix2 (0 : Fin 1) (ePos5 j k)) := by
  have h0 : ((cfgM5 a).win 0).index t (0 : Fin 2) = 0 := congrFun hidx (0 : Fin 2)
  have h1 : ((cfgM5 a).win 0).index t (1 : Fin 2) = j.val := congrFun hidx (1 : Fin 2)
  show V c main_v113 ((((cfgM5 a).win 0).blk t).view.emb (ValueIdx.ix2 (0 : Fin 1) k)) = V c main_v113 (ValueIdx.ix2 (0 : Fin 1) (ePos5 j k))
  refine congrArg (V c main_v113) (funext fun x => Fin.ext ?_)
  match x with
  | ⟨0, _⟩ => show ((cfgM5 a).win 0).index t (0 : Fin 2) * 1 + 1 * 0 = 0; omega
  | ⟨1, _⟩ => show ((cfgM5 a).win 0).index t (1 : Fin 2) * 5120 + 1 * k.val = j.val * 5120 + k.val; omega

theorem sblk5_apply (c : Dev nD) (t : Fin (cfgM5 a).N) (j : Fin 123) (hidx : ((cfgM5 a).win 1).index t = ![j.val, 0]) (k : Fin 5120) (f : Fin 128) :
    sblk5 a V c t (ValueIdx.ix2 k f) = scaledA5 V c (ValueIdx.ix2 (ePos5 j k) f) := by
  have h0 : ((cfgM5 a).win 1).index t (0 : Fin 2) = j.val := congrFun hidx (0 : Fin 2)
  have h1 : ((cfgM5 a).win 1).index t (1 : Fin 2) = 0 := congrFun hidx (1 : Fin 2)
  show V c main_v129 ((((cfgM5 a).win 1).blk t).view.emb (ValueIdx.ix2 k f)) = V c main_v129 (ValueIdx.ix2 (ePos5 j k) f)
  refine congrArg (V c main_v129) (funext fun x => Fin.ext ?_)
  match x with
  | ⟨0, _⟩ => show ((cfgM5 a).win 1).index t (0 : Fin 2) * 5120 + 1 * k.val = j.val * 5120 + k.val; omega
  | ⟨1, _⟩ => show ((cfgM5 a).win 1).index t (1 : Fin 2) * 128 + 1 * f.val = f.val; omega

theorem hblk5_apply (c : Dev nD) (n : ℕ) (hn : n < (cfgM5 a).N) (i : Fin 50) (hi : n / 123 = i.val) (r : Fin 2000) (k : Fin 128)
    (hlt : i.val * 2000 + r.val < 100000) :
    hblk5 a V c ⟨n, hn⟩ (ValueIdx.ix2 r k) = h0A5 V c (ValueIdx.ix2 (⟨i.val * 2000 + r.val, hlt⟩ : Fin 100000) k) := by
  have hidx := vindex5_2 a ⟨n, hn⟩
  rw [vcoord5_0 a n hn i hi, vs5_toNat_ofNat_lt50 i] at hidx
  have h0 : ((cfgM5 a).win 2).index ⟨n, hn⟩ (0 : Fin 2) = i.val := congrFun hidx (0 : Fin 2)
  have h1 : ((cfgM5 a).win 2).index ⟨n, hn⟩ (1 : Fin 2) = 0 := congrFun hidx (1 : Fin 2)
  show V c main_v6 ((((cfgM5 a).win 2).blk ⟨n, hn⟩).view.emb (ValueIdx.ix2 r k)) = V c main_v6 (ValueIdx.ix2 (⟨i.val * 2000 + r.val, hlt⟩ : Fin 100000) k)
  refine congrArg (V c main_v6) (funext fun x => Fin.ext ?_)
  match x with
  | ⟨0, _⟩ => show ((cfgM5 a).win 2).index ⟨n, hn⟩ (0 : Fin 2) * 2000 + 1 * r.val = i.val * 2000 + r.val; omega
  | ⟨1, _⟩ => show ((cfgM5 a).win 2).index ⟨n, hn⟩ (1 : Fin 2) * 128 + 1 * k.val = k.val; omega

theorem wblk5_apply (c : Dev nD) (t : Fin (cfgM5 a).N) (k : Fin 128) (f : Fin 128) :
    wblk5 a V c t (ValueIdx.ix2 k f) = rwA5 V c (ValueIdx.ix2 k f) := by
  have hidx := vindex5_3 a t
  have h0 : ((cfgM5 a).win 3).index t (0 : Fin 2) = 0 := congrFun hidx (0 : Fin 2)
  have h1 : ((cfgM5 a).win 3).index t (1 : Fin 2) = 0 := congrFun hidx (1 : Fin 2)
  show V c main_v131 ((((cfgM5 a).win 3).blk t).view.emb (ValueIdx.ix2 k f)) = V c main_v131 (ValueIdx.ix2 k f)
  refine congrArg (V c main_v131) (funext fun x => Fin.ext ?_)
  match x with
  | ⟨0, _⟩ => show ((cfgM5 a).win 3).index t (0 : Fin 2) * 128 + 1 * k.val = k.val; omega
  | ⟨1, _⟩ => show ((cfgM5 a).win 3).index t (1 : Fin 2) * 128 + 1 * f.val = f.val; omega

theorem bblk5_apply (c : Dev nD) (t : Fin (cfgM5 a).N) (f : Fin 128) :
    bblk5 a V c t (ValueIdx.ix2 (0 : Fin 1) f) = bA5 V c (ValueIdx.ix2 (0 : Fin 1) f) := by
  have hidx := vindex5_4 a t
  have h0 : ((cfgM5 a).win 4).index t (0 : Fin 2) = 0 := congrFun hidx (0 : Fin 2)
  have h1 : ((cfgM5 a).win 4).index t (1 : Fin 2) = 0 := congrFun hidx (1 : Fin 2)
  show V c main_v134 ((((cfgM5 a).win 4).blk t).view.emb (ValueIdx.ix2 (0 : Fin 1) f)) = V c main_v134 (ValueIdx.ix2 (0 : Fin 1) f)
  refine congrArg (V c main_v134) (funext fun x => Fin.ext ?_)
  match x with
  | ⟨0, _⟩ => show ((cfgM5 a).win 4).index t (0 : Fin 2) * 1 + 1 * 0 = 0; omega
  | ⟨1, _⟩ => show ((cfgM5 a).win 4).index t (1 : Fin 2) * 128 + 1 * f.val = f.val; omega

/-! ## One point's step of the accumulator at an entry -/

/-- A column word is the node 2000 i + r computed in 32-bit words exactly when it is that number. -/
theorem vs5_word_eq_node (w : BitVec 32) (i r : ℕ) (h : i * 2000 + r < 2 ^ 32) :
    (w = BitVec.ofNat 32 i * 2000#32 + BitVec.ofNat 32 r) ↔ w.toNat = i * 2000 + r := by
  rw [← Cert.Math.toNat_ofNat_mul_add i 2000 r h]
  exact ⟨fun e => congrArg BitVec.toNat e, fun e => BitVec.eq_of_toNat_eq e⟩

/-- The step over VARIABLES of the blocks' literal types: zeroed where the second coordinate is 0, the one-hot product
    added where the words bracket the first. -/
theorem acc5_apply (i : grid5.Coords) (wlo whi : BitVec 32) (x0 : Vec Ideal S1x5120 .i32) (x1 : Vec Ideal S5120x128 .f32)
    (xs : Vec Ideal S2000x128 .f32) (r : Fin 2000) (f : Fin 128) :
    acc5 (F := Ideal) i wlo whi x0 x1 xs (ValueIdx.ix2 r f)
      = (if (i 1).val = 0 then (0 : EReal) else xs (ValueIdx.ix2 r f))
        + if (wlo.toInt ≤ ((i 0).val : ℤ) ∧ ((i 0).val : ℤ) ≤ whi.toInt) then
            ∑ k : Fin 5120, (if x0 (ValueIdx.ix2 (0 : Fin 1) k) = BitVec.ofNat 32 (i 0).val * 2000#32 + BitVec.ofNat 32 r.val then (1 : EReal) else 0)
              * x1 (ValueIdx.ix2 k f)
          else 0 := by
  have hbase : (if cond5_1 i then (k5_pay1 (F := Ideal) : Vec Ideal S2000x128 .f32) else xs) (ValueIdx.ix2 r f)
      = if (i 1).val = 0 then (0 : EReal) else xs (ValueIdx.ix2 r f) := by
    by_cases h : (i 1).val = 0
    · rw [if_pos ((cond5_1_iff i).mpr h), if_pos h]; exact k5_pay1_apply _
    · rw [if_neg (fun h' => h ((cond5_1_iff i).mp h')), if_neg h]
  unfold acc5
  by_cases hg : (wlo.toInt ≤ ((i 0).val : ℤ) ∧ ((i 0).val : ℤ) ≤ whi.toInt)
  · rw [if_pos ((vcond5_2_iff i wlo whi).mpr hg), if_pos hg]
    refine (k5_pay5_apply i x0 x1 _ r f).trans ?_
    rw [hbase]
  · rw [if_neg (fun h' => hg ((vcond5_2_iff i wlo whi).mp h')), if_neg hg, add_zero]
    exact hbase

/-- THE STEP AT A POINT (i, j) of the grid, under the clamp hypothesis: the entry (r, f) of the accumulator is zeroed
    first where j = 0, then edge block j's contribution to node 2000 i + r is added where the gate admits (i, j). -/
theorem accStep5_apply (hc : Hclamp5 a) (c : Dev nD) (n : ℕ) (hn : n < (cfgM5 a).N) (i : Fin 50) (j : Fin 123)
    (hi : n / 123 = i.val) (hj : n % 123 = j.val) (xs : Vec Ideal S2000x128 .f32) (r : Fin 2000) (f : Fin 128) :
    accStep5 a V c ⟨n, hn⟩ xs (ValueIdx.ix2 r f)
      = (if j.val = 0 then (0 : EReal) else xs (ValueIdx.ix2 r f))
        + if gate5 a i.val j then scatTerm5 V c (i.val * 2000 + r.val) f j else 0 := by
  have hstep := acc5_apply (grid5.coords (⟨n, hn⟩ : Fin (cfgM5 a).N)) (wd5_0 c (grid5.coords (⟨n, hn⟩ : Fin (cfgM5 a).N)) ((a 5).1 0))
    (wd5_1 c (grid5.coords (⟨n, hn⟩ : Fin (cfgM5 a).N)) ((a 5).1 1)) (cblk5 a V c ⟨n, hn⟩) (sblk5 a V c ⟨n, hn⟩) xs r f
  refine hstep.trans ?_
  rw [vwd5_0_eq c (grid5.coords (⟨n, hn⟩ : Fin (cfgM5 a).N)) ((a 5).1 0) j (vcoord5_1 a n hn j hj), vwd5_1_eq c (grid5.coords (⟨n, hn⟩ : Fin (cfgM5 a).N)) ((a 5).1 1) j (vcoord5_1 a n hn j hj), vcoord5_0 a n hn i hi, vcoord5_1 a n hn j hj]
  by_cases hg : gate5 a i.val j
  · rw [if_pos hg, if_pos hg]
    refine congrArg (_ + ·) (Finset.sum_congr rfl fun k _ => ?_)
    rw [cblk5_apply a V c ⟨n, hn⟩ j (vindex5_0_of_gate a hc n hn i j hi hj hg) k,
      sblk5_apply a V c ⟨n, hn⟩ j (vindex5_1_of_gate a hc n hn i j hi hj hg) k f]
    refine congrArg (· * _) ?_
    have hlt : i.val * 2000 + r.val < 2 ^ 32 := by have := i.isLt; have := r.isLt; omega
    by_cases hw : (colA5 V c (ValueIdx.ix2 (0 : Fin 1) (ePos5 j k))).toNat = i.val * 2000 + r.val
    · rw [if_pos ((vs5_word_eq_node _ _ _ hlt).mpr hw), if_pos hw]
    · rw [if_neg (fun h' => hw ((vs5_word_eq_node _ _ _ hlt).mp h')), if_neg hw]
  · rw [if_neg hg, if_neg hg]

/-! ## The accumulator along a row block's run of points -/

/-- Edge block j's admitted contribution to entry (2000 i + r, f), for a bare natural j (0 past the 123 blocks). -/
def gT5 (c : Dev nD) (i : Fin 50) (r : Fin 2000) (f : Fin 128) (j : ℕ) : EReal :=
  if h : j < 123 then (if gate5 a i.val ⟨j, h⟩ then scatTerm5 V c (i.val * 2000 + r.val) f ⟨j, h⟩ else 0) else 0

theorem accAt5_eq_step (c : Dev nD) (n : ℕ) (hn : n < (cfgM5 a).N) : ∃ xs, accAt5 a V c n hn = accStep5 a V c ⟨n, hn⟩ xs := by
  cases n with
  | zero => exact ⟨_, rfl⟩
  | succ m => exact ⟨_, rfl⟩

/-- THE ACCUMULATION: after tile (i, j) the accumulator's entry (r, f) is the sum of the admitted contributions of edge
    blocks 0 … j to node 2000 i + r. By induction on j; the tile j = 0 zeroes what the row block before left. -/
theorem accAt5_run (hc : Hclamp5 a) (c : Dev nD) (i : Fin 50) (r : Fin 2000) (f : Fin 128) :
    ∀ (j : ℕ) (hj : j < 123) (h : i.val * 123 + j < (cfgM5 a).N),
      accAt5 a V c (i.val * 123 + j) h (ValueIdx.ix2 r f) = ∑ j' ∈ Finset.range (j + 1), gT5 a V c i r f j'
  | 0, hj, h => by
    obtain ⟨xs, e⟩ := accAt5_eq_step a V c (i.val * 123 + 0) h
    rw [e, accStep5_apply a V hc c (i.val * 123 + 0) h i ⟨0, hj⟩ (by omega) (by show (i.val * 123 + 0) % 123 = 0; omega) xs r f,
      if_pos rfl, zero_add, Finset.sum_range_one]
    unfold gT5
    rw [dif_pos hj]
  | j + 1, hj, h => by
    have ih := accAt5_run hc c i r f j (by omega) (by omega)
    show accAt5 a V c ((i.val * 123 + j) + 1) h (ValueIdx.ix2 r f) = _
    rw [accAt5_succ, accStep5_apply a V hc c ((i.val * 123 + j) + 1) h i ⟨j + 1, hj⟩ (by omega) (by show (i.val * 123 + j + 1) % 123 = j + 1; omega) _ r f,
      if_neg (Nat.succ_ne_zero j), ih, Finset.sum_range_succ _ (j + 1)]
    refine congrArg (_ + ·) ?_
    unfold gT5
    rw [dif_pos hj]

/-- At the row block's last tile: the sum over the 123 edge blocks. -/
theorem accAt5_last (hc : Hclamp5 a) (c : Dev nD) (i : Fin 50) (r : Fin 2000) (f : Fin 128) (h : i.val * 123 + 122 < (cfgM5 a).N) :
    accAt5 a V c (i.val * 123 + 122) h (ValueIdx.ix2 r f)
      = ∑ j : Fin 123, if gate5 a i.val j then scatTerm5 V c (i.val * 2000 + r.val) f j else 0 := by
  rw [accAt5_run a V hc c i r f 122 (by omega) h, Finset.sum_range]
  refine Finset.sum_congr rfl fun j _ => ?_
  unfold gT5
  rw [dif_pos j.isLt]

/-! ## The output block at the storing tile, the write-back schedule, the cover -/

/-- The result window is written back exactly at the last tile of each row block, at any contents of the tables. -/
theorem vflush5_5 : ∀ t : Fin (cfgM5 a).N, ((cfgM5 a).win 5).flush t = decide (t.val % 123 = 122) :=
  (by decide +kernel : ∀ t : Fin grid5.N, Pipeline.Window.flushOf grid5 true cc5_transform_5 t = decide (t.val % 123 = 122))

/-- The array's contents at an index whose coordinates are known. -/
theorem scatG5_at (c : Dev nD) (E : S100000x128.Idx) (n : Fin 100000) (f : Fin 128) (h0 : (E 0).val = n.val) (h1 : (E 1).val = f.val) :
    scatG5 a V c E = scatE5 a V c n f := by
  have e0 : (⟨(E 0).val, (E 0).isLt⟩ : Fin 100000) = n := Fin.ext h0
  have e1 : (⟨(E 1).val, (E 1).isLt⟩ : Fin 128) = f := Fin.ext h1
  show scatE5 a V c ⟨(E 0).val, (E 0).isLt⟩ ⟨(E 1).val, (E 1).isLt⟩ = _
  rw [e0, e1]

/-- WHAT A STORING TILE WRITES BACK is its row block of the array `scatG5`. -/
theorem vflushed5_5_eq (hc : Hclamp5 a) (c : Dev nD) (t : Fin (cfgM5 a).N) (hf : ((cfgM5 a).win 5).flush t = true) :
    (dat5 a V c).flushed 5 t = (((cfgM5 a).win 5).blk t).view.read (Elt Ideal) (scatG5 a V c) := by
  rw [vflush5_5, decide_eq_true_eq] at hf
  have hN : (cfgM5 a).N = 6150 := N_5
  obtain ⟨n, hn⟩ := t
  obtain ⟨i, rfl⟩ : ∃ i : Fin 50, n = i.val * 123 + 122 := ⟨⟨n / 123, by omega⟩, by show n = n / 123 * 123 + 122; have : n % 123 = 122 := hf; omega⟩
  show ((cfgM5 a).win 5).cut (grid5.coords ⟨i.val * 123 + 122, hn⟩) ((dat5 a V c).after 5 ⟨i.val * 123 + 122, hn⟩) = _
  rw [after5_5]
  funext y
  obtain ⟨r, f, rfl⟩ : ∃ (r : Fin 2000) (f : Fin 128), y = ValueIdx.ix2 r f :=
    ⟨⟨(y (0 : Fin 2)).val, (y (0 : Fin 2)).isLt⟩, ⟨(y (1 : Fin 2)).val, (y (1 : Fin 2)).isLt⟩, funext fun x => by match x with | ⟨0, _⟩ => rfl | ⟨1, _⟩ => rfl⟩
  have hlt : i.val * 2000 + r.val < 100000 := by have := i.isLt; have := r.isLt; omega
  have hi : (i.val * 123 + 122) / 123 = i.val := by omega
  have hidx := vindex5_5 a ⟨i.val * 123 + 122, hn⟩
  rw [vcoord5_0 a _ hn i hi, vs5_toNat_ofNat_lt50 i] at hidx
  have h0 : ((cfgM5 a).win 5).index ⟨i.val * 123 + 122, hn⟩ (0 : Fin 2) = i.val := congrFun hidx (0 : Fin 2)
  have h1 : ((cfgM5 a).win 5).index ⟨i.val * 123 + 122, hn⟩ (1 : Fin 2) = 0 := congrFun hidx (1 : Fin 2)
  show k5_pay3 (F := Ideal) (hblk5 a V c ⟨i.val * 123 + 122, hn⟩) (wblk5 a V c ⟨i.val * 123 + 122, hn⟩) (accAt5 a V c (i.val * 123 + 122) hn) (bblk5 a V c ⟨i.val * 123 + 122, hn⟩) (ValueIdx.ix2 r f)
    = scatG5 a V c ((((cfgM5 a).win 5).blk ⟨i.val * 123 + 122, hn⟩).view.emb (ValueIdx.ix2 r f))
  have ex0 : ((((cfgM5 a).win 5).blk ⟨i.val * 123 + 122, hn⟩).view.emb (ValueIdx.ix2 r f) (0 : Fin 2)).val = i.val * 2000 + r.val := by
    show ((cfgM5 a).win 5).index ⟨i.val * 123 + 122, hn⟩ (0 : Fin 2) * 2000 + 1 * r.val = _; omega
  have ex1 : ((((cfgM5 a).win 5).blk ⟨i.val * 123 + 122, hn⟩).view.emb (ValueIdx.ix2 r f) (1 : Fin 2)).val = f.val := by
    show ((cfgM5 a).win 5).index ⟨i.val * 123 + 122, hn⟩ (1 : Fin 2) * 128 + 1 * f.val = _; omega
  refine Eq.trans ?_ (scatG5_at a V c _ ⟨i.val * 2000 + r.val, hlt⟩ f ex0 ex1).symm
  refine (k5_pay3_apply (hblk5 a V c ⟨i.val * 123 + 122, hn⟩) (wblk5 a V c ⟨i.val * 123 + 122, hn⟩) (accAt5 a V c (i.val * 123 + 122) hn) (bblk5 a V c ⟨i.val * 123 + 122, hn⟩) r f).trans ?_
  have hsum : ∑ k : Fin 128, hblk5 a V c ⟨i.val * 123 + 122, hn⟩ (ValueIdx.ix2 r k) * wblk5 a V c ⟨i.val * 123 + 122, hn⟩ (ValueIdx.ix2 k f)
      = ∑ k : Fin 128, h0A5 V c (ValueIdx.ix2 (⟨i.val * 2000 + r.val, hlt⟩ : Fin 100000) k) * rwA5 V c (ValueIdx.ix2 k f) :=
    Finset.sum_congr rfl fun k _ => by rw [hblk5_apply a V c _ hn i hi r k hlt, wblk5_apply a V c _ k f]
  have hdiv : (i.val * 2000 + r.val) / 2000 = i.val := by have := r.isLt; omega
  rw [hsum, bblk5_apply a V c _ f, accAt5_last a V hc c i r f hn]
  unfold scatE5
  dsimp only
  rw [hdiv]

/-- An index of the result array is in a point's block iff each coordinate is in the block's range on its axis. -/
theorem vmem_blk5_5 (t : Fin (cfgM5 a).N) (x : S100000x128.Idx) :
    x ∈ (((cfgM5 a).win 5).blk t).view.set ↔ ∀ ax : Fin 2, ((cfgM5 a).win 5).index t ax * S2000x128.size ax ≤ (x ax).val
      ∧ (x ax).val < ((cfgM5 a).win 5).index t ax * S2000x128.size ax + S2000x128.size ax := by
  show x ∈ ((View.whole main_v135).slice (((cfgM5 a).win 5).rect t)).set ↔ _
  refine (Eq.to_iff (congrArg (x ∈ ·) (View.set_slice_whole main_v135 (((cfgM5 a).win 5).rect t)))).trans ?_
  exact Rect.mem_set_unit

/-- THE ROW BLOCKS TILE THE ARRAY: row n is in the block the last tile of row block n / 2000 writes back. -/
theorem vcover5_5 (x : S100000x128.Idx) :
    ∃ t : Fin (cfgM5 a).N, ((cfgM5 a).win 5).flush t = true ∧ x ∈ (((cfgM5 a).win 5).blk t).view.set := by
  have hx0 : (x 0).val < 100000 := (x 0).isLt
  have hx1 : (x 1).val < 128 := (x 1).isLt
  have hN : (cfgM5 a).N = 6150 := N_5
  have hn : (x 0).val / 2000 * 123 + 122 < (cfgM5 a).N := by rw [hN]; omega
  have hi50 : (x 0).val / 2000 < 50 := by omega
  refine ⟨⟨(x 0).val / 2000 * 123 + 122, hn⟩, ?_, ?_⟩
  · rw [vflush5_5, decide_eq_true_eq]; show ((x 0).val / 2000 * 123 + 122) % 123 = 122; omega
  · rw [vmem_blk5_5]
    have hidx := vindex5_5 a ⟨(x 0).val / 2000 * 123 + 122, hn⟩
    rw [vcoord5_0 a _ hn ⟨(x 0).val / 2000, hi50⟩ (by show ((x 0).val / 2000 * 123 + 122) / 123 = (x 0).val / 2000; omega),
      vs5_toNat_ofNat_lt50 ⟨(x 0).val / 2000, hi50⟩] at hidx
    have h0 : ((cfgM5 a).win 5).index ⟨(x 0).val / 2000 * 123 + 122, hn⟩ (0 : Fin 2) = (x 0).val / 2000 := congrFun hidx (0 : Fin 2)
    have h1 : ((cfgM5 a).win 5).index ⟨(x 0).val / 2000 * 123 + 122, hn⟩ (1 : Fin 2) = 0 := congrFun hidx (1 : Fin 2)
    intro ax
    match ax with
    | ⟨0, _⟩ =>
      show ((cfgM5 a).win 5).index ⟨(x 0).val / 2000 * 123 + 122, hn⟩ (0 : Fin 2) * 2000 ≤ (x 0).val
        ∧ (x 0).val < ((cfgM5 a).win 5).index ⟨(x 0).val / 2000 * 123 + 122, hn⟩ (0 : Fin 2) * 2000 + 2000
      omega
    | ⟨1, _⟩ =>
      show ((cfgM5 a).win 5).index ⟨(x 0).val / 2000 * 123 + 122, hn⟩ (1 : Fin 2) * 128 ≤ (x 1).val
        ∧ (x 1).val < ((cfgM5 a).win 5).index ⟨(x 0).val / 2000 * 123 + 122, hn⟩ (1 : Fin 2) * 128 + 128
      omega

/-! ## The result array -/

/-- THE RESULT ARRAY after the region, under the clamp hypothesis. -/
theorem arr5_5 (c : Dev nD) (hc : Hclamp5 a) : (dat5 a V c).arrAt 5 (cfgM5 a).N = scatG5 a V c :=
  (dat5 a V c).arrAt_eq_of_cover 5 (scatG5 a V c) (fun t hf => vflushed5_5_eq a V hc c t hf) (vcover5_5 a)

/-- Index by index: entry (n, f) is max (sum over the admitted edge blocks j and their positions k of
    [col (j, k) = n] * scaled (j, k, f), plus the sum over k of h0 (n, k) * root_w (k, f), plus bias f) 0. -/
theorem arr5_5_apply (c : Dev nD) (hc : Hclamp5 a) (n : Fin 100000) (f : Fin 128) :
    (dat5 a V c).arrAt 5 (cfgM5 a).N (ValueIdx.ix2 n f)
      = max ((∑ j : Fin 123, if gate5 a (n.val / 2000) j then scatTerm5 V c n.val f j else 0)
          + ∑ k : Fin 128, h0A5 V c (ValueIdx.ix2 n k) * rwA5 V c (ValueIdx.ix2 k f)
          + bA5 V c (ValueIdx.ix2 (0 : Fin 1) f)) 0 :=
  (congrFun (arr5_5 a V c hc) (ValueIdx.ix2 n f)).trans (scatG5_at a V c (ValueIdx.ix2 n f) n f rfl rfl)

/-! ## The flat form: the sum over all 629760 edge positions

When the gate admits every tile whose edge block holds a position with column word n (the table words bracket every
column word's node block), the refused blocks contribute nothing to node n and the gated sum over blocks is the sum
over all positions. -/

/-- Every column word below 100000 has its node block between its edge block's two table words. -/
def Hgate5 (c : Dev nD) : Prop := ∀ (j : Fin 123) (k : Fin 5120),
  (colA5 V c (ValueIdx.ix2 (0 : Fin 1) (ePos5 j k))).toNat < 100000 →
    gate5 a ((colA5 V c (ValueIdx.ix2 (0 : Fin 1) (ePos5 j k))).toNat / 2000) j

/-- A refused edge block holds no position whose column word is n. -/
theorem scatTerm5_eq_zero (c : Dev nD) (hg : Hgate5 a V c) (n : Fin 100000) (f : Fin 128) (j : Fin 123)
    (h : ¬ gate5 a (n.val / 2000) j) : scatTerm5 V c n.val f j = 0 := by
  unfold scatTerm5
  refine Finset.sum_eq_zero fun k _ => ?_
  have hne : (colA5 V c (ValueIdx.ix2 (0 : Fin 1) (ePos5 j k))).toNat ≠ n.val := fun e => h (by
    have h' := hg j k (by rw [e]; exact n.isLt)
    rwa [e] at h')
  rw [if_neg hne, zero_mul]

/-- The 123 blocks of 5120 positions are the 629760 positions. -/
theorem sum_blocks5 (F : Fin 629760 → EReal) : ∑ j : Fin 123, ∑ k : Fin 5120, F (ePos5 j k) = ∑ e : Fin 629760, F e := by
  have hE : ∀ x : Fin 123 × Fin 5120, (finProdFinEquiv x : Fin (123 * 5120)) = ePos5 x.1 x.2 := fun x =>
    Fin.ext (by rw [finProdFinEquiv_apply_val, ePos5_val]; omega)
  rw [← Fintype.sum_prod_type' (fun j k => F (ePos5 j k))]
  rw [← Equiv.sum_comp (finProdFinEquiv : Fin 123 × Fin 5120 ≃ Fin (123 * 5120)) F]
  exact Finset.sum_congr rfl fun x _ => by rw [hE x]

/-- The gated sum over edge blocks is the sum over all edge positions. -/
theorem sum_gated5_eq_flat (c : Dev nD) (hg : Hgate5 a V c) (n : Fin 100000) (f : Fin 128) :
    (∑ j : Fin 123, if gate5 a (n.val / 2000) j then scatTerm5 V c n.val f j else 0)
      = ∑ e : Fin 629760, (if (colA5 V c (ValueIdx.ix2 (0 : Fin 1) e)).toNat = n.val then (1 : EReal) else 0)
          * scaledA5 V c (ValueIdx.ix2 e f) := by
  have h1 : (∑ j : Fin 123, if gate5 a (n.val / 2000) j then scatTerm5 V c n.val f j else 0)
      = ∑ j : Fin 123, scatTerm5 V c n.val f j := Finset.sum_congr rfl fun j _ => by
    by_cases h : gate5 a (n.val / 2000) j
    · rw [if_pos h]
    · rw [if_neg h, scatTerm5_eq_zero a V c hg n f j h]
  rw [h1]
  unfold scatTerm5
  exact sum_blocks5 (fun e => (if (colA5 V c (ValueIdx.ix2 (0 : Fin 1) e)).toNat = n.val then (1 : EReal) else 0)
    * scaledA5 V c (ValueIdx.ix2 e f))

/-- THE RESULT ARRAY, index by index, in the flat form: entry (n, f) is
    max (sum over ALL edge positions e of [col e = n] * scaled (e, f), plus sum over k of h0 (n, k) * root_w (k, f), plus bias f) 0. -/
theorem arr5_5_flat (c : Dev nD) (hc : Hclamp5 a) (hg : Hgate5 a V c) (n : Fin 100000) (f : Fin 128) :
    (dat5 a V c).arrAt 5 (cfgM5 a).N (ValueIdx.ix2 n f)
      = max ((∑ e : Fin 629760, (if (colA5 V c (ValueIdx.ix2 (0 : Fin 1) e)).toNat = n.val then (1 : EReal) else 0)
                * scaledA5 V c (ValueIdx.ix2 e f))
          + ∑ k : Fin 128, h0A5 V c (ValueIdx.ix2 n k) * rwA5 V c (ValueIdx.ix2 k f)
          + bA5 V c (ValueIdx.ix2 (0 : Fin 1) f)) 0 := by
  rw [arr5_5_apply a V c hc n f, sum_gated5_eq_flat a V c hg n f]

end Region5

end Cert.KernelIdeal.Hand

end
-- ==== Proof.KI.ValAllScatter5.lean ====
/- Region 5 (a scatter region) in the chain's form. Its result array, read in the valuation after the region, is
   the positive part of the gated one-hot sum over the edge blocks plus h0 times the root weight plus the bias, of the
   arrays as the valuation before the region holds them. The gate of tile (i, j) is the bracket lo j ≤ i ≤ hi j of the
   table words; the tables hold the words the host stretches before the first region leave, and on every tile the gate
   admits the clamped edge block min (max j (elo i)) (ehi i) is j itself. -/
import proofs.«415143_j42460046688958_3_alg».proof.Proof.KI.Assemble
import proofs.«415143_j42460046688958_3_alg».proof.Proof.KI.ValChain
import proofs.«415143_j42460046688958_3_alg».proof.Proof.KI.ValScatter5

noncomputable section

open scoped BigOperators

namespace Cert.KernelIdeal.Hand

open Cert.KernelIdeal Cert.KernelIdeal.Gen Idealize.ShloMosaic Idealize.ShloMosaic.TcCoe Idealize.SL.Sem

/-! ## Over any table contents: the region's value lemma at the chain's valuations -/

section AnyTables

variable (a : (p : Fin 13) → (pcfgs (F := Ideal) p).Adm) (m : (ℓ : Loc nD τ sig) → Buf (Elt Ideal) ℓ) (c : Dev nD)

/-- Region 5's value lemma over the chain's valuations, at any table contents on which the clamped edge block of an
    admitted tile is the block itself. -/
theorem scatterW5 (hc : Hclamp5 a) :
    ScatterVal (gate5 a) ePos5 (W41 a m c main_v113) (W41 a m c main_v129) (W41 a m c main_v6)
      (W41 a m c main_v131) (W41 a m c main_v134) (W42 a m c main_v135) := by
  intro n f
  have hout : (W42 a m c main_v135 : S100000x128.Idx → EReal)
      = (dat5 a (fun c b => W41 a m c b) c).arrAt (5 : Fin 6) (Pipeline.pin (pcfgs (F := Ideal)) a 5).N := by
    rw [W42_def]
    exact (Function.update_self _ _ _).trans (out5_def a m c)
  rw [hout]
  exact arr5_5_apply a (fun c b => W41 a m c b) c hc n f

end AnyTables

/-! ## At the program's tables -/

variable (m : (ℓ : Loc nD τ sig) → Buf (Elt Ideal) ℓ)

/-- The four table words of region 5 are the words the host stretches leave. -/
theorem loT5_all (x : S123.Idx) : loT5 (admAll (F := Ideal) m) x = (V33 m (0 : Dev nD) main_v81 : S123.Idx → BitVec 32) x := by
  show ((admAll (F := Ideal) m 5).1 0 : S123.Idx → BitVec 32) x = _
  rw [show admAll (F := Ideal) m 5 = adm5 m from rfl, adm5_val]
  rfl
theorem hiT5_all (x : S123.Idx) : hiT5 (admAll (F := Ideal) m) x = (V33 m (0 : Dev nD) main_v82 : S123.Idx → BitVec 32) x := by
  show ((admAll (F := Ideal) m 5).1 1 : S123.Idx → BitVec 32) x = _
  rw [show admAll (F := Ideal) m 5 = adm5 m from rfl, adm5_val]
  rfl
theorem eloT5_all (x : S50.Idx) : eloT5 (admAll (F := Ideal) m) x = (V33 m (0 : Dev nD) main_v110 : S50.Idx → BitVec 32) x := by
  show ((admAll (F := Ideal) m 5).1 2 : S50.Idx → BitVec 32) x = _
  rw [show admAll (F := Ideal) m 5 = adm5 m from rfl, adm5_val]
  rfl
theorem ehiT5_all (x : S50.Idx) : ehiT5 (admAll (F := Ideal) m) x = (V33 m (0 : Dev nD) main_v111 : S50.Idx → BitVec 32) x := by
  show ((admAll (F := Ideal) m 5).1 3 : S50.Idx → BitVec 32) x = _
  rw [show admAll (F := Ideal) m 5 = adm5 m from rfl, adm5_val]
  rfl

/-- Region 5's gate holds wherever its table words bracket the node block. -/
theorem gateS5_of (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) : gate5 (admAll m) i.val j := by
  obtain rfl : c = 0 := Subsingleton.elim _ _
  show (loT5 (admAll (F := Ideal) m) (Shape.Idx.ofFin j)).toInt ≤ (i.val : ℤ) ∧ (i.val : ℤ) ≤ (hiT5 (admAll (F := Ideal) m) (Shape.Idx.ofFin j)).toInt
  rw [loT5_all, hiT5_all]
  exact ⟨h1, h2⟩

/-- On every tile region 5's gate admits, the clamped edge block is the block itself. -/
theorem hclamp5 : Hclamp5 (admAll (F := Ideal) m) := by
  intro i j hg
  have hg' : (loT5 (admAll (F := Ideal) m) (Shape.Idx.ofFin j)).toInt ≤ (i.val : ℤ)
    ∧ (i.val : ℤ) ≤ (hiT5 (admAll (F := Ideal) m) (Shape.Idx.ofFin j)).toInt := hg
  rw [loT5_all, hiT5_all] at hg'
  obtain ⟨e1, e2⟩ := elo_ehi_of_gate m 0 i j hg'.1 hg'.2
  rw [eloT5_all, ehiT5_all]
  exact clamp_eq j.val _ _ e1 e2 (ehi_le m 0 _)

/-- Region 5's value lemma at the program's tables, in the valuations the run names. -/
theorem scatter1_val (c : Dev nD) :
    ScatterVal (gate5 (admAll m)) ePos5 (V41 m (outsAll m) c main_v113) (V41 m (outsAll m) c main_v129) (V41 m (outsAll m) c main_v6)
      (V41 m (outsAll m) c main_v131) (V41 m (outsAll m) c main_v134) (V42 m (outsAll m) c main_v135) := by
  rw [V41_eq (admAll m) m c, V42_eq (admAll m) m c]
  exact scatterW5 (admAll m) m c (hclamp5 m)

end Cert.KernelIdeal.Hand

end
-- ==== Proof.KI.ValScatter8.lean ====
/- The value of a scatter layer's region at the ideal instance. Tile (i, j) of the grid adds, into an accumulator of
   2000 rows carried along j, the product of a one-hot matrix (row r is hot at the positions k of edge block j whose
   column word is node 2000 i + r) with the block's 5120 payload rows; it does so only when the table words lo j, hi j
   bracket i, and on those tiles the clamped block index of the two edge windows is j itself. At the extended reals the
   format changes are the identity and a product into a zero accumulator is the plain sum, so after the last tile of
   row block i the accumulator's entry (r, f) is the sum, over the admitted edge blocks j and the positions k in them,
   of [col (j, k) = 2000 i + r] * scaled (j, k, f). The tile j = 122 then stores max (acc + h0 . root_w + bias) 0 to
   the result's row block i; the 50 row blocks tile the result array. -/
import proofs.«415143_j42460046688958_3_alg».proof.Proof.KI.Scatter8Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws
import Mathlib.Logic.Equiv.Fin.Basic
import Mathlib.Data.Fintype.BigOperators

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A `[a, 1]` array broadcast to `[a, b]` reads, at `(p, c)`, the operand's one column at `p`. -/
theorem vs8_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (r, f) and contraction index k read the one-hot at (r, k) and the payload at (k, f) -/

theorem lhs_hot8_0 (i : S2000x128.Idx) (q : dot_S2000x5120_S5120x128_S2000x128_1_0_0_1_n_n.contr.Idx) :
    (dot_S2000x5120_S5120x128_S2000x128_1_0_0_1_n_n.lhsIdx i q 0).val = (i 0).val := by
  unfold DotDims.lhsIdx
  rw [dif_neg (show ¬(0 : Fin S2000x5120.rank) ∈ dot_S2000x5120_S5120x128_S2000x128_1_0_0_1_n_n.lhsBatch by decide), dif_pos (show (0 : Fin S2000x5120.rank) ∈ dot_S2000x5120_S5120x128_S2000x128_1_0_0_1_n_n.lhsNonContracting by decide)]
  rfl
theorem lhs_hot8_1 (i : S2000x128.Idx) (q : dot_S2000x5120_S5120x128_S2000x128_1_0_0_1_n_n.contr.Idx) :
    (dot_S2000x5120_S5120x128_S2000x128_1_0_0_1_n_n.lhsIdx i q 1).val = (q ⟨0, by decide⟩).val :=
  dot_S2000x5120_S5120x128_S2000x128_1_0_0_1_n_n.lhsIdx_val_of_single rfl i q
theorem rhs_hot8_0 (i : S2000x128.Idx) (q : dot_S2000x5120_S5120x128_S2000x128_1_0_0_1_n_n.contr.Idx) :
    (dot_S2000x5120_S5120x128_S2000x128_1_0_0_1_n_n.rhsIdx i q 0).val = (q ⟨0, by decide⟩).val :=
  dot_S2000x5120_S5120x128_S2000x128_1_0_0_1_n_n.rhsIdx_val_of_single rfl i q
theorem rhs_hot8_1 (i : S2000x128.Idx) (q : dot_S2000x5120_S5120x128_S2000x128_1_0_0_1_n_n.contr.Idx) :
    (dot_S2000x5120_S5120x128_S2000x128_1_0_0_1_n_n.rhsIdx i q 1).val = (i 1).val := by
  unfold DotDims.rhsIdx
  rw [dif_neg (show ¬(1 : Fin S5120x128.rank) ∈ dot_S2000x5120_S5120x128_S2000x128_1_0_0_1_n_n.rhsBatch by decide), dif_pos (show (1 : Fin S5120x128.rank) ∈ dot_S2000x5120_S5120x128_S2000x128_1_0_0_1_n_n.rhsNonContracting by decide)]
  rfl

/-- The accumulator's zero payload reads 0 everywhere. -/
theorem k8_pay1_apply (x : S2000x128.Idx) : (k8_pay1 (F := Ideal)) x = 0 := by
  unfold k8_pay1
  rw [shapeCast_self]
  exact Ideal.ofBits_zero_f32

/-- THE ACCUMULATING PAYLOAD at (r, f): what was there plus the sum over the block's positions k of
    [column word k = 2000 i + r] * payload (k, f); the node number computed in 32-bit words. -/
theorem k8_pay8_apply (i : grid8.Coords) (x0 : Vec Ideal S1x5120 .i32) (x1 : Vec Ideal S5120x128 .f32) (xs : Vec Ideal S2000x128 .f32)
    (r : Fin 2000) (f : Fin 128) :
    k8_pay2 (F := Ideal) i x0 x1 xs (ValueIdx.ix2 r f)
      = xs (ValueIdx.ix2 r f) + ∑ k : Fin 5120,
          (if x0 (ValueIdx.ix2 (0 : Fin 1) k) = BitVec.ofNat 32 (i 0).val * 2000#32 + BitVec.ofNat 32 r.val then (1 : EReal) else 0)
            * x1 (ValueIdx.ix2 k f) := by
  unfold k8_pay2
  simp only [matmul]
  rw [shapeCast_self, ValueIdx.addf_apply]
  rw [Ideal.matmul_constant_zero_apply, ← Equiv.sum_comp (ValueIdx.contrEquiv1 dot_S2000x5120_S5120x128_S2000x128_1_0_0_1_n_n 5120 rfl rfl).symm]
  refine congrArg (xs (ValueIdx.ix2 r f) + ·) (Finset.sum_congr rfl fun k _ => ?_)
  have hk := ValueIdx.contrEquiv1_symm_val dot_S2000x5120_S5120x128_S2000x128_1_0_0_1_n_n 5120 rfl rfl k
  have el : dot_S2000x5120_S5120x128_S2000x128_1_0_0_1_n_n.lhsIdx (ValueIdx.ix2 r f) ((ValueIdx.contrEquiv1 dot_S2000x5120_S5120x128_S2000x128_1_0_0_1_n_n 5120 rfl rfl).symm k) = ValueIdx.ix2 r k := funext fun a => Fin.ext (by
    match a with
    | ⟨0, _⟩ => exact lhs_hot8_0 _ _
    | ⟨1, _⟩ => exact (lhs_hot8_1 _ _).trans hk)
  have er : dot_S2000x5120_S5120x128_S2000x128_1_0_0_1_n_n.rhsIdx (ValueIdx.ix2 r f) ((ValueIdx.contrEquiv1 dot_S2000x5120_S5120x128_S2000x128_1_0_0_1_n_n 5120 rfl rfl).symm k) = ValueIdx.ix2 k f := funext fun a => Fin.ext (by
    match a with
    | ⟨0, _⟩ => exact (rhs_hot8_0 _ _).trans hk
    | ⟨1, _⟩ => exact rhs_hot8_1 _ _)
  rw [el, er]
  refine congrArg₂ (· * ·) ?_ ?_
  · refine (Cert.Math.oneHot_payload_apply _ _ _ _ (ValueIdx.ix2 r k)).trans ?_
    have e21 : broadcastTo S2000x5120 (shapeCast S1x5120 x0 shapeCasts_S1x5120_S1x5120) broadcasts_S1x5120_S2000x5120 (ValueIdx.ix2 r k)
        = x0 (ValueIdx.ix2 (0 : Fin 1) k) := by
      rw [ValueIdx.broadcastTo_1b_ab_apply, shapeCast_self]
    have e22 : broadcastTo S2000x5120 (addi (broadcast S2000x1 (Scalar.muli (BitVec.ofNat 32 (i 0).val) 2000#32)) (iota .tc S2000x1 32 [0] iota_S2000x1_d0_w32))
        broadcasts_S2000x1_S2000x5120 (ValueIdx.ix2 r k) = BitVec.ofNat 32 (i 0).val * 2000#32 + BitVec.ofNat 32 r.val := by
      rw [vs8_broadcastTo_a1_ab_apply]
      show IntOp.addi (Scalar.muli (BitVec.ofNat 32 (i 0).val) 2000#32) (iota .tc S2000x1 32 [0] iota_S2000x1_d0_w32 (ValueIdx.ix2 r (0 : Fin 1))) = _
      rw [iota_single_apply]
      rfl
    rw [e21, e22]
  · rw [ValueIdx.truncf_apply, shapeCast_self]

/-! ## The root product's operand indices -/

theorem lhs_root8_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_root8_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_root8_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_root8_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- THE STORED PAYLOAD at (r, f): max (acc (r, f) + sum over k of h0 (r, k) * root_w (k, f) + bias f) 0. -/
theorem k8_pay3_apply (x2 : Vec Ideal S2000x128 .f32) (x3 : Vec Ideal S128x128 .f32) (acc : Vec Ideal S2000x128 .f32) (x4 : Vec Ideal S1x128 .f32)
    (r : Fin 2000) (f : Fin 128) :
    k8_pay3 (F := Ideal) x2 x3 acc x4 (ValueIdx.ix2 r f)
      = max (acc (ValueIdx.ix2 r f) + ∑ k : Fin 128, x2 (ValueIdx.ix2 r k) * x3 (ValueIdx.ix2 k f) + x4 (ValueIdx.ix2 (0 : Fin 1) f)) 0 := by
  unfold k8_pay3
  simp only [matmul]
  rw [ValueIdx.maximumf_apply, ValueIdx.addf_apply, ValueIdx.addf_apply, ValueIdx.broadcast_apply]
  rw [Ideal.matmul_constant_zero_apply, ← Equiv.sum_comp (ValueIdx.contrEquiv1 dot_S2000x128_S128x128_S2000x128_1_0_0_1_n_n 128 rfl rfl).symm]
  have e4 : broadcastTo S2000x128 (shapeCast S1x128 x4 shapeCasts_S1x128_S1x128) broadcasts_S1x128_S2000x128 (ValueIdx.ix2 r f)
      = x4 (ValueIdx.ix2 (0 : Fin 1) f) := by
    rw [ValueIdx.broadcastTo_1b_ab_apply, shapeCast_self]
  have e0 : (Scalar.ofBits (F := Ideal) .f32 0x00000000#32 : Ideal .f32) = 0 := Ideal.ofBits_zero_f32
  rw [e4, e0]
  refine congrArg (fun s => max (acc (ValueIdx.ix2 r f) + s + x4 (ValueIdx.ix2 (0 : Fin 1) f)) 0) (Finset.sum_congr rfl fun k _ => ?_)
  have hk := ValueIdx.contrEquiv1_symm_val dot_S2000x128_S128x128_S2000x128_1_0_0_1_n_n 128 rfl rfl k
  have el : dot_S2000x128_S128x128_S2000x128_1_0_0_1_n_n.lhsIdx (ValueIdx.ix2 r f) ((ValueIdx.contrEquiv1 dot_S2000x128_S128x128_S2000x128_1_0_0_1_n_n 128 rfl rfl).symm k) = ValueIdx.ix2 r k := funext fun a => Fin.ext (by
    match a with
    | ⟨0, _⟩ => exact lhs_root8_0 _ _
    | ⟨1, _⟩ => exact (lhs_root8_1 _ _).trans hk)
  have er : dot_S2000x128_S128x128_S2000x128_1_0_0_1_n_n.rhsIdx (ValueIdx.ix2 r f) ((ValueIdx.contrEquiv1 dot_S2000x128_S128x128_S2000x128_1_0_0_1_n_n 128 rfl rfl).symm k) = ValueIdx.ix2 k f := funext fun a => Fin.ext (by
    match a with
    | ⟨0, _⟩ => exact (rhs_root8_0 _ _).trans hk
    | ⟨1, _⟩ => exact rhs_root8_1 _ _)
  rw [el, er, ValueIdx.truncf_apply, ValueIdx.truncf_apply, shapeCast_self, shapeCast_self]

/-! ## Signed comparisons and the gate in closed form -/

/-- A signed comparison's bit. -/
theorem vs8_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed. -/
theorem vs8_toInt_ofNat_lt50 : ∀ k : Fin 50, (BitVec.ofNat 32 k.val).toInt = (k.val : ℤ) := by decide

/-- THE GATE: the body accumulates at coordinates i exactly when the two table words bracket the first coordinate. -/
theorem vcond8_2_iff (i : grid8.Coords) (wlo whi : BitVec 32) :
    cond8_2 (F := Ideal) i wlo whi ↔ (wlo.toInt ≤ ((i 0).val : ℤ) ∧ ((i 0).val : ℤ) ≤ whi.toInt) := by
  have hI : (BitVec.ofNat 32 (i 0).val).toInt = ((i 0).val : ℤ) := vs8_toInt_ofNat_lt50 (i 0)
  show ((Scalar.cmpi .ne (Scalar.extui (Scalar.andi (Scalar.cmpi .sle wlo (BitVec.ofNat 32 (i 0).val)) (Scalar.cmpi .sle (BitVec.ofNat 32 (i 0).val) whi))) 0#32 : BitVec 1) = 1#1) ↔ _
  rw [vs8_sle_bit, vs8_sle_bit, hI]
  by_cases h1 : wlo.toInt ≤ ((i 0).val : ℤ)
  · by_cases h2 : ((i 0).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 0).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-- An edge block's number as a 32-bit index is itself. -/
theorem vs8_toNat_ofNat_lt123 : ∀ k : Fin 123, (BitVec.ofNat 32 k.val).toNat = k.val := by decide
theorem vs8_toNat_ofNat_lt50 : ∀ k : Fin 50, (BitVec.ofNat 32 k.val).toNat = k.val := by decide

/-- Two rank-1 indices with the same coordinate are equal. -/
theorem vs8_idx1_ext {n : ℕ} (x y : (⟨1, ![n]⟩ : Shape).Idx) (h : (x 0).val = (y 0).val) : x = y := funext fun a => by
  have ha : a = 0 := Subsingleton.elim _ _
  subst ha
  exact Fin.ext h

/-- The word the body compares from below is the first table's word of the second coordinate, -/
theorem vwd8_0_eq (c : Dev nD) (i : grid8.Coords) (xt : TbBuf8 (F := Ideal) c tbM8_0) (j : Fin 123) (hj : (i 1).val = j.val) :
    wd8_0 c i xt = (xt : S123.Idx → BitVec 32) (Shape.Idx.ofFin j) := by
  show (xt : S123.Idx → BitVec 32) _ = _
  refine congrArg (xt : S123.Idx → BitVec 32) (vs8_idx1_ext _ _ ?_)
  show (BitVec.ofNat 32 (i 1).val).toNat + 1 * 0 = j.val
  rw [vs8_toNat_ofNat_lt123 (i 1), hj]
  omega
/-- and the word it compares from above the second table's. -/
theorem vwd8_1_eq (c : Dev nD) (i : grid8.Coords) (xt : TbBuf8 (F := Ideal) c tbM8_1) (j : Fin 123) (hj : (i 1).val = j.val) :
    wd8_1 c i xt = (xt : S123.Idx → BitVec 32) (Shape.Idx.ofFin j) := by
  show (xt : S123.Idx → BitVec 32) _ = _
  refine congrArg (xt : S123.Idx → BitVec 32) (vs8_idx1_ext _ _ ?_)
  show (BitVec.ofNat 32 (i 1).val).toNat + 1 * 0 = j.val
  rw [vs8_toNat_ofNat_lt123 (i 1), hj]
  omega

/-! ## The two edge windows' index maps on the table words -/

/-- The word of a table of 50 an index map reads at the first coordinate. -/
theorem tbl50_emb8 (i : grid8.Coords) (iv : Fin 50) (hi : (i 0).val = iv.val)
    (inb : ∀ a, (![(Scalar.indexCast (BitVec.ofNat 32 (i 0).val)).toNat] : Fin 1 → Nat) a + S1.size a ≤ S50.size a) (h1 : 0 < S1.numel) :
    (Rect.unit (s := S50) ![(Scalar.indexCast (BitVec.ofNat 32 (i 0).val)).toNat] S1.size inb).emb (Shape.Idx.first h1) = Shape.Idx.ofFin iv := by
  refine vs8_idx1_ext _ _ ?_
  show (BitVec.ofNat 32 (i 0).val).toNat + 1 * 0 = iv.val
  rw [vs8_toNat_ofNat_lt50 (i 0), hi]
  omega

theorem cc8_transform_0_eq (pf : pre8.Contents (Elt Ideal)) (i : grid8.Coords) (iv : Fin 50) (hi : (i 0).val = iv.val) :
    cc8_transform_0 k8_off1_inb numel1_S1 pf i
      = ![0, (Scalar.minsi (Scalar.maxsi (BitVec.ofNat 32 (i 1).val) ((pf 2 : S50.Idx → BitVec 32) (Shape.Idx.ofFin iv)))
              ((pf 3 : S50.Idx → BitVec 32) (Shape.Idx.ofFin iv))).toNat] := by
  have e2 : pf.at 2 (Rect.unit (s := S50) ![(Scalar.indexCast (BitVec.ofNat 32 (i 0).val)).toNat] S1.size (k8_off1_inb i)) numel1_S1
      = (pf 2 : S50.Idx → BitVec 32) (Shape.Idx.ofFin iv) := congrArg (pf 2 : S50.Idx → BitVec 32) (tbl50_emb8 i iv hi _ _)
  have e3 : pf.at 3 (Rect.unit (s := S50) ![(Scalar.indexCast (BitVec.ofNat 32 (i 0).val)).toNat] S1.size (k8_off1_inb i)) numel1_S1
      = (pf 3 : S50.Idx → BitVec 32) (Shape.Idx.ofFin iv) := congrArg (pf 3 : S50.Idx → BitVec 32) (tbl50_emb8 i iv hi _ _)
  unfold cc8_transform_0
  dsimp only
  rw [e2, e3]
  rfl

theorem cc8_transform_1_eq (pf : pre8.Contents (Elt Ideal)) (i : grid8.Coords) (iv : Fin 50) (hi : (i 0).val = iv.val) :
    cc8_transform_1 k8_off1_inb numel1_S1 pf i
      = ![(Scalar.minsi (Scalar.maxsi (BitVec.ofNat 32 (i 1).val) ((pf 2 : S50.Idx → BitVec 32) (Shape.Idx.ofFin iv)))
              ((pf 3 : S50.Idx → BitVec 32) (Shape.Idx.ofFin iv))).toNat, 0] := by
  have e2 : pf.at 2 (Rect.unit (s := S50) ![(Scalar.indexCast (BitVec.ofNat 32 (i 0).val)).toNat] S1.size (k8_off1_inb i)) numel1_S1
      = (pf 2 : S50.Idx → BitVec 32) (Shape.Idx.ofFin iv) := congrArg (pf 2 : S50.Idx → BitVec 32) (tbl50_emb8 i iv hi _ _)
  have e3 : pf.at 3 (Rect.unit (s := S50) ![(Scalar.indexCast (BitVec.ofNat 32 (i 0).val)).toNat] S1.size (k8_off1_inb i)) numel1_S1
      = (pf 3 : S50.Idx → BitVec 32) (Shape.Idx.ofFin iv) := congrArg (pf 3 : S50.Idx → BitVec 32) (tbl50_emb8 i iv hi _ _)
  unfold cc8_transform_1
  dsimp only
  rw [e2, e3]
  rfl

/-! ## The arrays the region reads, the table words, the gate -/

section Region8

variable (a : (p : Fin 13) → (pcfgs (F := Ideal) p).Adm)
variable (V : (c : Dev nD) → (b : Ref sig .tc) → Buf (Elt Ideal) ((c : Thread nD τ).loc b))

/-- The sorted column words (one row of 629760 = 123 * 5120 words), -/
abbrev colA8 (c : Dev nD) : S1x629760.Idx → BitVec 32 := V c main_v113
/-- the edge payload rows, -/
abbrev scaledA8 (c : Dev nD) : S629760x128.Idx → Elt Ideal .f32 := V c main_v139
/-- the node features, -/
abbrev h0A8 (c : Dev nD) : S100000x128.Idx → Elt Ideal .f32 := V c main_v6
/-- the root weight, -/
abbrev rwA8 (c : Dev nD) : S128x128.Idx → Elt Ideal .f32 := V c main_v141
/-- and the bias row, as the region finds them. -/
abbrev bA8 (c : Dev nD) : S1x128.Idx → Elt Ideal .f32 := V c main_v144

/-- The four prefetched tables at the admissible contents: per edge block the least and the greatest node block of its
    column words, per node block the first and the last edge block that may hold it. -/
abbrev loT8 : S123.Idx → BitVec 32 := (a 8).1 0
abbrev hiT8 : S123.Idx → BitVec 32 := (a 8).1 1
abbrev eloT8 : S50.Idx → BitVec 32 := (a 8).1 2
abbrev ehiT8 : S50.Idx → BitVec 32 := (a 8).1 3

/-- THE GATE of tile (i, j), on the table words: lo j ≤ i ≤ hi j, signed. -/
abbrev gate8 (i : ℕ) (j : Fin 123) : Prop :=
  (loT8 a (Shape.Idx.ofFin j)).toInt ≤ (i : ℤ) ∧ (i : ℤ) ≤ (hiT8 a (Shape.Idx.ofFin j)).toInt

/-- Position k of edge block j among the 629760 edge positions. -/
def ePos8 (j : Fin 123) (k : Fin 5120) : Fin 629760 := ⟨j.val * 5120 + k.val, by have := j.isLt; have := k.isLt; omega⟩

theorem ePos8_val (j : Fin 123) (k : Fin 5120) : (ePos8 j k).val = j.val * 5120 + k.val := rfl

/-- What edge block j adds to entry (n, f): the payload rows of the block's positions whose column word is n. -/
def scatTerm8 (c : Dev nD) (n : ℕ) (f : Fin 128) (j : Fin 123) : EReal :=
  ∑ k : Fin 5120, (if (colA8 V c (ValueIdx.ix2 (0 : Fin 1) (ePos8 j k))).toNat = n then (1 : EReal) else 0)
    * scaledA8 V c (ValueIdx.ix2 (ePos8 j k) f)

/-- Entry (n, f) of the result: max (S + (h0 . root_w) (n, f) + bias f) 0, with S the sum over the edge blocks j the
    gate admits for node block n / 2000 of that block's contribution. -/
def scatE8 (c : Dev nD) (n : Fin 100000) (f : Fin 128) : EReal :=
  max ((∑ j : Fin 123, if gate8 a (n.val / 2000) j then scatTerm8 V c n.val f j else 0)
      + ∑ k : Fin 128, h0A8 V c (ValueIdx.ix2 n k) * rwA8 V c (ValueIdx.ix2 k f)
      + bA8 V c (ValueIdx.ix2 (0 : Fin 1) f)) 0

/-- WHAT THE RESULT ARRAY ENDS HOLDING. -/
def scatG8 (c : Dev nD) : S100000x128.Idx → Elt Ideal .f32 := fun x =>
  scatE8 a V c ⟨(x 0).val, (x 0).isLt⟩ ⟨(x 1).val, (x 1).isLt⟩

/-- On every tile the gate admits, the clamped block index of the two edge windows is the edge block itself. -/
def Hclamp8 : Prop := ∀ (i : Fin 50) (j : Fin 123), gate8 a i.val j →
  (Scalar.minsi (Scalar.maxsi (BitVec.ofNat 32 j.val) (eloT8 a (Shape.Idx.ofFin i))) (ehiT8 a (Shape.Idx.ofFin i))).toNat = j.val

/-! ## The grid's coordinates and the windows' block indices at a point -/

theorem N8_val : (cfgM8 a).N = 6150 := N_8

theorem vcoord8_0 (n : ℕ) (hn : n < (cfgM8 a).N) (i : Fin 50) (hi : n / 123 = i.val) : (grid8.coords (⟨n, hn⟩ : Fin (cfgM8 a).N) 0).val = i.val := by
  have hN : (cfgM8 a).N = 6150 := N_8
  have e := coords8_0 (⟨n, hn⟩ : Fin grid8.N)
  have e' : (grid8.coords (⟨n, hn⟩ : Fin (cfgM8 a).N) 0).val = n / 123 % 50 := e
  rw [e']; omega
theorem vcoord8_1 (n : ℕ) (hn : n < (cfgM8 a).N) (j : Fin 123) (hj : n % 123 = j.val) : (grid8.coords (⟨n, hn⟩ : Fin (cfgM8 a).N) 1).val = j.val := by
  have e : (grid8.coords (⟨n, hn⟩ : Fin (cfgM8 a).N) 1).val = n % 123 := coords8_1 (⟨n, hn⟩ : Fin grid8.N)
  rw [e, hj]

theorem vindex8_0 (t : Fin (cfgM8 a).N) : ((cfgM8 a).win 0).index t = cc8_transform_0 k8_off1_inb numel1_S1 (a 8).1 (grid8.coords t) := rfl
theorem vindex8_1 (t : Fin (cfgM8 a).N) : ((cfgM8 a).win 1).index t = cc8_transform_1 k8_off1_inb numel1_S1 (a 8).1 (grid8.coords t) := rfl
theorem vindex8_2 (t : Fin (cfgM8 a).N) : ((cfgM8 a).win 2).index t = ![(BitVec.ofNat 32 (grid8.coords t 0).val).toNat, 0] := rfl
theorem vindex8_3 (t : Fin (cfgM8 a).N) : ((cfgM8 a).win 3).index t = ![0, 0] := rfl
theorem vindex8_4 (t : Fin (cfgM8 a).N) : ((cfgM8 a).win 4).index t = ![0, 0] := rfl
theorem vindex8_5 (t : Fin (cfgM8 a).N) : ((cfgM8 a).win 5).index t = ![(BitVec.ofNat 32 (grid8.coords t 0).val).toNat, 0] := rfl

/-- On an admitted tile (i, j) the column window's block is (0, j) -/
theorem vindex8_0_of_gate (hc : Hclamp8 a) (n : ℕ) (hn : n < (cfgM8 a).N) (i : Fin 50) (j : Fin 123) (hi : n / 123 = i.val) (hj : n % 123 = j.val)
    (hg : gate8 a i.val j) : ((cfgM8 a).win 0).index ⟨n, hn⟩ = ![0, j.val] := by
  rw [vindex8_0, cc8_transform_0_eq (a 8).1 (grid8.coords ⟨n, hn⟩) i (vcoord8_0 a n hn i hi), vcoord8_1 a n hn j hj]
  exact congrArg (fun x => ![0, x]) (hc i j hg)
/-- and the payload window's block is (j, 0). -/
theorem vindex8_1_of_gate (hc : Hclamp8 a) (n : ℕ) (hn : n < (cfgM8 a).N) (i : Fin 50) (j : Fin 123) (hi : n / 123 = i.val) (hj : n % 123 = j.val)
    (hg : gate8 a i.val j) : ((cfgM8 a).win 1).index ⟨n, hn⟩ = ![j.val, 0] := by
  rw [vindex8_1, cc8_transform_1_eq (a 8).1 (grid8.coords ⟨n, hn⟩) i (vcoord8_0 a n hn i hi), vcoord8_1 a n hn j hj]
  exact congrArg (fun x => ![x, 0]) (hc i j hg)

/-! ## The input blocks at a point, as vectors of their literal types, read off the arrays -/

abbrev cblk8 (c : Dev nD) (t : Fin (cfgM8 a).N) : Vec Ideal S1x5120 .i32 := iblk8 a V c 0 t
abbrev sblk8 (c : Dev nD) (t : Fin (cfgM8 a).N) : Vec Ideal S5120x128 .f32 := iblk8 a V c 1 t
abbrev hblk8 (c : Dev nD) (t : Fin (cfgM8 a).N) : Vec Ideal S2000x128 .f32 := iblk8 a V c 2 t
abbrev wblk8 (c : Dev nD) (t : Fin (cfgM8 a).N) : Vec Ideal S128x128 .f32 := iblk8 a V c 3 t
abbrev bblk8 (c : Dev nD) (t : Fin (cfgM8 a).N) : Vec Ideal S1x128 .f32 := iblk8 a V c 4 t

theorem cblk8_apply (c : Dev nD) (t : Fin (cfgM8 a).N) (j : Fin 123) (hidx : ((cfgM8 a).win 0).index t = ![0, j.val]) (k : Fin 5120) :
    cblk8 a V c t (ValueIdx.ix2 (0 : Fin 1) k) = colA8 V c (ValueIdx.ix2 (0 : Fin 1) (ePos8 j k)) := by
  have h0 : ((cfgM8 a).win 0).index t (0 : Fin 2) = 0 := congrFun hidx (0 : Fin 2)
  have h1 : ((cfgM8 a).win 0).index t (1 : Fin 2) = j.val := congrFun hidx (1 : Fin 2)
  show V c main_v113 ((((cfgM8 a).win 0).blk t).view.emb (ValueIdx.ix2 (0 : Fin 1) k)) = V c main_v113 (ValueIdx.ix2 (0 : Fin 1) (ePos8 j k))
  refine congrArg (V c main_v113) (funext fun x => Fin.ext ?_)
  match x with
  | ⟨0, _⟩ => show ((cfgM8 a).win 0).index t (0 : Fin 2) * 1 + 1 * 0 = 0; omega
  | ⟨1, _⟩ => show ((cfgM8 a).win 0).index t (1 : Fin 2) * 5120 + 1 * k.val = j.val * 5120 + k.val; omega

theorem sblk8_apply (c : Dev nD) (t : Fin (cfgM8 a).N) (j : Fin 123) (hidx : ((cfgM8 a).win 1).index t = ![j.val, 0]) (k : Fin 5120) (f : Fin 128) :
    sblk8 a V c t (ValueIdx.ix2 k f) = scaledA8 V c (ValueIdx.ix2 (ePos8 j k) f) := by
  have h0 : ((cfgM8 a).win 1).index t (0 : Fin 2) = j.val := congrFun hidx (0 : Fin 2)
  have h1 : ((cfgM8 a).win 1).index t (1 : Fin 2) = 0 := congrFun hidx (1 : Fin 2)
  show V c main_v139 ((((cfgM8 a).win 1).blk t).view.emb (ValueIdx.ix2 k f)) = V c main_v139 (ValueIdx.ix2 (ePos8 j k) f)
  refine congrArg (V c main_v139) (funext fun x => Fin.ext ?_)
  match x with
  | ⟨0, _⟩ => show ((cfgM8 a).win 1).index t (0 : Fin 2) * 5120 + 1 * k.val = j.val * 5120 + k.val; omega
  | ⟨1, _⟩ => show ((cfgM8 a).win 1).index t (1 : Fin 2) * 128 + 1 * f.val = f.val; omega

theorem hblk8_apply (c : Dev nD) (n : ℕ) (hn : n < (cfgM8 a).N) (i : Fin 50) (hi : n / 123 = i.val) (r : Fin 2000) (k : Fin 128)
    (hlt : i.val * 2000 + r.val < 100000) :
    hblk8 a V c ⟨n, hn⟩ (ValueIdx.ix2 r k) = h0A8 V c (ValueIdx.ix2 (⟨i.val * 2000 + r.val, hlt⟩ : Fin 100000) k) := by
  have hidx := vindex8_2 a ⟨n, hn⟩
  rw [vcoord8_0 a n hn i hi, vs8_toNat_ofNat_lt50 i] at hidx
  have h0 : ((cfgM8 a).win 2).index ⟨n, hn⟩ (0 : Fin 2) = i.val := congrFun hidx (0 : Fin 2)
  have h1 : ((cfgM8 a).win 2).index ⟨n, hn⟩ (1 : Fin 2) = 0 := congrFun hidx (1 : Fin 2)
  show V c main_v6 ((((cfgM8 a).win 2).blk ⟨n, hn⟩).view.emb (ValueIdx.ix2 r k)) = V c main_v6 (ValueIdx.ix2 (⟨i.val * 2000 + r.val, hlt⟩ : Fin 100000) k)
  refine congrArg (V c main_v6) (funext fun x => Fin.ext ?_)
  match x with
  | ⟨0, _⟩ => show ((cfgM8 a).win 2).index ⟨n, hn⟩ (0 : Fin 2) * 2000 + 1 * r.val = i.val * 2000 + r.val; omega
  | ⟨1, _⟩ => show ((cfgM8 a).win 2).index ⟨n, hn⟩ (1 : Fin 2) * 128 + 1 * k.val = k.val; omega

theorem wblk8_apply (c : Dev nD) (t : Fin (cfgM8 a).N) (k : Fin 128) (f : Fin 128) :
    wblk8 a V c t (ValueIdx.ix2 k f) = rwA8 V c (ValueIdx.ix2 k f) := by
  have hidx := vindex8_3 a t
  have h0 : ((cfgM8 a).win 3).index t (0 : Fin 2) = 0 := congrFun hidx (0 : Fin 2)
  have h1 : ((cfgM8 a).win 3).index t (1 : Fin 2) = 0 := congrFun hidx (1 : Fin 2)
  show V c main_v141 ((((cfgM8 a).win 3).blk t).view.emb (ValueIdx.ix2 k f)) = V c main_v141 (ValueIdx.ix2 k f)
  refine congrArg (V c main_v141) (funext fun x => Fin.ext ?_)
  match x with
  | ⟨0, _⟩ => show ((cfgM8 a).win 3).index t (0 : Fin 2) * 128 + 1 * k.val = k.val; omega
  | ⟨1, _⟩ => show ((cfgM8 a).win 3).index t (1 : Fin 2) * 128 + 1 * f.val = f.val; omega

theorem bblk8_apply (c : Dev nD) (t : Fin (cfgM8 a).N) (f : Fin 128) :
    bblk8 a V c t (ValueIdx.ix2 (0 : Fin 1) f) = bA8 V c (ValueIdx.ix2 (0 : Fin 1) f) := by
  have hidx := vindex8_4 a t
  have h0 : ((cfgM8 a).win 4).index t (0 : Fin 2) = 0 := congrFun hidx (0 : Fin 2)
  have h1 : ((cfgM8 a).win 4).index t (1 : Fin 2) = 0 := congrFun hidx (1 : Fin 2)
  show V c main_v144 ((((cfgM8 a).win 4).blk t).view.emb (ValueIdx.ix2 (0 : Fin 1) f)) = V c main_v144 (ValueIdx.ix2 (0 : Fin 1) f)
  refine congrArg (V c main_v144) (funext fun x => Fin.ext ?_)
  match x with
  | ⟨0, _⟩ => show ((cfgM8 a).win 4).index t (0 : Fin 2) * 1 + 1 * 0 = 0; omega
  | ⟨1, _⟩ => show ((cfgM8 a).win 4).index t (1 : Fin 2) * 128 + 1 * f.val = f.val; omega

/-! ## One point's step of the accumulator at an entry -/

/-- A column word is the node 2000 i + r computed in 32-bit words exactly when it is that number. -/
theorem vs8_word_eq_node (w : BitVec 32) (i r : ℕ) (h : i * 2000 + r < 2 ^ 32) :
    (w = BitVec.ofNat 32 i * 2000#32 + BitVec.ofNat 32 r) ↔ w.toNat = i * 2000 + r := by
  rw [← Cert.Math.toNat_ofNat_mul_add i 2000 r h]
  exact ⟨fun e => congrArg BitVec.toNat e, fun e => BitVec.eq_of_toNat_eq e⟩

/-- The step over VARIABLES of the blocks' literal types: zeroed where the second coordinate is 0, the one-hot product
    added where the words bracket the first. -/
theorem acc8_apply (i : grid8.Coords) (wlo whi : BitVec 32) (x0 : Vec Ideal S1x5120 .i32) (x1 : Vec Ideal S5120x128 .f32)
    (xs : Vec Ideal S2000x128 .f32) (r : Fin 2000) (f : Fin 128) :
    acc8 (F := Ideal) i wlo whi x0 x1 xs (ValueIdx.ix2 r f)
      = (if (i 1).val = 0 then (0 : EReal) else xs (ValueIdx.ix2 r f))
        + if (wlo.toInt ≤ ((i 0).val : ℤ) ∧ ((i 0).val : ℤ) ≤ whi.toInt) then
            ∑ k : Fin 5120, (if x0 (ValueIdx.ix2 (0 : Fin 1) k) = BitVec.ofNat 32 (i 0).val * 2000#32 + BitVec.ofNat 32 r.val then (1 : EReal) else 0)
              * x1 (ValueIdx.ix2 k f)
          else 0 := by
  have hbase : (if cond8_1 i then (k8_pay1 (F := Ideal) : Vec Ideal S2000x128 .f32) else xs) (ValueIdx.ix2 r f)
      = if (i 1).val = 0 then (0 : EReal) else xs (ValueIdx.ix2 r f) := by
    by_cases h : (i 1).val = 0
    · rw [if_pos ((cond8_1_iff i).mpr h), if_pos h]; exact k8_pay1_apply _
    · rw [if_neg (fun h' => h ((cond8_1_iff i).mp h')), if_neg h]
  unfold acc8
  by_cases hg : (wlo.toInt ≤ ((i 0).val : ℤ) ∧ ((i 0).val : ℤ) ≤ whi.toInt)
  · rw [if_pos ((vcond8_2_iff i wlo whi).mpr hg), if_pos hg]
    refine (k8_pay8_apply i x0 x1 _ r f).trans ?_
    rw [hbase]
  · rw [if_neg (fun h' => hg ((vcond8_2_iff i wlo whi).mp h')), if_neg hg, add_zero]
    exact hbase

/-- THE STEP AT A POINT (i, j) of the grid, under the clamp hypothesis: the entry (r, f) of the accumulator is zeroed
    first where j = 0, then edge block j's contribution to node 2000 i + r is added where the gate admits (i, j). -/
theorem accStep8_apply (hc : Hclamp8 a) (c : Dev nD) (n : ℕ) (hn : n < (cfgM8 a).N) (i : Fin 50) (j : Fin 123)
    (hi : n / 123 = i.val) (hj : n % 123 = j.val) (xs : Vec Ideal S2000x128 .f32) (r : Fin 2000) (f : Fin 128) :
    accStep8 a V c ⟨n, hn⟩ xs (ValueIdx.ix2 r f)
      = (if j.val = 0 then (0 : EReal) else xs (ValueIdx.ix2 r f))
        + if gate8 a i.val j then scatTerm8 V c (i.val * 2000 + r.val) f j else 0 := by
  have hstep := acc8_apply (grid8.coords (⟨n, hn⟩ : Fin (cfgM8 a).N)) (wd8_0 c (grid8.coords (⟨n, hn⟩ : Fin (cfgM8 a).N)) ((a 8).1 0))
    (wd8_1 c (grid8.coords (⟨n, hn⟩ : Fin (cfgM8 a).N)) ((a 8).1 1)) (cblk8 a V c ⟨n, hn⟩) (sblk8 a V c ⟨n, hn⟩) xs r f
  refine hstep.trans ?_
  rw [vwd8_0_eq c (grid8.coords (⟨n, hn⟩ : Fin (cfgM8 a).N)) ((a 8).1 0) j (vcoord8_1 a n hn j hj), vwd8_1_eq c (grid8.coords (⟨n, hn⟩ : Fin (cfgM8 a).N)) ((a 8).1 1) j (vcoord8_1 a n hn j hj), vcoord8_0 a n hn i hi, vcoord8_1 a n hn j hj]
  by_cases hg : gate8 a i.val j
  · rw [if_pos hg, if_pos hg]
    refine congrArg (_ + ·) (Finset.sum_congr rfl fun k _ => ?_)
    rw [cblk8_apply a V c ⟨n, hn⟩ j (vindex8_0_of_gate a hc n hn i j hi hj hg) k,
      sblk8_apply a V c ⟨n, hn⟩ j (vindex8_1_of_gate a hc n hn i j hi hj hg) k f]
    refine congrArg (· * _) ?_
    have hlt : i.val * 2000 + r.val < 2 ^ 32 := by have := i.isLt; have := r.isLt; omega
    by_cases hw : (colA8 V c (ValueIdx.ix2 (0 : Fin 1) (ePos8 j k))).toNat = i.val * 2000 + r.val
    · rw [if_pos ((vs8_word_eq_node _ _ _ hlt).mpr hw), if_pos hw]
    · rw [if_neg (fun h' => hw ((vs8_word_eq_node _ _ _ hlt).mp h')), if_neg hw]
  · rw [if_neg hg, if_neg hg]

/-! ## The accumulator along a row block's run of points -/

/-- Edge block j's admitted contribution to entry (2000 i + r, f), for a bare natural j (0 past the 123 blocks). -/
def gT8 (c : Dev nD) (i : Fin 50) (r : Fin 2000) (f : Fin 128) (j : ℕ) : EReal :=
  if h : j < 123 then (if gate8 a i.val ⟨j, h⟩ then scatTerm8 V c (i.val * 2000 + r.val) f ⟨j, h⟩ else 0) else 0

theorem accAt8_eq_step (c : Dev nD) (n : ℕ) (hn : n < (cfgM8 a).N) : ∃ xs, accAt8 a V c n hn = accStep8 a V c ⟨n, hn⟩ xs := by
  cases n with
  | zero => exact ⟨_, rfl⟩
  | succ m => exact ⟨_, rfl⟩

/-- THE ACCUMULATION: after tile (i, j) the accumulator's entry (r, f) is the sum of the admitted contributions of edge
    blocks 0 … j to node 2000 i + r. By induction on j; the tile j = 0 zeroes what the row block before left. -/
theorem accAt8_run (hc : Hclamp8 a) (c : Dev nD) (i : Fin 50) (r : Fin 2000) (f : Fin 128) :
    ∀ (j : ℕ) (hj : j < 123) (h : i.val * 123 + j < (cfgM8 a).N),
      accAt8 a V c (i.val * 123 + j) h (ValueIdx.ix2 r f) = ∑ j' ∈ Finset.range (j + 1), gT8 a V c i r f j'
  | 0, hj, h => by
    obtain ⟨xs, e⟩ := accAt8_eq_step a V c (i.val * 123 + 0) h
    rw [e, accStep8_apply a V hc c (i.val * 123 + 0) h i ⟨0, hj⟩ (by omega) (by show (i.val * 123 + 0) % 123 = 0; omega) xs r f,
      if_pos rfl, zero_add, Finset.sum_range_one]
    unfold gT8
    rw [dif_pos hj]
  | j + 1, hj, h => by
    have ih := accAt8_run hc c i r f j (by omega) (by omega)
    show accAt8 a V c ((i.val * 123 + j) + 1) h (ValueIdx.ix2 r f) = _
    rw [accAt8_succ, accStep8_apply a V hc c ((i.val * 123 + j) + 1) h i ⟨j + 1, hj⟩ (by omega) (by show (i.val * 123 + j + 1) % 123 = j + 1; omega) _ r f,
      if_neg (Nat.succ_ne_zero j), ih, Finset.sum_range_succ _ (j + 1)]
    refine congrArg (_ + ·) ?_
    unfold gT8
    rw [dif_pos hj]

/-- At the row block's last tile: the sum over the 123 edge blocks. -/
theorem accAt8_last (hc : Hclamp8 a) (c : Dev nD) (i : Fin 50) (r : Fin 2000) (f : Fin 128) (h : i.val * 123 + 122 < (cfgM8 a).N) :
    accAt8 a V c (i.val * 123 + 122) h (ValueIdx.ix2 r f)
      = ∑ j : Fin 123, if gate8 a i.val j then scatTerm8 V c (i.val * 2000 + r.val) f j else 0 := by
  rw [accAt8_run a V hc c i r f 122 (by omega) h, Finset.sum_range]
  refine Finset.sum_congr rfl fun j _ => ?_
  unfold gT8
  rw [dif_pos j.isLt]

/-! ## The output block at the storing tile, the write-back schedule, the cover -/

/-- The result window is written back exactly at the last tile of each row block, at any contents of the tables. -/
theorem vflush8_5 : ∀ t : Fin (cfgM8 a).N, ((cfgM8 a).win 5).flush t = decide (t.val % 123 = 122) :=
  (by decide +kernel : ∀ t : Fin grid8.N, Pipeline.Window.flushOf grid8 true cc8_transform_5 t = decide (t.val % 123 = 122))

/-- The array's contents at an index whose coordinates are known. -/
theorem scatG8_at (c : Dev nD) (E : S100000x128.Idx) (n : Fin 100000) (f : Fin 128) (h0 : (E 0).val = n.val) (h1 : (E 1).val = f.val) :
    scatG8 a V c E = scatE8 a V c n f := by
  have e0 : (⟨(E 0).val, (E 0).isLt⟩ : Fin 100000) = n := Fin.ext h0
  have e1 : (⟨(E 1).val, (E 1).isLt⟩ : Fin 128) = f := Fin.ext h1
  show scatE8 a V c ⟨(E 0).val, (E 0).isLt⟩ ⟨(E 1).val, (E 1).isLt⟩ = _
  rw [e0, e1]

/-- WHAT A STORING TILE WRITES BACK is its row block of the array `scatG8`. -/
theorem vflushed8_5_eq (hc : Hclamp8 a) (c : Dev nD) (t : Fin (cfgM8 a).N) (hf : ((cfgM8 a).win 5).flush t = true) :
    (dat8 a V c).flushed 5 t = (((cfgM8 a).win 5).blk t).view.read (Elt Ideal) (scatG8 a V c) := by
  rw [vflush8_5, decide_eq_true_eq] at hf
  have hN : (cfgM8 a).N = 6150 := N_8
  obtain ⟨n, hn⟩ := t
  obtain ⟨i, rfl⟩ : ∃ i : Fin 50, n = i.val * 123 + 122 := ⟨⟨n / 123, by omega⟩, by show n = n / 123 * 123 + 122; have : n % 123 = 122 := hf; omega⟩
  show ((cfgM8 a).win 5).cut (grid8.coords ⟨i.val * 123 + 122, hn⟩) ((dat8 a V c).after 5 ⟨i.val * 123 + 122, hn⟩) = _
  rw [after8_5]
  funext y
  obtain ⟨r, f, rfl⟩ : ∃ (r : Fin 2000) (f : Fin 128), y = ValueIdx.ix2 r f :=
    ⟨⟨(y (0 : Fin 2)).val, (y (0 : Fin 2)).isLt⟩, ⟨(y (1 : Fin 2)).val, (y (1 : Fin 2)).isLt⟩, funext fun x => by match x with | ⟨0, _⟩ => rfl | ⟨1, _⟩ => rfl⟩
  have hlt : i.val * 2000 + r.val < 100000 := by have := i.isLt; have := r.isLt; omega
  have hi : (i.val * 123 + 122) / 123 = i.val := by omega
  have hidx := vindex8_5 a ⟨i.val * 123 + 122, hn⟩
  rw [vcoord8_0 a _ hn i hi, vs8_toNat_ofNat_lt50 i] at hidx
  have h0 : ((cfgM8 a).win 5).index ⟨i.val * 123 + 122, hn⟩ (0 : Fin 2) = i.val := congrFun hidx (0 : Fin 2)
  have h1 : ((cfgM8 a).win 5).index ⟨i.val * 123 + 122, hn⟩ (1 : Fin 2) = 0 := congrFun hidx (1 : Fin 2)
  show k8_pay3 (F := Ideal) (hblk8 a V c ⟨i.val * 123 + 122, hn⟩) (wblk8 a V c ⟨i.val * 123 + 122, hn⟩) (accAt8 a V c (i.val * 123 + 122) hn) (bblk8 a V c ⟨i.val * 123 + 122, hn⟩) (ValueIdx.ix2 r f)
    = scatG8 a V c ((((cfgM8 a).win 5).blk ⟨i.val * 123 + 122, hn⟩).view.emb (ValueIdx.ix2 r f))
  have ex0 : ((((cfgM8 a).win 5).blk ⟨i.val * 123 + 122, hn⟩).view.emb (ValueIdx.ix2 r f) (0 : Fin 2)).val = i.val * 2000 + r.val := by
    show ((cfgM8 a).win 5).index ⟨i.val * 123 + 122, hn⟩ (0 : Fin 2) * 2000 + 1 * r.val = _; omega
  have ex1 : ((((cfgM8 a).win 5).blk ⟨i.val * 123 + 122, hn⟩).view.emb (ValueIdx.ix2 r f) (1 : Fin 2)).val = f.val := by
    show ((cfgM8 a).win 5).index ⟨i.val * 123 + 122, hn⟩ (1 : Fin 2) * 128 + 1 * f.val = _; omega
  refine Eq.trans ?_ (scatG8_at a V c _ ⟨i.val * 2000 + r.val, hlt⟩ f ex0 ex1).symm
  refine (k8_pay3_apply (hblk8 a V c ⟨i.val * 123 + 122, hn⟩) (wblk8 a V c ⟨i.val * 123 + 122, hn⟩) (accAt8 a V c (i.val * 123 + 122) hn) (bblk8 a V c ⟨i.val * 123 + 122, hn⟩) r f).trans ?_
  have hsum : ∑ k : Fin 128, hblk8 a V c ⟨i.val * 123 + 122, hn⟩ (ValueIdx.ix2 r k) * wblk8 a V c ⟨i.val * 123 + 122, hn⟩ (ValueIdx.ix2 k f)
      = ∑ k : Fin 128, h0A8 V c (ValueIdx.ix2 (⟨i.val * 2000 + r.val, hlt⟩ : Fin 100000) k) * rwA8 V c (ValueIdx.ix2 k f) :=
    Finset.sum_congr rfl fun k _ => by rw [hblk8_apply a V c _ hn i hi r k hlt, wblk8_apply a V c _ k f]
  have hdiv : (i.val * 2000 + r.val) / 2000 = i.val := by have := r.isLt; omega
  rw [hsum, bblk8_apply a V c _ f, accAt8_last a V hc c i r f hn]
  unfold scatE8
  dsimp only
  rw [hdiv]

/-- An index of the result array is in a point's block iff each coordinate is in the block's range on its axis. -/
theorem vmem_blk8_5 (t : Fin (cfgM8 a).N) (x : S100000x128.Idx) :
    x ∈ (((cfgM8 a).win 5).blk t).view.set ↔ ∀ ax : Fin 2, ((cfgM8 a).win 5).index t ax * S2000x128.size ax ≤ (x ax).val
      ∧ (x ax).val < ((cfgM8 a).win 5).index t ax * S2000x128.size ax + S2000x128.size ax := by
  show x ∈ ((View.whole main_v145).slice (((cfgM8 a).win 5).rect t)).set ↔ _
  refine (Eq.to_iff (congrArg (x ∈ ·) (View.set_slice_whole main_v145 (((cfgM8 a).win 5).rect t)))).trans ?_
  exact Rect.mem_set_unit

/-- THE ROW BLOCKS TILE THE ARRAY: row n is in the block the last tile of row block n / 2000 writes back. -/
theorem vcover8_5 (x : S100000x128.Idx) :
    ∃ t : Fin (cfgM8 a).N, ((cfgM8 a).win 5).flush t = true ∧ x ∈ (((cfgM8 a).win 5).blk t).view.set := by
  have hx0 : (x 0).val < 100000 := (x 0).isLt
  have hx1 : (x 1).val < 128 := (x 1).isLt
  have hN : (cfgM8 a).N = 6150 := N_8
  have hn : (x 0).val / 2000 * 123 + 122 < (cfgM8 a).N := by rw [hN]; omega
  have hi50 : (x 0).val / 2000 < 50 := by omega
  refine ⟨⟨(x 0).val / 2000 * 123 + 122, hn⟩, ?_, ?_⟩
  · rw [vflush8_5, decide_eq_true_eq]; show ((x 0).val / 2000 * 123 + 122) % 123 = 122; omega
  · rw [vmem_blk8_5]
    have hidx := vindex8_5 a ⟨(x 0).val / 2000 * 123 + 122, hn⟩
    rw [vcoord8_0 a _ hn ⟨(x 0).val / 2000, hi50⟩ (by show ((x 0).val / 2000 * 123 + 122) / 123 = (x 0).val / 2000; omega),
      vs8_toNat_ofNat_lt50 ⟨(x 0).val / 2000, hi50⟩] at hidx
    have h0 : ((cfgM8 a).win 5).index ⟨(x 0).val / 2000 * 123 + 122, hn⟩ (0 : Fin 2) = (x 0).val / 2000 := congrFun hidx (0 : Fin 2)
    have h1 : ((cfgM8 a).win 5).index ⟨(x 0).val / 2000 * 123 + 122, hn⟩ (1 : Fin 2) = 0 := congrFun hidx (1 : Fin 2)
    intro ax
    match ax with
    | ⟨0, _⟩ =>
      show ((cfgM8 a).win 5).index ⟨(x 0).val / 2000 * 123 + 122, hn⟩ (0 : Fin 2) * 2000 ≤ (x 0).val
        ∧ (x 0).val < ((cfgM8 a).win 5).index ⟨(x 0).val / 2000 * 123 + 122, hn⟩ (0 : Fin 2) * 2000 + 2000
      omega
    | ⟨1, _⟩ =>
      show ((cfgM8 a).win 5).index ⟨(x 0).val / 2000 * 123 + 122, hn⟩ (1 : Fin 2) * 128 ≤ (x 1).val
        ∧ (x 1).val < ((cfgM8 a).win 5).index ⟨(x 0).val / 2000 * 123 + 122, hn⟩ (1 : Fin 2) * 128 + 128
      omega

/-! ## The result array -/

/-- THE RESULT ARRAY after the region, under the clamp hypothesis. -/
theorem arr8_5 (c : Dev nD) (hc : Hclamp8 a) : (dat8 a V c).arrAt 5 (cfgM8 a).N = scatG8 a V c :=
  (dat8 a V c).arrAt_eq_of_cover 5 (scatG8 a V c) (fun t hf => vflushed8_5_eq a V hc c t hf) (vcover8_5 a)

/-- Index by index: entry (n, f) is max (sum over the admitted edge blocks j and their positions k of
    [col (j, k) = n] * scaled (j, k, f), plus the sum over k of h0 (n, k) * root_w (k, f), plus bias f) 0. -/
theorem arr8_5_apply (c : Dev nD) (hc : Hclamp8 a) (n : Fin 100000) (f : Fin 128) :
    (dat8 a V c).arrAt 5 (cfgM8 a).N (ValueIdx.ix2 n f)
      = max ((∑ j : Fin 123, if gate8 a (n.val / 2000) j then scatTerm8 V c n.val f j else 0)
          + ∑ k : Fin 128, h0A8 V c (ValueIdx.ix2 n k) * rwA8 V c (ValueIdx.ix2 k f)
          + bA8 V c (ValueIdx.ix2 (0 : Fin 1) f)) 0 :=
  (congrFun (arr8_5 a V c hc) (ValueIdx.ix2 n f)).trans (scatG8_at a V c (ValueIdx.ix2 n f) n f rfl rfl)

/-! ## The flat form: the sum over all 629760 edge positions

When the gate admits every tile whose edge block holds a position with column word n (the table words bracket every
column word's node block), the refused blocks contribute nothing to node n and the gated sum over blocks is the sum
over all positions. -/

/-- Every column word below 100000 has its node block between its edge block's two table words. -/
def Hgate8 (c : Dev nD) : Prop := ∀ (j : Fin 123) (k : Fin 5120),
  (colA8 V c (ValueIdx.ix2 (0 : Fin 1) (ePos8 j k))).toNat < 100000 →
    gate8 a ((colA8 V c (ValueIdx.ix2 (0 : Fin 1) (ePos8 j k))).toNat / 2000) j

/-- A refused edge block holds no position whose column word is n. -/
theorem scatTerm8_eq_zero (c : Dev nD) (hg : Hgate8 a V c) (n : Fin 100000) (f : Fin 128) (j : Fin 123)
    (h : ¬ gate8 a (n.val / 2000) j) : scatTerm8 V c n.val f j = 0 := by
  unfold scatTerm8
  refine Finset.sum_eq_zero fun k _ => ?_
  have hne : (colA8 V c (ValueIdx.ix2 (0 : Fin 1) (ePos8 j k))).toNat ≠ n.val := fun e => h (by
    have h' := hg j k (by rw [e]; exact n.isLt)
    rwa [e] at h')
  rw [if_neg hne, zero_mul]

/-- The 123 blocks of 5120 positions are the 629760 positions. -/
theorem sum_blocks8 (F : Fin 629760 → EReal) : ∑ j : Fin 123, ∑ k : Fin 5120, F (ePos8 j k) = ∑ e : Fin 629760, F e := by
  have hE : ∀ x : Fin 123 × Fin 5120, (finProdFinEquiv x : Fin (123 * 5120)) = ePos8 x.1 x.2 := fun x =>
    Fin.ext (by rw [finProdFinEquiv_apply_val, ePos8_val]; omega)
  rw [← Fintype.sum_prod_type' (fun j k => F (ePos8 j k))]
  rw [← Equiv.sum_comp (finProdFinEquiv : Fin 123 × Fin 5120 ≃ Fin (123 * 5120)) F]
  exact Finset.sum_congr rfl fun x _ => by rw [hE x]

/-- The gated sum over edge blocks is the sum over all edge positions. -/
theorem sum_gated8_eq_flat (c : Dev nD) (hg : Hgate8 a V c) (n : Fin 100000) (f : Fin 128) :
    (∑ j : Fin 123, if gate8 a (n.val / 2000) j then scatTerm8 V c n.val f j else 0)
      = ∑ e : Fin 629760, (if (colA8 V c (ValueIdx.ix2 (0 : Fin 1) e)).toNat = n.val then (1 : EReal) else 0)
          * scaledA8 V c (ValueIdx.ix2 e f) := by
  have h1 : (∑ j : Fin 123, if gate8 a (n.val / 2000) j then scatTerm8 V c n.val f j else 0)
      = ∑ j : Fin 123, scatTerm8 V c n.val f j := Finset.sum_congr rfl fun j _ => by
    by_cases h : gate8 a (n.val / 2000) j
    · rw [if_pos h]
    · rw [if_neg h, scatTerm8_eq_zero a V c hg n f j h]
  rw [h1]
  unfold scatTerm8
  exact sum_blocks8 (fun e => (if (colA8 V c (ValueIdx.ix2 (0 : Fin 1) e)).toNat = n.val then (1 : EReal) else 0)
    * scaledA8 V c (ValueIdx.ix2 e f))

/-- THE RESULT ARRAY, index by index, in the flat form: entry (n, f) is
    max (sum over ALL edge positions e of [col e = n] * scaled (e, f), plus sum over k of h0 (n, k) * root_w (k, f), plus bias f) 0. -/
theorem arr8_5_flat (c : Dev nD) (hc : Hclamp8 a) (hg : Hgate8 a V c) (n : Fin 100000) (f : Fin 128) :
    (dat8 a V c).arrAt 5 (cfgM8 a).N (ValueIdx.ix2 n f)
      = max ((∑ e : Fin 629760, (if (colA8 V c (ValueIdx.ix2 (0 : Fin 1) e)).toNat = n.val then (1 : EReal) else 0)
                * scaledA8 V c (ValueIdx.ix2 e f))
          + ∑ k : Fin 128, h0A8 V c (ValueIdx.ix2 n k) * rwA8 V c (ValueIdx.ix2 k f)
          + bA8 V c (ValueIdx.ix2 (0 : Fin 1) f)) 0 := by
  rw [arr8_5_apply a V c hc n f, sum_gated8_eq_flat a V c hg n f]

end Region8

end Cert.KernelIdeal.Hand

end
-- ==== Proof.KI.ValAllScatter8.lean ====
/- Region 8 (a scatter region) in the chain's form. Its result array, read in the valuation after the region, is
   the positive part of the gated one-hot sum over the edge blocks plus h0 times the root weight plus the bias, of the
   arrays as the valuation before the region holds them. The gate of tile (i, j) is the bracket lo j ≤ i ≤ hi j of the
   table words; the tables hold the words the host stretches before the first region leave, and on every tile the gate
   admits the clamped edge block min (max j (elo i)) (ehi i) is j itself. -/
import proofs.«415143_j42460046688958_3_alg».proof.Proof.KI.Assemble
import proofs.«415143_j42460046688958_3_alg».proof.Proof.KI.ValChain
import proofs.«415143_j42460046688958_3_alg».proof.Proof.KI.ValScatter8

noncomputable section

open scoped BigOperators

namespace Cert.KernelIdeal.Hand

open Cert.KernelIdeal Cert.KernelIdeal.Gen Idealize.ShloMosaic Idealize.ShloMosaic.TcCoe Idealize.SL.Sem

/-! ## Over any table contents: the region's value lemma at the chain's valuations -/

section AnyTables

variable (a : (p : Fin 13) → (pcfgs (F := Ideal) p).Adm) (m : (ℓ : Loc nD τ sig) → Buf (Elt Ideal) ℓ) (c : Dev nD)

/-- Region 8's value lemma over the chain's valuations, at any table contents on which the clamped edge block of an
    admitted tile is the block itself. -/
theorem scatterW8 (hc : Hclamp8 a) :
    ScatterVal (gate8 a) ePos8 (W46 a m c main_v113) (W46 a m c main_v139) (W46 a m c main_v6)
      (W46 a m c main_v141) (W46 a m c main_v144) (W47 a m c main_v145) := by
  intro n f
  have hout : (W47 a m c main_v145 : S100000x128.Idx → EReal)
      = (dat8 a (fun c b => W46 a m c b) c).arrAt (5 : Fin 6) (Pipeline.pin (pcfgs (F := Ideal)) a 8).N := by
    rw [W47_def]
    exact (Function.update_self _ _ _).trans (out8_def a m c)
  rw [hout]
  exact arr8_5_apply a (fun c b => W46 a m c b) c hc n f

end AnyTables

/-! ## At the program's tables -/

variable (m : (ℓ : Loc nD τ sig) → Buf (Elt Ideal) ℓ)

/-- The four table words of region 8 are the words the host stretches leave. -/
theorem loT8_all (x : S123.Idx) : loT8 (admAll (F := Ideal) m) x = (V33 m (0 : Dev nD) main_v81 : S123.Idx → BitVec 32) x := by
  show ((admAll (F := Ideal) m 8).1 0 : S123.Idx → BitVec 32) x = _
  rw [show admAll (F := Ideal) m 8 = adm8 m from rfl, adm8_val]
  rfl
theorem hiT8_all (x : S123.Idx) : hiT8 (admAll (F := Ideal) m) x = (V33 m (0 : Dev nD) main_v82 : S123.Idx → BitVec 32) x := by
  show ((admAll (F := Ideal) m 8).1 1 : S123.Idx → BitVec 32) x = _
  rw [show admAll (F := Ideal) m 8 = adm8 m from rfl, adm8_val]
  rfl
theorem eloT8_all (x : S50.Idx) : eloT8 (admAll (F := Ideal) m) x = (V33 m (0 : Dev nD) main_v110 : S50.Idx → BitVec 32) x := by
  show ((admAll (F := Ideal) m 8).1 2 : S50.Idx → BitVec 32) x = _
  rw [show admAll (F := Ideal) m 8 = adm8 m from rfl, adm8_val]
  rfl
theorem ehiT8_all (x : S50.Idx) : ehiT8 (admAll (F := Ideal) m) x = (V33 m (0 : Dev nD) main_v111 : S50.Idx → BitVec 32) x := by
  show ((admAll (F := Ideal) m 8).1 3 : S50.Idx → BitVec 32) x = _
  rw [show admAll (F := Ideal) m 8 = adm8 m from rfl, adm8_val]
  rfl

/-- Region 8's gate holds wherever its table words bracket the node block. -/
theorem gateS8_of (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) : gate8 (admAll m) i.val j := by
  obtain rfl : c = 0 := Subsingleton.elim _ _
  show (loT8 (admAll (F := Ideal) m) (Shape.Idx.ofFin j)).toInt ≤ (i.val : ℤ) ∧ (i.val : ℤ) ≤ (hiT8 (admAll (F := Ideal) m) (Shape.Idx.ofFin j)).toInt
  rw [loT8_all, hiT8_all]
  exact ⟨h1, h2⟩

/-- On every tile region 8's gate admits, the clamped edge block is the block itself. -/
theorem hclamp8 : Hclamp8 (admAll (F := Ideal) m) := by
  intro i j hg
  have hg' : (loT8 (admAll (F := Ideal) m) (Shape.Idx.ofFin j)).toInt ≤ (i.val : ℤ)
    ∧ (i.val : ℤ) ≤ (hiT8 (admAll (F := Ideal) m) (Shape.Idx.ofFin j)).toInt := hg
  rw [loT8_all, hiT8_all] at hg'
  obtain ⟨e1, e2⟩ := elo_ehi_of_gate m 0 i j hg'.1 hg'.2
  rw [eloT8_all, ehiT8_all]
  exact clamp_eq j.val _ _ e1 e2 (ehi_le m 0 _)

/-- Region 8's value lemma at the program's tables, in the valuations the run names. -/
theorem scatter2_val (c : Dev nD) :
    ScatterVal (gate8 (admAll m)) ePos8 (V46 m (outsAll m) c main_v113) (V46 m (outsAll m) c main_v139) (V46 m (outsAll m) c main_v6)
      (V46 m (outsAll m) c main_v141) (V46 m (outsAll m) c main_v144) (V47 m (outsAll m) c main_v145) := by
  rw [V46_eq (admAll m) m c, V47_eq (admAll m) m c]
  exact scatterW8 (admAll m) m c (hclamp8 m)

end Cert.KernelIdeal.Hand

end
-- ==== Proof.KI.ValScatter11.lean ====
/- The value of a scatter layer's region at the ideal instance. Tile (i, j) of the grid adds, into an accumulator of
   2000 rows carried along j, the product of a one-hot matrix (row r is hot at the positions k of edge block j whose
   column word is node 2000 i + r) with the block's 5120 payload rows; it does so only when the table words lo j, hi j
   bracket i, and on those tiles the clamped block index of the two edge windows is j itself. At the extended reals the
   format changes are the identity and a product into a zero accumulator is the plain sum, so after the last tile of
   row block i the accumulator's entry (r, f) is the sum, over the admitted edge blocks j and the positions k in them,
   of [col (j, k) = 2000 i + r] * scaled (j, k, f). The tile j = 122 then stores max (acc + h0 . root_w + bias) 0 to
   the result's row block i; the 50 row blocks tile the result array. -/
import proofs.«415143_j42460046688958_3_alg».proof.Proof.KI.Scatter11Defs
import proofs.«415143_j42460046688958_3_alg».proof.Proof.Math.LibOneHot
import Idealize.ShloMosaic.Lib.Pipeline.Value
import Idealize.ShloMosaic.Lib.Pipeline.Kit
import Idealize.ShloMosaic.Lib.ValueIdx
import Idealize.ShloMosaic.Lib.ValueLayout
import Idealize.ShloMosaic.Lib.SortFacts
import Idealize.ShloMosaic.PureOps.Ideal.Laws
import Mathlib.Logic.Equiv.Fin.Basic
import Mathlib.Data.Fintype.BigOperators

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ## Layout readings the payloads need -/

/-- A `[a, 1]` array broadcast to `[a, b]` reads, at `(p, c)`, the operand's one column at `p`. -/
theorem vs11_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The one-hot product's operand indices: output (r, f) and contraction index k read the one-hot at (r, k) and the payload at (k, f) -/

theorem lhs_hot11_0 (i : S2000x128.Idx) (q : dot_S2000x5120_S5120x128_S2000x128_1_0_0_1_n_n.contr.Idx) :
    (dot_S2000x5120_S5120x128_S2000x128_1_0_0_1_n_n.lhsIdx i q 0).val = (i 0).val := by
  unfold DotDims.lhsIdx
  rw [dif_neg (show ¬(0 : Fin S2000x5120.rank) ∈ dot_S2000x5120_S5120x128_S2000x128_1_0_0_1_n_n.lhsBatch by decide), dif_pos (show (0 : Fin S2000x5120.rank) ∈ dot_S2000x5120_S5120x128_S2000x128_1_0_0_1_n_n.lhsNonContracting by decide)]
  rfl
theorem lhs_hot11_1 (i : S2000x128.Idx) (q : dot_S2000x5120_S5120x128_S2000x128_1_0_0_1_n_n.contr.Idx) :
    (dot_S2000x5120_S5120x128_S2000x128_1_0_0_1_n_n.lhsIdx i q 1).val = (q ⟨0, by decide⟩).val :=
  dot_S2000x5120_S5120x128_S2000x128_1_0_0_1_n_n.lhsIdx_val_of_single rfl i q
theorem rhs_hot11_0 (i : S2000x128.Idx) (q : dot_S2000x5120_S5120x128_S2000x128_1_0_0_1_n_n.contr.Idx) :
    (dot_S2000x5120_S5120x128_S2000x128_1_0_0_1_n_n.rhsIdx i q 0).val = (q ⟨0, by decide⟩).val :=
  dot_S2000x5120_S5120x128_S2000x128_1_0_0_1_n_n.rhsIdx_val_of_single rfl i q
theorem rhs_hot11_1 (i : S2000x128.Idx) (q : dot_S2000x5120_S5120x128_S2000x128_1_0_0_1_n_n.contr.Idx) :
    (dot_S2000x5120_S5120x128_S2000x128_1_0_0_1_n_n.rhsIdx i q 1).val = (i 1).val := by
  unfold DotDims.rhsIdx
  rw [dif_neg (show ¬(1 : Fin S5120x128.rank) ∈ dot_S2000x5120_S5120x128_S2000x128_1_0_0_1_n_n.rhsBatch by decide), dif_pos (show (1 : Fin S5120x128.rank) ∈ dot_S2000x5120_S5120x128_S2000x128_1_0_0_1_n_n.rhsNonContracting by decide)]
  rfl

/-- The accumulator's zero payload reads 0 everywhere. -/
theorem k11_pay1_apply (x : S2000x128.Idx) : (k11_pay1 (F := Ideal)) x = 0 := by
  unfold k11_pay1
  rw [shapeCast_self]
  exact Ideal.ofBits_zero_f32

/-- THE ACCUMULATING PAYLOAD at (r, f): what was there plus the sum over the block's positions k of
    [column word k = 2000 i + r] * payload (k, f); the node number computed in 32-bit words. -/
theorem k11_pay11_apply (i : grid11.Coords) (x0 : Vec Ideal S1x5120 .i32) (x1 : Vec Ideal S5120x128 .f32) (xs : Vec Ideal S2000x128 .f32)
    (r : Fin 2000) (f : Fin 128) :
    k11_pay2 (F := Ideal) i x0 x1 xs (ValueIdx.ix2 r f)
      = xs (ValueIdx.ix2 r f) + ∑ k : Fin 5120,
          (if x0 (ValueIdx.ix2 (0 : Fin 1) k) = BitVec.ofNat 32 (i 0).val * 2000#32 + BitVec.ofNat 32 r.val then (1 : EReal) else 0)
            * x1 (ValueIdx.ix2 k f) := by
  unfold k11_pay2
  simp only [matmul]
  rw [shapeCast_self, ValueIdx.addf_apply]
  rw [Ideal.matmul_constant_zero_apply, ← Equiv.sum_comp (ValueIdx.contrEquiv1 dot_S2000x5120_S5120x128_S2000x128_1_0_0_1_n_n 5120 rfl rfl).symm]
  refine congrArg (xs (ValueIdx.ix2 r f) + ·) (Finset.sum_congr rfl fun k _ => ?_)
  have hk := ValueIdx.contrEquiv1_symm_val dot_S2000x5120_S5120x128_S2000x128_1_0_0_1_n_n 5120 rfl rfl k
  have el : dot_S2000x5120_S5120x128_S2000x128_1_0_0_1_n_n.lhsIdx (ValueIdx.ix2 r f) ((ValueIdx.contrEquiv1 dot_S2000x5120_S5120x128_S2000x128_1_0_0_1_n_n 5120 rfl rfl).symm k) = ValueIdx.ix2 r k := funext fun a => Fin.ext (by
    match a with
    | ⟨0, _⟩ => exact lhs_hot11_0 _ _
    | ⟨1, _⟩ => exact (lhs_hot11_1 _ _).trans hk)
  have er : dot_S2000x5120_S5120x128_S2000x128_1_0_0_1_n_n.rhsIdx (ValueIdx.ix2 r f) ((ValueIdx.contrEquiv1 dot_S2000x5120_S5120x128_S2000x128_1_0_0_1_n_n 5120 rfl rfl).symm k) = ValueIdx.ix2 k f := funext fun a => Fin.ext (by
    match a with
    | ⟨0, _⟩ => exact (rhs_hot11_0 _ _).trans hk
    | ⟨1, _⟩ => exact rhs_hot11_1 _ _)
  rw [el, er]
  refine congrArg₂ (· * ·) ?_ ?_
  · refine (Cert.Math.oneHot_payload_apply _ _ _ _ (ValueIdx.ix2 r k)).trans ?_
    have e21 : broadcastTo S2000x5120 (shapeCast S1x5120 x0 shapeCasts_S1x5120_S1x5120) broadcasts_S1x5120_S2000x5120 (ValueIdx.ix2 r k)
        = x0 (ValueIdx.ix2 (0 : Fin 1) k) := by
      rw [ValueIdx.broadcastTo_1b_ab_apply, shapeCast_self]
    have e22 : broadcastTo S2000x5120 (addi (broadcast S2000x1 (Scalar.muli (BitVec.ofNat 32 (i 0).val) 2000#32)) (iota .tc S2000x1 32 [0] iota_S2000x1_d0_w32))
        broadcasts_S2000x1_S2000x5120 (ValueIdx.ix2 r k) = BitVec.ofNat 32 (i 0).val * 2000#32 + BitVec.ofNat 32 r.val := by
      rw [vs11_broadcastTo_a1_ab_apply]
      show IntOp.addi (Scalar.muli (BitVec.ofNat 32 (i 0).val) 2000#32) (iota .tc S2000x1 32 [0] iota_S2000x1_d0_w32 (ValueIdx.ix2 r (0 : Fin 1))) = _
      rw [iota_single_apply]
      rfl
    rw [e21, e22]
  · rw [ValueIdx.truncf_apply, shapeCast_self]

/-! ## The root product's operand indices -/

theorem lhs_root11_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_root11_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_root11_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_root11_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- THE STORED PAYLOAD at (r, f): max (acc (r, f) + sum over k of h0 (r, k) * root_w (k, f) + bias f) 0. -/
theorem k11_pay3_apply (x2 : Vec Ideal S2000x128 .f32) (x3 : Vec Ideal S128x128 .f32) (acc : Vec Ideal S2000x128 .f32) (x4 : Vec Ideal S1x128 .f32)
    (r : Fin 2000) (f : Fin 128) :
    k11_pay3 (F := Ideal) x2 x3 acc x4 (ValueIdx.ix2 r f)
      = max (acc (ValueIdx.ix2 r f) + ∑ k : Fin 128, x2 (ValueIdx.ix2 r k) * x3 (ValueIdx.ix2 k f) + x4 (ValueIdx.ix2 (0 : Fin 1) f)) 0 := by
  unfold k11_pay3
  simp only [matmul]
  rw [ValueIdx.maximumf_apply, ValueIdx.addf_apply, ValueIdx.addf_apply, ValueIdx.broadcast_apply]
  rw [Ideal.matmul_constant_zero_apply, ← Equiv.sum_comp (ValueIdx.contrEquiv1 dot_S2000x128_S128x128_S2000x128_1_0_0_1_n_n 128 rfl rfl).symm]
  have e4 : broadcastTo S2000x128 (shapeCast S1x128 x4 shapeCasts_S1x128_S1x128) broadcasts_S1x128_S2000x128 (ValueIdx.ix2 r f)
      = x4 (ValueIdx.ix2 (0 : Fin 1) f) := by
    rw [ValueIdx.broadcastTo_1b_ab_apply, shapeCast_self]
  have e0 : (Scalar.ofBits (F := Ideal) .f32 0x00000000#32 : Ideal .f32) = 0 := Ideal.ofBits_zero_f32
  rw [e4, e0]
  refine congrArg (fun s => max (acc (ValueIdx.ix2 r f) + s + x4 (ValueIdx.ix2 (0 : Fin 1) f)) 0) (Finset.sum_congr rfl fun k _ => ?_)
  have hk := ValueIdx.contrEquiv1_symm_val dot_S2000x128_S128x128_S2000x128_1_0_0_1_n_n 128 rfl rfl k
  have el : dot_S2000x128_S128x128_S2000x128_1_0_0_1_n_n.lhsIdx (ValueIdx.ix2 r f) ((ValueIdx.contrEquiv1 dot_S2000x128_S128x128_S2000x128_1_0_0_1_n_n 128 rfl rfl).symm k) = ValueIdx.ix2 r k := funext fun a => Fin.ext (by
    match a with
    | ⟨0, _⟩ => exact lhs_root11_0 _ _
    | ⟨1, _⟩ => exact (lhs_root11_1 _ _).trans hk)
  have er : dot_S2000x128_S128x128_S2000x128_1_0_0_1_n_n.rhsIdx (ValueIdx.ix2 r f) ((ValueIdx.contrEquiv1 dot_S2000x128_S128x128_S2000x128_1_0_0_1_n_n 128 rfl rfl).symm k) = ValueIdx.ix2 k f := funext fun a => Fin.ext (by
    match a with
    | ⟨0, _⟩ => exact (rhs_root11_0 _ _).trans hk
    | ⟨1, _⟩ => exact rhs_root11_1 _ _)
  rw [el, er, ValueIdx.truncf_apply, ValueIdx.truncf_apply, shapeCast_self, shapeCast_self]

/-! ## Signed comparisons and the gate in closed form -/

/-- A signed comparison's bit. -/
theorem vs11_sle_bit (x y : BitVec 32) : Scalar.cmpi .sle x y = if x.toInt ≤ y.toInt then 1#1 else 0#1 := by
  show BitVec.ofBool (x.sle y) = _
  unfold BitVec.sle
  by_cases h : x.toInt ≤ y.toInt
  · rw [if_pos h, decide_eq_true h]; rfl
  · rw [if_neg h, decide_eq_false h]; rfl

/-- A node block's number as a 32-bit word is itself, signed. -/
theorem vs11_toInt_ofNat_lt50 : ∀ k : Fin 50, (BitVec.ofNat 32 k.val).toInt = (k.val : ℤ) := by decide

/-- THE GATE: the body accumulates at coordinates i exactly when the two table words bracket the first coordinate. -/
theorem vcond11_2_iff (i : grid11.Coords) (wlo whi : BitVec 32) :
    cond11_2 (F := Ideal) i wlo whi ↔ (wlo.toInt ≤ ((i 0).val : ℤ) ∧ ((i 0).val : ℤ) ≤ whi.toInt) := by
  have hI : (BitVec.ofNat 32 (i 0).val).toInt = ((i 0).val : ℤ) := vs11_toInt_ofNat_lt50 (i 0)
  show ((Scalar.cmpi .ne (Scalar.extui (Scalar.andi (Scalar.cmpi .sle wlo (BitVec.ofNat 32 (i 0).val)) (Scalar.cmpi .sle (BitVec.ofNat 32 (i 0).val) whi))) 0#32 : BitVec 1) = 1#1) ↔ _
  rw [vs11_sle_bit, vs11_sle_bit, hI]
  by_cases h1 : wlo.toInt ≤ ((i 0).val : ℤ)
  · by_cases h2 : ((i 0).val : ℤ) ≤ whi.toInt
    · rw [if_pos h1, if_pos h2]; exact ⟨fun _ => ⟨h1, h2⟩, fun _ => by decide⟩
    · rw [if_pos h1, if_neg h2]; exact ⟨fun h => absurd h (by decide), fun h => absurd h.2 h2⟩
  · by_cases h2 : ((i 0).val : ℤ) ≤ whi.toInt
    · rw [if_neg h1, if_pos h2]; exact ⟨fun h => absurd h (by decide), fun h => absurd h.1 h1⟩
    · rw [if_neg h1, if_neg h2]; exact ⟨fun h => absurd h (by decide), fun h => absurd h.1 h1⟩

/-- An edge block's number as a 32-bit index is itself. -/
theorem vs11_toNat_ofNat_lt123 : ∀ k : Fin 123, (BitVec.ofNat 32 k.val).toNat = k.val := by decide
theorem vs11_toNat_ofNat_lt50 : ∀ k : Fin 50, (BitVec.ofNat 32 k.val).toNat = k.val := by decide

/-- Two rank-1 indices with the same coordinate are equal. -/
theorem vs11_idx1_ext {n : ℕ} (x y : (⟨1, ![n]⟩ : Shape).Idx) (h : (x 0).val = (y 0).val) : x = y := funext fun a => by
  have ha : a = 0 := Subsingleton.elim _ _
  subst ha
  exact Fin.ext h

/-- The word the body compares from below is the first table's word of the second coordinate, -/
theorem vwd11_0_eq (c : Dev nD) (i : grid11.Coords) (xt : TbBuf11 (F := Ideal) c tbM11_0) (j : Fin 123) (hj : (i 1).val = j.val) :
    wd11_0 c i xt = (xt : S123.Idx → BitVec 32) (Shape.Idx.ofFin j) := by
  show (xt : S123.Idx → BitVec 32) _ = _
  refine congrArg (xt : S123.Idx → BitVec 32) (vs11_idx1_ext _ _ ?_)
  show (BitVec.ofNat 32 (i 1).val).toNat + 1 * 0 = j.val
  rw [vs11_toNat_ofNat_lt123 (i 1), hj]
  omega
/-- and the word it compares from above the second table's. -/
theorem vwd11_1_eq (c : Dev nD) (i : grid11.Coords) (xt : TbBuf11 (F := Ideal) c tbM11_1) (j : Fin 123) (hj : (i 1).val = j.val) :
    wd11_1 c i xt = (xt : S123.Idx → BitVec 32) (Shape.Idx.ofFin j) := by
  show (xt : S123.Idx → BitVec 32) _ = _
  refine congrArg (xt : S123.Idx → BitVec 32) (vs11_idx1_ext _ _ ?_)
  show (BitVec.ofNat 32 (i 1).val).toNat + 1 * 0 = j.val
  rw [vs11_toNat_ofNat_lt123 (i 1), hj]
  omega

/-! ## The two edge windows' index maps on the table words -/

/-- The word of a table of 50 an index map reads at the first coordinate. -/
theorem tbl50_emb11 (i : grid11.Coords) (iv : Fin 50) (hi : (i 0).val = iv.val)
    (inb : ∀ a, (![(Scalar.indexCast (BitVec.ofNat 32 (i 0).val)).toNat] : Fin 1 → Nat) a + S1.size a ≤ S50.size a) (h1 : 0 < S1.numel) :
    (Rect.unit (s := S50) ![(Scalar.indexCast (BitVec.ofNat 32 (i 0).val)).toNat] S1.size inb).emb (Shape.Idx.first h1) = Shape.Idx.ofFin iv := by
  refine vs11_idx1_ext _ _ ?_
  show (BitVec.ofNat 32 (i 0).val).toNat + 1 * 0 = iv.val
  rw [vs11_toNat_ofNat_lt50 (i 0), hi]
  omega

theorem cc11_transform_0_eq (pf : pre11.Contents (Elt Ideal)) (i : grid11.Coords) (iv : Fin 50) (hi : (i 0).val = iv.val) :
    cc11_transform_0 k11_off1_inb numel1_S1 pf i
      = ![0, (Scalar.minsi (Scalar.maxsi (BitVec.ofNat 32 (i 1).val) ((pf 2 : S50.Idx → BitVec 32) (Shape.Idx.ofFin iv)))
              ((pf 3 : S50.Idx → BitVec 32) (Shape.Idx.ofFin iv))).toNat] := by
  have e2 : pf.at 2 (Rect.unit (s := S50) ![(Scalar.indexCast (BitVec.ofNat 32 (i 0).val)).toNat] S1.size (k11_off1_inb i)) numel1_S1
      = (pf 2 : S50.Idx → BitVec 32) (Shape.Idx.ofFin iv) := congrArg (pf 2 : S50.Idx → BitVec 32) (tbl50_emb11 i iv hi _ _)
  have e3 : pf.at 3 (Rect.unit (s := S50) ![(Scalar.indexCast (BitVec.ofNat 32 (i 0).val)).toNat] S1.size (k11_off1_inb i)) numel1_S1
      = (pf 3 : S50.Idx → BitVec 32) (Shape.Idx.ofFin iv) := congrArg (pf 3 : S50.Idx → BitVec 32) (tbl50_emb11 i iv hi _ _)
  unfold cc11_transform_0
  dsimp only
  rw [e2, e3]
  rfl

theorem cc11_transform_1_eq (pf : pre11.Contents (Elt Ideal)) (i : grid11.Coords) (iv : Fin 50) (hi : (i 0).val = iv.val) :
    cc11_transform_1 k11_off1_inb numel1_S1 pf i
      = ![(Scalar.minsi (Scalar.maxsi (BitVec.ofNat 32 (i 1).val) ((pf 2 : S50.Idx → BitVec 32) (Shape.Idx.ofFin iv)))
              ((pf 3 : S50.Idx → BitVec 32) (Shape.Idx.ofFin iv))).toNat, 0] := by
  have e2 : pf.at 2 (Rect.unit (s := S50) ![(Scalar.indexCast (BitVec.ofNat 32 (i 0).val)).toNat] S1.size (k11_off1_inb i)) numel1_S1
      = (pf 2 : S50.Idx → BitVec 32) (Shape.Idx.ofFin iv) := congrArg (pf 2 : S50.Idx → BitVec 32) (tbl50_emb11 i iv hi _ _)
  have e3 : pf.at 3 (Rect.unit (s := S50) ![(Scalar.indexCast (BitVec.ofNat 32 (i 0).val)).toNat] S1.size (k11_off1_inb i)) numel1_S1
      = (pf 3 : S50.Idx → BitVec 32) (Shape.Idx.ofFin iv) := congrArg (pf 3 : S50.Idx → BitVec 32) (tbl50_emb11 i iv hi _ _)
  unfold cc11_transform_1
  dsimp only
  rw [e2, e3]
  rfl

/-! ## The arrays the region reads, the table words, the gate -/

section Region11

variable (a : (p : Fin 13) → (pcfgs (F := Ideal) p).Adm)
variable (V : (c : Dev nD) → (b : Ref sig .tc) → Buf (Elt Ideal) ((c : Thread nD τ).loc b))

/-- The sorted column words (one row of 629760 = 123 * 5120 words), -/
abbrev colA11 (c : Dev nD) : S1x629760.Idx → BitVec 32 := V c main_v113
/-- the edge payload rows, -/
abbrev scaledA11 (c : Dev nD) : S629760x128.Idx → Elt Ideal .f32 := V c main_v149
/-- the node features, -/
abbrev h0A11 (c : Dev nD) : S100000x128.Idx → Elt Ideal .f32 := V c main_v6
/-- the root weight, -/
abbrev rwA11 (c : Dev nD) : S128x128.Idx → Elt Ideal .f32 := V c main_v151
/-- and the bias row, as the region finds them. -/
abbrev bA11 (c : Dev nD) : S1x128.Idx → Elt Ideal .f32 := V c main_v154

/-- The four prefetched tables at the admissible contents: per edge block the least and the greatest node block of its
    column words, per node block the first and the last edge block that may hold it. -/
abbrev loT11 : S123.Idx → BitVec 32 := (a 11).1 0
abbrev hiT11 : S123.Idx → BitVec 32 := (a 11).1 1
abbrev eloT11 : S50.Idx → BitVec 32 := (a 11).1 2
abbrev ehiT11 : S50.Idx → BitVec 32 := (a 11).1 3

/-- THE GATE of tile (i, j), on the table words: lo j ≤ i ≤ hi j, signed. -/
abbrev gate11 (i : ℕ) (j : Fin 123) : Prop :=
  (loT11 a (Shape.Idx.ofFin j)).toInt ≤ (i : ℤ) ∧ (i : ℤ) ≤ (hiT11 a (Shape.Idx.ofFin j)).toInt

/-- Position k of edge block j among the 629760 edge positions. -/
def ePos11 (j : Fin 123) (k : Fin 5120) : Fin 629760 := ⟨j.val * 5120 + k.val, by have := j.isLt; have := k.isLt; omega⟩

theorem ePos11_val (j : Fin 123) (k : Fin 5120) : (ePos11 j k).val = j.val * 5120 + k.val := rfl

/-- What edge block j adds to entry (n, f): the payload rows of the block's positions whose column word is n. -/
def scatTerm11 (c : Dev nD) (n : ℕ) (f : Fin 128) (j : Fin 123) : EReal :=
  ∑ k : Fin 5120, (if (colA11 V c (ValueIdx.ix2 (0 : Fin 1) (ePos11 j k))).toNat = n then (1 : EReal) else 0)
    * scaledA11 V c (ValueIdx.ix2 (ePos11 j k) f)

/-- Entry (n, f) of the result: max (S + (h0 . root_w) (n, f) + bias f) 0, with S the sum over the edge blocks j the
    gate admits for node block n / 2000 of that block's contribution. -/
def scatE11 (c : Dev nD) (n : Fin 100000) (f : Fin 128) : EReal :=
  max ((∑ j : Fin 123, if gate11 a (n.val / 2000) j then scatTerm11 V c n.val f j else 0)
      + ∑ k : Fin 128, h0A11 V c (ValueIdx.ix2 n k) * rwA11 V c (ValueIdx.ix2 k f)
      + bA11 V c (ValueIdx.ix2 (0 : Fin 1) f)) 0

/-- WHAT THE RESULT ARRAY ENDS HOLDING. -/
def scatG11 (c : Dev nD) : S100000x128.Idx → Elt Ideal .f32 := fun x =>
  scatE11 a V c ⟨(x 0).val, (x 0).isLt⟩ ⟨(x 1).val, (x 1).isLt⟩

/-- On every tile the gate admits, the clamped block index of the two edge windows is the edge block itself. -/
def Hclamp11 : Prop := ∀ (i : Fin 50) (j : Fin 123), gate11 a i.val j →
  (Scalar.minsi (Scalar.maxsi (BitVec.ofNat 32 j.val) (eloT11 a (Shape.Idx.ofFin i))) (ehiT11 a (Shape.Idx.ofFin i))).toNat = j.val

/-! ## The grid's coordinates and the windows' block indices at a point -/

theorem N11_val : (cfgM11 a).N = 6150 := N_11

theorem vcoord11_0 (n : ℕ) (hn : n < (cfgM11 a).N) (i : Fin 50) (hi : n / 123 = i.val) : (grid11.coords (⟨n, hn⟩ : Fin (cfgM11 a).N) 0).val = i.val := by
  have hN : (cfgM11 a).N = 6150 := N_11
  have e := coords11_0 (⟨n, hn⟩ : Fin grid11.N)
  have e' : (grid11.coords (⟨n, hn⟩ : Fin (cfgM11 a).N) 0).val = n / 123 % 50 := e
  rw [e']; omega
theorem vcoord11_1 (n : ℕ) (hn : n < (cfgM11 a).N) (j : Fin 123) (hj : n % 123 = j.val) : (grid11.coords (⟨n, hn⟩ : Fin (cfgM11 a).N) 1).val = j.val := by
  have e : (grid11.coords (⟨n, hn⟩ : Fin (cfgM11 a).N) 1).val = n % 123 := coords11_1 (⟨n, hn⟩ : Fin grid11.N)
  rw [e, hj]

theorem vindex11_0 (t : Fin (cfgM11 a).N) : ((cfgM11 a).win 0).index t = cc11_transform_0 k11_off1_inb numel1_S1 (a 11).1 (grid11.coords t) := rfl
theorem vindex11_1 (t : Fin (cfgM11 a).N) : ((cfgM11 a).win 1).index t = cc11_transform_1 k11_off1_inb numel1_S1 (a 11).1 (grid11.coords t) := rfl
theorem vindex11_2 (t : Fin (cfgM11 a).N) : ((cfgM11 a).win 2).index t = ![(BitVec.ofNat 32 (grid11.coords t 0).val).toNat, 0] := rfl
theorem vindex11_3 (t : Fin (cfgM11 a).N) : ((cfgM11 a).win 3).index t = ![0, 0] := rfl
theorem vindex11_4 (t : Fin (cfgM11 a).N) : ((cfgM11 a).win 4).index t = ![0, 0] := rfl
theorem vindex11_5 (t : Fin (cfgM11 a).N) : ((cfgM11 a).win 5).index t = ![(BitVec.ofNat 32 (grid11.coords t 0).val).toNat, 0] := rfl

/-- On an admitted tile (i, j) the column window's block is (0, j) -/
theorem vindex11_0_of_gate (hc : Hclamp11 a) (n : ℕ) (hn : n < (cfgM11 a).N) (i : Fin 50) (j : Fin 123) (hi : n / 123 = i.val) (hj : n % 123 = j.val)
    (hg : gate11 a i.val j) : ((cfgM11 a).win 0).index ⟨n, hn⟩ = ![0, j.val] := by
  rw [vindex11_0, cc11_transform_0_eq (a 11).1 (grid11.coords ⟨n, hn⟩) i (vcoord11_0 a n hn i hi), vcoord11_1 a n hn j hj]
  exact congrArg (fun x => ![0, x]) (hc i j hg)
/-- and the payload window's block is (j, 0). -/
theorem vindex11_1_of_gate (hc : Hclamp11 a) (n : ℕ) (hn : n < (cfgM11 a).N) (i : Fin 50) (j : Fin 123) (hi : n / 123 = i.val) (hj : n % 123 = j.val)
    (hg : gate11 a i.val j) : ((cfgM11 a).win 1).index ⟨n, hn⟩ = ![j.val, 0] := by
  rw [vindex11_1, cc11_transform_1_eq (a 11).1 (grid11.coords ⟨n, hn⟩) i (vcoord11_0 a n hn i hi), vcoord11_1 a n hn j hj]
  exact congrArg (fun x => ![x, 0]) (hc i j hg)

/-! ## The input blocks at a point, as vectors of their literal types, read off the arrays -/

abbrev cblk11 (c : Dev nD) (t : Fin (cfgM11 a).N) : Vec Ideal S1x5120 .i32 := iblk11 a V c 0 t
abbrev sblk11 (c : Dev nD) (t : Fin (cfgM11 a).N) : Vec Ideal S5120x128 .f32 := iblk11 a V c 1 t
abbrev hblk11 (c : Dev nD) (t : Fin (cfgM11 a).N) : Vec Ideal S2000x128 .f32 := iblk11 a V c 2 t
abbrev wblk11 (c : Dev nD) (t : Fin (cfgM11 a).N) : Vec Ideal S128x128 .f32 := iblk11 a V c 3 t
abbrev bblk11 (c : Dev nD) (t : Fin (cfgM11 a).N) : Vec Ideal S1x128 .f32 := iblk11 a V c 4 t

theorem cblk11_apply (c : Dev nD) (t : Fin (cfgM11 a).N) (j : Fin 123) (hidx : ((cfgM11 a).win 0).index t = ![0, j.val]) (k : Fin 5120) :
    cblk11 a V c t (ValueIdx.ix2 (0 : Fin 1) k) = colA11 V c (ValueIdx.ix2 (0 : Fin 1) (ePos11 j k)) := by
  have h0 : ((cfgM11 a).win 0).index t (0 : Fin 2) = 0 := congrFun hidx (0 : Fin 2)
  have h1 : ((cfgM11 a).win 0).index t (1 : Fin 2) = j.val := congrFun hidx (1 : Fin 2)
  show V c main_v113 ((((cfgM11 a).win 0).blk t).view.emb (ValueIdx.ix2 (0 : Fin 1) k)) = V c main_v113 (ValueIdx.ix2 (0 : Fin 1) (ePos11 j k))
  refine congrArg (V c main_v113) (funext fun x => Fin.ext ?_)
  match x with
  | ⟨0, _⟩ => show ((cfgM11 a).win 0).index t (0 : Fin 2) * 1 + 1 * 0 = 0; omega
  | ⟨1, _⟩ => show ((cfgM11 a).win 0).index t (1 : Fin 2) * 5120 + 1 * k.val = j.val * 5120 + k.val; omega

theorem sblk11_apply (c : Dev nD) (t : Fin (cfgM11 a).N) (j : Fin 123) (hidx : ((cfgM11 a).win 1).index t = ![j.val, 0]) (k : Fin 5120) (f : Fin 128) :
    sblk11 a V c t (ValueIdx.ix2 k f) = scaledA11 V c (ValueIdx.ix2 (ePos11 j k) f) := by
  have h0 : ((cfgM11 a).win 1).index t (0 : Fin 2) = j.val := congrFun hidx (0 : Fin 2)
  have h1 : ((cfgM11 a).win 1).index t (1 : Fin 2) = 0 := congrFun hidx (1 : Fin 2)
  show V c main_v149 ((((cfgM11 a).win 1).blk t).view.emb (ValueIdx.ix2 k f)) = V c main_v149 (ValueIdx.ix2 (ePos11 j k) f)
  refine congrArg (V c main_v149) (funext fun x => Fin.ext ?_)
  match x with
  | ⟨0, _⟩ => show ((cfgM11 a).win 1).index t (0 : Fin 2) * 5120 + 1 * k.val = j.val * 5120 + k.val; omega
  | ⟨1, _⟩ => show ((cfgM11 a).win 1).index t (1 : Fin 2) * 128 + 1 * f.val = f.val; omega

theorem hblk11_apply (c : Dev nD) (n : ℕ) (hn : n < (cfgM11 a).N) (i : Fin 50) (hi : n / 123 = i.val) (r : Fin 2000) (k : Fin 128)
    (hlt : i.val * 2000 + r.val < 100000) :
    hblk11 a V c ⟨n, hn⟩ (ValueIdx.ix2 r k) = h0A11 V c (ValueIdx.ix2 (⟨i.val * 2000 + r.val, hlt⟩ : Fin 100000) k) := by
  have hidx := vindex11_2 a ⟨n, hn⟩
  rw [vcoord11_0 a n hn i hi, vs11_toNat_ofNat_lt50 i] at hidx
  have h0 : ((cfgM11 a).win 2).index ⟨n, hn⟩ (0 : Fin 2) = i.val := congrFun hidx (0 : Fin 2)
  have h1 : ((cfgM11 a).win 2).index ⟨n, hn⟩ (1 : Fin 2) = 0 := congrFun hidx (1 : Fin 2)
  show V c main_v6 ((((cfgM11 a).win 2).blk ⟨n, hn⟩).view.emb (ValueIdx.ix2 r k)) = V c main_v6 (ValueIdx.ix2 (⟨i.val * 2000 + r.val, hlt⟩ : Fin 100000) k)
  refine congrArg (V c main_v6) (funext fun x => Fin.ext ?_)
  match x with
  | ⟨0, _⟩ => show ((cfgM11 a).win 2).index ⟨n, hn⟩ (0 : Fin 2) * 2000 + 1 * r.val = i.val * 2000 + r.val; omega
  | ⟨1, _⟩ => show ((cfgM11 a).win 2).index ⟨n, hn⟩ (1 : Fin 2) * 128 + 1 * k.val = k.val; omega

theorem wblk11_apply (c : Dev nD) (t : Fin (cfgM11 a).N) (k : Fin 128) (f : Fin 128) :
    wblk11 a V c t (ValueIdx.ix2 k f) = rwA11 V c (ValueIdx.ix2 k f) := by
  have hidx := vindex11_3 a t
  have h0 : ((cfgM11 a).win 3).index t (0 : Fin 2) = 0 := congrFun hidx (0 : Fin 2)
  have h1 : ((cfgM11 a).win 3).index t (1 : Fin 2) = 0 := congrFun hidx (1 : Fin 2)
  show V c main_v151 ((((cfgM11 a).win 3).blk t).view.emb (ValueIdx.ix2 k f)) = V c main_v151 (ValueIdx.ix2 k f)
  refine congrArg (V c main_v151) (funext fun x => Fin.ext ?_)
  match x with
  | ⟨0, _⟩ => show ((cfgM11 a).win 3).index t (0 : Fin 2) * 128 + 1 * k.val = k.val; omega
  | ⟨1, _⟩ => show ((cfgM11 a).win 3).index t (1 : Fin 2) * 128 + 1 * f.val = f.val; omega

theorem bblk11_apply (c : Dev nD) (t : Fin (cfgM11 a).N) (f : Fin 128) :
    bblk11 a V c t (ValueIdx.ix2 (0 : Fin 1) f) = bA11 V c (ValueIdx.ix2 (0 : Fin 1) f) := by
  have hidx := vindex11_4 a t
  have h0 : ((cfgM11 a).win 4).index t (0 : Fin 2) = 0 := congrFun hidx (0 : Fin 2)
  have h1 : ((cfgM11 a).win 4).index t (1 : Fin 2) = 0 := congrFun hidx (1 : Fin 2)
  show V c main_v154 ((((cfgM11 a).win 4).blk t).view.emb (ValueIdx.ix2 (0 : Fin 1) f)) = V c main_v154 (ValueIdx.ix2 (0 : Fin 1) f)
  refine congrArg (V c main_v154) (funext fun x => Fin.ext ?_)
  match x with
  | ⟨0, _⟩ => show ((cfgM11 a).win 4).index t (0 : Fin 2) * 1 + 1 * 0 = 0; omega
  | ⟨1, _⟩ => show ((cfgM11 a).win 4).index t (1 : Fin 2) * 128 + 1 * f.val = f.val; omega

/-! ## One point's step of the accumulator at an entry -/

/-- A column word is the node 2000 i + r computed in 32-bit words exactly when it is that number. -/
theorem vs11_word_eq_node (w : BitVec 32) (i r : ℕ) (h : i * 2000 + r < 2 ^ 32) :
    (w = BitVec.ofNat 32 i * 2000#32 + BitVec.ofNat 32 r) ↔ w.toNat = i * 2000 + r := by
  rw [← Cert.Math.toNat_ofNat_mul_add i 2000 r h]
  exact ⟨fun e => congrArg BitVec.toNat e, fun e => BitVec.eq_of_toNat_eq e⟩

/-- The step over VARIABLES of the blocks' literal types: zeroed where the second coordinate is 0, the one-hot product
    added where the words bracket the first. -/
theorem acc11_apply (i : grid11.Coords) (wlo whi : BitVec 32) (x0 : Vec Ideal S1x5120 .i32) (x1 : Vec Ideal S5120x128 .f32)
    (xs : Vec Ideal S2000x128 .f32) (r : Fin 2000) (f : Fin 128) :
    acc11 (F := Ideal) i wlo whi x0 x1 xs (ValueIdx.ix2 r f)
      = (if (i 1).val = 0 then (0 : EReal) else xs (ValueIdx.ix2 r f))
        + if (wlo.toInt ≤ ((i 0).val : ℤ) ∧ ((i 0).val : ℤ) ≤ whi.toInt) then
            ∑ k : Fin 5120, (if x0 (ValueIdx.ix2 (0 : Fin 1) k) = BitVec.ofNat 32 (i 0).val * 2000#32 + BitVec.ofNat 32 r.val then (1 : EReal) else 0)
              * x1 (ValueIdx.ix2 k f)
          else 0 := by
  have hbase : (if cond11_1 i then (k11_pay1 (F := Ideal) : Vec Ideal S2000x128 .f32) else xs) (ValueIdx.ix2 r f)
      = if (i 1).val = 0 then (0 : EReal) else xs (ValueIdx.ix2 r f) := by
    by_cases h : (i 1).val = 0
    · rw [if_pos ((cond11_1_iff i).mpr h), if_pos h]; exact k11_pay1_apply _
    · rw [if_neg (fun h' => h ((cond11_1_iff i).mp h')), if_neg h]
  unfold acc11
  by_cases hg : (wlo.toInt ≤ ((i 0).val : ℤ) ∧ ((i 0).val : ℤ) ≤ whi.toInt)
  · rw [if_pos ((vcond11_2_iff i wlo whi).mpr hg), if_pos hg]
    refine (k11_pay11_apply i x0 x1 _ r f).trans ?_
    rw [hbase]
  · rw [if_neg (fun h' => hg ((vcond11_2_iff i wlo whi).mp h')), if_neg hg, add_zero]
    exact hbase

/-- THE STEP AT A POINT (i, j) of the grid, under the clamp hypothesis: the entry (r, f) of the accumulator is zeroed
    first where j = 0, then edge block j's contribution to node 2000 i + r is added where the gate admits (i, j). -/
theorem accStep11_apply (hc : Hclamp11 a) (c : Dev nD) (n : ℕ) (hn : n < (cfgM11 a).N) (i : Fin 50) (j : Fin 123)
    (hi : n / 123 = i.val) (hj : n % 123 = j.val) (xs : Vec Ideal S2000x128 .f32) (r : Fin 2000) (f : Fin 128) :
    accStep11 a V c ⟨n, hn⟩ xs (ValueIdx.ix2 r f)
      = (if j.val = 0 then (0 : EReal) else xs (ValueIdx.ix2 r f))
        + if gate11 a i.val j then scatTerm11 V c (i.val * 2000 + r.val) f j else 0 := by
  have hstep := acc11_apply (grid11.coords (⟨n, hn⟩ : Fin (cfgM11 a).N)) (wd11_0 c (grid11.coords (⟨n, hn⟩ : Fin (cfgM11 a).N)) ((a 11).1 0))
    (wd11_1 c (grid11.coords (⟨n, hn⟩ : Fin (cfgM11 a).N)) ((a 11).1 1)) (cblk11 a V c ⟨n, hn⟩) (sblk11 a V c ⟨n, hn⟩) xs r f
  refine hstep.trans ?_
  rw [vwd11_0_eq c (grid11.coords (⟨n, hn⟩ : Fin (cfgM11 a).N)) ((a 11).1 0) j (vcoord11_1 a n hn j hj), vwd11_1_eq c (grid11.coords (⟨n, hn⟩ : Fin (cfgM11 a).N)) ((a 11).1 1) j (vcoord11_1 a n hn j hj), vcoord11_0 a n hn i hi, vcoord11_1 a n hn j hj]
  by_cases hg : gate11 a i.val j
  · rw [if_pos hg, if_pos hg]
    refine congrArg (_ + ·) (Finset.sum_congr rfl fun k _ => ?_)
    rw [cblk11_apply a V c ⟨n, hn⟩ j (vindex11_0_of_gate a hc n hn i j hi hj hg) k,
      sblk11_apply a V c ⟨n, hn⟩ j (vindex11_1_of_gate a hc n hn i j hi hj hg) k f]
    refine congrArg (· * _) ?_
    have hlt : i.val * 2000 + r.val < 2 ^ 32 := by have := i.isLt; have := r.isLt; omega
    by_cases hw : (colA11 V c (ValueIdx.ix2 (0 : Fin 1) (ePos11 j k))).toNat = i.val * 2000 + r.val
    · rw [if_pos ((vs11_word_eq_node _ _ _ hlt).mpr hw), if_pos hw]
    · rw [if_neg (fun h' => hw ((vs11_word_eq_node _ _ _ hlt).mp h')), if_neg hw]
  · rw [if_neg hg, if_neg hg]

/-! ## The accumulator along a row block's run of points -/

/-- Edge block j's admitted contribution to entry (2000 i + r, f), for a bare natural j (0 past the 123 blocks). -/
def gT11 (c : Dev nD) (i : Fin 50) (r : Fin 2000) (f : Fin 128) (j : ℕ) : EReal :=
  if h : j < 123 then (if gate11 a i.val ⟨j, h⟩ then scatTerm11 V c (i.val * 2000 + r.val) f ⟨j, h⟩ else 0) else 0

theorem accAt11_eq_step (c : Dev nD) (n : ℕ) (hn : n < (cfgM11 a).N) : ∃ xs, accAt11 a V c n hn = accStep11 a V c ⟨n, hn⟩ xs := by
  cases n with
  | zero => exact ⟨_, rfl⟩
  | succ m => exact ⟨_, rfl⟩

/-- THE ACCUMULATION: after tile (i, j) the accumulator's entry (r, f) is the sum of the admitted contributions of edge
    blocks 0 … j to node 2000 i + r. By induction on j; the tile j = 0 zeroes what the row block before left. -/
theorem accAt11_run (hc : Hclamp11 a) (c : Dev nD) (i : Fin 50) (r : Fin 2000) (f : Fin 128) :
    ∀ (j : ℕ) (hj : j < 123) (h : i.val * 123 + j < (cfgM11 a).N),
      accAt11 a V c (i.val * 123 + j) h (ValueIdx.ix2 r f) = ∑ j' ∈ Finset.range (j + 1), gT11 a V c i r f j'
  | 0, hj, h => by
    obtain ⟨xs, e⟩ := accAt11_eq_step a V c (i.val * 123 + 0) h
    rw [e, accStep11_apply a V hc c (i.val * 123 + 0) h i ⟨0, hj⟩ (by omega) (by show (i.val * 123 + 0) % 123 = 0; omega) xs r f,
      if_pos rfl, zero_add, Finset.sum_range_one]
    unfold gT11
    rw [dif_pos hj]
  | j + 1, hj, h => by
    have ih := accAt11_run hc c i r f j (by omega) (by omega)
    show accAt11 a V c ((i.val * 123 + j) + 1) h (ValueIdx.ix2 r f) = _
    rw [accAt11_succ, accStep11_apply a V hc c ((i.val * 123 + j) + 1) h i ⟨j + 1, hj⟩ (by omega) (by show (i.val * 123 + j + 1) % 123 = j + 1; omega) _ r f,
      if_neg (Nat.succ_ne_zero j), ih, Finset.sum_range_succ _ (j + 1)]
    refine congrArg (_ + ·) ?_
    unfold gT11
    rw [dif_pos hj]

/-- At the row block's last tile: the sum over the 123 edge blocks. -/
theorem accAt11_last (hc : Hclamp11 a) (c : Dev nD) (i : Fin 50) (r : Fin 2000) (f : Fin 128) (h : i.val * 123 + 122 < (cfgM11 a).N) :
    accAt11 a V c (i.val * 123 + 122) h (ValueIdx.ix2 r f)
      = ∑ j : Fin 123, if gate11 a i.val j then scatTerm11 V c (i.val * 2000 + r.val) f j else 0 := by
  rw [accAt11_run a V hc c i r f 122 (by omega) h, Finset.sum_range]
  refine Finset.sum_congr rfl fun j _ => ?_
  unfold gT11
  rw [dif_pos j.isLt]

/-! ## The output block at the storing tile, the write-back schedule, the cover -/

/-- The result window is written back exactly at the last tile of each row block, at any contents of the tables. -/
theorem vflush11_5 : ∀ t : Fin (cfgM11 a).N, ((cfgM11 a).win 5).flush t = decide (t.val % 123 = 122) :=
  (by decide +kernel : ∀ t : Fin grid11.N, Pipeline.Window.flushOf grid11 true cc11_transform_5 t = decide (t.val % 123 = 122))

/-- The array's contents at an index whose coordinates are known. -/
theorem scatG11_at (c : Dev nD) (E : S100000x128.Idx) (n : Fin 100000) (f : Fin 128) (h0 : (E 0).val = n.val) (h1 : (E 1).val = f.val) :
    scatG11 a V c E = scatE11 a V c n f := by
  have e0 : (⟨(E 0).val, (E 0).isLt⟩ : Fin 100000) = n := Fin.ext h0
  have e1 : (⟨(E 1).val, (E 1).isLt⟩ : Fin 128) = f := Fin.ext h1
  show scatE11 a V c ⟨(E 0).val, (E 0).isLt⟩ ⟨(E 1).val, (E 1).isLt⟩ = _
  rw [e0, e1]

/-- WHAT A STORING TILE WRITES BACK is its row block of the array `scatG11`. -/
theorem vflushed11_5_eq (hc : Hclamp11 a) (c : Dev nD) (t : Fin (cfgM11 a).N) (hf : ((cfgM11 a).win 5).flush t = true) :
    (dat11 a V c).flushed 5 t = (((cfgM11 a).win 5).blk t).view.read (Elt Ideal) (scatG11 a V c) := by
  rw [vflush11_5, decide_eq_true_eq] at hf
  have hN : (cfgM11 a).N = 6150 := N_11
  obtain ⟨n, hn⟩ := t
  obtain ⟨i, rfl⟩ : ∃ i : Fin 50, n = i.val * 123 + 122 := ⟨⟨n / 123, by omega⟩, by show n = n / 123 * 123 + 122; have : n % 123 = 122 := hf; omega⟩
  show ((cfgM11 a).win 5).cut (grid11.coords ⟨i.val * 123 + 122, hn⟩) ((dat11 a V c).after 5 ⟨i.val * 123 + 122, hn⟩) = _
  rw [after11_5]
  funext y
  obtain ⟨r, f, rfl⟩ : ∃ (r : Fin 2000) (f : Fin 128), y = ValueIdx.ix2 r f :=
    ⟨⟨(y (0 : Fin 2)).val, (y (0 : Fin 2)).isLt⟩, ⟨(y (1 : Fin 2)).val, (y (1 : Fin 2)).isLt⟩, funext fun x => by match x with | ⟨0, _⟩ => rfl | ⟨1, _⟩ => rfl⟩
  have hlt : i.val * 2000 + r.val < 100000 := by have := i.isLt; have := r.isLt; omega
  have hi : (i.val * 123 + 122) / 123 = i.val := by omega
  have hidx := vindex11_5 a ⟨i.val * 123 + 122, hn⟩
  rw [vcoord11_0 a _ hn i hi, vs11_toNat_ofNat_lt50 i] at hidx
  have h0 : ((cfgM11 a).win 5).index ⟨i.val * 123 + 122, hn⟩ (0 : Fin 2) = i.val := congrFun hidx (0 : Fin 2)
  have h1 : ((cfgM11 a).win 5).index ⟨i.val * 123 + 122, hn⟩ (1 : Fin 2) = 0 := congrFun hidx (1 : Fin 2)
  show k11_pay3 (F := Ideal) (hblk11 a V c ⟨i.val * 123 + 122, hn⟩) (wblk11 a V c ⟨i.val * 123 + 122, hn⟩) (accAt11 a V c (i.val * 123 + 122) hn) (bblk11 a V c ⟨i.val * 123 + 122, hn⟩) (ValueIdx.ix2 r f)
    = scatG11 a V c ((((cfgM11 a).win 5).blk ⟨i.val * 123 + 122, hn⟩).view.emb (ValueIdx.ix2 r f))
  have ex0 : ((((cfgM11 a).win 5).blk ⟨i.val * 123 + 122, hn⟩).view.emb (ValueIdx.ix2 r f) (0 : Fin 2)).val = i.val * 2000 + r.val := by
    show ((cfgM11 a).win 5).index ⟨i.val * 123 + 122, hn⟩ (0 : Fin 2) * 2000 + 1 * r.val = _; omega
  have ex1 : ((((cfgM11 a).win 5).blk ⟨i.val * 123 + 122, hn⟩).view.emb (ValueIdx.ix2 r f) (1 : Fin 2)).val = f.val := by
    show ((cfgM11 a).win 5).index ⟨i.val * 123 + 122, hn⟩ (1 : Fin 2) * 128 + 1 * f.val = _; omega
  refine Eq.trans ?_ (scatG11_at a V c _ ⟨i.val * 2000 + r.val, hlt⟩ f ex0 ex1).symm
  refine (k11_pay3_apply (hblk11 a V c ⟨i.val * 123 + 122, hn⟩) (wblk11 a V c ⟨i.val * 123 + 122, hn⟩) (accAt11 a V c (i.val * 123 + 122) hn) (bblk11 a V c ⟨i.val * 123 + 122, hn⟩) r f).trans ?_
  have hsum : ∑ k : Fin 128, hblk11 a V c ⟨i.val * 123 + 122, hn⟩ (ValueIdx.ix2 r k) * wblk11 a V c ⟨i.val * 123 + 122, hn⟩ (ValueIdx.ix2 k f)
      = ∑ k : Fin 128, h0A11 V c (ValueIdx.ix2 (⟨i.val * 2000 + r.val, hlt⟩ : Fin 100000) k) * rwA11 V c (ValueIdx.ix2 k f) :=
    Finset.sum_congr rfl fun k _ => by rw [hblk11_apply a V c _ hn i hi r k hlt, wblk11_apply a V c _ k f]
  have hdiv : (i.val * 2000 + r.val) / 2000 = i.val := by have := r.isLt; omega
  rw [hsum, bblk11_apply a V c _ f, accAt11_last a V hc c i r f hn]
  unfold scatE11
  dsimp only
  rw [hdiv]

/-- An index of the result array is in a point's block iff each coordinate is in the block's range on its axis. -/
theorem vmem_blk11_5 (t : Fin (cfgM11 a).N) (x : S100000x128.Idx) :
    x ∈ (((cfgM11 a).win 5).blk t).view.set ↔ ∀ ax : Fin 2, ((cfgM11 a).win 5).index t ax * S2000x128.size ax ≤ (x ax).val
      ∧ (x ax).val < ((cfgM11 a).win 5).index t ax * S2000x128.size ax + S2000x128.size ax := by
  show x ∈ ((View.whole main_v155).slice (((cfgM11 a).win 5).rect t)).set ↔ _
  refine (Eq.to_iff (congrArg (x ∈ ·) (View.set_slice_whole main_v155 (((cfgM11 a).win 5).rect t)))).trans ?_
  exact Rect.mem_set_unit

/-- THE ROW BLOCKS TILE THE ARRAY: row n is in the block the last tile of row block n / 2000 writes back. -/
theorem vcover11_5 (x : S100000x128.Idx) :
    ∃ t : Fin (cfgM11 a).N, ((cfgM11 a).win 5).flush t = true ∧ x ∈ (((cfgM11 a).win 5).blk t).view.set := by
  have hx0 : (x 0).val < 100000 := (x 0).isLt
  have hx1 : (x 1).val < 128 := (x 1).isLt
  have hN : (cfgM11 a).N = 6150 := N_11
  have hn : (x 0).val / 2000 * 123 + 122 < (cfgM11 a).N := by rw [hN]; omega
  have hi50 : (x 0).val / 2000 < 50 := by omega
  refine ⟨⟨(x 0).val / 2000 * 123 + 122, hn⟩, ?_, ?_⟩
  · rw [vflush11_5, decide_eq_true_eq]; show ((x 0).val / 2000 * 123 + 122) % 123 = 122; omega
  · rw [vmem_blk11_5]
    have hidx := vindex11_5 a ⟨(x 0).val / 2000 * 123 + 122, hn⟩
    rw [vcoord11_0 a _ hn ⟨(x 0).val / 2000, hi50⟩ (by show ((x 0).val / 2000 * 123 + 122) / 123 = (x 0).val / 2000; omega),
      vs11_toNat_ofNat_lt50 ⟨(x 0).val / 2000, hi50⟩] at hidx
    have h0 : ((cfgM11 a).win 5).index ⟨(x 0).val / 2000 * 123 + 122, hn⟩ (0 : Fin 2) = (x 0).val / 2000 := congrFun hidx (0 : Fin 2)
    have h1 : ((cfgM11 a).win 5).index ⟨(x 0).val / 2000 * 123 + 122, hn⟩ (1 : Fin 2) = 0 := congrFun hidx (1 : Fin 2)
    intro ax
    match ax with
    | ⟨0, _⟩ =>
      show ((cfgM11 a).win 5).index ⟨(x 0).val / 2000 * 123 + 122, hn⟩ (0 : Fin 2) * 2000 ≤ (x 0).val
        ∧ (x 0).val < ((cfgM11 a).win 5).index ⟨(x 0).val / 2000 * 123 + 122, hn⟩ (0 : Fin 2) * 2000 + 2000
      omega
    | ⟨1, _⟩ =>
      show ((cfgM11 a).win 5).index ⟨(x 0).val / 2000 * 123 + 122, hn⟩ (1 : Fin 2) * 128 ≤ (x 1).val
        ∧ (x 1).val < ((cfgM11 a).win 5).index ⟨(x 0).val / 2000 * 123 + 122, hn⟩ (1 : Fin 2) * 128 + 128
      omega

/-! ## The result array -/

/-- THE RESULT ARRAY after the region, under the clamp hypothesis. -/
theorem arr11_5 (c : Dev nD) (hc : Hclamp11 a) : (dat11 a V c).arrAt 5 (cfgM11 a).N = scatG11 a V c :=
  (dat11 a V c).arrAt_eq_of_cover 5 (scatG11 a V c) (fun t hf => vflushed11_5_eq a V hc c t hf) (vcover11_5 a)

/-- Index by index: entry (n, f) is max (sum over the admitted edge blocks j and their positions k of
    [col (j, k) = n] * scaled (j, k, f), plus the sum over k of h0 (n, k) * root_w (k, f), plus bias f) 0. -/
theorem arr11_5_apply (c : Dev nD) (hc : Hclamp11 a) (n : Fin 100000) (f : Fin 128) :
    (dat11 a V c).arrAt 5 (cfgM11 a).N (ValueIdx.ix2 n f)
      = max ((∑ j : Fin 123, if gate11 a (n.val / 2000) j then scatTerm11 V c n.val f j else 0)
          + ∑ k : Fin 128, h0A11 V c (ValueIdx.ix2 n k) * rwA11 V c (ValueIdx.ix2 k f)
          + bA11 V c (ValueIdx.ix2 (0 : Fin 1) f)) 0 :=
  (congrFun (arr11_5 a V c hc) (ValueIdx.ix2 n f)).trans (scatG11_at a V c (ValueIdx.ix2 n f) n f rfl rfl)

/-! ## The flat form: the sum over all 629760 edge positions

When the gate admits every tile whose edge block holds a position with column word n (the table words bracket every
column word's node block), the refused blocks contribute nothing to node n and the gated sum over blocks is the sum
over all positions. -/

/-- Every column word below 100000 has its node block between its edge block's two table words. -/
def Hgate11 (c : Dev nD) : Prop := ∀ (j : Fin 123) (k : Fin 5120),
  (colA11 V c (ValueIdx.ix2 (0 : Fin 1) (ePos11 j k))).toNat < 100000 →
    gate11 a ((colA11 V c (ValueIdx.ix2 (0 : Fin 1) (ePos11 j k))).toNat / 2000) j

/-- A refused edge block holds no position whose column word is n. -/
theorem scatTerm11_eq_zero (c : Dev nD) (hg : Hgate11 a V c) (n : Fin 100000) (f : Fin 128) (j : Fin 123)
    (h : ¬ gate11 a (n.val / 2000) j) : scatTerm11 V c n.val f j = 0 := by
  unfold scatTerm11
  refine Finset.sum_eq_zero fun k _ => ?_
  have hne : (colA11 V c (ValueIdx.ix2 (0 : Fin 1) (ePos11 j k))).toNat ≠ n.val := fun e => h (by
    have h' := hg j k (by rw [e]; exact n.isLt)
    rwa [e] at h')
  rw [if_neg hne, zero_mul]

/-- The 123 blocks of 5120 positions are the 629760 positions. -/
theorem sum_blocks11 (F : Fin 629760 → EReal) : ∑ j : Fin 123, ∑ k : Fin 5120, F (ePos11 j k) = ∑ e : Fin 629760, F e := by
  have hE : ∀ x : Fin 123 × Fin 5120, (finProdFinEquiv x : Fin (123 * 5120)) = ePos11 x.1 x.2 := fun x =>
    Fin.ext (by rw [finProdFinEquiv_apply_val, ePos11_val]; omega)
  rw [← Fintype.sum_prod_type' (fun j k => F (ePos11 j k))]
  rw [← Equiv.sum_comp (finProdFinEquiv : Fin 123 × Fin 5120 ≃ Fin (123 * 5120)) F]
  exact Finset.sum_congr rfl fun x _ => by rw [hE x]

/-- The gated sum over edge blocks is the sum over all edge positions. -/
theorem sum_gated11_eq_flat (c : Dev nD) (hg : Hgate11 a V c) (n : Fin 100000) (f : Fin 128) :
    (∑ j : Fin 123, if gate11 a (n.val / 2000) j then scatTerm11 V c n.val f j else 0)
      = ∑ e : Fin 629760, (if (colA11 V c (ValueIdx.ix2 (0 : Fin 1) e)).toNat = n.val then (1 : EReal) else 0)
          * scaledA11 V c (ValueIdx.ix2 e f) := by
  have h1 : (∑ j : Fin 123, if gate11 a (n.val / 2000) j then scatTerm11 V c n.val f j else 0)
      = ∑ j : Fin 123, scatTerm11 V c n.val f j := Finset.sum_congr rfl fun j _ => by
    by_cases h : gate11 a (n.val / 2000) j
    · rw [if_pos h]
    · rw [if_neg h, scatTerm11_eq_zero a V c hg n f j h]
  rw [h1]
  unfold scatTerm11
  exact sum_blocks11 (fun e => (if (colA11 V c (ValueIdx.ix2 (0 : Fin 1) e)).toNat = n.val then (1 : EReal) else 0)
    * scaledA11 V c (ValueIdx.ix2 e f))

/-- THE RESULT ARRAY, index by index, in the flat form: entry (n, f) is
    max (sum over ALL edge positions e of [col e = n] * scaled (e, f), plus sum over k of h0 (n, k) * root_w (k, f), plus bias f) 0. -/
theorem arr11_5_flat (c : Dev nD) (hc : Hclamp11 a) (hg : Hgate11 a V c) (n : Fin 100000) (f : Fin 128) :
    (dat11 a V c).arrAt 5 (cfgM11 a).N (ValueIdx.ix2 n f)
      = max ((∑ e : Fin 629760, (if (colA11 V c (ValueIdx.ix2 (0 : Fin 1) e)).toNat = n.val then (1 : EReal) else 0)
                * scaledA11 V c (ValueIdx.ix2 e f))
          + ∑ k : Fin 128, h0A11 V c (ValueIdx.ix2 n k) * rwA11 V c (ValueIdx.ix2 k f)
          + bA11 V c (ValueIdx.ix2 (0 : Fin 1) f)) 0 := by
  rw [arr11_5_apply a V c hc n f, sum_gated11_eq_flat a V c hg n f]

end Region11

end Cert.KernelIdeal.Hand

end
-- ==== Proof.KI.ValAllScatter11.lean ====
/- Region 11 (a scatter region) in the chain's form. Its result array, read in the valuation after the region, is
   the positive part of the gated one-hot sum over the edge blocks plus h0 times the root weight plus the bias, of the
   arrays as the valuation before the region holds them. The gate of tile (i, j) is the bracket lo j ≤ i ≤ hi j of the
   table words; the tables hold the words the host stretches before the first region leave, and on every tile the gate
   admits the clamped edge block min (max j (elo i)) (ehi i) is j itself. -/
import proofs.«415143_j42460046688958_3_alg».proof.Proof.KI.Assemble
import proofs.«415143_j42460046688958_3_alg».proof.Proof.KI.ValChain
import proofs.«415143_j42460046688958_3_alg».proof.Proof.KI.ValScatter11

noncomputable section

open scoped BigOperators

namespace Cert.KernelIdeal.Hand

open Cert.KernelIdeal Cert.KernelIdeal.Gen Idealize.ShloMosaic Idealize.ShloMosaic.TcCoe Idealize.SL.Sem

/-! ## Over any table contents: the region's value lemma at the chain's valuations -/

section AnyTables

variable (a : (p : Fin 13) → (pcfgs (F := Ideal) p).Adm) (m : (ℓ : Loc nD τ sig) → Buf (Elt Ideal) ℓ) (c : Dev nD)

/-- Region 11's value lemma over the chain's valuations, at any table contents on which the clamped edge block of an
    admitted tile is the block itself. -/
theorem scatterW11 (hc : Hclamp11 a) :
    ScatterVal (gate11 a) ePos11 (W51 a m c main_v113) (W51 a m c main_v149) (W51 a m c main_v6)
      (W51 a m c main_v151) (W51 a m c main_v154) (W52 a m c main_v155) := by
  intro n f
  have hout : (W52 a m c main_v155 : S100000x128.Idx → EReal)
      = (dat11 a (fun c b => W51 a m c b) c).arrAt (5 : Fin 6) (Pipeline.pin (pcfgs (F := Ideal)) a 11).N := by
    rw [W52_def]
    exact (Function.update_self _ _ _).trans (out11_def a m c)
  rw [hout]
  exact arr11_5_apply a (fun c b => W51 a m c b) c hc n f

end AnyTables

/-! ## At the program's tables -/

variable (m : (ℓ : Loc nD τ sig) → Buf (Elt Ideal) ℓ)

/-- The four table words of region 11 are the words the host stretches leave. -/
theorem loT11_all (x : S123.Idx) : loT11 (admAll (F := Ideal) m) x = (V33 m (0 : Dev nD) main_v81 : S123.Idx → BitVec 32) x := by
  show ((admAll (F := Ideal) m 11).1 0 : S123.Idx → BitVec 32) x = _
  rw [show admAll (F := Ideal) m 11 = adm11 m from rfl, adm11_val]
  rfl
theorem hiT11_all (x : S123.Idx) : hiT11 (admAll (F := Ideal) m) x = (V33 m (0 : Dev nD) main_v82 : S123.Idx → BitVec 32) x := by
  show ((admAll (F := Ideal) m 11).1 1 : S123.Idx → BitVec 32) x = _
  rw [show admAll (F := Ideal) m 11 = adm11 m from rfl, adm11_val]
  rfl
theorem eloT11_all (x : S50.Idx) : eloT11 (admAll (F := Ideal) m) x = (V33 m (0 : Dev nD) main_v110 : S50.Idx → BitVec 32) x := by
  show ((admAll (F := Ideal) m 11).1 2 : S50.Idx → BitVec 32) x = _
  rw [show admAll (F := Ideal) m 11 = adm11 m from rfl, adm11_val]
  rfl
theorem ehiT11_all (x : S50.Idx) : ehiT11 (admAll (F := Ideal) m) x = (V33 m (0 : Dev nD) main_v111 : S50.Idx → BitVec 32) x := by
  show ((admAll (F := Ideal) m 11).1 3 : S50.Idx → BitVec 32) x = _
  rw [show admAll (F := Ideal) m 11 = adm11 m from rfl, adm11_val]
  rfl

/-- Region 11's gate holds wherever its table words bracket the node block. -/
theorem gateS11_of (c : Dev nD) (i : Fin 50) (j : Fin 123)
    (h1 : ((V33 m c main_v81 : S123.Idx → BitVec 32) (Shape.Idx.ofFin j)).toInt ≤ (i.val : ℤ))
    (h2 : (i.val : ℤ) ≤ ((V33 m c main_v82 : S123.Idx → BitVec 32) (Shape.Idx.ofFin j)).toInt) : gate11 (admAll m) i.val j := by
  obtain rfl : c = 0 := Subsingleton.elim _ _
  show (loT11 (admAll (F := Ideal) m) (Shape.Idx.ofFin j)).toInt ≤ (i.val : ℤ) ∧ (i.val : ℤ) ≤ (hiT11 (admAll (F := Ideal) m) (Shape.Idx.ofFin j)).toInt
  rw [loT11_all, hiT11_all]
  exact ⟨h1, h2⟩

/-- On every tile region 11's gate admits, the clamped edge block is the block itself. -/
theorem hclamp11 : Hclamp11 (admAll (F := Ideal) m) := by
  intro i j hg
  have hg' : (loT11 (admAll (F := Ideal) m) (Shape.Idx.ofFin j)).toInt ≤ (i.val : ℤ)
    ∧ (i.val : ℤ) ≤ (hiT11 (admAll (F := Ideal) m) (Shape.Idx.ofFin j)).toInt := hg
  rw [loT11_all, hiT11_all] at hg'
  obtain ⟨e1, e2⟩ := elo_ehi_of_gate m 0 i j hg'.1 hg'.2
  rw [eloT11_all, ehiT11_all]
  exact clamp_eq j.val _ _ e1 e2 (ehi_le m 0 _)

/-- Region 11's value lemma at the program's tables, in the valuations the run names. -/
theorem scatter3_val (c : Dev nD) :
    ScatterVal (gate11 (admAll m)) ePos11 (V51 m (outsAll m) c main_v113) (V51 m (outsAll m) c main_v149) (V51 m (outsAll m) c main_v6)
      (V51 m (outsAll m) c main_v151) (V51 m (outsAll m) c main_v154) (V52 m (outsAll m) c main_v155) := by
  rw [V51_eq (admAll m) m c, V52_eq (admAll m) m c]
  exact scatterW11 (admAll m) m c (hclamp11 m)

end Cert.KernelIdeal.Hand

end
-- ==== Proof.KI.ValAllScatter.lean ====
/- The four scatter regions in the chain's form: each region's result array, read in the valuation after the region, is
   the positive part of the gated one-hot sum plus h0 times the root weight plus the bias, as its value lemma states of
   the valuation before it; the gate is the table words' bracket, on which the clamped edge block is the block itself.
   One module per region; this one gathers them. -/
import proofs.«415143_j42460046688958_3_alg».proof.Proof.KI.ValAllScatter2
import proofs.«415143_j42460046688958_3_alg».proof.Proof.KI.ValAllScatter5
import proofs.«415143_j42460046688958_3_alg».proof.Proof.KI.ValAllScatter8
import proofs.«415143_j42460046688958_3_alg».proof.Proof.KI.ValAllScatter11
-- ==== Proof.KI.ValDense0.lean ====
/- The value of a dense layer's region at the ideal instance. At the extended reals the format changes of the body
   (f32 to bf16 and back inside the product) are the identity and the product into a zero accumulator is the plain sum
   over the contraction index, so what point t writes back is rows [2000 t, 2000 t + 2000) of the matrix product of
   the two arrays the region reads. The 50 row blocks tile the result array, so after the region the result array IS
   the product, index by index: entry (n, j) is the sum over k of x (n, k) * w (k, j). -/
import proofs.«415143_j42460046688958_3_alg».proof.Proof.KI.Dense0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The block product's operand indices: output (r, j) and contraction index k read x at (r, k) and w at (k, j) -/

theorem lhs_k0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row r of the block of x at contraction index k, -/
abbrev lidx_k0 (i : S2000x128.Idx) (k : Fin 128) : S2000x128.Idx := fun a => match a with
  | ⟨0, _⟩ => ⟨(i 0).val, (i 0).isLt⟩
  | ⟨1, _⟩ => ⟨k.val, k.isLt⟩
/-- and column j of w at it. -/
abbrev ridx_k0 (i : S2000x128.Idx) (k : Fin 128) : S128x128.Idx := fun a => match a with
  | ⟨0, _⟩ => ⟨k.val, k.isLt⟩
  | ⟨1, _⟩ => ⟨(i 1).val, (i 1).isLt⟩

/-- The body's payload at an index of the block: the sum over the contraction index of the products. A shape cast to the
    same shape is the identity, and so is a format change at the extended reals. -/
theorem k0_pay1_apply (x0 : Vec Ideal S2000x128 .f32) (x1 : Vec Ideal S128x128 .f32) (i : S2000x128.Idx) :
    k0_pay1 (F := Ideal) x0 x1 i = ∑ k : Fin 128, x0 (lidx_k0 i k) * x1 (ridx_k0 i k) := by
  unfold k0_pay1
  simp only [shapeCast_self, matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lidx_k0 i k := funext fun a => Fin.ext (by
    match a with
    | ⟨0, _⟩ => exact lhs_k0_0 _ _
    | ⟨1, _⟩ => exact (lhs_k0_1 _ _).trans hk)
  have er : dot_S2000x128_S128x128_S2000x128_1_0_0_1_n_n.rhsIdx i ((ValueIdx.contrEquiv1 dot_S2000x128_S128x128_S2000x128_1_0_0_1_n_n 128 rfl rfl).symm k) = ridx_k0 i k := funext fun a => Fin.ext (by
    match a with
    | ⟨0, _⟩ => exact (rhs_k0_0 _ _).trans hk
    | ⟨1, _⟩ => exact rhs_k0_1 _ _)
  rw [el, er, ValueIdx.truncf_apply, ValueIdx.truncf_apply]

/-! ## The product of the two arrays, index by index -/

/-- Row n of x at contraction index k, -/
abbrev xidx0 (i : S100000x128.Idx) (k : Fin 128) : S100000x128.Idx := fun a => match a with
  | ⟨0, _⟩ => ⟨(i 0).val, (i 0).isLt⟩
  | ⟨1, _⟩ => ⟨k.val, k.isLt⟩
/-- and column j of w at it. -/
abbrev widx0 (i : S100000x128.Idx) (k : Fin 128) : S128x128.Idx := fun a => match a with
  | ⟨0, _⟩ => ⟨k.val, k.isLt⟩
  | ⟨1, _⟩ => ⟨(i 1).val, (i 1).isLt⟩

/-- What the result array ends holding: the matrix product of the array of x and the array of w. -/
def denseG0 (X : S100000x128.Idx → Elt Ideal .f32) (Wt : S128x128.Idx → Elt Ideal .f32) : S100000x128.Idx → Elt Ideal .f32 :=
  fun i => ∑ k : Fin 128, X (xidx0 i k) * Wt (widx0 i k)

theorem denseG0_apply (X : S100000x128.Idx → Elt Ideal .f32) (Wt : S128x128.Idx → Elt Ideal .f32) (i : S100000x128.Idx) :
    denseG0 X Wt i = ∑ k : Fin 128, X (xidx0 i k) * Wt (widx0 i k) := rfl

section Region0

variable (V : (c : Dev nD) → (b : Ref sig .tc) → Buf (Elt Ideal) ((c : Thread nD τ).loc b))

/-- The array of x as the region finds it, at its literal index and element types, -/
abbrev xArr0 (c : Dev nD) : S100000x128.Idx → Elt Ideal .f32 := V c main_v6
/-- and the weight's. -/
abbrev wArr0 (c : Dev nD) : S128x128.Idx → Elt Ideal .f32 := V c main_arg4

theorem hz0 : (![0, 0] : Fin 2 → Nat) = fun _ => 0 := funext fun a => by fin_cases a <;> rfl

/-- The printed index maps, decided over the grid: the block of x moves with the result's row block, the weight's block
    never moves, and the result's row block at point t is block t. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of the product of the two arrays as the region finds them. -/
theorem flushed0_2_eq (c : Dev nD) (t : Fin cfg0.N) :
    (dat0c V c).flushed 2 t = ((cfg0.win 2).blk t).view.read (Elt Ideal) (denseG0 (xArr0 V c) (wArr0 V c)) := by
  show (cfg0.win 2).cut (grid0.coords t) ((dat0c V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  funext j
  show k0_pay1 (F := Ideal) (iblk0 V c 0 t) (iblk0 V c 1 t) j = denseG0 (xArr0 V c) (wArr0 V c) (((cfg0.win 2).blk t).view.emb j)
  rw [k0_pay1_apply, denseG0_apply]
  refine Finset.sum_congr rfl fun k _ => ?_
  show xArr0 V c (((cfg0.win 0).blk t).view.emb (lidx_k0 j k)) * wArr0 V c (((cfg0.win 1).blk t).view.emb (ridx_k0 j k))
    = xArr0 V c (xidx0 (((cfg0.win 2).blk t).view.emb j) k) * wArr0 V c (widx0 (((cfg0.win 2).blk t).view.emb j) k)
  have h0 : ((cfg0.win 0).blk t).view.emb (lidx_k0 j k) = xidx0 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ridx_k0 j k) = widx0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point t's block iff each coordinate is in the block's range on its axis. -/
theorem mem_blk0_2 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v118).slice (win0_2.rect t)).set ↔ _
  rw [View.set_slice_whole, Rect.mem_set_unit]
  exact Iff.rfl

/-- THE ROW BLOCKS TILE THE ARRAY: row n is in the block of point n / 2000. -/
theorem cover0_2_arr (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨e0, e1, e2, e3, e4, e5⟩ := idx_facts0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0_2]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 128 ≤ (i 1).val ∧ (i 1).val < win0_2.index ⟨(i 0).val / 2000, hlt⟩ (1 : Fin 2) * 128 + 128; omega

/-- THE RESULT ARRAY after the region, over the printed configuration: the product of the two arrays the region reads. -/
theorem arr0_2c (c : Dev nD) : (dat0c V c).arrAt 2 cfg0.N = denseG0 (xArr0 V c) (wArr0 V c) :=
  (dat0c V c).arrAt_eq_of_cover 2 (denseG0 (xArr0 V c) (wArr0 V c)) (fun t _ => flushed0_2_eq V c t) cover0_2_arr

/-- The same of the pinned pipeline's proof data, as the region's exit state names it. -/
theorem arr0_2 (a : (p : Fin 13) → (pcfgs (F := Ideal) p).Adm) (c : Dev nD) :
    (dat0 a V c).arrAt (2 : Fin 3) cfg0.N = denseG0 (xArr0 V c) (wArr0 V c) :=
  arr0_2c V c

/-- Index by index: entry (n, j) of the result is the sum over k of x (n, k) * w (k, j). -/
theorem arr0_2_apply (a : (p : Fin 13) → (pcfgs (F := Ideal) p).Adm) (c : Dev nD) (i : S100000x128.Idx) :
    ((dat0 a V c).arrAt (2 : Fin 3) cfg0.N : S100000x128.Idx → Elt Ideal .f32) i = ∑ k : Fin 128, xArr0 V c (xidx0 i k) * wArr0 V c (widx0 i k) :=
  congrFun (arr0_2 V a c) i

end Region0

end Cert.KernelIdeal.Hand

end
-- ==== Proof.KI.ValDense3.lean ====
/- The value of a dense layer's region at the ideal instance. At the extended reals the format changes of the body
   (f32 to bf16 and back inside the product) are the identity and the product into a zero accumulator is the plain sum
   over the contraction index, so what point t writes back is rows [2000 t, 2000 t + 2000) of the matrix product of
   the two arrays the region reads. The 50 row blocks tile the result array, so after the region the result array IS
   the product, index by index: entry (n, j) is the sum over k of x (n, k) * w (k, j). -/
import proofs.«415143_j42460046688958_3_alg».proof.Proof.KI.Dense3
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The block product's operand indices: output (r, j) and contraction index k read x at (r, k) and w at (k, j) -/

theorem lhs_k3_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k3_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k3_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k3_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row r of the block of x at contraction index k, -/
abbrev lidx_k3 (i : S2000x128.Idx) (k : Fin 128) : S2000x128.Idx := fun a => match a with
  | ⟨0, _⟩ => ⟨(i 0).val, (i 0).isLt⟩
  | ⟨1, _⟩ => ⟨k.val, k.isLt⟩
/-- and column j of w at it. -/
abbrev ridx_k3 (i : S2000x128.Idx) (k : Fin 128) : S128x128.Idx := fun a => match a with
  | ⟨0, _⟩ => ⟨k.val, k.isLt⟩
  | ⟨1, _⟩ => ⟨(i 1).val, (i 1).isLt⟩

/-- The body's payload at an index of the block: the sum over the contraction index of the products. A shape cast to the
    same shape is the identity, and so is a format change at the extended reals. -/
theorem k3_pay1_apply (x0 : Vec Ideal S2000x128 .f32) (x1 : Vec Ideal S128x128 .f32) (i : S2000x128.Idx) :
    k3_pay1 (F := Ideal) x0 x1 i = ∑ k : Fin 128, x0 (lidx_k3 i k) * x1 (ridx_k3 i k) := by
  unfold k3_pay1
  simp only [shapeCast_self, matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lidx_k3 i k := funext fun a => Fin.ext (by
    match a with
    | ⟨0, _⟩ => exact lhs_k3_0 _ _
    | ⟨1, _⟩ => exact (lhs_k3_1 _ _).trans hk)
  have er : dot_S2000x128_S128x128_S2000x128_1_0_0_1_n_n.rhsIdx i ((ValueIdx.contrEquiv1 dot_S2000x128_S128x128_S2000x128_1_0_0_1_n_n 128 rfl rfl).symm k) = ridx_k3 i k := funext fun a => Fin.ext (by
    match a with
    | ⟨0, _⟩ => exact (rhs_k3_0 _ _).trans hk
    | ⟨1, _⟩ => exact rhs_k3_1 _ _)
  rw [el, er, ValueIdx.truncf_apply, ValueIdx.truncf_apply]

/-! ## The product of the two arrays, index by index -/

/-- Row n of x at contraction index k, -/
abbrev xidx3 (i : S100000x128.Idx) (k : Fin 128) : S100000x128.Idx := fun a => match a with
  | ⟨0, _⟩ => ⟨(i 0).val, (i 0).isLt⟩
  | ⟨1, _⟩ => ⟨k.val, k.isLt⟩
/-- and column j of w at it. -/
abbrev widx3 (i : S100000x128.Idx) (k : Fin 128) : S128x128.Idx := fun a => match a with
  | ⟨0, _⟩ => ⟨k.val, k.isLt⟩
  | ⟨1, _⟩ => ⟨(i 1).val, (i 1).isLt⟩

/-- What the result array ends holding: the matrix product of the array of x and the array of w. -/
def denseG3 (X : S100000x128.Idx → Elt Ideal .f32) (Wt : S128x128.Idx → Elt Ideal .f32) : S100000x128.Idx → Elt Ideal .f32 :=
  fun i => ∑ k : Fin 128, X (xidx3 i k) * Wt (widx3 i k)

theorem denseG3_apply (X : S100000x128.Idx → Elt Ideal .f32) (Wt : S128x128.Idx → Elt Ideal .f32) (i : S100000x128.Idx) :
    denseG3 X Wt i = ∑ k : Fin 128, X (xidx3 i k) * Wt (widx3 i k) := rfl

section Region3

variable (V : (c : Dev nD) → (b : Ref sig .tc) → Buf (Elt Ideal) ((c : Thread nD τ).loc b))

/-- The array of x as the region finds it, at its literal index and element types, -/
abbrev xArr3 (c : Dev nD) : S100000x128.Idx → Elt Ideal .f32 := V c main_v125
/-- and the weight's. -/
abbrev wArr3 (c : Dev nD) : S128x128.Idx → Elt Ideal .f32 := V c main_v127

theorem hz3 : (![0, 0] : Fin 2 → Nat) = fun _ => 0 := funext fun a => by fin_cases a <;> rfl

/-- The printed index maps, decided over the grid: the block of x moves with the result's row block, the weight's block
    never moves, and the result's row block at point t is block t. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- WHAT POINT t WRITES BACK is block t of the product of the two arrays as the region finds them. -/
theorem flushed3_2_eq (c : Dev nD) (t : Fin cfg3.N) :
    (dat3c V c).flushed 2 t = ((cfg3.win 2).blk t).view.read (Elt Ideal) (denseG3 (xArr3 V c) (wArr3 V c)) := by
  show (cfg3.win 2).cut (grid3.coords t) ((dat3c V c).after 2 t) = _
  rw [after3_2]
  unfold out3_2
  rw [View.canon_unit_zero hz3]
  simp only [View.ld_unit_zero (S := S2000x128) hz3, View.ld_unit_zero (S := S128x128) hz3]
  obtain ⟨e0, e1, e2, e3, e4, e5⟩ := idx_facts3 t
  funext j
  show k3_pay1 (F := Ideal) (iblk3 V c 0 t) (iblk3 V c 1 t) j = denseG3 (xArr3 V c) (wArr3 V c) (((cfg3.win 2).blk t).view.emb j)
  rw [k3_pay1_apply, denseG3_apply]
  refine Finset.sum_congr rfl fun k _ => ?_
  show xArr3 V c (((cfg3.win 0).blk t).view.emb (lidx_k3 j k)) * wArr3 V c (((cfg3.win 1).blk t).view.emb (ridx_k3 j k))
    = xArr3 V c (xidx3 (((cfg3.win 2).blk t).view.emb j) k) * wArr3 V c (widx3 (((cfg3.win 2).blk t).view.emb j) k)
  have h0 : ((cfg3.win 0).blk t).view.emb (lidx_k3 j k) = xidx3 (((cfg3.win 2).blk t).view.emb j) k := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  have h1 : ((cfg3.win 1).blk t).view.emb (ridx_k3 j k) = widx3 (((cfg3.win 2).blk t).view.emb j) k := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [h0, h1]

/-- An index of the result array is in point t's block iff each coordinate is in the block's range on its axis. -/
theorem mem_blk3_2 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v128).slice (win3_2.rect t)).set ↔ _
  rw [View.set_slice_whole, Rect.mem_set_unit]
  exact Iff.rfl

/-- THE ROW BLOCKS TILE THE ARRAY: row n is in the block of point n / 2000. -/
theorem cover3_2_arr (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := N_3
  have hlt : (i 0).val / 2000 < cfg3.N := by rw [hN]; omega
  obtain ⟨e0, e1, e2, e3, e4, e5⟩ := idx_facts3 ⟨(i 0).val / 2000, hlt⟩
  have e4' : win3_2.index ⟨(i 0).val / 2000, hlt⟩ (0 : Fin 2) = (i 0).val / 2000 := e4
  refine ⟨⟨(i 0).val / 2000, hlt⟩, flush3_2 _, ?_⟩
  rw [mem_blk3_2]
  intro a
  match a with
  | ⟨0, _⟩ => show win3_2.index ⟨(i 0).val / 2000, hlt⟩ (0 : Fin 2) * 2000 ≤ (i 0).val ∧ (i 0).val < win3_2.index ⟨(i 0).val / 2000, hlt⟩ (0 : Fin 2) * 2000 + 2000; omega
  | ⟨1, _⟩ => show win3_2.index ⟨(i 0).val / 2000, hlt⟩ (1 : Fin 2) * 128 ≤ (i 1).val ∧ (i 1).val < win3_2.index ⟨(i 0).val / 2000, hlt⟩ (1 : Fin 2) * 128 + 128; omega

/-- THE RESULT ARRAY after the region, over the printed configuration: the product of the two arrays the region reads. -/
theorem arr3_2c (c : Dev nD) : (dat3c V c).arrAt 2 cfg3.N = denseG3 (xArr3 V c) (wArr3 V c) :=
  (dat3c V c).arrAt_eq_of_cover 2 (denseG3 (xArr3 V c) (wArr3 V c)) (fun t _ => flushed3_2_eq V c t) cover3_2_arr

/-- The same of the pinned pipeline's proof data, as the region's exit state names it. -/
theorem arr3_2 (a : (p : Fin 13) → (pcfgs (F := Ideal) p).Adm) (c : Dev nD) :
    (dat3 a V c).arrAt (2 : Fin 3) cfg3.N = denseG3 (xArr3 V c) (wArr3 V c) :=
  arr3_2c V c

/-- Index by index: entry (n, j) of the result is the sum over k of x (n, k) * w (k, j). -/
theorem arr3_2_apply (a : (p : Fin 13) → (pcfgs (F := Ideal) p).Adm) (c : Dev nD) (i : S100000x128.Idx) :
    ((dat3 a V c).arrAt (2 : Fin 3) cfg3.N : S100000x128.Idx → Elt Ideal .f32) i = ∑ k : Fin 128, xArr3 V c (xidx3 i k) * wArr3 V c (widx3 i k) :=
  congrFun (arr3_2 V a c) i

end Region3

end Cert.KernelIdeal.Hand

end
-- ==== Proof.KI.ValDense6.lean ====
/- The value of a dense layer's region at the ideal instance. At the extended reals the format changes of the body
   (f32 to bf16 and back inside the product) are the identity and the product into a zero accumulator is the plain sum
   over the contraction index, so what point t writes back is rows [2000 t, 2000 t + 2000) of the matrix product of
   the two arrays the region reads. The 50 row blocks tile the result array, so after the region the result array IS
   the product, index by index: entry (n, j) is the sum over k of x (n, k) * w (k, j). -/
import proofs.«415143_j42460046688958_3_alg».proof.Proof.KI.Dense6
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The block product's operand indices: output (r, j) and contraction index k read x at (r, k) and w at (k, j) -/

theorem lhs_k6_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k6_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k6_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k6_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row r of the block of x at contraction index k, -/
abbrev lidx_k6 (i : S2000x128.Idx) (k : Fin 128) : S2000x128.Idx := fun a => match a with
  | ⟨0, _⟩ => ⟨(i 0).val, (i 0).isLt⟩
  | ⟨1, _⟩ => ⟨k.val, k.isLt⟩
/-- and column j of w at it. -/
abbrev ridx_k6 (i : S2000x128.Idx) (k : Fin 128) : S128x128.Idx := fun a => match a with
  | ⟨0, _⟩ => ⟨k.val, k.isLt⟩
  | ⟨1, _⟩ => ⟨(i 1).val, (i 1).isLt⟩

/-- The body's payload at an index of the block: the sum over the contraction index of the products. A shape cast to the
    same shape is the identity, and so is a format change at the extended reals. -/
theorem k6_pay1_apply (x0 : Vec Ideal S2000x128 .f32) (x1 : Vec Ideal S128x128 .f32) (i : S2000x128.Idx) :
    k6_pay1 (F := Ideal) x0 x1 i = ∑ k : Fin 128, x0 (lidx_k6 i k) * x1 (ridx_k6 i k) := by
  unfold k6_pay1
  simp only [shapeCast_self, matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lidx_k6 i k := funext fun a => Fin.ext (by
    match a with
    | ⟨0, _⟩ => exact lhs_k6_0 _ _
    | ⟨1, _⟩ => exact (lhs_k6_1 _ _).trans hk)
  have er : dot_S2000x128_S128x128_S2000x128_1_0_0_1_n_n.rhsIdx i ((ValueIdx.contrEquiv1 dot_S2000x128_S128x128_S2000x128_1_0_0_1_n_n 128 rfl rfl).symm k) = ridx_k6 i k := funext fun a => Fin.ext (by
    match a with
    | ⟨0, _⟩ => exact (rhs_k6_0 _ _).trans hk
    | ⟨1, _⟩ => exact rhs_k6_1 _ _)
  rw [el, er, ValueIdx.truncf_apply, ValueIdx.truncf_apply]

/-! ## The product of the two arrays, index by index -/

/-- Row n of x at contraction index k, -/
abbrev xidx6 (i : S100000x128.Idx) (k : Fin 128) : S100000x128.Idx := fun a => match a with
  | ⟨0, _⟩ => ⟨(i 0).val, (i 0).isLt⟩
  | ⟨1, _⟩ => ⟨k.val, k.isLt⟩
/-- and column j of w at it. -/
abbrev widx6 (i : S100000x128.Idx) (k : Fin 128) : S128x128.Idx := fun a => match a with
  | ⟨0, _⟩ => ⟨k.val, k.isLt⟩
  | ⟨1, _⟩ => ⟨(i 1).val, (i 1).isLt⟩

/-- What the result array ends holding: the matrix product of the array of x and the array of w. -/
def denseG6 (X : S100000x128.Idx → Elt Ideal .f32) (Wt : S128x128.Idx → Elt Ideal .f32) : S100000x128.Idx → Elt Ideal .f32 :=
  fun i => ∑ k : Fin 128, X (xidx6 i k) * Wt (widx6 i k)

theorem denseG6_apply (X : S100000x128.Idx → Elt Ideal .f32) (Wt : S128x128.Idx → Elt Ideal .f32) (i : S100000x128.Idx) :
    denseG6 X Wt i = ∑ k : Fin 128, X (xidx6 i k) * Wt (widx6 i k) := rfl

section Region6

variable (V : (c : Dev nD) → (b : Ref sig .tc) → Buf (Elt Ideal) ((c : Thread nD τ).loc b))

/-- The array of x as the region finds it, at its literal index and element types, -/
abbrev xArr6 (c : Dev nD) : S100000x128.Idx → Elt Ideal .f32 := V c main_v135
/-- and the weight's. -/
abbrev wArr6 (c : Dev nD) : S128x128.Idx → Elt Ideal .f32 := V c main_v137

theorem hz6 : (![0, 0] : Fin 2 → Nat) = fun _ => 0 := funext fun a => by fin_cases a <;> rfl

/-- The printed index maps, decided over the grid: the block of x moves with the result's row block, the weight's block
    never moves, and the result's row block at point t is block t. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- WHAT POINT t WRITES BACK is block t of the product of the two arrays as the region finds them. -/
theorem flushed6_2_eq (c : Dev nD) (t : Fin cfg6.N) :
    (dat6c V c).flushed 2 t = ((cfg6.win 2).blk t).view.read (Elt Ideal) (denseG6 (xArr6 V c) (wArr6 V c)) := by
  show (cfg6.win 2).cut (grid6.coords t) ((dat6c V c).after 2 t) = _
  rw [after6_2]
  unfold out6_2
  rw [View.canon_unit_zero hz6]
  simp only [View.ld_unit_zero (S := S2000x128) hz6, View.ld_unit_zero (S := S128x128) hz6]
  obtain ⟨e0, e1, e2, e3, e4, e5⟩ := idx_facts6 t
  funext j
  show k6_pay1 (F := Ideal) (iblk6 V c 0 t) (iblk6 V c 1 t) j = denseG6 (xArr6 V c) (wArr6 V c) (((cfg6.win 2).blk t).view.emb j)
  rw [k6_pay1_apply, denseG6_apply]
  refine Finset.sum_congr rfl fun k _ => ?_
  show xArr6 V c (((cfg6.win 0).blk t).view.emb (lidx_k6 j k)) * wArr6 V c (((cfg6.win 1).blk t).view.emb (ridx_k6 j k))
    = xArr6 V c (xidx6 (((cfg6.win 2).blk t).view.emb j) k) * wArr6 V c (widx6 (((cfg6.win 2).blk t).view.emb j) k)
  have h0 : ((cfg6.win 0).blk t).view.emb (lidx_k6 j k) = xidx6 (((cfg6.win 2).blk t).view.emb j) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 128 + 1 * k.val = k.val; omega
  have h1 : ((cfg6.win 1).blk t).view.emb (ridx_k6 j k) = widx6 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  rw [h0, h1]

/-- An index of the result array is in point t's block iff each coordinate is in the block's range on its axis. -/
theorem mem_blk6_2 (t : Fin cfg6.N) (i : S100000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v138).slice (win6_2.rect t)).set ↔ _
  rw [View.set_slice_whole, Rect.mem_set_unit]
  exact Iff.rfl

/-- THE ROW BLOCKS TILE THE ARRAY: row n is in the block of point n / 2000. -/
theorem cover6_2_arr (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 50 := N_6
  have hlt : (i 0).val / 2000 < cfg6.N := by rw [hN]; omega
  obtain ⟨e0, e1, e2, e3, e4, e5⟩ := idx_facts6 ⟨(i 0).val / 2000, hlt⟩
  have e4' : win6_2.index ⟨(i 0).val / 2000, hlt⟩ (0 : Fin 2) = (i 0).val / 2000 := e4
  refine ⟨⟨(i 0).val / 2000, hlt⟩, flush6_2 _, ?_⟩
  rw [mem_blk6_2]
  intro a
  match a with
  | ⟨0, _⟩ => show win6_2.index ⟨(i 0).val / 2000, hlt⟩ (0 : Fin 2) * 2000 ≤ (i 0).val ∧ (i 0).val < win6_2.index ⟨(i 0).val / 2000, hlt⟩ (0 : Fin 2) * 2000 + 2000; omega
  | ⟨1, _⟩ => show win6_2.index ⟨(i 0).val / 2000, hlt⟩ (1 : Fin 2) * 128 ≤ (i 1).val ∧ (i 1).val < win6_2.index ⟨(i 0).val / 2000, hlt⟩ (1 : Fin 2) * 128 + 128; omega

/-- THE RESULT ARRAY after the region, over the printed configuration: the product of the two arrays the region reads. -/
theorem arr6_2c (c : Dev nD) : (dat6c V c).arrAt 2 cfg6.N = denseG6 (xArr6 V c) (wArr6 V c) :=
  (dat6c V c).arrAt_eq_of_cover 2 (denseG6 (xArr6 V c) (wArr6 V c)) (fun t _ => flushed6_2_eq V c t) cover6_2_arr

/-- The same of the pinned pipeline's proof data, as the region's exit state names it. -/
theorem arr6_2 (a : (p : Fin 13) → (pcfgs (F := Ideal) p).Adm) (c : Dev nD) :
    (dat6 a V c).arrAt (2 : Fin 3) cfg6.N = denseG6 (xArr6 V c) (wArr6 V c) :=
  arr6_2c V c

/-- Index by index: entry (n, j) of the result is the sum over k of x (n, k) * w (k, j). -/
theorem arr6_2_apply (a : (p : Fin 13) → (pcfgs (F := Ideal) p).Adm) (c : Dev nD) (i : S100000x128.Idx) :
    ((dat6 a V c).arrAt (2 : Fin 3) cfg6.N : S100000x128.Idx → Elt Ideal .f32) i = ∑ k : Fin 128, xArr6 V c (xidx6 i k) * wArr6 V c (widx6 i k) :=
  congrFun (arr6_2 V a c) i

end Region6

end Cert.KernelIdeal.Hand

end
-- ==== Proof.KI.ValDense9.lean ====
/- The value of a dense layer's region at the ideal instance. At the extended reals the format changes of the body
   (f32 to bf16 and back inside the product) are the identity and the product into a zero accumulator is the plain sum
   over the contraction index, so what point t writes back is rows [2000 t, 2000 t + 2000) of the matrix product of
   the two arrays the region reads. The 50 row blocks tile the result array, so after the region the result array IS
   the product, index by index: entry (n, j) is the sum over k of x (n, k) * w (k, j). -/
import proofs.«415143_j42460046688958_3_alg».proof.Proof.KI.Dense9
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The block product's operand indices: output (r, j) and contraction index k read x at (r, k) and w at (k, j) -/

theorem lhs_k9_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k9_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k9_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k9_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row r of the block of x at contraction index k, -/
abbrev lidx_k9 (i : S2000x128.Idx) (k : Fin 128) : S2000x128.Idx := fun a => match a with
  | ⟨0, _⟩ => ⟨(i 0).val, (i 0).isLt⟩
  | ⟨1, _⟩ => ⟨k.val, k.isLt⟩
/-- and column j of w at it. -/
abbrev ridx_k9 (i : S2000x128.Idx) (k : Fin 128) : S128x128.Idx := fun a => match a with
  | ⟨0, _⟩ => ⟨k.val, k.isLt⟩
  | ⟨1, _⟩ => ⟨(i 1).val, (i 1).isLt⟩

/-- The body's payload at an index of the block: the sum over the contraction index of the products. A shape cast to the
    same shape is the identity, and so is a format change at the extended reals. -/
theorem k9_pay1_apply (x0 : Vec Ideal S2000x128 .f32) (x1 : Vec Ideal S128x128 .f32) (i : S2000x128.Idx) :
    k9_pay1 (F := Ideal) x0 x1 i = ∑ k : Fin 128, x0 (lidx_k9 i k) * x1 (ridx_k9 i k) := by
  unfold k9_pay1
  simp only [shapeCast_self, matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lidx_k9 i k := funext fun a => Fin.ext (by
    match a with
    | ⟨0, _⟩ => exact lhs_k9_0 _ _
    | ⟨1, _⟩ => exact (lhs_k9_1 _ _).trans hk)
  have er : dot_S2000x128_S128x128_S2000x128_1_0_0_1_n_n.rhsIdx i ((ValueIdx.contrEquiv1 dot_S2000x128_S128x128_S2000x128_1_0_0_1_n_n 128 rfl rfl).symm k) = ridx_k9 i k := funext fun a => Fin.ext (by
    match a with
    | ⟨0, _⟩ => exact (rhs_k9_0 _ _).trans hk
    | ⟨1, _⟩ => exact rhs_k9_1 _ _)
  rw [el, er, ValueIdx.truncf_apply, ValueIdx.truncf_apply]

/-! ## The product of the two arrays, index by index -/

/-- Row n of x at contraction index k, -/
abbrev xidx9 (i : S100000x128.Idx) (k : Fin 128) : S100000x128.Idx := fun a => match a with
  | ⟨0, _⟩ => ⟨(i 0).val, (i 0).isLt⟩
  | ⟨1, _⟩ => ⟨k.val, k.isLt⟩
/-- and column j of w at it. -/
abbrev widx9 (i : S100000x128.Idx) (k : Fin 128) : S128x128.Idx := fun a => match a with
  | ⟨0, _⟩ => ⟨k.val, k.isLt⟩
  | ⟨1, _⟩ => ⟨(i 1).val, (i 1).isLt⟩

/-- What the result array ends holding: the matrix product of the array of x and the array of w. -/
def denseG9 (X : S100000x128.Idx → Elt Ideal .f32) (Wt : S128x128.Idx → Elt Ideal .f32) : S100000x128.Idx → Elt Ideal .f32 :=
  fun i => ∑ k : Fin 128, X (xidx9 i k) * Wt (widx9 i k)

theorem denseG9_apply (X : S100000x128.Idx → Elt Ideal .f32) (Wt : S128x128.Idx → Elt Ideal .f32) (i : S100000x128.Idx) :
    denseG9 X Wt i = ∑ k : Fin 128, X (xidx9 i k) * Wt (widx9 i k) := rfl

section Region9

variable (V : (c : Dev nD) → (b : Ref sig .tc) → Buf (Elt Ideal) ((c : Thread nD τ).loc b))

/-- The array of x as the region finds it, at its literal index and element types, -/
abbrev xArr9 (c : Dev nD) : S100000x128.Idx → Elt Ideal .f32 := V c main_v145
/-- and the weight's. -/
abbrev wArr9 (c : Dev nD) : S128x128.Idx → Elt Ideal .f32 := V c main_v147

theorem hz9 : (![0, 0] : Fin 2 → Nat) = fun _ => 0 := funext fun a => by fin_cases a <;> rfl

/-- The printed index maps, decided over the grid: the block of x moves with the result's row block, the weight's block
    never moves, and the result's row block at point t is block t. -/
theorem idx_facts9 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

/-- WHAT POINT t WRITES BACK is block t of the product of the two arrays as the region finds them. -/
theorem flushed9_2_eq (c : Dev nD) (t : Fin cfg9.N) :
    (dat9c V c).flushed 2 t = ((cfg9.win 2).blk t).view.read (Elt Ideal) (denseG9 (xArr9 V c) (wArr9 V c)) := by
  show (cfg9.win 2).cut (grid9.coords t) ((dat9c V c).after 2 t) = _
  rw [after9_2]
  unfold out9_2
  rw [View.canon_unit_zero hz9]
  simp only [View.ld_unit_zero (S := S2000x128) hz9, View.ld_unit_zero (S := S128x128) hz9]
  obtain ⟨e0, e1, e2, e3, e4, e5⟩ := idx_facts9 t
  funext j
  show k9_pay1 (F := Ideal) (iblk9 V c 0 t) (iblk9 V c 1 t) j = denseG9 (xArr9 V c) (wArr9 V c) (((cfg9.win 2).blk t).view.emb j)
  rw [k9_pay1_apply, denseG9_apply]
  refine Finset.sum_congr rfl fun k _ => ?_
  show xArr9 V c (((cfg9.win 0).blk t).view.emb (lidx_k9 j k)) * wArr9 V c (((cfg9.win 1).blk t).view.emb (ridx_k9 j k))
    = xArr9 V c (xidx9 (((cfg9.win 2).blk t).view.emb j) k) * wArr9 V c (widx9 (((cfg9.win 2).blk t).view.emb j) k)
  have h0 : ((cfg9.win 0).blk t).view.emb (lidx_k9 j k) = xidx9 (((cfg9.win 2).blk t).view.emb j) k := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 128 + 1 * k.val = k.val; omega
  have h1 : ((cfg9.win 1).blk t).view.emb (ridx_k9 j k) = widx9 (((cfg9.win 2).blk t).view.emb j) k := by
    funext a; apply Fin.ext
    match a with
    | ⟨0, _⟩ => show win9_1.index t (0 : Fin 2) * 128 + 1 * k.val = k.val; omega
    | ⟨1, _⟩ => show win9_1.index t (1 : Fin 2) * 128 + 1 * (j 1).val = win9_2.index t (1 : Fin 2) * 128 + 1 * (j 1).val; omega
  rw [h0, h1]

/-- An index of the result array is in point t's block iff each coordinate is in the block's range on its axis. -/
theorem mem_blk9_2 (t : Fin cfg9.N) (i : S100000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v148).slice (win9_2.rect t)).set ↔ _
  rw [View.set_slice_whole, Rect.mem_set_unit]
  exact Iff.rfl

/-- THE ROW BLOCKS TILE THE ARRAY: row n is in the block of point n / 2000. -/
theorem cover9_2_arr (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  have hN : cfg9.N = 50 := N_9
  have hlt : (i 0).val / 2000 < cfg9.N := by rw [hN]; omega
  obtain ⟨e0, e1, e2, e3, e4, e5⟩ := idx_facts9 ⟨(i 0).val / 2000, hlt⟩
  have e4' : win9_2.index ⟨(i 0).val / 2000, hlt⟩ (0 : Fin 2) = (i 0).val / 2000 := e4
  refine ⟨⟨(i 0).val / 2000, hlt⟩, flush9_2 _, ?_⟩
  rw [mem_blk9_2]
  intro a
  match a with
  | ⟨0, _⟩ => show win9_2.index ⟨(i 0).val / 2000, hlt⟩ (0 : Fin 2) * 2000 ≤ (i 0).val ∧ (i 0).val < win9_2.index ⟨(i 0).val / 2000, hlt⟩ (0 : Fin 2) * 2000 + 2000; omega
  | ⟨1, _⟩ => show win9_2.index ⟨(i 0).val / 2000, hlt⟩ (1 : Fin 2) * 128 ≤ (i 1).val ∧ (i 1).val < win9_2.index ⟨(i 0).val / 2000, hlt⟩ (1 : Fin 2) * 128 + 128; omega

/-- THE RESULT ARRAY after the region, over the printed configuration: the product of the two arrays the region reads. -/
theorem arr9_2c (c : Dev nD) : (dat9c V c).arrAt 2 cfg9.N = denseG9 (xArr9 V c) (wArr9 V c) :=
  (dat9c V c).arrAt_eq_of_cover 2 (denseG9 (xArr9 V c) (wArr9 V c)) (fun t _ => flushed9_2_eq V c t) cover9_2_arr

/-- The same of the pinned pipeline's proof data, as the region's exit state names it. -/
theorem arr9_2 (a : (p : Fin 13) → (pcfgs (F := Ideal) p).Adm) (c : Dev nD) :
    (dat9 a V c).arrAt (2 : Fin 3) cfg9.N = denseG9 (xArr9 V c) (wArr9 V c) :=
  arr9_2c V c

/-- Index by index: entry (n, j) of the result is the sum over k of x (n, k) * w (k, j). -/
theorem arr9_2_apply (a : (p : Fin 13) → (pcfgs (F := Ideal) p).Adm) (c : Dev nD) (i : S100000x128.Idx) :
    ((dat9 a V c).arrAt (2 : Fin 3) cfg9.N : S100000x128.Idx → Elt Ideal .f32) i = ∑ k : Fin 128, xArr9 V c (xidx9 i k) * wArr9 V c (widx9 i k) :=
  congrFun (arr9_2 V a c) i

end Region9

end Cert.KernelIdeal.Hand

end
-- ==== Proof.KI.ValHead12.lean ====
/- The head region's value at the ideal float model: the output array main_v158 after the region, index by index,
   as tanh(relu(relu(relu(x) W1 + b1) W2 + b2) W3 + b3) of the seven entry arrays. Each contraction is a finite sum of
   products over its one contracted axis; a relu is the maximum with 0; the narrowing to bf16 before each contraction
   is the identity on extended reals. The fifty row blocks of 2000 rows tile the 100000 rows, the weights and biases
   are read whole at every point, so every row of the output is the head of the same row of x. -/
import proofs.«415143_j42460046688958_3_alg».proof.Proof.KI.Head12
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)
open scoped BigOperators

/-! ## The three contractions, read at an index -/

abbrev D12a := dot_S2000x128_S128x128_S2000x128_1_0_0_1_n_n
abbrev D12b := dot_S2000x128_S128x64_S2000x64_1_0_0_1_n_n
abbrev D12c := dot_S2000x64_S64x128_S2000x128_1_0_0_1_n_n

theorem lhs12a_0 (j : S2000x128.Idx) (k : D12a.contr.Idx) : (D12a.lhsIdx j k 0 : ℕ) = j 0 := by
  simp [DotDims.lhsIdx, D12a, dot_S2000x128_S128x128_S2000x128_1_0_0_1_n_n]; rfl
theorem lhs12a_1 (j : S2000x128.Idx) (k : D12a.contr.Idx) : (D12a.lhsIdx j k 1 : ℕ) = k ⟨0, by decide⟩ := by
  simp [DotDims.lhsIdx, D12a, dot_S2000x128_S128x128_S2000x128_1_0_0_1_n_n]; rfl
theorem rhs12a_0 (j : S2000x128.Idx) (k : D12a.contr.Idx) : (D12a.rhsIdx j k 0 : ℕ) = k ⟨0, by decide⟩ := by
  simp [DotDims.rhsIdx, D12a, dot_S2000x128_S128x128_S2000x128_1_0_0_1_n_n]; rfl
theorem rhs12a_1 (j : S2000x128.Idx) (k : D12a.contr.Idx) : (D12a.rhsIdx j k 1 : ℕ) = j 1 := by
  simp [DotDims.rhsIdx, D12a, dot_S2000x128_S128x128_S2000x128_1_0_0_1_n_n]; rfl

theorem lhs12b_0 (j : S2000x64.Idx) (k : D12b.contr.Idx) : (D12b.lhsIdx j k 0 : ℕ) = j 0 := by
  simp [DotDims.lhsIdx, D12b, dot_S2000x128_S128x64_S2000x64_1_0_0_1_n_n]; rfl
theorem lhs12b_1 (j : S2000x64.Idx) (k : D12b.contr.Idx) : (D12b.lhsIdx j k 1 : ℕ) = k ⟨0, by decide⟩ := by
  simp [DotDims.lhsIdx, D12b, dot_S2000x128_S128x64_S2000x64_1_0_0_1_n_n]; rfl
theorem rhs12b_0 (j : S2000x64.Idx) (k : D12b.contr.Idx) : (D12b.rhsIdx j k 0 : ℕ) = k ⟨0, by decide⟩ := by
  simp [DotDims.rhsIdx, D12b, dot_S2000x128_S128x64_S2000x64_1_0_0_1_n_n]; rfl
theorem rhs12b_1 (j : S2000x64.Idx) (k : D12b.contr.Idx) : (D12b.rhsIdx j k 1 : ℕ) = j 1 := by
  simp [DotDims.rhsIdx, D12b, dot_S2000x128_S128x64_S2000x64_1_0_0_1_n_n]; rfl

theorem lhs12c_0 (j : S2000x128.Idx) (k : D12c.contr.Idx) : (D12c.lhsIdx j k 0 : ℕ) = j 0 := by
  simp [DotDims.lhsIdx, D12c, dot_S2000x64_S64x128_S2000x128_1_0_0_1_n_n]; rfl
theorem lhs12c_1 (j : S2000x128.Idx) (k : D12c.contr.Idx) : (D12c.lhsIdx j k 1 : ℕ) = k ⟨0, by decide⟩ := by
  simp [DotDims.lhsIdx, D12c, dot_S2000x64_S64x128_S2000x128_1_0_0_1_n_n]; rfl
theorem rhs12c_0 (j : S2000x128.Idx) (k : D12c.contr.Idx) : (D12c.rhsIdx j k 0 : ℕ) = k ⟨0, by decide⟩ := by
  simp [DotDims.rhsIdx, D12c, dot_S2000x64_S64x128_S2000x128_1_0_0_1_n_n]; rfl
theorem rhs12c_1 (j : S2000x128.Idx) (k : D12c.contr.Idx) : (D12c.rhsIdx j k 1 : ℕ) = j 1 := by
  simp [DotDims.rhsIdx, D12c, dot_S2000x64_S64x128_S2000x128_1_0_0_1_n_n]; rfl

/-- The first contraction (2000 x 128 by 128 x 128, into the zero splat) at row r, column l: the sum over the 128
    contracted coordinates of the products. -/
theorem dot12a_apply {φ₁ φ₂ : FTy} (L : FVec Ideal S2000x128 φ₁) (R : FVec Ideal S128x128 φ₂) (r : Fin 2000) (l : Fin 128) :
    FloatOps.matmul D12a none L R (constant S2000x128 .f32 0x00000000#32) (ValueIdx.ix2 r l) = ∑ p : Fin 128, L (ValueIdx.ix2 r p) * R (ValueIdx.ix2 p l) := by
  rw [Ideal.matmul_constant_zero_apply, ← Equiv.sum_comp (contrEquiv1 D12a 128 (by decide) (by decide)).symm]
  refine Finset.sum_congr rfl fun p _ => ?_
  congr 2
  · funext a; apply Fin.ext
    match a with
    | ⟨0, _⟩ => exact lhs12a_0 _ _
    | ⟨1, _⟩ => exact (lhs12a_1 _ _).trans (contrEquiv1_symm_val D12a 128 _ _ p)
  · funext a; apply Fin.ext
    match a with
    | ⟨0, _⟩ => exact (rhs12a_0 _ _).trans (contrEquiv1_symm_val D12a 128 _ _ p)
    | ⟨1, _⟩ => exact rhs12a_1 _ _

/-- The second (2000 x 128 by 128 x 64). -/
theorem dot12b_apply {φ₁ φ₂ : FTy} (L : FVec Ideal S2000x128 φ₁) (R : FVec Ideal S128x64 φ₂) (r : Fin 2000) (k : Fin 64) :
    FloatOps.matmul D12b none L R (constant S2000x64 .f32 0x00000000#32) (ValueIdx.ix2 r k) = ∑ l : Fin 128, L (ValueIdx.ix2 r l) * R (ValueIdx.ix2 l k) := by
  rw [Ideal.matmul_constant_zero_apply, ← Equiv.sum_comp (contrEquiv1 D12b 128 (by decide) (by decide)).symm]
  refine Finset.sum_congr rfl fun p _ => ?_
  congr 2
  · funext a; apply Fin.ext
    match a with
    | ⟨0, _⟩ => exact lhs12b_0 _ _
    | ⟨1, _⟩ => exact (lhs12b_1 _ _).trans (contrEquiv1_symm_val D12b 128 _ _ p)
  · funext a; apply Fin.ext
    match a with
    | ⟨0, _⟩ => exact (rhs12b_0 _ _).trans (contrEquiv1_symm_val D12b 128 _ _ p)
    | ⟨1, _⟩ => exact rhs12b_1 _ _

/-- The third (2000 x 64 by 64 x 128). -/
theorem dot12c_apply {φ₁ φ₂ : FTy} (L : FVec Ideal S2000x64 φ₁) (R : FVec Ideal S64x128 φ₂) (r : Fin 2000) (q : Fin 128) :
    FloatOps.matmul D12c none L R (constant S2000x128 .f32 0x00000000#32) (ValueIdx.ix2 r q) = ∑ k : Fin 64, L (ValueIdx.ix2 r k) * R (ValueIdx.ix2 k q) := by
  rw [Ideal.matmul_constant_zero_apply, ← Equiv.sum_comp (contrEquiv1 D12c 64 (by decide) (by decide)).symm]
  refine Finset.sum_congr rfl fun p _ => ?_
  congr 2
  · funext a; apply Fin.ext
    match a with
    | ⟨0, _⟩ => exact lhs12c_0 _ _
    | ⟨1, _⟩ => exact (lhs12c_1 _ _).trans (contrEquiv1_symm_val D12c 64 _ _ p)
  · funext a; apply Fin.ext
    match a with
    | ⟨0, _⟩ => exact (rhs12c_0 _ _).trans (contrEquiv1_symm_val D12c 64 _ _ p)
    | ⟨1, _⟩ => exact rhs12c_1 _ _

/-! ## The head as a function of arrays, index by index -/

/-- The head on M rows: row n, column j of tanh(relu(relu(relu(X) W1 + b1) W2 + b2) W3 + b3). -/
def mlp12 {M : ℕ} (X : (⟨2, ![M, 128]⟩ : Shape).Idx → EReal) (W1 : (⟨2, ![128, 128]⟩ : Shape).Idx → EReal)
    (b1 : (⟨2, ![1, 128]⟩ : Shape).Idx → EReal) (W2 : (⟨2, ![128, 64]⟩ : Shape).Idx → EReal) (b2 : (⟨2, ![1, 64]⟩ : Shape).Idx → EReal)
    (W3 : (⟨2, ![64, 128]⟩ : Shape).Idx → EReal) (b3 : (⟨2, ![1, 128]⟩ : Shape).Idx → EReal) : (⟨2, ![M, 128]⟩ : Shape).Idx → EReal := fun i =>
  Ideal.tanh
    ((∑ k : Fin 64, max ((∑ l : Fin 128, max ((∑ p : Fin 128, max (X (ValueIdx.ix2 (i 0) p)) 0 * W1 (ValueIdx.ix2 p l)) + b1 (ValueIdx.ix2 (0 : Fin 1) l)) 0 * W2 (ValueIdx.ix2 l k))
        + b2 (ValueIdx.ix2 (0 : Fin 1) k)) 0 * W3 (ValueIdx.ix2 k (i 1))) + b3 (ValueIdx.ix2 (0 : Fin 1) (i 1)))

/-- The head at an index reads x on that index's row only: two x's that agree on two rows give the same head there
    (same weights, same column). -/
theorem mlp12_congr {M M' : ℕ} (X : (⟨2, ![M, 128]⟩ : Shape).Idx → EReal) (X' : (⟨2, ![M', 128]⟩ : Shape).Idx → EReal)
    (W1 : (⟨2, ![128, 128]⟩ : Shape).Idx → EReal) (b1 : (⟨2, ![1, 128]⟩ : Shape).Idx → EReal) (W2 : (⟨2, ![128, 64]⟩ : Shape).Idx → EReal)
    (b2 : (⟨2, ![1, 64]⟩ : Shape).Idx → EReal) (W3 : (⟨2, ![64, 128]⟩ : Shape).Idx → EReal) (b3 : (⟨2, ![1, 128]⟩ : Shape).Idx → EReal)
    (i : (⟨2, ![M, 128]⟩ : Shape).Idx) (i' : (⟨2, ![M', 128]⟩ : Shape).Idx)
    (hX : ∀ p, X (ValueIdx.ix2 (i 0) p) = X' (ValueIdx.ix2 (i' 0) p)) (hj : i 1 = i' 1) :
    mlp12 X W1 b1 W2 b2 W3 b3 i = mlp12 X' W1 b1 W2 b2 W3 b3 i' := by
  unfold mlp12
  simp only [hX, hj]

/-- The body's payload at the ideal model is the head of its seven operands, on the block's 2000 rows. -/
theorem pay12_eq (x0 : Vec Ideal S2000x128 .f32) (x1 : Vec Ideal S128x128 .f32) (x2 : Vec Ideal S1x128 .f32) (x3 : Vec Ideal S128x64 .f32)
    (x4 : Vec Ideal S1x64 .f32) (x5 : Vec Ideal S64x128 .f32) (x6 : Vec Ideal S1x128 .f32) :
    k12_pay1 (F := Ideal) x0 x1 x2 x3 x4 x5 x6 = mlp12 (M := 2000) x0 x1 x2 x3 x4 x5 x6 := by
  funext j
  obtain ⟨r, q, rfl⟩ : ∃ r q, j = ValueIdx.ix2 r q := ⟨j 0, j 1, ValueIdx.eq_ix2 j⟩
  unfold k12_pay1 mlp12
  simp only [shapeCast_self]
  show Ideal.tanh (_ + _) = Ideal.tanh (_ + _)
  congr 1
  refine congrArg₂ (· + ·) ?_ (broadcastTo_1b_ab_apply _ _ r q)
  refine (dot12c_apply _ _ r q).trans (Finset.sum_congr rfl fun k _ => congrArg (· * _) ?_)
  show max (_ + _) (Ideal.ofBits .f32 0x00000000#32) = max (_ + _) 0
  rw [Ideal.ofBits_zero_f32]
  congr 1
  refine congrArg₂ (· + ·) ?_ (broadcastTo_1b_ab_apply _ _ r k)
  refine (dot12b_apply _ _ r k).trans (Finset.sum_congr rfl fun l _ => congrArg (· * _) ?_)
  show max (_ + _) (Ideal.ofBits .f32 0x00000000#32) = max (_ + _) 0
  rw [Ideal.ofBits_zero_f32]
  congr 1
  refine congrArg₂ (· + ·) ?_ (broadcastTo_1b_ab_apply _ _ r l)
  refine (dot12a_apply _ _ r l).trans (Finset.sum_congr rfl fun p _ => congrArg (· * _) ?_)
  show max (x0 (ValueIdx.ix2 r p)) (Ideal.ofBits .f32 0x00000000#32) = max (x0 (ValueIdx.ix2 r p)) 0
  rw [Ideal.ofBits_zero_f32]

/-! ## The blocks the body reads -/

section
variable (V : (c : Dev nD) → (b : Ref sig .tc) → Buf (Elt Ideal) ((c : Thread nD τ).loc b))

/-- The printed index maps over the 50 points: x's block and the output's sit at row block t, column block 0; the
    weights and biases at block (0, 0). -/
theorem idx_facts12 : ∀ t : Fin cfg12.N,
    win12_0.index t (0 : Fin 2) = t.val ∧ win12_0.index t (1 : Fin 2) = 0
    ∧ win12_7.index t (0 : Fin 2) = t.val ∧ win12_7.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0 :=
  (by decide +kernel : ∀ t : Fin grid12.N, _)

theorem N12_lt (t : Fin cfg12.N) : t.val < 50 := t.isLt.trans_eq N_12

theorem row12_lt (t : Fin cfg12.N) (r : Fin 2000) : t.val * 2000 + r.val < 100000 := by
  have := N12_lt t; have := r.isLt; omega

/-- x's block at point t, row r, is row 2000 t + r of x. -/
theorem iblk12_0_apply (c : Dev nD) (t : Fin cfg12.N) (r : Fin 2000) (p : Fin 128) :
    iblk12 V c 0 t (ValueIdx.ix2 r p) = V c main_v155 (ValueIdx.ix2 ⟨t.val * 2000 + r.val, row12_lt t r⟩ p) := by
  show V c main_v155 (((cfg12.win 0).blk t).view.emb (ValueIdx.ix2 r p)) = _
  congr 1
  obtain ⟨e0, e1, -⟩ := idx_facts12 t
  funext a; apply Fin.ext
  match a with
  | ⟨0, _⟩ => show win12_0.index t (0 : Fin 2) * 2000 + 1 * r.val = t.val * 2000 + r.val; omega
  | ⟨1, _⟩ => show win12_0.index t (1 : Fin 2) * 128 + 1 * p.val = p.val; omega

/-- A weight's or bias's block at any point is the whole array. -/
theorem iblk12_1_eq (c : Dev nD) (t : Fin cfg12.N) : iblk12 V c 1 t = V c main_arg8 := by
  funext x
  show V c main_arg8 (((cfg12.win 1).blk t).view.emb x) = _
  congr 1
  obtain ⟨-, -, -, -, e0, e1, -⟩ := idx_facts12 t
  funext a; apply Fin.ext
  match a with
  | ⟨0, _⟩ => show win12_1.index t (0 : Fin 2) * 128 + 1 * (x 0).val = (x 0).val; omega
  | ⟨1, _⟩ => show win12_1.index t (1 : Fin 2) * 128 + 1 * (x 1).val = (x 1).val; omega
theorem iblk12_2_eq (c : Dev nD) (t : Fin cfg12.N) : iblk12 V c 2 t = V c main_v156 := by
  funext x
  show V c main_v156 (((cfg12.win 2).blk t).view.emb x) = _
  congr 1
  obtain ⟨-, -, -, -, -, -, e0, e1, -⟩ := idx_facts12 t
  funext a; apply Fin.ext
  match a with
  | ⟨0, _⟩ => show win12_2.index t (0 : Fin 2) * 1 + 1 * (x 0).val = (x 0).val; omega
  | ⟨1, _⟩ => show win12_2.index t (1 : Fin 2) * 128 + 1 * (x 1).val = (x 1).val; omega
theorem iblk12_3_eq (c : Dev nD) (t : Fin cfg12.N) : iblk12 V c 3 t = V c main_arg10 := by
  funext x
  show V c main_arg10 (((cfg12.win 3).blk t).view.emb x) = _
  congr 1
  obtain ⟨-, -, -, -, -, -, -, -, e0, e1, -⟩ := idx_facts12 t
  funext a; apply Fin.ext
  match a with
  | ⟨0, _⟩ => show win12_3.index t (0 : Fin 2) * 128 + 1 * (x 0).val = (x 0).val; omega
  | ⟨1, _⟩ => show win12_3.index t (1 : Fin 2) * 64 + 1 * (x 1).val = (x 1).val; omega
theorem iblk12_4_eq (c : Dev nD) (t : Fin cfg12.N) : iblk12 V c 4 t = V c main_v157 := by
  funext x
  show V c main_v157 (((cfg12.win 4).blk t).view.emb x) = _
  congr 1
  obtain ⟨-, -, -, -, -, -, -, -, -, -, e0, e1, -⟩ := idx_facts12 t
  funext a; apply Fin.ext
  match a with
  | ⟨0, _⟩ => show win12_4.index t (0 : Fin 2) * 1 + 1 * (x 0).val = (x 0).val; omega
  | ⟨1, _⟩ => show win12_4.index t (1 : Fin 2) * 64 + 1 * (x 1).val = (x 1).val; omega
theorem iblk12_5_eq (c : Dev nD) (t : Fin cfg12.N) : iblk12 V c 5 t = V c main_v115 := by
  funext x
  show V c main_v115 (((cfg12.win 5).blk t).view.emb x) = _
  congr 1
  obtain ⟨-, -, -, -, -, -, -, -, -, -, -, -, e0, e1, -⟩ := idx_facts12 t
  funext a; apply Fin.ext
  match a with
  | ⟨0, _⟩ => show win12_5.index t (0 : Fin 2) * 64 + 1 * (x 0).val = (x 0).val; omega
  | ⟨1, _⟩ => show win12_5.index t (1 : Fin 2) * 128 + 1 * (x 1).val = (x 1).val; omega
theorem iblk12_6_eq (c : Dev nD) (t : Fin cfg12.N) : iblk12 V c 6 t = V c main_v117 := by
  funext x
  show V c main_v117 (((cfg12.win 6).blk t).view.emb x) = _
  congr 1
  obtain ⟨-, -, -, -, -, -, -, -, -, -, -, -, -, -, e0, e1⟩ := idx_facts12 t
  funext a; apply Fin.ext
  match a with
  | ⟨0, _⟩ => show win12_6.index t (0 : Fin 2) * 1 + 1 * (x 0).val = (x 0).val; omega
  | ⟨1, _⟩ => show win12_6.index t (1 : Fin 2) * 128 + 1 * (x 1).val = (x 1).val; omega

/-! ## The output array -/

/-- What main_v158 holds after the region: the head of the entry arrays (x = main_v155, W1 = main_arg8, b1 = main_v156,
    W2 = main_arg10, b2 = main_v157, W3 = main_v115, b3 = main_v117). -/
def G12 (c : Dev nD) : S100000x128.Idx → EReal :=
  mlp12 (M := 100000) (V c main_v155) (V c main_arg8) (V c main_v156) (V c main_arg10) (V c main_v157) (V c main_v115) (V c main_v117)

theorem hz12 : (![0, 0] : Fin 2 → Nat) = fun _ => 0 := funext fun a => by fin_cases a <;> rfl

/-- What point t writes back is block t of the head of the entry arrays. -/
theorem flushed12_7_eq (c : Dev nD) (t : Fin cfg12.N) :
    (dat12c V c).flushed 7 t = ((cfg12.win 7).blk t).view.read (Elt Ideal) (G12 V c) := by
  show (cfg12.win 7).cut (grid12.coords t) ((dat12c V c).after 7 t) = _
  rw [after12_7]
  unfold out12_7
  rw [View.canon_unit_zero hz12]
  simp only [View.ld_unit_zero (S := S2000x128) hz12, View.ld_unit_zero (S := S128x128) hz12, View.ld_unit_zero (S := S1x128) hz12,
    View.ld_unit_zero (S := S128x64) hz12, View.ld_unit_zero (S := S1x64) hz12, View.ld_unit_zero (S := S64x128) hz12]
  rw [pay12_eq, iblk12_1_eq, iblk12_2_eq, iblk12_3_eq, iblk12_4_eq, iblk12_5_eq, iblk12_6_eq]
  funext j
  obtain ⟨r, q, rfl⟩ : ∃ r q, j = ValueIdx.ix2 r q := ⟨j 0, j 1, ValueIdx.eq_ix2 j⟩
  have hemb : ((cfg12.win 7).blk t).view.emb (ValueIdx.ix2 r q) = ValueIdx.ix2 ⟨t.val * 2000 + r.val, row12_lt t r⟩ q := by
    obtain ⟨-, -, e0, e1, -⟩ := idx_facts12 t
    funext a; apply Fin.ext
    match a with
    | ⟨0, _⟩ => show win12_7.index t (0 : Fin 2) * 2000 + 1 * r.val = t.val * 2000 + r.val; omega
    | ⟨1, _⟩ => show win12_7.index t (1 : Fin 2) * 128 + 1 * q.val = q.val; omega
  show mlp12 (M := 2000) (iblk12 V c 0 t) _ _ _ _ _ _ (ValueIdx.ix2 r q) = G12 V c (((cfg12.win 7).blk t).view.emb (ValueIdx.ix2 r q))
  rw [hemb]
  exact mlp12_congr _ _ _ _ _ _ _ _ (ValueIdx.ix2 r q) (ValueIdx.ix2 ⟨t.val * 2000 + r.val, row12_lt t r⟩ q) (fun p => iblk12_0_apply V c t r p) rfl

/-- An index of the array is in point t's block iff each coordinate is in the block's range on its axis. -/
theorem mem_blk12 (t : Fin cfg12.N) (i : S100000x128.Idx) :
    i ∈ ((cfg12.win 7).blk t).view.set ↔ ∀ a : Fin 2, win12_7.index t a * S2000x128.size a ≤ (i a).val ∧ (i a).val < win12_7.index t a * S2000x128.size a + S2000x128.size a := by
  show i ∈ ((View.whole main_v158).slice (win12_7.rect t)).set ↔ _
  rw [View.set_slice_whole, Rect.mem_set_unit]
  exact Iff.rfl

/-- The fifty row blocks cover the array. -/
theorem cover12 (i : S100000x128.Idx) : ∃ t : Fin cfg12.N, (cfg12.win 7).flush t = true ∧ i ∈ ((cfg12.win 7).blk t).view.set := by
  have hi0 : (i 0).val < 100000 := (i 0).isLt
  have hi1 : (i 1).val < 128 := (i 1).isLt
  let t : Fin cfg12.N := ⟨(i 0).val / 2000, lt_of_lt_of_eq (by omega : (i 0).val / 2000 < 50) N_12.symm⟩
  refine ⟨t, flush12_7 t, ?_⟩
  rw [mem_blk12]
  obtain ⟨-, -, e0, e1, -⟩ := idx_facts12 t
  have ht : t.val = (i 0).val / 2000 := rfl
  intro a
  match a with
  | ⟨0, _⟩ => show win12_7.index t (0 : Fin 2) * 2000 ≤ (i 0).val ∧ (i 0).val < win12_7.index t (0 : Fin 2) * 2000 + 2000; omega
  | ⟨1, _⟩ => show win12_7.index t (1 : Fin 2) * 128 ≤ (i 1).val ∧ (i 1).val < win12_7.index t (1 : Fin 2) * 128 + 128; omega

/-- THE OUTPUT ARRAY after the region is the head of the entry arrays, at every index. -/
theorem arrAt12c_eq (c : Dev nD) : (dat12c V c).arrAt 7 cfg12.N = G12 V c :=
  (dat12c V c).arrAt_eq_of_cover 7 (G12 V c) (fun t _ => flushed12_7_eq V c t) cover12

/-- The same of the exported proof data. -/
theorem arrAt12_eq (a : (p : Fin 13) → (pcfgs (F := Ideal) p).Adm) (c : Dev nD) :
    (dat12 a V c).arrAt 7 cfg12.N = G12 V c := arrAt12c_eq V c

end

end Cert.KernelIdeal.Hand

end
-- ==== Proof.KI.ValAll.lean ====
/- The kernel program's result, with every region's value lemma put in: the specification's network at the program's host
   values. The dense regions and the head in the chain's form, then the result. -/
import proofs.«415143_j42460046688958_3_alg».proof.Proof.KI.Assemble
import proofs.«415143_j42460046688958_3_alg».proof.Proof.KI.ValChain
import proofs.«415143_j42460046688958_3_alg».proof.Proof.KI.ValAllGather
import proofs.«415143_j42460046688958_3_alg».proof.Proof.KI.ValAllScatter
import proofs.«415143_j42460046688958_3_alg».proof.Proof.KI.ValDense0
import proofs.«415143_j42460046688958_3_alg».proof.Proof.KI.ValDense3
import proofs.«415143_j42460046688958_3_alg».proof.Proof.KI.ValDense6
import proofs.«415143_j42460046688958_3_alg».proof.Proof.KI.ValDense9
import proofs.«415143_j42460046688958_3_alg».proof.Proof.KI.ValHead12

noncomputable section

open scoped BigOperators

namespace Cert.KernelIdeal.Hand

open Cert.KernelIdeal Cert.KernelIdeal.Gen Idealize.ShloMosaic Idealize.ShloMosaic.TcCoe Idealize.SL.Sem
open Cert.ReferenceIdeal.Hand (refOutOf RowOK)

variable (m : (ℓ : Loc nD τ sig) → Buf (Elt Ideal) ℓ)

section Outs

variable (c : Dev nD)

theorem out_0 : (V34 m (outsAll m) c main_v118 : S100000x128.Idx → EReal)
    = ((dat0 (admAll m) (fun c b => V33 m c b) c).arrAt (2 : Fin 3) (Pipeline.pin (pcfgs (F := Ideal)) (admAll m) 0).N : S100000x128.Idx → EReal) := by
  have h1 : V34 m (outsAll m) c main_v118 = outsAll m 34 main_v118 c := by
    show Function.update (V33 m c) (Proc.devRef .tc main_v118) (outsAll m 34 main_v118 c) (Proc.devRef .tc main_v118) = _
    exact Function.update_self _ _ _
  exact h1.trans ((outs_0 (admAll m) m 34 c).trans (out0_def (admAll m) m c))

theorem xidx0_ix2 (n : Fin 100000) (f k : Fin 128) : xidx0 (ValueIdx.ix2 n f) k = ValueIdx.ix2 n k :=
  funext fun a => match a with
    | ⟨0, _⟩ => rfl
    | ⟨1, _⟩ => rfl
theorem widx0_ix2 (n : Fin 100000) (f k : Fin 128) : widx0 (ValueIdx.ix2 n f) k = ValueIdx.ix2 k f :=
  funext fun a => match a with
    | ⟨0, _⟩ => rfl
    | ⟨1, _⟩ => rfl
theorem dense0_val : DenseVal (V33 m c main_v6) (V33 m c main_arg4) (V34 m (outsAll m) c main_v118) := by
  intro n f
  have h1 : (V34 m (outsAll m) c main_v118 : S100000x128.Idx → EReal) (ValueIdx.ix2 n f)
      = ((dat0 (admAll m) (fun c b => V33 m c b) c).arrAt (2 : Fin 3) cfg0.N : S100000x128.Idx → Elt Ideal .f32) (ValueIdx.ix2 n f) :=
    congrFun (out_0 m c) (ValueIdx.ix2 n f)
  rw [h1, arr0_2_apply (fun c b => V33 m c b) (admAll m) c (ValueIdx.ix2 n f)]
  exact Finset.sum_congr rfl (fun k _ => by rw [xidx0_ix2, widx0_ix2])

theorem out_3 : (V39 m (outsAll m) c main_v128 : S100000x128.Idx → EReal)
    = ((dat3 (admAll m) (fun c b => V38 m (outsAll m) c b) c).arrAt (2 : Fin 3) (Pipeline.pin (pcfgs (F := Ideal)) (admAll m) 3).N : S100000x128.Idx → EReal) := by
  have h1 : V39 m (outsAll m) c main_v128 = outsAll m 39 main_v128 c := by
    show Function.update (V38 m (outsAll m) c) (Proc.devRef .tc main_v128) (outsAll m 39 main_v128 c) (Proc.devRef .tc main_v128) = _
    exact Function.update_self _ _ _
  have hW : (fun (c : Dev nD) (b : Ref sig .tc) => W38 (admAll m) m c b) = (fun (c : Dev nD) (b : Ref sig .tc) => V38 m (outsAll m) c b) :=
    funext fun c => funext fun b => by rw [V38_eq]
  exact h1.trans ((outs_3 (admAll m) m 39 c).trans ((out3_def (admAll m) m c).trans (by rw [hW])))

theorem xidx3_ix2 (n : Fin 100000) (f k : Fin 128) : xidx3 (ValueIdx.ix2 n f) k = ValueIdx.ix2 n k :=
  funext fun a => match a with
    | ⟨0, _⟩ => rfl
    | ⟨1, _⟩ => rfl
theorem widx3_ix2 (n : Fin 100000) (f k : Fin 128) : widx3 (ValueIdx.ix2 n f) k = ValueIdx.ix2 k f :=
  funext fun a => match a with
    | ⟨0, _⟩ => rfl
    | ⟨1, _⟩ => rfl
theorem dense1_val : DenseVal (V38 m (outsAll m) c main_v125) (V38 m (outsAll m) c main_v127) (V39 m (outsAll m) c main_v128) := by
  intro n f
  have h1 : (V39 m (outsAll m) c main_v128 : S100000x128.Idx → EReal) (ValueIdx.ix2 n f)
      = ((dat3 (admAll m) (fun c b => V38 m (outsAll m) c b) c).arrAt (2 : Fin 3) cfg3.N : S100000x128.Idx → Elt Ideal .f32) (ValueIdx.ix2 n f) :=
    congrFun (out_3 m c) (ValueIdx.ix2 n f)
  rw [h1, arr3_2_apply (fun c b => V38 m (outsAll m) c b) (admAll m) c (ValueIdx.ix2 n f)]
  exact Finset.sum_congr rfl (fun k _ => by rw [xidx3_ix2, widx3_ix2])

theorem out_6 : (V44 m (outsAll m) c main_v138 : S100000x128.Idx → EReal)
    = ((dat6 (admAll m) (fun c b => V43 m (outsAll m) c b) c).arrAt (2 : Fin 3) (Pipeline.pin (pcfgs (F := Ideal)) (admAll m) 6).N : S100000x128.Idx → EReal) := by
  have h1 : V44 m (outsAll m) c main_v138 = outsAll m 44 main_v138 c := by
    show Function.update (V43 m (outsAll m) c) (Proc.devRef .tc main_v138) (outsAll m 44 main_v138 c) (Proc.devRef .tc main_v138) = _
    exact Function.update_self _ _ _
  have hW : (fun (c : Dev nD) (b : Ref sig .tc) => W43 (admAll m) m c b) = (fun (c : Dev nD) (b : Ref sig .tc) => V43 m (outsAll m) c b) :=
    funext fun c => funext fun b => by rw [V43_eq]
  exact h1.trans ((outs_6 (admAll m) m 44 c).trans ((out6_def (admAll m) m c).trans (by rw [hW])))

theorem xidx6_ix2 (n : Fin 100000) (f k : Fin 128) : xidx6 (ValueIdx.ix2 n f) k = ValueIdx.ix2 n k :=
  funext fun a => match a with
    | ⟨0, _⟩ => rfl
    | ⟨1, _⟩ => rfl
theorem widx6_ix2 (n : Fin 100000) (f k : Fin 128) : widx6 (ValueIdx.ix2 n f) k = ValueIdx.ix2 k f :=
  funext fun a => match a with
    | ⟨0, _⟩ => rfl
    | ⟨1, _⟩ => rfl
theorem dense2_val : DenseVal (V43 m (outsAll m) c main_v135) (V43 m (outsAll m) c main_v137) (V44 m (outsAll m) c main_v138) := by
  intro n f
  have h1 : (V44 m (outsAll m) c main_v138 : S100000x128.Idx → EReal) (ValueIdx.ix2 n f)
      = ((dat6 (admAll m) (fun c b => V43 m (outsAll m) c b) c).arrAt (2 : Fin 3) cfg6.N : S100000x128.Idx → Elt Ideal .f32) (ValueIdx.ix2 n f) :=
    congrFun (out_6 m c) (ValueIdx.ix2 n f)
  rw [h1, arr6_2_apply (fun c b => V43 m (outsAll m) c b) (admAll m) c (ValueIdx.ix2 n f)]
  exact Finset.sum_congr rfl (fun k _ => by rw [xidx6_ix2, widx6_ix2])

theorem out_9 : (V49 m (outsAll m) c main_v148 : S100000x128.Idx → EReal)
    = ((dat9 (admAll m) (fun c b => V48 m (outsAll m) c b) c).arrAt (2 : Fin 3) (Pipeline.pin (pcfgs (F := Ideal)) (admAll m) 9).N : S100000x128.Idx → EReal) := by
  have h1 : V49 m (outsAll m) c main_v148 = outsAll m 49 main_v148 c := by
    show Function.update (V48 m (outsAll m) c) (Proc.devRef .tc main_v148) (outsAll m 49 main_v148 c) (Proc.devRef .tc main_v148) = _
    exact Function.update_self _ _ _
  have hW : (fun (c : Dev nD) (b : Ref sig .tc) => W48 (admAll m) m c b) = (fun (c : Dev nD) (b : Ref sig .tc) => V48 m (outsAll m) c b) :=
    funext fun c => funext fun b => by rw [V48_eq]
  exact h1.trans ((outs_9 (admAll m) m 49 c).trans ((out9_def (admAll m) m c).trans (by rw [hW])))

theorem xidx9_ix2 (n : Fin 100000) (f k : Fin 128) : xidx9 (ValueIdx.ix2 n f) k = ValueIdx.ix2 n k :=
  funext fun a => match a with
    | ⟨0, _⟩ => rfl
    | ⟨1, _⟩ => rfl
theorem widx9_ix2 (n : Fin 100000) (f k : Fin 128) : widx9 (ValueIdx.ix2 n f) k = ValueIdx.ix2 k f :=
  funext fun a => match a with
    | ⟨0, _⟩ => rfl
    | ⟨1, _⟩ => rfl
theorem dense3_val : DenseVal (V48 m (outsAll m) c main_v145) (V48 m (outsAll m) c main_v147) (V49 m (outsAll m) c main_v148) := by
  intro n f
  have h1 : (V49 m (outsAll m) c main_v148 : S100000x128.Idx → EReal) (ValueIdx.ix2 n f)
      = ((dat9 (admAll m) (fun c b => V48 m (outsAll m) c b) c).arrAt (2 : Fin 3) cfg9.N : S100000x128.Idx → Elt Ideal .f32) (ValueIdx.ix2 n f) :=
    congrFun (out_9 m c) (ValueIdx.ix2 n f)
  rw [h1, arr9_2_apply (fun c b => V48 m (outsAll m) c b) (admAll m) c (ValueIdx.ix2 n f)]
  exact Finset.sum_congr rfl (fun k _ => by rw [xidx9_ix2, widx9_ix2])

theorem out_12 : (V54 m (outsAll m) c main_v158 : S100000x128.Idx → EReal)
    = ((dat12 (admAll m) (fun c b => V53 m (outsAll m) c b) c).arrAt (7 : Fin 8) (Pipeline.pin (pcfgs (F := Ideal)) (admAll m) 12).N : S100000x128.Idx → EReal) := by
  have h1 : V54 m (outsAll m) c main_v158 = outsAll m 54 main_v158 c := by
    show Function.update (V53 m (outsAll m) c) (Proc.devRef .tc main_v158) (outsAll m 54 main_v158 c) (Proc.devRef .tc main_v158) = _
    exact Function.update_self _ _ _
  have hW : (fun (c : Dev nD) (b : Ref sig .tc) => W53 (admAll m) m c b) = (fun (c : Dev nD) (b : Ref sig .tc) => V53 m (outsAll m) c b) :=
    funext fun c => funext fun b => by rw [V53_eq]
  exact h1.trans ((outs_12 (admAll m) m 54 c).trans ((out12_def (admAll m) m c).trans (by rw [hW])))

theorem head_val : HeadVal (V53 m (outsAll m) c main_v155) (V53 m (outsAll m) c main_arg8) (V53 m (outsAll m) c main_v156)
    (V53 m (outsAll m) c main_arg10) (V53 m (outsAll m) c main_v157) (V53 m (outsAll m) c main_v115) (V53 m (outsAll m) c main_v117)
    (V54 m (outsAll m) c main_v158) := by
  intro n q
  exact (congrFun (out_12 m c) (ValueIdx.ix2 n q)).trans
    (congrFun (arrAt12_eq (fun c b => V53 m (outsAll m) c b) (admAll m) c) (ValueIdx.ix2 n q))

end Outs

/-! ## The result -/

theorem kernel_value (c : Dev nD) (hrow : RowOK (V33 m c main_v8 : S625000.Idx → BitVec 32)) :
    (V55 m (outsAll m) c main_v159 : S100000x32.Idx → EReal)
      = refOutOf (V33 m c main_v8 : S625000.Idx → BitVec 32) (V33 m c main_v10 : S625000.Idx → BitVec 32)
          (V33 m c main_v41 : S625000.Idx → EReal) (V33 m c main_v6 : S100000x128.Idx → EReal)
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  kernel_value_of m (outsAll m) c
    (fun i j => gate1 (admAll m) i j.val) (gate2 (admAll m)) ePos2
    (fun i j => gate4 (admAll m) i j.val) (gate5 (admAll m)) ePos5
    (fun i j => gate7 (admAll m) i j.val) (gate8 (admAll m)) ePos8
    (fun i j => gate10 (admAll m) i j.val) (gate11 (admAll m)) ePos11
    hrow
    (gateG1_of m c) (gateS2_of m c) ePos2_val
    (gateG4_of m c) (gateS5_of m c) ePos5_val
    (gateG7_of m c) (gateS8_of m c) ePos8_val
    (gateG10_of m c) (gateS11_of m c) ePos11_val
    hjrAll
    (dense0_val m c) (gather0_val m c) (scatter0_val m c)
    (dense1_val m c) (gather1_val m c) (scatter1_val m c)
    (dense2_val m c) (gather2_val m c) (scatter2_val m c)
    (dense3_val m c) (gather3_val m c) (scatter3_val m c)
    (head_val m c)

end Cert.KernelIdeal.Hand

end
-- ==== Proof.Ref.RowOps.lean ====
import Idealize.ShloMosaic.PureOps.Ideal
import Idealize.ShloMosaic.PureOps.Contract
import Idealize.ShloMosaic.Lib.ValueIdx

/-!
# A row gather and a row scatter-add, read at an index

For a table `X : [N, C]` and a column `r : [E, 1]` of row numbers, `X[r] : [E, C]` takes row `e` of the result
from row `r e` of the table, the number read as a signed integer and clamped into the table. The scatter-add
into `[N, C]` of updates `U : [E, C]` at a column `c : [E, 1]` of row numbers adds row `e` of the updates to
row `c e` of the operand, an update whose row number lies outside the operand being dropped: at the extended
reals entry `(n, f)` of the result is the operand's plus the sum of `U[e, f]` over the `e` with `c e = n`.
-/

noncomputable section

open scoped BigOperators

namespace Cert.ReferenceIdeal.Hand

open Idealize.ShloMosaic Idealize.ShloMosaic.ValueIdx

section Rows
variable {N C E : Nat}

/-- Entry `e` of an `[E, 1]` column. -/
abbrev colAt (e : Fin E) : (⟨2, ![E, 1]⟩ : Shape).Idx := ix2 e (0 : Fin 1)

/-! ## The gather -/

/-- The dimension numbers of `X[r]`: the table's axis 0 is indexed and collapsed, its axis 1 is taken whole. -/
abbrev rowGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, f)` of `X[r]` is `X[r e, f]`, the row number read signed and clamped into `[0, N - 1]`. -/
theorem rowGather_apply {α : Type} {w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGather N C E wf) x idx (ix2 e f)
      = x (ix2 (⟨min (idx (colAt e)).toInt.toNat (N - 1), by omega⟩ : Fin N) f) := by
  unfold Host.gather
  congr 1
  funext a
  refine Fin.ext ?_
  match a with
  | ⟨0, _⟩ =>
    show (rowGather N C E wf).start (ix2 e f) idx 0 + (rowGather N C E wf).batchCoord (ix2 e f) 0
        + (rowGather N C E wf).offCoord (ix2 e f) 0 = min (idx (colAt e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e f) ⟨List.idxOf (0 : Fin 2) (rowGather N C E wf).startIndexMap,
        List.idxOf_lt_length_iff.2 (List.mem_singleton.mpr rfl)⟩ = colAt e := by
      funext b; refine Fin.ext ?_
      match b with
      | ⟨0, _⟩ => rfl
      | ⟨1, _⟩ => rfl
    rw [hsi]
    rfl
  | ⟨1, _⟩ =>
    show (rowGather N C E wf).start (ix2 e f) idx 1 + (rowGather N C E wf).batchCoord (ix2 e f) 1
        + (rowGather N C E wf).offCoord (ix2 e f) 1 = f.val
    have h10 : ¬ (1 : Fin 2) ∈ ([0] : List (Fin 2)) := by decide
    have hs : (rowGather N C E wf).start (ix2 e f) idx 1 = 0 := by
      unfold GatherDims.start
      rw [dif_neg h10]
    have hk : (1 : Fin 2) ∈ (rowGather N C E wf).sKept :=
      (GatherDims.mem_sKept _ _).mpr ⟨h10, List.not_mem_nil⟩
    rw [hs, GatherDims.batchCoord_eq_zero _ _ _ List.not_mem_nil]
    simp only [Nat.add_zero, Nat.zero_add]
    unfold GatherDims.offCoord
    rw [dif_pos hk]
    rfl

/-! ## The scatter-add -/

/-- The dimension numbers of the scatter-add of rows: the operand's axis 0 is indexed (one row per update row),
    its axis 1 is the update's window. -/
abbrev rowScatter (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {w : Nat} (wf : ScatterDims.WF ⟨2, ![N, C]⟩ ⟨2, ![E, 1]⟩ ⟨2, ![E, C]⟩ [1] [0] [0] 1)
  (idx : IVec ⟨2, ![E, 1]⟩ w) (e : Fin E) (f : Fin C)

/-- On the indexed axis an update's row lands at its row number, read signed. -/
theorem rowScatter_pos0 :
    (rowScatter N C E wf).start (ix2 e f) idx 0 + ((rowScatter N C E wf).window (ix2 e f) 0 : Int)
      = (idx (colAt e)).toInt := by
  have h0 : (0 : Fin 2) ∈ (rowScatter N C E wf).scatterDimsToOperandDims := List.mem_singleton.mpr rfl
  have hk0 : (0 : Fin 2) ∉ (List.finRange 2).filter (fun a => a ∉ ([0] : List (Fin 2))) := by decide
  have hw : (rowScatter N C E wf).window (ix2 e f) 0 = 0 := by
    unfold ScatterDims.window
    rw [dif_neg (show (0 : Fin 2) ∉ (rowScatter N C E wf).sKept from hk0)]
  have hs : (rowScatter N C E wf).start (ix2 e f) idx 0 = (idx (colAt e)).toInt := by
    unfold ScatterDims.start
    rw [dif_pos h0]
    have hsi : (rowScatter N C E wf).siIdx (ix2 e f) ⟨List.idxOf (0 : Fin 2) (rowScatter N C E wf).scatterDimsToOperandDims,
        List.idxOf_lt_length_iff.2 h0⟩ = colAt e := by
      funext b; refine Fin.ext ?_
      match b with
      | ⟨0, _⟩ => rfl
      | ⟨1, _⟩ => rfl
    rw [hsi]
  rw [hs, hw]; simp

/-- On the window axis it lands at its own column. -/
theorem rowScatter_pos1 :
    (rowScatter N C E wf).start (ix2 e f) idx 1 + ((rowScatter N C E wf).window (ix2 e f) 1 : Int) = (f.val : Int) := by
  have h10 : ¬ (1 : Fin 2) ∈ ([0] : List (Fin 2)) := by decide
  have hk1 : (1 : Fin 2) ∈ (List.finRange 2).filter (fun a => a ∉ ([0] : List (Fin 2))) := by decide
  have hs : (rowScatter N C E wf).start (ix2 e f) idx 1 = 0 := by
    unfold ScatterDims.start
    rw [dif_neg (show ¬ (1 : Fin 2) ∈ (rowScatter N C E wf).scatterDimsToOperandDims from h10)]
  have hw : (rowScatter N C E wf).window (ix2 e f) 1 = f.val := by
    unfold ScatterDims.window
    rw [dif_pos (show (1 : Fin 2) ∈ (rowScatter N C E wf).sKept from hk1)]
    rfl
  rw [hs, hw]; simp

/-- Update entry `(e, f)` lands on operand entry `i` exactly when its row number is `i`'s row and `f` is `i`'s column. -/
theorem rowScatter_resultIdx_iff (i : (⟨2, ![N, C]⟩ : Shape).Idx) :
    (rowScatter N C E wf).resultIdx? (ix2 e f) idx = some i
      ↔ (idx (colAt e)).toInt = ((i 0).val : Int) ∧ f.val = (i 1).val := by
  have p0 := rowScatter_pos0 wf idx e f
  have p1 := rowScatter_pos1 wf idx e f
  have hi0 : (i 0).val < N := idx2_lt0 i
  have hi1 : (i 1).val < C := idx2_lt1 i
  unfold ScatterDims.resultIdx?
  split
  · rename_i h
    rw [Option.some.injEq]
    constructor
    · intro heq
      have e0 := congrArg (fun k : (⟨2, ![N, C]⟩ : Shape).Idx => (k 0).val) heq
      have e1 := congrArg (fun k : (⟨2, ![N, C]⟩ : Shape).Idx => (k 1).val) heq
      have h0 := (h 0).1
      have h1 := (h 1).1
      simp only at e0 e1
      rw [p0] at e0 h0
      rw [p1] at e1 h1
      constructor <;> omega
    · intro ⟨e0, e1⟩
      funext a
      refine Fin.ext ?_
      match a with
      | ⟨0, _⟩ =>
        show ((rowScatter N C E wf).start (ix2 e f) idx 0 + ((rowScatter N C E wf).window (ix2 e f) 0 : Int)).toNat = (i 0).val
        rw [p0]; omega
      | ⟨1, _⟩ =>
        show ((rowScatter N C E wf).start (ix2 e f) idx 1 + ((rowScatter N C E wf).window (ix2 e f) 1 : Int)).toNat = (i 1).val
        rw [p1]; omega
  · rename_i h
    constructor
    · intro hn; exact absurd hn (by simp)
    · intro ⟨e0, e1⟩
      refine absurd (fun a => ?_) h
      match a with
      | ⟨0, _⟩ =>
        show 0 ≤ (rowScatter N C E wf).start (ix2 e f) idx 0 + ((rowScatter N C E wf).window (ix2 e f) 0 : Int)
          ∧ (rowScatter N C E wf).start (ix2 e f) idx 0 + ((rowScatter N C E wf).window (ix2 e f) 0 : Int) < (N : Int)
        rw [p0]; omega
      | ⟨1, _⟩ =>
        show 0 ≤ (rowScatter N C E wf).start (ix2 e f) idx 1 + ((rowScatter N C E wf).window (ix2 e f) 1 : Int)
          ∧ (rowScatter N C E wf).start (ix2 e f) idx 1 + ((rowScatter N C E wf).window (ix2 e f) 1 : Int) < (C : Int)
        rw [p1]; omega

end

/-- Entry `(n, f)` of the scatter-add: the operand's entry plus the sum, over the update rows `e` whose row number is
    `n`, of `U[e, f]`. -/
theorem rowScatterAdd_apply {φ : FTy} {w : Nat}
    (wf : ScatterDims.WF ⟨2, ![N, C]⟩ ⟨2, ![E, 1]⟩ ⟨2, ![E, C]⟩ [1] [0] [0] 1)
    (X : FVec Ideal ⟨2, ![N, C]⟩ φ) (idx : IVec ⟨2, ![E, 1]⟩ w) (U : FVec Ideal ⟨2, ![E, C]⟩ φ) (n : Fin N) (f : Fin C) :
    Host.scatterAdd (rowScatter N C E wf) X idx U (ix2 n f)
      = X (ix2 n f) + ∑ e ∈ Finset.univ.filter (fun e : Fin E => (idx (colAt e)).toInt = (n.val : Int)), U (ix2 e f) := by
  show X (ix2 n f) + (∑ j ∈ _, U j) = _
  congr 1
  refine Finset.sum_bij' (fun j _ => j 0) (fun e _ => ix2 e f) ?_ ?_ ?_ ?_ ?_
  · intro j hj
    obtain ⟨e, f', rfl⟩ : ∃ (e : Fin E) (f' : Fin C), j = ix2 e f' := ⟨j 0, j 1, eq_ix2 j⟩
    have := (rowScatter_resultIdx_iff wf idx e f' (ix2 n f)).mp (Finset.mem_filter.mp hj).2
    exact Finset.mem_filter.mpr ⟨Finset.mem_univ _, this.1⟩
  · intro e he
    exact Finset.mem_filter.mpr ⟨Finset.mem_univ _,
      (rowScatter_resultIdx_iff wf idx e f (ix2 n f)).mpr ⟨(Finset.mem_filter.mp he).2, rfl⟩⟩
  · intro j hj
    obtain ⟨e, f', rfl⟩ : ∃ (e : Fin E) (f' : Fin C), j = ix2 e f' := ⟨j 0, j 1, eq_ix2 j⟩
    have := (rowScatter_resultIdx_iff wf idx e f' (ix2 n f)).mp (Finset.mem_filter.mp hj).2
    have hf : f' = f := Fin.ext this.2
    subst hf; rfl
  · intro e _; rfl
  · intro j hj
    obtain ⟨e, f', rfl⟩ : ∃ (e : Fin E) (f' : Fin C), j = ix2 e f' := ⟨j 0, j 1, eq_ix2 j⟩
    have := (rowScatter_resultIdx_iff wf idx e f' (ix2 n f)).mp (Finset.mem_filter.mp hj).2
    have hf : f' = f := Fin.ext this.2
    subst hf; rfl

end Rows

end Cert.ReferenceIdeal.Hand

end
-- ==== Proof.Ref.Ops.lean ====
import proofs.«415143_j42460046688958_3_alg».proof.Proof.Gen.ReferenceIdeal
import proofs.«415143_j42460046688958_3_alg».proof.Proof.Ref.RowOps
import proofs.«415143_j42460046688958_3_alg».proof.Proof.Ref.Spec

/-!
# The reference's operations, read at an index

One layer of the reference is a fixed composition of host operations on the edge arrays, the weights, the node
features and the layer's parameters; so is its head. Each composition is named here as a function of its operands
(`layerOps`, `headOps`) and shown equal, entry by entry, to the stage function of the specification (`layer`, and
`headPre` under the hyperbolic tangent). The program's dimension-number records are the plain product, the row
gather and the row scatter-add.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

/-! ## The program's records -/

theorem dot128_rec : dot_S100000x128_S128x128_S100000x128_1_0_0_1_n_n = DotDims.plain 100000 128 128 := rfl

theorem dot64_rec : dot_S100000x128_S128x64_S100000x64_1_0_0_1_n_n = DotDims.plain 100000 128 64 := rfl

theorem dot32_rec : dot_S100000x64_S64x32_S100000x32_1_0_0_1_n_n = DotDims.plain 100000 64 32 := rfl

theorem gatherRec_eq :
    gather_S100000x128_S625000x1_S625000x128_1_0_n_n_0_1_1128
      = rowGather 100000 128 625000 Gen.gather_S100000x128_S625000x1_S625000x128_1_0_n_n_0_1_1128_wf := rfl

theorem scatterRec_eq :
    scatter_S100000x128_S625000x1_S625000x128_1_0_0_1
      = rowScatter 100000 128 625000 Gen.scatter_S100000x128_S625000x1_S625000x128_1_0_0_1_wf := rfl

/-! ## Columns of edge values -/

/-- An `[625000]` array as a `[625000, 1]` column. -/
def colOp {α : Type} (v : S625000.Idx → α) : S625000x1.Idx → α :=
  broadcastInDim S625000x1 ![0] bcast_S625000_S625000x1_0 v

theorem colOp_apply {α : Type} (v : S625000.Idx → α) (e : Fin 625000) : colOp v (colAt e) = v (ix1 e) := by
  unfold colOp
  exact broadcastInDim_apply _ bcast_S625000_S625000x1_0 v (colAt e) (ix1 e) (fun a => match a with
    | ⟨0, _⟩ => by show e.val = if (625000 : Nat) = 1 then 0 else e.val; rw [if_neg (by decide)])

/-- A `[625000, 1]` column repeated along 128 columns. -/
def wideOp {α : Type} (v : S625000x1.Idx → α) : S625000x128.Idx → α :=
  broadcastInDim S625000x128 ![0, 1] bcast_S625000x1_S625000x128_0_1 v

theorem wideOp_apply {α : Type} (v : S625000x1.Idx → α) (e : Fin 625000) (f : Fin 128) :
    wideOp v (ix2 e f) = v (colAt e) := by
  unfold wideOp
  exact broadcastInDim_apply _ bcast_S625000x1_S625000x128_0_1 v (ix2 e f) (colAt e) (fun a => match a with
    | ⟨0, _⟩ => by show e.val = if (625000 : Nat) = 1 then 0 else e.val; rw [if_neg (by decide)]
    | ⟨1, _⟩ => by show 0 = if (1 : Nat) = 1 then 0 else f.val; rw [if_pos rfl])

/-- The source words as the indexing wraps them: a negative word has 100000 added. -/
def wrapOp (rowv : IVec S625000 32) : IVec S625000 32 :=
  select (cmpi .slt rowv (broadcastInDim S625000 ![] bcast_S_S625000 (constantI S_ 32 0#32)))
    (addi rowv (broadcastInDim S625000 ![] bcast_S_S625000 (constantI S_ 32 100000#32))) rowv

theorem wrapOp_apply (rowv : IVec S625000 32) (e : Fin 625000) : wrapOp rowv (ix1 e) = wrapW (rowv (ix1 e)) := by
  show Scalar.select
      (IntOp.cmpi .slt (rowv (ix1 e)) (broadcastInDim S625000 ![] bcast_S_S625000 (constantI S_ 32 0#32) (ix1 e)))
      (IntOp.addi (rowv (ix1 e)) (broadcastInDim S625000 ![] bcast_S_S625000 (constantI S_ 32 100000#32) (ix1 e)))
      (rowv (ix1 e)) = _
  rw [broadcastInDim_apply _ bcast_S_S625000 (constantI S_ 32 0#32) (ix1 e) (fun a => a.elim0) (fun a => a.elim0),
    broadcastInDim_apply _ bcast_S_S625000 (constantI S_ 32 100000#32) (ix1 e) (fun a => a.elim0) (fun a => a.elim0)]
  rfl

/-! ## What the edges carry -/

/-- The weights as a column repeated along the features, times the rows of `Z` gathered at the wrapped source words. -/
def scaledOp (rowv : IVec S625000 32) (nrm : FVec Ideal S625000 .f32) (Z : FVec Ideal S100000x128 .f32) :
    FVec Ideal S625000x128 .f32 :=
  mulf (wideOp (colOp nrm))
    (Host.gather gather_S100000x128_S625000x1_S625000x128_1_0_n_n_0_1_1128 Z (colOp (wrapOp rowv)))

theorem scaledOp_eq (rowv : IVec S625000 32) (nrm : FVec Ideal S625000 .f32) (Z : FVec Ideal S100000x128 .f32) :
    scaledOp rowv nrm Z = scaled rowv nrm Z := by
  funext j
  obtain ⟨e, f, rfl⟩ : ∃ (e : Fin 625000) (f : Fin 128), j = ix2 e f := ⟨j 0, j 1, eq_ix2 j⟩
  unfold scaledOp
  rw [scaled_apply, mulf_apply, gatherRec_eq, rowGather_apply (by decide), wideOp_apply]
  refine congrArg₂ (· * ·) (colOp_apply nrm e) (congrArg (fun r : Fin 100000 => Z (ix2 r f)) (Fin.ext ?_))
  show min (colOp (wrapOp rowv) (colAt e)).toInt.toNat (100000 - 1)
      = min (wrapW (rowv (ix1 e))).toInt.toNat (100000 - 1)
  rw [colOp_apply, wrapOp_apply]

/-! ## One layer -/

/-- The all-zero `[100000, 128]` array: what the scatter-add starts from and what the positive part compares with. -/
def zerosOp : FVec Ideal S100000x128 .f32 :=
  broadcastInDim S100000x128 ![] bcast_S_S100000x128 (constant (F := Ideal) S_ .f32 0x00000000#32)

theorem zerosOp_apply (i : S100000x128.Idx) : zerosOp i = 0 := zeroSplat_apply bcast_S_S100000x128 i

/-- A bias row added to every node. -/
def biasOp (b : FVec Ideal S128 .f32) : FVec Ideal S100000x128 .f32 :=
  broadcastInDim S100000x128 ![0, 1] bcast_S1x128_S100000x128_0_1 (broadcastInDim S1x128 ![1] bcast_S128_S1x128_1 b)

theorem biasOp_apply (b : FVec Ideal S128 .f32) (n : Fin 100000) (f : Fin 128) : biasOp b (ix2 n f) = b (ix1 f) :=
  rowSplat_apply (by decide) bcast_S128_S1x128_1 bcast_S1x128_S100000x128_0_1 b n f

/-- One layer of the reference, as the composition of its operations: the scatter-add of the edge values into the
    zero array at the target words, plus `h0 · RW`, plus the bias, then the maximum with zero. -/
def layerOps (rowv colv : IVec S625000 32) (nrm : FVec Ideal S625000 .f32) (h0 L : FVec Ideal S100000x128 .f32)
    (W RW : FVec Ideal S128x128 .f32) (b : FVec Ideal S128 .f32) : FVec Ideal S100000x128 .f32 :=
  maximumf
    (addf
      (addf
        (Host.scatterAdd scatter_S100000x128_S625000x1_S625000x128_1_0_0_1 zerosOp (colOp colv)
          (scaledOp rowv nrm (Host.dotGeneral dot_S100000x128_S128x128_S100000x128_1_0_0_1_n_n none L W)))
        (Host.dotGeneral dot_S100000x128_S128x128_S100000x128_1_0_0_1_n_n none h0 RW))
      (biasOp b))
    zerosOp

theorem layerOps_eq (rowv colv : IVec S625000 32) (nrm : FVec Ideal S625000 .f32) (h0 L : FVec Ideal S100000x128 .f32)
    (W RW : FVec Ideal S128x128 .f32) (b : FVec Ideal S128 .f32) :
    layerOps rowv colv nrm h0 L W RW b = layer rowv colv nrm h0 W RW b L := by
  funext i
  obtain ⟨n, f, rfl⟩ : ∃ (n : Fin 100000) (f : Fin 128), i = ix2 n f := ⟨i 0, i 1, eq_ix2 i⟩
  rw [layer_apply, agg_apply]
  unfold layerOps
  rw [maximumf_apply, addf_apply, addf_apply, scatterRec_eq, dot128_rec, rowScatterAdd_apply, zerosOp_apply, zero_add,
    biasOp_apply, plainDot_eq_mm, plainDot_eq_mm, scaledOp_eq]
  simp only [colOp_apply, scaled_apply]

/-! ## The head -/

/-- The reference's head, as the composition of its operations. -/
def headOps (L : FVec Ideal S100000x128 .f32) (W₁ : FVec Ideal S128x128 .f32) (b₁ : FVec Ideal S128 .f32)
    (W₂ : FVec Ideal S128x64 .f32) (b₂ : FVec Ideal S64 .f32) (W₃ : FVec Ideal S64x32 .f32) (b₃ : FVec Ideal S32 .f32) :
    FVec Ideal S100000x32 .f32 :=
  Host.tanh
    (addf
      (Host.dotGeneral dot_S100000x64_S64x32_S100000x32_1_0_0_1_n_n none
        (maximumf
          (addf
            (Host.dotGeneral dot_S100000x128_S128x64_S100000x64_1_0_0_1_n_n none
              (maximumf
                (addf
                  (Host.dotGeneral dot_S100000x128_S128x128_S100000x128_1_0_0_1_n_n none
                    (maximumf L
                      (broadcastInDim S100000x128 ![] bcast_S_S100000x128 (constant (F := Ideal) S_ .f32 0x00000000#32)))
                    W₁)
                  (broadcastInDim S100000x128 ![0, 1] bcast_S1x128_S100000x128_0_1
                    (broadcastInDim S1x128 ![1] bcast_S128_S1x128_1 b₁)))
                (broadcastInDim S100000x128 ![] bcast_S_S100000x128 (constant (F := Ideal) S_ .f32 0x00000000#32)))
              W₂)
            (broadcastInDim S100000x64 ![0, 1] bcast_S1x64_S100000x64_0_1
              (broadcastInDim S1x64 ![1] bcast_S64_S1x64_1 b₂)))
          (broadcastInDim S100000x64 ![] bcast_S_S100000x64 (constant (F := Ideal) S_ .f32 0x00000000#32)))
        W₃)
      (broadcastInDim S100000x32 ![0, 1] bcast_S1x32_S100000x32_0_1
        (broadcastInDim S1x32 ![1] bcast_S32_S1x32_1 b₃)))

theorem headOps_eq (L : FVec Ideal S100000x128 .f32) (W₁ : FVec Ideal S128x128 .f32) (b₁ : FVec Ideal S128 .f32)
    (W₂ : FVec Ideal S128x64 .f32) (b₂ : FVec Ideal S64 .f32) (W₃ : FVec Ideal S64x32 .f32) (b₃ : FVec Ideal S32 .f32) :
    headOps L W₁ b₁ W₂ b₂ W₃ b₃
      = fun i => FloatOps.hostUnary (F := Ideal) (φ := .f32) .tanh (headPre L W₁ b₁ W₂ b₂ W₃ b₃ i) := by
  unfold headOps headPre
  rw [dot128_rec, dot64_rec, dot32_rec, maxZero_eq_relu, dotBias_eq_dense (by decide), maxZero_eq_relu,
    dotBias_eq_dense (by decide), maxZero_eq_relu, dotBias_eq_dense (by decide)]
  rfl

end Cert.ReferenceIdeal.Hand

end
-- ==== Proof.Ref.RefSpec.lean ====
import proofs.«415143_j42460046688958_3_alg».proof.Defs
import proofs.«415143_j42460046688958_3_alg».proof.Proof.Ref.RunP
import proofs.«415143_j42460046688958_3_alg».proof.Proof.Ref.ReadP
import proofs.«415143_j42460046688958_3_alg».proof.Proof.Gen.Pre_finite_inputs
import proofs.«415143_j42460046688958_3_alg».proof.Proof.Ref.Ops

/-!
# The reference: it runs, and its result is `refOut` of its arguments

The reference's run ends with its result at the composition of its 202 operations. That composition is four times
one layer followed by the head, over four chains the reference and the kernel's program share and that stay closed
here: the edges' source and target words (`rowv`, `colv`: the two rows of the edge array), the edge weights `norm`
and the embedded features `h0`. Read entry by entry it is `refOutOf` of the specification.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

/-! ## The frame -/

/-- The reference runs to the end, faults nowhere and leaves its arguments as they were: its run with the result
    dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

section
variable (x0 : (⟨S100000, .i32⟩ : BufTy).Contents (Elt Ideal)) (x1 : (⟨S2x625000, .i32⟩ : BufTy).Contents (Elt Ideal))
  (x2 : (⟨S625000, .i32⟩ : BufTy).Contents (Elt Ideal)) (x3 : (⟨S1000x128, .f32⟩ : BufTy).Contents (Elt Ideal))
  (x4 : (⟨S128x128, .f32⟩ : BufTy).Contents (Elt Ideal)) (x5 : (⟨S3x128x128, .f32⟩ : BufTy).Contents (Elt Ideal))
  (x6 : (⟨S4x128x128, .f32⟩ : BufTy).Contents (Elt Ideal)) (x7 : (⟨S4x128, .f32⟩ : BufTy).Contents (Elt Ideal))
  (x8 : (⟨S128x128, .f32⟩ : BufTy).Contents (Elt Ideal)) (x9 : (⟨S128, .f32⟩ : BufTy).Contents (Elt Ideal))
  (x10 : (⟨S128x64, .f32⟩ : BufTy).Contents (Elt Ideal)) (x11 : (⟨S64, .f32⟩ : BufTy).Contents (Elt Ideal))
  (x12 : (⟨S64x32, .f32⟩ : BufTy).Contents (Elt Ideal)) (x13 : (⟨S32, .f32⟩ : BufTy).Contents (Elt Ideal))

/-! ## The four shared chains -/

/-- The embedded node features: the chain from the node words and the embedding table, kept closed. -/
def h0 : Mat 100000 128 := Read.val_main_v6 (F := Ideal) x0 x3

/-- The edge weights: the chain from the edge words and the edge attributes, kept closed. -/
def norm : Row 625000 := Read.val_main_v41 (F := Ideal) x1 x2

/-- The edges' source words: row 0 of the edge array. -/
def rowv : Words 625000 := Read.val_main_v13 (F := Ideal) x1

/-- The edges' target words: row 1 of the edge array. -/
def colv : Words 625000 := Read.val_main_v15 (F := Ideal) x1

theorem rowv_apply (e : Fin 625000) : rowv x1 (ix1 e) = x1 (ix2 (0 : Fin 2) e) :=
  (Read.val_main_v13_apply x1 (ix1 e)).trans ((Read.val_main_v12_apply x1 _).trans
    (congrArg x1 (funext fun a => Fin.ext (by
      match a with
      | ⟨0, _⟩ => rfl
      | ⟨1, _⟩ => exact Nat.mod_eq_of_lt e.isLt))))

theorem colv_apply (e : Fin 625000) : colv x1 (ix1 e) = x1 (ix2 (1 : Fin 2) e) :=
  (Read.val_main_v15_apply x1 (ix1 e)).trans ((Read.val_main_v14_apply x1 _).trans
    (congrArg x1 (funext fun a => Fin.ext (by
      match a with
      | ⟨0, _⟩ => rfl
      | ⟨1, _⟩ => exact Nat.mod_eq_of_lt e.isLt))))

/-! ## The result -/

/-- The reference's result as a function of its fourteen arguments, entry by entry. -/
def refOut : Mat 100000 32 :=
  refOutOf (rowv x1) (colv x1) (norm x1 x2) (h0 x0 x3) x4 x5 x6 x7 x8 x9 x10 x11 x12 x13

/-! ## The layers' parameters -/

theorem rws_eq0 : Read.val_main_v57 (F := Ideal) x6 = slab (T := 4) (K := 128) (M := 128) x6 0 :=
  sliceCast_eq_slab (0 : Fin 4) x6 slices_S4x128x128_S1x128x128_0_0_0 shapeCasts_S1x128x128_S128x128

theorem rws_eq1 : Read.val_main_v83 (F := Ideal) x6 = slab (T := 4) (K := 128) (M := 128) x6 1 :=
  sliceCast_eq_slab (1 : Fin 4) x6 slices_S4x128x128_S1x128x128_1_0_0 shapeCasts_S1x128x128_S128x128

theorem rws_eq2 : Read.val_main_v109 (F := Ideal) x6 = slab (T := 4) (K := 128) (M := 128) x6 2 :=
  sliceCast_eq_slab (2 : Fin 4) x6 slices_S4x128x128_S1x128x128_2_0_0 shapeCasts_S1x128x128_S128x128

theorem rws_eq3 : Read.val_main_v135 (F := Ideal) x6 = slab (T := 4) (K := 128) (M := 128) x6 3 :=
  sliceCast_eq_slab (3 : Fin 4) x6 slices_S4x128x128_S1x128x128_3_0_0 shapeCasts_S1x128x128_S128x128

theorem ws_eq0 : Read.val_main_v67 (F := Ideal) x5 = slab (T := 3) (K := 128) (M := 128) x5 0 :=
  sliceCast_eq_slab (0 : Fin 3) x5 slices_S3x128x128_S1x128x128_0_0_0 shapeCasts_S1x128x128_S128x128

theorem ws_eq1 : Read.val_main_v93 (F := Ideal) x5 = slab (T := 3) (K := 128) (M := 128) x5 1 :=
  sliceCast_eq_slab (1 : Fin 3) x5 slices_S3x128x128_S1x128x128_1_0_0 shapeCasts_S1x128x128_S128x128

theorem ws_eq2 : Read.val_main_v119 (F := Ideal) x5 = slab (T := 3) (K := 128) (M := 128) x5 2 :=
  sliceCast_eq_slab (2 : Fin 3) x5 slices_S3x128x128_S1x128x128_2_0_0 shapeCasts_S1x128x128_S128x128

theorem bs_eq0 : Read.val_main_v61 (F := Ideal) x7 = rowOf (T := 4) (M := 128) x7 0 :=
  sliceCast_eq_rowOf (0 : Fin 4) x7 slices_S4x128_S1x128_0_0 shapeCasts_S1x128_S128

theorem bs_eq1 : Read.val_main_v87 (F := Ideal) x7 = rowOf (T := 4) (M := 128) x7 1 :=
  sliceCast_eq_rowOf (1 : Fin 4) x7 slices_S4x128_S1x128_1_0 shapeCasts_S1x128_S128

theorem bs_eq2 : Read.val_main_v113 (F := Ideal) x7 = rowOf (T := 4) (M := 128) x7 2 :=
  sliceCast_eq_rowOf (2 : Fin 4) x7 slices_S4x128_S1x128_2_0 shapeCasts_S1x128_S128

theorem bs_eq3 : Read.val_main_v139 (F := Ideal) x7 = rowOf (T := 4) (M := 128) x7 3 :=
  sliceCast_eq_rowOf (3 : Fin 4) x7 slices_S4x128_S1x128_3_0 shapeCasts_S1x128_S128

/-! ## The composition -/

/-- The composition of the reference's operations is `refOut`: each of the four layers is `layerOps` of the layer before
    it, the head is `headOps`, and the layers' parameters are the matrices of the stacks and the rows of the bias table. -/
theorem stage_eq :
    Read.val_main_v159 (F := Ideal) x0 x1 x2 x3 x4 x5 x6 x7 x8 x9 x10 x11 x12 x13
      = refOut x0 x1 x2 x3 x4 x5 x6 x7 x8 x9 x10 x11 x12 x13 := by
  have e1 : Read.val_main_v65 (F := Ideal) x0 x1 x2 x3 x4 x6 x7
      = layerOps (rowv x1) (colv x1) (norm x1 x2) (h0 x0 x3) (h0 x0 x3) x4
          (Read.val_main_v57 x6) (Read.val_main_v61 x7) := rfl
  have e2 : Read.val_main_v91 (F := Ideal) x0 x1 x2 x3 x4 x5 x6 x7
      = layerOps (rowv x1) (colv x1) (norm x1 x2) (h0 x0 x3) (Read.val_main_v65 x0 x1 x2 x3 x4 x6 x7)
          (Read.val_main_v67 x5) (Read.val_main_v83 x6) (Read.val_main_v87 x7) := rfl
  have e3 : Read.val_main_v117 (F := Ideal) x0 x1 x2 x3 x4 x5 x6 x7
      = layerOps (rowv x1) (colv x1) (norm x1 x2) (h0 x0 x3) (Read.val_main_v91 x0 x1 x2 x3 x4 x5 x6 x7)
          (Read.val_main_v93 x5) (Read.val_main_v109 x6) (Read.val_main_v113 x7) := rfl
  have e4 : Read.val_main_v143 (F := Ideal) x0 x1 x2 x3 x4 x5 x6 x7
      = layerOps (rowv x1) (colv x1) (norm x1 x2) (h0 x0 x3) (Read.val_main_v117 x0 x1 x2 x3 x4 x5 x6 x7)
          (Read.val_main_v119 x5) (Read.val_main_v135 x6) (Read.val_main_v139 x7) := rfl
  have e5 : Read.val_main_v159 (F := Ideal) x0 x1 x2 x3 x4 x5 x6 x7 x8 x9 x10 x11 x12 x13
      = headOps (Read.val_main_v143 x0 x1 x2 x3 x4 x5 x6 x7) x8 x9 x10 x11 x12 x13 := rfl
  rw [e5, headOps_eq, e4, layerOps_eq, e3, layerOps_eq, e2, layerOps_eq, e1, layerOps_eq,
    rws_eq0, rws_eq1, rws_eq2, rws_eq3, ws_eq0, ws_eq1, ws_eq2, bs_eq0, bs_eq1, bs_eq2, bs_eq3]
  rfl

/-- Where the edge array's row 0 holds node numbers, so do the source words. -/
theorem rowOK_rowv (h : ∀ e : Fin 625000, 0 ≤ (x1 (ix2 (0 : Fin 2) e)).toInt ∧ (x1 (ix2 (0 : Fin 2) e)).toInt < 100000) :
    RowOK (rowv x1) := fun e => by
  rw [rowv_apply]; exact h e

end

/-- The term the run names for the result is `refOut` of the arguments' contents at the launch. -/
theorem ref_result (m : (ℓ : Loc nD τ sig) → Buf (Elt Ideal) ℓ) (c : Dev nD) :
    Cert.ReferenceIdeal.Value.res_main_v159 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (Read.val_main_v159_eq (F := Ideal) m c).trans (stage_eq _ _ _ _ _ _ _ _ _ _ _ _ _ _)

/-- The reference's run, its result named by `refOut`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (ref_result m c), (h c).2⟩)
    (Cert.ReferenceIdeal.Value.run (F := Ideal) m ρ)

end Cert.ReferenceIdeal.Hand

end
-- ==== Proof.Ref.PreRows.lean ====
import proofs.«415143_j42460046688958_3_alg».proof.Pre_finite_inputs
import Idealize.ShloMosaic.Lib.ReduceAll
import Idealize.ShloMosaic.Lib.Pipeline.Value
import Idealize.ShloMosaic.Lib.ValueIdx

/-!
# What the precondition says of the edges' source words

The precondition is the conjunction of one word per float input ("every entry is finite") and of a last word,
"every entry of row 0 of the edge array is at least 0 and below 100000", each an `and`-reduction over the array. Its
being all ones gives, for every edge, that the source word read signed lies in `[0, 100000)`.
-/

noncomputable section

namespace Cert.Pre_finite_inputs.Hand

open Cert.Pre_finite_inputs Idealize.ShloMosaic Idealize.ShloMosaic.ValueIdx

variable {F : FTy → Type} [FloatOps F] [hP : Cert.Pre_finite_inputs.Facts]

open Facts

/-- Row 0 of the edge array as the precondition reads it: a slice and a reshape. -/
def preRows (a1 : IVec S2x625000 32) : IVec S625000 32 :=
  shapeCast S625000 (extractStridedSlice S1x625000 ![0, 0] a1 slices_S2x625000_S1x625000_0_0) shapeCasts_S1x625000_S625000

theorem preRows_apply (a1 : IVec S2x625000 32) (e : Fin 625000) : preRows a1 (ix1 e) = a1 (ix2 (0 : Fin 2) e) :=
  (shapeCast_apply _ shapeCasts_S1x625000_S625000 (ix1 e) (ix2 (0 : Fin 1) e)
      (by rewrite [Shape.rowMajor_val_two, Shape.rowMajor_val_one]; show 0 * 625000 + e.val = e.val; omega)).trans
    (extractStridedSlice_apply ![0, 0] a1 slices_S2x625000_S1x625000_0_0 (ix2 (0 : Fin 1) e) (ix2 (0 : Fin 2) e)
      (fun a => match a with
        | ⟨0, _⟩ => by show 0 = 0 + 0; rfl
        | ⟨1, _⟩ => by show e.val = 0 + e.val; omega))

instance : Subsingleton S_.Idx := ⟨fun _ _ => funext fun d => d.elim0⟩

/-- Under the precondition every source word, read signed, is a node number. -/
theorem rows_of_pre {a0 : IVec S100000 32} {a1 : IVec S2x625000 32} {a2 : IVec S625000 32} {a3 : FVec F S1000x128 .f32}
    {a4 : FVec F S128x128 .f32} {a5 : FVec F S3x128x128 .f32} {a6 : FVec F S4x128x128 .f32} {a7 : FVec F S4x128 .f32}
    {a8 : FVec F S128x128 .f32} {a9 : FVec F S128 .f32} {a10 : FVec F S128x64 .f32} {a11 : FVec F S64 .f32}
    {a12 : FVec F S64x32 .f32} {a13 : FVec F S32 .f32}
    (h : fn (F := F) a0 a1 a2 a3 a4 a5 a6 a7 a8 a9 a10 a11 a12 a13 = fun _ => 1#1) (e : Fin 625000) :
    0 ≤ (a1 (ix2 (0 : Fin 2) e)).toInt ∧ (a1 (ix2 (0 : Fin 2) e)).toInt < 100000 := by
  have h0 : fn (F := F) a0 a1 a2 a3 a4 a5 a6 a7 a8 a9 a10 a11 a12 a13 ix0 = 1#1 := congrFun h ix0
  have h1 : Host.reduce IntOp.andi
      (andi (cmpi .sge (preRows a1) (broadcastInDim S625000 ![] bcast_S_S625000 (constantI S_ 32 0#32)))
        (cmpi .slt (preRows a1) (broadcastInDim S625000 ![] bcast_S_S625000 (constantI S_ 32 100000#32))))
      (constantI S_ 1 1#1) reducesTo_S625000_S_d0 h_S_ ix0 = 1#1 := (IntOp.andi_eq_one.1 h0).2
  have h2 := Host.reduce_andi_all _ _ _ _ ix0 h1 (ix1 e)
  obtain ⟨hge, hlt⟩ := IntOp.andi_eq_one.1 h2
  have hge' := IntOp.cmpi_sge.1 hge
  have hlt' := IntOp.cmpi_slt.1 hlt
  rw [broadcastInDim_apply _ bcast_S_S625000 _ (ix1 e) (fun a => a.elim0) (fun a => a.elim0), preRows_apply] at hge' hlt'
  have z : (0#32 : BitVec 32).toInt = 0 := by decide
  have c : (100000#32 : BitVec 32).toInt = 100000 := by decide
  have hge'' : (0#32 : BitVec 32).toInt ≤ (a1 (ix2 (0 : Fin 2) e)).toInt := hge'
  have hlt'' : (a1 (ix2 (0 : Fin 2) e)).toInt < (100000#32 : BitVec 32).toInt := hlt'
  rw [z] at hge''
  rw [c] at hlt''
  exact ⟨hge'', hlt''⟩

end Cert.Pre_finite_inputs.Hand

end
-- ==== Proof.Claims.lean ====
/-
  The five claims of the certificate, each from the pieces that prove it.

  THE NETWORK. Node features `h0 = emb[x]`; four message-passing layers, layer `t` taking `out` (`h0` at first) to
      `relu (∑ over the edges e with col e = n of norm e * (out · W_t) (row e)  +  h0 · R_t  +  b_t)`   at node `n`,
  then a head of three dense layers with `relu`, `relu`, `tanh`. The reference computes the layer's inner term by a
  gather at `row` and a segment sum over `col`.

  THE KERNEL'S PROGRAM computes the same term by one-hot contractions: it pads the edge list with edges of weight `0`
  whose column is no node, sorts the positions once, and per layer runs a dense product, a gather region and a scatter
  region. The gather accumulates, over blocks of 800 nodes, the contraction of `[row e = n]` with the block's rows of
  `out · W_t`, admitting a block only between two table words computed from the block's least and greatest source word;
  the scatter accumulates, over blocks of 5120 edges, the contraction of `[col e = n]` with the gathered, weighted rows,
  admitting a block only between two table words computed from its least and greatest target word.

  WHY THE TWO AGREE over the extended reals. A one-hot vector contracted against any vector is that vector's entry at
  the hot index: `0 * x = 0` also for `x = ⊤` or `⊥`, and adding `0` changes nothing. A block the tables refuse holds no
  hot index, so skipping it drops only zeros; the block that holds the source word of an edge is admitted because the
  source word is a node number (the precondition). A padding edge's column is no node, so it adds `0` to every node's sum;
  and a finite sum does not depend on the order of its terms, so the sorted edges sum to what the unsorted edges sum to.
  Products commute, so `(out · W) (row e) * norm e` is `norm e * (out · W) (row e)`. Distributivity is never used.
  The four arrays both programs start from — source words, target words, edge weights, embedded features — are the same
  host operations applied to the same arguments.
-/
import proofs.«415143_j42460046688958_3_alg».proof.Defs
import proofs.«415143_j42460046688958_3_alg».proof.Proof.Gen.Kernel
import proofs.«415143_j42460046688958_3_alg».proof.Proof.Gen.KernelIdeal
import proofs.«415143_j42460046688958_3_alg».proof.Proof.Gen.ReferenceIdeal
import proofs.«415143_j42460046688958_3_alg».proof.Proof.Gen.Pre_finite_inputs
import proofs.«415143_j42460046688958_3_alg».proof.Proof.K.Assemble
import proofs.«415143_j42460046688958_3_alg».proof.Proof.KI.Assemble
import proofs.«415143_j42460046688958_3_alg».proof.Proof.KI.SharedChains
import proofs.«415143_j42460046688958_3_alg».proof.Proof.KI.ValAll
import proofs.«415143_j42460046688958_3_alg».proof.Proof.Ref.RefSpec
import proofs.«415143_j42460046688958_3_alg».proof.Proof.Ref.PreRows

noncomputable section

namespace Cert.Proof.Claims

open Idealize.ShloMosaic Idealize.SL.Sem

/-! ## The three programs run and leave their arguments as they were -/

/-- The kernel's program as printed (bit-exact floats): its run, the result dropped. -/
theorem frame_Kernel : Cert.frame_Kernel (hKernel := Cert.Kernel.Gen.facts)
    (hPre_finite_inputs := Cert.Pre_finite_inputs.Gen.facts) :=
  fun m g _ => (θ_run (Cert.Kernel.defs (F := Bits)) _ _).mono
    (fun _ h c => by
      obtain ⟨h0, h1, h2, h3, h4, h5, h6, h7, h8, h9, h10, h11, h12, h13, -⟩ := h c
      exact ⟨h0, h1, h2, h3, h4, h5, h6, h7, h8, h9, h10, h11, h12, h13⟩)
    (Cert.Kernel.Hand.run_all m g)

/-- The same program over the extended reals. -/
theorem frame_KernelIdeal : Cert.frame_KernelIdeal (hKernelIdeal := Cert.KernelIdeal.Gen.facts)
    (hPre_finite_inputs := Cert.Pre_finite_inputs.Gen.facts) :=
  fun m g _ => (θ_run (Cert.KernelIdeal.defs (F := Ideal)) _ _).mono
    (fun _ h c => by
      obtain ⟨h0, h1, h2, h3, h4, h5, h6, h7, h8, h9, h10, h11, h12, h13, -⟩ := h c
      exact ⟨h0, h1, h2, h3, h4, h5, h6, h7, h8, h9, h10, h11, h12, h13⟩)
    (Cert.KernelIdeal.Hand.run_all (F := Ideal) m g)

/-- The reference over the extended reals. -/
theorem frame_ReferenceIdeal : Cert.frame_ReferenceIdeal (hReferenceIdeal := Cert.ReferenceIdeal.Gen.facts)
    (hPre_finite_inputs := Cert.Pre_finite_inputs.Gen.facts) :=
  Cert.ReferenceIdeal.Hand.frame_ri

/-- The idealized kernel program is the printed one read over the extended reals: no operation was rewritten. -/
theorem preserves : Cert.preserves_Kernel_KernelIdeal := trivial

/-! ## The two results are one function of the arguments -/

section Value

open Cert.KernelIdeal Cert.KernelIdeal.Gen Cert.KernelIdeal.Hand Idealize.ShloMosaic.TcCoe

/-- THE COMMON VALUE: the reference's function `refOut` of the fourteen arguments the kernel's program was launched
    with: four message-passing layers over the embedded features, then the head. -/
def resultOf (m : (ℓ : Loc nD τ sig) → Buf (Elt Ideal) ℓ) (c : Dev nD) :
    Buf (Elt Ideal) ((c.tc : Thread nD τ).loc main_v159) :=
  Cert.ReferenceIdeal.Hand.refOut
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) (m ((c.tc : Thread nD τ).loc main_arg13))

/-- What the kernel's program leaves in its result buffer is that value.

    The thirteen regions leave `refOutOf` of the four arrays its host stretches hold when the first region is entered
    (source words, target words, edge weights, embedded features) and of the ten parameter arrays: in every layer the
    gather's one-hot contraction over an admitted block picks out the one row `(out · W) (row e)` (a product with `0`
    vanishes, also against `⊤` and `⊥`; a refused block holds no hit), the scatter's contraction over the sorted, padded
    edges is the sum over the edges whose target is the node (a padding edge's target is no node, and a finite sum does
    not depend on the order of its terms), and the dense products and the head are the reference's own. This needs every
    source word to be a node number, which the precondition says. Those four arrays are the same host operations applied
    to the same arguments as the reference's `rowv`, `colv`, `norm`, `h0`; substituting them gives `refOut`. -/
theorem kernel_result (m : (ℓ : Loc nD τ sig) → Buf (Elt Ideal) ℓ)
    (hpre : Cert.Pre_KernelIdeal (hPre_finite_inputs := Cert.Pre_finite_inputs.Gen.facts) m) (c : Dev nD) :
    V55 m (outsAll m) c main_v159 = resultOf m c := by
  have hrow : Cert.ReferenceIdeal.Hand.RowOK (V33 m c main_v8 : S625000.Idx → BitVec 32) := by
    rw [chain_row m c]
    exact Cert.ReferenceIdeal.Hand.rowOK_rowv _ (fun e => Cert.Pre_finite_inputs.Hand.rows_of_pre (hpre c) e)
  refine (kernel_value m c hrow).trans ?_
  rw [chain_row m c, chain_col m c, chain_norm m c, chain_h0 m c]
  rfl

end Value

/-- Launched from memories that agree on the fourteen arguments, the kernel's program and the reference both run, leave
    their arguments as they were, and end with the same result, entry by entry: `resultOf` of the arguments. The kernel's
    run ends at that value by `kernel_result`; the reference's run ends at `refOut` of its own arguments, which are the
    kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => resultOf m c, ?_, ?_⟩
  · refine (θ_run (Cert.KernelIdeal.defs (F := Ideal)) _ _).mono (fun _ h c => ?_)
      (Cert.KernelIdeal.Hand.run_all (F := Ideal) m g)
    obtain ⟨a0, a1, a2, a3, a4, a5, a6, a7, a8, a9, a10, a11, a12, a13, hv⟩ := h c
    exact ⟨hv.trans (kernel_result m hpre c), a0, a1, a2, a3, a4, a5, a6, a7, a8, a9, a10, a11, a12, a13⟩
  · refine (θ_run (Cert.ReferenceIdeal.defs (F := Ideal)) _ _).mono (fun _ h c => ⟨(h c).1.trans ?_, (h c).2⟩)
      (Cert.ReferenceIdeal.Hand.run_ref m' g')
    obtain ⟨e0, e1, e2, e3, e4, e5, e6, e7, e8, e9, e10, e11, e12, e13⟩ := hagree c
    rw [e0, e1, e2, e3, e4, e5, e6, e7, e8, e9, e10, e11, e12, e13]
    rfl

end Cert.Proof.Claims

end
-- ==== Proof.lean ====
/-
  `Cert.Claim`: the kernel's program (as printed and over the extended reals) and the reference run to the end and
  leave their fourteen arguments as they were; the idealized kernel program is the printed one read over the extended
  reals; and, launched from memories that agree on the arguments with every source word of the edge array a node
  number, the idealized kernel program and the reference end with the same `[100000, 32]` array of extended reals:
  the network's output — four message-passing layers over the embedded node features, then the head — as one function
  of the arguments. Each conjunct is proved in `Proof/Claims.lean`; the side conditions the programs state are the
  generated modules' instances.
-/
import proofs.«415143_j42460046688958_3_alg».proof.Defs
import proofs.«415143_j42460046688958_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_Kernel, Claims.frame_KernelIdeal, Claims.frame_ReferenceIdeal, Claims.preserves, Claims.algebraic⟩

end Cert.Proof

end
